-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4087) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x512 : Shape := ⟨3, ![128, 1, 512]⟩
abbrev S50000x300 : Shape := ⟨2, ![50000, 300]⟩
abbrev S64x33x300 : Shape := ⟨3, ![64, 33, 300]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S64x33x300 : S_.BroadcastsInDim S64x33x300 (![] : Fin 0 → Fin S64x33x300.rank)
  reducesTo_S64x33x300_S_d0_1_2 : S64x33x300.ReducesTo [0, 1, 2] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S128x1x512 32) (main_arg1 : FVec F S50000x300 .f32) (main_arg2 : FVec F S64x33x300 .f32) (main_arg3 : FVec F S64 .f32) (main_arg4 : FVec F S1x64 .f32) (main_arg5 : FVec F S1 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S64x33x300 .f32 := Host.absf main_arg2
  let main_cst_0 : FVec F S_ .f32 := constant S_ .f32 0x7F800000#32
  let main_v5 : FVec F S64x33x300 .f32 := broadcastInDim S64x33x300 ![] bcast_S_S64x33x300 main_cst_0
  let main_v6 : IVec S64x33x300 1 := cmpf .olt main_v4 main_v5
  let main_c_1 : IVec S_ 1 := constantI S_ 1 1#1
  let main_v7 : IVec S_ 1 := (fun x v => Host.reduce IntOp.andi x v reducesTo_S64x33x300_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S128x1x512 : Shape := ⟨3, ![128, 1, 512]⟩
abbrev S50000x300 : Shape := ⟨2, ![50000, 300]⟩
abbrev S64x33x300 : Shape := ⟨3, ![64, 33, 300]⟩
abbrev S64 : Shape := ⟨1, ![64]⟩
abbrev S1x64 : Shape := ⟨2, ![1, 64]⟩
abbrev S1 : Shape := ⟨1, ![1]⟩
abbrev S128x512 : Shape := ⟨2, ![128, 512]⟩
abbrev S_ : Shape := ⟨0, ![]⟩
abbrev S128x512x1 : Shape := ⟨3, ![128, 512, 1]⟩
abbrev S128x512x300 : Shape := ⟨3, ![128, 512, 300]⟩
abbrev S128x544x300 : Shape := ⟨3, ![128, 544, 300]⟩
abbrev S33 : Shape := ⟨1, ![33]⟩
abbrev S1x33 : Shape := ⟨2, ![1, 33]⟩
abbrev S64x1 : Shape := ⟨2, ![64, 1]⟩
abbrev S64x33 : Shape := ⟨2, ![64, 33]⟩
abbrev S64x33x1 : Shape := ⟨3, ![64, 33, 1]⟩
abbrev S33x300x64 : Shape := ⟨3, ![33, 300, 64]⟩
abbrev S512 : Shape := ⟨1, ![512]⟩
abbrev S512x1 : Shape := ⟨2, ![512, 1]⟩
abbrev S512x64 : Shape := ⟨2, ![512, 64]⟩
abbrev S128x64 : Shape := ⟨2, ![128, 64]⟩
abbrev S8x544x300 : Shape := ⟨3, ![8, 544, 300]⟩
abbrev S8x64 : Shape := ⟨2, ![8, 64]⟩
abbrev S8x512x64 : Shape := ⟨3, ![8, 512, 64]⟩
abbrev S8x512x300 : Shape := ⟨3, ![8, 512, 300]⟩
abbrev S1x300x64 : Shape := ⟨3, ![1, 300, 64]⟩
abbrev S300x64 : Shape := ⟨2, ![300, 64]⟩
abbrev S4096x300 : Shape := ⟨2, ![4096, 300]⟩
abbrev S4096x64 : Shape := ⟨2, ![4096, 64]⟩
abbrev S1x1x64 : Shape := ⟨3, ![1, 1, 64]⟩
abbrev S1x512x64 : Shape := ⟨3, ![1, 512, 64]⟩
abbrev S128x1 : Shape := ⟨2, ![128, 1]⟩
abbrev S1x1 : Shape := ⟨2, ![1, 1]⟩

abbrev nBuf : Space → Nat
  | .hbm => 81
  | .vmem => 8
  | .smem => 0
  | _ => 0

abbrev bufTy : (tb : Table) → Fin (tcTables nBuf tb) → BufTy
  | .hbm, ⟨0, _⟩ => ⟨S128x1x512, .i32⟩
  | .hbm, ⟨1, _⟩ => ⟨S50000x300, .f32⟩
  | .hbm, ⟨2, _⟩ => ⟨S64x33x300, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S128x512, .i32⟩
  | .hbm, ⟨7, _⟩ => ⟨S_, .i32⟩
  | .hbm, ⟨8, _⟩ => ⟨S128x512, .i32⟩
  | .hbm, ⟨9, _⟩ => ⟨S128x512, .i1⟩
  | .hbm, ⟨10, _⟩ => ⟨S_, .i32⟩
  | .hbm, ⟨11, _⟩ => ⟨S128x512, .i32⟩
  | .hbm, ⟨12, _⟩ => ⟨S128x512, .i32⟩
  | .hbm, ⟨13, _⟩ => ⟨S128x512, .i32⟩
  | .hbm, ⟨14, _⟩ => ⟨S128x512x1, .i32⟩
  | .hbm, ⟨15, _⟩ => ⟨S128x512x300, .f32⟩
  | .hbm, ⟨16, _⟩ => ⟨S_, .i32⟩
  | .hbm, ⟨17, _⟩ => ⟨S_, .f32⟩
  | .hbm, ⟨18, _⟩ => ⟨S128x544x300, .f32⟩
  | .hbm, ⟨19, _⟩ => ⟨S128x544x300, .bf16⟩
  | .hbm, ⟨20, _⟩ => ⟨S64, .i32⟩
  | .hbm, ⟨21, _⟩ => ⟨S_, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S64, .i1⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S33, .i32⟩
  | .hbm, ⟨43, _⟩ => ⟨S1x33, .i32⟩
  | .hbm, ⟨44, _⟩ => ⟨S64x1, .i32⟩
  | .hbm, ⟨45, _⟩ => ⟨S64x33, .i32⟩
  | .hbm, ⟨46, _⟩ => ⟨S64x33, .i32⟩
  | .hbm, ⟨47, _⟩ => ⟨S64x33, .i1⟩
  | .hbm, ⟨48, _⟩ => ⟨S64x33, .f32⟩
  | .hbm, ⟨49, _⟩ => ⟨S64x33x1, .f32⟩
  | .hbm, ⟨50, _⟩ => ⟨S64x33x300, .f32⟩
  | .hbm, ⟨51, _⟩ => ⟨S64x33x300, .f32⟩
  | .hbm, ⟨52, _⟩ => ⟨S33x300x64, .f32⟩
  | .hbm, ⟨53, _⟩ => ⟨S33x300x64, .bf16⟩
  | .hbm, ⟨54, _⟩ => ⟨S512, .i32⟩
  | .hbm, ⟨55, _⟩ => ⟨S512x1, .i32⟩
  | .hbm, ⟨56, _⟩ => ⟨S1x64, .i32⟩
  | .hbm, ⟨57, _⟩ => ⟨S_, .i32⟩
  | .hbm, ⟨58, _⟩ => ⟨S1x64, .i32⟩
  | .hbm, ⟨59, _⟩ => ⟨S1x64, .i32⟩
  | .hbm, ⟨60, _⟩ => ⟨S_, .i32⟩
  | .hbm, ⟨61, _⟩ => ⟨S1x64, .i32⟩
  | .hbm, ⟨62, _⟩ => ⟨S1x64, .i32⟩
  | .hbm, ⟨63, _⟩ => ⟨S512x64, .i32⟩
  | .hbm, ⟨64, _⟩ => ⟨S512x64, .i32⟩
  | .hbm, ⟨65, _⟩ => ⟨S512x64, .i1⟩
  | .hbm, ⟨66, _⟩ => ⟨S512x64, .f32⟩
  | .hbm, ⟨67, _⟩ => ⟨S128x64, .f32⟩
  | .hbm, ⟨68, _⟩ => ⟨S64x1, .f32⟩
  | .hbm, ⟨69, _⟩ => ⟨S128x1, .f32⟩
  | .hbm, ⟨70, _⟩ => ⟨S1x1, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S_, .f32⟩
  | .hbm, ⟨76, _⟩ => ⟨S128x1, .f32⟩
  | .hbm, ⟨77, _⟩ => ⟨S128x1, .f32⟩
  | .hbm, ⟨78, _⟩ => ⟨S_, .f32⟩
  | .hbm, ⟨79, _⟩ => ⟨S128x1, .f32⟩
  | .hbm, ⟨80, _⟩ => ⟨S128x1, .f32⟩
  | .local _ .vmem, ⟨0, _⟩ => ⟨S8x544x300, .bf16⟩
  | .local _ .vmem, ⟨1, _⟩ => ⟨S8x544x300, .bf16⟩
  | .local _ .vmem, ⟨2, _⟩ => ⟨S33x300x64, .bf16⟩
  | .local _ .vmem, ⟨3, _⟩ => ⟨S64, .f32⟩
  | .local _ .vmem, ⟨4, _⟩ => ⟨S512x64, .f32⟩
  | .local _ .vmem, ⟨5, _⟩ => ⟨S8x64, .f32⟩
  | .local _ .vmem, ⟨6, _⟩ => ⟨S8x64, .f32⟩
  | .local _ .vmem, ⟨7, _⟩ => ⟨S8x512x64, .f32⟩
  | _, _ => ⟨S128x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x300x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x1x512_S128x512 : S128x1x512.ShapeCasts S128x512
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  pads_S128x512x300_S128x544x300_000_0320_000 : S128x512x300.Pads (![0, 0, 0] : Fin 3 → Nat) ![0, 32, 0] ![0, 0, 0] S128x544x300
  h_S_ : 0 < S_.numel
  bitsLt_bf16_f32 : FTy.bits .bf16 < FTy.bits .f32
  bcast_S_S64 : S_.BroadcastsInDim S64 (![] : Fin 0 → Fin S64.rank)
  bcast_S33_S1x33_1 : S33.BroadcastsInDim S1x33 (![1] : Fin 1 → Fin S1x33.rank)
  bcast_S64_S64x1_0 : S64.BroadcastsInDim S64x1 (![0] : Fin 1 → Fin S64x1.rank)
  bcast_S1x33_S64x33_0_1 : S1x33.BroadcastsInDim S64x33 (![0, 1] : Fin 2 → Fin S64x33.rank)
  bcast_S64x1_S64x33_0_1 : S64x1.BroadcastsInDim S64x33 (![0, 1] : Fin 2 → Fin S64x33.rank)
  bcast_S64x33_S64x33x1_0_1 : S64x33.BroadcastsInDim S64x33x1 (![0, 1] : Fin 2 → Fin S64x33x1.rank)
  bcast_S64x33x1_S64x33x300_0_1_2 : S64x33x1.BroadcastsInDim S64x33x300 (![0, 1, 2] : Fin 3 → Fin S64x33x300.rank)
  transposes_S64x33x300_S33x300x64_1_2_0 : S64x33x300.Transposes [1, 2, 0] S33x300x64
  bcast_S512_S512x1_0 : S512.BroadcastsInDim S512x1 (![0] : Fin 1 → Fin S512x1.rank)
  bcast_S64_S1x64_1 : S64.BroadcastsInDim S1x64 (![1] : Fin 1 → Fin S1x64.rank)
  bcast_S_S1x64 : S_.BroadcastsInDim S1x64 (![] : Fin 0 → Fin S1x64.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  inb_S8x544x300_S8x512x300_0_0_0 : ∀ a, (![0, 0, 0] : Fin 3 → Nat) a + S8x512x300.size a ≤ S8x544x300.size a
  h_S8x512x300 : 0 < S8x512x300.numel
  shapeCasts_S8x512x300_S8x512x300 : S8x512x300.ShapeCasts S8x512x300
  inb_S33x300x64_S1x300x64_0_0_0 : ∀ a, (![0, 0, 0] : Fin 3 → Nat) a + S1x300x64.size a ≤ S33x300x64.size a
  h_S1x300x64 : 0 < S1x300x64.numel
  shapeCasts_S1x300x64_S300x64 : S1x300x64.ShapeCasts S300x64
  shapeCasts_S8x512x300_S4096x300 : S8x512x300.ShapeCasts S4096x300
  shapeCasts_S4096x64_S8x512x64 : S4096x64.ShapeCasts S8x512x64
  inb_S8x544x300_S8x512x300_0_1_0 : ∀ a, (![0, 1, 0] : Fin 3 → Nat) a + S8x512x300.size a ≤ S8x544x300.size a
  inb_S33x300x64_S1x300x64_1_0_0 : ∀ a, (![1, 0, 0] : Fin 3 → Nat) a + S1x300x64.size a ≤ S33x300x64.size a
  inb_S8x544x300_S8x512x300_0_2_0 : ∀ a, (![0, 2, 0] : Fin 3 → Nat) a + S8x512x300.size a ≤ S8x544x300.size a
  inb_S33x300x64_S1x300x64_2_0_0 : ∀ a, (![2, 0, 0] : Fin 3 → Nat) a + S1x300x64.size a ≤ S33x300x64.size a
  inb_S8x544x300_S8x512x300_0_3_0 : ∀ a, (![0, 3, 0] : Fin 3 → Nat) a + S8x512x300.size a ≤ S8x544x300.size a
  inb_S33x300x64_S1x300x64_3_0_0 : ∀ a, (![3, 0, 0] : Fin 3 → Nat) a + S1x300x64.size a ≤ S33x300x64.size a
  inb_S8x544x300_S8x512x300_0_4_0 : ∀ a, (![0, 4, 0] : Fin 3 → Nat) a + S8x512x300.size a ≤ S8x544x300.size a
  inb_S33x300x64_S1x300x64_4_0_0 : ∀ a, (![4, 0, 0] : Fin 3 → Nat) a + S1x300x64.size a ≤ S33x300x64.size a
  inb_S8x544x300_S8x512x300_0_5_0 : ∀ a, (![0, 5, 0] : Fin 3 → Nat) a + S8x512x300.size a ≤ S8x544x300.size a
  inb_S33x300x64_S1x300x64_5_0_0 : ∀ a, (![5, 0, 0] : Fin 3 → Nat) a + S1x300x64.size a ≤ S33x300x64.size a
  inb_S8x544x300_S8x512x300_0_6_0 : ∀ a, (![0, 6, 0] : Fin 3 → Nat) a + S8x512x300.size a ≤ S8x544x300.size a
  inb_S33x300x64_S1x300x64_6_0_0 : ∀ a, (![6, 0, 0] : Fin 3 → Nat) a + S1x300x64.size a ≤ S33x300x64.size a
  inb_S8x544x300_S8x512x300_0_7_0 : ∀ a, (![0, 7, 0] : Fin 3 → Nat) a + S8x512x300.size a ≤ S8x544x300.size a
  inb_S33x300x64_S1x300x64_7_0_0 : ∀ a, (![7, 0, 0] : Fin 3 → Nat) a + S1x300x64.size a ≤ S33x300x64.size a
  inb_S8x544x300_S8x512x300_0_8_0 : ∀ a, (![0, 8, 0] : Fin 3 → Nat) a + S8x512x300.size a ≤ S8x544x300.size a
  inb_S33x300x64_S1x300x64_8_0_0 : ∀ a, (![8, 0, 0] : Fin 3 → Nat) a + S1x300x64.size a ≤ S33x300x64.size a
  inb_S8x544x300_S8x512x300_0_9_0 : ∀ a, (![0, 9, 0] : Fin 3 → Nat) a + S8x512x300.size a ≤ S8x544x300.size a
  inb_S33x300x64_S1x300x64_9_0_0 : ∀ a, (![9, 0, 0] : Fin 3 → Nat) a + S1x300x64.size a ≤ S33x300x64.size a
  inb_S8x544x300_S8x512x300_0_10_0 : ∀ a, (![0, 10, 0] : Fin 3 → Nat) a + S8x512x300.size a ≤ S8x544x300.size a
  inb_S33x300x64_S1x300x64_10_0_0 : ∀ a, (![10, 0, 0] : Fin 3 → Nat) a + S1x300x64.size a ≤ S33x300x64.size a
  inb_S8x544x300_S8x512x300_0_11_0 : ∀ a, (![0, 11, 0] : Fin 3 → Nat) a + S8x512x300.size a ≤ S8x544x300.size a
  inb_S33x300x64_S1x300x64_11_0_0 : ∀ a, (![11, 0, 0] : Fin 3 → Nat) a + S1x300x64.size a ≤ S33x300x64.size a
  inb_S8x544x300_S8x512x300_0_12_0 : ∀ a, (![0, 12, 0] : Fin 3 → Nat) a + S8x512x300.size a ≤ S8x544x300.size a
  inb_S33x300x64_S1x300x64_12_0_0 : ∀ a, (![12, 0, 0] : Fin 3 → Nat) a + S1x300x64.size a ≤ S33x300x64.size a
  inb_S8x544x300_S8x512x300_0_13_0 : ∀ a, (![0, 13, 0] : Fin 3 → Nat) a + S8x512x300.size a ≤ S8x544x300.size a
  inb_S33x300x64_S1x300x64_13_0_0 : ∀ a, (![13, 0, 0] : Fin 3 → Nat) a + S1x300x64.size a ≤ S33x300x64.size a
  inb_S8x544x300_S8x512x300_0_14_0 : ∀ a, (![0, 14, 0] : Fin 3 → Nat) a + S8x512x300.size a ≤ S8x544x300.size a
  inb_S33x300x64_S1x300x64_14_0_0 : ∀ a, (![14, 0, 0] : Fin 3 → Nat) a + S1x300x64.size a ≤ S33x300x64.size a
  inb_S8x544x300_S8x512x300_0_15_0 : ∀ a, (![0, 15, 0] : Fin 3 → Nat) a + S8x512x300.size a ≤ S8x544x300.size a
  inb_S33x300x64_S1x300x64_15_0_0 : ∀ a, (![15, 0, 0] : Fin 3 → Nat) a + S1x300x64.size a ≤ S33x300x64.size a
  inb_S8x544x300_S8x512x300_0_16_0 : ∀ a, (![0, 16, 0] : Fin 3 → Nat) a + S8x512x300.size a ≤ S8x544x300.size a
  inb_S33x300x64_S1x300x64_16_0_0 : ∀ a, (![16, 0, 0] : Fin 3 → Nat) a + S1x300x64.size a ≤ S33x300x64.size a
  inb_S8x544x300_S8x512x300_0_17_0 : ∀ a, (![0, 17, 0] : Fin 3 → Nat) a + S8x512x300.size a ≤ S8x544x300.size a
  inb_S33x300x64_S1x300x64_17_0_0 : ∀ a, (![17, 0, 0] : Fin 3 → Nat) a + S1x300x64.size a ≤ S33x300x64.size a
  inb_S8x544x300_S8x512x300_0_18_0 : ∀ a, (![0, 18, 0] : Fin 3 → Nat) a + S8x512x300.size a ≤ S8x544x300.size a
  inb_S33x300x64_S1x300x64_18_0_0 : ∀ a, (![18, 0, 0] : Fin 3 → Nat) a + S1x300x64.size a ≤ S33x300x64.size a
  inb_S8x544x300_S8x512x300_0_19_0 : ∀ a, (![0, 19, 0] : Fin 3 → Nat) a + S8x512x300.size a ≤ S8x544x300.size a
  inb_S33x300x64_S1x300x64_19_0_0 : ∀ a, (![19, 0, 0] : Fin 3 → Nat) a + S1x300x64.size a ≤ S33x300x64.size a
  inb_S8x544x300_S8x512x300_0_20_0 : ∀ a, (![0, 20, 0] : Fin 3 → Nat) a + S8x512x300.size a ≤ S8x544x300.size a
  inb_S33x300x64_S1x300x64_20_0_0 : ∀ a, (![20, 0, 0] : Fin 3 → Nat) a + S1x300x64.size a ≤ S33x300x64.size a
  inb_S8x544x300_S8x512x300_0_21_0 : ∀ a, (![0, 21, 0] : Fin 3 → Nat) a + S8x512x300.size a ≤ S8x544x300.size a
  inb_S33x300x64_S1x300x64_21_0_0 : ∀ a, (![21, 0, 0] : Fin 3 → Nat) a + S1x300x64.size a ≤ S33x300x64.size a
  inb_S8x544x300_S8x512x300_0_22_0 : ∀ a, (![0, 22, 0] : Fin 3 → Nat) a + S8x512x300.size a ≤ S8x544x300.size a
  inb_S33x300x64_S1x300x64_22_0_0 : ∀ a, (![22, 0, 0] : Fin 3 → Nat) a + S1x300x64.size a ≤ S33x300x64.size a
  inb_S8x544x300_S8x512x300_0_23_0 : ∀ a, (![0, 23, 0] : Fin 3 → Nat) a + S8x512x300.size a ≤ S8x544x300.size a
  inb_S33x300x64_S1x300x64_23_0_0 : ∀ a, (![23, 0, 0] : Fin 3 → Nat) a + S1x300x64.size a ≤ S33x300x64.size a
  inb_S8x544x300_S8x512x300_0_24_0 : ∀ a, (![0, 24, 0] : Fin 3 → Nat) a + S8x512x300.size a ≤ S8x544x300.size a
  inb_S33x300x64_S1x300x64_24_0_0 : ∀ a, (![24, 0, 0] : Fin 3 → Nat) a + S1x300x64.size a ≤ S33x300x64.size a
  inb_S8x544x300_S8x512x300_0_25_0 : ∀ a, (![0, 25, 0] : Fin 3 → Nat) a + S8x512x300.size a ≤ S8x544x300.size a
  inb_S33x300x64_S1x300x64_25_0_0 : ∀ a, (![25, 0, 0] : Fin 3 → Nat) a + S1x300x64.size a ≤ S33x300x64.size a
  inb_S8x544x300_S8x512x300_0_26_0 : ∀ a, (![0, 26, 0] : Fin 3 → Nat) a + S8x512x300.size a ≤ S8x544x300.size a
  inb_S33x300x64_S1x300x64_26_0_0 : ∀ a, (![26, 0, 0] : Fin 3 → Nat) a + S1x300x64.size a ≤ S33x300x64.size a
  inb_S8x544x300_S8x512x300_0_27_0 : ∀ a, (![0, 27, 0] : Fin 3 → Nat) a + S8x512x300.size a ≤ S8x544x300.size a
  inb_S33x300x64_S1x300x64_27_0_0 : ∀ a, (![27, 0, 0] : Fin 3 → Nat) a + S1x300x64.size a ≤ S33x300x64.size a
  inb_S8x544x300_S8x512x300_0_28_0 : ∀ a, (![0, 28, 0] : Fin 3 → Nat) a + S8x512x300.size a ≤ S8x544x300.size a
  inb_S33x300x64_S1x300x64_28_0_0 : ∀ a, (![28, 0, 0] : Fin 3 → Nat) a + S1x300x64.size a ≤ S33x300x64.size a
  inb_S8x544x300_S8x512x300_0_29_0 : ∀ a, (![0, 29, 0] : Fin 3 → Nat) a + S8x512x300.size a ≤ S8x544x300.size a
  inb_S33x300x64_S1x300x64_29_0_0 : ∀ a, (![29, 0, 0] : Fin 3 → Nat) a + S1x300x64.size a ≤ S33x300x64.size a
  inb_S8x544x300_S8x512x300_0_30_0 : ∀ a, (![0, 30, 0] : Fin 3 → Nat) a + S8x512x300.size a ≤ S8x544x300.size a
  inb_S33x300x64_S1x300x64_30_0_0 : ∀ a, (![30, 0, 0] : Fin 3 → Nat) a + S1x300x64.size a ≤ S33x300x64.size a
  inb_S8x544x300_S8x512x300_0_31_0 : ∀ a, (![0, 31, 0] : Fin 3 → Nat) a + S8x512x300.size a ≤ S8x544x300.size a
  inb_S33x300x64_S1x300x64_31_0_0 : ∀ a, (![31, 0, 0] : Fin 3 → Nat) a + S1x300x64.size a ≤ S33x300x64.size a
  inb_S8x544x300_S8x512x300_0_32_0 : ∀ a, (![0, 32, 0] : Fin 3 → Nat) a + S8x512x300.size a ≤ S8x544x300.size a
  inb_S33x300x64_S1x300x64_32_0_0 : ∀ a, (![32, 0, 0] : Fin 3 → Nat) a + S1x300x64.size a ≤ S33x300x64.size a
  inb_S64_S64_0 : ∀ a, (![0] : Fin 1 → Nat) a + S64.size a ≤ S64.size a
  h_S64 : 0 < S64.numel
  shapeCasts_S64_S1x1x64 : S64.ShapeCasts S1x1x64
  broadcasts_S1x1x64_S8x512x64 : S1x1x64.Broadcasts S8x512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x64_S1x512x64 : S512x64.ShapeCasts S1x512x64
  broadcasts_S1x512x64_S8x512x64 : S1x512x64.Broadcasts S8x512x64
  reduces_S8x512x64_S8x64 : S8x512x64.Reduces [1] S8x64
  inb_S8x64_S8x64_0_0 : ∀ a, (![0, 0] : Fin 2 → Nat) a + S8x64.size a ≤ S8x64.size a
  h_S8x64 : 0 < S8x64.numel
  transposes_S1x64_S64x1_1_0 : S1x64.Transposes [1, 0] S64x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  gather_S50000x300_S128x512x1_S128x512x300_2_0_n_n_0_2_1300_wf : GatherDims.WF S50000x300 S128x512x1 S128x512x300 [2] [0] [] [0] [] 2 ![1, 300]
  dot_S4096x300_S300x64_S4096x64_1_0_0_1_n_n_wf : DotDims.WF S4096x300 S300x64 S4096x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x544x300.size a ≤ S128x544x300.size a
  hwx0_0 : ∀ i : grid0.Coords, EltTy.bits .bf16 = 32 ∨ (Rect.block (s := S128x544x300) S8x544x300.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x300x64.size a ≤ S33x300x64.size a
  hwx0_1 : ∀ i : grid0.Coords, EltTy.bits .bf16 = 32 ∨ (Rect.block (s := S33x300x64) S33x300x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S128x64.size a
  hwx0_4 : ∀ i : grid0.Coords, EltTy.bits .f32 = 32 ∨ (Rect.block (s := S128x64) S8x64.size (cc0_transform_4 i) (hinb0_4 i)).WholeWords (EltTy.packing .f32)

variable [Facts₀]

def gather_S50000x300_S128x512x1_S128x512x300_2_0_n_n_0_2_1300 : GatherDims S50000x300 S128x512x1 S128x512x300 where
  offsetDims := [2]
  collapsedSliceDims := [0]
  operandBatchingDims := []
  startIndicesBatchingDims := []
  startIndexMap := [0]
  indexVectorDim := 2
  sliceSizes := ![1, 300]
  wf := gather_S50000x300_S128x512x1_S128x512x300_2_0_n_n_0_2_1300_wf
def dot_S4096x300_S300x64_S4096x64_1_0_0_1_n_n : DotDims S4096x300 S300x64 S4096x64 where
  lhsContracting := [1]
  rhsContracting := [0]
  lhsNonContracting := [0]
  rhsNonContracting := [1]
  lhsBatch := []
  rhsBatch := []
  wf := dot_S4096x300_S300x64_S4096x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v9) S8x544x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S33x300x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1x512 : Shape := ⟨3, ![128, 1, 512]⟩
abbrev S50000x300 : Shape := ⟨2, ![50000, 300]⟩
abbrev S64x33x300 : Shape := ⟨3, ![64, 33, 300]⟩
abbrev S64 : Shape := ⟨1, ![64]⟩
abbrev S1x64 : Shape := ⟨2, ![1, 64]⟩
abbrev S1 : Shape := ⟨1, ![1]⟩
abbrev S128x512 : Shape := ⟨2, ![128, 512]⟩
abbrev S_ : Shape := ⟨0, ![]⟩
abbrev S128x512x1 : Shape := ⟨3, ![128, 512, 1]⟩
abbrev S128x512x300 : Shape := ⟨3, ![128, 512, 300]⟩
abbrev S1x2x300 : Shape := ⟨3, ![1, 2, 300]⟩
abbrev S2x300 : Shape := ⟨2, ![2, 300]⟩
abbrev S128x512x2 : Shape := ⟨3, ![128, 512, 2]⟩
abbrev S128x511x1 : Shape := ⟨3, ![128, 511, 1]⟩
abbrev S128x511 : Shape := ⟨2, ![128, 511]⟩
abbrev S128 : Shape := ⟨1, ![128]⟩
abbrev S1x3x300 : Shape := ⟨3, ![1, 3, 300]⟩
abbrev S3x300 : Shape := ⟨2, ![3, 300]⟩
abbrev S128x512x3 : Shape := ⟨3, ![128, 512, 3]⟩
abbrev S128x510x1 : Shape := ⟨3, ![128, 510, 1]⟩
abbrev S128x510 : Shape := ⟨2, ![128, 510]⟩
abbrev S1x4x300 : Shape := ⟨3, ![1, 4, 300]⟩
abbrev S4x300 : Shape := ⟨2, ![4, 300]⟩
abbrev S128x512x4 : Shape := ⟨3, ![128, 512, 4]⟩
abbrev S128x509x1 : Shape := ⟨3, ![128, 509, 1]⟩
abbrev S128x509 : Shape := ⟨2, ![128, 509]⟩
abbrev S1x5x300 : Shape := ⟨3, ![1, 5, 300]⟩
abbrev S5x300 : Shape := ⟨2, ![5, 300]⟩
abbrev S128x512x5 : Shape := ⟨3, ![128, 512, 5]⟩
abbrev S128x508x1 : Shape := ⟨3, ![128, 508, 1]⟩
abbrev S128x508 : Shape := ⟨2, ![128, 508]⟩
abbrev S1x6x300 : Shape := ⟨3, ![1, 6, 300]⟩
abbrev S6x300 : Shape := ⟨2, ![6, 300]⟩
abbrev S128x512x6 : Shape := ⟨3, ![128, 512, 6]⟩
abbrev S128x507x1 : Shape := ⟨3, ![128, 507, 1]⟩
abbrev S128x507 : Shape := ⟨2, ![128, 507]⟩
abbrev S1x7x300 : Shape := ⟨3, ![1, 7, 300]⟩
abbrev S7x300 : Shape := ⟨2, ![7, 300]⟩
abbrev S128x512x7 : Shape := ⟨3, ![128, 512, 7]⟩
abbrev S128x506x1 : Shape := ⟨3, ![128, 506, 1]⟩
abbrev S128x506 : Shape := ⟨2, ![128, 506]⟩
abbrev S1x8x300 : Shape := ⟨3, ![1, 8, 300]⟩
abbrev S8x300 : Shape := ⟨2, ![8, 300]⟩
abbrev S128x512x8 : Shape := ⟨3, ![128, 512, 8]⟩
abbrev S128x505x1 : Shape := ⟨3, ![128, 505, 1]⟩
abbrev S128x505 : Shape := ⟨2, ![128, 505]⟩
abbrev S1x9x300 : Shape := ⟨3, ![1, 9, 300]⟩
abbrev S9x300 : Shape := ⟨2, ![9, 300]⟩
abbrev S128x512x9 : Shape := ⟨3, ![128, 512, 9]⟩
abbrev S128x504x1 : Shape := ⟨3, ![128, 504, 1]⟩
abbrev S128x504 : Shape := ⟨2, ![128, 504]⟩
abbrev S1x10x300 : Shape := ⟨3, ![1, 10, 300]⟩
abbrev S10x300 : Shape := ⟨2, ![10, 300]⟩
abbrev S128x512x10 : Shape := ⟨3, ![128, 512, 10]⟩
abbrev S128x503x1 : Shape := ⟨3, ![128, 503, 1]⟩
abbrev S128x503 : Shape := ⟨2, ![128, 503]⟩
abbrev S1x11x300 : Shape := ⟨3, ![1, 11, 300]⟩
abbrev S11x300 : Shape := ⟨2, ![11, 300]⟩
abbrev S128x512x11 : Shape := ⟨3, ![128, 512, 11]⟩
abbrev S128x502x1 : Shape := ⟨3, ![128, 502, 1]⟩
abbrev S128x502 : Shape := ⟨2, ![128, 502]⟩
abbrev S1x12x300 : Shape := ⟨3, ![1, 12, 300]⟩
abbrev S12x300 : Shape := ⟨2, ![12, 300]⟩
abbrev S128x512x12 : Shape := ⟨3, ![128, 512, 12]⟩
abbrev S128x501x1 : Shape := ⟨3, ![128, 501, 1]⟩
abbrev S128x501 : Shape := ⟨2, ![128, 501]⟩
abbrev S1x13x300 : Shape := ⟨3, ![1, 13, 300]⟩
abbrev S13x300 : Shape := ⟨2, ![13, 300]⟩
abbrev S128x512x13 : Shape := ⟨3, ![128, 512, 13]⟩
abbrev S128x500x1 : Shape := ⟨3, ![128, 500, 1]⟩
abbrev S128x500 : Shape := ⟨2, ![128, 500]⟩
abbrev S1x14x300 : Shape := ⟨3, ![1, 14, 300]⟩
abbrev S14x300 : Shape := ⟨2, ![14, 300]⟩
abbrev S128x512x14 : Shape := ⟨3, ![128, 512, 14]⟩
abbrev S128x499x1 : Shape := ⟨3, ![128, 499, 1]⟩
abbrev S128x499 : Shape := ⟨2, ![128, 499]⟩
abbrev S1x15x300 : Shape := ⟨3, ![1, 15, 300]⟩
abbrev S15x300 : Shape := ⟨2, ![15, 300]⟩
abbrev S128x512x15 : Shape := ⟨3, ![128, 512, 15]⟩
abbrev S128x498x1 : Shape := ⟨3, ![128, 498, 1]⟩
abbrev S128x498 : Shape := ⟨2, ![128, 498]⟩
abbrev S1x16x300 : Shape := ⟨3, ![1, 16, 300]⟩
abbrev S16x300 : Shape := ⟨2, ![16, 300]⟩
abbrev S128x512x16 : Shape := ⟨3, ![128, 512, 16]⟩
abbrev S128x497x1 : Shape := ⟨3, ![128, 497, 1]⟩
abbrev S128x497 : Shape := ⟨2, ![128, 497]⟩
abbrev S1x17x300 : Shape := ⟨3, ![1, 17, 300]⟩
abbrev S17x300 : Shape := ⟨2, ![17, 300]⟩
abbrev S128x512x17 : Shape := ⟨3, ![128, 512, 17]⟩
abbrev S128x496x1 : Shape := ⟨3, ![128, 496, 1]⟩
abbrev S128x496 : Shape := ⟨2, ![128, 496]⟩
abbrev S1x18x300 : Shape := ⟨3, ![1, 18, 300]⟩
abbrev S18x300 : Shape := ⟨2, ![18, 300]⟩
abbrev S128x512x18 : Shape := ⟨3, ![128, 512, 18]⟩
abbrev S128x495x1 : Shape := ⟨3, ![128, 495, 1]⟩
abbrev S128x495 : Shape := ⟨2, ![128, 495]⟩
abbrev S1x19x300 : Shape := ⟨3, ![1, 19, 300]⟩
abbrev S19x300 : Shape := ⟨2, ![19, 300]⟩
abbrev S128x512x19 : Shape := ⟨3, ![128, 512, 19]⟩
abbrev S128x494x1 : Shape := ⟨3, ![128, 494, 1]⟩
abbrev S128x494 : Shape := ⟨2, ![128, 494]⟩
abbrev S1x20x300 : Shape := ⟨3, ![1, 20, 300]⟩
abbrev S20x300 : Shape := ⟨2, ![20, 300]⟩
abbrev S128x512x20 : Shape := ⟨3, ![128, 512, 20]⟩
abbrev S128x493x1 : Shape := ⟨3, ![128, 493, 1]⟩
abbrev S128x493 : Shape := ⟨2, ![128, 493]⟩
abbrev S1x21x300 : Shape := ⟨3, ![1, 21, 300]⟩
abbrev S21x300 : Shape := ⟨2, ![21, 300]⟩
abbrev S128x512x21 : Shape := ⟨3, ![128, 512, 21]⟩
abbrev S128x492x1 : Shape := ⟨3, ![128, 492, 1]⟩
abbrev S128x492 : Shape := ⟨2, ![128, 492]⟩
abbrev S1x22x300 : Shape := ⟨3, ![1, 22, 300]⟩
abbrev S22x300 : Shape := ⟨2, ![22, 300]⟩
abbrev S128x512x22 : Shape := ⟨3, ![128, 512, 22]⟩
abbrev S128x491x1 : Shape := ⟨3, ![128, 491, 1]⟩
abbrev S128x491 : Shape := ⟨2, ![128, 491]⟩
abbrev S1x23x300 : Shape := ⟨3, ![1, 23, 300]⟩
abbrev S23x300 : Shape := ⟨2, ![23, 300]⟩
abbrev S128x512x23 : Shape := ⟨3, ![128, 512, 23]⟩
abbrev S128x490x1 : Shape := ⟨3, ![128, 490, 1]⟩
abbrev S128x490 : Shape := ⟨2, ![128, 490]⟩
abbrev S1x24x300 : Shape := ⟨3, ![1, 24, 300]⟩
abbrev S24x300 : Shape := ⟨2, ![24, 300]⟩
abbrev S128x512x24 : Shape := ⟨3, ![128, 512, 24]⟩
abbrev S128x489x1 : Shape := ⟨3, ![128, 489, 1]⟩
abbrev S128x489 : Shape := ⟨2, ![128, 489]⟩
abbrev S1x25x300 : Shape := ⟨3, ![1, 25, 300]⟩
abbrev S25x300 : Shape := ⟨2, ![25, 300]⟩
abbrev S128x512x25 : Shape := ⟨3, ![128, 512, 25]⟩
abbrev S128x488x1 : Shape := ⟨3, ![128, 488, 1]⟩
abbrev S128x488 : Shape := ⟨2, ![128, 488]⟩
abbrev S1x26x300 : Shape := ⟨3, ![1, 26, 300]⟩
abbrev S26x300 : Shape := ⟨2, ![26, 300]⟩
abbrev S128x512x26 : Shape := ⟨3, ![128, 512, 26]⟩
abbrev S128x487x1 : Shape := ⟨3, ![128, 487, 1]⟩
abbrev S128x487 : Shape := ⟨2, ![128, 487]⟩
abbrev S1x27x300 : Shape := ⟨3, ![1, 27, 300]⟩
abbrev S27x300 : Shape := ⟨2, ![27, 300]⟩
abbrev S128x512x27 : Shape := ⟨3, ![128, 512, 27]⟩
abbrev S128x486x1 : Shape := ⟨3, ![128, 486, 1]⟩
abbrev S128x486 : Shape := ⟨2, ![128, 486]⟩
abbrev S1x28x300 : Shape := ⟨3, ![1, 28, 300]⟩
abbrev S28x300 : Shape := ⟨2, ![28, 300]⟩
abbrev S128x512x28 : Shape := ⟨3, ![128, 512, 28]⟩
abbrev S128x485x1 : Shape := ⟨3, ![128, 485, 1]⟩
abbrev S128x485 : Shape := ⟨2, ![128, 485]⟩
abbrev S1x29x300 : Shape := ⟨3, ![1, 29, 300]⟩
abbrev S29x300 : Shape := ⟨2, ![29, 300]⟩
abbrev S128x512x29 : Shape := ⟨3, ![128, 512, 29]⟩
abbrev S128x484x1 : Shape := ⟨3, ![128, 484, 1]⟩
abbrev S128x484 : Shape := ⟨2, ![128, 484]⟩
abbrev S1x30x300 : Shape := ⟨3, ![1, 30, 300]⟩
abbrev S30x300 : Shape := ⟨2, ![30, 300]⟩
abbrev S128x512x30 : Shape := ⟨3, ![128, 512, 30]⟩
abbrev S128x483x1 : Shape := ⟨3, ![128, 483, 1]⟩
abbrev S128x483 : Shape := ⟨2, ![128, 483]⟩
abbrev S1x31x300 : Shape := ⟨3, ![1, 31, 300]⟩
abbrev S31x300 : Shape := ⟨2, ![31, 300]⟩
abbrev S128x512x31 : Shape := ⟨3, ![128, 512, 31]⟩
abbrev S128x482x1 : Shape := ⟨3, ![128, 482, 1]⟩
abbrev S128x482 : Shape := ⟨2, ![128, 482]⟩
abbrev S1x32x300 : Shape := ⟨3, ![1, 32, 300]⟩
abbrev S32x300 : Shape := ⟨2, ![32, 300]⟩
abbrev S128x512x32 : Shape := ⟨3, ![128, 512, 32]⟩
abbrev S128x481x1 : Shape := ⟨3, ![128, 481, 1]⟩
abbrev S128x481 : Shape := ⟨2, ![128, 481]⟩
abbrev S1x33x300 : Shape := ⟨3, ![1, 33, 300]⟩
abbrev S33x300 : Shape := ⟨2, ![33, 300]⟩
abbrev S128x512x33 : Shape := ⟨3, ![128, 512, 33]⟩
abbrev S128x480x1 : Shape := ⟨3, ![128, 480, 1]⟩
abbrev S128x480 : Shape := ⟨2, ![128, 480]⟩
abbrev S128x1 : Shape := ⟨2, ![128, 1]⟩
abbrev S128x16 : Shape := ⟨2, ![128, 16]⟩
abbrev S128x64 : Shape := ⟨2, ![128, 64]⟩
abbrev S64x1 : Shape := ⟨2, ![64, 1]⟩
abbrev S1x1 : Shape := ⟨2, ![1, 1]⟩

abbrev nBuf : Space → Nat
  | .hbm => 4226
  | .vmem => 0
  | .smem => 0
  | _ => 0

abbrev hbmTy0_0 (i : Nat) : BufTy := match i % 128 with
  | 0 => ⟨S128x1x512, .i32⟩
  | 1 => ⟨S50000x300, .f32⟩
  | 2 => ⟨S64x33x300, .f32⟩
  | 3 => ⟨S64, .f32⟩
  | 4 => ⟨S1x64, .f32⟩
  | 5 => ⟨S1, .f32⟩
  | 6 => ⟨S128x512, .i32⟩
  | 7 => ⟨S_, .i32⟩
  | 8 => ⟨S128x512, .i32⟩
  | 9 => ⟨S128x512, .i1⟩
  | 10 => ⟨S_, .i32⟩
  | 11 => ⟨S128x512, .i32⟩
  | 12 => ⟨S128x512, .i32⟩
  | 13 => ⟨S128x512, .i32⟩
  | 14 => ⟨S128x512x1, .i32⟩
  | 15 => ⟨S128x512x300, .f32⟩
  | 16 => ⟨S1x2x300, .f32⟩
  | 17 => ⟨S2x300, .f32⟩
  | 18 => ⟨S128x512x2, .f32⟩
  | 19 => ⟨S128x511x1, .f32⟩
  | 20 => ⟨S128x511, .f32⟩
  | 21 => ⟨S_, .f32⟩
  | 22 => ⟨S128x511, .f32⟩
  | 23 => ⟨S128x511, .f32⟩
  | 24 => ⟨S128x511x1, .f32⟩
  | 25 => ⟨S128x511, .f32⟩
  | 26 => ⟨S128x511, .f32⟩
  | 27 => ⟨S1, .f32⟩
  | 28 => ⟨S_, .f32⟩
  | 29 => ⟨S128x511, .f32⟩
  | 30 => ⟨S128x511, .f32⟩
  | 31 => ⟨S128x511, .f32⟩
  | 32 => ⟨S_, .f32⟩
  | 33 => ⟨S128, .f32⟩
  | 34 => ⟨S1x2x300, .f32⟩
  | 35 => ⟨S2x300, .f32⟩
  | 36 => ⟨S128x512x2, .f32⟩
  | 37 => ⟨S128x511x1, .f32⟩
  | 38 => ⟨S128x511, .f32⟩
  | 39 => ⟨S_, .f32⟩
  | 40 => ⟨S128x511, .f32⟩
  | 41 => ⟨S128x511, .f32⟩
  | 42 => ⟨S128x511x1, .f32⟩
  | 43 => ⟨S128x511, .f32⟩
  | 44 => ⟨S128x511, .f32⟩
  | 45 => ⟨S1, .f32⟩
  | 46 => ⟨S_, .f32⟩
  | 47 => ⟨S128x511, .f32⟩
  | 48 => ⟨S128x511, .f32⟩
  | 49 => ⟨S128x511, .f32⟩
  | 50 => ⟨S_, .f32⟩
  | 51 => ⟨S128, .f32⟩
  | 52 => ⟨S1x3x300, .f32⟩
  | 53 => ⟨S3x300, .f32⟩
  | 54 => ⟨S128x512x3, .f32⟩
  | 55 => ⟨S128x510x1, .f32⟩
  | 56 => ⟨S128x510, .f32⟩
  | 57 => ⟨S_, .f32⟩
  | 58 => ⟨S128x510, .f32⟩
  | 59 => ⟨S128x510, .f32⟩
  | 60 => ⟨S128x510x1, .f32⟩
  | 61 => ⟨S128x510, .f32⟩
  | 62 => ⟨S128x510, .f32⟩
  | 63 => ⟨S128x510x1, .f32⟩
  | 64 => ⟨S128x510, .f32⟩
  | 65 => ⟨S128x510, .f32⟩
  | 66 => ⟨S1, .f32⟩
  | 67 => ⟨S_, .f32⟩
  | 68 => ⟨S128x510, .f32⟩
  | 69 => ⟨S128x510, .f32⟩
  | 70 => ⟨S128x510, .f32⟩
  | 71 => ⟨S_, .f32⟩
  | 72 => ⟨S128, .f32⟩
  | 73 => ⟨S1x3x300, .f32⟩
  | 74 => ⟨S3x300, .f32⟩
  | 75 => ⟨S128x512x3, .f32⟩
  | 76 => ⟨S128x510x1, .f32⟩
  | 77 => ⟨S128x510, .f32⟩
  | 78 => ⟨S_, .f32⟩
  | 79 => ⟨S128x510, .f32⟩
  | 80 => ⟨S128x510, .f32⟩
  | 81 => ⟨S128x510x1, .f32⟩
  | 82 => ⟨S128x510, .f32⟩
  | 83 => ⟨S128x510, .f32⟩
  | 84 => ⟨S128x510x1, .f32⟩
  | 85 => ⟨S128x510, .f32⟩
  | 86 => ⟨S128x510, .f32⟩
  | 87 => ⟨S1, .f32⟩
  | 88 => ⟨S_, .f32⟩
  | 89 => ⟨S128x510, .f32⟩
  | 90 => ⟨S128x510, .f32⟩
  | 91 => ⟨S128x510, .f32⟩
  | 92 => ⟨S_, .f32⟩
  | 93 => ⟨S128, .f32⟩
  | 94 => ⟨S1x4x300, .f32⟩
  | 95 => ⟨S4x300, .f32⟩
  | 96 => ⟨S128x512x4, .f32⟩
  | 97 => ⟨S128x509x1, .f32⟩
  | 98 => ⟨S128x509, .f32⟩
  | 99 => ⟨S_, .f32⟩
  | 100 => ⟨S128x509, .f32⟩
  | 101 => ⟨S128x509, .f32⟩
  | 102 => ⟨S128x509x1, .f32⟩
  | 103 => ⟨S128x509, .f32⟩
  | 104 => ⟨S128x509, .f32⟩
  | 105 => ⟨S128x509x1, .f32⟩
  | 106 => ⟨S128x509, .f32⟩
  | 107 => ⟨S128x509, .f32⟩
  | 108 => ⟨S128x509x1, .f32⟩
  | 109 => ⟨S128x509, .f32⟩
  | 110 => ⟨S128x509, .f32⟩
  | 111 => ⟨S1, .f32⟩
  | 112 => ⟨S_, .f32⟩
  | 113 => ⟨S128x509, .f32⟩
  | 114 => ⟨S128x509, .f32⟩
  | 115 => ⟨S128x509, .f32⟩
  | 116 => ⟨S_, .f32⟩
  | 117 => ⟨S128, .f32⟩
  | 118 => ⟨S1x4x300, .f32⟩
  | 119 => ⟨S4x300, .f32⟩
  | 120 => ⟨S128x512x4, .f32⟩
  | 121 => ⟨S128x509x1, .f32⟩
  | 122 => ⟨S128x509, .f32⟩
  | 123 => ⟨S_, .f32⟩
  | 124 => ⟨S128x509, .f32⟩
  | 125 => ⟨S128x509, .f32⟩
  | 126 => ⟨S128x509x1, .f32⟩
  | 127 => ⟨S128x509, .f32⟩
  | _ => ⟨S128x1x512, .i32⟩

abbrev hbmTy0_1 (i : Nat) : BufTy := match i % 128 with
  | 0 => ⟨S128x509, .f32⟩
  | 1 => ⟨S128x509x1, .f32⟩
  | 2 => ⟨S128x509, .f32⟩
  | 3 => ⟨S128x509, .f32⟩
  | 4 => ⟨S128x509x1, .f32⟩
  | 5 => ⟨S128x509, .f32⟩
  | 6 => ⟨S128x509, .f32⟩
  | 7 => ⟨S1, .f32⟩
  | 8 => ⟨S_, .f32⟩
  | 9 => ⟨S128x509, .f32⟩
  | 10 => ⟨S128x509, .f32⟩
  | 11 => ⟨S128x509, .f32⟩
  | 12 => ⟨S_, .f32⟩
  | 13 => ⟨S128, .f32⟩
  | 14 => ⟨S1x5x300, .f32⟩
  | 15 => ⟨S5x300, .f32⟩
  | 16 => ⟨S128x512x5, .f32⟩
  | 17 => ⟨S128x508x1, .f32⟩
  | 18 => ⟨S128x508, .f32⟩
  | 19 => ⟨S_, .f32⟩
  | 20 => ⟨S128x508, .f32⟩
  | 21 => ⟨S128x508, .f32⟩
  | 22 => ⟨S128x508x1, .f32⟩
  | 23 => ⟨S128x508, .f32⟩
  | 24 => ⟨S128x508, .f32⟩
  | 25 => ⟨S128x508x1, .f32⟩
  | 26 => ⟨S128x508, .f32⟩
  | 27 => ⟨S128x508, .f32⟩
  | 28 => ⟨S128x508x1, .f32⟩
  | 29 => ⟨S128x508, .f32⟩
  | 30 => ⟨S128x508, .f32⟩
  | 31 => ⟨S128x508x1, .f32⟩
  | 32 => ⟨S128x508, .f32⟩
  | 33 => ⟨S128x508, .f32⟩
  | 34 => ⟨S1, .f32⟩
  | 35 => ⟨S_, .f32⟩
  | 36 => ⟨S128x508, .f32⟩
  | 37 => ⟨S128x508, .f32⟩
  | 38 => ⟨S128x508, .f32⟩
  | 39 => ⟨S_, .f32⟩
  | 40 => ⟨S128, .f32⟩
  | 41 => ⟨S1x5x300, .f32⟩
  | 42 => ⟨S5x300, .f32⟩
  | 43 => ⟨S128x512x5, .f32⟩
  | 44 => ⟨S128x508x1, .f32⟩
  | 45 => ⟨S128x508, .f32⟩
  | 46 => ⟨S_, .f32⟩
  | 47 => ⟨S128x508, .f32⟩
  | 48 => ⟨S128x508, .f32⟩
  | 49 => ⟨S128x508x1, .f32⟩
  | 50 => ⟨S128x508, .f32⟩
  | 51 => ⟨S128x508, .f32⟩
  | 52 => ⟨S128x508x1, .f32⟩
  | 53 => ⟨S128x508, .f32⟩
  | 54 => ⟨S128x508, .f32⟩
  | 55 => ⟨S128x508x1, .f32⟩
  | 56 => ⟨S128x508, .f32⟩
  | 57 => ⟨S128x508, .f32⟩
  | 58 => ⟨S128x508x1, .f32⟩
  | 59 => ⟨S128x508, .f32⟩
  | 60 => ⟨S128x508, .f32⟩
  | 61 => ⟨S1, .f32⟩
  | 62 => ⟨S_, .f32⟩
  | 63 => ⟨S128x508, .f32⟩
  | 64 => ⟨S128x508, .f32⟩
  | 65 => ⟨S128x508, .f32⟩
  | 66 => ⟨S_, .f32⟩
  | 67 => ⟨S128, .f32⟩
  | 68 => ⟨S1x6x300, .f32⟩
  | 69 => ⟨S6x300, .f32⟩
  | 70 => ⟨S128x512x6, .f32⟩
  | 71 => ⟨S128x507x1, .f32⟩
  | 72 => ⟨S128x507, .f32⟩
  | 73 => ⟨S_, .f32⟩
  | 74 => ⟨S128x507, .f32⟩
  | 75 => ⟨S128x507, .f32⟩
  | 76 => ⟨S128x507x1, .f32⟩
  | 77 => ⟨S128x507, .f32⟩
  | 78 => ⟨S128x507, .f32⟩
  | 79 => ⟨S128x507x1, .f32⟩
  | 80 => ⟨S128x507, .f32⟩
  | 81 => ⟨S128x507, .f32⟩
  | 82 => ⟨S128x507x1, .f32⟩
  | 83 => ⟨S128x507, .f32⟩
  | 84 => ⟨S128x507, .f32⟩
  | 85 => ⟨S128x507x1, .f32⟩
  | 86 => ⟨S128x507, .f32⟩
  | 87 => ⟨S128x507, .f32⟩
  | 88 => ⟨S128x507x1, .f32⟩
  | 89 => ⟨S128x507, .f32⟩
  | 90 => ⟨S128x507, .f32⟩
  | 91 => ⟨S1, .f32⟩
  | 92 => ⟨S_, .f32⟩
  | 93 => ⟨S128x507, .f32⟩
  | 94 => ⟨S128x507, .f32⟩
  | 95 => ⟨S128x507, .f32⟩
  | 96 => ⟨S_, .f32⟩
  | 97 => ⟨S128, .f32⟩
  | 98 => ⟨S1x6x300, .f32⟩
  | 99 => ⟨S6x300, .f32⟩
  | 100 => ⟨S128x512x6, .f32⟩
  | 101 => ⟨S128x507x1, .f32⟩
  | 102 => ⟨S128x507, .f32⟩
  | 103 => ⟨S_, .f32⟩
  | 104 => ⟨S128x507, .f32⟩
  | 105 => ⟨S128x507, .f32⟩
  | 106 => ⟨S128x507x1, .f32⟩
  | 107 => ⟨S128x507, .f32⟩
  | 108 => ⟨S128x507, .f32⟩
  | 109 => ⟨S128x507x1, .f32⟩
  | 110 => ⟨S128x507, .f32⟩
  | 111 => ⟨S128x507, .f32⟩
  | 112 => ⟨S128x507x1, .f32⟩
  | 113 => ⟨S128x507, .f32⟩
  | 114 => ⟨S128x507, .f32⟩
  | 115 => ⟨S128x507x1, .f32⟩
  | 116 => ⟨S128x507, .f32⟩
  | 117 => ⟨S128x507, .f32⟩
  | 118 => ⟨S128x507x1, .f32⟩
  | 119 => ⟨S128x507, .f32⟩
  | 120 => ⟨S128x507, .f32⟩
  | 121 => ⟨S1, .f32⟩
  | 122 => ⟨S_, .f32⟩
  | 123 => ⟨S128x507, .f32⟩
  | 124 => ⟨S128x507, .f32⟩
  | 125 => ⟨S128x507, .f32⟩
  | 126 => ⟨S_, .f32⟩
  | 127 => ⟨S128, .f32⟩
  | _ => ⟨S128x1x512, .i32⟩

abbrev hbmTy0_2 (i : Nat) : BufTy := match i % 128 with
  | 0 => ⟨S1x7x300, .f32⟩
  | 1 => ⟨S7x300, .f32⟩
  | 2 => ⟨S128x512x7, .f32⟩
  | 3 => ⟨S128x506x1, .f32⟩
  | 4 => ⟨S128x506, .f32⟩
  | 5 => ⟨S_, .f32⟩
  | 6 => ⟨S128x506, .f32⟩
  | 7 => ⟨S128x506, .f32⟩
  | 8 => ⟨S128x506x1, .f32⟩
  | 9 => ⟨S128x506, .f32⟩
  | 10 => ⟨S128x506, .f32⟩
  | 11 => ⟨S128x506x1, .f32⟩
  | 12 => ⟨S128x506, .f32⟩
  | 13 => ⟨S128x506, .f32⟩
  | 14 => ⟨S128x506x1, .f32⟩
  | 15 => ⟨S128x506, .f32⟩
  | 16 => ⟨S128x506, .f32⟩
  | 17 => ⟨S128x506x1, .f32⟩
  | 18 => ⟨S128x506, .f32⟩
  | 19 => ⟨S128x506, .f32⟩
  | 20 => ⟨S128x506x1, .f32⟩
  | 21 => ⟨S128x506, .f32⟩
  | 22 => ⟨S128x506, .f32⟩
  | 23 => ⟨S128x506x1, .f32⟩
  | 24 => ⟨S128x506, .f32⟩
  | 25 => ⟨S128x506, .f32⟩
  | 26 => ⟨S1, .f32⟩
  | 27 => ⟨S_, .f32⟩
  | 28 => ⟨S128x506, .f32⟩
  | 29 => ⟨S128x506, .f32⟩
  | 30 => ⟨S128x506, .f32⟩
  | 31 => ⟨S_, .f32⟩
  | 32 => ⟨S128, .f32⟩
  | 33 => ⟨S1x7x300, .f32⟩
  | 34 => ⟨S7x300, .f32⟩
  | 35 => ⟨S128x512x7, .f32⟩
  | 36 => ⟨S128x506x1, .f32⟩
  | 37 => ⟨S128x506, .f32⟩
  | 38 => ⟨S_, .f32⟩
  | 39 => ⟨S128x506, .f32⟩
  | 40 => ⟨S128x506, .f32⟩
  | 41 => ⟨S128x506x1, .f32⟩
  | 42 => ⟨S128x506, .f32⟩
  | 43 => ⟨S128x506, .f32⟩
  | 44 => ⟨S128x506x1, .f32⟩
  | 45 => ⟨S128x506, .f32⟩
  | 46 => ⟨S128x506, .f32⟩
  | 47 => ⟨S128x506x1, .f32⟩
  | 48 => ⟨S128x506, .f32⟩
  | 49 => ⟨S128x506, .f32⟩
  | 50 => ⟨S128x506x1, .f32⟩
  | 51 => ⟨S128x506, .f32⟩
  | 52 => ⟨S128x506, .f32⟩
  | 53 => ⟨S128x506x1, .f32⟩
  | 54 => ⟨S128x506, .f32⟩
  | 55 => ⟨S128x506, .f32⟩
  | 56 => ⟨S128x506x1, .f32⟩
  | 57 => ⟨S128x506, .f32⟩
  | 58 => ⟨S128x506, .f32⟩
  | 59 => ⟨S1, .f32⟩
  | 60 => ⟨S_, .f32⟩
  | 61 => ⟨S128x506, .f32⟩
  | 62 => ⟨S128x506, .f32⟩
  | 63 => ⟨S128x506, .f32⟩
  | 64 => ⟨S_, .f32⟩
  | 65 => ⟨S128, .f32⟩
  | 66 => ⟨S1x8x300, .f32⟩
  | 67 => ⟨S8x300, .f32⟩
  | 68 => ⟨S128x512x8, .f32⟩
  | 69 => ⟨S128x505x1, .f32⟩
  | 70 => ⟨S128x505, .f32⟩
  | 71 => ⟨S_, .f32⟩
  | 72 => ⟨S128x505, .f32⟩
  | 73 => ⟨S128x505, .f32⟩
  | 74 => ⟨S128x505x1, .f32⟩
  | 75 => ⟨S128x505, .f32⟩
  | 76 => ⟨S128x505, .f32⟩
  | 77 => ⟨S128x505x1, .f32⟩
  | 78 => ⟨S128x505, .f32⟩
  | 79 => ⟨S128x505, .f32⟩
  | 80 => ⟨S128x505x1, .f32⟩
  | 81 => ⟨S128x505, .f32⟩
  | 82 => ⟨S128x505, .f32⟩
  | 83 => ⟨S128x505x1, .f32⟩
  | 84 => ⟨S128x505, .f32⟩
  | 85 => ⟨S128x505, .f32⟩
  | 86 => ⟨S128x505x1, .f32⟩
  | 87 => ⟨S128x505, .f32⟩
  | 88 => ⟨S128x505, .f32⟩
  | 89 => ⟨S128x505x1, .f32⟩
  | 90 => ⟨S128x505, .f32⟩
  | 91 => ⟨S128x505, .f32⟩
  | 92 => ⟨S128x505x1, .f32⟩
  | 93 => ⟨S128x505, .f32⟩
  | 94 => ⟨S128x505, .f32⟩
  | 95 => ⟨S1, .f32⟩
  | 96 => ⟨S_, .f32⟩
  | 97 => ⟨S128x505, .f32⟩
  | 98 => ⟨S128x505, .f32⟩
  | 99 => ⟨S128x505, .f32⟩
  | 100 => ⟨S_, .f32⟩
  | 101 => ⟨S128, .f32⟩
  | 102 => ⟨S1x8x300, .f32⟩
  | 103 => ⟨S8x300, .f32⟩
  | 104 => ⟨S128x512x8, .f32⟩
  | 105 => ⟨S128x505x1, .f32⟩
  | 106 => ⟨S128x505, .f32⟩
  | 107 => ⟨S_, .f32⟩
  | 108 => ⟨S128x505, .f32⟩
  | 109 => ⟨S128x505, .f32⟩
  | 110 => ⟨S128x505x1, .f32⟩
  | 111 => ⟨S128x505, .f32⟩
  | 112 => ⟨S128x505, .f32⟩
  | 113 => ⟨S128x505x1, .f32⟩
  | 114 => ⟨S128x505, .f32⟩
  | 115 => ⟨S128x505, .f32⟩
  | 116 => ⟨S128x505x1, .f32⟩
  | 117 => ⟨S128x505, .f32⟩
  | 118 => ⟨S128x505, .f32⟩
  | 119 => ⟨S128x505x1, .f32⟩
  | 120 => ⟨S128x505, .f32⟩
  | 121 => ⟨S128x505, .f32⟩
  | 122 => ⟨S128x505x1, .f32⟩
  | 123 => ⟨S128x505, .f32⟩
  | 124 => ⟨S128x505, .f32⟩
  | 125 => ⟨S128x505x1, .f32⟩
  | 126 => ⟨S128x505, .f32⟩
  | 127 => ⟨S128x505, .f32⟩
  | _ => ⟨S128x1x512, .i32⟩

abbrev hbmTy0_3 (i : Nat) : BufTy := match i % 128 with
  | 0 => ⟨S128x505x1, .f32⟩
  | 1 => ⟨S128x505, .f32⟩
  | 2 => ⟨S128x505, .f32⟩
  | 3 => ⟨S1, .f32⟩
  | 4 => ⟨S_, .f32⟩
  | 5 => ⟨S128x505, .f32⟩
  | 6 => ⟨S128x505, .f32⟩
  | 7 => ⟨S128x505, .f32⟩
  | 8 => ⟨S_, .f32⟩
  | 9 => ⟨S128, .f32⟩
  | 10 => ⟨S1x9x300, .f32⟩
  | 11 => ⟨S9x300, .f32⟩
  | 12 => ⟨S128x512x9, .f32⟩
  | 13 => ⟨S128x504x1, .f32⟩
  | 14 => ⟨S128x504, .f32⟩
  | 15 => ⟨S_, .f32⟩
  | 16 => ⟨S128x504, .f32⟩
  | 17 => ⟨S128x504, .f32⟩
  | 18 => ⟨S128x504x1, .f32⟩
  | 19 => ⟨S128x504, .f32⟩
  | 20 => ⟨S128x504, .f32⟩
  | 21 => ⟨S128x504x1, .f32⟩
  | 22 => ⟨S128x504, .f32⟩
  | 23 => ⟨S128x504, .f32⟩
  | 24 => ⟨S128x504x1, .f32⟩
  | 25 => ⟨S128x504, .f32⟩
  | 26 => ⟨S128x504, .f32⟩
  | 27 => ⟨S128x504x1, .f32⟩
  | 28 => ⟨S128x504, .f32⟩
  | 29 => ⟨S128x504, .f32⟩
  | 30 => ⟨S128x504x1, .f32⟩
  | 31 => ⟨S128x504, .f32⟩
  | 32 => ⟨S128x504, .f32⟩
  | 33 => ⟨S128x504x1, .f32⟩
  | 34 => ⟨S128x504, .f32⟩
  | 35 => ⟨S128x504, .f32⟩
  | 36 => ⟨S128x504x1, .f32⟩
  | 37 => ⟨S128x504, .f32⟩
  | 38 => ⟨S128x504, .f32⟩
  | 39 => ⟨S128x504x1, .f32⟩
  | 40 => ⟨S128x504, .f32⟩
  | 41 => ⟨S128x504, .f32⟩
  | 42 => ⟨S1, .f32⟩
  | 43 => ⟨S_, .f32⟩
  | 44 => ⟨S128x504, .f32⟩
  | 45 => ⟨S128x504, .f32⟩
  | 46 => ⟨S128x504, .f32⟩
  | 47 => ⟨S_, .f32⟩
  | 48 => ⟨S128, .f32⟩
  | 49 => ⟨S1x9x300, .f32⟩
  | 50 => ⟨S9x300, .f32⟩
  | 51 => ⟨S128x512x9, .f32⟩
  | 52 => ⟨S128x504x1, .f32⟩
  | 53 => ⟨S128x504, .f32⟩
  | 54 => ⟨S_, .f32⟩
  | 55 => ⟨S128x504, .f32⟩
  | 56 => ⟨S128x504, .f32⟩
  | 57 => ⟨S128x504x1, .f32⟩
  | 58 => ⟨S128x504, .f32⟩
  | 59 => ⟨S128x504, .f32⟩
  | 60 => ⟨S128x504x1, .f32⟩
  | 61 => ⟨S128x504, .f32⟩
  | 62 => ⟨S128x504, .f32⟩
  | 63 => ⟨S128x504x1, .f32⟩
  | 64 => ⟨S128x504, .f32⟩
  | 65 => ⟨S128x504, .f32⟩
  | 66 => ⟨S128x504x1, .f32⟩
  | 67 => ⟨S128x504, .f32⟩
  | 68 => ⟨S128x504, .f32⟩
  | 69 => ⟨S128x504x1, .f32⟩
  | 70 => ⟨S128x504, .f32⟩
  | 71 => ⟨S128x504, .f32⟩
  | 72 => ⟨S128x504x1, .f32⟩
  | 73 => ⟨S128x504, .f32⟩
  | 74 => ⟨S128x504, .f32⟩
  | 75 => ⟨S128x504x1, .f32⟩
  | 76 => ⟨S128x504, .f32⟩
  | 77 => ⟨S128x504, .f32⟩
  | 78 => ⟨S128x504x1, .f32⟩
  | 79 => ⟨S128x504, .f32⟩
  | 80 => ⟨S128x504, .f32⟩
  | 81 => ⟨S1, .f32⟩
  | 82 => ⟨S_, .f32⟩
  | 83 => ⟨S128x504, .f32⟩
  | 84 => ⟨S128x504, .f32⟩
  | 85 => ⟨S128x504, .f32⟩
  | 86 => ⟨S_, .f32⟩
  | 87 => ⟨S128, .f32⟩
  | 88 => ⟨S1x10x300, .f32⟩
  | 89 => ⟨S10x300, .f32⟩
  | 90 => ⟨S128x512x10, .f32⟩
  | 91 => ⟨S128x503x1, .f32⟩
  | 92 => ⟨S128x503, .f32⟩
  | 93 => ⟨S_, .f32⟩
  | 94 => ⟨S128x503, .f32⟩
  | 95 => ⟨S128x503, .f32⟩
  | 96 => ⟨S128x503x1, .f32⟩
  | 97 => ⟨S128x503, .f32⟩
  | 98 => ⟨S128x503, .f32⟩
  | 99 => ⟨S128x503x1, .f32⟩
  | 100 => ⟨S128x503, .f32⟩
  | 101 => ⟨S128x503, .f32⟩
  | 102 => ⟨S128x503x1, .f32⟩
  | 103 => ⟨S128x503, .f32⟩
  | 104 => ⟨S128x503, .f32⟩
  | 105 => ⟨S128x503x1, .f32⟩
  | 106 => ⟨S128x503, .f32⟩
  | 107 => ⟨S128x503, .f32⟩
  | 108 => ⟨S128x503x1, .f32⟩
  | 109 => ⟨S128x503, .f32⟩
  | 110 => ⟨S128x503, .f32⟩
  | 111 => ⟨S128x503x1, .f32⟩
  | 112 => ⟨S128x503, .f32⟩
  | 113 => ⟨S128x503, .f32⟩
  | 114 => ⟨S128x503x1, .f32⟩
  | 115 => ⟨S128x503, .f32⟩
  | 116 => ⟨S128x503, .f32⟩
  | 117 => ⟨S128x503x1, .f32⟩
  | 118 => ⟨S128x503, .f32⟩
  | 119 => ⟨S128x503, .f32⟩
  | 120 => ⟨S128x503x1, .f32⟩
  | 121 => ⟨S128x503, .f32⟩
  | 122 => ⟨S128x503, .f32⟩
  | 123 => ⟨S1, .f32⟩
  | 124 => ⟨S_, .f32⟩
  | 125 => ⟨S128x503, .f32⟩
  | 126 => ⟨S128x503, .f32⟩
  | 127 => ⟨S128x503, .f32⟩
  | _ => ⟨S128x1x512, .i32⟩

abbrev hbmTy0_4 (i : Nat) : BufTy := match i % 128 with
  | 0 => ⟨S_, .f32⟩
  | 1 => ⟨S128, .f32⟩
  | 2 => ⟨S1x10x300, .f32⟩
  | 3 => ⟨S10x300, .f32⟩
  | 4 => ⟨S128x512x10, .f32⟩
  | 5 => ⟨S128x503x1, .f32⟩
  | 6 => ⟨S128x503, .f32⟩
  | 7 => ⟨S_, .f32⟩
  | 8 => ⟨S128x503, .f32⟩
  | 9 => ⟨S128x503, .f32⟩
  | 10 => ⟨S128x503x1, .f32⟩
  | 11 => ⟨S128x503, .f32⟩
  | 12 => ⟨S128x503, .f32⟩
  | 13 => ⟨S128x503x1, .f32⟩
  | 14 => ⟨S128x503, .f32⟩
  | 15 => ⟨S128x503, .f32⟩
  | 16 => ⟨S128x503x1, .f32⟩
  | 17 => ⟨S128x503, .f32⟩
  | 18 => ⟨S128x503, .f32⟩
  | 19 => ⟨S128x503x1, .f32⟩
  | 20 => ⟨S128x503, .f32⟩
  | 21 => ⟨S128x503, .f32⟩
  | 22 => ⟨S128x503x1, .f32⟩
  | 23 => ⟨S128x503, .f32⟩
  | 24 => ⟨S128x503, .f32⟩
  | 25 => ⟨S128x503x1, .f32⟩
  | 26 => ⟨S128x503, .f32⟩
  | 27 => ⟨S128x503, .f32⟩
  | 28 => ⟨S128x503x1, .f32⟩
  | 29 => ⟨S128x503, .f32⟩
  | 30 => ⟨S128x503, .f32⟩
  | 31 => ⟨S128x503x1, .f32⟩
  | 32 => ⟨S128x503, .f32⟩
  | 33 => ⟨S128x503, .f32⟩
  | 34 => ⟨S128x503x1, .f32⟩
  | 35 => ⟨S128x503, .f32⟩
  | 36 => ⟨S128x503, .f32⟩
  | 37 => ⟨S1, .f32⟩
  | 38 => ⟨S_, .f32⟩
  | 39 => ⟨S128x503, .f32⟩
  | 40 => ⟨S128x503, .f32⟩
  | 41 => ⟨S128x503, .f32⟩
  | 42 => ⟨S_, .f32⟩
  | 43 => ⟨S128, .f32⟩
  | 44 => ⟨S1x11x300, .f32⟩
  | 45 => ⟨S11x300, .f32⟩
  | 46 => ⟨S128x512x11, .f32⟩
  | 47 => ⟨S128x502x1, .f32⟩
  | 48 => ⟨S128x502, .f32⟩
  | 49 => ⟨S_, .f32⟩
  | 50 => ⟨S128x502, .f32⟩
  | 51 => ⟨S128x502, .f32⟩
  | 52 => ⟨S128x502x1, .f32⟩
  | 53 => ⟨S128x502, .f32⟩
  | 54 => ⟨S128x502, .f32⟩
  | 55 => ⟨S128x502x1, .f32⟩
  | 56 => ⟨S128x502, .f32⟩
  | 57 => ⟨S128x502, .f32⟩
  | 58 => ⟨S128x502x1, .f32⟩
  | 59 => ⟨S128x502, .f32⟩
  | 60 => ⟨S128x502, .f32⟩
  | 61 => ⟨S128x502x1, .f32⟩
  | 62 => ⟨S128x502, .f32⟩
  | 63 => ⟨S128x502, .f32⟩
  | 64 => ⟨S128x502x1, .f32⟩
  | 65 => ⟨S128x502, .f32⟩
  | 66 => ⟨S128x502, .f32⟩
  | 67 => ⟨S128x502x1, .f32⟩
  | 68 => ⟨S128x502, .f32⟩
  | 69 => ⟨S128x502, .f32⟩
  | 70 => ⟨S128x502x1, .f32⟩
  | 71 => ⟨S128x502, .f32⟩
  | 72 => ⟨S128x502, .f32⟩
  | 73 => ⟨S128x502x1, .f32⟩
  | 74 => ⟨S128x502, .f32⟩
  | 75 => ⟨S128x502, .f32⟩
  | 76 => ⟨S128x502x1, .f32⟩
  | 77 => ⟨S128x502, .f32⟩
  | 78 => ⟨S128x502, .f32⟩
  | 79 => ⟨S128x502x1, .f32⟩
  | 80 => ⟨S128x502, .f32⟩
  | 81 => ⟨S128x502, .f32⟩
  | 82 => ⟨S1, .f32⟩
  | 83 => ⟨S_, .f32⟩
  | 84 => ⟨S128x502, .f32⟩
  | 85 => ⟨S128x502, .f32⟩
  | 86 => ⟨S128x502, .f32⟩
  | 87 => ⟨S_, .f32⟩
  | 88 => ⟨S128, .f32⟩
  | 89 => ⟨S1x11x300, .f32⟩
  | 90 => ⟨S11x300, .f32⟩
  | 91 => ⟨S128x512x11, .f32⟩
  | 92 => ⟨S128x502x1, .f32⟩
  | 93 => ⟨S128x502, .f32⟩
  | 94 => ⟨S_, .f32⟩
  | 95 => ⟨S128x502, .f32⟩
  | 96 => ⟨S128x502, .f32⟩
  | 97 => ⟨S128x502x1, .f32⟩
  | 98 => ⟨S128x502, .f32⟩
  | 99 => ⟨S128x502, .f32⟩
  | 100 => ⟨S128x502x1, .f32⟩
  | 101 => ⟨S128x502, .f32⟩
  | 102 => ⟨S128x502, .f32⟩
  | 103 => ⟨S128x502x1, .f32⟩
  | 104 => ⟨S128x502, .f32⟩
  | 105 => ⟨S128x502, .f32⟩
  | 106 => ⟨S128x502x1, .f32⟩
  | 107 => ⟨S128x502, .f32⟩
  | 108 => ⟨S128x502, .f32⟩
  | 109 => ⟨S128x502x1, .f32⟩
  | 110 => ⟨S128x502, .f32⟩
  | 111 => ⟨S128x502, .f32⟩
  | 112 => ⟨S128x502x1, .f32⟩
  | 113 => ⟨S128x502, .f32⟩
  | 114 => ⟨S128x502, .f32⟩
  | 115 => ⟨S128x502x1, .f32⟩
  | 116 => ⟨S128x502, .f32⟩
  | 117 => ⟨S128x502, .f32⟩
  | 118 => ⟨S128x502x1, .f32⟩
  | 119 => ⟨S128x502, .f32⟩
  | 120 => ⟨S128x502, .f32⟩
  | 121 => ⟨S128x502x1, .f32⟩
  | 122 => ⟨S128x502, .f32⟩
  | 123 => ⟨S128x502, .f32⟩
  | 124 => ⟨S128x502x1, .f32⟩
  | 125 => ⟨S128x502, .f32⟩
  | 126 => ⟨S128x502, .f32⟩
  | 127 => ⟨S1, .f32⟩
  | _ => ⟨S128x1x512, .i32⟩

abbrev hbmTy0_5 (i : Nat) : BufTy := match i % 128 with
  | 0 => ⟨S_, .f32⟩
  | 1 => ⟨S128x502, .f32⟩
  | 2 => ⟨S128x502, .f32⟩
  | 3 => ⟨S128x502, .f32⟩
  | 4 => ⟨S_, .f32⟩
  | 5 => ⟨S128, .f32⟩
  | 6 => ⟨S1x12x300, .f32⟩
  | 7 => ⟨S12x300, .f32⟩
  | 8 => ⟨S128x512x12, .f32⟩
  | 9 => ⟨S128x501x1, .f32⟩
  | 10 => ⟨S128x501, .f32⟩
  | 11 => ⟨S_, .f32⟩
  | 12 => ⟨S128x501, .f32⟩
  | 13 => ⟨S128x501, .f32⟩
  | 14 => ⟨S128x501x1, .f32⟩
  | 15 => ⟨S128x501, .f32⟩
  | 16 => ⟨S128x501, .f32⟩
  | 17 => ⟨S128x501x1, .f32⟩
  | 18 => ⟨S128x501, .f32⟩
  | 19 => ⟨S128x501, .f32⟩
  | 20 => ⟨S128x501x1, .f32⟩
  | 21 => ⟨S128x501, .f32⟩
  | 22 => ⟨S128x501, .f32⟩
  | 23 => ⟨S128x501x1, .f32⟩
  | 24 => ⟨S128x501, .f32⟩
  | 25 => ⟨S128x501, .f32⟩
  | 26 => ⟨S128x501x1, .f32⟩
  | 27 => ⟨S128x501, .f32⟩
  | 28 => ⟨S128x501, .f32⟩
  | 29 => ⟨S128x501x1, .f32⟩
  | 30 => ⟨S128x501, .f32⟩
  | 31 => ⟨S128x501, .f32⟩
  | 32 => ⟨S128x501x1, .f32⟩
  | 33 => ⟨S128x501, .f32⟩
  | 34 => ⟨S128x501, .f32⟩
  | 35 => ⟨S128x501x1, .f32⟩
  | 36 => ⟨S128x501, .f32⟩
  | 37 => ⟨S128x501, .f32⟩
  | 38 => ⟨S128x501x1, .f32⟩
  | 39 => ⟨S128x501, .f32⟩
  | 40 => ⟨S128x501, .f32⟩
  | 41 => ⟨S128x501x1, .f32⟩
  | 42 => ⟨S128x501, .f32⟩
  | 43 => ⟨S128x501, .f32⟩
  | 44 => ⟨S128x501x1, .f32⟩
  | 45 => ⟨S128x501, .f32⟩
  | 46 => ⟨S128x501, .f32⟩
  | 47 => ⟨S1, .f32⟩
  | 48 => ⟨S_, .f32⟩
  | 49 => ⟨S128x501, .f32⟩
  | 50 => ⟨S128x501, .f32⟩
  | 51 => ⟨S128x501, .f32⟩
  | 52 => ⟨S_, .f32⟩
  | 53 => ⟨S128, .f32⟩
  | 54 => ⟨S1x12x300, .f32⟩
  | 55 => ⟨S12x300, .f32⟩
  | 56 => ⟨S128x512x12, .f32⟩
  | 57 => ⟨S128x501x1, .f32⟩
  | 58 => ⟨S128x501, .f32⟩
  | 59 => ⟨S_, .f32⟩
  | 60 => ⟨S128x501, .f32⟩
  | 61 => ⟨S128x501, .f32⟩
  | 62 => ⟨S128x501x1, .f32⟩
  | 63 => ⟨S128x501, .f32⟩
  | 64 => ⟨S128x501, .f32⟩
  | 65 => ⟨S128x501x1, .f32⟩
  | 66 => ⟨S128x501, .f32⟩
  | 67 => ⟨S128x501, .f32⟩
  | 68 => ⟨S128x501x1, .f32⟩
  | 69 => ⟨S128x501, .f32⟩
  | 70 => ⟨S128x501, .f32⟩
  | 71 => ⟨S128x501x1, .f32⟩
  | 72 => ⟨S128x501, .f32⟩
  | 73 => ⟨S128x501, .f32⟩
  | 74 => ⟨S128x501x1, .f32⟩
  | 75 => ⟨S128x501, .f32⟩
  | 76 => ⟨S128x501, .f32⟩
  | 77 => ⟨S128x501x1, .f32⟩
  | 78 => ⟨S128x501, .f32⟩
  | 79 => ⟨S128x501, .f32⟩
  | 80 => ⟨S128x501x1, .f32⟩
  | 81 => ⟨S128x501, .f32⟩
  | 82 => ⟨S128x501, .f32⟩
  | 83 => ⟨S128x501x1, .f32⟩
  | 84 => ⟨S128x501, .f32⟩
  | 85 => ⟨S128x501, .f32⟩
  | 86 => ⟨S128x501x1, .f32⟩
  | 87 => ⟨S128x501, .f32⟩
  | 88 => ⟨S128x501, .f32⟩
  | 89 => ⟨S128x501x1, .f32⟩
  | 90 => ⟨S128x501, .f32⟩
  | 91 => ⟨S128x501, .f32⟩
  | 92 => ⟨S128x501x1, .f32⟩
  | 93 => ⟨S128x501, .f32⟩
  | 94 => ⟨S128x501, .f32⟩
  | 95 => ⟨S1, .f32⟩
  | 96 => ⟨S_, .f32⟩
  | 97 => ⟨S128x501, .f32⟩
  | 98 => ⟨S128x501, .f32⟩
  | 99 => ⟨S128x501, .f32⟩
  | 100 => ⟨S_, .f32⟩
  | 101 => ⟨S128, .f32⟩
  | 102 => ⟨S1x13x300, .f32⟩
  | 103 => ⟨S13x300, .f32⟩
  | 104 => ⟨S128x512x13, .f32⟩
  | 105 => ⟨S128x500x1, .f32⟩
  | 106 => ⟨S128x500, .f32⟩
  | 107 => ⟨S_, .f32⟩
  | 108 => ⟨S128x500, .f32⟩
  | 109 => ⟨S128x500, .f32⟩
  | 110 => ⟨S128x500x1, .f32⟩
  | 111 => ⟨S128x500, .f32⟩
  | 112 => ⟨S128x500, .f32⟩
  | 113 => ⟨S128x500x1, .f32⟩
  | 114 => ⟨S128x500, .f32⟩
  | 115 => ⟨S128x500, .f32⟩
  | 116 => ⟨S128x500x1, .f32⟩
  | 117 => ⟨S128x500, .f32⟩
  | 118 => ⟨S128x500, .f32⟩
  | 119 => ⟨S128x500x1, .f32⟩
  | 120 => ⟨S128x500, .f32⟩
  | 121 => ⟨S128x500, .f32⟩
  | 122 => ⟨S128x500x1, .f32⟩
  | 123 => ⟨S128x500, .f32⟩
  | 124 => ⟨S128x500, .f32⟩
  | 125 => ⟨S128x500x1, .f32⟩
  | 126 => ⟨S128x500, .f32⟩
  | 127 => ⟨S128x500, .f32⟩
  | _ => ⟨S128x1x512, .i32⟩

abbrev hbmTy0_6 (i : Nat) : BufTy := match i % 128 with
  | 0 => ⟨S128x500x1, .f32⟩
  | 1 => ⟨S128x500, .f32⟩
  | 2 => ⟨S128x500, .f32⟩
  | 3 => ⟨S128x500x1, .f32⟩
  | 4 => ⟨S128x500, .f32⟩
  | 5 => ⟨S128x500, .f32⟩
  | 6 => ⟨S128x500x1, .f32⟩
  | 7 => ⟨S128x500, .f32⟩
  | 8 => ⟨S128x500, .f32⟩
  | 9 => ⟨S128x500x1, .f32⟩
  | 10 => ⟨S128x500, .f32⟩
  | 11 => ⟨S128x500, .f32⟩
  | 12 => ⟨S128x500x1, .f32⟩
  | 13 => ⟨S128x500, .f32⟩
  | 14 => ⟨S128x500, .f32⟩
  | 15 => ⟨S128x500x1, .f32⟩
  | 16 => ⟨S128x500, .f32⟩
  | 17 => ⟨S128x500, .f32⟩
  | 18 => ⟨S1, .f32⟩
  | 19 => ⟨S_, .f32⟩
  | 20 => ⟨S128x500, .f32⟩
  | 21 => ⟨S128x500, .f32⟩
  | 22 => ⟨S128x500, .f32⟩
  | 23 => ⟨S_, .f32⟩
  | 24 => ⟨S128, .f32⟩
  | 25 => ⟨S1x13x300, .f32⟩
  | 26 => ⟨S13x300, .f32⟩
  | 27 => ⟨S128x512x13, .f32⟩
  | 28 => ⟨S128x500x1, .f32⟩
  | 29 => ⟨S128x500, .f32⟩
  | 30 => ⟨S_, .f32⟩
  | 31 => ⟨S128x500, .f32⟩
  | 32 => ⟨S128x500, .f32⟩
  | 33 => ⟨S128x500x1, .f32⟩
  | 34 => ⟨S128x500, .f32⟩
  | 35 => ⟨S128x500, .f32⟩
  | 36 => ⟨S128x500x1, .f32⟩
  | 37 => ⟨S128x500, .f32⟩
  | 38 => ⟨S128x500, .f32⟩
  | 39 => ⟨S128x500x1, .f32⟩
  | 40 => ⟨S128x500, .f32⟩
  | 41 => ⟨S128x500, .f32⟩
  | 42 => ⟨S128x500x1, .f32⟩
  | 43 => ⟨S128x500, .f32⟩
  | 44 => ⟨S128x500, .f32⟩
  | 45 => ⟨S128x500x1, .f32⟩
  | 46 => ⟨S128x500, .f32⟩
  | 47 => ⟨S128x500, .f32⟩
  | 48 => ⟨S128x500x1, .f32⟩
  | 49 => ⟨S128x500, .f32⟩
  | 50 => ⟨S128x500, .f32⟩
  | 51 => ⟨S128x500x1, .f32⟩
  | 52 => ⟨S128x500, .f32⟩
  | 53 => ⟨S128x500, .f32⟩
  | 54 => ⟨S128x500x1, .f32⟩
  | 55 => ⟨S128x500, .f32⟩
  | 56 => ⟨S128x500, .f32⟩
  | 57 => ⟨S128x500x1, .f32⟩
  | 58 => ⟨S128x500, .f32⟩
  | 59 => ⟨S128x500, .f32⟩
  | 60 => ⟨S128x500x1, .f32⟩
  | 61 => ⟨S128x500, .f32⟩
  | 62 => ⟨S128x500, .f32⟩
  | 63 => ⟨S128x500x1, .f32⟩
  | 64 => ⟨S128x500, .f32⟩
  | 65 => ⟨S128x500, .f32⟩
  | 66 => ⟨S128x500x1, .f32⟩
  | 67 => ⟨S128x500, .f32⟩
  | 68 => ⟨S128x500, .f32⟩
  | 69 => ⟨S1, .f32⟩
  | 70 => ⟨S_, .f32⟩
  | 71 => ⟨S128x500, .f32⟩
  | 72 => ⟨S128x500, .f32⟩
  | 73 => ⟨S128x500, .f32⟩
  | 74 => ⟨S_, .f32⟩
  | 75 => ⟨S128, .f32⟩
  | 76 => ⟨S1x14x300, .f32⟩
  | 77 => ⟨S14x300, .f32⟩
  | 78 => ⟨S128x512x14, .f32⟩
  | 79 => ⟨S128x499x1, .f32⟩
  | 80 => ⟨S128x499, .f32⟩
  | 81 => ⟨S_, .f32⟩
  | 82 => ⟨S128x499, .f32⟩
  | 83 => ⟨S128x499, .f32⟩
  | 84 => ⟨S128x499x1, .f32⟩
  | 85 => ⟨S128x499, .f32⟩
  | 86 => ⟨S128x499, .f32⟩
  | 87 => ⟨S128x499x1, .f32⟩
  | 88 => ⟨S128x499, .f32⟩
  | 89 => ⟨S128x499, .f32⟩
  | 90 => ⟨S128x499x1, .f32⟩
  | 91 => ⟨S128x499, .f32⟩
  | 92 => ⟨S128x499, .f32⟩
  | 93 => ⟨S128x499x1, .f32⟩
  | 94 => ⟨S128x499, .f32⟩
  | 95 => ⟨S128x499, .f32⟩
  | 96 => ⟨S128x499x1, .f32⟩
  | 97 => ⟨S128x499, .f32⟩
  | 98 => ⟨S128x499, .f32⟩
  | 99 => ⟨S128x499x1, .f32⟩
  | 100 => ⟨S128x499, .f32⟩
  | 101 => ⟨S128x499, .f32⟩
  | 102 => ⟨S128x499x1, .f32⟩
  | 103 => ⟨S128x499, .f32⟩
  | 104 => ⟨S128x499, .f32⟩
  | 105 => ⟨S128x499x1, .f32⟩
  | 106 => ⟨S128x499, .f32⟩
  | 107 => ⟨S128x499, .f32⟩
  | 108 => ⟨S128x499x1, .f32⟩
  | 109 => ⟨S128x499, .f32⟩
  | 110 => ⟨S128x499, .f32⟩
  | 111 => ⟨S128x499x1, .f32⟩
  | 112 => ⟨S128x499, .f32⟩
  | 113 => ⟨S128x499, .f32⟩
  | 114 => ⟨S128x499x1, .f32⟩
  | 115 => ⟨S128x499, .f32⟩
  | 116 => ⟨S128x499, .f32⟩
  | 117 => ⟨S128x499x1, .f32⟩
  | 118 => ⟨S128x499, .f32⟩
  | 119 => ⟨S128x499, .f32⟩
  | 120 => ⟨S128x499x1, .f32⟩
  | 121 => ⟨S128x499, .f32⟩
  | 122 => ⟨S128x499, .f32⟩
  | 123 => ⟨S1, .f32⟩
  | 124 => ⟨S_, .f32⟩
  | 125 => ⟨S128x499, .f32⟩
  | 126 => ⟨S128x499, .f32⟩
  | 127 => ⟨S128x499, .f32⟩
  | _ => ⟨S128x1x512, .i32⟩

abbrev hbmTy0_7 (i : Nat) : BufTy := match i % 128 with
  | 0 => ⟨S_, .f32⟩
  | 1 => ⟨S128, .f32⟩
  | 2 => ⟨S1x14x300, .f32⟩
  | 3 => ⟨S14x300, .f32⟩
  | 4 => ⟨S128x512x14, .f32⟩
  | 5 => ⟨S128x499x1, .f32⟩
  | 6 => ⟨S128x499, .f32⟩
  | 7 => ⟨S_, .f32⟩
  | 8 => ⟨S128x499, .f32⟩
  | 9 => ⟨S128x499, .f32⟩
  | 10 => ⟨S128x499x1, .f32⟩
  | 11 => ⟨S128x499, .f32⟩
  | 12 => ⟨S128x499, .f32⟩
  | 13 => ⟨S128x499x1, .f32⟩
  | 14 => ⟨S128x499, .f32⟩
  | 15 => ⟨S128x499, .f32⟩
  | 16 => ⟨S128x499x1, .f32⟩
  | 17 => ⟨S128x499, .f32⟩
  | 18 => ⟨S128x499, .f32⟩
  | 19 => ⟨S128x499x1, .f32⟩
  | 20 => ⟨S128x499, .f32⟩
  | 21 => ⟨S128x499, .f32⟩
  | 22 => ⟨S128x499x1, .f32⟩
  | 23 => ⟨S128x499, .f32⟩
  | 24 => ⟨S128x499, .f32⟩
  | 25 => ⟨S128x499x1, .f32⟩
  | 26 => ⟨S128x499, .f32⟩
  | 27 => ⟨S128x499, .f32⟩
  | 28 => ⟨S128x499x1, .f32⟩
  | 29 => ⟨S128x499, .f32⟩
  | 30 => ⟨S128x499, .f32⟩
  | 31 => ⟨S128x499x1, .f32⟩
  | 32 => ⟨S128x499, .f32⟩
  | 33 => ⟨S128x499, .f32⟩
  | 34 => ⟨S128x499x1, .f32⟩
  | 35 => ⟨S128x499, .f32⟩
  | 36 => ⟨S128x499, .f32⟩
  | 37 => ⟨S128x499x1, .f32⟩
  | 38 => ⟨S128x499, .f32⟩
  | 39 => ⟨S128x499, .f32⟩
  | 40 => ⟨S128x499x1, .f32⟩
  | 41 => ⟨S128x499, .f32⟩
  | 42 => ⟨S128x499, .f32⟩
  | 43 => ⟨S128x499x1, .f32⟩
  | 44 => ⟨S128x499, .f32⟩
  | 45 => ⟨S128x499, .f32⟩
  | 46 => ⟨S128x499x1, .f32⟩
  | 47 => ⟨S128x499, .f32⟩
  | 48 => ⟨S128x499, .f32⟩
  | 49 => ⟨S1, .f32⟩
  | 50 => ⟨S_, .f32⟩
  | 51 => ⟨S128x499, .f32⟩
  | 52 => ⟨S128x499, .f32⟩
  | 53 => ⟨S128x499, .f32⟩
  | 54 => ⟨S_, .f32⟩
  | 55 => ⟨S128, .f32⟩
  | 56 => ⟨S1x15x300, .f32⟩
  | 57 => ⟨S15x300, .f32⟩
  | 58 => ⟨S128x512x15, .f32⟩
  | 59 => ⟨S128x498x1, .f32⟩
  | 60 => ⟨S128x498, .f32⟩
  | 61 => ⟨S_, .f32⟩
  | 62 => ⟨S128x498, .f32⟩
  | 63 => ⟨S128x498, .f32⟩
  | 64 => ⟨S128x498x1, .f32⟩
  | 65 => ⟨S128x498, .f32⟩
  | 66 => ⟨S128x498, .f32⟩
  | 67 => ⟨S128x498x1, .f32⟩
  | 68 => ⟨S128x498, .f32⟩
  | 69 => ⟨S128x498, .f32⟩
  | 70 => ⟨S128x498x1, .f32⟩
  | 71 => ⟨S128x498, .f32⟩
  | 72 => ⟨S128x498, .f32⟩
  | 73 => ⟨S128x498x1, .f32⟩
  | 74 => ⟨S128x498, .f32⟩
  | 75 => ⟨S128x498, .f32⟩
  | 76 => ⟨S128x498x1, .f32⟩
  | 77 => ⟨S128x498, .f32⟩
  | 78 => ⟨S128x498, .f32⟩
  | 79 => ⟨S128x498x1, .f32⟩
  | 80 => ⟨S128x498, .f32⟩
  | 81 => ⟨S128x498, .f32⟩
  | 82 => ⟨S128x498x1, .f32⟩
  | 83 => ⟨S128x498, .f32⟩
  | 84 => ⟨S128x498, .f32⟩
  | 85 => ⟨S128x498x1, .f32⟩
  | 86 => ⟨S128x498, .f32⟩
  | 87 => ⟨S128x498, .f32⟩
  | 88 => ⟨S128x498x1, .f32⟩
  | 89 => ⟨S128x498, .f32⟩
  | 90 => ⟨S128x498, .f32⟩
  | 91 => ⟨S128x498x1, .f32⟩
  | 92 => ⟨S128x498, .f32⟩
  | 93 => ⟨S128x498, .f32⟩
  | 94 => ⟨S128x498x1, .f32⟩
  | 95 => ⟨S128x498, .f32⟩
  | 96 => ⟨S128x498, .f32⟩
  | 97 => ⟨S128x498x1, .f32⟩
  | 98 => ⟨S128x498, .f32⟩
  | 99 => ⟨S128x498, .f32⟩
  | 100 => ⟨S128x498x1, .f32⟩
  | 101 => ⟨S128x498, .f32⟩
  | 102 => ⟨S128x498, .f32⟩
  | 103 => ⟨S128x498x1, .f32⟩
  | 104 => ⟨S128x498, .f32⟩
  | 105 => ⟨S128x498, .f32⟩
  | 106 => ⟨S1, .f32⟩
  | 107 => ⟨S_, .f32⟩
  | 108 => ⟨S128x498, .f32⟩
  | 109 => ⟨S128x498, .f32⟩
  | 110 => ⟨S128x498, .f32⟩
  | 111 => ⟨S_, .f32⟩
  | 112 => ⟨S128, .f32⟩
  | 113 => ⟨S1x15x300, .f32⟩
  | 114 => ⟨S15x300, .f32⟩
  | 115 => ⟨S128x512x15, .f32⟩
  | 116 => ⟨S128x498x1, .f32⟩
  | 117 => ⟨S128x498, .f32⟩
  | 118 => ⟨S_, .f32⟩
  | 119 => ⟨S128x498, .f32⟩
  | 120 => ⟨S128x498, .f32⟩
  | 121 => ⟨S128x498x1, .f32⟩
  | 122 => ⟨S128x498, .f32⟩
  | 123 => ⟨S128x498, .f32⟩
  | 124 => ⟨S128x498x1, .f32⟩
  | 125 => ⟨S128x498, .f32⟩
  | 126 => ⟨S128x498, .f32⟩
  | 127 => ⟨S128x498x1, .f32⟩
  | _ => ⟨S128x1x512, .i32⟩

abbrev hbmTy0_8 (i : Nat) : BufTy := match i % 128 with
  | 0 => ⟨S128x498, .f32⟩
  | 1 => ⟨S128x498, .f32⟩
  | 2 => ⟨S128x498x1, .f32⟩
  | 3 => ⟨S128x498, .f32⟩
  | 4 => ⟨S128x498, .f32⟩
  | 5 => ⟨S128x498x1, .f32⟩
  | 6 => ⟨S128x498, .f32⟩
  | 7 => ⟨S128x498, .f32⟩
  | 8 => ⟨S128x498x1, .f32⟩
  | 9 => ⟨S128x498, .f32⟩
  | 10 => ⟨S128x498, .f32⟩
  | 11 => ⟨S128x498x1, .f32⟩
  | 12 => ⟨S128x498, .f32⟩
  | 13 => ⟨S128x498, .f32⟩
  | 14 => ⟨S128x498x1, .f32⟩
  | 15 => ⟨S128x498, .f32⟩
  | 16 => ⟨S128x498, .f32⟩
  | 17 => ⟨S128x498x1, .f32⟩
  | 18 => ⟨S128x498, .f32⟩
  | 19 => ⟨S128x498, .f32⟩
  | 20 => ⟨S128x498x1, .f32⟩
  | 21 => ⟨S128x498, .f32⟩
  | 22 => ⟨S128x498, .f32⟩
  | 23 => ⟨S128x498x1, .f32⟩
  | 24 => ⟨S128x498, .f32⟩
  | 25 => ⟨S128x498, .f32⟩
  | 26 => ⟨S128x498x1, .f32⟩
  | 27 => ⟨S128x498, .f32⟩
  | 28 => ⟨S128x498, .f32⟩
  | 29 => ⟨S128x498x1, .f32⟩
  | 30 => ⟨S128x498, .f32⟩
  | 31 => ⟨S128x498, .f32⟩
  | 32 => ⟨S128x498x1, .f32⟩
  | 33 => ⟨S128x498, .f32⟩
  | 34 => ⟨S128x498, .f32⟩
  | 35 => ⟨S1, .f32⟩
  | 36 => ⟨S_, .f32⟩
  | 37 => ⟨S128x498, .f32⟩
  | 38 => ⟨S128x498, .f32⟩
  | 39 => ⟨S128x498, .f32⟩
  | 40 => ⟨S_, .f32⟩
  | 41 => ⟨S128, .f32⟩
  | 42 => ⟨S1x16x300, .f32⟩
  | 43 => ⟨S16x300, .f32⟩
  | 44 => ⟨S128x512x16, .f32⟩
  | 45 => ⟨S128x497x1, .f32⟩
  | 46 => ⟨S128x497, .f32⟩
  | 47 => ⟨S_, .f32⟩
  | 48 => ⟨S128x497, .f32⟩
  | 49 => ⟨S128x497, .f32⟩
  | 50 => ⟨S128x497x1, .f32⟩
  | 51 => ⟨S128x497, .f32⟩
  | 52 => ⟨S128x497, .f32⟩
  | 53 => ⟨S128x497x1, .f32⟩
  | 54 => ⟨S128x497, .f32⟩
  | 55 => ⟨S128x497, .f32⟩
  | 56 => ⟨S128x497x1, .f32⟩
  | 57 => ⟨S128x497, .f32⟩
  | 58 => ⟨S128x497, .f32⟩
  | 59 => ⟨S128x497x1, .f32⟩
  | 60 => ⟨S128x497, .f32⟩
  | 61 => ⟨S128x497, .f32⟩
  | 62 => ⟨S128x497x1, .f32⟩
  | 63 => ⟨S128x497, .f32⟩
  | 64 => ⟨S128x497, .f32⟩
  | 65 => ⟨S128x497x1, .f32⟩
  | 66 => ⟨S128x497, .f32⟩
  | 67 => ⟨S128x497, .f32⟩
  | 68 => ⟨S128x497x1, .f32⟩
  | 69 => ⟨S128x497, .f32⟩
  | 70 => ⟨S128x497, .f32⟩
  | 71 => ⟨S128x497x1, .f32⟩
  | 72 => ⟨S128x497, .f32⟩
  | 73 => ⟨S128x497, .f32⟩
  | 74 => ⟨S128x497x1, .f32⟩
  | 75 => ⟨S128x497, .f32⟩
  | 76 => ⟨S128x497, .f32⟩
  | 77 => ⟨S128x497x1, .f32⟩
  | 78 => ⟨S128x497, .f32⟩
  | 79 => ⟨S128x497, .f32⟩
  | 80 => ⟨S128x497x1, .f32⟩
  | 81 => ⟨S128x497, .f32⟩
  | 82 => ⟨S128x497, .f32⟩
  | 83 => ⟨S128x497x1, .f32⟩
  | 84 => ⟨S128x497, .f32⟩
  | 85 => ⟨S128x497, .f32⟩
  | 86 => ⟨S128x497x1, .f32⟩
  | 87 => ⟨S128x497, .f32⟩
  | 88 => ⟨S128x497, .f32⟩
  | 89 => ⟨S128x497x1, .f32⟩
  | 90 => ⟨S128x497, .f32⟩
  | 91 => ⟨S128x497, .f32⟩
  | 92 => ⟨S128x497x1, .f32⟩
  | 93 => ⟨S128x497, .f32⟩
  | 94 => ⟨S128x497, .f32⟩
  | 95 => ⟨S1, .f32⟩
  | 96 => ⟨S_, .f32⟩
  | 97 => ⟨S128x497, .f32⟩
  | 98 => ⟨S128x497, .f32⟩
  | 99 => ⟨S128x497, .f32⟩
  | 100 => ⟨S_, .f32⟩
  | 101 => ⟨S128, .f32⟩
  | 102 => ⟨S1x16x300, .f32⟩
  | 103 => ⟨S16x300, .f32⟩
  | 104 => ⟨S128x512x16, .f32⟩
  | 105 => ⟨S128x497x1, .f32⟩
  | 106 => ⟨S128x497, .f32⟩
  | 107 => ⟨S_, .f32⟩
  | 108 => ⟨S128x497, .f32⟩
  | 109 => ⟨S128x497, .f32⟩
  | 110 => ⟨S128x497x1, .f32⟩
  | 111 => ⟨S128x497, .f32⟩
  | 112 => ⟨S128x497, .f32⟩
  | 113 => ⟨S128x497x1, .f32⟩
  | 114 => ⟨S128x497, .f32⟩
  | 115 => ⟨S128x497, .f32⟩
  | 116 => ⟨S128x497x1, .f32⟩
  | 117 => ⟨S128x497, .f32⟩
  | 118 => ⟨S128x497, .f32⟩
  | 119 => ⟨S128x497x1, .f32⟩
  | 120 => ⟨S128x497, .f32⟩
  | 121 => ⟨S128x497, .f32⟩
  | 122 => ⟨S128x497x1, .f32⟩
  | 123 => ⟨S128x497, .f32⟩
  | 124 => ⟨S128x497, .f32⟩
  | 125 => ⟨S128x497x1, .f32⟩
  | 126 => ⟨S128x497, .f32⟩
  | 127 => ⟨S128x497, .f32⟩
  | _ => ⟨S128x1x512, .i32⟩

abbrev hbmTy0_9 (i : Nat) : BufTy := match i % 128 with
  | 0 => ⟨S128x497x1, .f32⟩
  | 1 => ⟨S128x497, .f32⟩
  | 2 => ⟨S128x497, .f32⟩
  | 3 => ⟨S128x497x1, .f32⟩
  | 4 => ⟨S128x497, .f32⟩
  | 5 => ⟨S128x497, .f32⟩
  | 6 => ⟨S128x497x1, .f32⟩
  | 7 => ⟨S128x497, .f32⟩
  | 8 => ⟨S128x497, .f32⟩
  | 9 => ⟨S128x497x1, .f32⟩
  | 10 => ⟨S128x497, .f32⟩
  | 11 => ⟨S128x497, .f32⟩
  | 12 => ⟨S128x497x1, .f32⟩
  | 13 => ⟨S128x497, .f32⟩
  | 14 => ⟨S128x497, .f32⟩
  | 15 => ⟨S128x497x1, .f32⟩
  | 16 => ⟨S128x497, .f32⟩
  | 17 => ⟨S128x497, .f32⟩
  | 18 => ⟨S128x497x1, .f32⟩
  | 19 => ⟨S128x497, .f32⟩
  | 20 => ⟨S128x497, .f32⟩
  | 21 => ⟨S128x497x1, .f32⟩
  | 22 => ⟨S128x497, .f32⟩
  | 23 => ⟨S128x497, .f32⟩
  | 24 => ⟨S128x497x1, .f32⟩
  | 25 => ⟨S128x497, .f32⟩
  | 26 => ⟨S128x497, .f32⟩
  | 27 => ⟨S1, .f32⟩
  | 28 => ⟨S_, .f32⟩
  | 29 => ⟨S128x497, .f32⟩
  | 30 => ⟨S128x497, .f32⟩
  | 31 => ⟨S128x497, .f32⟩
  | 32 => ⟨S_, .f32⟩
  | 33 => ⟨S128, .f32⟩
  | 34 => ⟨S1x17x300, .f32⟩
  | 35 => ⟨S17x300, .f32⟩
  | 36 => ⟨S128x512x17, .f32⟩
  | 37 => ⟨S128x496x1, .f32⟩
  | 38 => ⟨S128x496, .f32⟩
  | 39 => ⟨S_, .f32⟩
  | 40 => ⟨S128x496, .f32⟩
  | 41 => ⟨S128x496, .f32⟩
  | 42 => ⟨S128x496x1, .f32⟩
  | 43 => ⟨S128x496, .f32⟩
  | 44 => ⟨S128x496, .f32⟩
  | 45 => ⟨S128x496x1, .f32⟩
  | 46 => ⟨S128x496, .f32⟩
  | 47 => ⟨S128x496, .f32⟩
  | 48 => ⟨S128x496x1, .f32⟩
  | 49 => ⟨S128x496, .f32⟩
  | 50 => ⟨S128x496, .f32⟩
  | 51 => ⟨S128x496x1, .f32⟩
  | 52 => ⟨S128x496, .f32⟩
  | 53 => ⟨S128x496, .f32⟩
  | 54 => ⟨S128x496x1, .f32⟩
  | 55 => ⟨S128x496, .f32⟩
  | 56 => ⟨S128x496, .f32⟩
  | 57 => ⟨S128x496x1, .f32⟩
  | 58 => ⟨S128x496, .f32⟩
  | 59 => ⟨S128x496, .f32⟩
  | 60 => ⟨S128x496x1, .f32⟩
  | 61 => ⟨S128x496, .f32⟩
  | 62 => ⟨S128x496, .f32⟩
  | 63 => ⟨S128x496x1, .f32⟩
  | 64 => ⟨S128x496, .f32⟩
  | 65 => ⟨S128x496, .f32⟩
  | 66 => ⟨S128x496x1, .f32⟩
  | 67 => ⟨S128x496, .f32⟩
  | 68 => ⟨S128x496, .f32⟩
  | 69 => ⟨S128x496x1, .f32⟩
  | 70 => ⟨S128x496, .f32⟩
  | 71 => ⟨S128x496, .f32⟩
  | 72 => ⟨S128x496x1, .f32⟩
  | 73 => ⟨S128x496, .f32⟩
  | 74 => ⟨S128x496, .f32⟩
  | 75 => ⟨S128x496x1, .f32⟩
  | 76 => ⟨S128x496, .f32⟩
  | 77 => ⟨S128x496, .f32⟩
  | 78 => ⟨S128x496x1, .f32⟩
  | 79 => ⟨S128x496, .f32⟩
  | 80 => ⟨S128x496, .f32⟩
  | 81 => ⟨S128x496x1, .f32⟩
  | 82 => ⟨S128x496, .f32⟩
  | 83 => ⟨S128x496, .f32⟩
  | 84 => ⟨S128x496x1, .f32⟩
  | 85 => ⟨S128x496, .f32⟩
  | 86 => ⟨S128x496, .f32⟩
  | 87 => ⟨S128x496x1, .f32⟩
  | 88 => ⟨S128x496, .f32⟩
  | 89 => ⟨S128x496, .f32⟩
  | 90 => ⟨S1, .f32⟩
  | 91 => ⟨S_, .f32⟩
  | 92 => ⟨S128x496, .f32⟩
  | 93 => ⟨S128x496, .f32⟩
  | 94 => ⟨S128x496, .f32⟩
  | 95 => ⟨S_, .f32⟩
  | 96 => ⟨S128, .f32⟩
  | 97 => ⟨S1x17x300, .f32⟩
  | 98 => ⟨S17x300, .f32⟩
  | 99 => ⟨S128x512x17, .f32⟩
  | 100 => ⟨S128x496x1, .f32⟩
  | 101 => ⟨S128x496, .f32⟩
  | 102 => ⟨S_, .f32⟩
  | 103 => ⟨S128x496, .f32⟩
  | 104 => ⟨S128x496, .f32⟩
  | 105 => ⟨S128x496x1, .f32⟩
  | 106 => ⟨S128x496, .f32⟩
  | 107 => ⟨S128x496, .f32⟩
  | 108 => ⟨S128x496x1, .f32⟩
  | 109 => ⟨S128x496, .f32⟩
  | 110 => ⟨S128x496, .f32⟩
  | 111 => ⟨S128x496x1, .f32⟩
  | 112 => ⟨S128x496, .f32⟩
  | 113 => ⟨S128x496, .f32⟩
  | 114 => ⟨S128x496x1, .f32⟩
  | 115 => ⟨S128x496, .f32⟩
  | 116 => ⟨S128x496, .f32⟩
  | 117 => ⟨S128x496x1, .f32⟩
  | 118 => ⟨S128x496, .f32⟩
  | 119 => ⟨S128x496, .f32⟩
  | 120 => ⟨S128x496x1, .f32⟩
  | 121 => ⟨S128x496, .f32⟩
  | 122 => ⟨S128x496, .f32⟩
  | 123 => ⟨S128x496x1, .f32⟩
  | 124 => ⟨S128x496, .f32⟩
  | 125 => ⟨S128x496, .f32⟩
  | 126 => ⟨S128x496x1, .f32⟩
  | 127 => ⟨S128x496, .f32⟩
  | _ => ⟨S128x1x512, .i32⟩

abbrev hbmTy0_10 (i : Nat) : BufTy := match i % 128 with
  | 0 => ⟨S128x496, .f32⟩
  | 1 => ⟨S128x496x1, .f32⟩
  | 2 => ⟨S128x496, .f32⟩
  | 3 => ⟨S128x496, .f32⟩
  | 4 => ⟨S128x496x1, .f32⟩
  | 5 => ⟨S128x496, .f32⟩
  | 6 => ⟨S128x496, .f32⟩
  | 7 => ⟨S128x496x1, .f32⟩
  | 8 => ⟨S128x496, .f32⟩
  | 9 => ⟨S128x496, .f32⟩
  | 10 => ⟨S128x496x1, .f32⟩
  | 11 => ⟨S128x496, .f32⟩
  | 12 => ⟨S128x496, .f32⟩
  | 13 => ⟨S128x496x1, .f32⟩
  | 14 => ⟨S128x496, .f32⟩
  | 15 => ⟨S128x496, .f32⟩
  | 16 => ⟨S128x496x1, .f32⟩
  | 17 => ⟨S128x496, .f32⟩
  | 18 => ⟨S128x496, .f32⟩
  | 19 => ⟨S128x496x1, .f32⟩
  | 20 => ⟨S128x496, .f32⟩
  | 21 => ⟨S128x496, .f32⟩
  | 22 => ⟨S128x496x1, .f32⟩
  | 23 => ⟨S128x496, .f32⟩
  | 24 => ⟨S128x496, .f32⟩
  | 25 => ⟨S1, .f32⟩
  | 26 => ⟨S_, .f32⟩
  | 27 => ⟨S128x496, .f32⟩
  | 28 => ⟨S128x496, .f32⟩
  | 29 => ⟨S128x496, .f32⟩
  | 30 => ⟨S_, .f32⟩
  | 31 => ⟨S128, .f32⟩
  | 32 => ⟨S1x18x300, .f32⟩
  | 33 => ⟨S18x300, .f32⟩
  | 34 => ⟨S128x512x18, .f32⟩
  | 35 => ⟨S128x495x1, .f32⟩
  | 36 => ⟨S128x495, .f32⟩
  | 37 => ⟨S_, .f32⟩
  | 38 => ⟨S128x495, .f32⟩
  | 39 => ⟨S128x495, .f32⟩
  | 40 => ⟨S128x495x1, .f32⟩
  | 41 => ⟨S128x495, .f32⟩
  | 42 => ⟨S128x495, .f32⟩
  | 43 => ⟨S128x495x1, .f32⟩
  | 44 => ⟨S128x495, .f32⟩
  | 45 => ⟨S128x495, .f32⟩
  | 46 => ⟨S128x495x1, .f32⟩
  | 47 => ⟨S128x495, .f32⟩
  | 48 => ⟨S128x495, .f32⟩
  | 49 => ⟨S128x495x1, .f32⟩
  | 50 => ⟨S128x495, .f32⟩
  | 51 => ⟨S128x495, .f32⟩
  | 52 => ⟨S128x495x1, .f32⟩
  | 53 => ⟨S128x495, .f32⟩
  | 54 => ⟨S128x495, .f32⟩
  | 55 => ⟨S128x495x1, .f32⟩
  | 56 => ⟨S128x495, .f32⟩
  | 57 => ⟨S128x495, .f32⟩
  | 58 => ⟨S128x495x1, .f32⟩
  | 59 => ⟨S128x495, .f32⟩
  | 60 => ⟨S128x495, .f32⟩
  | 61 => ⟨S128x495x1, .f32⟩
  | 62 => ⟨S128x495, .f32⟩
  | 63 => ⟨S128x495, .f32⟩
  | 64 => ⟨S128x495x1, .f32⟩
  | 65 => ⟨S128x495, .f32⟩
  | 66 => ⟨S128x495, .f32⟩
  | 67 => ⟨S128x495x1, .f32⟩
  | 68 => ⟨S128x495, .f32⟩
  | 69 => ⟨S128x495, .f32⟩
  | 70 => ⟨S128x495x1, .f32⟩
  | 71 => ⟨S128x495, .f32⟩
  | 72 => ⟨S128x495, .f32⟩
  | 73 => ⟨S128x495x1, .f32⟩
  | 74 => ⟨S128x495, .f32⟩
  | 75 => ⟨S128x495, .f32⟩
  | 76 => ⟨S128x495x1, .f32⟩
  | 77 => ⟨S128x495, .f32⟩
  | 78 => ⟨S128x495, .f32⟩
  | 79 => ⟨S128x495x1, .f32⟩
  | 80 => ⟨S128x495, .f32⟩
  | 81 => ⟨S128x495, .f32⟩
  | 82 => ⟨S128x495x1, .f32⟩
  | 83 => ⟨S128x495, .f32⟩
  | 84 => ⟨S128x495, .f32⟩
  | 85 => ⟨S128x495x1, .f32⟩
  | 86 => ⟨S128x495, .f32⟩
  | 87 => ⟨S128x495, .f32⟩
  | 88 => ⟨S128x495x1, .f32⟩
  | 89 => ⟨S128x495, .f32⟩
  | 90 => ⟨S128x495, .f32⟩
  | 91 => ⟨S1, .f32⟩
  | 92 => ⟨S_, .f32⟩
  | 93 => ⟨S128x495, .f32⟩
  | 94 => ⟨S128x495, .f32⟩
  | 95 => ⟨S128x495, .f32⟩
  | 96 => ⟨S_, .f32⟩
  | 97 => ⟨S128, .f32⟩
  | 98 => ⟨S1x18x300, .f32⟩
  | 99 => ⟨S18x300, .f32⟩
  | 100 => ⟨S128x512x18, .f32⟩
  | 101 => ⟨S128x495x1, .f32⟩
  | 102 => ⟨S128x495, .f32⟩
  | 103 => ⟨S_, .f32⟩
  | 104 => ⟨S128x495, .f32⟩
  | 105 => ⟨S128x495, .f32⟩
  | 106 => ⟨S128x495x1, .f32⟩
  | 107 => ⟨S128x495, .f32⟩
  | 108 => ⟨S128x495, .f32⟩
  | 109 => ⟨S128x495x1, .f32⟩
  | 110 => ⟨S128x495, .f32⟩
  | 111 => ⟨S128x495, .f32⟩
  | 112 => ⟨S128x495x1, .f32⟩
  | 113 => ⟨S128x495, .f32⟩
  | 114 => ⟨S128x495, .f32⟩
  | 115 => ⟨S128x495x1, .f32⟩
  | 116 => ⟨S128x495, .f32⟩
  | 117 => ⟨S128x495, .f32⟩
  | 118 => ⟨S128x495x1, .f32⟩
  | 119 => ⟨S128x495, .f32⟩
  | 120 => ⟨S128x495, .f32⟩
  | 121 => ⟨S128x495x1, .f32⟩
  | 122 => ⟨S128x495, .f32⟩
  | 123 => ⟨S128x495, .f32⟩
  | 124 => ⟨S128x495x1, .f32⟩
  | 125 => ⟨S128x495, .f32⟩
  | 126 => ⟨S128x495, .f32⟩
  | 127 => ⟨S128x495x1, .f32⟩
  | _ => ⟨S128x1x512, .i32⟩

abbrev hbmTy0_11 (i : Nat) : BufTy := match i % 128 with
  | 0 => ⟨S128x495, .f32⟩
  | 1 => ⟨S128x495, .f32⟩
  | 2 => ⟨S128x495x1, .f32⟩
  | 3 => ⟨S128x495, .f32⟩
  | 4 => ⟨S128x495, .f32⟩
  | 5 => ⟨S128x495x1, .f32⟩
  | 6 => ⟨S128x495, .f32⟩
  | 7 => ⟨S128x495, .f32⟩
  | 8 => ⟨S128x495x1, .f32⟩
  | 9 => ⟨S128x495, .f32⟩
  | 10 => ⟨S128x495, .f32⟩
  | 11 => ⟨S128x495x1, .f32⟩
  | 12 => ⟨S128x495, .f32⟩
  | 13 => ⟨S128x495, .f32⟩
  | 14 => ⟨S128x495x1, .f32⟩
  | 15 => ⟨S128x495, .f32⟩
  | 16 => ⟨S128x495, .f32⟩
  | 17 => ⟨S128x495x1, .f32⟩
  | 18 => ⟨S128x495, .f32⟩
  | 19 => ⟨S128x495, .f32⟩
  | 20 => ⟨S128x495x1, .f32⟩
  | 21 => ⟨S128x495, .f32⟩
  | 22 => ⟨S128x495, .f32⟩
  | 23 => ⟨S128x495x1, .f32⟩
  | 24 => ⟨S128x495, .f32⟩
  | 25 => ⟨S128x495, .f32⟩
  | 26 => ⟨S128x495x1, .f32⟩
  | 27 => ⟨S128x495, .f32⟩
  | 28 => ⟨S128x495, .f32⟩
  | 29 => ⟨S1, .f32⟩
  | 30 => ⟨S_, .f32⟩
  | 31 => ⟨S128x495, .f32⟩
  | 32 => ⟨S128x495, .f32⟩
  | 33 => ⟨S128x495, .f32⟩
  | 34 => ⟨S_, .f32⟩
  | 35 => ⟨S128, .f32⟩
  | 36 => ⟨S1x19x300, .f32⟩
  | 37 => ⟨S19x300, .f32⟩
  | 38 => ⟨S128x512x19, .f32⟩
  | 39 => ⟨S128x494x1, .f32⟩
  | 40 => ⟨S128x494, .f32⟩
  | 41 => ⟨S_, .f32⟩
  | 42 => ⟨S128x494, .f32⟩
  | 43 => ⟨S128x494, .f32⟩
  | 44 => ⟨S128x494x1, .f32⟩
  | 45 => ⟨S128x494, .f32⟩
  | 46 => ⟨S128x494, .f32⟩
  | 47 => ⟨S128x494x1, .f32⟩
  | 48 => ⟨S128x494, .f32⟩
  | 49 => ⟨S128x494, .f32⟩
  | 50 => ⟨S128x494x1, .f32⟩
  | 51 => ⟨S128x494, .f32⟩
  | 52 => ⟨S128x494, .f32⟩
  | 53 => ⟨S128x494x1, .f32⟩
  | 54 => ⟨S128x494, .f32⟩
  | 55 => ⟨S128x494, .f32⟩
  | 56 => ⟨S128x494x1, .f32⟩
  | 57 => ⟨S128x494, .f32⟩
  | 58 => ⟨S128x494, .f32⟩
  | 59 => ⟨S128x494x1, .f32⟩
  | 60 => ⟨S128x494, .f32⟩
  | 61 => ⟨S128x494, .f32⟩
  | 62 => ⟨S128x494x1, .f32⟩
  | 63 => ⟨S128x494, .f32⟩
  | 64 => ⟨S128x494, .f32⟩
  | 65 => ⟨S128x494x1, .f32⟩
  | 66 => ⟨S128x494, .f32⟩
  | 67 => ⟨S128x494, .f32⟩
  | 68 => ⟨S128x494x1, .f32⟩
  | 69 => ⟨S128x494, .f32⟩
  | 70 => ⟨S128x494, .f32⟩
  | 71 => ⟨S128x494x1, .f32⟩
  | 72 => ⟨S128x494, .f32⟩
  | 73 => ⟨S128x494, .f32⟩
  | 74 => ⟨S128x494x1, .f32⟩
  | 75 => ⟨S128x494, .f32⟩
  | 76 => ⟨S128x494, .f32⟩
  | 77 => ⟨S128x494x1, .f32⟩
  | 78 => ⟨S128x494, .f32⟩
  | 79 => ⟨S128x494, .f32⟩
  | 80 => ⟨S128x494x1, .f32⟩
  | 81 => ⟨S128x494, .f32⟩
  | 82 => ⟨S128x494, .f32⟩
  | 83 => ⟨S128x494x1, .f32⟩
  | 84 => ⟨S128x494, .f32⟩
  | 85 => ⟨S128x494, .f32⟩
  | 86 => ⟨S128x494x1, .f32⟩
  | 87 => ⟨S128x494, .f32⟩
  | 88 => ⟨S128x494, .f32⟩
  | 89 => ⟨S128x494x1, .f32⟩
  | 90 => ⟨S128x494, .f32⟩
  | 91 => ⟨S128x494, .f32⟩
  | 92 => ⟨S128x494x1, .f32⟩
  | 93 => ⟨S128x494, .f32⟩
  | 94 => ⟨S128x494, .f32⟩
  | 95 => ⟨S128x494x1, .f32⟩
  | 96 => ⟨S128x494, .f32⟩
  | 97 => ⟨S128x494, .f32⟩
  | 98 => ⟨S1, .f32⟩
  | 99 => ⟨S_, .f32⟩
  | 100 => ⟨S128x494, .f32⟩
  | 101 => ⟨S128x494, .f32⟩
  | 102 => ⟨S128x494, .f32⟩
  | 103 => ⟨S_, .f32⟩
  | 104 => ⟨S128, .f32⟩
  | 105 => ⟨S1x19x300, .f32⟩
  | 106 => ⟨S19x300, .f32⟩
  | 107 => ⟨S128x512x19, .f32⟩
  | 108 => ⟨S128x494x1, .f32⟩
  | 109 => ⟨S128x494, .f32⟩
  | 110 => ⟨S_, .f32⟩
  | 111 => ⟨S128x494, .f32⟩
  | 112 => ⟨S128x494, .f32⟩
  | 113 => ⟨S128x494x1, .f32⟩
  | 114 => ⟨S128x494, .f32⟩
  | 115 => ⟨S128x494, .f32⟩
  | 116 => ⟨S128x494x1, .f32⟩
  | 117 => ⟨S128x494, .f32⟩
  | 118 => ⟨S128x494, .f32⟩
  | 119 => ⟨S128x494x1, .f32⟩
  | 120 => ⟨S128x494, .f32⟩
  | 121 => ⟨S128x494, .f32⟩
  | 122 => ⟨S128x494x1, .f32⟩
  | 123 => ⟨S128x494, .f32⟩
  | 124 => ⟨S128x494, .f32⟩
  | 125 => ⟨S128x494x1, .f32⟩
  | 126 => ⟨S128x494, .f32⟩
  | 127 => ⟨S128x494, .f32⟩
  | _ => ⟨S128x1x512, .i32⟩

abbrev hbmTy0_12 (i : Nat) : BufTy := match i % 128 with
  | 0 => ⟨S128x494x1, .f32⟩
  | 1 => ⟨S128x494, .f32⟩
  | 2 => ⟨S128x494, .f32⟩
  | 3 => ⟨S128x494x1, .f32⟩
  | 4 => ⟨S128x494, .f32⟩
  | 5 => ⟨S128x494, .f32⟩
  | 6 => ⟨S128x494x1, .f32⟩
  | 7 => ⟨S128x494, .f32⟩
  | 8 => ⟨S128x494, .f32⟩
  | 9 => ⟨S128x494x1, .f32⟩
  | 10 => ⟨S128x494, .f32⟩
  | 11 => ⟨S128x494, .f32⟩
  | 12 => ⟨S128x494x1, .f32⟩
  | 13 => ⟨S128x494, .f32⟩
  | 14 => ⟨S128x494, .f32⟩
  | 15 => ⟨S128x494x1, .f32⟩
  | 16 => ⟨S128x494, .f32⟩
  | 17 => ⟨S128x494, .f32⟩
  | 18 => ⟨S128x494x1, .f32⟩
  | 19 => ⟨S128x494, .f32⟩
  | 20 => ⟨S128x494, .f32⟩
  | 21 => ⟨S128x494x1, .f32⟩
  | 22 => ⟨S128x494, .f32⟩
  | 23 => ⟨S128x494, .f32⟩
  | 24 => ⟨S128x494x1, .f32⟩
  | 25 => ⟨S128x494, .f32⟩
  | 26 => ⟨S128x494, .f32⟩
  | 27 => ⟨S128x494x1, .f32⟩
  | 28 => ⟨S128x494, .f32⟩
  | 29 => ⟨S128x494, .f32⟩
  | 30 => ⟨S128x494x1, .f32⟩
  | 31 => ⟨S128x494, .f32⟩
  | 32 => ⟨S128x494, .f32⟩
  | 33 => ⟨S128x494x1, .f32⟩
  | 34 => ⟨S128x494, .f32⟩
  | 35 => ⟨S128x494, .f32⟩
  | 36 => ⟨S128x494x1, .f32⟩
  | 37 => ⟨S128x494, .f32⟩
  | 38 => ⟨S128x494, .f32⟩
  | 39 => ⟨S1, .f32⟩
  | 40 => ⟨S_, .f32⟩
  | 41 => ⟨S128x494, .f32⟩
  | 42 => ⟨S128x494, .f32⟩
  | 43 => ⟨S128x494, .f32⟩
  | 44 => ⟨S_, .f32⟩
  | 45 => ⟨S128, .f32⟩
  | 46 => ⟨S1x20x300, .f32⟩
  | 47 => ⟨S20x300, .f32⟩
  | 48 => ⟨S128x512x20, .f32⟩
  | 49 => ⟨S128x493x1, .f32⟩
  | 50 => ⟨S128x493, .f32⟩
  | 51 => ⟨S_, .f32⟩
  | 52 => ⟨S128x493, .f32⟩
  | 53 => ⟨S128x493, .f32⟩
  | 54 => ⟨S128x493x1, .f32⟩
  | 55 => ⟨S128x493, .f32⟩
  | 56 => ⟨S128x493, .f32⟩
  | 57 => ⟨S128x493x1, .f32⟩
  | 58 => ⟨S128x493, .f32⟩
  | 59 => ⟨S128x493, .f32⟩
  | 60 => ⟨S128x493x1, .f32⟩
  | 61 => ⟨S128x493, .f32⟩
  | 62 => ⟨S128x493, .f32⟩
  | 63 => ⟨S128x493x1, .f32⟩
  | 64 => ⟨S128x493, .f32⟩
  | 65 => ⟨S128x493, .f32⟩
  | 66 => ⟨S128x493x1, .f32⟩
  | 67 => ⟨S128x493, .f32⟩
  | 68 => ⟨S128x493, .f32⟩
  | 69 => ⟨S128x493x1, .f32⟩
  | 70 => ⟨S128x493, .f32⟩
  | 71 => ⟨S128x493, .f32⟩
  | 72 => ⟨S128x493x1, .f32⟩
  | 73 => ⟨S128x493, .f32⟩
  | 74 => ⟨S128x493, .f32⟩
  | 75 => ⟨S128x493x1, .f32⟩
  | 76 => ⟨S128x493, .f32⟩
  | 77 => ⟨S128x493, .f32⟩
  | 78 => ⟨S128x493x1, .f32⟩
  | 79 => ⟨S128x493, .f32⟩
  | 80 => ⟨S128x493, .f32⟩
  | 81 => ⟨S128x493x1, .f32⟩
  | 82 => ⟨S128x493, .f32⟩
  | 83 => ⟨S128x493, .f32⟩
  | 84 => ⟨S128x493x1, .f32⟩
  | 85 => ⟨S128x493, .f32⟩
  | 86 => ⟨S128x493, .f32⟩
  | 87 => ⟨S128x493x1, .f32⟩
  | 88 => ⟨S128x493, .f32⟩
  | 89 => ⟨S128x493, .f32⟩
  | 90 => ⟨S128x493x1, .f32⟩
  | 91 => ⟨S128x493, .f32⟩
  | 92 => ⟨S128x493, .f32⟩
  | 93 => ⟨S128x493x1, .f32⟩
  | 94 => ⟨S128x493, .f32⟩
  | 95 => ⟨S128x493, .f32⟩
  | 96 => ⟨S128x493x1, .f32⟩
  | 97 => ⟨S128x493, .f32⟩
  | 98 => ⟨S128x493, .f32⟩
  | 99 => ⟨S128x493x1, .f32⟩
  | 100 => ⟨S128x493, .f32⟩
  | 101 => ⟨S128x493, .f32⟩
  | 102 => ⟨S128x493x1, .f32⟩
  | 103 => ⟨S128x493, .f32⟩
  | 104 => ⟨S128x493, .f32⟩
  | 105 => ⟨S128x493x1, .f32⟩
  | 106 => ⟨S128x493, .f32⟩
  | 107 => ⟨S128x493, .f32⟩
  | 108 => ⟨S128x493x1, .f32⟩
  | 109 => ⟨S128x493, .f32⟩
  | 110 => ⟨S128x493, .f32⟩
  | 111 => ⟨S1, .f32⟩
  | 112 => ⟨S_, .f32⟩
  | 113 => ⟨S128x493, .f32⟩
  | 114 => ⟨S128x493, .f32⟩
  | 115 => ⟨S128x493, .f32⟩
  | 116 => ⟨S_, .f32⟩
  | 117 => ⟨S128, .f32⟩
  | 118 => ⟨S1x20x300, .f32⟩
  | 119 => ⟨S20x300, .f32⟩
  | 120 => ⟨S128x512x20, .f32⟩
  | 121 => ⟨S128x493x1, .f32⟩
  | 122 => ⟨S128x493, .f32⟩
  | 123 => ⟨S_, .f32⟩
  | 124 => ⟨S128x493, .f32⟩
  | 125 => ⟨S128x493, .f32⟩
  | 126 => ⟨S128x493x1, .f32⟩
  | 127 => ⟨S128x493, .f32⟩
  | _ => ⟨S128x1x512, .i32⟩

abbrev hbmTy0_13 (i : Nat) : BufTy := match i % 128 with
  | 0 => ⟨S128x493, .f32⟩
  | 1 => ⟨S128x493x1, .f32⟩
  | 2 => ⟨S128x493, .f32⟩
  | 3 => ⟨S128x493, .f32⟩
  | 4 => ⟨S128x493x1, .f32⟩
  | 5 => ⟨S128x493, .f32⟩
  | 6 => ⟨S128x493, .f32⟩
  | 7 => ⟨S128x493x1, .f32⟩
  | 8 => ⟨S128x493, .f32⟩
  | 9 => ⟨S128x493, .f32⟩
  | 10 => ⟨S128x493x1, .f32⟩
  | 11 => ⟨S128x493, .f32⟩
  | 12 => ⟨S128x493, .f32⟩
  | 13 => ⟨S128x493x1, .f32⟩
  | 14 => ⟨S128x493, .f32⟩
  | 15 => ⟨S128x493, .f32⟩
  | 16 => ⟨S128x493x1, .f32⟩
  | 17 => ⟨S128x493, .f32⟩
  | 18 => ⟨S128x493, .f32⟩
  | 19 => ⟨S128x493x1, .f32⟩
  | 20 => ⟨S128x493, .f32⟩
  | 21 => ⟨S128x493, .f32⟩
  | 22 => ⟨S128x493x1, .f32⟩
  | 23 => ⟨S128x493, .f32⟩
  | 24 => ⟨S128x493, .f32⟩
  | 25 => ⟨S128x493x1, .f32⟩
  | 26 => ⟨S128x493, .f32⟩
  | 27 => ⟨S128x493, .f32⟩
  | 28 => ⟨S128x493x1, .f32⟩
  | 29 => ⟨S128x493, .f32⟩
  | 30 => ⟨S128x493, .f32⟩
  | 31 => ⟨S128x493x1, .f32⟩
  | 32 => ⟨S128x493, .f32⟩
  | 33 => ⟨S128x493, .f32⟩
  | 34 => ⟨S128x493x1, .f32⟩
  | 35 => ⟨S128x493, .f32⟩
  | 36 => ⟨S128x493, .f32⟩
  | 37 => ⟨S128x493x1, .f32⟩
  | 38 => ⟨S128x493, .f32⟩
  | 39 => ⟨S128x493, .f32⟩
  | 40 => ⟨S128x493x1, .f32⟩
  | 41 => ⟨S128x493, .f32⟩
  | 42 => ⟨S128x493, .f32⟩
  | 43 => ⟨S128x493x1, .f32⟩
  | 44 => ⟨S128x493, .f32⟩
  | 45 => ⟨S128x493, .f32⟩
  | 46 => ⟨S128x493x1, .f32⟩
  | 47 => ⟨S128x493, .f32⟩
  | 48 => ⟨S128x493, .f32⟩
  | 49 => ⟨S128x493x1, .f32⟩
  | 50 => ⟨S128x493, .f32⟩
  | 51 => ⟨S128x493, .f32⟩
  | 52 => ⟨S128x493x1, .f32⟩
  | 53 => ⟨S128x493, .f32⟩
  | 54 => ⟨S128x493, .f32⟩
  | 55 => ⟨S1, .f32⟩
  | 56 => ⟨S_, .f32⟩
  | 57 => ⟨S128x493, .f32⟩
  | 58 => ⟨S128x493, .f32⟩
  | 59 => ⟨S128x493, .f32⟩
  | 60 => ⟨S_, .f32⟩
  | 61 => ⟨S128, .f32⟩
  | 62 => ⟨S1x21x300, .f32⟩
  | 63 => ⟨S21x300, .f32⟩
  | 64 => ⟨S128x512x21, .f32⟩
  | 65 => ⟨S128x492x1, .f32⟩
  | 66 => ⟨S128x492, .f32⟩
  | 67 => ⟨S_, .f32⟩
  | 68 => ⟨S128x492, .f32⟩
  | 69 => ⟨S128x492, .f32⟩
  | 70 => ⟨S128x492x1, .f32⟩
  | 71 => ⟨S128x492, .f32⟩
  | 72 => ⟨S128x492, .f32⟩
  | 73 => ⟨S128x492x1, .f32⟩
  | 74 => ⟨S128x492, .f32⟩
  | 75 => ⟨S128x492, .f32⟩
  | 76 => ⟨S128x492x1, .f32⟩
  | 77 => ⟨S128x492, .f32⟩
  | 78 => ⟨S128x492, .f32⟩
  | 79 => ⟨S128x492x1, .f32⟩
  | 80 => ⟨S128x492, .f32⟩
  | 81 => ⟨S128x492, .f32⟩
  | 82 => ⟨S128x492x1, .f32⟩
  | 83 => ⟨S128x492, .f32⟩
  | 84 => ⟨S128x492, .f32⟩
  | 85 => ⟨S128x492x1, .f32⟩
  | 86 => ⟨S128x492, .f32⟩
  | 87 => ⟨S128x492, .f32⟩
  | 88 => ⟨S128x492x1, .f32⟩
  | 89 => ⟨S128x492, .f32⟩
  | 90 => ⟨S128x492, .f32⟩
  | 91 => ⟨S128x492x1, .f32⟩
  | 92 => ⟨S128x492, .f32⟩
  | 93 => ⟨S128x492, .f32⟩
  | 94 => ⟨S128x492x1, .f32⟩
  | 95 => ⟨S128x492, .f32⟩
  | 96 => ⟨S128x492, .f32⟩
  | 97 => ⟨S128x492x1, .f32⟩
  | 98 => ⟨S128x492, .f32⟩
  | 99 => ⟨S128x492, .f32⟩
  | 100 => ⟨S128x492x1, .f32⟩
  | 101 => ⟨S128x492, .f32⟩
  | 102 => ⟨S128x492, .f32⟩
  | 103 => ⟨S128x492x1, .f32⟩
  | 104 => ⟨S128x492, .f32⟩
  | 105 => ⟨S128x492, .f32⟩
  | 106 => ⟨S128x492x1, .f32⟩
  | 107 => ⟨S128x492, .f32⟩
  | 108 => ⟨S128x492, .f32⟩
  | 109 => ⟨S128x492x1, .f32⟩
  | 110 => ⟨S128x492, .f32⟩
  | 111 => ⟨S128x492, .f32⟩
  | 112 => ⟨S128x492x1, .f32⟩
  | 113 => ⟨S128x492, .f32⟩
  | 114 => ⟨S128x492, .f32⟩
  | 115 => ⟨S128x492x1, .f32⟩
  | 116 => ⟨S128x492, .f32⟩
  | 117 => ⟨S128x492, .f32⟩
  | 118 => ⟨S128x492x1, .f32⟩
  | 119 => ⟨S128x492, .f32⟩
  | 120 => ⟨S128x492, .f32⟩
  | 121 => ⟨S128x492x1, .f32⟩
  | 122 => ⟨S128x492, .f32⟩
  | 123 => ⟨S128x492, .f32⟩
  | 124 => ⟨S128x492x1, .f32⟩
  | 125 => ⟨S128x492, .f32⟩
  | 126 => ⟨S128x492, .f32⟩
  | 127 => ⟨S128x492x1, .f32⟩
  | _ => ⟨S128x1x512, .i32⟩

abbrev hbmTy0_14 (i : Nat) : BufTy := match i % 128 with
  | 0 => ⟨S128x492, .f32⟩
  | 1 => ⟨S128x492, .f32⟩
  | 2 => ⟨S1, .f32⟩
  | 3 => ⟨S_, .f32⟩
  | 4 => ⟨S128x492, .f32⟩
  | 5 => ⟨S128x492, .f32⟩
  | 6 => ⟨S128x492, .f32⟩
  | 7 => ⟨S_, .f32⟩
  | 8 => ⟨S128, .f32⟩
  | 9 => ⟨S1x21x300, .f32⟩
  | 10 => ⟨S21x300, .f32⟩
  | 11 => ⟨S128x512x21, .f32⟩
  | 12 => ⟨S128x492x1, .f32⟩
  | 13 => ⟨S128x492, .f32⟩
  | 14 => ⟨S_, .f32⟩
  | 15 => ⟨S128x492, .f32⟩
  | 16 => ⟨S128x492, .f32⟩
  | 17 => ⟨S128x492x1, .f32⟩
  | 18 => ⟨S128x492, .f32⟩
  | 19 => ⟨S128x492, .f32⟩
  | 20 => ⟨S128x492x1, .f32⟩
  | 21 => ⟨S128x492, .f32⟩
  | 22 => ⟨S128x492, .f32⟩
  | 23 => ⟨S128x492x1, .f32⟩
  | 24 => ⟨S128x492, .f32⟩
  | 25 => ⟨S128x492, .f32⟩
  | 26 => ⟨S128x492x1, .f32⟩
  | 27 => ⟨S128x492, .f32⟩
  | 28 => ⟨S128x492, .f32⟩
  | 29 => ⟨S128x492x1, .f32⟩
  | 30 => ⟨S128x492, .f32⟩
  | 31 => ⟨S128x492, .f32⟩
  | 32 => ⟨S128x492x1, .f32⟩
  | 33 => ⟨S128x492, .f32⟩
  | 34 => ⟨S128x492, .f32⟩
  | 35 => ⟨S128x492x1, .f32⟩
  | 36 => ⟨S128x492, .f32⟩
  | 37 => ⟨S128x492, .f32⟩
  | 38 => ⟨S128x492x1, .f32⟩
  | 39 => ⟨S128x492, .f32⟩
  | 40 => ⟨S128x492, .f32⟩
  | 41 => ⟨S128x492x1, .f32⟩
  | 42 => ⟨S128x492, .f32⟩
  | 43 => ⟨S128x492, .f32⟩
  | 44 => ⟨S128x492x1, .f32⟩
  | 45 => ⟨S128x492, .f32⟩
  | 46 => ⟨S128x492, .f32⟩
  | 47 => ⟨S128x492x1, .f32⟩
  | 48 => ⟨S128x492, .f32⟩
  | 49 => ⟨S128x492, .f32⟩
  | 50 => ⟨S128x492x1, .f32⟩
  | 51 => ⟨S128x492, .f32⟩
  | 52 => ⟨S128x492, .f32⟩
  | 53 => ⟨S128x492x1, .f32⟩
  | 54 => ⟨S128x492, .f32⟩
  | 55 => ⟨S128x492, .f32⟩
  | 56 => ⟨S128x492x1, .f32⟩
  | 57 => ⟨S128x492, .f32⟩
  | 58 => ⟨S128x492, .f32⟩
  | 59 => ⟨S128x492x1, .f32⟩
  | 60 => ⟨S128x492, .f32⟩
  | 61 => ⟨S128x492, .f32⟩
  | 62 => ⟨S128x492x1, .f32⟩
  | 63 => ⟨S128x492, .f32⟩
  | 64 => ⟨S128x492, .f32⟩
  | 65 => ⟨S128x492x1, .f32⟩
  | 66 => ⟨S128x492, .f32⟩
  | 67 => ⟨S128x492, .f32⟩
  | 68 => ⟨S128x492x1, .f32⟩
  | 69 => ⟨S128x492, .f32⟩
  | 70 => ⟨S128x492, .f32⟩
  | 71 => ⟨S128x492x1, .f32⟩
  | 72 => ⟨S128x492, .f32⟩
  | 73 => ⟨S128x492, .f32⟩
  | 74 => ⟨S128x492x1, .f32⟩
  | 75 => ⟨S128x492, .f32⟩
  | 76 => ⟨S128x492, .f32⟩
  | 77 => ⟨S1, .f32⟩
  | 78 => ⟨S_, .f32⟩
  | 79 => ⟨S128x492, .f32⟩
  | 80 => ⟨S128x492, .f32⟩
  | 81 => ⟨S128x492, .f32⟩
  | 82 => ⟨S_, .f32⟩
  | 83 => ⟨S128, .f32⟩
  | 84 => ⟨S1x22x300, .f32⟩
  | 85 => ⟨S22x300, .f32⟩
  | 86 => ⟨S128x512x22, .f32⟩
  | 87 => ⟨S128x491x1, .f32⟩
  | 88 => ⟨S128x491, .f32⟩
  | 89 => ⟨S_, .f32⟩
  | 90 => ⟨S128x491, .f32⟩
  | 91 => ⟨S128x491, .f32⟩
  | 92 => ⟨S128x491x1, .f32⟩
  | 93 => ⟨S128x491, .f32⟩
  | 94 => ⟨S128x491, .f32⟩
  | 95 => ⟨S128x491x1, .f32⟩
  | 96 => ⟨S128x491, .f32⟩
  | 97 => ⟨S128x491, .f32⟩
  | 98 => ⟨S128x491x1, .f32⟩
  | 99 => ⟨S128x491, .f32⟩
  | 100 => ⟨S128x491, .f32⟩
  | 101 => ⟨S128x491x1, .f32⟩
  | 102 => ⟨S128x491, .f32⟩
  | 103 => ⟨S128x491, .f32⟩
  | 104 => ⟨S128x491x1, .f32⟩
  | 105 => ⟨S128x491, .f32⟩
  | 106 => ⟨S128x491, .f32⟩
  | 107 => ⟨S128x491x1, .f32⟩
  | 108 => ⟨S128x491, .f32⟩
  | 109 => ⟨S128x491, .f32⟩
  | 110 => ⟨S128x491x1, .f32⟩
  | 111 => ⟨S128x491, .f32⟩
  | 112 => ⟨S128x491, .f32⟩
  | 113 => ⟨S128x491x1, .f32⟩
  | 114 => ⟨S128x491, .f32⟩
  | 115 => ⟨S128x491, .f32⟩
  | 116 => ⟨S128x491x1, .f32⟩
  | 117 => ⟨S128x491, .f32⟩
  | 118 => ⟨S128x491, .f32⟩
  | 119 => ⟨S128x491x1, .f32⟩
  | 120 => ⟨S128x491, .f32⟩
  | 121 => ⟨S128x491, .f32⟩
  | 122 => ⟨S128x491x1, .f32⟩
  | 123 => ⟨S128x491, .f32⟩
  | 124 => ⟨S128x491, .f32⟩
  | 125 => ⟨S128x491x1, .f32⟩
  | 126 => ⟨S128x491, .f32⟩
  | 127 => ⟨S128x491, .f32⟩
  | _ => ⟨S128x1x512, .i32⟩

abbrev hbmTy0_15 (i : Nat) : BufTy := match i % 128 with
  | 0 => ⟨S128x491x1, .f32⟩
  | 1 => ⟨S128x491, .f32⟩
  | 2 => ⟨S128x491, .f32⟩
  | 3 => ⟨S128x491x1, .f32⟩
  | 4 => ⟨S128x491, .f32⟩
  | 5 => ⟨S128x491, .f32⟩
  | 6 => ⟨S128x491x1, .f32⟩
  | 7 => ⟨S128x491, .f32⟩
  | 8 => ⟨S128x491, .f32⟩
  | 9 => ⟨S128x491x1, .f32⟩
  | 10 => ⟨S128x491, .f32⟩
  | 11 => ⟨S128x491, .f32⟩
  | 12 => ⟨S128x491x1, .f32⟩
  | 13 => ⟨S128x491, .f32⟩
  | 14 => ⟨S128x491, .f32⟩
  | 15 => ⟨S128x491x1, .f32⟩
  | 16 => ⟨S128x491, .f32⟩
  | 17 => ⟨S128x491, .f32⟩
  | 18 => ⟨S128x491x1, .f32⟩
  | 19 => ⟨S128x491, .f32⟩
  | 20 => ⟨S128x491, .f32⟩
  | 21 => ⟨S128x491x1, .f32⟩
  | 22 => ⟨S128x491, .f32⟩
  | 23 => ⟨S128x491, .f32⟩
  | 24 => ⟨S128x491x1, .f32⟩
  | 25 => ⟨S128x491, .f32⟩
  | 26 => ⟨S128x491, .f32⟩
  | 27 => ⟨S1, .f32⟩
  | 28 => ⟨S_, .f32⟩
  | 29 => ⟨S128x491, .f32⟩
  | 30 => ⟨S128x491, .f32⟩
  | 31 => ⟨S128x491, .f32⟩
  | 32 => ⟨S_, .f32⟩
  | 33 => ⟨S128, .f32⟩
  | 34 => ⟨S1x22x300, .f32⟩
  | 35 => ⟨S22x300, .f32⟩
  | 36 => ⟨S128x512x22, .f32⟩
  | 37 => ⟨S128x491x1, .f32⟩
  | 38 => ⟨S128x491, .f32⟩
  | 39 => ⟨S_, .f32⟩
  | 40 => ⟨S128x491, .f32⟩
  | 41 => ⟨S128x491, .f32⟩
  | 42 => ⟨S128x491x1, .f32⟩
  | 43 => ⟨S128x491, .f32⟩
  | 44 => ⟨S128x491, .f32⟩
  | 45 => ⟨S128x491x1, .f32⟩
  | 46 => ⟨S128x491, .f32⟩
  | 47 => ⟨S128x491, .f32⟩
  | 48 => ⟨S128x491x1, .f32⟩
  | 49 => ⟨S128x491, .f32⟩
  | 50 => ⟨S128x491, .f32⟩
  | 51 => ⟨S128x491x1, .f32⟩
  | 52 => ⟨S128x491, .f32⟩
  | 53 => ⟨S128x491, .f32⟩
  | 54 => ⟨S128x491x1, .f32⟩
  | 55 => ⟨S128x491, .f32⟩
  | 56 => ⟨S128x491, .f32⟩
  | 57 => ⟨S128x491x1, .f32⟩
  | 58 => ⟨S128x491, .f32⟩
  | 59 => ⟨S128x491, .f32⟩
  | 60 => ⟨S128x491x1, .f32⟩
  | 61 => ⟨S128x491, .f32⟩
  | 62 => ⟨S128x491, .f32⟩
  | 63 => ⟨S128x491x1, .f32⟩
  | 64 => ⟨S128x491, .f32⟩
  | 65 => ⟨S128x491, .f32⟩
  | 66 => ⟨S128x491x1, .f32⟩
  | 67 => ⟨S128x491, .f32⟩
  | 68 => ⟨S128x491, .f32⟩
  | 69 => ⟨S128x491x1, .f32⟩
  | 70 => ⟨S128x491, .f32⟩
  | 71 => ⟨S128x491, .f32⟩
  | 72 => ⟨S128x491x1, .f32⟩
  | 73 => ⟨S128x491, .f32⟩
  | 74 => ⟨S128x491, .f32⟩
  | 75 => ⟨S128x491x1, .f32⟩
  | 76 => ⟨S128x491, .f32⟩
  | 77 => ⟨S128x491, .f32⟩
  | 78 => ⟨S128x491x1, .f32⟩
  | 79 => ⟨S128x491, .f32⟩
  | 80 => ⟨S128x491, .f32⟩
  | 81 => ⟨S128x491x1, .f32⟩
  | 82 => ⟨S128x491, .f32⟩
  | 83 => ⟨S128x491, .f32⟩
  | 84 => ⟨S128x491x1, .f32⟩
  | 85 => ⟨S128x491, .f32⟩
  | 86 => ⟨S128x491, .f32⟩
  | 87 => ⟨S128x491x1, .f32⟩
  | 88 => ⟨S128x491, .f32⟩
  | 89 => ⟨S128x491, .f32⟩
  | 90 => ⟨S128x491x1, .f32⟩
  | 91 => ⟨S128x491, .f32⟩
  | 92 => ⟨S128x491, .f32⟩
  | 93 => ⟨S128x491x1, .f32⟩
  | 94 => ⟨S128x491, .f32⟩
  | 95 => ⟨S128x491, .f32⟩
  | 96 => ⟨S128x491x1, .f32⟩
  | 97 => ⟨S128x491, .f32⟩
  | 98 => ⟨S128x491, .f32⟩
  | 99 => ⟨S128x491x1, .f32⟩
  | 100 => ⟨S128x491, .f32⟩
  | 101 => ⟨S128x491, .f32⟩
  | 102 => ⟨S128x491x1, .f32⟩
  | 103 => ⟨S128x491, .f32⟩
  | 104 => ⟨S128x491, .f32⟩
  | 105 => ⟨S1, .f32⟩
  | 106 => ⟨S_, .f32⟩
  | 107 => ⟨S128x491, .f32⟩
  | 108 => ⟨S128x491, .f32⟩
  | 109 => ⟨S128x491, .f32⟩
  | 110 => ⟨S_, .f32⟩
  | 111 => ⟨S128, .f32⟩
  | 112 => ⟨S1x23x300, .f32⟩
  | 113 => ⟨S23x300, .f32⟩
  | 114 => ⟨S128x512x23, .f32⟩
  | 115 => ⟨S128x490x1, .f32⟩
  | 116 => ⟨S128x490, .f32⟩
  | 117 => ⟨S_, .f32⟩
  | 118 => ⟨S128x490, .f32⟩
  | 119 => ⟨S128x490, .f32⟩
  | 120 => ⟨S128x490x1, .f32⟩
  | 121 => ⟨S128x490, .f32⟩
  | 122 => ⟨S128x490, .f32⟩
  | 123 => ⟨S128x490x1, .f32⟩
  | 124 => ⟨S128x490, .f32⟩
  | 125 => ⟨S128x490, .f32⟩
  | 126 => ⟨S128x490x1, .f32⟩
  | 127 => ⟨S128x490, .f32⟩
  | _ => ⟨S128x1x512, .i32⟩

abbrev hbmTy0_16 (i : Nat) : BufTy := match i % 128 with
  | 0 => ⟨S128x490, .f32⟩
  | 1 => ⟨S128x490x1, .f32⟩
  | 2 => ⟨S128x490, .f32⟩
  | 3 => ⟨S128x490, .f32⟩
  | 4 => ⟨S128x490x1, .f32⟩
  | 5 => ⟨S128x490, .f32⟩
  | 6 => ⟨S128x490, .f32⟩
  | 7 => ⟨S128x490x1, .f32⟩
  | 8 => ⟨S128x490, .f32⟩
  | 9 => ⟨S128x490, .f32⟩
  | 10 => ⟨S128x490x1, .f32⟩
  | 11 => ⟨S128x490, .f32⟩
  | 12 => ⟨S128x490, .f32⟩
  | 13 => ⟨S128x490x1, .f32⟩
  | 14 => ⟨S128x490, .f32⟩
  | 15 => ⟨S128x490, .f32⟩
  | 16 => ⟨S128x490x1, .f32⟩
  | 17 => ⟨S128x490, .f32⟩
  | 18 => ⟨S128x490, .f32⟩
  | 19 => ⟨S128x490x1, .f32⟩
  | 20 => ⟨S128x490, .f32⟩
  | 21 => ⟨S128x490, .f32⟩
  | 22 => ⟨S128x490x1, .f32⟩
  | 23 => ⟨S128x490, .f32⟩
  | 24 => ⟨S128x490, .f32⟩
  | 25 => ⟨S128x490x1, .f32⟩
  | 26 => ⟨S128x490, .f32⟩
  | 27 => ⟨S128x490, .f32⟩
  | 28 => ⟨S128x490x1, .f32⟩
  | 29 => ⟨S128x490, .f32⟩
  | 30 => ⟨S128x490, .f32⟩
  | 31 => ⟨S128x490x1, .f32⟩
  | 32 => ⟨S128x490, .f32⟩
  | 33 => ⟨S128x490, .f32⟩
  | 34 => ⟨S128x490x1, .f32⟩
  | 35 => ⟨S128x490, .f32⟩
  | 36 => ⟨S128x490, .f32⟩
  | 37 => ⟨S128x490x1, .f32⟩
  | 38 => ⟨S128x490, .f32⟩
  | 39 => ⟨S128x490, .f32⟩
  | 40 => ⟨S128x490x1, .f32⟩
  | 41 => ⟨S128x490, .f32⟩
  | 42 => ⟨S128x490, .f32⟩
  | 43 => ⟨S128x490x1, .f32⟩
  | 44 => ⟨S128x490, .f32⟩
  | 45 => ⟨S128x490, .f32⟩
  | 46 => ⟨S128x490x1, .f32⟩
  | 47 => ⟨S128x490, .f32⟩
  | 48 => ⟨S128x490, .f32⟩
  | 49 => ⟨S128x490x1, .f32⟩
  | 50 => ⟨S128x490, .f32⟩
  | 51 => ⟨S128x490, .f32⟩
  | 52 => ⟨S128x490x1, .f32⟩
  | 53 => ⟨S128x490, .f32⟩
  | 54 => ⟨S128x490, .f32⟩
  | 55 => ⟨S128x490x1, .f32⟩
  | 56 => ⟨S128x490, .f32⟩
  | 57 => ⟨S128x490, .f32⟩
  | 58 => ⟨S1, .f32⟩
  | 59 => ⟨S_, .f32⟩
  | 60 => ⟨S128x490, .f32⟩
  | 61 => ⟨S128x490, .f32⟩
  | 62 => ⟨S128x490, .f32⟩
  | 63 => ⟨S_, .f32⟩
  | 64 => ⟨S128, .f32⟩
  | 65 => ⟨S1x23x300, .f32⟩
  | 66 => ⟨S23x300, .f32⟩
  | 67 => ⟨S128x512x23, .f32⟩
  | 68 => ⟨S128x490x1, .f32⟩
  | 69 => ⟨S128x490, .f32⟩
  | 70 => ⟨S_, .f32⟩
  | 71 => ⟨S128x490, .f32⟩
  | 72 => ⟨S128x490, .f32⟩
  | 73 => ⟨S128x490x1, .f32⟩
  | 74 => ⟨S128x490, .f32⟩
  | 75 => ⟨S128x490, .f32⟩
  | 76 => ⟨S128x490x1, .f32⟩
  | 77 => ⟨S128x490, .f32⟩
  | 78 => ⟨S128x490, .f32⟩
  | 79 => ⟨S128x490x1, .f32⟩
  | 80 => ⟨S128x490, .f32⟩
  | 81 => ⟨S128x490, .f32⟩
  | 82 => ⟨S128x490x1, .f32⟩
  | 83 => ⟨S128x490, .f32⟩
  | 84 => ⟨S128x490, .f32⟩
  | 85 => ⟨S128x490x1, .f32⟩
  | 86 => ⟨S128x490, .f32⟩
  | 87 => ⟨S128x490, .f32⟩
  | 88 => ⟨S128x490x1, .f32⟩
  | 89 => ⟨S128x490, .f32⟩
  | 90 => ⟨S128x490, .f32⟩
  | 91 => ⟨S128x490x1, .f32⟩
  | 92 => ⟨S128x490, .f32⟩
  | 93 => ⟨S128x490, .f32⟩
  | 94 => ⟨S128x490x1, .f32⟩
  | 95 => ⟨S128x490, .f32⟩
  | 96 => ⟨S128x490, .f32⟩
  | 97 => ⟨S128x490x1, .f32⟩
  | 98 => ⟨S128x490, .f32⟩
  | 99 => ⟨S128x490, .f32⟩
  | 100 => ⟨S128x490x1, .f32⟩
  | 101 => ⟨S128x490, .f32⟩
  | 102 => ⟨S128x490, .f32⟩
  | 103 => ⟨S128x490x1, .f32⟩
  | 104 => ⟨S128x490, .f32⟩
  | 105 => ⟨S128x490, .f32⟩
  | 106 => ⟨S128x490x1, .f32⟩
  | 107 => ⟨S128x490, .f32⟩
  | 108 => ⟨S128x490, .f32⟩
  | 109 => ⟨S128x490x1, .f32⟩
  | 110 => ⟨S128x490, .f32⟩
  | 111 => ⟨S128x490, .f32⟩
  | 112 => ⟨S128x490x1, .f32⟩
  | 113 => ⟨S128x490, .f32⟩
  | 114 => ⟨S128x490, .f32⟩
  | 115 => ⟨S128x490x1, .f32⟩
  | 116 => ⟨S128x490, .f32⟩
  | 117 => ⟨S128x490, .f32⟩
  | 118 => ⟨S128x490x1, .f32⟩
  | 119 => ⟨S128x490, .f32⟩
  | 120 => ⟨S128x490, .f32⟩
  | 121 => ⟨S128x490x1, .f32⟩
  | 122 => ⟨S128x490, .f32⟩
  | 123 => ⟨S128x490, .f32⟩
  | 124 => ⟨S128x490x1, .f32⟩
  | 125 => ⟨S128x490, .f32⟩
  | 126 => ⟨S128x490, .f32⟩
  | 127 => ⟨S128x490x1, .f32⟩
  | _ => ⟨S128x1x512, .i32⟩

abbrev hbmTy0_17 (i : Nat) : BufTy := match i % 128 with
  | 0 => ⟨S128x490, .f32⟩
  | 1 => ⟨S128x490, .f32⟩
  | 2 => ⟨S128x490x1, .f32⟩
  | 3 => ⟨S128x490, .f32⟩
  | 4 => ⟨S128x490, .f32⟩
  | 5 => ⟨S128x490x1, .f32⟩
  | 6 => ⟨S128x490, .f32⟩
  | 7 => ⟨S128x490, .f32⟩
  | 8 => ⟨S128x490x1, .f32⟩
  | 9 => ⟨S128x490, .f32⟩
  | 10 => ⟨S128x490, .f32⟩
  | 11 => ⟨S1, .f32⟩
  | 12 => ⟨S_, .f32⟩
  | 13 => ⟨S128x490, .f32⟩
  | 14 => ⟨S128x490, .f32⟩
  | 15 => ⟨S128x490, .f32⟩
  | 16 => ⟨S_, .f32⟩
  | 17 => ⟨S128, .f32⟩
  | 18 => ⟨S1x24x300, .f32⟩
  | 19 => ⟨S24x300, .f32⟩
  | 20 => ⟨S128x512x24, .f32⟩
  | 21 => ⟨S128x489x1, .f32⟩
  | 22 => ⟨S128x489, .f32⟩
  | 23 => ⟨S_, .f32⟩
  | 24 => ⟨S128x489, .f32⟩
  | 25 => ⟨S128x489, .f32⟩
  | 26 => ⟨S128x489x1, .f32⟩
  | 27 => ⟨S128x489, .f32⟩
  | 28 => ⟨S128x489, .f32⟩
  | 29 => ⟨S128x489x1, .f32⟩
  | 30 => ⟨S128x489, .f32⟩
  | 31 => ⟨S128x489, .f32⟩
  | 32 => ⟨S128x489x1, .f32⟩
  | 33 => ⟨S128x489, .f32⟩
  | 34 => ⟨S128x489, .f32⟩
  | 35 => ⟨S128x489x1, .f32⟩
  | 36 => ⟨S128x489, .f32⟩
  | 37 => ⟨S128x489, .f32⟩
  | 38 => ⟨S128x489x1, .f32⟩
  | 39 => ⟨S128x489, .f32⟩
  | 40 => ⟨S128x489, .f32⟩
  | 41 => ⟨S128x489x1, .f32⟩
  | 42 => ⟨S128x489, .f32⟩
  | 43 => ⟨S128x489, .f32⟩
  | 44 => ⟨S128x489x1, .f32⟩
  | 45 => ⟨S128x489, .f32⟩
  | 46 => ⟨S128x489, .f32⟩
  | 47 => ⟨S128x489x1, .f32⟩
  | 48 => ⟨S128x489, .f32⟩
  | 49 => ⟨S128x489, .f32⟩
  | 50 => ⟨S128x489x1, .f32⟩
  | 51 => ⟨S128x489, .f32⟩
  | 52 => ⟨S128x489, .f32⟩
  | 53 => ⟨S128x489x1, .f32⟩
  | 54 => ⟨S128x489, .f32⟩
  | 55 => ⟨S128x489, .f32⟩
  | 56 => ⟨S128x489x1, .f32⟩
  | 57 => ⟨S128x489, .f32⟩
  | 58 => ⟨S128x489, .f32⟩
  | 59 => ⟨S128x489x1, .f32⟩
  | 60 => ⟨S128x489, .f32⟩
  | 61 => ⟨S128x489, .f32⟩
  | 62 => ⟨S128x489x1, .f32⟩
  | 63 => ⟨S128x489, .f32⟩
  | 64 => ⟨S128x489, .f32⟩
  | 65 => ⟨S128x489x1, .f32⟩
  | 66 => ⟨S128x489, .f32⟩
  | 67 => ⟨S128x489, .f32⟩
  | 68 => ⟨S128x489x1, .f32⟩
  | 69 => ⟨S128x489, .f32⟩
  | 70 => ⟨S128x489, .f32⟩
  | 71 => ⟨S128x489x1, .f32⟩
  | 72 => ⟨S128x489, .f32⟩
  | 73 => ⟨S128x489, .f32⟩
  | 74 => ⟨S128x489x1, .f32⟩
  | 75 => ⟨S128x489, .f32⟩
  | 76 => ⟨S128x489, .f32⟩
  | 77 => ⟨S128x489x1, .f32⟩
  | 78 => ⟨S128x489, .f32⟩
  | 79 => ⟨S128x489, .f32⟩
  | 80 => ⟨S128x489x1, .f32⟩
  | 81 => ⟨S128x489, .f32⟩
  | 82 => ⟨S128x489, .f32⟩
  | 83 => ⟨S128x489x1, .f32⟩
  | 84 => ⟨S128x489, .f32⟩
  | 85 => ⟨S128x489, .f32⟩
  | 86 => ⟨S128x489x1, .f32⟩
  | 87 => ⟨S128x489, .f32⟩
  | 88 => ⟨S128x489, .f32⟩
  | 89 => ⟨S128x489x1, .f32⟩
  | 90 => ⟨S128x489, .f32⟩
  | 91 => ⟨S128x489, .f32⟩
  | 92 => ⟨S128x489x1, .f32⟩
  | 93 => ⟨S128x489, .f32⟩
  | 94 => ⟨S128x489, .f32⟩
  | 95 => ⟨S1, .f32⟩
  | 96 => ⟨S_, .f32⟩
  | 97 => ⟨S128x489, .f32⟩
  | 98 => ⟨S128x489, .f32⟩
  | 99 => ⟨S128x489, .f32⟩
  | 100 => ⟨S_, .f32⟩
  | 101 => ⟨S128, .f32⟩
  | 102 => ⟨S1x24x300, .f32⟩
  | 103 => ⟨S24x300, .f32⟩
  | 104 => ⟨S128x512x24, .f32⟩
  | 105 => ⟨S128x489x1, .f32⟩
  | 106 => ⟨S128x489, .f32⟩
  | 107 => ⟨S_, .f32⟩
  | 108 => ⟨S128x489, .f32⟩
  | 109 => ⟨S128x489, .f32⟩
  | 110 => ⟨S128x489x1, .f32⟩
  | 111 => ⟨S128x489, .f32⟩
  | 112 => ⟨S128x489, .f32⟩
  | 113 => ⟨S128x489x1, .f32⟩
  | 114 => ⟨S128x489, .f32⟩
  | 115 => ⟨S128x489, .f32⟩
  | 116 => ⟨S128x489x1, .f32⟩
  | 117 => ⟨S128x489, .f32⟩
  | 118 => ⟨S128x489, .f32⟩
  | 119 => ⟨S128x489x1, .f32⟩
  | 120 => ⟨S128x489, .f32⟩
  | 121 => ⟨S128x489, .f32⟩
  | 122 => ⟨S128x489x1, .f32⟩
  | 123 => ⟨S128x489, .f32⟩
  | 124 => ⟨S128x489, .f32⟩
  | 125 => ⟨S128x489x1, .f32⟩
  | 126 => ⟨S128x489, .f32⟩
  | 127 => ⟨S128x489, .f32⟩
  | _ => ⟨S128x1x512, .i32⟩

abbrev hbmTy0_18 (i : Nat) : BufTy := match i % 128 with
  | 0 => ⟨S128x489x1, .f32⟩
  | 1 => ⟨S128x489, .f32⟩
  | 2 => ⟨S128x489, .f32⟩
  | 3 => ⟨S128x489x1, .f32⟩
  | 4 => ⟨S128x489, .f32⟩
  | 5 => ⟨S128x489, .f32⟩
  | 6 => ⟨S128x489x1, .f32⟩
  | 7 => ⟨S128x489, .f32⟩
  | 8 => ⟨S128x489, .f32⟩
  | 9 => ⟨S128x489x1, .f32⟩
  | 10 => ⟨S128x489, .f32⟩
  | 11 => ⟨S128x489, .f32⟩
  | 12 => ⟨S128x489x1, .f32⟩
  | 13 => ⟨S128x489, .f32⟩
  | 14 => ⟨S128x489, .f32⟩
  | 15 => ⟨S128x489x1, .f32⟩
  | 16 => ⟨S128x489, .f32⟩
  | 17 => ⟨S128x489, .f32⟩
  | 18 => ⟨S128x489x1, .f32⟩
  | 19 => ⟨S128x489, .f32⟩
  | 20 => ⟨S128x489, .f32⟩
  | 21 => ⟨S128x489x1, .f32⟩
  | 22 => ⟨S128x489, .f32⟩
  | 23 => ⟨S128x489, .f32⟩
  | 24 => ⟨S128x489x1, .f32⟩
  | 25 => ⟨S128x489, .f32⟩
  | 26 => ⟨S128x489, .f32⟩
  | 27 => ⟨S128x489x1, .f32⟩
  | 28 => ⟨S128x489, .f32⟩
  | 29 => ⟨S128x489, .f32⟩
  | 30 => ⟨S128x489x1, .f32⟩
  | 31 => ⟨S128x489, .f32⟩
  | 32 => ⟨S128x489, .f32⟩
  | 33 => ⟨S128x489x1, .f32⟩
  | 34 => ⟨S128x489, .f32⟩
  | 35 => ⟨S128x489, .f32⟩
  | 36 => ⟨S128x489x1, .f32⟩
  | 37 => ⟨S128x489, .f32⟩
  | 38 => ⟨S128x489, .f32⟩
  | 39 => ⟨S128x489x1, .f32⟩
  | 40 => ⟨S128x489, .f32⟩
  | 41 => ⟨S128x489, .f32⟩
  | 42 => ⟨S128x489x1, .f32⟩
  | 43 => ⟨S128x489, .f32⟩
  | 44 => ⟨S128x489, .f32⟩
  | 45 => ⟨S128x489x1, .f32⟩
  | 46 => ⟨S128x489, .f32⟩
  | 47 => ⟨S128x489, .f32⟩
  | 48 => ⟨S128x489x1, .f32⟩
  | 49 => ⟨S128x489, .f32⟩
  | 50 => ⟨S128x489, .f32⟩
  | 51 => ⟨S1, .f32⟩
  | 52 => ⟨S_, .f32⟩
  | 53 => ⟨S128x489, .f32⟩
  | 54 => ⟨S128x489, .f32⟩
  | 55 => ⟨S128x489, .f32⟩
  | 56 => ⟨S_, .f32⟩
  | 57 => ⟨S128, .f32⟩
  | 58 => ⟨S1x25x300, .f32⟩
  | 59 => ⟨S25x300, .f32⟩
  | 60 => ⟨S128x512x25, .f32⟩
  | 61 => ⟨S128x488x1, .f32⟩
  | 62 => ⟨S128x488, .f32⟩
  | 63 => ⟨S_, .f32⟩
  | 64 => ⟨S128x488, .f32⟩
  | 65 => ⟨S128x488, .f32⟩
  | 66 => ⟨S128x488x1, .f32⟩
  | 67 => ⟨S128x488, .f32⟩
  | 68 => ⟨S128x488, .f32⟩
  | 69 => ⟨S128x488x1, .f32⟩
  | 70 => ⟨S128x488, .f32⟩
  | 71 => ⟨S128x488, .f32⟩
  | 72 => ⟨S128x488x1, .f32⟩
  | 73 => ⟨S128x488, .f32⟩
  | 74 => ⟨S128x488, .f32⟩
  | 75 => ⟨S128x488x1, .f32⟩
  | 76 => ⟨S128x488, .f32⟩
  | 77 => ⟨S128x488, .f32⟩
  | 78 => ⟨S128x488x1, .f32⟩
  | 79 => ⟨S128x488, .f32⟩
  | 80 => ⟨S128x488, .f32⟩
  | 81 => ⟨S128x488x1, .f32⟩
  | 82 => ⟨S128x488, .f32⟩
  | 83 => ⟨S128x488, .f32⟩
  | 84 => ⟨S128x488x1, .f32⟩
  | 85 => ⟨S128x488, .f32⟩
  | 86 => ⟨S128x488, .f32⟩
  | 87 => ⟨S128x488x1, .f32⟩
  | 88 => ⟨S128x488, .f32⟩
  | 89 => ⟨S128x488, .f32⟩
  | 90 => ⟨S128x488x1, .f32⟩
  | 91 => ⟨S128x488, .f32⟩
  | 92 => ⟨S128x488, .f32⟩
  | 93 => ⟨S128x488x1, .f32⟩
  | 94 => ⟨S128x488, .f32⟩
  | 95 => ⟨S128x488, .f32⟩
  | 96 => ⟨S128x488x1, .f32⟩
  | 97 => ⟨S128x488, .f32⟩
  | 98 => ⟨S128x488, .f32⟩
  | 99 => ⟨S128x488x1, .f32⟩
  | 100 => ⟨S128x488, .f32⟩
  | 101 => ⟨S128x488, .f32⟩
  | 102 => ⟨S128x488x1, .f32⟩
  | 103 => ⟨S128x488, .f32⟩
  | 104 => ⟨S128x488, .f32⟩
  | 105 => ⟨S128x488x1, .f32⟩
  | 106 => ⟨S128x488, .f32⟩
  | 107 => ⟨S128x488, .f32⟩
  | 108 => ⟨S128x488x1, .f32⟩
  | 109 => ⟨S128x488, .f32⟩
  | 110 => ⟨S128x488, .f32⟩
  | 111 => ⟨S128x488x1, .f32⟩
  | 112 => ⟨S128x488, .f32⟩
  | 113 => ⟨S128x488, .f32⟩
  | 114 => ⟨S128x488x1, .f32⟩
  | 115 => ⟨S128x488, .f32⟩
  | 116 => ⟨S128x488, .f32⟩
  | 117 => ⟨S128x488x1, .f32⟩
  | 118 => ⟨S128x488, .f32⟩
  | 119 => ⟨S128x488, .f32⟩
  | 120 => ⟨S128x488x1, .f32⟩
  | 121 => ⟨S128x488, .f32⟩
  | 122 => ⟨S128x488, .f32⟩
  | 123 => ⟨S128x488x1, .f32⟩
  | 124 => ⟨S128x488, .f32⟩
  | 125 => ⟨S128x488, .f32⟩
  | 126 => ⟨S128x488x1, .f32⟩
  | 127 => ⟨S128x488, .f32⟩
  | _ => ⟨S128x1x512, .i32⟩

abbrev hbmTy0_19 (i : Nat) : BufTy := match i % 128 with
  | 0 => ⟨S128x488, .f32⟩
  | 1 => ⟨S128x488x1, .f32⟩
  | 2 => ⟨S128x488, .f32⟩
  | 3 => ⟨S128x488, .f32⟩
  | 4 => ⟨S128x488x1, .f32⟩
  | 5 => ⟨S128x488, .f32⟩
  | 6 => ⟨S128x488, .f32⟩
  | 7 => ⟨S128x488x1, .f32⟩
  | 8 => ⟨S128x488, .f32⟩
  | 9 => ⟨S128x488, .f32⟩
  | 10 => ⟨S1, .f32⟩
  | 11 => ⟨S_, .f32⟩
  | 12 => ⟨S128x488, .f32⟩
  | 13 => ⟨S128x488, .f32⟩
  | 14 => ⟨S128x488, .f32⟩
  | 15 => ⟨S_, .f32⟩
  | 16 => ⟨S128, .f32⟩
  | 17 => ⟨S1x25x300, .f32⟩
  | 18 => ⟨S25x300, .f32⟩
  | 19 => ⟨S128x512x25, .f32⟩
  | 20 => ⟨S128x488x1, .f32⟩
  | 21 => ⟨S128x488, .f32⟩
  | 22 => ⟨S_, .f32⟩
  | 23 => ⟨S128x488, .f32⟩
  | 24 => ⟨S128x488, .f32⟩
  | 25 => ⟨S128x488x1, .f32⟩
  | 26 => ⟨S128x488, .f32⟩
  | 27 => ⟨S128x488, .f32⟩
  | 28 => ⟨S128x488x1, .f32⟩
  | 29 => ⟨S128x488, .f32⟩
  | 30 => ⟨S128x488, .f32⟩
  | 31 => ⟨S128x488x1, .f32⟩
  | 32 => ⟨S128x488, .f32⟩
  | 33 => ⟨S128x488, .f32⟩
  | 34 => ⟨S128x488x1, .f32⟩
  | 35 => ⟨S128x488, .f32⟩
  | 36 => ⟨S128x488, .f32⟩
  | 37 => ⟨S128x488x1, .f32⟩
  | 38 => ⟨S128x488, .f32⟩
  | 39 => ⟨S128x488, .f32⟩
  | 40 => ⟨S128x488x1, .f32⟩
  | 41 => ⟨S128x488, .f32⟩
  | 42 => ⟨S128x488, .f32⟩
  | 43 => ⟨S128x488x1, .f32⟩
  | 44 => ⟨S128x488, .f32⟩
  | 45 => ⟨S128x488, .f32⟩
  | 46 => ⟨S128x488x1, .f32⟩
  | 47 => ⟨S128x488, .f32⟩
  | 48 => ⟨S128x488, .f32⟩
  | 49 => ⟨S128x488x1, .f32⟩
  | 50 => ⟨S128x488, .f32⟩
  | 51 => ⟨S128x488, .f32⟩
  | 52 => ⟨S128x488x1, .f32⟩
  | 53 => ⟨S128x488, .f32⟩
  | 54 => ⟨S128x488, .f32⟩
  | 55 => ⟨S128x488x1, .f32⟩
  | 56 => ⟨S128x488, .f32⟩
  | 57 => ⟨S128x488, .f32⟩
  | 58 => ⟨S128x488x1, .f32⟩
  | 59 => ⟨S128x488, .f32⟩
  | 60 => ⟨S128x488, .f32⟩
  | 61 => ⟨S128x488x1, .f32⟩
  | 62 => ⟨S128x488, .f32⟩
  | 63 => ⟨S128x488, .f32⟩
  | 64 => ⟨S128x488x1, .f32⟩
  | 65 => ⟨S128x488, .f32⟩
  | 66 => ⟨S128x488, .f32⟩
  | 67 => ⟨S128x488x1, .f32⟩
  | 68 => ⟨S128x488, .f32⟩
  | 69 => ⟨S128x488, .f32⟩
  | 70 => ⟨S128x488x1, .f32⟩
  | 71 => ⟨S128x488, .f32⟩
  | 72 => ⟨S128x488, .f32⟩
  | 73 => ⟨S128x488x1, .f32⟩
  | 74 => ⟨S128x488, .f32⟩
  | 75 => ⟨S128x488, .f32⟩
  | 76 => ⟨S128x488x1, .f32⟩
  | 77 => ⟨S128x488, .f32⟩
  | 78 => ⟨S128x488, .f32⟩
  | 79 => ⟨S128x488x1, .f32⟩
  | 80 => ⟨S128x488, .f32⟩
  | 81 => ⟨S128x488, .f32⟩
  | 82 => ⟨S128x488x1, .f32⟩
  | 83 => ⟨S128x488, .f32⟩
  | 84 => ⟨S128x488, .f32⟩
  | 85 => ⟨S128x488x1, .f32⟩
  | 86 => ⟨S128x488, .f32⟩
  | 87 => ⟨S128x488, .f32⟩
  | 88 => ⟨S128x488x1, .f32⟩
  | 89 => ⟨S128x488, .f32⟩
  | 90 => ⟨S128x488, .f32⟩
  | 91 => ⟨S128x488x1, .f32⟩
  | 92 => ⟨S128x488, .f32⟩
  | 93 => ⟨S128x488, .f32⟩
  | 94 => ⟨S128x488x1, .f32⟩
  | 95 => ⟨S128x488, .f32⟩
  | 96 => ⟨S128x488, .f32⟩
  | 97 => ⟨S1, .f32⟩
  | 98 => ⟨S_, .f32⟩
  | 99 => ⟨S128x488, .f32⟩
  | 100 => ⟨S128x488, .f32⟩
  | 101 => ⟨S128x488, .f32⟩
  | 102 => ⟨S_, .f32⟩
  | 103 => ⟨S128, .f32⟩
  | 104 => ⟨S1x26x300, .f32⟩
  | 105 => ⟨S26x300, .f32⟩
  | 106 => ⟨S128x512x26, .f32⟩
  | 107 => ⟨S128x487x1, .f32⟩
  | 108 => ⟨S128x487, .f32⟩
  | 109 => ⟨S_, .f32⟩
  | 110 => ⟨S128x487, .f32⟩
  | 111 => ⟨S128x487, .f32⟩
  | 112 => ⟨S128x487x1, .f32⟩
  | 113 => ⟨S128x487, .f32⟩
  | 114 => ⟨S128x487, .f32⟩
  | 115 => ⟨S128x487x1, .f32⟩
  | 116 => ⟨S128x487, .f32⟩
  | 117 => ⟨S128x487, .f32⟩
  | 118 => ⟨S128x487x1, .f32⟩
  | 119 => ⟨S128x487, .f32⟩
  | 120 => ⟨S128x487, .f32⟩
  | 121 => ⟨S128x487x1, .f32⟩
  | 122 => ⟨S128x487, .f32⟩
  | 123 => ⟨S128x487, .f32⟩
  | 124 => ⟨S128x487x1, .f32⟩
  | 125 => ⟨S128x487, .f32⟩
  | 126 => ⟨S128x487, .f32⟩
  | 127 => ⟨S128x487x1, .f32⟩
  | _ => ⟨S128x1x512, .i32⟩

abbrev hbmTy0_20 (i : Nat) : BufTy := match i % 128 with
  | 0 => ⟨S128x487, .f32⟩
  | 1 => ⟨S128x487, .f32⟩
  | 2 => ⟨S128x487x1, .f32⟩
  | 3 => ⟨S128x487, .f32⟩
  | 4 => ⟨S128x487, .f32⟩
  | 5 => ⟨S128x487x1, .f32⟩
  | 6 => ⟨S128x487, .f32⟩
  | 7 => ⟨S128x487, .f32⟩
  | 8 => ⟨S128x487x1, .f32⟩
  | 9 => ⟨S128x487, .f32⟩
  | 10 => ⟨S128x487, .f32⟩
  | 11 => ⟨S128x487x1, .f32⟩
  | 12 => ⟨S128x487, .f32⟩
  | 13 => ⟨S128x487, .f32⟩
  | 14 => ⟨S128x487x1, .f32⟩
  | 15 => ⟨S128x487, .f32⟩
  | 16 => ⟨S128x487, .f32⟩
  | 17 => ⟨S128x487x1, .f32⟩
  | 18 => ⟨S128x487, .f32⟩
  | 19 => ⟨S128x487, .f32⟩
  | 20 => ⟨S128x487x1, .f32⟩
  | 21 => ⟨S128x487, .f32⟩
  | 22 => ⟨S128x487, .f32⟩
  | 23 => ⟨S128x487x1, .f32⟩
  | 24 => ⟨S128x487, .f32⟩
  | 25 => ⟨S128x487, .f32⟩
  | 26 => ⟨S128x487x1, .f32⟩
  | 27 => ⟨S128x487, .f32⟩
  | 28 => ⟨S128x487, .f32⟩
  | 29 => ⟨S128x487x1, .f32⟩
  | 30 => ⟨S128x487, .f32⟩
  | 31 => ⟨S128x487, .f32⟩
  | 32 => ⟨S128x487x1, .f32⟩
  | 33 => ⟨S128x487, .f32⟩
  | 34 => ⟨S128x487, .f32⟩
  | 35 => ⟨S128x487x1, .f32⟩
  | 36 => ⟨S128x487, .f32⟩
  | 37 => ⟨S128x487, .f32⟩
  | 38 => ⟨S128x487x1, .f32⟩
  | 39 => ⟨S128x487, .f32⟩
  | 40 => ⟨S128x487, .f32⟩
  | 41 => ⟨S128x487x1, .f32⟩
  | 42 => ⟨S128x487, .f32⟩
  | 43 => ⟨S128x487, .f32⟩
  | 44 => ⟨S128x487x1, .f32⟩
  | 45 => ⟨S128x487, .f32⟩
  | 46 => ⟨S128x487, .f32⟩
  | 47 => ⟨S128x487x1, .f32⟩
  | 48 => ⟨S128x487, .f32⟩
  | 49 => ⟨S128x487, .f32⟩
  | 50 => ⟨S128x487x1, .f32⟩
  | 51 => ⟨S128x487, .f32⟩
  | 52 => ⟨S128x487, .f32⟩
  | 53 => ⟨S128x487x1, .f32⟩
  | 54 => ⟨S128x487, .f32⟩
  | 55 => ⟨S128x487, .f32⟩
  | 56 => ⟨S128x487x1, .f32⟩
  | 57 => ⟨S128x487, .f32⟩
  | 58 => ⟨S128x487, .f32⟩
  | 59 => ⟨S1, .f32⟩
  | 60 => ⟨S_, .f32⟩
  | 61 => ⟨S128x487, .f32⟩
  | 62 => ⟨S128x487, .f32⟩
  | 63 => ⟨S128x487, .f32⟩
  | 64 => ⟨S_, .f32⟩
  | 65 => ⟨S128, .f32⟩
  | 66 => ⟨S1x26x300, .f32⟩
  | 67 => ⟨S26x300, .f32⟩
  | 68 => ⟨S128x512x26, .f32⟩
  | 69 => ⟨S128x487x1, .f32⟩
  | 70 => ⟨S128x487, .f32⟩
  | 71 => ⟨S_, .f32⟩
  | 72 => ⟨S128x487, .f32⟩
  | 73 => ⟨S128x487, .f32⟩
  | 74 => ⟨S128x487x1, .f32⟩
  | 75 => ⟨S128x487, .f32⟩
  | 76 => ⟨S128x487, .f32⟩
  | 77 => ⟨S128x487x1, .f32⟩
  | 78 => ⟨S128x487, .f32⟩
  | 79 => ⟨S128x487, .f32⟩
  | 80 => ⟨S128x487x1, .f32⟩
  | 81 => ⟨S128x487, .f32⟩
  | 82 => ⟨S128x487, .f32⟩
  | 83 => ⟨S128x487x1, .f32⟩
  | 84 => ⟨S128x487, .f32⟩
  | 85 => ⟨S128x487, .f32⟩
  | 86 => ⟨S128x487x1, .f32⟩
  | 87 => ⟨S128x487, .f32⟩
  | 88 => ⟨S128x487, .f32⟩
  | 89 => ⟨S128x487x1, .f32⟩
  | 90 => ⟨S128x487, .f32⟩
  | 91 => ⟨S128x487, .f32⟩
  | 92 => ⟨S128x487x1, .f32⟩
  | 93 => ⟨S128x487, .f32⟩
  | 94 => ⟨S128x487, .f32⟩
  | 95 => ⟨S128x487x1, .f32⟩
  | 96 => ⟨S128x487, .f32⟩
  | 97 => ⟨S128x487, .f32⟩
  | 98 => ⟨S128x487x1, .f32⟩
  | 99 => ⟨S128x487, .f32⟩
  | 100 => ⟨S128x487, .f32⟩
  | 101 => ⟨S128x487x1, .f32⟩
  | 102 => ⟨S128x487, .f32⟩
  | 103 => ⟨S128x487, .f32⟩
  | 104 => ⟨S128x487x1, .f32⟩
  | 105 => ⟨S128x487, .f32⟩
  | 106 => ⟨S128x487, .f32⟩
  | 107 => ⟨S128x487x1, .f32⟩
  | 108 => ⟨S128x487, .f32⟩
  | 109 => ⟨S128x487, .f32⟩
  | 110 => ⟨S128x487x1, .f32⟩
  | 111 => ⟨S128x487, .f32⟩
  | 112 => ⟨S128x487, .f32⟩
  | 113 => ⟨S128x487x1, .f32⟩
  | 114 => ⟨S128x487, .f32⟩
  | 115 => ⟨S128x487, .f32⟩
  | 116 => ⟨S128x487x1, .f32⟩
  | 117 => ⟨S128x487, .f32⟩
  | 118 => ⟨S128x487, .f32⟩
  | 119 => ⟨S128x487x1, .f32⟩
  | 120 => ⟨S128x487, .f32⟩
  | 121 => ⟨S128x487, .f32⟩
  | 122 => ⟨S128x487x1, .f32⟩
  | 123 => ⟨S128x487, .f32⟩
  | 124 => ⟨S128x487, .f32⟩
  | 125 => ⟨S128x487x1, .f32⟩
  | 126 => ⟨S128x487, .f32⟩
  | 127 => ⟨S128x487, .f32⟩
  | _ => ⟨S128x1x512, .i32⟩

abbrev hbmTy0_21 (i : Nat) : BufTy := match i % 128 with
  | 0 => ⟨S128x487x1, .f32⟩
  | 1 => ⟨S128x487, .f32⟩
  | 2 => ⟨S128x487, .f32⟩
  | 3 => ⟨S128x487x1, .f32⟩
  | 4 => ⟨S128x487, .f32⟩
  | 5 => ⟨S128x487, .f32⟩
  | 6 => ⟨S128x487x1, .f32⟩
  | 7 => ⟨S128x487, .f32⟩
  | 8 => ⟨S128x487, .f32⟩
  | 9 => ⟨S128x487x1, .f32⟩
  | 10 => ⟨S128x487, .f32⟩
  | 11 => ⟨S128x487, .f32⟩
  | 12 => ⟨S128x487x1, .f32⟩
  | 13 => ⟨S128x487, .f32⟩
  | 14 => ⟨S128x487, .f32⟩
  | 15 => ⟨S128x487x1, .f32⟩
  | 16 => ⟨S128x487, .f32⟩
  | 17 => ⟨S128x487, .f32⟩
  | 18 => ⟨S128x487x1, .f32⟩
  | 19 => ⟨S128x487, .f32⟩
  | 20 => ⟨S128x487, .f32⟩
  | 21 => ⟨S1, .f32⟩
  | 22 => ⟨S_, .f32⟩
  | 23 => ⟨S128x487, .f32⟩
  | 24 => ⟨S128x487, .f32⟩
  | 25 => ⟨S128x487, .f32⟩
  | 26 => ⟨S_, .f32⟩
  | 27 => ⟨S128, .f32⟩
  | 28 => ⟨S1x27x300, .f32⟩
  | 29 => ⟨S27x300, .f32⟩
  | 30 => ⟨S128x512x27, .f32⟩
  | 31 => ⟨S128x486x1, .f32⟩
  | 32 => ⟨S128x486, .f32⟩
  | 33 => ⟨S_, .f32⟩
  | 34 => ⟨S128x486, .f32⟩
  | 35 => ⟨S128x486, .f32⟩
  | 36 => ⟨S128x486x1, .f32⟩
  | 37 => ⟨S128x486, .f32⟩
  | 38 => ⟨S128x486, .f32⟩
  | 39 => ⟨S128x486x1, .f32⟩
  | 40 => ⟨S128x486, .f32⟩
  | 41 => ⟨S128x486, .f32⟩
  | 42 => ⟨S128x486x1, .f32⟩
  | 43 => ⟨S128x486, .f32⟩
  | 44 => ⟨S128x486, .f32⟩
  | 45 => ⟨S128x486x1, .f32⟩
  | 46 => ⟨S128x486, .f32⟩
  | 47 => ⟨S128x486, .f32⟩
  | 48 => ⟨S128x486x1, .f32⟩
  | 49 => ⟨S128x486, .f32⟩
  | 50 => ⟨S128x486, .f32⟩
  | 51 => ⟨S128x486x1, .f32⟩
  | 52 => ⟨S128x486, .f32⟩
  | 53 => ⟨S128x486, .f32⟩
  | 54 => ⟨S128x486x1, .f32⟩
  | 55 => ⟨S128x486, .f32⟩
  | 56 => ⟨S128x486, .f32⟩
  | 57 => ⟨S128x486x1, .f32⟩
  | 58 => ⟨S128x486, .f32⟩
  | 59 => ⟨S128x486, .f32⟩
  | 60 => ⟨S128x486x1, .f32⟩
  | 61 => ⟨S128x486, .f32⟩
  | 62 => ⟨S128x486, .f32⟩
  | 63 => ⟨S128x486x1, .f32⟩
  | 64 => ⟨S128x486, .f32⟩
  | 65 => ⟨S128x486, .f32⟩
  | 66 => ⟨S128x486x1, .f32⟩
  | 67 => ⟨S128x486, .f32⟩
  | 68 => ⟨S128x486, .f32⟩
  | 69 => ⟨S128x486x1, .f32⟩
  | 70 => ⟨S128x486, .f32⟩
  | 71 => ⟨S128x486, .f32⟩
  | 72 => ⟨S128x486x1, .f32⟩
  | 73 => ⟨S128x486, .f32⟩
  | 74 => ⟨S128x486, .f32⟩
  | 75 => ⟨S128x486x1, .f32⟩
  | 76 => ⟨S128x486, .f32⟩
  | 77 => ⟨S128x486, .f32⟩
  | 78 => ⟨S128x486x1, .f32⟩
  | 79 => ⟨S128x486, .f32⟩
  | 80 => ⟨S128x486, .f32⟩
  | 81 => ⟨S128x486x1, .f32⟩
  | 82 => ⟨S128x486, .f32⟩
  | 83 => ⟨S128x486, .f32⟩
  | 84 => ⟨S128x486x1, .f32⟩
  | 85 => ⟨S128x486, .f32⟩
  | 86 => ⟨S128x486, .f32⟩
  | 87 => ⟨S128x486x1, .f32⟩
  | 88 => ⟨S128x486, .f32⟩
  | 89 => ⟨S128x486, .f32⟩
  | 90 => ⟨S128x486x1, .f32⟩
  | 91 => ⟨S128x486, .f32⟩
  | 92 => ⟨S128x486, .f32⟩
  | 93 => ⟨S128x486x1, .f32⟩
  | 94 => ⟨S128x486, .f32⟩
  | 95 => ⟨S128x486, .f32⟩
  | 96 => ⟨S128x486x1, .f32⟩
  | 97 => ⟨S128x486, .f32⟩
  | 98 => ⟨S128x486, .f32⟩
  | 99 => ⟨S128x486x1, .f32⟩
  | 100 => ⟨S128x486, .f32⟩
  | 101 => ⟨S128x486, .f32⟩
  | 102 => ⟨S128x486x1, .f32⟩
  | 103 => ⟨S128x486, .f32⟩
  | 104 => ⟨S128x486, .f32⟩
  | 105 => ⟨S128x486x1, .f32⟩
  | 106 => ⟨S128x486, .f32⟩
  | 107 => ⟨S128x486, .f32⟩
  | 108 => ⟨S128x486x1, .f32⟩
  | 109 => ⟨S128x486, .f32⟩
  | 110 => ⟨S128x486, .f32⟩
  | 111 => ⟨S128x486x1, .f32⟩
  | 112 => ⟨S128x486, .f32⟩
  | 113 => ⟨S128x486, .f32⟩
  | 114 => ⟨S1, .f32⟩
  | 115 => ⟨S_, .f32⟩
  | 116 => ⟨S128x486, .f32⟩
  | 117 => ⟨S128x486, .f32⟩
  | 118 => ⟨S128x486, .f32⟩
  | 119 => ⟨S_, .f32⟩
  | 120 => ⟨S128, .f32⟩
  | 121 => ⟨S1x27x300, .f32⟩
  | 122 => ⟨S27x300, .f32⟩
  | 123 => ⟨S128x512x27, .f32⟩
  | 124 => ⟨S128x486x1, .f32⟩
  | 125 => ⟨S128x486, .f32⟩
  | 126 => ⟨S_, .f32⟩
  | 127 => ⟨S128x486, .f32⟩
  | _ => ⟨S128x1x512, .i32⟩

abbrev hbmTy0_22 (i : Nat) : BufTy := match i % 128 with
  | 0 => ⟨S128x486, .f32⟩
  | 1 => ⟨S128x486x1, .f32⟩
  | 2 => ⟨S128x486, .f32⟩
  | 3 => ⟨S128x486, .f32⟩
  | 4 => ⟨S128x486x1, .f32⟩
  | 5 => ⟨S128x486, .f32⟩
  | 6 => ⟨S128x486, .f32⟩
  | 7 => ⟨S128x486x1, .f32⟩
  | 8 => ⟨S128x486, .f32⟩
  | 9 => ⟨S128x486, .f32⟩
  | 10 => ⟨S128x486x1, .f32⟩
  | 11 => ⟨S128x486, .f32⟩
  | 12 => ⟨S128x486, .f32⟩
  | 13 => ⟨S128x486x1, .f32⟩
  | 14 => ⟨S128x486, .f32⟩
  | 15 => ⟨S128x486, .f32⟩
  | 16 => ⟨S128x486x1, .f32⟩
  | 17 => ⟨S128x486, .f32⟩
  | 18 => ⟨S128x486, .f32⟩
  | 19 => ⟨S128x486x1, .f32⟩
  | 20 => ⟨S128x486, .f32⟩
  | 21 => ⟨S128x486, .f32⟩
  | 22 => ⟨S128x486x1, .f32⟩
  | 23 => ⟨S128x486, .f32⟩
  | 24 => ⟨S128x486, .f32⟩
  | 25 => ⟨S128x486x1, .f32⟩
  | 26 => ⟨S128x486, .f32⟩
  | 27 => ⟨S128x486, .f32⟩
  | 28 => ⟨S128x486x1, .f32⟩
  | 29 => ⟨S128x486, .f32⟩
  | 30 => ⟨S128x486, .f32⟩
  | 31 => ⟨S128x486x1, .f32⟩
  | 32 => ⟨S128x486, .f32⟩
  | 33 => ⟨S128x486, .f32⟩
  | 34 => ⟨S128x486x1, .f32⟩
  | 35 => ⟨S128x486, .f32⟩
  | 36 => ⟨S128x486, .f32⟩
  | 37 => ⟨S128x486x1, .f32⟩
  | 38 => ⟨S128x486, .f32⟩
  | 39 => ⟨S128x486, .f32⟩
  | 40 => ⟨S128x486x1, .f32⟩
  | 41 => ⟨S128x486, .f32⟩
  | 42 => ⟨S128x486, .f32⟩
  | 43 => ⟨S128x486x1, .f32⟩
  | 44 => ⟨S128x486, .f32⟩
  | 45 => ⟨S128x486, .f32⟩
  | 46 => ⟨S128x486x1, .f32⟩
  | 47 => ⟨S128x486, .f32⟩
  | 48 => ⟨S128x486, .f32⟩
  | 49 => ⟨S128x486x1, .f32⟩
  | 50 => ⟨S128x486, .f32⟩
  | 51 => ⟨S128x486, .f32⟩
  | 52 => ⟨S128x486x1, .f32⟩
  | 53 => ⟨S128x486, .f32⟩
  | 54 => ⟨S128x486, .f32⟩
  | 55 => ⟨S128x486x1, .f32⟩
  | 56 => ⟨S128x486, .f32⟩
  | 57 => ⟨S128x486, .f32⟩
  | 58 => ⟨S128x486x1, .f32⟩
  | 59 => ⟨S128x486, .f32⟩
  | 60 => ⟨S128x486, .f32⟩
  | 61 => ⟨S128x486x1, .f32⟩
  | 62 => ⟨S128x486, .f32⟩
  | 63 => ⟨S128x486, .f32⟩
  | 64 => ⟨S128x486x1, .f32⟩
  | 65 => ⟨S128x486, .f32⟩
  | 66 => ⟨S128x486, .f32⟩
  | 67 => ⟨S128x486x1, .f32⟩
  | 68 => ⟨S128x486, .f32⟩
  | 69 => ⟨S128x486, .f32⟩
  | 70 => ⟨S128x486x1, .f32⟩
  | 71 => ⟨S128x486, .f32⟩
  | 72 => ⟨S128x486, .f32⟩
  | 73 => ⟨S128x486x1, .f32⟩
  | 74 => ⟨S128x486, .f32⟩
  | 75 => ⟨S128x486, .f32⟩
  | 76 => ⟨S128x486x1, .f32⟩
  | 77 => ⟨S128x486, .f32⟩
  | 78 => ⟨S128x486, .f32⟩
  | 79 => ⟨S1, .f32⟩
  | 80 => ⟨S_, .f32⟩
  | 81 => ⟨S128x486, .f32⟩
  | 82 => ⟨S128x486, .f32⟩
  | 83 => ⟨S128x486, .f32⟩
  | 84 => ⟨S_, .f32⟩
  | 85 => ⟨S128, .f32⟩
  | 86 => ⟨S1x28x300, .f32⟩
  | 87 => ⟨S28x300, .f32⟩
  | 88 => ⟨S128x512x28, .f32⟩
  | 89 => ⟨S128x485x1, .f32⟩
  | 90 => ⟨S128x485, .f32⟩
  | 91 => ⟨S_, .f32⟩
  | 92 => ⟨S128x485, .f32⟩
  | 93 => ⟨S128x485, .f32⟩
  | 94 => ⟨S128x485x1, .f32⟩
  | 95 => ⟨S128x485, .f32⟩
  | 96 => ⟨S128x485, .f32⟩
  | 97 => ⟨S128x485x1, .f32⟩
  | 98 => ⟨S128x485, .f32⟩
  | 99 => ⟨S128x485, .f32⟩
  | 100 => ⟨S128x485x1, .f32⟩
  | 101 => ⟨S128x485, .f32⟩
  | 102 => ⟨S128x485, .f32⟩
  | 103 => ⟨S128x485x1, .f32⟩
  | 104 => ⟨S128x485, .f32⟩
  | 105 => ⟨S128x485, .f32⟩
  | 106 => ⟨S128x485x1, .f32⟩
  | 107 => ⟨S128x485, .f32⟩
  | 108 => ⟨S128x485, .f32⟩
  | 109 => ⟨S128x485x1, .f32⟩
  | 110 => ⟨S128x485, .f32⟩
  | 111 => ⟨S128x485, .f32⟩
  | 112 => ⟨S128x485x1, .f32⟩
  | 113 => ⟨S128x485, .f32⟩
  | 114 => ⟨S128x485, .f32⟩
  | 115 => ⟨S128x485x1, .f32⟩
  | 116 => ⟨S128x485, .f32⟩
  | 117 => ⟨S128x485, .f32⟩
  | 118 => ⟨S128x485x1, .f32⟩
  | 119 => ⟨S128x485, .f32⟩
  | 120 => ⟨S128x485, .f32⟩
  | 121 => ⟨S128x485x1, .f32⟩
  | 122 => ⟨S128x485, .f32⟩
  | 123 => ⟨S128x485, .f32⟩
  | 124 => ⟨S128x485x1, .f32⟩
  | 125 => ⟨S128x485, .f32⟩
  | 126 => ⟨S128x485, .f32⟩
  | 127 => ⟨S128x485x1, .f32⟩
  | _ => ⟨S128x1x512, .i32⟩

abbrev hbmTy0_23 (i : Nat) : BufTy := match i % 128 with
  | 0 => ⟨S128x485, .f32⟩
  | 1 => ⟨S128x485, .f32⟩
  | 2 => ⟨S128x485x1, .f32⟩
  | 3 => ⟨S128x485, .f32⟩
  | 4 => ⟨S128x485, .f32⟩
  | 5 => ⟨S128x485x1, .f32⟩
  | 6 => ⟨S128x485, .f32⟩
  | 7 => ⟨S128x485, .f32⟩
  | 8 => ⟨S128x485x1, .f32⟩
  | 9 => ⟨S128x485, .f32⟩
  | 10 => ⟨S128x485, .f32⟩
  | 11 => ⟨S128x485x1, .f32⟩
  | 12 => ⟨S128x485, .f32⟩
  | 13 => ⟨S128x485, .f32⟩
  | 14 => ⟨S128x485x1, .f32⟩
  | 15 => ⟨S128x485, .f32⟩
  | 16 => ⟨S128x485, .f32⟩
  | 17 => ⟨S128x485x1, .f32⟩
  | 18 => ⟨S128x485, .f32⟩
  | 19 => ⟨S128x485, .f32⟩
  | 20 => ⟨S128x485x1, .f32⟩
  | 21 => ⟨S128x485, .f32⟩
  | 22 => ⟨S128x485, .f32⟩
  | 23 => ⟨S128x485x1, .f32⟩
  | 24 => ⟨S128x485, .f32⟩
  | 25 => ⟨S128x485, .f32⟩
  | 26 => ⟨S128x485x1, .f32⟩
  | 27 => ⟨S128x485, .f32⟩
  | 28 => ⟨S128x485, .f32⟩
  | 29 => ⟨S128x485x1, .f32⟩
  | 30 => ⟨S128x485, .f32⟩
  | 31 => ⟨S128x485, .f32⟩
  | 32 => ⟨S128x485x1, .f32⟩
  | 33 => ⟨S128x485, .f32⟩
  | 34 => ⟨S128x485, .f32⟩
  | 35 => ⟨S128x485x1, .f32⟩
  | 36 => ⟨S128x485, .f32⟩
  | 37 => ⟨S128x485, .f32⟩
  | 38 => ⟨S128x485x1, .f32⟩
  | 39 => ⟨S128x485, .f32⟩
  | 40 => ⟨S128x485, .f32⟩
  | 41 => ⟨S128x485x1, .f32⟩
  | 42 => ⟨S128x485, .f32⟩
  | 43 => ⟨S128x485, .f32⟩
  | 44 => ⟨S128x485x1, .f32⟩
  | 45 => ⟨S128x485, .f32⟩
  | 46 => ⟨S128x485, .f32⟩
  | 47 => ⟨S1, .f32⟩
  | 48 => ⟨S_, .f32⟩
  | 49 => ⟨S128x485, .f32⟩
  | 50 => ⟨S128x485, .f32⟩
  | 51 => ⟨S128x485, .f32⟩
  | 52 => ⟨S_, .f32⟩
  | 53 => ⟨S128, .f32⟩
  | 54 => ⟨S1x28x300, .f32⟩
  | 55 => ⟨S28x300, .f32⟩
  | 56 => ⟨S128x512x28, .f32⟩
  | 57 => ⟨S128x485x1, .f32⟩
  | 58 => ⟨S128x485, .f32⟩
  | 59 => ⟨S_, .f32⟩
  | 60 => ⟨S128x485, .f32⟩
  | 61 => ⟨S128x485, .f32⟩
  | 62 => ⟨S128x485x1, .f32⟩
  | 63 => ⟨S128x485, .f32⟩
  | 64 => ⟨S128x485, .f32⟩
  | 65 => ⟨S128x485x1, .f32⟩
  | 66 => ⟨S128x485, .f32⟩
  | 67 => ⟨S128x485, .f32⟩
  | 68 => ⟨S128x485x1, .f32⟩
  | 69 => ⟨S128x485, .f32⟩
  | 70 => ⟨S128x485, .f32⟩
  | 71 => ⟨S128x485x1, .f32⟩
  | 72 => ⟨S128x485, .f32⟩
  | 73 => ⟨S128x485, .f32⟩
  | 74 => ⟨S128x485x1, .f32⟩
  | 75 => ⟨S128x485, .f32⟩
  | 76 => ⟨S128x485, .f32⟩
  | 77 => ⟨S128x485x1, .f32⟩
  | 78 => ⟨S128x485, .f32⟩
  | 79 => ⟨S128x485, .f32⟩
  | 80 => ⟨S128x485x1, .f32⟩
  | 81 => ⟨S128x485, .f32⟩
  | 82 => ⟨S128x485, .f32⟩
  | 83 => ⟨S128x485x1, .f32⟩
  | 84 => ⟨S128x485, .f32⟩
  | 85 => ⟨S128x485, .f32⟩
  | 86 => ⟨S128x485x1, .f32⟩
  | 87 => ⟨S128x485, .f32⟩
  | 88 => ⟨S128x485, .f32⟩
  | 89 => ⟨S128x485x1, .f32⟩
  | 90 => ⟨S128x485, .f32⟩
  | 91 => ⟨S128x485, .f32⟩
  | 92 => ⟨S128x485x1, .f32⟩
  | 93 => ⟨S128x485, .f32⟩
  | 94 => ⟨S128x485, .f32⟩
  | 95 => ⟨S128x485x1, .f32⟩
  | 96 => ⟨S128x485, .f32⟩
  | 97 => ⟨S128x485, .f32⟩
  | 98 => ⟨S128x485x1, .f32⟩
  | 99 => ⟨S128x485, .f32⟩
  | 100 => ⟨S128x485, .f32⟩
  | 101 => ⟨S128x485x1, .f32⟩
  | 102 => ⟨S128x485, .f32⟩
  | 103 => ⟨S128x485, .f32⟩
  | 104 => ⟨S128x485x1, .f32⟩
  | 105 => ⟨S128x485, .f32⟩
  | 106 => ⟨S128x485, .f32⟩
  | 107 => ⟨S128x485x1, .f32⟩
  | 108 => ⟨S128x485, .f32⟩
  | 109 => ⟨S128x485, .f32⟩
  | 110 => ⟨S128x485x1, .f32⟩
  | 111 => ⟨S128x485, .f32⟩
  | 112 => ⟨S128x485, .f32⟩
  | 113 => ⟨S128x485x1, .f32⟩
  | 114 => ⟨S128x485, .f32⟩
  | 115 => ⟨S128x485, .f32⟩
  | 116 => ⟨S128x485x1, .f32⟩
  | 117 => ⟨S128x485, .f32⟩
  | 118 => ⟨S128x485, .f32⟩
  | 119 => ⟨S128x485x1, .f32⟩
  | 120 => ⟨S128x485, .f32⟩
  | 121 => ⟨S128x485, .f32⟩
  | 122 => ⟨S128x485x1, .f32⟩
  | 123 => ⟨S128x485, .f32⟩
  | 124 => ⟨S128x485, .f32⟩
  | 125 => ⟨S128x485x1, .f32⟩
  | 126 => ⟨S128x485, .f32⟩
  | 127 => ⟨S128x485, .f32⟩
  | _ => ⟨S128x1x512, .i32⟩

abbrev hbmTy0_24 (i : Nat) : BufTy := match i % 128 with
  | 0 => ⟨S128x485x1, .f32⟩
  | 1 => ⟨S128x485, .f32⟩
  | 2 => ⟨S128x485, .f32⟩
  | 3 => ⟨S128x485x1, .f32⟩
  | 4 => ⟨S128x485, .f32⟩
  | 5 => ⟨S128x485, .f32⟩
  | 6 => ⟨S128x485x1, .f32⟩
  | 7 => ⟨S128x485, .f32⟩
  | 8 => ⟨S128x485, .f32⟩
  | 9 => ⟨S128x485x1, .f32⟩
  | 10 => ⟨S128x485, .f32⟩
  | 11 => ⟨S128x485, .f32⟩
  | 12 => ⟨S128x485x1, .f32⟩
  | 13 => ⟨S128x485, .f32⟩
  | 14 => ⟨S128x485, .f32⟩
  | 15 => ⟨S1, .f32⟩
  | 16 => ⟨S_, .f32⟩
  | 17 => ⟨S128x485, .f32⟩
  | 18 => ⟨S128x485, .f32⟩
  | 19 => ⟨S128x485, .f32⟩
  | 20 => ⟨S_, .f32⟩
  | 21 => ⟨S128, .f32⟩
  | 22 => ⟨S1x29x300, .f32⟩
  | 23 => ⟨S29x300, .f32⟩
  | 24 => ⟨S128x512x29, .f32⟩
  | 25 => ⟨S128x484x1, .f32⟩
  | 26 => ⟨S128x484, .f32⟩
  | 27 => ⟨S_, .f32⟩
  | 28 => ⟨S128x484, .f32⟩
  | 29 => ⟨S128x484, .f32⟩
  | 30 => ⟨S128x484x1, .f32⟩
  | 31 => ⟨S128x484, .f32⟩
  | 32 => ⟨S128x484, .f32⟩
  | 33 => ⟨S128x484x1, .f32⟩
  | 34 => ⟨S128x484, .f32⟩
  | 35 => ⟨S128x484, .f32⟩
  | 36 => ⟨S128x484x1, .f32⟩
  | 37 => ⟨S128x484, .f32⟩
  | 38 => ⟨S128x484, .f32⟩
  | 39 => ⟨S128x484x1, .f32⟩
  | 40 => ⟨S128x484, .f32⟩
  | 41 => ⟨S128x484, .f32⟩
  | 42 => ⟨S128x484x1, .f32⟩
  | 43 => ⟨S128x484, .f32⟩
  | 44 => ⟨S128x484, .f32⟩
  | 45 => ⟨S128x484x1, .f32⟩
  | 46 => ⟨S128x484, .f32⟩
  | 47 => ⟨S128x484, .f32⟩
  | 48 => ⟨S128x484x1, .f32⟩
  | 49 => ⟨S128x484, .f32⟩
  | 50 => ⟨S128x484, .f32⟩
  | 51 => ⟨S128x484x1, .f32⟩
  | 52 => ⟨S128x484, .f32⟩
  | 53 => ⟨S128x484, .f32⟩
  | 54 => ⟨S128x484x1, .f32⟩
  | 55 => ⟨S128x484, .f32⟩
  | 56 => ⟨S128x484, .f32⟩
  | 57 => ⟨S128x484x1, .f32⟩
  | 58 => ⟨S128x484, .f32⟩
  | 59 => ⟨S128x484, .f32⟩
  | 60 => ⟨S128x484x1, .f32⟩
  | 61 => ⟨S128x484, .f32⟩
  | 62 => ⟨S128x484, .f32⟩
  | 63 => ⟨S128x484x1, .f32⟩
  | 64 => ⟨S128x484, .f32⟩
  | 65 => ⟨S128x484, .f32⟩
  | 66 => ⟨S128x484x1, .f32⟩
  | 67 => ⟨S128x484, .f32⟩
  | 68 => ⟨S128x484, .f32⟩
  | 69 => ⟨S128x484x1, .f32⟩
  | 70 => ⟨S128x484, .f32⟩
  | 71 => ⟨S128x484, .f32⟩
  | 72 => ⟨S128x484x1, .f32⟩
  | 73 => ⟨S128x484, .f32⟩
  | 74 => ⟨S128x484, .f32⟩
  | 75 => ⟨S128x484x1, .f32⟩
  | 76 => ⟨S128x484, .f32⟩
  | 77 => ⟨S128x484, .f32⟩
  | 78 => ⟨S128x484x1, .f32⟩
  | 79 => ⟨S128x484, .f32⟩
  | 80 => ⟨S128x484, .f32⟩
  | 81 => ⟨S128x484x1, .f32⟩
  | 82 => ⟨S128x484, .f32⟩
  | 83 => ⟨S128x484, .f32⟩
  | 84 => ⟨S128x484x1, .f32⟩
  | 85 => ⟨S128x484, .f32⟩
  | 86 => ⟨S128x484, .f32⟩
  | 87 => ⟨S128x484x1, .f32⟩
  | 88 => ⟨S128x484, .f32⟩
  | 89 => ⟨S128x484, .f32⟩
  | 90 => ⟨S128x484x1, .f32⟩
  | 91 => ⟨S128x484, .f32⟩
  | 92 => ⟨S128x484, .f32⟩
  | 93 => ⟨S128x484x1, .f32⟩
  | 94 => ⟨S128x484, .f32⟩
  | 95 => ⟨S128x484, .f32⟩
  | 96 => ⟨S128x484x1, .f32⟩
  | 97 => ⟨S128x484, .f32⟩
  | 98 => ⟨S128x484, .f32⟩
  | 99 => ⟨S128x484x1, .f32⟩
  | 100 => ⟨S128x484, .f32⟩
  | 101 => ⟨S128x484, .f32⟩
  | 102 => ⟨S128x484x1, .f32⟩
  | 103 => ⟨S128x484, .f32⟩
  | 104 => ⟨S128x484, .f32⟩
  | 105 => ⟨S128x484x1, .f32⟩
  | 106 => ⟨S128x484, .f32⟩
  | 107 => ⟨S128x484, .f32⟩
  | 108 => ⟨S128x484x1, .f32⟩
  | 109 => ⟨S128x484, .f32⟩
  | 110 => ⟨S128x484, .f32⟩
  | 111 => ⟨S128x484x1, .f32⟩
  | 112 => ⟨S128x484, .f32⟩
  | 113 => ⟨S128x484, .f32⟩
  | 114 => ⟨S1, .f32⟩
  | 115 => ⟨S_, .f32⟩
  | 116 => ⟨S128x484, .f32⟩
  | 117 => ⟨S128x484, .f32⟩
  | 118 => ⟨S128x484, .f32⟩
  | 119 => ⟨S_, .f32⟩
  | 120 => ⟨S128, .f32⟩
  | 121 => ⟨S1x29x300, .f32⟩
  | 122 => ⟨S29x300, .f32⟩
  | 123 => ⟨S128x512x29, .f32⟩
  | 124 => ⟨S128x484x1, .f32⟩
  | 125 => ⟨S128x484, .f32⟩
  | 126 => ⟨S_, .f32⟩
  | 127 => ⟨S128x484, .f32⟩
  | _ => ⟨S128x1x512, .i32⟩

abbrev hbmTy0_25 (i : Nat) : BufTy := match i % 128 with
  | 0 => ⟨S128x484, .f32⟩
  | 1 => ⟨S128x484x1, .f32⟩
  | 2 => ⟨S128x484, .f32⟩
  | 3 => ⟨S128x484, .f32⟩
  | 4 => ⟨S128x484x1, .f32⟩
  | 5 => ⟨S128x484, .f32⟩
  | 6 => ⟨S128x484, .f32⟩
  | 7 => ⟨S128x484x1, .f32⟩
  | 8 => ⟨S128x484, .f32⟩
  | 9 => ⟨S128x484, .f32⟩
  | 10 => ⟨S128x484x1, .f32⟩
  | 11 => ⟨S128x484, .f32⟩
  | 12 => ⟨S128x484, .f32⟩
  | 13 => ⟨S128x484x1, .f32⟩
  | 14 => ⟨S128x484, .f32⟩
  | 15 => ⟨S128x484, .f32⟩
  | 16 => ⟨S128x484x1, .f32⟩
  | 17 => ⟨S128x484, .f32⟩
  | 18 => ⟨S128x484, .f32⟩
  | 19 => ⟨S128x484x1, .f32⟩
  | 20 => ⟨S128x484, .f32⟩
  | 21 => ⟨S128x484, .f32⟩
  | 22 => ⟨S128x484x1, .f32⟩
  | 23 => ⟨S128x484, .f32⟩
  | 24 => ⟨S128x484, .f32⟩
  | 25 => ⟨S128x484x1, .f32⟩
  | 26 => ⟨S128x484, .f32⟩
  | 27 => ⟨S128x484, .f32⟩
  | 28 => ⟨S128x484x1, .f32⟩
  | 29 => ⟨S128x484, .f32⟩
  | 30 => ⟨S128x484, .f32⟩
  | 31 => ⟨S128x484x1, .f32⟩
  | 32 => ⟨S128x484, .f32⟩
  | 33 => ⟨S128x484, .f32⟩
  | 34 => ⟨S128x484x1, .f32⟩
  | 35 => ⟨S128x484, .f32⟩
  | 36 => ⟨S128x484, .f32⟩
  | 37 => ⟨S128x484x1, .f32⟩
  | 38 => ⟨S128x484, .f32⟩
  | 39 => ⟨S128x484, .f32⟩
  | 40 => ⟨S128x484x1, .f32⟩
  | 41 => ⟨S128x484, .f32⟩
  | 42 => ⟨S128x484, .f32⟩
  | 43 => ⟨S128x484x1, .f32⟩
  | 44 => ⟨S128x484, .f32⟩
  | 45 => ⟨S128x484, .f32⟩
  | 46 => ⟨S128x484x1, .f32⟩
  | 47 => ⟨S128x484, .f32⟩
  | 48 => ⟨S128x484, .f32⟩
  | 49 => ⟨S128x484x1, .f32⟩
  | 50 => ⟨S128x484, .f32⟩
  | 51 => ⟨S128x484, .f32⟩
  | 52 => ⟨S128x484x1, .f32⟩
  | 53 => ⟨S128x484, .f32⟩
  | 54 => ⟨S128x484, .f32⟩
  | 55 => ⟨S128x484x1, .f32⟩
  | 56 => ⟨S128x484, .f32⟩
  | 57 => ⟨S128x484, .f32⟩
  | 58 => ⟨S128x484x1, .f32⟩
  | 59 => ⟨S128x484, .f32⟩
  | 60 => ⟨S128x484, .f32⟩
  | 61 => ⟨S128x484x1, .f32⟩
  | 62 => ⟨S128x484, .f32⟩
  | 63 => ⟨S128x484, .f32⟩
  | 64 => ⟨S128x484x1, .f32⟩
  | 65 => ⟨S128x484, .f32⟩
  | 66 => ⟨S128x484, .f32⟩
  | 67 => ⟨S128x484x1, .f32⟩
  | 68 => ⟨S128x484, .f32⟩
  | 69 => ⟨S128x484, .f32⟩
  | 70 => ⟨S128x484x1, .f32⟩
  | 71 => ⟨S128x484, .f32⟩
  | 72 => ⟨S128x484, .f32⟩
  | 73 => ⟨S128x484x1, .f32⟩
  | 74 => ⟨S128x484, .f32⟩
  | 75 => ⟨S128x484, .f32⟩
  | 76 => ⟨S128x484x1, .f32⟩
  | 77 => ⟨S128x484, .f32⟩
  | 78 => ⟨S128x484, .f32⟩
  | 79 => ⟨S128x484x1, .f32⟩
  | 80 => ⟨S128x484, .f32⟩
  | 81 => ⟨S128x484, .f32⟩
  | 82 => ⟨S128x484x1, .f32⟩
  | 83 => ⟨S128x484, .f32⟩
  | 84 => ⟨S128x484, .f32⟩
  | 85 => ⟨S1, .f32⟩
  | 86 => ⟨S_, .f32⟩
  | 87 => ⟨S128x484, .f32⟩
  | 88 => ⟨S128x484, .f32⟩
  | 89 => ⟨S128x484, .f32⟩
  | 90 => ⟨S_, .f32⟩
  | 91 => ⟨S128, .f32⟩
  | 92 => ⟨S1x30x300, .f32⟩
  | 93 => ⟨S30x300, .f32⟩
  | 94 => ⟨S128x512x30, .f32⟩
  | 95 => ⟨S128x483x1, .f32⟩
  | 96 => ⟨S128x483, .f32⟩
  | 97 => ⟨S_, .f32⟩
  | 98 => ⟨S128x483, .f32⟩
  | 99 => ⟨S128x483, .f32⟩
  | 100 => ⟨S128x483x1, .f32⟩
  | 101 => ⟨S128x483, .f32⟩
  | 102 => ⟨S128x483, .f32⟩
  | 103 => ⟨S128x483x1, .f32⟩
  | 104 => ⟨S128x483, .f32⟩
  | 105 => ⟨S128x483, .f32⟩
  | 106 => ⟨S128x483x1, .f32⟩
  | 107 => ⟨S128x483, .f32⟩
  | 108 => ⟨S128x483, .f32⟩
  | 109 => ⟨S128x483x1, .f32⟩
  | 110 => ⟨S128x483, .f32⟩
  | 111 => ⟨S128x483, .f32⟩
  | 112 => ⟨S128x483x1, .f32⟩
  | 113 => ⟨S128x483, .f32⟩
  | 114 => ⟨S128x483, .f32⟩
  | 115 => ⟨S128x483x1, .f32⟩
  | 116 => ⟨S128x483, .f32⟩
  | 117 => ⟨S128x483, .f32⟩
  | 118 => ⟨S128x483x1, .f32⟩
  | 119 => ⟨S128x483, .f32⟩
  | 120 => ⟨S128x483, .f32⟩
  | 121 => ⟨S128x483x1, .f32⟩
  | 122 => ⟨S128x483, .f32⟩
  | 123 => ⟨S128x483, .f32⟩
  | 124 => ⟨S128x483x1, .f32⟩
  | 125 => ⟨S128x483, .f32⟩
  | 126 => ⟨S128x483, .f32⟩
  | 127 => ⟨S128x483x1, .f32⟩
  | _ => ⟨S128x1x512, .i32⟩

abbrev hbmTy0_26 (i : Nat) : BufTy := match i % 128 with
  | 0 => ⟨S128x483, .f32⟩
  | 1 => ⟨S128x483, .f32⟩
  | 2 => ⟨S128x483x1, .f32⟩
  | 3 => ⟨S128x483, .f32⟩
  | 4 => ⟨S128x483, .f32⟩
  | 5 => ⟨S128x483x1, .f32⟩
  | 6 => ⟨S128x483, .f32⟩
  | 7 => ⟨S128x483, .f32⟩
  | 8 => ⟨S128x483x1, .f32⟩
  | 9 => ⟨S128x483, .f32⟩
  | 10 => ⟨S128x483, .f32⟩
  | 11 => ⟨S128x483x1, .f32⟩
  | 12 => ⟨S128x483, .f32⟩
  | 13 => ⟨S128x483, .f32⟩
  | 14 => ⟨S128x483x1, .f32⟩
  | 15 => ⟨S128x483, .f32⟩
  | 16 => ⟨S128x483, .f32⟩
  | 17 => ⟨S128x483x1, .f32⟩
  | 18 => ⟨S128x483, .f32⟩
  | 19 => ⟨S128x483, .f32⟩
  | 20 => ⟨S128x483x1, .f32⟩
  | 21 => ⟨S128x483, .f32⟩
  | 22 => ⟨S128x483, .f32⟩
  | 23 => ⟨S128x483x1, .f32⟩
  | 24 => ⟨S128x483, .f32⟩
  | 25 => ⟨S128x483, .f32⟩
  | 26 => ⟨S128x483x1, .f32⟩
  | 27 => ⟨S128x483, .f32⟩
  | 28 => ⟨S128x483, .f32⟩
  | 29 => ⟨S128x483x1, .f32⟩
  | 30 => ⟨S128x483, .f32⟩
  | 31 => ⟨S128x483, .f32⟩
  | 32 => ⟨S128x483x1, .f32⟩
  | 33 => ⟨S128x483, .f32⟩
  | 34 => ⟨S128x483, .f32⟩
  | 35 => ⟨S128x483x1, .f32⟩
  | 36 => ⟨S128x483, .f32⟩
  | 37 => ⟨S128x483, .f32⟩
  | 38 => ⟨S128x483x1, .f32⟩
  | 39 => ⟨S128x483, .f32⟩
  | 40 => ⟨S128x483, .f32⟩
  | 41 => ⟨S128x483x1, .f32⟩
  | 42 => ⟨S128x483, .f32⟩
  | 43 => ⟨S128x483, .f32⟩
  | 44 => ⟨S128x483x1, .f32⟩
  | 45 => ⟨S128x483, .f32⟩
  | 46 => ⟨S128x483, .f32⟩
  | 47 => ⟨S128x483x1, .f32⟩
  | 48 => ⟨S128x483, .f32⟩
  | 49 => ⟨S128x483, .f32⟩
  | 50 => ⟨S128x483x1, .f32⟩
  | 51 => ⟨S128x483, .f32⟩
  | 52 => ⟨S128x483, .f32⟩
  | 53 => ⟨S128x483x1, .f32⟩
  | 54 => ⟨S128x483, .f32⟩
  | 55 => ⟨S128x483, .f32⟩
  | 56 => ⟨S128x483x1, .f32⟩
  | 57 => ⟨S128x483, .f32⟩
  | 58 => ⟨S128x483, .f32⟩
  | 59 => ⟨S1, .f32⟩
  | 60 => ⟨S_, .f32⟩
  | 61 => ⟨S128x483, .f32⟩
  | 62 => ⟨S128x483, .f32⟩
  | 63 => ⟨S128x483, .f32⟩
  | 64 => ⟨S_, .f32⟩
  | 65 => ⟨S128, .f32⟩
  | 66 => ⟨S1x30x300, .f32⟩
  | 67 => ⟨S30x300, .f32⟩
  | 68 => ⟨S128x512x30, .f32⟩
  | 69 => ⟨S128x483x1, .f32⟩
  | 70 => ⟨S128x483, .f32⟩
  | 71 => ⟨S_, .f32⟩
  | 72 => ⟨S128x483, .f32⟩
  | 73 => ⟨S128x483, .f32⟩
  | 74 => ⟨S128x483x1, .f32⟩
  | 75 => ⟨S128x483, .f32⟩
  | 76 => ⟨S128x483, .f32⟩
  | 77 => ⟨S128x483x1, .f32⟩
  | 78 => ⟨S128x483, .f32⟩
  | 79 => ⟨S128x483, .f32⟩
  | 80 => ⟨S128x483x1, .f32⟩
  | 81 => ⟨S128x483, .f32⟩
  | 82 => ⟨S128x483, .f32⟩
  | 83 => ⟨S128x483x1, .f32⟩
  | 84 => ⟨S128x483, .f32⟩
  | 85 => ⟨S128x483, .f32⟩
  | 86 => ⟨S128x483x1, .f32⟩
  | 87 => ⟨S128x483, .f32⟩
  | 88 => ⟨S128x483, .f32⟩
  | 89 => ⟨S128x483x1, .f32⟩
  | 90 => ⟨S128x483, .f32⟩
  | 91 => ⟨S128x483, .f32⟩
  | 92 => ⟨S128x483x1, .f32⟩
  | 93 => ⟨S128x483, .f32⟩
  | 94 => ⟨S128x483, .f32⟩
  | 95 => ⟨S128x483x1, .f32⟩
  | 96 => ⟨S128x483, .f32⟩
  | 97 => ⟨S128x483, .f32⟩
  | 98 => ⟨S128x483x1, .f32⟩
  | 99 => ⟨S128x483, .f32⟩
  | 100 => ⟨S128x483, .f32⟩
  | 101 => ⟨S128x483x1, .f32⟩
  | 102 => ⟨S128x483, .f32⟩
  | 103 => ⟨S128x483, .f32⟩
  | 104 => ⟨S128x483x1, .f32⟩
  | 105 => ⟨S128x483, .f32⟩
  | 106 => ⟨S128x483, .f32⟩
  | 107 => ⟨S128x483x1, .f32⟩
  | 108 => ⟨S128x483, .f32⟩
  | 109 => ⟨S128x483, .f32⟩
  | 110 => ⟨S128x483x1, .f32⟩
  | 111 => ⟨S128x483, .f32⟩
  | 112 => ⟨S128x483, .f32⟩
  | 113 => ⟨S128x483x1, .f32⟩
  | 114 => ⟨S128x483, .f32⟩
  | 115 => ⟨S128x483, .f32⟩
  | 116 => ⟨S128x483x1, .f32⟩
  | 117 => ⟨S128x483, .f32⟩
  | 118 => ⟨S128x483, .f32⟩
  | 119 => ⟨S128x483x1, .f32⟩
  | 120 => ⟨S128x483, .f32⟩
  | 121 => ⟨S128x483, .f32⟩
  | 122 => ⟨S128x483x1, .f32⟩
  | 123 => ⟨S128x483, .f32⟩
  | 124 => ⟨S128x483, .f32⟩
  | 125 => ⟨S128x483x1, .f32⟩
  | 126 => ⟨S128x483, .f32⟩
  | 127 => ⟨S128x483, .f32⟩
  | _ => ⟨S128x1x512, .i32⟩

abbrev hbmTy0_27 (i : Nat) : BufTy := match i % 128 with
  | 0 => ⟨S128x483x1, .f32⟩
  | 1 => ⟨S128x483, .f32⟩
  | 2 => ⟨S128x483, .f32⟩
  | 3 => ⟨S128x483x1, .f32⟩
  | 4 => ⟨S128x483, .f32⟩
  | 5 => ⟨S128x483, .f32⟩
  | 6 => ⟨S128x483x1, .f32⟩
  | 7 => ⟨S128x483, .f32⟩
  | 8 => ⟨S128x483, .f32⟩
  | 9 => ⟨S128x483x1, .f32⟩
  | 10 => ⟨S128x483, .f32⟩
  | 11 => ⟨S128x483, .f32⟩
  | 12 => ⟨S128x483x1, .f32⟩
  | 13 => ⟨S128x483, .f32⟩
  | 14 => ⟨S128x483, .f32⟩
  | 15 => ⟨S128x483x1, .f32⟩
  | 16 => ⟨S128x483, .f32⟩
  | 17 => ⟨S128x483, .f32⟩
  | 18 => ⟨S128x483x1, .f32⟩
  | 19 => ⟨S128x483, .f32⟩
  | 20 => ⟨S128x483, .f32⟩
  | 21 => ⟨S128x483x1, .f32⟩
  | 22 => ⟨S128x483, .f32⟩
  | 23 => ⟨S128x483, .f32⟩
  | 24 => ⟨S128x483x1, .f32⟩
  | 25 => ⟨S128x483, .f32⟩
  | 26 => ⟨S128x483, .f32⟩
  | 27 => ⟨S128x483x1, .f32⟩
  | 28 => ⟨S128x483, .f32⟩
  | 29 => ⟨S128x483, .f32⟩
  | 30 => ⟨S128x483x1, .f32⟩
  | 31 => ⟨S128x483, .f32⟩
  | 32 => ⟨S128x483, .f32⟩
  | 33 => ⟨S1, .f32⟩
  | 34 => ⟨S_, .f32⟩
  | 35 => ⟨S128x483, .f32⟩
  | 36 => ⟨S128x483, .f32⟩
  | 37 => ⟨S128x483, .f32⟩
  | 38 => ⟨S_, .f32⟩
  | 39 => ⟨S128, .f32⟩
  | 40 => ⟨S1x31x300, .f32⟩
  | 41 => ⟨S31x300, .f32⟩
  | 42 => ⟨S128x512x31, .f32⟩
  | 43 => ⟨S128x482x1, .f32⟩
  | 44 => ⟨S128x482, .f32⟩
  | 45 => ⟨S_, .f32⟩
  | 46 => ⟨S128x482, .f32⟩
  | 47 => ⟨S128x482, .f32⟩
  | 48 => ⟨S128x482x1, .f32⟩
  | 49 => ⟨S128x482, .f32⟩
  | 50 => ⟨S128x482, .f32⟩
  | 51 => ⟨S128x482x1, .f32⟩
  | 52 => ⟨S128x482, .f32⟩
  | 53 => ⟨S128x482, .f32⟩
  | 54 => ⟨S128x482x1, .f32⟩
  | 55 => ⟨S128x482, .f32⟩
  | 56 => ⟨S128x482, .f32⟩
  | 57 => ⟨S128x482x1, .f32⟩
  | 58 => ⟨S128x482, .f32⟩
  | 59 => ⟨S128x482, .f32⟩
  | 60 => ⟨S128x482x1, .f32⟩
  | 61 => ⟨S128x482, .f32⟩
  | 62 => ⟨S128x482, .f32⟩
  | 63 => ⟨S128x482x1, .f32⟩
  | 64 => ⟨S128x482, .f32⟩
  | 65 => ⟨S128x482, .f32⟩
  | 66 => ⟨S128x482x1, .f32⟩
  | 67 => ⟨S128x482, .f32⟩
  | 68 => ⟨S128x482, .f32⟩
  | 69 => ⟨S128x482x1, .f32⟩
  | 70 => ⟨S128x482, .f32⟩
  | 71 => ⟨S128x482, .f32⟩
  | 72 => ⟨S128x482x1, .f32⟩
  | 73 => ⟨S128x482, .f32⟩
  | 74 => ⟨S128x482, .f32⟩
  | 75 => ⟨S128x482x1, .f32⟩
  | 76 => ⟨S128x482, .f32⟩
  | 77 => ⟨S128x482, .f32⟩
  | 78 => ⟨S128x482x1, .f32⟩
  | 79 => ⟨S128x482, .f32⟩
  | 80 => ⟨S128x482, .f32⟩
  | 81 => ⟨S128x482x1, .f32⟩
  | 82 => ⟨S128x482, .f32⟩
  | 83 => ⟨S128x482, .f32⟩
  | 84 => ⟨S128x482x1, .f32⟩
  | 85 => ⟨S128x482, .f32⟩
  | 86 => ⟨S128x482, .f32⟩
  | 87 => ⟨S128x482x1, .f32⟩
  | 88 => ⟨S128x482, .f32⟩
  | 89 => ⟨S128x482, .f32⟩
  | 90 => ⟨S128x482x1, .f32⟩
  | 91 => ⟨S128x482, .f32⟩
  | 92 => ⟨S128x482, .f32⟩
  | 93 => ⟨S128x482x1, .f32⟩
  | 94 => ⟨S128x482, .f32⟩
  | 95 => ⟨S128x482, .f32⟩
  | 96 => ⟨S128x482x1, .f32⟩
  | 97 => ⟨S128x482, .f32⟩
  | 98 => ⟨S128x482, .f32⟩
  | 99 => ⟨S128x482x1, .f32⟩
  | 100 => ⟨S128x482, .f32⟩
  | 101 => ⟨S128x482, .f32⟩
  | 102 => ⟨S128x482x1, .f32⟩
  | 103 => ⟨S128x482, .f32⟩
  | 104 => ⟨S128x482, .f32⟩
  | 105 => ⟨S128x482x1, .f32⟩
  | 106 => ⟨S128x482, .f32⟩
  | 107 => ⟨S128x482, .f32⟩
  | 108 => ⟨S128x482x1, .f32⟩
  | 109 => ⟨S128x482, .f32⟩
  | 110 => ⟨S128x482, .f32⟩
  | 111 => ⟨S128x482x1, .f32⟩
  | 112 => ⟨S128x482, .f32⟩
  | 113 => ⟨S128x482, .f32⟩
  | 114 => ⟨S128x482x1, .f32⟩
  | 115 => ⟨S128x482, .f32⟩
  | 116 => ⟨S128x482, .f32⟩
  | 117 => ⟨S128x482x1, .f32⟩
  | 118 => ⟨S128x482, .f32⟩
  | 119 => ⟨S128x482, .f32⟩
  | 120 => ⟨S128x482x1, .f32⟩
  | 121 => ⟨S128x482, .f32⟩
  | 122 => ⟨S128x482, .f32⟩
  | 123 => ⟨S128x482x1, .f32⟩
  | 124 => ⟨S128x482, .f32⟩
  | 125 => ⟨S128x482, .f32⟩
  | 126 => ⟨S128x482x1, .f32⟩
  | 127 => ⟨S128x482, .f32⟩
  | _ => ⟨S128x1x512, .i32⟩

abbrev hbmTy0_28 (i : Nat) : BufTy := match i % 128 with
  | 0 => ⟨S128x482, .f32⟩
  | 1 => ⟨S128x482x1, .f32⟩
  | 2 => ⟨S128x482, .f32⟩
  | 3 => ⟨S128x482, .f32⟩
  | 4 => ⟨S128x482x1, .f32⟩
  | 5 => ⟨S128x482, .f32⟩
  | 6 => ⟨S128x482, .f32⟩
  | 7 => ⟨S128x482x1, .f32⟩
  | 8 => ⟨S128x482, .f32⟩
  | 9 => ⟨S128x482, .f32⟩
  | 10 => ⟨S1, .f32⟩
  | 11 => ⟨S_, .f32⟩
  | 12 => ⟨S128x482, .f32⟩
  | 13 => ⟨S128x482, .f32⟩
  | 14 => ⟨S128x482, .f32⟩
  | 15 => ⟨S_, .f32⟩
  | 16 => ⟨S128, .f32⟩
  | 17 => ⟨S1x31x300, .f32⟩
  | 18 => ⟨S31x300, .f32⟩
  | 19 => ⟨S128x512x31, .f32⟩
  | 20 => ⟨S128x482x1, .f32⟩
  | 21 => ⟨S128x482, .f32⟩
  | 22 => ⟨S_, .f32⟩
  | 23 => ⟨S128x482, .f32⟩
  | 24 => ⟨S128x482, .f32⟩
  | 25 => ⟨S128x482x1, .f32⟩
  | 26 => ⟨S128x482, .f32⟩
  | 27 => ⟨S128x482, .f32⟩
  | 28 => ⟨S128x482x1, .f32⟩
  | 29 => ⟨S128x482, .f32⟩
  | 30 => ⟨S128x482, .f32⟩
  | 31 => ⟨S128x482x1, .f32⟩
  | 32 => ⟨S128x482, .f32⟩
  | 33 => ⟨S128x482, .f32⟩
  | 34 => ⟨S128x482x1, .f32⟩
  | 35 => ⟨S128x482, .f32⟩
  | 36 => ⟨S128x482, .f32⟩
  | 37 => ⟨S128x482x1, .f32⟩
  | 38 => ⟨S128x482, .f32⟩
  | 39 => ⟨S128x482, .f32⟩
  | 40 => ⟨S128x482x1, .f32⟩
  | 41 => ⟨S128x482, .f32⟩
  | 42 => ⟨S128x482, .f32⟩
  | 43 => ⟨S128x482x1, .f32⟩
  | 44 => ⟨S128x482, .f32⟩
  | 45 => ⟨S128x482, .f32⟩
  | 46 => ⟨S128x482x1, .f32⟩
  | 47 => ⟨S128x482, .f32⟩
  | 48 => ⟨S128x482, .f32⟩
  | 49 => ⟨S128x482x1, .f32⟩
  | 50 => ⟨S128x482, .f32⟩
  | 51 => ⟨S128x482, .f32⟩
  | 52 => ⟨S128x482x1, .f32⟩
  | 53 => ⟨S128x482, .f32⟩
  | 54 => ⟨S128x482, .f32⟩
  | 55 => ⟨S128x482x1, .f32⟩
  | 56 => ⟨S128x482, .f32⟩
  | 57 => ⟨S128x482, .f32⟩
  | 58 => ⟨S128x482x1, .f32⟩
  | 59 => ⟨S128x482, .f32⟩
  | 60 => ⟨S128x482, .f32⟩
  | 61 => ⟨S128x482x1, .f32⟩
  | 62 => ⟨S128x482, .f32⟩
  | 63 => ⟨S128x482, .f32⟩
  | 64 => ⟨S128x482x1, .f32⟩
  | 65 => ⟨S128x482, .f32⟩
  | 66 => ⟨S128x482, .f32⟩
  | 67 => ⟨S128x482x1, .f32⟩
  | 68 => ⟨S128x482, .f32⟩
  | 69 => ⟨S128x482, .f32⟩
  | 70 => ⟨S128x482x1, .f32⟩
  | 71 => ⟨S128x482, .f32⟩
  | 72 => ⟨S128x482, .f32⟩
  | 73 => ⟨S128x482x1, .f32⟩
  | 74 => ⟨S128x482, .f32⟩
  | 75 => ⟨S128x482, .f32⟩
  | 76 => ⟨S128x482x1, .f32⟩
  | 77 => ⟨S128x482, .f32⟩
  | 78 => ⟨S128x482, .f32⟩
  | 79 => ⟨S128x482x1, .f32⟩
  | 80 => ⟨S128x482, .f32⟩
  | 81 => ⟨S128x482, .f32⟩
  | 82 => ⟨S128x482x1, .f32⟩
  | 83 => ⟨S128x482, .f32⟩
  | 84 => ⟨S128x482, .f32⟩
  | 85 => ⟨S128x482x1, .f32⟩
  | 86 => ⟨S128x482, .f32⟩
  | 87 => ⟨S128x482, .f32⟩
  | 88 => ⟨S128x482x1, .f32⟩
  | 89 => ⟨S128x482, .f32⟩
  | 90 => ⟨S128x482, .f32⟩
  | 91 => ⟨S128x482x1, .f32⟩
  | 92 => ⟨S128x482, .f32⟩
  | 93 => ⟨S128x482, .f32⟩
  | 94 => ⟨S128x482x1, .f32⟩
  | 95 => ⟨S128x482, .f32⟩
  | 96 => ⟨S128x482, .f32⟩
  | 97 => ⟨S128x482x1, .f32⟩
  | 98 => ⟨S128x482, .f32⟩
  | 99 => ⟨S128x482, .f32⟩
  | 100 => ⟨S128x482x1, .f32⟩
  | 101 => ⟨S128x482, .f32⟩
  | 102 => ⟨S128x482, .f32⟩
  | 103 => ⟨S128x482x1, .f32⟩
  | 104 => ⟨S128x482, .f32⟩
  | 105 => ⟨S128x482, .f32⟩
  | 106 => ⟨S128x482x1, .f32⟩
  | 107 => ⟨S128x482, .f32⟩
  | 108 => ⟨S128x482, .f32⟩
  | 109 => ⟨S128x482x1, .f32⟩
  | 110 => ⟨S128x482, .f32⟩
  | 111 => ⟨S128x482, .f32⟩
  | 112 => ⟨S128x482x1, .f32⟩
  | 113 => ⟨S128x482, .f32⟩
  | 114 => ⟨S128x482, .f32⟩
  | 115 => ⟨S1, .f32⟩
  | 116 => ⟨S_, .f32⟩
  | 117 => ⟨S128x482, .f32⟩
  | 118 => ⟨S128x482, .f32⟩
  | 119 => ⟨S128x482, .f32⟩
  | 120 => ⟨S_, .f32⟩
  | 121 => ⟨S128, .f32⟩
  | 122 => ⟨S1x32x300, .f32⟩
  | 123 => ⟨S32x300, .f32⟩
  | 124 => ⟨S128x512x32, .f32⟩
  | 125 => ⟨S128x481x1, .f32⟩
  | 126 => ⟨S128x481, .f32⟩
  | 127 => ⟨S_, .f32⟩
  | _ => ⟨S128x1x512, .i32⟩

abbrev hbmTy0_29 (i : Nat) : BufTy := match i % 128 with
  | 0 => ⟨S128x481, .f32⟩
  | 1 => ⟨S128x481, .f32⟩
  | 2 => ⟨S128x481x1, .f32⟩
  | 3 => ⟨S128x481, .f32⟩
  | 4 => ⟨S128x481, .f32⟩
  | 5 => ⟨S128x481x1, .f32⟩
  | 6 => ⟨S128x481, .f32⟩
  | 7 => ⟨S128x481, .f32⟩
  | 8 => ⟨S128x481x1, .f32⟩
  | 9 => ⟨S128x481, .f32⟩
  | 10 => ⟨S128x481, .f32⟩
  | 11 => ⟨S128x481x1, .f32⟩
  | 12 => ⟨S128x481, .f32⟩
  | 13 => ⟨S128x481, .f32⟩
  | 14 => ⟨S128x481x1, .f32⟩
  | 15 => ⟨S128x481, .f32⟩
  | 16 => ⟨S128x481, .f32⟩
  | 17 => ⟨S128x481x1, .f32⟩
  | 18 => ⟨S128x481, .f32⟩
  | 19 => ⟨S128x481, .f32⟩
  | 20 => ⟨S128x481x1, .f32⟩
  | 21 => ⟨S128x481, .f32⟩
  | 22 => ⟨S128x481, .f32⟩
  | 23 => ⟨S128x481x1, .f32⟩
  | 24 => ⟨S128x481, .f32⟩
  | 25 => ⟨S128x481, .f32⟩
  | 26 => ⟨S128x481x1, .f32⟩
  | 27 => ⟨S128x481, .f32⟩
  | 28 => ⟨S128x481, .f32⟩
  | 29 => ⟨S128x481x1, .f32⟩
  | 30 => ⟨S128x481, .f32⟩
  | 31 => ⟨S128x481, .f32⟩
  | 32 => ⟨S128x481x1, .f32⟩
  | 33 => ⟨S128x481, .f32⟩
  | 34 => ⟨S128x481, .f32⟩
  | 35 => ⟨S128x481x1, .f32⟩
  | 36 => ⟨S128x481, .f32⟩
  | 37 => ⟨S128x481, .f32⟩
  | 38 => ⟨S128x481x1, .f32⟩
  | 39 => ⟨S128x481, .f32⟩
  | 40 => ⟨S128x481, .f32⟩
  | 41 => ⟨S128x481x1, .f32⟩
  | 42 => ⟨S128x481, .f32⟩
  | 43 => ⟨S128x481, .f32⟩
  | 44 => ⟨S128x481x1, .f32⟩
  | 45 => ⟨S128x481, .f32⟩
  | 46 => ⟨S128x481, .f32⟩
  | 47 => ⟨S128x481x1, .f32⟩
  | 48 => ⟨S128x481, .f32⟩
  | 49 => ⟨S128x481, .f32⟩
  | 50 => ⟨S128x481x1, .f32⟩
  | 51 => ⟨S128x481, .f32⟩
  | 52 => ⟨S128x481, .f32⟩
  | 53 => ⟨S128x481x1, .f32⟩
  | 54 => ⟨S128x481, .f32⟩
  | 55 => ⟨S128x481, .f32⟩
  | 56 => ⟨S128x481x1, .f32⟩
  | 57 => ⟨S128x481, .f32⟩
  | 58 => ⟨S128x481, .f32⟩
  | 59 => ⟨S128x481x1, .f32⟩
  | 60 => ⟨S128x481, .f32⟩
  | 61 => ⟨S128x481, .f32⟩
  | 62 => ⟨S128x481x1, .f32⟩
  | 63 => ⟨S128x481, .f32⟩
  | 64 => ⟨S128x481, .f32⟩
  | 65 => ⟨S128x481x1, .f32⟩
  | 66 => ⟨S128x481, .f32⟩
  | 67 => ⟨S128x481, .f32⟩
  | 68 => ⟨S128x481x1, .f32⟩
  | 69 => ⟨S128x481, .f32⟩
  | 70 => ⟨S128x481, .f32⟩
  | 71 => ⟨S128x481x1, .f32⟩
  | 72 => ⟨S128x481, .f32⟩
  | 73 => ⟨S128x481, .f32⟩
  | 74 => ⟨S128x481x1, .f32⟩
  | 75 => ⟨S128x481, .f32⟩
  | 76 => ⟨S128x481, .f32⟩
  | 77 => ⟨S128x481x1, .f32⟩
  | 78 => ⟨S128x481, .f32⟩
  | 79 => ⟨S128x481, .f32⟩
  | 80 => ⟨S128x481x1, .f32⟩
  | 81 => ⟨S128x481, .f32⟩
  | 82 => ⟨S128x481, .f32⟩
  | 83 => ⟨S128x481x1, .f32⟩
  | 84 => ⟨S128x481, .f32⟩
  | 85 => ⟨S128x481, .f32⟩
  | 86 => ⟨S128x481x1, .f32⟩
  | 87 => ⟨S128x481, .f32⟩
  | 88 => ⟨S128x481, .f32⟩
  | 89 => ⟨S128x481x1, .f32⟩
  | 90 => ⟨S128x481, .f32⟩
  | 91 => ⟨S128x481, .f32⟩
  | 92 => ⟨S128x481x1, .f32⟩
  | 93 => ⟨S128x481, .f32⟩
  | 94 => ⟨S128x481, .f32⟩
  | 95 => ⟨S1, .f32⟩
  | 96 => ⟨S_, .f32⟩
  | 97 => ⟨S128x481, .f32⟩
  | 98 => ⟨S128x481, .f32⟩
  | 99 => ⟨S128x481, .f32⟩
  | 100 => ⟨S_, .f32⟩
  | 101 => ⟨S128, .f32⟩
  | 102 => ⟨S1x32x300, .f32⟩
  | 103 => ⟨S32x300, .f32⟩
  | 104 => ⟨S128x512x32, .f32⟩
  | 105 => ⟨S128x481x1, .f32⟩
  | 106 => ⟨S128x481, .f32⟩
  | 107 => ⟨S_, .f32⟩
  | 108 => ⟨S128x481, .f32⟩
  | 109 => ⟨S128x481, .f32⟩
  | 110 => ⟨S128x481x1, .f32⟩
  | 111 => ⟨S128x481, .f32⟩
  | 112 => ⟨S128x481, .f32⟩
  | 113 => ⟨S128x481x1, .f32⟩
  | 114 => ⟨S128x481, .f32⟩
  | 115 => ⟨S128x481, .f32⟩
  | 116 => ⟨S128x481x1, .f32⟩
  | 117 => ⟨S128x481, .f32⟩
  | 118 => ⟨S128x481, .f32⟩
  | 119 => ⟨S128x481x1, .f32⟩
  | 120 => ⟨S128x481, .f32⟩
  | 121 => ⟨S128x481, .f32⟩
  | 122 => ⟨S128x481x1, .f32⟩
  | 123 => ⟨S128x481, .f32⟩
  | 124 => ⟨S128x481, .f32⟩
  | 125 => ⟨S128x481x1, .f32⟩
  | 126 => ⟨S128x481, .f32⟩
  | 127 => ⟨S128x481, .f32⟩
  | _ => ⟨S128x1x512, .i32⟩

abbrev hbmTy0_30 (i : Nat) : BufTy := match i % 128 with
  | 0 => ⟨S128x481x1, .f32⟩
  | 1 => ⟨S128x481, .f32⟩
  | 2 => ⟨S128x481, .f32⟩
  | 3 => ⟨S128x481x1, .f32⟩
  | 4 => ⟨S128x481, .f32⟩
  | 5 => ⟨S128x481, .f32⟩
  | 6 => ⟨S128x481x1, .f32⟩
  | 7 => ⟨S128x481, .f32⟩
  | 8 => ⟨S128x481, .f32⟩
  | 9 => ⟨S128x481x1, .f32⟩
  | 10 => ⟨S128x481, .f32⟩
  | 11 => ⟨S128x481, .f32⟩
  | 12 => ⟨S128x481x1, .f32⟩
  | 13 => ⟨S128x481, .f32⟩
  | 14 => ⟨S128x481, .f32⟩
  | 15 => ⟨S128x481x1, .f32⟩
  | 16 => ⟨S128x481, .f32⟩
  | 17 => ⟨S128x481, .f32⟩
  | 18 => ⟨S128x481x1, .f32⟩
  | 19 => ⟨S128x481, .f32⟩
  | 20 => ⟨S128x481, .f32⟩
  | 21 => ⟨S128x481x1, .f32⟩
  | 22 => ⟨S128x481, .f32⟩
  | 23 => ⟨S128x481, .f32⟩
  | 24 => ⟨S128x481x1, .f32⟩
  | 25 => ⟨S128x481, .f32⟩
  | 26 => ⟨S128x481, .f32⟩
  | 27 => ⟨S128x481x1, .f32⟩
  | 28 => ⟨S128x481, .f32⟩
  | 29 => ⟨S128x481, .f32⟩
  | 30 => ⟨S128x481x1, .f32⟩
  | 31 => ⟨S128x481, .f32⟩
  | 32 => ⟨S128x481, .f32⟩
  | 33 => ⟨S128x481x1, .f32⟩
  | 34 => ⟨S128x481, .f32⟩
  | 35 => ⟨S128x481, .f32⟩
  | 36 => ⟨S128x481x1, .f32⟩
  | 37 => ⟨S128x481, .f32⟩
  | 38 => ⟨S128x481, .f32⟩
  | 39 => ⟨S128x481x1, .f32⟩
  | 40 => ⟨S128x481, .f32⟩
  | 41 => ⟨S128x481, .f32⟩
  | 42 => ⟨S128x481x1, .f32⟩
  | 43 => ⟨S128x481, .f32⟩
  | 44 => ⟨S128x481, .f32⟩
  | 45 => ⟨S128x481x1, .f32⟩
  | 46 => ⟨S128x481, .f32⟩
  | 47 => ⟨S128x481, .f32⟩
  | 48 => ⟨S128x481x1, .f32⟩
  | 49 => ⟨S128x481, .f32⟩
  | 50 => ⟨S128x481, .f32⟩
  | 51 => ⟨S128x481x1, .f32⟩
  | 52 => ⟨S128x481, .f32⟩
  | 53 => ⟨S128x481, .f32⟩
  | 54 => ⟨S128x481x1, .f32⟩
  | 55 => ⟨S128x481, .f32⟩
  | 56 => ⟨S128x481, .f32⟩
  | 57 => ⟨S128x481x1, .f32⟩
  | 58 => ⟨S128x481, .f32⟩
  | 59 => ⟨S128x481, .f32⟩
  | 60 => ⟨S128x481x1, .f32⟩
  | 61 => ⟨S128x481, .f32⟩
  | 62 => ⟨S128x481, .f32⟩
  | 63 => ⟨S128x481x1, .f32⟩
  | 64 => ⟨S128x481, .f32⟩
  | 65 => ⟨S128x481, .f32⟩
  | 66 => ⟨S128x481x1, .f32⟩
  | 67 => ⟨S128x481, .f32⟩
  | 68 => ⟨S128x481, .f32⟩
  | 69 => ⟨S128x481x1, .f32⟩
  | 70 => ⟨S128x481, .f32⟩
  | 71 => ⟨S128x481, .f32⟩
  | 72 => ⟨S128x481x1, .f32⟩
  | 73 => ⟨S128x481, .f32⟩
  | 74 => ⟨S128x481, .f32⟩
  | 75 => ⟨S1, .f32⟩
  | 76 => ⟨S_, .f32⟩
  | 77 => ⟨S128x481, .f32⟩
  | 78 => ⟨S128x481, .f32⟩
  | 79 => ⟨S128x481, .f32⟩
  | 80 => ⟨S_, .f32⟩
  | 81 => ⟨S128, .f32⟩
  | 82 => ⟨S1x33x300, .f32⟩
  | 83 => ⟨S33x300, .f32⟩
  | 84 => ⟨S128x512x33, .f32⟩
  | 85 => ⟨S128x480x1, .f32⟩
  | 86 => ⟨S128x480, .f32⟩
  | 87 => ⟨S_, .f32⟩
  | 88 => ⟨S128x480, .f32⟩
  | 89 => ⟨S128x480, .f32⟩
  | 90 => ⟨S128x480x1, .f32⟩
  | 91 => ⟨S128x480, .f32⟩
  | 92 => ⟨S128x480, .f32⟩
  | 93 => ⟨S128x480x1, .f32⟩
  | 94 => ⟨S128x480, .f32⟩
  | 95 => ⟨S128x480, .f32⟩
  | 96 => ⟨S128x480x1, .f32⟩
  | 97 => ⟨S128x480, .f32⟩
  | 98 => ⟨S128x480, .f32⟩
  | 99 => ⟨S128x480x1, .f32⟩
  | 100 => ⟨S128x480, .f32⟩
  | 101 => ⟨S128x480, .f32⟩
  | 102 => ⟨S128x480x1, .f32⟩
  | 103 => ⟨S128x480, .f32⟩
  | 104 => ⟨S128x480, .f32⟩
  | 105 => ⟨S128x480x1, .f32⟩
  | 106 => ⟨S128x480, .f32⟩
  | 107 => ⟨S128x480, .f32⟩
  | 108 => ⟨S128x480x1, .f32⟩
  | 109 => ⟨S128x480, .f32⟩
  | 110 => ⟨S128x480, .f32⟩
  | 111 => ⟨S128x480x1, .f32⟩
  | 112 => ⟨S128x480, .f32⟩
  | 113 => ⟨S128x480, .f32⟩
  | 114 => ⟨S128x480x1, .f32⟩
  | 115 => ⟨S128x480, .f32⟩
  | 116 => ⟨S128x480, .f32⟩
  | 117 => ⟨S128x480x1, .f32⟩
  | 118 => ⟨S128x480, .f32⟩
  | 119 => ⟨S128x480, .f32⟩
  | 120 => ⟨S128x480x1, .f32⟩
  | 121 => ⟨S128x480, .f32⟩
  | 122 => ⟨S128x480, .f32⟩
  | 123 => ⟨S128x480x1, .f32⟩
  | 124 => ⟨S128x480, .f32⟩
  | 125 => ⟨S128x480, .f32⟩
  | 126 => ⟨S128x480x1, .f32⟩
  | 127 => ⟨S128x480, .f32⟩
  | _ => ⟨S128x1x512, .i32⟩

abbrev hbmTy0_31 (i : Nat) : BufTy := match i % 128 with
  | 0 => ⟨S128x480, .f32⟩
  | 1 => ⟨S128x480x1, .f32⟩
  | 2 => ⟨S128x480, .f32⟩
  | 3 => ⟨S128x480, .f32⟩
  | 4 => ⟨S128x480x1, .f32⟩
  | 5 => ⟨S128x480, .f32⟩
  | 6 => ⟨S128x480, .f32⟩
  | 7 => ⟨S128x480x1, .f32⟩
  | 8 => ⟨S128x480, .f32⟩
  | 9 => ⟨S128x480, .f32⟩
  | 10 => ⟨S128x480x1, .f32⟩
  | 11 => ⟨S128x480, .f32⟩
  | 12 => ⟨S128x480, .f32⟩
  | 13 => ⟨S128x480x1, .f32⟩
  | 14 => ⟨S128x480, .f32⟩
  | 15 => ⟨S128x480, .f32⟩
  | 16 => ⟨S128x480x1, .f32⟩
  | 17 => ⟨S128x480, .f32⟩
  | 18 => ⟨S128x480, .f32⟩
  | 19 => ⟨S128x480x1, .f32⟩
  | 20 => ⟨S128x480, .f32⟩
  | 21 => ⟨S128x480, .f32⟩
  | 22 => ⟨S128x480x1, .f32⟩
  | 23 => ⟨S128x480, .f32⟩
  | 24 => ⟨S128x480, .f32⟩
  | 25 => ⟨S128x480x1, .f32⟩
  | 26 => ⟨S128x480, .f32⟩
  | 27 => ⟨S128x480, .f32⟩
  | 28 => ⟨S128x480x1, .f32⟩
  | 29 => ⟨S128x480, .f32⟩
  | 30 => ⟨S128x480, .f32⟩
  | 31 => ⟨S128x480x1, .f32⟩
  | 32 => ⟨S128x480, .f32⟩
  | 33 => ⟨S128x480, .f32⟩
  | 34 => ⟨S128x480x1, .f32⟩
  | 35 => ⟨S128x480, .f32⟩
  | 36 => ⟨S128x480, .f32⟩
  | 37 => ⟨S128x480x1, .f32⟩
  | 38 => ⟨S128x480, .f32⟩
  | 39 => ⟨S128x480, .f32⟩
  | 40 => ⟨S128x480x1, .f32⟩
  | 41 => ⟨S128x480, .f32⟩
  | 42 => ⟨S128x480, .f32⟩
  | 43 => ⟨S128x480x1, .f32⟩
  | 44 => ⟨S128x480, .f32⟩
  | 45 => ⟨S128x480, .f32⟩
  | 46 => ⟨S128x480x1, .f32⟩
  | 47 => ⟨S128x480, .f32⟩
  | 48 => ⟨S128x480, .f32⟩
  | 49 => ⟨S128x480x1, .f32⟩
  | 50 => ⟨S128x480, .f32⟩
  | 51 => ⟨S128x480, .f32⟩
  | 52 => ⟨S128x480x1, .f32⟩
  | 53 => ⟨S128x480, .f32⟩
  | 54 => ⟨S128x480, .f32⟩
  | 55 => ⟨S128x480x1, .f32⟩
  | 56 => ⟨S128x480, .f32⟩
  | 57 => ⟨S128x480, .f32⟩
  | 58 => ⟨S1, .f32⟩
  | 59 => ⟨S_, .f32⟩
  | 60 => ⟨S128x480, .f32⟩
  | 61 => ⟨S128x480, .f32⟩
  | 62 => ⟨S128x480, .f32⟩
  | 63 => ⟨S_, .f32⟩
  | 64 => ⟨S128, .f32⟩
  | 65 => ⟨S1x33x300, .f32⟩
  | 66 => ⟨S33x300, .f32⟩
  | 67 => ⟨S128x512x33, .f32⟩
  | 68 => ⟨S128x480x1, .f32⟩
  | 69 => ⟨S128x480, .f32⟩
  | 70 => ⟨S_, .f32⟩
  | 71 => ⟨S128x480, .f32⟩
  | 72 => ⟨S128x480, .f32⟩
  | 73 => ⟨S128x480x1, .f32⟩
  | 74 => ⟨S128x480, .f32⟩
  | 75 => ⟨S128x480, .f32⟩
  | 76 => ⟨S128x480x1, .f32⟩
  | 77 => ⟨S128x480, .f32⟩
  | 78 => ⟨S128x480, .f32⟩
  | 79 => ⟨S128x480x1, .f32⟩
  | 80 => ⟨S128x480, .f32⟩
  | 81 => ⟨S128x480, .f32⟩
  | 82 => ⟨S128x480x1, .f32⟩
  | 83 => ⟨S128x480, .f32⟩
  | 84 => ⟨S128x480, .f32⟩
  | 85 => ⟨S128x480x1, .f32⟩
  | 86 => ⟨S128x480, .f32⟩
  | 87 => ⟨S128x480, .f32⟩
  | 88 => ⟨S128x480x1, .f32⟩
  | 89 => ⟨S128x480, .f32⟩
  | 90 => ⟨S128x480, .f32⟩
  | 91 => ⟨S128x480x1, .f32⟩
  | 92 => ⟨S128x480, .f32⟩
  | 93 => ⟨S128x480, .f32⟩
  | 94 => ⟨S128x480x1, .f32⟩
  | 95 => ⟨S128x480, .f32⟩
  | 96 => ⟨S128x480, .f32⟩
  | 97 => ⟨S128x480x1, .f32⟩
  | 98 => ⟨S128x480, .f32⟩
  | 99 => ⟨S128x480, .f32⟩
  | 100 => ⟨S128x480x1, .f32⟩
  | 101 => ⟨S128x480, .f32⟩
  | 102 => ⟨S128x480, .f32⟩
  | 103 => ⟨S128x480x1, .f32⟩
  | 104 => ⟨S128x480, .f32⟩
  | 105 => ⟨S128x480, .f32⟩
  | 106 => ⟨S128x480x1, .f32⟩
  | 107 => ⟨S128x480, .f32⟩
  | 108 => ⟨S128x480, .f32⟩
  | 109 => ⟨S128x480x1, .f32⟩
  | 110 => ⟨S128x480, .f32⟩
  | 111 => ⟨S128x480, .f32⟩
  | 112 => ⟨S128x480x1, .f32⟩
  | 113 => ⟨S128x480, .f32⟩
  | 114 => ⟨S128x480, .f32⟩
  | 115 => ⟨S128x480x1, .f32⟩
  | 116 => ⟨S128x480, .f32⟩
  | 117 => ⟨S128x480, .f32⟩
  | 118 => ⟨S128x480x1, .f32⟩
  | 119 => ⟨S128x480, .f32⟩
  | 120 => ⟨S128x480, .f32⟩
  | 121 => ⟨S128x480x1, .f32⟩
  | 122 => ⟨S128x480, .f32⟩
  | 123 => ⟨S128x480, .f32⟩
  | 124 => ⟨S128x480x1, .f32⟩
  | 125 => ⟨S128x480, .f32⟩
  | 126 => ⟨S128x480, .f32⟩
  | 127 => ⟨S128x480x1, .f32⟩
  | _ => ⟨S128x1x512, .i32⟩

abbrev hbmTy0_32 (i : Nat) : BufTy := match i % 128 with
  | 0 => ⟨S128x480, .f32⟩
  | 1 => ⟨S128x480, .f32⟩
  | 2 => ⟨S128x480x1, .f32⟩
  | 3 => ⟨S128x480, .f32⟩
  | 4 => ⟨S128x480, .f32⟩
  | 5 => ⟨S128x480x1, .f32⟩
  | 6 => ⟨S128x480, .f32⟩
  | 7 => ⟨S128x480, .f32⟩
  | 8 => ⟨S128x480x1, .f32⟩
  | 9 => ⟨S128x480, .f32⟩
  | 10 => ⟨S128x480, .f32⟩
  | 11 => ⟨S128x480x1, .f32⟩
  | 12 => ⟨S128x480, .f32⟩
  | 13 => ⟨S128x480, .f32⟩
  | 14 => ⟨S128x480x1, .f32⟩
  | 15 => ⟨S128x480, .f32⟩
  | 16 => ⟨S128x480, .f32⟩
  | 17 => ⟨S128x480x1, .f32⟩
  | 18 => ⟨S128x480, .f32⟩
  | 19 => ⟨S128x480, .f32⟩
  | 20 => ⟨S128x480x1, .f32⟩
  | 21 => ⟨S128x480, .f32⟩
  | 22 => ⟨S128x480, .f32⟩
  | 23 => ⟨S128x480x1, .f32⟩
  | 24 => ⟨S128x480, .f32⟩
  | 25 => ⟨S128x480, .f32⟩
  | 26 => ⟨S128x480x1, .f32⟩
  | 27 => ⟨S128x480, .f32⟩
  | 28 => ⟨S128x480, .f32⟩
  | 29 => ⟨S128x480x1, .f32⟩
  | 30 => ⟨S128x480, .f32⟩
  | 31 => ⟨S128x480, .f32⟩
  | 32 => ⟨S128x480x1, .f32⟩
  | 33 => ⟨S128x480, .f32⟩
  | 34 => ⟨S128x480, .f32⟩
  | 35 => ⟨S128x480x1, .f32⟩
  | 36 => ⟨S128x480, .f32⟩
  | 37 => ⟨S128x480, .f32⟩
  | 38 => ⟨S128x480x1, .f32⟩
  | 39 => ⟨S128x480, .f32⟩
  | 40 => ⟨S128x480, .f32⟩
  | 41 => ⟨S1, .f32⟩
  | 42 => ⟨S_, .f32⟩
  | 43 => ⟨S128x480, .f32⟩
  | 44 => ⟨S128x480, .f32⟩
  | 45 => ⟨S128x480, .f32⟩
  | 46 => ⟨S_, .f32⟩
  | 47 => ⟨S128, .f32⟩
  | 48 => ⟨S128x1, .f32⟩
  | 49 => ⟨S128x1, .f32⟩
  | 50 => ⟨S128x1, .f32⟩
  | 51 => ⟨S128x1, .f32⟩
  | 52 => ⟨S128x1, .f32⟩
  | 53 => ⟨S128x1, .f32⟩
  | 54 => ⟨S128x1, .f32⟩
  | 55 => ⟨S128x1, .f32⟩
  | 56 => ⟨S128x1, .f32⟩
  | 57 => ⟨S128x1, .f32⟩
  | 58 => ⟨S128x1, .f32⟩
  | 59 => ⟨S128x1, .f32⟩
  | 60 => ⟨S128x1, .f32⟩
  | 61 => ⟨S128x1, .f32⟩
  | 62 => ⟨S128x1, .f32⟩
  | 63 => ⟨S128x1, .f32⟩
  | 64 => ⟨S128x1, .f32⟩
  | 65 => ⟨S128x1, .f32⟩
  | 66 => ⟨S128x1, .f32⟩
  | 67 => ⟨S128x1, .f32⟩
  | 68 => ⟨S128x1, .f32⟩
  | 69 => ⟨S128x1, .f32⟩
  | 70 => ⟨S128x1, .f32⟩
  | 71 => ⟨S128x1, .f32⟩
  | 72 => ⟨S128x1, .f32⟩
  | 73 => ⟨S128x1, .f32⟩
  | 74 => ⟨S128x1, .f32⟩
  | 75 => ⟨S128x1, .f32⟩
  | 76 => ⟨S128x1, .f32⟩
  | 77 => ⟨S128x1, .f32⟩
  | 78 => ⟨S128x1, .f32⟩
  | 79 => ⟨S128x1, .f32⟩
  | 80 => ⟨S128x1, .f32⟩
  | 81 => ⟨S128x1, .f32⟩
  | 82 => ⟨S128x1, .f32⟩
  | 83 => ⟨S128x1, .f32⟩
  | 84 => ⟨S128x1, .f32⟩
  | 85 => ⟨S128x1, .f32⟩
  | 86 => ⟨S128x1, .f32⟩
  | 87 => ⟨S128x1, .f32⟩
  | 88 => ⟨S128x1, .f32⟩
  | 89 => ⟨S128x1, .f32⟩
  | 90 => ⟨S128x1, .f32⟩
  | 91 => ⟨S128x1, .f32⟩
  | 92 => ⟨S128x1, .f32⟩
  | 93 => ⟨S128x1, .f32⟩
  | 94 => ⟨S128x1, .f32⟩
  | 95 => ⟨S128x1, .f32⟩
  | 96 => ⟨S128x1, .f32⟩
  | 97 => ⟨S128x1, .f32⟩
  | 98 => ⟨S128x1, .f32⟩
  | 99 => ⟨S128x1, .f32⟩
  | 100 => ⟨S128x1, .f32⟩
  | 101 => ⟨S128x1, .f32⟩
  | 102 => ⟨S128x1, .f32⟩
  | 103 => ⟨S128x1, .f32⟩
  | 104 => ⟨S128x1, .f32⟩
  | 105 => ⟨S128x1, .f32⟩
  | 106 => ⟨S128x1, .f32⟩
  | 107 => ⟨S128x1, .f32⟩
  | 108 => ⟨S128x1, .f32⟩
  | 109 => ⟨S128x1, .f32⟩
  | 110 => ⟨S128x1, .f32⟩
  | 111 => ⟨S128x1, .f32⟩
  | 112 => ⟨S128x16, .f32⟩
  | 113 => ⟨S128x16, .f32⟩
  | 114 => ⟨S128x16, .f32⟩
  | 115 => ⟨S128x16, .f32⟩
  | 116 => ⟨S128x64, .f32⟩
  | 117 => ⟨S64x1, .f32⟩
  | 118 => ⟨S128x1, .f32⟩
  | 119 => ⟨S1x1, .f32⟩
  | 120 => ⟨S128x1, .f32⟩
  | 121 => ⟨S128x1, .f32⟩
  | 122 => ⟨S128x1, .f32⟩
  | 123 => ⟨S128x1, .f32⟩
  | 124 => ⟨S_, .f32⟩
  | 125 => ⟨S128x1, .f32⟩
  | 126 => ⟨S128x1, .f32⟩
  | 127 => ⟨S_, .f32⟩
  | _ => ⟨S128x1x512, .i32⟩

abbrev hbmTy0_33 (i : Nat) : BufTy := match i % 128 with
  | 0 => ⟨S128x1, .f32⟩
  | 1 => ⟨S128x1, .f32⟩
  | _ => ⟨S128x1x512, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | _ => ⟨S128x1x512, .i32⟩

abbrev bufTy : (tb : Table) → Fin (tcTables nBuf tb) → BufTy
  | .hbm, ⟨i, _⟩ => hbmTy i
  | _, _ => ⟨S128x1x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_8 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_9 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_10 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_12 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_cst_13 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_cst_14 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_cst_15 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_cst_16 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_cst_17 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_cst_18 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_cst_19 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_cst_20 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_cst_21 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_cst_22 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_cst_23 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_cst_24 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_cst_25 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_cst_26 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_v356 : Ref sig .tc := ⟨.hbm, 391, rfl⟩
abbrev main_cst_27 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_cst_28 : Ref sig .tc := ⟨.hbm, 399, rfl⟩
abbrev main_v363 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_v367 : Ref sig .tc := ⟨.hbm, 404, rfl⟩
abbrev main_v368 : Ref sig .tc := ⟨.hbm, 405, rfl⟩
abbrev main_v369 : Ref sig .tc := ⟨.hbm, 406, rfl⟩
abbrev main_v370 : Ref sig .tc := ⟨.hbm, 407, rfl⟩
abbrev main_v371 : Ref sig .tc := ⟨.hbm, 408, rfl⟩
abbrev main_v372 : Ref sig .tc := ⟨.hbm, 409, rfl⟩
abbrev main_v373 : Ref sig .tc := ⟨.hbm, 410, rfl⟩
abbrev main_v374 : Ref sig .tc := ⟨.hbm, 411, rfl⟩
abbrev main_v375 : Ref sig .tc := ⟨.hbm, 412, rfl⟩
abbrev main_v376 : Ref sig .tc := ⟨.hbm, 413, rfl⟩
abbrev main_v377 : Ref sig .tc := ⟨.hbm, 414, rfl⟩
abbrev main_v378 : Ref sig .tc := ⟨.hbm, 415, rfl⟩
abbrev main_v379 : Ref sig .tc := ⟨.hbm, 416, rfl⟩
abbrev main_v380 : Ref sig .tc := ⟨.hbm, 417, rfl⟩
abbrev main_v381 : Ref sig .tc := ⟨.hbm, 418, rfl⟩
abbrev main_v382 : Ref sig .tc := ⟨.hbm, 419, rfl⟩
abbrev main_v383 : Ref sig .tc := ⟨.hbm, 420, rfl⟩
abbrev main_v384 : Ref sig .tc := ⟨.hbm, 421, rfl⟩
abbrev main_v385 : Ref sig .tc := ⟨.hbm, 422, rfl⟩
abbrev main_v386 : Ref sig .tc := ⟨.hbm, 423, rfl⟩
abbrev main_v387 : Ref sig .tc := ⟨.hbm, 424, rfl⟩
abbrev main_v388 : Ref sig .tc := ⟨.hbm, 425, rfl⟩
abbrev main_v389 : Ref sig .tc := ⟨.hbm, 426, rfl⟩
abbrev main_v390 : Ref sig .tc := ⟨.hbm, 427, rfl⟩
abbrev main_v391 : Ref sig .tc := ⟨.hbm, 428, rfl⟩
abbrev main_v392 : Ref sig .tc := ⟨.hbm, 429, rfl⟩
abbrev main_v393 : Ref sig .tc := ⟨.hbm, 430, rfl⟩
abbrev main_cst_29 : Ref sig .tc := ⟨.hbm, 431, rfl⟩
abbrev main_v394 : Ref sig .tc := ⟨.hbm, 432, rfl⟩
abbrev main_v395 : Ref sig .tc := ⟨.hbm, 433, rfl⟩
abbrev main_v396 : Ref sig .tc := ⟨.hbm, 434, rfl⟩
abbrev main_v397 : Ref sig .tc := ⟨.hbm, 435, rfl⟩
abbrev main_v398 : Ref sig .tc := ⟨.hbm, 436, rfl⟩
abbrev main_v399 : Ref sig .tc := ⟨.hbm, 437, rfl⟩
abbrev main_cst_30 : Ref sig .tc := ⟨.hbm, 438, rfl⟩
abbrev main_v400 : Ref sig .tc := ⟨.hbm, 439, rfl⟩
abbrev main_v401 : Ref sig .tc := ⟨.hbm, 440, rfl⟩
abbrev main_v402 : Ref sig .tc := ⟨.hbm, 441, rfl⟩
abbrev main_v403 : Ref sig .tc := ⟨.hbm, 442, rfl⟩
abbrev main_v404 : Ref sig .tc := ⟨.hbm, 443, rfl⟩
abbrev main_v405 : Ref sig .tc := ⟨.hbm, 444, rfl⟩
abbrev main_v406 : Ref sig .tc := ⟨.hbm, 445, rfl⟩
abbrev main_v407 : Ref sig .tc := ⟨.hbm, 446, rfl⟩
abbrev main_v408 : Ref sig .tc := ⟨.hbm, 447, rfl⟩
abbrev main_v409 : Ref sig .tc := ⟨.hbm, 448, rfl⟩
abbrev main_v410 : Ref sig .tc := ⟨.hbm, 449, rfl⟩
abbrev main_v411 : Ref sig .tc := ⟨.hbm, 450, rfl⟩
abbrev main_v412 : Ref sig .tc := ⟨.hbm, 451, rfl⟩
abbrev main_v413 : Ref sig .tc := ⟨.hbm, 452, rfl⟩
abbrev main_v414 : Ref sig .tc := ⟨.hbm, 453, rfl⟩
abbrev main_v415 : Ref sig .tc := ⟨.hbm, 454, rfl⟩
abbrev main_v416 : Ref sig .tc := ⟨.hbm, 455, rfl⟩
abbrev main_v417 : Ref sig .tc := ⟨.hbm, 456, rfl⟩
abbrev main_v418 : Ref sig .tc := ⟨.hbm, 457, rfl⟩
abbrev main_v419 : Ref sig .tc := ⟨.hbm, 458, rfl⟩
abbrev main_v420 : Ref sig .tc := ⟨.hbm, 459, rfl⟩
abbrev main_v421 : Ref sig .tc := ⟨.hbm, 460, rfl⟩
abbrev main_v422 : Ref sig .tc := ⟨.hbm, 461, rfl⟩
abbrev main_v423 : Ref sig .tc := ⟨.hbm, 462, rfl⟩
abbrev main_v424 : Ref sig .tc := ⟨.hbm, 463, rfl⟩
abbrev main_v425 : Ref sig .tc := ⟨.hbm, 464, rfl⟩
abbrev main_v426 : Ref sig .tc := ⟨.hbm, 465, rfl⟩
abbrev main_v427 : Ref sig .tc := ⟨.hbm, 466, rfl⟩
abbrev main_v428 : Ref sig .tc := ⟨.hbm, 467, rfl⟩
abbrev main_v429 : Ref sig .tc := ⟨.hbm, 468, rfl⟩
abbrev main_v430 : Ref sig .tc := ⟨.hbm, 469, rfl⟩
abbrev main_cst_31 : Ref sig .tc := ⟨.hbm, 470, rfl⟩
abbrev main_v431 : Ref sig .tc := ⟨.hbm, 471, rfl⟩
abbrev main_v432 : Ref sig .tc := ⟨.hbm, 472, rfl⟩
abbrev main_v433 : Ref sig .tc := ⟨.hbm, 473, rfl⟩
abbrev main_v434 : Ref sig .tc := ⟨.hbm, 474, rfl⟩
abbrev main_v435 : Ref sig .tc := ⟨.hbm, 475, rfl⟩
abbrev main_v436 : Ref sig .tc := ⟨.hbm, 476, rfl⟩
abbrev main_cst_32 : Ref sig .tc := ⟨.hbm, 477, rfl⟩
abbrev main_v437 : Ref sig .tc := ⟨.hbm, 478, rfl⟩
abbrev main_v438 : Ref sig .tc := ⟨.hbm, 479, rfl⟩
abbrev main_v439 : Ref sig .tc := ⟨.hbm, 480, rfl⟩
abbrev main_v440 : Ref sig .tc := ⟨.hbm, 481, rfl⟩
abbrev main_v441 : Ref sig .tc := ⟨.hbm, 482, rfl⟩
abbrev main_v442 : Ref sig .tc := ⟨.hbm, 483, rfl⟩
abbrev main_v443 : Ref sig .tc := ⟨.hbm, 484, rfl⟩
abbrev main_v444 : Ref sig .tc := ⟨.hbm, 485, rfl⟩
abbrev main_v445 : Ref sig .tc := ⟨.hbm, 486, rfl⟩
abbrev main_v446 : Ref sig .tc := ⟨.hbm, 487, rfl⟩
abbrev main_v447 : Ref sig .tc := ⟨.hbm, 488, rfl⟩
abbrev main_v448 : Ref sig .tc := ⟨.hbm, 489, rfl⟩
abbrev main_v449 : Ref sig .tc := ⟨.hbm, 490, rfl⟩
abbrev main_v450 : Ref sig .tc := ⟨.hbm, 491, rfl⟩
abbrev main_v451 : Ref sig .tc := ⟨.hbm, 492, rfl⟩
abbrev main_v452 : Ref sig .tc := ⟨.hbm, 493, rfl⟩
abbrev main_v453 : Ref sig .tc := ⟨.hbm, 494, rfl⟩
abbrev main_v454 : Ref sig .tc := ⟨.hbm, 495, rfl⟩
abbrev main_v455 : Ref sig .tc := ⟨.hbm, 496, rfl⟩
abbrev main_v456 : Ref sig .tc := ⟨.hbm, 497, rfl⟩
abbrev main_v457 : Ref sig .tc := ⟨.hbm, 498, rfl⟩
abbrev main_v458 : Ref sig .tc := ⟨.hbm, 499, rfl⟩
abbrev main_v459 : Ref sig .tc := ⟨.hbm, 500, rfl⟩
abbrev main_v460 : Ref sig .tc := ⟨.hbm, 501, rfl⟩
abbrev main_v461 : Ref sig .tc := ⟨.hbm, 502, rfl⟩
abbrev main_v462 : Ref sig .tc := ⟨.hbm, 503, rfl⟩
abbrev main_v463 : Ref sig .tc := ⟨.hbm, 504, rfl⟩
abbrev main_v464 : Ref sig .tc := ⟨.hbm, 505, rfl⟩
abbrev main_v465 : Ref sig .tc := ⟨.hbm, 506, rfl⟩
abbrev main_v466 : Ref sig .tc := ⟨.hbm, 507, rfl⟩
abbrev main_v467 : Ref sig .tc := ⟨.hbm, 508, rfl⟩
abbrev main_v468 : Ref sig .tc := ⟨.hbm, 509, rfl⟩
abbrev main_v469 : Ref sig .tc := ⟨.hbm, 510, rfl⟩
abbrev main_v470 : Ref sig .tc := ⟨.hbm, 511, rfl⟩
abbrev main_cst_33 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_cst_34 : Ref sig .tc := ⟨.hbm, 519, rfl⟩
abbrev main_v477 : Ref sig .tc := ⟨.hbm, 520, rfl⟩
abbrev main_v478 : Ref sig .tc := ⟨.hbm, 521, rfl⟩
abbrev main_v479 : Ref sig .tc := ⟨.hbm, 522, rfl⟩
abbrev main_v480 : Ref sig .tc := ⟨.hbm, 523, rfl⟩
abbrev main_v481 : Ref sig .tc := ⟨.hbm, 524, rfl⟩
abbrev main_v482 : Ref sig .tc := ⟨.hbm, 525, rfl⟩
abbrev main_v483 : Ref sig .tc := ⟨.hbm, 526, rfl⟩
abbrev main_v484 : Ref sig .tc := ⟨.hbm, 527, rfl⟩
abbrev main_v485 : Ref sig .tc := ⟨.hbm, 528, rfl⟩
abbrev main_v486 : Ref sig .tc := ⟨.hbm, 529, rfl⟩
abbrev main_v487 : Ref sig .tc := ⟨.hbm, 530, rfl⟩
abbrev main_v488 : Ref sig .tc := ⟨.hbm, 531, rfl⟩
abbrev main_v489 : Ref sig .tc := ⟨.hbm, 532, rfl⟩
abbrev main_v490 : Ref sig .tc := ⟨.hbm, 533, rfl⟩
abbrev main_v491 : Ref sig .tc := ⟨.hbm, 534, rfl⟩
abbrev main_v492 : Ref sig .tc := ⟨.hbm, 535, rfl⟩
abbrev main_v493 : Ref sig .tc := ⟨.hbm, 536, rfl⟩
abbrev main_v494 : Ref sig .tc := ⟨.hbm, 537, rfl⟩
abbrev main_v495 : Ref sig .tc := ⟨.hbm, 538, rfl⟩
abbrev main_v496 : Ref sig .tc := ⟨.hbm, 539, rfl⟩
abbrev main_v497 : Ref sig .tc := ⟨.hbm, 540, rfl⟩
abbrev main_v498 : Ref sig .tc := ⟨.hbm, 541, rfl⟩
abbrev main_v499 : Ref sig .tc := ⟨.hbm, 542, rfl⟩
abbrev main_v500 : Ref sig .tc := ⟨.hbm, 543, rfl⟩
abbrev main_v501 : Ref sig .tc := ⟨.hbm, 544, rfl⟩
abbrev main_v502 : Ref sig .tc := ⟨.hbm, 545, rfl⟩
abbrev main_v503 : Ref sig .tc := ⟨.hbm, 546, rfl⟩
abbrev main_v504 : Ref sig .tc := ⟨.hbm, 547, rfl⟩
abbrev main_v505 : Ref sig .tc := ⟨.hbm, 548, rfl⟩
abbrev main_v506 : Ref sig .tc := ⟨.hbm, 549, rfl⟩
abbrev main_v507 : Ref sig .tc := ⟨.hbm, 550, rfl⟩
abbrev main_v508 : Ref sig .tc := ⟨.hbm, 551, rfl⟩
abbrev main_v509 : Ref sig .tc := ⟨.hbm, 552, rfl⟩
abbrev main_v510 : Ref sig .tc := ⟨.hbm, 553, rfl⟩
abbrev main_cst_35 : Ref sig .tc := ⟨.hbm, 554, rfl⟩
abbrev main_v511 : Ref sig .tc := ⟨.hbm, 555, rfl⟩
abbrev main_v512 : Ref sig .tc := ⟨.hbm, 556, rfl⟩
abbrev main_v513 : Ref sig .tc := ⟨.hbm, 557, rfl⟩
abbrev main_v514 : Ref sig .tc := ⟨.hbm, 558, rfl⟩
abbrev main_v515 : Ref sig .tc := ⟨.hbm, 559, rfl⟩
abbrev main_v516 : Ref sig .tc := ⟨.hbm, 560, rfl⟩
abbrev main_cst_36 : Ref sig .tc := ⟨.hbm, 561, rfl⟩
abbrev main_v517 : Ref sig .tc := ⟨.hbm, 562, rfl⟩
abbrev main_v518 : Ref sig .tc := ⟨.hbm, 563, rfl⟩
abbrev main_v519 : Ref sig .tc := ⟨.hbm, 564, rfl⟩
abbrev main_v520 : Ref sig .tc := ⟨.hbm, 565, rfl⟩
abbrev main_v521 : Ref sig .tc := ⟨.hbm, 566, rfl⟩
abbrev main_v522 : Ref sig .tc := ⟨.hbm, 567, rfl⟩
abbrev main_v523 : Ref sig .tc := ⟨.hbm, 568, rfl⟩
abbrev main_v524 : Ref sig .tc := ⟨.hbm, 569, rfl⟩
abbrev main_v525 : Ref sig .tc := ⟨.hbm, 570, rfl⟩
abbrev main_v526 : Ref sig .tc := ⟨.hbm, 571, rfl⟩
abbrev main_v527 : Ref sig .tc := ⟨.hbm, 572, rfl⟩
abbrev main_v528 : Ref sig .tc := ⟨.hbm, 573, rfl⟩
abbrev main_v529 : Ref sig .tc := ⟨.hbm, 574, rfl⟩
abbrev main_v530 : Ref sig .tc := ⟨.hbm, 575, rfl⟩
abbrev main_v531 : Ref sig .tc := ⟨.hbm, 576, rfl⟩
abbrev main_v532 : Ref sig .tc := ⟨.hbm, 577, rfl⟩
abbrev main_v533 : Ref sig .tc := ⟨.hbm, 578, rfl⟩
abbrev main_v534 : Ref sig .tc := ⟨.hbm, 579, rfl⟩
abbrev main_v535 : Ref sig .tc := ⟨.hbm, 580, rfl⟩
abbrev main_v536 : Ref sig .tc := ⟨.hbm, 581, rfl⟩
abbrev main_v537 : Ref sig .tc := ⟨.hbm, 582, rfl⟩
abbrev main_v538 : Ref sig .tc := ⟨.hbm, 583, rfl⟩
abbrev main_v539 : Ref sig .tc := ⟨.hbm, 584, rfl⟩
abbrev main_v540 : Ref sig .tc := ⟨.hbm, 585, rfl⟩
abbrev main_v541 : Ref sig .tc := ⟨.hbm, 586, rfl⟩
abbrev main_v542 : Ref sig .tc := ⟨.hbm, 587, rfl⟩
abbrev main_v543 : Ref sig .tc := ⟨.hbm, 588, rfl⟩
abbrev main_v544 : Ref sig .tc := ⟨.hbm, 589, rfl⟩
abbrev main_v545 : Ref sig .tc := ⟨.hbm, 590, rfl⟩
abbrev main_v546 : Ref sig .tc := ⟨.hbm, 591, rfl⟩
abbrev main_v547 : Ref sig .tc := ⟨.hbm, 592, rfl⟩
abbrev main_v548 : Ref sig .tc := ⟨.hbm, 593, rfl⟩
abbrev main_v549 : Ref sig .tc := ⟨.hbm, 594, rfl⟩
abbrev main_v550 : Ref sig .tc := ⟨.hbm, 595, rfl⟩
abbrev main_v551 : Ref sig .tc := ⟨.hbm, 596, rfl⟩
abbrev main_v552 : Ref sig .tc := ⟨.hbm, 597, rfl⟩
abbrev main_v553 : Ref sig .tc := ⟨.hbm, 598, rfl⟩
abbrev main_cst_37 : Ref sig .tc := ⟨.hbm, 599, rfl⟩
abbrev main_v554 : Ref sig .tc := ⟨.hbm, 600, rfl⟩
abbrev main_v555 : Ref sig .tc := ⟨.hbm, 601, rfl⟩
abbrev main_v556 : Ref sig .tc := ⟨.hbm, 602, rfl⟩
abbrev main_v557 : Ref sig .tc := ⟨.hbm, 603, rfl⟩
abbrev main_v558 : Ref sig .tc := ⟨.hbm, 604, rfl⟩
abbrev main_v559 : Ref sig .tc := ⟨.hbm, 605, rfl⟩
abbrev main_cst_38 : Ref sig .tc := ⟨.hbm, 606, rfl⟩
abbrev main_v560 : Ref sig .tc := ⟨.hbm, 607, rfl⟩
abbrev main_v561 : Ref sig .tc := ⟨.hbm, 608, rfl⟩
abbrev main_v562 : Ref sig .tc := ⟨.hbm, 609, rfl⟩
abbrev main_v563 : Ref sig .tc := ⟨.hbm, 610, rfl⟩
abbrev main_v564 : Ref sig .tc := ⟨.hbm, 611, rfl⟩
abbrev main_v565 : Ref sig .tc := ⟨.hbm, 612, rfl⟩
abbrev main_v566 : Ref sig .tc := ⟨.hbm, 613, rfl⟩
abbrev main_v567 : Ref sig .tc := ⟨.hbm, 614, rfl⟩
abbrev main_v568 : Ref sig .tc := ⟨.hbm, 615, rfl⟩
abbrev main_v569 : Ref sig .tc := ⟨.hbm, 616, rfl⟩
abbrev main_v570 : Ref sig .tc := ⟨.hbm, 617, rfl⟩
abbrev main_v571 : Ref sig .tc := ⟨.hbm, 618, rfl⟩
abbrev main_v572 : Ref sig .tc := ⟨.hbm, 619, rfl⟩
abbrev main_v573 : Ref sig .tc := ⟨.hbm, 620, rfl⟩
abbrev main_v574 : Ref sig .tc := ⟨.hbm, 621, rfl⟩
abbrev main_v575 : Ref sig .tc := ⟨.hbm, 622, rfl⟩
abbrev main_v576 : Ref sig .tc := ⟨.hbm, 623, rfl⟩
abbrev main_v577 : Ref sig .tc := ⟨.hbm, 624, rfl⟩
abbrev main_v578 : Ref sig .tc := ⟨.hbm, 625, rfl⟩
abbrev main_v579 : Ref sig .tc := ⟨.hbm, 626, rfl⟩
abbrev main_v580 : Ref sig .tc := ⟨.hbm, 627, rfl⟩
abbrev main_v581 : Ref sig .tc := ⟨.hbm, 628, rfl⟩
abbrev main_v582 : Ref sig .tc := ⟨.hbm, 629, rfl⟩
abbrev main_v583 : Ref sig .tc := ⟨.hbm, 630, rfl⟩
abbrev main_v584 : Ref sig .tc := ⟨.hbm, 631, rfl⟩
abbrev main_v585 : Ref sig .tc := ⟨.hbm, 632, rfl⟩
abbrev main_v586 : Ref sig .tc := ⟨.hbm, 633, rfl⟩
abbrev main_v587 : Ref sig .tc := ⟨.hbm, 634, rfl⟩
abbrev main_v588 : Ref sig .tc := ⟨.hbm, 635, rfl⟩
abbrev main_v589 : Ref sig .tc := ⟨.hbm, 636, rfl⟩
abbrev main_v590 : Ref sig .tc := ⟨.hbm, 637, rfl⟩
abbrev main_v591 : Ref sig .tc := ⟨.hbm, 638, rfl⟩
abbrev main_v592 : Ref sig .tc := ⟨.hbm, 639, rfl⟩
abbrev main_v593 : Ref sig .tc := ⟨.hbm, 640, rfl⟩
abbrev main_v594 : Ref sig .tc := ⟨.hbm, 641, rfl⟩
abbrev main_v595 : Ref sig .tc := ⟨.hbm, 642, rfl⟩
abbrev main_v596 : Ref sig .tc := ⟨.hbm, 643, rfl⟩
abbrev main_cst_39 : Ref sig .tc := ⟨.hbm, 644, rfl⟩
abbrev main_v597 : Ref sig .tc := ⟨.hbm, 645, rfl⟩
abbrev main_v598 : Ref sig .tc := ⟨.hbm, 646, rfl⟩
abbrev main_v599 : Ref sig .tc := ⟨.hbm, 647, rfl⟩
abbrev main_v600 : Ref sig .tc := ⟨.hbm, 648, rfl⟩
abbrev main_v601 : Ref sig .tc := ⟨.hbm, 649, rfl⟩
abbrev main_v602 : Ref sig .tc := ⟨.hbm, 650, rfl⟩
abbrev main_cst_40 : Ref sig .tc := ⟨.hbm, 651, rfl⟩
abbrev main_v603 : Ref sig .tc := ⟨.hbm, 652, rfl⟩
abbrev main_v604 : Ref sig .tc := ⟨.hbm, 653, rfl⟩
abbrev main_v605 : Ref sig .tc := ⟨.hbm, 654, rfl⟩
abbrev main_v606 : Ref sig .tc := ⟨.hbm, 655, rfl⟩
abbrev main_v607 : Ref sig .tc := ⟨.hbm, 656, rfl⟩
abbrev main_v608 : Ref sig .tc := ⟨.hbm, 657, rfl⟩
abbrev main_v609 : Ref sig .tc := ⟨.hbm, 658, rfl⟩
abbrev main_v610 : Ref sig .tc := ⟨.hbm, 659, rfl⟩
abbrev main_v611 : Ref sig .tc := ⟨.hbm, 660, rfl⟩
abbrev main_v612 : Ref sig .tc := ⟨.hbm, 661, rfl⟩
abbrev main_v613 : Ref sig .tc := ⟨.hbm, 662, rfl⟩
abbrev main_v614 : Ref sig .tc := ⟨.hbm, 663, rfl⟩
abbrev main_v615 : Ref sig .tc := ⟨.hbm, 664, rfl⟩
abbrev main_v616 : Ref sig .tc := ⟨.hbm, 665, rfl⟩
abbrev main_v617 : Ref sig .tc := ⟨.hbm, 666, rfl⟩
abbrev main_v618 : Ref sig .tc := ⟨.hbm, 667, rfl⟩
abbrev main_v619 : Ref sig .tc := ⟨.hbm, 668, rfl⟩
abbrev main_v620 : Ref sig .tc := ⟨.hbm, 669, rfl⟩
abbrev main_v621 : Ref sig .tc := ⟨.hbm, 670, rfl⟩
abbrev main_v622 : Ref sig .tc := ⟨.hbm, 671, rfl⟩
abbrev main_v623 : Ref sig .tc := ⟨.hbm, 672, rfl⟩
abbrev main_v624 : Ref sig .tc := ⟨.hbm, 673, rfl⟩
abbrev main_v625 : Ref sig .tc := ⟨.hbm, 674, rfl⟩
abbrev main_v626 : Ref sig .tc := ⟨.hbm, 675, rfl⟩
abbrev main_v627 : Ref sig .tc := ⟨.hbm, 676, rfl⟩
abbrev main_v628 : Ref sig .tc := ⟨.hbm, 677, rfl⟩
abbrev main_v629 : Ref sig .tc := ⟨.hbm, 678, rfl⟩
abbrev main_v630 : Ref sig .tc := ⟨.hbm, 679, rfl⟩
abbrev main_v631 : Ref sig .tc := ⟨.hbm, 680, rfl⟩
abbrev main_v632 : Ref sig .tc := ⟨.hbm, 681, rfl⟩
abbrev main_v633 : Ref sig .tc := ⟨.hbm, 682, rfl⟩
abbrev main_v634 : Ref sig .tc := ⟨.hbm, 683, rfl⟩
abbrev main_v635 : Ref sig .tc := ⟨.hbm, 684, rfl⟩
abbrev main_v636 : Ref sig .tc := ⟨.hbm, 685, rfl⟩
abbrev main_v637 : Ref sig .tc := ⟨.hbm, 686, rfl⟩
abbrev main_v638 : Ref sig .tc := ⟨.hbm, 687, rfl⟩
abbrev main_v639 : Ref sig .tc := ⟨.hbm, 688, rfl⟩
abbrev main_v640 : Ref sig .tc := ⟨.hbm, 689, rfl⟩
abbrev main_v641 : Ref sig .tc := ⟨.hbm, 690, rfl⟩
abbrev main_v642 : Ref sig .tc := ⟨.hbm, 691, rfl⟩
abbrev main_cst_41 : Ref sig .tc := ⟨.hbm, 692, rfl⟩
abbrev main_v643 : Ref sig .tc := ⟨.hbm, 693, rfl⟩
abbrev main_v644 : Ref sig .tc := ⟨.hbm, 694, rfl⟩
abbrev main_v645 : Ref sig .tc := ⟨.hbm, 695, rfl⟩
abbrev main_v646 : Ref sig .tc := ⟨.hbm, 696, rfl⟩
abbrev main_v647 : Ref sig .tc := ⟨.hbm, 697, rfl⟩
abbrev main_v648 : Ref sig .tc := ⟨.hbm, 698, rfl⟩
abbrev main_cst_42 : Ref sig .tc := ⟨.hbm, 699, rfl⟩
abbrev main_v649 : Ref sig .tc := ⟨.hbm, 700, rfl⟩
abbrev main_v650 : Ref sig .tc := ⟨.hbm, 701, rfl⟩
abbrev main_v651 : Ref sig .tc := ⟨.hbm, 702, rfl⟩
abbrev main_v652 : Ref sig .tc := ⟨.hbm, 703, rfl⟩
abbrev main_v653 : Ref sig .tc := ⟨.hbm, 704, rfl⟩
abbrev main_v654 : Ref sig .tc := ⟨.hbm, 705, rfl⟩
abbrev main_v655 : Ref sig .tc := ⟨.hbm, 706, rfl⟩
abbrev main_v656 : Ref sig .tc := ⟨.hbm, 707, rfl⟩
abbrev main_v657 : Ref sig .tc := ⟨.hbm, 708, rfl⟩
abbrev main_v658 : Ref sig .tc := ⟨.hbm, 709, rfl⟩
abbrev main_v659 : Ref sig .tc := ⟨.hbm, 710, rfl⟩
abbrev main_v660 : Ref sig .tc := ⟨.hbm, 711, rfl⟩
abbrev main_v661 : Ref sig .tc := ⟨.hbm, 712, rfl⟩
abbrev main_v662 : Ref sig .tc := ⟨.hbm, 713, rfl⟩
abbrev main_v663 : Ref sig .tc := ⟨.hbm, 714, rfl⟩
abbrev main_v664 : Ref sig .tc := ⟨.hbm, 715, rfl⟩
abbrev main_v665 : Ref sig .tc := ⟨.hbm, 716, rfl⟩
abbrev main_v666 : Ref sig .tc := ⟨.hbm, 717, rfl⟩
abbrev main_v667 : Ref sig .tc := ⟨.hbm, 718, rfl⟩
abbrev main_v668 : Ref sig .tc := ⟨.hbm, 719, rfl⟩
abbrev main_v669 : Ref sig .tc := ⟨.hbm, 720, rfl⟩
abbrev main_v670 : Ref sig .tc := ⟨.hbm, 721, rfl⟩
abbrev main_v671 : Ref sig .tc := ⟨.hbm, 722, rfl⟩
abbrev main_v672 : Ref sig .tc := ⟨.hbm, 723, rfl⟩
abbrev main_v673 : Ref sig .tc := ⟨.hbm, 724, rfl⟩
abbrev main_v674 : Ref sig .tc := ⟨.hbm, 725, rfl⟩
abbrev main_v675 : Ref sig .tc := ⟨.hbm, 726, rfl⟩
abbrev main_v676 : Ref sig .tc := ⟨.hbm, 727, rfl⟩
abbrev main_v677 : Ref sig .tc := ⟨.hbm, 728, rfl⟩
abbrev main_v678 : Ref sig .tc := ⟨.hbm, 729, rfl⟩
abbrev main_v679 : Ref sig .tc := ⟨.hbm, 730, rfl⟩
abbrev main_v680 : Ref sig .tc := ⟨.hbm, 731, rfl⟩
abbrev main_v681 : Ref sig .tc := ⟨.hbm, 732, rfl⟩
abbrev main_v682 : Ref sig .tc := ⟨.hbm, 733, rfl⟩
abbrev main_v683 : Ref sig .tc := ⟨.hbm, 734, rfl⟩
abbrev main_v684 : Ref sig .tc := ⟨.hbm, 735, rfl⟩
abbrev main_v685 : Ref sig .tc := ⟨.hbm, 736, rfl⟩
abbrev main_v686 : Ref sig .tc := ⟨.hbm, 737, rfl⟩
abbrev main_v687 : Ref sig .tc := ⟨.hbm, 738, rfl⟩
abbrev main_v688 : Ref sig .tc := ⟨.hbm, 739, rfl⟩
abbrev main_cst_43 : Ref sig .tc := ⟨.hbm, 740, rfl⟩
abbrev main_v689 : Ref sig .tc := ⟨.hbm, 741, rfl⟩
abbrev main_v690 : Ref sig .tc := ⟨.hbm, 742, rfl⟩
abbrev main_v691 : Ref sig .tc := ⟨.hbm, 743, rfl⟩
abbrev main_v692 : Ref sig .tc := ⟨.hbm, 744, rfl⟩
abbrev main_v693 : Ref sig .tc := ⟨.hbm, 745, rfl⟩
abbrev main_v694 : Ref sig .tc := ⟨.hbm, 746, rfl⟩
abbrev main_cst_44 : Ref sig .tc := ⟨.hbm, 747, rfl⟩
abbrev main_v695 : Ref sig .tc := ⟨.hbm, 748, rfl⟩
abbrev main_v696 : Ref sig .tc := ⟨.hbm, 749, rfl⟩
abbrev main_v697 : Ref sig .tc := ⟨.hbm, 750, rfl⟩
abbrev main_v698 : Ref sig .tc := ⟨.hbm, 751, rfl⟩
abbrev main_v699 : Ref sig .tc := ⟨.hbm, 752, rfl⟩
abbrev main_v700 : Ref sig .tc := ⟨.hbm, 753, rfl⟩
abbrev main_v701 : Ref sig .tc := ⟨.hbm, 754, rfl⟩
abbrev main_v702 : Ref sig .tc := ⟨.hbm, 755, rfl⟩
abbrev main_v703 : Ref sig .tc := ⟨.hbm, 756, rfl⟩
abbrev main_v704 : Ref sig .tc := ⟨.hbm, 757, rfl⟩
abbrev main_v705 : Ref sig .tc := ⟨.hbm, 758, rfl⟩
abbrev main_v706 : Ref sig .tc := ⟨.hbm, 759, rfl⟩
abbrev main_v707 : Ref sig .tc := ⟨.hbm, 760, rfl⟩
abbrev main_v708 : Ref sig .tc := ⟨.hbm, 761, rfl⟩
abbrev main_v709 : Ref sig .tc := ⟨.hbm, 762, rfl⟩
abbrev main_v710 : Ref sig .tc := ⟨.hbm, 763, rfl⟩
abbrev main_v711 : Ref sig .tc := ⟨.hbm, 764, rfl⟩
abbrev main_v712 : Ref sig .tc := ⟨.hbm, 765, rfl⟩
abbrev main_v713 : Ref sig .tc := ⟨.hbm, 766, rfl⟩
abbrev main_v714 : Ref sig .tc := ⟨.hbm, 767, rfl⟩
abbrev main_v715 : Ref sig .tc := ⟨.hbm, 768, rfl⟩
abbrev main_v716 : Ref sig .tc := ⟨.hbm, 769, rfl⟩
abbrev main_v717 : Ref sig .tc := ⟨.hbm, 770, rfl⟩
abbrev main_v718 : Ref sig .tc := ⟨.hbm, 771, rfl⟩
abbrev main_v719 : Ref sig .tc := ⟨.hbm, 772, rfl⟩
abbrev main_v720 : Ref sig .tc := ⟨.hbm, 773, rfl⟩
abbrev main_v721 : Ref sig .tc := ⟨.hbm, 774, rfl⟩
abbrev main_v722 : Ref sig .tc := ⟨.hbm, 775, rfl⟩
abbrev main_v723 : Ref sig .tc := ⟨.hbm, 776, rfl⟩
abbrev main_v724 : Ref sig .tc := ⟨.hbm, 777, rfl⟩
abbrev main_v725 : Ref sig .tc := ⟨.hbm, 778, rfl⟩
abbrev main_v726 : Ref sig .tc := ⟨.hbm, 779, rfl⟩
abbrev main_v727 : Ref sig .tc := ⟨.hbm, 780, rfl⟩
abbrev main_v728 : Ref sig .tc := ⟨.hbm, 781, rfl⟩
abbrev main_v729 : Ref sig .tc := ⟨.hbm, 782, rfl⟩
abbrev main_v730 : Ref sig .tc := ⟨.hbm, 783, rfl⟩
abbrev main_v731 : Ref sig .tc := ⟨.hbm, 784, rfl⟩
abbrev main_v732 : Ref sig .tc := ⟨.hbm, 785, rfl⟩
abbrev main_v733 : Ref sig .tc := ⟨.hbm, 786, rfl⟩
abbrev main_v734 : Ref sig .tc := ⟨.hbm, 787, rfl⟩
abbrev main_v735 : Ref sig .tc := ⟨.hbm, 788, rfl⟩
abbrev main_v736 : Ref sig .tc := ⟨.hbm, 789, rfl⟩
abbrev main_v737 : Ref sig .tc := ⟨.hbm, 790, rfl⟩
abbrev main_cst_45 : Ref sig .tc := ⟨.hbm, 791, rfl⟩
abbrev main_v738 : Ref sig .tc := ⟨.hbm, 792, rfl⟩
abbrev main_v739 : Ref sig .tc := ⟨.hbm, 793, rfl⟩
abbrev main_v740 : Ref sig .tc := ⟨.hbm, 794, rfl⟩
abbrev main_v741 : Ref sig .tc := ⟨.hbm, 795, rfl⟩
abbrev main_v742 : Ref sig .tc := ⟨.hbm, 796, rfl⟩
abbrev main_v743 : Ref sig .tc := ⟨.hbm, 797, rfl⟩
abbrev main_cst_46 : Ref sig .tc := ⟨.hbm, 798, rfl⟩
abbrev main_v744 : Ref sig .tc := ⟨.hbm, 799, rfl⟩
abbrev main_v745 : Ref sig .tc := ⟨.hbm, 800, rfl⟩
abbrev main_v746 : Ref sig .tc := ⟨.hbm, 801, rfl⟩
abbrev main_v747 : Ref sig .tc := ⟨.hbm, 802, rfl⟩
abbrev main_v748 : Ref sig .tc := ⟨.hbm, 803, rfl⟩
abbrev main_v749 : Ref sig .tc := ⟨.hbm, 804, rfl⟩
abbrev main_v750 : Ref sig .tc := ⟨.hbm, 805, rfl⟩
abbrev main_v751 : Ref sig .tc := ⟨.hbm, 806, rfl⟩
abbrev main_v752 : Ref sig .tc := ⟨.hbm, 807, rfl⟩
abbrev main_v753 : Ref sig .tc := ⟨.hbm, 808, rfl⟩
abbrev main_v754 : Ref sig .tc := ⟨.hbm, 809, rfl⟩
abbrev main_v755 : Ref sig .tc := ⟨.hbm, 810, rfl⟩
abbrev main_v756 : Ref sig .tc := ⟨.hbm, 811, rfl⟩
abbrev main_v757 : Ref sig .tc := ⟨.hbm, 812, rfl⟩
abbrev main_v758 : Ref sig .tc := ⟨.hbm, 813, rfl⟩
abbrev main_v759 : Ref sig .tc := ⟨.hbm, 814, rfl⟩
abbrev main_v760 : Ref sig .tc := ⟨.hbm, 815, rfl⟩
abbrev main_v761 : Ref sig .tc := ⟨.hbm, 816, rfl⟩
abbrev main_v762 : Ref sig .tc := ⟨.hbm, 817, rfl⟩
abbrev main_v763 : Ref sig .tc := ⟨.hbm, 818, rfl⟩
abbrev main_v764 : Ref sig .tc := ⟨.hbm, 819, rfl⟩
abbrev main_v765 : Ref sig .tc := ⟨.hbm, 820, rfl⟩
abbrev main_v766 : Ref sig .tc := ⟨.hbm, 821, rfl⟩
abbrev main_v767 : Ref sig .tc := ⟨.hbm, 822, rfl⟩
abbrev main_v768 : Ref sig .tc := ⟨.hbm, 823, rfl⟩
abbrev main_v769 : Ref sig .tc := ⟨.hbm, 824, rfl⟩
abbrev main_v770 : Ref sig .tc := ⟨.hbm, 825, rfl⟩
abbrev main_v771 : Ref sig .tc := ⟨.hbm, 826, rfl⟩
abbrev main_v772 : Ref sig .tc := ⟨.hbm, 827, rfl⟩
abbrev main_v773 : Ref sig .tc := ⟨.hbm, 828, rfl⟩
abbrev main_v774 : Ref sig .tc := ⟨.hbm, 829, rfl⟩
abbrev main_v775 : Ref sig .tc := ⟨.hbm, 830, rfl⟩
abbrev main_v776 : Ref sig .tc := ⟨.hbm, 831, rfl⟩
abbrev main_v777 : Ref sig .tc := ⟨.hbm, 832, rfl⟩
abbrev main_v778 : Ref sig .tc := ⟨.hbm, 833, rfl⟩
abbrev main_v779 : Ref sig .tc := ⟨.hbm, 834, rfl⟩
abbrev main_v780 : Ref sig .tc := ⟨.hbm, 835, rfl⟩
abbrev main_v781 : Ref sig .tc := ⟨.hbm, 836, rfl⟩
abbrev main_v782 : Ref sig .tc := ⟨.hbm, 837, rfl⟩
abbrev main_v783 : Ref sig .tc := ⟨.hbm, 838, rfl⟩
abbrev main_v784 : Ref sig .tc := ⟨.hbm, 839, rfl⟩
abbrev main_v785 : Ref sig .tc := ⟨.hbm, 840, rfl⟩
abbrev main_v786 : Ref sig .tc := ⟨.hbm, 841, rfl⟩
abbrev main_cst_47 : Ref sig .tc := ⟨.hbm, 842, rfl⟩
abbrev main_v787 : Ref sig .tc := ⟨.hbm, 843, rfl⟩
abbrev main_v788 : Ref sig .tc := ⟨.hbm, 844, rfl⟩
abbrev main_v789 : Ref sig .tc := ⟨.hbm, 845, rfl⟩
abbrev main_v790 : Ref sig .tc := ⟨.hbm, 846, rfl⟩
abbrev main_v791 : Ref sig .tc := ⟨.hbm, 847, rfl⟩
abbrev main_v792 : Ref sig .tc := ⟨.hbm, 848, rfl⟩
abbrev main_cst_48 : Ref sig .tc := ⟨.hbm, 849, rfl⟩
abbrev main_v793 : Ref sig .tc := ⟨.hbm, 850, rfl⟩
abbrev main_v794 : Ref sig .tc := ⟨.hbm, 851, rfl⟩
abbrev main_v795 : Ref sig .tc := ⟨.hbm, 852, rfl⟩
abbrev main_v796 : Ref sig .tc := ⟨.hbm, 853, rfl⟩
abbrev main_v797 : Ref sig .tc := ⟨.hbm, 854, rfl⟩
abbrev main_v798 : Ref sig .tc := ⟨.hbm, 855, rfl⟩
abbrev main_v799 : Ref sig .tc := ⟨.hbm, 856, rfl⟩
abbrev main_v800 : Ref sig .tc := ⟨.hbm, 857, rfl⟩
abbrev main_v801 : Ref sig .tc := ⟨.hbm, 858, rfl⟩
abbrev main_v802 : Ref sig .tc := ⟨.hbm, 859, rfl⟩
abbrev main_v803 : Ref sig .tc := ⟨.hbm, 860, rfl⟩
abbrev main_v804 : Ref sig .tc := ⟨.hbm, 861, rfl⟩
abbrev main_v805 : Ref sig .tc := ⟨.hbm, 862, rfl⟩
abbrev main_v806 : Ref sig .tc := ⟨.hbm, 863, rfl⟩
abbrev main_v807 : Ref sig .tc := ⟨.hbm, 864, rfl⟩
abbrev main_v808 : Ref sig .tc := ⟨.hbm, 865, rfl⟩
abbrev main_v809 : Ref sig .tc := ⟨.hbm, 866, rfl⟩
abbrev main_v810 : Ref sig .tc := ⟨.hbm, 867, rfl⟩
abbrev main_v811 : Ref sig .tc := ⟨.hbm, 868, rfl⟩
abbrev main_v812 : Ref sig .tc := ⟨.hbm, 869, rfl⟩
abbrev main_v813 : Ref sig .tc := ⟨.hbm, 870, rfl⟩
abbrev main_v814 : Ref sig .tc := ⟨.hbm, 871, rfl⟩
abbrev main_v815 : Ref sig .tc := ⟨.hbm, 872, rfl⟩
abbrev main_v816 : Ref sig .tc := ⟨.hbm, 873, rfl⟩
abbrev main_v817 : Ref sig .tc := ⟨.hbm, 874, rfl⟩
abbrev main_v818 : Ref sig .tc := ⟨.hbm, 875, rfl⟩
abbrev main_v819 : Ref sig .tc := ⟨.hbm, 876, rfl⟩
abbrev main_v820 : Ref sig .tc := ⟨.hbm, 877, rfl⟩
abbrev main_v821 : Ref sig .tc := ⟨.hbm, 878, rfl⟩
abbrev main_v822 : Ref sig .tc := ⟨.hbm, 879, rfl⟩
abbrev main_v823 : Ref sig .tc := ⟨.hbm, 880, rfl⟩
abbrev main_v824 : Ref sig .tc := ⟨.hbm, 881, rfl⟩
abbrev main_v825 : Ref sig .tc := ⟨.hbm, 882, rfl⟩
abbrev main_v826 : Ref sig .tc := ⟨.hbm, 883, rfl⟩
abbrev main_v827 : Ref sig .tc := ⟨.hbm, 884, rfl⟩
abbrev main_v828 : Ref sig .tc := ⟨.hbm, 885, rfl⟩
abbrev main_v829 : Ref sig .tc := ⟨.hbm, 886, rfl⟩
abbrev main_v830 : Ref sig .tc := ⟨.hbm, 887, rfl⟩
abbrev main_v831 : Ref sig .tc := ⟨.hbm, 888, rfl⟩
abbrev main_v832 : Ref sig .tc := ⟨.hbm, 889, rfl⟩
abbrev main_v833 : Ref sig .tc := ⟨.hbm, 890, rfl⟩
abbrev main_v834 : Ref sig .tc := ⟨.hbm, 891, rfl⟩
abbrev main_v835 : Ref sig .tc := ⟨.hbm, 892, rfl⟩
abbrev main_v836 : Ref sig .tc := ⟨.hbm, 893, rfl⟩
abbrev main_v837 : Ref sig .tc := ⟨.hbm, 894, rfl⟩
abbrev main_v838 : Ref sig .tc := ⟨.hbm, 895, rfl⟩
abbrev main_cst_49 : Ref sig .tc := ⟨.hbm, 896, rfl⟩
abbrev main_v839 : Ref sig .tc := ⟨.hbm, 897, rfl⟩
abbrev main_v840 : Ref sig .tc := ⟨.hbm, 898, rfl⟩
abbrev main_v841 : Ref sig .tc := ⟨.hbm, 899, rfl⟩
abbrev main_v842 : Ref sig .tc := ⟨.hbm, 900, rfl⟩
abbrev main_v843 : Ref sig .tc := ⟨.hbm, 901, rfl⟩
abbrev main_v844 : Ref sig .tc := ⟨.hbm, 902, rfl⟩
abbrev main_cst_50 : Ref sig .tc := ⟨.hbm, 903, rfl⟩
abbrev main_v845 : Ref sig .tc := ⟨.hbm, 904, rfl⟩
abbrev main_v846 : Ref sig .tc := ⟨.hbm, 905, rfl⟩
abbrev main_v847 : Ref sig .tc := ⟨.hbm, 906, rfl⟩
abbrev main_v848 : Ref sig .tc := ⟨.hbm, 907, rfl⟩
abbrev main_v849 : Ref sig .tc := ⟨.hbm, 908, rfl⟩
abbrev main_v850 : Ref sig .tc := ⟨.hbm, 909, rfl⟩
abbrev main_v851 : Ref sig .tc := ⟨.hbm, 910, rfl⟩
abbrev main_v852 : Ref sig .tc := ⟨.hbm, 911, rfl⟩
abbrev main_v853 : Ref sig .tc := ⟨.hbm, 912, rfl⟩
abbrev main_v854 : Ref sig .tc := ⟨.hbm, 913, rfl⟩
abbrev main_v855 : Ref sig .tc := ⟨.hbm, 914, rfl⟩
abbrev main_v856 : Ref sig .tc := ⟨.hbm, 915, rfl⟩
abbrev main_v857 : Ref sig .tc := ⟨.hbm, 916, rfl⟩
abbrev main_v858 : Ref sig .tc := ⟨.hbm, 917, rfl⟩
abbrev main_v859 : Ref sig .tc := ⟨.hbm, 918, rfl⟩
abbrev main_v860 : Ref sig .tc := ⟨.hbm, 919, rfl⟩
abbrev main_v861 : Ref sig .tc := ⟨.hbm, 920, rfl⟩
abbrev main_v862 : Ref sig .tc := ⟨.hbm, 921, rfl⟩
abbrev main_v863 : Ref sig .tc := ⟨.hbm, 922, rfl⟩
abbrev main_v864 : Ref sig .tc := ⟨.hbm, 923, rfl⟩
abbrev main_v865 : Ref sig .tc := ⟨.hbm, 924, rfl⟩
abbrev main_v866 : Ref sig .tc := ⟨.hbm, 925, rfl⟩
abbrev main_v867 : Ref sig .tc := ⟨.hbm, 926, rfl⟩
abbrev main_v868 : Ref sig .tc := ⟨.hbm, 927, rfl⟩
abbrev main_v869 : Ref sig .tc := ⟨.hbm, 928, rfl⟩
abbrev main_v870 : Ref sig .tc := ⟨.hbm, 929, rfl⟩
abbrev main_v871 : Ref sig .tc := ⟨.hbm, 930, rfl⟩
abbrev main_v872 : Ref sig .tc := ⟨.hbm, 931, rfl⟩
abbrev main_v873 : Ref sig .tc := ⟨.hbm, 932, rfl⟩
abbrev main_v874 : Ref sig .tc := ⟨.hbm, 933, rfl⟩
abbrev main_v875 : Ref sig .tc := ⟨.hbm, 934, rfl⟩
abbrev main_v876 : Ref sig .tc := ⟨.hbm, 935, rfl⟩
abbrev main_v877 : Ref sig .tc := ⟨.hbm, 936, rfl⟩
abbrev main_v878 : Ref sig .tc := ⟨.hbm, 937, rfl⟩
abbrev main_v879 : Ref sig .tc := ⟨.hbm, 938, rfl⟩
abbrev main_v880 : Ref sig .tc := ⟨.hbm, 939, rfl⟩
abbrev main_v881 : Ref sig .tc := ⟨.hbm, 940, rfl⟩
abbrev main_v882 : Ref sig .tc := ⟨.hbm, 941, rfl⟩
abbrev main_v883 : Ref sig .tc := ⟨.hbm, 942, rfl⟩
abbrev main_v884 : Ref sig .tc := ⟨.hbm, 943, rfl⟩
abbrev main_v885 : Ref sig .tc := ⟨.hbm, 944, rfl⟩
abbrev main_v886 : Ref sig .tc := ⟨.hbm, 945, rfl⟩
abbrev main_v887 : Ref sig .tc := ⟨.hbm, 946, rfl⟩
abbrev main_v888 : Ref sig .tc := ⟨.hbm, 947, rfl⟩
abbrev main_v889 : Ref sig .tc := ⟨.hbm, 948, rfl⟩
abbrev main_v890 : Ref sig .tc := ⟨.hbm, 949, rfl⟩
abbrev main_cst_51 : Ref sig .tc := ⟨.hbm, 950, rfl⟩
abbrev main_v891 : Ref sig .tc := ⟨.hbm, 951, rfl⟩
abbrev main_v892 : Ref sig .tc := ⟨.hbm, 952, rfl⟩
abbrev main_v893 : Ref sig .tc := ⟨.hbm, 953, rfl⟩
abbrev main_v894 : Ref sig .tc := ⟨.hbm, 954, rfl⟩
abbrev main_v895 : Ref sig .tc := ⟨.hbm, 955, rfl⟩
abbrev main_v896 : Ref sig .tc := ⟨.hbm, 956, rfl⟩
abbrev main_cst_52 : Ref sig .tc := ⟨.hbm, 957, rfl⟩
abbrev main_v897 : Ref sig .tc := ⟨.hbm, 958, rfl⟩
abbrev main_v898 : Ref sig .tc := ⟨.hbm, 959, rfl⟩
abbrev main_v899 : Ref sig .tc := ⟨.hbm, 960, rfl⟩
abbrev main_v900 : Ref sig .tc := ⟨.hbm, 961, rfl⟩
abbrev main_v901 : Ref sig .tc := ⟨.hbm, 962, rfl⟩
abbrev main_v902 : Ref sig .tc := ⟨.hbm, 963, rfl⟩
abbrev main_v903 : Ref sig .tc := ⟨.hbm, 964, rfl⟩
abbrev main_v904 : Ref sig .tc := ⟨.hbm, 965, rfl⟩
abbrev main_v905 : Ref sig .tc := ⟨.hbm, 966, rfl⟩
abbrev main_v906 : Ref sig .tc := ⟨.hbm, 967, rfl⟩
abbrev main_v907 : Ref sig .tc := ⟨.hbm, 968, rfl⟩
abbrev main_v908 : Ref sig .tc := ⟨.hbm, 969, rfl⟩
abbrev main_v909 : Ref sig .tc := ⟨.hbm, 970, rfl⟩
abbrev main_v910 : Ref sig .tc := ⟨.hbm, 971, rfl⟩
abbrev main_v911 : Ref sig .tc := ⟨.hbm, 972, rfl⟩
abbrev main_v912 : Ref sig .tc := ⟨.hbm, 973, rfl⟩
abbrev main_v913 : Ref sig .tc := ⟨.hbm, 974, rfl⟩
abbrev main_v914 : Ref sig .tc := ⟨.hbm, 975, rfl⟩
abbrev main_v915 : Ref sig .tc := ⟨.hbm, 976, rfl⟩
abbrev main_v916 : Ref sig .tc := ⟨.hbm, 977, rfl⟩
abbrev main_v917 : Ref sig .tc := ⟨.hbm, 978, rfl⟩
abbrev main_v918 : Ref sig .tc := ⟨.hbm, 979, rfl⟩
abbrev main_v919 : Ref sig .tc := ⟨.hbm, 980, rfl⟩
abbrev main_v920 : Ref sig .tc := ⟨.hbm, 981, rfl⟩
abbrev main_v921 : Ref sig .tc := ⟨.hbm, 982, rfl⟩
abbrev main_v922 : Ref sig .tc := ⟨.hbm, 983, rfl⟩
abbrev main_v923 : Ref sig .tc := ⟨.hbm, 984, rfl⟩
abbrev main_v924 : Ref sig .tc := ⟨.hbm, 985, rfl⟩
abbrev main_v925 : Ref sig .tc := ⟨.hbm, 986, rfl⟩
abbrev main_v926 : Ref sig .tc := ⟨.hbm, 987, rfl⟩
abbrev main_v927 : Ref sig .tc := ⟨.hbm, 988, rfl⟩
abbrev main_v928 : Ref sig .tc := ⟨.hbm, 989, rfl⟩
abbrev main_v929 : Ref sig .tc := ⟨.hbm, 990, rfl⟩
abbrev main_v930 : Ref sig .tc := ⟨.hbm, 991, rfl⟩
abbrev main_v931 : Ref sig .tc := ⟨.hbm, 992, rfl⟩
abbrev main_v932 : Ref sig .tc := ⟨.hbm, 993, rfl⟩
abbrev main_v933 : Ref sig .tc := ⟨.hbm, 994, rfl⟩
abbrev main_v934 : Ref sig .tc := ⟨.hbm, 995, rfl⟩
abbrev main_v935 : Ref sig .tc := ⟨.hbm, 996, rfl⟩
abbrev main_v936 : Ref sig .tc := ⟨.hbm, 997, rfl⟩
abbrev main_v937 : Ref sig .tc := ⟨.hbm, 998, rfl⟩
abbrev main_v938 : Ref sig .tc := ⟨.hbm, 999, rfl⟩
abbrev main_v939 : Ref sig .tc := ⟨.hbm, 1000, rfl⟩
abbrev main_v940 : Ref sig .tc := ⟨.hbm, 1001, rfl⟩
abbrev main_v941 : Ref sig .tc := ⟨.hbm, 1002, rfl⟩
abbrev main_v942 : Ref sig .tc := ⟨.hbm, 1003, rfl⟩
abbrev main_v943 : Ref sig .tc := ⟨.hbm, 1004, rfl⟩
abbrev main_v944 : Ref sig .tc := ⟨.hbm, 1005, rfl⟩
abbrev main_v945 : Ref sig .tc := ⟨.hbm, 1006, rfl⟩
abbrev main_cst_53 : Ref sig .tc := ⟨.hbm, 1007, rfl⟩
abbrev main_v946 : Ref sig .tc := ⟨.hbm, 1008, rfl⟩
abbrev main_v947 : Ref sig .tc := ⟨.hbm, 1009, rfl⟩
abbrev main_v948 : Ref sig .tc := ⟨.hbm, 1010, rfl⟩
abbrev main_v949 : Ref sig .tc := ⟨.hbm, 1011, rfl⟩
abbrev main_v950 : Ref sig .tc := ⟨.hbm, 1012, rfl⟩
abbrev main_v951 : Ref sig .tc := ⟨.hbm, 1013, rfl⟩
abbrev main_cst_54 : Ref sig .tc := ⟨.hbm, 1014, rfl⟩
abbrev main_v952 : Ref sig .tc := ⟨.hbm, 1015, rfl⟩
abbrev main_v953 : Ref sig .tc := ⟨.hbm, 1016, rfl⟩
abbrev main_v954 : Ref sig .tc := ⟨.hbm, 1017, rfl⟩
abbrev main_v955 : Ref sig .tc := ⟨.hbm, 1018, rfl⟩
abbrev main_v956 : Ref sig .tc := ⟨.hbm, 1019, rfl⟩
abbrev main_v957 : Ref sig .tc := ⟨.hbm, 1020, rfl⟩
abbrev main_v958 : Ref sig .tc := ⟨.hbm, 1021, rfl⟩
abbrev main_v959 : Ref sig .tc := ⟨.hbm, 1022, rfl⟩
abbrev main_v960 : Ref sig .tc := ⟨.hbm, 1023, rfl⟩
abbrev main_v961 : Ref sig .tc := ⟨.hbm, 1024, rfl⟩
abbrev main_v962 : Ref sig .tc := ⟨.hbm, 1025, rfl⟩
abbrev main_v963 : Ref sig .tc := ⟨.hbm, 1026, rfl⟩
abbrev main_v964 : Ref sig .tc := ⟨.hbm, 1027, rfl⟩
abbrev main_v965 : Ref sig .tc := ⟨.hbm, 1028, rfl⟩
abbrev main_v966 : Ref sig .tc := ⟨.hbm, 1029, rfl⟩
abbrev main_v967 : Ref sig .tc := ⟨.hbm, 1030, rfl⟩
abbrev main_v968 : Ref sig .tc := ⟨.hbm, 1031, rfl⟩
abbrev main_v969 : Ref sig .tc := ⟨.hbm, 1032, rfl⟩
abbrev main_v970 : Ref sig .tc := ⟨.hbm, 1033, rfl⟩
abbrev main_v971 : Ref sig .tc := ⟨.hbm, 1034, rfl⟩
abbrev main_v972 : Ref sig .tc := ⟨.hbm, 1035, rfl⟩
abbrev main_v973 : Ref sig .tc := ⟨.hbm, 1036, rfl⟩
abbrev main_v974 : Ref sig .tc := ⟨.hbm, 1037, rfl⟩
abbrev main_v975 : Ref sig .tc := ⟨.hbm, 1038, rfl⟩
abbrev main_v976 : Ref sig .tc := ⟨.hbm, 1039, rfl⟩
abbrev main_v977 : Ref sig .tc := ⟨.hbm, 1040, rfl⟩
abbrev main_v978 : Ref sig .tc := ⟨.hbm, 1041, rfl⟩
abbrev main_v979 : Ref sig .tc := ⟨.hbm, 1042, rfl⟩
abbrev main_v980 : Ref sig .tc := ⟨.hbm, 1043, rfl⟩
abbrev main_v981 : Ref sig .tc := ⟨.hbm, 1044, rfl⟩
abbrev main_v982 : Ref sig .tc := ⟨.hbm, 1045, rfl⟩
abbrev main_v983 : Ref sig .tc := ⟨.hbm, 1046, rfl⟩
abbrev main_v984 : Ref sig .tc := ⟨.hbm, 1047, rfl⟩
abbrev main_v985 : Ref sig .tc := ⟨.hbm, 1048, rfl⟩
abbrev main_v986 : Ref sig .tc := ⟨.hbm, 1049, rfl⟩
abbrev main_v987 : Ref sig .tc := ⟨.hbm, 1050, rfl⟩
abbrev main_v988 : Ref sig .tc := ⟨.hbm, 1051, rfl⟩
abbrev main_v989 : Ref sig .tc := ⟨.hbm, 1052, rfl⟩
abbrev main_v990 : Ref sig .tc := ⟨.hbm, 1053, rfl⟩
abbrev main_v991 : Ref sig .tc := ⟨.hbm, 1054, rfl⟩
abbrev main_v992 : Ref sig .tc := ⟨.hbm, 1055, rfl⟩
abbrev main_v993 : Ref sig .tc := ⟨.hbm, 1056, rfl⟩
abbrev main_v994 : Ref sig .tc := ⟨.hbm, 1057, rfl⟩
abbrev main_v995 : Ref sig .tc := ⟨.hbm, 1058, rfl⟩
abbrev main_v996 : Ref sig .tc := ⟨.hbm, 1059, rfl⟩
abbrev main_v997 : Ref sig .tc := ⟨.hbm, 1060, rfl⟩
abbrev main_v998 : Ref sig .tc := ⟨.hbm, 1061, rfl⟩
abbrev main_v999 : Ref sig .tc := ⟨.hbm, 1062, rfl⟩
abbrev main_v1000 : Ref sig .tc := ⟨.hbm, 1063, rfl⟩
abbrev main_cst_55 : Ref sig .tc := ⟨.hbm, 1064, rfl⟩
abbrev main_v1001 : Ref sig .tc := ⟨.hbm, 1065, rfl⟩
abbrev main_v1002 : Ref sig .tc := ⟨.hbm, 1066, rfl⟩
abbrev main_v1003 : Ref sig .tc := ⟨.hbm, 1067, rfl⟩
abbrev main_v1004 : Ref sig .tc := ⟨.hbm, 1068, rfl⟩
abbrev main_v1005 : Ref sig .tc := ⟨.hbm, 1069, rfl⟩
abbrev main_v1006 : Ref sig .tc := ⟨.hbm, 1070, rfl⟩
abbrev main_cst_56 : Ref sig .tc := ⟨.hbm, 1071, rfl⟩
abbrev main_v1007 : Ref sig .tc := ⟨.hbm, 1072, rfl⟩
abbrev main_v1008 : Ref sig .tc := ⟨.hbm, 1073, rfl⟩
abbrev main_v1009 : Ref sig .tc := ⟨.hbm, 1074, rfl⟩
abbrev main_v1010 : Ref sig .tc := ⟨.hbm, 1075, rfl⟩
abbrev main_v1011 : Ref sig .tc := ⟨.hbm, 1076, rfl⟩
abbrev main_v1012 : Ref sig .tc := ⟨.hbm, 1077, rfl⟩
abbrev main_v1013 : Ref sig .tc := ⟨.hbm, 1078, rfl⟩
abbrev main_v1014 : Ref sig .tc := ⟨.hbm, 1079, rfl⟩
abbrev main_v1015 : Ref sig .tc := ⟨.hbm, 1080, rfl⟩
abbrev main_v1016 : Ref sig .tc := ⟨.hbm, 1081, rfl⟩
abbrev main_v1017 : Ref sig .tc := ⟨.hbm, 1082, rfl⟩
abbrev main_v1018 : Ref sig .tc := ⟨.hbm, 1083, rfl⟩
abbrev main_v1019 : Ref sig .tc := ⟨.hbm, 1084, rfl⟩
abbrev main_v1020 : Ref sig .tc := ⟨.hbm, 1085, rfl⟩
abbrev main_v1021 : Ref sig .tc := ⟨.hbm, 1086, rfl⟩
abbrev main_v1022 : Ref sig .tc := ⟨.hbm, 1087, rfl⟩
abbrev main_v1023 : Ref sig .tc := ⟨.hbm, 1088, rfl⟩
abbrev main_v1024 : Ref sig .tc := ⟨.hbm, 1089, rfl⟩
abbrev main_v1025 : Ref sig .tc := ⟨.hbm, 1090, rfl⟩
abbrev main_v1026 : Ref sig .tc := ⟨.hbm, 1091, rfl⟩
abbrev main_v1027 : Ref sig .tc := ⟨.hbm, 1092, rfl⟩
abbrev main_v1028 : Ref sig .tc := ⟨.hbm, 1093, rfl⟩
abbrev main_v1029 : Ref sig .tc := ⟨.hbm, 1094, rfl⟩
abbrev main_v1030 : Ref sig .tc := ⟨.hbm, 1095, rfl⟩
abbrev main_v1031 : Ref sig .tc := ⟨.hbm, 1096, rfl⟩
abbrev main_v1032 : Ref sig .tc := ⟨.hbm, 1097, rfl⟩
abbrev main_v1033 : Ref sig .tc := ⟨.hbm, 1098, rfl⟩
abbrev main_v1034 : Ref sig .tc := ⟨.hbm, 1099, rfl⟩
abbrev main_v1035 : Ref sig .tc := ⟨.hbm, 1100, rfl⟩
abbrev main_v1036 : Ref sig .tc := ⟨.hbm, 1101, rfl⟩
abbrev main_v1037 : Ref sig .tc := ⟨.hbm, 1102, rfl⟩
abbrev main_v1038 : Ref sig .tc := ⟨.hbm, 1103, rfl⟩
abbrev main_v1039 : Ref sig .tc := ⟨.hbm, 1104, rfl⟩
abbrev main_v1040 : Ref sig .tc := ⟨.hbm, 1105, rfl⟩
abbrev main_v1041 : Ref sig .tc := ⟨.hbm, 1106, rfl⟩
abbrev main_v1042 : Ref sig .tc := ⟨.hbm, 1107, rfl⟩
abbrev main_v1043 : Ref sig .tc := ⟨.hbm, 1108, rfl⟩
abbrev main_v1044 : Ref sig .tc := ⟨.hbm, 1109, rfl⟩
abbrev main_v1045 : Ref sig .tc := ⟨.hbm, 1110, rfl⟩
abbrev main_v1046 : Ref sig .tc := ⟨.hbm, 1111, rfl⟩
abbrev main_v1047 : Ref sig .tc := ⟨.hbm, 1112, rfl⟩
abbrev main_v1048 : Ref sig .tc := ⟨.hbm, 1113, rfl⟩
abbrev main_v1049 : Ref sig .tc := ⟨.hbm, 1114, rfl⟩
abbrev main_v1050 : Ref sig .tc := ⟨.hbm, 1115, rfl⟩
abbrev main_v1051 : Ref sig .tc := ⟨.hbm, 1116, rfl⟩
abbrev main_v1052 : Ref sig .tc := ⟨.hbm, 1117, rfl⟩
abbrev main_v1053 : Ref sig .tc := ⟨.hbm, 1118, rfl⟩
abbrev main_v1054 : Ref sig .tc := ⟨.hbm, 1119, rfl⟩
abbrev main_v1055 : Ref sig .tc := ⟨.hbm, 1120, rfl⟩
abbrev main_v1056 : Ref sig .tc := ⟨.hbm, 1121, rfl⟩
abbrev main_v1057 : Ref sig .tc := ⟨.hbm, 1122, rfl⟩
abbrev main_v1058 : Ref sig .tc := ⟨.hbm, 1123, rfl⟩
abbrev main_cst_57 : Ref sig .tc := ⟨.hbm, 1124, rfl⟩
abbrev main_v1059 : Ref sig .tc := ⟨.hbm, 1125, rfl⟩
abbrev main_v1060 : Ref sig .tc := ⟨.hbm, 1126, rfl⟩
abbrev main_v1061 : Ref sig .tc := ⟨.hbm, 1127, rfl⟩
abbrev main_v1062 : Ref sig .tc := ⟨.hbm, 1128, rfl⟩
abbrev main_v1063 : Ref sig .tc := ⟨.hbm, 1129, rfl⟩
abbrev main_v1064 : Ref sig .tc := ⟨.hbm, 1130, rfl⟩
abbrev main_cst_58 : Ref sig .tc := ⟨.hbm, 1131, rfl⟩
abbrev main_v1065 : Ref sig .tc := ⟨.hbm, 1132, rfl⟩
abbrev main_v1066 : Ref sig .tc := ⟨.hbm, 1133, rfl⟩
abbrev main_v1067 : Ref sig .tc := ⟨.hbm, 1134, rfl⟩
abbrev main_v1068 : Ref sig .tc := ⟨.hbm, 1135, rfl⟩
abbrev main_v1069 : Ref sig .tc := ⟨.hbm, 1136, rfl⟩
abbrev main_v1070 : Ref sig .tc := ⟨.hbm, 1137, rfl⟩
abbrev main_v1071 : Ref sig .tc := ⟨.hbm, 1138, rfl⟩
abbrev main_v1072 : Ref sig .tc := ⟨.hbm, 1139, rfl⟩
abbrev main_v1073 : Ref sig .tc := ⟨.hbm, 1140, rfl⟩
abbrev main_v1074 : Ref sig .tc := ⟨.hbm, 1141, rfl⟩
abbrev main_v1075 : Ref sig .tc := ⟨.hbm, 1142, rfl⟩
abbrev main_v1076 : Ref sig .tc := ⟨.hbm, 1143, rfl⟩
abbrev main_v1077 : Ref sig .tc := ⟨.hbm, 1144, rfl⟩
abbrev main_v1078 : Ref sig .tc := ⟨.hbm, 1145, rfl⟩
abbrev main_v1079 : Ref sig .tc := ⟨.hbm, 1146, rfl⟩
abbrev main_v1080 : Ref sig .tc := ⟨.hbm, 1147, rfl⟩
abbrev main_v1081 : Ref sig .tc := ⟨.hbm, 1148, rfl⟩
abbrev main_v1082 : Ref sig .tc := ⟨.hbm, 1149, rfl⟩
abbrev main_v1083 : Ref sig .tc := ⟨.hbm, 1150, rfl⟩
abbrev main_v1084 : Ref sig .tc := ⟨.hbm, 1151, rfl⟩
abbrev main_v1085 : Ref sig .tc := ⟨.hbm, 1152, rfl⟩
abbrev main_v1086 : Ref sig .tc := ⟨.hbm, 1153, rfl⟩
abbrev main_v1087 : Ref sig .tc := ⟨.hbm, 1154, rfl⟩
abbrev main_v1088 : Ref sig .tc := ⟨.hbm, 1155, rfl⟩
abbrev main_v1089 : Ref sig .tc := ⟨.hbm, 1156, rfl⟩
abbrev main_v1090 : Ref sig .tc := ⟨.hbm, 1157, rfl⟩
abbrev main_v1091 : Ref sig .tc := ⟨.hbm, 1158, rfl⟩
abbrev main_v1092 : Ref sig .tc := ⟨.hbm, 1159, rfl⟩
abbrev main_v1093 : Ref sig .tc := ⟨.hbm, 1160, rfl⟩
abbrev main_v1094 : Ref sig .tc := ⟨.hbm, 1161, rfl⟩
abbrev main_v1095 : Ref sig .tc := ⟨.hbm, 1162, rfl⟩
abbrev main_v1096 : Ref sig .tc := ⟨.hbm, 1163, rfl⟩
abbrev main_v1097 : Ref sig .tc := ⟨.hbm, 1164, rfl⟩
abbrev main_v1098 : Ref sig .tc := ⟨.hbm, 1165, rfl⟩
abbrev main_v1099 : Ref sig .tc := ⟨.hbm, 1166, rfl⟩
abbrev main_v1100 : Ref sig .tc := ⟨.hbm, 1167, rfl⟩
abbrev main_v1101 : Ref sig .tc := ⟨.hbm, 1168, rfl⟩
abbrev main_v1102 : Ref sig .tc := ⟨.hbm, 1169, rfl⟩
abbrev main_v1103 : Ref sig .tc := ⟨.hbm, 1170, rfl⟩
abbrev main_v1104 : Ref sig .tc := ⟨.hbm, 1171, rfl⟩
abbrev main_v1105 : Ref sig .tc := ⟨.hbm, 1172, rfl⟩
abbrev main_v1106 : Ref sig .tc := ⟨.hbm, 1173, rfl⟩
abbrev main_v1107 : Ref sig .tc := ⟨.hbm, 1174, rfl⟩
abbrev main_v1108 : Ref sig .tc := ⟨.hbm, 1175, rfl⟩
abbrev main_v1109 : Ref sig .tc := ⟨.hbm, 1176, rfl⟩
abbrev main_v1110 : Ref sig .tc := ⟨.hbm, 1177, rfl⟩
abbrev main_v1111 : Ref sig .tc := ⟨.hbm, 1178, rfl⟩
abbrev main_v1112 : Ref sig .tc := ⟨.hbm, 1179, rfl⟩
abbrev main_v1113 : Ref sig .tc := ⟨.hbm, 1180, rfl⟩
abbrev main_v1114 : Ref sig .tc := ⟨.hbm, 1181, rfl⟩
abbrev main_v1115 : Ref sig .tc := ⟨.hbm, 1182, rfl⟩
abbrev main_v1116 : Ref sig .tc := ⟨.hbm, 1183, rfl⟩
abbrev main_cst_59 : Ref sig .tc := ⟨.hbm, 1184, rfl⟩
abbrev main_v1117 : Ref sig .tc := ⟨.hbm, 1185, rfl⟩
abbrev main_v1118 : Ref sig .tc := ⟨.hbm, 1186, rfl⟩
abbrev main_v1119 : Ref sig .tc := ⟨.hbm, 1187, rfl⟩
abbrev main_v1120 : Ref sig .tc := ⟨.hbm, 1188, rfl⟩
abbrev main_v1121 : Ref sig .tc := ⟨.hbm, 1189, rfl⟩
abbrev main_v1122 : Ref sig .tc := ⟨.hbm, 1190, rfl⟩
abbrev main_cst_60 : Ref sig .tc := ⟨.hbm, 1191, rfl⟩
abbrev main_v1123 : Ref sig .tc := ⟨.hbm, 1192, rfl⟩
abbrev main_v1124 : Ref sig .tc := ⟨.hbm, 1193, rfl⟩
abbrev main_v1125 : Ref sig .tc := ⟨.hbm, 1194, rfl⟩
abbrev main_v1126 : Ref sig .tc := ⟨.hbm, 1195, rfl⟩
abbrev main_v1127 : Ref sig .tc := ⟨.hbm, 1196, rfl⟩
abbrev main_v1128 : Ref sig .tc := ⟨.hbm, 1197, rfl⟩
abbrev main_v1129 : Ref sig .tc := ⟨.hbm, 1198, rfl⟩
abbrev main_v1130 : Ref sig .tc := ⟨.hbm, 1199, rfl⟩
abbrev main_v1131 : Ref sig .tc := ⟨.hbm, 1200, rfl⟩
abbrev main_v1132 : Ref sig .tc := ⟨.hbm, 1201, rfl⟩
abbrev main_v1133 : Ref sig .tc := ⟨.hbm, 1202, rfl⟩
abbrev main_v1134 : Ref sig .tc := ⟨.hbm, 1203, rfl⟩
abbrev main_v1135 : Ref sig .tc := ⟨.hbm, 1204, rfl⟩
abbrev main_v1136 : Ref sig .tc := ⟨.hbm, 1205, rfl⟩
abbrev main_v1137 : Ref sig .tc := ⟨.hbm, 1206, rfl⟩
abbrev main_v1138 : Ref sig .tc := ⟨.hbm, 1207, rfl⟩
abbrev main_v1139 : Ref sig .tc := ⟨.hbm, 1208, rfl⟩
abbrev main_v1140 : Ref sig .tc := ⟨.hbm, 1209, rfl⟩
abbrev main_v1141 : Ref sig .tc := ⟨.hbm, 1210, rfl⟩
abbrev main_v1142 : Ref sig .tc := ⟨.hbm, 1211, rfl⟩
abbrev main_v1143 : Ref sig .tc := ⟨.hbm, 1212, rfl⟩
abbrev main_v1144 : Ref sig .tc := ⟨.hbm, 1213, rfl⟩
abbrev main_v1145 : Ref sig .tc := ⟨.hbm, 1214, rfl⟩
abbrev main_v1146 : Ref sig .tc := ⟨.hbm, 1215, rfl⟩
abbrev main_v1147 : Ref sig .tc := ⟨.hbm, 1216, rfl⟩
abbrev main_v1148 : Ref sig .tc := ⟨.hbm, 1217, rfl⟩
abbrev main_v1149 : Ref sig .tc := ⟨.hbm, 1218, rfl⟩
abbrev main_v1150 : Ref sig .tc := ⟨.hbm, 1219, rfl⟩
abbrev main_v1151 : Ref sig .tc := ⟨.hbm, 1220, rfl⟩
abbrev main_v1152 : Ref sig .tc := ⟨.hbm, 1221, rfl⟩
abbrev main_v1153 : Ref sig .tc := ⟨.hbm, 1222, rfl⟩
abbrev main_v1154 : Ref sig .tc := ⟨.hbm, 1223, rfl⟩
abbrev main_v1155 : Ref sig .tc := ⟨.hbm, 1224, rfl⟩
abbrev main_v1156 : Ref sig .tc := ⟨.hbm, 1225, rfl⟩
abbrev main_v1157 : Ref sig .tc := ⟨.hbm, 1226, rfl⟩
abbrev main_v1158 : Ref sig .tc := ⟨.hbm, 1227, rfl⟩
abbrev main_v1159 : Ref sig .tc := ⟨.hbm, 1228, rfl⟩
abbrev main_v1160 : Ref sig .tc := ⟨.hbm, 1229, rfl⟩
abbrev main_v1161 : Ref sig .tc := ⟨.hbm, 1230, rfl⟩
abbrev main_v1162 : Ref sig .tc := ⟨.hbm, 1231, rfl⟩
abbrev main_v1163 : Ref sig .tc := ⟨.hbm, 1232, rfl⟩
abbrev main_v1164 : Ref sig .tc := ⟨.hbm, 1233, rfl⟩
abbrev main_v1165 : Ref sig .tc := ⟨.hbm, 1234, rfl⟩
abbrev main_v1166 : Ref sig .tc := ⟨.hbm, 1235, rfl⟩
abbrev main_v1167 : Ref sig .tc := ⟨.hbm, 1236, rfl⟩
abbrev main_v1168 : Ref sig .tc := ⟨.hbm, 1237, rfl⟩
abbrev main_v1169 : Ref sig .tc := ⟨.hbm, 1238, rfl⟩
abbrev main_v1170 : Ref sig .tc := ⟨.hbm, 1239, rfl⟩
abbrev main_v1171 : Ref sig .tc := ⟨.hbm, 1240, rfl⟩
abbrev main_v1172 : Ref sig .tc := ⟨.hbm, 1241, rfl⟩
abbrev main_v1173 : Ref sig .tc := ⟨.hbm, 1242, rfl⟩
abbrev main_v1174 : Ref sig .tc := ⟨.hbm, 1243, rfl⟩
abbrev main_v1175 : Ref sig .tc := ⟨.hbm, 1244, rfl⟩
abbrev main_v1176 : Ref sig .tc := ⟨.hbm, 1245, rfl⟩
abbrev main_v1177 : Ref sig .tc := ⟨.hbm, 1246, rfl⟩
abbrev main_cst_61 : Ref sig .tc := ⟨.hbm, 1247, rfl⟩
abbrev main_v1178 : Ref sig .tc := ⟨.hbm, 1248, rfl⟩
abbrev main_v1179 : Ref sig .tc := ⟨.hbm, 1249, rfl⟩
abbrev main_v1180 : Ref sig .tc := ⟨.hbm, 1250, rfl⟩
abbrev main_v1181 : Ref sig .tc := ⟨.hbm, 1251, rfl⟩
abbrev main_v1182 : Ref sig .tc := ⟨.hbm, 1252, rfl⟩
abbrev main_v1183 : Ref sig .tc := ⟨.hbm, 1253, rfl⟩
abbrev main_cst_62 : Ref sig .tc := ⟨.hbm, 1254, rfl⟩
abbrev main_v1184 : Ref sig .tc := ⟨.hbm, 1255, rfl⟩
abbrev main_v1185 : Ref sig .tc := ⟨.hbm, 1256, rfl⟩
abbrev main_v1186 : Ref sig .tc := ⟨.hbm, 1257, rfl⟩
abbrev main_v1187 : Ref sig .tc := ⟨.hbm, 1258, rfl⟩
abbrev main_v1188 : Ref sig .tc := ⟨.hbm, 1259, rfl⟩
abbrev main_v1189 : Ref sig .tc := ⟨.hbm, 1260, rfl⟩
abbrev main_v1190 : Ref sig .tc := ⟨.hbm, 1261, rfl⟩
abbrev main_v1191 : Ref sig .tc := ⟨.hbm, 1262, rfl⟩
abbrev main_v1192 : Ref sig .tc := ⟨.hbm, 1263, rfl⟩
abbrev main_v1193 : Ref sig .tc := ⟨.hbm, 1264, rfl⟩
abbrev main_v1194 : Ref sig .tc := ⟨.hbm, 1265, rfl⟩
abbrev main_v1195 : Ref sig .tc := ⟨.hbm, 1266, rfl⟩
abbrev main_v1196 : Ref sig .tc := ⟨.hbm, 1267, rfl⟩
abbrev main_v1197 : Ref sig .tc := ⟨.hbm, 1268, rfl⟩
abbrev main_v1198 : Ref sig .tc := ⟨.hbm, 1269, rfl⟩
abbrev main_v1199 : Ref sig .tc := ⟨.hbm, 1270, rfl⟩
abbrev main_v1200 : Ref sig .tc := ⟨.hbm, 1271, rfl⟩
abbrev main_v1201 : Ref sig .tc := ⟨.hbm, 1272, rfl⟩
abbrev main_v1202 : Ref sig .tc := ⟨.hbm, 1273, rfl⟩
abbrev main_v1203 : Ref sig .tc := ⟨.hbm, 1274, rfl⟩
abbrev main_v1204 : Ref sig .tc := ⟨.hbm, 1275, rfl⟩
abbrev main_v1205 : Ref sig .tc := ⟨.hbm, 1276, rfl⟩
abbrev main_v1206 : Ref sig .tc := ⟨.hbm, 1277, rfl⟩
abbrev main_v1207 : Ref sig .tc := ⟨.hbm, 1278, rfl⟩
abbrev main_v1208 : Ref sig .tc := ⟨.hbm, 1279, rfl⟩
abbrev main_v1209 : Ref sig .tc := ⟨.hbm, 1280, rfl⟩
abbrev main_v1210 : Ref sig .tc := ⟨.hbm, 1281, rfl⟩
abbrev main_v1211 : Ref sig .tc := ⟨.hbm, 1282, rfl⟩
abbrev main_v1212 : Ref sig .tc := ⟨.hbm, 1283, rfl⟩
abbrev main_v1213 : Ref sig .tc := ⟨.hbm, 1284, rfl⟩
abbrev main_v1214 : Ref sig .tc := ⟨.hbm, 1285, rfl⟩
abbrev main_v1215 : Ref sig .tc := ⟨.hbm, 1286, rfl⟩
abbrev main_v1216 : Ref sig .tc := ⟨.hbm, 1287, rfl⟩
abbrev main_v1217 : Ref sig .tc := ⟨.hbm, 1288, rfl⟩
abbrev main_v1218 : Ref sig .tc := ⟨.hbm, 1289, rfl⟩
abbrev main_v1219 : Ref sig .tc := ⟨.hbm, 1290, rfl⟩
abbrev main_v1220 : Ref sig .tc := ⟨.hbm, 1291, rfl⟩
abbrev main_v1221 : Ref sig .tc := ⟨.hbm, 1292, rfl⟩
abbrev main_v1222 : Ref sig .tc := ⟨.hbm, 1293, rfl⟩
abbrev main_v1223 : Ref sig .tc := ⟨.hbm, 1294, rfl⟩
abbrev main_v1224 : Ref sig .tc := ⟨.hbm, 1295, rfl⟩
abbrev main_v1225 : Ref sig .tc := ⟨.hbm, 1296, rfl⟩
abbrev main_v1226 : Ref sig .tc := ⟨.hbm, 1297, rfl⟩
abbrev main_v1227 : Ref sig .tc := ⟨.hbm, 1298, rfl⟩
abbrev main_v1228 : Ref sig .tc := ⟨.hbm, 1299, rfl⟩
abbrev main_v1229 : Ref sig .tc := ⟨.hbm, 1300, rfl⟩
abbrev main_v1230 : Ref sig .tc := ⟨.hbm, 1301, rfl⟩
abbrev main_v1231 : Ref sig .tc := ⟨.hbm, 1302, rfl⟩
abbrev main_v1232 : Ref sig .tc := ⟨.hbm, 1303, rfl⟩
abbrev main_v1233 : Ref sig .tc := ⟨.hbm, 1304, rfl⟩
abbrev main_v1234 : Ref sig .tc := ⟨.hbm, 1305, rfl⟩
abbrev main_v1235 : Ref sig .tc := ⟨.hbm, 1306, rfl⟩
abbrev main_v1236 : Ref sig .tc := ⟨.hbm, 1307, rfl⟩
abbrev main_v1237 : Ref sig .tc := ⟨.hbm, 1308, rfl⟩
abbrev main_v1238 : Ref sig .tc := ⟨.hbm, 1309, rfl⟩
abbrev main_cst_63 : Ref sig .tc := ⟨.hbm, 1310, rfl⟩
abbrev main_v1239 : Ref sig .tc := ⟨.hbm, 1311, rfl⟩
abbrev main_v1240 : Ref sig .tc := ⟨.hbm, 1312, rfl⟩
abbrev main_v1241 : Ref sig .tc := ⟨.hbm, 1313, rfl⟩
abbrev main_v1242 : Ref sig .tc := ⟨.hbm, 1314, rfl⟩
abbrev main_v1243 : Ref sig .tc := ⟨.hbm, 1315, rfl⟩
abbrev main_v1244 : Ref sig .tc := ⟨.hbm, 1316, rfl⟩
abbrev main_cst_64 : Ref sig .tc := ⟨.hbm, 1317, rfl⟩
abbrev main_v1245 : Ref sig .tc := ⟨.hbm, 1318, rfl⟩
abbrev main_v1246 : Ref sig .tc := ⟨.hbm, 1319, rfl⟩
abbrev main_v1247 : Ref sig .tc := ⟨.hbm, 1320, rfl⟩
abbrev main_v1248 : Ref sig .tc := ⟨.hbm, 1321, rfl⟩
abbrev main_v1249 : Ref sig .tc := ⟨.hbm, 1322, rfl⟩
abbrev main_v1250 : Ref sig .tc := ⟨.hbm, 1323, rfl⟩
abbrev main_v1251 : Ref sig .tc := ⟨.hbm, 1324, rfl⟩
abbrev main_v1252 : Ref sig .tc := ⟨.hbm, 1325, rfl⟩
abbrev main_v1253 : Ref sig .tc := ⟨.hbm, 1326, rfl⟩
abbrev main_v1254 : Ref sig .tc := ⟨.hbm, 1327, rfl⟩
abbrev main_v1255 : Ref sig .tc := ⟨.hbm, 1328, rfl⟩
abbrev main_v1256 : Ref sig .tc := ⟨.hbm, 1329, rfl⟩
abbrev main_v1257 : Ref sig .tc := ⟨.hbm, 1330, rfl⟩
abbrev main_v1258 : Ref sig .tc := ⟨.hbm, 1331, rfl⟩
abbrev main_v1259 : Ref sig .tc := ⟨.hbm, 1332, rfl⟩
abbrev main_v1260 : Ref sig .tc := ⟨.hbm, 1333, rfl⟩
abbrev main_v1261 : Ref sig .tc := ⟨.hbm, 1334, rfl⟩
abbrev main_v1262 : Ref sig .tc := ⟨.hbm, 1335, rfl⟩
abbrev main_v1263 : Ref sig .tc := ⟨.hbm, 1336, rfl⟩
abbrev main_v1264 : Ref sig .tc := ⟨.hbm, 1337, rfl⟩
abbrev main_v1265 : Ref sig .tc := ⟨.hbm, 1338, rfl⟩
abbrev main_v1266 : Ref sig .tc := ⟨.hbm, 1339, rfl⟩
abbrev main_v1267 : Ref sig .tc := ⟨.hbm, 1340, rfl⟩
abbrev main_v1268 : Ref sig .tc := ⟨.hbm, 1341, rfl⟩
abbrev main_v1269 : Ref sig .tc := ⟨.hbm, 1342, rfl⟩
abbrev main_v1270 : Ref sig .tc := ⟨.hbm, 1343, rfl⟩
abbrev main_v1271 : Ref sig .tc := ⟨.hbm, 1344, rfl⟩
abbrev main_v1272 : Ref sig .tc := ⟨.hbm, 1345, rfl⟩
abbrev main_v1273 : Ref sig .tc := ⟨.hbm, 1346, rfl⟩
abbrev main_v1274 : Ref sig .tc := ⟨.hbm, 1347, rfl⟩
abbrev main_v1275 : Ref sig .tc := ⟨.hbm, 1348, rfl⟩
abbrev main_v1276 : Ref sig .tc := ⟨.hbm, 1349, rfl⟩
abbrev main_v1277 : Ref sig .tc := ⟨.hbm, 1350, rfl⟩
abbrev main_v1278 : Ref sig .tc := ⟨.hbm, 1351, rfl⟩
abbrev main_v1279 : Ref sig .tc := ⟨.hbm, 1352, rfl⟩
abbrev main_v1280 : Ref sig .tc := ⟨.hbm, 1353, rfl⟩
abbrev main_v1281 : Ref sig .tc := ⟨.hbm, 1354, rfl⟩
abbrev main_v1282 : Ref sig .tc := ⟨.hbm, 1355, rfl⟩
abbrev main_v1283 : Ref sig .tc := ⟨.hbm, 1356, rfl⟩
abbrev main_v1284 : Ref sig .tc := ⟨.hbm, 1357, rfl⟩
abbrev main_v1285 : Ref sig .tc := ⟨.hbm, 1358, rfl⟩
abbrev main_v1286 : Ref sig .tc := ⟨.hbm, 1359, rfl⟩
abbrev main_v1287 : Ref sig .tc := ⟨.hbm, 1360, rfl⟩
abbrev main_v1288 : Ref sig .tc := ⟨.hbm, 1361, rfl⟩
abbrev main_v1289 : Ref sig .tc := ⟨.hbm, 1362, rfl⟩
abbrev main_v1290 : Ref sig .tc := ⟨.hbm, 1363, rfl⟩
abbrev main_v1291 : Ref sig .tc := ⟨.hbm, 1364, rfl⟩
abbrev main_v1292 : Ref sig .tc := ⟨.hbm, 1365, rfl⟩
abbrev main_v1293 : Ref sig .tc := ⟨.hbm, 1366, rfl⟩
abbrev main_v1294 : Ref sig .tc := ⟨.hbm, 1367, rfl⟩
abbrev main_v1295 : Ref sig .tc := ⟨.hbm, 1368, rfl⟩
abbrev main_v1296 : Ref sig .tc := ⟨.hbm, 1369, rfl⟩
abbrev main_v1297 : Ref sig .tc := ⟨.hbm, 1370, rfl⟩
abbrev main_v1298 : Ref sig .tc := ⟨.hbm, 1371, rfl⟩
abbrev main_v1299 : Ref sig .tc := ⟨.hbm, 1372, rfl⟩
abbrev main_v1300 : Ref sig .tc := ⟨.hbm, 1373, rfl⟩
abbrev main_v1301 : Ref sig .tc := ⟨.hbm, 1374, rfl⟩
abbrev main_v1302 : Ref sig .tc := ⟨.hbm, 1375, rfl⟩
abbrev main_cst_65 : Ref sig .tc := ⟨.hbm, 1376, rfl⟩
abbrev main_v1303 : Ref sig .tc := ⟨.hbm, 1377, rfl⟩
abbrev main_v1304 : Ref sig .tc := ⟨.hbm, 1378, rfl⟩
abbrev main_v1305 : Ref sig .tc := ⟨.hbm, 1379, rfl⟩
abbrev main_v1306 : Ref sig .tc := ⟨.hbm, 1380, rfl⟩
abbrev main_v1307 : Ref sig .tc := ⟨.hbm, 1381, rfl⟩
abbrev main_v1308 : Ref sig .tc := ⟨.hbm, 1382, rfl⟩
abbrev main_cst_66 : Ref sig .tc := ⟨.hbm, 1383, rfl⟩
abbrev main_v1309 : Ref sig .tc := ⟨.hbm, 1384, rfl⟩
abbrev main_v1310 : Ref sig .tc := ⟨.hbm, 1385, rfl⟩
abbrev main_v1311 : Ref sig .tc := ⟨.hbm, 1386, rfl⟩
abbrev main_v1312 : Ref sig .tc := ⟨.hbm, 1387, rfl⟩
abbrev main_v1313 : Ref sig .tc := ⟨.hbm, 1388, rfl⟩
abbrev main_v1314 : Ref sig .tc := ⟨.hbm, 1389, rfl⟩
abbrev main_v1315 : Ref sig .tc := ⟨.hbm, 1390, rfl⟩
abbrev main_v1316 : Ref sig .tc := ⟨.hbm, 1391, rfl⟩
abbrev main_v1317 : Ref sig .tc := ⟨.hbm, 1392, rfl⟩
abbrev main_v1318 : Ref sig .tc := ⟨.hbm, 1393, rfl⟩
abbrev main_v1319 : Ref sig .tc := ⟨.hbm, 1394, rfl⟩
abbrev main_v1320 : Ref sig .tc := ⟨.hbm, 1395, rfl⟩
abbrev main_v1321 : Ref sig .tc := ⟨.hbm, 1396, rfl⟩
abbrev main_v1322 : Ref sig .tc := ⟨.hbm, 1397, rfl⟩
abbrev main_v1323 : Ref sig .tc := ⟨.hbm, 1398, rfl⟩
abbrev main_v1324 : Ref sig .tc := ⟨.hbm, 1399, rfl⟩
abbrev main_v1325 : Ref sig .tc := ⟨.hbm, 1400, rfl⟩
abbrev main_v1326 : Ref sig .tc := ⟨.hbm, 1401, rfl⟩
abbrev main_v1327 : Ref sig .tc := ⟨.hbm, 1402, rfl⟩
abbrev main_v1328 : Ref sig .tc := ⟨.hbm, 1403, rfl⟩
abbrev main_v1329 : Ref sig .tc := ⟨.hbm, 1404, rfl⟩
abbrev main_v1330 : Ref sig .tc := ⟨.hbm, 1405, rfl⟩
abbrev main_v1331 : Ref sig .tc := ⟨.hbm, 1406, rfl⟩
abbrev main_v1332 : Ref sig .tc := ⟨.hbm, 1407, rfl⟩
abbrev main_v1333 : Ref sig .tc := ⟨.hbm, 1408, rfl⟩
abbrev main_v1334 : Ref sig .tc := ⟨.hbm, 1409, rfl⟩
abbrev main_v1335 : Ref sig .tc := ⟨.hbm, 1410, rfl⟩
abbrev main_v1336 : Ref sig .tc := ⟨.hbm, 1411, rfl⟩
abbrev main_v1337 : Ref sig .tc := ⟨.hbm, 1412, rfl⟩
abbrev main_v1338 : Ref sig .tc := ⟨.hbm, 1413, rfl⟩
abbrev main_v1339 : Ref sig .tc := ⟨.hbm, 1414, rfl⟩
abbrev main_v1340 : Ref sig .tc := ⟨.hbm, 1415, rfl⟩
abbrev main_v1341 : Ref sig .tc := ⟨.hbm, 1416, rfl⟩
abbrev main_v1342 : Ref sig .tc := ⟨.hbm, 1417, rfl⟩
abbrev main_v1343 : Ref sig .tc := ⟨.hbm, 1418, rfl⟩
abbrev main_v1344 : Ref sig .tc := ⟨.hbm, 1419, rfl⟩
abbrev main_v1345 : Ref sig .tc := ⟨.hbm, 1420, rfl⟩
abbrev main_v1346 : Ref sig .tc := ⟨.hbm, 1421, rfl⟩
abbrev main_v1347 : Ref sig .tc := ⟨.hbm, 1422, rfl⟩
abbrev main_v1348 : Ref sig .tc := ⟨.hbm, 1423, rfl⟩
abbrev main_v1349 : Ref sig .tc := ⟨.hbm, 1424, rfl⟩
abbrev main_v1350 : Ref sig .tc := ⟨.hbm, 1425, rfl⟩
abbrev main_v1351 : Ref sig .tc := ⟨.hbm, 1426, rfl⟩
abbrev main_v1352 : Ref sig .tc := ⟨.hbm, 1427, rfl⟩
abbrev main_v1353 : Ref sig .tc := ⟨.hbm, 1428, rfl⟩
abbrev main_v1354 : Ref sig .tc := ⟨.hbm, 1429, rfl⟩
abbrev main_v1355 : Ref sig .tc := ⟨.hbm, 1430, rfl⟩
abbrev main_v1356 : Ref sig .tc := ⟨.hbm, 1431, rfl⟩
abbrev main_v1357 : Ref sig .tc := ⟨.hbm, 1432, rfl⟩
abbrev main_v1358 : Ref sig .tc := ⟨.hbm, 1433, rfl⟩
abbrev main_v1359 : Ref sig .tc := ⟨.hbm, 1434, rfl⟩
abbrev main_v1360 : Ref sig .tc := ⟨.hbm, 1435, rfl⟩
abbrev main_v1361 : Ref sig .tc := ⟨.hbm, 1436, rfl⟩
abbrev main_v1362 : Ref sig .tc := ⟨.hbm, 1437, rfl⟩
abbrev main_v1363 : Ref sig .tc := ⟨.hbm, 1438, rfl⟩
abbrev main_v1364 : Ref sig .tc := ⟨.hbm, 1439, rfl⟩
abbrev main_v1365 : Ref sig .tc := ⟨.hbm, 1440, rfl⟩
abbrev main_v1366 : Ref sig .tc := ⟨.hbm, 1441, rfl⟩
abbrev main_cst_67 : Ref sig .tc := ⟨.hbm, 1442, rfl⟩
abbrev main_v1367 : Ref sig .tc := ⟨.hbm, 1443, rfl⟩
abbrev main_v1368 : Ref sig .tc := ⟨.hbm, 1444, rfl⟩
abbrev main_v1369 : Ref sig .tc := ⟨.hbm, 1445, rfl⟩
abbrev main_v1370 : Ref sig .tc := ⟨.hbm, 1446, rfl⟩
abbrev main_v1371 : Ref sig .tc := ⟨.hbm, 1447, rfl⟩
abbrev main_v1372 : Ref sig .tc := ⟨.hbm, 1448, rfl⟩
abbrev main_cst_68 : Ref sig .tc := ⟨.hbm, 1449, rfl⟩
abbrev main_v1373 : Ref sig .tc := ⟨.hbm, 1450, rfl⟩
abbrev main_v1374 : Ref sig .tc := ⟨.hbm, 1451, rfl⟩
abbrev main_v1375 : Ref sig .tc := ⟨.hbm, 1452, rfl⟩
abbrev main_v1376 : Ref sig .tc := ⟨.hbm, 1453, rfl⟩
abbrev main_v1377 : Ref sig .tc := ⟨.hbm, 1454, rfl⟩
abbrev main_v1378 : Ref sig .tc := ⟨.hbm, 1455, rfl⟩
abbrev main_v1379 : Ref sig .tc := ⟨.hbm, 1456, rfl⟩
abbrev main_v1380 : Ref sig .tc := ⟨.hbm, 1457, rfl⟩
abbrev main_v1381 : Ref sig .tc := ⟨.hbm, 1458, rfl⟩
abbrev main_v1382 : Ref sig .tc := ⟨.hbm, 1459, rfl⟩
abbrev main_v1383 : Ref sig .tc := ⟨.hbm, 1460, rfl⟩
abbrev main_v1384 : Ref sig .tc := ⟨.hbm, 1461, rfl⟩
abbrev main_v1385 : Ref sig .tc := ⟨.hbm, 1462, rfl⟩
abbrev main_v1386 : Ref sig .tc := ⟨.hbm, 1463, rfl⟩
abbrev main_v1387 : Ref sig .tc := ⟨.hbm, 1464, rfl⟩
abbrev main_v1388 : Ref sig .tc := ⟨.hbm, 1465, rfl⟩
abbrev main_v1389 : Ref sig .tc := ⟨.hbm, 1466, rfl⟩
abbrev main_v1390 : Ref sig .tc := ⟨.hbm, 1467, rfl⟩
abbrev main_v1391 : Ref sig .tc := ⟨.hbm, 1468, rfl⟩
abbrev main_v1392 : Ref sig .tc := ⟨.hbm, 1469, rfl⟩
abbrev main_v1393 : Ref sig .tc := ⟨.hbm, 1470, rfl⟩
abbrev main_v1394 : Ref sig .tc := ⟨.hbm, 1471, rfl⟩
abbrev main_v1395 : Ref sig .tc := ⟨.hbm, 1472, rfl⟩
abbrev main_v1396 : Ref sig .tc := ⟨.hbm, 1473, rfl⟩
abbrev main_v1397 : Ref sig .tc := ⟨.hbm, 1474, rfl⟩
abbrev main_v1398 : Ref sig .tc := ⟨.hbm, 1475, rfl⟩
abbrev main_v1399 : Ref sig .tc := ⟨.hbm, 1476, rfl⟩
abbrev main_v1400 : Ref sig .tc := ⟨.hbm, 1477, rfl⟩
abbrev main_v1401 : Ref sig .tc := ⟨.hbm, 1478, rfl⟩
abbrev main_v1402 : Ref sig .tc := ⟨.hbm, 1479, rfl⟩
abbrev main_v1403 : Ref sig .tc := ⟨.hbm, 1480, rfl⟩
abbrev main_v1404 : Ref sig .tc := ⟨.hbm, 1481, rfl⟩
abbrev main_v1405 : Ref sig .tc := ⟨.hbm, 1482, rfl⟩
abbrev main_v1406 : Ref sig .tc := ⟨.hbm, 1483, rfl⟩
abbrev main_v1407 : Ref sig .tc := ⟨.hbm, 1484, rfl⟩
abbrev main_v1408 : Ref sig .tc := ⟨.hbm, 1485, rfl⟩
abbrev main_v1409 : Ref sig .tc := ⟨.hbm, 1486, rfl⟩
abbrev main_v1410 : Ref sig .tc := ⟨.hbm, 1487, rfl⟩
abbrev main_v1411 : Ref sig .tc := ⟨.hbm, 1488, rfl⟩
abbrev main_v1412 : Ref sig .tc := ⟨.hbm, 1489, rfl⟩
abbrev main_v1413 : Ref sig .tc := ⟨.hbm, 1490, rfl⟩
abbrev main_v1414 : Ref sig .tc := ⟨.hbm, 1491, rfl⟩
abbrev main_v1415 : Ref sig .tc := ⟨.hbm, 1492, rfl⟩
abbrev main_v1416 : Ref sig .tc := ⟨.hbm, 1493, rfl⟩
abbrev main_v1417 : Ref sig .tc := ⟨.hbm, 1494, rfl⟩
abbrev main_v1418 : Ref sig .tc := ⟨.hbm, 1495, rfl⟩
abbrev main_v1419 : Ref sig .tc := ⟨.hbm, 1496, rfl⟩
abbrev main_v1420 : Ref sig .tc := ⟨.hbm, 1497, rfl⟩
abbrev main_v1421 : Ref sig .tc := ⟨.hbm, 1498, rfl⟩
abbrev main_v1422 : Ref sig .tc := ⟨.hbm, 1499, rfl⟩
abbrev main_v1423 : Ref sig .tc := ⟨.hbm, 1500, rfl⟩
abbrev main_v1424 : Ref sig .tc := ⟨.hbm, 1501, rfl⟩
abbrev main_v1425 : Ref sig .tc := ⟨.hbm, 1502, rfl⟩
abbrev main_v1426 : Ref sig .tc := ⟨.hbm, 1503, rfl⟩
abbrev main_v1427 : Ref sig .tc := ⟨.hbm, 1504, rfl⟩
abbrev main_v1428 : Ref sig .tc := ⟨.hbm, 1505, rfl⟩
abbrev main_v1429 : Ref sig .tc := ⟨.hbm, 1506, rfl⟩
abbrev main_v1430 : Ref sig .tc := ⟨.hbm, 1507, rfl⟩
abbrev main_v1431 : Ref sig .tc := ⟨.hbm, 1508, rfl⟩
abbrev main_v1432 : Ref sig .tc := ⟨.hbm, 1509, rfl⟩
abbrev main_v1433 : Ref sig .tc := ⟨.hbm, 1510, rfl⟩
abbrev main_cst_69 : Ref sig .tc := ⟨.hbm, 1511, rfl⟩
abbrev main_v1434 : Ref sig .tc := ⟨.hbm, 1512, rfl⟩
abbrev main_v1435 : Ref sig .tc := ⟨.hbm, 1513, rfl⟩
abbrev main_v1436 : Ref sig .tc := ⟨.hbm, 1514, rfl⟩
abbrev main_v1437 : Ref sig .tc := ⟨.hbm, 1515, rfl⟩
abbrev main_v1438 : Ref sig .tc := ⟨.hbm, 1516, rfl⟩
abbrev main_v1439 : Ref sig .tc := ⟨.hbm, 1517, rfl⟩
abbrev main_cst_70 : Ref sig .tc := ⟨.hbm, 1518, rfl⟩
abbrev main_v1440 : Ref sig .tc := ⟨.hbm, 1519, rfl⟩
abbrev main_v1441 : Ref sig .tc := ⟨.hbm, 1520, rfl⟩
abbrev main_v1442 : Ref sig .tc := ⟨.hbm, 1521, rfl⟩
abbrev main_v1443 : Ref sig .tc := ⟨.hbm, 1522, rfl⟩
abbrev main_v1444 : Ref sig .tc := ⟨.hbm, 1523, rfl⟩
abbrev main_v1445 : Ref sig .tc := ⟨.hbm, 1524, rfl⟩
abbrev main_v1446 : Ref sig .tc := ⟨.hbm, 1525, rfl⟩
abbrev main_v1447 : Ref sig .tc := ⟨.hbm, 1526, rfl⟩
abbrev main_v1448 : Ref sig .tc := ⟨.hbm, 1527, rfl⟩
abbrev main_v1449 : Ref sig .tc := ⟨.hbm, 1528, rfl⟩
abbrev main_v1450 : Ref sig .tc := ⟨.hbm, 1529, rfl⟩
abbrev main_v1451 : Ref sig .tc := ⟨.hbm, 1530, rfl⟩
abbrev main_v1452 : Ref sig .tc := ⟨.hbm, 1531, rfl⟩
abbrev main_v1453 : Ref sig .tc := ⟨.hbm, 1532, rfl⟩
abbrev main_v1454 : Ref sig .tc := ⟨.hbm, 1533, rfl⟩
abbrev main_v1455 : Ref sig .tc := ⟨.hbm, 1534, rfl⟩
abbrev main_v1456 : Ref sig .tc := ⟨.hbm, 1535, rfl⟩
abbrev main_v1457 : Ref sig .tc := ⟨.hbm, 1536, rfl⟩
abbrev main_v1458 : Ref sig .tc := ⟨.hbm, 1537, rfl⟩
abbrev main_v1459 : Ref sig .tc := ⟨.hbm, 1538, rfl⟩
abbrev main_v1460 : Ref sig .tc := ⟨.hbm, 1539, rfl⟩
abbrev main_v1461 : Ref sig .tc := ⟨.hbm, 1540, rfl⟩
abbrev main_v1462 : Ref sig .tc := ⟨.hbm, 1541, rfl⟩
abbrev main_v1463 : Ref sig .tc := ⟨.hbm, 1542, rfl⟩
abbrev main_v1464 : Ref sig .tc := ⟨.hbm, 1543, rfl⟩
abbrev main_v1465 : Ref sig .tc := ⟨.hbm, 1544, rfl⟩
abbrev main_v1466 : Ref sig .tc := ⟨.hbm, 1545, rfl⟩
abbrev main_v1467 : Ref sig .tc := ⟨.hbm, 1546, rfl⟩
abbrev main_v1468 : Ref sig .tc := ⟨.hbm, 1547, rfl⟩
abbrev main_v1469 : Ref sig .tc := ⟨.hbm, 1548, rfl⟩
abbrev main_v1470 : Ref sig .tc := ⟨.hbm, 1549, rfl⟩
abbrev main_v1471 : Ref sig .tc := ⟨.hbm, 1550, rfl⟩
abbrev main_v1472 : Ref sig .tc := ⟨.hbm, 1551, rfl⟩
abbrev main_v1473 : Ref sig .tc := ⟨.hbm, 1552, rfl⟩
abbrev main_v1474 : Ref sig .tc := ⟨.hbm, 1553, rfl⟩
abbrev main_v1475 : Ref sig .tc := ⟨.hbm, 1554, rfl⟩
abbrev main_v1476 : Ref sig .tc := ⟨.hbm, 1555, rfl⟩
abbrev main_v1477 : Ref sig .tc := ⟨.hbm, 1556, rfl⟩
abbrev main_v1478 : Ref sig .tc := ⟨.hbm, 1557, rfl⟩
abbrev main_v1479 : Ref sig .tc := ⟨.hbm, 1558, rfl⟩
abbrev main_v1480 : Ref sig .tc := ⟨.hbm, 1559, rfl⟩
abbrev main_v1481 : Ref sig .tc := ⟨.hbm, 1560, rfl⟩
abbrev main_v1482 : Ref sig .tc := ⟨.hbm, 1561, rfl⟩
abbrev main_v1483 : Ref sig .tc := ⟨.hbm, 1562, rfl⟩
abbrev main_v1484 : Ref sig .tc := ⟨.hbm, 1563, rfl⟩
abbrev main_v1485 : Ref sig .tc := ⟨.hbm, 1564, rfl⟩
abbrev main_v1486 : Ref sig .tc := ⟨.hbm, 1565, rfl⟩
abbrev main_v1487 : Ref sig .tc := ⟨.hbm, 1566, rfl⟩
abbrev main_v1488 : Ref sig .tc := ⟨.hbm, 1567, rfl⟩
abbrev main_v1489 : Ref sig .tc := ⟨.hbm, 1568, rfl⟩
abbrev main_v1490 : Ref sig .tc := ⟨.hbm, 1569, rfl⟩
abbrev main_v1491 : Ref sig .tc := ⟨.hbm, 1570, rfl⟩
abbrev main_v1492 : Ref sig .tc := ⟨.hbm, 1571, rfl⟩
abbrev main_v1493 : Ref sig .tc := ⟨.hbm, 1572, rfl⟩
abbrev main_v1494 : Ref sig .tc := ⟨.hbm, 1573, rfl⟩
abbrev main_v1495 : Ref sig .tc := ⟨.hbm, 1574, rfl⟩
abbrev main_v1496 : Ref sig .tc := ⟨.hbm, 1575, rfl⟩
abbrev main_v1497 : Ref sig .tc := ⟨.hbm, 1576, rfl⟩
abbrev main_v1498 : Ref sig .tc := ⟨.hbm, 1577, rfl⟩
abbrev main_v1499 : Ref sig .tc := ⟨.hbm, 1578, rfl⟩
abbrev main_v1500 : Ref sig .tc := ⟨.hbm, 1579, rfl⟩
abbrev main_cst_71 : Ref sig .tc := ⟨.hbm, 1580, rfl⟩
abbrev main_v1501 : Ref sig .tc := ⟨.hbm, 1581, rfl⟩
abbrev main_v1502 : Ref sig .tc := ⟨.hbm, 1582, rfl⟩
abbrev main_v1503 : Ref sig .tc := ⟨.hbm, 1583, rfl⟩
abbrev main_v1504 : Ref sig .tc := ⟨.hbm, 1584, rfl⟩
abbrev main_v1505 : Ref sig .tc := ⟨.hbm, 1585, rfl⟩
abbrev main_v1506 : Ref sig .tc := ⟨.hbm, 1586, rfl⟩
abbrev main_cst_72 : Ref sig .tc := ⟨.hbm, 1587, rfl⟩
abbrev main_v1507 : Ref sig .tc := ⟨.hbm, 1588, rfl⟩
abbrev main_v1508 : Ref sig .tc := ⟨.hbm, 1589, rfl⟩
abbrev main_v1509 : Ref sig .tc := ⟨.hbm, 1590, rfl⟩
abbrev main_v1510 : Ref sig .tc := ⟨.hbm, 1591, rfl⟩
abbrev main_v1511 : Ref sig .tc := ⟨.hbm, 1592, rfl⟩
abbrev main_v1512 : Ref sig .tc := ⟨.hbm, 1593, rfl⟩
abbrev main_v1513 : Ref sig .tc := ⟨.hbm, 1594, rfl⟩
abbrev main_v1514 : Ref sig .tc := ⟨.hbm, 1595, rfl⟩
abbrev main_v1515 : Ref sig .tc := ⟨.hbm, 1596, rfl⟩
abbrev main_v1516 : Ref sig .tc := ⟨.hbm, 1597, rfl⟩
abbrev main_v1517 : Ref sig .tc := ⟨.hbm, 1598, rfl⟩
abbrev main_v1518 : Ref sig .tc := ⟨.hbm, 1599, rfl⟩
abbrev main_v1519 : Ref sig .tc := ⟨.hbm, 1600, rfl⟩
abbrev main_v1520 : Ref sig .tc := ⟨.hbm, 1601, rfl⟩
abbrev main_v1521 : Ref sig .tc := ⟨.hbm, 1602, rfl⟩
abbrev main_v1522 : Ref sig .tc := ⟨.hbm, 1603, rfl⟩
abbrev main_v1523 : Ref sig .tc := ⟨.hbm, 1604, rfl⟩
abbrev main_v1524 : Ref sig .tc := ⟨.hbm, 1605, rfl⟩
abbrev main_v1525 : Ref sig .tc := ⟨.hbm, 1606, rfl⟩
abbrev main_v1526 : Ref sig .tc := ⟨.hbm, 1607, rfl⟩
abbrev main_v1527 : Ref sig .tc := ⟨.hbm, 1608, rfl⟩
abbrev main_v1528 : Ref sig .tc := ⟨.hbm, 1609, rfl⟩
abbrev main_v1529 : Ref sig .tc := ⟨.hbm, 1610, rfl⟩
abbrev main_v1530 : Ref sig .tc := ⟨.hbm, 1611, rfl⟩
abbrev main_v1531 : Ref sig .tc := ⟨.hbm, 1612, rfl⟩
abbrev main_v1532 : Ref sig .tc := ⟨.hbm, 1613, rfl⟩
abbrev main_v1533 : Ref sig .tc := ⟨.hbm, 1614, rfl⟩
abbrev main_v1534 : Ref sig .tc := ⟨.hbm, 1615, rfl⟩
abbrev main_v1535 : Ref sig .tc := ⟨.hbm, 1616, rfl⟩
abbrev main_v1536 : Ref sig .tc := ⟨.hbm, 1617, rfl⟩
abbrev main_v1537 : Ref sig .tc := ⟨.hbm, 1618, rfl⟩
abbrev main_v1538 : Ref sig .tc := ⟨.hbm, 1619, rfl⟩
abbrev main_v1539 : Ref sig .tc := ⟨.hbm, 1620, rfl⟩
abbrev main_v1540 : Ref sig .tc := ⟨.hbm, 1621, rfl⟩
abbrev main_v1541 : Ref sig .tc := ⟨.hbm, 1622, rfl⟩
abbrev main_v1542 : Ref sig .tc := ⟨.hbm, 1623, rfl⟩
abbrev main_v1543 : Ref sig .tc := ⟨.hbm, 1624, rfl⟩
abbrev main_v1544 : Ref sig .tc := ⟨.hbm, 1625, rfl⟩
abbrev main_v1545 : Ref sig .tc := ⟨.hbm, 1626, rfl⟩
abbrev main_v1546 : Ref sig .tc := ⟨.hbm, 1627, rfl⟩
abbrev main_v1547 : Ref sig .tc := ⟨.hbm, 1628, rfl⟩
abbrev main_v1548 : Ref sig .tc := ⟨.hbm, 1629, rfl⟩
abbrev main_v1549 : Ref sig .tc := ⟨.hbm, 1630, rfl⟩
abbrev main_v1550 : Ref sig .tc := ⟨.hbm, 1631, rfl⟩
abbrev main_v1551 : Ref sig .tc := ⟨.hbm, 1632, rfl⟩
abbrev main_v1552 : Ref sig .tc := ⟨.hbm, 1633, rfl⟩
abbrev main_v1553 : Ref sig .tc := ⟨.hbm, 1634, rfl⟩
abbrev main_v1554 : Ref sig .tc := ⟨.hbm, 1635, rfl⟩
abbrev main_v1555 : Ref sig .tc := ⟨.hbm, 1636, rfl⟩
abbrev main_v1556 : Ref sig .tc := ⟨.hbm, 1637, rfl⟩
abbrev main_v1557 : Ref sig .tc := ⟨.hbm, 1638, rfl⟩
abbrev main_v1558 : Ref sig .tc := ⟨.hbm, 1639, rfl⟩
abbrev main_v1559 : Ref sig .tc := ⟨.hbm, 1640, rfl⟩
abbrev main_v1560 : Ref sig .tc := ⟨.hbm, 1641, rfl⟩
abbrev main_v1561 : Ref sig .tc := ⟨.hbm, 1642, rfl⟩
abbrev main_v1562 : Ref sig .tc := ⟨.hbm, 1643, rfl⟩
abbrev main_v1563 : Ref sig .tc := ⟨.hbm, 1644, rfl⟩
abbrev main_v1564 : Ref sig .tc := ⟨.hbm, 1645, rfl⟩
abbrev main_v1565 : Ref sig .tc := ⟨.hbm, 1646, rfl⟩
abbrev main_v1566 : Ref sig .tc := ⟨.hbm, 1647, rfl⟩
abbrev main_v1567 : Ref sig .tc := ⟨.hbm, 1648, rfl⟩
abbrev main_v1568 : Ref sig .tc := ⟨.hbm, 1649, rfl⟩
abbrev main_v1569 : Ref sig .tc := ⟨.hbm, 1650, rfl⟩
abbrev main_v1570 : Ref sig .tc := ⟨.hbm, 1651, rfl⟩
abbrev main_cst_73 : Ref sig .tc := ⟨.hbm, 1652, rfl⟩
abbrev main_v1571 : Ref sig .tc := ⟨.hbm, 1653, rfl⟩
abbrev main_v1572 : Ref sig .tc := ⟨.hbm, 1654, rfl⟩
abbrev main_v1573 : Ref sig .tc := ⟨.hbm, 1655, rfl⟩
abbrev main_v1574 : Ref sig .tc := ⟨.hbm, 1656, rfl⟩
abbrev main_v1575 : Ref sig .tc := ⟨.hbm, 1657, rfl⟩
abbrev main_v1576 : Ref sig .tc := ⟨.hbm, 1658, rfl⟩
abbrev main_cst_74 : Ref sig .tc := ⟨.hbm, 1659, rfl⟩
abbrev main_v1577 : Ref sig .tc := ⟨.hbm, 1660, rfl⟩
abbrev main_v1578 : Ref sig .tc := ⟨.hbm, 1661, rfl⟩
abbrev main_v1579 : Ref sig .tc := ⟨.hbm, 1662, rfl⟩
abbrev main_v1580 : Ref sig .tc := ⟨.hbm, 1663, rfl⟩
abbrev main_v1581 : Ref sig .tc := ⟨.hbm, 1664, rfl⟩
abbrev main_v1582 : Ref sig .tc := ⟨.hbm, 1665, rfl⟩
abbrev main_v1583 : Ref sig .tc := ⟨.hbm, 1666, rfl⟩
abbrev main_v1584 : Ref sig .tc := ⟨.hbm, 1667, rfl⟩
abbrev main_v1585 : Ref sig .tc := ⟨.hbm, 1668, rfl⟩
abbrev main_v1586 : Ref sig .tc := ⟨.hbm, 1669, rfl⟩
abbrev main_v1587 : Ref sig .tc := ⟨.hbm, 1670, rfl⟩
abbrev main_v1588 : Ref sig .tc := ⟨.hbm, 1671, rfl⟩
abbrev main_v1589 : Ref sig .tc := ⟨.hbm, 1672, rfl⟩
abbrev main_v1590 : Ref sig .tc := ⟨.hbm, 1673, rfl⟩
abbrev main_v1591 : Ref sig .tc := ⟨.hbm, 1674, rfl⟩
abbrev main_v1592 : Ref sig .tc := ⟨.hbm, 1675, rfl⟩
abbrev main_v1593 : Ref sig .tc := ⟨.hbm, 1676, rfl⟩
abbrev main_v1594 : Ref sig .tc := ⟨.hbm, 1677, rfl⟩
abbrev main_v1595 : Ref sig .tc := ⟨.hbm, 1678, rfl⟩
abbrev main_v1596 : Ref sig .tc := ⟨.hbm, 1679, rfl⟩
abbrev main_v1597 : Ref sig .tc := ⟨.hbm, 1680, rfl⟩
abbrev main_v1598 : Ref sig .tc := ⟨.hbm, 1681, rfl⟩
abbrev main_v1599 : Ref sig .tc := ⟨.hbm, 1682, rfl⟩
abbrev main_v1600 : Ref sig .tc := ⟨.hbm, 1683, rfl⟩
abbrev main_v1601 : Ref sig .tc := ⟨.hbm, 1684, rfl⟩
abbrev main_v1602 : Ref sig .tc := ⟨.hbm, 1685, rfl⟩
abbrev main_v1603 : Ref sig .tc := ⟨.hbm, 1686, rfl⟩
abbrev main_v1604 : Ref sig .tc := ⟨.hbm, 1687, rfl⟩
abbrev main_v1605 : Ref sig .tc := ⟨.hbm, 1688, rfl⟩
abbrev main_v1606 : Ref sig .tc := ⟨.hbm, 1689, rfl⟩
abbrev main_v1607 : Ref sig .tc := ⟨.hbm, 1690, rfl⟩
abbrev main_v1608 : Ref sig .tc := ⟨.hbm, 1691, rfl⟩
abbrev main_v1609 : Ref sig .tc := ⟨.hbm, 1692, rfl⟩
abbrev main_v1610 : Ref sig .tc := ⟨.hbm, 1693, rfl⟩
abbrev main_v1611 : Ref sig .tc := ⟨.hbm, 1694, rfl⟩
abbrev main_v1612 : Ref sig .tc := ⟨.hbm, 1695, rfl⟩
abbrev main_v1613 : Ref sig .tc := ⟨.hbm, 1696, rfl⟩
abbrev main_v1614 : Ref sig .tc := ⟨.hbm, 1697, rfl⟩
abbrev main_v1615 : Ref sig .tc := ⟨.hbm, 1698, rfl⟩
abbrev main_v1616 : Ref sig .tc := ⟨.hbm, 1699, rfl⟩
abbrev main_v1617 : Ref sig .tc := ⟨.hbm, 1700, rfl⟩
abbrev main_v1618 : Ref sig .tc := ⟨.hbm, 1701, rfl⟩
abbrev main_v1619 : Ref sig .tc := ⟨.hbm, 1702, rfl⟩
abbrev main_v1620 : Ref sig .tc := ⟨.hbm, 1703, rfl⟩
abbrev main_v1621 : Ref sig .tc := ⟨.hbm, 1704, rfl⟩
abbrev main_v1622 : Ref sig .tc := ⟨.hbm, 1705, rfl⟩
abbrev main_v1623 : Ref sig .tc := ⟨.hbm, 1706, rfl⟩
abbrev main_v1624 : Ref sig .tc := ⟨.hbm, 1707, rfl⟩
abbrev main_v1625 : Ref sig .tc := ⟨.hbm, 1708, rfl⟩
abbrev main_v1626 : Ref sig .tc := ⟨.hbm, 1709, rfl⟩
abbrev main_v1627 : Ref sig .tc := ⟨.hbm, 1710, rfl⟩
abbrev main_v1628 : Ref sig .tc := ⟨.hbm, 1711, rfl⟩
abbrev main_v1629 : Ref sig .tc := ⟨.hbm, 1712, rfl⟩
abbrev main_v1630 : Ref sig .tc := ⟨.hbm, 1713, rfl⟩
abbrev main_v1631 : Ref sig .tc := ⟨.hbm, 1714, rfl⟩
abbrev main_v1632 : Ref sig .tc := ⟨.hbm, 1715, rfl⟩
abbrev main_v1633 : Ref sig .tc := ⟨.hbm, 1716, rfl⟩
abbrev main_v1634 : Ref sig .tc := ⟨.hbm, 1717, rfl⟩
abbrev main_v1635 : Ref sig .tc := ⟨.hbm, 1718, rfl⟩
abbrev main_v1636 : Ref sig .tc := ⟨.hbm, 1719, rfl⟩
abbrev main_v1637 : Ref sig .tc := ⟨.hbm, 1720, rfl⟩
abbrev main_v1638 : Ref sig .tc := ⟨.hbm, 1721, rfl⟩
abbrev main_v1639 : Ref sig .tc := ⟨.hbm, 1722, rfl⟩
abbrev main_v1640 : Ref sig .tc := ⟨.hbm, 1723, rfl⟩
abbrev main_cst_75 : Ref sig .tc := ⟨.hbm, 1724, rfl⟩
abbrev main_v1641 : Ref sig .tc := ⟨.hbm, 1725, rfl⟩
abbrev main_v1642 : Ref sig .tc := ⟨.hbm, 1726, rfl⟩
abbrev main_v1643 : Ref sig .tc := ⟨.hbm, 1727, rfl⟩
abbrev main_v1644 : Ref sig .tc := ⟨.hbm, 1728, rfl⟩
abbrev main_v1645 : Ref sig .tc := ⟨.hbm, 1729, rfl⟩
abbrev main_v1646 : Ref sig .tc := ⟨.hbm, 1730, rfl⟩
abbrev main_cst_76 : Ref sig .tc := ⟨.hbm, 1731, rfl⟩
abbrev main_v1647 : Ref sig .tc := ⟨.hbm, 1732, rfl⟩
abbrev main_v1648 : Ref sig .tc := ⟨.hbm, 1733, rfl⟩
abbrev main_v1649 : Ref sig .tc := ⟨.hbm, 1734, rfl⟩
abbrev main_v1650 : Ref sig .tc := ⟨.hbm, 1735, rfl⟩
abbrev main_v1651 : Ref sig .tc := ⟨.hbm, 1736, rfl⟩
abbrev main_v1652 : Ref sig .tc := ⟨.hbm, 1737, rfl⟩
abbrev main_v1653 : Ref sig .tc := ⟨.hbm, 1738, rfl⟩
abbrev main_v1654 : Ref sig .tc := ⟨.hbm, 1739, rfl⟩
abbrev main_v1655 : Ref sig .tc := ⟨.hbm, 1740, rfl⟩
abbrev main_v1656 : Ref sig .tc := ⟨.hbm, 1741, rfl⟩
abbrev main_v1657 : Ref sig .tc := ⟨.hbm, 1742, rfl⟩
abbrev main_v1658 : Ref sig .tc := ⟨.hbm, 1743, rfl⟩
abbrev main_v1659 : Ref sig .tc := ⟨.hbm, 1744, rfl⟩
abbrev main_v1660 : Ref sig .tc := ⟨.hbm, 1745, rfl⟩
abbrev main_v1661 : Ref sig .tc := ⟨.hbm, 1746, rfl⟩
abbrev main_v1662 : Ref sig .tc := ⟨.hbm, 1747, rfl⟩
abbrev main_v1663 : Ref sig .tc := ⟨.hbm, 1748, rfl⟩
abbrev main_v1664 : Ref sig .tc := ⟨.hbm, 1749, rfl⟩
abbrev main_v1665 : Ref sig .tc := ⟨.hbm, 1750, rfl⟩
abbrev main_v1666 : Ref sig .tc := ⟨.hbm, 1751, rfl⟩
abbrev main_v1667 : Ref sig .tc := ⟨.hbm, 1752, rfl⟩
abbrev main_v1668 : Ref sig .tc := ⟨.hbm, 1753, rfl⟩
abbrev main_v1669 : Ref sig .tc := ⟨.hbm, 1754, rfl⟩
abbrev main_v1670 : Ref sig .tc := ⟨.hbm, 1755, rfl⟩
abbrev main_v1671 : Ref sig .tc := ⟨.hbm, 1756, rfl⟩
abbrev main_v1672 : Ref sig .tc := ⟨.hbm, 1757, rfl⟩
abbrev main_v1673 : Ref sig .tc := ⟨.hbm, 1758, rfl⟩
abbrev main_v1674 : Ref sig .tc := ⟨.hbm, 1759, rfl⟩
abbrev main_v1675 : Ref sig .tc := ⟨.hbm, 1760, rfl⟩
abbrev main_v1676 : Ref sig .tc := ⟨.hbm, 1761, rfl⟩
abbrev main_v1677 : Ref sig .tc := ⟨.hbm, 1762, rfl⟩
abbrev main_v1678 : Ref sig .tc := ⟨.hbm, 1763, rfl⟩
abbrev main_v1679 : Ref sig .tc := ⟨.hbm, 1764, rfl⟩
abbrev main_v1680 : Ref sig .tc := ⟨.hbm, 1765, rfl⟩
abbrev main_v1681 : Ref sig .tc := ⟨.hbm, 1766, rfl⟩
abbrev main_v1682 : Ref sig .tc := ⟨.hbm, 1767, rfl⟩
abbrev main_v1683 : Ref sig .tc := ⟨.hbm, 1768, rfl⟩
abbrev main_v1684 : Ref sig .tc := ⟨.hbm, 1769, rfl⟩
abbrev main_v1685 : Ref sig .tc := ⟨.hbm, 1770, rfl⟩
abbrev main_v1686 : Ref sig .tc := ⟨.hbm, 1771, rfl⟩
abbrev main_v1687 : Ref sig .tc := ⟨.hbm, 1772, rfl⟩
abbrev main_v1688 : Ref sig .tc := ⟨.hbm, 1773, rfl⟩
abbrev main_v1689 : Ref sig .tc := ⟨.hbm, 1774, rfl⟩
abbrev main_v1690 : Ref sig .tc := ⟨.hbm, 1775, rfl⟩
abbrev main_v1691 : Ref sig .tc := ⟨.hbm, 1776, rfl⟩
abbrev main_v1692 : Ref sig .tc := ⟨.hbm, 1777, rfl⟩
abbrev main_v1693 : Ref sig .tc := ⟨.hbm, 1778, rfl⟩
abbrev main_v1694 : Ref sig .tc := ⟨.hbm, 1779, rfl⟩
abbrev main_v1695 : Ref sig .tc := ⟨.hbm, 1780, rfl⟩
abbrev main_v1696 : Ref sig .tc := ⟨.hbm, 1781, rfl⟩
abbrev main_v1697 : Ref sig .tc := ⟨.hbm, 1782, rfl⟩
abbrev main_v1698 : Ref sig .tc := ⟨.hbm, 1783, rfl⟩
abbrev main_v1699 : Ref sig .tc := ⟨.hbm, 1784, rfl⟩
abbrev main_v1700 : Ref sig .tc := ⟨.hbm, 1785, rfl⟩
abbrev main_v1701 : Ref sig .tc := ⟨.hbm, 1786, rfl⟩
abbrev main_v1702 : Ref sig .tc := ⟨.hbm, 1787, rfl⟩
abbrev main_v1703 : Ref sig .tc := ⟨.hbm, 1788, rfl⟩
abbrev main_v1704 : Ref sig .tc := ⟨.hbm, 1789, rfl⟩
abbrev main_v1705 : Ref sig .tc := ⟨.hbm, 1790, rfl⟩
abbrev main_v1706 : Ref sig .tc := ⟨.hbm, 1791, rfl⟩
abbrev main_v1707 : Ref sig .tc := ⟨.hbm, 1792, rfl⟩
abbrev main_v1708 : Ref sig .tc := ⟨.hbm, 1793, rfl⟩
abbrev main_v1709 : Ref sig .tc := ⟨.hbm, 1794, rfl⟩
abbrev main_v1710 : Ref sig .tc := ⟨.hbm, 1795, rfl⟩
abbrev main_v1711 : Ref sig .tc := ⟨.hbm, 1796, rfl⟩
abbrev main_v1712 : Ref sig .tc := ⟨.hbm, 1797, rfl⟩
abbrev main_v1713 : Ref sig .tc := ⟨.hbm, 1798, rfl⟩
abbrev main_cst_77 : Ref sig .tc := ⟨.hbm, 1799, rfl⟩
abbrev main_v1714 : Ref sig .tc := ⟨.hbm, 1800, rfl⟩
abbrev main_v1715 : Ref sig .tc := ⟨.hbm, 1801, rfl⟩
abbrev main_v1716 : Ref sig .tc := ⟨.hbm, 1802, rfl⟩
abbrev main_v1717 : Ref sig .tc := ⟨.hbm, 1803, rfl⟩
abbrev main_v1718 : Ref sig .tc := ⟨.hbm, 1804, rfl⟩
abbrev main_v1719 : Ref sig .tc := ⟨.hbm, 1805, rfl⟩
abbrev main_cst_78 : Ref sig .tc := ⟨.hbm, 1806, rfl⟩
abbrev main_v1720 : Ref sig .tc := ⟨.hbm, 1807, rfl⟩
abbrev main_v1721 : Ref sig .tc := ⟨.hbm, 1808, rfl⟩
abbrev main_v1722 : Ref sig .tc := ⟨.hbm, 1809, rfl⟩
abbrev main_v1723 : Ref sig .tc := ⟨.hbm, 1810, rfl⟩
abbrev main_v1724 : Ref sig .tc := ⟨.hbm, 1811, rfl⟩
abbrev main_v1725 : Ref sig .tc := ⟨.hbm, 1812, rfl⟩
abbrev main_v1726 : Ref sig .tc := ⟨.hbm, 1813, rfl⟩
abbrev main_v1727 : Ref sig .tc := ⟨.hbm, 1814, rfl⟩
abbrev main_v1728 : Ref sig .tc := ⟨.hbm, 1815, rfl⟩
abbrev main_v1729 : Ref sig .tc := ⟨.hbm, 1816, rfl⟩
abbrev main_v1730 : Ref sig .tc := ⟨.hbm, 1817, rfl⟩
abbrev main_v1731 : Ref sig .tc := ⟨.hbm, 1818, rfl⟩
abbrev main_v1732 : Ref sig .tc := ⟨.hbm, 1819, rfl⟩
abbrev main_v1733 : Ref sig .tc := ⟨.hbm, 1820, rfl⟩
abbrev main_v1734 : Ref sig .tc := ⟨.hbm, 1821, rfl⟩
abbrev main_v1735 : Ref sig .tc := ⟨.hbm, 1822, rfl⟩
abbrev main_v1736 : Ref sig .tc := ⟨.hbm, 1823, rfl⟩
abbrev main_v1737 : Ref sig .tc := ⟨.hbm, 1824, rfl⟩
abbrev main_v1738 : Ref sig .tc := ⟨.hbm, 1825, rfl⟩
abbrev main_v1739 : Ref sig .tc := ⟨.hbm, 1826, rfl⟩
abbrev main_v1740 : Ref sig .tc := ⟨.hbm, 1827, rfl⟩
abbrev main_v1741 : Ref sig .tc := ⟨.hbm, 1828, rfl⟩
abbrev main_v1742 : Ref sig .tc := ⟨.hbm, 1829, rfl⟩
abbrev main_v1743 : Ref sig .tc := ⟨.hbm, 1830, rfl⟩
abbrev main_v1744 : Ref sig .tc := ⟨.hbm, 1831, rfl⟩
abbrev main_v1745 : Ref sig .tc := ⟨.hbm, 1832, rfl⟩
abbrev main_v1746 : Ref sig .tc := ⟨.hbm, 1833, rfl⟩
abbrev main_v1747 : Ref sig .tc := ⟨.hbm, 1834, rfl⟩
abbrev main_v1748 : Ref sig .tc := ⟨.hbm, 1835, rfl⟩
abbrev main_v1749 : Ref sig .tc := ⟨.hbm, 1836, rfl⟩
abbrev main_v1750 : Ref sig .tc := ⟨.hbm, 1837, rfl⟩
abbrev main_v1751 : Ref sig .tc := ⟨.hbm, 1838, rfl⟩
abbrev main_v1752 : Ref sig .tc := ⟨.hbm, 1839, rfl⟩
abbrev main_v1753 : Ref sig .tc := ⟨.hbm, 1840, rfl⟩
abbrev main_v1754 : Ref sig .tc := ⟨.hbm, 1841, rfl⟩
abbrev main_v1755 : Ref sig .tc := ⟨.hbm, 1842, rfl⟩
abbrev main_v1756 : Ref sig .tc := ⟨.hbm, 1843, rfl⟩
abbrev main_v1757 : Ref sig .tc := ⟨.hbm, 1844, rfl⟩
abbrev main_v1758 : Ref sig .tc := ⟨.hbm, 1845, rfl⟩
abbrev main_v1759 : Ref sig .tc := ⟨.hbm, 1846, rfl⟩
abbrev main_v1760 : Ref sig .tc := ⟨.hbm, 1847, rfl⟩
abbrev main_v1761 : Ref sig .tc := ⟨.hbm, 1848, rfl⟩
abbrev main_v1762 : Ref sig .tc := ⟨.hbm, 1849, rfl⟩
abbrev main_v1763 : Ref sig .tc := ⟨.hbm, 1850, rfl⟩
abbrev main_v1764 : Ref sig .tc := ⟨.hbm, 1851, rfl⟩
abbrev main_v1765 : Ref sig .tc := ⟨.hbm, 1852, rfl⟩
abbrev main_v1766 : Ref sig .tc := ⟨.hbm, 1853, rfl⟩
abbrev main_v1767 : Ref sig .tc := ⟨.hbm, 1854, rfl⟩
abbrev main_v1768 : Ref sig .tc := ⟨.hbm, 1855, rfl⟩
abbrev main_v1769 : Ref sig .tc := ⟨.hbm, 1856, rfl⟩
abbrev main_v1770 : Ref sig .tc := ⟨.hbm, 1857, rfl⟩
abbrev main_v1771 : Ref sig .tc := ⟨.hbm, 1858, rfl⟩
abbrev main_v1772 : Ref sig .tc := ⟨.hbm, 1859, rfl⟩
abbrev main_v1773 : Ref sig .tc := ⟨.hbm, 1860, rfl⟩
abbrev main_v1774 : Ref sig .tc := ⟨.hbm, 1861, rfl⟩
abbrev main_v1775 : Ref sig .tc := ⟨.hbm, 1862, rfl⟩
abbrev main_v1776 : Ref sig .tc := ⟨.hbm, 1863, rfl⟩
abbrev main_v1777 : Ref sig .tc := ⟨.hbm, 1864, rfl⟩
abbrev main_v1778 : Ref sig .tc := ⟨.hbm, 1865, rfl⟩
abbrev main_v1779 : Ref sig .tc := ⟨.hbm, 1866, rfl⟩
abbrev main_v1780 : Ref sig .tc := ⟨.hbm, 1867, rfl⟩
abbrev main_v1781 : Ref sig .tc := ⟨.hbm, 1868, rfl⟩
abbrev main_v1782 : Ref sig .tc := ⟨.hbm, 1869, rfl⟩
abbrev main_v1783 : Ref sig .tc := ⟨.hbm, 1870, rfl⟩
abbrev main_v1784 : Ref sig .tc := ⟨.hbm, 1871, rfl⟩
abbrev main_v1785 : Ref sig .tc := ⟨.hbm, 1872, rfl⟩
abbrev main_v1786 : Ref sig .tc := ⟨.hbm, 1873, rfl⟩
abbrev main_cst_79 : Ref sig .tc := ⟨.hbm, 1874, rfl⟩
abbrev main_v1787 : Ref sig .tc := ⟨.hbm, 1875, rfl⟩
abbrev main_v1788 : Ref sig .tc := ⟨.hbm, 1876, rfl⟩
abbrev main_v1789 : Ref sig .tc := ⟨.hbm, 1877, rfl⟩
abbrev main_v1790 : Ref sig .tc := ⟨.hbm, 1878, rfl⟩
abbrev main_v1791 : Ref sig .tc := ⟨.hbm, 1879, rfl⟩
abbrev main_v1792 : Ref sig .tc := ⟨.hbm, 1880, rfl⟩
abbrev main_cst_80 : Ref sig .tc := ⟨.hbm, 1881, rfl⟩
abbrev main_v1793 : Ref sig .tc := ⟨.hbm, 1882, rfl⟩
abbrev main_v1794 : Ref sig .tc := ⟨.hbm, 1883, rfl⟩
abbrev main_v1795 : Ref sig .tc := ⟨.hbm, 1884, rfl⟩
abbrev main_v1796 : Ref sig .tc := ⟨.hbm, 1885, rfl⟩
abbrev main_v1797 : Ref sig .tc := ⟨.hbm, 1886, rfl⟩
abbrev main_v1798 : Ref sig .tc := ⟨.hbm, 1887, rfl⟩
abbrev main_v1799 : Ref sig .tc := ⟨.hbm, 1888, rfl⟩
abbrev main_v1800 : Ref sig .tc := ⟨.hbm, 1889, rfl⟩
abbrev main_v1801 : Ref sig .tc := ⟨.hbm, 1890, rfl⟩
abbrev main_v1802 : Ref sig .tc := ⟨.hbm, 1891, rfl⟩
abbrev main_v1803 : Ref sig .tc := ⟨.hbm, 1892, rfl⟩
abbrev main_v1804 : Ref sig .tc := ⟨.hbm, 1893, rfl⟩
abbrev main_v1805 : Ref sig .tc := ⟨.hbm, 1894, rfl⟩
abbrev main_v1806 : Ref sig .tc := ⟨.hbm, 1895, rfl⟩
abbrev main_v1807 : Ref sig .tc := ⟨.hbm, 1896, rfl⟩
abbrev main_v1808 : Ref sig .tc := ⟨.hbm, 1897, rfl⟩
abbrev main_v1809 : Ref sig .tc := ⟨.hbm, 1898, rfl⟩
abbrev main_v1810 : Ref sig .tc := ⟨.hbm, 1899, rfl⟩
abbrev main_v1811 : Ref sig .tc := ⟨.hbm, 1900, rfl⟩
abbrev main_v1812 : Ref sig .tc := ⟨.hbm, 1901, rfl⟩
abbrev main_v1813 : Ref sig .tc := ⟨.hbm, 1902, rfl⟩
abbrev main_v1814 : Ref sig .tc := ⟨.hbm, 1903, rfl⟩
abbrev main_v1815 : Ref sig .tc := ⟨.hbm, 1904, rfl⟩
abbrev main_v1816 : Ref sig .tc := ⟨.hbm, 1905, rfl⟩
abbrev main_v1817 : Ref sig .tc := ⟨.hbm, 1906, rfl⟩
abbrev main_v1818 : Ref sig .tc := ⟨.hbm, 1907, rfl⟩
abbrev main_v1819 : Ref sig .tc := ⟨.hbm, 1908, rfl⟩
abbrev main_v1820 : Ref sig .tc := ⟨.hbm, 1909, rfl⟩
abbrev main_v1821 : Ref sig .tc := ⟨.hbm, 1910, rfl⟩
abbrev main_v1822 : Ref sig .tc := ⟨.hbm, 1911, rfl⟩
abbrev main_v1823 : Ref sig .tc := ⟨.hbm, 1912, rfl⟩
abbrev main_v1824 : Ref sig .tc := ⟨.hbm, 1913, rfl⟩
abbrev main_v1825 : Ref sig .tc := ⟨.hbm, 1914, rfl⟩
abbrev main_v1826 : Ref sig .tc := ⟨.hbm, 1915, rfl⟩
abbrev main_v1827 : Ref sig .tc := ⟨.hbm, 1916, rfl⟩
abbrev main_v1828 : Ref sig .tc := ⟨.hbm, 1917, rfl⟩
abbrev main_v1829 : Ref sig .tc := ⟨.hbm, 1918, rfl⟩
abbrev main_v1830 : Ref sig .tc := ⟨.hbm, 1919, rfl⟩
abbrev main_v1831 : Ref sig .tc := ⟨.hbm, 1920, rfl⟩
abbrev main_v1832 : Ref sig .tc := ⟨.hbm, 1921, rfl⟩
abbrev main_v1833 : Ref sig .tc := ⟨.hbm, 1922, rfl⟩
abbrev main_v1834 : Ref sig .tc := ⟨.hbm, 1923, rfl⟩
abbrev main_v1835 : Ref sig .tc := ⟨.hbm, 1924, rfl⟩
abbrev main_v1836 : Ref sig .tc := ⟨.hbm, 1925, rfl⟩
abbrev main_v1837 : Ref sig .tc := ⟨.hbm, 1926, rfl⟩
abbrev main_v1838 : Ref sig .tc := ⟨.hbm, 1927, rfl⟩
abbrev main_v1839 : Ref sig .tc := ⟨.hbm, 1928, rfl⟩
abbrev main_v1840 : Ref sig .tc := ⟨.hbm, 1929, rfl⟩
abbrev main_v1841 : Ref sig .tc := ⟨.hbm, 1930, rfl⟩
abbrev main_v1842 : Ref sig .tc := ⟨.hbm, 1931, rfl⟩
abbrev main_v1843 : Ref sig .tc := ⟨.hbm, 1932, rfl⟩
abbrev main_v1844 : Ref sig .tc := ⟨.hbm, 1933, rfl⟩
abbrev main_v1845 : Ref sig .tc := ⟨.hbm, 1934, rfl⟩
abbrev main_v1846 : Ref sig .tc := ⟨.hbm, 1935, rfl⟩
abbrev main_v1847 : Ref sig .tc := ⟨.hbm, 1936, rfl⟩
abbrev main_v1848 : Ref sig .tc := ⟨.hbm, 1937, rfl⟩
abbrev main_v1849 : Ref sig .tc := ⟨.hbm, 1938, rfl⟩
abbrev main_v1850 : Ref sig .tc := ⟨.hbm, 1939, rfl⟩
abbrev main_v1851 : Ref sig .tc := ⟨.hbm, 1940, rfl⟩
abbrev main_v1852 : Ref sig .tc := ⟨.hbm, 1941, rfl⟩
abbrev main_v1853 : Ref sig .tc := ⟨.hbm, 1942, rfl⟩
abbrev main_v1854 : Ref sig .tc := ⟨.hbm, 1943, rfl⟩
abbrev main_v1855 : Ref sig .tc := ⟨.hbm, 1944, rfl⟩
abbrev main_v1856 : Ref sig .tc := ⟨.hbm, 1945, rfl⟩
abbrev main_v1857 : Ref sig .tc := ⟨.hbm, 1946, rfl⟩
abbrev main_v1858 : Ref sig .tc := ⟨.hbm, 1947, rfl⟩
abbrev main_v1859 : Ref sig .tc := ⟨.hbm, 1948, rfl⟩
abbrev main_v1860 : Ref sig .tc := ⟨.hbm, 1949, rfl⟩
abbrev main_v1861 : Ref sig .tc := ⟨.hbm, 1950, rfl⟩
abbrev main_v1862 : Ref sig .tc := ⟨.hbm, 1951, rfl⟩
abbrev main_cst_81 : Ref sig .tc := ⟨.hbm, 1952, rfl⟩
abbrev main_v1863 : Ref sig .tc := ⟨.hbm, 1953, rfl⟩
abbrev main_v1864 : Ref sig .tc := ⟨.hbm, 1954, rfl⟩
abbrev main_v1865 : Ref sig .tc := ⟨.hbm, 1955, rfl⟩
abbrev main_v1866 : Ref sig .tc := ⟨.hbm, 1956, rfl⟩
abbrev main_v1867 : Ref sig .tc := ⟨.hbm, 1957, rfl⟩
abbrev main_v1868 : Ref sig .tc := ⟨.hbm, 1958, rfl⟩
abbrev main_cst_82 : Ref sig .tc := ⟨.hbm, 1959, rfl⟩
abbrev main_v1869 : Ref sig .tc := ⟨.hbm, 1960, rfl⟩
abbrev main_v1870 : Ref sig .tc := ⟨.hbm, 1961, rfl⟩
abbrev main_v1871 : Ref sig .tc := ⟨.hbm, 1962, rfl⟩
abbrev main_v1872 : Ref sig .tc := ⟨.hbm, 1963, rfl⟩
abbrev main_v1873 : Ref sig .tc := ⟨.hbm, 1964, rfl⟩
abbrev main_v1874 : Ref sig .tc := ⟨.hbm, 1965, rfl⟩
abbrev main_v1875 : Ref sig .tc := ⟨.hbm, 1966, rfl⟩
abbrev main_v1876 : Ref sig .tc := ⟨.hbm, 1967, rfl⟩
abbrev main_v1877 : Ref sig .tc := ⟨.hbm, 1968, rfl⟩
abbrev main_v1878 : Ref sig .tc := ⟨.hbm, 1969, rfl⟩
abbrev main_v1879 : Ref sig .tc := ⟨.hbm, 1970, rfl⟩
abbrev main_v1880 : Ref sig .tc := ⟨.hbm, 1971, rfl⟩
abbrev main_v1881 : Ref sig .tc := ⟨.hbm, 1972, rfl⟩
abbrev main_v1882 : Ref sig .tc := ⟨.hbm, 1973, rfl⟩
abbrev main_v1883 : Ref sig .tc := ⟨.hbm, 1974, rfl⟩
abbrev main_v1884 : Ref sig .tc := ⟨.hbm, 1975, rfl⟩
abbrev main_v1885 : Ref sig .tc := ⟨.hbm, 1976, rfl⟩
abbrev main_v1886 : Ref sig .tc := ⟨.hbm, 1977, rfl⟩
abbrev main_v1887 : Ref sig .tc := ⟨.hbm, 1978, rfl⟩
abbrev main_v1888 : Ref sig .tc := ⟨.hbm, 1979, rfl⟩
abbrev main_v1889 : Ref sig .tc := ⟨.hbm, 1980, rfl⟩
abbrev main_v1890 : Ref sig .tc := ⟨.hbm, 1981, rfl⟩
abbrev main_v1891 : Ref sig .tc := ⟨.hbm, 1982, rfl⟩
abbrev main_v1892 : Ref sig .tc := ⟨.hbm, 1983, rfl⟩
abbrev main_v1893 : Ref sig .tc := ⟨.hbm, 1984, rfl⟩
abbrev main_v1894 : Ref sig .tc := ⟨.hbm, 1985, rfl⟩
abbrev main_v1895 : Ref sig .tc := ⟨.hbm, 1986, rfl⟩
abbrev main_v1896 : Ref sig .tc := ⟨.hbm, 1987, rfl⟩
abbrev main_v1897 : Ref sig .tc := ⟨.hbm, 1988, rfl⟩
abbrev main_v1898 : Ref sig .tc := ⟨.hbm, 1989, rfl⟩
abbrev main_v1899 : Ref sig .tc := ⟨.hbm, 1990, rfl⟩
abbrev main_v1900 : Ref sig .tc := ⟨.hbm, 1991, rfl⟩
abbrev main_v1901 : Ref sig .tc := ⟨.hbm, 1992, rfl⟩
abbrev main_v1902 : Ref sig .tc := ⟨.hbm, 1993, rfl⟩
abbrev main_v1903 : Ref sig .tc := ⟨.hbm, 1994, rfl⟩
abbrev main_v1904 : Ref sig .tc := ⟨.hbm, 1995, rfl⟩
abbrev main_v1905 : Ref sig .tc := ⟨.hbm, 1996, rfl⟩
abbrev main_v1906 : Ref sig .tc := ⟨.hbm, 1997, rfl⟩
abbrev main_v1907 : Ref sig .tc := ⟨.hbm, 1998, rfl⟩
abbrev main_v1908 : Ref sig .tc := ⟨.hbm, 1999, rfl⟩
abbrev main_v1909 : Ref sig .tc := ⟨.hbm, 2000, rfl⟩
abbrev main_v1910 : Ref sig .tc := ⟨.hbm, 2001, rfl⟩
abbrev main_v1911 : Ref sig .tc := ⟨.hbm, 2002, rfl⟩
abbrev main_v1912 : Ref sig .tc := ⟨.hbm, 2003, rfl⟩
abbrev main_v1913 : Ref sig .tc := ⟨.hbm, 2004, rfl⟩
abbrev main_v1914 : Ref sig .tc := ⟨.hbm, 2005, rfl⟩
abbrev main_v1915 : Ref sig .tc := ⟨.hbm, 2006, rfl⟩
abbrev main_v1916 : Ref sig .tc := ⟨.hbm, 2007, rfl⟩
abbrev main_v1917 : Ref sig .tc := ⟨.hbm, 2008, rfl⟩
abbrev main_v1918 : Ref sig .tc := ⟨.hbm, 2009, rfl⟩
abbrev main_v1919 : Ref sig .tc := ⟨.hbm, 2010, rfl⟩
abbrev main_v1920 : Ref sig .tc := ⟨.hbm, 2011, rfl⟩
abbrev main_v1921 : Ref sig .tc := ⟨.hbm, 2012, rfl⟩
abbrev main_v1922 : Ref sig .tc := ⟨.hbm, 2013, rfl⟩
abbrev main_v1923 : Ref sig .tc := ⟨.hbm, 2014, rfl⟩
abbrev main_v1924 : Ref sig .tc := ⟨.hbm, 2015, rfl⟩
abbrev main_v1925 : Ref sig .tc := ⟨.hbm, 2016, rfl⟩
abbrev main_v1926 : Ref sig .tc := ⟨.hbm, 2017, rfl⟩
abbrev main_v1927 : Ref sig .tc := ⟨.hbm, 2018, rfl⟩
abbrev main_v1928 : Ref sig .tc := ⟨.hbm, 2019, rfl⟩
abbrev main_v1929 : Ref sig .tc := ⟨.hbm, 2020, rfl⟩
abbrev main_v1930 : Ref sig .tc := ⟨.hbm, 2021, rfl⟩
abbrev main_v1931 : Ref sig .tc := ⟨.hbm, 2022, rfl⟩
abbrev main_v1932 : Ref sig .tc := ⟨.hbm, 2023, rfl⟩
abbrev main_v1933 : Ref sig .tc := ⟨.hbm, 2024, rfl⟩
abbrev main_v1934 : Ref sig .tc := ⟨.hbm, 2025, rfl⟩
abbrev main_v1935 : Ref sig .tc := ⟨.hbm, 2026, rfl⟩
abbrev main_v1936 : Ref sig .tc := ⟨.hbm, 2027, rfl⟩
abbrev main_v1937 : Ref sig .tc := ⟨.hbm, 2028, rfl⟩
abbrev main_v1938 : Ref sig .tc := ⟨.hbm, 2029, rfl⟩
abbrev main_cst_83 : Ref sig .tc := ⟨.hbm, 2030, rfl⟩
abbrev main_v1939 : Ref sig .tc := ⟨.hbm, 2031, rfl⟩
abbrev main_v1940 : Ref sig .tc := ⟨.hbm, 2032, rfl⟩
abbrev main_v1941 : Ref sig .tc := ⟨.hbm, 2033, rfl⟩
abbrev main_v1942 : Ref sig .tc := ⟨.hbm, 2034, rfl⟩
abbrev main_v1943 : Ref sig .tc := ⟨.hbm, 2035, rfl⟩
abbrev main_v1944 : Ref sig .tc := ⟨.hbm, 2036, rfl⟩
abbrev main_cst_84 : Ref sig .tc := ⟨.hbm, 2037, rfl⟩
abbrev main_v1945 : Ref sig .tc := ⟨.hbm, 2038, rfl⟩
abbrev main_v1946 : Ref sig .tc := ⟨.hbm, 2039, rfl⟩
abbrev main_v1947 : Ref sig .tc := ⟨.hbm, 2040, rfl⟩
abbrev main_v1948 : Ref sig .tc := ⟨.hbm, 2041, rfl⟩
abbrev main_v1949 : Ref sig .tc := ⟨.hbm, 2042, rfl⟩
abbrev main_v1950 : Ref sig .tc := ⟨.hbm, 2043, rfl⟩
abbrev main_v1951 : Ref sig .tc := ⟨.hbm, 2044, rfl⟩
abbrev main_v1952 : Ref sig .tc := ⟨.hbm, 2045, rfl⟩
abbrev main_v1953 : Ref sig .tc := ⟨.hbm, 2046, rfl⟩
abbrev main_v1954 : Ref sig .tc := ⟨.hbm, 2047, rfl⟩
abbrev main_v1955 : Ref sig .tc := ⟨.hbm, 2048, rfl⟩
abbrev main_v1956 : Ref sig .tc := ⟨.hbm, 2049, rfl⟩
abbrev main_v1957 : Ref sig .tc := ⟨.hbm, 2050, rfl⟩
abbrev main_v1958 : Ref sig .tc := ⟨.hbm, 2051, rfl⟩
abbrev main_v1959 : Ref sig .tc := ⟨.hbm, 2052, rfl⟩
abbrev main_v1960 : Ref sig .tc := ⟨.hbm, 2053, rfl⟩
abbrev main_v1961 : Ref sig .tc := ⟨.hbm, 2054, rfl⟩
abbrev main_v1962 : Ref sig .tc := ⟨.hbm, 2055, rfl⟩
abbrev main_v1963 : Ref sig .tc := ⟨.hbm, 2056, rfl⟩
abbrev main_v1964 : Ref sig .tc := ⟨.hbm, 2057, rfl⟩
abbrev main_v1965 : Ref sig .tc := ⟨.hbm, 2058, rfl⟩
abbrev main_v1966 : Ref sig .tc := ⟨.hbm, 2059, rfl⟩
abbrev main_v1967 : Ref sig .tc := ⟨.hbm, 2060, rfl⟩
abbrev main_v1968 : Ref sig .tc := ⟨.hbm, 2061, rfl⟩
abbrev main_v1969 : Ref sig .tc := ⟨.hbm, 2062, rfl⟩
abbrev main_v1970 : Ref sig .tc := ⟨.hbm, 2063, rfl⟩
abbrev main_v1971 : Ref sig .tc := ⟨.hbm, 2064, rfl⟩
abbrev main_v1972 : Ref sig .tc := ⟨.hbm, 2065, rfl⟩
abbrev main_v1973 : Ref sig .tc := ⟨.hbm, 2066, rfl⟩
abbrev main_v1974 : Ref sig .tc := ⟨.hbm, 2067, rfl⟩
abbrev main_v1975 : Ref sig .tc := ⟨.hbm, 2068, rfl⟩
abbrev main_v1976 : Ref sig .tc := ⟨.hbm, 2069, rfl⟩
abbrev main_v1977 : Ref sig .tc := ⟨.hbm, 2070, rfl⟩
abbrev main_v1978 : Ref sig .tc := ⟨.hbm, 2071, rfl⟩
abbrev main_v1979 : Ref sig .tc := ⟨.hbm, 2072, rfl⟩
abbrev main_v1980 : Ref sig .tc := ⟨.hbm, 2073, rfl⟩
abbrev main_v1981 : Ref sig .tc := ⟨.hbm, 2074, rfl⟩
abbrev main_v1982 : Ref sig .tc := ⟨.hbm, 2075, rfl⟩
abbrev main_v1983 : Ref sig .tc := ⟨.hbm, 2076, rfl⟩
abbrev main_v1984 : Ref sig .tc := ⟨.hbm, 2077, rfl⟩
abbrev main_v1985 : Ref sig .tc := ⟨.hbm, 2078, rfl⟩
abbrev main_v1986 : Ref sig .tc := ⟨.hbm, 2079, rfl⟩
abbrev main_v1987 : Ref sig .tc := ⟨.hbm, 2080, rfl⟩
abbrev main_v1988 : Ref sig .tc := ⟨.hbm, 2081, rfl⟩
abbrev main_v1989 : Ref sig .tc := ⟨.hbm, 2082, rfl⟩
abbrev main_v1990 : Ref sig .tc := ⟨.hbm, 2083, rfl⟩
abbrev main_v1991 : Ref sig .tc := ⟨.hbm, 2084, rfl⟩
abbrev main_v1992 : Ref sig .tc := ⟨.hbm, 2085, rfl⟩
abbrev main_v1993 : Ref sig .tc := ⟨.hbm, 2086, rfl⟩
abbrev main_v1994 : Ref sig .tc := ⟨.hbm, 2087, rfl⟩
abbrev main_v1995 : Ref sig .tc := ⟨.hbm, 2088, rfl⟩
abbrev main_v1996 : Ref sig .tc := ⟨.hbm, 2089, rfl⟩
abbrev main_v1997 : Ref sig .tc := ⟨.hbm, 2090, rfl⟩
abbrev main_v1998 : Ref sig .tc := ⟨.hbm, 2091, rfl⟩
abbrev main_v1999 : Ref sig .tc := ⟨.hbm, 2092, rfl⟩
abbrev main_v2000 : Ref sig .tc := ⟨.hbm, 2093, rfl⟩
abbrev main_v2001 : Ref sig .tc := ⟨.hbm, 2094, rfl⟩
abbrev main_v2002 : Ref sig .tc := ⟨.hbm, 2095, rfl⟩
abbrev main_v2003 : Ref sig .tc := ⟨.hbm, 2096, rfl⟩
abbrev main_v2004 : Ref sig .tc := ⟨.hbm, 2097, rfl⟩
abbrev main_v2005 : Ref sig .tc := ⟨.hbm, 2098, rfl⟩
abbrev main_v2006 : Ref sig .tc := ⟨.hbm, 2099, rfl⟩
abbrev main_v2007 : Ref sig .tc := ⟨.hbm, 2100, rfl⟩
abbrev main_v2008 : Ref sig .tc := ⟨.hbm, 2101, rfl⟩
abbrev main_v2009 : Ref sig .tc := ⟨.hbm, 2102, rfl⟩
abbrev main_v2010 : Ref sig .tc := ⟨.hbm, 2103, rfl⟩
abbrev main_v2011 : Ref sig .tc := ⟨.hbm, 2104, rfl⟩
abbrev main_v2012 : Ref sig .tc := ⟨.hbm, 2105, rfl⟩
abbrev main_v2013 : Ref sig .tc := ⟨.hbm, 2106, rfl⟩
abbrev main_v2014 : Ref sig .tc := ⟨.hbm, 2107, rfl⟩
abbrev main_v2015 : Ref sig .tc := ⟨.hbm, 2108, rfl⟩
abbrev main_v2016 : Ref sig .tc := ⟨.hbm, 2109, rfl⟩
abbrev main_v2017 : Ref sig .tc := ⟨.hbm, 2110, rfl⟩
abbrev main_cst_85 : Ref sig .tc := ⟨.hbm, 2111, rfl⟩
abbrev main_v2018 : Ref sig .tc := ⟨.hbm, 2112, rfl⟩
abbrev main_v2019 : Ref sig .tc := ⟨.hbm, 2113, rfl⟩
abbrev main_v2020 : Ref sig .tc := ⟨.hbm, 2114, rfl⟩
abbrev main_v2021 : Ref sig .tc := ⟨.hbm, 2115, rfl⟩
abbrev main_v2022 : Ref sig .tc := ⟨.hbm, 2116, rfl⟩
abbrev main_v2023 : Ref sig .tc := ⟨.hbm, 2117, rfl⟩
abbrev main_cst_86 : Ref sig .tc := ⟨.hbm, 2118, rfl⟩
abbrev main_v2024 : Ref sig .tc := ⟨.hbm, 2119, rfl⟩
abbrev main_v2025 : Ref sig .tc := ⟨.hbm, 2120, rfl⟩
abbrev main_v2026 : Ref sig .tc := ⟨.hbm, 2121, rfl⟩
abbrev main_v2027 : Ref sig .tc := ⟨.hbm, 2122, rfl⟩
abbrev main_v2028 : Ref sig .tc := ⟨.hbm, 2123, rfl⟩
abbrev main_v2029 : Ref sig .tc := ⟨.hbm, 2124, rfl⟩
abbrev main_v2030 : Ref sig .tc := ⟨.hbm, 2125, rfl⟩
abbrev main_v2031 : Ref sig .tc := ⟨.hbm, 2126, rfl⟩
abbrev main_v2032 : Ref sig .tc := ⟨.hbm, 2127, rfl⟩
abbrev main_v2033 : Ref sig .tc := ⟨.hbm, 2128, rfl⟩
abbrev main_v2034 : Ref sig .tc := ⟨.hbm, 2129, rfl⟩
abbrev main_v2035 : Ref sig .tc := ⟨.hbm, 2130, rfl⟩
abbrev main_v2036 : Ref sig .tc := ⟨.hbm, 2131, rfl⟩
abbrev main_v2037 : Ref sig .tc := ⟨.hbm, 2132, rfl⟩
abbrev main_v2038 : Ref sig .tc := ⟨.hbm, 2133, rfl⟩
abbrev main_v2039 : Ref sig .tc := ⟨.hbm, 2134, rfl⟩
abbrev main_v2040 : Ref sig .tc := ⟨.hbm, 2135, rfl⟩
abbrev main_v2041 : Ref sig .tc := ⟨.hbm, 2136, rfl⟩
abbrev main_v2042 : Ref sig .tc := ⟨.hbm, 2137, rfl⟩
abbrev main_v2043 : Ref sig .tc := ⟨.hbm, 2138, rfl⟩
abbrev main_v2044 : Ref sig .tc := ⟨.hbm, 2139, rfl⟩
abbrev main_v2045 : Ref sig .tc := ⟨.hbm, 2140, rfl⟩
abbrev main_v2046 : Ref sig .tc := ⟨.hbm, 2141, rfl⟩
abbrev main_v2047 : Ref sig .tc := ⟨.hbm, 2142, rfl⟩
abbrev main_v2048 : Ref sig .tc := ⟨.hbm, 2143, rfl⟩
abbrev main_v2049 : Ref sig .tc := ⟨.hbm, 2144, rfl⟩
abbrev main_v2050 : Ref sig .tc := ⟨.hbm, 2145, rfl⟩
abbrev main_v2051 : Ref sig .tc := ⟨.hbm, 2146, rfl⟩
abbrev main_v2052 : Ref sig .tc := ⟨.hbm, 2147, rfl⟩
abbrev main_v2053 : Ref sig .tc := ⟨.hbm, 2148, rfl⟩
abbrev main_v2054 : Ref sig .tc := ⟨.hbm, 2149, rfl⟩
abbrev main_v2055 : Ref sig .tc := ⟨.hbm, 2150, rfl⟩
abbrev main_v2056 : Ref sig .tc := ⟨.hbm, 2151, rfl⟩
abbrev main_v2057 : Ref sig .tc := ⟨.hbm, 2152, rfl⟩
abbrev main_v2058 : Ref sig .tc := ⟨.hbm, 2153, rfl⟩
abbrev main_v2059 : Ref sig .tc := ⟨.hbm, 2154, rfl⟩
abbrev main_v2060 : Ref sig .tc := ⟨.hbm, 2155, rfl⟩
abbrev main_v2061 : Ref sig .tc := ⟨.hbm, 2156, rfl⟩
abbrev main_v2062 : Ref sig .tc := ⟨.hbm, 2157, rfl⟩
abbrev main_v2063 : Ref sig .tc := ⟨.hbm, 2158, rfl⟩
abbrev main_v2064 : Ref sig .tc := ⟨.hbm, 2159, rfl⟩
abbrev main_v2065 : Ref sig .tc := ⟨.hbm, 2160, rfl⟩
abbrev main_v2066 : Ref sig .tc := ⟨.hbm, 2161, rfl⟩
abbrev main_v2067 : Ref sig .tc := ⟨.hbm, 2162, rfl⟩
abbrev main_v2068 : Ref sig .tc := ⟨.hbm, 2163, rfl⟩
abbrev main_v2069 : Ref sig .tc := ⟨.hbm, 2164, rfl⟩
abbrev main_v2070 : Ref sig .tc := ⟨.hbm, 2165, rfl⟩
abbrev main_v2071 : Ref sig .tc := ⟨.hbm, 2166, rfl⟩
abbrev main_v2072 : Ref sig .tc := ⟨.hbm, 2167, rfl⟩
abbrev main_v2073 : Ref sig .tc := ⟨.hbm, 2168, rfl⟩
abbrev main_v2074 : Ref sig .tc := ⟨.hbm, 2169, rfl⟩
abbrev main_v2075 : Ref sig .tc := ⟨.hbm, 2170, rfl⟩
abbrev main_v2076 : Ref sig .tc := ⟨.hbm, 2171, rfl⟩
abbrev main_v2077 : Ref sig .tc := ⟨.hbm, 2172, rfl⟩
abbrev main_v2078 : Ref sig .tc := ⟨.hbm, 2173, rfl⟩
abbrev main_v2079 : Ref sig .tc := ⟨.hbm, 2174, rfl⟩
abbrev main_v2080 : Ref sig .tc := ⟨.hbm, 2175, rfl⟩
abbrev main_v2081 : Ref sig .tc := ⟨.hbm, 2176, rfl⟩
abbrev main_v2082 : Ref sig .tc := ⟨.hbm, 2177, rfl⟩
abbrev main_v2083 : Ref sig .tc := ⟨.hbm, 2178, rfl⟩
abbrev main_v2084 : Ref sig .tc := ⟨.hbm, 2179, rfl⟩
abbrev main_v2085 : Ref sig .tc := ⟨.hbm, 2180, rfl⟩
abbrev main_v2086 : Ref sig .tc := ⟨.hbm, 2181, rfl⟩
abbrev main_v2087 : Ref sig .tc := ⟨.hbm, 2182, rfl⟩
abbrev main_v2088 : Ref sig .tc := ⟨.hbm, 2183, rfl⟩
abbrev main_v2089 : Ref sig .tc := ⟨.hbm, 2184, rfl⟩
abbrev main_v2090 : Ref sig .tc := ⟨.hbm, 2185, rfl⟩
abbrev main_v2091 : Ref sig .tc := ⟨.hbm, 2186, rfl⟩
abbrev main_v2092 : Ref sig .tc := ⟨.hbm, 2187, rfl⟩
abbrev main_v2093 : Ref sig .tc := ⟨.hbm, 2188, rfl⟩
abbrev main_v2094 : Ref sig .tc := ⟨.hbm, 2189, rfl⟩
abbrev main_v2095 : Ref sig .tc := ⟨.hbm, 2190, rfl⟩
abbrev main_v2096 : Ref sig .tc := ⟨.hbm, 2191, rfl⟩
abbrev main_cst_87 : Ref sig .tc := ⟨.hbm, 2192, rfl⟩
abbrev main_v2097 : Ref sig .tc := ⟨.hbm, 2193, rfl⟩
abbrev main_v2098 : Ref sig .tc := ⟨.hbm, 2194, rfl⟩
abbrev main_v2099 : Ref sig .tc := ⟨.hbm, 2195, rfl⟩
abbrev main_v2100 : Ref sig .tc := ⟨.hbm, 2196, rfl⟩
abbrev main_v2101 : Ref sig .tc := ⟨.hbm, 2197, rfl⟩
abbrev main_v2102 : Ref sig .tc := ⟨.hbm, 2198, rfl⟩
abbrev main_cst_88 : Ref sig .tc := ⟨.hbm, 2199, rfl⟩
abbrev main_v2103 : Ref sig .tc := ⟨.hbm, 2200, rfl⟩
abbrev main_v2104 : Ref sig .tc := ⟨.hbm, 2201, rfl⟩
abbrev main_v2105 : Ref sig .tc := ⟨.hbm, 2202, rfl⟩
abbrev main_v2106 : Ref sig .tc := ⟨.hbm, 2203, rfl⟩
abbrev main_v2107 : Ref sig .tc := ⟨.hbm, 2204, rfl⟩
abbrev main_v2108 : Ref sig .tc := ⟨.hbm, 2205, rfl⟩
abbrev main_v2109 : Ref sig .tc := ⟨.hbm, 2206, rfl⟩
abbrev main_v2110 : Ref sig .tc := ⟨.hbm, 2207, rfl⟩
abbrev main_v2111 : Ref sig .tc := ⟨.hbm, 2208, rfl⟩
abbrev main_v2112 : Ref sig .tc := ⟨.hbm, 2209, rfl⟩
abbrev main_v2113 : Ref sig .tc := ⟨.hbm, 2210, rfl⟩
abbrev main_v2114 : Ref sig .tc := ⟨.hbm, 2211, rfl⟩
abbrev main_v2115 : Ref sig .tc := ⟨.hbm, 2212, rfl⟩
abbrev main_v2116 : Ref sig .tc := ⟨.hbm, 2213, rfl⟩
abbrev main_v2117 : Ref sig .tc := ⟨.hbm, 2214, rfl⟩
abbrev main_v2118 : Ref sig .tc := ⟨.hbm, 2215, rfl⟩
abbrev main_v2119 : Ref sig .tc := ⟨.hbm, 2216, rfl⟩
abbrev main_v2120 : Ref sig .tc := ⟨.hbm, 2217, rfl⟩
abbrev main_v2121 : Ref sig .tc := ⟨.hbm, 2218, rfl⟩
abbrev main_v2122 : Ref sig .tc := ⟨.hbm, 2219, rfl⟩
abbrev main_v2123 : Ref sig .tc := ⟨.hbm, 2220, rfl⟩
abbrev main_v2124 : Ref sig .tc := ⟨.hbm, 2221, rfl⟩
abbrev main_v2125 : Ref sig .tc := ⟨.hbm, 2222, rfl⟩
abbrev main_v2126 : Ref sig .tc := ⟨.hbm, 2223, rfl⟩
abbrev main_v2127 : Ref sig .tc := ⟨.hbm, 2224, rfl⟩
abbrev main_v2128 : Ref sig .tc := ⟨.hbm, 2225, rfl⟩
abbrev main_v2129 : Ref sig .tc := ⟨.hbm, 2226, rfl⟩
abbrev main_v2130 : Ref sig .tc := ⟨.hbm, 2227, rfl⟩
abbrev main_v2131 : Ref sig .tc := ⟨.hbm, 2228, rfl⟩
abbrev main_v2132 : Ref sig .tc := ⟨.hbm, 2229, rfl⟩
abbrev main_v2133 : Ref sig .tc := ⟨.hbm, 2230, rfl⟩
abbrev main_v2134 : Ref sig .tc := ⟨.hbm, 2231, rfl⟩
abbrev main_v2135 : Ref sig .tc := ⟨.hbm, 2232, rfl⟩
abbrev main_v2136 : Ref sig .tc := ⟨.hbm, 2233, rfl⟩
abbrev main_v2137 : Ref sig .tc := ⟨.hbm, 2234, rfl⟩
abbrev main_v2138 : Ref sig .tc := ⟨.hbm, 2235, rfl⟩
abbrev main_v2139 : Ref sig .tc := ⟨.hbm, 2236, rfl⟩
abbrev main_v2140 : Ref sig .tc := ⟨.hbm, 2237, rfl⟩
abbrev main_v2141 : Ref sig .tc := ⟨.hbm, 2238, rfl⟩
abbrev main_v2142 : Ref sig .tc := ⟨.hbm, 2239, rfl⟩
abbrev main_v2143 : Ref sig .tc := ⟨.hbm, 2240, rfl⟩
abbrev main_v2144 : Ref sig .tc := ⟨.hbm, 2241, rfl⟩
abbrev main_v2145 : Ref sig .tc := ⟨.hbm, 2242, rfl⟩
abbrev main_v2146 : Ref sig .tc := ⟨.hbm, 2243, rfl⟩
abbrev main_v2147 : Ref sig .tc := ⟨.hbm, 2244, rfl⟩
abbrev main_v2148 : Ref sig .tc := ⟨.hbm, 2245, rfl⟩
abbrev main_v2149 : Ref sig .tc := ⟨.hbm, 2246, rfl⟩
abbrev main_v2150 : Ref sig .tc := ⟨.hbm, 2247, rfl⟩
abbrev main_v2151 : Ref sig .tc := ⟨.hbm, 2248, rfl⟩
abbrev main_v2152 : Ref sig .tc := ⟨.hbm, 2249, rfl⟩
abbrev main_v2153 : Ref sig .tc := ⟨.hbm, 2250, rfl⟩
abbrev main_v2154 : Ref sig .tc := ⟨.hbm, 2251, rfl⟩
abbrev main_v2155 : Ref sig .tc := ⟨.hbm, 2252, rfl⟩
abbrev main_v2156 : Ref sig .tc := ⟨.hbm, 2253, rfl⟩
abbrev main_v2157 : Ref sig .tc := ⟨.hbm, 2254, rfl⟩
abbrev main_v2158 : Ref sig .tc := ⟨.hbm, 2255, rfl⟩
abbrev main_v2159 : Ref sig .tc := ⟨.hbm, 2256, rfl⟩
abbrev main_v2160 : Ref sig .tc := ⟨.hbm, 2257, rfl⟩
abbrev main_v2161 : Ref sig .tc := ⟨.hbm, 2258, rfl⟩
abbrev main_v2162 : Ref sig .tc := ⟨.hbm, 2259, rfl⟩
abbrev main_v2163 : Ref sig .tc := ⟨.hbm, 2260, rfl⟩
abbrev main_v2164 : Ref sig .tc := ⟨.hbm, 2261, rfl⟩
abbrev main_v2165 : Ref sig .tc := ⟨.hbm, 2262, rfl⟩
abbrev main_v2166 : Ref sig .tc := ⟨.hbm, 2263, rfl⟩
abbrev main_v2167 : Ref sig .tc := ⟨.hbm, 2264, rfl⟩
abbrev main_v2168 : Ref sig .tc := ⟨.hbm, 2265, rfl⟩
abbrev main_v2169 : Ref sig .tc := ⟨.hbm, 2266, rfl⟩
abbrev main_v2170 : Ref sig .tc := ⟨.hbm, 2267, rfl⟩
abbrev main_v2171 : Ref sig .tc := ⟨.hbm, 2268, rfl⟩
abbrev main_v2172 : Ref sig .tc := ⟨.hbm, 2269, rfl⟩
abbrev main_v2173 : Ref sig .tc := ⟨.hbm, 2270, rfl⟩
abbrev main_v2174 : Ref sig .tc := ⟨.hbm, 2271, rfl⟩
abbrev main_v2175 : Ref sig .tc := ⟨.hbm, 2272, rfl⟩
abbrev main_v2176 : Ref sig .tc := ⟨.hbm, 2273, rfl⟩
abbrev main_v2177 : Ref sig .tc := ⟨.hbm, 2274, rfl⟩
abbrev main_v2178 : Ref sig .tc := ⟨.hbm, 2275, rfl⟩
abbrev main_cst_89 : Ref sig .tc := ⟨.hbm, 2276, rfl⟩
abbrev main_v2179 : Ref sig .tc := ⟨.hbm, 2277, rfl⟩
abbrev main_v2180 : Ref sig .tc := ⟨.hbm, 2278, rfl⟩
abbrev main_v2181 : Ref sig .tc := ⟨.hbm, 2279, rfl⟩
abbrev main_v2182 : Ref sig .tc := ⟨.hbm, 2280, rfl⟩
abbrev main_v2183 : Ref sig .tc := ⟨.hbm, 2281, rfl⟩
abbrev main_v2184 : Ref sig .tc := ⟨.hbm, 2282, rfl⟩
abbrev main_cst_90 : Ref sig .tc := ⟨.hbm, 2283, rfl⟩
abbrev main_v2185 : Ref sig .tc := ⟨.hbm, 2284, rfl⟩
abbrev main_v2186 : Ref sig .tc := ⟨.hbm, 2285, rfl⟩
abbrev main_v2187 : Ref sig .tc := ⟨.hbm, 2286, rfl⟩
abbrev main_v2188 : Ref sig .tc := ⟨.hbm, 2287, rfl⟩
abbrev main_v2189 : Ref sig .tc := ⟨.hbm, 2288, rfl⟩
abbrev main_v2190 : Ref sig .tc := ⟨.hbm, 2289, rfl⟩
abbrev main_v2191 : Ref sig .tc := ⟨.hbm, 2290, rfl⟩
abbrev main_v2192 : Ref sig .tc := ⟨.hbm, 2291, rfl⟩
abbrev main_v2193 : Ref sig .tc := ⟨.hbm, 2292, rfl⟩
abbrev main_v2194 : Ref sig .tc := ⟨.hbm, 2293, rfl⟩
abbrev main_v2195 : Ref sig .tc := ⟨.hbm, 2294, rfl⟩
abbrev main_v2196 : Ref sig .tc := ⟨.hbm, 2295, rfl⟩
abbrev main_v2197 : Ref sig .tc := ⟨.hbm, 2296, rfl⟩
abbrev main_v2198 : Ref sig .tc := ⟨.hbm, 2297, rfl⟩
abbrev main_v2199 : Ref sig .tc := ⟨.hbm, 2298, rfl⟩
abbrev main_v2200 : Ref sig .tc := ⟨.hbm, 2299, rfl⟩
abbrev main_v2201 : Ref sig .tc := ⟨.hbm, 2300, rfl⟩
abbrev main_v2202 : Ref sig .tc := ⟨.hbm, 2301, rfl⟩
abbrev main_v2203 : Ref sig .tc := ⟨.hbm, 2302, rfl⟩
abbrev main_v2204 : Ref sig .tc := ⟨.hbm, 2303, rfl⟩
abbrev main_v2205 : Ref sig .tc := ⟨.hbm, 2304, rfl⟩
abbrev main_v2206 : Ref sig .tc := ⟨.hbm, 2305, rfl⟩
abbrev main_v2207 : Ref sig .tc := ⟨.hbm, 2306, rfl⟩
abbrev main_v2208 : Ref sig .tc := ⟨.hbm, 2307, rfl⟩
abbrev main_v2209 : Ref sig .tc := ⟨.hbm, 2308, rfl⟩
abbrev main_v2210 : Ref sig .tc := ⟨.hbm, 2309, rfl⟩
abbrev main_v2211 : Ref sig .tc := ⟨.hbm, 2310, rfl⟩
abbrev main_v2212 : Ref sig .tc := ⟨.hbm, 2311, rfl⟩
abbrev main_v2213 : Ref sig .tc := ⟨.hbm, 2312, rfl⟩
abbrev main_v2214 : Ref sig .tc := ⟨.hbm, 2313, rfl⟩
abbrev main_v2215 : Ref sig .tc := ⟨.hbm, 2314, rfl⟩
abbrev main_v2216 : Ref sig .tc := ⟨.hbm, 2315, rfl⟩
abbrev main_v2217 : Ref sig .tc := ⟨.hbm, 2316, rfl⟩
abbrev main_v2218 : Ref sig .tc := ⟨.hbm, 2317, rfl⟩
abbrev main_v2219 : Ref sig .tc := ⟨.hbm, 2318, rfl⟩
abbrev main_v2220 : Ref sig .tc := ⟨.hbm, 2319, rfl⟩
abbrev main_v2221 : Ref sig .tc := ⟨.hbm, 2320, rfl⟩
abbrev main_v2222 : Ref sig .tc := ⟨.hbm, 2321, rfl⟩
abbrev main_v2223 : Ref sig .tc := ⟨.hbm, 2322, rfl⟩
abbrev main_v2224 : Ref sig .tc := ⟨.hbm, 2323, rfl⟩
abbrev main_v2225 : Ref sig .tc := ⟨.hbm, 2324, rfl⟩
abbrev main_v2226 : Ref sig .tc := ⟨.hbm, 2325, rfl⟩
abbrev main_v2227 : Ref sig .tc := ⟨.hbm, 2326, rfl⟩
abbrev main_v2228 : Ref sig .tc := ⟨.hbm, 2327, rfl⟩
abbrev main_v2229 : Ref sig .tc := ⟨.hbm, 2328, rfl⟩
abbrev main_v2230 : Ref sig .tc := ⟨.hbm, 2329, rfl⟩
abbrev main_v2231 : Ref sig .tc := ⟨.hbm, 2330, rfl⟩
abbrev main_v2232 : Ref sig .tc := ⟨.hbm, 2331, rfl⟩
abbrev main_v2233 : Ref sig .tc := ⟨.hbm, 2332, rfl⟩
abbrev main_v2234 : Ref sig .tc := ⟨.hbm, 2333, rfl⟩
abbrev main_v2235 : Ref sig .tc := ⟨.hbm, 2334, rfl⟩
abbrev main_v2236 : Ref sig .tc := ⟨.hbm, 2335, rfl⟩
abbrev main_v2237 : Ref sig .tc := ⟨.hbm, 2336, rfl⟩
abbrev main_v2238 : Ref sig .tc := ⟨.hbm, 2337, rfl⟩
abbrev main_v2239 : Ref sig .tc := ⟨.hbm, 2338, rfl⟩
abbrev main_v2240 : Ref sig .tc := ⟨.hbm, 2339, rfl⟩
abbrev main_v2241 : Ref sig .tc := ⟨.hbm, 2340, rfl⟩
abbrev main_v2242 : Ref sig .tc := ⟨.hbm, 2341, rfl⟩
abbrev main_v2243 : Ref sig .tc := ⟨.hbm, 2342, rfl⟩
abbrev main_v2244 : Ref sig .tc := ⟨.hbm, 2343, rfl⟩
abbrev main_v2245 : Ref sig .tc := ⟨.hbm, 2344, rfl⟩
abbrev main_v2246 : Ref sig .tc := ⟨.hbm, 2345, rfl⟩
abbrev main_v2247 : Ref sig .tc := ⟨.hbm, 2346, rfl⟩
abbrev main_v2248 : Ref sig .tc := ⟨.hbm, 2347, rfl⟩
abbrev main_v2249 : Ref sig .tc := ⟨.hbm, 2348, rfl⟩
abbrev main_v2250 : Ref sig .tc := ⟨.hbm, 2349, rfl⟩
abbrev main_v2251 : Ref sig .tc := ⟨.hbm, 2350, rfl⟩
abbrev main_v2252 : Ref sig .tc := ⟨.hbm, 2351, rfl⟩
abbrev main_v2253 : Ref sig .tc := ⟨.hbm, 2352, rfl⟩
abbrev main_v2254 : Ref sig .tc := ⟨.hbm, 2353, rfl⟩
abbrev main_v2255 : Ref sig .tc := ⟨.hbm, 2354, rfl⟩
abbrev main_v2256 : Ref sig .tc := ⟨.hbm, 2355, rfl⟩
abbrev main_v2257 : Ref sig .tc := ⟨.hbm, 2356, rfl⟩
abbrev main_v2258 : Ref sig .tc := ⟨.hbm, 2357, rfl⟩
abbrev main_v2259 : Ref sig .tc := ⟨.hbm, 2358, rfl⟩
abbrev main_v2260 : Ref sig .tc := ⟨.hbm, 2359, rfl⟩
abbrev main_cst_91 : Ref sig .tc := ⟨.hbm, 2360, rfl⟩
abbrev main_v2261 : Ref sig .tc := ⟨.hbm, 2361, rfl⟩
abbrev main_v2262 : Ref sig .tc := ⟨.hbm, 2362, rfl⟩
abbrev main_v2263 : Ref sig .tc := ⟨.hbm, 2363, rfl⟩
abbrev main_v2264 : Ref sig .tc := ⟨.hbm, 2364, rfl⟩
abbrev main_v2265 : Ref sig .tc := ⟨.hbm, 2365, rfl⟩
abbrev main_v2266 : Ref sig .tc := ⟨.hbm, 2366, rfl⟩
abbrev main_cst_92 : Ref sig .tc := ⟨.hbm, 2367, rfl⟩
abbrev main_v2267 : Ref sig .tc := ⟨.hbm, 2368, rfl⟩
abbrev main_v2268 : Ref sig .tc := ⟨.hbm, 2369, rfl⟩
abbrev main_v2269 : Ref sig .tc := ⟨.hbm, 2370, rfl⟩
abbrev main_v2270 : Ref sig .tc := ⟨.hbm, 2371, rfl⟩
abbrev main_v2271 : Ref sig .tc := ⟨.hbm, 2372, rfl⟩
abbrev main_v2272 : Ref sig .tc := ⟨.hbm, 2373, rfl⟩
abbrev main_v2273 : Ref sig .tc := ⟨.hbm, 2374, rfl⟩
abbrev main_v2274 : Ref sig .tc := ⟨.hbm, 2375, rfl⟩
abbrev main_v2275 : Ref sig .tc := ⟨.hbm, 2376, rfl⟩
abbrev main_v2276 : Ref sig .tc := ⟨.hbm, 2377, rfl⟩
abbrev main_v2277 : Ref sig .tc := ⟨.hbm, 2378, rfl⟩
abbrev main_v2278 : Ref sig .tc := ⟨.hbm, 2379, rfl⟩
abbrev main_v2279 : Ref sig .tc := ⟨.hbm, 2380, rfl⟩
abbrev main_v2280 : Ref sig .tc := ⟨.hbm, 2381, rfl⟩
abbrev main_v2281 : Ref sig .tc := ⟨.hbm, 2382, rfl⟩
abbrev main_v2282 : Ref sig .tc := ⟨.hbm, 2383, rfl⟩
abbrev main_v2283 : Ref sig .tc := ⟨.hbm, 2384, rfl⟩
abbrev main_v2284 : Ref sig .tc := ⟨.hbm, 2385, rfl⟩
abbrev main_v2285 : Ref sig .tc := ⟨.hbm, 2386, rfl⟩
abbrev main_v2286 : Ref sig .tc := ⟨.hbm, 2387, rfl⟩
abbrev main_v2287 : Ref sig .tc := ⟨.hbm, 2388, rfl⟩
abbrev main_v2288 : Ref sig .tc := ⟨.hbm, 2389, rfl⟩
abbrev main_v2289 : Ref sig .tc := ⟨.hbm, 2390, rfl⟩
abbrev main_v2290 : Ref sig .tc := ⟨.hbm, 2391, rfl⟩
abbrev main_v2291 : Ref sig .tc := ⟨.hbm, 2392, rfl⟩
abbrev main_v2292 : Ref sig .tc := ⟨.hbm, 2393, rfl⟩
abbrev main_v2293 : Ref sig .tc := ⟨.hbm, 2394, rfl⟩
abbrev main_v2294 : Ref sig .tc := ⟨.hbm, 2395, rfl⟩
abbrev main_v2295 : Ref sig .tc := ⟨.hbm, 2396, rfl⟩
abbrev main_v2296 : Ref sig .tc := ⟨.hbm, 2397, rfl⟩
abbrev main_v2297 : Ref sig .tc := ⟨.hbm, 2398, rfl⟩
abbrev main_v2298 : Ref sig .tc := ⟨.hbm, 2399, rfl⟩
abbrev main_v2299 : Ref sig .tc := ⟨.hbm, 2400, rfl⟩
abbrev main_v2300 : Ref sig .tc := ⟨.hbm, 2401, rfl⟩
abbrev main_v2301 : Ref sig .tc := ⟨.hbm, 2402, rfl⟩
abbrev main_v2302 : Ref sig .tc := ⟨.hbm, 2403, rfl⟩
abbrev main_v2303 : Ref sig .tc := ⟨.hbm, 2404, rfl⟩
abbrev main_v2304 : Ref sig .tc := ⟨.hbm, 2405, rfl⟩
abbrev main_v2305 : Ref sig .tc := ⟨.hbm, 2406, rfl⟩
abbrev main_v2306 : Ref sig .tc := ⟨.hbm, 2407, rfl⟩
abbrev main_v2307 : Ref sig .tc := ⟨.hbm, 2408, rfl⟩
abbrev main_v2308 : Ref sig .tc := ⟨.hbm, 2409, rfl⟩
abbrev main_v2309 : Ref sig .tc := ⟨.hbm, 2410, rfl⟩
abbrev main_v2310 : Ref sig .tc := ⟨.hbm, 2411, rfl⟩
abbrev main_v2311 : Ref sig .tc := ⟨.hbm, 2412, rfl⟩
abbrev main_v2312 : Ref sig .tc := ⟨.hbm, 2413, rfl⟩
abbrev main_v2313 : Ref sig .tc := ⟨.hbm, 2414, rfl⟩
abbrev main_v2314 : Ref sig .tc := ⟨.hbm, 2415, rfl⟩
abbrev main_v2315 : Ref sig .tc := ⟨.hbm, 2416, rfl⟩
abbrev main_v2316 : Ref sig .tc := ⟨.hbm, 2417, rfl⟩
abbrev main_v2317 : Ref sig .tc := ⟨.hbm, 2418, rfl⟩
abbrev main_v2318 : Ref sig .tc := ⟨.hbm, 2419, rfl⟩
abbrev main_v2319 : Ref sig .tc := ⟨.hbm, 2420, rfl⟩
abbrev main_v2320 : Ref sig .tc := ⟨.hbm, 2421, rfl⟩
abbrev main_v2321 : Ref sig .tc := ⟨.hbm, 2422, rfl⟩
abbrev main_v2322 : Ref sig .tc := ⟨.hbm, 2423, rfl⟩
abbrev main_v2323 : Ref sig .tc := ⟨.hbm, 2424, rfl⟩
abbrev main_v2324 : Ref sig .tc := ⟨.hbm, 2425, rfl⟩
abbrev main_v2325 : Ref sig .tc := ⟨.hbm, 2426, rfl⟩
abbrev main_v2326 : Ref sig .tc := ⟨.hbm, 2427, rfl⟩
abbrev main_v2327 : Ref sig .tc := ⟨.hbm, 2428, rfl⟩
abbrev main_v2328 : Ref sig .tc := ⟨.hbm, 2429, rfl⟩
abbrev main_v2329 : Ref sig .tc := ⟨.hbm, 2430, rfl⟩
abbrev main_v2330 : Ref sig .tc := ⟨.hbm, 2431, rfl⟩
abbrev main_v2331 : Ref sig .tc := ⟨.hbm, 2432, rfl⟩
abbrev main_v2332 : Ref sig .tc := ⟨.hbm, 2433, rfl⟩
abbrev main_v2333 : Ref sig .tc := ⟨.hbm, 2434, rfl⟩
abbrev main_v2334 : Ref sig .tc := ⟨.hbm, 2435, rfl⟩
abbrev main_v2335 : Ref sig .tc := ⟨.hbm, 2436, rfl⟩
abbrev main_v2336 : Ref sig .tc := ⟨.hbm, 2437, rfl⟩
abbrev main_v2337 : Ref sig .tc := ⟨.hbm, 2438, rfl⟩
abbrev main_v2338 : Ref sig .tc := ⟨.hbm, 2439, rfl⟩
abbrev main_v2339 : Ref sig .tc := ⟨.hbm, 2440, rfl⟩
abbrev main_v2340 : Ref sig .tc := ⟨.hbm, 2441, rfl⟩
abbrev main_v2341 : Ref sig .tc := ⟨.hbm, 2442, rfl⟩
abbrev main_v2342 : Ref sig .tc := ⟨.hbm, 2443, rfl⟩
abbrev main_v2343 : Ref sig .tc := ⟨.hbm, 2444, rfl⟩
abbrev main_v2344 : Ref sig .tc := ⟨.hbm, 2445, rfl⟩
abbrev main_v2345 : Ref sig .tc := ⟨.hbm, 2446, rfl⟩
abbrev main_cst_93 : Ref sig .tc := ⟨.hbm, 2447, rfl⟩
abbrev main_v2346 : Ref sig .tc := ⟨.hbm, 2448, rfl⟩
abbrev main_v2347 : Ref sig .tc := ⟨.hbm, 2449, rfl⟩
abbrev main_v2348 : Ref sig .tc := ⟨.hbm, 2450, rfl⟩
abbrev main_v2349 : Ref sig .tc := ⟨.hbm, 2451, rfl⟩
abbrev main_v2350 : Ref sig .tc := ⟨.hbm, 2452, rfl⟩
abbrev main_v2351 : Ref sig .tc := ⟨.hbm, 2453, rfl⟩
abbrev main_cst_94 : Ref sig .tc := ⟨.hbm, 2454, rfl⟩
abbrev main_v2352 : Ref sig .tc := ⟨.hbm, 2455, rfl⟩
abbrev main_v2353 : Ref sig .tc := ⟨.hbm, 2456, rfl⟩
abbrev main_v2354 : Ref sig .tc := ⟨.hbm, 2457, rfl⟩
abbrev main_v2355 : Ref sig .tc := ⟨.hbm, 2458, rfl⟩
abbrev main_v2356 : Ref sig .tc := ⟨.hbm, 2459, rfl⟩
abbrev main_v2357 : Ref sig .tc := ⟨.hbm, 2460, rfl⟩
abbrev main_v2358 : Ref sig .tc := ⟨.hbm, 2461, rfl⟩
abbrev main_v2359 : Ref sig .tc := ⟨.hbm, 2462, rfl⟩
abbrev main_v2360 : Ref sig .tc := ⟨.hbm, 2463, rfl⟩
abbrev main_v2361 : Ref sig .tc := ⟨.hbm, 2464, rfl⟩
abbrev main_v2362 : Ref sig .tc := ⟨.hbm, 2465, rfl⟩
abbrev main_v2363 : Ref sig .tc := ⟨.hbm, 2466, rfl⟩
abbrev main_v2364 : Ref sig .tc := ⟨.hbm, 2467, rfl⟩
abbrev main_v2365 : Ref sig .tc := ⟨.hbm, 2468, rfl⟩
abbrev main_v2366 : Ref sig .tc := ⟨.hbm, 2469, rfl⟩
abbrev main_v2367 : Ref sig .tc := ⟨.hbm, 2470, rfl⟩
abbrev main_v2368 : Ref sig .tc := ⟨.hbm, 2471, rfl⟩
abbrev main_v2369 : Ref sig .tc := ⟨.hbm, 2472, rfl⟩
abbrev main_v2370 : Ref sig .tc := ⟨.hbm, 2473, rfl⟩
abbrev main_v2371 : Ref sig .tc := ⟨.hbm, 2474, rfl⟩
abbrev main_v2372 : Ref sig .tc := ⟨.hbm, 2475, rfl⟩
abbrev main_v2373 : Ref sig .tc := ⟨.hbm, 2476, rfl⟩
abbrev main_v2374 : Ref sig .tc := ⟨.hbm, 2477, rfl⟩
abbrev main_v2375 : Ref sig .tc := ⟨.hbm, 2478, rfl⟩
abbrev main_v2376 : Ref sig .tc := ⟨.hbm, 2479, rfl⟩
abbrev main_v2377 : Ref sig .tc := ⟨.hbm, 2480, rfl⟩
abbrev main_v2378 : Ref sig .tc := ⟨.hbm, 2481, rfl⟩
abbrev main_v2379 : Ref sig .tc := ⟨.hbm, 2482, rfl⟩
abbrev main_v2380 : Ref sig .tc := ⟨.hbm, 2483, rfl⟩
abbrev main_v2381 : Ref sig .tc := ⟨.hbm, 2484, rfl⟩
abbrev main_v2382 : Ref sig .tc := ⟨.hbm, 2485, rfl⟩
abbrev main_v2383 : Ref sig .tc := ⟨.hbm, 2486, rfl⟩
abbrev main_v2384 : Ref sig .tc := ⟨.hbm, 2487, rfl⟩
abbrev main_v2385 : Ref sig .tc := ⟨.hbm, 2488, rfl⟩
abbrev main_v2386 : Ref sig .tc := ⟨.hbm, 2489, rfl⟩
abbrev main_v2387 : Ref sig .tc := ⟨.hbm, 2490, rfl⟩
abbrev main_v2388 : Ref sig .tc := ⟨.hbm, 2491, rfl⟩
abbrev main_v2389 : Ref sig .tc := ⟨.hbm, 2492, rfl⟩
abbrev main_v2390 : Ref sig .tc := ⟨.hbm, 2493, rfl⟩
abbrev main_v2391 : Ref sig .tc := ⟨.hbm, 2494, rfl⟩
abbrev main_v2392 : Ref sig .tc := ⟨.hbm, 2495, rfl⟩
abbrev main_v2393 : Ref sig .tc := ⟨.hbm, 2496, rfl⟩
abbrev main_v2394 : Ref sig .tc := ⟨.hbm, 2497, rfl⟩
abbrev main_v2395 : Ref sig .tc := ⟨.hbm, 2498, rfl⟩
abbrev main_v2396 : Ref sig .tc := ⟨.hbm, 2499, rfl⟩
abbrev main_v2397 : Ref sig .tc := ⟨.hbm, 2500, rfl⟩
abbrev main_v2398 : Ref sig .tc := ⟨.hbm, 2501, rfl⟩
abbrev main_v2399 : Ref sig .tc := ⟨.hbm, 2502, rfl⟩
abbrev main_v2400 : Ref sig .tc := ⟨.hbm, 2503, rfl⟩
abbrev main_v2401 : Ref sig .tc := ⟨.hbm, 2504, rfl⟩
abbrev main_v2402 : Ref sig .tc := ⟨.hbm, 2505, rfl⟩
abbrev main_v2403 : Ref sig .tc := ⟨.hbm, 2506, rfl⟩
abbrev main_v2404 : Ref sig .tc := ⟨.hbm, 2507, rfl⟩
abbrev main_v2405 : Ref sig .tc := ⟨.hbm, 2508, rfl⟩
abbrev main_v2406 : Ref sig .tc := ⟨.hbm, 2509, rfl⟩
abbrev main_v2407 : Ref sig .tc := ⟨.hbm, 2510, rfl⟩
abbrev main_v2408 : Ref sig .tc := ⟨.hbm, 2511, rfl⟩
abbrev main_v2409 : Ref sig .tc := ⟨.hbm, 2512, rfl⟩
abbrev main_v2410 : Ref sig .tc := ⟨.hbm, 2513, rfl⟩
abbrev main_v2411 : Ref sig .tc := ⟨.hbm, 2514, rfl⟩
abbrev main_v2412 : Ref sig .tc := ⟨.hbm, 2515, rfl⟩
abbrev main_v2413 : Ref sig .tc := ⟨.hbm, 2516, rfl⟩
abbrev main_v2414 : Ref sig .tc := ⟨.hbm, 2517, rfl⟩
abbrev main_v2415 : Ref sig .tc := ⟨.hbm, 2518, rfl⟩
abbrev main_v2416 : Ref sig .tc := ⟨.hbm, 2519, rfl⟩
abbrev main_v2417 : Ref sig .tc := ⟨.hbm, 2520, rfl⟩
abbrev main_v2418 : Ref sig .tc := ⟨.hbm, 2521, rfl⟩
abbrev main_v2419 : Ref sig .tc := ⟨.hbm, 2522, rfl⟩
abbrev main_v2420 : Ref sig .tc := ⟨.hbm, 2523, rfl⟩
abbrev main_v2421 : Ref sig .tc := ⟨.hbm, 2524, rfl⟩
abbrev main_v2422 : Ref sig .tc := ⟨.hbm, 2525, rfl⟩
abbrev main_v2423 : Ref sig .tc := ⟨.hbm, 2526, rfl⟩
abbrev main_v2424 : Ref sig .tc := ⟨.hbm, 2527, rfl⟩
abbrev main_v2425 : Ref sig .tc := ⟨.hbm, 2528, rfl⟩
abbrev main_v2426 : Ref sig .tc := ⟨.hbm, 2529, rfl⟩
abbrev main_v2427 : Ref sig .tc := ⟨.hbm, 2530, rfl⟩
abbrev main_v2428 : Ref sig .tc := ⟨.hbm, 2531, rfl⟩
abbrev main_v2429 : Ref sig .tc := ⟨.hbm, 2532, rfl⟩
abbrev main_v2430 : Ref sig .tc := ⟨.hbm, 2533, rfl⟩
abbrev main_cst_95 : Ref sig .tc := ⟨.hbm, 2534, rfl⟩
abbrev main_v2431 : Ref sig .tc := ⟨.hbm, 2535, rfl⟩
abbrev main_v2432 : Ref sig .tc := ⟨.hbm, 2536, rfl⟩
abbrev main_v2433 : Ref sig .tc := ⟨.hbm, 2537, rfl⟩
abbrev main_v2434 : Ref sig .tc := ⟨.hbm, 2538, rfl⟩
abbrev main_v2435 : Ref sig .tc := ⟨.hbm, 2539, rfl⟩
abbrev main_v2436 : Ref sig .tc := ⟨.hbm, 2540, rfl⟩
abbrev main_cst_96 : Ref sig .tc := ⟨.hbm, 2541, rfl⟩
abbrev main_v2437 : Ref sig .tc := ⟨.hbm, 2542, rfl⟩
abbrev main_v2438 : Ref sig .tc := ⟨.hbm, 2543, rfl⟩
abbrev main_v2439 : Ref sig .tc := ⟨.hbm, 2544, rfl⟩
abbrev main_v2440 : Ref sig .tc := ⟨.hbm, 2545, rfl⟩
abbrev main_v2441 : Ref sig .tc := ⟨.hbm, 2546, rfl⟩
abbrev main_v2442 : Ref sig .tc := ⟨.hbm, 2547, rfl⟩
abbrev main_v2443 : Ref sig .tc := ⟨.hbm, 2548, rfl⟩
abbrev main_v2444 : Ref sig .tc := ⟨.hbm, 2549, rfl⟩
abbrev main_v2445 : Ref sig .tc := ⟨.hbm, 2550, rfl⟩
abbrev main_v2446 : Ref sig .tc := ⟨.hbm, 2551, rfl⟩
abbrev main_v2447 : Ref sig .tc := ⟨.hbm, 2552, rfl⟩
abbrev main_v2448 : Ref sig .tc := ⟨.hbm, 2553, rfl⟩
abbrev main_v2449 : Ref sig .tc := ⟨.hbm, 2554, rfl⟩
abbrev main_v2450 : Ref sig .tc := ⟨.hbm, 2555, rfl⟩
abbrev main_v2451 : Ref sig .tc := ⟨.hbm, 2556, rfl⟩
abbrev main_v2452 : Ref sig .tc := ⟨.hbm, 2557, rfl⟩
abbrev main_v2453 : Ref sig .tc := ⟨.hbm, 2558, rfl⟩
abbrev main_v2454 : Ref sig .tc := ⟨.hbm, 2559, rfl⟩
abbrev main_v2455 : Ref sig .tc := ⟨.hbm, 2560, rfl⟩
abbrev main_v2456 : Ref sig .tc := ⟨.hbm, 2561, rfl⟩
abbrev main_v2457 : Ref sig .tc := ⟨.hbm, 2562, rfl⟩
abbrev main_v2458 : Ref sig .tc := ⟨.hbm, 2563, rfl⟩
abbrev main_v2459 : Ref sig .tc := ⟨.hbm, 2564, rfl⟩
abbrev main_v2460 : Ref sig .tc := ⟨.hbm, 2565, rfl⟩
abbrev main_v2461 : Ref sig .tc := ⟨.hbm, 2566, rfl⟩
abbrev main_v2462 : Ref sig .tc := ⟨.hbm, 2567, rfl⟩
abbrev main_v2463 : Ref sig .tc := ⟨.hbm, 2568, rfl⟩
abbrev main_v2464 : Ref sig .tc := ⟨.hbm, 2569, rfl⟩
abbrev main_v2465 : Ref sig .tc := ⟨.hbm, 2570, rfl⟩
abbrev main_v2466 : Ref sig .tc := ⟨.hbm, 2571, rfl⟩
abbrev main_v2467 : Ref sig .tc := ⟨.hbm, 2572, rfl⟩
abbrev main_v2468 : Ref sig .tc := ⟨.hbm, 2573, rfl⟩
abbrev main_v2469 : Ref sig .tc := ⟨.hbm, 2574, rfl⟩
abbrev main_v2470 : Ref sig .tc := ⟨.hbm, 2575, rfl⟩
abbrev main_v2471 : Ref sig .tc := ⟨.hbm, 2576, rfl⟩
abbrev main_v2472 : Ref sig .tc := ⟨.hbm, 2577, rfl⟩
abbrev main_v2473 : Ref sig .tc := ⟨.hbm, 2578, rfl⟩
abbrev main_v2474 : Ref sig .tc := ⟨.hbm, 2579, rfl⟩
abbrev main_v2475 : Ref sig .tc := ⟨.hbm, 2580, rfl⟩
abbrev main_v2476 : Ref sig .tc := ⟨.hbm, 2581, rfl⟩
abbrev main_v2477 : Ref sig .tc := ⟨.hbm, 2582, rfl⟩
abbrev main_v2478 : Ref sig .tc := ⟨.hbm, 2583, rfl⟩
abbrev main_v2479 : Ref sig .tc := ⟨.hbm, 2584, rfl⟩
abbrev main_v2480 : Ref sig .tc := ⟨.hbm, 2585, rfl⟩
abbrev main_v2481 : Ref sig .tc := ⟨.hbm, 2586, rfl⟩
abbrev main_v2482 : Ref sig .tc := ⟨.hbm, 2587, rfl⟩
abbrev main_v2483 : Ref sig .tc := ⟨.hbm, 2588, rfl⟩
abbrev main_v2484 : Ref sig .tc := ⟨.hbm, 2589, rfl⟩
abbrev main_v2485 : Ref sig .tc := ⟨.hbm, 2590, rfl⟩
abbrev main_v2486 : Ref sig .tc := ⟨.hbm, 2591, rfl⟩
abbrev main_v2487 : Ref sig .tc := ⟨.hbm, 2592, rfl⟩
abbrev main_v2488 : Ref sig .tc := ⟨.hbm, 2593, rfl⟩
abbrev main_v2489 : Ref sig .tc := ⟨.hbm, 2594, rfl⟩
abbrev main_v2490 : Ref sig .tc := ⟨.hbm, 2595, rfl⟩
abbrev main_v2491 : Ref sig .tc := ⟨.hbm, 2596, rfl⟩
abbrev main_v2492 : Ref sig .tc := ⟨.hbm, 2597, rfl⟩
abbrev main_v2493 : Ref sig .tc := ⟨.hbm, 2598, rfl⟩
abbrev main_v2494 : Ref sig .tc := ⟨.hbm, 2599, rfl⟩
abbrev main_v2495 : Ref sig .tc := ⟨.hbm, 2600, rfl⟩
abbrev main_v2496 : Ref sig .tc := ⟨.hbm, 2601, rfl⟩
abbrev main_v2497 : Ref sig .tc := ⟨.hbm, 2602, rfl⟩
abbrev main_v2498 : Ref sig .tc := ⟨.hbm, 2603, rfl⟩
abbrev main_v2499 : Ref sig .tc := ⟨.hbm, 2604, rfl⟩
abbrev main_v2500 : Ref sig .tc := ⟨.hbm, 2605, rfl⟩
abbrev main_v2501 : Ref sig .tc := ⟨.hbm, 2606, rfl⟩
abbrev main_v2502 : Ref sig .tc := ⟨.hbm, 2607, rfl⟩
abbrev main_v2503 : Ref sig .tc := ⟨.hbm, 2608, rfl⟩
abbrev main_v2504 : Ref sig .tc := ⟨.hbm, 2609, rfl⟩
abbrev main_v2505 : Ref sig .tc := ⟨.hbm, 2610, rfl⟩
abbrev main_v2506 : Ref sig .tc := ⟨.hbm, 2611, rfl⟩
abbrev main_v2507 : Ref sig .tc := ⟨.hbm, 2612, rfl⟩
abbrev main_v2508 : Ref sig .tc := ⟨.hbm, 2613, rfl⟩
abbrev main_v2509 : Ref sig .tc := ⟨.hbm, 2614, rfl⟩
abbrev main_v2510 : Ref sig .tc := ⟨.hbm, 2615, rfl⟩
abbrev main_v2511 : Ref sig .tc := ⟨.hbm, 2616, rfl⟩
abbrev main_v2512 : Ref sig .tc := ⟨.hbm, 2617, rfl⟩
abbrev main_v2513 : Ref sig .tc := ⟨.hbm, 2618, rfl⟩
abbrev main_v2514 : Ref sig .tc := ⟨.hbm, 2619, rfl⟩
abbrev main_v2515 : Ref sig .tc := ⟨.hbm, 2620, rfl⟩
abbrev main_v2516 : Ref sig .tc := ⟨.hbm, 2621, rfl⟩
abbrev main_v2517 : Ref sig .tc := ⟨.hbm, 2622, rfl⟩
abbrev main_v2518 : Ref sig .tc := ⟨.hbm, 2623, rfl⟩
abbrev main_cst_97 : Ref sig .tc := ⟨.hbm, 2624, rfl⟩
abbrev main_v2519 : Ref sig .tc := ⟨.hbm, 2625, rfl⟩
abbrev main_v2520 : Ref sig .tc := ⟨.hbm, 2626, rfl⟩
abbrev main_v2521 : Ref sig .tc := ⟨.hbm, 2627, rfl⟩
abbrev main_v2522 : Ref sig .tc := ⟨.hbm, 2628, rfl⟩
abbrev main_v2523 : Ref sig .tc := ⟨.hbm, 2629, rfl⟩
abbrev main_v2524 : Ref sig .tc := ⟨.hbm, 2630, rfl⟩
abbrev main_cst_98 : Ref sig .tc := ⟨.hbm, 2631, rfl⟩
abbrev main_v2525 : Ref sig .tc := ⟨.hbm, 2632, rfl⟩
abbrev main_v2526 : Ref sig .tc := ⟨.hbm, 2633, rfl⟩
abbrev main_v2527 : Ref sig .tc := ⟨.hbm, 2634, rfl⟩
abbrev main_v2528 : Ref sig .tc := ⟨.hbm, 2635, rfl⟩
abbrev main_v2529 : Ref sig .tc := ⟨.hbm, 2636, rfl⟩
abbrev main_v2530 : Ref sig .tc := ⟨.hbm, 2637, rfl⟩
abbrev main_v2531 : Ref sig .tc := ⟨.hbm, 2638, rfl⟩
abbrev main_v2532 : Ref sig .tc := ⟨.hbm, 2639, rfl⟩
abbrev main_v2533 : Ref sig .tc := ⟨.hbm, 2640, rfl⟩
abbrev main_v2534 : Ref sig .tc := ⟨.hbm, 2641, rfl⟩
abbrev main_v2535 : Ref sig .tc := ⟨.hbm, 2642, rfl⟩
abbrev main_v2536 : Ref sig .tc := ⟨.hbm, 2643, rfl⟩
abbrev main_v2537 : Ref sig .tc := ⟨.hbm, 2644, rfl⟩
abbrev main_v2538 : Ref sig .tc := ⟨.hbm, 2645, rfl⟩
abbrev main_v2539 : Ref sig .tc := ⟨.hbm, 2646, rfl⟩
abbrev main_v2540 : Ref sig .tc := ⟨.hbm, 2647, rfl⟩
abbrev main_v2541 : Ref sig .tc := ⟨.hbm, 2648, rfl⟩
abbrev main_v2542 : Ref sig .tc := ⟨.hbm, 2649, rfl⟩
abbrev main_v2543 : Ref sig .tc := ⟨.hbm, 2650, rfl⟩
abbrev main_v2544 : Ref sig .tc := ⟨.hbm, 2651, rfl⟩
abbrev main_v2545 : Ref sig .tc := ⟨.hbm, 2652, rfl⟩
abbrev main_v2546 : Ref sig .tc := ⟨.hbm, 2653, rfl⟩
abbrev main_v2547 : Ref sig .tc := ⟨.hbm, 2654, rfl⟩
abbrev main_v2548 : Ref sig .tc := ⟨.hbm, 2655, rfl⟩
abbrev main_v2549 : Ref sig .tc := ⟨.hbm, 2656, rfl⟩
abbrev main_v2550 : Ref sig .tc := ⟨.hbm, 2657, rfl⟩
abbrev main_v2551 : Ref sig .tc := ⟨.hbm, 2658, rfl⟩
abbrev main_v2552 : Ref sig .tc := ⟨.hbm, 2659, rfl⟩
abbrev main_v2553 : Ref sig .tc := ⟨.hbm, 2660, rfl⟩
abbrev main_v2554 : Ref sig .tc := ⟨.hbm, 2661, rfl⟩
abbrev main_v2555 : Ref sig .tc := ⟨.hbm, 2662, rfl⟩
abbrev main_v2556 : Ref sig .tc := ⟨.hbm, 2663, rfl⟩
abbrev main_v2557 : Ref sig .tc := ⟨.hbm, 2664, rfl⟩
abbrev main_v2558 : Ref sig .tc := ⟨.hbm, 2665, rfl⟩
abbrev main_v2559 : Ref sig .tc := ⟨.hbm, 2666, rfl⟩
abbrev main_v2560 : Ref sig .tc := ⟨.hbm, 2667, rfl⟩
abbrev main_v2561 : Ref sig .tc := ⟨.hbm, 2668, rfl⟩
abbrev main_v2562 : Ref sig .tc := ⟨.hbm, 2669, rfl⟩
abbrev main_v2563 : Ref sig .tc := ⟨.hbm, 2670, rfl⟩
abbrev main_v2564 : Ref sig .tc := ⟨.hbm, 2671, rfl⟩
abbrev main_v2565 : Ref sig .tc := ⟨.hbm, 2672, rfl⟩
abbrev main_v2566 : Ref sig .tc := ⟨.hbm, 2673, rfl⟩
abbrev main_v2567 : Ref sig .tc := ⟨.hbm, 2674, rfl⟩
abbrev main_v2568 : Ref sig .tc := ⟨.hbm, 2675, rfl⟩
abbrev main_v2569 : Ref sig .tc := ⟨.hbm, 2676, rfl⟩
abbrev main_v2570 : Ref sig .tc := ⟨.hbm, 2677, rfl⟩
abbrev main_v2571 : Ref sig .tc := ⟨.hbm, 2678, rfl⟩
abbrev main_v2572 : Ref sig .tc := ⟨.hbm, 2679, rfl⟩
abbrev main_v2573 : Ref sig .tc := ⟨.hbm, 2680, rfl⟩
abbrev main_v2574 : Ref sig .tc := ⟨.hbm, 2681, rfl⟩
abbrev main_v2575 : Ref sig .tc := ⟨.hbm, 2682, rfl⟩
abbrev main_v2576 : Ref sig .tc := ⟨.hbm, 2683, rfl⟩
abbrev main_v2577 : Ref sig .tc := ⟨.hbm, 2684, rfl⟩
abbrev main_v2578 : Ref sig .tc := ⟨.hbm, 2685, rfl⟩
abbrev main_v2579 : Ref sig .tc := ⟨.hbm, 2686, rfl⟩
abbrev main_v2580 : Ref sig .tc := ⟨.hbm, 2687, rfl⟩
abbrev main_v2581 : Ref sig .tc := ⟨.hbm, 2688, rfl⟩
abbrev main_v2582 : Ref sig .tc := ⟨.hbm, 2689, rfl⟩
abbrev main_v2583 : Ref sig .tc := ⟨.hbm, 2690, rfl⟩
abbrev main_v2584 : Ref sig .tc := ⟨.hbm, 2691, rfl⟩
abbrev main_v2585 : Ref sig .tc := ⟨.hbm, 2692, rfl⟩
abbrev main_v2586 : Ref sig .tc := ⟨.hbm, 2693, rfl⟩
abbrev main_v2587 : Ref sig .tc := ⟨.hbm, 2694, rfl⟩
abbrev main_v2588 : Ref sig .tc := ⟨.hbm, 2695, rfl⟩
abbrev main_v2589 : Ref sig .tc := ⟨.hbm, 2696, rfl⟩
abbrev main_v2590 : Ref sig .tc := ⟨.hbm, 2697, rfl⟩
abbrev main_v2591 : Ref sig .tc := ⟨.hbm, 2698, rfl⟩
abbrev main_v2592 : Ref sig .tc := ⟨.hbm, 2699, rfl⟩
abbrev main_v2593 : Ref sig .tc := ⟨.hbm, 2700, rfl⟩
abbrev main_v2594 : Ref sig .tc := ⟨.hbm, 2701, rfl⟩
abbrev main_v2595 : Ref sig .tc := ⟨.hbm, 2702, rfl⟩
abbrev main_v2596 : Ref sig .tc := ⟨.hbm, 2703, rfl⟩
abbrev main_v2597 : Ref sig .tc := ⟨.hbm, 2704, rfl⟩
abbrev main_v2598 : Ref sig .tc := ⟨.hbm, 2705, rfl⟩
abbrev main_v2599 : Ref sig .tc := ⟨.hbm, 2706, rfl⟩
abbrev main_v2600 : Ref sig .tc := ⟨.hbm, 2707, rfl⟩
abbrev main_v2601 : Ref sig .tc := ⟨.hbm, 2708, rfl⟩
abbrev main_v2602 : Ref sig .tc := ⟨.hbm, 2709, rfl⟩
abbrev main_v2603 : Ref sig .tc := ⟨.hbm, 2710, rfl⟩
abbrev main_v2604 : Ref sig .tc := ⟨.hbm, 2711, rfl⟩
abbrev main_v2605 : Ref sig .tc := ⟨.hbm, 2712, rfl⟩
abbrev main_v2606 : Ref sig .tc := ⟨.hbm, 2713, rfl⟩
abbrev main_cst_99 : Ref sig .tc := ⟨.hbm, 2714, rfl⟩
abbrev main_v2607 : Ref sig .tc := ⟨.hbm, 2715, rfl⟩
abbrev main_v2608 : Ref sig .tc := ⟨.hbm, 2716, rfl⟩
abbrev main_v2609 : Ref sig .tc := ⟨.hbm, 2717, rfl⟩
abbrev main_v2610 : Ref sig .tc := ⟨.hbm, 2718, rfl⟩
abbrev main_v2611 : Ref sig .tc := ⟨.hbm, 2719, rfl⟩
abbrev main_v2612 : Ref sig .tc := ⟨.hbm, 2720, rfl⟩
abbrev main_cst_100 : Ref sig .tc := ⟨.hbm, 2721, rfl⟩
abbrev main_v2613 : Ref sig .tc := ⟨.hbm, 2722, rfl⟩
abbrev main_v2614 : Ref sig .tc := ⟨.hbm, 2723, rfl⟩
abbrev main_v2615 : Ref sig .tc := ⟨.hbm, 2724, rfl⟩
abbrev main_v2616 : Ref sig .tc := ⟨.hbm, 2725, rfl⟩
abbrev main_v2617 : Ref sig .tc := ⟨.hbm, 2726, rfl⟩
abbrev main_v2618 : Ref sig .tc := ⟨.hbm, 2727, rfl⟩
abbrev main_v2619 : Ref sig .tc := ⟨.hbm, 2728, rfl⟩
abbrev main_v2620 : Ref sig .tc := ⟨.hbm, 2729, rfl⟩
abbrev main_v2621 : Ref sig .tc := ⟨.hbm, 2730, rfl⟩
abbrev main_v2622 : Ref sig .tc := ⟨.hbm, 2731, rfl⟩
abbrev main_v2623 : Ref sig .tc := ⟨.hbm, 2732, rfl⟩
abbrev main_v2624 : Ref sig .tc := ⟨.hbm, 2733, rfl⟩
abbrev main_v2625 : Ref sig .tc := ⟨.hbm, 2734, rfl⟩
abbrev main_v2626 : Ref sig .tc := ⟨.hbm, 2735, rfl⟩
abbrev main_v2627 : Ref sig .tc := ⟨.hbm, 2736, rfl⟩
abbrev main_v2628 : Ref sig .tc := ⟨.hbm, 2737, rfl⟩
abbrev main_v2629 : Ref sig .tc := ⟨.hbm, 2738, rfl⟩
abbrev main_v2630 : Ref sig .tc := ⟨.hbm, 2739, rfl⟩
abbrev main_v2631 : Ref sig .tc := ⟨.hbm, 2740, rfl⟩
abbrev main_v2632 : Ref sig .tc := ⟨.hbm, 2741, rfl⟩
abbrev main_v2633 : Ref sig .tc := ⟨.hbm, 2742, rfl⟩
abbrev main_v2634 : Ref sig .tc := ⟨.hbm, 2743, rfl⟩
abbrev main_v2635 : Ref sig .tc := ⟨.hbm, 2744, rfl⟩
abbrev main_v2636 : Ref sig .tc := ⟨.hbm, 2745, rfl⟩
abbrev main_v2637 : Ref sig .tc := ⟨.hbm, 2746, rfl⟩
abbrev main_v2638 : Ref sig .tc := ⟨.hbm, 2747, rfl⟩
abbrev main_v2639 : Ref sig .tc := ⟨.hbm, 2748, rfl⟩
abbrev main_v2640 : Ref sig .tc := ⟨.hbm, 2749, rfl⟩
abbrev main_v2641 : Ref sig .tc := ⟨.hbm, 2750, rfl⟩
abbrev main_v2642 : Ref sig .tc := ⟨.hbm, 2751, rfl⟩
abbrev main_v2643 : Ref sig .tc := ⟨.hbm, 2752, rfl⟩
abbrev main_v2644 : Ref sig .tc := ⟨.hbm, 2753, rfl⟩
abbrev main_v2645 : Ref sig .tc := ⟨.hbm, 2754, rfl⟩
abbrev main_v2646 : Ref sig .tc := ⟨.hbm, 2755, rfl⟩
abbrev main_v2647 : Ref sig .tc := ⟨.hbm, 2756, rfl⟩
abbrev main_v2648 : Ref sig .tc := ⟨.hbm, 2757, rfl⟩
abbrev main_v2649 : Ref sig .tc := ⟨.hbm, 2758, rfl⟩
abbrev main_v2650 : Ref sig .tc := ⟨.hbm, 2759, rfl⟩
abbrev main_v2651 : Ref sig .tc := ⟨.hbm, 2760, rfl⟩
abbrev main_v2652 : Ref sig .tc := ⟨.hbm, 2761, rfl⟩
abbrev main_v2653 : Ref sig .tc := ⟨.hbm, 2762, rfl⟩
abbrev main_v2654 : Ref sig .tc := ⟨.hbm, 2763, rfl⟩
abbrev main_v2655 : Ref sig .tc := ⟨.hbm, 2764, rfl⟩
abbrev main_v2656 : Ref sig .tc := ⟨.hbm, 2765, rfl⟩
abbrev main_v2657 : Ref sig .tc := ⟨.hbm, 2766, rfl⟩
abbrev main_v2658 : Ref sig .tc := ⟨.hbm, 2767, rfl⟩
abbrev main_v2659 : Ref sig .tc := ⟨.hbm, 2768, rfl⟩
abbrev main_v2660 : Ref sig .tc := ⟨.hbm, 2769, rfl⟩
abbrev main_v2661 : Ref sig .tc := ⟨.hbm, 2770, rfl⟩
abbrev main_v2662 : Ref sig .tc := ⟨.hbm, 2771, rfl⟩
abbrev main_v2663 : Ref sig .tc := ⟨.hbm, 2772, rfl⟩
abbrev main_v2664 : Ref sig .tc := ⟨.hbm, 2773, rfl⟩
abbrev main_v2665 : Ref sig .tc := ⟨.hbm, 2774, rfl⟩
abbrev main_v2666 : Ref sig .tc := ⟨.hbm, 2775, rfl⟩
abbrev main_v2667 : Ref sig .tc := ⟨.hbm, 2776, rfl⟩
abbrev main_v2668 : Ref sig .tc := ⟨.hbm, 2777, rfl⟩
abbrev main_v2669 : Ref sig .tc := ⟨.hbm, 2778, rfl⟩
abbrev main_v2670 : Ref sig .tc := ⟨.hbm, 2779, rfl⟩
abbrev main_v2671 : Ref sig .tc := ⟨.hbm, 2780, rfl⟩
abbrev main_v2672 : Ref sig .tc := ⟨.hbm, 2781, rfl⟩
abbrev main_v2673 : Ref sig .tc := ⟨.hbm, 2782, rfl⟩
abbrev main_v2674 : Ref sig .tc := ⟨.hbm, 2783, rfl⟩
abbrev main_v2675 : Ref sig .tc := ⟨.hbm, 2784, rfl⟩
abbrev main_v2676 : Ref sig .tc := ⟨.hbm, 2785, rfl⟩
abbrev main_v2677 : Ref sig .tc := ⟨.hbm, 2786, rfl⟩
abbrev main_v2678 : Ref sig .tc := ⟨.hbm, 2787, rfl⟩
abbrev main_v2679 : Ref sig .tc := ⟨.hbm, 2788, rfl⟩
abbrev main_v2680 : Ref sig .tc := ⟨.hbm, 2789, rfl⟩
abbrev main_v2681 : Ref sig .tc := ⟨.hbm, 2790, rfl⟩
abbrev main_v2682 : Ref sig .tc := ⟨.hbm, 2791, rfl⟩
abbrev main_v2683 : Ref sig .tc := ⟨.hbm, 2792, rfl⟩
abbrev main_v2684 : Ref sig .tc := ⟨.hbm, 2793, rfl⟩
abbrev main_v2685 : Ref sig .tc := ⟨.hbm, 2794, rfl⟩
abbrev main_v2686 : Ref sig .tc := ⟨.hbm, 2795, rfl⟩
abbrev main_v2687 : Ref sig .tc := ⟨.hbm, 2796, rfl⟩
abbrev main_v2688 : Ref sig .tc := ⟨.hbm, 2797, rfl⟩
abbrev main_v2689 : Ref sig .tc := ⟨.hbm, 2798, rfl⟩
abbrev main_v2690 : Ref sig .tc := ⟨.hbm, 2799, rfl⟩
abbrev main_v2691 : Ref sig .tc := ⟨.hbm, 2800, rfl⟩
abbrev main_v2692 : Ref sig .tc := ⟨.hbm, 2801, rfl⟩
abbrev main_v2693 : Ref sig .tc := ⟨.hbm, 2802, rfl⟩
abbrev main_v2694 : Ref sig .tc := ⟨.hbm, 2803, rfl⟩
abbrev main_v2695 : Ref sig .tc := ⟨.hbm, 2804, rfl⟩
abbrev main_v2696 : Ref sig .tc := ⟨.hbm, 2805, rfl⟩
abbrev main_v2697 : Ref sig .tc := ⟨.hbm, 2806, rfl⟩
abbrev main_cst_101 : Ref sig .tc := ⟨.hbm, 2807, rfl⟩
abbrev main_v2698 : Ref sig .tc := ⟨.hbm, 2808, rfl⟩
abbrev main_v2699 : Ref sig .tc := ⟨.hbm, 2809, rfl⟩
abbrev main_v2700 : Ref sig .tc := ⟨.hbm, 2810, rfl⟩
abbrev main_v2701 : Ref sig .tc := ⟨.hbm, 2811, rfl⟩
abbrev main_v2702 : Ref sig .tc := ⟨.hbm, 2812, rfl⟩
abbrev main_v2703 : Ref sig .tc := ⟨.hbm, 2813, rfl⟩
abbrev main_cst_102 : Ref sig .tc := ⟨.hbm, 2814, rfl⟩
abbrev main_v2704 : Ref sig .tc := ⟨.hbm, 2815, rfl⟩
abbrev main_v2705 : Ref sig .tc := ⟨.hbm, 2816, rfl⟩
abbrev main_v2706 : Ref sig .tc := ⟨.hbm, 2817, rfl⟩
abbrev main_v2707 : Ref sig .tc := ⟨.hbm, 2818, rfl⟩
abbrev main_v2708 : Ref sig .tc := ⟨.hbm, 2819, rfl⟩
abbrev main_v2709 : Ref sig .tc := ⟨.hbm, 2820, rfl⟩
abbrev main_v2710 : Ref sig .tc := ⟨.hbm, 2821, rfl⟩
abbrev main_v2711 : Ref sig .tc := ⟨.hbm, 2822, rfl⟩
abbrev main_v2712 : Ref sig .tc := ⟨.hbm, 2823, rfl⟩
abbrev main_v2713 : Ref sig .tc := ⟨.hbm, 2824, rfl⟩
abbrev main_v2714 : Ref sig .tc := ⟨.hbm, 2825, rfl⟩
abbrev main_v2715 : Ref sig .tc := ⟨.hbm, 2826, rfl⟩
abbrev main_v2716 : Ref sig .tc := ⟨.hbm, 2827, rfl⟩
abbrev main_v2717 : Ref sig .tc := ⟨.hbm, 2828, rfl⟩
abbrev main_v2718 : Ref sig .tc := ⟨.hbm, 2829, rfl⟩
abbrev main_v2719 : Ref sig .tc := ⟨.hbm, 2830, rfl⟩
abbrev main_v2720 : Ref sig .tc := ⟨.hbm, 2831, rfl⟩
abbrev main_v2721 : Ref sig .tc := ⟨.hbm, 2832, rfl⟩
abbrev main_v2722 : Ref sig .tc := ⟨.hbm, 2833, rfl⟩
abbrev main_v2723 : Ref sig .tc := ⟨.hbm, 2834, rfl⟩
abbrev main_v2724 : Ref sig .tc := ⟨.hbm, 2835, rfl⟩
abbrev main_v2725 : Ref sig .tc := ⟨.hbm, 2836, rfl⟩
abbrev main_v2726 : Ref sig .tc := ⟨.hbm, 2837, rfl⟩
abbrev main_v2727 : Ref sig .tc := ⟨.hbm, 2838, rfl⟩
abbrev main_v2728 : Ref sig .tc := ⟨.hbm, 2839, rfl⟩
abbrev main_v2729 : Ref sig .tc := ⟨.hbm, 2840, rfl⟩
abbrev main_v2730 : Ref sig .tc := ⟨.hbm, 2841, rfl⟩
abbrev main_v2731 : Ref sig .tc := ⟨.hbm, 2842, rfl⟩
abbrev main_v2732 : Ref sig .tc := ⟨.hbm, 2843, rfl⟩
abbrev main_v2733 : Ref sig .tc := ⟨.hbm, 2844, rfl⟩
abbrev main_v2734 : Ref sig .tc := ⟨.hbm, 2845, rfl⟩
abbrev main_v2735 : Ref sig .tc := ⟨.hbm, 2846, rfl⟩
abbrev main_v2736 : Ref sig .tc := ⟨.hbm, 2847, rfl⟩
abbrev main_v2737 : Ref sig .tc := ⟨.hbm, 2848, rfl⟩
abbrev main_v2738 : Ref sig .tc := ⟨.hbm, 2849, rfl⟩
abbrev main_v2739 : Ref sig .tc := ⟨.hbm, 2850, rfl⟩
abbrev main_v2740 : Ref sig .tc := ⟨.hbm, 2851, rfl⟩
abbrev main_v2741 : Ref sig .tc := ⟨.hbm, 2852, rfl⟩
abbrev main_v2742 : Ref sig .tc := ⟨.hbm, 2853, rfl⟩
abbrev main_v2743 : Ref sig .tc := ⟨.hbm, 2854, rfl⟩
abbrev main_v2744 : Ref sig .tc := ⟨.hbm, 2855, rfl⟩
abbrev main_v2745 : Ref sig .tc := ⟨.hbm, 2856, rfl⟩
abbrev main_v2746 : Ref sig .tc := ⟨.hbm, 2857, rfl⟩
abbrev main_v2747 : Ref sig .tc := ⟨.hbm, 2858, rfl⟩
abbrev main_v2748 : Ref sig .tc := ⟨.hbm, 2859, rfl⟩
abbrev main_v2749 : Ref sig .tc := ⟨.hbm, 2860, rfl⟩
abbrev main_v2750 : Ref sig .tc := ⟨.hbm, 2861, rfl⟩
abbrev main_v2751 : Ref sig .tc := ⟨.hbm, 2862, rfl⟩
abbrev main_v2752 : Ref sig .tc := ⟨.hbm, 2863, rfl⟩
abbrev main_v2753 : Ref sig .tc := ⟨.hbm, 2864, rfl⟩
abbrev main_v2754 : Ref sig .tc := ⟨.hbm, 2865, rfl⟩
abbrev main_v2755 : Ref sig .tc := ⟨.hbm, 2866, rfl⟩
abbrev main_v2756 : Ref sig .tc := ⟨.hbm, 2867, rfl⟩
abbrev main_v2757 : Ref sig .tc := ⟨.hbm, 2868, rfl⟩
abbrev main_v2758 : Ref sig .tc := ⟨.hbm, 2869, rfl⟩
abbrev main_v2759 : Ref sig .tc := ⟨.hbm, 2870, rfl⟩
abbrev main_v2760 : Ref sig .tc := ⟨.hbm, 2871, rfl⟩
abbrev main_v2761 : Ref sig .tc := ⟨.hbm, 2872, rfl⟩
abbrev main_v2762 : Ref sig .tc := ⟨.hbm, 2873, rfl⟩
abbrev main_v2763 : Ref sig .tc := ⟨.hbm, 2874, rfl⟩
abbrev main_v2764 : Ref sig .tc := ⟨.hbm, 2875, rfl⟩
abbrev main_v2765 : Ref sig .tc := ⟨.hbm, 2876, rfl⟩
abbrev main_v2766 : Ref sig .tc := ⟨.hbm, 2877, rfl⟩
abbrev main_v2767 : Ref sig .tc := ⟨.hbm, 2878, rfl⟩
abbrev main_v2768 : Ref sig .tc := ⟨.hbm, 2879, rfl⟩
abbrev main_v2769 : Ref sig .tc := ⟨.hbm, 2880, rfl⟩
abbrev main_v2770 : Ref sig .tc := ⟨.hbm, 2881, rfl⟩
abbrev main_v2771 : Ref sig .tc := ⟨.hbm, 2882, rfl⟩
abbrev main_v2772 : Ref sig .tc := ⟨.hbm, 2883, rfl⟩
abbrev main_v2773 : Ref sig .tc := ⟨.hbm, 2884, rfl⟩
abbrev main_v2774 : Ref sig .tc := ⟨.hbm, 2885, rfl⟩
abbrev main_v2775 : Ref sig .tc := ⟨.hbm, 2886, rfl⟩
abbrev main_v2776 : Ref sig .tc := ⟨.hbm, 2887, rfl⟩
abbrev main_v2777 : Ref sig .tc := ⟨.hbm, 2888, rfl⟩
abbrev main_v2778 : Ref sig .tc := ⟨.hbm, 2889, rfl⟩
abbrev main_v2779 : Ref sig .tc := ⟨.hbm, 2890, rfl⟩
abbrev main_v2780 : Ref sig .tc := ⟨.hbm, 2891, rfl⟩
abbrev main_v2781 : Ref sig .tc := ⟨.hbm, 2892, rfl⟩
abbrev main_v2782 : Ref sig .tc := ⟨.hbm, 2893, rfl⟩
abbrev main_v2783 : Ref sig .tc := ⟨.hbm, 2894, rfl⟩
abbrev main_v2784 : Ref sig .tc := ⟨.hbm, 2895, rfl⟩
abbrev main_v2785 : Ref sig .tc := ⟨.hbm, 2896, rfl⟩
abbrev main_v2786 : Ref sig .tc := ⟨.hbm, 2897, rfl⟩
abbrev main_v2787 : Ref sig .tc := ⟨.hbm, 2898, rfl⟩
abbrev main_v2788 : Ref sig .tc := ⟨.hbm, 2899, rfl⟩
abbrev main_cst_103 : Ref sig .tc := ⟨.hbm, 2900, rfl⟩
abbrev main_v2789 : Ref sig .tc := ⟨.hbm, 2901, rfl⟩
abbrev main_v2790 : Ref sig .tc := ⟨.hbm, 2902, rfl⟩
abbrev main_v2791 : Ref sig .tc := ⟨.hbm, 2903, rfl⟩
abbrev main_v2792 : Ref sig .tc := ⟨.hbm, 2904, rfl⟩
abbrev main_v2793 : Ref sig .tc := ⟨.hbm, 2905, rfl⟩
abbrev main_v2794 : Ref sig .tc := ⟨.hbm, 2906, rfl⟩
abbrev main_cst_104 : Ref sig .tc := ⟨.hbm, 2907, rfl⟩
abbrev main_v2795 : Ref sig .tc := ⟨.hbm, 2908, rfl⟩
abbrev main_v2796 : Ref sig .tc := ⟨.hbm, 2909, rfl⟩
abbrev main_v2797 : Ref sig .tc := ⟨.hbm, 2910, rfl⟩
abbrev main_v2798 : Ref sig .tc := ⟨.hbm, 2911, rfl⟩
abbrev main_v2799 : Ref sig .tc := ⟨.hbm, 2912, rfl⟩
abbrev main_v2800 : Ref sig .tc := ⟨.hbm, 2913, rfl⟩
abbrev main_v2801 : Ref sig .tc := ⟨.hbm, 2914, rfl⟩
abbrev main_v2802 : Ref sig .tc := ⟨.hbm, 2915, rfl⟩
abbrev main_v2803 : Ref sig .tc := ⟨.hbm, 2916, rfl⟩
abbrev main_v2804 : Ref sig .tc := ⟨.hbm, 2917, rfl⟩
abbrev main_v2805 : Ref sig .tc := ⟨.hbm, 2918, rfl⟩
abbrev main_v2806 : Ref sig .tc := ⟨.hbm, 2919, rfl⟩
abbrev main_v2807 : Ref sig .tc := ⟨.hbm, 2920, rfl⟩
abbrev main_v2808 : Ref sig .tc := ⟨.hbm, 2921, rfl⟩
abbrev main_v2809 : Ref sig .tc := ⟨.hbm, 2922, rfl⟩
abbrev main_v2810 : Ref sig .tc := ⟨.hbm, 2923, rfl⟩
abbrev main_v2811 : Ref sig .tc := ⟨.hbm, 2924, rfl⟩
abbrev main_v2812 : Ref sig .tc := ⟨.hbm, 2925, rfl⟩
abbrev main_v2813 : Ref sig .tc := ⟨.hbm, 2926, rfl⟩
abbrev main_v2814 : Ref sig .tc := ⟨.hbm, 2927, rfl⟩
abbrev main_v2815 : Ref sig .tc := ⟨.hbm, 2928, rfl⟩
abbrev main_v2816 : Ref sig .tc := ⟨.hbm, 2929, rfl⟩
abbrev main_v2817 : Ref sig .tc := ⟨.hbm, 2930, rfl⟩
abbrev main_v2818 : Ref sig .tc := ⟨.hbm, 2931, rfl⟩
abbrev main_v2819 : Ref sig .tc := ⟨.hbm, 2932, rfl⟩
abbrev main_v2820 : Ref sig .tc := ⟨.hbm, 2933, rfl⟩
abbrev main_v2821 : Ref sig .tc := ⟨.hbm, 2934, rfl⟩
abbrev main_v2822 : Ref sig .tc := ⟨.hbm, 2935, rfl⟩
abbrev main_v2823 : Ref sig .tc := ⟨.hbm, 2936, rfl⟩
abbrev main_v2824 : Ref sig .tc := ⟨.hbm, 2937, rfl⟩
abbrev main_v2825 : Ref sig .tc := ⟨.hbm, 2938, rfl⟩
abbrev main_v2826 : Ref sig .tc := ⟨.hbm, 2939, rfl⟩
abbrev main_v2827 : Ref sig .tc := ⟨.hbm, 2940, rfl⟩
abbrev main_v2828 : Ref sig .tc := ⟨.hbm, 2941, rfl⟩
abbrev main_v2829 : Ref sig .tc := ⟨.hbm, 2942, rfl⟩
abbrev main_v2830 : Ref sig .tc := ⟨.hbm, 2943, rfl⟩
abbrev main_v2831 : Ref sig .tc := ⟨.hbm, 2944, rfl⟩
abbrev main_v2832 : Ref sig .tc := ⟨.hbm, 2945, rfl⟩
abbrev main_v2833 : Ref sig .tc := ⟨.hbm, 2946, rfl⟩
abbrev main_v2834 : Ref sig .tc := ⟨.hbm, 2947, rfl⟩
abbrev main_v2835 : Ref sig .tc := ⟨.hbm, 2948, rfl⟩
abbrev main_v2836 : Ref sig .tc := ⟨.hbm, 2949, rfl⟩
abbrev main_v2837 : Ref sig .tc := ⟨.hbm, 2950, rfl⟩
abbrev main_v2838 : Ref sig .tc := ⟨.hbm, 2951, rfl⟩
abbrev main_v2839 : Ref sig .tc := ⟨.hbm, 2952, rfl⟩
abbrev main_v2840 : Ref sig .tc := ⟨.hbm, 2953, rfl⟩
abbrev main_v2841 : Ref sig .tc := ⟨.hbm, 2954, rfl⟩
abbrev main_v2842 : Ref sig .tc := ⟨.hbm, 2955, rfl⟩
abbrev main_v2843 : Ref sig .tc := ⟨.hbm, 2956, rfl⟩
abbrev main_v2844 : Ref sig .tc := ⟨.hbm, 2957, rfl⟩
abbrev main_v2845 : Ref sig .tc := ⟨.hbm, 2958, rfl⟩
abbrev main_v2846 : Ref sig .tc := ⟨.hbm, 2959, rfl⟩
abbrev main_v2847 : Ref sig .tc := ⟨.hbm, 2960, rfl⟩
abbrev main_v2848 : Ref sig .tc := ⟨.hbm, 2961, rfl⟩
abbrev main_v2849 : Ref sig .tc := ⟨.hbm, 2962, rfl⟩
abbrev main_v2850 : Ref sig .tc := ⟨.hbm, 2963, rfl⟩
abbrev main_v2851 : Ref sig .tc := ⟨.hbm, 2964, rfl⟩
abbrev main_v2852 : Ref sig .tc := ⟨.hbm, 2965, rfl⟩
abbrev main_v2853 : Ref sig .tc := ⟨.hbm, 2966, rfl⟩
abbrev main_v2854 : Ref sig .tc := ⟨.hbm, 2967, rfl⟩
abbrev main_v2855 : Ref sig .tc := ⟨.hbm, 2968, rfl⟩
abbrev main_v2856 : Ref sig .tc := ⟨.hbm, 2969, rfl⟩
abbrev main_v2857 : Ref sig .tc := ⟨.hbm, 2970, rfl⟩
abbrev main_v2858 : Ref sig .tc := ⟨.hbm, 2971, rfl⟩
abbrev main_v2859 : Ref sig .tc := ⟨.hbm, 2972, rfl⟩
abbrev main_v2860 : Ref sig .tc := ⟨.hbm, 2973, rfl⟩
abbrev main_v2861 : Ref sig .tc := ⟨.hbm, 2974, rfl⟩
abbrev main_v2862 : Ref sig .tc := ⟨.hbm, 2975, rfl⟩
abbrev main_v2863 : Ref sig .tc := ⟨.hbm, 2976, rfl⟩
abbrev main_v2864 : Ref sig .tc := ⟨.hbm, 2977, rfl⟩
abbrev main_v2865 : Ref sig .tc := ⟨.hbm, 2978, rfl⟩
abbrev main_v2866 : Ref sig .tc := ⟨.hbm, 2979, rfl⟩
abbrev main_v2867 : Ref sig .tc := ⟨.hbm, 2980, rfl⟩
abbrev main_v2868 : Ref sig .tc := ⟨.hbm, 2981, rfl⟩
abbrev main_v2869 : Ref sig .tc := ⟨.hbm, 2982, rfl⟩
abbrev main_v2870 : Ref sig .tc := ⟨.hbm, 2983, rfl⟩
abbrev main_v2871 : Ref sig .tc := ⟨.hbm, 2984, rfl⟩
abbrev main_v2872 : Ref sig .tc := ⟨.hbm, 2985, rfl⟩
abbrev main_v2873 : Ref sig .tc := ⟨.hbm, 2986, rfl⟩
abbrev main_v2874 : Ref sig .tc := ⟨.hbm, 2987, rfl⟩
abbrev main_v2875 : Ref sig .tc := ⟨.hbm, 2988, rfl⟩
abbrev main_v2876 : Ref sig .tc := ⟨.hbm, 2989, rfl⟩
abbrev main_v2877 : Ref sig .tc := ⟨.hbm, 2990, rfl⟩
abbrev main_v2878 : Ref sig .tc := ⟨.hbm, 2991, rfl⟩
abbrev main_v2879 : Ref sig .tc := ⟨.hbm, 2992, rfl⟩
abbrev main_v2880 : Ref sig .tc := ⟨.hbm, 2993, rfl⟩
abbrev main_v2881 : Ref sig .tc := ⟨.hbm, 2994, rfl⟩
abbrev main_v2882 : Ref sig .tc := ⟨.hbm, 2995, rfl⟩
abbrev main_cst_105 : Ref sig .tc := ⟨.hbm, 2996, rfl⟩
abbrev main_v2883 : Ref sig .tc := ⟨.hbm, 2997, rfl⟩
abbrev main_v2884 : Ref sig .tc := ⟨.hbm, 2998, rfl⟩
abbrev main_v2885 : Ref sig .tc := ⟨.hbm, 2999, rfl⟩
abbrev main_v2886 : Ref sig .tc := ⟨.hbm, 3000, rfl⟩
abbrev main_v2887 : Ref sig .tc := ⟨.hbm, 3001, rfl⟩
abbrev main_v2888 : Ref sig .tc := ⟨.hbm, 3002, rfl⟩
abbrev main_cst_106 : Ref sig .tc := ⟨.hbm, 3003, rfl⟩
abbrev main_v2889 : Ref sig .tc := ⟨.hbm, 3004, rfl⟩
abbrev main_v2890 : Ref sig .tc := ⟨.hbm, 3005, rfl⟩
abbrev main_v2891 : Ref sig .tc := ⟨.hbm, 3006, rfl⟩
abbrev main_v2892 : Ref sig .tc := ⟨.hbm, 3007, rfl⟩
abbrev main_v2893 : Ref sig .tc := ⟨.hbm, 3008, rfl⟩
abbrev main_v2894 : Ref sig .tc := ⟨.hbm, 3009, rfl⟩
abbrev main_v2895 : Ref sig .tc := ⟨.hbm, 3010, rfl⟩
abbrev main_v2896 : Ref sig .tc := ⟨.hbm, 3011, rfl⟩
abbrev main_v2897 : Ref sig .tc := ⟨.hbm, 3012, rfl⟩
abbrev main_v2898 : Ref sig .tc := ⟨.hbm, 3013, rfl⟩
abbrev main_v2899 : Ref sig .tc := ⟨.hbm, 3014, rfl⟩
abbrev main_v2900 : Ref sig .tc := ⟨.hbm, 3015, rfl⟩
abbrev main_v2901 : Ref sig .tc := ⟨.hbm, 3016, rfl⟩
abbrev main_v2902 : Ref sig .tc := ⟨.hbm, 3017, rfl⟩
abbrev main_v2903 : Ref sig .tc := ⟨.hbm, 3018, rfl⟩
abbrev main_v2904 : Ref sig .tc := ⟨.hbm, 3019, rfl⟩
abbrev main_v2905 : Ref sig .tc := ⟨.hbm, 3020, rfl⟩
abbrev main_v2906 : Ref sig .tc := ⟨.hbm, 3021, rfl⟩
abbrev main_v2907 : Ref sig .tc := ⟨.hbm, 3022, rfl⟩
abbrev main_v2908 : Ref sig .tc := ⟨.hbm, 3023, rfl⟩
abbrev main_v2909 : Ref sig .tc := ⟨.hbm, 3024, rfl⟩
abbrev main_v2910 : Ref sig .tc := ⟨.hbm, 3025, rfl⟩
abbrev main_v2911 : Ref sig .tc := ⟨.hbm, 3026, rfl⟩
abbrev main_v2912 : Ref sig .tc := ⟨.hbm, 3027, rfl⟩
abbrev main_v2913 : Ref sig .tc := ⟨.hbm, 3028, rfl⟩
abbrev main_v2914 : Ref sig .tc := ⟨.hbm, 3029, rfl⟩
abbrev main_v2915 : Ref sig .tc := ⟨.hbm, 3030, rfl⟩
abbrev main_v2916 : Ref sig .tc := ⟨.hbm, 3031, rfl⟩
abbrev main_v2917 : Ref sig .tc := ⟨.hbm, 3032, rfl⟩
abbrev main_v2918 : Ref sig .tc := ⟨.hbm, 3033, rfl⟩
abbrev main_v2919 : Ref sig .tc := ⟨.hbm, 3034, rfl⟩
abbrev main_v2920 : Ref sig .tc := ⟨.hbm, 3035, rfl⟩
abbrev main_v2921 : Ref sig .tc := ⟨.hbm, 3036, rfl⟩
abbrev main_v2922 : Ref sig .tc := ⟨.hbm, 3037, rfl⟩
abbrev main_v2923 : Ref sig .tc := ⟨.hbm, 3038, rfl⟩
abbrev main_v2924 : Ref sig .tc := ⟨.hbm, 3039, rfl⟩
abbrev main_v2925 : Ref sig .tc := ⟨.hbm, 3040, rfl⟩
abbrev main_v2926 : Ref sig .tc := ⟨.hbm, 3041, rfl⟩
abbrev main_v2927 : Ref sig .tc := ⟨.hbm, 3042, rfl⟩
abbrev main_v2928 : Ref sig .tc := ⟨.hbm, 3043, rfl⟩
abbrev main_v2929 : Ref sig .tc := ⟨.hbm, 3044, rfl⟩
abbrev main_v2930 : Ref sig .tc := ⟨.hbm, 3045, rfl⟩
abbrev main_v2931 : Ref sig .tc := ⟨.hbm, 3046, rfl⟩
abbrev main_v2932 : Ref sig .tc := ⟨.hbm, 3047, rfl⟩
abbrev main_v2933 : Ref sig .tc := ⟨.hbm, 3048, rfl⟩
abbrev main_v2934 : Ref sig .tc := ⟨.hbm, 3049, rfl⟩
abbrev main_v2935 : Ref sig .tc := ⟨.hbm, 3050, rfl⟩
abbrev main_v2936 : Ref sig .tc := ⟨.hbm, 3051, rfl⟩
abbrev main_v2937 : Ref sig .tc := ⟨.hbm, 3052, rfl⟩
abbrev main_v2938 : Ref sig .tc := ⟨.hbm, 3053, rfl⟩
abbrev main_v2939 : Ref sig .tc := ⟨.hbm, 3054, rfl⟩
abbrev main_v2940 : Ref sig .tc := ⟨.hbm, 3055, rfl⟩
abbrev main_v2941 : Ref sig .tc := ⟨.hbm, 3056, rfl⟩
abbrev main_v2942 : Ref sig .tc := ⟨.hbm, 3057, rfl⟩
abbrev main_v2943 : Ref sig .tc := ⟨.hbm, 3058, rfl⟩
abbrev main_v2944 : Ref sig .tc := ⟨.hbm, 3059, rfl⟩
abbrev main_v2945 : Ref sig .tc := ⟨.hbm, 3060, rfl⟩
abbrev main_v2946 : Ref sig .tc := ⟨.hbm, 3061, rfl⟩
abbrev main_v2947 : Ref sig .tc := ⟨.hbm, 3062, rfl⟩
abbrev main_v2948 : Ref sig .tc := ⟨.hbm, 3063, rfl⟩
abbrev main_v2949 : Ref sig .tc := ⟨.hbm, 3064, rfl⟩
abbrev main_v2950 : Ref sig .tc := ⟨.hbm, 3065, rfl⟩
abbrev main_v2951 : Ref sig .tc := ⟨.hbm, 3066, rfl⟩
abbrev main_v2952 : Ref sig .tc := ⟨.hbm, 3067, rfl⟩
abbrev main_v2953 : Ref sig .tc := ⟨.hbm, 3068, rfl⟩
abbrev main_v2954 : Ref sig .tc := ⟨.hbm, 3069, rfl⟩
abbrev main_v2955 : Ref sig .tc := ⟨.hbm, 3070, rfl⟩
abbrev main_v2956 : Ref sig .tc := ⟨.hbm, 3071, rfl⟩
abbrev main_v2957 : Ref sig .tc := ⟨.hbm, 3072, rfl⟩
abbrev main_v2958 : Ref sig .tc := ⟨.hbm, 3073, rfl⟩
abbrev main_v2959 : Ref sig .tc := ⟨.hbm, 3074, rfl⟩
abbrev main_v2960 : Ref sig .tc := ⟨.hbm, 3075, rfl⟩
abbrev main_v2961 : Ref sig .tc := ⟨.hbm, 3076, rfl⟩
abbrev main_v2962 : Ref sig .tc := ⟨.hbm, 3077, rfl⟩
abbrev main_v2963 : Ref sig .tc := ⟨.hbm, 3078, rfl⟩
abbrev main_v2964 : Ref sig .tc := ⟨.hbm, 3079, rfl⟩
abbrev main_v2965 : Ref sig .tc := ⟨.hbm, 3080, rfl⟩
abbrev main_v2966 : Ref sig .tc := ⟨.hbm, 3081, rfl⟩
abbrev main_v2967 : Ref sig .tc := ⟨.hbm, 3082, rfl⟩
abbrev main_v2968 : Ref sig .tc := ⟨.hbm, 3083, rfl⟩
abbrev main_v2969 : Ref sig .tc := ⟨.hbm, 3084, rfl⟩
abbrev main_v2970 : Ref sig .tc := ⟨.hbm, 3085, rfl⟩
abbrev main_v2971 : Ref sig .tc := ⟨.hbm, 3086, rfl⟩
abbrev main_v2972 : Ref sig .tc := ⟨.hbm, 3087, rfl⟩
abbrev main_v2973 : Ref sig .tc := ⟨.hbm, 3088, rfl⟩
abbrev main_v2974 : Ref sig .tc := ⟨.hbm, 3089, rfl⟩
abbrev main_v2975 : Ref sig .tc := ⟨.hbm, 3090, rfl⟩
abbrev main_v2976 : Ref sig .tc := ⟨.hbm, 3091, rfl⟩
abbrev main_cst_107 : Ref sig .tc := ⟨.hbm, 3092, rfl⟩
abbrev main_v2977 : Ref sig .tc := ⟨.hbm, 3093, rfl⟩
abbrev main_v2978 : Ref sig .tc := ⟨.hbm, 3094, rfl⟩
abbrev main_v2979 : Ref sig .tc := ⟨.hbm, 3095, rfl⟩
abbrev main_v2980 : Ref sig .tc := ⟨.hbm, 3096, rfl⟩
abbrev main_v2981 : Ref sig .tc := ⟨.hbm, 3097, rfl⟩
abbrev main_v2982 : Ref sig .tc := ⟨.hbm, 3098, rfl⟩
abbrev main_cst_108 : Ref sig .tc := ⟨.hbm, 3099, rfl⟩
abbrev main_v2983 : Ref sig .tc := ⟨.hbm, 3100, rfl⟩
abbrev main_v2984 : Ref sig .tc := ⟨.hbm, 3101, rfl⟩
abbrev main_v2985 : Ref sig .tc := ⟨.hbm, 3102, rfl⟩
abbrev main_v2986 : Ref sig .tc := ⟨.hbm, 3103, rfl⟩
abbrev main_v2987 : Ref sig .tc := ⟨.hbm, 3104, rfl⟩
abbrev main_v2988 : Ref sig .tc := ⟨.hbm, 3105, rfl⟩
abbrev main_v2989 : Ref sig .tc := ⟨.hbm, 3106, rfl⟩
abbrev main_v2990 : Ref sig .tc := ⟨.hbm, 3107, rfl⟩
abbrev main_v2991 : Ref sig .tc := ⟨.hbm, 3108, rfl⟩
abbrev main_v2992 : Ref sig .tc := ⟨.hbm, 3109, rfl⟩
abbrev main_v2993 : Ref sig .tc := ⟨.hbm, 3110, rfl⟩
abbrev main_v2994 : Ref sig .tc := ⟨.hbm, 3111, rfl⟩
abbrev main_v2995 : Ref sig .tc := ⟨.hbm, 3112, rfl⟩
abbrev main_v2996 : Ref sig .tc := ⟨.hbm, 3113, rfl⟩
abbrev main_v2997 : Ref sig .tc := ⟨.hbm, 3114, rfl⟩
abbrev main_v2998 : Ref sig .tc := ⟨.hbm, 3115, rfl⟩
abbrev main_v2999 : Ref sig .tc := ⟨.hbm, 3116, rfl⟩
abbrev main_v3000 : Ref sig .tc := ⟨.hbm, 3117, rfl⟩
abbrev main_v3001 : Ref sig .tc := ⟨.hbm, 3118, rfl⟩
abbrev main_v3002 : Ref sig .tc := ⟨.hbm, 3119, rfl⟩
abbrev main_v3003 : Ref sig .tc := ⟨.hbm, 3120, rfl⟩
abbrev main_v3004 : Ref sig .tc := ⟨.hbm, 3121, rfl⟩
abbrev main_v3005 : Ref sig .tc := ⟨.hbm, 3122, rfl⟩
abbrev main_v3006 : Ref sig .tc := ⟨.hbm, 3123, rfl⟩
abbrev main_v3007 : Ref sig .tc := ⟨.hbm, 3124, rfl⟩
abbrev main_v3008 : Ref sig .tc := ⟨.hbm, 3125, rfl⟩
abbrev main_v3009 : Ref sig .tc := ⟨.hbm, 3126, rfl⟩
abbrev main_v3010 : Ref sig .tc := ⟨.hbm, 3127, rfl⟩
abbrev main_v3011 : Ref sig .tc := ⟨.hbm, 3128, rfl⟩
abbrev main_v3012 : Ref sig .tc := ⟨.hbm, 3129, rfl⟩
abbrev main_v3013 : Ref sig .tc := ⟨.hbm, 3130, rfl⟩
abbrev main_v3014 : Ref sig .tc := ⟨.hbm, 3131, rfl⟩
abbrev main_v3015 : Ref sig .tc := ⟨.hbm, 3132, rfl⟩
abbrev main_v3016 : Ref sig .tc := ⟨.hbm, 3133, rfl⟩
abbrev main_v3017 : Ref sig .tc := ⟨.hbm, 3134, rfl⟩
abbrev main_v3018 : Ref sig .tc := ⟨.hbm, 3135, rfl⟩
abbrev main_v3019 : Ref sig .tc := ⟨.hbm, 3136, rfl⟩
abbrev main_v3020 : Ref sig .tc := ⟨.hbm, 3137, rfl⟩
abbrev main_v3021 : Ref sig .tc := ⟨.hbm, 3138, rfl⟩
abbrev main_v3022 : Ref sig .tc := ⟨.hbm, 3139, rfl⟩
abbrev main_v3023 : Ref sig .tc := ⟨.hbm, 3140, rfl⟩
abbrev main_v3024 : Ref sig .tc := ⟨.hbm, 3141, rfl⟩
abbrev main_v3025 : Ref sig .tc := ⟨.hbm, 3142, rfl⟩
abbrev main_v3026 : Ref sig .tc := ⟨.hbm, 3143, rfl⟩
abbrev main_v3027 : Ref sig .tc := ⟨.hbm, 3144, rfl⟩
abbrev main_v3028 : Ref sig .tc := ⟨.hbm, 3145, rfl⟩
abbrev main_v3029 : Ref sig .tc := ⟨.hbm, 3146, rfl⟩
abbrev main_v3030 : Ref sig .tc := ⟨.hbm, 3147, rfl⟩
abbrev main_v3031 : Ref sig .tc := ⟨.hbm, 3148, rfl⟩
abbrev main_v3032 : Ref sig .tc := ⟨.hbm, 3149, rfl⟩
abbrev main_v3033 : Ref sig .tc := ⟨.hbm, 3150, rfl⟩
abbrev main_v3034 : Ref sig .tc := ⟨.hbm, 3151, rfl⟩
abbrev main_v3035 : Ref sig .tc := ⟨.hbm, 3152, rfl⟩
abbrev main_v3036 : Ref sig .tc := ⟨.hbm, 3153, rfl⟩
abbrev main_v3037 : Ref sig .tc := ⟨.hbm, 3154, rfl⟩
abbrev main_v3038 : Ref sig .tc := ⟨.hbm, 3155, rfl⟩
abbrev main_v3039 : Ref sig .tc := ⟨.hbm, 3156, rfl⟩
abbrev main_v3040 : Ref sig .tc := ⟨.hbm, 3157, rfl⟩
abbrev main_v3041 : Ref sig .tc := ⟨.hbm, 3158, rfl⟩
abbrev main_v3042 : Ref sig .tc := ⟨.hbm, 3159, rfl⟩
abbrev main_v3043 : Ref sig .tc := ⟨.hbm, 3160, rfl⟩
abbrev main_v3044 : Ref sig .tc := ⟨.hbm, 3161, rfl⟩
abbrev main_v3045 : Ref sig .tc := ⟨.hbm, 3162, rfl⟩
abbrev main_v3046 : Ref sig .tc := ⟨.hbm, 3163, rfl⟩
abbrev main_v3047 : Ref sig .tc := ⟨.hbm, 3164, rfl⟩
abbrev main_v3048 : Ref sig .tc := ⟨.hbm, 3165, rfl⟩
abbrev main_v3049 : Ref sig .tc := ⟨.hbm, 3166, rfl⟩
abbrev main_v3050 : Ref sig .tc := ⟨.hbm, 3167, rfl⟩
abbrev main_v3051 : Ref sig .tc := ⟨.hbm, 3168, rfl⟩
abbrev main_v3052 : Ref sig .tc := ⟨.hbm, 3169, rfl⟩
abbrev main_v3053 : Ref sig .tc := ⟨.hbm, 3170, rfl⟩
abbrev main_v3054 : Ref sig .tc := ⟨.hbm, 3171, rfl⟩
abbrev main_v3055 : Ref sig .tc := ⟨.hbm, 3172, rfl⟩
abbrev main_v3056 : Ref sig .tc := ⟨.hbm, 3173, rfl⟩
abbrev main_v3057 : Ref sig .tc := ⟨.hbm, 3174, rfl⟩
abbrev main_v3058 : Ref sig .tc := ⟨.hbm, 3175, rfl⟩
abbrev main_v3059 : Ref sig .tc := ⟨.hbm, 3176, rfl⟩
abbrev main_v3060 : Ref sig .tc := ⟨.hbm, 3177, rfl⟩
abbrev main_v3061 : Ref sig .tc := ⟨.hbm, 3178, rfl⟩
abbrev main_v3062 : Ref sig .tc := ⟨.hbm, 3179, rfl⟩
abbrev main_v3063 : Ref sig .tc := ⟨.hbm, 3180, rfl⟩
abbrev main_v3064 : Ref sig .tc := ⟨.hbm, 3181, rfl⟩
abbrev main_v3065 : Ref sig .tc := ⟨.hbm, 3182, rfl⟩
abbrev main_v3066 : Ref sig .tc := ⟨.hbm, 3183, rfl⟩
abbrev main_v3067 : Ref sig .tc := ⟨.hbm, 3184, rfl⟩
abbrev main_v3068 : Ref sig .tc := ⟨.hbm, 3185, rfl⟩
abbrev main_v3069 : Ref sig .tc := ⟨.hbm, 3186, rfl⟩
abbrev main_v3070 : Ref sig .tc := ⟨.hbm, 3187, rfl⟩
abbrev main_v3071 : Ref sig .tc := ⟨.hbm, 3188, rfl⟩
abbrev main_v3072 : Ref sig .tc := ⟨.hbm, 3189, rfl⟩
abbrev main_v3073 : Ref sig .tc := ⟨.hbm, 3190, rfl⟩
abbrev main_cst_109 : Ref sig .tc := ⟨.hbm, 3191, rfl⟩
abbrev main_v3074 : Ref sig .tc := ⟨.hbm, 3192, rfl⟩
abbrev main_v3075 : Ref sig .tc := ⟨.hbm, 3193, rfl⟩
abbrev main_v3076 : Ref sig .tc := ⟨.hbm, 3194, rfl⟩
abbrev main_v3077 : Ref sig .tc := ⟨.hbm, 3195, rfl⟩
abbrev main_v3078 : Ref sig .tc := ⟨.hbm, 3196, rfl⟩
abbrev main_v3079 : Ref sig .tc := ⟨.hbm, 3197, rfl⟩
abbrev main_cst_110 : Ref sig .tc := ⟨.hbm, 3198, rfl⟩
abbrev main_v3080 : Ref sig .tc := ⟨.hbm, 3199, rfl⟩
abbrev main_v3081 : Ref sig .tc := ⟨.hbm, 3200, rfl⟩
abbrev main_v3082 : Ref sig .tc := ⟨.hbm, 3201, rfl⟩
abbrev main_v3083 : Ref sig .tc := ⟨.hbm, 3202, rfl⟩
abbrev main_v3084 : Ref sig .tc := ⟨.hbm, 3203, rfl⟩
abbrev main_v3085 : Ref sig .tc := ⟨.hbm, 3204, rfl⟩
abbrev main_v3086 : Ref sig .tc := ⟨.hbm, 3205, rfl⟩
abbrev main_v3087 : Ref sig .tc := ⟨.hbm, 3206, rfl⟩
abbrev main_v3088 : Ref sig .tc := ⟨.hbm, 3207, rfl⟩
abbrev main_v3089 : Ref sig .tc := ⟨.hbm, 3208, rfl⟩
abbrev main_v3090 : Ref sig .tc := ⟨.hbm, 3209, rfl⟩
abbrev main_v3091 : Ref sig .tc := ⟨.hbm, 3210, rfl⟩
abbrev main_v3092 : Ref sig .tc := ⟨.hbm, 3211, rfl⟩
abbrev main_v3093 : Ref sig .tc := ⟨.hbm, 3212, rfl⟩
abbrev main_v3094 : Ref sig .tc := ⟨.hbm, 3213, rfl⟩
abbrev main_v3095 : Ref sig .tc := ⟨.hbm, 3214, rfl⟩
abbrev main_v3096 : Ref sig .tc := ⟨.hbm, 3215, rfl⟩
abbrev main_v3097 : Ref sig .tc := ⟨.hbm, 3216, rfl⟩
abbrev main_v3098 : Ref sig .tc := ⟨.hbm, 3217, rfl⟩
abbrev main_v3099 : Ref sig .tc := ⟨.hbm, 3218, rfl⟩
abbrev main_v3100 : Ref sig .tc := ⟨.hbm, 3219, rfl⟩
abbrev main_v3101 : Ref sig .tc := ⟨.hbm, 3220, rfl⟩
abbrev main_v3102 : Ref sig .tc := ⟨.hbm, 3221, rfl⟩
abbrev main_v3103 : Ref sig .tc := ⟨.hbm, 3222, rfl⟩
abbrev main_v3104 : Ref sig .tc := ⟨.hbm, 3223, rfl⟩
abbrev main_v3105 : Ref sig .tc := ⟨.hbm, 3224, rfl⟩
abbrev main_v3106 : Ref sig .tc := ⟨.hbm, 3225, rfl⟩
abbrev main_v3107 : Ref sig .tc := ⟨.hbm, 3226, rfl⟩
abbrev main_v3108 : Ref sig .tc := ⟨.hbm, 3227, rfl⟩
abbrev main_v3109 : Ref sig .tc := ⟨.hbm, 3228, rfl⟩
abbrev main_v3110 : Ref sig .tc := ⟨.hbm, 3229, rfl⟩
abbrev main_v3111 : Ref sig .tc := ⟨.hbm, 3230, rfl⟩
abbrev main_v3112 : Ref sig .tc := ⟨.hbm, 3231, rfl⟩
abbrev main_v3113 : Ref sig .tc := ⟨.hbm, 3232, rfl⟩
abbrev main_v3114 : Ref sig .tc := ⟨.hbm, 3233, rfl⟩
abbrev main_v3115 : Ref sig .tc := ⟨.hbm, 3234, rfl⟩
abbrev main_v3116 : Ref sig .tc := ⟨.hbm, 3235, rfl⟩
abbrev main_v3117 : Ref sig .tc := ⟨.hbm, 3236, rfl⟩
abbrev main_v3118 : Ref sig .tc := ⟨.hbm, 3237, rfl⟩
abbrev main_v3119 : Ref sig .tc := ⟨.hbm, 3238, rfl⟩
abbrev main_v3120 : Ref sig .tc := ⟨.hbm, 3239, rfl⟩
abbrev main_v3121 : Ref sig .tc := ⟨.hbm, 3240, rfl⟩
abbrev main_v3122 : Ref sig .tc := ⟨.hbm, 3241, rfl⟩
abbrev main_v3123 : Ref sig .tc := ⟨.hbm, 3242, rfl⟩
abbrev main_v3124 : Ref sig .tc := ⟨.hbm, 3243, rfl⟩
abbrev main_v3125 : Ref sig .tc := ⟨.hbm, 3244, rfl⟩
abbrev main_v3126 : Ref sig .tc := ⟨.hbm, 3245, rfl⟩
abbrev main_v3127 : Ref sig .tc := ⟨.hbm, 3246, rfl⟩
abbrev main_v3128 : Ref sig .tc := ⟨.hbm, 3247, rfl⟩
abbrev main_v3129 : Ref sig .tc := ⟨.hbm, 3248, rfl⟩
abbrev main_v3130 : Ref sig .tc := ⟨.hbm, 3249, rfl⟩
abbrev main_v3131 : Ref sig .tc := ⟨.hbm, 3250, rfl⟩
abbrev main_v3132 : Ref sig .tc := ⟨.hbm, 3251, rfl⟩
abbrev main_v3133 : Ref sig .tc := ⟨.hbm, 3252, rfl⟩
abbrev main_v3134 : Ref sig .tc := ⟨.hbm, 3253, rfl⟩
abbrev main_v3135 : Ref sig .tc := ⟨.hbm, 3254, rfl⟩
abbrev main_v3136 : Ref sig .tc := ⟨.hbm, 3255, rfl⟩
abbrev main_v3137 : Ref sig .tc := ⟨.hbm, 3256, rfl⟩
abbrev main_v3138 : Ref sig .tc := ⟨.hbm, 3257, rfl⟩
abbrev main_v3139 : Ref sig .tc := ⟨.hbm, 3258, rfl⟩
abbrev main_v3140 : Ref sig .tc := ⟨.hbm, 3259, rfl⟩
abbrev main_v3141 : Ref sig .tc := ⟨.hbm, 3260, rfl⟩
abbrev main_v3142 : Ref sig .tc := ⟨.hbm, 3261, rfl⟩
abbrev main_v3143 : Ref sig .tc := ⟨.hbm, 3262, rfl⟩
abbrev main_v3144 : Ref sig .tc := ⟨.hbm, 3263, rfl⟩
abbrev main_v3145 : Ref sig .tc := ⟨.hbm, 3264, rfl⟩
abbrev main_v3146 : Ref sig .tc := ⟨.hbm, 3265, rfl⟩
abbrev main_v3147 : Ref sig .tc := ⟨.hbm, 3266, rfl⟩
abbrev main_v3148 : Ref sig .tc := ⟨.hbm, 3267, rfl⟩
abbrev main_v3149 : Ref sig .tc := ⟨.hbm, 3268, rfl⟩
abbrev main_v3150 : Ref sig .tc := ⟨.hbm, 3269, rfl⟩
abbrev main_v3151 : Ref sig .tc := ⟨.hbm, 3270, rfl⟩
abbrev main_v3152 : Ref sig .tc := ⟨.hbm, 3271, rfl⟩
abbrev main_v3153 : Ref sig .tc := ⟨.hbm, 3272, rfl⟩
abbrev main_v3154 : Ref sig .tc := ⟨.hbm, 3273, rfl⟩
abbrev main_v3155 : Ref sig .tc := ⟨.hbm, 3274, rfl⟩
abbrev main_v3156 : Ref sig .tc := ⟨.hbm, 3275, rfl⟩
abbrev main_v3157 : Ref sig .tc := ⟨.hbm, 3276, rfl⟩
abbrev main_v3158 : Ref sig .tc := ⟨.hbm, 3277, rfl⟩
abbrev main_v3159 : Ref sig .tc := ⟨.hbm, 3278, rfl⟩
abbrev main_v3160 : Ref sig .tc := ⟨.hbm, 3279, rfl⟩
abbrev main_v3161 : Ref sig .tc := ⟨.hbm, 3280, rfl⟩
abbrev main_v3162 : Ref sig .tc := ⟨.hbm, 3281, rfl⟩
abbrev main_v3163 : Ref sig .tc := ⟨.hbm, 3282, rfl⟩
abbrev main_v3164 : Ref sig .tc := ⟨.hbm, 3283, rfl⟩
abbrev main_v3165 : Ref sig .tc := ⟨.hbm, 3284, rfl⟩
abbrev main_v3166 : Ref sig .tc := ⟨.hbm, 3285, rfl⟩
abbrev main_v3167 : Ref sig .tc := ⟨.hbm, 3286, rfl⟩
abbrev main_v3168 : Ref sig .tc := ⟨.hbm, 3287, rfl⟩
abbrev main_v3169 : Ref sig .tc := ⟨.hbm, 3288, rfl⟩
abbrev main_v3170 : Ref sig .tc := ⟨.hbm, 3289, rfl⟩
abbrev main_cst_111 : Ref sig .tc := ⟨.hbm, 3290, rfl⟩
abbrev main_v3171 : Ref sig .tc := ⟨.hbm, 3291, rfl⟩
abbrev main_v3172 : Ref sig .tc := ⟨.hbm, 3292, rfl⟩
abbrev main_v3173 : Ref sig .tc := ⟨.hbm, 3293, rfl⟩
abbrev main_v3174 : Ref sig .tc := ⟨.hbm, 3294, rfl⟩
abbrev main_v3175 : Ref sig .tc := ⟨.hbm, 3295, rfl⟩
abbrev main_v3176 : Ref sig .tc := ⟨.hbm, 3296, rfl⟩
abbrev main_cst_112 : Ref sig .tc := ⟨.hbm, 3297, rfl⟩
abbrev main_v3177 : Ref sig .tc := ⟨.hbm, 3298, rfl⟩
abbrev main_v3178 : Ref sig .tc := ⟨.hbm, 3299, rfl⟩
abbrev main_v3179 : Ref sig .tc := ⟨.hbm, 3300, rfl⟩
abbrev main_v3180 : Ref sig .tc := ⟨.hbm, 3301, rfl⟩
abbrev main_v3181 : Ref sig .tc := ⟨.hbm, 3302, rfl⟩
abbrev main_v3182 : Ref sig .tc := ⟨.hbm, 3303, rfl⟩
abbrev main_v3183 : Ref sig .tc := ⟨.hbm, 3304, rfl⟩
abbrev main_v3184 : Ref sig .tc := ⟨.hbm, 3305, rfl⟩
abbrev main_v3185 : Ref sig .tc := ⟨.hbm, 3306, rfl⟩
abbrev main_v3186 : Ref sig .tc := ⟨.hbm, 3307, rfl⟩
abbrev main_v3187 : Ref sig .tc := ⟨.hbm, 3308, rfl⟩
abbrev main_v3188 : Ref sig .tc := ⟨.hbm, 3309, rfl⟩
abbrev main_v3189 : Ref sig .tc := ⟨.hbm, 3310, rfl⟩
abbrev main_v3190 : Ref sig .tc := ⟨.hbm, 3311, rfl⟩
abbrev main_v3191 : Ref sig .tc := ⟨.hbm, 3312, rfl⟩
abbrev main_v3192 : Ref sig .tc := ⟨.hbm, 3313, rfl⟩
abbrev main_v3193 : Ref sig .tc := ⟨.hbm, 3314, rfl⟩
abbrev main_v3194 : Ref sig .tc := ⟨.hbm, 3315, rfl⟩
abbrev main_v3195 : Ref sig .tc := ⟨.hbm, 3316, rfl⟩
abbrev main_v3196 : Ref sig .tc := ⟨.hbm, 3317, rfl⟩
abbrev main_v3197 : Ref sig .tc := ⟨.hbm, 3318, rfl⟩
abbrev main_v3198 : Ref sig .tc := ⟨.hbm, 3319, rfl⟩
abbrev main_v3199 : Ref sig .tc := ⟨.hbm, 3320, rfl⟩
abbrev main_v3200 : Ref sig .tc := ⟨.hbm, 3321, rfl⟩
abbrev main_v3201 : Ref sig .tc := ⟨.hbm, 3322, rfl⟩
abbrev main_v3202 : Ref sig .tc := ⟨.hbm, 3323, rfl⟩
abbrev main_v3203 : Ref sig .tc := ⟨.hbm, 3324, rfl⟩
abbrev main_v3204 : Ref sig .tc := ⟨.hbm, 3325, rfl⟩
abbrev main_v3205 : Ref sig .tc := ⟨.hbm, 3326, rfl⟩
abbrev main_v3206 : Ref sig .tc := ⟨.hbm, 3327, rfl⟩
abbrev main_v3207 : Ref sig .tc := ⟨.hbm, 3328, rfl⟩
abbrev main_v3208 : Ref sig .tc := ⟨.hbm, 3329, rfl⟩
abbrev main_v3209 : Ref sig .tc := ⟨.hbm, 3330, rfl⟩
abbrev main_v3210 : Ref sig .tc := ⟨.hbm, 3331, rfl⟩
abbrev main_v3211 : Ref sig .tc := ⟨.hbm, 3332, rfl⟩
abbrev main_v3212 : Ref sig .tc := ⟨.hbm, 3333, rfl⟩
abbrev main_v3213 : Ref sig .tc := ⟨.hbm, 3334, rfl⟩
abbrev main_v3214 : Ref sig .tc := ⟨.hbm, 3335, rfl⟩
abbrev main_v3215 : Ref sig .tc := ⟨.hbm, 3336, rfl⟩
abbrev main_v3216 : Ref sig .tc := ⟨.hbm, 3337, rfl⟩
abbrev main_v3217 : Ref sig .tc := ⟨.hbm, 3338, rfl⟩
abbrev main_v3218 : Ref sig .tc := ⟨.hbm, 3339, rfl⟩
abbrev main_v3219 : Ref sig .tc := ⟨.hbm, 3340, rfl⟩
abbrev main_v3220 : Ref sig .tc := ⟨.hbm, 3341, rfl⟩
abbrev main_v3221 : Ref sig .tc := ⟨.hbm, 3342, rfl⟩
abbrev main_v3222 : Ref sig .tc := ⟨.hbm, 3343, rfl⟩
abbrev main_v3223 : Ref sig .tc := ⟨.hbm, 3344, rfl⟩
abbrev main_v3224 : Ref sig .tc := ⟨.hbm, 3345, rfl⟩
abbrev main_v3225 : Ref sig .tc := ⟨.hbm, 3346, rfl⟩
abbrev main_v3226 : Ref sig .tc := ⟨.hbm, 3347, rfl⟩
abbrev main_v3227 : Ref sig .tc := ⟨.hbm, 3348, rfl⟩
abbrev main_v3228 : Ref sig .tc := ⟨.hbm, 3349, rfl⟩
abbrev main_v3229 : Ref sig .tc := ⟨.hbm, 3350, rfl⟩
abbrev main_v3230 : Ref sig .tc := ⟨.hbm, 3351, rfl⟩
abbrev main_v3231 : Ref sig .tc := ⟨.hbm, 3352, rfl⟩
abbrev main_v3232 : Ref sig .tc := ⟨.hbm, 3353, rfl⟩
abbrev main_v3233 : Ref sig .tc := ⟨.hbm, 3354, rfl⟩
abbrev main_v3234 : Ref sig .tc := ⟨.hbm, 3355, rfl⟩
abbrev main_v3235 : Ref sig .tc := ⟨.hbm, 3356, rfl⟩
abbrev main_v3236 : Ref sig .tc := ⟨.hbm, 3357, rfl⟩
abbrev main_v3237 : Ref sig .tc := ⟨.hbm, 3358, rfl⟩
abbrev main_v3238 : Ref sig .tc := ⟨.hbm, 3359, rfl⟩
abbrev main_v3239 : Ref sig .tc := ⟨.hbm, 3360, rfl⟩
abbrev main_v3240 : Ref sig .tc := ⟨.hbm, 3361, rfl⟩
abbrev main_v3241 : Ref sig .tc := ⟨.hbm, 3362, rfl⟩
abbrev main_v3242 : Ref sig .tc := ⟨.hbm, 3363, rfl⟩
abbrev main_v3243 : Ref sig .tc := ⟨.hbm, 3364, rfl⟩
abbrev main_v3244 : Ref sig .tc := ⟨.hbm, 3365, rfl⟩
abbrev main_v3245 : Ref sig .tc := ⟨.hbm, 3366, rfl⟩
abbrev main_v3246 : Ref sig .tc := ⟨.hbm, 3367, rfl⟩
abbrev main_v3247 : Ref sig .tc := ⟨.hbm, 3368, rfl⟩
abbrev main_v3248 : Ref sig .tc := ⟨.hbm, 3369, rfl⟩
abbrev main_v3249 : Ref sig .tc := ⟨.hbm, 3370, rfl⟩
abbrev main_v3250 : Ref sig .tc := ⟨.hbm, 3371, rfl⟩
abbrev main_v3251 : Ref sig .tc := ⟨.hbm, 3372, rfl⟩
abbrev main_v3252 : Ref sig .tc := ⟨.hbm, 3373, rfl⟩
abbrev main_v3253 : Ref sig .tc := ⟨.hbm, 3374, rfl⟩
abbrev main_v3254 : Ref sig .tc := ⟨.hbm, 3375, rfl⟩
abbrev main_v3255 : Ref sig .tc := ⟨.hbm, 3376, rfl⟩
abbrev main_v3256 : Ref sig .tc := ⟨.hbm, 3377, rfl⟩
abbrev main_v3257 : Ref sig .tc := ⟨.hbm, 3378, rfl⟩
abbrev main_v3258 : Ref sig .tc := ⟨.hbm, 3379, rfl⟩
abbrev main_v3259 : Ref sig .tc := ⟨.hbm, 3380, rfl⟩
abbrev main_v3260 : Ref sig .tc := ⟨.hbm, 3381, rfl⟩
abbrev main_v3261 : Ref sig .tc := ⟨.hbm, 3382, rfl⟩
abbrev main_v3262 : Ref sig .tc := ⟨.hbm, 3383, rfl⟩
abbrev main_v3263 : Ref sig .tc := ⟨.hbm, 3384, rfl⟩
abbrev main_v3264 : Ref sig .tc := ⟨.hbm, 3385, rfl⟩
abbrev main_v3265 : Ref sig .tc := ⟨.hbm, 3386, rfl⟩
abbrev main_v3266 : Ref sig .tc := ⟨.hbm, 3387, rfl⟩
abbrev main_v3267 : Ref sig .tc := ⟨.hbm, 3388, rfl⟩
abbrev main_v3268 : Ref sig .tc := ⟨.hbm, 3389, rfl⟩
abbrev main_v3269 : Ref sig .tc := ⟨.hbm, 3390, rfl⟩
abbrev main_v3270 : Ref sig .tc := ⟨.hbm, 3391, rfl⟩
abbrev main_cst_113 : Ref sig .tc := ⟨.hbm, 3392, rfl⟩
abbrev main_v3271 : Ref sig .tc := ⟨.hbm, 3393, rfl⟩
abbrev main_v3272 : Ref sig .tc := ⟨.hbm, 3394, rfl⟩
abbrev main_v3273 : Ref sig .tc := ⟨.hbm, 3395, rfl⟩
abbrev main_v3274 : Ref sig .tc := ⟨.hbm, 3396, rfl⟩
abbrev main_v3275 : Ref sig .tc := ⟨.hbm, 3397, rfl⟩
abbrev main_v3276 : Ref sig .tc := ⟨.hbm, 3398, rfl⟩
abbrev main_cst_114 : Ref sig .tc := ⟨.hbm, 3399, rfl⟩
abbrev main_v3277 : Ref sig .tc := ⟨.hbm, 3400, rfl⟩
abbrev main_v3278 : Ref sig .tc := ⟨.hbm, 3401, rfl⟩
abbrev main_v3279 : Ref sig .tc := ⟨.hbm, 3402, rfl⟩
abbrev main_v3280 : Ref sig .tc := ⟨.hbm, 3403, rfl⟩
abbrev main_v3281 : Ref sig .tc := ⟨.hbm, 3404, rfl⟩
abbrev main_v3282 : Ref sig .tc := ⟨.hbm, 3405, rfl⟩
abbrev main_v3283 : Ref sig .tc := ⟨.hbm, 3406, rfl⟩
abbrev main_v3284 : Ref sig .tc := ⟨.hbm, 3407, rfl⟩
abbrev main_v3285 : Ref sig .tc := ⟨.hbm, 3408, rfl⟩
abbrev main_v3286 : Ref sig .tc := ⟨.hbm, 3409, rfl⟩
abbrev main_v3287 : Ref sig .tc := ⟨.hbm, 3410, rfl⟩
abbrev main_v3288 : Ref sig .tc := ⟨.hbm, 3411, rfl⟩
abbrev main_v3289 : Ref sig .tc := ⟨.hbm, 3412, rfl⟩
abbrev main_v3290 : Ref sig .tc := ⟨.hbm, 3413, rfl⟩
abbrev main_v3291 : Ref sig .tc := ⟨.hbm, 3414, rfl⟩
abbrev main_v3292 : Ref sig .tc := ⟨.hbm, 3415, rfl⟩
abbrev main_v3293 : Ref sig .tc := ⟨.hbm, 3416, rfl⟩
abbrev main_v3294 : Ref sig .tc := ⟨.hbm, 3417, rfl⟩
abbrev main_v3295 : Ref sig .tc := ⟨.hbm, 3418, rfl⟩
abbrev main_v3296 : Ref sig .tc := ⟨.hbm, 3419, rfl⟩
abbrev main_v3297 : Ref sig .tc := ⟨.hbm, 3420, rfl⟩
abbrev main_v3298 : Ref sig .tc := ⟨.hbm, 3421, rfl⟩
abbrev main_v3299 : Ref sig .tc := ⟨.hbm, 3422, rfl⟩
abbrev main_v3300 : Ref sig .tc := ⟨.hbm, 3423, rfl⟩
abbrev main_v3301 : Ref sig .tc := ⟨.hbm, 3424, rfl⟩
abbrev main_v3302 : Ref sig .tc := ⟨.hbm, 3425, rfl⟩
abbrev main_v3303 : Ref sig .tc := ⟨.hbm, 3426, rfl⟩
abbrev main_v3304 : Ref sig .tc := ⟨.hbm, 3427, rfl⟩
abbrev main_v3305 : Ref sig .tc := ⟨.hbm, 3428, rfl⟩
abbrev main_v3306 : Ref sig .tc := ⟨.hbm, 3429, rfl⟩
abbrev main_v3307 : Ref sig .tc := ⟨.hbm, 3430, rfl⟩
abbrev main_v3308 : Ref sig .tc := ⟨.hbm, 3431, rfl⟩
abbrev main_v3309 : Ref sig .tc := ⟨.hbm, 3432, rfl⟩
abbrev main_v3310 : Ref sig .tc := ⟨.hbm, 3433, rfl⟩
abbrev main_v3311 : Ref sig .tc := ⟨.hbm, 3434, rfl⟩
abbrev main_v3312 : Ref sig .tc := ⟨.hbm, 3435, rfl⟩
abbrev main_v3313 : Ref sig .tc := ⟨.hbm, 3436, rfl⟩
abbrev main_v3314 : Ref sig .tc := ⟨.hbm, 3437, rfl⟩
abbrev main_v3315 : Ref sig .tc := ⟨.hbm, 3438, rfl⟩
abbrev main_v3316 : Ref sig .tc := ⟨.hbm, 3439, rfl⟩
abbrev main_v3317 : Ref sig .tc := ⟨.hbm, 3440, rfl⟩
abbrev main_v3318 : Ref sig .tc := ⟨.hbm, 3441, rfl⟩
abbrev main_v3319 : Ref sig .tc := ⟨.hbm, 3442, rfl⟩
abbrev main_v3320 : Ref sig .tc := ⟨.hbm, 3443, rfl⟩
abbrev main_v3321 : Ref sig .tc := ⟨.hbm, 3444, rfl⟩
abbrev main_v3322 : Ref sig .tc := ⟨.hbm, 3445, rfl⟩
abbrev main_v3323 : Ref sig .tc := ⟨.hbm, 3446, rfl⟩
abbrev main_v3324 : Ref sig .tc := ⟨.hbm, 3447, rfl⟩
abbrev main_v3325 : Ref sig .tc := ⟨.hbm, 3448, rfl⟩
abbrev main_v3326 : Ref sig .tc := ⟨.hbm, 3449, rfl⟩
abbrev main_v3327 : Ref sig .tc := ⟨.hbm, 3450, rfl⟩
abbrev main_v3328 : Ref sig .tc := ⟨.hbm, 3451, rfl⟩
abbrev main_v3329 : Ref sig .tc := ⟨.hbm, 3452, rfl⟩
abbrev main_v3330 : Ref sig .tc := ⟨.hbm, 3453, rfl⟩
abbrev main_v3331 : Ref sig .tc := ⟨.hbm, 3454, rfl⟩
abbrev main_v3332 : Ref sig .tc := ⟨.hbm, 3455, rfl⟩
abbrev main_v3333 : Ref sig .tc := ⟨.hbm, 3456, rfl⟩
abbrev main_v3334 : Ref sig .tc := ⟨.hbm, 3457, rfl⟩
abbrev main_v3335 : Ref sig .tc := ⟨.hbm, 3458, rfl⟩
abbrev main_v3336 : Ref sig .tc := ⟨.hbm, 3459, rfl⟩
abbrev main_v3337 : Ref sig .tc := ⟨.hbm, 3460, rfl⟩
abbrev main_v3338 : Ref sig .tc := ⟨.hbm, 3461, rfl⟩
abbrev main_v3339 : Ref sig .tc := ⟨.hbm, 3462, rfl⟩
abbrev main_v3340 : Ref sig .tc := ⟨.hbm, 3463, rfl⟩
abbrev main_v3341 : Ref sig .tc := ⟨.hbm, 3464, rfl⟩
abbrev main_v3342 : Ref sig .tc := ⟨.hbm, 3465, rfl⟩
abbrev main_v3343 : Ref sig .tc := ⟨.hbm, 3466, rfl⟩
abbrev main_v3344 : Ref sig .tc := ⟨.hbm, 3467, rfl⟩
abbrev main_v3345 : Ref sig .tc := ⟨.hbm, 3468, rfl⟩
abbrev main_v3346 : Ref sig .tc := ⟨.hbm, 3469, rfl⟩
abbrev main_v3347 : Ref sig .tc := ⟨.hbm, 3470, rfl⟩
abbrev main_v3348 : Ref sig .tc := ⟨.hbm, 3471, rfl⟩
abbrev main_v3349 : Ref sig .tc := ⟨.hbm, 3472, rfl⟩
abbrev main_v3350 : Ref sig .tc := ⟨.hbm, 3473, rfl⟩
abbrev main_v3351 : Ref sig .tc := ⟨.hbm, 3474, rfl⟩
abbrev main_v3352 : Ref sig .tc := ⟨.hbm, 3475, rfl⟩
abbrev main_v3353 : Ref sig .tc := ⟨.hbm, 3476, rfl⟩
abbrev main_v3354 : Ref sig .tc := ⟨.hbm, 3477, rfl⟩
abbrev main_v3355 : Ref sig .tc := ⟨.hbm, 3478, rfl⟩
abbrev main_v3356 : Ref sig .tc := ⟨.hbm, 3479, rfl⟩
abbrev main_v3357 : Ref sig .tc := ⟨.hbm, 3480, rfl⟩
abbrev main_v3358 : Ref sig .tc := ⟨.hbm, 3481, rfl⟩
abbrev main_v3359 : Ref sig .tc := ⟨.hbm, 3482, rfl⟩
abbrev main_v3360 : Ref sig .tc := ⟨.hbm, 3483, rfl⟩
abbrev main_v3361 : Ref sig .tc := ⟨.hbm, 3484, rfl⟩
abbrev main_v3362 : Ref sig .tc := ⟨.hbm, 3485, rfl⟩
abbrev main_v3363 : Ref sig .tc := ⟨.hbm, 3486, rfl⟩
abbrev main_v3364 : Ref sig .tc := ⟨.hbm, 3487, rfl⟩
abbrev main_v3365 : Ref sig .tc := ⟨.hbm, 3488, rfl⟩
abbrev main_v3366 : Ref sig .tc := ⟨.hbm, 3489, rfl⟩
abbrev main_v3367 : Ref sig .tc := ⟨.hbm, 3490, rfl⟩
abbrev main_v3368 : Ref sig .tc := ⟨.hbm, 3491, rfl⟩
abbrev main_v3369 : Ref sig .tc := ⟨.hbm, 3492, rfl⟩
abbrev main_v3370 : Ref sig .tc := ⟨.hbm, 3493, rfl⟩
abbrev main_cst_115 : Ref sig .tc := ⟨.hbm, 3494, rfl⟩
abbrev main_v3371 : Ref sig .tc := ⟨.hbm, 3495, rfl⟩
abbrev main_v3372 : Ref sig .tc := ⟨.hbm, 3496, rfl⟩
abbrev main_v3373 : Ref sig .tc := ⟨.hbm, 3497, rfl⟩
abbrev main_v3374 : Ref sig .tc := ⟨.hbm, 3498, rfl⟩
abbrev main_v3375 : Ref sig .tc := ⟨.hbm, 3499, rfl⟩
abbrev main_v3376 : Ref sig .tc := ⟨.hbm, 3500, rfl⟩
abbrev main_cst_116 : Ref sig .tc := ⟨.hbm, 3501, rfl⟩
abbrev main_v3377 : Ref sig .tc := ⟨.hbm, 3502, rfl⟩
abbrev main_v3378 : Ref sig .tc := ⟨.hbm, 3503, rfl⟩
abbrev main_v3379 : Ref sig .tc := ⟨.hbm, 3504, rfl⟩
abbrev main_v3380 : Ref sig .tc := ⟨.hbm, 3505, rfl⟩
abbrev main_v3381 : Ref sig .tc := ⟨.hbm, 3506, rfl⟩
abbrev main_v3382 : Ref sig .tc := ⟨.hbm, 3507, rfl⟩
abbrev main_v3383 : Ref sig .tc := ⟨.hbm, 3508, rfl⟩
abbrev main_v3384 : Ref sig .tc := ⟨.hbm, 3509, rfl⟩
abbrev main_v3385 : Ref sig .tc := ⟨.hbm, 3510, rfl⟩
abbrev main_v3386 : Ref sig .tc := ⟨.hbm, 3511, rfl⟩
abbrev main_v3387 : Ref sig .tc := ⟨.hbm, 3512, rfl⟩
abbrev main_v3388 : Ref sig .tc := ⟨.hbm, 3513, rfl⟩
abbrev main_v3389 : Ref sig .tc := ⟨.hbm, 3514, rfl⟩
abbrev main_v3390 : Ref sig .tc := ⟨.hbm, 3515, rfl⟩
abbrev main_v3391 : Ref sig .tc := ⟨.hbm, 3516, rfl⟩
abbrev main_v3392 : Ref sig .tc := ⟨.hbm, 3517, rfl⟩
abbrev main_v3393 : Ref sig .tc := ⟨.hbm, 3518, rfl⟩
abbrev main_v3394 : Ref sig .tc := ⟨.hbm, 3519, rfl⟩
abbrev main_v3395 : Ref sig .tc := ⟨.hbm, 3520, rfl⟩
abbrev main_v3396 : Ref sig .tc := ⟨.hbm, 3521, rfl⟩
abbrev main_v3397 : Ref sig .tc := ⟨.hbm, 3522, rfl⟩
abbrev main_v3398 : Ref sig .tc := ⟨.hbm, 3523, rfl⟩
abbrev main_v3399 : Ref sig .tc := ⟨.hbm, 3524, rfl⟩
abbrev main_v3400 : Ref sig .tc := ⟨.hbm, 3525, rfl⟩
abbrev main_v3401 : Ref sig .tc := ⟨.hbm, 3526, rfl⟩
abbrev main_v3402 : Ref sig .tc := ⟨.hbm, 3527, rfl⟩
abbrev main_v3403 : Ref sig .tc := ⟨.hbm, 3528, rfl⟩
abbrev main_v3404 : Ref sig .tc := ⟨.hbm, 3529, rfl⟩
abbrev main_v3405 : Ref sig .tc := ⟨.hbm, 3530, rfl⟩
abbrev main_v3406 : Ref sig .tc := ⟨.hbm, 3531, rfl⟩
abbrev main_v3407 : Ref sig .tc := ⟨.hbm, 3532, rfl⟩
abbrev main_v3408 : Ref sig .tc := ⟨.hbm, 3533, rfl⟩
abbrev main_v3409 : Ref sig .tc := ⟨.hbm, 3534, rfl⟩
abbrev main_v3410 : Ref sig .tc := ⟨.hbm, 3535, rfl⟩
abbrev main_v3411 : Ref sig .tc := ⟨.hbm, 3536, rfl⟩
abbrev main_v3412 : Ref sig .tc := ⟨.hbm, 3537, rfl⟩
abbrev main_v3413 : Ref sig .tc := ⟨.hbm, 3538, rfl⟩
abbrev main_v3414 : Ref sig .tc := ⟨.hbm, 3539, rfl⟩
abbrev main_v3415 : Ref sig .tc := ⟨.hbm, 3540, rfl⟩
abbrev main_v3416 : Ref sig .tc := ⟨.hbm, 3541, rfl⟩
abbrev main_v3417 : Ref sig .tc := ⟨.hbm, 3542, rfl⟩
abbrev main_v3418 : Ref sig .tc := ⟨.hbm, 3543, rfl⟩
abbrev main_v3419 : Ref sig .tc := ⟨.hbm, 3544, rfl⟩
abbrev main_v3420 : Ref sig .tc := ⟨.hbm, 3545, rfl⟩
abbrev main_v3421 : Ref sig .tc := ⟨.hbm, 3546, rfl⟩
abbrev main_v3422 : Ref sig .tc := ⟨.hbm, 3547, rfl⟩
abbrev main_v3423 : Ref sig .tc := ⟨.hbm, 3548, rfl⟩
abbrev main_v3424 : Ref sig .tc := ⟨.hbm, 3549, rfl⟩
abbrev main_v3425 : Ref sig .tc := ⟨.hbm, 3550, rfl⟩
abbrev main_v3426 : Ref sig .tc := ⟨.hbm, 3551, rfl⟩
abbrev main_v3427 : Ref sig .tc := ⟨.hbm, 3552, rfl⟩
abbrev main_v3428 : Ref sig .tc := ⟨.hbm, 3553, rfl⟩
abbrev main_v3429 : Ref sig .tc := ⟨.hbm, 3554, rfl⟩
abbrev main_v3430 : Ref sig .tc := ⟨.hbm, 3555, rfl⟩
abbrev main_v3431 : Ref sig .tc := ⟨.hbm, 3556, rfl⟩
abbrev main_v3432 : Ref sig .tc := ⟨.hbm, 3557, rfl⟩
abbrev main_v3433 : Ref sig .tc := ⟨.hbm, 3558, rfl⟩
abbrev main_v3434 : Ref sig .tc := ⟨.hbm, 3559, rfl⟩
abbrev main_v3435 : Ref sig .tc := ⟨.hbm, 3560, rfl⟩
abbrev main_v3436 : Ref sig .tc := ⟨.hbm, 3561, rfl⟩
abbrev main_v3437 : Ref sig .tc := ⟨.hbm, 3562, rfl⟩
abbrev main_v3438 : Ref sig .tc := ⟨.hbm, 3563, rfl⟩
abbrev main_v3439 : Ref sig .tc := ⟨.hbm, 3564, rfl⟩
abbrev main_v3440 : Ref sig .tc := ⟨.hbm, 3565, rfl⟩
abbrev main_v3441 : Ref sig .tc := ⟨.hbm, 3566, rfl⟩
abbrev main_v3442 : Ref sig .tc := ⟨.hbm, 3567, rfl⟩
abbrev main_v3443 : Ref sig .tc := ⟨.hbm, 3568, rfl⟩
abbrev main_v3444 : Ref sig .tc := ⟨.hbm, 3569, rfl⟩
abbrev main_v3445 : Ref sig .tc := ⟨.hbm, 3570, rfl⟩
abbrev main_v3446 : Ref sig .tc := ⟨.hbm, 3571, rfl⟩
abbrev main_v3447 : Ref sig .tc := ⟨.hbm, 3572, rfl⟩
abbrev main_v3448 : Ref sig .tc := ⟨.hbm, 3573, rfl⟩
abbrev main_v3449 : Ref sig .tc := ⟨.hbm, 3574, rfl⟩
abbrev main_v3450 : Ref sig .tc := ⟨.hbm, 3575, rfl⟩
abbrev main_v3451 : Ref sig .tc := ⟨.hbm, 3576, rfl⟩
abbrev main_v3452 : Ref sig .tc := ⟨.hbm, 3577, rfl⟩
abbrev main_v3453 : Ref sig .tc := ⟨.hbm, 3578, rfl⟩
abbrev main_v3454 : Ref sig .tc := ⟨.hbm, 3579, rfl⟩
abbrev main_v3455 : Ref sig .tc := ⟨.hbm, 3580, rfl⟩
abbrev main_v3456 : Ref sig .tc := ⟨.hbm, 3581, rfl⟩
abbrev main_v3457 : Ref sig .tc := ⟨.hbm, 3582, rfl⟩
abbrev main_v3458 : Ref sig .tc := ⟨.hbm, 3583, rfl⟩
abbrev main_v3459 : Ref sig .tc := ⟨.hbm, 3584, rfl⟩
abbrev main_v3460 : Ref sig .tc := ⟨.hbm, 3585, rfl⟩
abbrev main_v3461 : Ref sig .tc := ⟨.hbm, 3586, rfl⟩
abbrev main_v3462 : Ref sig .tc := ⟨.hbm, 3587, rfl⟩
abbrev main_v3463 : Ref sig .tc := ⟨.hbm, 3588, rfl⟩
abbrev main_v3464 : Ref sig .tc := ⟨.hbm, 3589, rfl⟩
abbrev main_v3465 : Ref sig .tc := ⟨.hbm, 3590, rfl⟩
abbrev main_v3466 : Ref sig .tc := ⟨.hbm, 3591, rfl⟩
abbrev main_v3467 : Ref sig .tc := ⟨.hbm, 3592, rfl⟩
abbrev main_v3468 : Ref sig .tc := ⟨.hbm, 3593, rfl⟩
abbrev main_v3469 : Ref sig .tc := ⟨.hbm, 3594, rfl⟩
abbrev main_v3470 : Ref sig .tc := ⟨.hbm, 3595, rfl⟩
abbrev main_v3471 : Ref sig .tc := ⟨.hbm, 3596, rfl⟩
abbrev main_v3472 : Ref sig .tc := ⟨.hbm, 3597, rfl⟩
abbrev main_v3473 : Ref sig .tc := ⟨.hbm, 3598, rfl⟩
abbrev main_cst_117 : Ref sig .tc := ⟨.hbm, 3599, rfl⟩
abbrev main_v3474 : Ref sig .tc := ⟨.hbm, 3600, rfl⟩
abbrev main_v3475 : Ref sig .tc := ⟨.hbm, 3601, rfl⟩
abbrev main_v3476 : Ref sig .tc := ⟨.hbm, 3602, rfl⟩
abbrev main_v3477 : Ref sig .tc := ⟨.hbm, 3603, rfl⟩
abbrev main_v3478 : Ref sig .tc := ⟨.hbm, 3604, rfl⟩
abbrev main_v3479 : Ref sig .tc := ⟨.hbm, 3605, rfl⟩
abbrev main_cst_118 : Ref sig .tc := ⟨.hbm, 3606, rfl⟩
abbrev main_v3480 : Ref sig .tc := ⟨.hbm, 3607, rfl⟩
abbrev main_v3481 : Ref sig .tc := ⟨.hbm, 3608, rfl⟩
abbrev main_v3482 : Ref sig .tc := ⟨.hbm, 3609, rfl⟩
abbrev main_v3483 : Ref sig .tc := ⟨.hbm, 3610, rfl⟩
abbrev main_v3484 : Ref sig .tc := ⟨.hbm, 3611, rfl⟩
abbrev main_v3485 : Ref sig .tc := ⟨.hbm, 3612, rfl⟩
abbrev main_v3486 : Ref sig .tc := ⟨.hbm, 3613, rfl⟩
abbrev main_v3487 : Ref sig .tc := ⟨.hbm, 3614, rfl⟩
abbrev main_v3488 : Ref sig .tc := ⟨.hbm, 3615, rfl⟩
abbrev main_v3489 : Ref sig .tc := ⟨.hbm, 3616, rfl⟩
abbrev main_v3490 : Ref sig .tc := ⟨.hbm, 3617, rfl⟩
abbrev main_v3491 : Ref sig .tc := ⟨.hbm, 3618, rfl⟩
abbrev main_v3492 : Ref sig .tc := ⟨.hbm, 3619, rfl⟩
abbrev main_v3493 : Ref sig .tc := ⟨.hbm, 3620, rfl⟩
abbrev main_v3494 : Ref sig .tc := ⟨.hbm, 3621, rfl⟩
abbrev main_v3495 : Ref sig .tc := ⟨.hbm, 3622, rfl⟩
abbrev main_v3496 : Ref sig .tc := ⟨.hbm, 3623, rfl⟩
abbrev main_v3497 : Ref sig .tc := ⟨.hbm, 3624, rfl⟩
abbrev main_v3498 : Ref sig .tc := ⟨.hbm, 3625, rfl⟩
abbrev main_v3499 : Ref sig .tc := ⟨.hbm, 3626, rfl⟩
abbrev main_v3500 : Ref sig .tc := ⟨.hbm, 3627, rfl⟩
abbrev main_v3501 : Ref sig .tc := ⟨.hbm, 3628, rfl⟩
abbrev main_v3502 : Ref sig .tc := ⟨.hbm, 3629, rfl⟩
abbrev main_v3503 : Ref sig .tc := ⟨.hbm, 3630, rfl⟩
abbrev main_v3504 : Ref sig .tc := ⟨.hbm, 3631, rfl⟩
abbrev main_v3505 : Ref sig .tc := ⟨.hbm, 3632, rfl⟩
abbrev main_v3506 : Ref sig .tc := ⟨.hbm, 3633, rfl⟩
abbrev main_v3507 : Ref sig .tc := ⟨.hbm, 3634, rfl⟩
abbrev main_v3508 : Ref sig .tc := ⟨.hbm, 3635, rfl⟩
abbrev main_v3509 : Ref sig .tc := ⟨.hbm, 3636, rfl⟩
abbrev main_v3510 : Ref sig .tc := ⟨.hbm, 3637, rfl⟩
abbrev main_v3511 : Ref sig .tc := ⟨.hbm, 3638, rfl⟩
abbrev main_v3512 : Ref sig .tc := ⟨.hbm, 3639, rfl⟩
abbrev main_v3513 : Ref sig .tc := ⟨.hbm, 3640, rfl⟩
abbrev main_v3514 : Ref sig .tc := ⟨.hbm, 3641, rfl⟩
abbrev main_v3515 : Ref sig .tc := ⟨.hbm, 3642, rfl⟩
abbrev main_v3516 : Ref sig .tc := ⟨.hbm, 3643, rfl⟩
abbrev main_v3517 : Ref sig .tc := ⟨.hbm, 3644, rfl⟩
abbrev main_v3518 : Ref sig .tc := ⟨.hbm, 3645, rfl⟩
abbrev main_v3519 : Ref sig .tc := ⟨.hbm, 3646, rfl⟩
abbrev main_v3520 : Ref sig .tc := ⟨.hbm, 3647, rfl⟩
abbrev main_v3521 : Ref sig .tc := ⟨.hbm, 3648, rfl⟩
abbrev main_v3522 : Ref sig .tc := ⟨.hbm, 3649, rfl⟩
abbrev main_v3523 : Ref sig .tc := ⟨.hbm, 3650, rfl⟩
abbrev main_v3524 : Ref sig .tc := ⟨.hbm, 3651, rfl⟩
abbrev main_v3525 : Ref sig .tc := ⟨.hbm, 3652, rfl⟩
abbrev main_v3526 : Ref sig .tc := ⟨.hbm, 3653, rfl⟩
abbrev main_v3527 : Ref sig .tc := ⟨.hbm, 3654, rfl⟩
abbrev main_v3528 : Ref sig .tc := ⟨.hbm, 3655, rfl⟩
abbrev main_v3529 : Ref sig .tc := ⟨.hbm, 3656, rfl⟩
abbrev main_v3530 : Ref sig .tc := ⟨.hbm, 3657, rfl⟩
abbrev main_v3531 : Ref sig .tc := ⟨.hbm, 3658, rfl⟩
abbrev main_v3532 : Ref sig .tc := ⟨.hbm, 3659, rfl⟩
abbrev main_v3533 : Ref sig .tc := ⟨.hbm, 3660, rfl⟩
abbrev main_v3534 : Ref sig .tc := ⟨.hbm, 3661, rfl⟩
abbrev main_v3535 : Ref sig .tc := ⟨.hbm, 3662, rfl⟩
abbrev main_v3536 : Ref sig .tc := ⟨.hbm, 3663, rfl⟩
abbrev main_v3537 : Ref sig .tc := ⟨.hbm, 3664, rfl⟩
abbrev main_v3538 : Ref sig .tc := ⟨.hbm, 3665, rfl⟩
abbrev main_v3539 : Ref sig .tc := ⟨.hbm, 3666, rfl⟩
abbrev main_v3540 : Ref sig .tc := ⟨.hbm, 3667, rfl⟩
abbrev main_v3541 : Ref sig .tc := ⟨.hbm, 3668, rfl⟩
abbrev main_v3542 : Ref sig .tc := ⟨.hbm, 3669, rfl⟩
abbrev main_v3543 : Ref sig .tc := ⟨.hbm, 3670, rfl⟩
abbrev main_v3544 : Ref sig .tc := ⟨.hbm, 3671, rfl⟩
abbrev main_v3545 : Ref sig .tc := ⟨.hbm, 3672, rfl⟩
abbrev main_v3546 : Ref sig .tc := ⟨.hbm, 3673, rfl⟩
abbrev main_v3547 : Ref sig .tc := ⟨.hbm, 3674, rfl⟩
abbrev main_v3548 : Ref sig .tc := ⟨.hbm, 3675, rfl⟩
abbrev main_v3549 : Ref sig .tc := ⟨.hbm, 3676, rfl⟩
abbrev main_v3550 : Ref sig .tc := ⟨.hbm, 3677, rfl⟩
abbrev main_v3551 : Ref sig .tc := ⟨.hbm, 3678, rfl⟩
abbrev main_v3552 : Ref sig .tc := ⟨.hbm, 3679, rfl⟩
abbrev main_v3553 : Ref sig .tc := ⟨.hbm, 3680, rfl⟩
abbrev main_v3554 : Ref sig .tc := ⟨.hbm, 3681, rfl⟩
abbrev main_v3555 : Ref sig .tc := ⟨.hbm, 3682, rfl⟩
abbrev main_v3556 : Ref sig .tc := ⟨.hbm, 3683, rfl⟩
abbrev main_v3557 : Ref sig .tc := ⟨.hbm, 3684, rfl⟩
abbrev main_v3558 : Ref sig .tc := ⟨.hbm, 3685, rfl⟩
abbrev main_v3559 : Ref sig .tc := ⟨.hbm, 3686, rfl⟩
abbrev main_v3560 : Ref sig .tc := ⟨.hbm, 3687, rfl⟩
abbrev main_v3561 : Ref sig .tc := ⟨.hbm, 3688, rfl⟩
abbrev main_v3562 : Ref sig .tc := ⟨.hbm, 3689, rfl⟩
abbrev main_v3563 : Ref sig .tc := ⟨.hbm, 3690, rfl⟩
abbrev main_v3564 : Ref sig .tc := ⟨.hbm, 3691, rfl⟩
abbrev main_v3565 : Ref sig .tc := ⟨.hbm, 3692, rfl⟩
abbrev main_v3566 : Ref sig .tc := ⟨.hbm, 3693, rfl⟩
abbrev main_v3567 : Ref sig .tc := ⟨.hbm, 3694, rfl⟩
abbrev main_v3568 : Ref sig .tc := ⟨.hbm, 3695, rfl⟩
abbrev main_v3569 : Ref sig .tc := ⟨.hbm, 3696, rfl⟩
abbrev main_v3570 : Ref sig .tc := ⟨.hbm, 3697, rfl⟩
abbrev main_v3571 : Ref sig .tc := ⟨.hbm, 3698, rfl⟩
abbrev main_v3572 : Ref sig .tc := ⟨.hbm, 3699, rfl⟩
abbrev main_v3573 : Ref sig .tc := ⟨.hbm, 3700, rfl⟩
abbrev main_v3574 : Ref sig .tc := ⟨.hbm, 3701, rfl⟩
abbrev main_v3575 : Ref sig .tc := ⟨.hbm, 3702, rfl⟩
abbrev main_v3576 : Ref sig .tc := ⟨.hbm, 3703, rfl⟩
abbrev main_cst_119 : Ref sig .tc := ⟨.hbm, 3704, rfl⟩
abbrev main_v3577 : Ref sig .tc := ⟨.hbm, 3705, rfl⟩
abbrev main_v3578 : Ref sig .tc := ⟨.hbm, 3706, rfl⟩
abbrev main_v3579 : Ref sig .tc := ⟨.hbm, 3707, rfl⟩
abbrev main_v3580 : Ref sig .tc := ⟨.hbm, 3708, rfl⟩
abbrev main_v3581 : Ref sig .tc := ⟨.hbm, 3709, rfl⟩
abbrev main_v3582 : Ref sig .tc := ⟨.hbm, 3710, rfl⟩
abbrev main_cst_120 : Ref sig .tc := ⟨.hbm, 3711, rfl⟩
abbrev main_v3583 : Ref sig .tc := ⟨.hbm, 3712, rfl⟩
abbrev main_v3584 : Ref sig .tc := ⟨.hbm, 3713, rfl⟩
abbrev main_v3585 : Ref sig .tc := ⟨.hbm, 3714, rfl⟩
abbrev main_v3586 : Ref sig .tc := ⟨.hbm, 3715, rfl⟩
abbrev main_v3587 : Ref sig .tc := ⟨.hbm, 3716, rfl⟩
abbrev main_v3588 : Ref sig .tc := ⟨.hbm, 3717, rfl⟩
abbrev main_v3589 : Ref sig .tc := ⟨.hbm, 3718, rfl⟩
abbrev main_v3590 : Ref sig .tc := ⟨.hbm, 3719, rfl⟩
abbrev main_v3591 : Ref sig .tc := ⟨.hbm, 3720, rfl⟩
abbrev main_v3592 : Ref sig .tc := ⟨.hbm, 3721, rfl⟩
abbrev main_v3593 : Ref sig .tc := ⟨.hbm, 3722, rfl⟩
abbrev main_v3594 : Ref sig .tc := ⟨.hbm, 3723, rfl⟩
abbrev main_v3595 : Ref sig .tc := ⟨.hbm, 3724, rfl⟩
abbrev main_v3596 : Ref sig .tc := ⟨.hbm, 3725, rfl⟩
abbrev main_v3597 : Ref sig .tc := ⟨.hbm, 3726, rfl⟩
abbrev main_v3598 : Ref sig .tc := ⟨.hbm, 3727, rfl⟩
abbrev main_v3599 : Ref sig .tc := ⟨.hbm, 3728, rfl⟩
abbrev main_v3600 : Ref sig .tc := ⟨.hbm, 3729, rfl⟩
abbrev main_v3601 : Ref sig .tc := ⟨.hbm, 3730, rfl⟩
abbrev main_v3602 : Ref sig .tc := ⟨.hbm, 3731, rfl⟩
abbrev main_v3603 : Ref sig .tc := ⟨.hbm, 3732, rfl⟩
abbrev main_v3604 : Ref sig .tc := ⟨.hbm, 3733, rfl⟩
abbrev main_v3605 : Ref sig .tc := ⟨.hbm, 3734, rfl⟩
abbrev main_v3606 : Ref sig .tc := ⟨.hbm, 3735, rfl⟩
abbrev main_v3607 : Ref sig .tc := ⟨.hbm, 3736, rfl⟩
abbrev main_v3608 : Ref sig .tc := ⟨.hbm, 3737, rfl⟩
abbrev main_v3609 : Ref sig .tc := ⟨.hbm, 3738, rfl⟩
abbrev main_v3610 : Ref sig .tc := ⟨.hbm, 3739, rfl⟩
abbrev main_v3611 : Ref sig .tc := ⟨.hbm, 3740, rfl⟩
abbrev main_v3612 : Ref sig .tc := ⟨.hbm, 3741, rfl⟩
abbrev main_v3613 : Ref sig .tc := ⟨.hbm, 3742, rfl⟩
abbrev main_v3614 : Ref sig .tc := ⟨.hbm, 3743, rfl⟩
abbrev main_v3615 : Ref sig .tc := ⟨.hbm, 3744, rfl⟩
abbrev main_v3616 : Ref sig .tc := ⟨.hbm, 3745, rfl⟩
abbrev main_v3617 : Ref sig .tc := ⟨.hbm, 3746, rfl⟩
abbrev main_v3618 : Ref sig .tc := ⟨.hbm, 3747, rfl⟩
abbrev main_v3619 : Ref sig .tc := ⟨.hbm, 3748, rfl⟩
abbrev main_v3620 : Ref sig .tc := ⟨.hbm, 3749, rfl⟩
abbrev main_v3621 : Ref sig .tc := ⟨.hbm, 3750, rfl⟩
abbrev main_v3622 : Ref sig .tc := ⟨.hbm, 3751, rfl⟩
abbrev main_v3623 : Ref sig .tc := ⟨.hbm, 3752, rfl⟩
abbrev main_v3624 : Ref sig .tc := ⟨.hbm, 3753, rfl⟩
abbrev main_v3625 : Ref sig .tc := ⟨.hbm, 3754, rfl⟩
abbrev main_v3626 : Ref sig .tc := ⟨.hbm, 3755, rfl⟩
abbrev main_v3627 : Ref sig .tc := ⟨.hbm, 3756, rfl⟩
abbrev main_v3628 : Ref sig .tc := ⟨.hbm, 3757, rfl⟩
abbrev main_v3629 : Ref sig .tc := ⟨.hbm, 3758, rfl⟩
abbrev main_v3630 : Ref sig .tc := ⟨.hbm, 3759, rfl⟩
abbrev main_v3631 : Ref sig .tc := ⟨.hbm, 3760, rfl⟩
abbrev main_v3632 : Ref sig .tc := ⟨.hbm, 3761, rfl⟩
abbrev main_v3633 : Ref sig .tc := ⟨.hbm, 3762, rfl⟩
abbrev main_v3634 : Ref sig .tc := ⟨.hbm, 3763, rfl⟩
abbrev main_v3635 : Ref sig .tc := ⟨.hbm, 3764, rfl⟩
abbrev main_v3636 : Ref sig .tc := ⟨.hbm, 3765, rfl⟩
abbrev main_v3637 : Ref sig .tc := ⟨.hbm, 3766, rfl⟩
abbrev main_v3638 : Ref sig .tc := ⟨.hbm, 3767, rfl⟩
abbrev main_v3639 : Ref sig .tc := ⟨.hbm, 3768, rfl⟩
abbrev main_v3640 : Ref sig .tc := ⟨.hbm, 3769, rfl⟩
abbrev main_v3641 : Ref sig .tc := ⟨.hbm, 3770, rfl⟩
abbrev main_v3642 : Ref sig .tc := ⟨.hbm, 3771, rfl⟩
abbrev main_v3643 : Ref sig .tc := ⟨.hbm, 3772, rfl⟩
abbrev main_v3644 : Ref sig .tc := ⟨.hbm, 3773, rfl⟩
abbrev main_v3645 : Ref sig .tc := ⟨.hbm, 3774, rfl⟩
abbrev main_v3646 : Ref sig .tc := ⟨.hbm, 3775, rfl⟩
abbrev main_v3647 : Ref sig .tc := ⟨.hbm, 3776, rfl⟩
abbrev main_v3648 : Ref sig .tc := ⟨.hbm, 3777, rfl⟩
abbrev main_v3649 : Ref sig .tc := ⟨.hbm, 3778, rfl⟩
abbrev main_v3650 : Ref sig .tc := ⟨.hbm, 3779, rfl⟩
abbrev main_v3651 : Ref sig .tc := ⟨.hbm, 3780, rfl⟩
abbrev main_v3652 : Ref sig .tc := ⟨.hbm, 3781, rfl⟩
abbrev main_v3653 : Ref sig .tc := ⟨.hbm, 3782, rfl⟩
abbrev main_v3654 : Ref sig .tc := ⟨.hbm, 3783, rfl⟩
abbrev main_v3655 : Ref sig .tc := ⟨.hbm, 3784, rfl⟩
abbrev main_v3656 : Ref sig .tc := ⟨.hbm, 3785, rfl⟩
abbrev main_v3657 : Ref sig .tc := ⟨.hbm, 3786, rfl⟩
abbrev main_v3658 : Ref sig .tc := ⟨.hbm, 3787, rfl⟩
abbrev main_v3659 : Ref sig .tc := ⟨.hbm, 3788, rfl⟩
abbrev main_v3660 : Ref sig .tc := ⟨.hbm, 3789, rfl⟩
abbrev main_v3661 : Ref sig .tc := ⟨.hbm, 3790, rfl⟩
abbrev main_v3662 : Ref sig .tc := ⟨.hbm, 3791, rfl⟩
abbrev main_v3663 : Ref sig .tc := ⟨.hbm, 3792, rfl⟩
abbrev main_v3664 : Ref sig .tc := ⟨.hbm, 3793, rfl⟩
abbrev main_v3665 : Ref sig .tc := ⟨.hbm, 3794, rfl⟩
abbrev main_v3666 : Ref sig .tc := ⟨.hbm, 3795, rfl⟩
abbrev main_v3667 : Ref sig .tc := ⟨.hbm, 3796, rfl⟩
abbrev main_v3668 : Ref sig .tc := ⟨.hbm, 3797, rfl⟩
abbrev main_v3669 : Ref sig .tc := ⟨.hbm, 3798, rfl⟩
abbrev main_v3670 : Ref sig .tc := ⟨.hbm, 3799, rfl⟩
abbrev main_v3671 : Ref sig .tc := ⟨.hbm, 3800, rfl⟩
abbrev main_v3672 : Ref sig .tc := ⟨.hbm, 3801, rfl⟩
abbrev main_v3673 : Ref sig .tc := ⟨.hbm, 3802, rfl⟩
abbrev main_v3674 : Ref sig .tc := ⟨.hbm, 3803, rfl⟩
abbrev main_v3675 : Ref sig .tc := ⟨.hbm, 3804, rfl⟩
abbrev main_v3676 : Ref sig .tc := ⟨.hbm, 3805, rfl⟩
abbrev main_v3677 : Ref sig .tc := ⟨.hbm, 3806, rfl⟩
abbrev main_v3678 : Ref sig .tc := ⟨.hbm, 3807, rfl⟩
abbrev main_v3679 : Ref sig .tc := ⟨.hbm, 3808, rfl⟩
abbrev main_v3680 : Ref sig .tc := ⟨.hbm, 3809, rfl⟩
abbrev main_v3681 : Ref sig .tc := ⟨.hbm, 3810, rfl⟩
abbrev main_v3682 : Ref sig .tc := ⟨.hbm, 3811, rfl⟩
abbrev main_cst_121 : Ref sig .tc := ⟨.hbm, 3812, rfl⟩
abbrev main_v3683 : Ref sig .tc := ⟨.hbm, 3813, rfl⟩
abbrev main_v3684 : Ref sig .tc := ⟨.hbm, 3814, rfl⟩
abbrev main_v3685 : Ref sig .tc := ⟨.hbm, 3815, rfl⟩
abbrev main_v3686 : Ref sig .tc := ⟨.hbm, 3816, rfl⟩
abbrev main_v3687 : Ref sig .tc := ⟨.hbm, 3817, rfl⟩
abbrev main_v3688 : Ref sig .tc := ⟨.hbm, 3818, rfl⟩
abbrev main_cst_122 : Ref sig .tc := ⟨.hbm, 3819, rfl⟩
abbrev main_v3689 : Ref sig .tc := ⟨.hbm, 3820, rfl⟩
abbrev main_v3690 : Ref sig .tc := ⟨.hbm, 3821, rfl⟩
abbrev main_v3691 : Ref sig .tc := ⟨.hbm, 3822, rfl⟩
abbrev main_v3692 : Ref sig .tc := ⟨.hbm, 3823, rfl⟩
abbrev main_v3693 : Ref sig .tc := ⟨.hbm, 3824, rfl⟩
abbrev main_v3694 : Ref sig .tc := ⟨.hbm, 3825, rfl⟩
abbrev main_v3695 : Ref sig .tc := ⟨.hbm, 3826, rfl⟩
abbrev main_v3696 : Ref sig .tc := ⟨.hbm, 3827, rfl⟩
abbrev main_v3697 : Ref sig .tc := ⟨.hbm, 3828, rfl⟩
abbrev main_v3698 : Ref sig .tc := ⟨.hbm, 3829, rfl⟩
abbrev main_v3699 : Ref sig .tc := ⟨.hbm, 3830, rfl⟩
abbrev main_v3700 : Ref sig .tc := ⟨.hbm, 3831, rfl⟩
abbrev main_v3701 : Ref sig .tc := ⟨.hbm, 3832, rfl⟩
abbrev main_v3702 : Ref sig .tc := ⟨.hbm, 3833, rfl⟩
abbrev main_v3703 : Ref sig .tc := ⟨.hbm, 3834, rfl⟩
abbrev main_v3704 : Ref sig .tc := ⟨.hbm, 3835, rfl⟩
abbrev main_v3705 : Ref sig .tc := ⟨.hbm, 3836, rfl⟩
abbrev main_v3706 : Ref sig .tc := ⟨.hbm, 3837, rfl⟩
abbrev main_v3707 : Ref sig .tc := ⟨.hbm, 3838, rfl⟩
abbrev main_v3708 : Ref sig .tc := ⟨.hbm, 3839, rfl⟩
abbrev main_v3709 : Ref sig .tc := ⟨.hbm, 3840, rfl⟩
abbrev main_v3710 : Ref sig .tc := ⟨.hbm, 3841, rfl⟩
abbrev main_v3711 : Ref sig .tc := ⟨.hbm, 3842, rfl⟩
abbrev main_v3712 : Ref sig .tc := ⟨.hbm, 3843, rfl⟩
abbrev main_v3713 : Ref sig .tc := ⟨.hbm, 3844, rfl⟩
abbrev main_v3714 : Ref sig .tc := ⟨.hbm, 3845, rfl⟩
abbrev main_v3715 : Ref sig .tc := ⟨.hbm, 3846, rfl⟩
abbrev main_v3716 : Ref sig .tc := ⟨.hbm, 3847, rfl⟩
abbrev main_v3717 : Ref sig .tc := ⟨.hbm, 3848, rfl⟩
abbrev main_v3718 : Ref sig .tc := ⟨.hbm, 3849, rfl⟩
abbrev main_v3719 : Ref sig .tc := ⟨.hbm, 3850, rfl⟩
abbrev main_v3720 : Ref sig .tc := ⟨.hbm, 3851, rfl⟩
abbrev main_v3721 : Ref sig .tc := ⟨.hbm, 3852, rfl⟩
abbrev main_v3722 : Ref sig .tc := ⟨.hbm, 3853, rfl⟩
abbrev main_v3723 : Ref sig .tc := ⟨.hbm, 3854, rfl⟩
abbrev main_v3724 : Ref sig .tc := ⟨.hbm, 3855, rfl⟩
abbrev main_v3725 : Ref sig .tc := ⟨.hbm, 3856, rfl⟩
abbrev main_v3726 : Ref sig .tc := ⟨.hbm, 3857, rfl⟩
abbrev main_v3727 : Ref sig .tc := ⟨.hbm, 3858, rfl⟩
abbrev main_v3728 : Ref sig .tc := ⟨.hbm, 3859, rfl⟩
abbrev main_v3729 : Ref sig .tc := ⟨.hbm, 3860, rfl⟩
abbrev main_v3730 : Ref sig .tc := ⟨.hbm, 3861, rfl⟩
abbrev main_v3731 : Ref sig .tc := ⟨.hbm, 3862, rfl⟩
abbrev main_v3732 : Ref sig .tc := ⟨.hbm, 3863, rfl⟩
abbrev main_v3733 : Ref sig .tc := ⟨.hbm, 3864, rfl⟩
abbrev main_v3734 : Ref sig .tc := ⟨.hbm, 3865, rfl⟩
abbrev main_v3735 : Ref sig .tc := ⟨.hbm, 3866, rfl⟩
abbrev main_v3736 : Ref sig .tc := ⟨.hbm, 3867, rfl⟩
abbrev main_v3737 : Ref sig .tc := ⟨.hbm, 3868, rfl⟩
abbrev main_v3738 : Ref sig .tc := ⟨.hbm, 3869, rfl⟩
abbrev main_v3739 : Ref sig .tc := ⟨.hbm, 3870, rfl⟩
abbrev main_v3740 : Ref sig .tc := ⟨.hbm, 3871, rfl⟩
abbrev main_v3741 : Ref sig .tc := ⟨.hbm, 3872, rfl⟩
abbrev main_v3742 : Ref sig .tc := ⟨.hbm, 3873, rfl⟩
abbrev main_v3743 : Ref sig .tc := ⟨.hbm, 3874, rfl⟩
abbrev main_v3744 : Ref sig .tc := ⟨.hbm, 3875, rfl⟩
abbrev main_v3745 : Ref sig .tc := ⟨.hbm, 3876, rfl⟩
abbrev main_v3746 : Ref sig .tc := ⟨.hbm, 3877, rfl⟩
abbrev main_v3747 : Ref sig .tc := ⟨.hbm, 3878, rfl⟩
abbrev main_v3748 : Ref sig .tc := ⟨.hbm, 3879, rfl⟩
abbrev main_v3749 : Ref sig .tc := ⟨.hbm, 3880, rfl⟩
abbrev main_v3750 : Ref sig .tc := ⟨.hbm, 3881, rfl⟩
abbrev main_v3751 : Ref sig .tc := ⟨.hbm, 3882, rfl⟩
abbrev main_v3752 : Ref sig .tc := ⟨.hbm, 3883, rfl⟩
abbrev main_v3753 : Ref sig .tc := ⟨.hbm, 3884, rfl⟩
abbrev main_v3754 : Ref sig .tc := ⟨.hbm, 3885, rfl⟩
abbrev main_v3755 : Ref sig .tc := ⟨.hbm, 3886, rfl⟩
abbrev main_v3756 : Ref sig .tc := ⟨.hbm, 3887, rfl⟩
abbrev main_v3757 : Ref sig .tc := ⟨.hbm, 3888, rfl⟩
abbrev main_v3758 : Ref sig .tc := ⟨.hbm, 3889, rfl⟩
abbrev main_v3759 : Ref sig .tc := ⟨.hbm, 3890, rfl⟩
abbrev main_v3760 : Ref sig .tc := ⟨.hbm, 3891, rfl⟩
abbrev main_v3761 : Ref sig .tc := ⟨.hbm, 3892, rfl⟩
abbrev main_v3762 : Ref sig .tc := ⟨.hbm, 3893, rfl⟩
abbrev main_v3763 : Ref sig .tc := ⟨.hbm, 3894, rfl⟩
abbrev main_v3764 : Ref sig .tc := ⟨.hbm, 3895, rfl⟩
abbrev main_v3765 : Ref sig .tc := ⟨.hbm, 3896, rfl⟩
abbrev main_v3766 : Ref sig .tc := ⟨.hbm, 3897, rfl⟩
abbrev main_v3767 : Ref sig .tc := ⟨.hbm, 3898, rfl⟩
abbrev main_v3768 : Ref sig .tc := ⟨.hbm, 3899, rfl⟩
abbrev main_v3769 : Ref sig .tc := ⟨.hbm, 3900, rfl⟩
abbrev main_v3770 : Ref sig .tc := ⟨.hbm, 3901, rfl⟩
abbrev main_v3771 : Ref sig .tc := ⟨.hbm, 3902, rfl⟩
abbrev main_v3772 : Ref sig .tc := ⟨.hbm, 3903, rfl⟩
abbrev main_v3773 : Ref sig .tc := ⟨.hbm, 3904, rfl⟩
abbrev main_v3774 : Ref sig .tc := ⟨.hbm, 3905, rfl⟩
abbrev main_v3775 : Ref sig .tc := ⟨.hbm, 3906, rfl⟩
abbrev main_v3776 : Ref sig .tc := ⟨.hbm, 3907, rfl⟩
abbrev main_v3777 : Ref sig .tc := ⟨.hbm, 3908, rfl⟩
abbrev main_v3778 : Ref sig .tc := ⟨.hbm, 3909, rfl⟩
abbrev main_v3779 : Ref sig .tc := ⟨.hbm, 3910, rfl⟩
abbrev main_v3780 : Ref sig .tc := ⟨.hbm, 3911, rfl⟩
abbrev main_v3781 : Ref sig .tc := ⟨.hbm, 3912, rfl⟩
abbrev main_v3782 : Ref sig .tc := ⟨.hbm, 3913, rfl⟩
abbrev main_v3783 : Ref sig .tc := ⟨.hbm, 3914, rfl⟩
abbrev main_v3784 : Ref sig .tc := ⟨.hbm, 3915, rfl⟩
abbrev main_v3785 : Ref sig .tc := ⟨.hbm, 3916, rfl⟩
abbrev main_v3786 : Ref sig .tc := ⟨.hbm, 3917, rfl⟩
abbrev main_v3787 : Ref sig .tc := ⟨.hbm, 3918, rfl⟩
abbrev main_v3788 : Ref sig .tc := ⟨.hbm, 3919, rfl⟩
abbrev main_cst_123 : Ref sig .tc := ⟨.hbm, 3920, rfl⟩
abbrev main_v3789 : Ref sig .tc := ⟨.hbm, 3921, rfl⟩
abbrev main_v3790 : Ref sig .tc := ⟨.hbm, 3922, rfl⟩
abbrev main_v3791 : Ref sig .tc := ⟨.hbm, 3923, rfl⟩
abbrev main_v3792 : Ref sig .tc := ⟨.hbm, 3924, rfl⟩
abbrev main_v3793 : Ref sig .tc := ⟨.hbm, 3925, rfl⟩
abbrev main_v3794 : Ref sig .tc := ⟨.hbm, 3926, rfl⟩
abbrev main_cst_124 : Ref sig .tc := ⟨.hbm, 3927, rfl⟩
abbrev main_v3795 : Ref sig .tc := ⟨.hbm, 3928, rfl⟩
abbrev main_v3796 : Ref sig .tc := ⟨.hbm, 3929, rfl⟩
abbrev main_v3797 : Ref sig .tc := ⟨.hbm, 3930, rfl⟩
abbrev main_v3798 : Ref sig .tc := ⟨.hbm, 3931, rfl⟩
abbrev main_v3799 : Ref sig .tc := ⟨.hbm, 3932, rfl⟩
abbrev main_v3800 : Ref sig .tc := ⟨.hbm, 3933, rfl⟩
abbrev main_v3801 : Ref sig .tc := ⟨.hbm, 3934, rfl⟩
abbrev main_v3802 : Ref sig .tc := ⟨.hbm, 3935, rfl⟩
abbrev main_v3803 : Ref sig .tc := ⟨.hbm, 3936, rfl⟩
abbrev main_v3804 : Ref sig .tc := ⟨.hbm, 3937, rfl⟩
abbrev main_v3805 : Ref sig .tc := ⟨.hbm, 3938, rfl⟩
abbrev main_v3806 : Ref sig .tc := ⟨.hbm, 3939, rfl⟩
abbrev main_v3807 : Ref sig .tc := ⟨.hbm, 3940, rfl⟩
abbrev main_v3808 : Ref sig .tc := ⟨.hbm, 3941, rfl⟩
abbrev main_v3809 : Ref sig .tc := ⟨.hbm, 3942, rfl⟩
abbrev main_v3810 : Ref sig .tc := ⟨.hbm, 3943, rfl⟩
abbrev main_v3811 : Ref sig .tc := ⟨.hbm, 3944, rfl⟩
abbrev main_v3812 : Ref sig .tc := ⟨.hbm, 3945, rfl⟩
abbrev main_v3813 : Ref sig .tc := ⟨.hbm, 3946, rfl⟩
abbrev main_v3814 : Ref sig .tc := ⟨.hbm, 3947, rfl⟩
abbrev main_v3815 : Ref sig .tc := ⟨.hbm, 3948, rfl⟩
abbrev main_v3816 : Ref sig .tc := ⟨.hbm, 3949, rfl⟩
abbrev main_v3817 : Ref sig .tc := ⟨.hbm, 3950, rfl⟩
abbrev main_v3818 : Ref sig .tc := ⟨.hbm, 3951, rfl⟩
abbrev main_v3819 : Ref sig .tc := ⟨.hbm, 3952, rfl⟩
abbrev main_v3820 : Ref sig .tc := ⟨.hbm, 3953, rfl⟩
abbrev main_v3821 : Ref sig .tc := ⟨.hbm, 3954, rfl⟩
abbrev main_v3822 : Ref sig .tc := ⟨.hbm, 3955, rfl⟩
abbrev main_v3823 : Ref sig .tc := ⟨.hbm, 3956, rfl⟩
abbrev main_v3824 : Ref sig .tc := ⟨.hbm, 3957, rfl⟩
abbrev main_v3825 : Ref sig .tc := ⟨.hbm, 3958, rfl⟩
abbrev main_v3826 : Ref sig .tc := ⟨.hbm, 3959, rfl⟩
abbrev main_v3827 : Ref sig .tc := ⟨.hbm, 3960, rfl⟩
abbrev main_v3828 : Ref sig .tc := ⟨.hbm, 3961, rfl⟩
abbrev main_v3829 : Ref sig .tc := ⟨.hbm, 3962, rfl⟩
abbrev main_v3830 : Ref sig .tc := ⟨.hbm, 3963, rfl⟩
abbrev main_v3831 : Ref sig .tc := ⟨.hbm, 3964, rfl⟩
abbrev main_v3832 : Ref sig .tc := ⟨.hbm, 3965, rfl⟩
abbrev main_v3833 : Ref sig .tc := ⟨.hbm, 3966, rfl⟩
abbrev main_v3834 : Ref sig .tc := ⟨.hbm, 3967, rfl⟩
abbrev main_v3835 : Ref sig .tc := ⟨.hbm, 3968, rfl⟩
abbrev main_v3836 : Ref sig .tc := ⟨.hbm, 3969, rfl⟩
abbrev main_v3837 : Ref sig .tc := ⟨.hbm, 3970, rfl⟩
abbrev main_v3838 : Ref sig .tc := ⟨.hbm, 3971, rfl⟩
abbrev main_v3839 : Ref sig .tc := ⟨.hbm, 3972, rfl⟩
abbrev main_v3840 : Ref sig .tc := ⟨.hbm, 3973, rfl⟩
abbrev main_v3841 : Ref sig .tc := ⟨.hbm, 3974, rfl⟩
abbrev main_v3842 : Ref sig .tc := ⟨.hbm, 3975, rfl⟩
abbrev main_v3843 : Ref sig .tc := ⟨.hbm, 3976, rfl⟩
abbrev main_v3844 : Ref sig .tc := ⟨.hbm, 3977, rfl⟩
abbrev main_v3845 : Ref sig .tc := ⟨.hbm, 3978, rfl⟩
abbrev main_v3846 : Ref sig .tc := ⟨.hbm, 3979, rfl⟩
abbrev main_v3847 : Ref sig .tc := ⟨.hbm, 3980, rfl⟩
abbrev main_v3848 : Ref sig .tc := ⟨.hbm, 3981, rfl⟩
abbrev main_v3849 : Ref sig .tc := ⟨.hbm, 3982, rfl⟩
abbrev main_v3850 : Ref sig .tc := ⟨.hbm, 3983, rfl⟩
abbrev main_v3851 : Ref sig .tc := ⟨.hbm, 3984, rfl⟩
abbrev main_v3852 : Ref sig .tc := ⟨.hbm, 3985, rfl⟩
abbrev main_v3853 : Ref sig .tc := ⟨.hbm, 3986, rfl⟩
abbrev main_v3854 : Ref sig .tc := ⟨.hbm, 3987, rfl⟩
abbrev main_v3855 : Ref sig .tc := ⟨.hbm, 3988, rfl⟩
abbrev main_v3856 : Ref sig .tc := ⟨.hbm, 3989, rfl⟩
abbrev main_v3857 : Ref sig .tc := ⟨.hbm, 3990, rfl⟩
abbrev main_v3858 : Ref sig .tc := ⟨.hbm, 3991, rfl⟩
abbrev main_v3859 : Ref sig .tc := ⟨.hbm, 3992, rfl⟩
abbrev main_v3860 : Ref sig .tc := ⟨.hbm, 3993, rfl⟩
abbrev main_v3861 : Ref sig .tc := ⟨.hbm, 3994, rfl⟩
abbrev main_v3862 : Ref sig .tc := ⟨.hbm, 3995, rfl⟩
abbrev main_v3863 : Ref sig .tc := ⟨.hbm, 3996, rfl⟩
abbrev main_v3864 : Ref sig .tc := ⟨.hbm, 3997, rfl⟩
abbrev main_v3865 : Ref sig .tc := ⟨.hbm, 3998, rfl⟩
abbrev main_v3866 : Ref sig .tc := ⟨.hbm, 3999, rfl⟩
abbrev main_v3867 : Ref sig .tc := ⟨.hbm, 4000, rfl⟩
abbrev main_v3868 : Ref sig .tc := ⟨.hbm, 4001, rfl⟩
abbrev main_v3869 : Ref sig .tc := ⟨.hbm, 4002, rfl⟩
abbrev main_v3870 : Ref sig .tc := ⟨.hbm, 4003, rfl⟩
abbrev main_v3871 : Ref sig .tc := ⟨.hbm, 4004, rfl⟩
abbrev main_v3872 : Ref sig .tc := ⟨.hbm, 4005, rfl⟩
abbrev main_v3873 : Ref sig .tc := ⟨.hbm, 4006, rfl⟩
abbrev main_v3874 : Ref sig .tc := ⟨.hbm, 4007, rfl⟩
abbrev main_v3875 : Ref sig .tc := ⟨.hbm, 4008, rfl⟩
abbrev main_v3876 : Ref sig .tc := ⟨.hbm, 4009, rfl⟩
abbrev main_v3877 : Ref sig .tc := ⟨.hbm, 4010, rfl⟩
abbrev main_v3878 : Ref sig .tc := ⟨.hbm, 4011, rfl⟩
abbrev main_v3879 : Ref sig .tc := ⟨.hbm, 4012, rfl⟩
abbrev main_v3880 : Ref sig .tc := ⟨.hbm, 4013, rfl⟩
abbrev main_v3881 : Ref sig .tc := ⟨.hbm, 4014, rfl⟩
abbrev main_v3882 : Ref sig .tc := ⟨.hbm, 4015, rfl⟩
abbrev main_v3883 : Ref sig .tc := ⟨.hbm, 4016, rfl⟩
abbrev main_v3884 : Ref sig .tc := ⟨.hbm, 4017, rfl⟩
abbrev main_v3885 : Ref sig .tc := ⟨.hbm, 4018, rfl⟩
abbrev main_v3886 : Ref sig .tc := ⟨.hbm, 4019, rfl⟩
abbrev main_v3887 : Ref sig .tc := ⟨.hbm, 4020, rfl⟩
abbrev main_v3888 : Ref sig .tc := ⟨.hbm, 4021, rfl⟩
abbrev main_v3889 : Ref sig .tc := ⟨.hbm, 4022, rfl⟩
abbrev main_v3890 : Ref sig .tc := ⟨.hbm, 4023, rfl⟩
abbrev main_v3891 : Ref sig .tc := ⟨.hbm, 4024, rfl⟩
abbrev main_v3892 : Ref sig .tc := ⟨.hbm, 4025, rfl⟩
abbrev main_v3893 : Ref sig .tc := ⟨.hbm, 4026, rfl⟩
abbrev main_v3894 : Ref sig .tc := ⟨.hbm, 4027, rfl⟩
abbrev main_v3895 : Ref sig .tc := ⟨.hbm, 4028, rfl⟩
abbrev main_v3896 : Ref sig .tc := ⟨.hbm, 4029, rfl⟩
abbrev main_v3897 : Ref sig .tc := ⟨.hbm, 4030, rfl⟩
abbrev main_cst_125 : Ref sig .tc := ⟨.hbm, 4031, rfl⟩
abbrev main_v3898 : Ref sig .tc := ⟨.hbm, 4032, rfl⟩
abbrev main_v3899 : Ref sig .tc := ⟨.hbm, 4033, rfl⟩
abbrev main_v3900 : Ref sig .tc := ⟨.hbm, 4034, rfl⟩
abbrev main_v3901 : Ref sig .tc := ⟨.hbm, 4035, rfl⟩
abbrev main_v3902 : Ref sig .tc := ⟨.hbm, 4036, rfl⟩
abbrev main_v3903 : Ref sig .tc := ⟨.hbm, 4037, rfl⟩
abbrev main_cst_126 : Ref sig .tc := ⟨.hbm, 4038, rfl⟩
abbrev main_v3904 : Ref sig .tc := ⟨.hbm, 4039, rfl⟩
abbrev main_v3905 : Ref sig .tc := ⟨.hbm, 4040, rfl⟩
abbrev main_v3906 : Ref sig .tc := ⟨.hbm, 4041, rfl⟩
abbrev main_v3907 : Ref sig .tc := ⟨.hbm, 4042, rfl⟩
abbrev main_v3908 : Ref sig .tc := ⟨.hbm, 4043, rfl⟩
abbrev main_v3909 : Ref sig .tc := ⟨.hbm, 4044, rfl⟩
abbrev main_v3910 : Ref sig .tc := ⟨.hbm, 4045, rfl⟩
abbrev main_v3911 : Ref sig .tc := ⟨.hbm, 4046, rfl⟩
abbrev main_v3912 : Ref sig .tc := ⟨.hbm, 4047, rfl⟩
abbrev main_v3913 : Ref sig .tc := ⟨.hbm, 4048, rfl⟩
abbrev main_v3914 : Ref sig .tc := ⟨.hbm, 4049, rfl⟩
abbrev main_v3915 : Ref sig .tc := ⟨.hbm, 4050, rfl⟩
abbrev main_v3916 : Ref sig .tc := ⟨.hbm, 4051, rfl⟩
abbrev main_v3917 : Ref sig .tc := ⟨.hbm, 4052, rfl⟩
abbrev main_v3918 : Ref sig .tc := ⟨.hbm, 4053, rfl⟩
abbrev main_v3919 : Ref sig .tc := ⟨.hbm, 4054, rfl⟩
abbrev main_v3920 : Ref sig .tc := ⟨.hbm, 4055, rfl⟩
abbrev main_v3921 : Ref sig .tc := ⟨.hbm, 4056, rfl⟩
abbrev main_v3922 : Ref sig .tc := ⟨.hbm, 4057, rfl⟩
abbrev main_v3923 : Ref sig .tc := ⟨.hbm, 4058, rfl⟩
abbrev main_v3924 : Ref sig .tc := ⟨.hbm, 4059, rfl⟩
abbrev main_v3925 : Ref sig .tc := ⟨.hbm, 4060, rfl⟩
abbrev main_v3926 : Ref sig .tc := ⟨.hbm, 4061, rfl⟩
abbrev main_v3927 : Ref sig .tc := ⟨.hbm, 4062, rfl⟩
abbrev main_v3928 : Ref sig .tc := ⟨.hbm, 4063, rfl⟩
abbrev main_v3929 : Ref sig .tc := ⟨.hbm, 4064, rfl⟩
abbrev main_v3930 : Ref sig .tc := ⟨.hbm, 4065, rfl⟩
abbrev main_v3931 : Ref sig .tc := ⟨.hbm, 4066, rfl⟩
abbrev main_v3932 : Ref sig .tc := ⟨.hbm, 4067, rfl⟩
abbrev main_v3933 : Ref sig .tc := ⟨.hbm, 4068, rfl⟩
abbrev main_v3934 : Ref sig .tc := ⟨.hbm, 4069, rfl⟩
abbrev main_v3935 : Ref sig .tc := ⟨.hbm, 4070, rfl⟩
abbrev main_v3936 : Ref sig .tc := ⟨.hbm, 4071, rfl⟩
abbrev main_v3937 : Ref sig .tc := ⟨.hbm, 4072, rfl⟩
abbrev main_v3938 : Ref sig .tc := ⟨.hbm, 4073, rfl⟩
abbrev main_v3939 : Ref sig .tc := ⟨.hbm, 4074, rfl⟩
abbrev main_v3940 : Ref sig .tc := ⟨.hbm, 4075, rfl⟩
abbrev main_v3941 : Ref sig .tc := ⟨.hbm, 4076, rfl⟩
abbrev main_v3942 : Ref sig .tc := ⟨.hbm, 4077, rfl⟩
abbrev main_v3943 : Ref sig .tc := ⟨.hbm, 4078, rfl⟩
abbrev main_v3944 : Ref sig .tc := ⟨.hbm, 4079, rfl⟩
abbrev main_v3945 : Ref sig .tc := ⟨.hbm, 4080, rfl⟩
abbrev main_v3946 : Ref sig .tc := ⟨.hbm, 4081, rfl⟩
abbrev main_v3947 : Ref sig .tc := ⟨.hbm, 4082, rfl⟩
abbrev main_v3948 : Ref sig .tc := ⟨.hbm, 4083, rfl⟩
abbrev main_v3949 : Ref sig .tc := ⟨.hbm, 4084, rfl⟩
abbrev main_v3950 : Ref sig .tc := ⟨.hbm, 4085, rfl⟩
abbrev main_v3951 : Ref sig .tc := ⟨.hbm, 4086, rfl⟩
abbrev main_v3952 : Ref sig .tc := ⟨.hbm, 4087, rfl⟩
abbrev main_v3953 : Ref sig .tc := ⟨.hbm, 4088, rfl⟩
abbrev main_v3954 : Ref sig .tc := ⟨.hbm, 4089, rfl⟩
abbrev main_v3955 : Ref sig .tc := ⟨.hbm, 4090, rfl⟩
abbrev main_v3956 : Ref sig .tc := ⟨.hbm, 4091, rfl⟩
abbrev main_v3957 : Ref sig .tc := ⟨.hbm, 4092, rfl⟩
abbrev main_v3958 : Ref sig .tc := ⟨.hbm, 4093, rfl⟩
abbrev main_v3959 : Ref sig .tc := ⟨.hbm, 4094, rfl⟩
abbrev main_v3960 : Ref sig .tc := ⟨.hbm, 4095, rfl⟩
abbrev main_v3961 : Ref sig .tc := ⟨.hbm, 4096, rfl⟩
abbrev main_v3962 : Ref sig .tc := ⟨.hbm, 4097, rfl⟩
abbrev main_v3963 : Ref sig .tc := ⟨.hbm, 4098, rfl⟩
abbrev main_v3964 : Ref sig .tc := ⟨.hbm, 4099, rfl⟩
abbrev main_v3965 : Ref sig .tc := ⟨.hbm, 4100, rfl⟩
abbrev main_v3966 : Ref sig .tc := ⟨.hbm, 4101, rfl⟩
abbrev main_v3967 : Ref sig .tc := ⟨.hbm, 4102, rfl⟩
abbrev main_v3968 : Ref sig .tc := ⟨.hbm, 4103, rfl⟩
abbrev main_v3969 : Ref sig .tc := ⟨.hbm, 4104, rfl⟩
abbrev main_v3970 : Ref sig .tc := ⟨.hbm, 4105, rfl⟩
abbrev main_v3971 : Ref sig .tc := ⟨.hbm, 4106, rfl⟩
abbrev main_v3972 : Ref sig .tc := ⟨.hbm, 4107, rfl⟩
abbrev main_v3973 : Ref sig .tc := ⟨.hbm, 4108, rfl⟩
abbrev main_v3974 : Ref sig .tc := ⟨.hbm, 4109, rfl⟩
abbrev main_v3975 : Ref sig .tc := ⟨.hbm, 4110, rfl⟩
abbrev main_v3976 : Ref sig .tc := ⟨.hbm, 4111, rfl⟩
abbrev main_v3977 : Ref sig .tc := ⟨.hbm, 4112, rfl⟩
abbrev main_v3978 : Ref sig .tc := ⟨.hbm, 4113, rfl⟩
abbrev main_v3979 : Ref sig .tc := ⟨.hbm, 4114, rfl⟩
abbrev main_v3980 : Ref sig .tc := ⟨.hbm, 4115, rfl⟩
abbrev main_v3981 : Ref sig .tc := ⟨.hbm, 4116, rfl⟩
abbrev main_v3982 : Ref sig .tc := ⟨.hbm, 4117, rfl⟩
abbrev main_v3983 : Ref sig .tc := ⟨.hbm, 4118, rfl⟩
abbrev main_v3984 : Ref sig .tc := ⟨.hbm, 4119, rfl⟩
abbrev main_v3985 : Ref sig .tc := ⟨.hbm, 4120, rfl⟩
abbrev main_v3986 : Ref sig .tc := ⟨.hbm, 4121, rfl⟩
abbrev main_v3987 : Ref sig .tc := ⟨.hbm, 4122, rfl⟩
abbrev main_v3988 : Ref sig .tc := ⟨.hbm, 4123, rfl⟩
abbrev main_v3989 : Ref sig .tc := ⟨.hbm, 4124, rfl⟩
abbrev main_v3990 : Ref sig .tc := ⟨.hbm, 4125, rfl⟩
abbrev main_v3991 : Ref sig .tc := ⟨.hbm, 4126, rfl⟩
abbrev main_v3992 : Ref sig .tc := ⟨.hbm, 4127, rfl⟩
abbrev main_v3993 : Ref sig .tc := ⟨.hbm, 4128, rfl⟩
abbrev main_v3994 : Ref sig .tc := ⟨.hbm, 4129, rfl⟩
abbrev main_v3995 : Ref sig .tc := ⟨.hbm, 4130, rfl⟩
abbrev main_v3996 : Ref sig .tc := ⟨.hbm, 4131, rfl⟩
abbrev main_v3997 : Ref sig .tc := ⟨.hbm, 4132, rfl⟩
abbrev main_v3998 : Ref sig .tc := ⟨.hbm, 4133, rfl⟩
abbrev main_v3999 : Ref sig .tc := ⟨.hbm, 4134, rfl⟩
abbrev main_v4000 : Ref sig .tc := ⟨.hbm, 4135, rfl⟩
abbrev main_v4001 : Ref sig .tc := ⟨.hbm, 4136, rfl⟩
abbrev main_v4002 : Ref sig .tc := ⟨.hbm, 4137, rfl⟩
abbrev main_v4003 : Ref sig .tc := ⟨.hbm, 4138, rfl⟩
abbrev main_v4004 : Ref sig .tc := ⟨.hbm, 4139, rfl⟩
abbrev main_v4005 : Ref sig .tc := ⟨.hbm, 4140, rfl⟩
abbrev main_v4006 : Ref sig .tc := ⟨.hbm, 4141, rfl⟩
abbrev main_cst_127 : Ref sig .tc := ⟨.hbm, 4142, rfl⟩
abbrev main_v4007 : Ref sig .tc := ⟨.hbm, 4143, rfl⟩
abbrev main_v4008 : Ref sig .tc := ⟨.hbm, 4144, rfl⟩
abbrev main_v4009 : Ref sig .tc := ⟨.hbm, 4145, rfl⟩
abbrev main_v4010 : Ref sig .tc := ⟨.hbm, 4146, rfl⟩
abbrev main_v4011 : Ref sig .tc := ⟨.hbm, 4147, rfl⟩
abbrev main_v4012 : Ref sig .tc := ⟨.hbm, 4148, rfl⟩
abbrev main_v4013 : Ref sig .tc := ⟨.hbm, 4149, rfl⟩
abbrev main_v4014 : Ref sig .tc := ⟨.hbm, 4150, rfl⟩
abbrev main_v4015 : Ref sig .tc := ⟨.hbm, 4151, rfl⟩
abbrev main_v4016 : Ref sig .tc := ⟨.hbm, 4152, rfl⟩
abbrev main_v4017 : Ref sig .tc := ⟨.hbm, 4153, rfl⟩
abbrev main_v4018 : Ref sig .tc := ⟨.hbm, 4154, rfl⟩
abbrev main_v4019 : Ref sig .tc := ⟨.hbm, 4155, rfl⟩
abbrev main_v4020 : Ref sig .tc := ⟨.hbm, 4156, rfl⟩
abbrev main_v4021 : Ref sig .tc := ⟨.hbm, 4157, rfl⟩
abbrev main_v4022 : Ref sig .tc := ⟨.hbm, 4158, rfl⟩
abbrev main_v4023 : Ref sig .tc := ⟨.hbm, 4159, rfl⟩
abbrev main_v4024 : Ref sig .tc := ⟨.hbm, 4160, rfl⟩
abbrev main_v4025 : Ref sig .tc := ⟨.hbm, 4161, rfl⟩
abbrev main_v4026 : Ref sig .tc := ⟨.hbm, 4162, rfl⟩
abbrev main_v4027 : Ref sig .tc := ⟨.hbm, 4163, rfl⟩
abbrev main_v4028 : Ref sig .tc := ⟨.hbm, 4164, rfl⟩
abbrev main_v4029 : Ref sig .tc := ⟨.hbm, 4165, rfl⟩
abbrev main_v4030 : Ref sig .tc := ⟨.hbm, 4166, rfl⟩
abbrev main_v4031 : Ref sig .tc := ⟨.hbm, 4167, rfl⟩
abbrev main_v4032 : Ref sig .tc := ⟨.hbm, 4168, rfl⟩
abbrev main_v4033 : Ref sig .tc := ⟨.hbm, 4169, rfl⟩
abbrev main_v4034 : Ref sig .tc := ⟨.hbm, 4170, rfl⟩
abbrev main_v4035 : Ref sig .tc := ⟨.hbm, 4171, rfl⟩
abbrev main_v4036 : Ref sig .tc := ⟨.hbm, 4172, rfl⟩
abbrev main_v4037 : Ref sig .tc := ⟨.hbm, 4173, rfl⟩
abbrev main_v4038 : Ref sig .tc := ⟨.hbm, 4174, rfl⟩
abbrev main_v4039 : Ref sig .tc := ⟨.hbm, 4175, rfl⟩
abbrev main_v4040 : Ref sig .tc := ⟨.hbm, 4176, rfl⟩
abbrev main_v4041 : Ref sig .tc := ⟨.hbm, 4177, rfl⟩
abbrev main_v4042 : Ref sig .tc := ⟨.hbm, 4178, rfl⟩
abbrev main_v4043 : Ref sig .tc := ⟨.hbm, 4179, rfl⟩
abbrev main_v4044 : Ref sig .tc := ⟨.hbm, 4180, rfl⟩
abbrev main_v4045 : Ref sig .tc := ⟨.hbm, 4181, rfl⟩
abbrev main_v4046 : Ref sig .tc := ⟨.hbm, 4182, rfl⟩
abbrev main_v4047 : Ref sig .tc := ⟨.hbm, 4183, rfl⟩
abbrev main_v4048 : Ref sig .tc := ⟨.hbm, 4184, rfl⟩
abbrev main_v4049 : Ref sig .tc := ⟨.hbm, 4185, rfl⟩
abbrev main_v4050 : Ref sig .tc := ⟨.hbm, 4186, rfl⟩
abbrev main_v4051 : Ref sig .tc := ⟨.hbm, 4187, rfl⟩
abbrev main_v4052 : Ref sig .tc := ⟨.hbm, 4188, rfl⟩
abbrev main_v4053 : Ref sig .tc := ⟨.hbm, 4189, rfl⟩
abbrev main_v4054 : Ref sig .tc := ⟨.hbm, 4190, rfl⟩
abbrev main_v4055 : Ref sig .tc := ⟨.hbm, 4191, rfl⟩
abbrev main_v4056 : Ref sig .tc := ⟨.hbm, 4192, rfl⟩
abbrev main_v4057 : Ref sig .tc := ⟨.hbm, 4193, rfl⟩
abbrev main_v4058 : Ref sig .tc := ⟨.hbm, 4194, rfl⟩
abbrev main_v4059 : Ref sig .tc := ⟨.hbm, 4195, rfl⟩
abbrev main_v4060 : Ref sig .tc := ⟨.hbm, 4196, rfl⟩
abbrev main_v4061 : Ref sig .tc := ⟨.hbm, 4197, rfl⟩
abbrev main_v4062 : Ref sig .tc := ⟨.hbm, 4198, rfl⟩
abbrev main_v4063 : Ref sig .tc := ⟨.hbm, 4199, rfl⟩
abbrev main_v4064 : Ref sig .tc := ⟨.hbm, 4200, rfl⟩
abbrev main_v4065 : Ref sig .tc := ⟨.hbm, 4201, rfl⟩
abbrev main_v4066 : Ref sig .tc := ⟨.hbm, 4202, rfl⟩
abbrev main_v4067 : Ref sig .tc := ⟨.hbm, 4203, rfl⟩
abbrev main_v4068 : Ref sig .tc := ⟨.hbm, 4204, rfl⟩
abbrev main_v4069 : Ref sig .tc := ⟨.hbm, 4205, rfl⟩
abbrev main_v4070 : Ref sig .tc := ⟨.hbm, 4206, rfl⟩
abbrev main_v4071 : Ref sig .tc := ⟨.hbm, 4207, rfl⟩
abbrev main_v4072 : Ref sig .tc := ⟨.hbm, 4208, rfl⟩
abbrev main_v4073 : Ref sig .tc := ⟨.hbm, 4209, rfl⟩
abbrev main_v4074 : Ref sig .tc := ⟨.hbm, 4210, rfl⟩
abbrev main_v4075 : Ref sig .tc := ⟨.hbm, 4211, rfl⟩
abbrev main_v4076 : Ref sig .tc := ⟨.hbm, 4212, rfl⟩
abbrev main_v4077 : Ref sig .tc := ⟨.hbm, 4213, rfl⟩
abbrev main_v4078 : Ref sig .tc := ⟨.hbm, 4214, rfl⟩
abbrev main_v4079 : Ref sig .tc := ⟨.hbm, 4215, rfl⟩
abbrev main_v4080 : Ref sig .tc := ⟨.hbm, 4216, rfl⟩
abbrev main_v4081 : Ref sig .tc := ⟨.hbm, 4217, rfl⟩
abbrev main_v4082 : Ref sig .tc := ⟨.hbm, 4218, rfl⟩
abbrev main_v4083 : Ref sig .tc := ⟨.hbm, 4219, rfl⟩
abbrev main_cst_128 : Ref sig .tc := ⟨.hbm, 4220, rfl⟩
abbrev main_v4084 : Ref sig .tc := ⟨.hbm, 4221, rfl⟩
abbrev main_v4085 : Ref sig .tc := ⟨.hbm, 4222, rfl⟩
abbrev main_cst_129 : Ref sig .tc := ⟨.hbm, 4223, rfl⟩
abbrev main_v4086 : Ref sig .tc := ⟨.hbm, 4224, rfl⟩
abbrev main_v4087 : Ref sig .tc := ⟨.hbm, 4225, rfl⟩

abbrev nD : Nat := 1
abbrev τ : Topo := Topo.v7x

variable {F : FTy → Type} [FloatOps F]

class Facts₀ : Prop where
  shapeCasts_S128x1x512_S128x512 : S128x1x512.ShapeCasts S128x512
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  slices_S64x33x300_S1x2x300_0_0_0 : S64x33x300.Slices ![0, 0, 0] S1x2x300
  shapeCasts_S1x2x300_S2x300 : S1x2x300.ShapeCasts S2x300
  slices_S128x512x2_S128x511x1_0_0_0 : S128x512x2.Slices ![0, 0, 0] S128x511x1
  shapeCasts_S128x511x1_S128x511 : S128x511x1.ShapeCasts S128x511
  bcast_S_S128x511 : S_.BroadcastsInDim S128x511 (![] : Fin 0 → Fin S128x511.rank)
  slices_S128x512x2_S128x511x1_0_1_1 : S128x512x2.Slices ![0, 1, 1] S128x511x1
  slices_S64_S1_0 : S64.Slices ![0] S1
  shapeCasts_S1_S_ : S1.ShapeCasts S_
  reducesTo_S128x511_S128_d1 : S128x511.ReducesTo [1] S128
  h_S_ : 0 < S_.numel
  slices_S64x33x300_S1x2x300_1_0_0 : S64x33x300.Slices ![1, 0, 0] S1x2x300
  slices_S64_S1_1 : S64.Slices ![1] S1
  slices_S64x33x300_S1x3x300_2_0_0 : S64x33x300.Slices ![2, 0, 0] S1x3x300
  shapeCasts_S1x3x300_S3x300 : S1x3x300.ShapeCasts S3x300
  slices_S128x512x3_S128x510x1_0_0_0 : S128x512x3.Slices ![0, 0, 0] S128x510x1
  shapeCasts_S128x510x1_S128x510 : S128x510x1.ShapeCasts S128x510
  bcast_S_S128x510 : S_.BroadcastsInDim S128x510 (![] : Fin 0 → Fin S128x510.rank)
  slices_S128x512x3_S128x510x1_0_1_1 : S128x512x3.Slices ![0, 1, 1] S128x510x1
  slices_S128x512x3_S128x510x1_0_2_2 : S128x512x3.Slices ![0, 2, 2] S128x510x1
  slices_S64_S1_2 : S64.Slices ![2] S1
  reducesTo_S128x510_S128_d1 : S128x510.ReducesTo [1] S128
  slices_S64x33x300_S1x3x300_3_0_0 : S64x33x300.Slices ![3, 0, 0] S1x3x300
  slices_S64_S1_3 : S64.Slices ![3] S1
  slices_S64x33x300_S1x4x300_4_0_0 : S64x33x300.Slices ![4, 0, 0] S1x4x300
  shapeCasts_S1x4x300_S4x300 : S1x4x300.ShapeCasts S4x300
  slices_S128x512x4_S128x509x1_0_0_0 : S128x512x4.Slices ![0, 0, 0] S128x509x1
  shapeCasts_S128x509x1_S128x509 : S128x509x1.ShapeCasts S128x509
  bcast_S_S128x509 : S_.BroadcastsInDim S128x509 (![] : Fin 0 → Fin S128x509.rank)
  slices_S128x512x4_S128x509x1_0_1_1 : S128x512x4.Slices ![0, 1, 1] S128x509x1
  slices_S128x512x4_S128x509x1_0_2_2 : S128x512x4.Slices ![0, 2, 2] S128x509x1
  slices_S128x512x4_S128x509x1_0_3_3 : S128x512x4.Slices ![0, 3, 3] S128x509x1
  slices_S64_S1_4 : S64.Slices ![4] S1
  reducesTo_S128x509_S128_d1 : S128x509.ReducesTo [1] S128
  slices_S64x33x300_S1x4x300_5_0_0 : S64x33x300.Slices ![5, 0, 0] S1x4x300
  slices_S64_S1_5 : S64.Slices ![5] S1
  slices_S64x33x300_S1x5x300_6_0_0 : S64x33x300.Slices ![6, 0, 0] S1x5x300
  shapeCasts_S1x5x300_S5x300 : S1x5x300.ShapeCasts S5x300
  slices_S128x512x5_S128x508x1_0_0_0 : S128x512x5.Slices ![0, 0, 0] S128x508x1
  shapeCasts_S128x508x1_S128x508 : S128x508x1.ShapeCasts S128x508
  bcast_S_S128x508 : S_.BroadcastsInDim S128x508 (![] : Fin 0 → Fin S128x508.rank)
  slices_S128x512x5_S128x508x1_0_1_1 : S128x512x5.Slices ![0, 1, 1] S128x508x1
  slices_S128x512x5_S128x508x1_0_2_2 : S128x512x5.Slices ![0, 2, 2] S128x508x1
  slices_S128x512x5_S128x508x1_0_3_3 : S128x512x5.Slices ![0, 3, 3] S128x508x1
  slices_S128x512x5_S128x508x1_0_4_4 : S128x512x5.Slices ![0, 4, 4] S128x508x1
  slices_S64_S1_6 : S64.Slices ![6] S1
  reducesTo_S128x508_S128_d1 : S128x508.ReducesTo [1] S128
  slices_S64x33x300_S1x5x300_7_0_0 : S64x33x300.Slices ![7, 0, 0] S1x5x300
  slices_S64_S1_7 : S64.Slices ![7] S1
  slices_S64x33x300_S1x6x300_8_0_0 : S64x33x300.Slices ![8, 0, 0] S1x6x300
  shapeCasts_S1x6x300_S6x300 : S1x6x300.ShapeCasts S6x300
  slices_S128x512x6_S128x507x1_0_0_0 : S128x512x6.Slices ![0, 0, 0] S128x507x1
  shapeCasts_S128x507x1_S128x507 : S128x507x1.ShapeCasts S128x507
  bcast_S_S128x507 : S_.BroadcastsInDim S128x507 (![] : Fin 0 → Fin S128x507.rank)
  slices_S128x512x6_S128x507x1_0_1_1 : S128x512x6.Slices ![0, 1, 1] S128x507x1
  slices_S128x512x6_S128x507x1_0_2_2 : S128x512x6.Slices ![0, 2, 2] S128x507x1
  slices_S128x512x6_S128x507x1_0_3_3 : S128x512x6.Slices ![0, 3, 3] S128x507x1
  slices_S128x512x6_S128x507x1_0_4_4 : S128x512x6.Slices ![0, 4, 4] S128x507x1
  slices_S128x512x6_S128x507x1_0_5_5 : S128x512x6.Slices ![0, 5, 5] S128x507x1
  slices_S64_S1_8 : S64.Slices ![8] S1
  reducesTo_S128x507_S128_d1 : S128x507.ReducesTo [1] S128
  slices_S64x33x300_S1x6x300_9_0_0 : S64x33x300.Slices ![9, 0, 0] S1x6x300
  slices_S64_S1_9 : S64.Slices ![9] S1
  slices_S64x33x300_S1x7x300_10_0_0 : S64x33x300.Slices ![10, 0, 0] S1x7x300
  shapeCasts_S1x7x300_S7x300 : S1x7x300.ShapeCasts S7x300
  slices_S128x512x7_S128x506x1_0_0_0 : S128x512x7.Slices ![0, 0, 0] S128x506x1
  shapeCasts_S128x506x1_S128x506 : S128x506x1.ShapeCasts S128x506
  bcast_S_S128x506 : S_.BroadcastsInDim S128x506 (![] : Fin 0 → Fin S128x506.rank)
  slices_S128x512x7_S128x506x1_0_1_1 : S128x512x7.Slices ![0, 1, 1] S128x506x1
  slices_S128x512x7_S128x506x1_0_2_2 : S128x512x7.Slices ![0, 2, 2] S128x506x1
  slices_S128x512x7_S128x506x1_0_3_3 : S128x512x7.Slices ![0, 3, 3] S128x506x1
  slices_S128x512x7_S128x506x1_0_4_4 : S128x512x7.Slices ![0, 4, 4] S128x506x1
  slices_S128x512x7_S128x506x1_0_5_5 : S128x512x7.Slices ![0, 5, 5] S128x506x1
  slices_S128x512x7_S128x506x1_0_6_6 : S128x512x7.Slices ![0, 6, 6] S128x506x1
  slices_S64_S1_10 : S64.Slices ![10] S1
  reducesTo_S128x506_S128_d1 : S128x506.ReducesTo [1] S128
  slices_S64x33x300_S1x7x300_11_0_0 : S64x33x300.Slices ![11, 0, 0] S1x7x300
  slices_S64_S1_11 : S64.Slices ![11] S1
  slices_S64x33x300_S1x8x300_12_0_0 : S64x33x300.Slices ![12, 0, 0] S1x8x300
  shapeCasts_S1x8x300_S8x300 : S1x8x300.ShapeCasts S8x300
  slices_S128x512x8_S128x505x1_0_0_0 : S128x512x8.Slices ![0, 0, 0] S128x505x1
  shapeCasts_S128x505x1_S128x505 : S128x505x1.ShapeCasts S128x505
  bcast_S_S128x505 : S_.BroadcastsInDim S128x505 (![] : Fin 0 → Fin S128x505.rank)
  slices_S128x512x8_S128x505x1_0_1_1 : S128x512x8.Slices ![0, 1, 1] S128x505x1
  slices_S128x512x8_S128x505x1_0_2_2 : S128x512x8.Slices ![0, 2, 2] S128x505x1
  slices_S128x512x8_S128x505x1_0_3_3 : S128x512x8.Slices ![0, 3, 3] S128x505x1
  slices_S128x512x8_S128x505x1_0_4_4 : S128x512x8.Slices ![0, 4, 4] S128x505x1
  slices_S128x512x8_S128x505x1_0_5_5 : S128x512x8.Slices ![0, 5, 5] S128x505x1
  slices_S128x512x8_S128x505x1_0_6_6 : S128x512x8.Slices ![0, 6, 6] S128x505x1
  slices_S128x512x8_S128x505x1_0_7_7 : S128x512x8.Slices ![0, 7, 7] S128x505x1
  slices_S64_S1_12 : S64.Slices ![12] S1
  reducesTo_S128x505_S128_d1 : S128x505.ReducesTo [1] S128
  slices_S64x33x300_S1x8x300_13_0_0 : S64x33x300.Slices ![13, 0, 0] S1x8x300
  slices_S64_S1_13 : S64.Slices ![13] S1
  slices_S64x33x300_S1x9x300_14_0_0 : S64x33x300.Slices ![14, 0, 0] S1x9x300
  shapeCasts_S1x9x300_S9x300 : S1x9x300.ShapeCasts S9x300
  slices_S128x512x9_S128x504x1_0_0_0 : S128x512x9.Slices ![0, 0, 0] S128x504x1
  shapeCasts_S128x504x1_S128x504 : S128x504x1.ShapeCasts S128x504
  bcast_S_S128x504 : S_.BroadcastsInDim S128x504 (![] : Fin 0 → Fin S128x504.rank)
  slices_S128x512x9_S128x504x1_0_1_1 : S128x512x9.Slices ![0, 1, 1] S128x504x1
  slices_S128x512x9_S128x504x1_0_2_2 : S128x512x9.Slices ![0, 2, 2] S128x504x1
  slices_S128x512x9_S128x504x1_0_3_3 : S128x512x9.Slices ![0, 3, 3] S128x504x1
  slices_S128x512x9_S128x504x1_0_4_4 : S128x512x9.Slices ![0, 4, 4] S128x504x1
  slices_S128x512x9_S128x504x1_0_5_5 : S128x512x9.Slices ![0, 5, 5] S128x504x1
  slices_S128x512x9_S128x504x1_0_6_6 : S128x512x9.Slices ![0, 6, 6] S128x504x1
  slices_S128x512x9_S128x504x1_0_7_7 : S128x512x9.Slices ![0, 7, 7] S128x504x1
  slices_S128x512x9_S128x504x1_0_8_8 : S128x512x9.Slices ![0, 8, 8] S128x504x1
  slices_S64_S1_14 : S64.Slices ![14] S1
  reducesTo_S128x504_S128_d1 : S128x504.ReducesTo [1] S128
  slices_S64x33x300_S1x9x300_15_0_0 : S64x33x300.Slices ![15, 0, 0] S1x9x300
  slices_S64_S1_15 : S64.Slices ![15] S1
  slices_S64x33x300_S1x10x300_16_0_0 : S64x33x300.Slices ![16, 0, 0] S1x10x300
  shapeCasts_S1x10x300_S10x300 : S1x10x300.ShapeCasts S10x300
  slices_S128x512x10_S128x503x1_0_0_0 : S128x512x10.Slices ![0, 0, 0] S128x503x1
  shapeCasts_S128x503x1_S128x503 : S128x503x1.ShapeCasts S128x503
  bcast_S_S128x503 : S_.BroadcastsInDim S128x503 (![] : Fin 0 → Fin S128x503.rank)
  slices_S128x512x10_S128x503x1_0_1_1 : S128x512x10.Slices ![0, 1, 1] S128x503x1
  slices_S128x512x10_S128x503x1_0_2_2 : S128x512x10.Slices ![0, 2, 2] S128x503x1
  slices_S128x512x10_S128x503x1_0_3_3 : S128x512x10.Slices ![0, 3, 3] S128x503x1
  slices_S128x512x10_S128x503x1_0_4_4 : S128x512x10.Slices ![0, 4, 4] S128x503x1
  slices_S128x512x10_S128x503x1_0_5_5 : S128x512x10.Slices ![0, 5, 5] S128x503x1
  slices_S128x512x10_S128x503x1_0_6_6 : S128x512x10.Slices ![0, 6, 6] S128x503x1
  slices_S128x512x10_S128x503x1_0_7_7 : S128x512x10.Slices ![0, 7, 7] S128x503x1
  slices_S128x512x10_S128x503x1_0_8_8 : S128x512x10.Slices ![0, 8, 8] S128x503x1
  slices_S128x512x10_S128x503x1_0_9_9 : S128x512x10.Slices ![0, 9, 9] S128x503x1
  slices_S64_S1_16 : S64.Slices ![16] S1
  reducesTo_S128x503_S128_d1 : S128x503.ReducesTo [1] S128
  slices_S64x33x300_S1x10x300_17_0_0 : S64x33x300.Slices ![17, 0, 0] S1x10x300
  slices_S64_S1_17 : S64.Slices ![17] S1
  slices_S64x33x300_S1x11x300_18_0_0 : S64x33x300.Slices ![18, 0, 0] S1x11x300
  shapeCasts_S1x11x300_S11x300 : S1x11x300.ShapeCasts S11x300
  slices_S128x512x11_S128x502x1_0_0_0 : S128x512x11.Slices ![0, 0, 0] S128x502x1
  shapeCasts_S128x502x1_S128x502 : S128x502x1.ShapeCasts S128x502
  bcast_S_S128x502 : S_.BroadcastsInDim S128x502 (![] : Fin 0 → Fin S128x502.rank)
  slices_S128x512x11_S128x502x1_0_1_1 : S128x512x11.Slices ![0, 1, 1] S128x502x1
  slices_S128x512x11_S128x502x1_0_2_2 : S128x512x11.Slices ![0, 2, 2] S128x502x1
  slices_S128x512x11_S128x502x1_0_3_3 : S128x512x11.Slices ![0, 3, 3] S128x502x1
  slices_S128x512x11_S128x502x1_0_4_4 : S128x512x11.Slices ![0, 4, 4] S128x502x1
  slices_S128x512x11_S128x502x1_0_5_5 : S128x512x11.Slices ![0, 5, 5] S128x502x1
  slices_S128x512x11_S128x502x1_0_6_6 : S128x512x11.Slices ![0, 6, 6] S128x502x1
  slices_S128x512x11_S128x502x1_0_7_7 : S128x512x11.Slices ![0, 7, 7] S128x502x1
  slices_S128x512x11_S128x502x1_0_8_8 : S128x512x11.Slices ![0, 8, 8] S128x502x1
  slices_S128x512x11_S128x502x1_0_9_9 : S128x512x11.Slices ![0, 9, 9] S128x502x1
  slices_S128x512x11_S128x502x1_0_10_10 : S128x512x11.Slices ![0, 10, 10] S128x502x1
  slices_S64_S1_18 : S64.Slices ![18] S1
  reducesTo_S128x502_S128_d1 : S128x502.ReducesTo [1] S128
  slices_S64x33x300_S1x11x300_19_0_0 : S64x33x300.Slices ![19, 0, 0] S1x11x300
  slices_S64_S1_19 : S64.Slices ![19] S1
  slices_S64x33x300_S1x12x300_20_0_0 : S64x33x300.Slices ![20, 0, 0] S1x12x300
  shapeCasts_S1x12x300_S12x300 : S1x12x300.ShapeCasts S12x300
  slices_S128x512x12_S128x501x1_0_0_0 : S128x512x12.Slices ![0, 0, 0] S128x501x1
  shapeCasts_S128x501x1_S128x501 : S128x501x1.ShapeCasts S128x501
  bcast_S_S128x501 : S_.BroadcastsInDim S128x501 (![] : Fin 0 → Fin S128x501.rank)
  slices_S128x512x12_S128x501x1_0_1_1 : S128x512x12.Slices ![0, 1, 1] S128x501x1
  slices_S128x512x12_S128x501x1_0_2_2 : S128x512x12.Slices ![0, 2, 2] S128x501x1
  slices_S128x512x12_S128x501x1_0_3_3 : S128x512x12.Slices ![0, 3, 3] S128x501x1
  slices_S128x512x12_S128x501x1_0_4_4 : S128x512x12.Slices ![0, 4, 4] S128x501x1
  slices_S128x512x12_S128x501x1_0_5_5 : S128x512x12.Slices ![0, 5, 5] S128x501x1
  slices_S128x512x12_S128x501x1_0_6_6 : S128x512x12.Slices ![0, 6, 6] S128x501x1
  slices_S128x512x12_S128x501x1_0_7_7 : S128x512x12.Slices ![0, 7, 7] S128x501x1
  slices_S128x512x12_S128x501x1_0_8_8 : S128x512x12.Slices ![0, 8, 8] S128x501x1
  slices_S128x512x12_S128x501x1_0_9_9 : S128x512x12.Slices ![0, 9, 9] S128x501x1
  slices_S128x512x12_S128x501x1_0_10_10 : S128x512x12.Slices ![0, 10, 10] S128x501x1
  slices_S128x512x12_S128x501x1_0_11_11 : S128x512x12.Slices ![0, 11, 11] S128x501x1
  slices_S64_S1_20 : S64.Slices ![20] S1
  reducesTo_S128x501_S128_d1 : S128x501.ReducesTo [1] S128
  slices_S64x33x300_S1x12x300_21_0_0 : S64x33x300.Slices ![21, 0, 0] S1x12x300
  slices_S64_S1_21 : S64.Slices ![21] S1
  slices_S64x33x300_S1x13x300_22_0_0 : S64x33x300.Slices ![22, 0, 0] S1x13x300
  shapeCasts_S1x13x300_S13x300 : S1x13x300.ShapeCasts S13x300
  slices_S128x512x13_S128x500x1_0_0_0 : S128x512x13.Slices ![0, 0, 0] S128x500x1
  shapeCasts_S128x500x1_S128x500 : S128x500x1.ShapeCasts S128x500
  bcast_S_S128x500 : S_.BroadcastsInDim S128x500 (![] : Fin 0 → Fin S128x500.rank)
  slices_S128x512x13_S128x500x1_0_1_1 : S128x512x13.Slices ![0, 1, 1] S128x500x1
  slices_S128x512x13_S128x500x1_0_2_2 : S128x512x13.Slices ![0, 2, 2] S128x500x1
  slices_S128x512x13_S128x500x1_0_3_3 : S128x512x13.Slices ![0, 3, 3] S128x500x1
  slices_S128x512x13_S128x500x1_0_4_4 : S128x512x13.Slices ![0, 4, 4] S128x500x1
  slices_S128x512x13_S128x500x1_0_5_5 : S128x512x13.Slices ![0, 5, 5] S128x500x1
  slices_S128x512x13_S128x500x1_0_6_6 : S128x512x13.Slices ![0, 6, 6] S128x500x1
  slices_S128x512x13_S128x500x1_0_7_7 : S128x512x13.Slices ![0, 7, 7] S128x500x1
  slices_S128x512x13_S128x500x1_0_8_8 : S128x512x13.Slices ![0, 8, 8] S128x500x1
  slices_S128x512x13_S128x500x1_0_9_9 : S128x512x13.Slices ![0, 9, 9] S128x500x1
  slices_S128x512x13_S128x500x1_0_10_10 : S128x512x13.Slices ![0, 10, 10] S128x500x1
  slices_S128x512x13_S128x500x1_0_11_11 : S128x512x13.Slices ![0, 11, 11] S128x500x1
  slices_S128x512x13_S128x500x1_0_12_12 : S128x512x13.Slices ![0, 12, 12] S128x500x1
  slices_S64_S1_22 : S64.Slices ![22] S1
  reducesTo_S128x500_S128_d1 : S128x500.ReducesTo [1] S128
  slices_S64x33x300_S1x13x300_23_0_0 : S64x33x300.Slices ![23, 0, 0] S1x13x300
  slices_S64_S1_23 : S64.Slices ![23] S1
  slices_S64x33x300_S1x14x300_24_0_0 : S64x33x300.Slices ![24, 0, 0] S1x14x300
  shapeCasts_S1x14x300_S14x300 : S1x14x300.ShapeCasts S14x300
  slices_S128x512x14_S128x499x1_0_0_0 : S128x512x14.Slices ![0, 0, 0] S128x499x1
  shapeCasts_S128x499x1_S128x499 : S128x499x1.ShapeCasts S128x499
  bcast_S_S128x499 : S_.BroadcastsInDim S128x499 (![] : Fin 0 → Fin S128x499.rank)
  slices_S128x512x14_S128x499x1_0_1_1 : S128x512x14.Slices ![0, 1, 1] S128x499x1
  slices_S128x512x14_S128x499x1_0_2_2 : S128x512x14.Slices ![0, 2, 2] S128x499x1
  slices_S128x512x14_S128x499x1_0_3_3 : S128x512x14.Slices ![0, 3, 3] S128x499x1
  slices_S128x512x14_S128x499x1_0_4_4 : S128x512x14.Slices ![0, 4, 4] S128x499x1
  slices_S128x512x14_S128x499x1_0_5_5 : S128x512x14.Slices ![0, 5, 5] S128x499x1
  slices_S128x512x14_S128x499x1_0_6_6 : S128x512x14.Slices ![0, 6, 6] S128x499x1
  slices_S128x512x14_S128x499x1_0_7_7 : S128x512x14.Slices ![0, 7, 7] S128x499x1
  slices_S128x512x14_S128x499x1_0_8_8 : S128x512x14.Slices ![0, 8, 8] S128x499x1
  slices_S128x512x14_S128x499x1_0_9_9 : S128x512x14.Slices ![0, 9, 9] S128x499x1
  slices_S128x512x14_S128x499x1_0_10_10 : S128x512x14.Slices ![0, 10, 10] S128x499x1
  slices_S128x512x14_S128x499x1_0_11_11 : S128x512x14.Slices ![0, 11, 11] S128x499x1
  slices_S128x512x14_S128x499x1_0_12_12 : S128x512x14.Slices ![0, 12, 12] S128x499x1
  slices_S128x512x14_S128x499x1_0_13_13 : S128x512x14.Slices ![0, 13, 13] S128x499x1
  slices_S64_S1_24 : S64.Slices ![24] S1
  reducesTo_S128x499_S128_d1 : S128x499.ReducesTo [1] S128
  slices_S64x33x300_S1x14x300_25_0_0 : S64x33x300.Slices ![25, 0, 0] S1x14x300
  slices_S64_S1_25 : S64.Slices ![25] S1
  slices_S64x33x300_S1x15x300_26_0_0 : S64x33x300.Slices ![26, 0, 0] S1x15x300
  shapeCasts_S1x15x300_S15x300 : S1x15x300.ShapeCasts S15x300
  slices_S128x512x15_S128x498x1_0_0_0 : S128x512x15.Slices ![0, 0, 0] S128x498x1
  shapeCasts_S128x498x1_S128x498 : S128x498x1.ShapeCasts S128x498
  bcast_S_S128x498 : S_.BroadcastsInDim S128x498 (![] : Fin 0 → Fin S128x498.rank)
  slices_S128x512x15_S128x498x1_0_1_1 : S128x512x15.Slices ![0, 1, 1] S128x498x1
  slices_S128x512x15_S128x498x1_0_2_2 : S128x512x15.Slices ![0, 2, 2] S128x498x1
  slices_S128x512x15_S128x498x1_0_3_3 : S128x512x15.Slices ![0, 3, 3] S128x498x1
  slices_S128x512x15_S128x498x1_0_4_4 : S128x512x15.Slices ![0, 4, 4] S128x498x1
  slices_S128x512x15_S128x498x1_0_5_5 : S128x512x15.Slices ![0, 5, 5] S128x498x1
  slices_S128x512x15_S128x498x1_0_6_6 : S128x512x15.Slices ![0, 6, 6] S128x498x1
  slices_S128x512x15_S128x498x1_0_7_7 : S128x512x15.Slices ![0, 7, 7] S128x498x1
  slices_S128x512x15_S128x498x1_0_8_8 : S128x512x15.Slices ![0, 8, 8] S128x498x1
  slices_S128x512x15_S128x498x1_0_9_9 : S128x512x15.Slices ![0, 9, 9] S128x498x1
  slices_S128x512x15_S128x498x1_0_10_10 : S128x512x15.Slices ![0, 10, 10] S128x498x1
  slices_S128x512x15_S128x498x1_0_11_11 : S128x512x15.Slices ![0, 11, 11] S128x498x1
  slices_S128x512x15_S128x498x1_0_12_12 : S128x512x15.Slices ![0, 12, 12] S128x498x1
  slices_S128x512x15_S128x498x1_0_13_13 : S128x512x15.Slices ![0, 13, 13] S128x498x1
  slices_S128x512x15_S128x498x1_0_14_14 : S128x512x15.Slices ![0, 14, 14] S128x498x1
  slices_S64_S1_26 : S64.Slices ![26] S1
  reducesTo_S128x498_S128_d1 : S128x498.ReducesTo [1] S128
  slices_S64x33x300_S1x15x300_27_0_0 : S64x33x300.Slices ![27, 0, 0] S1x15x300
  slices_S64_S1_27 : S64.Slices ![27] S1
  slices_S64x33x300_S1x16x300_28_0_0 : S64x33x300.Slices ![28, 0, 0] S1x16x300
  shapeCasts_S1x16x300_S16x300 : S1x16x300.ShapeCasts S16x300
  slices_S128x512x16_S128x497x1_0_0_0 : S128x512x16.Slices ![0, 0, 0] S128x497x1
  shapeCasts_S128x497x1_S128x497 : S128x497x1.ShapeCasts S128x497
  bcast_S_S128x497 : S_.BroadcastsInDim S128x497 (![] : Fin 0 → Fin S128x497.rank)
  slices_S128x512x16_S128x497x1_0_1_1 : S128x512x16.Slices ![0, 1, 1] S128x497x1
  slices_S128x512x16_S128x497x1_0_2_2 : S128x512x16.Slices ![0, 2, 2] S128x497x1
  slices_S128x512x16_S128x497x1_0_3_3 : S128x512x16.Slices ![0, 3, 3] S128x497x1
  slices_S128x512x16_S128x497x1_0_4_4 : S128x512x16.Slices ![0, 4, 4] S128x497x1
  slices_S128x512x16_S128x497x1_0_5_5 : S128x512x16.Slices ![0, 5, 5] S128x497x1
  slices_S128x512x16_S128x497x1_0_6_6 : S128x512x16.Slices ![0, 6, 6] S128x497x1
  slices_S128x512x16_S128x497x1_0_7_7 : S128x512x16.Slices ![0, 7, 7] S128x497x1
  slices_S128x512x16_S128x497x1_0_8_8 : S128x512x16.Slices ![0, 8, 8] S128x497x1
  slices_S128x512x16_S128x497x1_0_9_9 : S128x512x16.Slices ![0, 9, 9] S128x497x1
  slices_S128x512x16_S128x497x1_0_10_10 : S128x512x16.Slices ![0, 10, 10] S128x497x1
  slices_S128x512x16_S128x497x1_0_11_11 : S128x512x16.Slices ![0, 11, 11] S128x497x1
  slices_S128x512x16_S128x497x1_0_12_12 : S128x512x16.Slices ![0, 12, 12] S128x497x1
  slices_S128x512x16_S128x497x1_0_13_13 : S128x512x16.Slices ![0, 13, 13] S128x497x1
  slices_S128x512x16_S128x497x1_0_14_14 : S128x512x16.Slices ![0, 14, 14] S128x497x1
  slices_S128x512x16_S128x497x1_0_15_15 : S128x512x16.Slices ![0, 15, 15] S128x497x1
  slices_S64_S1_28 : S64.Slices ![28] S1
  reducesTo_S128x497_S128_d1 : S128x497.ReducesTo [1] S128
  slices_S64x33x300_S1x16x300_29_0_0 : S64x33x300.Slices ![29, 0, 0] S1x16x300
  slices_S64_S1_29 : S64.Slices ![29] S1
  slices_S64x33x300_S1x17x300_30_0_0 : S64x33x300.Slices ![30, 0, 0] S1x17x300
  shapeCasts_S1x17x300_S17x300 : S1x17x300.ShapeCasts S17x300
  slices_S128x512x17_S128x496x1_0_0_0 : S128x512x17.Slices ![0, 0, 0] S128x496x1
  shapeCasts_S128x496x1_S128x496 : S128x496x1.ShapeCasts S128x496
  bcast_S_S128x496 : S_.BroadcastsInDim S128x496 (![] : Fin 0 → Fin S128x496.rank)
  slices_S128x512x17_S128x496x1_0_1_1 : S128x512x17.Slices ![0, 1, 1] S128x496x1
  slices_S128x512x17_S128x496x1_0_2_2 : S128x512x17.Slices ![0, 2, 2] S128x496x1
  slices_S128x512x17_S128x496x1_0_3_3 : S128x512x17.Slices ![0, 3, 3] S128x496x1
  slices_S128x512x17_S128x496x1_0_4_4 : S128x512x17.Slices ![0, 4, 4] S128x496x1
  slices_S128x512x17_S128x496x1_0_5_5 : S128x512x17.Slices ![0, 5, 5] S128x496x1
  slices_S128x512x17_S128x496x1_0_6_6 : S128x512x17.Slices ![0, 6, 6] S128x496x1
  slices_S128x512x17_S128x496x1_0_7_7 : S128x512x17.Slices ![0, 7, 7] S128x496x1
  slices_S128x512x17_S128x496x1_0_8_8 : S128x512x17.Slices ![0, 8, 8] S128x496x1
  slices_S128x512x17_S128x496x1_0_9_9 : S128x512x17.Slices ![0, 9, 9] S128x496x1
  slices_S128x512x17_S128x496x1_0_10_10 : S128x512x17.Slices ![0, 10, 10] S128x496x1
  slices_S128x512x17_S128x496x1_0_11_11 : S128x512x17.Slices ![0, 11, 11] S128x496x1
  slices_S128x512x17_S128x496x1_0_12_12 : S128x512x17.Slices ![0, 12, 12] S128x496x1
  slices_S128x512x17_S128x496x1_0_13_13 : S128x512x17.Slices ![0, 13, 13] S128x496x1
  slices_S128x512x17_S128x496x1_0_14_14 : S128x512x17.Slices ![0, 14, 14] S128x496x1
  slices_S128x512x17_S128x496x1_0_15_15 : S128x512x17.Slices ![0, 15, 15] S128x496x1
  slices_S128x512x17_S128x496x1_0_16_16 : S128x512x17.Slices ![0, 16, 16] S128x496x1
  slices_S64_S1_30 : S64.Slices ![30] S1
  reducesTo_S128x496_S128_d1 : S128x496.ReducesTo [1] S128
  slices_S64x33x300_S1x17x300_31_0_0 : S64x33x300.Slices ![31, 0, 0] S1x17x300
  slices_S64_S1_31 : S64.Slices ![31] S1
  slices_S64x33x300_S1x18x300_32_0_0 : S64x33x300.Slices ![32, 0, 0] S1x18x300
  shapeCasts_S1x18x300_S18x300 : S1x18x300.ShapeCasts S18x300
  slices_S128x512x18_S128x495x1_0_0_0 : S128x512x18.Slices ![0, 0, 0] S128x495x1
  shapeCasts_S128x495x1_S128x495 : S128x495x1.ShapeCasts S128x495
  bcast_S_S128x495 : S_.BroadcastsInDim S128x495 (![] : Fin 0 → Fin S128x495.rank)
  slices_S128x512x18_S128x495x1_0_1_1 : S128x512x18.Slices ![0, 1, 1] S128x495x1
  slices_S128x512x18_S128x495x1_0_2_2 : S128x512x18.Slices ![0, 2, 2] S128x495x1
  slices_S128x512x18_S128x495x1_0_3_3 : S128x512x18.Slices ![0, 3, 3] S128x495x1
  slices_S128x512x18_S128x495x1_0_4_4 : S128x512x18.Slices ![0, 4, 4] S128x495x1
  slices_S128x512x18_S128x495x1_0_5_5 : S128x512x18.Slices ![0, 5, 5] S128x495x1
  slices_S128x512x18_S128x495x1_0_6_6 : S128x512x18.Slices ![0, 6, 6] S128x495x1
  slices_S128x512x18_S128x495x1_0_7_7 : S128x512x18.Slices ![0, 7, 7] S128x495x1
  slices_S128x512x18_S128x495x1_0_8_8 : S128x512x18.Slices ![0, 8, 8] S128x495x1
  slices_S128x512x18_S128x495x1_0_9_9 : S128x512x18.Slices ![0, 9, 9] S128x495x1
  slices_S128x512x18_S128x495x1_0_10_10 : S128x512x18.Slices ![0, 10, 10] S128x495x1
  slices_S128x512x18_S128x495x1_0_11_11 : S128x512x18.Slices ![0, 11, 11] S128x495x1
  slices_S128x512x18_S128x495x1_0_12_12 : S128x512x18.Slices ![0, 12, 12] S128x495x1
  slices_S128x512x18_S128x495x1_0_13_13 : S128x512x18.Slices ![0, 13, 13] S128x495x1
  slices_S128x512x18_S128x495x1_0_14_14 : S128x512x18.Slices ![0, 14, 14] S128x495x1
  slices_S128x512x18_S128x495x1_0_15_15 : S128x512x18.Slices ![0, 15, 15] S128x495x1
  slices_S128x512x18_S128x495x1_0_16_16 : S128x512x18.Slices ![0, 16, 16] S128x495x1
  slices_S128x512x18_S128x495x1_0_17_17 : S128x512x18.Slices ![0, 17, 17] S128x495x1
  slices_S64_S1_32 : S64.Slices ![32] S1
  reducesTo_S128x495_S128_d1 : S128x495.ReducesTo [1] S128
  slices_S64x33x300_S1x18x300_33_0_0 : S64x33x300.Slices ![33, 0, 0] S1x18x300
  slices_S64_S1_33 : S64.Slices ![33] S1
  slices_S64x33x300_S1x19x300_34_0_0 : S64x33x300.Slices ![34, 0, 0] S1x19x300
  shapeCasts_S1x19x300_S19x300 : S1x19x300.ShapeCasts S19x300
  slices_S128x512x19_S128x494x1_0_0_0 : S128x512x19.Slices ![0, 0, 0] S128x494x1
  shapeCasts_S128x494x1_S128x494 : S128x494x1.ShapeCasts S128x494
  bcast_S_S128x494 : S_.BroadcastsInDim S128x494 (![] : Fin 0 → Fin S128x494.rank)
  slices_S128x512x19_S128x494x1_0_1_1 : S128x512x19.Slices ![0, 1, 1] S128x494x1
  slices_S128x512x19_S128x494x1_0_2_2 : S128x512x19.Slices ![0, 2, 2] S128x494x1
  slices_S128x512x19_S128x494x1_0_3_3 : S128x512x19.Slices ![0, 3, 3] S128x494x1
  slices_S128x512x19_S128x494x1_0_4_4 : S128x512x19.Slices ![0, 4, 4] S128x494x1
  slices_S128x512x19_S128x494x1_0_5_5 : S128x512x19.Slices ![0, 5, 5] S128x494x1
  slices_S128x512x19_S128x494x1_0_6_6 : S128x512x19.Slices ![0, 6, 6] S128x494x1
  slices_S128x512x19_S128x494x1_0_7_7 : S128x512x19.Slices ![0, 7, 7] S128x494x1
  slices_S128x512x19_S128x494x1_0_8_8 : S128x512x19.Slices ![0, 8, 8] S128x494x1
  slices_S128x512x19_S128x494x1_0_9_9 : S128x512x19.Slices ![0, 9, 9] S128x494x1
  slices_S128x512x19_S128x494x1_0_10_10 : S128x512x19.Slices ![0, 10, 10] S128x494x1
  slices_S128x512x19_S128x494x1_0_11_11 : S128x512x19.Slices ![0, 11, 11] S128x494x1
  slices_S128x512x19_S128x494x1_0_12_12 : S128x512x19.Slices ![0, 12, 12] S128x494x1
  slices_S128x512x19_S128x494x1_0_13_13 : S128x512x19.Slices ![0, 13, 13] S128x494x1
  slices_S128x512x19_S128x494x1_0_14_14 : S128x512x19.Slices ![0, 14, 14] S128x494x1
  slices_S128x512x19_S128x494x1_0_15_15 : S128x512x19.Slices ![0, 15, 15] S128x494x1
  slices_S128x512x19_S128x494x1_0_16_16 : S128x512x19.Slices ![0, 16, 16] S128x494x1
  slices_S128x512x19_S128x494x1_0_17_17 : S128x512x19.Slices ![0, 17, 17] S128x494x1
  slices_S128x512x19_S128x494x1_0_18_18 : S128x512x19.Slices ![0, 18, 18] S128x494x1
  slices_S64_S1_34 : S64.Slices ![34] S1
  reducesTo_S128x494_S128_d1 : S128x494.ReducesTo [1] S128
  slices_S64x33x300_S1x19x300_35_0_0 : S64x33x300.Slices ![35, 0, 0] S1x19x300
  slices_S64_S1_35 : S64.Slices ![35] S1
  slices_S64x33x300_S1x20x300_36_0_0 : S64x33x300.Slices ![36, 0, 0] S1x20x300
  shapeCasts_S1x20x300_S20x300 : S1x20x300.ShapeCasts S20x300
  slices_S128x512x20_S128x493x1_0_0_0 : S128x512x20.Slices ![0, 0, 0] S128x493x1
  shapeCasts_S128x493x1_S128x493 : S128x493x1.ShapeCasts S128x493
  bcast_S_S128x493 : S_.BroadcastsInDim S128x493 (![] : Fin 0 → Fin S128x493.rank)
  slices_S128x512x20_S128x493x1_0_1_1 : S128x512x20.Slices ![0, 1, 1] S128x493x1
  slices_S128x512x20_S128x493x1_0_2_2 : S128x512x20.Slices ![0, 2, 2] S128x493x1
  slices_S128x512x20_S128x493x1_0_3_3 : S128x512x20.Slices ![0, 3, 3] S128x493x1
  slices_S128x512x20_S128x493x1_0_4_4 : S128x512x20.Slices ![0, 4, 4] S128x493x1
  slices_S128x512x20_S128x493x1_0_5_5 : S128x512x20.Slices ![0, 5, 5] S128x493x1
  slices_S128x512x20_S128x493x1_0_6_6 : S128x512x20.Slices ![0, 6, 6] S128x493x1
  slices_S128x512x20_S128x493x1_0_7_7 : S128x512x20.Slices ![0, 7, 7] S128x493x1
  slices_S128x512x20_S128x493x1_0_8_8 : S128x512x20.Slices ![0, 8, 8] S128x493x1
  slices_S128x512x20_S128x493x1_0_9_9 : S128x512x20.Slices ![0, 9, 9] S128x493x1
  slices_S128x512x20_S128x493x1_0_10_10 : S128x512x20.Slices ![0, 10, 10] S128x493x1
  slices_S128x512x20_S128x493x1_0_11_11 : S128x512x20.Slices ![0, 11, 11] S128x493x1
  slices_S128x512x20_S128x493x1_0_12_12 : S128x512x20.Slices ![0, 12, 12] S128x493x1
  slices_S128x512x20_S128x493x1_0_13_13 : S128x512x20.Slices ![0, 13, 13] S128x493x1
  slices_S128x512x20_S128x493x1_0_14_14 : S128x512x20.Slices ![0, 14, 14] S128x493x1
  slices_S128x512x20_S128x493x1_0_15_15 : S128x512x20.Slices ![0, 15, 15] S128x493x1
  slices_S128x512x20_S128x493x1_0_16_16 : S128x512x20.Slices ![0, 16, 16] S128x493x1
  slices_S128x512x20_S128x493x1_0_17_17 : S128x512x20.Slices ![0, 17, 17] S128x493x1
  slices_S128x512x20_S128x493x1_0_18_18 : S128x512x20.Slices ![0, 18, 18] S128x493x1
  slices_S128x512x20_S128x493x1_0_19_19 : S128x512x20.Slices ![0, 19, 19] S128x493x1
  slices_S64_S1_36 : S64.Slices ![36] S1
  reducesTo_S128x493_S128_d1 : S128x493.ReducesTo [1] S128
  slices_S64x33x300_S1x20x300_37_0_0 : S64x33x300.Slices ![37, 0, 0] S1x20x300
  slices_S64_S1_37 : S64.Slices ![37] S1
  slices_S64x33x300_S1x21x300_38_0_0 : S64x33x300.Slices ![38, 0, 0] S1x21x300
  shapeCasts_S1x21x300_S21x300 : S1x21x300.ShapeCasts S21x300
  slices_S128x512x21_S128x492x1_0_0_0 : S128x512x21.Slices ![0, 0, 0] S128x492x1
  shapeCasts_S128x492x1_S128x492 : S128x492x1.ShapeCasts S128x492
  bcast_S_S128x492 : S_.BroadcastsInDim S128x492 (![] : Fin 0 → Fin S128x492.rank)
  slices_S128x512x21_S128x492x1_0_1_1 : S128x512x21.Slices ![0, 1, 1] S128x492x1
  slices_S128x512x21_S128x492x1_0_2_2 : S128x512x21.Slices ![0, 2, 2] S128x492x1
  slices_S128x512x21_S128x492x1_0_3_3 : S128x512x21.Slices ![0, 3, 3] S128x492x1
  slices_S128x512x21_S128x492x1_0_4_4 : S128x512x21.Slices ![0, 4, 4] S128x492x1
  slices_S128x512x21_S128x492x1_0_5_5 : S128x512x21.Slices ![0, 5, 5] S128x492x1
  slices_S128x512x21_S128x492x1_0_6_6 : S128x512x21.Slices ![0, 6, 6] S128x492x1
  slices_S128x512x21_S128x492x1_0_7_7 : S128x512x21.Slices ![0, 7, 7] S128x492x1
  slices_S128x512x21_S128x492x1_0_8_8 : S128x512x21.Slices ![0, 8, 8] S128x492x1
  slices_S128x512x21_S128x492x1_0_9_9 : S128x512x21.Slices ![0, 9, 9] S128x492x1
  slices_S128x512x21_S128x492x1_0_10_10 : S128x512x21.Slices ![0, 10, 10] S128x492x1
  slices_S128x512x21_S128x492x1_0_11_11 : S128x512x21.Slices ![0, 11, 11] S128x492x1
  slices_S128x512x21_S128x492x1_0_12_12 : S128x512x21.Slices ![0, 12, 12] S128x492x1
  slices_S128x512x21_S128x492x1_0_13_13 : S128x512x21.Slices ![0, 13, 13] S128x492x1
  slices_S128x512x21_S128x492x1_0_14_14 : S128x512x21.Slices ![0, 14, 14] S128x492x1
  slices_S128x512x21_S128x492x1_0_15_15 : S128x512x21.Slices ![0, 15, 15] S128x492x1
  slices_S128x512x21_S128x492x1_0_16_16 : S128x512x21.Slices ![0, 16, 16] S128x492x1
  slices_S128x512x21_S128x492x1_0_17_17 : S128x512x21.Slices ![0, 17, 17] S128x492x1
  slices_S128x512x21_S128x492x1_0_18_18 : S128x512x21.Slices ![0, 18, 18] S128x492x1
  slices_S128x512x21_S128x492x1_0_19_19 : S128x512x21.Slices ![0, 19, 19] S128x492x1
  slices_S128x512x21_S128x492x1_0_20_20 : S128x512x21.Slices ![0, 20, 20] S128x492x1
  slices_S64_S1_38 : S64.Slices ![38] S1
  reducesTo_S128x492_S128_d1 : S128x492.ReducesTo [1] S128
  slices_S64x33x300_S1x21x300_39_0_0 : S64x33x300.Slices ![39, 0, 0] S1x21x300
  slices_S64_S1_39 : S64.Slices ![39] S1
  slices_S64x33x300_S1x22x300_40_0_0 : S64x33x300.Slices ![40, 0, 0] S1x22x300
  shapeCasts_S1x22x300_S22x300 : S1x22x300.ShapeCasts S22x300
  slices_S128x512x22_S128x491x1_0_0_0 : S128x512x22.Slices ![0, 0, 0] S128x491x1
  shapeCasts_S128x491x1_S128x491 : S128x491x1.ShapeCasts S128x491
  bcast_S_S128x491 : S_.BroadcastsInDim S128x491 (![] : Fin 0 → Fin S128x491.rank)
  slices_S128x512x22_S128x491x1_0_1_1 : S128x512x22.Slices ![0, 1, 1] S128x491x1
  slices_S128x512x22_S128x491x1_0_2_2 : S128x512x22.Slices ![0, 2, 2] S128x491x1
  slices_S128x512x22_S128x491x1_0_3_3 : S128x512x22.Slices ![0, 3, 3] S128x491x1
  slices_S128x512x22_S128x491x1_0_4_4 : S128x512x22.Slices ![0, 4, 4] S128x491x1
  slices_S128x512x22_S128x491x1_0_5_5 : S128x512x22.Slices ![0, 5, 5] S128x491x1
  slices_S128x512x22_S128x491x1_0_6_6 : S128x512x22.Slices ![0, 6, 6] S128x491x1
  slices_S128x512x22_S128x491x1_0_7_7 : S128x512x22.Slices ![0, 7, 7] S128x491x1
  slices_S128x512x22_S128x491x1_0_8_8 : S128x512x22.Slices ![0, 8, 8] S128x491x1
  slices_S128x512x22_S128x491x1_0_9_9 : S128x512x22.Slices ![0, 9, 9] S128x491x1
  slices_S128x512x22_S128x491x1_0_10_10 : S128x512x22.Slices ![0, 10, 10] S128x491x1
  slices_S128x512x22_S128x491x1_0_11_11 : S128x512x22.Slices ![0, 11, 11] S128x491x1
  slices_S128x512x22_S128x491x1_0_12_12 : S128x512x22.Slices ![0, 12, 12] S128x491x1
  slices_S128x512x22_S128x491x1_0_13_13 : S128x512x22.Slices ![0, 13, 13] S128x491x1
  slices_S128x512x22_S128x491x1_0_14_14 : S128x512x22.Slices ![0, 14, 14] S128x491x1
  slices_S128x512x22_S128x491x1_0_15_15 : S128x512x22.Slices ![0, 15, 15] S128x491x1
  slices_S128x512x22_S128x491x1_0_16_16 : S128x512x22.Slices ![0, 16, 16] S128x491x1
  slices_S128x512x22_S128x491x1_0_17_17 : S128x512x22.Slices ![0, 17, 17] S128x491x1
  slices_S128x512x22_S128x491x1_0_18_18 : S128x512x22.Slices ![0, 18, 18] S128x491x1
  slices_S128x512x22_S128x491x1_0_19_19 : S128x512x22.Slices ![0, 19, 19] S128x491x1
  slices_S128x512x22_S128x491x1_0_20_20 : S128x512x22.Slices ![0, 20, 20] S128x491x1
  slices_S128x512x22_S128x491x1_0_21_21 : S128x512x22.Slices ![0, 21, 21] S128x491x1
  slices_S64_S1_40 : S64.Slices ![40] S1
  reducesTo_S128x491_S128_d1 : S128x491.ReducesTo [1] S128
  slices_S64x33x300_S1x22x300_41_0_0 : S64x33x300.Slices ![41, 0, 0] S1x22x300
  slices_S64_S1_41 : S64.Slices ![41] S1
  slices_S64x33x300_S1x23x300_42_0_0 : S64x33x300.Slices ![42, 0, 0] S1x23x300
  shapeCasts_S1x23x300_S23x300 : S1x23x300.ShapeCasts S23x300
  slices_S128x512x23_S128x490x1_0_0_0 : S128x512x23.Slices ![0, 0, 0] S128x490x1
  shapeCasts_S128x490x1_S128x490 : S128x490x1.ShapeCasts S128x490
  bcast_S_S128x490 : S_.BroadcastsInDim S128x490 (![] : Fin 0 → Fin S128x490.rank)
  slices_S128x512x23_S128x490x1_0_1_1 : S128x512x23.Slices ![0, 1, 1] S128x490x1
  slices_S128x512x23_S128x490x1_0_2_2 : S128x512x23.Slices ![0, 2, 2] S128x490x1
  slices_S128x512x23_S128x490x1_0_3_3 : S128x512x23.Slices ![0, 3, 3] S128x490x1
  slices_S128x512x23_S128x490x1_0_4_4 : S128x512x23.Slices ![0, 4, 4] S128x490x1
  slices_S128x512x23_S128x490x1_0_5_5 : S128x512x23.Slices ![0, 5, 5] S128x490x1
  slices_S128x512x23_S128x490x1_0_6_6 : S128x512x23.Slices ![0, 6, 6] S128x490x1
  slices_S128x512x23_S128x490x1_0_7_7 : S128x512x23.Slices ![0, 7, 7] S128x490x1
  slices_S128x512x23_S128x490x1_0_8_8 : S128x512x23.Slices ![0, 8, 8] S128x490x1
  slices_S128x512x23_S128x490x1_0_9_9 : S128x512x23.Slices ![0, 9, 9] S128x490x1
  slices_S128x512x23_S128x490x1_0_10_10 : S128x512x23.Slices ![0, 10, 10] S128x490x1
  slices_S128x512x23_S128x490x1_0_11_11 : S128x512x23.Slices ![0, 11, 11] S128x490x1
  slices_S128x512x23_S128x490x1_0_12_12 : S128x512x23.Slices ![0, 12, 12] S128x490x1
  slices_S128x512x23_S128x490x1_0_13_13 : S128x512x23.Slices ![0, 13, 13] S128x490x1
  slices_S128x512x23_S128x490x1_0_14_14 : S128x512x23.Slices ![0, 14, 14] S128x490x1
  slices_S128x512x23_S128x490x1_0_15_15 : S128x512x23.Slices ![0, 15, 15] S128x490x1
  slices_S128x512x23_S128x490x1_0_16_16 : S128x512x23.Slices ![0, 16, 16] S128x490x1
  slices_S128x512x23_S128x490x1_0_17_17 : S128x512x23.Slices ![0, 17, 17] S128x490x1
  slices_S128x512x23_S128x490x1_0_18_18 : S128x512x23.Slices ![0, 18, 18] S128x490x1
  slices_S128x512x23_S128x490x1_0_19_19 : S128x512x23.Slices ![0, 19, 19] S128x490x1
  slices_S128x512x23_S128x490x1_0_20_20 : S128x512x23.Slices ![0, 20, 20] S128x490x1
  slices_S128x512x23_S128x490x1_0_21_21 : S128x512x23.Slices ![0, 21, 21] S128x490x1
  slices_S128x512x23_S128x490x1_0_22_22 : S128x512x23.Slices ![0, 22, 22] S128x490x1
  slices_S64_S1_42 : S64.Slices ![42] S1
  reducesTo_S128x490_S128_d1 : S128x490.ReducesTo [1] S128
  slices_S64x33x300_S1x23x300_43_0_0 : S64x33x300.Slices ![43, 0, 0] S1x23x300
  slices_S64_S1_43 : S64.Slices ![43] S1
  slices_S64x33x300_S1x24x300_44_0_0 : S64x33x300.Slices ![44, 0, 0] S1x24x300
  shapeCasts_S1x24x300_S24x300 : S1x24x300.ShapeCasts S24x300
  slices_S128x512x24_S128x489x1_0_0_0 : S128x512x24.Slices ![0, 0, 0] S128x489x1
  shapeCasts_S128x489x1_S128x489 : S128x489x1.ShapeCasts S128x489
  bcast_S_S128x489 : S_.BroadcastsInDim S128x489 (![] : Fin 0 → Fin S128x489.rank)
  slices_S128x512x24_S128x489x1_0_1_1 : S128x512x24.Slices ![0, 1, 1] S128x489x1
  slices_S128x512x24_S128x489x1_0_2_2 : S128x512x24.Slices ![0, 2, 2] S128x489x1
  slices_S128x512x24_S128x489x1_0_3_3 : S128x512x24.Slices ![0, 3, 3] S128x489x1
  slices_S128x512x24_S128x489x1_0_4_4 : S128x512x24.Slices ![0, 4, 4] S128x489x1
  slices_S128x512x24_S128x489x1_0_5_5 : S128x512x24.Slices ![0, 5, 5] S128x489x1
  slices_S128x512x24_S128x489x1_0_6_6 : S128x512x24.Slices ![0, 6, 6] S128x489x1
  slices_S128x512x24_S128x489x1_0_7_7 : S128x512x24.Slices ![0, 7, 7] S128x489x1
  slices_S128x512x24_S128x489x1_0_8_8 : S128x512x24.Slices ![0, 8, 8] S128x489x1
  slices_S128x512x24_S128x489x1_0_9_9 : S128x512x24.Slices ![0, 9, 9] S128x489x1
  slices_S128x512x24_S128x489x1_0_10_10 : S128x512x24.Slices ![0, 10, 10] S128x489x1
  slices_S128x512x24_S128x489x1_0_11_11 : S128x512x24.Slices ![0, 11, 11] S128x489x1
  slices_S128x512x24_S128x489x1_0_12_12 : S128x512x24.Slices ![0, 12, 12] S128x489x1
  slices_S128x512x24_S128x489x1_0_13_13 : S128x512x24.Slices ![0, 13, 13] S128x489x1
  slices_S128x512x24_S128x489x1_0_14_14 : S128x512x24.Slices ![0, 14, 14] S128x489x1
  slices_S128x512x24_S128x489x1_0_15_15 : S128x512x24.Slices ![0, 15, 15] S128x489x1
  slices_S128x512x24_S128x489x1_0_16_16 : S128x512x24.Slices ![0, 16, 16] S128x489x1
  slices_S128x512x24_S128x489x1_0_17_17 : S128x512x24.Slices ![0, 17, 17] S128x489x1
  slices_S128x512x24_S128x489x1_0_18_18 : S128x512x24.Slices ![0, 18, 18] S128x489x1
  slices_S128x512x24_S128x489x1_0_19_19 : S128x512x24.Slices ![0, 19, 19] S128x489x1
  slices_S128x512x24_S128x489x1_0_20_20 : S128x512x24.Slices ![0, 20, 20] S128x489x1
  slices_S128x512x24_S128x489x1_0_21_21 : S128x512x24.Slices ![0, 21, 21] S128x489x1
  slices_S128x512x24_S128x489x1_0_22_22 : S128x512x24.Slices ![0, 22, 22] S128x489x1
  slices_S128x512x24_S128x489x1_0_23_23 : S128x512x24.Slices ![0, 23, 23] S128x489x1
  slices_S64_S1_44 : S64.Slices ![44] S1
  reducesTo_S128x489_S128_d1 : S128x489.ReducesTo [1] S128
  slices_S64x33x300_S1x24x300_45_0_0 : S64x33x300.Slices ![45, 0, 0] S1x24x300
  slices_S64_S1_45 : S64.Slices ![45] S1
  slices_S64x33x300_S1x25x300_46_0_0 : S64x33x300.Slices ![46, 0, 0] S1x25x300
  shapeCasts_S1x25x300_S25x300 : S1x25x300.ShapeCasts S25x300
  slices_S128x512x25_S128x488x1_0_0_0 : S128x512x25.Slices ![0, 0, 0] S128x488x1
  shapeCasts_S128x488x1_S128x488 : S128x488x1.ShapeCasts S128x488
  bcast_S_S128x488 : S_.BroadcastsInDim S128x488 (![] : Fin 0 → Fin S128x488.rank)
  slices_S128x512x25_S128x488x1_0_1_1 : S128x512x25.Slices ![0, 1, 1] S128x488x1
  slices_S128x512x25_S128x488x1_0_2_2 : S128x512x25.Slices ![0, 2, 2] S128x488x1
  slices_S128x512x25_S128x488x1_0_3_3 : S128x512x25.Slices ![0, 3, 3] S128x488x1
  slices_S128x512x25_S128x488x1_0_4_4 : S128x512x25.Slices ![0, 4, 4] S128x488x1
  slices_S128x512x25_S128x488x1_0_5_5 : S128x512x25.Slices ![0, 5, 5] S128x488x1
  slices_S128x512x25_S128x488x1_0_6_6 : S128x512x25.Slices ![0, 6, 6] S128x488x1
  slices_S128x512x25_S128x488x1_0_7_7 : S128x512x25.Slices ![0, 7, 7] S128x488x1
  slices_S128x512x25_S128x488x1_0_8_8 : S128x512x25.Slices ![0, 8, 8] S128x488x1
  slices_S128x512x25_S128x488x1_0_9_9 : S128x512x25.Slices ![0, 9, 9] S128x488x1
  slices_S128x512x25_S128x488x1_0_10_10 : S128x512x25.Slices ![0, 10, 10] S128x488x1
  slices_S128x512x25_S128x488x1_0_11_11 : S128x512x25.Slices ![0, 11, 11] S128x488x1
  slices_S128x512x25_S128x488x1_0_12_12 : S128x512x25.Slices ![0, 12, 12] S128x488x1
  slices_S128x512x25_S128x488x1_0_13_13 : S128x512x25.Slices ![0, 13, 13] S128x488x1
  slices_S128x512x25_S128x488x1_0_14_14 : S128x512x25.Slices ![0, 14, 14] S128x488x1
  slices_S128x512x25_S128x488x1_0_15_15 : S128x512x25.Slices ![0, 15, 15] S128x488x1
  slices_S128x512x25_S128x488x1_0_16_16 : S128x512x25.Slices ![0, 16, 16] S128x488x1
  slices_S128x512x25_S128x488x1_0_17_17 : S128x512x25.Slices ![0, 17, 17] S128x488x1
  slices_S128x512x25_S128x488x1_0_18_18 : S128x512x25.Slices ![0, 18, 18] S128x488x1
  slices_S128x512x25_S128x488x1_0_19_19 : S128x512x25.Slices ![0, 19, 19] S128x488x1
  slices_S128x512x25_S128x488x1_0_20_20 : S128x512x25.Slices ![0, 20, 20] S128x488x1
  slices_S128x512x25_S128x488x1_0_21_21 : S128x512x25.Slices ![0, 21, 21] S128x488x1
  slices_S128x512x25_S128x488x1_0_22_22 : S128x512x25.Slices ![0, 22, 22] S128x488x1
  slices_S128x512x25_S128x488x1_0_23_23 : S128x512x25.Slices ![0, 23, 23] S128x488x1
  slices_S128x512x25_S128x488x1_0_24_24 : S128x512x25.Slices ![0, 24, 24] S128x488x1
  slices_S64_S1_46 : S64.Slices ![46] S1
  reducesTo_S128x488_S128_d1 : S128x488.ReducesTo [1] S128
  slices_S64x33x300_S1x25x300_47_0_0 : S64x33x300.Slices ![47, 0, 0] S1x25x300
  slices_S64_S1_47 : S64.Slices ![47] S1
  slices_S64x33x300_S1x26x300_48_0_0 : S64x33x300.Slices ![48, 0, 0] S1x26x300
  shapeCasts_S1x26x300_S26x300 : S1x26x300.ShapeCasts S26x300
  slices_S128x512x26_S128x487x1_0_0_0 : S128x512x26.Slices ![0, 0, 0] S128x487x1
  shapeCasts_S128x487x1_S128x487 : S128x487x1.ShapeCasts S128x487
  bcast_S_S128x487 : S_.BroadcastsInDim S128x487 (![] : Fin 0 → Fin S128x487.rank)
  slices_S128x512x26_S128x487x1_0_1_1 : S128x512x26.Slices ![0, 1, 1] S128x487x1
  slices_S128x512x26_S128x487x1_0_2_2 : S128x512x26.Slices ![0, 2, 2] S128x487x1
  slices_S128x512x26_S128x487x1_0_3_3 : S128x512x26.Slices ![0, 3, 3] S128x487x1
  slices_S128x512x26_S128x487x1_0_4_4 : S128x512x26.Slices ![0, 4, 4] S128x487x1
  slices_S128x512x26_S128x487x1_0_5_5 : S128x512x26.Slices ![0, 5, 5] S128x487x1
  slices_S128x512x26_S128x487x1_0_6_6 : S128x512x26.Slices ![0, 6, 6] S128x487x1
  slices_S128x512x26_S128x487x1_0_7_7 : S128x512x26.Slices ![0, 7, 7] S128x487x1
  slices_S128x512x26_S128x487x1_0_8_8 : S128x512x26.Slices ![0, 8, 8] S128x487x1
  slices_S128x512x26_S128x487x1_0_9_9 : S128x512x26.Slices ![0, 9, 9] S128x487x1
  slices_S128x512x26_S128x487x1_0_10_10 : S128x512x26.Slices ![0, 10, 10] S128x487x1
  slices_S128x512x26_S128x487x1_0_11_11 : S128x512x26.Slices ![0, 11, 11] S128x487x1
  slices_S128x512x26_S128x487x1_0_12_12 : S128x512x26.Slices ![0, 12, 12] S128x487x1
  slices_S128x512x26_S128x487x1_0_13_13 : S128x512x26.Slices ![0, 13, 13] S128x487x1
  slices_S128x512x26_S128x487x1_0_14_14 : S128x512x26.Slices ![0, 14, 14] S128x487x1
  slices_S128x512x26_S128x487x1_0_15_15 : S128x512x26.Slices ![0, 15, 15] S128x487x1
  slices_S128x512x26_S128x487x1_0_16_16 : S128x512x26.Slices ![0, 16, 16] S128x487x1
  slices_S128x512x26_S128x487x1_0_17_17 : S128x512x26.Slices ![0, 17, 17] S128x487x1
  slices_S128x512x26_S128x487x1_0_18_18 : S128x512x26.Slices ![0, 18, 18] S128x487x1
  slices_S128x512x26_S128x487x1_0_19_19 : S128x512x26.Slices ![0, 19, 19] S128x487x1
  slices_S128x512x26_S128x487x1_0_20_20 : S128x512x26.Slices ![0, 20, 20] S128x487x1
  slices_S128x512x26_S128x487x1_0_21_21 : S128x512x26.Slices ![0, 21, 21] S128x487x1
  slices_S128x512x26_S128x487x1_0_22_22 : S128x512x26.Slices ![0, 22, 22] S128x487x1
  slices_S128x512x26_S128x487x1_0_23_23 : S128x512x26.Slices ![0, 23, 23] S128x487x1
  slices_S128x512x26_S128x487x1_0_24_24 : S128x512x26.Slices ![0, 24, 24] S128x487x1
  slices_S128x512x26_S128x487x1_0_25_25 : S128x512x26.Slices ![0, 25, 25] S128x487x1
  slices_S64_S1_48 : S64.Slices ![48] S1
  reducesTo_S128x487_S128_d1 : S128x487.ReducesTo [1] S128
  slices_S64x33x300_S1x26x300_49_0_0 : S64x33x300.Slices ![49, 0, 0] S1x26x300
  slices_S64_S1_49 : S64.Slices ![49] S1
  slices_S64x33x300_S1x27x300_50_0_0 : S64x33x300.Slices ![50, 0, 0] S1x27x300
  shapeCasts_S1x27x300_S27x300 : S1x27x300.ShapeCasts S27x300
  slices_S128x512x27_S128x486x1_0_0_0 : S128x512x27.Slices ![0, 0, 0] S128x486x1
  shapeCasts_S128x486x1_S128x486 : S128x486x1.ShapeCasts S128x486
  bcast_S_S128x486 : S_.BroadcastsInDim S128x486 (![] : Fin 0 → Fin S128x486.rank)
  slices_S128x512x27_S128x486x1_0_1_1 : S128x512x27.Slices ![0, 1, 1] S128x486x1
  slices_S128x512x27_S128x486x1_0_2_2 : S128x512x27.Slices ![0, 2, 2] S128x486x1
  slices_S128x512x27_S128x486x1_0_3_3 : S128x512x27.Slices ![0, 3, 3] S128x486x1
  slices_S128x512x27_S128x486x1_0_4_4 : S128x512x27.Slices ![0, 4, 4] S128x486x1
  slices_S128x512x27_S128x486x1_0_5_5 : S128x512x27.Slices ![0, 5, 5] S128x486x1
  slices_S128x512x27_S128x486x1_0_6_6 : S128x512x27.Slices ![0, 6, 6] S128x486x1
  slices_S128x512x27_S128x486x1_0_7_7 : S128x512x27.Slices ![0, 7, 7] S128x486x1
  slices_S128x512x27_S128x486x1_0_8_8 : S128x512x27.Slices ![0, 8, 8] S128x486x1
  slices_S128x512x27_S128x486x1_0_9_9 : S128x512x27.Slices ![0, 9, 9] S128x486x1
  slices_S128x512x27_S128x486x1_0_10_10 : S128x512x27.Slices ![0, 10, 10] S128x486x1
  slices_S128x512x27_S128x486x1_0_11_11 : S128x512x27.Slices ![0, 11, 11] S128x486x1
  slices_S128x512x27_S128x486x1_0_12_12 : S128x512x27.Slices ![0, 12, 12] S128x486x1
  slices_S128x512x27_S128x486x1_0_13_13 : S128x512x27.Slices ![0, 13, 13] S128x486x1
  slices_S128x512x27_S128x486x1_0_14_14 : S128x512x27.Slices ![0, 14, 14] S128x486x1
  slices_S128x512x27_S128x486x1_0_15_15 : S128x512x27.Slices ![0, 15, 15] S128x486x1
  slices_S128x512x27_S128x486x1_0_16_16 : S128x512x27.Slices ![0, 16, 16] S128x486x1
  slices_S128x512x27_S128x486x1_0_17_17 : S128x512x27.Slices ![0, 17, 17] S128x486x1
  slices_S128x512x27_S128x486x1_0_18_18 : S128x512x27.Slices ![0, 18, 18] S128x486x1
  slices_S128x512x27_S128x486x1_0_19_19 : S128x512x27.Slices ![0, 19, 19] S128x486x1
  slices_S128x512x27_S128x486x1_0_20_20 : S128x512x27.Slices ![0, 20, 20] S128x486x1
  slices_S128x512x27_S128x486x1_0_21_21 : S128x512x27.Slices ![0, 21, 21] S128x486x1
  slices_S128x512x27_S128x486x1_0_22_22 : S128x512x27.Slices ![0, 22, 22] S128x486x1
  slices_S128x512x27_S128x486x1_0_23_23 : S128x512x27.Slices ![0, 23, 23] S128x486x1
  slices_S128x512x27_S128x486x1_0_24_24 : S128x512x27.Slices ![0, 24, 24] S128x486x1
  slices_S128x512x27_S128x486x1_0_25_25 : S128x512x27.Slices ![0, 25, 25] S128x486x1
  slices_S128x512x27_S128x486x1_0_26_26 : S128x512x27.Slices ![0, 26, 26] S128x486x1
  slices_S64_S1_50 : S64.Slices ![50] S1
  reducesTo_S128x486_S128_d1 : S128x486.ReducesTo [1] S128
  slices_S64x33x300_S1x27x300_51_0_0 : S64x33x300.Slices ![51, 0, 0] S1x27x300
  slices_S64_S1_51 : S64.Slices ![51] S1
  slices_S64x33x300_S1x28x300_52_0_0 : S64x33x300.Slices ![52, 0, 0] S1x28x300
  shapeCasts_S1x28x300_S28x300 : S1x28x300.ShapeCasts S28x300
  slices_S128x512x28_S128x485x1_0_0_0 : S128x512x28.Slices ![0, 0, 0] S128x485x1
  shapeCasts_S128x485x1_S128x485 : S128x485x1.ShapeCasts S128x485
  bcast_S_S128x485 : S_.BroadcastsInDim S128x485 (![] : Fin 0 → Fin S128x485.rank)
  slices_S128x512x28_S128x485x1_0_1_1 : S128x512x28.Slices ![0, 1, 1] S128x485x1
  slices_S128x512x28_S128x485x1_0_2_2 : S128x512x28.Slices ![0, 2, 2] S128x485x1
  slices_S128x512x28_S128x485x1_0_3_3 : S128x512x28.Slices ![0, 3, 3] S128x485x1
  slices_S128x512x28_S128x485x1_0_4_4 : S128x512x28.Slices ![0, 4, 4] S128x485x1
  slices_S128x512x28_S128x485x1_0_5_5 : S128x512x28.Slices ![0, 5, 5] S128x485x1
  slices_S128x512x28_S128x485x1_0_6_6 : S128x512x28.Slices ![0, 6, 6] S128x485x1
  slices_S128x512x28_S128x485x1_0_7_7 : S128x512x28.Slices ![0, 7, 7] S128x485x1
  slices_S128x512x28_S128x485x1_0_8_8 : S128x512x28.Slices ![0, 8, 8] S128x485x1
  slices_S128x512x28_S128x485x1_0_9_9 : S128x512x28.Slices ![0, 9, 9] S128x485x1
  slices_S128x512x28_S128x485x1_0_10_10 : S128x512x28.Slices ![0, 10, 10] S128x485x1
  slices_S128x512x28_S128x485x1_0_11_11 : S128x512x28.Slices ![0, 11, 11] S128x485x1
  slices_S128x512x28_S128x485x1_0_12_12 : S128x512x28.Slices ![0, 12, 12] S128x485x1
  slices_S128x512x28_S128x485x1_0_13_13 : S128x512x28.Slices ![0, 13, 13] S128x485x1
  slices_S128x512x28_S128x485x1_0_14_14 : S128x512x28.Slices ![0, 14, 14] S128x485x1
  slices_S128x512x28_S128x485x1_0_15_15 : S128x512x28.Slices ![0, 15, 15] S128x485x1
  slices_S128x512x28_S128x485x1_0_16_16 : S128x512x28.Slices ![0, 16, 16] S128x485x1
  slices_S128x512x28_S128x485x1_0_17_17 : S128x512x28.Slices ![0, 17, 17] S128x485x1
  slices_S128x512x28_S128x485x1_0_18_18 : S128x512x28.Slices ![0, 18, 18] S128x485x1
  slices_S128x512x28_S128x485x1_0_19_19 : S128x512x28.Slices ![0, 19, 19] S128x485x1
  slices_S128x512x28_S128x485x1_0_20_20 : S128x512x28.Slices ![0, 20, 20] S128x485x1
  slices_S128x512x28_S128x485x1_0_21_21 : S128x512x28.Slices ![0, 21, 21] S128x485x1
  slices_S128x512x28_S128x485x1_0_22_22 : S128x512x28.Slices ![0, 22, 22] S128x485x1
  slices_S128x512x28_S128x485x1_0_23_23 : S128x512x28.Slices ![0, 23, 23] S128x485x1
  slices_S128x512x28_S128x485x1_0_24_24 : S128x512x28.Slices ![0, 24, 24] S128x485x1
  slices_S128x512x28_S128x485x1_0_25_25 : S128x512x28.Slices ![0, 25, 25] S128x485x1
  slices_S128x512x28_S128x485x1_0_26_26 : S128x512x28.Slices ![0, 26, 26] S128x485x1
  slices_S128x512x28_S128x485x1_0_27_27 : S128x512x28.Slices ![0, 27, 27] S128x485x1
  slices_S64_S1_52 : S64.Slices ![52] S1
  reducesTo_S128x485_S128_d1 : S128x485.ReducesTo [1] S128
  slices_S64x33x300_S1x28x300_53_0_0 : S64x33x300.Slices ![53, 0, 0] S1x28x300
  slices_S64_S1_53 : S64.Slices ![53] S1
  slices_S64x33x300_S1x29x300_54_0_0 : S64x33x300.Slices ![54, 0, 0] S1x29x300
  shapeCasts_S1x29x300_S29x300 : S1x29x300.ShapeCasts S29x300
  slices_S128x512x29_S128x484x1_0_0_0 : S128x512x29.Slices ![0, 0, 0] S128x484x1
  shapeCasts_S128x484x1_S128x484 : S128x484x1.ShapeCasts S128x484
  bcast_S_S128x484 : S_.BroadcastsInDim S128x484 (![] : Fin 0 → Fin S128x484.rank)
  slices_S128x512x29_S128x484x1_0_1_1 : S128x512x29.Slices ![0, 1, 1] S128x484x1
  slices_S128x512x29_S128x484x1_0_2_2 : S128x512x29.Slices ![0, 2, 2] S128x484x1
  slices_S128x512x29_S128x484x1_0_3_3 : S128x512x29.Slices ![0, 3, 3] S128x484x1
  slices_S128x512x29_S128x484x1_0_4_4 : S128x512x29.Slices ![0, 4, 4] S128x484x1
  slices_S128x512x29_S128x484x1_0_5_5 : S128x512x29.Slices ![0, 5, 5] S128x484x1
  slices_S128x512x29_S128x484x1_0_6_6 : S128x512x29.Slices ![0, 6, 6] S128x484x1
  slices_S128x512x29_S128x484x1_0_7_7 : S128x512x29.Slices ![0, 7, 7] S128x484x1
  slices_S128x512x29_S128x484x1_0_8_8 : S128x512x29.Slices ![0, 8, 8] S128x484x1
  slices_S128x512x29_S128x484x1_0_9_9 : S128x512x29.Slices ![0, 9, 9] S128x484x1
  slices_S128x512x29_S128x484x1_0_10_10 : S128x512x29.Slices ![0, 10, 10] S128x484x1
  slices_S128x512x29_S128x484x1_0_11_11 : S128x512x29.Slices ![0, 11, 11] S128x484x1
  slices_S128x512x29_S128x484x1_0_12_12 : S128x512x29.Slices ![0, 12, 12] S128x484x1
  slices_S128x512x29_S128x484x1_0_13_13 : S128x512x29.Slices ![0, 13, 13] S128x484x1
  slices_S128x512x29_S128x484x1_0_14_14 : S128x512x29.Slices ![0, 14, 14] S128x484x1
  slices_S128x512x29_S128x484x1_0_15_15 : S128x512x29.Slices ![0, 15, 15] S128x484x1
  slices_S128x512x29_S128x484x1_0_16_16 : S128x512x29.Slices ![0, 16, 16] S128x484x1
  slices_S128x512x29_S128x484x1_0_17_17 : S128x512x29.Slices ![0, 17, 17] S128x484x1
  slices_S128x512x29_S128x484x1_0_18_18 : S128x512x29.Slices ![0, 18, 18] S128x484x1
  slices_S128x512x29_S128x484x1_0_19_19 : S128x512x29.Slices ![0, 19, 19] S128x484x1
  slices_S128x512x29_S128x484x1_0_20_20 : S128x512x29.Slices ![0, 20, 20] S128x484x1
  slices_S128x512x29_S128x484x1_0_21_21 : S128x512x29.Slices ![0, 21, 21] S128x484x1
  slices_S128x512x29_S128x484x1_0_22_22 : S128x512x29.Slices ![0, 22, 22] S128x484x1
  slices_S128x512x29_S128x484x1_0_23_23 : S128x512x29.Slices ![0, 23, 23] S128x484x1
  slices_S128x512x29_S128x484x1_0_24_24 : S128x512x29.Slices ![0, 24, 24] S128x484x1
  slices_S128x512x29_S128x484x1_0_25_25 : S128x512x29.Slices ![0, 25, 25] S128x484x1
  slices_S128x512x29_S128x484x1_0_26_26 : S128x512x29.Slices ![0, 26, 26] S128x484x1
  slices_S128x512x29_S128x484x1_0_27_27 : S128x512x29.Slices ![0, 27, 27] S128x484x1
  slices_S128x512x29_S128x484x1_0_28_28 : S128x512x29.Slices ![0, 28, 28] S128x484x1
  slices_S64_S1_54 : S64.Slices ![54] S1
  reducesTo_S128x484_S128_d1 : S128x484.ReducesTo [1] S128
  slices_S64x33x300_S1x29x300_55_0_0 : S64x33x300.Slices ![55, 0, 0] S1x29x300
  slices_S64_S1_55 : S64.Slices ![55] S1
  slices_S64x33x300_S1x30x300_56_0_0 : S64x33x300.Slices ![56, 0, 0] S1x30x300
  shapeCasts_S1x30x300_S30x300 : S1x30x300.ShapeCasts S30x300
  slices_S128x512x30_S128x483x1_0_0_0 : S128x512x30.Slices ![0, 0, 0] S128x483x1
  shapeCasts_S128x483x1_S128x483 : S128x483x1.ShapeCasts S128x483
  bcast_S_S128x483 : S_.BroadcastsInDim S128x483 (![] : Fin 0 → Fin S128x483.rank)
  slices_S128x512x30_S128x483x1_0_1_1 : S128x512x30.Slices ![0, 1, 1] S128x483x1
  slices_S128x512x30_S128x483x1_0_2_2 : S128x512x30.Slices ![0, 2, 2] S128x483x1
  slices_S128x512x30_S128x483x1_0_3_3 : S128x512x30.Slices ![0, 3, 3] S128x483x1
  slices_S128x512x30_S128x483x1_0_4_4 : S128x512x30.Slices ![0, 4, 4] S128x483x1
  slices_S128x512x30_S128x483x1_0_5_5 : S128x512x30.Slices ![0, 5, 5] S128x483x1
  slices_S128x512x30_S128x483x1_0_6_6 : S128x512x30.Slices ![0, 6, 6] S128x483x1
  slices_S128x512x30_S128x483x1_0_7_7 : S128x512x30.Slices ![0, 7, 7] S128x483x1
  slices_S128x512x30_S128x483x1_0_8_8 : S128x512x30.Slices ![0, 8, 8] S128x483x1
  slices_S128x512x30_S128x483x1_0_9_9 : S128x512x30.Slices ![0, 9, 9] S128x483x1
  slices_S128x512x30_S128x483x1_0_10_10 : S128x512x30.Slices ![0, 10, 10] S128x483x1
  slices_S128x512x30_S128x483x1_0_11_11 : S128x512x30.Slices ![0, 11, 11] S128x483x1
  slices_S128x512x30_S128x483x1_0_12_12 : S128x512x30.Slices ![0, 12, 12] S128x483x1
  slices_S128x512x30_S128x483x1_0_13_13 : S128x512x30.Slices ![0, 13, 13] S128x483x1
  slices_S128x512x30_S128x483x1_0_14_14 : S128x512x30.Slices ![0, 14, 14] S128x483x1
  slices_S128x512x30_S128x483x1_0_15_15 : S128x512x30.Slices ![0, 15, 15] S128x483x1
  slices_S128x512x30_S128x483x1_0_16_16 : S128x512x30.Slices ![0, 16, 16] S128x483x1
  slices_S128x512x30_S128x483x1_0_17_17 : S128x512x30.Slices ![0, 17, 17] S128x483x1
  slices_S128x512x30_S128x483x1_0_18_18 : S128x512x30.Slices ![0, 18, 18] S128x483x1
  slices_S128x512x30_S128x483x1_0_19_19 : S128x512x30.Slices ![0, 19, 19] S128x483x1
  slices_S128x512x30_S128x483x1_0_20_20 : S128x512x30.Slices ![0, 20, 20] S128x483x1
  slices_S128x512x30_S128x483x1_0_21_21 : S128x512x30.Slices ![0, 21, 21] S128x483x1
  slices_S128x512x30_S128x483x1_0_22_22 : S128x512x30.Slices ![0, 22, 22] S128x483x1
  slices_S128x512x30_S128x483x1_0_23_23 : S128x512x30.Slices ![0, 23, 23] S128x483x1
  slices_S128x512x30_S128x483x1_0_24_24 : S128x512x30.Slices ![0, 24, 24] S128x483x1
  slices_S128x512x30_S128x483x1_0_25_25 : S128x512x30.Slices ![0, 25, 25] S128x483x1
  slices_S128x512x30_S128x483x1_0_26_26 : S128x512x30.Slices ![0, 26, 26] S128x483x1
  slices_S128x512x30_S128x483x1_0_27_27 : S128x512x30.Slices ![0, 27, 27] S128x483x1
  slices_S128x512x30_S128x483x1_0_28_28 : S128x512x30.Slices ![0, 28, 28] S128x483x1
  slices_S128x512x30_S128x483x1_0_29_29 : S128x512x30.Slices ![0, 29, 29] S128x483x1
  slices_S64_S1_56 : S64.Slices ![56] S1
  reducesTo_S128x483_S128_d1 : S128x483.ReducesTo [1] S128
  slices_S64x33x300_S1x30x300_57_0_0 : S64x33x300.Slices ![57, 0, 0] S1x30x300
  slices_S64_S1_57 : S64.Slices ![57] S1
  slices_S64x33x300_S1x31x300_58_0_0 : S64x33x300.Slices ![58, 0, 0] S1x31x300
  shapeCasts_S1x31x300_S31x300 : S1x31x300.ShapeCasts S31x300
  slices_S128x512x31_S128x482x1_0_0_0 : S128x512x31.Slices ![0, 0, 0] S128x482x1
  shapeCasts_S128x482x1_S128x482 : S128x482x1.ShapeCasts S128x482
  bcast_S_S128x482 : S_.BroadcastsInDim S128x482 (![] : Fin 0 → Fin S128x482.rank)
  slices_S128x512x31_S128x482x1_0_1_1 : S128x512x31.Slices ![0, 1, 1] S128x482x1
  slices_S128x512x31_S128x482x1_0_2_2 : S128x512x31.Slices ![0, 2, 2] S128x482x1
  slices_S128x512x31_S128x482x1_0_3_3 : S128x512x31.Slices ![0, 3, 3] S128x482x1
  slices_S128x512x31_S128x482x1_0_4_4 : S128x512x31.Slices ![0, 4, 4] S128x482x1
  slices_S128x512x31_S128x482x1_0_5_5 : S128x512x31.Slices ![0, 5, 5] S128x482x1
  slices_S128x512x31_S128x482x1_0_6_6 : S128x512x31.Slices ![0, 6, 6] S128x482x1
  slices_S128x512x31_S128x482x1_0_7_7 : S128x512x31.Slices ![0, 7, 7] S128x482x1
  slices_S128x512x31_S128x482x1_0_8_8 : S128x512x31.Slices ![0, 8, 8] S128x482x1
  slices_S128x512x31_S128x482x1_0_9_9 : S128x512x31.Slices ![0, 9, 9] S128x482x1
  slices_S128x512x31_S128x482x1_0_10_10 : S128x512x31.Slices ![0, 10, 10] S128x482x1
  slices_S128x512x31_S128x482x1_0_11_11 : S128x512x31.Slices ![0, 11, 11] S128x482x1
  slices_S128x512x31_S128x482x1_0_12_12 : S128x512x31.Slices ![0, 12, 12] S128x482x1
  slices_S128x512x31_S128x482x1_0_13_13 : S128x512x31.Slices ![0, 13, 13] S128x482x1
  slices_S128x512x31_S128x482x1_0_14_14 : S128x512x31.Slices ![0, 14, 14] S128x482x1
  slices_S128x512x31_S128x482x1_0_15_15 : S128x512x31.Slices ![0, 15, 15] S128x482x1
  slices_S128x512x31_S128x482x1_0_16_16 : S128x512x31.Slices ![0, 16, 16] S128x482x1
  slices_S128x512x31_S128x482x1_0_17_17 : S128x512x31.Slices ![0, 17, 17] S128x482x1
  slices_S128x512x31_S128x482x1_0_18_18 : S128x512x31.Slices ![0, 18, 18] S128x482x1
  slices_S128x512x31_S128x482x1_0_19_19 : S128x512x31.Slices ![0, 19, 19] S128x482x1
  slices_S128x512x31_S128x482x1_0_20_20 : S128x512x31.Slices ![0, 20, 20] S128x482x1
  slices_S128x512x31_S128x482x1_0_21_21 : S128x512x31.Slices ![0, 21, 21] S128x482x1
  slices_S128x512x31_S128x482x1_0_22_22 : S128x512x31.Slices ![0, 22, 22] S128x482x1
  slices_S128x512x31_S128x482x1_0_23_23 : S128x512x31.Slices ![0, 23, 23] S128x482x1
  slices_S128x512x31_S128x482x1_0_24_24 : S128x512x31.Slices ![0, 24, 24] S128x482x1
  slices_S128x512x31_S128x482x1_0_25_25 : S128x512x31.Slices ![0, 25, 25] S128x482x1
  slices_S128x512x31_S128x482x1_0_26_26 : S128x512x31.Slices ![0, 26, 26] S128x482x1
  slices_S128x512x31_S128x482x1_0_27_27 : S128x512x31.Slices ![0, 27, 27] S128x482x1
  slices_S128x512x31_S128x482x1_0_28_28 : S128x512x31.Slices ![0, 28, 28] S128x482x1
  slices_S128x512x31_S128x482x1_0_29_29 : S128x512x31.Slices ![0, 29, 29] S128x482x1
  slices_S128x512x31_S128x482x1_0_30_30 : S128x512x31.Slices ![0, 30, 30] S128x482x1
  slices_S64_S1_58 : S64.Slices ![58] S1
  reducesTo_S128x482_S128_d1 : S128x482.ReducesTo [1] S128
  slices_S64x33x300_S1x31x300_59_0_0 : S64x33x300.Slices ![59, 0, 0] S1x31x300
  slices_S64_S1_59 : S64.Slices ![59] S1
  slices_S64x33x300_S1x32x300_60_0_0 : S64x33x300.Slices ![60, 0, 0] S1x32x300
  shapeCasts_S1x32x300_S32x300 : S1x32x300.ShapeCasts S32x300
  slices_S128x512x32_S128x481x1_0_0_0 : S128x512x32.Slices ![0, 0, 0] S128x481x1
  shapeCasts_S128x481x1_S128x481 : S128x481x1.ShapeCasts S128x481
  bcast_S_S128x481 : S_.BroadcastsInDim S128x481 (![] : Fin 0 → Fin S128x481.rank)
  slices_S128x512x32_S128x481x1_0_1_1 : S128x512x32.Slices ![0, 1, 1] S128x481x1
  slices_S128x512x32_S128x481x1_0_2_2 : S128x512x32.Slices ![0, 2, 2] S128x481x1
  slices_S128x512x32_S128x481x1_0_3_3 : S128x512x32.Slices ![0, 3, 3] S128x481x1
  slices_S128x512x32_S128x481x1_0_4_4 : S128x512x32.Slices ![0, 4, 4] S128x481x1
  slices_S128x512x32_S128x481x1_0_5_5 : S128x512x32.Slices ![0, 5, 5] S128x481x1
  slices_S128x512x32_S128x481x1_0_6_6 : S128x512x32.Slices ![0, 6, 6] S128x481x1
  slices_S128x512x32_S128x481x1_0_7_7 : S128x512x32.Slices ![0, 7, 7] S128x481x1
  slices_S128x512x32_S128x481x1_0_8_8 : S128x512x32.Slices ![0, 8, 8] S128x481x1
  slices_S128x512x32_S128x481x1_0_9_9 : S128x512x32.Slices ![0, 9, 9] S128x481x1
  slices_S128x512x32_S128x481x1_0_10_10 : S128x512x32.Slices ![0, 10, 10] S128x481x1
  slices_S128x512x32_S128x481x1_0_11_11 : S128x512x32.Slices ![0, 11, 11] S128x481x1
  slices_S128x512x32_S128x481x1_0_12_12 : S128x512x32.Slices ![0, 12, 12] S128x481x1
  slices_S128x512x32_S128x481x1_0_13_13 : S128x512x32.Slices ![0, 13, 13] S128x481x1
  slices_S128x512x32_S128x481x1_0_14_14 : S128x512x32.Slices ![0, 14, 14] S128x481x1
  slices_S128x512x32_S128x481x1_0_15_15 : S128x512x32.Slices ![0, 15, 15] S128x481x1
  slices_S128x512x32_S128x481x1_0_16_16 : S128x512x32.Slices ![0, 16, 16] S128x481x1
  slices_S128x512x32_S128x481x1_0_17_17 : S128x512x32.Slices ![0, 17, 17] S128x481x1
  slices_S128x512x32_S128x481x1_0_18_18 : S128x512x32.Slices ![0, 18, 18] S128x481x1
  slices_S128x512x32_S128x481x1_0_19_19 : S128x512x32.Slices ![0, 19, 19] S128x481x1
  slices_S128x512x32_S128x481x1_0_20_20 : S128x512x32.Slices ![0, 20, 20] S128x481x1
  slices_S128x512x32_S128x481x1_0_21_21 : S128x512x32.Slices ![0, 21, 21] S128x481x1
  slices_S128x512x32_S128x481x1_0_22_22 : S128x512x32.Slices ![0, 22, 22] S128x481x1
  slices_S128x512x32_S128x481x1_0_23_23 : S128x512x32.Slices ![0, 23, 23] S128x481x1
  slices_S128x512x32_S128x481x1_0_24_24 : S128x512x32.Slices ![0, 24, 24] S128x481x1
  slices_S128x512x32_S128x481x1_0_25_25 : S128x512x32.Slices ![0, 25, 25] S128x481x1
  slices_S128x512x32_S128x481x1_0_26_26 : S128x512x32.Slices ![0, 26, 26] S128x481x1
  slices_S128x512x32_S128x481x1_0_27_27 : S128x512x32.Slices ![0, 27, 27] S128x481x1
  slices_S128x512x32_S128x481x1_0_28_28 : S128x512x32.Slices ![0, 28, 28] S128x481x1
  slices_S128x512x32_S128x481x1_0_29_29 : S128x512x32.Slices ![0, 29, 29] S128x481x1
  slices_S128x512x32_S128x481x1_0_30_30 : S128x512x32.Slices ![0, 30, 30] S128x481x1
  slices_S128x512x32_S128x481x1_0_31_31 : S128x512x32.Slices ![0, 31, 31] S128x481x1
  slices_S64_S1_60 : S64.Slices ![60] S1
  reducesTo_S128x481_S128_d1 : S128x481.ReducesTo [1] S128
  slices_S64x33x300_S1x32x300_61_0_0 : S64x33x300.Slices ![61, 0, 0] S1x32x300
  slices_S64_S1_61 : S64.Slices ![61] S1
  slices_S64x33x300_S1x33x300_62_0_0 : S64x33x300.Slices ![62, 0, 0] S1x33x300
  shapeCasts_S1x33x300_S33x300 : S1x33x300.ShapeCasts S33x300
  slices_S128x512x33_S128x480x1_0_0_0 : S128x512x33.Slices ![0, 0, 0] S128x480x1
  shapeCasts_S128x480x1_S128x480 : S128x480x1.ShapeCasts S128x480
  bcast_S_S128x480 : S_.BroadcastsInDim S128x480 (![] : Fin 0 → Fin S128x480.rank)
  slices_S128x512x33_S128x480x1_0_1_1 : S128x512x33.Slices ![0, 1, 1] S128x480x1
  slices_S128x512x33_S128x480x1_0_2_2 : S128x512x33.Slices ![0, 2, 2] S128x480x1
  slices_S128x512x33_S128x480x1_0_3_3 : S128x512x33.Slices ![0, 3, 3] S128x480x1
  slices_S128x512x33_S128x480x1_0_4_4 : S128x512x33.Slices ![0, 4, 4] S128x480x1
  slices_S128x512x33_S128x480x1_0_5_5 : S128x512x33.Slices ![0, 5, 5] S128x480x1
  slices_S128x512x33_S128x480x1_0_6_6 : S128x512x33.Slices ![0, 6, 6] S128x480x1
  slices_S128x512x33_S128x480x1_0_7_7 : S128x512x33.Slices ![0, 7, 7] S128x480x1
  slices_S128x512x33_S128x480x1_0_8_8 : S128x512x33.Slices ![0, 8, 8] S128x480x1
  slices_S128x512x33_S128x480x1_0_9_9 : S128x512x33.Slices ![0, 9, 9] S128x480x1
  slices_S128x512x33_S128x480x1_0_10_10 : S128x512x33.Slices ![0, 10, 10] S128x480x1
  slices_S128x512x33_S128x480x1_0_11_11 : S128x512x33.Slices ![0, 11, 11] S128x480x1
  slices_S128x512x33_S128x480x1_0_12_12 : S128x512x33.Slices ![0, 12, 12] S128x480x1
  slices_S128x512x33_S128x480x1_0_13_13 : S128x512x33.Slices ![0, 13, 13] S128x480x1
  slices_S128x512x33_S128x480x1_0_14_14 : S128x512x33.Slices ![0, 14, 14] S128x480x1
  slices_S128x512x33_S128x480x1_0_15_15 : S128x512x33.Slices ![0, 15, 15] S128x480x1
  slices_S128x512x33_S128x480x1_0_16_16 : S128x512x33.Slices ![0, 16, 16] S128x480x1
  slices_S128x512x33_S128x480x1_0_17_17 : S128x512x33.Slices ![0, 17, 17] S128x480x1
  slices_S128x512x33_S128x480x1_0_18_18 : S128x512x33.Slices ![0, 18, 18] S128x480x1
  slices_S128x512x33_S128x480x1_0_19_19 : S128x512x33.Slices ![0, 19, 19] S128x480x1
  slices_S128x512x33_S128x480x1_0_20_20 : S128x512x33.Slices ![0, 20, 20] S128x480x1
  slices_S128x512x33_S128x480x1_0_21_21 : S128x512x33.Slices ![0, 21, 21] S128x480x1
  slices_S128x512x33_S128x480x1_0_22_22 : S128x512x33.Slices ![0, 22, 22] S128x480x1
  slices_S128x512x33_S128x480x1_0_23_23 : S128x512x33.Slices ![0, 23, 23] S128x480x1
  slices_S128x512x33_S128x480x1_0_24_24 : S128x512x33.Slices ![0, 24, 24] S128x480x1
  slices_S128x512x33_S128x480x1_0_25_25 : S128x512x33.Slices ![0, 25, 25] S128x480x1
  slices_S128x512x33_S128x480x1_0_26_26 : S128x512x33.Slices ![0, 26, 26] S128x480x1
  slices_S128x512x33_S128x480x1_0_27_27 : S128x512x33.Slices ![0, 27, 27] S128x480x1
  slices_S128x512x33_S128x480x1_0_28_28 : S128x512x33.Slices ![0, 28, 28] S128x480x1
  slices_S128x512x33_S128x480x1_0_29_29 : S128x512x33.Slices ![0, 29, 29] S128x480x1
  slices_S128x512x33_S128x480x1_0_30_30 : S128x512x33.Slices ![0, 30, 30] S128x480x1
  slices_S128x512x33_S128x480x1_0_31_31 : S128x512x33.Slices ![0, 31, 31] S128x480x1
  slices_S128x512x33_S128x480x1_0_32_32 : S128x512x33.Slices ![0, 32, 32] S128x480x1
  slices_S64_S1_62 : S64.Slices ![62] S1
  reducesTo_S128x480_S128_d1 : S128x480.ReducesTo [1] S128
  slices_S64x33x300_S1x33x300_63_0_0 : S64x33x300.Slices ![63, 0, 0] S1x33x300
  slices_S64_S1_63 : S64.Slices ![63] S1
  bcast_S128_S128x1_0 : S128.BroadcastsInDim S128x1 (![0] : Fin 1 → Fin S128x1.rank)
  concatenates_S128x1_S128x1_S128x1_S128x1_S128x1_S128x1_S128x1_S128x1_S128x1_S128x1_S128x1_S128x1_S128x1_S128x1_S128x1_S128x1_S128x16_d1 : Shape.Concatenates [S128x1, S128x1, S128x1, S128x1, S128x1, S128x1, S128x1, S128x1, S128x1, S128x1, S128x1, S128x1, S128x1, S128x1, S128x1, S128x1] S128x16 1
  concatenates_S128x16_S128x16_S128x16_S128x16_S128x64_d1 : Shape.Concatenates [S128x16, S128x16, S128x16, S128x16] S128x64 1
  transposes_S1x64_S64x1_1_0 : S1x64.Transposes [1, 0] S64x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  gather_S50000x300_S128x512x1_S128x512x300_2_0_n_n_0_2_1300_wf : GatherDims.WF S50000x300 S128x512x1 S128x512x300 [2] [0] [] [0] [] 2 ![1, 300]
  dot_S128x512x300_S2x300_S128x512x2_2_1_01_0_n_n_wf : DotDims.WF S128x512x300 S2x300 S128x512x2 [2] [1] [0, 1] [0] [] []
  dot_S128x512x300_S3x300_S128x512x3_2_1_01_0_n_n_wf : DotDims.WF S128x512x300 S3x300 S128x512x3 [2] [1] [0, 1] [0] [] []
  dot_S128x512x300_S4x300_S128x512x4_2_1_01_0_n_n_wf : DotDims.WF S128x512x300 S4x300 S128x512x4 [2] [1] [0, 1] [0] [] []
  dot_S128x512x300_S5x300_S128x512x5_2_1_01_0_n_n_wf : DotDims.WF S128x512x300 S5x300 S128x512x5 [2] [1] [0, 1] [0] [] []
  dot_S128x512x300_S6x300_S128x512x6_2_1_01_0_n_n_wf : DotDims.WF S128x512x300 S6x300 S128x512x6 [2] [1] [0, 1] [0] [] []
  dot_S128x512x300_S7x300_S128x512x7_2_1_01_0_n_n_wf : DotDims.WF S128x512x300 S7x300 S128x512x7 [2] [1] [0, 1] [0] [] []
  dot_S128x512x300_S8x300_S128x512x8_2_1_01_0_n_n_wf : DotDims.WF S128x512x300 S8x300 S128x512x8 [2] [1] [0, 1] [0] [] []
  dot_S128x512x300_S9x300_S128x512x9_2_1_01_0_n_n_wf : DotDims.WF S128x512x300 S9x300 S128x512x9 [2] [1] [0, 1] [0] [] []
  dot_S128x512x300_S10x300_S128x512x10_2_1_01_0_n_n_wf : DotDims.WF S128x512x300 S10x300 S128x512x10 [2] [1] [0, 1] [0] [] []
  dot_S128x512x300_S11x300_S128x512x11_2_1_01_0_n_n_wf : DotDims.WF S128x512x300 S11x300 S128x512x11 [2] [1] [0, 1] [0] [] []
  dot_S128x512x300_S12x300_S128x512x12_2_1_01_0_n_n_wf : DotDims.WF S128x512x300 S12x300 S128x512x12 [2] [1] [0, 1] [0] [] []
  dot_S128x512x300_S13x300_S128x512x13_2_1_01_0_n_n_wf : DotDims.WF S128x512x300 S13x300 S128x512x13 [2] [1] [0, 1] [0] [] []
  dot_S128x512x300_S14x300_S128x512x14_2_1_01_0_n_n_wf : DotDims.WF S128x512x300 S14x300 S128x512x14 [2] [1] [0, 1] [0] [] []
  dot_S128x512x300_S15x300_S128x512x15_2_1_01_0_n_n_wf : DotDims.WF S128x512x300 S15x300 S128x512x15 [2] [1] [0, 1] [0] [] []
  dot_S128x512x300_S16x300_S128x512x16_2_1_01_0_n_n_wf : DotDims.WF S128x512x300 S16x300 S128x512x16 [2] [1] [0, 1] [0] [] []
  dot_S128x512x300_S17x300_S128x512x17_2_1_01_0_n_n_wf : DotDims.WF S128x512x300 S17x300 S128x512x17 [2] [1] [0, 1] [0] [] []
  dot_S128x512x300_S18x300_S128x512x18_2_1_01_0_n_n_wf : DotDims.WF S128x512x300 S18x300 S128x512x18 [2] [1] [0, 1] [0] [] []
  dot_S128x512x300_S19x300_S128x512x19_2_1_01_0_n_n_wf : DotDims.WF S128x512x300 S19x300 S128x512x19 [2] [1] [0, 1] [0] [] []
  dot_S128x512x300_S20x300_S128x512x20_2_1_01_0_n_n_wf : DotDims.WF S128x512x300 S20x300 S128x512x20 [2] [1] [0, 1] [0] [] []
  dot_S128x512x300_S21x300_S128x512x21_2_1_01_0_n_n_wf : DotDims.WF S128x512x300 S21x300 S128x512x21 [2] [1] [0, 1] [0] [] []
  dot_S128x512x300_S22x300_S128x512x22_2_1_01_0_n_n_wf : DotDims.WF S128x512x300 S22x300 S128x512x22 [2] [1] [0, 1] [0] [] []
  dot_S128x512x300_S23x300_S128x512x23_2_1_01_0_n_n_wf : DotDims.WF S128x512x300 S23x300 S128x512x23 [2] [1] [0, 1] [0] [] []
  dot_S128x512x300_S24x300_S128x512x24_2_1_01_0_n_n_wf : DotDims.WF S128x512x300 S24x300 S128x512x24 [2] [1] [0, 1] [0] [] []
  dot_S128x512x300_S25x300_S128x512x25_2_1_01_0_n_n_wf : DotDims.WF S128x512x300 S25x300 S128x512x25 [2] [1] [0, 1] [0] [] []
  dot_S128x512x300_S26x300_S128x512x26_2_1_01_0_n_n_wf : DotDims.WF S128x512x300 S26x300 S128x512x26 [2] [1] [0, 1] [0] [] []
  dot_S128x512x300_S27x300_S128x512x27_2_1_01_0_n_n_wf : DotDims.WF S128x512x300 S27x300 S128x512x27 [2] [1] [0, 1] [0] [] []
  dot_S128x512x300_S28x300_S128x512x28_2_1_01_0_n_n_wf : DotDims.WF S128x512x300 S28x300 S128x512x28 [2] [1] [0, 1] [0] [] []
  dot_S128x512x300_S29x300_S128x512x29_2_1_01_0_n_n_wf : DotDims.WF S128x512x300 S29x300 S128x512x29 [2] [1] [0, 1] [0] [] []
  dot_S128x512x300_S30x300_S128x512x30_2_1_01_0_n_n_wf : DotDims.WF S128x512x300 S30x300 S128x512x30 [2] [1] [0, 1] [0] [] []
  dot_S128x512x300_S31x300_S128x512x31_2_1_01_0_n_n_wf : DotDims.WF S128x512x300 S31x300 S128x512x31 [2] [1] [0, 1] [0] [] []
  dot_S128x512x300_S32x300_S128x512x32_2_1_01_0_n_n_wf : DotDims.WF S128x512x300 S32x300 S128x512x32 [2] [1] [0, 1] [0] [] []
  dot_S128x512x300_S33x300_S128x512x33_2_1_01_0_n_n_wf : DotDims.WF S128x512x300 S33x300 S128x512x33 [2] [1] [0, 1] [0] [] []
  dot_S128x64_S64x1_S128x1_1_0_0_1_n_n_wf : DotDims.WF S128x64 S64x1 S128x1 [1] [0] [0] [1] [] []

variable [Facts₀]

def gather_S50000x300_S128x512x1_S128x512x300_2_0_n_n_0_2_1300 : GatherDims S50000x300 S128x512x1 S128x512x300 where
  offsetDims := [2]
  collapsedSliceDims := [0]
  operandBatchingDims := []
  startIndicesBatchingDims := []
  startIndexMap := [0]
  indexVectorDim := 2
  sliceSizes := ![1, 300]
  wf := gather_S50000x300_S128x512x1_S128x512x300_2_0_n_n_0_2_1300_wf
def dot_S128x512x300_S2x300_S128x512x2_2_1_01_0_n_n : DotDims S128x512x300 S2x300 S128x512x2 where
  lhsContracting := [2]
  rhsContracting := [1]
  lhsNonContracting := [0, 1]
  rhsNonContracting := [0]
  lhsBatch := []
  rhsBatch := []
  wf := dot_S128x512x300_S2x300_S128x512x2_2_1_01_0_n_n_wf
def dot_S128x512x300_S3x300_S128x512x3_2_1_01_0_n_n : DotDims S128x512x300 S3x300 S128x512x3 where
  lhsContracting := [2]
  rhsContracting := [1]
  lhsNonContracting := [0, 1]
  rhsNonContracting := [0]
  lhsBatch := []
  rhsBatch := []
  wf := dot_S128x512x300_S3x300_S128x512x3_2_1_01_0_n_n_wf
def dot_S128x512x300_S4x300_S128x512x4_2_1_01_0_n_n : DotDims S128x512x300 S4x300 S128x512x4 where
  lhsContracting := [2]
  rhsContracting := [1]
  lhsNonContracting := [0, 1]
  rhsNonContracting := [0]
  lhsBatch := []
  rhsBatch := []
  wf := dot_S128x512x300_S4x300_S128x512x4_2_1_01_0_n_n_wf
def dot_S128x512x300_S5x300_S128x512x5_2_1_01_0_n_n : DotDims S128x512x300 S5x300 S128x512x5 where
  lhsContracting := [2]
  rhsContracting := [1]
  lhsNonContracting := [0, 1]
  rhsNonContracting := [0]
  lhsBatch := []
  rhsBatch := []
  wf := dot_S128x512x300_S5x300_S128x512x5_2_1_01_0_n_n_wf
def dot_S128x512x300_S6x300_S128x512x6_2_1_01_0_n_n : DotDims S128x512x300 S6x300 S128x512x6 where
  lhsContracting := [2]
  rhsContracting := [1]
  lhsNonContracting := [0, 1]
  rhsNonContracting := [0]
  lhsBatch := []
  rhsBatch := []
  wf := dot_S128x512x300_S6x300_S128x512x6_2_1_01_0_n_n_wf
def dot_S128x512x300_S7x300_S128x512x7_2_1_01_0_n_n : DotDims S128x512x300 S7x300 S128x512x7 where
  lhsContracting := [2]
  rhsContracting := [1]
  lhsNonContracting := [0, 1]
  rhsNonContracting := [0]
  lhsBatch := []
  rhsBatch := []
  wf := dot_S128x512x300_S7x300_S128x512x7_2_1_01_0_n_n_wf
def dot_S128x512x300_S8x300_S128x512x8_2_1_01_0_n_n : DotDims S128x512x300 S8x300 S128x512x8 where
  lhsContracting := [2]
  rhsContracting := [1]
  lhsNonContracting := [0, 1]
  rhsNonContracting := [0]
  lhsBatch := []
  rhsBatch := []
  wf := dot_S128x512x300_S8x300_S128x512x8_2_1_01_0_n_n_wf
def dot_S128x512x300_S9x300_S128x512x9_2_1_01_0_n_n : DotDims S128x512x300 S9x300 S128x512x9 where
  lhsContracting := [2]
  rhsContracting := [1]
  lhsNonContracting := [0, 1]
  rhsNonContracting := [0]
  lhsBatch := []
  rhsBatch := []
  wf := dot_S128x512x300_S9x300_S128x512x9_2_1_01_0_n_n_wf
def dot_S128x512x300_S10x300_S128x512x10_2_1_01_0_n_n : DotDims S128x512x300 S10x300 S128x512x10 where
  lhsContracting := [2]
  rhsContracting := [1]
  lhsNonContracting := [0, 1]
  rhsNonContracting := [0]
  lhsBatch := []
  rhsBatch := []
  wf := dot_S128x512x300_S10x300_S128x512x10_2_1_01_0_n_n_wf
def dot_S128x512x300_S11x300_S128x512x11_2_1_01_0_n_n : DotDims S128x512x300 S11x300 S128x512x11 where
  lhsContracting := [2]
  rhsContracting := [1]
  lhsNonContracting := [0, 1]
  rhsNonContracting := [0]
  lhsBatch := []
  rhsBatch := []
  wf := dot_S128x512x300_S11x300_S128x512x11_2_1_01_0_n_n_wf
def dot_S128x512x300_S12x300_S128x512x12_2_1_01_0_n_n : DotDims S128x512x300 S12x300 S128x512x12 where
  lhsContracting := [2]
  rhsContracting := [1]
  lhsNonContracting := [0, 1]
  rhsNonContracting := [0]
  lhsBatch := []
  rhsBatch := []
  wf := dot_S128x512x300_S12x300_S128x512x12_2_1_01_0_n_n_wf
def dot_S128x512x300_S13x300_S128x512x13_2_1_01_0_n_n : DotDims S128x512x300 S13x300 S128x512x13 where
  lhsContracting := [2]
  rhsContracting := [1]
  lhsNonContracting := [0, 1]
  rhsNonContracting := [0]
  lhsBatch := []
  rhsBatch := []
  wf := dot_S128x512x300_S13x300_S128x512x13_2_1_01_0_n_n_wf
def dot_S128x512x300_S14x300_S128x512x14_2_1_01_0_n_n : DotDims S128x512x300 S14x300 S128x512x14 where
  lhsContracting := [2]
  rhsContracting := [1]
  lhsNonContracting := [0, 1]
  rhsNonContracting := [0]
  lhsBatch := []
  rhsBatch := []
  wf := dot_S128x512x300_S14x300_S128x512x14_2_1_01_0_n_n_wf
def dot_S128x512x300_S15x300_S128x512x15_2_1_01_0_n_n : DotDims S128x512x300 S15x300 S128x512x15 where
  lhsContracting := [2]
  rhsContracting := [1]
  lhsNonContracting := [0, 1]
  rhsNonContracting := [0]
  lhsBatch := []
  rhsBatch := []
  wf := dot_S128x512x300_S15x300_S128x512x15_2_1_01_0_n_n_wf
def dot_S128x512x300_S16x300_S128x512x16_2_1_01_0_n_n : DotDims S128x512x300 S16x300 S128x512x16 where
  lhsContracting := [2]
  rhsContracting := [1]
  lhsNonContracting := [0, 1]
  rhsNonContracting := [0]
  lhsBatch := []
  rhsBatch := []
  wf := dot_S128x512x300_S16x300_S128x512x16_2_1_01_0_n_n_wf
def dot_S128x512x300_S17x300_S128x512x17_2_1_01_0_n_n : DotDims S128x512x300 S17x300 S128x512x17 where
  lhsContracting := [2]
  rhsContracting := [1]
  lhsNonContracting := [0, 1]
  rhsNonContracting := [0]
  lhsBatch := []
  rhsBatch := []
  wf := dot_S128x512x300_S17x300_S128x512x17_2_1_01_0_n_n_wf
def dot_S128x512x300_S18x300_S128x512x18_2_1_01_0_n_n : DotDims S128x512x300 S18x300 S128x512x18 where
  lhsContracting := [2]
  rhsContracting := [1]
  lhsNonContracting := [0, 1]
  rhsNonContracting := [0]
  lhsBatch := []
  rhsBatch := []
  wf := dot_S128x512x300_S18x300_S128x512x18_2_1_01_0_n_n_wf
def dot_S128x512x300_S19x300_S128x512x19_2_1_01_0_n_n : DotDims S128x512x300 S19x300 S128x512x19 where
  lhsContracting := [2]
  rhsContracting := [1]
  lhsNonContracting := [0, 1]
  rhsNonContracting := [0]
  lhsBatch := []
  rhsBatch := []
  wf := dot_S128x512x300_S19x300_S128x512x19_2_1_01_0_n_n_wf
def dot_S128x512x300_S20x300_S128x512x20_2_1_01_0_n_n : DotDims S128x512x300 S20x300 S128x512x20 where
  lhsContracting := [2]
  rhsContracting := [1]
  lhsNonContracting := [0, 1]
  rhsNonContracting := [0]
  lhsBatch := []
  rhsBatch := []
  wf := dot_S128x512x300_S20x300_S128x512x20_2_1_01_0_n_n_wf
def dot_S128x512x300_S21x300_S128x512x21_2_1_01_0_n_n : DotDims S128x512x300 S21x300 S128x512x21 where
  lhsContracting := [2]
  rhsContracting := [1]
  lhsNonContracting := [0, 1]
  rhsNonContracting := [0]
  lhsBatch := []
  rhsBatch := []
  wf := dot_S128x512x300_S21x300_S128x512x21_2_1_01_0_n_n_wf
def dot_S128x512x300_S22x300_S128x512x22_2_1_01_0_n_n : DotDims S128x512x300 S22x300 S128x512x22 where
  lhsContracting := [2]
  rhsContracting := [1]
  lhsNonContracting := [0, 1]
  rhsNonContracting := [0]
  lhsBatch := []
  rhsBatch := []
  wf := dot_S128x512x300_S22x300_S128x512x22_2_1_01_0_n_n_wf
def dot_S128x512x300_S23x300_S128x512x23_2_1_01_0_n_n : DotDims S128x512x300 S23x300 S128x512x23 where
  lhsContracting := [2]
  rhsContracting := [1]
  lhsNonContracting := [0, 1]
  rhsNonContracting := [0]
  lhsBatch := []
  rhsBatch := []
  wf := dot_S128x512x300_S23x300_S128x512x23_2_1_01_0_n_n_wf
def dot_S128x512x300_S24x300_S128x512x24_2_1_01_0_n_n : DotDims S128x512x300 S24x300 S128x512x24 where
  lhsContracting := [2]
  rhsContracting := [1]
  lhsNonContracting := [0, 1]
  rhsNonContracting := [0]
  lhsBatch := []
  rhsBatch := []
  wf := dot_S128x512x300_S24x300_S128x512x24_2_1_01_0_n_n_wf
def dot_S128x512x300_S25x300_S128x512x25_2_1_01_0_n_n : DotDims S128x512x300 S25x300 S128x512x25 where
  lhsContracting := [2]
  rhsContracting := [1]
  lhsNonContracting := [0, 1]
  rhsNonContracting := [0]
  lhsBatch := []
  rhsBatch := []
  wf := dot_S128x512x300_S25x300_S128x512x25_2_1_01_0_n_n_wf
def dot_S128x512x300_S26x300_S128x512x26_2_1_01_0_n_n : DotDims S128x512x300 S26x300 S128x512x26 where
  lhsContracting := [2]
  rhsContracting := [1]
  lhsNonContracting := [0, 1]
  rhsNonContracting := [0]
  lhsBatch := []
  rhsBatch := []
  wf := dot_S128x512x300_S26x300_S128x512x26_2_1_01_0_n_n_wf
def dot_S128x512x300_S27x300_S128x512x27_2_1_01_0_n_n : DotDims S128x512x300 S27x300 S128x512x27 where
  lhsContracting := [2]
  rhsContracting := [1]
  lhsNonContracting := [0, 1]
  rhsNonContracting := [0]
  lhsBatch := []
  rhsBatch := []
  wf := dot_S128x512x300_S27x300_S128x512x27_2_1_01_0_n_n_wf
def dot_S128x512x300_S28x300_S128x512x28_2_1_01_0_n_n : DotDims S128x512x300 S28x300 S128x512x28 where
  lhsContracting := [2]
  rhsContracting := [1]
  lhsNonContracting := [0, 1]
  rhsNonContracting := [0]
  lhsBatch := []
  rhsBatch := []
  wf := dot_S128x512x300_S28x300_S128x512x28_2_1_01_0_n_n_wf
def dot_S128x512x300_S29x300_S128x512x29_2_1_01_0_n_n : DotDims S128x512x300 S29x300 S128x512x29 where
  lhsContracting := [2]
  rhsContracting := [1]
  lhsNonContracting := [0, 1]
  rhsNonContracting := [0]
  lhsBatch := []
  rhsBatch := []
  wf := dot_S128x512x300_S29x300_S128x512x29_2_1_01_0_n_n_wf
def dot_S128x512x300_S30x300_S128x512x30_2_1_01_0_n_n : DotDims S128x512x300 S30x300 S128x512x30 where
  lhsContracting := [2]
  rhsContracting := [1]
  lhsNonContracting := [0, 1]
  rhsNonContracting := [0]
  lhsBatch := []
  rhsBatch := []
  wf := dot_S128x512x300_S30x300_S128x512x30_2_1_01_0_n_n_wf
def dot_S128x512x300_S31x300_S128x512x31_2_1_01_0_n_n : DotDims S128x512x300 S31x300 S128x512x31 where
  lhsContracting := [2]
  rhsContracting := [1]
  lhsNonContracting := [0, 1]
  rhsNonContracting := [0]
  lhsBatch := []
  rhsBatch := []
  wf := dot_S128x512x300_S31x300_S128x512x31_2_1_01_0_n_n_wf
def dot_S128x512x300_S32x300_S128x512x32_2_1_01_0_n_n : DotDims S128x512x300 S32x300 S128x512x32 where
  lhsContracting := [2]
  rhsContracting := [1]
  lhsNonContracting := [0, 1]
  rhsNonContracting := [0]
  lhsBatch := []
  rhsBatch := []
  wf := dot_S128x512x300_S32x300_S128x512x32_2_1_01_0_n_n_wf
def dot_S128x512x300_S33x300_S128x512x33_2_1_01_0_n_n : DotDims S128x512x300 S33x300 S128x512x33 where
  lhsContracting := [2]
  rhsContracting := [1]
  lhsNonContracting := [0, 1]
  rhsNonContracting := [0]
  lhsBatch := []
  rhsBatch := []
  wf := dot_S128x512x300_S33x300_S128x512x33_2_1_01_0_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.LibConvRead.lean ====
/-
  General lemmas that read layout operations, reductions and contractions at an index given by coordinates:
  slices of rank-1 and rank-3 arrays, the casts between [a, b, 1] and [a, b] and between [a·b, c] and [a, b, c],
  scalar and column broadcasts, a maximum over one axis as a supremum over a range of positions, and a
  matrix product whose rows are the pairs (sequence, position).
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace ConvRead

open Idealize.ShloMosaic Idealize.ShloMosaic.ValueIdx

variable {α : Type}

/-! ## Slices -/

/-- A rank-3 array cut along axes 1 and 2 from `(o1, o2)`. -/
theorem slice3_axes12_eq {n0 n1 n2 m1 m2 : ℕ} (o1 o2 : ℕ) (X : (⟨3, ![n0, n1, n2]⟩ : Shape).Idx → α)
    (h : (⟨3, ![n0, n1, n2]⟩ : Shape).Slices ![0, o1, o2] ⟨3, ![n0, m1, m2]⟩) (a : Fin n0) (j : Fin m1) (e : Fin m2) :
    extractStridedSlice ⟨3, ![n0, m1, m2]⟩ ![0, o1, o2] X h (ix3 a j e)
      = X (ix3 a ⟨o1 + j.val, Nat.lt_of_lt_of_le (Nat.add_lt_add_left j.isLt o1) (h.2 1)⟩
            ⟨o2 + e.val, Nat.lt_of_lt_of_le (Nat.add_lt_add_left e.isLt o2) (h.2 2)⟩) := by
  refine extractStridedSlice_apply _ _ _ _ _ (fun ax => ?_)
  match ax with
  | ⟨0, _⟩ => exact (Nat.zero_add _).symm
  | ⟨1, _⟩ => rfl
  | ⟨2, _⟩ => rfl

/-- A rank-3 array cut along axes 0 and 1 from `(o0, 0)`: some rows of one slab. -/
theorem slice3_axes01_eq {n0 n1 n2 m0 m1 : ℕ} (o0 : ℕ) (X : (⟨3, ![n0, n1, n2]⟩ : Shape).Idx → α)
    (h : (⟨3, ![n0, n1, n2]⟩ : Shape).Slices ![o0, 0, 0] ⟨3, ![m0, m1, n2]⟩) (a : Fin m0) (j : Fin m1) (e : Fin n2) :
    extractStridedSlice ⟨3, ![m0, m1, n2]⟩ ![o0, 0, 0] X h (ix3 a j e)
      = X (ix3 ⟨o0 + a.val, Nat.lt_of_lt_of_le (Nat.add_lt_add_left a.isLt o0) (h.2 0)⟩
            ⟨j.val, Nat.lt_of_lt_of_le j.isLt (Nat.le_trans (Nat.le_add_left _ _) (h.2 1))⟩ e) := by
  refine extractStridedSlice_apply _ _ _ _ _ (fun ax => ?_)
  match ax with
  | ⟨0, _⟩ => rfl
  | ⟨1, _⟩ => exact (Nat.zero_add _).symm
  | ⟨2, _⟩ => exact (Nat.zero_add _).symm

/-- A vector cut from `o`. -/
theorem slice1_eq {n m : ℕ} (o : ℕ) (X : (⟨1, ![n]⟩ : Shape).Idx → α)
    (h : (⟨1, ![n]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) := by
  refine extractStridedSlice_apply _ _ _ _ _ (fun ax => ?_)
  match ax with
  | ⟨0, _⟩ => rfl

/-! ## Casts -/

/-- `[a, b, 1]` cast to `[a, b]`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) := by
  refine shapeCast_apply x h _ _ ?_
  rw [Shape.rowMajor_val_three, Shape.rowMajor_val_two]
  show (i.val * b + j.val) * 1 + 0 = i.val * b + j.val
  rw [Nat.mul_one, Nat.add_zero]

/-- `[1]` cast to a scalar. -/
theorem shapeCast_1_scalar_apply (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) := by
  refine shapeCast_apply x h j (ix1 (0 : Fin 1)) ?_
  rw [Shape.rowMajor_val_one]
  exact (Shape.rowMajorPi_zero _ j).symm

/-- `[a, b, c]` cast to `[a · b, c]`: row `r` is the pair `(r / b, r % b)`. -/
theorem shapeCast_abc_rows_apply {a b c : ℕ} (hb : 0 < b) (x : (⟨3, ![a, b, c]⟩ : Shape).Idx → α)
    (h : (⟨3, ![a, b, c]⟩ : Shape).ShapeCasts ⟨2, ![a * b, c]⟩) (r : Fin (a * b)) (e : Fin c) :
    shapeCast ⟨2, ![a * b, c]⟩ x h (ix2 r e)
      = x (ix3 ⟨r.val / b, Nat.div_lt_of_lt_mul (lt_of_lt_of_eq r.isLt (Nat.mul_comm a b))⟩ ⟨r.val % b, Nat.mod_lt _ hb⟩ e) := by
  refine shapeCast_apply x h _ _ ?_
  rw [Shape.rowMajor_val_three, Shape.rowMajor_val_two]
  show (r.val / b * b + r.val % b) * c + e.val = r.val * c + e.val
  rw [Nat.div_add_mod']

/-- `[a · b, c]` cast to `[a, b, c]`: the pair `(i, j)` is row `i · b + j`. -/
theorem shapeCast_rows_abc_apply {a b c : ℕ} (x : (⟨2, ![a * b, c]⟩ : Shape).Idx → α)
    (h : (⟨2, ![a * b, c]⟩ : Shape).ShapeCasts ⟨3, ![a, b, c]⟩) (i : Fin a) (j : Fin b) (e : Fin c) :
    shapeCast ⟨3, ![a, b, c]⟩ x h (ix3 i j e)
      = x (ix2 ⟨i.val * b + j.val, by
            have hi := i.isLt; have hj := j.isLt
            calc i.val * b + j.val < i.val * b + b := Nat.add_lt_add_left hj _
              _ = (i.val + 1) * b := by rw [Nat.add_mul, Nat.one_mul]
              _ ≤ a * b := Nat.mul_le_mul_right _ hi⟩ e) := by
  refine shapeCast_apply x h _ _ ?_
  rw [Shape.rowMajor_val_three, Shape.rowMajor_val_two]
  rfl

/-! ## Broadcasts -/

/-- A scalar broadcast to any shape. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 := by
  exact broadcastInDim_apply dims h x j ix0 (fun ax => ax.elim0)

/-- A vector `[a]` as the column `[a, 1]`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (i : Fin a) (z : Fin 1) :
    broadcastInDim ⟨2, ![a, 1]⟩ dims h x (ix2 i z) = x (ix1 i) := by
  refine broadcastInDim_apply dims h x (ix2 i z) (ix1 i) fun ax => ?_
  match ax with
  | ⟨0, _⟩ =>
    show i.val = if a = 1 then 0 else (ix2 i z (dims 0)).val
    rw [hd]
    split
    · have := i.isLt; omega
    · rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (e : Fin c) :
    broadcastTo ⟨3, ![a, b, c]⟩ x h (ix3 i j e) = x (ix3 (0 : Fin 1) (0 : Fin 1) e) := by
  refine broadcastTo_apply x h (ix3 i j e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (e : Fin c) :
    broadcastTo ⟨3, ![a, b, c]⟩ x h (ix3 i j e) = x (ix3 (0 : Fin 1) j e) := by
  refine broadcastTo_apply x h (ix3 i j e) (ix3 (0 : Fin 1) j e) fun ax => ?_
  match ax with
  | ⟨0, _⟩ => rfl
  | ⟨1, _⟩ =>
    show j.val = if b = 1 then 0 else j.val
    split
    · have := j.isLt; omega
    · rfl
  | ⟨2, _⟩ =>
    show e.val = if c = 1 then 0 else e.val
    split
    · have := e.isLt; omega
    · rfl

/-- `[c]` cast to `[1, 1, c]`. -/
theorem shapeCast_c_11c_apply {c : ℕ} (x : (⟨1, ![c]⟩ : Shape).Idx → α)
    (h : (⟨1, ![c]⟩ : Shape).ShapeCasts ⟨3, ![1, 1, c]⟩) (u v : Fin 1) (e : Fin c) :
    shapeCast ⟨3, ![1, 1, c]⟩ x h (ix3 u v e) = x (ix1 e) := by
  refine shapeCast_apply x h _ _ ?_
  have hu : u.val = 0 := by omega
  have hv : v.val = 0 := by omega
  rw [Shape.rowMajor_val_three, Shape.rowMajor_val_one]
  show e.val = (u.val * 1 + v.val) * c + e.val
  rw [hu, hv]
  simp

/-! ## A maximum over one axis, from -∞, as a supremum over positions -/

/-- A fold of `max` from `-∞` over the `L` coordinates of an axis is the supremum over the positions `l < L`:
    `Finset.sup` is by definition the fold of `⊔` from `⊥`, and the coordinates `Fin L` are the positions below `L`. -/
theorem fold_max_bot_eq_sup_range {L : ℕ} (f : Fin L → EReal) :
    (Finset.univ : Finset (Fin L)).fold max ⊥ f
      = (Finset.range L).sup (fun l => if hl : l < L then f ⟨l, hl⟩ else ⊥) := by
  have h1 : (Finset.univ : Finset (Fin L)).fold max ⊥ f = Finset.univ.sup f := rfl
  rw [h1]
  apply le_antisymm
  · refine Finset.sup_le fun k _ => ?_
    refine le_trans (le_of_eq ?_)
      (Finset.le_sup (f := fun l => if hl : l < L then f ⟨l, hl⟩ else ⊥) (Finset.mem_range.2 k.isLt))
    have hk : (if hl : k.val < L then f ⟨k.val, hl⟩ else ⊥) = f k := dif_pos k.isLt
    exact hk.symm
  · refine Finset.sup_le fun l hl => ?_
    have hl' : l < L := Finset.mem_range.1 hl
    rw [dif_pos hl']
    exact Finset.le_sup (f := f) (Finset.mem_univ _)

/-- The largest entry of row `b` of an `[a, L]` array (a one-operand reduce with a maximum body over axis 1, started from `-∞`). -/
theorem hostReduce_max_rows {a L : ℕ} (x : (⟨2, ![a, L]⟩ : Shape).Idx → EReal) (v : (⟨0, ![]⟩ : Shape).Idx → EReal)
    (hv : v ix0 = ⊥) (h : (⟨2, ![a, L]⟩ : Shape).ReducesTo [1] ⟨1, ![a]⟩) (hu : 0 < (⟨0, ![]⟩ : Shape).numel) (b : Fin a) :
    Host.reduce (max : EReal → EReal → EReal) x v h hu (ix1 b)
      = (Finset.range L).sup (fun l => if hl : l < L then x (ix2 b ⟨l, hl⟩) else ⊥) := by
  have h' : (⟨2, ![a, L]⟩ : Shape).Reduces [1] ⟨1, ![a]⟩ := ⟨h.1, Nat.one_pos, h.2⟩
  have hlift : ∀ k : Fin L, h'.lift (ix1 b) k = ix2 b k := fun k => by
    funext ax; apply Fin.ext
    match ax with
    | ⟨0, _⟩ => rfl
    | ⟨1, _⟩ => rfl
  have hinit : v (Shape.Idx.first hu) = ⊥ := by
    rw [← hv]; exact congrArg v (funext fun ax => ax.elim0)
  rw [Host.reduce_eq_fold_single (max : EReal → EReal → EReal) x v h h' hu (ix1 b), hinit]
  have hf : (x ∘ h'.lift (ix1 b)) = fun k : Fin L => x (ix2 b k) := funext fun k => congrArg x (hlift k)
  rw [hf]
  exact fold_max_bot_eq_sup_range (fun k : Fin L => x (ix2 b k))

/-- The same with the maximum written as the float operation at the ideal values, where it is `max` by definition:
    the spelling a printed reduce has, which `rw` and `simp only` match literally. -/
theorem hostReduce_maximumf_rows {a L : ℕ} (x : FVec Ideal ⟨2, ![a, L]⟩ .f32) (v : FVec Ideal ⟨0, ![]⟩ .f32)
    (hv : v ix0 = ⊥) (h : (⟨2, ![a, L]⟩ : Shape).ReducesTo [1] ⟨1, ![a]⟩) (hu : 0 < (⟨0, ![]⟩ : Shape).numel) (b : Fin a) :
    Host.reduce (FloatOps.maximumf (F := Ideal) (φ := .f32)) x v h hu (ix1 b)
      = (Finset.range L).sup (fun l => if hl : l < L then x (ix2 b ⟨l, hl⟩) else ⊥) :=
  hostReduce_max_rows x v hv h hu b

/-- The largest entry along axis 1 of an `[a, L, c]` vector (a `multi_reduction <maximumf>` started from `-∞`). -/
theorem multiReduction_max_axis1 {a L c : ℕ} (src : FVec Ideal ⟨3, ![a, L, c]⟩ .f32) (acc : BitVec 32)
    (hbot : Ideal.ofBits .f32 acc = ⊥)
    (h : (⟨3, ![a, L, c]⟩ : Shape).Reduces [1] ⟨2, ![a, c]⟩) (hφ : FKind.Formats .f32)
    (hacc : acc = FKind.maximumf.neutral .f32 hφ) (i : Fin a) (j : Fin c) :
    multiReduction .maximumf [1] ⟨2, ![a, c]⟩ src acc h hφ hacc (ix2 i j)
      = (Finset.range L).sup (fun l => if hl : l < L then src (ix3 i ⟨l, hl⟩ j) else ⊥) := by
  have hlift : ∀ k : Fin L, h.lift (ix2 i j) k = ix3 i k j := fun k => by
    funext ax; apply Fin.ext
    match ax with
    | ⟨0, _⟩ => rfl
    | ⟨1, _⟩ => rfl
    | ⟨2, _⟩ => rfl
  rw [Ideal.multiReduction_maximumf_single src acc h hφ hacc (ix2 i j)]
  have hinit : FloatOps.ofBits (F := Ideal) .f32 acc = (⊥ : EReal) := hbot
  rw [hinit]
  have hf : (src ∘ h.lift (ix2 i j)) = fun k : Fin L => src (ix3 i k j) := funext fun k => congrArg src (hlift k)
  rw [hf]
  exact fold_max_bot_eq_sup_range (fun k : Fin L => src (ix3 i k j))

/-! ## Contractions -/

/-- The operand indices of a plain product `[M, K] × [K, N]` at the result index `(r, c)` and the contraction
    coordinate `e`: `(r, e)` on the left and `(e, c)` on the right. -/
theorem plain_lhsIdx {M K N : ℕ}
    (wf : DotDims.WF ⟨2, ![M, K]⟩ ⟨2, ![K, N]⟩ ⟨2, ![M, N]⟩ [1] [0] [0] [1] [] []) (r : Fin M) (c : Fin N) (e : Fin K) :
    (⟨[1], [0], [0], [1], [], [], wf⟩ : DotDims ⟨2, ![M, K]⟩ ⟨2, ![K, N]⟩ ⟨2, ![M, N]⟩).lhsIdx (ix2 r c)
        ((contrEquiv1 (⟨[1], [0], [0], [1], [], [], wf⟩ : DotDims ⟨2, ![M, K]⟩ ⟨2, ![K, N]⟩ ⟨2, ![M, N]⟩) K rfl rfl).symm e) = ix2 r e := by
  have ce := contrEquiv1_symm_val (⟨[1], [0], [0], [1], [], [], wf⟩ : DotDims ⟨2, ![M, K]⟩ ⟨2, ![K, N]⟩ ⟨2, ![M, N]⟩) K rfl rfl e
  funext ax; apply Fin.ext
  match ax with
  | ⟨0, _⟩ => simp [DotDims.lhsIdx]; rfl
  | ⟨1, _⟩ => simp [DotDims.lhsIdx]; exact ce

theorem plain_rhsIdx {M K N : ℕ}
    (wf : DotDims.WF ⟨2, ![M, K]⟩ ⟨2, ![K, N]⟩ ⟨2, ![M, N]⟩ [1] [0] [0] [1] [] []) (r : Fin M) (c : Fin N) (e : Fin K) :
    (⟨[1], [0], [0], [1], [], [], wf⟩ : DotDims ⟨2, ![M, K]⟩ ⟨2, ![K, N]⟩ ⟨2, ![M, N]⟩).rhsIdx (ix2 r c)
        ((contrEquiv1 (⟨[1], [0], [0], [1], [], [], wf⟩ : DotDims ⟨2, ![M, K]⟩ ⟨2, ![K, N]⟩ ⟨2, ![M, N]⟩) K rfl rfl).symm e) = ix2 e c := by
  have ce := contrEquiv1_symm_val (⟨[1], [0], [0], [1], [], [], wf⟩ : DotDims ⟨2, ![M, K]⟩ ⟨2, ![K, N]⟩ ⟨2, ![M, N]⟩) K rfl rfl e
  funext ax; apply Fin.ext
  match ax with
  | ⟨0, _⟩ => simp [DotDims.rhsIdx]; exact ce
  | ⟨1, _⟩ => simp [DotDims.rhsIdx]; rfl

/-- A plain matrix product `[M, K] × [K, N]` into a zero accumulator, read at `(r, c)`. -/
theorem matmul_plain_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (A : FVec Ideal ⟨2, ![M, K]⟩ φ₁) (B : FVec Ideal ⟨2, ![K, N]⟩ φ₂)
    (r : Fin M) (c : Fin N) :
    FloatOps.matmul d prec A B (constant (F := Ideal) ⟨2, ![M, N]⟩ .f32 0x00000000#32) (ix2 r c)
      = ∑ e : Fin K, A (ix2 r e) * B (ix2 e c) := by
  obtain ⟨lc, rc, ln, rn, lb, rb, wf⟩ := d
  dsimp only at hlc hrc hln hrn hlb hrb
  subst hlc hrc hln hrn hlb hrb
  rw [Ideal.matmul_constant_zero_apply,
    ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun e _ => ?_
  rw [plain_lhsIdx wf r c e, plain_rhsIdx wf r c e]

/-- The contraction `bse,ke->bsk` of an `[a, s, n]` array with a `[k, n]` array, read at `(b, p, j)`. -/
theorem dotGeneral_bse_ke_apply {a s n k : ℕ} (d : DotDims ⟨3, ![a, s, n]⟩ ⟨2, ![k, n]⟩ ⟨3, ![a, s, k]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) {φ₁ φ₂ : FTy}
    (E : FVec Ideal ⟨3, ![a, s, n]⟩ φ₁) (W : FVec Ideal ⟨2, ![k, n]⟩ φ₂) (b : Fin a) (p : Fin s) (j : Fin k) :
    FloatOps.dotGeneral d prec sched E W (ix3 b p j) = ∑ e : Fin n, E (ix3 b p e) * W (ix2 j e) := by
  obtain ⟨lc, rc, ln, rn, lb, rb, wf⟩ := d
  dsimp only at hlc hrc hln hrn hlb hrb
  subst hlc hrc hln hrn hlb hrb
  rw [Ideal.dotGeneral_apply,
    ← Equiv.sum_comp (contrEquiv1 (⟨[2], [1], [0, 1], [0], [], [], wf⟩ : DotDims ⟨3, ![a, s, n]⟩ ⟨2, ![k, n]⟩ ⟨3, ![a, s, k]⟩) n rfl rfl).symm]
  refine Finset.sum_congr rfl fun e _ => ?_
  have ce := contrEquiv1_symm_val (⟨[2], [1], [0, 1], [0], [], [], wf⟩ : DotDims ⟨3, ![a, s, n]⟩ ⟨2, ![k, n]⟩ ⟨3, ![a, s, k]⟩) n rfl rfl e
  have hl : (⟨[2], [1], [0, 1], [0], [], [], wf⟩ : DotDims ⟨3, ![a, s, n]⟩ ⟨2, ![k, n]⟩ ⟨3, ![a, s, k]⟩).lhsIdx (ix3 b p j)
      ((contrEquiv1 (⟨[2], [1], [0, 1], [0], [], [], wf⟩ : DotDims ⟨3, ![a, s, n]⟩ ⟨2, ![k, n]⟩ ⟨3, ![a, s, k]⟩) n rfl rfl).symm e) = ix3 b p e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ce
  have hr : (⟨[2], [1], [0, 1], [0], [], [], wf⟩ : DotDims ⟨3, ![a, s, n]⟩ ⟨2, ![k, n]⟩ ⟨3, ![a, s, k]⟩).rhsIdx (ix3 b p j)
      ((contrEquiv1 (⟨[2], [1], [0, 1], [0], [], [], wf⟩ : DotDims ⟨3, ![a, s, n]⟩ ⟨2, ![k, n]⟩ ⟨3, ![a, s, k]⟩) n rfl rfl).symm e) = ix2 j e := by
    funext ax; apply Fin.ext
    match ax with
    | ⟨0, _⟩ => simp [DotDims.rhsIdx]; rfl
    | ⟨1, _⟩ => simp [DotDims.rhsIdx]; exact ce
  rw [hl, hr]

/-- The product `[M, K] × [K, 1]` on the host, read at `(r, 0)`. -/
theorem dotGeneral_plain_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) {φ₁ φ₂ : FTy}
    (A : FVec Ideal ⟨2, ![M, K]⟩ φ₁) (B : FVec Ideal ⟨2, ![K, N]⟩ φ₂) (r : Fin M) (c : Fin N) :
    FloatOps.dotGeneral d prec sched A B (ix2 r c) = ∑ e : Fin K, A (ix2 r e) * B (ix2 e c) := by
  obtain ⟨lc, rc, ln, rn, lb, rb, wf⟩ := d
  dsimp only at hlc hrc hln hrn hlb hrb
  subst hlc hrc hln hrn hlb hrb
  rw [Ideal.dotGeneral_apply,
    ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun e _ => ?_
  rw [plain_lhsIdx wf r c e, plain_rhsIdx wf r c e]

end ConvRead

end
-- ==== Proof.KBody.lean ====
/-
  What one grid point of the convolution kernel leaves in its output block, as one function of the blocks it reads.

  The body clears an accumulator, adds to it 33 times the product of a window of the padded sequences (rows
  `j … j + 511` of each of the 8 sequences of the block, 300 numbers a row) with tap `j` of the filters (a 300 × 64
  matrix), adds the bias, takes `tanh`, and stores for every sequence and filter the largest value over the 512
  positions of `m · (t + 1) - 1`, `m` the position's mask.
-/
import proofs.«138672_j88897233092836_1_alg».proof.Proof.Gen.KernelIdeal.Frame
import proofs.«138672_j88897233092836_1_alg».proof.Proof.LibConvRead

noncomputable section

namespace Cert.KernelIdeal.Body

open Cert.KernelIdeal Cert.KernelIdeal.Gen Idealize.ShloMosaic Idealize.ShloMosaic.TcCoe Idealize.ShloMosaic.ValueIdx Idealize.SL.Sem

/-- Row `n` of sequence `bb` of the block, zero past the block's 544 rows. -/
def X0z (x0 : FVec Ideal S8x544x300 .bf16) (bb : Fin 8) (n : ℕ) (e : Fin 300) : EReal :=
  if h : n < 544 then x0 (ix3 bb ⟨n, h⟩ e) else 0

/-- Tap `j` of the filters, zero past the 33 taps. -/
def X1z (x1 : FVec Ideal S33x300x64 .bf16) (j : ℕ) (e : Fin 300) (i : Fin 64) : EReal :=
  if h : j < 33 then x1 (ix3 ⟨j, h⟩ e i) else 0

/-- The output block as a function of the four input blocks. -/
def kblock (x0 : FVec Ideal S8x544x300 .bf16) (x1 : FVec Ideal S33x300x64 .bf16) (x2 : FVec Ideal S64 .f32)
    (x3 : FVec Ideal S512x64 .f32) : FVec Ideal S8x64 .f32 := fun y =>
  (Finset.range 512).sup fun l =>
    if hl : l < 512 then
      (x3 (ix2 ⟨l, hl⟩ (y 1)) : EReal) *
        (Ideal.tanh ((∑ j ∈ Finset.range 33, ∑ e : Fin 300, X0z x0 (y 0) (l + j) e * X1z x1 j e (y 1)) + x2 (ix1 (y 1))) + 1) - 1
    else ⊥

namespace Aux

/-! ## One tap -/

/-- A window of the sequences read at `(bb, l, e)` is row `l + j` of sequence `bb`. -/
theorem ld_x0 (x0 : FVec Ideal S8x544x300 .bf16) (j : ℕ)
    (inb : ∀ a, (![0, j, 0] : Fin 3 → ℕ) a + S8x512x300.size a ≤ S8x544x300.size a) (bb : Fin 8) (l : Fin 512) (e : Fin 300) :
    View.ld (Val := Elt Ideal) (e' := .bf16) x0 (Rect.unit (s := S8x544x300) ![0, j, 0] S8x512x300.size inb) (ix3 bb l e) = X0z x0 bb (l.val + j) e := by
  have h1 : j + 512 ≤ 544 := inb 1
  have h : l.val + j < 544 := by have := l.isLt; omega
  rw [X0z, dif_pos h]
  refine congrArg x0 (funext fun a => ?_)
  match a with
  | ⟨0, _⟩ => exact Fin.ext (by show 0 + 1 * bb.val = bb.val; omega)
  | ⟨1, _⟩ => exact Fin.ext (by show j + 1 * l.val = l.val + j; omega)
  | ⟨2, _⟩ => exact Fin.ext (by show 0 + 1 * e.val = e.val; omega)

/-- One tap of the filters read at `(0, e, i)`. -/
theorem ld_x1 (x1 : FVec Ideal S33x300x64 .bf16) (j : ℕ)
    (inb : ∀ a, (![j, 0, 0] : Fin 3 → ℕ) a + S1x300x64.size a ≤ S33x300x64.size a) (u : Fin 1) (e : Fin 300) (i : Fin 64) :
    View.ld (Val := Elt Ideal) (e' := .bf16) x1 (Rect.unit (s := S33x300x64) ![j, 0, 0] S1x300x64.size inb) (ix3 u e i) = X1z x1 j e i := by
  have h1 : j + 1 ≤ 33 := inb 0
  have h : j < 33 := by omega
  have hu : u.val = 0 := by omega
  rw [X1z, dif_pos h]
  refine congrArg x1 (funext fun a => ?_)
  match a with
  | ⟨0, _⟩ => exact Fin.ext (by show j + 1 * u.val = j; omega)
  | ⟨1, _⟩ => exact Fin.ext (by show 0 + 1 * e.val = e.val; omega)
  | ⟨2, _⟩ => exact Fin.ext (by show 0 + 1 * i.val = i.val; omega)

/-- What tap `j` adds at position `l` of sequence `bb` for filter `i`. -/
def tapTerm (x0 : FVec Ideal S8x544x300 .bf16) (x1 : FVec Ideal S33x300x64 .bf16) (j : ℕ) (bb : Fin 8) (l : ℕ) (i : Fin 64) : EReal :=
  ∑ e : Fin 300, X0z x0 bb (l + j) e * X1z x1 j e i

/-- The accumulator after the first `n` taps. -/
def accN (x0 : FVec Ideal S8x544x300 .bf16) (x1 : FVec Ideal S33x300x64 .bf16) (n : ℕ) : FVec Ideal S8x512x64 .f32 := fun y =>
  ∑ j ∈ Finset.range n, tapTerm x0 x1 j (y 0) (y 1).val (y 2)

/-- The product of the window at `j` with tap `j`, as the body computes it, read at `(bb, l, i)`. -/
theorem tap_apply (x0 : FVec Ideal S8x544x300 .bf16) (x1 : FVec Ideal S33x300x64 .bf16) (j : ℕ)
    (inb0 : ∀ a, (![0, j, 0] : Fin 3 → ℕ) a + S8x512x300.size a ≤ S8x544x300.size a)
    (inb1 : ∀ a, (![j, 0, 0] : Fin 3 → ℕ) a + S1x300x64.size a ≤ S33x300x64.size a) (bb : Fin 8) (l : Fin 512) (i : Fin 64) :
    shapeCast S8x512x64
        (matmul (φ₁ := .bf16) (φ₂ := .bf16) dot_S4096x300_S300x64_S4096x64_1_0_0_1_n_n none
          (shapeCast (α := Ideal .bf16) S4096x300 (View.ld (Val := Elt Ideal) (e' := .bf16) x0 (Rect.unit (s := S8x544x300) ![0, j, 0] S8x512x300.size inb0)) shapeCasts_S8x512x300_S4096x300)
          (shapeCast (α := Ideal .bf16) S300x64 (View.ld (Val := Elt Ideal) (e' := .bf16) x1 (Rect.unit (s := S33x300x64) ![j, 0, 0] S1x300x64.size inb1)) shapeCasts_S1x300x64_S300x64)
          (constant (F := Ideal) S4096x64 .f32 0x00000000#32))
        shapeCasts_S4096x64_S8x512x64 (ix3 bb l i)
      = tapTerm x0 x1 j bb l.val i := by
  refine (ConvRead.shapeCast_rows_abc_apply (a := 8) (b := 512) (c := 64) _ _ bb l i).trans ?_
  refine (ConvRead.matmul_plain_apply (M := 4096) (K := 300) (N := 64) dot_S4096x300_S300x64_S4096x64_1_0_0_1_n_n
    rfl rfl rfl rfl rfl rfl none _ _ _ i).trans ?_
  unfold tapTerm
  refine Finset.sum_congr rfl (fun e _ => ?_)
  have hd : (bb.val * 512 + l.val) / 512 = bb.val := by have := l.isLt; omega
  have hm : (bb.val * 512 + l.val) % 512 = l.val := by have := l.isLt; omega
  congr 1
  · refine (ConvRead.shapeCast_abc_rows_apply (a := 8) (b := 512) (c := 300) (by decide) _ _ _ e).trans ?_
    simp only [hd, hm, Fin.eta]
    exact ld_x0 x0 j inb0 bb l e
  · exact (shapeCast_1ab_ab_apply _ _ e i).trans (ld_x1 x1 j inb1 0 e i)

/-- The body's update of the accumulator at tap `j` takes the first `j` taps' sum to the first `j + 1` taps'. -/
theorem tap_acc (x0 : FVec Ideal S8x544x300 .bf16) (x1 : FVec Ideal S33x300x64 .bf16) (j : ℕ)
    (inb0 : ∀ a, (![0, j, 0] : Fin 3 → ℕ) a + S8x512x300.size a ≤ S8x544x300.size a)
    (inb1 : ∀ a, (![j, 0, 0] : Fin 3 → ℕ) a + S1x300x64.size a ≤ S33x300x64.size a) :
    addf (accN x0 x1 j)
        (shapeCast S8x512x64
          (matmul (φ₁ := .bf16) (φ₂ := .bf16) dot_S4096x300_S300x64_S4096x64_1_0_0_1_n_n none
            (shapeCast (α := Ideal .bf16) S4096x300 (View.ld (Val := Elt Ideal) (e' := .bf16) x0 (Rect.unit (s := S8x544x300) ![0, j, 0] S8x512x300.size inb0)) shapeCasts_S8x512x300_S4096x300)
            (shapeCast (α := Ideal .bf16) S300x64 (View.ld (Val := Elt Ideal) (e' := .bf16) x1 (Rect.unit (s := S33x300x64) ![j, 0, 0] S1x300x64.size inb1)) shapeCasts_S1x300x64_S300x64)
            (constant (F := Ideal) S4096x64 .f32 0x00000000#32))
          shapeCasts_S4096x64_S8x512x64)
      = accN x0 x1 (j + 1) := by
  funext y
  obtain ⟨bb, l, i, rfl⟩ : ∃ (bb : Fin 8) (l : Fin 512) (i : Fin 64), y = ix3 bb l i := ⟨y 0, y 1, y 2, eq_ix3 y⟩
  show accN x0 x1 j (ix3 bb l i) + _ = accN x0 x1 (j + 1) (ix3 bb l i)
  rw [tap_apply x0 x1 j inb0 inb1 bb l i]
  show (∑ k ∈ Finset.range j, tapTerm x0 x1 k bb l.val i) + tapTerm x0 x1 j bb l.val i
      = ∑ k ∈ Finset.range (j + 1), tapTerm x0 x1 k bb l.val i
  rw [Finset.sum_range_succ]

/-! ## The accumulator through the 33 taps

The body keeps the accumulator in a scratch block: every tap loads it, adds the tap's product and stores it back. A load of the
whole block after a store of the whole block reads what was stored, so the value loaded before tap `n` is the sum of the first `n`
taps' products. -/

section Chain

variable (c : Dev nD) (arg1 : Memref sig .tc .vmem S8x544x300 .bf16) (harg1 : arg1.IsWhole)
  (arg2 : Memref sig .tc .vmem S33x300x64 .bf16) (harg2 : arg2.IsWhole) (arg6 : Memref sig .tc .vmem S8x512x64 .f32)
  (x0 : FVec Ideal S8x544x300 .bf16) (x1 : FVec Ideal S33x300x64 .bf16)

/-- The zero word is the number zero, so the cleared accumulator is the empty sum. -/
theorem v10_eq : kernelRun0_A.sl.v10 (F := Ideal) c arg6 = accN x0 x1 0 := by
  unfold kernelRun0_A.sl.v10 kernelRun0_A.sl.HS0_1
  rw [View.readCov_cons_toLoadRect]
  funext y
  simp only [k0_pay2, shapeCast_self]
  show Ideal.ofBits .f32 0x00000000#32 = ∑ j ∈ Finset.range 0, tapTerm x0 x1 j (y 0) (y 1).val (y 2)
  rw [Finset.sum_range_zero, Ideal.ofBits_zero_f32]

/-- One link of the chain: a load of the whole block reads the payload of the store of the whole block just before it; that payload is
    the sum loaded one link earlier (`h`) plus the tap's product, which `tap_acc` reads. -/
local macro "tap_step " h:term : tactic =>
  `(tactic| (rw [View.readCov_cons_toLoadRect]
             simp only [kernelRun0_A.sl.r, kernelRun0_A.sl.r_1, kernelRun0_A.sl.r_2, kernelRun0_A.sl.r_3, kernelRun0_A.sl.r_4,
               kernelRun0_A.sl.r_5, kernelRun0_A.sl.r_6, kernelRun0_A.sl.r_7, kernelRun0_A.sl.r_8, kernelRun0_A.sl.r_9,
               kernelRun0_A.sl.r_10, kernelRun0_A.sl.r_11, kernelRun0_A.sl.r_12, kernelRun0_A.sl.r_13, kernelRun0_A.sl.cst_164,
               k0_pay3, k0_pay4, k0_pay5, k0_pay6, k0_pay7, k0_pay8, k0_pay9, k0_pay10, k0_pay11, k0_pay12, k0_pay13, k0_pay14,
               k0_pay15, k0_pay16, k0_pay17, k0_pay18, k0_pay19, k0_pay20, k0_pay21, k0_pay22, k0_pay23, k0_pay24, k0_pay25,
               k0_pay26, k0_pay27, k0_pay28, k0_pay29, k0_pay30, k0_pay31, k0_pay32, k0_pay33, k0_pay34, k0_pay35, k0_pay36,
               k0_pay37, k0_pay38, k0_pay39, k0_pay40, k0_pay41, k0_pay42, k0_pay43, k0_pay44, k0_pay45, k0_pay46, k0_pay47,
               k0_pay48, shapeCast_self, View.readAt_eq_ld, Memref.IsWhole.read_unread]
             rw [$h:term]
             exact tap_acc _ _ _ _ _))

theorem v22_eq : kernelRun0_A.sl.v22 (F := Ideal) c arg1 harg1 arg2 harg2 arg6 x0 x1 = accN x0 x1 1 := by
  unfold kernelRun0_A.sl.v22 kernelRun0_A.sl.HS0_2
  tap_step v10_eq c arg6 x0 x1

theorem v34_eq : kernelRun0_A.sl.v34 (F := Ideal) c arg1 harg1 arg2 harg2 arg6 x0 x1 = accN x0 x1 2 := by
  unfold kernelRun0_A.sl.v34 kernelRun0_A.sl.HS0_3
  tap_step v22_eq c arg1 harg1 arg2 harg2 arg6 x0 x1

theorem v46_eq : kernelRun0_A.sl.v46 (F := Ideal) c arg1 harg1 arg2 harg2 arg6 x0 x1 = accN x0 x1 3 := by
  unfold kernelRun0_A.sl.v46 kernelRun0_A.sl.HS0_4
  tap_step v34_eq c arg1 harg1 arg2 harg2 arg6 x0 x1

theorem v58_eq : kernelRun0_A.sl.v58 (F := Ideal) c arg1 harg1 arg2 harg2 arg6 x0 x1 = accN x0 x1 4 := by
  unfold kernelRun0_A.sl.v58 kernelRun0_A.sl.HS0_5
  tap_step v46_eq c arg1 harg1 arg2 harg2 arg6 x0 x1

theorem v70_eq : kernelRun0_A.sl.v70 (F := Ideal) c arg1 harg1 arg2 harg2 arg6 x0 x1 = accN x0 x1 5 := by
  unfold kernelRun0_A.sl.v70 kernelRun0_A.sl.HS0_6
  tap_step v58_eq c arg1 harg1 arg2 harg2 arg6 x0 x1

theorem v82_eq : kernelRun0_A.sl.v82 (F := Ideal) c arg1 harg1 arg2 harg2 arg6 x0 x1 = accN x0 x1 6 := by
  unfold kernelRun0_A.sl.v82 kernelRun0_A.sl.HS0_7
  tap_step v70_eq c arg1 harg1 arg2 harg2 arg6 x0 x1

theorem v94_eq : kernelRun0_A.sl.v94 (F := Ideal) c arg1 harg1 arg2 harg2 arg6 x0 x1 = accN x0 x1 7 := by
  unfold kernelRun0_A.sl.v94 kernelRun0_A.sl.HS0_8
  tap_step v82_eq c arg1 harg1 arg2 harg2 arg6 x0 x1

theorem v106_eq : kernelRun0_A.sl.v106 (F := Ideal) c arg1 harg1 arg2 harg2 arg6 x0 x1 = accN x0 x1 8 := by
  unfold kernelRun0_A.sl.v106 kernelRun0_A.sl.HS0_9
  tap_step v94_eq c arg1 harg1 arg2 harg2 arg6 x0 x1

theorem v118_eq : kernelRun0_A.sl.v118 (F := Ideal) c arg1 harg1 arg2 harg2 arg6 x0 x1 = accN x0 x1 9 := by
  unfold kernelRun0_A.sl.v118 kernelRun0_A.sl.HS0_10
  tap_step v106_eq c arg1 harg1 arg2 harg2 arg6 x0 x1

theorem v130_eq : kernelRun0_A.sl.v130 (F := Ideal) c arg1 harg1 arg2 harg2 arg6 x0 x1 = accN x0 x1 10 := by
  unfold kernelRun0_A.sl.v130 kernelRun0_A.sl.HS0_11
  tap_step v118_eq c arg1 harg1 arg2 harg2 arg6 x0 x1

theorem v142_eq : kernelRun0_A.sl.v142 (F := Ideal) c arg1 harg1 arg2 harg2 arg6 x0 x1 = accN x0 x1 11 := by
  unfold kernelRun0_A.sl.v142 kernelRun0_A.sl.HS0_12
  tap_step v130_eq c arg1 harg1 arg2 harg2 arg6 x0 x1

theorem v154_eq : kernelRun0_A.sl.v154 (F := Ideal) c arg1 harg1 arg2 harg2 arg6 x0 x1 = accN x0 x1 12 := by
  unfold kernelRun0_A.sl.v154 kernelRun0_A.sl.HS0_13
  tap_step v142_eq c arg1 harg1 arg2 harg2 arg6 x0 x1

theorem v166_eq : kernelRun0_A.sl.v166 (F := Ideal) c arg1 harg1 arg2 harg2 arg6 x0 x1 = accN x0 x1 13 := by
  unfold kernelRun0_A.sl.v166 kernelRun0_A.sl.HS0_14
  tap_step v154_eq c arg1 harg1 arg2 harg2 arg6 x0 x1

theorem v178_eq : kernelRun0_A.sl.v178 (F := Ideal) c arg1 harg1 arg2 harg2 arg6 x0 x1 = accN x0 x1 14 := by
  unfold kernelRun0_A.sl.v178 kernelRun0_A.sl.HS0_15
  tap_step v166_eq c arg1 harg1 arg2 harg2 arg6 x0 x1

theorem v190_eq : kernelRun0_A.sl.v190 (F := Ideal) c arg1 harg1 arg2 harg2 arg6 x0 x1 = accN x0 x1 15 := by
  unfold kernelRun0_A.sl.v190 kernelRun0_A.sl.HS0_16
  tap_step v178_eq c arg1 harg1 arg2 harg2 arg6 x0 x1

theorem v202_eq : kernelRun0_A.sl.v202 (F := Ideal) c arg1 harg1 arg2 harg2 arg6 x0 x1 = accN x0 x1 16 := by
  unfold kernelRun0_A.sl.v202 kernelRun0_A.sl.HS0_17
  tap_step v190_eq c arg1 harg1 arg2 harg2 arg6 x0 x1

theorem v214_eq : kernelRun0_A.sl.v214 (F := Ideal) c arg1 harg1 arg2 harg2 arg6 x0 x1 = accN x0 x1 17 := by
  unfold kernelRun0_A.sl.v214 kernelRun0_A.sl.HS0_18
  tap_step v202_eq c arg1 harg1 arg2 harg2 arg6 x0 x1

theorem v226_eq : kernelRun0_A.sl.v226 (F := Ideal) c arg1 harg1 arg2 harg2 arg6 x0 x1 = accN x0 x1 18 := by
  unfold kernelRun0_A.sl.v226 kernelRun0_A.sl.HS0_19
  tap_step v214_eq c arg1 harg1 arg2 harg2 arg6 x0 x1

theorem v238_eq : kernelRun0_A.sl.v238 (F := Ideal) c arg1 harg1 arg2 harg2 arg6 x0 x1 = accN x0 x1 19 := by
  unfold kernelRun0_A.sl.v238 kernelRun0_A.sl.HS0_20
  tap_step v226_eq c arg1 harg1 arg2 harg2 arg6 x0 x1

theorem v250_eq : kernelRun0_A.sl.v250 (F := Ideal) c arg1 harg1 arg2 harg2 arg6 x0 x1 = accN x0 x1 20 := by
  unfold kernelRun0_A.sl.v250 kernelRun0_A.sl.HS0_21
  tap_step v238_eq c arg1 harg1 arg2 harg2 arg6 x0 x1

theorem v262_eq : kernelRun0_A.sl.v262 (F := Ideal) c arg1 harg1 arg2 harg2 arg6 x0 x1 = accN x0 x1 21 := by
  unfold kernelRun0_A.sl.v262 kernelRun0_A.sl.HS0_22
  tap_step v250_eq c arg1 harg1 arg2 harg2 arg6 x0 x1

theorem v274_eq : kernelRun0_A.sl.v274 (F := Ideal) c arg1 harg1 arg2 harg2 arg6 x0 x1 = accN x0 x1 22 := by
  unfold kernelRun0_A.sl.v274 kernelRun0_A.sl.HS0_23
  tap_step v262_eq c arg1 harg1 arg2 harg2 arg6 x0 x1

theorem v286_eq : kernelRun0_A.sl.v286 (F := Ideal) c arg1 harg1 arg2 harg2 arg6 x0 x1 = accN x0 x1 23 := by
  unfold kernelRun0_A.sl.v286 kernelRun0_A.sl.HS0_24
  tap_step v274_eq c arg1 harg1 arg2 harg2 arg6 x0 x1

theorem v298_eq : kernelRun0_A.sl.v298 (F := Ideal) c arg1 harg1 arg2 harg2 arg6 x0 x1 = accN x0 x1 24 := by
  unfold kernelRun0_A.sl.v298 kernelRun0_A.sl.HS0_25
  tap_step v286_eq c arg1 harg1 arg2 harg2 arg6 x0 x1

theorem v310_eq : kernelRun0_A.sl.v310 (F := Ideal) c arg1 harg1 arg2 harg2 arg6 x0 x1 = accN x0 x1 25 := by
  unfold kernelRun0_A.sl.v310 kernelRun0_A.sl.HS0_26
  tap_step v298_eq c arg1 harg1 arg2 harg2 arg6 x0 x1

theorem v322_eq : kernelRun0_A.sl.v322 (F := Ideal) c arg1 harg1 arg2 harg2 arg6 x0 x1 = accN x0 x1 26 := by
  unfold kernelRun0_A.sl.v322 kernelRun0_A.sl.HS0_27
  tap_step v310_eq c arg1 harg1 arg2 harg2 arg6 x0 x1

theorem v334_eq : kernelRun0_A.sl.v334 (F := Ideal) c arg1 harg1 arg2 harg2 arg6 x0 x1 = accN x0 x1 27 := by
  unfold kernelRun0_A.sl.v334 kernelRun0_A.sl.HS0_28
  tap_step v322_eq c arg1 harg1 arg2 harg2 arg6 x0 x1

theorem v346_eq : kernelRun0_A.sl.v346 (F := Ideal) c arg1 harg1 arg2 harg2 arg6 x0 x1 = accN x0 x1 28 := by
  unfold kernelRun0_A.sl.v346 kernelRun0_A.sl.HS0_29
  tap_step v334_eq c arg1 harg1 arg2 harg2 arg6 x0 x1

theorem v358_eq : kernelRun0_A.sl.v358 (F := Ideal) c arg1 harg1 arg2 harg2 arg6 x0 x1 = accN x0 x1 29 := by
  unfold kernelRun0_A.sl.v358 kernelRun0_A.sl.HS0_30
  tap_step v346_eq c arg1 harg1 arg2 harg2 arg6 x0 x1

theorem v370_eq : kernelRun0_A.sl.v370 (F := Ideal) c arg1 harg1 arg2 harg2 arg6 x0 x1 = accN x0 x1 30 := by
  unfold kernelRun0_A.sl.v370 kernelRun0_A.sl.HS0_31
  tap_step v358_eq c arg1 harg1 arg2 harg2 arg6 x0 x1

theorem v382_eq : kernelRun0_A.sl.v382 (F := Ideal) c arg1 harg1 arg2 harg2 arg6 x0 x1 = accN x0 x1 31 := by
  unfold kernelRun0_A.sl.v382 kernelRun0_A.sl.HS0_32
  tap_step v370_eq c arg1 harg1 arg2 harg2 arg6 x0 x1

theorem v394_eq : kernelRun0_A.sl.v394 (F := Ideal) c arg1 harg1 arg2 harg2 arg6 x0 x1 = accN x0 x1 32 := by
  unfold kernelRun0_A.sl.v394 kernelRun0_A.sl.HS0_33
  tap_step v382_eq c arg1 harg1 arg2 harg2 arg6 x0 x1

theorem v400_eq : kernelRun0_A.sl.v400 (F := Ideal) c arg1 harg1 arg2 harg2 arg6 x0 x1 = accN x0 x1 33 := by
  unfold kernelRun0_A.sl.v400 kernelRun0_A.sl.HS0_34
  tap_step v394_eq c arg1 harg1 arg2 harg2 arg6 x0 x1

end Chain

/-! ## After the taps: bias, `tanh`, mask, and the largest value over the positions -/

/-- The word of `1.0`. -/
theorem ofBits_one_f32 : Ideal.ofBits .f32 0x3F800000#32 = 1 := by
  simp [Ideal.ofBits, Ideal.ieee, -EReal.coe_mul]; norm_num

/-- The word of `-∞`. -/
theorem ofBits_neg_inf_f32 : Ideal.ofBits .f32 0xFF800000#32 = ⊥ := by
  simp [Ideal.ofBits, Ideal.ieee]

/-- The zero offsets of a rank-2 block. -/
theorem zero2 : (![0, 0] : Fin 2 → ℕ) = fun _ => 0 := by
  funext a; match a with | ⟨0, _⟩ => rfl | ⟨1, _⟩ => rfl

/-- The zero offset of a rank-1 block. -/
theorem zero1 : (![0] : Fin 1 → ℕ) = fun _ => 0 := by
  funext a; match a with | ⟨0, _⟩ => rfl

/-- The mask block as the body reshapes it, read at `(0, l, i)`. -/
theorem r14_apply (c : Dev nD) (arg4 : Memref sig .tc .vmem S512x64 .f32) (harg4 : arg4.IsWhole) (x3 : FVec Ideal S512x64 .f32)
    (u : Fin 1) (l : Fin 512) (i : Fin 64) :
    kernelRun0_A.sl.r_14 (F := Ideal) c arg4 harg4 x3 (ix3 u l i) = x3 (ix2 l i) := by
  unfold kernelRun0_A.sl.r_14
  simp only [k0_pay49, shapeCast_self, View.readAt_eq_ld, Memref.IsWhole.read_unread, View.ld_unit_zero (S := S512x64) zero2]
  exact shapeCast_ab_1ab_apply _ _ u l i

/-- `tanh` of the accumulator plus the bias, plus one, read at `(bb, l, i)`. -/
theorem r15_apply (c : Dev nD) (arg1 : Memref sig .tc .vmem S8x544x300 .bf16) (harg1 : arg1.IsWhole)
    (arg2 : Memref sig .tc .vmem S33x300x64 .bf16) (harg2 : arg2.IsWhole) (arg3 : Memref sig .tc .vmem S64 .f32) (harg3 : arg3.IsWhole)
    (arg6 : Memref sig .tc .vmem S8x512x64 .f32)
    (x0 : FVec Ideal S8x544x300 .bf16) (x1 : FVec Ideal S33x300x64 .bf16) (x2 : FVec Ideal S64 .f32)
    (bb : Fin 8) (l : Fin 512) (i : Fin 64) :
    kernelRun0_A.sl.r_15 (F := Ideal) c arg1 harg1 arg2 harg2 arg3 harg3 arg6 x0 x1 x2 (ix3 bb l i)
      = Ideal.tanh (accN x0 x1 33 (ix3 bb l i) + x2 (ix1 i)) + 1 := by
  unfold kernelRun0_A.sl.r_15
  rw [v400_eq c arg1 harg1 arg2 harg2 arg6 x0 x1]
  simp only [k0_pay50, View.readAt_eq_ld, Memref.IsWhole.read_unread, View.ld_unit_zero (S := S64) zero1]
  show Ideal.tanh (accN x0 x1 33 (ix3 bb l i) + broadcastTo S8x512x64 (shapeCast S1x1x64 x2 shapeCasts_S64_S1x1x64) broadcasts_S1x1x64_S8x512x64 (ix3 bb l i))
      + Ideal.ofBits .f32 0x3F800000#32 = _
  rw [ofBits_one_f32, ConvRead.broadcastTo_11c_abc_apply, ConvRead.shapeCast_c_11c_apply]

/-- The stored block read at `(bb, i)`: the largest `m · v - 1` over the positions. -/
theorem pay1_apply (v408 : FVec Ideal S1x512x64 .f32) (v410 : FVec Ideal S8x512x64 .f32) (bb : Fin 8) (i : Fin 64) :
    k0_pay1 v408 v410 (ix2 bb i)
      = (Finset.range 512).sup fun l => if hl : l < 512 then v408 (ix3 (0 : Fin 1) ⟨l, hl⟩ i) * v410 (ix3 bb ⟨l, hl⟩ i) - 1 else ⊥ := by
  unfold k0_pay1
  refine (ConvRead.multiReduction_max_axis1 (a := 8) (L := 512) (c := 64) _ 0xFF800000#32 ofBits_neg_inf_f32 _ _ _ bb i).trans ?_
  refine Finset.sup_congr rfl (fun l hl => ?_)
  have hl' : l < 512 := Finset.mem_range.mp hl
  rw [dif_pos hl', dif_pos hl']
  show broadcastTo S8x512x64 v408 broadcasts_S1x512x64_S8x512x64 (ix3 bb ⟨l, hl'⟩ i) * v410 (ix3 bb ⟨l, hl'⟩ i)
      - Ideal.ofBits .f32 0x3F800000#32 = _
  rw [ofBits_one_f32, ConvRead.broadcastTo_1bc_abc_apply]

end Aux

open Aux in
/-- The body's one store into the output block holds `kblock` of the loaded blocks. -/
theorem out0_A_4_eq (c : Dev nD) (i : grid0.Coords) (arg1 : Memref sig .tc .vmem S8x544x300 .bf16) (harg1 : arg1.IsWhole)
    (arg2 : Memref sig .tc .vmem S33x300x64 .bf16) (harg2 : arg2.IsWhole) (arg3 : Memref sig .tc .vmem S64 .f32) (harg3 : arg3.IsWhole)
    (arg4 : Memref sig .tc .vmem S512x64 .f32) (harg4 : arg4.IsWhole) (arg5 : Memref sig .tc .vmem S8x64 .f32) (harg5 : arg5.IsWhole)
    (arg6 : Memref sig .tc .vmem S8x512x64 .f32) (harg6 : arg6.IsWhole)
    (x0 : FVec Ideal S8x544x300 .bf16) (x1 : FVec Ideal S33x300x64 .bf16) (x2 : FVec Ideal S64 .f32) (x3 : FVec Ideal S512x64 .f32) :
    out0_A_4 (F := Ideal) c i arg1 harg1 arg2 harg2 arg3 harg3 arg4 harg4 arg5 harg5 arg6 harg6 x0 x1 x2 x3 = kblock x0 x1 x2 x3 := by
  unfold out0_A_4
  rw [View.read_writes_eq_canon _ _ _ (cover0_A_4 (F := Ideal) c i arg1 harg1 arg2 harg2 arg3 harg3 arg4 harg4 arg5 harg5 arg6 harg6 x0 x1 x2 x3)]
  unfold kernelRun0_A
  dsimp only
  rw [View.canon_unit_zero (S := S8x64) zero2]
  funext y
  obtain ⟨bb, i, rfl⟩ : ∃ (bb : Fin 8) (i : Fin 64), y = ix2 bb i := ⟨y 0, y 1, eq_ix2 y⟩
  rw [pay1_apply]
  show _ = (Finset.range 512).sup fun l =>
    if hl : l < 512 then
      (x3 (ix2 ⟨l, hl⟩ i) : EReal) *
        (Ideal.tanh ((∑ j ∈ Finset.range 33, ∑ e : Fin 300, X0z x0 bb (l + j) e * X1z x1 j e i) + x2 (ix1 i)) + 1) - 1
    else ⊥
  refine Finset.sup_congr rfl (fun l hl => ?_)
  have hl' : l < 512 := Finset.mem_range.mp hl
  rw [dif_pos hl', dif_pos hl', r14_apply, r15_apply]
  rfl

end Cert.KernelIdeal.Body

end
-- ==== Proof.Spec.lean ====
/-
  The mathematics both programs compute, stated once over plain index functions.

  An embedded sequence `E[b, s, ·]` (128 sequences of 512 rows of 300 numbers) is convolved along `s` with 64 filters;
  filter `i` has `k i = i / 2 + 2` rows `W[i, j, ·]`, `j < k i`.  At position `l` the filter's response is
  `∑ j < k i, ∑ e, E[b, l + j, e] · W[i, j, e]` plus a bias; the feature is the largest `tanh` of the response over the
  positions `l < 513 - k i` at which the whole filter lies inside the sequence.

  One program computes exactly this.  The other runs all 33 taps for every filter on a sequence padded with zero rows,
  with the rows `j ≥ k i` of the filter multiplied by zero, and replaces the response at the positions `l ≥ 513 - k i`
  by `-1` through `m · (t + 1) - 1` with `m ∈ {0, 1}`, before taking the largest value over all 512 positions.  The two
  agree because a product with zero is zero on the extended reals, `(t + 1) - 1 = t` for a real `t`, and `tanh ≥ -1`.
-/
import Idealize.ShloMosaic.PureOps.Ideal
import Idealize.ShloMosaic.PureOps.Ideal.Laws
import Idealize.ShloMosaic.Lib.ValueIdx

noncomputable section

namespace ConvPool

open Idealize.ShloMosaic Idealize.ShloMosaic.ValueIdx

abbrev SE : Shape := ⟨3, ![128, 512, 300]⟩
abbrev SW : Shape := ⟨3, ![64, 33, 300]⟩
abbrev SB : Shape := ⟨1, ![64]⟩
abbrev SF : Shape := ⟨2, ![128, 64]⟩

/-- Row `n` of sequence `b`, zero past the end of the sequence. -/
def Ez (E : SE.Idx → EReal) (b : Fin 128) (n : ℕ) (e : Fin 300) : EReal :=
  if h : n < 512 then E (ix3 b ⟨n, h⟩ e) else 0

/-- Row `j` of filter `i`, zero past the 33 stored rows. -/
def Wz (W : SW.Idx → EReal) (i : Fin 64) (j : ℕ) (e : Fin 300) : EReal :=
  if h : j < 33 then W (ix3 i ⟨j, h⟩ e) else 0

/-- The number of rows of filter `i`. -/
def kOf (i : ℕ) : ℕ := i / 2 + 2

/-- One tap: row `l + j` of the sequence against row `j` of the filter. -/
def tap (E : SE.Idx → EReal) (W : SW.Idx → EReal) (b : Fin 128) (l : ℕ) (i : Fin 64) (j : ℕ) : EReal :=
  ∑ e : Fin 300, Ez E b (l + j) e * Wz W i j e

/-- The filter's response at position `l`. -/
def convSum (E : SE.Idx → EReal) (W : SW.Idx → EReal) (b : Fin 128) (l : ℕ) (i : Fin 64) : EReal :=
  ∑ j ∈ Finset.range (kOf i.val), tap E W b l i j

/-- The feature: the largest `tanh` of response plus bias over the positions where the filter fits. -/
def feat (E : SE.Idx → EReal) (W : SW.Idx → EReal) (bc : SB.Idx → EReal) : SF.Idx → EReal := fun idx =>
  (Finset.range (513 - kOf (idx 1).val)).sup fun l =>
    Ideal.tanh (convSum E W (idx 0) l (idx 1) + bc (ix1 (idx 1)))

/-- The multiplier of row `j` of filter `i`: one on the filter's own rows, zero on the padding rows. -/
def rowMask (i : Fin 64) (j : ℕ) : EReal := if j < kOf i.val then 1 else 0

/-- The multiplier of position `l` for filter `i`: one where the filter fits, zero elsewhere. -/
def valid (l : ℕ) (i : Fin 64) : EReal := if l < 513 - kOf i.val then 1 else 0

/-- The same feature computed with all 33 taps, masked filter rows and masked positions. -/
def featK (E : SE.Idx → EReal) (W : SW.Idx → EReal) (bc : SB.Idx → EReal) : SF.Idx → EReal := fun idx =>
  (Finset.range 512).sup fun l =>
    valid l (idx 1) *
      (Ideal.tanh ((∑ j ∈ Finset.range 33, ∑ e : Fin 300, Ez E (idx 0) (l + j) e * (Wz W (idx 1) j e * rowMask (idx 1) j))
        + bc (ix1 (idx 1))) + 1) - 1

/-- Every filter has at most the 33 stored rows. -/
theorem kOf_le (i : Fin 64) : kOf i.val ≤ 33 := by
  unfold kOf
  have := i.isLt
  omega

/-- Every filter has at least two rows, so there is at least one position where it fits and at most 511. -/
theorem two_le_kOf (i : ℕ) : 2 ≤ kOf i := by
  unfold kOf
  omega

/-- The 33 taps with masked filter rows add up to the filter's own `k i` taps: a masked row contributes
    `x * (y * 0) = 0`, an unmasked one `x * (y * 1) = x * y`, on the extended reals without side conditions. -/
theorem taps33_eq (E : SE.Idx → EReal) (W : SW.Idx → EReal) (b : Fin 128) (l : ℕ) (i : Fin 64) :
    (∑ j ∈ Finset.range 33, ∑ e : Fin 300, Ez E b (l + j) e * (Wz W i j e * rowMask i j))
      = convSum E W b l i := by
  unfold convSum tap
  have hsub : Finset.range (kOf i.val) ⊆ Finset.range 33 := Finset.range_subset_range.2 (kOf_le i)
  rw [← Finset.sum_subset hsub]
  · refine Finset.sum_congr rfl fun j hj => ?_
    have hj' : j < kOf i.val := Finset.mem_range.1 hj
    refine Finset.sum_congr rfl fun e _ => ?_
    rw [rowMask, if_pos hj', mul_one]
  · intro j _ hj
    have hj' : ¬ j < kOf i.val := fun h => hj (Finset.mem_range.2 h)
    refine Finset.sum_eq_zero fun e _ => ?_
    rw [rowMask, if_neg hj', mul_zero, mul_zero]

/-- `tanh` of an extended real is always a real number, and that number is at least `-1`. -/
theorem tanh_real (x : EReal) : ∃ t : ℝ, Ideal.tanh x = (t : EReal) ∧ (-1 : ℝ) ≤ t := by
  induction x using EReal.rec with
  | bot => exact ⟨-1, by simp, le_refl _⟩
  | coe r => exact ⟨Real.tanh r, rfl, (Real.neg_one_lt_tanh r).le⟩
  | top => exact ⟨1, by simp, by norm_num⟩

theorem neg_one_le_tanh (x : EReal) : (-1 : EReal) ≤ Ideal.tanh x := by
  obtain ⟨t, ht, hle⟩ := tanh_real x
  rw [ht, ← EReal.coe_one, ← EReal.coe_neg]
  exact EReal.coe_le_coe_iff.2 hle

/-- At a position where the filter fits the multiplier is one and `1 * (t + 1) - 1 = t`, because `t` is real. -/
theorem unmask_one (x : EReal) : (1 : EReal) * (Ideal.tanh x + 1) - 1 = Ideal.tanh x := by
  obtain ⟨t, ht, _⟩ := tanh_real x
  rw [ht, one_mul, ← EReal.coe_one, ← EReal.coe_add, ← EReal.coe_sub, add_sub_cancel_right]

/-- At a position where the filter does not fit the multiplier is zero and the value is `-1`. -/
theorem unmask_zero (y : EReal) : (0 : EReal) * y - 1 = -1 := by
  rw [zero_mul, zero_sub]

/-- The masked value at position `l`: the `tanh` of the response where the filter fits, `-1` elsewhere. -/
theorem masked_eq (E : SE.Idx → EReal) (W : SW.Idx → EReal) (bc : SB.Idx → EReal) (b : Fin 128) (i : Fin 64)
    (l : ℕ) :
    valid l i *
        (Ideal.tanh ((∑ j ∈ Finset.range 33, ∑ e : Fin 300, Ez E b (l + j) e * (Wz W i j e * rowMask i j))
          + bc (ix1 i)) + 1) - 1
      = if l < 513 - kOf i.val then Ideal.tanh (convSum E W b l i + bc (ix1 i)) else -1 := by
  rw [taps33_eq, valid]
  split_ifs with h
  · exact unmask_one _
  · exact unmask_zero _

theorem featK_eq_feat (E : SE.Idx → EReal) (W : SW.Idx → EReal) (bc : SB.Idx → EReal) :
    featK E W bc = feat E W bc := by
  funext idx
  have hk2 : 2 ≤ kOf (idx 1).val := two_le_kOf _
  have hk33 : kOf (idx 1).val ≤ 33 := kOf_le (idx 1)
  -- the masked value at every position, in closed form
  have hmask : featK E W bc idx = (Finset.range 512).sup fun l =>
      if l < 513 - kOf (idx 1).val then Ideal.tanh (convSum E W (idx 0) l (idx 1) + bc (ix1 (idx 1))) else -1 :=
    Finset.sup_congr rfl fun l _ => masked_eq E W bc (idx 0) (idx 1) l
  rw [hmask]
  unfold feat
  apply le_antisymm
  · -- each masked value is a member of the right-hand family, or `-1`, which is below the member at position 0
    refine Finset.sup_le fun l _ => ?_
    split_ifs with h
    · exact Finset.le_sup (f := fun l => Ideal.tanh (convSum E W (idx 0) l (idx 1) + bc (ix1 (idx 1))))
        (Finset.mem_range.2 h)
    · exact (neg_one_le_tanh _).trans
        (Finset.le_sup (f := fun l => Ideal.tanh (convSum E W (idx 0) l (idx 1) + bc (ix1 (idx 1))))
          (Finset.mem_range.2 (by omega : 0 < 513 - kOf (idx 1).val)))
  · -- every position where the filter fits is one of the 512 positions, and the masked value there is the `tanh`
    refine Finset.sup_le fun l hl => ?_
    have hl' : l < 513 - kOf (idx 1).val := Finset.mem_range.1 hl
    have hmem : l ∈ Finset.range 512 := Finset.mem_range.2 (by omega)
    refine le_trans (le_of_eq ?_) (Finset.le_sup
      (f := fun l => if l < 513 - kOf (idx 1).val
        then Ideal.tanh (convSum E W (idx 0) l (idx 1) + bc (ix1 (idx 1))) else -1) hmem)
    exact (if_pos hl').symm

end ConvPool

end
-- ==== Proof.KHost.lean ====
/-
  What the host operations in front of the kernel hand it, read at an index: the padded embedded sequences, the filter
  taps with the rows past each filter's length multiplied by zero, and the mask of the positions at which a filter fits.
-/
import proofs.«138672_j88897233092836_1_alg».proof.Proof.Gen.KernelIdeal.Frame
import proofs.«138672_j88897233092836_1_alg».proof.Proof.Spec
import proofs.«138672_j88897233092836_1_alg».proof.Proof.LibConvRead
import Idealize.ShloMosaic.Lib.KernelVsHost
import Idealize.ShloMosaic.Lib.StableHlo.Predicate

noncomputable section

namespace Cert.KernelIdeal.Host

open Cert.KernelIdeal Cert.KernelIdeal.Gen Idealize.ShloMosaic Idealize.ShloMosaic.TcCoe Idealize.ShloMosaic.ValueIdx Idealize.SL.Sem

/-- The embedded sequences: row `s` of sequence `b` is the row of the table that token `x[b, 0, s]` names (a negative
    token counted from the table's end, as the program's select does; the gather itself clamps). -/
def embOf (x : IVec S128x1x512 32) (emb : FVec Ideal S50000x300 .f32) : FVec Ideal S128x512x300 .f32 :=
  Host.gather gather_S50000x300_S128x512x1_S128x512x300_2_0_n_n_0_2_1300 emb
    (broadcastInDim S128x512x1 ![0, 1] bcast_S128x512_S128x512x1_0_1
      (select (cmpi .slt (shapeCast S128x512 x shapeCasts_S128x1x512_S128x512) (broadcastInDim S128x512 ![] bcast_S_S128x512 (constantI S_ 32 0#32)))
        (addi (shapeCast S128x512 x shapeCasts_S128x1x512_S128x512) (broadcastInDim S128x512 ![] bcast_S_S128x512 (constantI S_ 32 50000#32)))
        (shapeCast S128x512 x shapeCasts_S128x1x512_S128x512)))

variable (m : (ℓ : Loc nD τ sig) → Buf (Elt Ideal) ℓ)

/-! ## The integer words the program computes before the region -/

/-- The filter lengths as the program computes them, in 32-bit words: `floor_divide(i, 2) + 2` at position `i`
    (jnp's floor division: the truncated quotient, less one when the signs differ and the remainder is not zero). -/
def kWord : IVec S64 32 :=
  addi
    (select
      (andi (cmpi .ne (signi (iotaInDim S64 32 0)) (broadcastInDim S64 ![] bcast_S_S64 (signi (constantI S_ 32 2#32))))
            (cmpi .ne (Host.remsi (iotaInDim S64 32 0) (broadcastInDim S64 ![] bcast_S_S64 (constantI S_ 32 2#32)))
                      (broadcastInDim S64 ![] bcast_S_S64 (constantI S_ 32 0#32))))
      (subi (Host.divsi (iotaInDim S64 32 0) (broadcastInDim S64 ![] bcast_S_S64 (constantI S_ 32 2#32)))
            (broadcastInDim S64 ![] bcast_S_S64 (constantI S_ 32 1#32)))
      (Host.divsi (iotaInDim S64 32 0) (broadcastInDim S64 ![] bcast_S_S64 (constantI S_ 32 2#32))))
    (broadcastInDim S64 ![] bcast_S_S64 (constantI S_ 32 2#32))

/-- The bit "row `j` is one of filter `i`'s own rows": `j < length i` on signed words, over `[64, 33]`. -/
def rowBit : IVec S64x33 1 :=
  cmpi .slt
    (broadcastInDim S64x33 ![0, 1] bcast_S1x33_S64x33_0_1 (broadcastInDim S1x33 ![1] bcast_S33_S1x33_1 (iotaInDim S33 32 0)))
    (broadcastInDim S64x33 ![0, 1] bcast_S64x1_S64x33_0_1 (broadcastInDim S64x1 ![0] bcast_S64_S64x1_0 kWord))

/-- The bit "filter `i` fits at position `l`": `l < 512 - length i + 1` on signed words, over `[512, 64]`. -/
def validBit : IVec S512x64 1 :=
  cmpi .slt
    (broadcastInDim S512x64 ![0, 1] bcast_S512x1_S512x64_0_1 (broadcastInDim S512x1 ![0] bcast_S512_S512x1_0 (iotaInDim S512 32 0)))
    (broadcastInDim S512x64 ![0, 1] bcast_S1x64_S512x64_0_1
      (addi (subi (broadcastInDim S1x64 ![] bcast_S_S1x64 (constantI S_ 32 512#32)) (broadcastInDim S1x64 ![1] bcast_S64_S1x64_1 kWord))
            (broadcastInDim S1x64 ![] bcast_S_S1x64 (constantI S_ 32 1#32))))

/-! ## The three buffers as terms over the launch contents -/

theorem V_v9_eq (c : Dev nD) :
    (V m c main_v9 : S128x544x300.Idx → EReal)
      = truncf (F := Ideal) .bf16 (pad S128x544x300 ![0, 0, 0] ![0, 32, 0] ![0, 0, 0]
          (embOf (m ((c.tc : Thread nD τ).loc main_arg0)) (m ((c.tc : Thread nD τ).loc main_arg1)))
          (sitofp (F := Ideal) .f32 (constantI S_ 32 0#32)) pads_S128x512x300_S128x544x300_000_0320_000 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  (try simp only [TRef.ofBuf, TRef.toBuf, cast_eq])
  rfl

theorem V_v25_eq (c : Dev nD) :
    (V m c main_v25 : S33x300x64.Idx → EReal)
      = truncf (F := Ideal) .bf16 (transpose S33x300x64 [1, 2, 0]
          (mulf ((m ((c.tc : Thread nD τ).loc main_arg2)) : FVec Ideal S64x33x300 .f32)
            (broadcastInDim S64x33x300 ![0, 1, 2] bcast_S64x33x1_S64x33x300_0_1_2
              (broadcastInDim S64x33x1 ![0, 1] bcast_S64x33_S64x33x1_0_1 (uitofp (F := Ideal) .f32 rowBit))))
          transposes_S64x33x300_S33x300x64_1_2_0) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  (try simp only [TRef.ofBuf, TRef.toBuf, cast_eq])
  rfl

theorem V_v36_eq (c : Dev nD) :
    (V m c main_v36 : S512x64.Idx → EReal) = uitofp (F := Ideal) .f32 validBit := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  (try simp only [TRef.ofBuf, TRef.toBuf, cast_eq])
  rfl

/-! ## Reading them at an index -/

/-- A `[128, 512, 300]` array with 32 rows of a zero padding value behind each sequence, read at `(b, n, e)`:
    the array's row `n` when `n < 512`, zero past it. -/
theorem pad_rows_apply (x : S128x512x300.Idx → EReal) (v : S_.Idx → EReal) (hv : ∀ j, v j = 0)
    (hp : S128x512x300.Pads (![0, 0, 0] : Fin 3 → Nat) ![0, 32, 0] ![0, 0, 0] S128x544x300) (hu : 0 < S_.numel)
    (b : Fin 128) (n : Fin 544) (e : Fin 300) :
    pad S128x544x300 ![0, 0, 0] ![0, 32, 0] ![0, 0, 0] x v hp hu (ix3 b n e) = ConvPool.Ez x b n.val e := by
  unfold ConvPool.Ez
  by_cases hn : n.val < 512
  · rw [dif_pos hn]
    refine pad_apply_of_inside _ _ _ x v hp hu _ (ix3 b ⟨n.val, hn⟩ e) fun a => ?_
    match a with
    | ⟨0, _⟩ => show b.val = 0 + b.val * (0 + 1); omega
    | ⟨1, _⟩ => show n.val = 0 + n.val * (0 + 1); omega
    | ⟨2, _⟩ => show e.val = 0 + e.val * (0 + 1); omega
  · rw [dif_neg hn, pad_apply_of_not_inside _ _ _ x v hp hu _ (1 : Fin 3) (fun hin => hn (by
      have h3 : (n.val - 0) / (0 + 1) < 512 := hin.2.2
      omega)), hv]

/-! ## The words at a position -/

/-- The program's length word at filter `i` is `i / 2 + 2`: sixty-four closed cases, each computed. -/
theorem kWord_apply : ∀ i : Fin 64, kWord (ix1 i) = BitVec.ofNat 32 (i.val / 2 + 2) := by decide

/-- The row bit at `(i, j)` is the signed comparison of the words `j` and `length i`. -/
theorem rowBit_apply (i : Fin 64) (j : Fin 33) :
    rowBit (ix2 i j) = IntOp.cmpi .slt (BitVec.ofNat 32 j.val) (kWord (ix1 i)) := rfl

/-- The position bit at `(l, i)` is the signed comparison of the words `l` and `512 - length i + 1`. -/
theorem validBit_apply (l : Fin 512) (i : Fin 64) :
    validBit (ix2 l i)
      = IntOp.cmpi .slt (BitVec.ofNat 32 l.val) (IntOp.addi (IntOp.subi 512#32 (kWord (ix1 i))) 1#32) := rfl

/-- The program's bound `512 - length i + 1` at filter `i` is the word `513 - (i / 2 + 2)`: sixty-four closed cases. -/
theorem validWord_apply : ∀ i : Fin 64,
    IntOp.addi (IntOp.subi 512#32 (kWord (ix1 i))) 1#32 = BitVec.ofNat 32 (513 - (i.val / 2 + 2)) := by decide

/-- Row `j` is one of filter `i`'s own rows exactly when `j < i / 2 + 2`: both words are small, so the signed
    comparison of the words is the comparison of the numbers. -/
theorem rowBit_iff (i : Fin 64) (j : Fin 33) : rowBit (ix2 i j) = 1#1 ↔ j.val < ConvPool.kOf i.val := by
  rw [rowBit_apply, kWord_apply]
  exact StableHlo.Predicate.slt_ofNat_iff j.val (i.val / 2 + 2) (by have := j.isLt; omega) (by have := i.isLt; omega)

/-- Filter `i` fits at position `l` exactly when `l < 513 - (i / 2 + 2)`. -/
theorem validBit_iff (l : Fin 512) (i : Fin 64) : validBit (ix2 l i) = 1#1 ↔ l.val < 513 - ConvPool.kOf i.val := by
  rw [validBit_apply, validWord_apply]
  exact StableHlo.Predicate.slt_ofNat_iff l.val (513 - (i.val / 2 + 2)) (by have := l.isLt; omega) (by omega)

/-- A bit converted to a real number: the bit `1` is `1` and the bit `0` is `0`. -/
theorem uitofp_bit (b : BitVec 1) (p : Prop) [Decidable p] (h : b = 1#1 ↔ p) :
    FloatOps.uitofp (F := Ideal) .f32 b = if p then (1 : EReal) else 0 := by
  by_cases hp : p
  · rw [if_pos hp, h.2 hp]
    show (((1#1 : BitVec 1).toNat : ℝ) : EReal) = 1
    simp
  · rw [if_neg hp, eq_zero_of_ne_one (fun hb => hp (h.1 hb))]
    show (((0#1 : BitVec 1).toNat : ℝ) : EReal) = 0
    simp

/-- The gather's result as the kernel's program holds it. -/
theorem V_v7 (c : Dev nD) :
    (V m c main_v7 : S128x512x300.Idx → EReal)
      = embOf (m ((c.tc : Thread nD τ).loc main_arg0)) (m ((c.tc : Thread nD τ).loc main_arg1)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-- The kernel's first operand: the embedded sequences with 32 zero rows behind each. -/
theorem V_v9 (c : Dev nD) (b : Fin 128) (n : Fin 544) (e : Fin 300) :
    (V m c main_v9 : S128x544x300.Idx → EReal) (ix3 b n e)
      = ConvPool.Ez (embOf (m ((c.tc : Thread nD τ).loc main_arg0)) (m ((c.tc : Thread nD τ).loc main_arg1))) b n.val e := by
  rw [V_v9_eq, truncf_apply]
  refine pad_rows_apply _ _ (fun j => ?_) _ _ b n e
  show (((0#32 : BitVec 32).toInt : ℝ) : EReal) = 0
  simp

/-- The kernel's second operand: tap `j` of filter `i`, times one when `j < i / 2 + 2` and times zero otherwise. -/
theorem V_v25 (c : Dev nD) (j : Fin 33) (e : Fin 300) (i : Fin 64) :
    (V m c main_v25 : S33x300x64.Idx → EReal) (ix3 j e i)
      = ConvPool.Wz (m ((c.tc : Thread nD τ).loc main_arg2)) i j.val e * ConvPool.rowMask i j.val := by
  rw [V_v25_eq, truncf_apply,
    transpose_apply [1, 2, 0] _ transposes_S64x33x300_S33x300x64_1_2_0 (ix3 j e i) (ix3 i j e)
      (fun b => by match b with | ⟨0, _⟩ => rfl | ⟨1, _⟩ => rfl | ⟨2, _⟩ => rfl),
    mulf_apply,
    broadcastInDim_apply _ bcast_S64x33x1_S64x33x300_0_1_2 _ (ix3 i j e) (ix3 i j (0 : Fin 1))
      (fun a => by match a with | ⟨0, _⟩ => rfl | ⟨1, _⟩ => rfl | ⟨2, _⟩ => rfl),
    broadcastInDim_apply _ bcast_S64x33_S64x33x1_0_1 _ (ix3 i j (0 : Fin 1)) (ix2 i j)
      (fun a => by match a with | ⟨0, _⟩ => rfl | ⟨1, _⟩ => rfl)]
  have hW : ConvPool.Wz (m ((c.tc : Thread nD τ).loc main_arg2)) i j.val e = (m ((c.tc : Thread nD τ).loc main_arg2)) (ix3 i j e) := by
    unfold ConvPool.Wz
    rw [dif_pos j.isLt]
  have hM : (uitofp (F := Ideal) .f32 rowBit) (ix2 i j) = ConvPool.rowMask i j.val := by
    unfold ConvPool.rowMask
    exact uitofp_bit _ _ (rowBit_iff i j)
  rw [hW, hM]

/-- The kernel's fourth operand: one at the positions `l < 513 - (i / 2 + 2)`, zero at the others. -/
theorem V_v36 (c : Dev nD) (l : Fin 512) (i : Fin 64) :
    (V m c main_v36 : S512x64.Idx → EReal) (ix2 l i) = ConvPool.valid l.val i := by
  rw [V_v36_eq]
  show FloatOps.uitofp (F := Ideal) .f32 (validBit (ix2 l i)) = ConvPool.valid l.val i
  unfold ConvPool.valid
  exact uitofp_bit _ _ (validBit_iff l i)

end Cert.KernelIdeal.Host

end
-- ==== Proof.KFinal.lean ====
/-
  The kernel's program read as values: the feature array its 16 grid points leave (block `t` holds sequences
  `8 t … 8 t + 7`, every block the same function of the whole arrays, so the array is the specification's features), and
  the linear layer and logistic function the host applies to it afterwards.
-/
import proofs.«138672_j88897233092836_1_alg».proof.Proof.KBody
import proofs.«138672_j88897233092836_1_alg».proof.Proof.KHost
import Idealize.ShloMosaic.Lib.StableHlo.Run

noncomputable section

namespace Cert.KernelIdeal.Final

open Cert.KernelIdeal Cert.KernelIdeal.Gen Idealize.ShloMosaic Idealize.ShloMosaic.TcCoe Idealize.ShloMosaic.ValueIdx Idealize.SL.Sem

/-- The host operations after the kernel: features times the transposed weights, plus the bias, through the logistic
    function `1 / (1 + exp (-z))`. -/
def tail (feats : FVec Ideal S128x64 .f32) (wlin : FVec Ideal S1x64 .f32) (blin : FVec Ideal S1 .f32) : FVec Ideal S128x1 .f32 :=
  Host.divf (F := Ideal) (broadcastInDim S128x1 ![] bcast_S_S128x1 (constant (F := Ideal) S_ .f32 0x3F800000#32))
    (addf (broadcastInDim S128x1 ![] bcast_S_S128x1 (constant (F := Ideal) S_ .f32 0x3F800000#32))
      (Host.exp (F := Ideal) (Host.negf (F := Ideal)
        (addf (Host.dotGeneral (F := Ideal) dot_S128x64_S64x1_S128x1_1_0_0_1_n_n none feats (transpose S64x1 [1, 0] wlin transposes_S1x64_S64x1_1_0))
          (broadcastInDim S128x1 ![0, 1] bcast_S1x1_S128x1_0_1 (broadcastInDim S1x1 ![1] bcast_S1_S1x1_1 blin))))))

/-! ## One block as a function of the whole arrays -/

/-- A row of a block that is a row of the padded sequences is that row at every position: past the block's 544 rows
    both are zero, because the sequence is zero from row 512 on. -/
theorem X0z_eq (E : ConvPool.SE.Idx → EReal) (x0 : FVec Ideal S8x544x300 .bf16) (bb : Fin 8) (b : Fin 128)
    (h0 : ∀ (n : Fin 544) (e : Fin 300), x0 (ix3 bb n e) = ConvPool.Ez E b n.val e) (n : ℕ) (e : Fin 300) :
    Body.X0z x0 bb n e = ConvPool.Ez E b n e := by
  unfold Body.X0z
  by_cases h : n < 544
  · rw [dif_pos h]
    exact h0 ⟨n, h⟩ e
  · rw [dif_neg h]
    unfold ConvPool.Ez
    rw [dif_neg (by omega)]

/-- The output block at `y` is the masked form of the feature at sequence `b` and filter `y 1`, when the four
    blocks read the padded sequence `b`, the masked taps, the bias and the position mask. -/
theorem kblock_eq_featK (E : ConvPool.SE.Idx → EReal) (W : ConvPool.SW.Idx → EReal) (bc : ConvPool.SB.Idx → EReal)
    (x0 : FVec Ideal S8x544x300 .bf16) (x1 : FVec Ideal S33x300x64 .bf16) (x2 : FVec Ideal S64 .f32)
    (x3 : FVec Ideal S512x64 .f32) (y : S8x64.Idx) (b : Fin 128)
    (h0 : ∀ (n : Fin 544) (e : Fin 300), x0 (ix3 (y 0) n e) = ConvPool.Ez E b n.val e)
    (h1 : ∀ (j : Fin 33) (e : Fin 300), x1 (ix3 j e (y 1)) = ConvPool.Wz W (y 1) j.val e * ConvPool.rowMask (y 1) j.val)
    (h2 : x2 (ix1 (y 1)) = bc (ix1 (y 1)))
    (h3 : ∀ l : Fin 512, x3 (ix2 l (y 1)) = ConvPool.valid l.val (y 1)) :
    Body.kblock x0 x1 x2 x3 y = ConvPool.featK E W bc (ix2 b (y 1)) := by
  unfold Body.kblock ConvPool.featK
  refine Finset.sup_congr rfl fun l hl => ?_
  have hl' : l < 512 := Finset.mem_range.1 hl
  rw [dif_pos hl', h3 ⟨l, hl'⟩, h2]
  have hsum : (∑ j ∈ Finset.range 33, ∑ e : Fin 300, Body.X0z x0 (y 0) (l + j) e * Body.X1z x1 j e (y 1))
      = ∑ j ∈ Finset.range 33, ∑ e : Fin 300,
          ConvPool.Ez E b (l + j) e * (ConvPool.Wz W (y 1) j e * ConvPool.rowMask (y 1) j) := by
    refine Finset.sum_congr rfl fun j hj => ?_
    have hj' : j < 33 := Finset.mem_range.1 hj
    refine Finset.sum_congr rfl fun e _ => ?_
    rw [X0z_eq E x0 (y 0) b h0]
    unfold Body.X1z
    rw [dif_pos hj']
    exact congrArg _ (h1 ⟨j, hj'⟩ e)
  rw [hsum]

variable (m : (ℓ : Loc nD τ sig) → Buf (Elt Ideal) ℓ) (ρ : Dev nD → PrngReg)

/-- The specification's features of the launch arrays. -/
abbrev feats (c : Dev nD) : FVec Ideal S128x64 .f32 :=
  ConvPool.feat (Host.embOf (m ((c.tc : Thread nD τ).loc main_arg0)) (m ((c.tc : Thread nD τ).loc main_arg1)))
    (m ((c.tc : Thread nD τ).loc main_arg2)) (m ((c.tc : Thread nD τ).loc main_arg3))

/-! ## The blocks a grid point reads and writes -/

/-- The windows' block indices over the grid: the sequences and the features move with the point along their first
    axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The sequences' block at point `t` holds sequences `8 t … 8 t + 7`, all their rows. -/
theorem blk0_apply (c : Dev nD) (t : Fin cfg0.N) (bb : Fin 8) (n : Fin 544) (e : Fin 300) (b : Fin 128)
    (hb : b.val = 8 * t.val + bb.val) :
    (iblk m c 0 t : FVec Ideal S8x544x300 .bf16) (ix3 bb n e) = (V m c main_v9 : S128x544x300.Idx → EReal) (ix3 b n e) := by
  obtain ⟨e0, e1, e2, -⟩ := idx_facts t
  unfold iblk
  rw [View.read_apply]
  show V m c main_v9 _ = V m c main_v9 _
  congr 1
  funext a
  apply Fin.ext
  match a with
  | ⟨0, _⟩ => show win0_0.index t 0 * 8 + 1 * bb.val = b.val; rw [e0, hb]; omega
  | ⟨1, _⟩ => show win0_0.index t 1 * 544 + 1 * n.val = n.val; rw [e1]; omega
  | ⟨2, _⟩ => show win0_0.index t 2 * 300 + 1 * e.val = e.val; rw [e2]; omega

/-- The taps' block is the whole array at every point. -/
theorem blk1_apply (c : Dev nD) (t : Fin cfg0.N) (j : Fin 33) (e : Fin 300) (i : Fin 64) :
    (iblk m c 1 t : FVec Ideal S33x300x64 .bf16) (ix3 j e i) = (V m c main_v25 : S33x300x64.Idx → EReal) (ix3 j e i) := by
  obtain ⟨-, -, -, e0, e1, e2, -⟩ := idx_facts t
  unfold iblk
  rw [View.read_apply]
  show V m c main_v25 _ = V m c main_v25 _
  congr 1
  funext a
  apply Fin.ext
  match a with
  | ⟨0, _⟩ => show win0_1.index t 0 * 33 + 1 * j.val = j.val; rw [e0]; omega
  | ⟨1, _⟩ => show win0_1.index t 1 * 300 + 1 * e.val = e.val; rw [e1]; omega
  | ⟨2, _⟩ => show win0_1.index t 2 * 64 + 1 * i.val = i.val; rw [e2]; omega

/-- The bias block is the whole vector at every point. -/
theorem blk2_apply (c : Dev nD) (t : Fin cfg0.N) (i : Fin 64) :
    (iblk m c 2 t : FVec Ideal S64 .f32) (ix1 i) = (V m c main_arg3 : S64.Idx → EReal) (ix1 i) := by
  obtain ⟨-, -, -, -, -, -, e0, -⟩ := idx_facts t
  unfold iblk
  rw [View.read_apply]
  show V m c main_arg3 _ = V m c main_arg3 _
  congr 1
  funext a
  apply Fin.ext
  match a with
  | ⟨0, _⟩ => show win0_2.index t 0 * 64 + 1 * i.val = i.val; rw [e0]; omega

/-- The position mask's block is the whole array at every point. -/
theorem blk3_apply (c : Dev nD) (t : Fin cfg0.N) (l : Fin 512) (i : Fin 64) :
    (iblk m c 3 t : FVec Ideal S512x64 .f32) (ix2 l i) = (V m c main_v36 : S512x64.Idx → EReal) (ix2 l i) := by
  obtain ⟨-, -, -, -, -, -, -, e0, e1, -⟩ := idx_facts t
  unfold iblk
  rw [View.read_apply]
  show V m c main_v36 _ = V m c main_v36 _
  congr 1
  funext a
  apply Fin.ext
  match a with
  | ⟨0, _⟩ => show win0_3.index t 0 * 512 + 1 * l.val = l.val; rw [e0]; omega
  | ⟨1, _⟩ => show win0_3.index t 1 * 64 + 1 * i.val = i.val; rw [e1]; omega

/-! ## From the blocks to the feature array -/

/-- What point `t` writes back is block `t` of the specification's features: the body's output block is the masked
    form of the features of sequences `8 t … 8 t + 7`, and the masked form is the feature. -/
theorem flushed_eq (c : Dev nD) (t : Fin cfg0.N) :
    (dats m 0 c).flushed 4 t = ((cfg0.win 4).blk t).view.read (Elt Ideal) (feats m c) := by
  show (cfg0.win 4).cut (grid0.coords t) ((dats m 0 c).after 4 t) = _
  rw [after0_4]
  unfold outsAt0
  rw [Body.out0_A_4_eq]
  have hN : cfg0.N = 16 := N_0
  have ht : t.val < 16 := hN ▸ t.isLt
  obtain ⟨-, -, -, -, -, -, -, -, -, e40, e41⟩ := idx_facts t
  funext y
  have hy0 : (y 0).val < 8 := (y 0).isLt
  rw [View.read_apply]
  show Body.kblock (iblk m c 0 t) (iblk m c 1 t) (iblk m c 2 t) (iblk m c 3 t) y
    = feats m c (((cfg0.win 4).blk t).view.emb y)
  have hemb : ((cfg0.win 4).blk t).view.emb y = ix2 (⟨8 * t.val + (y 0).val, by omega⟩ : Fin 128) (y 1) := by
    funext a
    apply Fin.ext
    match a with
    | ⟨0, _⟩ => show win0_4.index t 0 * 8 + 1 * (y 0).val = 8 * t.val + (y 0).val; rw [e40]; omega
    | ⟨1, _⟩ => show win0_4.index t 1 * 64 + 1 * (y 1).val = (y 1).val; rw [e41]; omega
  rw [hemb]
  show _ = ConvPool.feat (Host.embOf (m ((c.tc : Thread nD τ).loc main_arg0)) (m ((c.tc : Thread nD τ).loc main_arg1)))
    (m ((c.tc : Thread nD τ).loc main_arg2)) (m ((c.tc : Thread nD τ).loc main_arg3)) _
  rw [← ConvPool.featK_eq_feat]
  refine kblock_eq_featK (Host.embOf (m ((c.tc : Thread nD τ).loc main_arg0)) (m ((c.tc : Thread nD τ).loc main_arg1)))
    (m ((c.tc : Thread nD τ).loc main_arg2)) (m ((c.tc : Thread nD τ).loc main_arg3))
    (iblk m c 0 t) (iblk m c 1 t) (iblk m c 2 t) (iblk m c 3 t) y ⟨8 * t.val + (y 0).val, by omega⟩ ?_ ?_ ?_ ?_
  · exact fun n e => (blk0_apply m c t (y 0) n e ⟨8 * t.val + (y 0).val, by omega⟩ rfl).trans (Host.V_v9 m c _ n e)
  · exact fun j e => (blk1_apply m c t j e (y 1)).trans (Host.V_v25 m c j e (y 1))
  · exact (blk2_apply m c t (y 1)).trans (congrFun (V_main_arg3 m c) (ix1 (y 1)))
  · exact fun l => (blk3_apply m c t l (y 1)).trans (Host.V_v36 m c l (y 1))

/-- An index of the feature array is in point `t`'s block iff each coordinate is in the block's range on its axis. -/
theorem mem_blk (t : Fin cfg0.N) (i : S128x64.Idx) :
    i ∈ ((cfg0.win 4).blk t).view.set
      ↔ ∀ a : Fin 2, win0_4.index t a * S8x64.size a ≤ (i a).val ∧ (i a).val < win0_4.index t a * S8x64.size a + S8x64.size a := by
  show i ∈ ((View.whole main_v37).slice (win0_4.rect t)).set ↔ _
  rw [View.set_slice_whole, Rect.mem_set_unit]
  exact Iff.rfl

/-- The feature array after the region: the 16 blocks of 8 sequences cover its 128 rows (row `r` lies in the block
    of point `r / 8`), and each holds the specification's features. -/
theorem final_feats (c : Dev nD) : ((dats m 0 c).arrAt 4 cfg0.N : S128x64.Idx → EReal) = feats m c :=
  (dats m 0 c).arrAt_eq_of_cover 4 (feats m c) (fun t _ => flushed_eq m c t) fun i => by
    have hN : cfg0.N = 16 := N_0
    have hi0 : (i 0).val < 128 := (i 0).isLt
    have hi1 : (i 1).val < 64 := (i 1).isLt
    have hq : (i 0).val / 8 < cfg0.N := by rw [hN]; omega
    obtain ⟨-, -, -, -, -, -, -, -, -, e40, e41⟩ := idx_facts ⟨(i 0).val / 8, hq⟩
    refine ⟨⟨(i 0).val / 8, hq⟩, flush0_4 _, ?_⟩
    rw [mem_blk]
    intro a
    match a with
    | ⟨0, _⟩ =>
      show win0_4.index ⟨(i 0).val / 8, hq⟩ (0 : Fin 2) * 8 ≤ (i 0).val
        ∧ (i 0).val < win0_4.index ⟨(i 0).val / 8, hq⟩ (0 : Fin 2) * 8 + 8
      rw [e40]
      show (i 0).val / 8 * 8 ≤ (i 0).val ∧ (i 0).val < (i 0).val / 8 * 8 + 8
      omega
    | ⟨1, _⟩ =>
      show win0_4.index ⟨(i 0).val / 8, hq⟩ (1 : Fin 2) * 64 ≤ (i 1).val
        ∧ (i 1).val < win0_4.index ⟨(i 0).val / 8, hq⟩ (1 : Fin 2) * 64 + 64
      rw [e41]
      omega

/-! ## The host operations after the region -/

/-- The result buffer after the host operations that follow the region: they read the feature array the region left and
    the linear layer's weights and bias, which nothing has written. -/
theorem tail_value (c : Dev nD) :
    Pipeline.afterTail₀ cfgs (dats m) 0 (V0 m) [hostOps1] c main_v48
      = tail (feats m c) (m ((c.tc : Thread nD τ).loc main_arg4)) (m ((c.tc : Thread nD τ).loc main_arg5)) := by
  unfold Pipeline.afterTail₀
  show StableHlo.after hostOps1 _ (Proc.devRef .tc main_v48) = _
  simp only [hostOps1]
  after_results
  have h37 : Pipeline.withArrays (cfgs 0).spec c (V0 m c) (fun w => (dats m 0 c).arrAt w (cfgs 0).N) (Proc.devRef .tc main_v37)
      = feats m c :=
    (Pipeline.withArrays_arr spec0 launch0.win.arr_inj c _ _ 4).trans (final_feats m c)
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  have h5 : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans
      (V_main_arg5 m c)
  rw [h37, h4, h5]
  rfl

/-- The run, read: the result at the tail of the features, the arguments unchanged. -/
theorem run_value : θ_run defs (onTc (τ := τ) (main (F := Ideal))) ⟨m, fun _ => 0, ρ⟩ fun r => ∀ c : Dev nD,
      r.2.mem ((c.tc : Thread nD τ).loc main_v48)
        = tail (feats m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v48 (Pipeline.mem_restRefs_of main_v48 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefSegs0.lean ====
import proofs.«138672_j88897233092836_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0: 10 operations. -/
def seg0 : List (HloOp τ sig (Elt F)) :=
  [ reshape main_arg0 main_v0 rfl shapeCasts_S128x1x512_S128x512,
    nullary main_c (constantI S_ 32 0#32),
    unary main_c main_v1 (broadcastInDim S128x512 ![] bcast_S_S128x512 : (⟨S_, .i32⟩ : BufTy).Contents (Elt F) → (⟨S128x512, .i32⟩ : BufTy).Contents (Elt F)),
    binary main_v0 main_v1 main_v2 (cmpi .slt : (⟨S128x512, .i32⟩ : BufTy).Contents (Elt F) → (⟨S128x512, .i32⟩ : BufTy).Contents (Elt F) → (⟨S128x512, .i1⟩ : BufTy).Contents (Elt F)),
    nullary main_c_0 (constantI S_ 32 50000#32),
    unary main_c_0 main_v3 (broadcastInDim S128x512 ![] bcast_S_S128x512 : (⟨S_, .i32⟩ : BufTy).Contents (Elt F) → (⟨S128x512, .i32⟩ : BufTy).Contents (Elt F)),
    binary main_v0 main_v3 main_v4 (addi : (⟨S128x512, .i32⟩ : BufTy).Contents (Elt F) → (⟨S128x512, .i32⟩ : BufTy).Contents (Elt F) → (⟨S128x512, .i32⟩ : BufTy).Contents (Elt F)),
    ternary main_v2 main_v4 main_v0 main_v5 (select : (⟨S128x512, .i1⟩ : BufTy).Contents (Elt F) → (⟨S128x512, .i32⟩ : BufTy).Contents (Elt F) → (⟨S128x512, .i32⟩ : BufTy).Contents (Elt F) → (⟨S128x512, .i32⟩ : BufTy).Contents (Elt F)),
    unary main_v5 main_v6 (broadcastInDim S128x512x1 ![0, 1] bcast_S128x512_S128x512x1_0_1 : (⟨S128x512, .i32⟩ : BufTy).Contents (Elt F) → (⟨S128x512x1, .i32⟩ : BufTy).Contents (Elt F)),
    binary main_arg1 main_v6 main_v7 ((fun x i => Host.gather gather_S50000x300_S128x512x1_S128x512x300_2_0_n_n_0_2_1300 x i) : (⟨S50000x300, .f32⟩ : BufTy).Contents (Elt F) → (⟨S128x512x1, .i32⟩ : BufTy).Contents (Elt F) → (⟨S128x512x300, .f32⟩ : BufTy).Contents (Elt F)) ]

/-- Segment 1: 18 operations. -/
def seg1 : List (HloOp τ sig (Elt F)) :=
  [ unary main_arg2 main_v8 ((extractStridedSlice S1x2x300 ![0, 0, 0] · slices_S64x33x300_S1x2x300_0_0_0) : (⟨S64x33x300, .f32⟩ : BufTy).Contents (Elt F) → (⟨S1x2x300, .f32⟩ : BufTy).Contents (Elt F)),
    reshape main_v8 main_v9 rfl shapeCasts_S1x2x300_S2x300,
    binary main_v7 main_v9 main_v10 ((fun l r => Host.dotGeneral dot_S128x512x300_S2x300_S128x512x2_2_1_01_0_n_n none l r) : (⟨S128x512x300, .f32⟩ : BufTy).Contents (Elt F) → (⟨S2x300, .f32⟩ : BufTy).Contents (Elt F) → (⟨S128x512x2, .f32⟩ : BufTy).Contents (Elt F)),
    unary main_v10 main_v11 ((extractStridedSlice S128x511x1 ![0, 0, 0] · slices_S128x512x2_S128x511x1_0_0_0) : (⟨S128x512x2, .f32⟩ : BufTy).Contents (Elt F) → (⟨S128x511x1, .f32⟩ : BufTy).Contents (Elt F)),
    reshape main_v11 main_v12 rfl shapeCasts_S128x511x1_S128x511,
    nullary main_cst (constant S_ .f32 0x00000000#32),
    unary main_cst main_v13 (broadcastInDim S128x511 ![] bcast_S_S128x511 : (⟨S_, .f32⟩ : BufTy).Contents (Elt F) → (⟨S128x511, .f32⟩ : BufTy).Contents (Elt F)),
    binary main_v13 main_v12 main_v14 (addf : (⟨S128x511, .f32⟩ : BufTy).Contents (Elt F) → (⟨S128x511, .f32⟩ : BufTy).Contents (Elt F) → (⟨S128x511, .f32⟩ : BufTy).Contents (Elt F)),
    unary main_v10 main_v15 ((extractStridedSlice S128x511x1 ![0, 1, 1] · slices_S128x512x2_S128x511x1_0_1_1) : (⟨S128x512x2, .f32⟩ : BufTy).Contents (Elt F) → (⟨S128x511x1, .f32⟩ : BufTy).Contents (Elt F)),
    reshape main_v15 main_v16 rfl shapeCasts_S128x511x1_S128x511,
    binary main_v14 main_v16 main_v17 (addf : (⟨S128x511, .f32⟩ : BufTy).Contents (Elt F) → (⟨S128x511, .f32⟩ : BufTy).Contents (Elt F) → (⟨S128x511, .f32⟩ : BufTy).Contents (Elt F)),
    unary main_arg3 main_v18 ((extractStridedSlice S1 ![0] · slices_S64_S1_0) : (⟨S64, .f32⟩ : BufTy).Contents (Elt F) → (⟨S1, .f32⟩ : BufTy).Contents (Elt F)),
    reshape main_v18 main_v19 rfl shapeCasts_S1_S_,
    unary main_v19 main_v20 (broadcastInDim S128x511 ![] bcast_S_S128x511 : (⟨S_, .f32⟩ : BufTy).Contents (Elt F) → (⟨S128x511, .f32⟩ : BufTy).Contents (Elt F)),
    binary main_v17 main_v20 main_v21 (addf : (⟨S128x511, .f32⟩ : BufTy).Contents (Elt F) → (⟨S128x511, .f32⟩ : BufTy).Contents (Elt F) → (⟨S128x511, .f32⟩ : BufTy).Contents (Elt F)),
    unary main_v21 main_v22 (Host.tanh : (⟨S128x511, .f32⟩ : BufTy).Contents (Elt F) → (⟨S128x511, .f32⟩ : BufTy).Contents (Elt F)),
    nullary main_cst_1 (constant S_ .f32 0xFF800000#32),
    binary main_v22 main_cst_1 main_v23 ((fun x v => Host.reduce FloatOps.maximumf x v reducesTo_S128x511_S128_d1 h_S_) : (⟨S128x511, .f32⟩ : BufTy).Contents (Elt F) → (⟨S_, .f32⟩ : BufTy).Contents (Elt F) → (⟨S128, .f32⟩ : BufTy).Contents (Elt F)) ]

/-- Segment 2: 18 operations. -/
def seg2 : List (HloOp τ sig (Elt F)) :=
  [ unary main_arg2 main_v24 ((extractStridedSlice S1x2x300 ![1, 0, 0] · slices_S64x33x300_S1x2x300_1_0_0) : (⟨S64x33x300, .f32⟩ : BufTy).Contents (Elt F) → (⟨S1x2x300, .f32⟩ : BufTy).Contents (Elt F)),
    reshape main_v24 main_v25 rfl shapeCasts_S1x2x300_S2x300,
    binary main_v7 main_v25 main_v26 ((fun l r => Host.dotGeneral dot_S128x512x300_S2x300_S128x512x2_2_1_01_0_n_n none l r) : (⟨S128x512x300, .f32⟩ : BufTy).Contents (Elt F) → (⟨S2x300, .f32⟩ : BufTy).Contents (Elt F) → (⟨S128x512x2, .f32⟩ : BufTy).Contents (Elt F)),
    unary main_v26 main_v27 ((extractStridedSlice S128x511x1 ![0, 0, 0] · slices_S128x512x2_S128x511x1_0_0_0) : (⟨S128x512x2, .f32⟩ : BufTy).Contents (Elt F) → (⟨S128x511x1, .f32⟩ : BufTy).Contents (Elt F)),
    reshape main_v27 main_v28 rfl shapeCasts_S128x511x1_S128x511,
    nullary main_cst_2 (constant S_ .f32 0x00000000#32),
    unary main_cst_2 main_v29 (broadcastInDim S128x511 ![] bcast_S_S128x511 : (⟨S_, .f32⟩ : BufTy).Contents (Elt F) → (⟨S128x511, .f32⟩ : BufTy).Contents (Elt F)),
    binary main_v29 main_v28 main_v30 (addf : (⟨S128x511, .f32⟩ : BufTy).Contents (Elt F) → (⟨S128x511, .f32⟩ : BufTy).Contents (Elt F) → (⟨S128x511, .f32⟩ : BufTy).Contents (Elt F)),
    unary main_v26 main_v31 ((extractStridedSlice S128x511x1 ![0, 1, 1] · slices_S128x512x2_S128x511x1_0_1_1) : (⟨S128x512x2, .f32⟩ : BufTy).Contents (Elt F) → (⟨S128x511x1, .f32⟩ : BufTy).Contents (Elt F)),
    reshape main_v31 main_v32 rfl shapeCasts_S128x511x1_S128x511,
    binary main_v30 main_v32 main_v33 (addf : (⟨S128x511, .f32⟩ : BufTy).Contents (Elt F) → (⟨S128x511, .f32⟩ : BufTy).Contents (Elt F) → (⟨S128x511, .f32⟩ : BufTy).Contents (Elt F)),
    unary main_arg3 main_v34 ((extractStridedSlice S1 ![1] · slices_S64_S1_1) : (⟨S64, .f32⟩ : BufTy).Contents (Elt F) → (⟨S1, .f32⟩ : BufTy).Contents (Elt F)),
    reshape main_v34 main_v35 rfl shapeCasts_S1_S_,
    unary main_v35 main_v36 (broadcastInDim S128x511 ![] bcast_S_S128x511 : (⟨S_, .f32⟩ : BufTy).Contents (Elt F) → (⟨S128x511, .f32⟩ : BufTy).Contents (Elt F)),
    binary main_v33 main_v36 main_v37 (addf : (⟨S128x511, .f32⟩ : BufTy).Contents (Elt F) → (⟨S128x511, .f32⟩ : BufTy).Contents (Elt F) → (⟨S128x511, .f32⟩ : BufTy).Contents (Elt F)),
    unary main_v37 main_v38 (Host.tanh : (⟨S128x511, .f32⟩ : BufTy).Contents (Elt F) → (⟨S128x511, .f32⟩ : BufTy).Contents (Elt F)),
    nullary main_cst_3 (constant S_ .f32 0xFF800000#32),
    binary main_v38 main_cst_3 main_v39 ((fun x v => Host.reduce FloatOps.maximumf x v reducesTo_S128x511_S128_d1 h_S_) : (⟨S128x511, .f32⟩ : BufTy).Contents (Elt F) → (⟨S_, .f32⟩ : BufTy).Contents (Elt F) → (⟨S128, .f32⟩ : BufTy).Contents (Elt F)) ]

/-- Segment 3: 14 operations. -/
def seg3 : List (HloOp τ sig (Elt F)) :=
  [ unary main_arg2 main_v40 ((extractStridedSlice S1x3x300 ![2, 0, 0] · slices_S64x33x300_S1x3x300_2_0_0) : (⟨S64x33x300, .f32⟩ : BufTy).Contents (Elt F) → (⟨S1x3x300, .f32⟩ : BufTy).Contents (Elt F)),
    reshape main_v40 main_v41 rfl shapeCasts_S1x3x300_S3x300,
    binary main_v7 main_v41 main_v42 ((fun l r => Host.dotGeneral dot_S128x512x300_S3x300_S128x512x3_2_1_01_0_n_n none l r) : (⟨S128x512x300, .f32⟩ : BufTy).Contents (Elt F) → (⟨S3x300, .f32⟩ : BufTy).Contents (Elt F) → (⟨S128x512x3, .f32⟩ : BufTy).Contents (Elt F)),
    unary main_v42 main_v43 ((extractStridedSlice S128x510x1 ![0, 0, 0] · slices_S128x512x3_S128x510x1_0_0_0) : (⟨S128x512x3, .f32⟩ : BufTy).Contents (Elt F) → (⟨S128x510x1, .f32⟩ : BufTy).Contents (Elt F)),
    reshape main_v43 main_v44 rfl shapeCasts_S128x510x1_S128x510,
    nullary main_cst_4 (constant S_ .f32 0x00000000#32),
    unary main_cst_4 main_v45 (broadcastInDim S128x510 ![] bcast_S_S128x510 : (⟨S_, .f32⟩ : BufTy).Contents (Elt F) → (⟨S128x510, .f32⟩ : BufTy).Contents (Elt F)),
    binary main_v45 main_v44 main_v46 (addf : (⟨S128x510, .f32⟩ : BufTy).Contents (Elt F) → (⟨S128x510, .f32⟩ : BufTy).Contents (Elt F) → (⟨S128x510, .f32⟩ : BufTy).Contents (Elt F)),
    unary main_v42 main_v47 ((extractStridedSlice S128x510x1 ![0, 1, 1] · slices_S128x512x3_S128x510x1_0_1_1) : (⟨S128x512x3, .f32⟩ : BufTy).Contents (Elt F) → (⟨S128x510x1, .f32⟩ : BufTy).Contents (Elt F)),
    reshape main_v47 main_v48 rfl shapeCasts_S128x510x1_S128x510,
    binary main_v46 main_v48 main_v49 (addf : (⟨S128x510, .f32⟩ : BufTy).Contents (Elt F) → (⟨S128x510, .f32⟩ : BufTy).Contents (Elt F) → (⟨S128x510, .f32⟩ : BufTy).Contents (Elt F)),
    unary main_v42 main_v50 ((extractStridedSlice S128x510x1 ![0, 2, 2] · slices_S128x512x3_S128x510x1_0_2_2) : (⟨S128x512x3, .f32⟩ : BufTy).Contents (Elt F) → (⟨S128x510x1, .f32⟩ : BufTy).Contents (Elt F)),
    reshape main_v50 main_v51 rfl shapeCasts_S128x510x1_S128x510,
    binary main_v49 main_v51 main_v52 (addf : (⟨S128x510, .f32⟩ : BufTy).Contents (Elt F) → (⟨S128x510, .f32⟩ : BufTy).Contents (Elt F) → (⟨S128x510, .f32⟩ : BufTy).Contents (Elt F)) ]

/-- Segment 4: 7 operations. -/
def seg4 : List (HloOp τ sig (Elt F)) :=
  [ unary main_arg3 main_v53 ((extractStridedSlice S1 ![2] · slices_S64_S1_2) : (⟨S64, .f32⟩ : BufTy).Contents (Elt F) → (⟨S1, .f32⟩ : BufTy).Contents (Elt F)),
    reshape main_v53 main_v54 rfl shapeCasts_S1_S_,
    unary main_v54 main_v55 (broadcastInDim S128x510 ![] bcast_S_S128x510 : (⟨S_, .f32⟩ : BufTy).Contents (Elt F) → (⟨S128x510, .f32⟩ : BufTy).Contents (Elt F)),
    binary main_v52 main_v55 main_v56 (addf : (⟨S128x510, .f32⟩ : BufTy).Contents (Elt F) → (⟨S128x510, .f32⟩ : BufTy).Contents (Elt F) → (⟨S128x510, .f32⟩ : BufTy).Contents (Elt F)),
    unary main_v56 main_v57 (Host.tanh : (⟨S128x510, .f32⟩ : BufTy).Contents (Elt F) → (⟨S128x510, .f32⟩ : BufTy).Contents (Elt F)),
    nullary main_cst_5 (constant S_ .f32 0xFF800000#32),
    binary main_v57 main_cst_5 main_v58 ((fun x v => Host.reduce FloatOps.maximumf x v reducesTo_S128x510_S128_d1 h_S_) : (⟨S128x510, .f32⟩ : BufTy).Contents (Elt F) → (⟨S_, .f32⟩ : BufTy).Contents (Elt F) → (⟨S128, .f32⟩ : BufTy).Contents (Elt F)) ]

/-- Segment 5: 21 operations. -/
def seg5 : List (HloOp τ sig (Elt F)) :=
  [ unary main_arg2 main_v59 ((extractStridedSlice S1x3x300 ![3, 0, 0] · slices_S64x33x300_S1x3x300_3_0_0) : (⟨S64x33x300, .f32⟩ : BufTy).Contents (Elt F) → (⟨S1x3x300, .f32⟩ : BufTy).Contents (Elt F)),
    reshape main_v59 main_v60 rfl shapeCasts_S1x3x300_S3x300,
    binary main_v7 main_v60 main_v61 ((fun l r => Host.dotGeneral dot_S128x512x300_S3x300_S128x512x3_2_1_01_0_n_n none l r) : (⟨S128x512x300, .f32⟩ : BufTy).Contents (Elt F) → (⟨S3x300, .f32⟩ : BufTy).Contents (Elt F) → (⟨S128x512x3, .f32⟩ : BufTy).Contents (Elt F)),
    unary main_v61 main_v62 ((extractStridedSlice S128x510x1 ![0, 0, 0] · slices_S128x512x3_S128x510x1_0_0_0) : (⟨S128x512x3, .f32⟩ : BufTy).Contents (Elt F) → (⟨S128x510x1, .f32⟩ : BufTy).Contents (Elt F)),
    reshape main_v62 main_v63 rfl shapeCasts_S128x510x1_S128x510,
    nullary main_cst_6 (constant S_ .f32 0x00000000#32),
    unary main_cst_6 main_v64 (broadcastInDim S128x510 ![] bcast_S_S128x510 : (⟨S_, .f32⟩ : BufTy).Contents (Elt F) → (⟨S128x510, .f32⟩ : BufTy).Contents (Elt F)),
    binary main_v64 main_v63 main_v65 (addf : (⟨S128x510, .f32⟩ : BufTy).Contents (Elt F) → (⟨S128x510, .f32⟩ : BufTy).Contents (Elt F) → (⟨S128x510, .f32⟩ : BufTy).Contents (Elt F)),
    unary main_v61 main_v66 ((extractStridedSlice S128x510x1 ![0, 1, 1] · slices_S128x512x3_S128x510x1_0_1_1) : (⟨S128x512x3, .f32⟩ : BufTy).Contents (Elt F) → (⟨S128x510x1, .f32⟩ : BufTy).Contents (Elt F)),
    reshape main_v66 main_v67 rfl shapeCasts_S128x510x1_S128x510,
    binary main_v65 main_v67 main_v68 (addf : (⟨S128x510, .f32⟩ : BufTy).Contents (Elt F) → (⟨S128x510, .f32⟩ : BufTy).Contents (Elt F) → (⟨S128x510, .f32⟩ : BufTy).Contents (Elt F)),
    unary main_v61 main_v69 ((extractStridedSlice S128x510x1 ![0, 2, 2] · slices_S128x512x3_S128x510x1_0_2_2) : (⟨S128x512x3, .f32⟩ : BufTy).Contents (Elt F) → (⟨S128x510x1, .f32⟩ : BufTy).Contents (Elt F)),
    reshape main_v69 main_v70 rfl shapeCasts_S128x510x1_S128x510,
    binary main_v68 main_v70 main_v71 (addf : (⟨S128x510, .f32⟩ : BufTy).Contents (Elt F) → (⟨S128x510, .f32⟩ : BufTy).Contents (Elt F) → (⟨S128x510, .f32⟩ : BufTy).Contents (Elt F)),
    unary main_arg3 main_v72 ((extractStridedSlice S1 ![3] · slices_S64_S1_3) : (⟨S64, .f32⟩ : BufTy).Contents (Elt F) → (⟨S1, .f32⟩ : BufTy).Contents (Elt F)),
    reshape main_v72 main_v73 rfl shapeCasts_S1_S_,
    unary main_v73 main_v74 (broadcastInDim S128x510 ![] bcast_S_S128x510 : (⟨S_, .f32⟩ : BufTy).Contents (Elt F) → (⟨S128x510, .f32⟩ : BufTy).Contents (Elt F)),
    binary main_v71 main_v74 main_v75 (addf : (⟨S128x510, .f32⟩ : BufTy).Contents (Elt F) → (⟨S128x510, .f32⟩ : BufTy).Contents (Elt F) → (⟨S128x510, .f32⟩ : BufTy).Contents (Elt F)),
    unary main_v75 main_v76 (Host.tanh : (⟨S128x510, .f32⟩ : BufTy).Contents (Elt F) → (⟨S128x510, .f32⟩ : BufTy).Contents (Elt F)),
    nullary main_cst_7 (constant S_ .f32 0xFF800000#32),
    binary main_v76 main_cst_7 main_v77 ((fun x v => Host.reduce FloatOps.maximumf x v reducesTo_S128x510_S128_d1 h_S_) : (⟨S128x510, .f32⟩ : BufTy).Contents (Elt F) → (⟨S_, .f32⟩ : BufTy).Contents (Elt F) → (⟨S128, .f32⟩ : BufTy).Contents (Elt F)) ]

/-- Segment 6: 24 operations. -/
def seg6 : List (HloOp τ sig (Elt F)) :=
  [ unary main_arg2 main_v78 ((extractStridedSlice S1x4x300 ![4, 0, 0] · slices_S64x33x300_S1x4x300_4_0_0) : (⟨S64x33x300, .f32⟩ : BufTy).Contents (Elt F) → (⟨S1x4x300, .f32⟩ : BufTy).Contents (Elt F)),
    reshape main_v78 main_v79 rfl shapeCasts_S1x4x300_S4x300,
    binary main_v7 main_v79 main_v80 ((fun l r => Host.dotGeneral dot_S128x512x300_S4x300_S128x512x4_2_1_01_0_n_n none l r) : (⟨S128x512x300, .f32⟩ : BufTy).Contents (Elt F) → (⟨S4x300, .f32⟩ : BufTy).Contents (Elt F) → (⟨S128x512x4, .f32⟩ : BufTy).Contents (Elt F)),
    unary main_v80 main_v81 ((extractStridedSlice S128x509x1 ![0, 0, 0] · slices_S128x512x4_S128x509x1_0_0_0) : (⟨S128x512x4, .f32⟩ : BufTy).Contents (Elt F) → (⟨S128x509x1, .f32⟩ : BufTy).Contents (Elt F)),
    reshape main_v81 main_v82 rfl shapeCasts_S128x509x1_S128x509,
    nullary main_cst_8 (constant S_ .f32 0x00000000#32),
    unary main_cst_8 main_v83 (broadcastInDim S128x509 ![] bcast_S_S128x509 : (⟨S_, .f32⟩ : BufTy).Contents (Elt F) → (⟨S128x509, .f32⟩ : BufTy).Contents (Elt F)),
    binary main_v83 main_v82 main_v84 (addf : (⟨S128x509, .f32⟩ : BufTy).Contents (Elt F) → (⟨S128x509, .f32⟩ : BufTy).Contents (Elt F) → (⟨S128x509, .f32⟩ : BufTy).Contents (Elt F)),
    unary main_v80 main_v85 ((extractStridedSlice S128x509x1 ![0, 1, 1] · slices_S128x512x4_S128x509x1_0_1_1) : (⟨S128x512x4, .f32⟩ : BufTy).Contents (Elt F) → (⟨S128x509x1, .f32⟩ : BufTy).Contents (Elt F)),
    reshape main_v85 main_v86 rfl shapeCasts_S128x509x1_S128x509,
    binary main_v84 main_v86 main_v87 (addf : (⟨S128x509, .f32⟩ : BufTy).Contents (Elt F) → (⟨S128x509, .f32⟩ : BufTy).Contents (Elt F) → (⟨S128x509, .f32⟩ : BufTy).Contents (Elt F)),
    unary main_v80 main_v88 ((extractStridedSlice S128x509x1 ![0, 2, 2] · slices_S128x512x4_S128x509x1_0_2_2) : (⟨S128x512x4, .f32⟩ : BufTy).Contents (Elt F) → (⟨S128x509x1, .f32⟩ : BufTy).Contents (Elt F)),
    reshape main_v88 main_v89 rfl shapeCasts_S128x509x1_S128x509,
    binary main_v87 main_v89 main_v90 (addf : (⟨S128x509, .f32⟩ : BufTy).Contents (Elt F) → (⟨S128x509, .f32⟩ : BufTy).Contents (Elt F) → (⟨S128x509, .f32⟩ : BufTy).Contents (Elt F)),
    unary main_v80 main_v91 ((extractStridedSlice S128x509x1 ![0, 3, 3] · slices_S128x512x4_S128x509x1_0_3_3) : (⟨S128x512x4, .f32⟩ : BufTy).Contents (Elt F) → (⟨S128x509x1, .f32⟩ : BufTy).Contents (Elt F)),
    reshape main_v91 main_v92 rfl shapeCasts_S128x509x1_S128x509,
    binary main_v90 main_v92 main_v93 (addf : (⟨S128x509, .f32⟩ : BufTy).Contents (Elt F) → (⟨S128x509, .f32⟩ : BufTy).Contents (Elt F) → (⟨S128x509, .f32⟩ : BufTy).Contents (Elt F)),
    unary main_arg3 main_v94 ((extractStridedSlice S1 ![4] · slices_S64_S1_4) : (⟨S64, .f32⟩ : BufTy).Contents (Elt F) → (⟨S1, .f32⟩ : BufTy).Contents (Elt F)),
    reshape main_v94 main_v95 rfl shapeCasts_S1_S_,
    unary main_v95 main_v96 (broadcastInDim S128x509 ![] bcast_S_S128x509 : (⟨S_, .f32⟩ : BufTy).Contents (Elt F) → (⟨S128x509, .f32⟩ : BufTy).Contents (Elt F)),
    binary main_v93 main_v96 main_v97 (addf : (⟨S128x509, .f32⟩ : BufTy).Contents (Elt F) → (⟨S128x509, .f32⟩ : BufTy).Contents (Elt F) → (⟨S128x509, .f32⟩ : BufTy).Contents (Elt F)),
    unary main_v97 main_v98 (Host.tanh : (⟨S128x509, .f32⟩ : BufTy).Contents (Elt F) → (⟨S128x509, .f32⟩ : BufTy).Contents (Elt F)),
    nullary main_cst_9 (constant S_ .f32 0xFF800000#32),
    binary main_v98 main_cst_9 main_v99 ((fun x v => Host.reduce FloatOps.maximumf x v reducesTo_S128x509_S128_d1 h_S_) : (⟨S128x509, .f32⟩ : BufTy).Contents (Elt F) → (⟨S_, .f32⟩ : BufTy).Contents (Elt F) → (⟨S128, .f32⟩ : BufTy).Contents (Elt F)) ]

/-- Segment 7: 8 operations. -/
def seg7 : List (HloOp τ sig (Elt F)) :=
  [ unary main_arg2 main_v100 ((extractStridedSlice S1x4x300 ![5, 0, 0] · slices_S64x33x300_S1x4x300_5_0_0) : (⟨S64x33x300, .f32⟩ : BufTy).Contents (Elt F) → (⟨S1x4x300, .f32⟩ : BufTy).Contents (Elt F)),
    reshape main_v100 main_v101 rfl shapeCasts_S1x4x300_S4x300,
    binary main_v7 main_v101 main_v102 ((fun l r => Host.dotGeneral dot_S128x512x300_S4x300_S128x512x4_2_1_01_0_n_n none l r) : (⟨S128x512x300, .f32⟩ : BufTy).Contents (Elt F) → (⟨S4x300, .f32⟩ : BufTy).Contents (Elt F) → (⟨S128x512x4, .f32⟩ : BufTy).Contents (Elt F)),
    unary main_v102 main_v103 ((extractStridedSlice S128x509x1 ![0, 0, 0] · slices_S128x512x4_S128x509x1_0_0_0) : (⟨S128x512x4, .f32⟩ : BufTy).Contents (Elt F) → (⟨S128x509x1, .f32⟩ : BufTy).Contents (Elt F)),
    reshape main_v103 main_v104 rfl shapeCasts_S128x509x1_S128x509,
    nullary main_cst_10 (constant S_ .f32 0x00000000#32),
    unary main_cst_10 main_v105 (broadcastInDim S128x509 ![] bcast_S_S128x509 : (⟨S_, .f32⟩ : BufTy).Contents (Elt F) → (⟨S128x509, .f32⟩ : BufTy).Contents (Elt F)),
    binary main_v105 main_v104 main_v106 (addf : (⟨S128x509, .f32⟩ : BufTy).Contents (Elt F) → (⟨S128x509, .f32⟩ : BufTy).Contents (Elt F) → (⟨S128x509, .f32⟩ : BufTy).Contents (Elt F)) ]

/-- Segment 8: 16 operations. -/
def seg8 : List (HloOp τ sig (Elt F)) :=
  [ unary main_v102 main_v107 ((extractStridedSlice S128x509x1 ![0, 1, 1] · slices_S128x512x4_S128x509x1_0_1_1) : (⟨S128x512x4, .f32⟩ : BufTy).Contents (Elt F) → (⟨S128x509x1, .f32⟩ : BufTy).Contents (Elt F)),
    reshape main_v107 main_v108 rfl shapeCasts_S128x509x1_S128x509,
    binary main_v106 main_v108 main_v109 (addf : (⟨S128x509, .f32⟩ : BufTy).Contents (Elt F) → (⟨S128x509, .f32⟩ : BufTy).Contents (Elt F) → (⟨S128x509, .f32⟩ : BufTy).Contents (Elt F)),
    unary main_v102 main_v110 ((extractStridedSlice S128x509x1 ![0, 2, 2] · slices_S128x512x4_S128x509x1_0_2_2) : (⟨S128x512x4, .f32⟩ : BufTy).Contents (Elt F) → (⟨S128x509x1, .f32⟩ : BufTy).Contents (Elt F)),
    reshape main_v110 main_v111 rfl shapeCasts_S128x509x1_S128x509,
    binary main_v109 main_v111 main_v112 (addf : (⟨S128x509, .f32⟩ : BufTy).Contents (Elt F) → (⟨S128x509, .f32⟩ : BufTy).Contents (Elt F) → (⟨S128x509, .f32⟩ : BufTy).Contents (Elt F)),
    unary main_v102 main_v113 ((extractStridedSlice S128x509x1 ![0, 3, 3] · slices_S128x512x4_S128x509x1_0_3_3) : (⟨S128x512x4, .f32⟩ : BufTy).Contents (Elt F) → (⟨S128x509x1, .f32⟩ : BufTy).Contents (Elt F)),
    reshape main_v113 main_v114 rfl shapeCasts_S128x509x1_S128x509,
    binary main_v112 main_v114 main_v115 (addf : (⟨S128x509, .f32⟩ : BufTy).Contents (Elt F) → (⟨S128x509, .f32⟩ : BufTy).Contents (Elt F) → (⟨S128x509, .f32⟩ : BufTy).Contents (Elt F)),
    unary main_arg3 main_v116 ((extractStridedSlice S1 ![5] · slices_S64_S1_5) : (⟨S64, .f32⟩ : BufTy).Contents (Elt F) → (⟨S1, .f32⟩ : BufTy).Contents (Elt F)),
    reshape main_v116 main_v117 rfl shapeCasts_S1_S_,
    unary main_v117 main_v118 (broadcastInDim S128x509 ![] bcast_S_S128x509 : (⟨S_, .f32⟩ : BufTy).Contents (Elt F) → (⟨S128x509, .f32⟩ : BufTy).Contents (Elt F)),
    binary main_v115 main_v118 main_v119 (addf : (⟨S128x509, .f32⟩ : BufTy).Contents (Elt F) → (⟨S128x509, .f32⟩ : BufTy).Contents (Elt F) → (⟨S128x509, .f32⟩ : BufTy).Contents (Elt F)),
    unary main_v119 main_v120 (Host.tanh : (⟨S128x509, .f32⟩ : BufTy).Contents (Elt F) → (⟨S128x509, .f32⟩ : BufTy).Contents (Elt F)),
    nullary main_cst_11 (constant S_ .f32 0xFF800000#32),
    binary main_v120 main_cst_11 main_v121 ((fun x v => Host.reduce FloatOps.maximumf x v reducesTo_S128x509_S128_d1 h_S_) : (⟨S128x509, .f32⟩ : BufTy).Contents (Elt F) → (⟨S_, .f32⟩ : BufTy).Contents (Elt F) → (⟨S128, .f32⟩ : BufTy).Contents (Elt F)) ]

/-- Segment 9: 27 operations. -/
def seg9 : List (HloOp τ sig (Elt F)) :=
  [ unary main_arg2 main_v122 ((extractStridedSlice S1x5x300 ![6, 0, 0] · slices_S64x33x300_S1x5x300_6_0_0) : (⟨S64x33x300, .f32⟩ : BufTy).Contents (Elt F) → (⟨S1x5x300, .f32⟩ : BufTy).Contents (Elt F)),
    reshape main_v122 main_v123 rfl shapeCasts_S1x5x300_S5x300,
    binary main_v7 main_v123 main_v124 ((fun l r => Host.dotGeneral dot_S128x512x300_S5x300_S128x512x5_2_1_01_0_n_n none l r) : (⟨S128x512x300, .f32⟩ : BufTy).Contents (Elt F) → (⟨S5x300, .f32⟩ : BufTy).Contents (Elt F) → (⟨S128x512x5, .f32⟩ : BufTy).Contents (Elt F)),
    unary main_v124 main_v125 ((extractStridedSlice S128x508x1 ![0, 0, 0] · slices_S128x512x5_S128x508x1_0_0_0) : (⟨S128x512x5, .f32⟩ : BufTy).Contents (Elt F) → (⟨S128x508x1, .f32⟩ : BufTy).Contents (Elt F)),
    reshape main_v125 main_v126 rfl shapeCasts_S128x508x1_S128x508,
    nullary main_cst_12 (constant S_ .f32 0x00000000#32),
    unary main_cst_12 main_v127 (broadcastInDim S128x508 ![] bcast_S_S128x508 : (⟨S_, .f32⟩ : BufTy).Contents (Elt F) → (⟨S128x508, .f32⟩ : BufTy).Contents (Elt F)),
    binary main_v127 main_v126 main_v128 (addf : (⟨S128x508, .f32⟩ : BufTy).Contents (Elt F) → (⟨S128x508, .f32⟩ : BufTy).Contents (Elt F) → (⟨S128x508, .f32⟩ : BufTy).Contents (Elt F)),
    unary main_v124 main_v129 ((extractStridedSlice S128x508x1 ![0, 1, 1] · slices_S128x512x5_S128x508x1_0_1_1) : (⟨S128x512x5, .f32⟩ : BufTy).Contents (Elt F) → (⟨S128x508x1, .f32⟩ : BufTy).Contents (Elt F)),
    reshape main_v129 main_v130 rfl shapeCasts_S128x508x1_S128x508,
    binary main_v128 main_v130 main_v131 (addf : (⟨S128x508, .f32⟩ : BufTy).Contents (Elt F) → (⟨S128x508, .f32⟩ : BufTy).Contents (Elt F) → (⟨S128x508, .f32⟩ : BufTy).Contents (Elt F)),
    unary main_v124 main_v132 ((extractStridedSlice S128x508x1 ![0, 2, 2] · slices_S128x512x5_S128x508x1_0_2_2) : (⟨S128x512x5, .f32⟩ : BufTy).Contents (Elt F) → (⟨S128x508x1, .f32⟩ : BufTy).Contents (Elt F)),
    reshape main_v132 main_v133 rfl shapeCasts_S128x508x1_S128x508,
    binary main_v131 main_v133 main_v134 (addf : (⟨S128x508, .f32⟩ : BufTy).Contents (Elt F) → (⟨S128x508, .f32⟩ : BufTy).Contents (Elt F) → (⟨S128x508, .f32⟩ : BufTy).Contents (Elt F)),
    unary main_v124 main_v135 ((extractStridedSlice S128x508x1 ![0, 3, 3] · slices_S128x512x5_S128x508x1_0_3_3) : (⟨S128x512x5, .f32⟩ : BufTy).Contents (Elt F) → (⟨S128x508x1, .f32⟩ : BufTy).Contents (Elt F)),
    reshape main_v135 main_v136 rfl shapeCasts_S128x508x1_S128x508,
    binary main_v134 main_v136 main_v137 (addf : (⟨S128x508, .f32⟩ : BufTy).Contents (Elt F) → (⟨S128x508, .f32⟩ : BufTy).Contents (Elt F) → (⟨S128x508, .f32⟩ : BufTy).Contents (Elt F)),
    unary main_v124 main_v138 ((extractStridedSlice S128x508x1 ![0, 4, 4] · slices_S128x512x5_S128x508x1_0_4_4) : (⟨S128x512x5, .f32⟩ : BufTy).Contents (Elt F) → (⟨S128x508x1, .f32⟩ : BufTy).Contents (Elt F)),
    reshape main_v138 main_v139 rfl shapeCasts_S128x508x1_S128x508,
    binary main_v137 main_v139 main_v140 (addf : (⟨S128x508, .f32⟩ : BufTy).Contents (Elt F) → (⟨S128x508, .f32⟩ : BufTy).Contents (Elt F) → (⟨S128x508, .f32⟩ : BufTy).Contents (Elt F)),
    unary main_arg3 main_v141 ((extractStridedSlice S1 ![6] · slices_S64_S1_6) : (⟨S64, .f32⟩ : BufTy).Contents (Elt F) → (⟨S1, .f32⟩ : BufTy).Contents (Elt F)),
    reshape main_v141 main_v142 rfl shapeCasts_S1_S_,
    unary main_v142 main_v143 (broadcastInDim S128x508 ![] bcast_S_S128x508 : (⟨S_, .f32⟩ : BufTy).Contents (Elt F) → (⟨S128x508, .f32⟩ : BufTy).Contents (Elt F)),
    binary main_v140 main_v143 main_v144 (addf : (⟨S128x508, .f32⟩ : BufTy).Contents (Elt F) → (⟨S128x508, .f32⟩ : BufTy).Contents (Elt F) → (⟨S128x508, .f32⟩ : BufTy).Contents (Elt F)),
    unary main_v144 main_v145 (Host.tanh : (⟨S128x508, .f32⟩ : BufTy).Contents (Elt F) → (⟨S128x508, .f32⟩ : BufTy).Contents (Elt F)),
    nullary main_cst_13 (constant S_ .f32 0xFF800000#32),
    binary main_v145 main_cst_13 main_v146 ((fun x v => Host.reduce FloatOps.maximumf x v reducesTo_S128x508_S128_d1 h_S_) : (⟨S128x508, .f32⟩ : BufTy).Contents (Elt F) → (⟨S_, .f32⟩ : BufTy).Contents (Elt F) → (⟨S128, .f32⟩ : BufTy).Contents (Elt F)) ]

/-- Segment 10: 17 operations. -/
def seg10 : List (HloOp τ sig (Elt F)) :=
  [ unary main_arg2 main_v147 ((extractStridedSlice S1x5x300 ![7, 0, 0] · slices_S64x33x300_S1x5x300_7_0_0) : (⟨S64x33x300, .f32⟩ : BufTy).Contents (Elt F) → (⟨S1x5x300, .f32⟩ : BufTy).Contents (Elt F)),
    reshape main_v147 main_v148 rfl shapeCasts_S1x5x300_S5x300,
    binary main_v7 main_v148 main_v149 ((fun l r => Host.dotGeneral dot_S128x512x300_S5x300_S128x512x5_2_1_01_0_n_n none l r) : (⟨S128x512x300, .f32⟩ : BufTy).Contents (Elt F) → (⟨S5x300, .f32⟩ : BufTy).Contents (Elt F) → (⟨S128x512x5, .f32⟩ : BufTy).Contents (Elt F)),
    unary main_v149 main_v150 ((extractStridedSlice S128x508x1 ![0, 0, 0] · slices_S128x512x5_S128x508x1_0_0_0) : (⟨S128x512x5, .f32⟩ : BufTy).Contents (Elt F) → (⟨S128x508x1, .f32⟩ : BufTy).Contents (Elt F)),
    reshape main_v150 main_v151 rfl shapeCasts_S128x508x1_S128x508,
    nullary main_cst_14 (constant S_ .f32 0x00000000#32),
    unary main_cst_14 main_v152 (broadcastInDim S128x508 ![] bcast_S_S128x508 : (⟨S_, .f32⟩ : BufTy).Contents (Elt F) → (⟨S128x508, .f32⟩ : BufTy).Contents (Elt F)),
    binary main_v152 main_v151 main_v153 (addf : (⟨S128x508, .f32⟩ : BufTy).Contents (Elt F) → (⟨S128x508, .f32⟩ : BufTy).Contents (Elt F) → (⟨S128x508, .f32⟩ : BufTy).Contents (Elt F)),
    unary main_v149 main_v154 ((extractStridedSlice S128x508x1 ![0, 1, 1] · slices_S128x512x5_S128x508x1_0_1_1) : (⟨S128x512x5, .f32⟩ : BufTy).Contents (Elt F) → (⟨S128x508x1, .f32⟩ : BufTy).Contents (Elt F)),
    reshape main_v154 main_v155 rfl shapeCasts_S128x508x1_S128x508,
    binary main_v153 main_v155 main_v156 (addf : (⟨S128x508, .f32⟩ : BufTy).Contents (Elt F) → (⟨S128x508, .f32⟩ : BufTy).Contents (Elt F) → (⟨S128x508, .f32⟩ : BufTy).Contents (Elt F)),
    unary main_v149 main_v157 ((extractStridedSlice S128x508x1 ![0, 2, 2] · slices_S128x512x5_S128x508x1_0_2_2) : (⟨S128x512x5, .f32⟩ : BufTy).Contents (Elt F) → (⟨S128x508x1, .f32⟩ : BufTy).Contents (Elt F)),
    reshape main_v157 main_v158 rfl shapeCasts_S128x508x1_S128x508,
    binary main_v156 main_v158 main_v159 (addf : (⟨S128x508, .f32⟩ : BufTy).Contents (Elt F) → (⟨S128x508, .f32⟩ : BufTy).Contents (Elt F) → (⟨S128x508, .f32⟩ : BufTy).Contents (Elt F)),
    unary main_v149 main_v160 ((extractStridedSlice S128x508x1 ![0, 3, 3] · slices_S128x512x5_S128x508x1_0_3_3) : (⟨S128x512x5, .f32⟩ : BufTy).Contents (Elt F) → (⟨S128x508x1, .f32⟩ : BufTy).Contents (Elt F)),
    reshape main_v160 main_v161 rfl shapeCasts_S128x508x1_S128x508,
    binary main_v159 main_v161 main_v162 (addf : (⟨S128x508, .f32⟩ : BufTy).Contents (Elt F) → (⟨S128x508, .f32⟩ : BufTy).Contents (Elt F) → (⟨S128x508, .f32⟩ : BufTy).Contents (Elt F)) ]

/-- Segment 11: 10 operations. -/
def seg11 : List (HloOp τ sig (Elt F)) :=
  [ unary main_v149 main_v163 ((extractStridedSlice S128x508x1 ![0, 4, 4] · slices_S128x512x5_S128x508x1_0_4_4) : (⟨S128x512x5, .f32⟩ : BufTy).Contents (Elt F) → (⟨S128x508x1, .f32⟩ : BufTy).Contents (Elt F)),
    reshape main_v163 main_v164 rfl shapeCasts_S128x508x1_S128x508,
    binary main_v162 main_v164 main_v165 (addf : (⟨S128x508, .f32⟩ : BufTy).Contents (Elt F) → (⟨S128x508, .f32⟩ : BufTy).Contents (Elt F) → (⟨S128x508, .f32⟩ : BufTy).Contents (Elt F)),
    unary main_arg3 main_v166 ((extractStridedSlice S1 ![7] · slices_S64_S1_7) : (⟨S64, .f32⟩ : BufTy).Contents (Elt F) → (⟨S1, .f32⟩ : BufTy).Contents (Elt F)),
    reshape main_v166 main_v167 rfl shapeCasts_S1_S_,
    unary main_v167 main_v168 (broadcastInDim S128x508 ![] bcast_S_S128x508 : (⟨S_, .f32⟩ : BufTy).Contents (Elt F) → (⟨S128x508, .f32⟩ : BufTy).Contents (Elt F)),
    binary main_v165 main_v168 main_v169 (addf : (⟨S128x508, .f32⟩ : BufTy).Contents (Elt F) → (⟨S128x508, .f32⟩ : BufTy).Contents (Elt F) → (⟨S128x508, .f32⟩ : BufTy).Contents (Elt F)),
    unary main_v169 main_v170 (Host.tanh : (⟨S128x508, .f32⟩ : BufTy).Contents (Elt F) → (⟨S128x508, .f32⟩ : BufTy).Contents (Elt F)),
    nullary main_cst_15 (constant S_ .f32 0xFF800000#32),
    binary main_v170 main_cst_15 main_v171 ((fun x v => Host.reduce FloatOps.maximumf x v reducesTo_S128x508_S128_d1 h_S_) : (⟨S128x508, .f32⟩ : BufTy).Contents (Elt F) → (⟨S_, .f32⟩ : BufTy).Contents (Elt F) → (⟨S128, .f32⟩ : BufTy).Contents (Elt F)) ]

/-- Segment 12: 30 operations. -/
def seg12 : List (HloOp τ sig (Elt F)) :=
  [ unary main_arg2 main_v172 ((extractStridedSlice S1x6x300 ![8, 0, 0] · slices_S64x33x300_S1x6x300_8_0_0) : (⟨S64x33x300, .f32⟩ : BufTy).Contents (Elt F) → (⟨S1x6x300, .f32⟩ : BufTy).Contents (Elt F)),
    reshape main_v172 main_v173 rfl shapeCasts_S1x6x300_S6x300,
    binary main_v7 main_v173 main_v174 ((fun l r => Host.dotGeneral dot_S128x512x300_S6x300_S128x512x6_2_1_01_0_n_n none l r) : (⟨S128x512x300, .f32⟩ : BufTy).Contents (Elt F) → (⟨S6x300, .f32⟩ : BufTy).Contents (Elt F) → (⟨S128x512x6, .f32⟩ : BufTy).Contents (Elt F)),
    unary main_v174 main_v175 ((extractStridedSlice S128x507x1 ![0, 0, 0] · slices_S128x512x6_S128x507x1_0_0_0) : (⟨S128x512x6, .f32⟩ : BufTy).Contents (Elt F) → (⟨S128x507x1, .f32⟩ : BufTy).Contents (Elt F)),
    reshape main_v175 main_v176 rfl shapeCasts_S128x507x1_S128x507,
    nullary main_cst_16 (constant S_ .f32 0x00000000#32),
    unary main_cst_16 main_v177 (broadcastInDim S128x507 ![] bcast_S_S128x507 : (⟨S_, .f32⟩ : BufTy).Contents (Elt F) → (⟨S128x507, .f32⟩ : BufTy).Contents (Elt F)),
    binary main_v177 main_v176 main_v178 (addf : (⟨S128x507, .f32⟩ : BufTy).Contents (Elt F) → (⟨S128x507, .f32⟩ : BufTy).Contents (Elt F) → (⟨S128x507, .f32⟩ : BufTy).Contents (Elt F)),
    unary main_v174 main_v179 ((extractStridedSlice S128x507x1 ![0, 1, 1] · slices_S128x512x6_S128x507x1_0_1_1) : (⟨S128x512x6, .f32⟩ : BufTy).Contents (Elt F) → (⟨S128x507x1, .f32⟩ : BufTy).Contents (Elt F)),
    reshape main_v179 main_v180 rfl shapeCasts_S128x507x1_S128x507,
    binary main_v178 main_v180 main_v181 (addf : (⟨S128x507, .f32⟩ : BufTy).Contents (Elt F) → (⟨S128x507, .f32⟩ : BufTy).Contents (Elt F) → (⟨S128x507, .f32⟩ : BufTy).Contents (Elt F)),
    unary main_v174 main_v182 ((extractStridedSlice S128x507x1 ![0, 2, 2] · slices_S128x512x6_S128x507x1_0_2_2) : (⟨S128x512x6, .f32⟩ : BufTy).Contents (Elt F) → (⟨S128x507x1, .f32⟩ : BufTy).Contents (Elt F)),
    reshape main_v182 main_v183 rfl shapeCasts_S128x507x1_S128x507,
    binary main_v181 main_v183 main_v184 (addf : (⟨S128x507, .f32⟩ : BufTy).Contents (Elt F) → (⟨S128x507, .f32⟩ : BufTy).Contents (Elt F) → (⟨S128x507, .f32⟩ : BufTy).Contents (Elt F)),
    unary main_v174 main_v185 ((extractStridedSlice S128x507x1 ![0, 3, 3] · slices_S128x512x6_S128x507x1_0_3_3) : (⟨S128x512x6, .f32⟩ : BufTy).Contents (Elt F) → (⟨S128x507x1, .f32⟩ : BufTy).Contents (Elt F)),
    reshape main_v185 main_v186 rfl shapeCasts_S128x507x1_S128x507,
    binary main_v184 main_v186 main_v187 (addf : (⟨S128x507, .f32⟩ : BufTy).Contents (Elt F) → (⟨S128x507, .f32⟩ : BufTy).Contents (Elt F) → (⟨S128x507, .f32⟩ : BufTy).Contents (Elt F)),
    unary main_v174 main_v188 ((extractStridedSlice S128x507x1 ![0, 4, 4] · slices_S128x512x6_S128x507x1_0_4_4) : (⟨S128x512x6, .f32⟩ : BufTy).Contents (Elt F) → (⟨S128x507x1, .f32⟩ : BufTy).Contents (Elt F)),
    reshape main_v188 main_v189 rfl shapeCasts_S128x507x1_S128x507,
    binary main_v187 main_v189 main_v190 (addf : (⟨S128x507, .f32⟩ : BufTy).Contents (Elt F) → (⟨S128x507, .f32⟩ : BufTy).Contents (Elt F) → (⟨S128x507, .f32⟩ : BufTy).Contents (Elt F)),
    unary main_v174 main_v191 ((extractStridedSlice S128x507x1 ![0, 5, 5] · slices_S128x512x6_S128x507x1_0_5_5) : (⟨S128x512x6, .f32⟩ : BufTy).Contents (Elt F) → (⟨S128x507x1, .f32⟩ : BufTy).Contents (Elt F)),
    reshape main_v191 main_v192 rfl shapeCasts_S128x507x1_S128x507,
    binary main_v190 main_v192 main_v193 (addf : (⟨S128x507, .f32⟩ : BufTy).Contents (Elt F) → (⟨S128x507, .f32⟩ : BufTy).Contents (Elt F) → (⟨S128x507, .f32⟩ : BufTy).Contents (Elt F)),
    unary main_arg3 main_v194 ((extractStridedSlice S1 ![8] · slices_S64_S1_8) : (⟨S64, .f32⟩ : BufTy).Contents (Elt F) → (⟨S1, .f32⟩ : BufTy).Contents (Elt F)),
    reshape main_v194 main_v195 rfl shapeCasts_S1_S_,
    unary main_v195 main_v196 (broadcastInDim S128x507 ![] bcast_S_S128x507 : (⟨S_, .f32⟩ : BufTy).Contents (Elt F) → (⟨S128x507, .f32⟩ : BufTy).Contents (Elt F)),
    binary main_v193 main_v196 main_v197 (addf : (⟨S128x507, .f32⟩ : BufTy).Contents (Elt F) → (⟨S128x507, .f32⟩ : BufTy).Contents (Elt F) → (⟨S128x507, .f32⟩ : BufTy).Contents (Elt F)),
    unary main_v197 main_v198 (Host.tanh : (⟨S128x507, .f32⟩ : BufTy).Contents (Elt F) → (⟨S128x507, .f32⟩ : BufTy).Contents (Elt F)),
    nullary main_cst_17 (constant S_ .f32 0xFF800000#32),
    binary main_v198 main_cst_17 main_v199 ((fun x v => Host.reduce FloatOps.maximumf x v reducesTo_S128x507_S128_d1 h_S_) : (⟨S128x507, .f32⟩ : BufTy).Contents (Elt F) → (⟨S_, .f32⟩ : BufTy).Contents (Elt F) → (⟨S128, .f32⟩ : BufTy).Contents (Elt F)) ]

/-- Segment 13: 20 operations. -/
def seg13 : List (HloOp τ sig (Elt F)) :=
  [ unary main_arg2 main_v200 ((extractStridedSlice S1x6x300 ![9, 0, 0] · slices_S64x33x300_S1x6x300_9_0_0) : (⟨S64x33x300, .f32⟩ : BufTy).Contents (Elt F) → (⟨S1x6x300, .f32⟩ : BufTy).Contents (Elt F)),
    reshape main_v200 main_v201 rfl shapeCasts_S1x6x300_S6x300,
    binary main_v7 main_v201 main_v202 ((fun l r => Host.dotGeneral dot_S128x512x300_S6x300_S128x512x6_2_1_01_0_n_n none l r) : (⟨S128x512x300, .f32⟩ : BufTy).Contents (Elt F) → (⟨S6x300, .f32⟩ : BufTy).Contents (Elt F) → (⟨S128x512x6, .f32⟩ : BufTy).Contents (Elt F)),
    unary main_v202 main_v203 ((extractStridedSlice S128x507x1 ![0, 0, 0] · slices_S128x512x6_S128x507x1_0_0_0) : (⟨S128x512x6, .f32⟩ : BufTy).Contents (Elt F) → (⟨S128x507x1, .f32⟩ : BufTy).Contents (Elt F)),
    reshape main_v203 main_v204 rfl shapeCasts_S128x507x1_S128x507,
    nullary main_cst_18 (constant S_ .f32 0x00000000#32),
    unary main_cst_18 main_v205 (broadcastInDim S128x507 ![] bcast_S_S128x507 : (⟨S_, .f32⟩ : BufTy).Contents (Elt F) → (⟨S128x507, .f32⟩ : BufTy).Contents (Elt F)),
    binary main_v205 main_v204 main_v206 (addf : (⟨S128x507, .f32⟩ : BufTy).Contents (Elt F) → (⟨S128x507, .f32⟩ : BufTy).Contents (Elt F) → (⟨S128x507, .f32⟩ : BufTy).Contents (Elt F)),
    unary main_v202 main_v207 ((extractStridedSlice S128x507x1 ![0, 1, 1] · slices_S128x512x6_S128x507x1_0_1_1) : (⟨S128x512x6, .f32⟩ : BufTy).Contents (Elt F) → (⟨S128x507x1, .f32⟩ : BufTy).Contents (Elt F)),
    reshape main_v207 main_v208 rfl shapeCasts_S128x507x1_S128x507,
    binary main_v206 main_v208 main_v209 (addf : (⟨S128x507, .f32⟩ : BufTy).Contents (Elt F) → (⟨S128x507, .f32⟩ : BufTy).Contents (Elt F) → (⟨S128x507, .f32⟩ : BufTy).Contents (Elt F)),
    unary main_v202 main_v210 ((extractStridedSlice S128x507x1 ![0, 2, 2] · slices_S128x512x6_S128x507x1_0_2_2) : (⟨S128x512x6, .f32⟩ : BufTy).Contents (Elt F) → (⟨S128x507x1, .f32⟩ : BufTy).Contents (Elt F)),
    reshape main_v210 main_v211 rfl shapeCasts_S128x507x1_S128x507,
    binary main_v209 main_v211 main_v212 (addf : (⟨S128x507, .f32⟩ : BufTy).Contents (Elt F) → (⟨S128x507, .f32⟩ : BufTy).Contents (Elt F) → (⟨S128x507, .f32⟩ : BufTy).Contents (Elt F)),
    unary main_v202 main_v213 ((extractStridedSlice S128x507x1 ![0, 3, 3] · slices_S128x512x6_S128x507x1_0_3_3) : (⟨S128x512x6, .f32⟩ : BufTy).Contents (Elt F) → (⟨S128x507x1, .f32⟩ : BufTy).Contents (Elt F)),
    reshape main_v213 main_v214 rfl shapeCasts_S128x507x1_S128x507,
    binary main_v212 main_v214 main_v215 (addf : (⟨S128x507, .f32⟩ : BufTy).Contents (Elt F) → (⟨S128x507, .f32⟩ : BufTy).Contents (Elt F) → (⟨S128x507, .f32⟩ : BufTy).Contents (Elt F)),
    unary main_v202 main_v216 ((extractStridedSlice S128x507x1 ![0, 4, 4] · slices_S128x512x6_S128x507x1_0_4_4) : (⟨S128x512x6, .f32⟩ : BufTy).Contents (Elt F) → (⟨S128x507x1, .f32⟩ : BufTy).Contents (Elt F)),
    reshape main_v216 main_v217 rfl shapeCasts_S128x507x1_S128x507,
    binary main_v215 main_v217 main_v218 (addf : (⟨S128x507, .f32⟩ : BufTy).Contents (Elt F) → (⟨S128x507, .f32⟩ : BufTy).Contents (Elt F) → (⟨S128x507, .f32⟩ : BufTy).Contents (Elt F)) ]

/-- Segment 14: 10 operations. -/
def seg14 : List (HloOp τ sig (Elt F)) :=
  [ unary main_v202 main_v219 ((extractStridedSlice S128x507x1 ![0, 5, 5] · slices_S128x512x6_S128x507x1_0_5_5) : (⟨S128x512x6, .f32⟩ : BufTy).Contents (Elt F) → (⟨S128x507x1, .f32⟩ : BufTy).Contents (Elt F)),
    reshape main_v219 main_v220 rfl shapeCasts_S128x507x1_S128x507,
    binary main_v218 main_v220 main_v221 (addf : (⟨S128x507, .f32⟩ : BufTy).Contents (Elt F) → (⟨S128x507, .f32⟩ : BufTy).Contents (Elt F) → (⟨S128x507, .f32⟩ : BufTy).Contents (Elt F)),
    unary main_arg3 main_v222 ((extractStridedSlice S1 ![9] · slices_S64_S1_9) : (⟨S64, .f32⟩ : BufTy).Contents (Elt F) → (⟨S1, .f32⟩ : BufTy).Contents (Elt F)),
    reshape main_v222 main_v223 rfl shapeCasts_S1_S_,
    unary main_v223 main_v224 (broadcastInDim S128x507 ![] bcast_S_S128x507 : (⟨S_, .f32⟩ : BufTy).Contents (Elt F) → (⟨S128x507, .f32⟩ : BufTy).Contents (Elt F)),
    binary main_v221 main_v224 main_v225 (addf : (⟨S128x507, .f32⟩ : BufTy).Contents (Elt F) → (⟨S128x507, .f32⟩ : BufTy).Contents (Elt F) → (⟨S128x507, .f32⟩ : BufTy).Contents (Elt F)),
    unary main_v225 main_v226 (Host.tanh : (⟨S128x507, .f32⟩ : BufTy).Contents (Elt F) → (⟨S128x507, .f32⟩ : BufTy).Contents (Elt F)),
    nullary main_cst_19 (constant S_ .f32 0xFF800000#32),
    binary main_v226 main_cst_19 main_v227 ((fun x v => Host.reduce FloatOps.maximumf x v reducesTo_S128x507_S128_d1 h_S_) : (⟨S128x507, .f32⟩ : BufTy).Contents (Elt F) → (⟨S_, .f32⟩ : BufTy).Contents (Elt F) → (⟨S128, .f32⟩ : BufTy).Contents (Elt F)) ]

/-- Segment 15: 33 operations. -/
def seg15 : List (HloOp τ sig (Elt F)) :=
  [ unary main_arg2 main_v228 ((extractStridedSlice S1x7x300 ![10, 0, 0] · slices_S64x33x300_S1x7x300_10_0_0) : (⟨S64x33x300, .f32⟩ : BufTy).Contents (Elt F) → (⟨S1x7x300, .f32⟩ : BufTy).Contents (Elt F)),
    reshape main_v228 main_v229 rfl shapeCasts_S1x7x300_S7x300,
    binary main_v7 main_v229 main_v230 ((fun l r => Host.dotGeneral dot_S128x512x300_S7x300_S128x512x7_2_1_01_0_n_n none l r) : (⟨S128x512x300, .f32⟩ : BufTy).Contents (Elt F) → (⟨S7x300, .f32⟩ : BufTy).Contents (Elt F) → (⟨S128x512x7, .f32⟩ : BufTy).Contents (Elt F)),
    unary main_v230 main_v231 ((extractStridedSlice S128x506x1 ![0, 0, 0] · slices_S128x512x7_S128x506x1_0_0_0) : (⟨S128x512x7, .f32⟩ : BufTy).Contents (Elt F) → (⟨S128x506x1, .f32⟩ : BufTy).Contents (Elt F)),
    reshape main_v231 main_v232 rfl shapeCasts_S128x506x1_S128x506,
    nullary main_cst_20 (constant S_ .f32 0x00000000#32),
    unary main_cst_20 main_v233 (broadcastInDim S128x506 ![] bcast_S_S128x506 : (⟨S_, .f32⟩ : BufTy).Contents (Elt F) → (⟨S128x506, .f32⟩ : BufTy).Contents (Elt F)),
    binary main_v233 main_v232 main_v234 (addf : (⟨S128x506, .f32⟩ : BufTy).Contents (Elt F) → (⟨S128x506, .f32⟩ : BufTy).Contents (Elt F) → (⟨S128x506, .f32⟩ : BufTy).Contents (Elt F)),
    unary main_v230 main_v235 ((extractStridedSlice S128x506x1 ![0, 1, 1] · slices_S128x512x7_S128x506x1_0_1_1) : (⟨S128x512x7, .f32⟩ : BufTy).Contents (Elt F) → (⟨S128x506x1, .f32⟩ : BufTy).Contents (Elt F)),
    reshape main_v235 main_v236 rfl shapeCasts_S128x506x1_S128x506,
    binary main_v234 main_v236 main_v237 (addf : (⟨S128x506, .f32⟩ : BufTy).Contents (Elt F) → (⟨S128x506, .f32⟩ : BufTy).Contents (Elt F) → (⟨S128x506, .f32⟩ : BufTy).Contents (Elt F)),
    unary main_v230 main_v238 ((extractStridedSlice S128x506x1 ![0, 2, 2] · slices_S128x512x7_S128x506x1_0_2_2) : (⟨S128x512x7, .f32⟩ : BufTy).Contents (Elt F) → (⟨S128x506x1, .f32⟩ : BufTy).Contents (Elt F)),
    reshape main_v238 main_v239 rfl shapeCasts_S128x506x1_S128x506,
    binary main_v237 main_v239 main_v240 (addf : (⟨S128x506, .f32⟩ : BufTy).Contents (Elt F) → (⟨S128x506, .f32⟩ : BufTy).Contents (Elt F) → (⟨S128x506, .f32⟩ : BufTy).Contents (Elt F)),
    unary main_v230 main_v241 ((extractStridedSlice S128x506x1 ![0, 3, 3] · slices_S128x512x7_S128x506x1_0_3_3) : (⟨S128x512x7, .f32⟩ : BufTy).Contents (Elt F) → (⟨S128x506x1, .f32⟩ : BufTy).Contents (Elt F)),
    reshape main_v241 main_v242 rfl shapeCasts_S128x506x1_S128x506,
    binary main_v240 main_v242 main_v243 (addf : (⟨S128x506, .f32⟩ : BufTy).Contents (Elt F) → (⟨S128x506, .f32⟩ : BufTy).Contents (Elt F) → (⟨S128x506, .f32⟩ : BufTy).Contents (Elt F)),
    unary main_v230 main_v244 ((extractStridedSlice S128x506x1 ![0, 4, 4] · slices_S128x512x7_S128x506x1_0_4_4) : (⟨S128x512x7, .f32⟩ : BufTy).Contents (Elt F) → (⟨S128x506x1, .f32⟩ : BufTy).Contents (Elt F)),
    reshape main_v244 main_v245 rfl shapeCasts_S128x506x1_S128x506,
    binary main_v243 main_v245 main_v246 (addf : (⟨S128x506, .f32⟩ : BufTy).Contents (Elt F) → (⟨S128x506, .f32⟩ : BufTy).Contents (Elt F) → (⟨S128x506, .f32⟩ : BufTy).Contents (Elt F)),
    unary main_v230 main_v247 ((extractStridedSlice S128x506x1 ![0, 5, 5] · slices_S128x512x7_S128x506x1_0_5_5) : (⟨S128x512x7, .f32⟩ : BufTy).Contents (Elt F) → (⟨S128x506x1, .f32⟩ : BufTy).Contents (Elt F)),
    reshape main_v247 main_v248 rfl shapeCasts_S128x506x1_S128x506,
    binary main_v246 main_v248 main_v249 (addf : (⟨S128x506, .f32⟩ : BufTy).Contents (Elt F) → (⟨S128x506, .f32⟩ : BufTy).Contents (Elt F) → (⟨S128x506, .f32⟩ : BufTy).Contents (Elt F)),
    unary main_v230 main_v250 ((extractStridedSlice S128x506x1 ![0, 6, 6] · slices_S128x512x7_S128x506x1_0_6_6) : (⟨S128x512x7, .f32⟩ : BufTy).Contents (Elt F) → (⟨S128x506x1, .f32⟩ : BufTy).Contents (Elt F)),
    reshape main_v250 main_v251 rfl shapeCasts_S128x506x1_S128x506,
    binary main_v249 main_v251 main_v252 (addf : (⟨S128x506, .f32⟩ : BufTy).Contents (Elt F) → (⟨S128x506, .f32⟩ : BufTy).Contents (Elt F) → (⟨S128x506, .f32⟩ : BufTy).Contents (Elt F)),
    unary main_arg3 main_v253 ((extractStridedSlice S1 ![10] · slices_S64_S1_10) : (⟨S64, .f32⟩ : BufTy).Contents (Elt F) → (⟨S1, .f32⟩ : BufTy).Contents (Elt F)),
    reshape main_v253 main_v254 rfl shapeCasts_S1_S_,
    unary main_v254 main_v255 (broadcastInDim S128x506 ![] bcast_S_S128x506 : (⟨S_, .f32⟩ : BufTy).Contents (Elt F) → (⟨S128x506, .f32⟩ : BufTy).Contents (Elt F)),
    binary main_v252 main_v255 main_v256 (addf : (⟨S128x506, .f32⟩ : BufTy).Contents (Elt F) → (⟨S128x506, .f32⟩ : BufTy).Contents (Elt F) → (⟨S128x506, .f32⟩ : BufTy).Contents (Elt F)),
    unary main_v256 main_v257 (Host.tanh : (⟨S128x506, .f32⟩ : BufTy).Contents (Elt F) → (⟨S128x506, .f32⟩ : BufTy).Contents (Elt F)),
    nullary main_cst_21 (constant S_ .f32 0xFF800000#32),
    binary main_v257 main_cst_21 main_v258 ((fun x v => Host.reduce FloatOps.maximumf x v reducesTo_S128x506_S128_d1 h_S_) : (⟨S128x506, .f32⟩ : BufTy).Contents (Elt F) → (⟨S_, .f32⟩ : BufTy).Contents (Elt F) → (⟨S128, .f32⟩ : BufTy).Contents (Elt F)) ]

/-- Segment 16: 17 operations. -/
def seg16 : List (HloOp τ sig (Elt F)) :=
  [ unary main_arg2 main_v259 ((extractStridedSlice S1x7x300 ![11, 0, 0] · slices_S64x33x300_S1x7x300_11_0_0) : (⟨S64x33x300, .f32⟩ : BufTy).Contents (Elt F) → (⟨S1x7x300, .f32⟩ : BufTy).Contents (Elt F)),
    reshape main_v259 main_v260 rfl shapeCasts_S1x7x300_S7x300,
    binary main_v7 main_v260 main_v261 ((fun l r => Host.dotGeneral dot_S128x512x300_S7x300_S128x512x7_2_1_01_0_n_n none l r) : (⟨S128x512x300, .f32⟩ : BufTy).Contents (Elt F) → (⟨S7x300, .f32⟩ : BufTy).Contents (Elt F) → (⟨S128x512x7, .f32⟩ : BufTy).Contents (Elt F)),
    unary main_v261 main_v262 ((extractStridedSlice S128x506x1 ![0, 0, 0] · slices_S128x512x7_S128x506x1_0_0_0) : (⟨S128x512x7, .f32⟩ : BufTy).Contents (Elt F) → (⟨S128x506x1, .f32⟩ : BufTy).Contents (Elt F)),
    reshape main_v262 main_v263 rfl shapeCasts_S128x506x1_S128x506,
    nullary main_cst_22 (constant S_ .f32 0x00000000#32),
    unary main_cst_22 main_v264 (broadcastInDim S128x506 ![] bcast_S_S128x506 : (⟨S_, .f32⟩ : BufTy).Contents (Elt F) → (⟨S128x506, .f32⟩ : BufTy).Contents (Elt F)),
    binary main_v264 main_v263 main_v265 (addf : (⟨S128x506, .f32⟩ : BufTy).Contents (Elt F) → (⟨S128x506, .f32⟩ : BufTy).Contents (Elt F) → (⟨S128x506, .f32⟩ : BufTy).Contents (Elt F)),
    unary main_v261 main_v266 ((extractStridedSlice S128x506x1 ![0, 1, 1] · slices_S128x512x7_S128x506x1_0_1_1) : (⟨S128x512x7, .f32⟩ : BufTy).Contents (Elt F) → (⟨S128x506x1, .f32⟩ : BufTy).Contents (Elt F)),
    reshape main_v266 main_v267 rfl shapeCasts_S128x506x1_S128x506,
    binary main_v265 main_v267 main_v268 (addf : (⟨S128x506, .f32⟩ : BufTy).Contents (Elt F) → (⟨S128x506, .f32⟩ : BufTy).Contents (Elt F) → (⟨S128x506, .f32⟩ : BufTy).Contents (Elt F)),
    unary main_v261 main_v269 ((extractStridedSlice S128x506x1 ![0, 2, 2] · slices_S128x512x7_S128x506x1_0_2_2) : (⟨S128x512x7, .f32⟩ : BufTy).Contents (Elt F) → (⟨S128x506x1, .f32⟩ : BufTy).Contents (Elt F)),
    reshape main_v269 main_v270 rfl shapeCasts_S128x506x1_S128x506,
    binary main_v268 main_v270 main_v271 (addf : (⟨S128x506, .f32⟩ : BufTy).Contents (Elt F) → (⟨S128x506, .f32⟩ : BufTy).Contents (Elt F) → (⟨S128x506, .f32⟩ : BufTy).Contents (Elt F)),
    unary main_v261 main_v272 ((extractStridedSlice S128x506x1 ![0, 3, 3] · slices_S128x512x7_S128x506x1_0_3_3) : (⟨S128x512x7, .f32⟩ : BufTy).Contents (Elt F) → (⟨S128x506x1, .f32⟩ : BufTy).Contents (Elt F)),
    reshape main_v272 main_v273 rfl shapeCasts_S128x506x1_S128x506,
    binary main_v271 main_v273 main_v274 (addf : (⟨S128x506, .f32⟩ : BufTy).Contents (Elt F) → (⟨S128x506, .f32⟩ : BufTy).Contents (Elt F) → (⟨S128x506, .f32⟩ : BufTy).Contents (Elt F)) ]

/-- Segment 17: 16 operations. -/
def seg17 : List (HloOp τ sig (Elt F)) :=
  [ unary main_v261 main_v275 ((extractStridedSlice S128x506x1 ![0, 4, 4] · slices_S128x512x7_S128x506x1_0_4_4) : (⟨S128x512x7, .f32⟩ : BufTy).Contents (Elt F) → (⟨S128x506x1, .f32⟩ : BufTy).Contents (Elt F)),
    reshape main_v275 main_v276 rfl shapeCasts_S128x506x1_S128x506,
    binary main_v274 main_v276 main_v277 (addf : (⟨S128x506, .f32⟩ : BufTy).Contents (Elt F) → (⟨S128x506, .f32⟩ : BufTy).Contents (Elt F) → (⟨S128x506, .f32⟩ : BufTy).Contents (Elt F)),
    unary main_v261 main_v278 ((extractStridedSlice S128x506x1 ![0, 5, 5] · slices_S128x512x7_S128x506x1_0_5_5) : (⟨S128x512x7, .f32⟩ : BufTy).Contents (Elt F) → (⟨S128x506x1, .f32⟩ : BufTy).Contents (Elt F)),
    reshape main_v278 main_v279 rfl shapeCasts_S128x506x1_S128x506,
    binary main_v277 main_v279 main_v280 (addf : (⟨S128x506, .f32⟩ : BufTy).Contents (Elt F) → (⟨S128x506, .f32⟩ : BufTy).Contents (Elt F) → (⟨S128x506, .f32⟩ : BufTy).Contents (Elt F)),
    unary main_v261 main_v281 ((extractStridedSlice S128x506x1 ![0, 6, 6] · slices_S128x512x7_S128x506x1_0_6_6) : (⟨S128x512x7, .f32⟩ : BufTy).Contents (Elt F) → (⟨S128x506x1, .f32⟩ : BufTy).Contents (Elt F)),
    reshape main_v281 main_v282 rfl shapeCasts_S128x506x1_S128x506,
    binary main_v280 main_v282 main_v283 (addf : (⟨S128x506, .f32⟩ : BufTy).Contents (Elt F) → (⟨S128x506, .f32⟩ : BufTy).Contents (Elt F) → (⟨S128x506, .f32⟩ : BufTy).Contents (Elt F)),
    unary main_arg3 main_v284 ((extractStridedSlice S1 ![11] · slices_S64_S1_11) : (⟨S64, .f32⟩ : BufTy).Contents (Elt F) → (⟨S1, .f32⟩ : BufTy).Contents (Elt F)),
    reshape main_v284 main_v285 rfl shapeCasts_S1_S_,
    unary main_v285 main_v286 (broadcastInDim S128x506 ![] bcast_S_S128x506 : (⟨S_, .f32⟩ : BufTy).Contents (Elt F) → (⟨S128x506, .f32⟩ : BufTy).Contents (Elt F)),
    binary main_v283 main_v286 main_v287 (addf : (⟨S128x506, .f32⟩ : BufTy).Contents (Elt F) → (⟨S128x506, .f32⟩ : BufTy).Contents (Elt F) → (⟨S128x506, .f32⟩ : BufTy).Contents (Elt F)),
    unary main_v287 main_v288 (Host.tanh : (⟨S128x506, .f32⟩ : BufTy).Contents (Elt F) → (⟨S128x506, .f32⟩ : BufTy).Contents (Elt F)),
    nullary main_cst_23 (constant S_ .f32 0xFF800000#32),
    binary main_v288 main_cst_23 main_v289 ((fun x v => Host.reduce FloatOps.maximumf x v reducesTo_S128x506_S128_d1 h_S_) : (⟨S128x506, .f32⟩ : BufTy).Contents (Elt F) → (⟨S_, .f32⟩ : BufTy).Contents (Elt F) → (⟨S128, .f32⟩ : BufTy).Contents (Elt F)) ]

/-- Segment 18: 36 operations. -/
def seg18 : List (HloOp τ sig (Elt F)) :=
  [ unary main_arg2 main_v290 ((extractStridedSlice S1x8x300 ![12, 0, 0] · slices_S64x33x300_S1x8x300_12_0_0) : (⟨S64x33x300, .f32⟩ : BufTy).Contents (Elt F) → (⟨S1x8x300, .f32⟩ : BufTy).Contents (Elt F)),
    reshape main_v290 main_v291 rfl shapeCasts_S1x8x300_S8x300,
    binary main_v7 main_v291 main_v292 ((fun l r => Host.dotGeneral dot_S128x512x300_S8x300_S128x512x8_2_1_01_0_n_n none l r) : (⟨S128x512x300, .f32⟩ : BufTy).Contents (Elt F) → (⟨S8x300, .f32⟩ : BufTy).Contents (Elt F) → (⟨S128x512x8, .f32⟩ : BufTy).Contents (Elt F)),
    unary main_v292 main_v293 ((extractStridedSlice S128x505x1 ![0, 0, 0] · slices_S128x512x8_S128x505x1_0_0_0) : (⟨S128x512x8, .f32⟩ : BufTy).Contents (Elt F) → (⟨S128x505x1, .f32⟩ : BufTy).Contents (Elt F)),
    reshape main_v293 main_v294 rfl shapeCasts_S128x505x1_S128x505,
    nullary main_cst_24 (constant S_ .f32 0x00000000#32),
    unary main_cst_24 main_v295 (broadcastInDim S128x505 ![] bcast_S_S128x505 : (⟨S_, .f32⟩ : BufTy).Contents (Elt F) → (⟨S128x505, .f32⟩ : BufTy).Contents (Elt F)),
    binary main_v295 main_v294 main_v296 (addf : (⟨S128x505, .f32⟩ : BufTy).Contents (Elt F) → (⟨S128x505, .f32⟩ : BufTy).Contents (Elt F) → (⟨S128x505, .f32⟩ : BufTy).Contents (Elt F)),
    unary main_v292 main_v297 ((extractStridedSlice S128x505x1 ![0, 1, 1] · slices_S128x512x8_S128x505x1_0_1_1) : (⟨S128x512x8, .f32⟩ : BufTy).Contents (Elt F) → (⟨S128x505x1, .f32⟩ : BufTy).Contents (Elt F)),
    reshape main_v297 main_v298 rfl shapeCasts_S128x505x1_S128x505,
    binary main_v296 main_v298 main_v299 (addf : (⟨S128x505, .f32⟩ : BufTy).Contents (Elt F) → (⟨S128x505, .f32⟩ : BufTy).Contents (Elt F) → (⟨S128x505, .f32⟩ : BufTy).Contents (Elt F)),
    unary main_v292 main_v300 ((extractStridedSlice S128x505x1 ![0, 2, 2] · slices_S128x512x8_S128x505x1_0_2_2) : (⟨S128x512x8, .f32⟩ : BufTy).Contents (Elt F) → (⟨S128x505x1, .f32⟩ : BufTy).Contents (Elt F)),
    reshape main_v300 main_v301 rfl shapeCasts_S128x505x1_S128x505,
    binary main_v299 main_v301 main_v302 (addf : (⟨S128x505, .f32⟩ : BufTy).Contents (Elt F) → (⟨S128x505, .f32⟩ : BufTy).Contents (Elt F) → (⟨S128x505, .f32⟩ : BufTy).Contents (Elt F)),
    unary main_v292 main_v303 ((extractStridedSlice S128x505x1 ![0, 3, 3] · slices_S128x512x8_S128x505x1_0_3_3) : (⟨S128x512x8, .f32⟩ : BufTy).Contents (Elt F) → (⟨S128x505x1, .f32⟩ : BufTy).Contents (Elt F)),
    reshape main_v303 main_v304 rfl shapeCasts_S128x505x1_S128x505,
    binary main_v302 main_v304 main_v305 (addf : (⟨S128x505, .f32⟩ : BufTy).Contents (Elt F) → (⟨S128x505, .f32⟩ : BufTy).Contents (Elt F) → (⟨S128x505, .f32⟩ : BufTy).Contents (Elt F)),
    unary main_v292 main_v306 ((extractStridedSlice S128x505x1 ![0, 4, 4] · slices_S128x512x8_S128x505x1_0_4_4) : (⟨S128x512x8, .f32⟩ : BufTy).Contents (Elt F) → (⟨S128x505x1, .f32⟩ : BufTy).Contents (Elt F)),
    reshape main_v306 main_v307 rfl shapeCasts_S128x505x1_S128x505,
    binary main_v305 main_v307 main_v308 (addf : (⟨S128x505, .f32⟩ : BufTy).Contents (Elt F) → (⟨S128x505, .f32⟩ : BufTy).Contents (Elt F) → (⟨S128x505, .f32⟩ : BufTy).Contents (Elt F)),
    unary main_v292 main_v309 ((extractStridedSlice S128x505x1 ![0, 5, 5] · slices_S128x512x8_S128x505x1_0_5_5) : (⟨S128x512x8, .f32⟩ : BufTy).Contents (Elt F) → (⟨S128x505x1, .f32⟩ : BufTy).Contents (Elt F)),
    reshape main_v309 main_v310 rfl shapeCasts_S128x505x1_S128x505,
    binary main_v308 main_v310 main_v311 (addf : (⟨S128x505, .f32⟩ : BufTy).Contents (Elt F) → (⟨S128x505, .f32⟩ : BufTy).Contents (Elt F) → (⟨S128x505, .f32⟩ : BufTy).Contents (Elt F)),
    unary main_v292 main_v312 ((extractStridedSlice S128x505x1 ![0, 6, 6] · slices_S128x512x8_S128x505x1_0_6_6) : (⟨S128x512x8, .f32⟩ : BufTy).Contents (Elt F) → (⟨S128x505x1, .f32⟩ : BufTy).Contents (Elt F)),
    reshape main_v312 main_v313 rfl shapeCasts_S128x505x1_S128x505,
    binary main_v311 main_v313 main_v314 (addf : (⟨S128x505, .f32⟩ : BufTy).Contents (Elt F) → (⟨S128x505, .f32⟩ : BufTy).Contents (Elt F) → (⟨S128x505, .f32⟩ : BufTy).Contents (Elt F)),
    unary main_v292 main_v315 ((extractStridedSlice S128x505x1 ![0, 7, 7] · slices_S128x512x8_S128x505x1_0_7_7) : (⟨S128x512x8, .f32⟩ : BufTy).Contents (Elt F) → (⟨S128x505x1, .f32⟩ : BufTy).Contents (Elt F)),
    reshape main_v315 main_v316 rfl shapeCasts_S128x505x1_S128x505,
    binary main_v314 main_v316 main_v317 (addf : (⟨S128x505, .f32⟩ : BufTy).Contents (Elt F) → (⟨S128x505, .f32⟩ : BufTy).Contents (Elt F) → (⟨S128x505, .f32⟩ : BufTy).Contents (Elt F)),
    unary main_arg3 main_v318 ((extractStridedSlice S1 ![12] · slices_S64_S1_12) : (⟨S64, .f32⟩ : BufTy).Contents (Elt F) → (⟨S1, .f32⟩ : BufTy).Contents (Elt F)),
    reshape main_v318 main_v319 rfl shapeCasts_S1_S_,
    unary main_v319 main_v320 (broadcastInDim S128x505 ![] bcast_S_S128x505 : (⟨S_, .f32⟩ : BufTy).Contents (Elt F) → (⟨S128x505, .f32⟩ : BufTy).Contents (Elt F)),
    binary main_v317 main_v320 main_v321 (addf : (⟨S128x505, .f32⟩ : BufTy).Contents (Elt F) → (⟨S128x505, .f32⟩ : BufTy).Contents (Elt F) → (⟨S128x505, .f32⟩ : BufTy).Contents (Elt F)),
    unary main_v321 main_v322 (Host.tanh : (⟨S128x505, .f32⟩ : BufTy).Contents (Elt F) → (⟨S128x505, .f32⟩ : BufTy).Contents (Elt F)),
    nullary main_cst_25 (constant S_ .f32 0xFF800000#32),
    binary main_v322 main_cst_25 main_v323 ((fun x v => Host.reduce FloatOps.maximumf x v reducesTo_S128x505_S128_d1 h_S_) : (⟨S128x505, .f32⟩ : BufTy).Contents (Elt F) → (⟨S_, .f32⟩ : BufTy).Contents (Elt F) → (⟨S128, .f32⟩ : BufTy).Contents (Elt F)) ]

/-- Segment 19: 8 operations. -/
def seg19 : List (HloOp τ sig (Elt F)) :=
  [ unary main_arg2 main_v324 ((extractStridedSlice S1x8x300 ![13, 0, 0] · slices_S64x33x300_S1x8x300_13_0_0) : (⟨S64x33x300, .f32⟩ : BufTy).Contents (Elt F) → (⟨S1x8x300, .f32⟩ : BufTy).Contents (Elt F)),
    reshape main_v324 main_v325 rfl shapeCasts_S1x8x300_S8x300,
    binary main_v7 main_v325 main_v326 ((fun l r => Host.dotGeneral dot_S128x512x300_S8x300_S128x512x8_2_1_01_0_n_n none l r) : (⟨S128x512x300, .f32⟩ : BufTy).Contents (Elt F) → (⟨S8x300, .f32⟩ : BufTy).Contents (Elt F) → (⟨S128x512x8, .f32⟩ : BufTy).Contents (Elt F)),
    unary main_v326 main_v327 ((extractStridedSlice S128x505x1 ![0, 0, 0] · slices_S128x512x8_S128x505x1_0_0_0) : (⟨S128x512x8, .f32⟩ : BufTy).Contents (Elt F) → (⟨S128x505x1, .f32⟩ : BufTy).Contents (Elt F)),
    reshape main_v327 main_v328 rfl shapeCasts_S128x505x1_S128x505,
    nullary main_cst_26 (constant S_ .f32 0x00000000#32),
    unary main_cst_26 main_v329 (broadcastInDim S128x505 ![] bcast_S_S128x505 : (⟨S_, .f32⟩ : BufTy).Contents (Elt F) → (⟨S128x505, .f32⟩ : BufTy).Contents (Elt F)),
    binary main_v329 main_v328 main_v330 (addf : (⟨S128x505, .f32⟩ : BufTy).Contents (Elt F) → (⟨S128x505, .f32⟩ : BufTy).Contents (Elt F) → (⟨S128x505, .f32⟩ : BufTy).Contents (Elt F)) ]

/-- Segment 20: 28 operations. -/
def seg20 : List (HloOp τ sig (Elt F)) :=
  [ unary main_v326 main_v331 ((extractStridedSlice S128x505x1 ![0, 1, 1] · slices_S128x512x8_S128x505x1_0_1_1) : (⟨S128x512x8, .f32⟩ : BufTy).Contents (Elt F) → (⟨S128x505x1, .f32⟩ : BufTy).Contents (Elt F)),
    reshape main_v331 main_v332 rfl shapeCasts_S128x505x1_S128x505,
    binary main_v330 main_v332 main_v333 (addf : (⟨S128x505, .f32⟩ : BufTy).Contents (Elt F) → (⟨S128x505, .f32⟩ : BufTy).Contents (Elt F) → (⟨S128x505, .f32⟩ : BufTy).Contents (Elt F)),
    unary main_v326 main_v334 ((extractStridedSlice S128x505x1 ![0, 2, 2] · slices_S128x512x8_S128x505x1_0_2_2) : (⟨S128x512x8, .f32⟩ : BufTy).Contents (Elt F) → (⟨S128x505x1, .f32⟩ : BufTy).Contents (Elt F)),
    reshape main_v334 main_v335 rfl shapeCasts_S128x505x1_S128x505,
    binary main_v333 main_v335 main_v336 (addf : (⟨S128x505, .f32⟩ : BufTy).Contents (Elt F) → (⟨S128x505, .f32⟩ : BufTy).Contents (Elt F) → (⟨S128x505, .f32⟩ : BufTy).Contents (Elt F)),
    unary main_v326 main_v337 ((extractStridedSlice S128x505x1 ![0, 3, 3] · slices_S128x512x8_S128x505x1_0_3_3) : (⟨S128x512x8, .f32⟩ : BufTy).Contents (Elt F) → (⟨S128x505x1, .f32⟩ : BufTy).Contents (Elt F)),
    reshape main_v337 main_v338 rfl shapeCasts_S128x505x1_S128x505,
    binary main_v336 main_v338 main_v339 (addf : (⟨S128x505, .f32⟩ : BufTy).Contents (Elt F) → (⟨S128x505, .f32⟩ : BufTy).Contents (Elt F) → (⟨S128x505, .f32⟩ : BufTy).Contents (Elt F)),
    unary main_v326 main_v340 ((extractStridedSlice S128x505x1 ![0, 4, 4] · slices_S128x512x8_S128x505x1_0_4_4) : (⟨S128x512x8, .f32⟩ : BufTy).Contents (Elt F) → (⟨S128x505x1, .f32⟩ : BufTy).Contents (Elt F)),
    reshape main_v340 main_v341 rfl shapeCasts_S128x505x1_S128x505,
    binary main_v339 main_v341 main_v342 (addf : (⟨S128x505, .f32⟩ : BufTy).Contents (Elt F) → (⟨S128x505, .f32⟩ : BufTy).Contents (Elt F) → (⟨S128x505, .f32⟩ : BufTy).Contents (Elt F)),
    unary main_v326 main_v343 ((extractStridedSlice S128x505x1 ![0, 5, 5] · slices_S128x512x8_S128x505x1_0_5_5) : (⟨S128x512x8, .f32⟩ : BufTy).Contents (Elt F) → (⟨S128x505x1, .f32⟩ : BufTy).Contents (Elt F)),
    reshape main_v343 main_v344 rfl shapeCasts_S128x505x1_S128x505,
    binary main_v342 main_v344 main_v345 (addf : (⟨S128x505, .f32⟩ : BufTy).Contents (Elt F) → (⟨S128x505, .f32⟩ : BufTy).Contents (Elt F) → (⟨S128x505, .f32⟩ : BufTy).Contents (Elt F)),
    unary main_v326 main_v346 ((extractStridedSlice S128x505x1 ![0, 6, 6] · slices_S128x512x8_S128x505x1_0_6_6) : (⟨S128x512x8, .f32⟩ : BufTy).Contents (Elt F) → (⟨S128x505x1, .f32⟩ : BufTy).Contents (Elt F)),
    reshape main_v346 main_v347 rfl shapeCasts_S128x505x1_S128x505,
    binary main_v345 main_v347 main_v348 (addf : (⟨S128x505, .f32⟩ : BufTy).Contents (Elt F) → (⟨S128x505, .f32⟩ : BufTy).Contents (Elt F) → (⟨S128x505, .f32⟩ : BufTy).Contents (Elt F)),
    unary main_v326 main_v349 ((extractStridedSlice S128x505x1 ![0, 7, 7] · slices_S128x512x8_S128x505x1_0_7_7) : (⟨S128x512x8, .f32⟩ : BufTy).Contents (Elt F) → (⟨S128x505x1, .f32⟩ : BufTy).Contents (Elt F)),
    reshape main_v349 main_v350 rfl shapeCasts_S128x505x1_S128x505,
    binary main_v348 main_v350 main_v351 (addf : (⟨S128x505, .f32⟩ : BufTy).Contents (Elt F) → (⟨S128x505, .f32⟩ : BufTy).Contents (Elt F) → (⟨S128x505, .f32⟩ : BufTy).Contents (Elt F)),
    unary main_arg3 main_v352 ((extractStridedSlice S1 ![13] · slices_S64_S1_13) : (⟨S64, .f32⟩ : BufTy).Contents (Elt F) → (⟨S1, .f32⟩ : BufTy).Contents (Elt F)),
    reshape main_v352 main_v353 rfl shapeCasts_S1_S_,
    unary main_v353 main_v354 (broadcastInDim S128x505 ![] bcast_S_S128x505 : (⟨S_, .f32⟩ : BufTy).Contents (Elt F) → (⟨S128x505, .f32⟩ : BufTy).Contents (Elt F)),
    binary main_v351 main_v354 main_v355 (addf : (⟨S128x505, .f32⟩ : BufTy).Contents (Elt F) → (⟨S128x505, .f32⟩ : BufTy).Contents (Elt F) → (⟨S128x505, .f32⟩ : BufTy).Contents (Elt F)),
    unary main_v355 main_v356 (Host.tanh : (⟨S128x505, .f32⟩ : BufTy).Contents (Elt F) → (⟨S128x505, .f32⟩ : BufTy).Contents (Elt F)),
    nullary main_cst_27 (constant S_ .f32 0xFF800000#32),
    binary main_v356 main_cst_27 main_v357 ((fun x v => Host.reduce FloatOps.maximumf x v reducesTo_S128x505_S128_d1 h_S_) : (⟨S128x505, .f32⟩ : BufTy).Contents (Elt F) → (⟨S_, .f32⟩ : BufTy).Contents (Elt F) → (⟨S128, .f32⟩ : BufTy).Contents (Elt F)) ]

/-- Segment 21: 32 operations. -/
def seg21 : List (HloOp τ sig (Elt F)) :=
  [ unary main_arg2 main_v358 ((extractStridedSlice S1x9x300 ![14, 0, 0] · slices_S64x33x300_S1x9x300_14_0_0) : (⟨S64x33x300, .f32⟩ : BufTy).Contents (Elt F) → (⟨S1x9x300, .f32⟩ : BufTy).Contents (Elt F)),
    reshape main_v358 main_v359 rfl shapeCasts_S1x9x300_S9x300,
    binary main_v7 main_v359 main_v360 ((fun l r => Host.dotGeneral dot_S128x512x300_S9x300_S128x512x9_2_1_01_0_n_n none l r) : (⟨S128x512x300, .f32⟩ : BufTy).Contents (Elt F) → (⟨S9x300, .f32⟩ : BufTy).Contents (Elt F) → (⟨S128x512x9, .f32⟩ : BufTy).Contents (Elt F)),
    unary main_v360 main_v361 ((extractStridedSlice S128x504x1 ![0, 0, 0] · slices_S128x512x9_S128x504x1_0_0_0) : (⟨S128x512x9, .f32⟩ : BufTy).Contents (Elt F) → (⟨S128x504x1, .f32⟩ : BufTy).Contents (Elt F)),
    reshape main_v361 main_v362 rfl shapeCasts_S128x504x1_S128x504,
    nullary main_cst_28 (constant S_ .f32 0x00000000#32),
    unary main_cst_28 main_v363 (broadcastInDim S128x504 ![] bcast_S_S128x504 : (⟨S_, .f32⟩ : BufTy).Contents (Elt F) → (⟨S128x504, .f32⟩ : BufTy).Contents (Elt F)),
    binary main_v363 main_v362 main_v364 (addf : (⟨S128x504, .f32⟩ : BufTy).Contents (Elt F) → (⟨S128x504, .f32⟩ : BufTy).Contents (Elt F) → (⟨S128x504, .f32⟩ : BufTy).Contents (Elt F)),
    unary main_v360 main_v365 ((extractStridedSlice S128x504x1 ![0, 1, 1] · slices_S128x512x9_S128x504x1_0_1_1) : (⟨S128x512x9, .f32⟩ : BufTy).Contents (Elt F) → (⟨S128x504x1, .f32⟩ : BufTy).Contents (Elt F)),
    reshape main_v365 main_v366 rfl shapeCasts_S128x504x1_S128x504,
    binary main_v364 main_v366 main_v367 (addf : (⟨S128x504, .f32⟩ : BufTy).Contents (Elt F) → (⟨S128x504, .f32⟩ : BufTy).Contents (Elt F) → (⟨S128x504, .f32⟩ : BufTy).Contents (Elt F)),
    unary main_v360 main_v368 ((extractStridedSlice S128x504x1 ![0, 2, 2] · slices_S128x512x9_S128x504x1_0_2_2) : (⟨S128x512x9, .f32⟩ : BufTy).Contents (Elt F) → (⟨S128x504x1, .f32⟩ : BufTy).Contents (Elt F)),
    reshape main_v368 main_v369 rfl shapeCasts_S128x504x1_S128x504,
    binary main_v367 main_v369 main_v370 (addf : (⟨S128x504, .f32⟩ : BufTy).Contents (Elt F) → (⟨S128x504, .f32⟩ : BufTy).Contents (Elt F) → (⟨S128x504, .f32⟩ : BufTy).Contents (Elt F)),
    unary main_v360 main_v371 ((extractStridedSlice S128x504x1 ![0, 3, 3] · slices_S128x512x9_S128x504x1_0_3_3) : (⟨S128x512x9, .f32⟩ : BufTy).Contents (Elt F) → (⟨S128x504x1, .f32⟩ : BufTy).Contents (Elt F)),
    reshape main_v371 main_v372 rfl shapeCasts_S128x504x1_S128x504,
    binary main_v370 main_v372 main_v373 (addf : (⟨S128x504, .f32⟩ : BufTy).Contents (Elt F) → (⟨S128x504, .f32⟩ : BufTy).Contents (Elt F) → (⟨S128x504, .f32⟩ : BufTy).Contents (Elt F)),
    unary main_v360 main_v374 ((extractStridedSlice S128x504x1 ![0, 4, 4] · slices_S128x512x9_S128x504x1_0_4_4) : (⟨S128x512x9, .f32⟩ : BufTy).Contents (Elt F) → (⟨S128x504x1, .f32⟩ : BufTy).Contents (Elt F)),
    reshape main_v374 main_v375 rfl shapeCasts_S128x504x1_S128x504,
    binary main_v373 main_v375 main_v376 (addf : (⟨S128x504, .f32⟩ : BufTy).Contents (Elt F) → (⟨S128x504, .f32⟩ : BufTy).Contents (Elt F) → (⟨S128x504, .f32⟩ : BufTy).Contents (Elt F)),
    unary main_v360 main_v377 ((extractStridedSlice S128x504x1 ![0, 5, 5] · slices_S128x512x9_S128x504x1_0_5_5) : (⟨S128x512x9, .f32⟩ : BufTy).Contents (Elt F) → (⟨S128x504x1, .f32⟩ : BufTy).Contents (Elt F)),
    reshape main_v377 main_v378 rfl shapeCasts_S128x504x1_S128x504,
    binary main_v376 main_v378 main_v379 (addf : (⟨S128x504, .f32⟩ : BufTy).Contents (Elt F) → (⟨S128x504, .f32⟩ : BufTy).Contents (Elt F) → (⟨S128x504, .f32⟩ : BufTy).Contents (Elt F)),
    unary main_v360 main_v380 ((extractStridedSlice S128x504x1 ![0, 6, 6] · slices_S128x512x9_S128x504x1_0_6_6) : (⟨S128x512x9, .f32⟩ : BufTy).Contents (Elt F) → (⟨S128x504x1, .f32⟩ : BufTy).Contents (Elt F)),
    reshape main_v380 main_v381 rfl shapeCasts_S128x504x1_S128x504,
    binary main_v379 main_v381 main_v382 (addf : (⟨S128x504, .f32⟩ : BufTy).Contents (Elt F) → (⟨S128x504, .f32⟩ : BufTy).Contents (Elt F) → (⟨S128x504, .f32⟩ : BufTy).Contents (Elt F)),
    unary main_v360 main_v383 ((extractStridedSlice S128x504x1 ![0, 7, 7] · slices_S128x512x9_S128x504x1_0_7_7) : (⟨S128x512x9, .f32⟩ : BufTy).Contents (Elt F) → (⟨S128x504x1, .f32⟩ : BufTy).Contents (Elt F)),
    reshape main_v383 main_v384 rfl shapeCasts_S128x504x1_S128x504,
    binary main_v382 main_v384 main_v385 (addf : (⟨S128x504, .f32⟩ : BufTy).Contents (Elt F) → (⟨S128x504, .f32⟩ : BufTy).Contents (Elt F) → (⟨S128x504, .f32⟩ : BufTy).Contents (Elt F)),
    unary main_v360 main_v386 ((extractStridedSlice S128x504x1 ![0, 8, 8] · slices_S128x512x9_S128x504x1_0_8_8) : (⟨S128x512x9, .f32⟩ : BufTy).Contents (Elt F) → (⟨S128x504x1, .f32⟩ : BufTy).Contents (Elt F)),
    reshape main_v386 main_v387 rfl shapeCasts_S128x504x1_S128x504,
    binary main_v385 main_v387 main_v388 (addf : (⟨S128x504, .f32⟩ : BufTy).Contents (Elt F) → (⟨S128x504, .f32⟩ : BufTy).Contents (Elt F) → (⟨S128x504, .f32⟩ : BufTy).Contents (Elt F)) ]

/-- Segment 22: 7 operations. -/
def seg22 : List (HloOp τ sig (Elt F)) :=
  [ unary main_arg3 main_v389 ((extractStridedSlice S1 ![14] · slices_S64_S1_14) : (⟨S64, .f32⟩ : BufTy).Contents (Elt F) → (⟨S1, .f32⟩ : BufTy).Contents (Elt F)),
    reshape main_v389 main_v390 rfl shapeCasts_S1_S_,
    unary main_v390 main_v391 (broadcastInDim S128x504 ![] bcast_S_S128x504 : (⟨S_, .f32⟩ : BufTy).Contents (Elt F) → (⟨S128x504, .f32⟩ : BufTy).Contents (Elt F)),
    binary main_v388 main_v391 main_v392 (addf : (⟨S128x504, .f32⟩ : BufTy).Contents (Elt F) → (⟨S128x504, .f32⟩ : BufTy).Contents (Elt F) → (⟨S128x504, .f32⟩ : BufTy).Contents (Elt F)),
    unary main_v392 main_v393 (Host.tanh : (⟨S128x504, .f32⟩ : BufTy).Contents (Elt F) → (⟨S128x504, .f32⟩ : BufTy).Contents (Elt F)),
    nullary main_cst_29 (constant S_ .f32 0xFF800000#32),
    binary main_v393 main_cst_29 main_v394 ((fun x v => Host.reduce FloatOps.maximumf x v reducesTo_S128x504_S128_d1 h_S_) : (⟨S128x504, .f32⟩ : BufTy).Contents (Elt F) → (⟨S_, .f32⟩ : BufTy).Contents (Elt F) → (⟨S128, .f32⟩ : BufTy).Contents (Elt F)) ]

/-- Segment 23: 39 operations. -/
def seg23 : List (HloOp τ sig (Elt F)) :=
  [ unary main_arg2 main_v395 ((extractStridedSlice S1x9x300 ![15, 0, 0] · slices_S64x33x300_S1x9x300_15_0_0) : (⟨S64x33x300, .f32⟩ : BufTy).Contents (Elt F) → (⟨S1x9x300, .f32⟩ : BufTy).Contents (Elt F)),
    reshape main_v395 main_v396 rfl shapeCasts_S1x9x300_S9x300,
    binary main_v7 main_v396 main_v397 ((fun l r => Host.dotGeneral dot_S128x512x300_S9x300_S128x512x9_2_1_01_0_n_n none l r) : (⟨S128x512x300, .f32⟩ : BufTy).Contents (Elt F) → (⟨S9x300, .f32⟩ : BufTy).Contents (Elt F) → (⟨S128x512x9, .f32⟩ : BufTy).Contents (Elt F)),
    unary main_v397 main_v398 ((extractStridedSlice S128x504x1 ![0, 0, 0] · slices_S128x512x9_S128x504x1_0_0_0) : (⟨S128x512x9, .f32⟩ : BufTy).Contents (Elt F) → (⟨S128x504x1, .f32⟩ : BufTy).Contents (Elt F)),
    reshape main_v398 main_v399 rfl shapeCasts_S128x504x1_S128x504,
    nullary main_cst_30 (constant S_ .f32 0x00000000#32),
    unary main_cst_30 main_v400 (broadcastInDim S128x504 ![] bcast_S_S128x504 : (⟨S_, .f32⟩ : BufTy).Contents (Elt F) → (⟨S128x504, .f32⟩ : BufTy).Contents (Elt F)),
    binary main_v400 main_v399 main_v401 (addf : (⟨S128x504, .f32⟩ : BufTy).Contents (Elt F) → (⟨S128x504, .f32⟩ : BufTy).Contents (Elt F) → (⟨S128x504, .f32⟩ : BufTy).Contents (Elt F)),
    unary main_v397 main_v402 ((extractStridedSlice S128x504x1 ![0, 1, 1] · slices_S128x512x9_S128x504x1_0_1_1) : (⟨S128x512x9, .f32⟩ : BufTy).Contents (Elt F) → (⟨S128x504x1, .f32⟩ : BufTy).Contents (Elt F)),
    reshape main_v402 main_v403 rfl shapeCasts_S128x504x1_S128x504,
    binary main_v401 main_v403 main_v404 (addf : (⟨S128x504, .f32⟩ : BufTy).Contents (Elt F) → (⟨S128x504, .f32⟩ : BufTy).Contents (Elt F) → (⟨S128x504, .f32⟩ : BufTy).Contents (Elt F)),
    unary main_v397 main_v405 ((extractStridedSlice S128x504x1 ![0, 2, 2] · slices_S128x512x9_S128x504x1_0_2_2) : (⟨S128x512x9, .f32⟩ : BufTy).Contents (Elt F) → (⟨S128x504x1, .f32⟩ : BufTy).Contents (Elt F)),
    reshape main_v405 main_v406 rfl shapeCasts_S128x504x1_S128x504,
    binary main_v404 main_v406 main_v407 (addf : (⟨S128x504, .f32⟩ : BufTy).Contents (Elt F) → (⟨S128x504, .f32⟩ : BufTy).Contents (Elt F) → (⟨S128x504, .f32⟩ : BufTy).Contents (Elt F)),
    unary main_v397 main_v408 ((extractStridedSlice S128x504x1 ![0, 3, 3] · slices_S128x512x9_S128x504x1_0_3_3) : (⟨S128x512x9, .f32⟩ : BufTy).Contents (Elt F) → (⟨S128x504x1, .f32⟩ : BufTy).Contents (Elt F)),
    reshape main_v408 main_v409 rfl shapeCasts_S128x504x1_S128x504,
    binary main_v407 main_v409 main_v410 (addf : (⟨S128x504, .f32⟩ : BufTy).Contents (Elt F) → (⟨S128x504, .f32⟩ : BufTy).Contents (Elt F) → (⟨S128x504, .f32⟩ : BufTy).Contents (Elt F)),
    unary main_v397 main_v411 ((extractStridedSlice S128x504x1 ![0, 4, 4] · slices_S128x512x9_S128x504x1_0_4_4) : (⟨S128x512x9, .f32⟩ : BufTy).Contents (Elt F) → (⟨S128x504x1, .f32⟩ : BufTy).Contents (Elt F)),
    reshape main_v411 main_v412 rfl shapeCasts_S128x504x1_S128x504,
    binary main_v410 main_v412 main_v413 (addf : (⟨S128x504, .f32⟩ : BufTy).Contents (Elt F) → (⟨S128x504, .f32⟩ : BufTy).Contents (Elt F) → (⟨S128x504, .f32⟩ : BufTy).Contents (Elt F)),
    unary main_v397 main_v414 ((extractStridedSlice S128x504x1 ![0, 5, 5] · slices_S128x512x9_S128x504x1_0_5_5) : (⟨S128x512x9, .f32⟩ : BufTy).Contents (Elt F) → (⟨S128x504x1, .f32⟩ : BufTy).Contents (Elt F)),
    reshape main_v414 main_v415 rfl shapeCasts_S128x504x1_S128x504,
    binary main_v413 main_v415 main_v416 (addf : (⟨S128x504, .f32⟩ : BufTy).Contents (Elt F) → (⟨S128x504, .f32⟩ : BufTy).Contents (Elt F) → (⟨S128x504, .f32⟩ : BufTy).Contents (Elt F)),
    unary main_v397 main_v417 ((extractStridedSlice S128x504x1 ![0, 6, 6] · slices_S128x512x9_S128x504x1_0_6_6) : (⟨S128x512x9, .f32⟩ : BufTy).Contents (Elt F) → (⟨S128x504x1, .f32⟩ : BufTy).Contents (Elt F)),
    reshape main_v417 main_v418 rfl shapeCasts_S128x504x1_S128x504,
    binary main_v416 main_v418 main_v419 (addf : (⟨S128x504, .f32⟩ : BufTy).Contents (Elt F) → (⟨S128x504, .f32⟩ : BufTy).Contents (Elt F) → (⟨S128x504, .f32⟩ : BufTy).Contents (Elt F)),
    unary main_v397 main_v420 ((extractStridedSlice S128x504x1 ![0, 7, 7] · slices_S128x512x9_S128x504x1_0_7_7) : (⟨S128x512x9, .f32⟩ : BufTy).Contents (Elt F) → (⟨S128x504x1, .f32⟩ : BufTy).Contents (Elt F)),
    reshape main_v420 main_v421 rfl shapeCasts_S128x504x1_S128x504,
    binary main_v419 main_v421 main_v422 (addf : (⟨S128x504, .f32⟩ : BufTy).Contents (Elt F) → (⟨S128x504, .f32⟩ : BufTy).Contents (Elt F) → (⟨S128x504, .f32⟩ : BufTy).Contents (Elt F)),
    unary main_v397 main_v423 ((extractStridedSlice S128x504x1 ![0, 8, 8] · slices_S128x512x9_S128x504x1_0_8_8) : (⟨S128x512x9, .f32⟩ : BufTy).Contents (Elt F) → (⟨S128x504x1, .f32⟩ : BufTy).Contents (Elt F)),
    reshape main_v423 main_v424 rfl shapeCasts_S128x504x1_S128x504,
    binary main_v422 main_v424 main_v425 (addf : (⟨S128x504, .f32⟩ : BufTy).Contents (Elt F) → (⟨S128x504, .f32⟩ : BufTy).Contents (Elt F) → (⟨S128x504, .f32⟩ : BufTy).Contents (Elt F)),
    unary main_arg3 main_v426 ((extractStridedSlice S1 ![15] · slices_S64_S1_15) : (⟨S64, .f32⟩ : BufTy).Contents (Elt F) → (⟨S1, .f32⟩ : BufTy).Contents (Elt F)),
    reshape main_v426 main_v427 rfl shapeCasts_S1_S_,
    unary main_v427 main_v428 (broadcastInDim S128x504 ![] bcast_S_S128x504 : (⟨S_, .f32⟩ : BufTy).Contents (Elt F) → (⟨S128x504, .f32⟩ : BufTy).Contents (Elt F)),
    binary main_v425 main_v428 main_v429 (addf : (⟨S128x504, .f32⟩ : BufTy).Contents (Elt F) → (⟨S128x504, .f32⟩ : BufTy).Contents (Elt F) → (⟨S128x504, .f32⟩ : BufTy).Contents (Elt F)),
    unary main_v429 main_v430 (Host.tanh : (⟨S128x504, .f32⟩ : BufTy).Contents (Elt F) → (⟨S128x504, .f32⟩ : BufTy).Contents (Elt F)),
    nullary main_cst_31 (constant S_ .f32 0xFF800000#32),
    binary main_v430 main_cst_31 main_v431 ((fun x v => Host.reduce FloatOps.maximumf x v reducesTo_S128x504_S128_d1 h_S_) : (⟨S128x504, .f32⟩ : BufTy).Contents (Elt F) → (⟨S_, .f32⟩ : BufTy).Contents (Elt F) → (⟨S128, .f32⟩ : BufTy).Contents (Elt F)) ]

/-- Segment 24: 14 operations. -/
def seg24 : List (HloOp τ sig (Elt F)) :=
  [ unary main_arg2 main_v432 ((extractStridedSlice S1x10x300 ![16, 0, 0] · slices_S64x33x300_S1x10x300_16_0_0) : (⟨S64x33x300, .f32⟩ : BufTy).Contents (Elt F) → (⟨S1x10x300, .f32⟩ : BufTy).Contents (Elt F)),
    reshape main_v432 main_v433 rfl shapeCasts_S1x10x300_S10x300,
    binary main_v7 main_v433 main_v434 ((fun l r => Host.dotGeneral dot_S128x512x300_S10x300_S128x512x10_2_1_01_0_n_n none l r) : (⟨S128x512x300, .f32⟩ : BufTy).Contents (Elt F) → (⟨S10x300, .f32⟩ : BufTy).Contents (Elt F) → (⟨S128x512x10, .f32⟩ : BufTy).Contents (Elt F)),
    unary main_v434 main_v435 ((extractStridedSlice S128x503x1 ![0, 0, 0] · slices_S128x512x10_S128x503x1_0_0_0) : (⟨S128x512x10, .f32⟩ : BufTy).Contents (Elt F) → (⟨S128x503x1, .f32⟩ : BufTy).Contents (Elt F)),
    reshape main_v435 main_v436 rfl shapeCasts_S128x503x1_S128x503,
    nullary main_cst_32 (constant S_ .f32 0x00000000#32),
    unary main_cst_32 main_v437 (broadcastInDim S128x503 ![] bcast_S_S128x503 : (⟨S_, .f32⟩ : BufTy).Contents (Elt F) → (⟨S128x503, .f32⟩ : BufTy).Contents (Elt F)),
    binary main_v437 main_v436 main_v438 (addf : (⟨S128x503, .f32⟩ : BufTy).Contents (Elt F) → (⟨S128x503, .f32⟩ : BufTy).Contents (Elt F) → (⟨S128x503, .f32⟩ : BufTy).Contents (Elt F)),
    unary main_v434 main_v439 ((extractStridedSlice S128x503x1 ![0, 1, 1] · slices_S128x512x10_S128x503x1_0_1_1) : (⟨S128x512x10, .f32⟩ : BufTy).Contents (Elt F) → (⟨S128x503x1, .f32⟩ : BufTy).Contents (Elt F)),
    reshape main_v439 main_v440 rfl shapeCasts_S128x503x1_S128x503,
    binary main_v438 main_v440 main_v441 (addf : (⟨S128x503, .f32⟩ : BufTy).Contents (Elt F) → (⟨S128x503, .f32⟩ : BufTy).Contents (Elt F) → (⟨S128x503, .f32⟩ : BufTy).Contents (Elt F)),
    unary main_v434 main_v442 ((extractStridedSlice S128x503x1 ![0, 2, 2] · slices_S128x512x10_S128x503x1_0_2_2) : (⟨S128x512x10, .f32⟩ : BufTy).Contents (Elt F) → (⟨S128x503x1, .f32⟩ : BufTy).Contents (Elt F)),
    reshape main_v442 main_v443 rfl shapeCasts_S128x503x1_S128x503,
    binary main_v441 main_v443 main_v444 (addf : (⟨S128x503, .f32⟩ : BufTy).Contents (Elt F) → (⟨S128x503, .f32⟩ : BufTy).Contents (Elt F) → (⟨S128x503, .f32⟩ : BufTy).Contents (Elt F)) ]

/-- Segment 25: 28 operations. -/
def seg25 : List (HloOp τ sig (Elt F)) :=
  [ unary main_v434 main_v445 ((extractStridedSlice S128x503x1 ![0, 3, 3] · slices_S128x512x10_S128x503x1_0_3_3) : (⟨S128x512x10, .f32⟩ : BufTy).Contents (Elt F) → (⟨S128x503x1, .f32⟩ : BufTy).Contents (Elt F)),
    reshape main_v445 main_v446 rfl shapeCasts_S128x503x1_S128x503,
    binary main_v444 main_v446 main_v447 (addf : (⟨S128x503, .f32⟩ : BufTy).Contents (Elt F) → (⟨S128x503, .f32⟩ : BufTy).Contents (Elt F) → (⟨S128x503, .f32⟩ : BufTy).Contents (Elt F)),
    unary main_v434 main_v448 ((extractStridedSlice S128x503x1 ![0, 4, 4] · slices_S128x512x10_S128x503x1_0_4_4) : (⟨S128x512x10, .f32⟩ : BufTy).Contents (Elt F) → (⟨S128x503x1, .f32⟩ : BufTy).Contents (Elt F)),
    reshape main_v448 main_v449 rfl shapeCasts_S128x503x1_S128x503,
    binary main_v447 main_v449 main_v450 (addf : (⟨S128x503, .f32⟩ : BufTy).Contents (Elt F) → (⟨S128x503, .f32⟩ : BufTy).Contents (Elt F) → (⟨S128x503, .f32⟩ : BufTy).Contents (Elt F)),
    unary main_v434 main_v451 ((extractStridedSlice S128x503x1 ![0, 5, 5] · slices_S128x512x10_S128x503x1_0_5_5) : (⟨S128x512x10, .f32⟩ : BufTy).Contents (Elt F) → (⟨S128x503x1, .f32⟩ : BufTy).Contents (Elt F)),
    reshape main_v451 main_v452 rfl shapeCasts_S128x503x1_S128x503,
    binary main_v450 main_v452 main_v453 (addf : (⟨S128x503, .f32⟩ : BufTy).Contents (Elt F) → (⟨S128x503, .f32⟩ : BufTy).Contents (Elt F) → (⟨S128x503, .f32⟩ : BufTy).Contents (Elt F)),
    unary main_v434 main_v454 ((extractStridedSlice S128x503x1 ![0, 6, 6] · slices_S128x512x10_S128x503x1_0_6_6) : (⟨S128x512x10, .f32⟩ : BufTy).Contents (Elt F) → (⟨S128x503x1, .f32⟩ : BufTy).Contents (Elt F)),
    reshape main_v454 main_v455 rfl shapeCasts_S128x503x1_S128x503,
    binary main_v453 main_v455 main_v456 (addf : (⟨S128x503, .f32⟩ : BufTy).Contents (Elt F) → (⟨S128x503, .f32⟩ : BufTy).Contents (Elt F) → (⟨S128x503, .f32⟩ : BufTy).Contents (Elt F)),
    unary main_v434 main_v457 ((extractStridedSlice S128x503x1 ![0, 7, 7] · slices_S128x512x10_S128x503x1_0_7_7) : (⟨S128x512x10, .f32⟩ : BufTy).Contents (Elt F) → (⟨S128x503x1, .f32⟩ : BufTy).Contents (Elt F)),
    reshape main_v457 main_v458 rfl shapeCasts_S128x503x1_S128x503,
    binary main_v456 main_v458 main_v459 (addf : (⟨S128x503, .f32⟩ : BufTy).Contents (Elt F) → (⟨S128x503, .f32⟩ : BufTy).Contents (Elt F) → (⟨S128x503, .f32⟩ : BufTy).Contents (Elt F)),
    unary main_v434 main_v460 ((extractStridedSlice S128x503x1 ![0, 8, 8] · slices_S128x512x10_S128x503x1_0_8_8) : (⟨S128x512x10, .f32⟩ : BufTy).Contents (Elt F) → (⟨S128x503x1, .f32⟩ : BufTy).Contents (Elt F)),
    reshape main_v460 main_v461 rfl shapeCasts_S128x503x1_S128x503,
    binary main_v459 main_v461 main_v462 (addf : (⟨S128x503, .f32⟩ : BufTy).Contents (Elt F) → (⟨S128x503, .f32⟩ : BufTy).Contents (Elt F) → (⟨S128x503, .f32⟩ : BufTy).Contents (Elt F)),
    unary main_v434 main_v463 ((extractStridedSlice S128x503x1 ![0, 9, 9] · slices_S128x512x10_S128x503x1_0_9_9) : (⟨S128x512x10, .f32⟩ : BufTy).Contents (Elt F) → (⟨S128x503x1, .f32⟩ : BufTy).Contents (Elt F)),
    reshape main_v463 main_v464 rfl shapeCasts_S128x503x1_S128x503,
    binary main_v462 main_v464 main_v465 (addf : (⟨S128x503, .f32⟩ : BufTy).Contents (Elt F) → (⟨S128x503, .f32⟩ : BufTy).Contents (Elt F) → (⟨S128x503, .f32⟩ : BufTy).Contents (Elt F)),
    unary main_arg3 main_v466 ((extractStridedSlice S1 ![16] · slices_S64_S1_16) : (⟨S64, .f32⟩ : BufTy).Contents (Elt F) → (⟨S1, .f32⟩ : BufTy).Contents (Elt F)),
    reshape main_v466 main_v467 rfl shapeCasts_S1_S_,
    unary main_v467 main_v468 (broadcastInDim S128x503 ![] bcast_S_S128x503 : (⟨S_, .f32⟩ : BufTy).Contents (Elt F) → (⟨S128x503, .f32⟩ : BufTy).Contents (Elt F)),
    binary main_v465 main_v468 main_v469 (addf : (⟨S128x503, .f32⟩ : BufTy).Contents (Elt F) → (⟨S128x503, .f32⟩ : BufTy).Contents (Elt F) → (⟨S128x503, .f32⟩ : BufTy).Contents (Elt F)),
    unary main_v469 main_v470 (Host.tanh : (⟨S128x503, .f32⟩ : BufTy).Contents (Elt F) → (⟨S128x503, .f32⟩ : BufTy).Contents (Elt F)),
    nullary main_cst_33 (constant S_ .f32 0xFF800000#32),
    binary main_v470 main_cst_33 main_v471 ((fun x v => Host.reduce FloatOps.maximumf x v reducesTo_S128x503_S128_d1 h_S_) : (⟨S128x503, .f32⟩ : BufTy).Contents (Elt F) → (⟨S_, .f32⟩ : BufTy).Contents (Elt F) → (⟨S128, .f32⟩ : BufTy).Contents (Elt F)) ]

/-- Segment 26: 32 operations. -/
def seg26 : List (HloOp τ sig (Elt F)) :=
  [ unary main_arg2 main_v472 ((extractStridedSlice S1x10x300 ![17, 0, 0] · slices_S64x33x300_S1x10x300_17_0_0) : (⟨S64x33x300, .f32⟩ : BufTy).Contents (Elt F) → (⟨S1x10x300, .f32⟩ : BufTy).Contents (Elt F)),
    reshape main_v472 main_v473 rfl shapeCasts_S1x10x300_S10x300,
    binary main_v7 main_v473 main_v474 ((fun l r => Host.dotGeneral dot_S128x512x300_S10x300_S128x512x10_2_1_01_0_n_n none l r) : (⟨S128x512x300, .f32⟩ : BufTy).Contents (Elt F) → (⟨S10x300, .f32⟩ : BufTy).Contents (Elt F) → (⟨S128x512x10, .f32⟩ : BufTy).Contents (Elt F)),
    unary main_v474 main_v475 ((extractStridedSlice S128x503x1 ![0, 0, 0] · slices_S128x512x10_S128x503x1_0_0_0) : (⟨S128x512x10, .f32⟩ : BufTy).Contents (Elt F) → (⟨S128x503x1, .f32⟩ : BufTy).Contents (Elt F)),
    reshape main_v475 main_v476 rfl shapeCasts_S128x503x1_S128x503,
    nullary main_cst_34 (constant S_ .f32 0x00000000#32),
    unary main_cst_34 main_v477 (broadcastInDim S128x503 ![] bcast_S_S128x503 : (⟨S_, .f32⟩ : BufTy).Contents (Elt F) → (⟨S128x503, .f32⟩ : BufTy).Contents (Elt F)),
    binary main_v477 main_v476 main_v478 (addf : (⟨S128x503, .f32⟩ : BufTy).Contents (Elt F) → (⟨S128x503, .f32⟩ : BufTy).Contents (Elt F) → (⟨S128x503, .f32⟩ : BufTy).Contents (Elt F)),
    unary main_v474 main_v479 ((extractStridedSlice S128x503x1 ![0, 1, 1] · slices_S128x512x10_S128x503x1_0_1_1) : (⟨S128x512x10, .f32⟩ : BufTy).Contents (Elt F) → (⟨S128x503x1, .f32⟩ : BufTy).Contents (Elt F)),
    reshape main_v479 main_v480 rfl shapeCasts_S128x503x1_S128x503,
    binary main_v478 main_v480 main_v481 (addf : (⟨S128x503, .f32⟩ : BufTy).Contents (Elt F) → (⟨S128x503, .f32⟩ : BufTy).Contents (Elt F) → (⟨S128x503, .f32⟩ : BufTy).Contents (Elt F)),
    unary main_v474 main_v482 ((extractStridedSlice S128x503x1 ![0, 2, 2] · slices_S128x512x10_S128x503x1_0_2_2) : (⟨S128x512x10, .f32⟩ : BufTy).Contents (Elt F) → (⟨S128x503x1, .f32⟩ : BufTy).Contents (Elt F)),
    reshape main_v482 main_v483 rfl shapeCasts_S128x503x1_S128x503,
    binary main_v481 main_v483 main_v484 (addf : (⟨S128x503, .f32⟩ : BufTy).Contents (Elt F) → (⟨S128x503, .f32⟩ : BufTy).Contents (Elt F) → (⟨S128x503, .f32⟩ : BufTy).Contents (Elt F)),
    unary main_v474 main_v485 ((extractStridedSlice S128x503x1 ![0, 3, 3] · slices_S128x512x10_S128x503x1_0_3_3) : (⟨S128x512x10, .f32⟩ : BufTy).Contents (Elt F) → (⟨S128x503x1, .f32⟩ : BufTy).Contents (Elt F)),
    reshape main_v485 main_v486 rfl shapeCasts_S128x503x1_S128x503,
    binary main_v484 main_v486 main_v487 (addf : (⟨S128x503, .f32⟩ : BufTy).Contents (Elt F) → (⟨S128x503, .f32⟩ : BufTy).Contents (Elt F) → (⟨S128x503, .f32⟩ : BufTy).Contents (Elt F)),
    unary main_v474 main_v488 ((extractStridedSlice S128x503x1 ![0, 4, 4] · slices_S128x512x10_S128x503x1_0_4_4) : (⟨S128x512x10, .f32⟩ : BufTy).Contents (Elt F) → (⟨S128x503x1, .f32⟩ : BufTy).Contents (Elt F)),
    reshape main_v488 main_v489 rfl shapeCasts_S128x503x1_S128x503,
    binary main_v487 main_v489 main_v490 (addf : (⟨S128x503, .f32⟩ : BufTy).Contents (Elt F) → (⟨S128x503, .f32⟩ : BufTy).Contents (Elt F) → (⟨S128x503, .f32⟩ : BufTy).Contents (Elt F)),
    unary main_v474 main_v491 ((extractStridedSlice S128x503x1 ![0, 5, 5] · slices_S128x512x10_S128x503x1_0_5_5) : (⟨S128x512x10, .f32⟩ : BufTy).Contents (Elt F) → (⟨S128x503x1, .f32⟩ : BufTy).Contents (Elt F)),
    reshape main_v491 main_v492 rfl shapeCasts_S128x503x1_S128x503,
    binary main_v490 main_v492 main_v493 (addf : (⟨S128x503, .f32⟩ : BufTy).Contents (Elt F) → (⟨S128x503, .f32⟩ : BufTy).Contents (Elt F) → (⟨S128x503, .f32⟩ : BufTy).Contents (Elt F)),
    unary main_v474 main_v494 ((extractStridedSlice S128x503x1 ![0, 6, 6] · slices_S128x512x10_S128x503x1_0_6_6) : (⟨S128x512x10, .f32⟩ : BufTy).Contents (Elt F) → (⟨S128x503x1, .f32⟩ : BufTy).Contents (Elt F)),
    reshape main_v494 main_v495 rfl shapeCasts_S128x503x1_S128x503,
    binary main_v493 main_v495 main_v496 (addf : (⟨S128x503, .f32⟩ : BufTy).Contents (Elt F) → (⟨S128x503, .f32⟩ : BufTy).Contents (Elt F) → (⟨S128x503, .f32⟩ : BufTy).Contents (Elt F)),
    unary main_v474 main_v497 ((extractStridedSlice S128x503x1 ![0, 7, 7] · slices_S128x512x10_S128x503x1_0_7_7) : (⟨S128x512x10, .f32⟩ : BufTy).Contents (Elt F) → (⟨S128x503x1, .f32⟩ : BufTy).Contents (Elt F)),
    reshape main_v497 main_v498 rfl shapeCasts_S128x503x1_S128x503,
    binary main_v496 main_v498 main_v499 (addf : (⟨S128x503, .f32⟩ : BufTy).Contents (Elt F) → (⟨S128x503, .f32⟩ : BufTy).Contents (Elt F) → (⟨S128x503, .f32⟩ : BufTy).Contents (Elt F)),
    unary main_v474 main_v500 ((extractStridedSlice S128x503x1 ![0, 8, 8] · slices_S128x512x10_S128x503x1_0_8_8) : (⟨S128x512x10, .f32⟩ : BufTy).Contents (Elt F) → (⟨S128x503x1, .f32⟩ : BufTy).Contents (Elt F)),
    reshape main_v500 main_v501 rfl shapeCasts_S128x503x1_S128x503,
    binary main_v499 main_v501 main_v502 (addf : (⟨S128x503, .f32⟩ : BufTy).Contents (Elt F) → (⟨S128x503, .f32⟩ : BufTy).Contents (Elt F) → (⟨S128x503, .f32⟩ : BufTy).Contents (Elt F)) ]

/-- Segment 27: 10 operations. -/
def seg27 : List (HloOp τ sig (Elt F)) :=
  [ unary main_v474 main_v503 ((extractStridedSlice S128x503x1 ![0, 9, 9] · slices_S128x512x10_S128x503x1_0_9_9) : (⟨S128x512x10, .f32⟩ : BufTy).Contents (Elt F) → (⟨S128x503x1, .f32⟩ : BufTy).Contents (Elt F)),
    reshape main_v503 main_v504 rfl shapeCasts_S128x503x1_S128x503,
    binary main_v502 main_v504 main_v505 (addf : (⟨S128x503, .f32⟩ : BufTy).Contents (Elt F) → (⟨S128x503, .f32⟩ : BufTy).Contents (Elt F) → (⟨S128x503, .f32⟩ : BufTy).Contents (Elt F)),
    unary main_arg3 main_v506 ((extractStridedSlice S1 ![17] · slices_S64_S1_17) : (⟨S64, .f32⟩ : BufTy).Contents (Elt F) → (⟨S1, .f32⟩ : BufTy).Contents (Elt F)),
    reshape main_v506 main_v507 rfl shapeCasts_S1_S_,
    unary main_v507 main_v508 (broadcastInDim S128x503 ![] bcast_S_S128x503 : (⟨S_, .f32⟩ : BufTy).Contents (Elt F) → (⟨S128x503, .f32⟩ : BufTy).Contents (Elt F)),
    binary main_v505 main_v508 main_v509 (addf : (⟨S128x503, .f32⟩ : BufTy).Contents (Elt F) → (⟨S128x503, .f32⟩ : BufTy).Contents (Elt F) → (⟨S128x503, .f32⟩ : BufTy).Contents (Elt F)),
    unary main_v509 main_v510 (Host.tanh : (⟨S128x503, .f32⟩ : BufTy).Contents (Elt F) → (⟨S128x503, .f32⟩ : BufTy).Contents (Elt F)),
    nullary main_cst_35 (constant S_ .f32 0xFF800000#32),
    binary main_v510 main_cst_35 main_v511 ((fun x v => Host.reduce FloatOps.maximumf x v reducesTo_S128x503_S128_d1 h_S_) : (⟨S128x503, .f32⟩ : BufTy).Contents (Elt F) → (⟨S_, .f32⟩ : BufTy).Contents (Elt F) → (⟨S128, .f32⟩ : BufTy).Contents (Elt F)) ]

/-- Segment 28: 45 operations. -/
def seg28 : List (HloOp τ sig (Elt F)) :=
  [ unary main_arg2 main_v512 ((extractStridedSlice S1x11x300 ![18, 0, 0] · slices_S64x33x300_S1x11x300_18_0_0) : (⟨S64x33x300, .f32⟩ : BufTy).Contents (Elt F) → (⟨S1x11x300, .f32⟩ : BufTy).Contents (Elt F)),
    reshape main_v512 main_v513 rfl shapeCasts_S1x11x300_S11x300,
    binary main_v7 main_v513 main_v514 ((fun l r => Host.dotGeneral dot_S128x512x300_S11x300_S128x512x11_2_1_01_0_n_n none l r) : (⟨S128x512x300, .f32⟩ : BufTy).Contents (Elt F) → (⟨S11x300, .f32⟩ : BufTy).Contents (Elt F) → (⟨S128x512x11, .f32⟩ : BufTy).Contents (Elt F)),
    unary main_v514 main_v515 ((extractStridedSlice S128x502x1 ![0, 0, 0] · slices_S128x512x11_S128x502x1_0_0_0) : (⟨S128x512x11, .f32⟩ : BufTy).Contents (Elt F) → (⟨S128x502x1, .f32⟩ : BufTy).Contents (Elt F)),
    reshape main_v515 main_v516 rfl shapeCasts_S128x502x1_S128x502,
    nullary main_cst_36 (constant S_ .f32 0x00000000#32),
    unary main_cst_36 main_v517 (broadcastInDim S128x502 ![] bcast_S_S128x502 : (⟨S_, .f32⟩ : BufTy).Contents (Elt F) → (⟨S128x502, .f32⟩ : BufTy).Contents (Elt F)),
    binary main_v517 main_v516 main_v518 (addf : (⟨S128x502, .f32⟩ : BufTy).Contents (Elt F) → (⟨S128x502, .f32⟩ : BufTy).Contents (Elt F) → (⟨S128x502, .f32⟩ : BufTy).Contents (Elt F)),
    unary main_v514 main_v519 ((extractStridedSlice S128x502x1 ![0, 1, 1] · slices_S128x512x11_S128x502x1_0_1_1) : (⟨S128x512x11, .f32⟩ : BufTy).Contents (Elt F) → (⟨S128x502x1, .f32⟩ : BufTy).Contents (Elt F)),
    reshape main_v519 main_v520 rfl shapeCasts_S128x502x1_S128x502,
    binary main_v518 main_v520 main_v521 (addf : (⟨S128x502, .f32⟩ : BufTy).Contents (Elt F) → (⟨S128x502, .f32⟩ : BufTy).Contents (Elt F) → (⟨S128x502, .f32⟩ : BufTy).Contents (Elt F)),
    unary main_v514 main_v522 ((extractStridedSlice S128x502x1 ![0, 2, 2] · slices_S128x512x11_S128x502x1_0_2_2) : (⟨S128x512x11, .f32⟩ : BufTy).Contents (Elt F) → (⟨S128x502x1, .f32⟩ : BufTy).Contents (Elt F)),
    reshape main_v522 main_v523 rfl shapeCasts_S128x502x1_S128x502,
    binary main_v521 main_v523 main_v524 (addf : (⟨S128x502, .f32⟩ : BufTy).Contents (Elt F) → (⟨S128x502, .f32⟩ : BufTy).Contents (Elt F) → (⟨S128x502, .f32⟩ : BufTy).Contents (Elt F)),
    unary main_v514 main_v525 ((extractStridedSlice S128x502x1 ![0, 3, 3] · slices_S128x512x11_S128x502x1_0_3_3) : (⟨S128x512x11, .f32⟩ : BufTy).Contents (Elt F) → (⟨S128x502x1, .f32⟩ : BufTy).Contents (Elt F)),
    reshape main_v525 main_v526 rfl shapeCasts_S128x502x1_S128x502,
    binary main_v524 main_v526 main_v527 (addf : (⟨S128x502, .f32⟩ : BufTy).Contents (Elt F) → (⟨S128x502, .f32⟩ : BufTy).Contents (Elt F) → (⟨S128x502, .f32⟩ : BufTy).Contents (Elt F)),
    unary main_v514 main_v528 ((extractStridedSlice S128x502x1 ![0, 4, 4] · slices_S128x512x11_S128x502x1_0_4_4) : (⟨S128x512x11, .f32⟩ : BufTy).Contents (Elt F) → (⟨S128x502x1, .f32⟩ : BufTy).Contents (Elt F)),
    reshape main_v528 main_v529 rfl shapeCasts_S128x502x1_S128x502,
    binary main_v527 main_v529 main_v530 (addf : (⟨S128x502, .f32⟩ : BufTy).Contents (Elt F) → (⟨S128x502, .f32⟩ : BufTy).Contents (Elt F) → (⟨S128x502, .f32⟩ : BufTy).Contents (Elt F)),
    unary main_v514 main_v531 ((extractStridedSlice S128x502x1 ![0, 5, 5] · slices_S128x512x11_S128x502x1_0_5_5) : (⟨S128x512x11, .f32⟩ : BufTy).Contents (Elt F) → (⟨S128x502x1, .f32⟩ : BufTy).Contents (Elt F)),
    reshape main_v531 main_v532 rfl shapeCasts_S128x502x1_S128x502,
    binary main_v530 main_v532 main_v533 (addf : (⟨S128x502, .f32⟩ : BufTy).Contents (Elt F) → (⟨S128x502, .f32⟩ : BufTy).Contents (Elt F) → (⟨S128x502, .f32⟩ : BufTy).Contents (Elt F)),
    unary main_v514 main_v534 ((extractStridedSlice S128x502x1 ![0, 6, 6] · slices_S128x512x11_S128x502x1_0_6_6) : (⟨S128x512x11, .f32⟩ : BufTy).Contents (Elt F) → (⟨S128x502x1, .f32⟩ : BufTy).Contents (Elt F)),
    reshape main_v534 main_v535 rfl shapeCasts_S128x502x1_S128x502,
    binary main_v533 main_v535 main_v536 (addf : (⟨S128x502, .f32⟩ : BufTy).Contents (Elt F) → (⟨S128x502, .f32⟩ : BufTy).Contents (Elt F) → (⟨S128x502, .f32⟩ : BufTy).Contents (Elt F)),
    unary main_v514 main_v537 ((extractStridedSlice S128x502x1 ![0, 7, 7] · slices_S128x512x11_S128x502x1_0_7_7) : (⟨S128x512x11, .f32⟩ : BufTy).Contents (Elt F) → (⟨S128x502x1, .f32⟩ : BufTy).Contents (Elt F)),
    reshape main_v537 main_v538 rfl shapeCasts_S128x502x1_S128x502,
    binary main_v536 main_v538 main_v539 (addf : (⟨S128x502, .f32⟩ : BufTy).Contents (Elt F) → (⟨S128x502, .f32⟩ : BufTy).Contents (Elt F) → (⟨S128x502, .f32⟩ : BufTy).Contents (Elt F)),
    unary main_v514 main_v540 ((extractStridedSlice S128x502x1 ![0, 8, 8] · slices_S128x512x11_S128x502x1_0_8_8) : (⟨S128x512x11, .f32⟩ : BufTy).Contents (Elt F) → (⟨S128x502x1, .f32⟩ : BufTy).Contents (Elt F)),
    reshape main_v540 main_v541 rfl shapeCasts_S128x502x1_S128x502,
    binary main_v539 main_v541 main_v542 (addf : (⟨S128x502, .f32⟩ : BufTy).Contents (Elt F) → (⟨S128x502, .f32⟩ : BufTy).Contents (Elt F) → (⟨S128x502, .f32⟩ : BufTy).Contents (Elt F)),
    unary main_v514 main_v543 ((extractStridedSlice S128x502x1 ![0, 9, 9] · slices_S128x512x11_S128x502x1_0_9_9) : (⟨S128x512x11, .f32⟩ : BufTy).Contents (Elt F) → (⟨S128x502x1, .f32⟩ : BufTy).Contents (Elt F)),
    reshape main_v543 main_v544 rfl shapeCasts_S128x502x1_S128x502,
    binary main_v542 main_v544 main_v545 (addf : (⟨S128x502, .f32⟩ : BufTy).Contents (Elt F) → (⟨S128x502, .f32⟩ : BufTy).Contents (Elt F) → (⟨S128x502, .f32⟩ : BufTy).Contents (Elt F)),
    unary main_v514 main_v546 ((extractStridedSlice S128x502x1 ![0, 10, 10] · slices_S128x512x11_S128x502x1_0_10_10) : (⟨S128x512x11, .f32⟩ : BufTy).Contents (Elt F) → (⟨S128x502x1, .f32⟩ : BufTy).Contents (Elt F)),
    reshape main_v546 main_v547 rfl shapeCasts_S128x502x1_S128x502,
    binary main_v545 main_v547 main_v548 (addf : (⟨S128x502, .f32⟩ : BufTy).Contents (Elt F) → (⟨S128x502, .f32⟩ : BufTy).Contents (Elt F) → (⟨S128x502, .f32⟩ : BufTy).Contents (Elt F)),
    unary main_arg3 main_v549 ((extractStridedSlice S1 ![18] · slices_S64_S1_18) : (⟨S64, .f32⟩ : BufTy).Contents (Elt F) → (⟨S1, .f32⟩ : BufTy).Contents (Elt F)),
    reshape main_v549 main_v550 rfl shapeCasts_S1_S_,
    unary main_v550 main_v551 (broadcastInDim S128x502 ![] bcast_S_S128x502 : (⟨S_, .f32⟩ : BufTy).Contents (Elt F) → (⟨S128x502, .f32⟩ : BufTy).Contents (Elt F)),
    binary main_v548 main_v551 main_v552 (addf : (⟨S128x502, .f32⟩ : BufTy).Contents (Elt F) → (⟨S128x502, .f32⟩ : BufTy).Contents (Elt F) → (⟨S128x502, .f32⟩ : BufTy).Contents (Elt F)),
    unary main_v552 main_v553 (Host.tanh : (⟨S128x502, .f32⟩ : BufTy).Contents (Elt F) → (⟨S128x502, .f32⟩ : BufTy).Contents (Elt F)),
    nullary main_cst_37 (constant S_ .f32 0xFF800000#32),
    binary main_v553 main_cst_37 main_v554 ((fun x v => Host.reduce FloatOps.maximumf x v reducesTo_S128x502_S128_d1 h_S_) : (⟨S128x502, .f32⟩ : BufTy).Contents (Elt F) → (⟨S_, .f32⟩ : BufTy).Contents (Elt F) → (⟨S128, .f32⟩ : BufTy).Contents (Elt F)) ]

/-- Segment 29: 5 operations. -/
def seg29 : List (HloOp τ sig (Elt F)) :=
  [ unary main_arg2 main_v555 ((extractStridedSlice S1x11x300 ![19, 0, 0] · slices_S64x33x300_S1x11x300_19_0_0) : (⟨S64x33x300, .f32⟩ : BufTy).Contents (Elt F) → (⟨S1x11x300, .f32⟩ : BufTy).Contents (Elt F)),
    reshape main_v555 main_v556 rfl shapeCasts_S1x11x300_S11x300,
    binary main_v7 main_v556 main_v557 ((fun l r => Host.dotGeneral dot_S128x512x300_S11x300_S128x512x11_2_1_01_0_n_n none l r) : (⟨S128x512x300, .f32⟩ : BufTy).Contents (Elt F) → (⟨S11x300, .f32⟩ : BufTy).Contents (Elt F) → (⟨S128x512x11, .f32⟩ : BufTy).Contents (Elt F)),
    unary main_v557 main_v558 ((extractStridedSlice S128x502x1 ![0, 0, 0] · slices_S128x512x11_S128x502x1_0_0_0) : (⟨S128x512x11, .f32⟩ : BufTy).Contents (Elt F) → (⟨S128x502x1, .f32⟩ : BufTy).Contents (Elt F)),
    reshape main_v558 main_v559 rfl shapeCasts_S128x502x1_S128x502 ]

/-- Segment 30: 40 operations. -/
def seg30 : List (HloOp τ sig (Elt F)) :=
  [ nullary main_cst_38 (constant S_ .f32 0x00000000#32),
    unary main_cst_38 main_v560 (broadcastInDim S128x502 ![] bcast_S_S128x502 : (⟨S_, .f32⟩ : BufTy).Contents (Elt F) → (⟨S128x502, .f32⟩ : BufTy).Contents (Elt F)),
    binary main_v560 main_v559 main_v561 (addf : (⟨S128x502, .f32⟩ : BufTy).Contents (Elt F) → (⟨S128x502, .f32⟩ : BufTy).Contents (Elt F) → (⟨S128x502, .f32⟩ : BufTy).Contents (Elt F)),
    unary main_v557 main_v562 ((extractStridedSlice S128x502x1 ![0, 1, 1] · slices_S128x512x11_S128x502x1_0_1_1) : (⟨S128x512x11, .f32⟩ : BufTy).Contents (Elt F) → (⟨S128x502x1, .f32⟩ : BufTy).Contents (Elt F)),
    reshape main_v562 main_v563 rfl shapeCasts_S128x502x1_S128x502,
    binary main_v561 main_v563 main_v564 (addf : (⟨S128x502, .f32⟩ : BufTy).Contents (Elt F) → (⟨S128x502, .f32⟩ : BufTy).Contents (Elt F) → (⟨S128x502, .f32⟩ : BufTy).Contents (Elt F)),
    unary main_v557 main_v565 ((extractStridedSlice S128x502x1 ![0, 2, 2] · slices_S128x512x11_S128x502x1_0_2_2) : (⟨S128x512x11, .f32⟩ : BufTy).Contents (Elt F) → (⟨S128x502x1, .f32⟩ : BufTy).Contents (Elt F)),
    reshape main_v565 main_v566 rfl shapeCasts_S128x502x1_S128x502,
    binary main_v564 main_v566 main_v567 (addf : (⟨S128x502, .f32⟩ : BufTy).Contents (Elt F) → (⟨S128x502, .f32⟩ : BufTy).Contents (Elt F) → (⟨S128x502, .f32⟩ : BufTy).Contents (Elt F)),
    unary main_v557 main_v568 ((extractStridedSlice S128x502x1 ![0, 3, 3] · slices_S128x512x11_S128x502x1_0_3_3) : (⟨S128x512x11, .f32⟩ : BufTy).Contents (Elt F) → (⟨S128x502x1, .f32⟩ : BufTy).Contents (Elt F)),
    reshape main_v568 main_v569 rfl shapeCasts_S128x502x1_S128x502,
    binary main_v567 main_v569 main_v570 (addf : (⟨S128x502, .f32⟩ : BufTy).Contents (Elt F) → (⟨S128x502, .f32⟩ : BufTy).Contents (Elt F) → (⟨S128x502, .f32⟩ : BufTy).Contents (Elt F)),
    unary main_v557 main_v571 ((extractStridedSlice S128x502x1 ![0, 4, 4] · slices_S128x512x11_S128x502x1_0_4_4) : (⟨S128x512x11, .f32⟩ : BufTy).Contents (Elt F) → (⟨S128x502x1, .f32⟩ : BufTy).Contents (Elt F)),
    reshape main_v571 main_v572 rfl shapeCasts_S128x502x1_S128x502,
    binary main_v570 main_v572 main_v573 (addf : (⟨S128x502, .f32⟩ : BufTy).Contents (Elt F) → (⟨S128x502, .f32⟩ : BufTy).Contents (Elt F) → (⟨S128x502, .f32⟩ : BufTy).Contents (Elt F)),
    unary main_v557 main_v574 ((extractStridedSlice S128x502x1 ![0, 5, 5] · slices_S128x512x11_S128x502x1_0_5_5) : (⟨S128x512x11, .f32⟩ : BufTy).Contents (Elt F) → (⟨S128x502x1, .f32⟩ : BufTy).Contents (Elt F)),
    reshape main_v574 main_v575 rfl shapeCasts_S128x502x1_S128x502,
    binary main_v573 main_v575 main_v576 (addf : (⟨S128x502, .f32⟩ : BufTy).Contents (Elt F) → (⟨S128x502, .f32⟩ : BufTy).Contents (Elt F) → (⟨S128x502, .f32⟩ : BufTy).Contents (Elt F)),
    unary main_v557 main_v577 ((extractStridedSlice S128x502x1 ![0, 6, 6] · slices_S128x512x11_S128x502x1_0_6_6) : (⟨S128x512x11, .f32⟩ : BufTy).Contents (Elt F) → (⟨S128x502x1, .f32⟩ : BufTy).Contents (Elt F)),
    reshape main_v577 main_v578 rfl shapeCasts_S128x502x1_S128x502,
    binary main_v576 main_v578 main_v579 (addf : (⟨S128x502, .f32⟩ : BufTy).Contents (Elt F) → (⟨S128x502, .f32⟩ : BufTy).Contents (Elt F) → (⟨S128x502, .f32⟩ : BufTy).Contents (Elt F)),
    unary main_v557 main_v580 ((extractStridedSlice S128x502x1 ![0, 7, 7] · slices_S128x512x11_S128x502x1_0_7_7) : (⟨S128x512x11, .f32⟩ : BufTy).Contents (Elt F) → (⟨S128x502x1, .f32⟩ : BufTy).Contents (Elt F)),
    reshape main_v580 main_v581 rfl shapeCasts_S128x502x1_S128x502,
    binary main_v579 main_v581 main_v582 (addf : (⟨S128x502, .f32⟩ : BufTy).Contents (Elt F) → (⟨S128x502, .f32⟩ : BufTy).Contents (Elt F) → (⟨S128x502, .f32⟩ : BufTy).Contents (Elt F)),
    unary main_v557 main_v583 ((extractStridedSlice S128x502x1 ![0, 8, 8] · slices_S128x512x11_S128x502x1_0_8_8) : (⟨S128x512x11, .f32⟩ : BufTy).Contents (Elt F) → (⟨S128x502x1, .f32⟩ : BufTy).Contents (Elt F)),
    reshape main_v583 main_v584 rfl shapeCasts_S128x502x1_S128x502,
    binary main_v582 main_v584 main_v585 (addf : (⟨S128x502, .f32⟩ : BufTy).Contents (Elt F) → (⟨S128x502, .f32⟩ : BufTy).Contents (Elt F) → (⟨S128x502, .f32⟩ : BufTy).Contents (Elt F)),
    unary main_v557 main_v586 ((extractStridedSlice S128x502x1 ![0, 9, 9] · slices_S128x512x11_S128x502x1_0_9_9) : (⟨S128x512x11, .f32⟩ : BufTy).Contents (Elt F) → (⟨S128x502x1, .f32⟩ : BufTy).Contents (Elt F)),
    reshape main_v586 main_v587 rfl shapeCasts_S128x502x1_S128x502,
    binary main_v585 main_v587 main_v588 (addf : (⟨S128x502, .f32⟩ : BufTy).Contents (Elt F) → (⟨S128x502, .f32⟩ : BufTy).Contents (Elt F) → (⟨S128x502, .f32⟩ : BufTy).Contents (Elt F)),
    unary main_v557 main_v589 ((extractStridedSlice S128x502x1 ![0, 10, 10] · slices_S128x512x11_S128x502x1_0_10_10) : (⟨S128x512x11, .f32⟩ : BufTy).Contents (Elt F) → (⟨S128x502x1, .f32⟩ : BufTy).Contents (Elt F)),
    reshape main_v589 main_v590 rfl shapeCasts_S128x502x1_S128x502,
    binary main_v588 main_v590 main_v591 (addf : (⟨S128x502, .f32⟩ : BufTy).Contents (Elt F) → (⟨S128x502, .f32⟩ : BufTy).Contents (Elt F) → (⟨S128x502, .f32⟩ : BufTy).Contents (Elt F)),
    unary main_arg3 main_v592 ((extractStridedSlice S1 ![19] · slices_S64_S1_19) : (⟨S64, .f32⟩ : BufTy).Contents (Elt F) → (⟨S1, .f32⟩ : BufTy).Contents (Elt F)),
    reshape main_v592 main_v593 rfl shapeCasts_S1_S_,
    unary main_v593 main_v594 (broadcastInDim S128x502 ![] bcast_S_S128x502 : (⟨S_, .f32⟩ : BufTy).Contents (Elt F) → (⟨S128x502, .f32⟩ : BufTy).Contents (Elt F)),
    binary main_v591 main_v594 main_v595 (addf : (⟨S128x502, .f32⟩ : BufTy).Contents (Elt F) → (⟨S128x502, .f32⟩ : BufTy).Contents (Elt F) → (⟨S128x502, .f32⟩ : BufTy).Contents (Elt F)),
    unary main_v595 main_v596 (Host.tanh : (⟨S128x502, .f32⟩ : BufTy).Contents (Elt F) → (⟨S128x502, .f32⟩ : BufTy).Contents (Elt F)),
    nullary main_cst_39 (constant S_ .f32 0xFF800000#32),
    binary main_v596 main_cst_39 main_v597 ((fun x v => Host.reduce FloatOps.maximumf x v reducesTo_S128x502_S128_d1 h_S_) : (⟨S128x502, .f32⟩ : BufTy).Contents (Elt F) → (⟨S_, .f32⟩ : BufTy).Contents (Elt F) → (⟨S128, .f32⟩ : BufTy).Contents (Elt F)) ]

/-- Segment 31: 20 operations. -/
def seg31 : List (HloOp τ sig (Elt F)) :=
  [ unary main_arg2 main_v598 ((extractStridedSlice S1x12x300 ![20, 0, 0] · slices_S64x33x300_S1x12x300_20_0_0) : (⟨S64x33x300, .f32⟩ : BufTy).Contents (Elt F) → (⟨S1x12x300, .f32⟩ : BufTy).Contents (Elt F)),
    reshape main_v598 main_v599 rfl shapeCasts_S1x12x300_S12x300,
    binary main_v7 main_v599 main_v600 ((fun l r => Host.dotGeneral dot_S128x512x300_S12x300_S128x512x12_2_1_01_0_n_n none l r) : (⟨S128x512x300, .f32⟩ : BufTy).Contents (Elt F) → (⟨S12x300, .f32⟩ : BufTy).Contents (Elt F) → (⟨S128x512x12, .f32⟩ : BufTy).Contents (Elt F)),
    unary main_v600 main_v601 ((extractStridedSlice S128x501x1 ![0, 0, 0] · slices_S128x512x12_S128x501x1_0_0_0) : (⟨S128x512x12, .f32⟩ : BufTy).Contents (Elt F) → (⟨S128x501x1, .f32⟩ : BufTy).Contents (Elt F)),
    reshape main_v601 main_v602 rfl shapeCasts_S128x501x1_S128x501,
    nullary main_cst_40 (constant S_ .f32 0x00000000#32),
    unary main_cst_40 main_v603 (broadcastInDim S128x501 ![] bcast_S_S128x501 : (⟨S_, .f32⟩ : BufTy).Contents (Elt F) → (⟨S128x501, .f32⟩ : BufTy).Contents (Elt F)),
    binary main_v603 main_v602 main_v604 (addf : (⟨S128x501, .f32⟩ : BufTy).Contents (Elt F) → (⟨S128x501, .f32⟩ : BufTy).Contents (Elt F) → (⟨S128x501, .f32⟩ : BufTy).Contents (Elt F)),
    unary main_v600 main_v605 ((extractStridedSlice S128x501x1 ![0, 1, 1] · slices_S128x512x12_S128x501x1_0_1_1) : (⟨S128x512x12, .f32⟩ : BufTy).Contents (Elt F) → (⟨S128x501x1, .f32⟩ : BufTy).Contents (Elt F)),
    reshape main_v605 main_v606 rfl shapeCasts_S128x501x1_S128x501,
    binary main_v604 main_v606 main_v607 (addf : (⟨S128x501, .f32⟩ : BufTy).Contents (Elt F) → (⟨S128x501, .f32⟩ : BufTy).Contents (Elt F) → (⟨S128x501, .f32⟩ : BufTy).Contents (Elt F)),
    unary main_v600 main_v608 ((extractStridedSlice S128x501x1 ![0, 2, 2] · slices_S128x512x12_S128x501x1_0_2_2) : (⟨S128x512x12, .f32⟩ : BufTy).Contents (Elt F) → (⟨S128x501x1, .f32⟩ : BufTy).Contents (Elt F)),
    reshape main_v608 main_v609 rfl shapeCasts_S128x501x1_S128x501,
    binary main_v607 main_v609 main_v610 (addf : (⟨S128x501, .f32⟩ : BufTy).Contents (Elt F) → (⟨S128x501, .f32⟩ : BufTy).Contents (Elt F) → (⟨S128x501, .f32⟩ : BufTy).Contents (Elt F)),
    unary main_v600 main_v611 ((extractStridedSlice S128x501x1 ![0, 3, 3] · slices_S128x512x12_S128x501x1_0_3_3) : (⟨S128x512x12, .f32⟩ : BufTy).Contents (Elt F) → (⟨S128x501x1, .f32⟩ : BufTy).Contents (Elt F)),
    reshape main_v611 main_v612 rfl shapeCasts_S128x501x1_S128x501,
    binary main_v610 main_v612 main_v613 (addf : (⟨S128x501, .f32⟩ : BufTy).Contents (Elt F) → (⟨S128x501, .f32⟩ : BufTy).Contents (Elt F) → (⟨S128x501, .f32⟩ : BufTy).Contents (Elt F)),
    unary main_v600 main_v614 ((extractStridedSlice S128x501x1 ![0, 4, 4] · slices_S128x512x12_S128x501x1_0_4_4) : (⟨S128x512x12, .f32⟩ : BufTy).Contents (Elt F) → (⟨S128x501x1, .f32⟩ : BufTy).Contents (Elt F)),
    reshape main_v614 main_v615 rfl shapeCasts_S128x501x1_S128x501,
    binary main_v613 main_v615 main_v616 (addf : (⟨S128x501, .f32⟩ : BufTy).Contents (Elt F) → (⟨S128x501, .f32⟩ : BufTy).Contents (Elt F) → (⟨S128x501, .f32⟩ : BufTy).Contents (Elt F)) ]

/-- Segment 32: 28 operations. -/
def seg32 : List (HloOp τ sig (Elt F)) :=
  [ unary main_v600 main_v617 ((extractStridedSlice S128x501x1 ![0, 5, 5] · slices_S128x512x12_S128x501x1_0_5_5) : (⟨S128x512x12, .f32⟩ : BufTy).Contents (Elt F) → (⟨S128x501x1, .f32⟩ : BufTy).Contents (Elt F)),
    reshape main_v617 main_v618 rfl shapeCasts_S128x501x1_S128x501,
    binary main_v616 main_v618 main_v619 (addf : (⟨S128x501, .f32⟩ : BufTy).Contents (Elt F) → (⟨S128x501, .f32⟩ : BufTy).Contents (Elt F) → (⟨S128x501, .f32⟩ : BufTy).Contents (Elt F)),
    unary main_v600 main_v620 ((extractStridedSlice S128x501x1 ![0, 6, 6] · slices_S128x512x12_S128x501x1_0_6_6) : (⟨S128x512x12, .f32⟩ : BufTy).Contents (Elt F) → (⟨S128x501x1, .f32⟩ : BufTy).Contents (Elt F)),
    reshape main_v620 main_v621 rfl shapeCasts_S128x501x1_S128x501,
    binary main_v619 main_v621 main_v622 (addf : (⟨S128x501, .f32⟩ : BufTy).Contents (Elt F) → (⟨S128x501, .f32⟩ : BufTy).Contents (Elt F) → (⟨S128x501, .f32⟩ : BufTy).Contents (Elt F)),
    unary main_v600 main_v623 ((extractStridedSlice S128x501x1 ![0, 7, 7] · slices_S128x512x12_S128x501x1_0_7_7) : (⟨S128x512x12, .f32⟩ : BufTy).Contents (Elt F) → (⟨S128x501x1, .f32⟩ : BufTy).Contents (Elt F)),
    reshape main_v623 main_v624 rfl shapeCasts_S128x501x1_S128x501,
    binary main_v622 main_v624 main_v625 (addf : (⟨S128x501, .f32⟩ : BufTy).Contents (Elt F) → (⟨S128x501, .f32⟩ : BufTy).Contents (Elt F) → (⟨S128x501, .f32⟩ : BufTy).Contents (Elt F)),
    unary main_v600 main_v626 ((extractStridedSlice S128x501x1 ![0, 8, 8] · slices_S128x512x12_S128x501x1_0_8_8) : (⟨S128x512x12, .f32⟩ : BufTy).Contents (Elt F) → (⟨S128x501x1, .f32⟩ : BufTy).Contents (Elt F)),
    reshape main_v626 main_v627 rfl shapeCasts_S128x501x1_S128x501,
    binary main_v625 main_v627 main_v628 (addf : (⟨S128x501, .f32⟩ : BufTy).Contents (Elt F) → (⟨S128x501, .f32⟩ : BufTy).Contents (Elt F) → (⟨S128x501, .f32⟩ : BufTy).Contents (Elt F)),
    unary main_v600 main_v629 ((extractStridedSlice S128x501x1 ![0, 9, 9] · slices_S128x512x12_S128x501x1_0_9_9) : (⟨S128x512x12, .f32⟩ : BufTy).Contents (Elt F) → (⟨S128x501x1, .f32⟩ : BufTy).Contents (Elt F)),
    reshape main_v629 main_v630 rfl shapeCasts_S128x501x1_S128x501,
    binary main_v628 main_v630 main_v631 (addf : (⟨S128x501, .f32⟩ : BufTy).Contents (Elt F) → (⟨S128x501, .f32⟩ : BufTy).Contents (Elt F) → (⟨S128x501, .f32⟩ : BufTy).Contents (Elt F)),
    unary main_v600 main_v632 ((extractStridedSlice S128x501x1 ![0, 10, 10] · slices_S128x512x12_S128x501x1_0_10_10) : (⟨S128x512x12, .f32⟩ : BufTy).Contents (Elt F) → (⟨S128x501x1, .f32⟩ : BufTy).Contents (Elt F)),
    reshape main_v632 main_v633 rfl shapeCasts_S128x501x1_S128x501,
    binary main_v631 main_v633 main_v634 (addf : (⟨S128x501, .f32⟩ : BufTy).Contents (Elt F) → (⟨S128x501, .f32⟩ : BufTy).Contents (Elt F) → (⟨S128x501, .f32⟩ : BufTy).Contents (Elt F)),
    unary main_v600 main_v635 ((extractStridedSlice S128x501x1 ![0, 11, 11] · slices_S128x512x12_S128x501x1_0_11_11) : (⟨S128x512x12, .f32⟩ : BufTy).Contents (Elt F) → (⟨S128x501x1, .f32⟩ : BufTy).Contents (Elt F)),
    reshape main_v635 main_v636 rfl shapeCasts_S128x501x1_S128x501,
    binary main_v634 main_v636 main_v637 (addf : (⟨S128x501, .f32⟩ : BufTy).Contents (Elt F) → (⟨S128x501, .f32⟩ : BufTy).Contents (Elt F) → (⟨S128x501, .f32⟩ : BufTy).Contents (Elt F)),
    unary main_arg3 main_v638 ((extractStridedSlice S1 ![20] · slices_S64_S1_20) : (⟨S64, .f32⟩ : BufTy).Contents (Elt F) → (⟨S1, .f32⟩ : BufTy).Contents (Elt F)),
    reshape main_v638 main_v639 rfl shapeCasts_S1_S_,
    unary main_v639 main_v640 (broadcastInDim S128x501 ![] bcast_S_S128x501 : (⟨S_, .f32⟩ : BufTy).Contents (Elt F) → (⟨S128x501, .f32⟩ : BufTy).Contents (Elt F)),
    binary main_v637 main_v640 main_v641 (addf : (⟨S128x501, .f32⟩ : BufTy).Contents (Elt F) → (⟨S128x501, .f32⟩ : BufTy).Contents (Elt F) → (⟨S128x501, .f32⟩ : BufTy).Contents (Elt F)),
    unary main_v641 main_v642 (Host.tanh : (⟨S128x501, .f32⟩ : BufTy).Contents (Elt F) → (⟨S128x501, .f32⟩ : BufTy).Contents (Elt F)),
    nullary main_cst_41 (constant S_ .f32 0xFF800000#32),
    binary main_v642 main_cst_41 main_v643 ((fun x v => Host.reduce FloatOps.maximumf x v reducesTo_S128x501_S128_d1 h_S_) : (⟨S128x501, .f32⟩ : BufTy).Contents (Elt F) → (⟨S_, .f32⟩ : BufTy).Contents (Elt F) → (⟨S128, .f32⟩ : BufTy).Contents (Elt F)) ]

/-- Segment 33: 32 operations. -/
def seg33 : List (HloOp τ sig (Elt F)) :=
  [ unary main_arg2 main_v644 ((extractStridedSlice S1x12x300 ![21, 0, 0] · slices_S64x33x300_S1x12x300_21_0_0) : (⟨S64x33x300, .f32⟩ : BufTy).Contents (Elt F) → (⟨S1x12x300, .f32⟩ : BufTy).Contents (Elt F)),
    reshape main_v644 main_v645 rfl shapeCasts_S1x12x300_S12x300,
    binary main_v7 main_v645 main_v646 ((fun l r => Host.dotGeneral dot_S128x512x300_S12x300_S128x512x12_2_1_01_0_n_n none l r) : (⟨S128x512x300, .f32⟩ : BufTy).Contents (Elt F) → (⟨S12x300, .f32⟩ : BufTy).Contents (Elt F) → (⟨S128x512x12, .f32⟩ : BufTy).Contents (Elt F)),
    unary main_v646 main_v647 ((extractStridedSlice S128x501x1 ![0, 0, 0] · slices_S128x512x12_S128x501x1_0_0_0) : (⟨S128x512x12, .f32⟩ : BufTy).Contents (Elt F) → (⟨S128x501x1, .f32⟩ : BufTy).Contents (Elt F)),
    reshape main_v647 main_v648 rfl shapeCasts_S128x501x1_S128x501,
    nullary main_cst_42 (constant S_ .f32 0x00000000#32),
    unary main_cst_42 main_v649 (broadcastInDim S128x501 ![] bcast_S_S128x501 : (⟨S_, .f32⟩ : BufTy).Contents (Elt F) → (⟨S128x501, .f32⟩ : BufTy).Contents (Elt F)),
    binary main_v649 main_v648 main_v650 (addf : (⟨S128x501, .f32⟩ : BufTy).Contents (Elt F) → (⟨S128x501, .f32⟩ : BufTy).Contents (Elt F) → (⟨S128x501, .f32⟩ : BufTy).Contents (Elt F)),
    unary main_v646 main_v651 ((extractStridedSlice S128x501x1 ![0, 1, 1] · slices_S128x512x12_S128x501x1_0_1_1) : (⟨S128x512x12, .f32⟩ : BufTy).Contents (Elt F) → (⟨S128x501x1, .f32⟩ : BufTy).Contents (Elt F)),
    reshape main_v651 main_v652 rfl shapeCasts_S128x501x1_S128x501,
    binary main_v650 main_v652 main_v653 (addf : (⟨S128x501, .f32⟩ : BufTy).Contents (Elt F) → (⟨S128x501, .f32⟩ : BufTy).Contents (Elt F) → (⟨S128x501, .f32⟩ : BufTy).Contents (Elt F)),
    unary main_v646 main_v654 ((extractStridedSlice S128x501x1 ![0, 2, 2] · slices_S128x512x12_S128x501x1_0_2_2) : (⟨S128x512x12, .f32⟩ : BufTy).Contents (Elt F) → (⟨S128x501x1, .f32⟩ : BufTy).Contents (Elt F)),
    reshape main_v654 main_v655 rfl shapeCasts_S128x501x1_S128x501,
    binary main_v653 main_v655 main_v656 (addf : (⟨S128x501, .f32⟩ : BufTy).Contents (Elt F) → (⟨S128x501, .f32⟩ : BufTy).Contents (Elt F) → (⟨S128x501, .f32⟩ : BufTy).Contents (Elt F)),
    unary main_v646 main_v657 ((extractStridedSlice S128x501x1 ![0, 3, 3] · slices_S128x512x12_S128x501x1_0_3_3) : (⟨S128x512x12, .f32⟩ : BufTy).Contents (Elt F) → (⟨S128x501x1, .f32⟩ : BufTy).Contents (Elt F)),
    reshape main_v657 main_v658 rfl shapeCasts_S128x501x1_S128x501,
    binary main_v656 main_v658 main_v659 (addf : (⟨S128x501, .f32⟩ : BufTy).Contents (Elt F) → (⟨S128x501, .f32⟩ : BufTy).Contents (Elt F) → (⟨S128x501, .f32⟩ : BufTy).Contents (Elt F)),
    unary main_v646 main_v660 ((extractStridedSlice S128x501x1 ![0, 4, 4] · slices_S128x512x12_S128x501x1_0_4_4) : (⟨S128x512x12, .f32⟩ : BufTy).Contents (Elt F) → (⟨S128x501x1, .f32⟩ : BufTy).Contents (Elt F)),
    reshape main_v660 main_v661 rfl shapeCasts_S128x501x1_S128x501,
    binary main_v659 main_v661 main_v662 (addf : (⟨S128x501, .f32⟩ : BufTy).Contents (Elt F) → (⟨S128x501, .f32⟩ : BufTy).Contents (Elt F) → (⟨S128x501, .f32⟩ : BufTy).Contents (Elt F)),
    unary main_v646 main_v663 ((extractStridedSlice S128x501x1 ![0, 5, 5] · slices_S128x512x12_S128x501x1_0_5_5) : (⟨S128x512x12, .f32⟩ : BufTy).Contents (Elt F) → (⟨S128x501x1, .f32⟩ : BufTy).Contents (Elt F)),
    reshape main_v663 main_v664 rfl shapeCasts_S128x501x1_S128x501,
    binary main_v662 main_v664 main_v665 (addf : (⟨S128x501, .f32⟩ : BufTy).Contents (Elt F) → (⟨S128x501, .f32⟩ : BufTy).Contents (Elt F) → (⟨S128x501, .f32⟩ : BufTy).Contents (Elt F)),
    unary main_v646 main_v666 ((extractStridedSlice S128x501x1 ![0, 6, 6] · slices_S128x512x12_S128x501x1_0_6_6) : (⟨S128x512x12, .f32⟩ : BufTy).Contents (Elt F) → (⟨S128x501x1, .f32⟩ : BufTy).Contents (Elt F)),
    reshape main_v666 main_v667 rfl shapeCasts_S128x501x1_S128x501,
    binary main_v665 main_v667 main_v668 (addf : (⟨S128x501, .f32⟩ : BufTy).Contents (Elt F) → (⟨S128x501, .f32⟩ : BufTy).Contents (Elt F) → (⟨S128x501, .f32⟩ : BufTy).Contents (Elt F)),
    unary main_v646 main_v669 ((extractStridedSlice S128x501x1 ![0, 7, 7] · slices_S128x512x12_S128x501x1_0_7_7) : (⟨S128x512x12, .f32⟩ : BufTy).Contents (Elt F) → (⟨S128x501x1, .f32⟩ : BufTy).Contents (Elt F)),
    reshape main_v669 main_v670 rfl shapeCasts_S128x501x1_S128x501,
    binary main_v668 main_v670 main_v671 (addf : (⟨S128x501, .f32⟩ : BufTy).Contents (Elt F) → (⟨S128x501, .f32⟩ : BufTy).Contents (Elt F) → (⟨S128x501, .f32⟩ : BufTy).Contents (Elt F)),
    unary main_v646 main_v672 ((extractStridedSlice S128x501x1 ![0, 8, 8] · slices_S128x512x12_S128x501x1_0_8_8) : (⟨S128x512x12, .f32⟩ : BufTy).Contents (Elt F) → (⟨S128x501x1, .f32⟩ : BufTy).Contents (Elt F)),
    reshape main_v672 main_v673 rfl shapeCasts_S128x501x1_S128x501,
    binary main_v671 main_v673 main_v674 (addf : (⟨S128x501, .f32⟩ : BufTy).Contents (Elt F) → (⟨S128x501, .f32⟩ : BufTy).Contents (Elt F) → (⟨S128x501, .f32⟩ : BufTy).Contents (Elt F)) ]

end Cert.ReferenceIdeal.RefRun

end
-- ==== Proof.RefSegs1.lean ====
import proofs.«138672_j88897233092836_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 34: 16 operations. -/
def seg34 : List (HloOp τ sig (Elt F)) :=
  [ unary main_v646 main_v675 ((extractStridedSlice S128x501x1 ![0, 9, 9] · slices_S128x512x12_S128x501x1_0_9_9) : (⟨S128x512x12, .f32⟩ : BufTy).Contents (Elt F) → (⟨S128x501x1, .f32⟩ : BufTy).Contents (Elt F)),
    reshape main_v675 main_v676 rfl shapeCasts_S128x501x1_S128x501,
    binary main_v674 main_v676 main_v677 (addf : (⟨S128x501, .f32⟩ : BufTy).Contents (Elt F) → (⟨S128x501, .f32⟩ : BufTy).Contents (Elt F) → (⟨S128x501, .f32⟩ : BufTy).Contents (Elt F)),
    unary main_v646 main_v678 ((extractStridedSlice S128x501x1 ![0, 10, 10] · slices_S128x512x12_S128x501x1_0_10_10) : (⟨S128x512x12, .f32⟩ : BufTy).Contents (Elt F) → (⟨S128x501x1, .f32⟩ : BufTy).Contents (Elt F)),
    reshape main_v678 main_v679 rfl shapeCasts_S128x501x1_S128x501,
    binary main_v677 main_v679 main_v680 (addf : (⟨S128x501, .f32⟩ : BufTy).Contents (Elt F) → (⟨S128x501, .f32⟩ : BufTy).Contents (Elt F) → (⟨S128x501, .f32⟩ : BufTy).Contents (Elt F)),
    unary main_v646 main_v681 ((extractStridedSlice S128x501x1 ![0, 11, 11] · slices_S128x512x12_S128x501x1_0_11_11) : (⟨S128x512x12, .f32⟩ : BufTy).Contents (Elt F) → (⟨S128x501x1, .f32⟩ : BufTy).Contents (Elt F)),
    reshape main_v681 main_v682 rfl shapeCasts_S128x501x1_S128x501,
    binary main_v680 main_v682 main_v683 (addf : (⟨S128x501, .f32⟩ : BufTy).Contents (Elt F) → (⟨S128x501, .f32⟩ : BufTy).Contents (Elt F) → (⟨S128x501, .f32⟩ : BufTy).Contents (Elt F)),
    unary main_arg3 main_v684 ((extractStridedSlice S1 ![21] · slices_S64_S1_21) : (⟨S64, .f32⟩ : BufTy).Contents (Elt F) → (⟨S1, .f32⟩ : BufTy).Contents (Elt F)),
    reshape main_v684 main_v685 rfl shapeCasts_S1_S_,
    unary main_v685 main_v686 (broadcastInDim S128x501 ![] bcast_S_S128x501 : (⟨S_, .f32⟩ : BufTy).Contents (Elt F) → (⟨S128x501, .f32⟩ : BufTy).Contents (Elt F)),
    binary main_v683 main_v686 main_v687 (addf : (⟨S128x501, .f32⟩ : BufTy).Contents (Elt F) → (⟨S128x501, .f32⟩ : BufTy).Contents (Elt F) → (⟨S128x501, .f32⟩ : BufTy).Contents (Elt F)),
    unary main_v687 main_v688 (Host.tanh : (⟨S128x501, .f32⟩ : BufTy).Contents (Elt F) → (⟨S128x501, .f32⟩ : BufTy).Contents (Elt F)),
    nullary main_cst_43 (constant S_ .f32 0xFF800000#32),
    binary main_v688 main_cst_43 main_v689 ((fun x v => Host.reduce FloatOps.maximumf x v reducesTo_S128x501_S128_d1 h_S_) : (⟨S128x501, .f32⟩ : BufTy).Contents (Elt F) → (⟨S_, .f32⟩ : BufTy).Contents (Elt F) → (⟨S128, .f32⟩ : BufTy).Contents (Elt F)) ]

/-- Segment 35: 44 operations. -/
def seg35 : List (HloOp τ sig (Elt F)) :=
  [ unary main_arg2 main_v690 ((extractStridedSlice S1x13x300 ![22, 0, 0] · slices_S64x33x300_S1x13x300_22_0_0) : (⟨S64x33x300, .f32⟩ : BufTy).Contents (Elt F) → (⟨S1x13x300, .f32⟩ : BufTy).Contents (Elt F)),
    reshape main_v690 main_v691 rfl shapeCasts_S1x13x300_S13x300,
    binary main_v7 main_v691 main_v692 ((fun l r => Host.dotGeneral dot_S128x512x300_S13x300_S128x512x13_2_1_01_0_n_n none l r) : (⟨S128x512x300, .f32⟩ : BufTy).Contents (Elt F) → (⟨S13x300, .f32⟩ : BufTy).Contents (Elt F) → (⟨S128x512x13, .f32⟩ : BufTy).Contents (Elt F)),
    unary main_v692 main_v693 ((extractStridedSlice S128x500x1 ![0, 0, 0] · slices_S128x512x13_S128x500x1_0_0_0) : (⟨S128x512x13, .f32⟩ : BufTy).Contents (Elt F) → (⟨S128x500x1, .f32⟩ : BufTy).Contents (Elt F)),
    reshape main_v693 main_v694 rfl shapeCasts_S128x500x1_S128x500,
    nullary main_cst_44 (constant S_ .f32 0x00000000#32),
    unary main_cst_44 main_v695 (broadcastInDim S128x500 ![] bcast_S_S128x500 : (⟨S_, .f32⟩ : BufTy).Contents (Elt F) → (⟨S128x500, .f32⟩ : BufTy).Contents (Elt F)),
    binary main_v695 main_v694 main_v696 (addf : (⟨S128x500, .f32⟩ : BufTy).Contents (Elt F) → (⟨S128x500, .f32⟩ : BufTy).Contents (Elt F) → (⟨S128x500, .f32⟩ : BufTy).Contents (Elt F)),
    unary main_v692 main_v697 ((extractStridedSlice S128x500x1 ![0, 1, 1] · slices_S128x512x13_S128x500x1_0_1_1) : (⟨S128x512x13, .f32⟩ : BufTy).Contents (Elt F) → (⟨S128x500x1, .f32⟩ : BufTy).Contents (Elt F)),
    reshape main_v697 main_v698 rfl shapeCasts_S128x500x1_S128x500,
    binary main_v696 main_v698 main_v699 (addf : (⟨S128x500, .f32⟩ : BufTy).Contents (Elt F) → (⟨S128x500, .f32⟩ : BufTy).Contents (Elt F) → (⟨S128x500, .f32⟩ : BufTy).Contents (Elt F)),
    unary main_v692 main_v700 ((extractStridedSlice S128x500x1 ![0, 2, 2] · slices_S128x512x13_S128x500x1_0_2_2) : (⟨S128x512x13, .f32⟩ : BufTy).Contents (Elt F) → (⟨S128x500x1, .f32⟩ : BufTy).Contents (Elt F)),
    reshape main_v700 main_v701 rfl shapeCasts_S128x500x1_S128x500,
    binary main_v699 main_v701 main_v702 (addf : (⟨S128x500, .f32⟩ : BufTy).Contents (Elt F) → (⟨S128x500, .f32⟩ : BufTy).Contents (Elt F) → (⟨S128x500, .f32⟩ : BufTy).Contents (Elt F)),
    unary main_v692 main_v703 ((extractStridedSlice S128x500x1 ![0, 3, 3] · slices_S128x512x13_S128x500x1_0_3_3) : (⟨S128x512x13, .f32⟩ : BufTy).Contents (Elt F) → (⟨S128x500x1, .f32⟩ : BufTy).Contents (Elt F)),
    reshape main_v703 main_v704 rfl shapeCasts_S128x500x1_S128x500,
    binary main_v702 main_v704 main_v705 (addf : (⟨S128x500, .f32⟩ : BufTy).Contents (Elt F) → (⟨S128x500, .f32⟩ : BufTy).Contents (Elt F) → (⟨S128x500, .f32⟩ : BufTy).Contents (Elt F)),
    unary main_v692 main_v706 ((extractStridedSlice S128x500x1 ![0, 4, 4] · slices_S128x512x13_S128x500x1_0_4_4) : (⟨S128x512x13, .f32⟩ : BufTy).Contents (Elt F) → (⟨S128x500x1, .f32⟩ : BufTy).Contents (Elt F)),
    reshape main_v706 main_v707 rfl shapeCasts_S128x500x1_S128x500,
    binary main_v705 main_v707 main_v708 (addf : (⟨S128x500, .f32⟩ : BufTy).Contents (Elt F) → (⟨S128x500, .f32⟩ : BufTy).Contents (Elt F) → (⟨S128x500, .f32⟩ : BufTy).Contents (Elt F)),
    unary main_v692 main_v709 ((extractStridedSlice S128x500x1 ![0, 5, 5] · slices_S128x512x13_S128x500x1_0_5_5) : (⟨S128x512x13, .f32⟩ : BufTy).Contents (Elt F) → (⟨S128x500x1, .f32⟩ : BufTy).Contents (Elt F)),
    reshape main_v709 main_v710 rfl shapeCasts_S128x500x1_S128x500,
    binary main_v708 main_v710 main_v711 (addf : (⟨S128x500, .f32⟩ : BufTy).Contents (Elt F) → (⟨S128x500, .f32⟩ : BufTy).Contents (Elt F) → (⟨S128x500, .f32⟩ : BufTy).Contents (Elt F)),
    unary main_v692 main_v712 ((extractStridedSlice S128x500x1 ![0, 6, 6] · slices_S128x512x13_S128x500x1_0_6_6) : (⟨S128x512x13, .f32⟩ : BufTy).Contents (Elt F) → (⟨S128x500x1, .f32⟩ : BufTy).Contents (Elt F)),
    reshape main_v712 main_v713 rfl shapeCasts_S128x500x1_S128x500,
    binary main_v711 main_v713 main_v714 (addf : (⟨S128x500, .f32⟩ : BufTy).Contents (Elt F) → (⟨S128x500, .f32⟩ : BufTy).Contents (Elt F) → (⟨S128x500, .f32⟩ : BufTy).Contents (Elt F)),
    unary main_v692 main_v715 ((extractStridedSlice S128x500x1 ![0, 7, 7] · slices_S128x512x13_S128x500x1_0_7_7) : (⟨S128x512x13, .f32⟩ : BufTy).Contents (Elt F) → (⟨S128x500x1, .f32⟩ : BufTy).Contents (Elt F)),
    reshape main_v715 main_v716 rfl shapeCasts_S128x500x1_S128x500,
    binary main_v714 main_v716 main_v717 (addf : (⟨S128x500, .f32⟩ : BufTy).Contents (Elt F) → (⟨S128x500, .f32⟩ : BufTy).Contents (Elt F) → (⟨S128x500, .f32⟩ : BufTy).Contents (Elt F)),
    unary main_v692 main_v718 ((extractStridedSlice S128x500x1 ![0, 8, 8] · slices_S128x512x13_S128x500x1_0_8_8) : (⟨S128x512x13, .f32⟩ : BufTy).Contents (Elt F) → (⟨S128x500x1, .f32⟩ : BufTy).Contents (Elt F)),
    reshape main_v718 main_v719 rfl shapeCasts_S128x500x1_S128x500,
    binary main_v717 main_v719 main_v720 (addf : (⟨S128x500, .f32⟩ : BufTy).Contents (Elt F) → (⟨S128x500, .f32⟩ : BufTy).Contents (Elt F) → (⟨S128x500, .f32⟩ : BufTy).Contents (Elt F)),
    unary main_v692 main_v721 ((extractStridedSlice S128x500x1 ![0, 9, 9] · slices_S128x512x13_S128x500x1_0_9_9) : (⟨S128x512x13, .f32⟩ : BufTy).Contents (Elt F) → (⟨S128x500x1, .f32⟩ : BufTy).Contents (Elt F)),
    reshape main_v721 main_v722 rfl shapeCasts_S128x500x1_S128x500,
    binary main_v720 main_v722 main_v723 (addf : (⟨S128x500, .f32⟩ : BufTy).Contents (Elt F) → (⟨S128x500, .f32⟩ : BufTy).Contents (Elt F) → (⟨S128x500, .f32⟩ : BufTy).Contents (Elt F)),
    unary main_v692 main_v724 ((extractStridedSlice S128x500x1 ![0, 10, 10] · slices_S128x512x13_S128x500x1_0_10_10) : (⟨S128x512x13, .f32⟩ : BufTy).Contents (Elt F) → (⟨S128x500x1, .f32⟩ : BufTy).Contents (Elt F)),
    reshape main_v724 main_v725 rfl shapeCasts_S128x500x1_S128x500,
    binary main_v723 main_v725 main_v726 (addf : (⟨S128x500, .f32⟩ : BufTy).Contents (Elt F) → (⟨S128x500, .f32⟩ : BufTy).Contents (Elt F) → (⟨S128x500, .f32⟩ : BufTy).Contents (Elt F)),
    unary main_v692 main_v727 ((extractStridedSlice S128x500x1 ![0, 11, 11] · slices_S128x512x13_S128x500x1_0_11_11) : (⟨S128x512x13, .f32⟩ : BufTy).Contents (Elt F) → (⟨S128x500x1, .f32⟩ : BufTy).Contents (Elt F)),
    reshape main_v727 main_v728 rfl shapeCasts_S128x500x1_S128x500,
    binary main_v726 main_v728 main_v729 (addf : (⟨S128x500, .f32⟩ : BufTy).Contents (Elt F) → (⟨S128x500, .f32⟩ : BufTy).Contents (Elt F) → (⟨S128x500, .f32⟩ : BufTy).Contents (Elt F)),
    unary main_v692 main_v730 ((extractStridedSlice S128x500x1 ![0, 12, 12] · slices_S128x512x13_S128x500x1_0_12_12) : (⟨S128x512x13, .f32⟩ : BufTy).Contents (Elt F) → (⟨S128x500x1, .f32⟩ : BufTy).Contents (Elt F)),
    reshape main_v730 main_v731 rfl shapeCasts_S128x500x1_S128x500,
    binary main_v729 main_v731 main_v732 (addf : (⟨S128x500, .f32⟩ : BufTy).Contents (Elt F) → (⟨S128x500, .f32⟩ : BufTy).Contents (Elt F) → (⟨S128x500, .f32⟩ : BufTy).Contents (Elt F)) ]

/-- Segment 36: 7 operations. -/
def seg36 : List (HloOp τ sig (Elt F)) :=
  [ unary main_arg3 main_v733 ((extractStridedSlice S1 ![22] · slices_S64_S1_22) : (⟨S64, .f32⟩ : BufTy).Contents (Elt F) → (⟨S1, .f32⟩ : BufTy).Contents (Elt F)),
    reshape main_v733 main_v734 rfl shapeCasts_S1_S_,
    unary main_v734 main_v735 (broadcastInDim S128x500 ![] bcast_S_S128x500 : (⟨S_, .f32⟩ : BufTy).Contents (Elt F) → (⟨S128x500, .f32⟩ : BufTy).Contents (Elt F)),
    binary main_v732 main_v735 main_v736 (addf : (⟨S128x500, .f32⟩ : BufTy).Contents (Elt F) → (⟨S128x500, .f32⟩ : BufTy).Contents (Elt F) → (⟨S128x500, .f32⟩ : BufTy).Contents (Elt F)),
    unary main_v736 main_v737 (Host.tanh : (⟨S128x500, .f32⟩ : BufTy).Contents (Elt F) → (⟨S128x500, .f32⟩ : BufTy).Contents (Elt F)),
    nullary main_cst_45 (constant S_ .f32 0xFF800000#32),
    binary main_v737 main_cst_45 main_v738 ((fun x v => Host.reduce FloatOps.maximumf x v reducesTo_S128x500_S128_d1 h_S_) : (⟨S128x500, .f32⟩ : BufTy).Contents (Elt F) → (⟨S_, .f32⟩ : BufTy).Contents (Elt F) → (⟨S128, .f32⟩ : BufTy).Contents (Elt F)) ]

/-- Segment 37: 51 operations. -/
def seg37 : List (HloOp τ sig (Elt F)) :=
  [ unary main_arg2 main_v739 ((extractStridedSlice S1x13x300 ![23, 0, 0] · slices_S64x33x300_S1x13x300_23_0_0) : (⟨S64x33x300, .f32⟩ : BufTy).Contents (Elt F) → (⟨S1x13x300, .f32⟩ : BufTy).Contents (Elt F)),
    reshape main_v739 main_v740 rfl shapeCasts_S1x13x300_S13x300,
    binary main_v7 main_v740 main_v741 ((fun l r => Host.dotGeneral dot_S128x512x300_S13x300_S128x512x13_2_1_01_0_n_n none l r) : (⟨S128x512x300, .f32⟩ : BufTy).Contents (Elt F) → (⟨S13x300, .f32⟩ : BufTy).Contents (Elt F) → (⟨S128x512x13, .f32⟩ : BufTy).Contents (Elt F)),
    unary main_v741 main_v742 ((extractStridedSlice S128x500x1 ![0, 0, 0] · slices_S128x512x13_S128x500x1_0_0_0) : (⟨S128x512x13, .f32⟩ : BufTy).Contents (Elt F) → (⟨S128x500x1, .f32⟩ : BufTy).Contents (Elt F)),
    reshape main_v742 main_v743 rfl shapeCasts_S128x500x1_S128x500,
    nullary main_cst_46 (constant S_ .f32 0x00000000#32),
    unary main_cst_46 main_v744 (broadcastInDim S128x500 ![] bcast_S_S128x500 : (⟨S_, .f32⟩ : BufTy).Contents (Elt F) → (⟨S128x500, .f32⟩ : BufTy).Contents (Elt F)),
    binary main_v744 main_v743 main_v745 (addf : (⟨S128x500, .f32⟩ : BufTy).Contents (Elt F) → (⟨S128x500, .f32⟩ : BufTy).Contents (Elt F) → (⟨S128x500, .f32⟩ : BufTy).Contents (Elt F)),
    unary main_v741 main_v746 ((extractStridedSlice S128x500x1 ![0, 1, 1] · slices_S128x512x13_S128x500x1_0_1_1) : (⟨S128x512x13, .f32⟩ : BufTy).Contents (Elt F) → (⟨S128x500x1, .f32⟩ : BufTy).Contents (Elt F)),
    reshape main_v746 main_v747 rfl shapeCasts_S128x500x1_S128x500,
    binary main_v745 main_v747 main_v748 (addf : (⟨S128x500, .f32⟩ : BufTy).Contents (Elt F) → (⟨S128x500, .f32⟩ : BufTy).Contents (Elt F) → (⟨S128x500, .f32⟩ : BufTy).Contents (Elt F)),
    unary main_v741 main_v749 ((extractStridedSlice S128x500x1 ![0, 2, 2] · slices_S128x512x13_S128x500x1_0_2_2) : (⟨S128x512x13, .f32⟩ : BufTy).Contents (Elt F) → (⟨S128x500x1, .f32⟩ : BufTy).Contents (Elt F)),
    reshape main_v749 main_v750 rfl shapeCasts_S128x500x1_S128x500,
    binary main_v748 main_v750 main_v751 (addf : (⟨S128x500, .f32⟩ : BufTy).Contents (Elt F) → (⟨S128x500, .f32⟩ : BufTy).Contents (Elt F) → (⟨S128x500, .f32⟩ : BufTy).Contents (Elt F)),
    unary main_v741 main_v752 ((extractStridedSlice S128x500x1 ![0, 3, 3] · slices_S128x512x13_S128x500x1_0_3_3) : (⟨S128x512x13, .f32⟩ : BufTy).Contents (Elt F) → (⟨S128x500x1, .f32⟩ : BufTy).Contents (Elt F)),
    reshape main_v752 main_v753 rfl shapeCasts_S128x500x1_S128x500,
    binary main_v751 main_v753 main_v754 (addf : (⟨S128x500, .f32⟩ : BufTy).Contents (Elt F) → (⟨S128x500, .f32⟩ : BufTy).Contents (Elt F) → (⟨S128x500, .f32⟩ : BufTy).Contents (Elt F)),
    unary main_v741 main_v755 ((extractStridedSlice S128x500x1 ![0, 4, 4] · slices_S128x512x13_S128x500x1_0_4_4) : (⟨S128x512x13, .f32⟩ : BufTy).Contents (Elt F) → (⟨S128x500x1, .f32⟩ : BufTy).Contents (Elt F)),
    reshape main_v755 main_v756 rfl shapeCasts_S128x500x1_S128x500,
    binary main_v754 main_v756 main_v757 (addf : (⟨S128x500, .f32⟩ : BufTy).Contents (Elt F) → (⟨S128x500, .f32⟩ : BufTy).Contents (Elt F) → (⟨S128x500, .f32⟩ : BufTy).Contents (Elt F)),
    unary main_v741 main_v758 ((extractStridedSlice S128x500x1 ![0, 5, 5] · slices_S128x512x13_S128x500x1_0_5_5) : (⟨S128x512x13, .f32⟩ : BufTy).Contents (Elt F) → (⟨S128x500x1, .f32⟩ : BufTy).Contents (Elt F)),
    reshape main_v758 main_v759 rfl shapeCasts_S128x500x1_S128x500,
    binary main_v757 main_v759 main_v760 (addf : (⟨S128x500, .f32⟩ : BufTy).Contents (Elt F) → (⟨S128x500, .f32⟩ : BufTy).Contents (Elt F) → (⟨S128x500, .f32⟩ : BufTy).Contents (Elt F)),
    unary main_v741 main_v761 ((extractStridedSlice S128x500x1 ![0, 6, 6] · slices_S128x512x13_S128x500x1_0_6_6) : (⟨S128x512x13, .f32⟩ : BufTy).Contents (Elt F) → (⟨S128x500x1, .f32⟩ : BufTy).Contents (Elt F)),
    reshape main_v761 main_v762 rfl shapeCasts_S128x500x1_S128x500,
    binary main_v760 main_v762 main_v763 (addf : (⟨S128x500, .f32⟩ : BufTy).Contents (Elt F) → (⟨S128x500, .f32⟩ : BufTy).Contents (Elt F) → (⟨S128x500, .f32⟩ : BufTy).Contents (Elt F)),
    unary main_v741 main_v764 ((extractStridedSlice S128x500x1 ![0, 7, 7] · slices_S128x512x13_S128x500x1_0_7_7) : (⟨S128x512x13, .f32⟩ : BufTy).Contents (Elt F) → (⟨S128x500x1, .f32⟩ : BufTy).Contents (Elt F)),
    reshape main_v764 main_v765 rfl shapeCasts_S128x500x1_S128x500,
    binary main_v763 main_v765 main_v766 (addf : (⟨S128x500, .f32⟩ : BufTy).Contents (Elt F) → (⟨S128x500, .f32⟩ : BufTy).Contents (Elt F) → (⟨S128x500, .f32⟩ : BufTy).Contents (Elt F)),
    unary main_v741 main_v767 ((extractStridedSlice S128x500x1 ![0, 8, 8] · slices_S128x512x13_S128x500x1_0_8_8) : (⟨S128x512x13, .f32⟩ : BufTy).Contents (Elt F) → (⟨S128x500x1, .f32⟩ : BufTy).Contents (Elt F)),
    reshape main_v767 main_v768 rfl shapeCasts_S128x500x1_S128x500,
    binary main_v766 main_v768 main_v769 (addf : (⟨S128x500, .f32⟩ : BufTy).Contents (Elt F) → (⟨S128x500, .f32⟩ : BufTy).Contents (Elt F) → (⟨S128x500, .f32⟩ : BufTy).Contents (Elt F)),
    unary main_v741 main_v770 ((extractStridedSlice S128x500x1 ![0, 9, 9] · slices_S128x512x13_S128x500x1_0_9_9) : (⟨S128x512x13, .f32⟩ : BufTy).Contents (Elt F) → (⟨S128x500x1, .f32⟩ : BufTy).Contents (Elt F)),
    reshape main_v770 main_v771 rfl shapeCasts_S128x500x1_S128x500,
    binary main_v769 main_v771 main_v772 (addf : (⟨S128x500, .f32⟩ : BufTy).Contents (Elt F) → (⟨S128x500, .f32⟩ : BufTy).Contents (Elt F) → (⟨S128x500, .f32⟩ : BufTy).Contents (Elt F)),
    unary main_v741 main_v773 ((extractStridedSlice S128x500x1 ![0, 10, 10] · slices_S128x512x13_S128x500x1_0_10_10) : (⟨S128x512x13, .f32⟩ : BufTy).Contents (Elt F) → (⟨S128x500x1, .f32⟩ : BufTy).Contents (Elt F)),
    reshape main_v773 main_v774 rfl shapeCasts_S128x500x1_S128x500,
    binary main_v772 main_v774 main_v775 (addf : (⟨S128x500, .f32⟩ : BufTy).Contents (Elt F) → (⟨S128x500, .f32⟩ : BufTy).Contents (Elt F) → (⟨S128x500, .f32⟩ : BufTy).Contents (Elt F)),
    unary main_v741 main_v776 ((extractStridedSlice S128x500x1 ![0, 11, 11] · slices_S128x512x13_S128x500x1_0_11_11) : (⟨S128x512x13, .f32⟩ : BufTy).Contents (Elt F) → (⟨S128x500x1, .f32⟩ : BufTy).Contents (Elt F)),
    reshape main_v776 main_v777 rfl shapeCasts_S128x500x1_S128x500,
    binary main_v775 main_v777 main_v778 (addf : (⟨S128x500, .f32⟩ : BufTy).Contents (Elt F) → (⟨S128x500, .f32⟩ : BufTy).Contents (Elt F) → (⟨S128x500, .f32⟩ : BufTy).Contents (Elt F)),
    unary main_v741 main_v779 ((extractStridedSlice S128x500x1 ![0, 12, 12] · slices_S128x512x13_S128x500x1_0_12_12) : (⟨S128x512x13, .f32⟩ : BufTy).Contents (Elt F) → (⟨S128x500x1, .f32⟩ : BufTy).Contents (Elt F)),
    reshape main_v779 main_v780 rfl shapeCasts_S128x500x1_S128x500,
    binary main_v778 main_v780 main_v781 (addf : (⟨S128x500, .f32⟩ : BufTy).Contents (Elt F) → (⟨S128x500, .f32⟩ : BufTy).Contents (Elt F) → (⟨S128x500, .f32⟩ : BufTy).Contents (Elt F)),
    unary main_arg3 main_v782 ((extractStridedSlice S1 ![23] · slices_S64_S1_23) : (⟨S64, .f32⟩ : BufTy).Contents (Elt F) → (⟨S1, .f32⟩ : BufTy).Contents (Elt F)),
    reshape main_v782 main_v783 rfl shapeCasts_S1_S_,
    unary main_v783 main_v784 (broadcastInDim S128x500 ![] bcast_S_S128x500 : (⟨S_, .f32⟩ : BufTy).Contents (Elt F) → (⟨S128x500, .f32⟩ : BufTy).Contents (Elt F)),
    binary main_v781 main_v784 main_v785 (addf : (⟨S128x500, .f32⟩ : BufTy).Contents (Elt F) → (⟨S128x500, .f32⟩ : BufTy).Contents (Elt F) → (⟨S128x500, .f32⟩ : BufTy).Contents (Elt F)),
    unary main_v785 main_v786 (Host.tanh : (⟨S128x500, .f32⟩ : BufTy).Contents (Elt F) → (⟨S128x500, .f32⟩ : BufTy).Contents (Elt F)),
    nullary main_cst_47 (constant S_ .f32 0xFF800000#32),
    binary main_v786 main_cst_47 main_v787 ((fun x v => Host.reduce FloatOps.maximumf x v reducesTo_S128x500_S128_d1 h_S_) : (⟨S128x500, .f32⟩ : BufTy).Contents (Elt F) → (⟨S_, .f32⟩ : BufTy).Contents (Elt F) → (⟨S128, .f32⟩ : BufTy).Contents (Elt F)) ]

/-- Segment 38: 2 operations. -/
def seg38 : List (HloOp τ sig (Elt F)) :=
  [ unary main_arg2 main_v788 ((extractStridedSlice S1x14x300 ![24, 0, 0] · slices_S64x33x300_S1x14x300_24_0_0) : (⟨S64x33x300, .f32⟩ : BufTy).Contents (Elt F) → (⟨S1x14x300, .f32⟩ : BufTy).Contents (Elt F)),
    reshape main_v788 main_v789 rfl shapeCasts_S1x14x300_S14x300 ]

/-- Segment 39: 52 operations. -/
def seg39 : List (HloOp τ sig (Elt F)) :=
  [ binary main_v7 main_v789 main_v790 ((fun l r => Host.dotGeneral dot_S128x512x300_S14x300_S128x512x14_2_1_01_0_n_n none l r) : (⟨S128x512x300, .f32⟩ : BufTy).Contents (Elt F) → (⟨S14x300, .f32⟩ : BufTy).Contents (Elt F) → (⟨S128x512x14, .f32⟩ : BufTy).Contents (Elt F)),
    unary main_v790 main_v791 ((extractStridedSlice S128x499x1 ![0, 0, 0] · slices_S128x512x14_S128x499x1_0_0_0) : (⟨S128x512x14, .f32⟩ : BufTy).Contents (Elt F) → (⟨S128x499x1, .f32⟩ : BufTy).Contents (Elt F)),
    reshape main_v791 main_v792 rfl shapeCasts_S128x499x1_S128x499,
    nullary main_cst_48 (constant S_ .f32 0x00000000#32),
    unary main_cst_48 main_v793 (broadcastInDim S128x499 ![] bcast_S_S128x499 : (⟨S_, .f32⟩ : BufTy).Contents (Elt F) → (⟨S128x499, .f32⟩ : BufTy).Contents (Elt F)),
    binary main_v793 main_v792 main_v794 (addf : (⟨S128x499, .f32⟩ : BufTy).Contents (Elt F) → (⟨S128x499, .f32⟩ : BufTy).Contents (Elt F) → (⟨S128x499, .f32⟩ : BufTy).Contents (Elt F)),
    unary main_v790 main_v795 ((extractStridedSlice S128x499x1 ![0, 1, 1] · slices_S128x512x14_S128x499x1_0_1_1) : (⟨S128x512x14, .f32⟩ : BufTy).Contents (Elt F) → (⟨S128x499x1, .f32⟩ : BufTy).Contents (Elt F)),
    reshape main_v795 main_v796 rfl shapeCasts_S128x499x1_S128x499,
    binary main_v794 main_v796 main_v797 (addf : (⟨S128x499, .f32⟩ : BufTy).Contents (Elt F) → (⟨S128x499, .f32⟩ : BufTy).Contents (Elt F) → (⟨S128x499, .f32⟩ : BufTy).Contents (Elt F)),
    unary main_v790 main_v798 ((extractStridedSlice S128x499x1 ![0, 2, 2] · slices_S128x512x14_S128x499x1_0_2_2) : (⟨S128x512x14, .f32⟩ : BufTy).Contents (Elt F) → (⟨S128x499x1, .f32⟩ : BufTy).Contents (Elt F)),
    reshape main_v798 main_v799 rfl shapeCasts_S128x499x1_S128x499,
    binary main_v797 main_v799 main_v800 (addf : (⟨S128x499, .f32⟩ : BufTy).Contents (Elt F) → (⟨S128x499, .f32⟩ : BufTy).Contents (Elt F) → (⟨S128x499, .f32⟩ : BufTy).Contents (Elt F)),
    unary main_v790 main_v801 ((extractStridedSlice S128x499x1 ![0, 3, 3] · slices_S128x512x14_S128x499x1_0_3_3) : (⟨S128x512x14, .f32⟩ : BufTy).Contents (Elt F) → (⟨S128x499x1, .f32⟩ : BufTy).Contents (Elt F)),
    reshape main_v801 main_v802 rfl shapeCasts_S128x499x1_S128x499,
    binary main_v800 main_v802 main_v803 (addf : (⟨S128x499, .f32⟩ : BufTy).Contents (Elt F) → (⟨S128x499, .f32⟩ : BufTy).Contents (Elt F) → (⟨S128x499, .f32⟩ : BufTy).Contents (Elt F)),
    unary main_v790 main_v804 ((extractStridedSlice S128x499x1 ![0, 4, 4] · slices_S128x512x14_S128x499x1_0_4_4) : (⟨S128x512x14, .f32⟩ : BufTy).Contents (Elt F) → (⟨S128x499x1, .f32⟩ : BufTy).Contents (Elt F)),
    reshape main_v804 main_v805 rfl shapeCasts_S128x499x1_S128x499,
    binary main_v803 main_v805 main_v806 (addf : (⟨S128x499, .f32⟩ : BufTy).Contents (Elt F) → (⟨S128x499, .f32⟩ : BufTy).Contents (Elt F) → (⟨S128x499, .f32⟩ : BufTy).Contents (Elt F)),
    unary main_v790 main_v807 ((extractStridedSlice S128x499x1 ![0, 5, 5] · slices_S128x512x14_S128x499x1_0_5_5) : (⟨S128x512x14, .f32⟩ : BufTy).Contents (Elt F) → (⟨S128x499x1, .f32⟩ : BufTy).Contents (Elt F)),
    reshape main_v807 main_v808 rfl shapeCasts_S128x499x1_S128x499,
    binary main_v806 main_v808 main_v809 (addf : (⟨S128x499, .f32⟩ : BufTy).Contents (Elt F) → (⟨S128x499, .f32⟩ : BufTy).Contents (Elt F) → (⟨S128x499, .f32⟩ : BufTy).Contents (Elt F)),
    unary main_v790 main_v810 ((extractStridedSlice S128x499x1 ![0, 6, 6] · slices_S128x512x14_S128x499x1_0_6_6) : (⟨S128x512x14, .f32⟩ : BufTy).Contents (Elt F) → (⟨S128x499x1, .f32⟩ : BufTy).Contents (Elt F)),
    reshape main_v810 main_v811 rfl shapeCasts_S128x499x1_S128x499,
    binary main_v809 main_v811 main_v812 (addf : (⟨S128x499, .f32⟩ : BufTy).Contents (Elt F) → (⟨S128x499, .f32⟩ : BufTy).Contents (Elt F) → (⟨S128x499, .f32⟩ : BufTy).Contents (Elt F)),
    unary main_v790 main_v813 ((extractStridedSlice S128x499x1 ![0, 7, 7] · slices_S128x512x14_S128x499x1_0_7_7) : (⟨S128x512x14, .f32⟩ : BufTy).Contents (Elt F) → (⟨S128x499x1, .f32⟩ : BufTy).Contents (Elt F)),
    reshape main_v813 main_v814 rfl shapeCasts_S128x499x1_S128x499,
    binary main_v812 main_v814 main_v815 (addf : (⟨S128x499, .f32⟩ : BufTy).Contents (Elt F) → (⟨S128x499, .f32⟩ : BufTy).Contents (Elt F) → (⟨S128x499, .f32⟩ : BufTy).Contents (Elt F)),
    unary main_v790 main_v816 ((extractStridedSlice S128x499x1 ![0, 8, 8] · slices_S128x512x14_S128x499x1_0_8_8) : (⟨S128x512x14, .f32⟩ : BufTy).Contents (Elt F) → (⟨S128x499x1, .f32⟩ : BufTy).Contents (Elt F)),
    reshape main_v816 main_v817 rfl shapeCasts_S128x499x1_S128x499,
    binary main_v815 main_v817 main_v818 (addf : (⟨S128x499, .f32⟩ : BufTy).Contents (Elt F) → (⟨S128x499, .f32⟩ : BufTy).Contents (Elt F) → (⟨S128x499, .f32⟩ : BufTy).Contents (Elt F)),
    unary main_v790 main_v819 ((extractStridedSlice S128x499x1 ![0, 9, 9] · slices_S128x512x14_S128x499x1_0_9_9) : (⟨S128x512x14, .f32⟩ : BufTy).Contents (Elt F) → (⟨S128x499x1, .f32⟩ : BufTy).Contents (Elt F)),
    reshape main_v819 main_v820 rfl shapeCasts_S128x499x1_S128x499,
    binary main_v818 main_v820 main_v821 (addf : (⟨S128x499, .f32⟩ : BufTy).Contents (Elt F) → (⟨S128x499, .f32⟩ : BufTy).Contents (Elt F) → (⟨S128x499, .f32⟩ : BufTy).Contents (Elt F)),
    unary main_v790 main_v822 ((extractStridedSlice S128x499x1 ![0, 10, 10] · slices_S128x512x14_S128x499x1_0_10_10) : (⟨S128x512x14, .f32⟩ : BufTy).Contents (Elt F) → (⟨S128x499x1, .f32⟩ : BufTy).Contents (Elt F)),
    reshape main_v822 main_v823 rfl shapeCasts_S128x499x1_S128x499,
    binary main_v821 main_v823 main_v824 (addf : (⟨S128x499, .f32⟩ : BufTy).Contents (Elt F) → (⟨S128x499, .f32⟩ : BufTy).Contents (Elt F) → (⟨S128x499, .f32⟩ : BufTy).Contents (Elt F)),
    unary main_v790 main_v825 ((extractStridedSlice S128x499x1 ![0, 11, 11] · slices_S128x512x14_S128x499x1_0_11_11) : (⟨S128x512x14, .f32⟩ : BufTy).Contents (Elt F) → (⟨S128x499x1, .f32⟩ : BufTy).Contents (Elt F)),
    reshape main_v825 main_v826 rfl shapeCasts_S128x499x1_S128x499,
    binary main_v824 main_v826 main_v827 (addf : (⟨S128x499, .f32⟩ : BufTy).Contents (Elt F) → (⟨S128x499, .f32⟩ : BufTy).Contents (Elt F) → (⟨S128x499, .f32⟩ : BufTy).Contents (Elt F)),
    unary main_v790 main_v828 ((extractStridedSlice S128x499x1 ![0, 12, 12] · slices_S128x512x14_S128x499x1_0_12_12) : (⟨S128x512x14, .f32⟩ : BufTy).Contents (Elt F) → (⟨S128x499x1, .f32⟩ : BufTy).Contents (Elt F)),
    reshape main_v828 main_v829 rfl shapeCasts_S128x499x1_S128x499,
    binary main_v827 main_v829 main_v830 (addf : (⟨S128x499, .f32⟩ : BufTy).Contents (Elt F) → (⟨S128x499, .f32⟩ : BufTy).Contents (Elt F) → (⟨S128x499, .f32⟩ : BufTy).Contents (Elt F)),
    unary main_v790 main_v831 ((extractStridedSlice S128x499x1 ![0, 13, 13] · slices_S128x512x14_S128x499x1_0_13_13) : (⟨S128x512x14, .f32⟩ : BufTy).Contents (Elt F) → (⟨S128x499x1, .f32⟩ : BufTy).Contents (Elt F)),
    reshape main_v831 main_v832 rfl shapeCasts_S128x499x1_S128x499,
    binary main_v830 main_v832 main_v833 (addf : (⟨S128x499, .f32⟩ : BufTy).Contents (Elt F) → (⟨S128x499, .f32⟩ : BufTy).Contents (Elt F) → (⟨S128x499, .f32⟩ : BufTy).Contents (Elt F)),
    unary main_arg3 main_v834 ((extractStridedSlice S1 ![24] · slices_S64_S1_24) : (⟨S64, .f32⟩ : BufTy).Contents (Elt F) → (⟨S1, .f32⟩ : BufTy).Contents (Elt F)),
    reshape main_v834 main_v835 rfl shapeCasts_S1_S_,
    unary main_v835 main_v836 (broadcastInDim S128x499 ![] bcast_S_S128x499 : (⟨S_, .f32⟩ : BufTy).Contents (Elt F) → (⟨S128x499, .f32⟩ : BufTy).Contents (Elt F)),
    binary main_v833 main_v836 main_v837 (addf : (⟨S128x499, .f32⟩ : BufTy).Contents (Elt F) → (⟨S128x499, .f32⟩ : BufTy).Contents (Elt F) → (⟨S128x499, .f32⟩ : BufTy).Contents (Elt F)),
    unary main_v837 main_v838 (Host.tanh : (⟨S128x499, .f32⟩ : BufTy).Contents (Elt F) → (⟨S128x499, .f32⟩ : BufTy).Contents (Elt F)),
    nullary main_cst_49 (constant S_ .f32 0xFF800000#32),
    binary main_v838 main_cst_49 main_v839 ((fun x v => Host.reduce FloatOps.maximumf x v reducesTo_S128x499_S128_d1 h_S_) : (⟨S128x499, .f32⟩ : BufTy).Contents (Elt F) → (⟨S_, .f32⟩ : BufTy).Contents (Elt F) → (⟨S128, .f32⟩ : BufTy).Contents (Elt F)) ]

/-- Segment 40: 8 operations. -/
def seg40 : List (HloOp τ sig (Elt F)) :=
  [ unary main_arg2 main_v840 ((extractStridedSlice S1x14x300 ![25, 0, 0] · slices_S64x33x300_S1x14x300_25_0_0) : (⟨S64x33x300, .f32⟩ : BufTy).Contents (Elt F) → (⟨S1x14x300, .f32⟩ : BufTy).Contents (Elt F)),
    reshape main_v840 main_v841 rfl shapeCasts_S1x14x300_S14x300,
    binary main_v7 main_v841 main_v842 ((fun l r => Host.dotGeneral dot_S128x512x300_S14x300_S128x512x14_2_1_01_0_n_n none l r) : (⟨S128x512x300, .f32⟩ : BufTy).Contents (Elt F) → (⟨S14x300, .f32⟩ : BufTy).Contents (Elt F) → (⟨S128x512x14, .f32⟩ : BufTy).Contents (Elt F)),
    unary main_v842 main_v843 ((extractStridedSlice S128x499x1 ![0, 0, 0] · slices_S128x512x14_S128x499x1_0_0_0) : (⟨S128x512x14, .f32⟩ : BufTy).Contents (Elt F) → (⟨S128x499x1, .f32⟩ : BufTy).Contents (Elt F)),
    reshape main_v843 main_v844 rfl shapeCasts_S128x499x1_S128x499,
    nullary main_cst_50 (constant S_ .f32 0x00000000#32),
    unary main_cst_50 main_v845 (broadcastInDim S128x499 ![] bcast_S_S128x499 : (⟨S_, .f32⟩ : BufTy).Contents (Elt F) → (⟨S128x499, .f32⟩ : BufTy).Contents (Elt F)),
    binary main_v845 main_v844 main_v846 (addf : (⟨S128x499, .f32⟩ : BufTy).Contents (Elt F) → (⟨S128x499, .f32⟩ : BufTy).Contents (Elt F) → (⟨S128x499, .f32⟩ : BufTy).Contents (Elt F)) ]

/-- Segment 41: 46 operations. -/
def seg41 : List (HloOp τ sig (Elt F)) :=
  [ unary main_v842 main_v847 ((extractStridedSlice S128x499x1 ![0, 1, 1] · slices_S128x512x14_S128x499x1_0_1_1) : (⟨S128x512x14, .f32⟩ : BufTy).Contents (Elt F) → (⟨S128x499x1, .f32⟩ : BufTy).Contents (Elt F)),
    reshape main_v847 main_v848 rfl shapeCasts_S128x499x1_S128x499,
    binary main_v846 main_v848 main_v849 (addf : (⟨S128x499, .f32⟩ : BufTy).Contents (Elt F) → (⟨S128x499, .f32⟩ : BufTy).Contents (Elt F) → (⟨S128x499, .f32⟩ : BufTy).Contents (Elt F)),
    unary main_v842 main_v850 ((extractStridedSlice S128x499x1 ![0, 2, 2] · slices_S128x512x14_S128x499x1_0_2_2) : (⟨S128x512x14, .f32⟩ : BufTy).Contents (Elt F) → (⟨S128x499x1, .f32⟩ : BufTy).Contents (Elt F)),
    reshape main_v850 main_v851 rfl shapeCasts_S128x499x1_S128x499,
    binary main_v849 main_v851 main_v852 (addf : (⟨S128x499, .f32⟩ : BufTy).Contents (Elt F) → (⟨S128x499, .f32⟩ : BufTy).Contents (Elt F) → (⟨S128x499, .f32⟩ : BufTy).Contents (Elt F)),
    unary main_v842 main_v853 ((extractStridedSlice S128x499x1 ![0, 3, 3] · slices_S128x512x14_S128x499x1_0_3_3) : (⟨S128x512x14, .f32⟩ : BufTy).Contents (Elt F) → (⟨S128x499x1, .f32⟩ : BufTy).Contents (Elt F)),
    reshape main_v853 main_v854 rfl shapeCasts_S128x499x1_S128x499,
    binary main_v852 main_v854 main_v855 (addf : (⟨S128x499, .f32⟩ : BufTy).Contents (Elt F) → (⟨S128x499, .f32⟩ : BufTy).Contents (Elt F) → (⟨S128x499, .f32⟩ : BufTy).Contents (Elt F)),
    unary main_v842 main_v856 ((extractStridedSlice S128x499x1 ![0, 4, 4] · slices_S128x512x14_S128x499x1_0_4_4) : (⟨S128x512x14, .f32⟩ : BufTy).Contents (Elt F) → (⟨S128x499x1, .f32⟩ : BufTy).Contents (Elt F)),
    reshape main_v856 main_v857 rfl shapeCasts_S128x499x1_S128x499,
    binary main_v855 main_v857 main_v858 (addf : (⟨S128x499, .f32⟩ : BufTy).Contents (Elt F) → (⟨S128x499, .f32⟩ : BufTy).Contents (Elt F) → (⟨S128x499, .f32⟩ : BufTy).Contents (Elt F)),
    unary main_v842 main_v859 ((extractStridedSlice S128x499x1 ![0, 5, 5] · slices_S128x512x14_S128x499x1_0_5_5) : (⟨S128x512x14, .f32⟩ : BufTy).Contents (Elt F) → (⟨S128x499x1, .f32⟩ : BufTy).Contents (Elt F)),
    reshape main_v859 main_v860 rfl shapeCasts_S128x499x1_S128x499,
    binary main_v858 main_v860 main_v861 (addf : (⟨S128x499, .f32⟩ : BufTy).Contents (Elt F) → (⟨S128x499, .f32⟩ : BufTy).Contents (Elt F) → (⟨S128x499, .f32⟩ : BufTy).Contents (Elt F)),
    unary main_v842 main_v862 ((extractStridedSlice S128x499x1 ![0, 6, 6] · slices_S128x512x14_S128x499x1_0_6_6) : (⟨S128x512x14, .f32⟩ : BufTy).Contents (Elt F) → (⟨S128x499x1, .f32⟩ : BufTy).Contents (Elt F)),
    reshape main_v862 main_v863 rfl shapeCasts_S128x499x1_S128x499,
    binary main_v861 main_v863 main_v864 (addf : (⟨S128x499, .f32⟩ : BufTy).Contents (Elt F) → (⟨S128x499, .f32⟩ : BufTy).Contents (Elt F) → (⟨S128x499, .f32⟩ : BufTy).Contents (Elt F)),
    unary main_v842 main_v865 ((extractStridedSlice S128x499x1 ![0, 7, 7] · slices_S128x512x14_S128x499x1_0_7_7) : (⟨S128x512x14, .f32⟩ : BufTy).Contents (Elt F) → (⟨S128x499x1, .f32⟩ : BufTy).Contents (Elt F)),
    reshape main_v865 main_v866 rfl shapeCasts_S128x499x1_S128x499,
    binary main_v864 main_v866 main_v867 (addf : (⟨S128x499, .f32⟩ : BufTy).Contents (Elt F) → (⟨S128x499, .f32⟩ : BufTy).Contents (Elt F) → (⟨S128x499, .f32⟩ : BufTy).Contents (Elt F)),
    unary main_v842 main_v868 ((extractStridedSlice S128x499x1 ![0, 8, 8] · slices_S128x512x14_S128x499x1_0_8_8) : (⟨S128x512x14, .f32⟩ : BufTy).Contents (Elt F) → (⟨S128x499x1, .f32⟩ : BufTy).Contents (Elt F)),
    reshape main_v868 main_v869 rfl shapeCasts_S128x499x1_S128x499,
    binary main_v867 main_v869 main_v870 (addf : (⟨S128x499, .f32⟩ : BufTy).Contents (Elt F) → (⟨S128x499, .f32⟩ : BufTy).Contents (Elt F) → (⟨S128x499, .f32⟩ : BufTy).Contents (Elt F)),
    unary main_v842 main_v871 ((extractStridedSlice S128x499x1 ![0, 9, 9] · slices_S128x512x14_S128x499x1_0_9_9) : (⟨S128x512x14, .f32⟩ : BufTy).Contents (Elt F) → (⟨S128x499x1, .f32⟩ : BufTy).Contents (Elt F)),
    reshape main_v871 main_v872 rfl shapeCasts_S128x499x1_S128x499,
    binary main_v870 main_v872 main_v873 (addf : (⟨S128x499, .f32⟩ : BufTy).Contents (Elt F) → (⟨S128x499, .f32⟩ : BufTy).Contents (Elt F) → (⟨S128x499, .f32⟩ : BufTy).Contents (Elt F)),
    unary main_v842 main_v874 ((extractStridedSlice S128x499x1 ![0, 10, 10] · slices_S128x512x14_S128x499x1_0_10_10) : (⟨S128x512x14, .f32⟩ : BufTy).Contents (Elt F) → (⟨S128x499x1, .f32⟩ : BufTy).Contents (Elt F)),
    reshape main_v874 main_v875 rfl shapeCasts_S128x499x1_S128x499,
    binary main_v873 main_v875 main_v876 (addf : (⟨S128x499, .f32⟩ : BufTy).Contents (Elt F) → (⟨S128x499, .f32⟩ : BufTy).Contents (Elt F) → (⟨S128x499, .f32⟩ : BufTy).Contents (Elt F)),
    unary main_v842 main_v877 ((extractStridedSlice S128x499x1 ![0, 11, 11] · slices_S128x512x14_S128x499x1_0_11_11) : (⟨S128x512x14, .f32⟩ : BufTy).Contents (Elt F) → (⟨S128x499x1, .f32⟩ : BufTy).Contents (Elt F)),
    reshape main_v877 main_v878 rfl shapeCasts_S128x499x1_S128x499,
    binary main_v876 main_v878 main_v879 (addf : (⟨S128x499, .f32⟩ : BufTy).Contents (Elt F) → (⟨S128x499, .f32⟩ : BufTy).Contents (Elt F) → (⟨S128x499, .f32⟩ : BufTy).Contents (Elt F)),
    unary main_v842 main_v880 ((extractStridedSlice S128x499x1 ![0, 12, 12] · slices_S128x512x14_S128x499x1_0_12_12) : (⟨S128x512x14, .f32⟩ : BufTy).Contents (Elt F) → (⟨S128x499x1, .f32⟩ : BufTy).Contents (Elt F)),
    reshape main_v880 main_v881 rfl shapeCasts_S128x499x1_S128x499,
    binary main_v879 main_v881 main_v882 (addf : (⟨S128x499, .f32⟩ : BufTy).Contents (Elt F) → (⟨S128x499, .f32⟩ : BufTy).Contents (Elt F) → (⟨S128x499, .f32⟩ : BufTy).Contents (Elt F)),
    unary main_v842 main_v883 ((extractStridedSlice S128x499x1 ![0, 13, 13] · slices_S128x512x14_S128x499x1_0_13_13) : (⟨S128x512x14, .f32⟩ : BufTy).Contents (Elt F) → (⟨S128x499x1, .f32⟩ : BufTy).Contents (Elt F)),
    reshape main_v883 main_v884 rfl shapeCasts_S128x499x1_S128x499,
    binary main_v882 main_v884 main_v885 (addf : (⟨S128x499, .f32⟩ : BufTy).Contents (Elt F) → (⟨S128x499, .f32⟩ : BufTy).Contents (Elt F) → (⟨S128x499, .f32⟩ : BufTy).Contents (Elt F)),
    unary main_arg3 main_v886 ((extractStridedSlice S1 ![25] · slices_S64_S1_25) : (⟨S64, .f32⟩ : BufTy).Contents (Elt F) → (⟨S1, .f32⟩ : BufTy).Contents (Elt F)),
    reshape main_v886 main_v887 rfl shapeCasts_S1_S_,
    unary main_v887 main_v888 (broadcastInDim S128x499 ![] bcast_S_S128x499 : (⟨S_, .f32⟩ : BufTy).Contents (Elt F) → (⟨S128x499, .f32⟩ : BufTy).Contents (Elt F)),
    binary main_v885 main_v888 main_v889 (addf : (⟨S128x499, .f32⟩ : BufTy).Contents (Elt F) → (⟨S128x499, .f32⟩ : BufTy).Contents (Elt F) → (⟨S128x499, .f32⟩ : BufTy).Contents (Elt F)),
    unary main_v889 main_v890 (Host.tanh : (⟨S128x499, .f32⟩ : BufTy).Contents (Elt F) → (⟨S128x499, .f32⟩ : BufTy).Contents (Elt F)),
    nullary main_cst_51 (constant S_ .f32 0xFF800000#32),
    binary main_v890 main_cst_51 main_v891 ((fun x v => Host.reduce FloatOps.maximumf x v reducesTo_S128x499_S128_d1 h_S_) : (⟨S128x499, .f32⟩ : BufTy).Contents (Elt F) → (⟨S_, .f32⟩ : BufTy).Contents (Elt F) → (⟨S128, .f32⟩ : BufTy).Contents (Elt F)) ]

/-- Segment 42: 14 operations. -/
def seg42 : List (HloOp τ sig (Elt F)) :=
  [ unary main_arg2 main_v892 ((extractStridedSlice S1x15x300 ![26, 0, 0] · slices_S64x33x300_S1x15x300_26_0_0) : (⟨S64x33x300, .f32⟩ : BufTy).Contents (Elt F) → (⟨S1x15x300, .f32⟩ : BufTy).Contents (Elt F)),
    reshape main_v892 main_v893 rfl shapeCasts_S1x15x300_S15x300,
    binary main_v7 main_v893 main_v894 ((fun l r => Host.dotGeneral dot_S128x512x300_S15x300_S128x512x15_2_1_01_0_n_n none l r) : (⟨S128x512x300, .f32⟩ : BufTy).Contents (Elt F) → (⟨S15x300, .f32⟩ : BufTy).Contents (Elt F) → (⟨S128x512x15, .f32⟩ : BufTy).Contents (Elt F)),
    unary main_v894 main_v895 ((extractStridedSlice S128x498x1 ![0, 0, 0] · slices_S128x512x15_S128x498x1_0_0_0) : (⟨S128x512x15, .f32⟩ : BufTy).Contents (Elt F) → (⟨S128x498x1, .f32⟩ : BufTy).Contents (Elt F)),
    reshape main_v895 main_v896 rfl shapeCasts_S128x498x1_S128x498,
    nullary main_cst_52 (constant S_ .f32 0x00000000#32),
    unary main_cst_52 main_v897 (broadcastInDim S128x498 ![] bcast_S_S128x498 : (⟨S_, .f32⟩ : BufTy).Contents (Elt F) → (⟨S128x498, .f32⟩ : BufTy).Contents (Elt F)),
    binary main_v897 main_v896 main_v898 (addf : (⟨S128x498, .f32⟩ : BufTy).Contents (Elt F) → (⟨S128x498, .f32⟩ : BufTy).Contents (Elt F) → (⟨S128x498, .f32⟩ : BufTy).Contents (Elt F)),
    unary main_v894 main_v899 ((extractStridedSlice S128x498x1 ![0, 1, 1] · slices_S128x512x15_S128x498x1_0_1_1) : (⟨S128x512x15, .f32⟩ : BufTy).Contents (Elt F) → (⟨S128x498x1, .f32⟩ : BufTy).Contents (Elt F)),
    reshape main_v899 main_v900 rfl shapeCasts_S128x498x1_S128x498,
    binary main_v898 main_v900 main_v901 (addf : (⟨S128x498, .f32⟩ : BufTy).Contents (Elt F) → (⟨S128x498, .f32⟩ : BufTy).Contents (Elt F) → (⟨S128x498, .f32⟩ : BufTy).Contents (Elt F)),
    unary main_v894 main_v902 ((extractStridedSlice S128x498x1 ![0, 2, 2] · slices_S128x512x15_S128x498x1_0_2_2) : (⟨S128x512x15, .f32⟩ : BufTy).Contents (Elt F) → (⟨S128x498x1, .f32⟩ : BufTy).Contents (Elt F)),
    reshape main_v902 main_v903 rfl shapeCasts_S128x498x1_S128x498,
    binary main_v901 main_v903 main_v904 (addf : (⟨S128x498, .f32⟩ : BufTy).Contents (Elt F) → (⟨S128x498, .f32⟩ : BufTy).Contents (Elt F) → (⟨S128x498, .f32⟩ : BufTy).Contents (Elt F)) ]

/-- Segment 43: 43 operations. -/
def seg43 : List (HloOp τ sig (Elt F)) :=
  [ unary main_v894 main_v905 ((extractStridedSlice S128x498x1 ![0, 3, 3] · slices_S128x512x15_S128x498x1_0_3_3) : (⟨S128x512x15, .f32⟩ : BufTy).Contents (Elt F) → (⟨S128x498x1, .f32⟩ : BufTy).Contents (Elt F)),
    reshape main_v905 main_v906 rfl shapeCasts_S128x498x1_S128x498,
    binary main_v904 main_v906 main_v907 (addf : (⟨S128x498, .f32⟩ : BufTy).Contents (Elt F) → (⟨S128x498, .f32⟩ : BufTy).Contents (Elt F) → (⟨S128x498, .f32⟩ : BufTy).Contents (Elt F)),
    unary main_v894 main_v908 ((extractStridedSlice S128x498x1 ![0, 4, 4] · slices_S128x512x15_S128x498x1_0_4_4) : (⟨S128x512x15, .f32⟩ : BufTy).Contents (Elt F) → (⟨S128x498x1, .f32⟩ : BufTy).Contents (Elt F)),
    reshape main_v908 main_v909 rfl shapeCasts_S128x498x1_S128x498,
    binary main_v907 main_v909 main_v910 (addf : (⟨S128x498, .f32⟩ : BufTy).Contents (Elt F) → (⟨S128x498, .f32⟩ : BufTy).Contents (Elt F) → (⟨S128x498, .f32⟩ : BufTy).Contents (Elt F)),
    unary main_v894 main_v911 ((extractStridedSlice S128x498x1 ![0, 5, 5] · slices_S128x512x15_S128x498x1_0_5_5) : (⟨S128x512x15, .f32⟩ : BufTy).Contents (Elt F) → (⟨S128x498x1, .f32⟩ : BufTy).Contents (Elt F)),
    reshape main_v911 main_v912 rfl shapeCasts_S128x498x1_S128x498,
    binary main_v910 main_v912 main_v913 (addf : (⟨S128x498, .f32⟩ : BufTy).Contents (Elt F) → (⟨S128x498, .f32⟩ : BufTy).Contents (Elt F) → (⟨S128x498, .f32⟩ : BufTy).Contents (Elt F)),
    unary main_v894 main_v914 ((extractStridedSlice S128x498x1 ![0, 6, 6] · slices_S128x512x15_S128x498x1_0_6_6) : (⟨S128x512x15, .f32⟩ : BufTy).Contents (Elt F) → (⟨S128x498x1, .f32⟩ : BufTy).Contents (Elt F)),
    reshape main_v914 main_v915 rfl shapeCasts_S128x498x1_S128x498,
    binary main_v913 main_v915 main_v916 (addf : (⟨S128x498, .f32⟩ : BufTy).Contents (Elt F) → (⟨S128x498, .f32⟩ : BufTy).Contents (Elt F) → (⟨S128x498, .f32⟩ : BufTy).Contents (Elt F)),
    unary main_v894 main_v917 ((extractStridedSlice S128x498x1 ![0, 7, 7] · slices_S128x512x15_S128x498x1_0_7_7) : (⟨S128x512x15, .f32⟩ : BufTy).Contents (Elt F) → (⟨S128x498x1, .f32⟩ : BufTy).Contents (Elt F)),
    reshape main_v917 main_v918 rfl shapeCasts_S128x498x1_S128x498,
    binary main_v916 main_v918 main_v919 (addf : (⟨S128x498, .f32⟩ : BufTy).Contents (Elt F) → (⟨S128x498, .f32⟩ : BufTy).Contents (Elt F) → (⟨S128x498, .f32⟩ : BufTy).Contents (Elt F)),
    unary main_v894 main_v920 ((extractStridedSlice S128x498x1 ![0, 8, 8] · slices_S128x512x15_S128x498x1_0_8_8) : (⟨S128x512x15, .f32⟩ : BufTy).Contents (Elt F) → (⟨S128x498x1, .f32⟩ : BufTy).Contents (Elt F)),
    reshape main_v920 main_v921 rfl shapeCasts_S128x498x1_S128x498,
    binary main_v919 main_v921 main_v922 (addf : (⟨S128x498, .f32⟩ : BufTy).Contents (Elt F) → (⟨S128x498, .f32⟩ : BufTy).Contents (Elt F) → (⟨S128x498, .f32⟩ : BufTy).Contents (Elt F)),
    unary main_v894 main_v923 ((extractStridedSlice S128x498x1 ![0, 9, 9] · slices_S128x512x15_S128x498x1_0_9_9) : (⟨S128x512x15, .f32⟩ : BufTy).Contents (Elt F) → (⟨S128x498x1, .f32⟩ : BufTy).Contents (Elt F)),
    reshape main_v923 main_v924 rfl shapeCasts_S128x498x1_S128x498,
    binary main_v922 main_v924 main_v925 (addf : (⟨S128x498, .f32⟩ : BufTy).Contents (Elt F) → (⟨S128x498, .f32⟩ : BufTy).Contents (Elt F) → (⟨S128x498, .f32⟩ : BufTy).Contents (Elt F)),
    unary main_v894 main_v926 ((extractStridedSlice S128x498x1 ![0, 10, 10] · slices_S128x512x15_S128x498x1_0_10_10) : (⟨S128x512x15, .f32⟩ : BufTy).Contents (Elt F) → (⟨S128x498x1, .f32⟩ : BufTy).Contents (Elt F)),
    reshape main_v926 main_v927 rfl shapeCasts_S128x498x1_S128x498,
    binary main_v925 main_v927 main_v928 (addf : (⟨S128x498, .f32⟩ : BufTy).Contents (Elt F) → (⟨S128x498, .f32⟩ : BufTy).Contents (Elt F) → (⟨S128x498, .f32⟩ : BufTy).Contents (Elt F)),
    unary main_v894 main_v929 ((extractStridedSlice S128x498x1 ![0, 11, 11] · slices_S128x512x15_S128x498x1_0_11_11) : (⟨S128x512x15, .f32⟩ : BufTy).Contents (Elt F) → (⟨S128x498x1, .f32⟩ : BufTy).Contents (Elt F)),
    reshape main_v929 main_v930 rfl shapeCasts_S128x498x1_S128x498,
    binary main_v928 main_v930 main_v931 (addf : (⟨S128x498, .f32⟩ : BufTy).Contents (Elt F) → (⟨S128x498, .f32⟩ : BufTy).Contents (Elt F) → (⟨S128x498, .f32⟩ : BufTy).Contents (Elt F)),
    unary main_v894 main_v932 ((extractStridedSlice S128x498x1 ![0, 12, 12] · slices_S128x512x15_S128x498x1_0_12_12) : (⟨S128x512x15, .f32⟩ : BufTy).Contents (Elt F) → (⟨S128x498x1, .f32⟩ : BufTy).Contents (Elt F)),
    reshape main_v932 main_v933 rfl shapeCasts_S128x498x1_S128x498,
    binary main_v931 main_v933 main_v934 (addf : (⟨S128x498, .f32⟩ : BufTy).Contents (Elt F) → (⟨S128x498, .f32⟩ : BufTy).Contents (Elt F) → (⟨S128x498, .f32⟩ : BufTy).Contents (Elt F)),
    unary main_v894 main_v935 ((extractStridedSlice S128x498x1 ![0, 13, 13] · slices_S128x512x15_S128x498x1_0_13_13) : (⟨S128x512x15, .f32⟩ : BufTy).Contents (Elt F) → (⟨S128x498x1, .f32⟩ : BufTy).Contents (Elt F)),
    reshape main_v935 main_v936 rfl shapeCasts_S128x498x1_S128x498,
    binary main_v934 main_v936 main_v937 (addf : (⟨S128x498, .f32⟩ : BufTy).Contents (Elt F) → (⟨S128x498, .f32⟩ : BufTy).Contents (Elt F) → (⟨S128x498, .f32⟩ : BufTy).Contents (Elt F)),
    unary main_v894 main_v938 ((extractStridedSlice S128x498x1 ![0, 14, 14] · slices_S128x512x15_S128x498x1_0_14_14) : (⟨S128x512x15, .f32⟩ : BufTy).Contents (Elt F) → (⟨S128x498x1, .f32⟩ : BufTy).Contents (Elt F)),
    reshape main_v938 main_v939 rfl shapeCasts_S128x498x1_S128x498,
    binary main_v937 main_v939 main_v940 (addf : (⟨S128x498, .f32⟩ : BufTy).Contents (Elt F) → (⟨S128x498, .f32⟩ : BufTy).Contents (Elt F) → (⟨S128x498, .f32⟩ : BufTy).Contents (Elt F)),
    unary main_arg3 main_v941 ((extractStridedSlice S1 ![26] · slices_S64_S1_26) : (⟨S64, .f32⟩ : BufTy).Contents (Elt F) → (⟨S1, .f32⟩ : BufTy).Contents (Elt F)),
    reshape main_v941 main_v942 rfl shapeCasts_S1_S_,
    unary main_v942 main_v943 (broadcastInDim S128x498 ![] bcast_S_S128x498 : (⟨S_, .f32⟩ : BufTy).Contents (Elt F) → (⟨S128x498, .f32⟩ : BufTy).Contents (Elt F)),
    binary main_v940 main_v943 main_v944 (addf : (⟨S128x498, .f32⟩ : BufTy).Contents (Elt F) → (⟨S128x498, .f32⟩ : BufTy).Contents (Elt F) → (⟨S128x498, .f32⟩ : BufTy).Contents (Elt F)),
    unary main_v944 main_v945 (Host.tanh : (⟨S128x498, .f32⟩ : BufTy).Contents (Elt F) → (⟨S128x498, .f32⟩ : BufTy).Contents (Elt F)),
    nullary main_cst_53 (constant S_ .f32 0xFF800000#32),
    binary main_v945 main_cst_53 main_v946 ((fun x v => Host.reduce FloatOps.maximumf x v reducesTo_S128x498_S128_d1 h_S_) : (⟨S128x498, .f32⟩ : BufTy).Contents (Elt F) → (⟨S_, .f32⟩ : BufTy).Contents (Elt F) → (⟨S128, .f32⟩ : BufTy).Contents (Elt F)) ]

/-- Segment 44: 17 operations. -/
def seg44 : List (HloOp τ sig (Elt F)) :=
  [ unary main_arg2 main_v947 ((extractStridedSlice S1x15x300 ![27, 0, 0] · slices_S64x33x300_S1x15x300_27_0_0) : (⟨S64x33x300, .f32⟩ : BufTy).Contents (Elt F) → (⟨S1x15x300, .f32⟩ : BufTy).Contents (Elt F)),
    reshape main_v947 main_v948 rfl shapeCasts_S1x15x300_S15x300,
    binary main_v7 main_v948 main_v949 ((fun l r => Host.dotGeneral dot_S128x512x300_S15x300_S128x512x15_2_1_01_0_n_n none l r) : (⟨S128x512x300, .f32⟩ : BufTy).Contents (Elt F) → (⟨S15x300, .f32⟩ : BufTy).Contents (Elt F) → (⟨S128x512x15, .f32⟩ : BufTy).Contents (Elt F)),
    unary main_v949 main_v950 ((extractStridedSlice S128x498x1 ![0, 0, 0] · slices_S128x512x15_S128x498x1_0_0_0) : (⟨S128x512x15, .f32⟩ : BufTy).Contents (Elt F) → (⟨S128x498x1, .f32⟩ : BufTy).Contents (Elt F)),
    reshape main_v950 main_v951 rfl shapeCasts_S128x498x1_S128x498,
    nullary main_cst_54 (constant S_ .f32 0x00000000#32),
    unary main_cst_54 main_v952 (broadcastInDim S128x498 ![] bcast_S_S128x498 : (⟨S_, .f32⟩ : BufTy).Contents (Elt F) → (⟨S128x498, .f32⟩ : BufTy).Contents (Elt F)),
    binary main_v952 main_v951 main_v953 (addf : (⟨S128x498, .f32⟩ : BufTy).Contents (Elt F) → (⟨S128x498, .f32⟩ : BufTy).Contents (Elt F) → (⟨S128x498, .f32⟩ : BufTy).Contents (Elt F)),
    unary main_v949 main_v954 ((extractStridedSlice S128x498x1 ![0, 1, 1] · slices_S128x512x15_S128x498x1_0_1_1) : (⟨S128x512x15, .f32⟩ : BufTy).Contents (Elt F) → (⟨S128x498x1, .f32⟩ : BufTy).Contents (Elt F)),
    reshape main_v954 main_v955 rfl shapeCasts_S128x498x1_S128x498,
    binary main_v953 main_v955 main_v956 (addf : (⟨S128x498, .f32⟩ : BufTy).Contents (Elt F) → (⟨S128x498, .f32⟩ : BufTy).Contents (Elt F) → (⟨S128x498, .f32⟩ : BufTy).Contents (Elt F)),
    unary main_v949 main_v957 ((extractStridedSlice S128x498x1 ![0, 2, 2] · slices_S128x512x15_S128x498x1_0_2_2) : (⟨S128x512x15, .f32⟩ : BufTy).Contents (Elt F) → (⟨S128x498x1, .f32⟩ : BufTy).Contents (Elt F)),
    reshape main_v957 main_v958 rfl shapeCasts_S128x498x1_S128x498,
    binary main_v956 main_v958 main_v959 (addf : (⟨S128x498, .f32⟩ : BufTy).Contents (Elt F) → (⟨S128x498, .f32⟩ : BufTy).Contents (Elt F) → (⟨S128x498, .f32⟩ : BufTy).Contents (Elt F)),
    unary main_v949 main_v960 ((extractStridedSlice S128x498x1 ![0, 3, 3] · slices_S128x512x15_S128x498x1_0_3_3) : (⟨S128x512x15, .f32⟩ : BufTy).Contents (Elt F) → (⟨S128x498x1, .f32⟩ : BufTy).Contents (Elt F)),
    reshape main_v960 main_v961 rfl shapeCasts_S128x498x1_S128x498,
    binary main_v959 main_v961 main_v962 (addf : (⟨S128x498, .f32⟩ : BufTy).Contents (Elt F) → (⟨S128x498, .f32⟩ : BufTy).Contents (Elt F) → (⟨S128x498, .f32⟩ : BufTy).Contents (Elt F)) ]

/-- Segment 45: 40 operations. -/
def seg45 : List (HloOp τ sig (Elt F)) :=
  [ unary main_v949 main_v963 ((extractStridedSlice S128x498x1 ![0, 4, 4] · slices_S128x512x15_S128x498x1_0_4_4) : (⟨S128x512x15, .f32⟩ : BufTy).Contents (Elt F) → (⟨S128x498x1, .f32⟩ : BufTy).Contents (Elt F)),
    reshape main_v963 main_v964 rfl shapeCasts_S128x498x1_S128x498,
    binary main_v962 main_v964 main_v965 (addf : (⟨S128x498, .f32⟩ : BufTy).Contents (Elt F) → (⟨S128x498, .f32⟩ : BufTy).Contents (Elt F) → (⟨S128x498, .f32⟩ : BufTy).Contents (Elt F)),
    unary main_v949 main_v966 ((extractStridedSlice S128x498x1 ![0, 5, 5] · slices_S128x512x15_S128x498x1_0_5_5) : (⟨S128x512x15, .f32⟩ : BufTy).Contents (Elt F) → (⟨S128x498x1, .f32⟩ : BufTy).Contents (Elt F)),
    reshape main_v966 main_v967 rfl shapeCasts_S128x498x1_S128x498,
    binary main_v965 main_v967 main_v968 (addf : (⟨S128x498, .f32⟩ : BufTy).Contents (Elt F) → (⟨S128x498, .f32⟩ : BufTy).Contents (Elt F) → (⟨S128x498, .f32⟩ : BufTy).Contents (Elt F)),
    unary main_v949 main_v969 ((extractStridedSlice S128x498x1 ![0, 6, 6] · slices_S128x512x15_S128x498x1_0_6_6) : (⟨S128x512x15, .f32⟩ : BufTy).Contents (Elt F) → (⟨S128x498x1, .f32⟩ : BufTy).Contents (Elt F)),
    reshape main_v969 main_v970 rfl shapeCasts_S128x498x1_S128x498,
    binary main_v968 main_v970 main_v971 (addf : (⟨S128x498, .f32⟩ : BufTy).Contents (Elt F) → (⟨S128x498, .f32⟩ : BufTy).Contents (Elt F) → (⟨S128x498, .f32⟩ : BufTy).Contents (Elt F)),
    unary main_v949 main_v972 ((extractStridedSlice S128x498x1 ![0, 7, 7] · slices_S128x512x15_S128x498x1_0_7_7) : (⟨S128x512x15, .f32⟩ : BufTy).Contents (Elt F) → (⟨S128x498x1, .f32⟩ : BufTy).Contents (Elt F)),
    reshape main_v972 main_v973 rfl shapeCasts_S128x498x1_S128x498,
    binary main_v971 main_v973 main_v974 (addf : (⟨S128x498, .f32⟩ : BufTy).Contents (Elt F) → (⟨S128x498, .f32⟩ : BufTy).Contents (Elt F) → (⟨S128x498, .f32⟩ : BufTy).Contents (Elt F)),
    unary main_v949 main_v975 ((extractStridedSlice S128x498x1 ![0, 8, 8] · slices_S128x512x15_S128x498x1_0_8_8) : (⟨S128x512x15, .f32⟩ : BufTy).Contents (Elt F) → (⟨S128x498x1, .f32⟩ : BufTy).Contents (Elt F)),
    reshape main_v975 main_v976 rfl shapeCasts_S128x498x1_S128x498,
    binary main_v974 main_v976 main_v977 (addf : (⟨S128x498, .f32⟩ : BufTy).Contents (Elt F) → (⟨S128x498, .f32⟩ : BufTy).Contents (Elt F) → (⟨S128x498, .f32⟩ : BufTy).Contents (Elt F)),
    unary main_v949 main_v978 ((extractStridedSlice S128x498x1 ![0, 9, 9] · slices_S128x512x15_S128x498x1_0_9_9) : (⟨S128x512x15, .f32⟩ : BufTy).Contents (Elt F) → (⟨S128x498x1, .f32⟩ : BufTy).Contents (Elt F)),
    reshape main_v978 main_v979 rfl shapeCasts_S128x498x1_S128x498,
    binary main_v977 main_v979 main_v980 (addf : (⟨S128x498, .f32⟩ : BufTy).Contents (Elt F) → (⟨S128x498, .f32⟩ : BufTy).Contents (Elt F) → (⟨S128x498, .f32⟩ : BufTy).Contents (Elt F)),
    unary main_v949 main_v981 ((extractStridedSlice S128x498x1 ![0, 10, 10] · slices_S128x512x15_S128x498x1_0_10_10) : (⟨S128x512x15, .f32⟩ : BufTy).Contents (Elt F) → (⟨S128x498x1, .f32⟩ : BufTy).Contents (Elt F)),
    reshape main_v981 main_v982 rfl shapeCasts_S128x498x1_S128x498,
    binary main_v980 main_v982 main_v983 (addf : (⟨S128x498, .f32⟩ : BufTy).Contents (Elt F) → (⟨S128x498, .f32⟩ : BufTy).Contents (Elt F) → (⟨S128x498, .f32⟩ : BufTy).Contents (Elt F)),
    unary main_v949 main_v984 ((extractStridedSlice S128x498x1 ![0, 11, 11] · slices_S128x512x15_S128x498x1_0_11_11) : (⟨S128x512x15, .f32⟩ : BufTy).Contents (Elt F) → (⟨S128x498x1, .f32⟩ : BufTy).Contents (Elt F)),
    reshape main_v984 main_v985 rfl shapeCasts_S128x498x1_S128x498,
    binary main_v983 main_v985 main_v986 (addf : (⟨S128x498, .f32⟩ : BufTy).Contents (Elt F) → (⟨S128x498, .f32⟩ : BufTy).Contents (Elt F) → (⟨S128x498, .f32⟩ : BufTy).Contents (Elt F)),
    unary main_v949 main_v987 ((extractStridedSlice S128x498x1 ![0, 12, 12] · slices_S128x512x15_S128x498x1_0_12_12) : (⟨S128x512x15, .f32⟩ : BufTy).Contents (Elt F) → (⟨S128x498x1, .f32⟩ : BufTy).Contents (Elt F)),
    reshape main_v987 main_v988 rfl shapeCasts_S128x498x1_S128x498,
    binary main_v986 main_v988 main_v989 (addf : (⟨S128x498, .f32⟩ : BufTy).Contents (Elt F) → (⟨S128x498, .f32⟩ : BufTy).Contents (Elt F) → (⟨S128x498, .f32⟩ : BufTy).Contents (Elt F)),
    unary main_v949 main_v990 ((extractStridedSlice S128x498x1 ![0, 13, 13] · slices_S128x512x15_S128x498x1_0_13_13) : (⟨S128x512x15, .f32⟩ : BufTy).Contents (Elt F) → (⟨S128x498x1, .f32⟩ : BufTy).Contents (Elt F)),
    reshape main_v990 main_v991 rfl shapeCasts_S128x498x1_S128x498,
    binary main_v989 main_v991 main_v992 (addf : (⟨S128x498, .f32⟩ : BufTy).Contents (Elt F) → (⟨S128x498, .f32⟩ : BufTy).Contents (Elt F) → (⟨S128x498, .f32⟩ : BufTy).Contents (Elt F)),
    unary main_v949 main_v993 ((extractStridedSlice S128x498x1 ![0, 14, 14] · slices_S128x512x15_S128x498x1_0_14_14) : (⟨S128x512x15, .f32⟩ : BufTy).Contents (Elt F) → (⟨S128x498x1, .f32⟩ : BufTy).Contents (Elt F)),
    reshape main_v993 main_v994 rfl shapeCasts_S128x498x1_S128x498,
    binary main_v992 main_v994 main_v995 (addf : (⟨S128x498, .f32⟩ : BufTy).Contents (Elt F) → (⟨S128x498, .f32⟩ : BufTy).Contents (Elt F) → (⟨S128x498, .f32⟩ : BufTy).Contents (Elt F)),
    unary main_arg3 main_v996 ((extractStridedSlice S1 ![27] · slices_S64_S1_27) : (⟨S64, .f32⟩ : BufTy).Contents (Elt F) → (⟨S1, .f32⟩ : BufTy).Contents (Elt F)),
    reshape main_v996 main_v997 rfl shapeCasts_S1_S_,
    unary main_v997 main_v998 (broadcastInDim S128x498 ![] bcast_S_S128x498 : (⟨S_, .f32⟩ : BufTy).Contents (Elt F) → (⟨S128x498, .f32⟩ : BufTy).Contents (Elt F)),
    binary main_v995 main_v998 main_v999 (addf : (⟨S128x498, .f32⟩ : BufTy).Contents (Elt F) → (⟨S128x498, .f32⟩ : BufTy).Contents (Elt F) → (⟨S128x498, .f32⟩ : BufTy).Contents (Elt F)),
    unary main_v999 main_v1000 (Host.tanh : (⟨S128x498, .f32⟩ : BufTy).Contents (Elt F) → (⟨S128x498, .f32⟩ : BufTy).Contents (Elt F)),
    nullary main_cst_55 (constant S_ .f32 0xFF800000#32),
    binary main_v1000 main_cst_55 main_v1001 ((fun x v => Host.reduce FloatOps.maximumf x v reducesTo_S128x498_S128_d1 h_S_) : (⟨S128x498, .f32⟩ : BufTy).Contents (Elt F) → (⟨S_, .f32⟩ : BufTy).Contents (Elt F) → (⟨S128, .f32⟩ : BufTy).Contents (Elt F)) ]

/-- Segment 46: 20 operations. -/
def seg46 : List (HloOp τ sig (Elt F)) :=
  [ unary main_arg2 main_v1002 ((extractStridedSlice S1x16x300 ![28, 0, 0] · slices_S64x33x300_S1x16x300_28_0_0) : (⟨S64x33x300, .f32⟩ : BufTy).Contents (Elt F) → (⟨S1x16x300, .f32⟩ : BufTy).Contents (Elt F)),
    reshape main_v1002 main_v1003 rfl shapeCasts_S1x16x300_S16x300,
    binary main_v7 main_v1003 main_v1004 ((fun l r => Host.dotGeneral dot_S128x512x300_S16x300_S128x512x16_2_1_01_0_n_n none l r) : (⟨S128x512x300, .f32⟩ : BufTy).Contents (Elt F) → (⟨S16x300, .f32⟩ : BufTy).Contents (Elt F) → (⟨S128x512x16, .f32⟩ : BufTy).Contents (Elt F)),
    unary main_v1004 main_v1005 ((extractStridedSlice S128x497x1 ![0, 0, 0] · slices_S128x512x16_S128x497x1_0_0_0) : (⟨S128x512x16, .f32⟩ : BufTy).Contents (Elt F) → (⟨S128x497x1, .f32⟩ : BufTy).Contents (Elt F)),
    reshape main_v1005 main_v1006 rfl shapeCasts_S128x497x1_S128x497,
    nullary main_cst_56 (constant S_ .f32 0x00000000#32),
    unary main_cst_56 main_v1007 (broadcastInDim S128x497 ![] bcast_S_S128x497 : (⟨S_, .f32⟩ : BufTy).Contents (Elt F) → (⟨S128x497, .f32⟩ : BufTy).Contents (Elt F)),
    binary main_v1007 main_v1006 main_v1008 (addf : (⟨S128x497, .f32⟩ : BufTy).Contents (Elt F) → (⟨S128x497, .f32⟩ : BufTy).Contents (Elt F) → (⟨S128x497, .f32⟩ : BufTy).Contents (Elt F)),
    unary main_v1004 main_v1009 ((extractStridedSlice S128x497x1 ![0, 1, 1] · slices_S128x512x16_S128x497x1_0_1_1) : (⟨S128x512x16, .f32⟩ : BufTy).Contents (Elt F) → (⟨S128x497x1, .f32⟩ : BufTy).Contents (Elt F)),
    reshape main_v1009 main_v1010 rfl shapeCasts_S128x497x1_S128x497,
    binary main_v1008 main_v1010 main_v1011 (addf : (⟨S128x497, .f32⟩ : BufTy).Contents (Elt F) → (⟨S128x497, .f32⟩ : BufTy).Contents (Elt F) → (⟨S128x497, .f32⟩ : BufTy).Contents (Elt F)),
    unary main_v1004 main_v1012 ((extractStridedSlice S128x497x1 ![0, 2, 2] · slices_S128x512x16_S128x497x1_0_2_2) : (⟨S128x512x16, .f32⟩ : BufTy).Contents (Elt F) → (⟨S128x497x1, .f32⟩ : BufTy).Contents (Elt F)),
    reshape main_v1012 main_v1013 rfl shapeCasts_S128x497x1_S128x497,
    binary main_v1011 main_v1013 main_v1014 (addf : (⟨S128x497, .f32⟩ : BufTy).Contents (Elt F) → (⟨S128x497, .f32⟩ : BufTy).Contents (Elt F) → (⟨S128x497, .f32⟩ : BufTy).Contents (Elt F)),
    unary main_v1004 main_v1015 ((extractStridedSlice S128x497x1 ![0, 3, 3] · slices_S128x512x16_S128x497x1_0_3_3) : (⟨S128x512x16, .f32⟩ : BufTy).Contents (Elt F) → (⟨S128x497x1, .f32⟩ : BufTy).Contents (Elt F)),
    reshape main_v1015 main_v1016 rfl shapeCasts_S128x497x1_S128x497,
    binary main_v1014 main_v1016 main_v1017 (addf : (⟨S128x497, .f32⟩ : BufTy).Contents (Elt F) → (⟨S128x497, .f32⟩ : BufTy).Contents (Elt F) → (⟨S128x497, .f32⟩ : BufTy).Contents (Elt F)),
    unary main_v1004 main_v1018 ((extractStridedSlice S128x497x1 ![0, 4, 4] · slices_S128x512x16_S128x497x1_0_4_4) : (⟨S128x512x16, .f32⟩ : BufTy).Contents (Elt F) → (⟨S128x497x1, .f32⟩ : BufTy).Contents (Elt F)),
    reshape main_v1018 main_v1019 rfl shapeCasts_S128x497x1_S128x497,
    binary main_v1017 main_v1019 main_v1020 (addf : (⟨S128x497, .f32⟩ : BufTy).Contents (Elt F) → (⟨S128x497, .f32⟩ : BufTy).Contents (Elt F) → (⟨S128x497, .f32⟩ : BufTy).Contents (Elt F)) ]

/-- Segment 47: 40 operations. -/
def seg47 : List (HloOp τ sig (Elt F)) :=
  [ unary main_v1004 main_v1021 ((extractStridedSlice S128x497x1 ![0, 5, 5] · slices_S128x512x16_S128x497x1_0_5_5) : (⟨S128x512x16, .f32⟩ : BufTy).Contents (Elt F) → (⟨S128x497x1, .f32⟩ : BufTy).Contents (Elt F)),
    reshape main_v1021 main_v1022 rfl shapeCasts_S128x497x1_S128x497,
    binary main_v1020 main_v1022 main_v1023 (addf : (⟨S128x497, .f32⟩ : BufTy).Contents (Elt F) → (⟨S128x497, .f32⟩ : BufTy).Contents (Elt F) → (⟨S128x497, .f32⟩ : BufTy).Contents (Elt F)),
    unary main_v1004 main_v1024 ((extractStridedSlice S128x497x1 ![0, 6, 6] · slices_S128x512x16_S128x497x1_0_6_6) : (⟨S128x512x16, .f32⟩ : BufTy).Contents (Elt F) → (⟨S128x497x1, .f32⟩ : BufTy).Contents (Elt F)),
    reshape main_v1024 main_v1025 rfl shapeCasts_S128x497x1_S128x497,
    binary main_v1023 main_v1025 main_v1026 (addf : (⟨S128x497, .f32⟩ : BufTy).Contents (Elt F) → (⟨S128x497, .f32⟩ : BufTy).Contents (Elt F) → (⟨S128x497, .f32⟩ : BufTy).Contents (Elt F)),
    unary main_v1004 main_v1027 ((extractStridedSlice S128x497x1 ![0, 7, 7] · slices_S128x512x16_S128x497x1_0_7_7) : (⟨S128x512x16, .f32⟩ : BufTy).Contents (Elt F) → (⟨S128x497x1, .f32⟩ : BufTy).Contents (Elt F)),
    reshape main_v1027 main_v1028 rfl shapeCasts_S128x497x1_S128x497,
    binary main_v1026 main_v1028 main_v1029 (addf : (⟨S128x497, .f32⟩ : BufTy).Contents (Elt F) → (⟨S128x497, .f32⟩ : BufTy).Contents (Elt F) → (⟨S128x497, .f32⟩ : BufTy).Contents (Elt F)),
    unary main_v1004 main_v1030 ((extractStridedSlice S128x497x1 ![0, 8, 8] · slices_S128x512x16_S128x497x1_0_8_8) : (⟨S128x512x16, .f32⟩ : BufTy).Contents (Elt F) → (⟨S128x497x1, .f32⟩ : BufTy).Contents (Elt F)),
    reshape main_v1030 main_v1031 rfl shapeCasts_S128x497x1_S128x497,
    binary main_v1029 main_v1031 main_v1032 (addf : (⟨S128x497, .f32⟩ : BufTy).Contents (Elt F) → (⟨S128x497, .f32⟩ : BufTy).Contents (Elt F) → (⟨S128x497, .f32⟩ : BufTy).Contents (Elt F)),
    unary main_v1004 main_v1033 ((extractStridedSlice S128x497x1 ![0, 9, 9] · slices_S128x512x16_S128x497x1_0_9_9) : (⟨S128x512x16, .f32⟩ : BufTy).Contents (Elt F) → (⟨S128x497x1, .f32⟩ : BufTy).Contents (Elt F)),
    reshape main_v1033 main_v1034 rfl shapeCasts_S128x497x1_S128x497,
    binary main_v1032 main_v1034 main_v1035 (addf : (⟨S128x497, .f32⟩ : BufTy).Contents (Elt F) → (⟨S128x497, .f32⟩ : BufTy).Contents (Elt F) → (⟨S128x497, .f32⟩ : BufTy).Contents (Elt F)),
    unary main_v1004 main_v1036 ((extractStridedSlice S128x497x1 ![0, 10, 10] · slices_S128x512x16_S128x497x1_0_10_10) : (⟨S128x512x16, .f32⟩ : BufTy).Contents (Elt F) → (⟨S128x497x1, .f32⟩ : BufTy).Contents (Elt F)),
    reshape main_v1036 main_v1037 rfl shapeCasts_S128x497x1_S128x497,
    binary main_v1035 main_v1037 main_v1038 (addf : (⟨S128x497, .f32⟩ : BufTy).Contents (Elt F) → (⟨S128x497, .f32⟩ : BufTy).Contents (Elt F) → (⟨S128x497, .f32⟩ : BufTy).Contents (Elt F)),
    unary main_v1004 main_v1039 ((extractStridedSlice S128x497x1 ![0, 11, 11] · slices_S128x512x16_S128x497x1_0_11_11) : (⟨S128x512x16, .f32⟩ : BufTy).Contents (Elt F) → (⟨S128x497x1, .f32⟩ : BufTy).Contents (Elt F)),
    reshape main_v1039 main_v1040 rfl shapeCasts_S128x497x1_S128x497,
    binary main_v1038 main_v1040 main_v1041 (addf : (⟨S128x497, .f32⟩ : BufTy).Contents (Elt F) → (⟨S128x497, .f32⟩ : BufTy).Contents (Elt F) → (⟨S128x497, .f32⟩ : BufTy).Contents (Elt F)),
    unary main_v1004 main_v1042 ((extractStridedSlice S128x497x1 ![0, 12, 12] · slices_S128x512x16_S128x497x1_0_12_12) : (⟨S128x512x16, .f32⟩ : BufTy).Contents (Elt F) → (⟨S128x497x1, .f32⟩ : BufTy).Contents (Elt F)),
    reshape main_v1042 main_v1043 rfl shapeCasts_S128x497x1_S128x497,
    binary main_v1041 main_v1043 main_v1044 (addf : (⟨S128x497, .f32⟩ : BufTy).Contents (Elt F) → (⟨S128x497, .f32⟩ : BufTy).Contents (Elt F) → (⟨S128x497, .f32⟩ : BufTy).Contents (Elt F)),
    unary main_v1004 main_v1045 ((extractStridedSlice S128x497x1 ![0, 13, 13] · slices_S128x512x16_S128x497x1_0_13_13) : (⟨S128x512x16, .f32⟩ : BufTy).Contents (Elt F) → (⟨S128x497x1, .f32⟩ : BufTy).Contents (Elt F)),
    reshape main_v1045 main_v1046 rfl shapeCasts_S128x497x1_S128x497,
    binary main_v1044 main_v1046 main_v1047 (addf : (⟨S128x497, .f32⟩ : BufTy).Contents (Elt F) → (⟨S128x497, .f32⟩ : BufTy).Contents (Elt F) → (⟨S128x497, .f32⟩ : BufTy).Contents (Elt F)),
    unary main_v1004 main_v1048 ((extractStridedSlice S128x497x1 ![0, 14, 14] · slices_S128x512x16_S128x497x1_0_14_14) : (⟨S128x512x16, .f32⟩ : BufTy).Contents (Elt F) → (⟨S128x497x1, .f32⟩ : BufTy).Contents (Elt F)),
    reshape main_v1048 main_v1049 rfl shapeCasts_S128x497x1_S128x497,
    binary main_v1047 main_v1049 main_v1050 (addf : (⟨S128x497, .f32⟩ : BufTy).Contents (Elt F) → (⟨S128x497, .f32⟩ : BufTy).Contents (Elt F) → (⟨S128x497, .f32⟩ : BufTy).Contents (Elt F)),
    unary main_v1004 main_v1051 ((extractStridedSlice S128x497x1 ![0, 15, 15] · slices_S128x512x16_S128x497x1_0_15_15) : (⟨S128x512x16, .f32⟩ : BufTy).Contents (Elt F) → (⟨S128x497x1, .f32⟩ : BufTy).Contents (Elt F)),
    reshape main_v1051 main_v1052 rfl shapeCasts_S128x497x1_S128x497,
    binary main_v1050 main_v1052 main_v1053 (addf : (⟨S128x497, .f32⟩ : BufTy).Contents (Elt F) → (⟨S128x497, .f32⟩ : BufTy).Contents (Elt F) → (⟨S128x497, .f32⟩ : BufTy).Contents (Elt F)),
    unary main_arg3 main_v1054 ((extractStridedSlice S1 ![28] · slices_S64_S1_28) : (⟨S64, .f32⟩ : BufTy).Contents (Elt F) → (⟨S1, .f32⟩ : BufTy).Contents (Elt F)),
    reshape main_v1054 main_v1055 rfl shapeCasts_S1_S_,
    unary main_v1055 main_v1056 (broadcastInDim S128x497 ![] bcast_S_S128x497 : (⟨S_, .f32⟩ : BufTy).Contents (Elt F) → (⟨S128x497, .f32⟩ : BufTy).Contents (Elt F)),
    binary main_v1053 main_v1056 main_v1057 (addf : (⟨S128x497, .f32⟩ : BufTy).Contents (Elt F) → (⟨S128x497, .f32⟩ : BufTy).Contents (Elt F) → (⟨S128x497, .f32⟩ : BufTy).Contents (Elt F)),
    unary main_v1057 main_v1058 (Host.tanh : (⟨S128x497, .f32⟩ : BufTy).Contents (Elt F) → (⟨S128x497, .f32⟩ : BufTy).Contents (Elt F)),
    nullary main_cst_57 (constant S_ .f32 0xFF800000#32),
    binary main_v1058 main_cst_57 main_v1059 ((fun x v => Host.reduce FloatOps.maximumf x v reducesTo_S128x497_S128_d1 h_S_) : (⟨S128x497, .f32⟩ : BufTy).Contents (Elt F) → (⟨S_, .f32⟩ : BufTy).Contents (Elt F) → (⟨S128, .f32⟩ : BufTy).Contents (Elt F)) ]

/-- Segment 48: 20 operations. -/
def seg48 : List (HloOp τ sig (Elt F)) :=
  [ unary main_arg2 main_v1060 ((extractStridedSlice S1x16x300 ![29, 0, 0] · slices_S64x33x300_S1x16x300_29_0_0) : (⟨S64x33x300, .f32⟩ : BufTy).Contents (Elt F) → (⟨S1x16x300, .f32⟩ : BufTy).Contents (Elt F)),
    reshape main_v1060 main_v1061 rfl shapeCasts_S1x16x300_S16x300,
    binary main_v7 main_v1061 main_v1062 ((fun l r => Host.dotGeneral dot_S128x512x300_S16x300_S128x512x16_2_1_01_0_n_n none l r) : (⟨S128x512x300, .f32⟩ : BufTy).Contents (Elt F) → (⟨S16x300, .f32⟩ : BufTy).Contents (Elt F) → (⟨S128x512x16, .f32⟩ : BufTy).Contents (Elt F)),
    unary main_v1062 main_v1063 ((extractStridedSlice S128x497x1 ![0, 0, 0] · slices_S128x512x16_S128x497x1_0_0_0) : (⟨S128x512x16, .f32⟩ : BufTy).Contents (Elt F) → (⟨S128x497x1, .f32⟩ : BufTy).Contents (Elt F)),
    reshape main_v1063 main_v1064 rfl shapeCasts_S128x497x1_S128x497,
    nullary main_cst_58 (constant S_ .f32 0x00000000#32),
    unary main_cst_58 main_v1065 (broadcastInDim S128x497 ![] bcast_S_S128x497 : (⟨S_, .f32⟩ : BufTy).Contents (Elt F) → (⟨S128x497, .f32⟩ : BufTy).Contents (Elt F)),
    binary main_v1065 main_v1064 main_v1066 (addf : (⟨S128x497, .f32⟩ : BufTy).Contents (Elt F) → (⟨S128x497, .f32⟩ : BufTy).Contents (Elt F) → (⟨S128x497, .f32⟩ : BufTy).Contents (Elt F)),
    unary main_v1062 main_v1067 ((extractStridedSlice S128x497x1 ![0, 1, 1] · slices_S128x512x16_S128x497x1_0_1_1) : (⟨S128x512x16, .f32⟩ : BufTy).Contents (Elt F) → (⟨S128x497x1, .f32⟩ : BufTy).Contents (Elt F)),
    reshape main_v1067 main_v1068 rfl shapeCasts_S128x497x1_S128x497,
    binary main_v1066 main_v1068 main_v1069 (addf : (⟨S128x497, .f32⟩ : BufTy).Contents (Elt F) → (⟨S128x497, .f32⟩ : BufTy).Contents (Elt F) → (⟨S128x497, .f32⟩ : BufTy).Contents (Elt F)),
    unary main_v1062 main_v1070 ((extractStridedSlice S128x497x1 ![0, 2, 2] · slices_S128x512x16_S128x497x1_0_2_2) : (⟨S128x512x16, .f32⟩ : BufTy).Contents (Elt F) → (⟨S128x497x1, .f32⟩ : BufTy).Contents (Elt F)),
    reshape main_v1070 main_v1071 rfl shapeCasts_S128x497x1_S128x497,
    binary main_v1069 main_v1071 main_v1072 (addf : (⟨S128x497, .f32⟩ : BufTy).Contents (Elt F) → (⟨S128x497, .f32⟩ : BufTy).Contents (Elt F) → (⟨S128x497, .f32⟩ : BufTy).Contents (Elt F)),
    unary main_v1062 main_v1073 ((extractStridedSlice S128x497x1 ![0, 3, 3] · slices_S128x512x16_S128x497x1_0_3_3) : (⟨S128x512x16, .f32⟩ : BufTy).Contents (Elt F) → (⟨S128x497x1, .f32⟩ : BufTy).Contents (Elt F)),
    reshape main_v1073 main_v1074 rfl shapeCasts_S128x497x1_S128x497,
    binary main_v1072 main_v1074 main_v1075 (addf : (⟨S128x497, .f32⟩ : BufTy).Contents (Elt F) → (⟨S128x497, .f32⟩ : BufTy).Contents (Elt F) → (⟨S128x497, .f32⟩ : BufTy).Contents (Elt F)),
    unary main_v1062 main_v1076 ((extractStridedSlice S128x497x1 ![0, 4, 4] · slices_S128x512x16_S128x497x1_0_4_4) : (⟨S128x512x16, .f32⟩ : BufTy).Contents (Elt F) → (⟨S128x497x1, .f32⟩ : BufTy).Contents (Elt F)),
    reshape main_v1076 main_v1077 rfl shapeCasts_S128x497x1_S128x497,
    binary main_v1075 main_v1077 main_v1078 (addf : (⟨S128x497, .f32⟩ : BufTy).Contents (Elt F) → (⟨S128x497, .f32⟩ : BufTy).Contents (Elt F) → (⟨S128x497, .f32⟩ : BufTy).Contents (Elt F)) ]

/-- Segment 49: 40 operations. -/
def seg49 : List (HloOp τ sig (Elt F)) :=
  [ unary main_v1062 main_v1079 ((extractStridedSlice S128x497x1 ![0, 5, 5] · slices_S128x512x16_S128x497x1_0_5_5) : (⟨S128x512x16, .f32⟩ : BufTy).Contents (Elt F) → (⟨S128x497x1, .f32⟩ : BufTy).Contents (Elt F)),
    reshape main_v1079 main_v1080 rfl shapeCasts_S128x497x1_S128x497,
    binary main_v1078 main_v1080 main_v1081 (addf : (⟨S128x497, .f32⟩ : BufTy).Contents (Elt F) → (⟨S128x497, .f32⟩ : BufTy).Contents (Elt F) → (⟨S128x497, .f32⟩ : BufTy).Contents (Elt F)),
    unary main_v1062 main_v1082 ((extractStridedSlice S128x497x1 ![0, 6, 6] · slices_S128x512x16_S128x497x1_0_6_6) : (⟨S128x512x16, .f32⟩ : BufTy).Contents (Elt F) → (⟨S128x497x1, .f32⟩ : BufTy).Contents (Elt F)),
    reshape main_v1082 main_v1083 rfl shapeCasts_S128x497x1_S128x497,
    binary main_v1081 main_v1083 main_v1084 (addf : (⟨S128x497, .f32⟩ : BufTy).Contents (Elt F) → (⟨S128x497, .f32⟩ : BufTy).Contents (Elt F) → (⟨S128x497, .f32⟩ : BufTy).Contents (Elt F)),
    unary main_v1062 main_v1085 ((extractStridedSlice S128x497x1 ![0, 7, 7] · slices_S128x512x16_S128x497x1_0_7_7) : (⟨S128x512x16, .f32⟩ : BufTy).Contents (Elt F) → (⟨S128x497x1, .f32⟩ : BufTy).Contents (Elt F)),
    reshape main_v1085 main_v1086 rfl shapeCasts_S128x497x1_S128x497,
    binary main_v1084 main_v1086 main_v1087 (addf : (⟨S128x497, .f32⟩ : BufTy).Contents (Elt F) → (⟨S128x497, .f32⟩ : BufTy).Contents (Elt F) → (⟨S128x497, .f32⟩ : BufTy).Contents (Elt F)),
    unary main_v1062 main_v1088 ((extractStridedSlice S128x497x1 ![0, 8, 8] · slices_S128x512x16_S128x497x1_0_8_8) : (⟨S128x512x16, .f32⟩ : BufTy).Contents (Elt F) → (⟨S128x497x1, .f32⟩ : BufTy).Contents (Elt F)),
    reshape main_v1088 main_v1089 rfl shapeCasts_S128x497x1_S128x497,
    binary main_v1087 main_v1089 main_v1090 (addf : (⟨S128x497, .f32⟩ : BufTy).Contents (Elt F) → (⟨S128x497, .f32⟩ : BufTy).Contents (Elt F) → (⟨S128x497, .f32⟩ : BufTy).Contents (Elt F)),
    unary main_v1062 main_v1091 ((extractStridedSlice S128x497x1 ![0, 9, 9] · slices_S128x512x16_S128x497x1_0_9_9) : (⟨S128x512x16, .f32⟩ : BufTy).Contents (Elt F) → (⟨S128x497x1, .f32⟩ : BufTy).Contents (Elt F)),
    reshape main_v1091 main_v1092 rfl shapeCasts_S128x497x1_S128x497,
    binary main_v1090 main_v1092 main_v1093 (addf : (⟨S128x497, .f32⟩ : BufTy).Contents (Elt F) → (⟨S128x497, .f32⟩ : BufTy).Contents (Elt F) → (⟨S128x497, .f32⟩ : BufTy).Contents (Elt F)),
    unary main_v1062 main_v1094 ((extractStridedSlice S128x497x1 ![0, 10, 10] · slices_S128x512x16_S128x497x1_0_10_10) : (⟨S128x512x16, .f32⟩ : BufTy).Contents (Elt F) → (⟨S128x497x1, .f32⟩ : BufTy).Contents (Elt F)),
    reshape main_v1094 main_v1095 rfl shapeCasts_S128x497x1_S128x497,
    binary main_v1093 main_v1095 main_v1096 (addf : (⟨S128x497, .f32⟩ : BufTy).Contents (Elt F) → (⟨S128x497, .f32⟩ : BufTy).Contents (Elt F) → (⟨S128x497, .f32⟩ : BufTy).Contents (Elt F)),
    unary main_v1062 main_v1097 ((extractStridedSlice S128x497x1 ![0, 11, 11] · slices_S128x512x16_S128x497x1_0_11_11) : (⟨S128x512x16, .f32⟩ : BufTy).Contents (Elt F) → (⟨S128x497x1, .f32⟩ : BufTy).Contents (Elt F)),
    reshape main_v1097 main_v1098 rfl shapeCasts_S128x497x1_S128x497,
    binary main_v1096 main_v1098 main_v1099 (addf : (⟨S128x497, .f32⟩ : BufTy).Contents (Elt F) → (⟨S128x497, .f32⟩ : BufTy).Contents (Elt F) → (⟨S128x497, .f32⟩ : BufTy).Contents (Elt F)),
    unary main_v1062 main_v1100 ((extractStridedSlice S128x497x1 ![0, 12, 12] · slices_S128x512x16_S128x497x1_0_12_12) : (⟨S128x512x16, .f32⟩ : BufTy).Contents (Elt F) → (⟨S128x497x1, .f32⟩ : BufTy).Contents (Elt F)),
    reshape main_v1100 main_v1101 rfl shapeCasts_S128x497x1_S128x497,
    binary main_v1099 main_v1101 main_v1102 (addf : (⟨S128x497, .f32⟩ : BufTy).Contents (Elt F) → (⟨S128x497, .f32⟩ : BufTy).Contents (Elt F) → (⟨S128x497, .f32⟩ : BufTy).Contents (Elt F)),
    unary main_v1062 main_v1103 ((extractStridedSlice S128x497x1 ![0, 13, 13] · slices_S128x512x16_S128x497x1_0_13_13) : (⟨S128x512x16, .f32⟩ : BufTy).Contents (Elt F) → (⟨S128x497x1, .f32⟩ : BufTy).Contents (Elt F)),
    reshape main_v1103 main_v1104 rfl shapeCasts_S128x497x1_S128x497,
    binary main_v1102 main_v1104 main_v1105 (addf : (⟨S128x497, .f32⟩ : BufTy).Contents (Elt F) → (⟨S128x497, .f32⟩ : BufTy).Contents (Elt F) → (⟨S128x497, .f32⟩ : BufTy).Contents (Elt F)),
    unary main_v1062 main_v1106 ((extractStridedSlice S128x497x1 ![0, 14, 14] · slices_S128x512x16_S128x497x1_0_14_14) : (⟨S128x512x16, .f32⟩ : BufTy).Contents (Elt F) → (⟨S128x497x1, .f32⟩ : BufTy).Contents (Elt F)),
    reshape main_v1106 main_v1107 rfl shapeCasts_S128x497x1_S128x497,
    binary main_v1105 main_v1107 main_v1108 (addf : (⟨S128x497, .f32⟩ : BufTy).Contents (Elt F) → (⟨S128x497, .f32⟩ : BufTy).Contents (Elt F) → (⟨S128x497, .f32⟩ : BufTy).Contents (Elt F)),
    unary main_v1062 main_v1109 ((extractStridedSlice S128x497x1 ![0, 15, 15] · slices_S128x512x16_S128x497x1_0_15_15) : (⟨S128x512x16, .f32⟩ : BufTy).Contents (Elt F) → (⟨S128x497x1, .f32⟩ : BufTy).Contents (Elt F)),
    reshape main_v1109 main_v1110 rfl shapeCasts_S128x497x1_S128x497,
    binary main_v1108 main_v1110 main_v1111 (addf : (⟨S128x497, .f32⟩ : BufTy).Contents (Elt F) → (⟨S128x497, .f32⟩ : BufTy).Contents (Elt F) → (⟨S128x497, .f32⟩ : BufTy).Contents (Elt F)),
    unary main_arg3 main_v1112 ((extractStridedSlice S1 ![29] · slices_S64_S1_29) : (⟨S64, .f32⟩ : BufTy).Contents (Elt F) → (⟨S1, .f32⟩ : BufTy).Contents (Elt F)),
    reshape main_v1112 main_v1113 rfl shapeCasts_S1_S_,
    unary main_v1113 main_v1114 (broadcastInDim S128x497 ![] bcast_S_S128x497 : (⟨S_, .f32⟩ : BufTy).Contents (Elt F) → (⟨S128x497, .f32⟩ : BufTy).Contents (Elt F)),
    binary main_v1111 main_v1114 main_v1115 (addf : (⟨S128x497, .f32⟩ : BufTy).Contents (Elt F) → (⟨S128x497, .f32⟩ : BufTy).Contents (Elt F) → (⟨S128x497, .f32⟩ : BufTy).Contents (Elt F)),
    unary main_v1115 main_v1116 (Host.tanh : (⟨S128x497, .f32⟩ : BufTy).Contents (Elt F) → (⟨S128x497, .f32⟩ : BufTy).Contents (Elt F)),
    nullary main_cst_59 (constant S_ .f32 0xFF800000#32),
    binary main_v1116 main_cst_59 main_v1117 ((fun x v => Host.reduce FloatOps.maximumf x v reducesTo_S128x497_S128_d1 h_S_) : (⟨S128x497, .f32⟩ : BufTy).Contents (Elt F) → (⟨S_, .f32⟩ : BufTy).Contents (Elt F) → (⟨S128, .f32⟩ : BufTy).Contents (Elt F)) ]

/-- Segment 50: 20 operations. -/
def seg50 : List (HloOp τ sig (Elt F)) :=
  [ unary main_arg2 main_v1118 ((extractStridedSlice S1x17x300 ![30, 0, 0] · slices_S64x33x300_S1x17x300_30_0_0) : (⟨S64x33x300, .f32⟩ : BufTy).Contents (Elt F) → (⟨S1x17x300, .f32⟩ : BufTy).Contents (Elt F)),
    reshape main_v1118 main_v1119 rfl shapeCasts_S1x17x300_S17x300,
    binary main_v7 main_v1119 main_v1120 ((fun l r => Host.dotGeneral dot_S128x512x300_S17x300_S128x512x17_2_1_01_0_n_n none l r) : (⟨S128x512x300, .f32⟩ : BufTy).Contents (Elt F) → (⟨S17x300, .f32⟩ : BufTy).Contents (Elt F) → (⟨S128x512x17, .f32⟩ : BufTy).Contents (Elt F)),
    unary main_v1120 main_v1121 ((extractStridedSlice S128x496x1 ![0, 0, 0] · slices_S128x512x17_S128x496x1_0_0_0) : (⟨S128x512x17, .f32⟩ : BufTy).Contents (Elt F) → (⟨S128x496x1, .f32⟩ : BufTy).Contents (Elt F)),
    reshape main_v1121 main_v1122 rfl shapeCasts_S128x496x1_S128x496,
    nullary main_cst_60 (constant S_ .f32 0x00000000#32),
    unary main_cst_60 main_v1123 (broadcastInDim S128x496 ![] bcast_S_S128x496 : (⟨S_, .f32⟩ : BufTy).Contents (Elt F) → (⟨S128x496, .f32⟩ : BufTy).Contents (Elt F)),
    binary main_v1123 main_v1122 main_v1124 (addf : (⟨S128x496, .f32⟩ : BufTy).Contents (Elt F) → (⟨S128x496, .f32⟩ : BufTy).Contents (Elt F) → (⟨S128x496, .f32⟩ : BufTy).Contents (Elt F)),
    unary main_v1120 main_v1125 ((extractStridedSlice S128x496x1 ![0, 1, 1] · slices_S128x512x17_S128x496x1_0_1_1) : (⟨S128x512x17, .f32⟩ : BufTy).Contents (Elt F) → (⟨S128x496x1, .f32⟩ : BufTy).Contents (Elt F)),
    reshape main_v1125 main_v1126 rfl shapeCasts_S128x496x1_S128x496,
    binary main_v1124 main_v1126 main_v1127 (addf : (⟨S128x496, .f32⟩ : BufTy).Contents (Elt F) → (⟨S128x496, .f32⟩ : BufTy).Contents (Elt F) → (⟨S128x496, .f32⟩ : BufTy).Contents (Elt F)),
    unary main_v1120 main_v1128 ((extractStridedSlice S128x496x1 ![0, 2, 2] · slices_S128x512x17_S128x496x1_0_2_2) : (⟨S128x512x17, .f32⟩ : BufTy).Contents (Elt F) → (⟨S128x496x1, .f32⟩ : BufTy).Contents (Elt F)),
    reshape main_v1128 main_v1129 rfl shapeCasts_S128x496x1_S128x496,
    binary main_v1127 main_v1129 main_v1130 (addf : (⟨S128x496, .f32⟩ : BufTy).Contents (Elt F) → (⟨S128x496, .f32⟩ : BufTy).Contents (Elt F) → (⟨S128x496, .f32⟩ : BufTy).Contents (Elt F)),
    unary main_v1120 main_v1131 ((extractStridedSlice S128x496x1 ![0, 3, 3] · slices_S128x512x17_S128x496x1_0_3_3) : (⟨S128x512x17, .f32⟩ : BufTy).Contents (Elt F) → (⟨S128x496x1, .f32⟩ : BufTy).Contents (Elt F)),
    reshape main_v1131 main_v1132 rfl shapeCasts_S128x496x1_S128x496,
    binary main_v1130 main_v1132 main_v1133 (addf : (⟨S128x496, .f32⟩ : BufTy).Contents (Elt F) → (⟨S128x496, .f32⟩ : BufTy).Contents (Elt F) → (⟨S128x496, .f32⟩ : BufTy).Contents (Elt F)),
    unary main_v1120 main_v1134 ((extractStridedSlice S128x496x1 ![0, 4, 4] · slices_S128x512x17_S128x496x1_0_4_4) : (⟨S128x512x17, .f32⟩ : BufTy).Contents (Elt F) → (⟨S128x496x1, .f32⟩ : BufTy).Contents (Elt F)),
    reshape main_v1134 main_v1135 rfl shapeCasts_S128x496x1_S128x496,
    binary main_v1133 main_v1135 main_v1136 (addf : (⟨S128x496, .f32⟩ : BufTy).Contents (Elt F) → (⟨S128x496, .f32⟩ : BufTy).Contents (Elt F) → (⟨S128x496, .f32⟩ : BufTy).Contents (Elt F)) ]

/-- Segment 51: 43 operations. -/
def seg51 : List (HloOp τ sig (Elt F)) :=
  [ unary main_v1120 main_v1137 ((extractStridedSlice S128x496x1 ![0, 5, 5] · slices_S128x512x17_S128x496x1_0_5_5) : (⟨S128x512x17, .f32⟩ : BufTy).Contents (Elt F) → (⟨S128x496x1, .f32⟩ : BufTy).Contents (Elt F)),
    reshape main_v1137 main_v1138 rfl shapeCasts_S128x496x1_S128x496,
    binary main_v1136 main_v1138 main_v1139 (addf : (⟨S128x496, .f32⟩ : BufTy).Contents (Elt F) → (⟨S128x496, .f32⟩ : BufTy).Contents (Elt F) → (⟨S128x496, .f32⟩ : BufTy).Contents (Elt F)),
    unary main_v1120 main_v1140 ((extractStridedSlice S128x496x1 ![0, 6, 6] · slices_S128x512x17_S128x496x1_0_6_6) : (⟨S128x512x17, .f32⟩ : BufTy).Contents (Elt F) → (⟨S128x496x1, .f32⟩ : BufTy).Contents (Elt F)),
    reshape main_v1140 main_v1141 rfl shapeCasts_S128x496x1_S128x496,
    binary main_v1139 main_v1141 main_v1142 (addf : (⟨S128x496, .f32⟩ : BufTy).Contents (Elt F) → (⟨S128x496, .f32⟩ : BufTy).Contents (Elt F) → (⟨S128x496, .f32⟩ : BufTy).Contents (Elt F)),
    unary main_v1120 main_v1143 ((extractStridedSlice S128x496x1 ![0, 7, 7] · slices_S128x512x17_S128x496x1_0_7_7) : (⟨S128x512x17, .f32⟩ : BufTy).Contents (Elt F) → (⟨S128x496x1, .f32⟩ : BufTy).Contents (Elt F)),
    reshape main_v1143 main_v1144 rfl shapeCasts_S128x496x1_S128x496,
    binary main_v1142 main_v1144 main_v1145 (addf : (⟨S128x496, .f32⟩ : BufTy).Contents (Elt F) → (⟨S128x496, .f32⟩ : BufTy).Contents (Elt F) → (⟨S128x496, .f32⟩ : BufTy).Contents (Elt F)),
    unary main_v1120 main_v1146 ((extractStridedSlice S128x496x1 ![0, 8, 8] · slices_S128x512x17_S128x496x1_0_8_8) : (⟨S128x512x17, .f32⟩ : BufTy).Contents (Elt F) → (⟨S128x496x1, .f32⟩ : BufTy).Contents (Elt F)),
    reshape main_v1146 main_v1147 rfl shapeCasts_S128x496x1_S128x496,
    binary main_v1145 main_v1147 main_v1148 (addf : (⟨S128x496, .f32⟩ : BufTy).Contents (Elt F) → (⟨S128x496, .f32⟩ : BufTy).Contents (Elt F) → (⟨S128x496, .f32⟩ : BufTy).Contents (Elt F)),
    unary main_v1120 main_v1149 ((extractStridedSlice S128x496x1 ![0, 9, 9] · slices_S128x512x17_S128x496x1_0_9_9) : (⟨S128x512x17, .f32⟩ : BufTy).Contents (Elt F) → (⟨S128x496x1, .f32⟩ : BufTy).Contents (Elt F)),
    reshape main_v1149 main_v1150 rfl shapeCasts_S128x496x1_S128x496,
    binary main_v1148 main_v1150 main_v1151 (addf : (⟨S128x496, .f32⟩ : BufTy).Contents (Elt F) → (⟨S128x496, .f32⟩ : BufTy).Contents (Elt F) → (⟨S128x496, .f32⟩ : BufTy).Contents (Elt F)),
    unary main_v1120 main_v1152 ((extractStridedSlice S128x496x1 ![0, 10, 10] · slices_S128x512x17_S128x496x1_0_10_10) : (⟨S128x512x17, .f32⟩ : BufTy).Contents (Elt F) → (⟨S128x496x1, .f32⟩ : BufTy).Contents (Elt F)),
    reshape main_v1152 main_v1153 rfl shapeCasts_S128x496x1_S128x496,
    binary main_v1151 main_v1153 main_v1154 (addf : (⟨S128x496, .f32⟩ : BufTy).Contents (Elt F) → (⟨S128x496, .f32⟩ : BufTy).Contents (Elt F) → (⟨S128x496, .f32⟩ : BufTy).Contents (Elt F)),
    unary main_v1120 main_v1155 ((extractStridedSlice S128x496x1 ![0, 11, 11] · slices_S128x512x17_S128x496x1_0_11_11) : (⟨S128x512x17, .f32⟩ : BufTy).Contents (Elt F) → (⟨S128x496x1, .f32⟩ : BufTy).Contents (Elt F)),
    reshape main_v1155 main_v1156 rfl shapeCasts_S128x496x1_S128x496,
    binary main_v1154 main_v1156 main_v1157 (addf : (⟨S128x496, .f32⟩ : BufTy).Contents (Elt F) → (⟨S128x496, .f32⟩ : BufTy).Contents (Elt F) → (⟨S128x496, .f32⟩ : BufTy).Contents (Elt F)),
    unary main_v1120 main_v1158 ((extractStridedSlice S128x496x1 ![0, 12, 12] · slices_S128x512x17_S128x496x1_0_12_12) : (⟨S128x512x17, .f32⟩ : BufTy).Contents (Elt F) → (⟨S128x496x1, .f32⟩ : BufTy).Contents (Elt F)),
    reshape main_v1158 main_v1159 rfl shapeCasts_S128x496x1_S128x496,
    binary main_v1157 main_v1159 main_v1160 (addf : (⟨S128x496, .f32⟩ : BufTy).Contents (Elt F) → (⟨S128x496, .f32⟩ : BufTy).Contents (Elt F) → (⟨S128x496, .f32⟩ : BufTy).Contents (Elt F)),
    unary main_v1120 main_v1161 ((extractStridedSlice S128x496x1 ![0, 13, 13] · slices_S128x512x17_S128x496x1_0_13_13) : (⟨S128x512x17, .f32⟩ : BufTy).Contents (Elt F) → (⟨S128x496x1, .f32⟩ : BufTy).Contents (Elt F)),
    reshape main_v1161 main_v1162 rfl shapeCasts_S128x496x1_S128x496,
    binary main_v1160 main_v1162 main_v1163 (addf : (⟨S128x496, .f32⟩ : BufTy).Contents (Elt F) → (⟨S128x496, .f32⟩ : BufTy).Contents (Elt F) → (⟨S128x496, .f32⟩ : BufTy).Contents (Elt F)),
    unary main_v1120 main_v1164 ((extractStridedSlice S128x496x1 ![0, 14, 14] · slices_S128x512x17_S128x496x1_0_14_14) : (⟨S128x512x17, .f32⟩ : BufTy).Contents (Elt F) → (⟨S128x496x1, .f32⟩ : BufTy).Contents (Elt F)),
    reshape main_v1164 main_v1165 rfl shapeCasts_S128x496x1_S128x496,
    binary main_v1163 main_v1165 main_v1166 (addf : (⟨S128x496, .f32⟩ : BufTy).Contents (Elt F) → (⟨S128x496, .f32⟩ : BufTy).Contents (Elt F) → (⟨S128x496, .f32⟩ : BufTy).Contents (Elt F)),
    unary main_v1120 main_v1167 ((extractStridedSlice S128x496x1 ![0, 15, 15] · slices_S128x512x17_S128x496x1_0_15_15) : (⟨S128x512x17, .f32⟩ : BufTy).Contents (Elt F) → (⟨S128x496x1, .f32⟩ : BufTy).Contents (Elt F)),
    reshape main_v1167 main_v1168 rfl shapeCasts_S128x496x1_S128x496,
    binary main_v1166 main_v1168 main_v1169 (addf : (⟨S128x496, .f32⟩ : BufTy).Contents (Elt F) → (⟨S128x496, .f32⟩ : BufTy).Contents (Elt F) → (⟨S128x496, .f32⟩ : BufTy).Contents (Elt F)),
    unary main_v1120 main_v1170 ((extractStridedSlice S128x496x1 ![0, 16, 16] · slices_S128x512x17_S128x496x1_0_16_16) : (⟨S128x512x17, .f32⟩ : BufTy).Contents (Elt F) → (⟨S128x496x1, .f32⟩ : BufTy).Contents (Elt F)),
    reshape main_v1170 main_v1171 rfl shapeCasts_S128x496x1_S128x496,
    binary main_v1169 main_v1171 main_v1172 (addf : (⟨S128x496, .f32⟩ : BufTy).Contents (Elt F) → (⟨S128x496, .f32⟩ : BufTy).Contents (Elt F) → (⟨S128x496, .f32⟩ : BufTy).Contents (Elt F)),
    unary main_arg3 main_v1173 ((extractStridedSlice S1 ![30] · slices_S64_S1_30) : (⟨S64, .f32⟩ : BufTy).Contents (Elt F) → (⟨S1, .f32⟩ : BufTy).Contents (Elt F)),
    reshape main_v1173 main_v1174 rfl shapeCasts_S1_S_,
    unary main_v1174 main_v1175 (broadcastInDim S128x496 ![] bcast_S_S128x496 : (⟨S_, .f32⟩ : BufTy).Contents (Elt F) → (⟨S128x496, .f32⟩ : BufTy).Contents (Elt F)),
    binary main_v1172 main_v1175 main_v1176 (addf : (⟨S128x496, .f32⟩ : BufTy).Contents (Elt F) → (⟨S128x496, .f32⟩ : BufTy).Contents (Elt F) → (⟨S128x496, .f32⟩ : BufTy).Contents (Elt F)),
    unary main_v1176 main_v1177 (Host.tanh : (⟨S128x496, .f32⟩ : BufTy).Contents (Elt F) → (⟨S128x496, .f32⟩ : BufTy).Contents (Elt F)),
    nullary main_cst_61 (constant S_ .f32 0xFF800000#32),
    binary main_v1177 main_cst_61 main_v1178 ((fun x v => Host.reduce FloatOps.maximumf x v reducesTo_S128x496_S128_d1 h_S_) : (⟨S128x496, .f32⟩ : BufTy).Contents (Elt F) → (⟨S_, .f32⟩ : BufTy).Contents (Elt F) → (⟨S128, .f32⟩ : BufTy).Contents (Elt F)) ]

/-- Segment 52: 17 operations. -/
def seg52 : List (HloOp τ sig (Elt F)) :=
  [ unary main_arg2 main_v1179 ((extractStridedSlice S1x17x300 ![31, 0, 0] · slices_S64x33x300_S1x17x300_31_0_0) : (⟨S64x33x300, .f32⟩ : BufTy).Contents (Elt F) → (⟨S1x17x300, .f32⟩ : BufTy).Contents (Elt F)),
    reshape main_v1179 main_v1180 rfl shapeCasts_S1x17x300_S17x300,
    binary main_v7 main_v1180 main_v1181 ((fun l r => Host.dotGeneral dot_S128x512x300_S17x300_S128x512x17_2_1_01_0_n_n none l r) : (⟨S128x512x300, .f32⟩ : BufTy).Contents (Elt F) → (⟨S17x300, .f32⟩ : BufTy).Contents (Elt F) → (⟨S128x512x17, .f32⟩ : BufTy).Contents (Elt F)),
    unary main_v1181 main_v1182 ((extractStridedSlice S128x496x1 ![0, 0, 0] · slices_S128x512x17_S128x496x1_0_0_0) : (⟨S128x512x17, .f32⟩ : BufTy).Contents (Elt F) → (⟨S128x496x1, .f32⟩ : BufTy).Contents (Elt F)),
    reshape main_v1182 main_v1183 rfl shapeCasts_S128x496x1_S128x496,
    nullary main_cst_62 (constant S_ .f32 0x00000000#32),
    unary main_cst_62 main_v1184 (broadcastInDim S128x496 ![] bcast_S_S128x496 : (⟨S_, .f32⟩ : BufTy).Contents (Elt F) → (⟨S128x496, .f32⟩ : BufTy).Contents (Elt F)),
    binary main_v1184 main_v1183 main_v1185 (addf : (⟨S128x496, .f32⟩ : BufTy).Contents (Elt F) → (⟨S128x496, .f32⟩ : BufTy).Contents (Elt F) → (⟨S128x496, .f32⟩ : BufTy).Contents (Elt F)),
    unary main_v1181 main_v1186 ((extractStridedSlice S128x496x1 ![0, 1, 1] · slices_S128x512x17_S128x496x1_0_1_1) : (⟨S128x512x17, .f32⟩ : BufTy).Contents (Elt F) → (⟨S128x496x1, .f32⟩ : BufTy).Contents (Elt F)),
    reshape main_v1186 main_v1187 rfl shapeCasts_S128x496x1_S128x496,
    binary main_v1185 main_v1187 main_v1188 (addf : (⟨S128x496, .f32⟩ : BufTy).Contents (Elt F) → (⟨S128x496, .f32⟩ : BufTy).Contents (Elt F) → (⟨S128x496, .f32⟩ : BufTy).Contents (Elt F)),
    unary main_v1181 main_v1189 ((extractStridedSlice S128x496x1 ![0, 2, 2] · slices_S128x512x17_S128x496x1_0_2_2) : (⟨S128x512x17, .f32⟩ : BufTy).Contents (Elt F) → (⟨S128x496x1, .f32⟩ : BufTy).Contents (Elt F)),
    reshape main_v1189 main_v1190 rfl shapeCasts_S128x496x1_S128x496,
    binary main_v1188 main_v1190 main_v1191 (addf : (⟨S128x496, .f32⟩ : BufTy).Contents (Elt F) → (⟨S128x496, .f32⟩ : BufTy).Contents (Elt F) → (⟨S128x496, .f32⟩ : BufTy).Contents (Elt F)),
    unary main_v1181 main_v1192 ((extractStridedSlice S128x496x1 ![0, 3, 3] · slices_S128x512x17_S128x496x1_0_3_3) : (⟨S128x512x17, .f32⟩ : BufTy).Contents (Elt F) → (⟨S128x496x1, .f32⟩ : BufTy).Contents (Elt F)),
    reshape main_v1192 main_v1193 rfl shapeCasts_S128x496x1_S128x496,
    binary main_v1191 main_v1193 main_v1194 (addf : (⟨S128x496, .f32⟩ : BufTy).Contents (Elt F) → (⟨S128x496, .f32⟩ : BufTy).Contents (Elt F) → (⟨S128x496, .f32⟩ : BufTy).Contents (Elt F)) ]

/-- Segment 53: 46 operations. -/
def seg53 : List (HloOp τ sig (Elt F)) :=
  [ unary main_v1181 main_v1195 ((extractStridedSlice S128x496x1 ![0, 4, 4] · slices_S128x512x17_S128x496x1_0_4_4) : (⟨S128x512x17, .f32⟩ : BufTy).Contents (Elt F) → (⟨S128x496x1, .f32⟩ : BufTy).Contents (Elt F)),
    reshape main_v1195 main_v1196 rfl shapeCasts_S128x496x1_S128x496,
    binary main_v1194 main_v1196 main_v1197 (addf : (⟨S128x496, .f32⟩ : BufTy).Contents (Elt F) → (⟨S128x496, .f32⟩ : BufTy).Contents (Elt F) → (⟨S128x496, .f32⟩ : BufTy).Contents (Elt F)),
    unary main_v1181 main_v1198 ((extractStridedSlice S128x496x1 ![0, 5, 5] · slices_S128x512x17_S128x496x1_0_5_5) : (⟨S128x512x17, .f32⟩ : BufTy).Contents (Elt F) → (⟨S128x496x1, .f32⟩ : BufTy).Contents (Elt F)),
    reshape main_v1198 main_v1199 rfl shapeCasts_S128x496x1_S128x496,
    binary main_v1197 main_v1199 main_v1200 (addf : (⟨S128x496, .f32⟩ : BufTy).Contents (Elt F) → (⟨S128x496, .f32⟩ : BufTy).Contents (Elt F) → (⟨S128x496, .f32⟩ : BufTy).Contents (Elt F)),
    unary main_v1181 main_v1201 ((extractStridedSlice S128x496x1 ![0, 6, 6] · slices_S128x512x17_S128x496x1_0_6_6) : (⟨S128x512x17, .f32⟩ : BufTy).Contents (Elt F) → (⟨S128x496x1, .f32⟩ : BufTy).Contents (Elt F)),
    reshape main_v1201 main_v1202 rfl shapeCasts_S128x496x1_S128x496,
    binary main_v1200 main_v1202 main_v1203 (addf : (⟨S128x496, .f32⟩ : BufTy).Contents (Elt F) → (⟨S128x496, .f32⟩ : BufTy).Contents (Elt F) → (⟨S128x496, .f32⟩ : BufTy).Contents (Elt F)),
    unary main_v1181 main_v1204 ((extractStridedSlice S128x496x1 ![0, 7, 7] · slices_S128x512x17_S128x496x1_0_7_7) : (⟨S128x512x17, .f32⟩ : BufTy).Contents (Elt F) → (⟨S128x496x1, .f32⟩ : BufTy).Contents (Elt F)),
    reshape main_v1204 main_v1205 rfl shapeCasts_S128x496x1_S128x496,
    binary main_v1203 main_v1205 main_v1206 (addf : (⟨S128x496, .f32⟩ : BufTy).Contents (Elt F) → (⟨S128x496, .f32⟩ : BufTy).Contents (Elt F) → (⟨S128x496, .f32⟩ : BufTy).Contents (Elt F)),
    unary main_v1181 main_v1207 ((extractStridedSlice S128x496x1 ![0, 8, 8] · slices_S128x512x17_S128x496x1_0_8_8) : (⟨S128x512x17, .f32⟩ : BufTy).Contents (Elt F) → (⟨S128x496x1, .f32⟩ : BufTy).Contents (Elt F)),
    reshape main_v1207 main_v1208 rfl shapeCasts_S128x496x1_S128x496,
    binary main_v1206 main_v1208 main_v1209 (addf : (⟨S128x496, .f32⟩ : BufTy).Contents (Elt F) → (⟨S128x496, .f32⟩ : BufTy).Contents (Elt F) → (⟨S128x496, .f32⟩ : BufTy).Contents (Elt F)),
    unary main_v1181 main_v1210 ((extractStridedSlice S128x496x1 ![0, 9, 9] · slices_S128x512x17_S128x496x1_0_9_9) : (⟨S128x512x17, .f32⟩ : BufTy).Contents (Elt F) → (⟨S128x496x1, .f32⟩ : BufTy).Contents (Elt F)),
    reshape main_v1210 main_v1211 rfl shapeCasts_S128x496x1_S128x496,
    binary main_v1209 main_v1211 main_v1212 (addf : (⟨S128x496, .f32⟩ : BufTy).Contents (Elt F) → (⟨S128x496, .f32⟩ : BufTy).Contents (Elt F) → (⟨S128x496, .f32⟩ : BufTy).Contents (Elt F)),
    unary main_v1181 main_v1213 ((extractStridedSlice S128x496x1 ![0, 10, 10] · slices_S128x512x17_S128x496x1_0_10_10) : (⟨S128x512x17, .f32⟩ : BufTy).Contents (Elt F) → (⟨S128x496x1, .f32⟩ : BufTy).Contents (Elt F)),
    reshape main_v1213 main_v1214 rfl shapeCasts_S128x496x1_S128x496,
    binary main_v1212 main_v1214 main_v1215 (addf : (⟨S128x496, .f32⟩ : BufTy).Contents (Elt F) → (⟨S128x496, .f32⟩ : BufTy).Contents (Elt F) → (⟨S128x496, .f32⟩ : BufTy).Contents (Elt F)),
    unary main_v1181 main_v1216 ((extractStridedSlice S128x496x1 ![0, 11, 11] · slices_S128x512x17_S128x496x1_0_11_11) : (⟨S128x512x17, .f32⟩ : BufTy).Contents (Elt F) → (⟨S128x496x1, .f32⟩ : BufTy).Contents (Elt F)),
    reshape main_v1216 main_v1217 rfl shapeCasts_S128x496x1_S128x496,
    binary main_v1215 main_v1217 main_v1218 (addf : (⟨S128x496, .f32⟩ : BufTy).Contents (Elt F) → (⟨S128x496, .f32⟩ : BufTy).Contents (Elt F) → (⟨S128x496, .f32⟩ : BufTy).Contents (Elt F)),
    unary main_v1181 main_v1219 ((extractStridedSlice S128x496x1 ![0, 12, 12] · slices_S128x512x17_S128x496x1_0_12_12) : (⟨S128x512x17, .f32⟩ : BufTy).Contents (Elt F) → (⟨S128x496x1, .f32⟩ : BufTy).Contents (Elt F)),
    reshape main_v1219 main_v1220 rfl shapeCasts_S128x496x1_S128x496,
    binary main_v1218 main_v1220 main_v1221 (addf : (⟨S128x496, .f32⟩ : BufTy).Contents (Elt F) → (⟨S128x496, .f32⟩ : BufTy).Contents (Elt F) → (⟨S128x496, .f32⟩ : BufTy).Contents (Elt F)),
    unary main_v1181 main_v1222 ((extractStridedSlice S128x496x1 ![0, 13, 13] · slices_S128x512x17_S128x496x1_0_13_13) : (⟨S128x512x17, .f32⟩ : BufTy).Contents (Elt F) → (⟨S128x496x1, .f32⟩ : BufTy).Contents (Elt F)),
    reshape main_v1222 main_v1223 rfl shapeCasts_S128x496x1_S128x496,
    binary main_v1221 main_v1223 main_v1224 (addf : (⟨S128x496, .f32⟩ : BufTy).Contents (Elt F) → (⟨S128x496, .f32⟩ : BufTy).Contents (Elt F) → (⟨S128x496, .f32⟩ : BufTy).Contents (Elt F)),
    unary main_v1181 main_v1225 ((extractStridedSlice S128x496x1 ![0, 14, 14] · slices_S128x512x17_S128x496x1_0_14_14) : (⟨S128x512x17, .f32⟩ : BufTy).Contents (Elt F) → (⟨S128x496x1, .f32⟩ : BufTy).Contents (Elt F)),
    reshape main_v1225 main_v1226 rfl shapeCasts_S128x496x1_S128x496,
    binary main_v1224 main_v1226 main_v1227 (addf : (⟨S128x496, .f32⟩ : BufTy).Contents (Elt F) → (⟨S128x496, .f32⟩ : BufTy).Contents (Elt F) → (⟨S128x496, .f32⟩ : BufTy).Contents (Elt F)),
    unary main_v1181 main_v1228 ((extractStridedSlice S128x496x1 ![0, 15, 15] · slices_S128x512x17_S128x496x1_0_15_15) : (⟨S128x512x17, .f32⟩ : BufTy).Contents (Elt F) → (⟨S128x496x1, .f32⟩ : BufTy).Contents (Elt F)),
    reshape main_v1228 main_v1229 rfl shapeCasts_S128x496x1_S128x496,
    binary main_v1227 main_v1229 main_v1230 (addf : (⟨S128x496, .f32⟩ : BufTy).Contents (Elt F) → (⟨S128x496, .f32⟩ : BufTy).Contents (Elt F) → (⟨S128x496, .f32⟩ : BufTy).Contents (Elt F)),
    unary main_v1181 main_v1231 ((extractStridedSlice S128x496x1 ![0, 16, 16] · slices_S128x512x17_S128x496x1_0_16_16) : (⟨S128x512x17, .f32⟩ : BufTy).Contents (Elt F) → (⟨S128x496x1, .f32⟩ : BufTy).Contents (Elt F)),
    reshape main_v1231 main_v1232 rfl shapeCasts_S128x496x1_S128x496,
    binary main_v1230 main_v1232 main_v1233 (addf : (⟨S128x496, .f32⟩ : BufTy).Contents (Elt F) → (⟨S128x496, .f32⟩ : BufTy).Contents (Elt F) → (⟨S128x496, .f32⟩ : BufTy).Contents (Elt F)),
    unary main_arg3 main_v1234 ((extractStridedSlice S1 ![31] · slices_S64_S1_31) : (⟨S64, .f32⟩ : BufTy).Contents (Elt F) → (⟨S1, .f32⟩ : BufTy).Contents (Elt F)),
    reshape main_v1234 main_v1235 rfl shapeCasts_S1_S_,
    unary main_v1235 main_v1236 (broadcastInDim S128x496 ![] bcast_S_S128x496 : (⟨S_, .f32⟩ : BufTy).Contents (Elt F) → (⟨S128x496, .f32⟩ : BufTy).Contents (Elt F)),
    binary main_v1233 main_v1236 main_v1237 (addf : (⟨S128x496, .f32⟩ : BufTy).Contents (Elt F) → (⟨S128x496, .f32⟩ : BufTy).Contents (Elt F) → (⟨S128x496, .f32⟩ : BufTy).Contents (Elt F)),
    unary main_v1237 main_v1238 (Host.tanh : (⟨S128x496, .f32⟩ : BufTy).Contents (Elt F) → (⟨S128x496, .f32⟩ : BufTy).Contents (Elt F)),
    nullary main_cst_63 (constant S_ .f32 0xFF800000#32),
    binary main_v1238 main_cst_63 main_v1239 ((fun x v => Host.reduce FloatOps.maximumf x v reducesTo_S128x496_S128_d1 h_S_) : (⟨S128x496, .f32⟩ : BufTy).Contents (Elt F) → (⟨S_, .f32⟩ : BufTy).Contents (Elt F) → (⟨S128, .f32⟩ : BufTy).Contents (Elt F)) ]

/-- Segment 54: 14 operations. -/
def seg54 : List (HloOp τ sig (Elt F)) :=
  [ unary main_arg2 main_v1240 ((extractStridedSlice S1x18x300 ![32, 0, 0] · slices_S64x33x300_S1x18x300_32_0_0) : (⟨S64x33x300, .f32⟩ : BufTy).Contents (Elt F) → (⟨S1x18x300, .f32⟩ : BufTy).Contents (Elt F)),
    reshape main_v1240 main_v1241 rfl shapeCasts_S1x18x300_S18x300,
    binary main_v7 main_v1241 main_v1242 ((fun l r => Host.dotGeneral dot_S128x512x300_S18x300_S128x512x18_2_1_01_0_n_n none l r) : (⟨S128x512x300, .f32⟩ : BufTy).Contents (Elt F) → (⟨S18x300, .f32⟩ : BufTy).Contents (Elt F) → (⟨S128x512x18, .f32⟩ : BufTy).Contents (Elt F)),
    unary main_v1242 main_v1243 ((extractStridedSlice S128x495x1 ![0, 0, 0] · slices_S128x512x18_S128x495x1_0_0_0) : (⟨S128x512x18, .f32⟩ : BufTy).Contents (Elt F) → (⟨S128x495x1, .f32⟩ : BufTy).Contents (Elt F)),
    reshape main_v1243 main_v1244 rfl shapeCasts_S128x495x1_S128x495,
    nullary main_cst_64 (constant S_ .f32 0x00000000#32),
    unary main_cst_64 main_v1245 (broadcastInDim S128x495 ![] bcast_S_S128x495 : (⟨S_, .f32⟩ : BufTy).Contents (Elt F) → (⟨S128x495, .f32⟩ : BufTy).Contents (Elt F)),
    binary main_v1245 main_v1244 main_v1246 (addf : (⟨S128x495, .f32⟩ : BufTy).Contents (Elt F) → (⟨S128x495, .f32⟩ : BufTy).Contents (Elt F) → (⟨S128x495, .f32⟩ : BufTy).Contents (Elt F)),
    unary main_v1242 main_v1247 ((extractStridedSlice S128x495x1 ![0, 1, 1] · slices_S128x512x18_S128x495x1_0_1_1) : (⟨S128x512x18, .f32⟩ : BufTy).Contents (Elt F) → (⟨S128x495x1, .f32⟩ : BufTy).Contents (Elt F)),
    reshape main_v1247 main_v1248 rfl shapeCasts_S128x495x1_S128x495,
    binary main_v1246 main_v1248 main_v1249 (addf : (⟨S128x495, .f32⟩ : BufTy).Contents (Elt F) → (⟨S128x495, .f32⟩ : BufTy).Contents (Elt F) → (⟨S128x495, .f32⟩ : BufTy).Contents (Elt F)),
    unary main_v1242 main_v1250 ((extractStridedSlice S128x495x1 ![0, 2, 2] · slices_S128x512x18_S128x495x1_0_2_2) : (⟨S128x512x18, .f32⟩ : BufTy).Contents (Elt F) → (⟨S128x495x1, .f32⟩ : BufTy).Contents (Elt F)),
    reshape main_v1250 main_v1251 rfl shapeCasts_S128x495x1_S128x495,
    binary main_v1249 main_v1251 main_v1252 (addf : (⟨S128x495, .f32⟩ : BufTy).Contents (Elt F) → (⟨S128x495, .f32⟩ : BufTy).Contents (Elt F) → (⟨S128x495, .f32⟩ : BufTy).Contents (Elt F)) ]

/-- Segment 55: 52 operations. -/
def seg55 : List (HloOp τ sig (Elt F)) :=
  [ unary main_v1242 main_v1253 ((extractStridedSlice S128x495x1 ![0, 3, 3] · slices_S128x512x18_S128x495x1_0_3_3) : (⟨S128x512x18, .f32⟩ : BufTy).Contents (Elt F) → (⟨S128x495x1, .f32⟩ : BufTy).Contents (Elt F)),
    reshape main_v1253 main_v1254 rfl shapeCasts_S128x495x1_S128x495,
    binary main_v1252 main_v1254 main_v1255 (addf : (⟨S128x495, .f32⟩ : BufTy).Contents (Elt F) → (⟨S128x495, .f32⟩ : BufTy).Contents (Elt F) → (⟨S128x495, .f32⟩ : BufTy).Contents (Elt F)),
    unary main_v1242 main_v1256 ((extractStridedSlice S128x495x1 ![0, 4, 4] · slices_S128x512x18_S128x495x1_0_4_4) : (⟨S128x512x18, .f32⟩ : BufTy).Contents (Elt F) → (⟨S128x495x1, .f32⟩ : BufTy).Contents (Elt F)),
    reshape main_v1256 main_v1257 rfl shapeCasts_S128x495x1_S128x495,
    binary main_v1255 main_v1257 main_v1258 (addf : (⟨S128x495, .f32⟩ : BufTy).Contents (Elt F) → (⟨S128x495, .f32⟩ : BufTy).Contents (Elt F) → (⟨S128x495, .f32⟩ : BufTy).Contents (Elt F)),
    unary main_v1242 main_v1259 ((extractStridedSlice S128x495x1 ![0, 5, 5] · slices_S128x512x18_S128x495x1_0_5_5) : (⟨S128x512x18, .f32⟩ : BufTy).Contents (Elt F) → (⟨S128x495x1, .f32⟩ : BufTy).Contents (Elt F)),
    reshape main_v1259 main_v1260 rfl shapeCasts_S128x495x1_S128x495,
    binary main_v1258 main_v1260 main_v1261 (addf : (⟨S128x495, .f32⟩ : BufTy).Contents (Elt F) → (⟨S128x495, .f32⟩ : BufTy).Contents (Elt F) → (⟨S128x495, .f32⟩ : BufTy).Contents (Elt F)),
    unary main_v1242 main_v1262 ((extractStridedSlice S128x495x1 ![0, 6, 6] · slices_S128x512x18_S128x495x1_0_6_6) : (⟨S128x512x18, .f32⟩ : BufTy).Contents (Elt F) → (⟨S128x495x1, .f32⟩ : BufTy).Contents (Elt F)),
    reshape main_v1262 main_v1263 rfl shapeCasts_S128x495x1_S128x495,
    binary main_v1261 main_v1263 main_v1264 (addf : (⟨S128x495, .f32⟩ : BufTy).Contents (Elt F) → (⟨S128x495, .f32⟩ : BufTy).Contents (Elt F) → (⟨S128x495, .f32⟩ : BufTy).Contents (Elt F)),
    unary main_v1242 main_v1265 ((extractStridedSlice S128x495x1 ![0, 7, 7] · slices_S128x512x18_S128x495x1_0_7_7) : (⟨S128x512x18, .f32⟩ : BufTy).Contents (Elt F) → (⟨S128x495x1, .f32⟩ : BufTy).Contents (Elt F)),
    reshape main_v1265 main_v1266 rfl shapeCasts_S128x495x1_S128x495,
    binary main_v1264 main_v1266 main_v1267 (addf : (⟨S128x495, .f32⟩ : BufTy).Contents (Elt F) → (⟨S128x495, .f32⟩ : BufTy).Contents (Elt F) → (⟨S128x495, .f32⟩ : BufTy).Contents (Elt F)),
    unary main_v1242 main_v1268 ((extractStridedSlice S128x495x1 ![0, 8, 8] · slices_S128x512x18_S128x495x1_0_8_8) : (⟨S128x512x18, .f32⟩ : BufTy).Contents (Elt F) → (⟨S128x495x1, .f32⟩ : BufTy).Contents (Elt F)),
    reshape main_v1268 main_v1269 rfl shapeCasts_S128x495x1_S128x495,
    binary main_v1267 main_v1269 main_v1270 (addf : (⟨S128x495, .f32⟩ : BufTy).Contents (Elt F) → (⟨S128x495, .f32⟩ : BufTy).Contents (Elt F) → (⟨S128x495, .f32⟩ : BufTy).Contents (Elt F)),
    unary main_v1242 main_v1271 ((extractStridedSlice S128x495x1 ![0, 9, 9] · slices_S128x512x18_S128x495x1_0_9_9) : (⟨S128x512x18, .f32⟩ : BufTy).Contents (Elt F) → (⟨S128x495x1, .f32⟩ : BufTy).Contents (Elt F)),
    reshape main_v1271 main_v1272 rfl shapeCasts_S128x495x1_S128x495,
    binary main_v1270 main_v1272 main_v1273 (addf : (⟨S128x495, .f32⟩ : BufTy).Contents (Elt F) → (⟨S128x495, .f32⟩ : BufTy).Contents (Elt F) → (⟨S128x495, .f32⟩ : BufTy).Contents (Elt F)),
    unary main_v1242 main_v1274 ((extractStridedSlice S128x495x1 ![0, 10, 10] · slices_S128x512x18_S128x495x1_0_10_10) : (⟨S128x512x18, .f32⟩ : BufTy).Contents (Elt F) → (⟨S128x495x1, .f32⟩ : BufTy).Contents (Elt F)),
    reshape main_v1274 main_v1275 rfl shapeCasts_S128x495x1_S128x495,
    binary main_v1273 main_v1275 main_v1276 (addf : (⟨S128x495, .f32⟩ : BufTy).Contents (Elt F) → (⟨S128x495, .f32⟩ : BufTy).Contents (Elt F) → (⟨S128x495, .f32⟩ : BufTy).Contents (Elt F)),
    unary main_v1242 main_v1277 ((extractStridedSlice S128x495x1 ![0, 11, 11] · slices_S128x512x18_S128x495x1_0_11_11) : (⟨S128x512x18, .f32⟩ : BufTy).Contents (Elt F) → (⟨S128x495x1, .f32⟩ : BufTy).Contents (Elt F)),
    reshape main_v1277 main_v1278 rfl shapeCasts_S128x495x1_S128x495,
    binary main_v1276 main_v1278 main_v1279 (addf : (⟨S128x495, .f32⟩ : BufTy).Contents (Elt F) → (⟨S128x495, .f32⟩ : BufTy).Contents (Elt F) → (⟨S128x495, .f32⟩ : BufTy).Contents (Elt F)),
    unary main_v1242 main_v1280 ((extractStridedSlice S128x495x1 ![0, 12, 12] · slices_S128x512x18_S128x495x1_0_12_12) : (⟨S128x512x18, .f32⟩ : BufTy).Contents (Elt F) → (⟨S128x495x1, .f32⟩ : BufTy).Contents (Elt F)),
    reshape main_v1280 main_v1281 rfl shapeCasts_S128x495x1_S128x495,
    binary main_v1279 main_v1281 main_v1282 (addf : (⟨S128x495, .f32⟩ : BufTy).Contents (Elt F) → (⟨S128x495, .f32⟩ : BufTy).Contents (Elt F) → (⟨S128x495, .f32⟩ : BufTy).Contents (Elt F)),
    unary main_v1242 main_v1283 ((extractStridedSlice S128x495x1 ![0, 13, 13] · slices_S128x512x18_S128x495x1_0_13_13) : (⟨S128x512x18, .f32⟩ : BufTy).Contents (Elt F) → (⟨S128x495x1, .f32⟩ : BufTy).Contents (Elt F)),
    reshape main_v1283 main_v1284 rfl shapeCasts_S128x495x1_S128x495,
    binary main_v1282 main_v1284 main_v1285 (addf : (⟨S128x495, .f32⟩ : BufTy).Contents (Elt F) → (⟨S128x495, .f32⟩ : BufTy).Contents (Elt F) → (⟨S128x495, .f32⟩ : BufTy).Contents (Elt F)),
    unary main_v1242 main_v1286 ((extractStridedSlice S128x495x1 ![0, 14, 14] · slices_S128x512x18_S128x495x1_0_14_14) : (⟨S128x512x18, .f32⟩ : BufTy).Contents (Elt F) → (⟨S128x495x1, .f32⟩ : BufTy).Contents (Elt F)),
    reshape main_v1286 main_v1287 rfl shapeCasts_S128x495x1_S128x495,
    binary main_v1285 main_v1287 main_v1288 (addf : (⟨S128x495, .f32⟩ : BufTy).Contents (Elt F) → (⟨S128x495, .f32⟩ : BufTy).Contents (Elt F) → (⟨S128x495, .f32⟩ : BufTy).Contents (Elt F)),
    unary main_v1242 main_v1289 ((extractStridedSlice S128x495x1 ![0, 15, 15] · slices_S128x512x18_S128x495x1_0_15_15) : (⟨S128x512x18, .f32⟩ : BufTy).Contents (Elt F) → (⟨S128x495x1, .f32⟩ : BufTy).Contents (Elt F)),
    reshape main_v1289 main_v1290 rfl shapeCasts_S128x495x1_S128x495,
    binary main_v1288 main_v1290 main_v1291 (addf : (⟨S128x495, .f32⟩ : BufTy).Contents (Elt F) → (⟨S128x495, .f32⟩ : BufTy).Contents (Elt F) → (⟨S128x495, .f32⟩ : BufTy).Contents (Elt F)),
    unary main_v1242 main_v1292 ((extractStridedSlice S128x495x1 ![0, 16, 16] · slices_S128x512x18_S128x495x1_0_16_16) : (⟨S128x512x18, .f32⟩ : BufTy).Contents (Elt F) → (⟨S128x495x1, .f32⟩ : BufTy).Contents (Elt F)),
    reshape main_v1292 main_v1293 rfl shapeCasts_S128x495x1_S128x495,
    binary main_v1291 main_v1293 main_v1294 (addf : (⟨S128x495, .f32⟩ : BufTy).Contents (Elt F) → (⟨S128x495, .f32⟩ : BufTy).Contents (Elt F) → (⟨S128x495, .f32⟩ : BufTy).Contents (Elt F)),
    unary main_v1242 main_v1295 ((extractStridedSlice S128x495x1 ![0, 17, 17] · slices_S128x512x18_S128x495x1_0_17_17) : (⟨S128x512x18, .f32⟩ : BufTy).Contents (Elt F) → (⟨S128x495x1, .f32⟩ : BufTy).Contents (Elt F)),
    reshape main_v1295 main_v1296 rfl shapeCasts_S128x495x1_S128x495,
    binary main_v1294 main_v1296 main_v1297 (addf : (⟨S128x495, .f32⟩ : BufTy).Contents (Elt F) → (⟨S128x495, .f32⟩ : BufTy).Contents (Elt F) → (⟨S128x495, .f32⟩ : BufTy).Contents (Elt F)),
    unary main_arg3 main_v1298 ((extractStridedSlice S1 ![32] · slices_S64_S1_32) : (⟨S64, .f32⟩ : BufTy).Contents (Elt F) → (⟨S1, .f32⟩ : BufTy).Contents (Elt F)),
    reshape main_v1298 main_v1299 rfl shapeCasts_S1_S_,
    unary main_v1299 main_v1300 (broadcastInDim S128x495 ![] bcast_S_S128x495 : (⟨S_, .f32⟩ : BufTy).Contents (Elt F) → (⟨S128x495, .f32⟩ : BufTy).Contents (Elt F)),
    binary main_v1297 main_v1300 main_v1301 (addf : (⟨S128x495, .f32⟩ : BufTy).Contents (Elt F) → (⟨S128x495, .f32⟩ : BufTy).Contents (Elt F) → (⟨S128x495, .f32⟩ : BufTy).Contents (Elt F)),
    unary main_v1301 main_v1302 (Host.tanh : (⟨S128x495, .f32⟩ : BufTy).Contents (Elt F) → (⟨S128x495, .f32⟩ : BufTy).Contents (Elt F)),
    nullary main_cst_65 (constant S_ .f32 0xFF800000#32),
    binary main_v1302 main_cst_65 main_v1303 ((fun x v => Host.reduce FloatOps.maximumf x v reducesTo_S128x495_S128_d1 h_S_) : (⟨S128x495, .f32⟩ : BufTy).Contents (Elt F) → (⟨S_, .f32⟩ : BufTy).Contents (Elt F) → (⟨S128, .f32⟩ : BufTy).Contents (Elt F)) ]

/-- Segment 56: 8 operations. -/
def seg56 : List (HloOp τ sig (Elt F)) :=
  [ unary main_arg2 main_v1304 ((extractStridedSlice S1x18x300 ![33, 0, 0] · slices_S64x33x300_S1x18x300_33_0_0) : (⟨S64x33x300, .f32⟩ : BufTy).Contents (Elt F) → (⟨S1x18x300, .f32⟩ : BufTy).Contents (Elt F)),
    reshape main_v1304 main_v1305 rfl shapeCasts_S1x18x300_S18x300,
    binary main_v7 main_v1305 main_v1306 ((fun l r => Host.dotGeneral dot_S128x512x300_S18x300_S128x512x18_2_1_01_0_n_n none l r) : (⟨S128x512x300, .f32⟩ : BufTy).Contents (Elt F) → (⟨S18x300, .f32⟩ : BufTy).Contents (Elt F) → (⟨S128x512x18, .f32⟩ : BufTy).Contents (Elt F)),
    unary main_v1306 main_v1307 ((extractStridedSlice S128x495x1 ![0, 0, 0] · slices_S128x512x18_S128x495x1_0_0_0) : (⟨S128x512x18, .f32⟩ : BufTy).Contents (Elt F) → (⟨S128x495x1, .f32⟩ : BufTy).Contents (Elt F)),
    reshape main_v1307 main_v1308 rfl shapeCasts_S128x495x1_S128x495,
    nullary main_cst_66 (constant S_ .f32 0x00000000#32),
    unary main_cst_66 main_v1309 (broadcastInDim S128x495 ![] bcast_S_S128x495 : (⟨S_, .f32⟩ : BufTy).Contents (Elt F) → (⟨S128x495, .f32⟩ : BufTy).Contents (Elt F)),
    binary main_v1309 main_v1308 main_v1310 (addf : (⟨S128x495, .f32⟩ : BufTy).Contents (Elt F) → (⟨S128x495, .f32⟩ : BufTy).Contents (Elt F) → (⟨S128x495, .f32⟩ : BufTy).Contents (Elt F)) ]

/-- Segment 57: 58 operations. -/
def seg57 : List (HloOp τ sig (Elt F)) :=
  [ unary main_v1306 main_v1311 ((extractStridedSlice S128x495x1 ![0, 1, 1] · slices_S128x512x18_S128x495x1_0_1_1) : (⟨S128x512x18, .f32⟩ : BufTy).Contents (Elt F) → (⟨S128x495x1, .f32⟩ : BufTy).Contents (Elt F)),
    reshape main_v1311 main_v1312 rfl shapeCasts_S128x495x1_S128x495,
    binary main_v1310 main_v1312 main_v1313 (addf : (⟨S128x495, .f32⟩ : BufTy).Contents (Elt F) → (⟨S128x495, .f32⟩ : BufTy).Contents (Elt F) → (⟨S128x495, .f32⟩ : BufTy).Contents (Elt F)),
    unary main_v1306 main_v1314 ((extractStridedSlice S128x495x1 ![0, 2, 2] · slices_S128x512x18_S128x495x1_0_2_2) : (⟨S128x512x18, .f32⟩ : BufTy).Contents (Elt F) → (⟨S128x495x1, .f32⟩ : BufTy).Contents (Elt F)),
    reshape main_v1314 main_v1315 rfl shapeCasts_S128x495x1_S128x495,
    binary main_v1313 main_v1315 main_v1316 (addf : (⟨S128x495, .f32⟩ : BufTy).Contents (Elt F) → (⟨S128x495, .f32⟩ : BufTy).Contents (Elt F) → (⟨S128x495, .f32⟩ : BufTy).Contents (Elt F)),
    unary main_v1306 main_v1317 ((extractStridedSlice S128x495x1 ![0, 3, 3] · slices_S128x512x18_S128x495x1_0_3_3) : (⟨S128x512x18, .f32⟩ : BufTy).Contents (Elt F) → (⟨S128x495x1, .f32⟩ : BufTy).Contents (Elt F)),
    reshape main_v1317 main_v1318 rfl shapeCasts_S128x495x1_S128x495,
    binary main_v1316 main_v1318 main_v1319 (addf : (⟨S128x495, .f32⟩ : BufTy).Contents (Elt F) → (⟨S128x495, .f32⟩ : BufTy).Contents (Elt F) → (⟨S128x495, .f32⟩ : BufTy).Contents (Elt F)),
    unary main_v1306 main_v1320 ((extractStridedSlice S128x495x1 ![0, 4, 4] · slices_S128x512x18_S128x495x1_0_4_4) : (⟨S128x512x18, .f32⟩ : BufTy).Contents (Elt F) → (⟨S128x495x1, .f32⟩ : BufTy).Contents (Elt F)),
    reshape main_v1320 main_v1321 rfl shapeCasts_S128x495x1_S128x495,
    binary main_v1319 main_v1321 main_v1322 (addf : (⟨S128x495, .f32⟩ : BufTy).Contents (Elt F) → (⟨S128x495, .f32⟩ : BufTy).Contents (Elt F) → (⟨S128x495, .f32⟩ : BufTy).Contents (Elt F)),
    unary main_v1306 main_v1323 ((extractStridedSlice S128x495x1 ![0, 5, 5] · slices_S128x512x18_S128x495x1_0_5_5) : (⟨S128x512x18, .f32⟩ : BufTy).Contents (Elt F) → (⟨S128x495x1, .f32⟩ : BufTy).Contents (Elt F)),
    reshape main_v1323 main_v1324 rfl shapeCasts_S128x495x1_S128x495,
    binary main_v1322 main_v1324 main_v1325 (addf : (⟨S128x495, .f32⟩ : BufTy).Contents (Elt F) → (⟨S128x495, .f32⟩ : BufTy).Contents (Elt F) → (⟨S128x495, .f32⟩ : BufTy).Contents (Elt F)),
    unary main_v1306 main_v1326 ((extractStridedSlice S128x495x1 ![0, 6, 6] · slices_S128x512x18_S128x495x1_0_6_6) : (⟨S128x512x18, .f32⟩ : BufTy).Contents (Elt F) → (⟨S128x495x1, .f32⟩ : BufTy).Contents (Elt F)),
    reshape main_v1326 main_v1327 rfl shapeCasts_S128x495x1_S128x495,
    binary main_v1325 main_v1327 main_v1328 (addf : (⟨S128x495, .f32⟩ : BufTy).Contents (Elt F) → (⟨S128x495, .f32⟩ : BufTy).Contents (Elt F) → (⟨S128x495, .f32⟩ : BufTy).Contents (Elt F)),
    unary main_v1306 main_v1329 ((extractStridedSlice S128x495x1 ![0, 7, 7] · slices_S128x512x18_S128x495x1_0_7_7) : (⟨S128x512x18, .f32⟩ : BufTy).Contents (Elt F) → (⟨S128x495x1, .f32⟩ : BufTy).Contents (Elt F)),
    reshape main_v1329 main_v1330 rfl shapeCasts_S128x495x1_S128x495,
    binary main_v1328 main_v1330 main_v1331 (addf : (⟨S128x495, .f32⟩ : BufTy).Contents (Elt F) → (⟨S128x495, .f32⟩ : BufTy).Contents (Elt F) → (⟨S128x495, .f32⟩ : BufTy).Contents (Elt F)),
    unary main_v1306 main_v1332 ((extractStridedSlice S128x495x1 ![0, 8, 8] · slices_S128x512x18_S128x495x1_0_8_8) : (⟨S128x512x18, .f32⟩ : BufTy).Contents (Elt F) → (⟨S128x495x1, .f32⟩ : BufTy).Contents (Elt F)),
    reshape main_v1332 main_v1333 rfl shapeCasts_S128x495x1_S128x495,
    binary main_v1331 main_v1333 main_v1334 (addf : (⟨S128x495, .f32⟩ : BufTy).Contents (Elt F) → (⟨S128x495, .f32⟩ : BufTy).Contents (Elt F) → (⟨S128x495, .f32⟩ : BufTy).Contents (Elt F)),
    unary main_v1306 main_v1335 ((extractStridedSlice S128x495x1 ![0, 9, 9] · slices_S128x512x18_S128x495x1_0_9_9) : (⟨S128x512x18, .f32⟩ : BufTy).Contents (Elt F) → (⟨S128x495x1, .f32⟩ : BufTy).Contents (Elt F)),
    reshape main_v1335 main_v1336 rfl shapeCasts_S128x495x1_S128x495,
    binary main_v1334 main_v1336 main_v1337 (addf : (⟨S128x495, .f32⟩ : BufTy).Contents (Elt F) → (⟨S128x495, .f32⟩ : BufTy).Contents (Elt F) → (⟨S128x495, .f32⟩ : BufTy).Contents (Elt F)),
    unary main_v1306 main_v1338 ((extractStridedSlice S128x495x1 ![0, 10, 10] · slices_S128x512x18_S128x495x1_0_10_10) : (⟨S128x512x18, .f32⟩ : BufTy).Contents (Elt F) → (⟨S128x495x1, .f32⟩ : BufTy).Contents (Elt F)),
    reshape main_v1338 main_v1339 rfl shapeCasts_S128x495x1_S128x495,
    binary main_v1337 main_v1339 main_v1340 (addf : (⟨S128x495, .f32⟩ : BufTy).Contents (Elt F) → (⟨S128x495, .f32⟩ : BufTy).Contents (Elt F) → (⟨S128x495, .f32⟩ : BufTy).Contents (Elt F)),
    unary main_v1306 main_v1341 ((extractStridedSlice S128x495x1 ![0, 11, 11] · slices_S128x512x18_S128x495x1_0_11_11) : (⟨S128x512x18, .f32⟩ : BufTy).Contents (Elt F) → (⟨S128x495x1, .f32⟩ : BufTy).Contents (Elt F)),
    reshape main_v1341 main_v1342 rfl shapeCasts_S128x495x1_S128x495,
    binary main_v1340 main_v1342 main_v1343 (addf : (⟨S128x495, .f32⟩ : BufTy).Contents (Elt F) → (⟨S128x495, .f32⟩ : BufTy).Contents (Elt F) → (⟨S128x495, .f32⟩ : BufTy).Contents (Elt F)),
    unary main_v1306 main_v1344 ((extractStridedSlice S128x495x1 ![0, 12, 12] · slices_S128x512x18_S128x495x1_0_12_12) : (⟨S128x512x18, .f32⟩ : BufTy).Contents (Elt F) → (⟨S128x495x1, .f32⟩ : BufTy).Contents (Elt F)),
    reshape main_v1344 main_v1345 rfl shapeCasts_S128x495x1_S128x495,
    binary main_v1343 main_v1345 main_v1346 (addf : (⟨S128x495, .f32⟩ : BufTy).Contents (Elt F) → (⟨S128x495, .f32⟩ : BufTy).Contents (Elt F) → (⟨S128x495, .f32⟩ : BufTy).Contents (Elt F)),
    unary main_v1306 main_v1347 ((extractStridedSlice S128x495x1 ![0, 13, 13] · slices_S128x512x18_S128x495x1_0_13_13) : (⟨S128x512x18, .f32⟩ : BufTy).Contents (Elt F) → (⟨S128x495x1, .f32⟩ : BufTy).Contents (Elt F)),
    reshape main_v1347 main_v1348 rfl shapeCasts_S128x495x1_S128x495,
    binary main_v1346 main_v1348 main_v1349 (addf : (⟨S128x495, .f32⟩ : BufTy).Contents (Elt F) → (⟨S128x495, .f32⟩ : BufTy).Contents (Elt F) → (⟨S128x495, .f32⟩ : BufTy).Contents (Elt F)),
    unary main_v1306 main_v1350 ((extractStridedSlice S128x495x1 ![0, 14, 14] · slices_S128x512x18_S128x495x1_0_14_14) : (⟨S128x512x18, .f32⟩ : BufTy).Contents (Elt F) → (⟨S128x495x1, .f32⟩ : BufTy).Contents (Elt F)),
    reshape main_v1350 main_v1351 rfl shapeCasts_S128x495x1_S128x495,
    binary main_v1349 main_v1351 main_v1352 (addf : (⟨S128x495, .f32⟩ : BufTy).Contents (Elt F) → (⟨S128x495, .f32⟩ : BufTy).Contents (Elt F) → (⟨S128x495, .f32⟩ : BufTy).Contents (Elt F)),
    unary main_v1306 main_v1353 ((extractStridedSlice S128x495x1 ![0, 15, 15] · slices_S128x512x18_S128x495x1_0_15_15) : (⟨S128x512x18, .f32⟩ : BufTy).Contents (Elt F) → (⟨S128x495x1, .f32⟩ : BufTy).Contents (Elt F)),
    reshape main_v1353 main_v1354 rfl shapeCasts_S128x495x1_S128x495,
    binary main_v1352 main_v1354 main_v1355 (addf : (⟨S128x495, .f32⟩ : BufTy).Contents (Elt F) → (⟨S128x495, .f32⟩ : BufTy).Contents (Elt F) → (⟨S128x495, .f32⟩ : BufTy).Contents (Elt F)),
    unary main_v1306 main_v1356 ((extractStridedSlice S128x495x1 ![0, 16, 16] · slices_S128x512x18_S128x495x1_0_16_16) : (⟨S128x512x18, .f32⟩ : BufTy).Contents (Elt F) → (⟨S128x495x1, .f32⟩ : BufTy).Contents (Elt F)),
    reshape main_v1356 main_v1357 rfl shapeCasts_S128x495x1_S128x495,
    binary main_v1355 main_v1357 main_v1358 (addf : (⟨S128x495, .f32⟩ : BufTy).Contents (Elt F) → (⟨S128x495, .f32⟩ : BufTy).Contents (Elt F) → (⟨S128x495, .f32⟩ : BufTy).Contents (Elt F)),
    unary main_v1306 main_v1359 ((extractStridedSlice S128x495x1 ![0, 17, 17] · slices_S128x512x18_S128x495x1_0_17_17) : (⟨S128x512x18, .f32⟩ : BufTy).Contents (Elt F) → (⟨S128x495x1, .f32⟩ : BufTy).Contents (Elt F)),
    reshape main_v1359 main_v1360 rfl shapeCasts_S128x495x1_S128x495,
    binary main_v1358 main_v1360 main_v1361 (addf : (⟨S128x495, .f32⟩ : BufTy).Contents (Elt F) → (⟨S128x495, .f32⟩ : BufTy).Contents (Elt F) → (⟨S128x495, .f32⟩ : BufTy).Contents (Elt F)),
    unary main_arg3 main_v1362 ((extractStridedSlice S1 ![33] · slices_S64_S1_33) : (⟨S64, .f32⟩ : BufTy).Contents (Elt F) → (⟨S1, .f32⟩ : BufTy).Contents (Elt F)),
    reshape main_v1362 main_v1363 rfl shapeCasts_S1_S_,
    unary main_v1363 main_v1364 (broadcastInDim S128x495 ![] bcast_S_S128x495 : (⟨S_, .f32⟩ : BufTy).Contents (Elt F) → (⟨S128x495, .f32⟩ : BufTy).Contents (Elt F)),
    binary main_v1361 main_v1364 main_v1365 (addf : (⟨S128x495, .f32⟩ : BufTy).Contents (Elt F) → (⟨S128x495, .f32⟩ : BufTy).Contents (Elt F) → (⟨S128x495, .f32⟩ : BufTy).Contents (Elt F)),
    unary main_v1365 main_v1366 (Host.tanh : (⟨S128x495, .f32⟩ : BufTy).Contents (Elt F) → (⟨S128x495, .f32⟩ : BufTy).Contents (Elt F)),
    nullary main_cst_67 (constant S_ .f32 0xFF800000#32),
    binary main_v1366 main_cst_67 main_v1367 ((fun x v => Host.reduce FloatOps.maximumf x v reducesTo_S128x495_S128_d1 h_S_) : (⟨S128x495, .f32⟩ : BufTy).Contents (Elt F) → (⟨S_, .f32⟩ : BufTy).Contents (Elt F) → (⟨S128, .f32⟩ : BufTy).Contents (Elt F)) ]

/-- Segment 58: 2 operations. -/
def seg58 : List (HloOp τ sig (Elt F)) :=
  [ unary main_arg2 main_v1368 ((extractStridedSlice S1x19x300 ![34, 0, 0] · slices_S64x33x300_S1x19x300_34_0_0) : (⟨S64x33x300, .f32⟩ : BufTy).Contents (Elt F) → (⟨S1x19x300, .f32⟩ : BufTy).Contents (Elt F)),
    reshape main_v1368 main_v1369 rfl shapeCasts_S1x19x300_S19x300 ]

/-- Segment 59: 60 operations. -/
def seg59 : List (HloOp τ sig (Elt F)) :=
  [ binary main_v7 main_v1369 main_v1370 ((fun l r => Host.dotGeneral dot_S128x512x300_S19x300_S128x512x19_2_1_01_0_n_n none l r) : (⟨S128x512x300, .f32⟩ : BufTy).Contents (Elt F) → (⟨S19x300, .f32⟩ : BufTy).Contents (Elt F) → (⟨S128x512x19, .f32⟩ : BufTy).Contents (Elt F)),
    unary main_v1370 main_v1371 ((extractStridedSlice S128x494x1 ![0, 0, 0] · slices_S128x512x19_S128x494x1_0_0_0) : (⟨S128x512x19, .f32⟩ : BufTy).Contents (Elt F) → (⟨S128x494x1, .f32⟩ : BufTy).Contents (Elt F)),
    reshape main_v1371 main_v1372 rfl shapeCasts_S128x494x1_S128x494,
    nullary main_cst_68 (constant S_ .f32 0x00000000#32),
    unary main_cst_68 main_v1373 (broadcastInDim S128x494 ![] bcast_S_S128x494 : (⟨S_, .f32⟩ : BufTy).Contents (Elt F) → (⟨S128x494, .f32⟩ : BufTy).Contents (Elt F)),
    binary main_v1373 main_v1372 main_v1374 (addf : (⟨S128x494, .f32⟩ : BufTy).Contents (Elt F) → (⟨S128x494, .f32⟩ : BufTy).Contents (Elt F) → (⟨S128x494, .f32⟩ : BufTy).Contents (Elt F)),
    unary main_v1370 main_v1375 ((extractStridedSlice S128x494x1 ![0, 1, 1] · slices_S128x512x19_S128x494x1_0_1_1) : (⟨S128x512x19, .f32⟩ : BufTy).Contents (Elt F) → (⟨S128x494x1, .f32⟩ : BufTy).Contents (Elt F)),
    reshape main_v1375 main_v1376 rfl shapeCasts_S128x494x1_S128x494,
    binary main_v1374 main_v1376 main_v1377 (addf : (⟨S128x494, .f32⟩ : BufTy).Contents (Elt F) → (⟨S128x494, .f32⟩ : BufTy).Contents (Elt F) → (⟨S128x494, .f32⟩ : BufTy).Contents (Elt F)),
    unary main_v1370 main_v1378 ((extractStridedSlice S128x494x1 ![0, 2, 2] · slices_S128x512x19_S128x494x1_0_2_2) : (⟨S128x512x19, .f32⟩ : BufTy).Contents (Elt F) → (⟨S128x494x1, .f32⟩ : BufTy).Contents (Elt F)),
    reshape main_v1378 main_v1379 rfl shapeCasts_S128x494x1_S128x494,
    binary main_v1377 main_v1379 main_v1380 (addf : (⟨S128x494, .f32⟩ : BufTy).Contents (Elt F) → (⟨S128x494, .f32⟩ : BufTy).Contents (Elt F) → (⟨S128x494, .f32⟩ : BufTy).Contents (Elt F)),
    unary main_v1370 main_v1381 ((extractStridedSlice S128x494x1 ![0, 3, 3] · slices_S128x512x19_S128x494x1_0_3_3) : (⟨S128x512x19, .f32⟩ : BufTy).Contents (Elt F) → (⟨S128x494x1, .f32⟩ : BufTy).Contents (Elt F)),
    reshape main_v1381 main_v1382 rfl shapeCasts_S128x494x1_S128x494,
    binary main_v1380 main_v1382 main_v1383 (addf : (⟨S128x494, .f32⟩ : BufTy).Contents (Elt F) → (⟨S128x494, .f32⟩ : BufTy).Contents (Elt F) → (⟨S128x494, .f32⟩ : BufTy).Contents (Elt F)),
    unary main_v1370 main_v1384 ((extractStridedSlice S128x494x1 ![0, 4, 4] · slices_S128x512x19_S128x494x1_0_4_4) : (⟨S128x512x19, .f32⟩ : BufTy).Contents (Elt F) → (⟨S128x494x1, .f32⟩ : BufTy).Contents (Elt F)),
    reshape main_v1384 main_v1385 rfl shapeCasts_S128x494x1_S128x494,
    binary main_v1383 main_v1385 main_v1386 (addf : (⟨S128x494, .f32⟩ : BufTy).Contents (Elt F) → (⟨S128x494, .f32⟩ : BufTy).Contents (Elt F) → (⟨S128x494, .f32⟩ : BufTy).Contents (Elt F)),
    unary main_v1370 main_v1387 ((extractStridedSlice S128x494x1 ![0, 5, 5] · slices_S128x512x19_S128x494x1_0_5_5) : (⟨S128x512x19, .f32⟩ : BufTy).Contents (Elt F) → (⟨S128x494x1, .f32⟩ : BufTy).Contents (Elt F)),
    reshape main_v1387 main_v1388 rfl shapeCasts_S128x494x1_S128x494,
    binary main_v1386 main_v1388 main_v1389 (addf : (⟨S128x494, .f32⟩ : BufTy).Contents (Elt F) → (⟨S128x494, .f32⟩ : BufTy).Contents (Elt F) → (⟨S128x494, .f32⟩ : BufTy).Contents (Elt F)),
    unary main_v1370 main_v1390 ((extractStridedSlice S128x494x1 ![0, 6, 6] · slices_S128x512x19_S128x494x1_0_6_6) : (⟨S128x512x19, .f32⟩ : BufTy).Contents (Elt F) → (⟨S128x494x1, .f32⟩ : BufTy).Contents (Elt F)),
    reshape main_v1390 main_v1391 rfl shapeCasts_S128x494x1_S128x494,
    binary main_v1389 main_v1391 main_v1392 (addf : (⟨S128x494, .f32⟩ : BufTy).Contents (Elt F) → (⟨S128x494, .f32⟩ : BufTy).Contents (Elt F) → (⟨S128x494, .f32⟩ : BufTy).Contents (Elt F)),
    unary main_v1370 main_v1393 ((extractStridedSlice S128x494x1 ![0, 7, 7] · slices_S128x512x19_S128x494x1_0_7_7) : (⟨S128x512x19, .f32⟩ : BufTy).Contents (Elt F) → (⟨S128x494x1, .f32⟩ : BufTy).Contents (Elt F)),
    reshape main_v1393 main_v1394 rfl shapeCasts_S128x494x1_S128x494,
    binary main_v1392 main_v1394 main_v1395 (addf : (⟨S128x494, .f32⟩ : BufTy).Contents (Elt F) → (⟨S128x494, .f32⟩ : BufTy).Contents (Elt F) → (⟨S128x494, .f32⟩ : BufTy).Contents (Elt F)),
    unary main_v1370 main_v1396 ((extractStridedSlice S128x494x1 ![0, 8, 8] · slices_S128x512x19_S128x494x1_0_8_8) : (⟨S128x512x19, .f32⟩ : BufTy).Contents (Elt F) → (⟨S128x494x1, .f32⟩ : BufTy).Contents (Elt F)),
    reshape main_v1396 main_v1397 rfl shapeCasts_S128x494x1_S128x494,
    binary main_v1395 main_v1397 main_v1398 (addf : (⟨S128x494, .f32⟩ : BufTy).Contents (Elt F) → (⟨S128x494, .f32⟩ : BufTy).Contents (Elt F) → (⟨S128x494, .f32⟩ : BufTy).Contents (Elt F)),
    unary main_v1370 main_v1399 ((extractStridedSlice S128x494x1 ![0, 9, 9] · slices_S128x512x19_S128x494x1_0_9_9) : (⟨S128x512x19, .f32⟩ : BufTy).Contents (Elt F) → (⟨S128x494x1, .f32⟩ : BufTy).Contents (Elt F)),
    reshape main_v1399 main_v1400 rfl shapeCasts_S128x494x1_S128x494,
    binary main_v1398 main_v1400 main_v1401 (addf : (⟨S128x494, .f32⟩ : BufTy).Contents (Elt F) → (⟨S128x494, .f32⟩ : BufTy).Contents (Elt F) → (⟨S128x494, .f32⟩ : BufTy).Contents (Elt F)),
    unary main_v1370 main_v1402 ((extractStridedSlice S128x494x1 ![0, 10, 10] · slices_S128x512x19_S128x494x1_0_10_10) : (⟨S128x512x19, .f32⟩ : BufTy).Contents (Elt F) → (⟨S128x494x1, .f32⟩ : BufTy).Contents (Elt F)),
    reshape main_v1402 main_v1403 rfl shapeCasts_S128x494x1_S128x494,
    binary main_v1401 main_v1403 main_v1404 (addf : (⟨S128x494, .f32⟩ : BufTy).Contents (Elt F) → (⟨S128x494, .f32⟩ : BufTy).Contents (Elt F) → (⟨S128x494, .f32⟩ : BufTy).Contents (Elt F)),
    unary main_v1370 main_v1405 ((extractStridedSlice S128x494x1 ![0, 11, 11] · slices_S128x512x19_S128x494x1_0_11_11) : (⟨S128x512x19, .f32⟩ : BufTy).Contents (Elt F) → (⟨S128x494x1, .f32⟩ : BufTy).Contents (Elt F)),
    reshape main_v1405 main_v1406 rfl shapeCasts_S128x494x1_S128x494,
    binary main_v1404 main_v1406 main_v1407 (addf : (⟨S128x494, .f32⟩ : BufTy).Contents (Elt F) → (⟨S128x494, .f32⟩ : BufTy).Contents (Elt F) → (⟨S128x494, .f32⟩ : BufTy).Contents (Elt F)),
    unary main_v1370 main_v1408 ((extractStridedSlice S128x494x1 ![0, 12, 12] · slices_S128x512x19_S128x494x1_0_12_12) : (⟨S128x512x19, .f32⟩ : BufTy).Contents (Elt F) → (⟨S128x494x1, .f32⟩ : BufTy).Contents (Elt F)),
    reshape main_v1408 main_v1409 rfl shapeCasts_S128x494x1_S128x494,
    binary main_v1407 main_v1409 main_v1410 (addf : (⟨S128x494, .f32⟩ : BufTy).Contents (Elt F) → (⟨S128x494, .f32⟩ : BufTy).Contents (Elt F) → (⟨S128x494, .f32⟩ : BufTy).Contents (Elt F)),
    unary main_v1370 main_v1411 ((extractStridedSlice S128x494x1 ![0, 13, 13] · slices_S128x512x19_S128x494x1_0_13_13) : (⟨S128x512x19, .f32⟩ : BufTy).Contents (Elt F) → (⟨S128x494x1, .f32⟩ : BufTy).Contents (Elt F)),
    reshape main_v1411 main_v1412 rfl shapeCasts_S128x494x1_S128x494,
    binary main_v1410 main_v1412 main_v1413 (addf : (⟨S128x494, .f32⟩ : BufTy).Contents (Elt F) → (⟨S128x494, .f32⟩ : BufTy).Contents (Elt F) → (⟨S128x494, .f32⟩ : BufTy).Contents (Elt F)),
    unary main_v1370 main_v1414 ((extractStridedSlice S128x494x1 ![0, 14, 14] · slices_S128x512x19_S128x494x1_0_14_14) : (⟨S128x512x19, .f32⟩ : BufTy).Contents (Elt F) → (⟨S128x494x1, .f32⟩ : BufTy).Contents (Elt F)),
    reshape main_v1414 main_v1415 rfl shapeCasts_S128x494x1_S128x494,
    binary main_v1413 main_v1415 main_v1416 (addf : (⟨S128x494, .f32⟩ : BufTy).Contents (Elt F) → (⟨S128x494, .f32⟩ : BufTy).Contents (Elt F) → (⟨S128x494, .f32⟩ : BufTy).Contents (Elt F)),
    unary main_v1370 main_v1417 ((extractStridedSlice S128x494x1 ![0, 15, 15] · slices_S128x512x19_S128x494x1_0_15_15) : (⟨S128x512x19, .f32⟩ : BufTy).Contents (Elt F) → (⟨S128x494x1, .f32⟩ : BufTy).Contents (Elt F)),
    reshape main_v1417 main_v1418 rfl shapeCasts_S128x494x1_S128x494,
    binary main_v1416 main_v1418 main_v1419 (addf : (⟨S128x494, .f32⟩ : BufTy).Contents (Elt F) → (⟨S128x494, .f32⟩ : BufTy).Contents (Elt F) → (⟨S128x494, .f32⟩ : BufTy).Contents (Elt F)),
    unary main_v1370 main_v1420 ((extractStridedSlice S128x494x1 ![0, 16, 16] · slices_S128x512x19_S128x494x1_0_16_16) : (⟨S128x512x19, .f32⟩ : BufTy).Contents (Elt F) → (⟨S128x494x1, .f32⟩ : BufTy).Contents (Elt F)),
    reshape main_v1420 main_v1421 rfl shapeCasts_S128x494x1_S128x494,
    binary main_v1419 main_v1421 main_v1422 (addf : (⟨S128x494, .f32⟩ : BufTy).Contents (Elt F) → (⟨S128x494, .f32⟩ : BufTy).Contents (Elt F) → (⟨S128x494, .f32⟩ : BufTy).Contents (Elt F)),
    unary main_v1370 main_v1423 ((extractStridedSlice S128x494x1 ![0, 17, 17] · slices_S128x512x19_S128x494x1_0_17_17) : (⟨S128x512x19, .f32⟩ : BufTy).Contents (Elt F) → (⟨S128x494x1, .f32⟩ : BufTy).Contents (Elt F)),
    reshape main_v1423 main_v1424 rfl shapeCasts_S128x494x1_S128x494,
    binary main_v1422 main_v1424 main_v1425 (addf : (⟨S128x494, .f32⟩ : BufTy).Contents (Elt F) → (⟨S128x494, .f32⟩ : BufTy).Contents (Elt F) → (⟨S128x494, .f32⟩ : BufTy).Contents (Elt F)),
    unary main_v1370 main_v1426 ((extractStridedSlice S128x494x1 ![0, 18, 18] · slices_S128x512x19_S128x494x1_0_18_18) : (⟨S128x512x19, .f32⟩ : BufTy).Contents (Elt F) → (⟨S128x494x1, .f32⟩ : BufTy).Contents (Elt F)),
    reshape main_v1426 main_v1427 rfl shapeCasts_S128x494x1_S128x494,
    binary main_v1425 main_v1427 main_v1428 (addf : (⟨S128x494, .f32⟩ : BufTy).Contents (Elt F) → (⟨S128x494, .f32⟩ : BufTy).Contents (Elt F) → (⟨S128x494, .f32⟩ : BufTy).Contents (Elt F)) ]

/-- Segment 60: 7 operations. -/
def seg60 : List (HloOp τ sig (Elt F)) :=
  [ unary main_arg3 main_v1429 ((extractStridedSlice S1 ![34] · slices_S64_S1_34) : (⟨S64, .f32⟩ : BufTy).Contents (Elt F) → (⟨S1, .f32⟩ : BufTy).Contents (Elt F)),
    reshape main_v1429 main_v1430 rfl shapeCasts_S1_S_,
    unary main_v1430 main_v1431 (broadcastInDim S128x494 ![] bcast_S_S128x494 : (⟨S_, .f32⟩ : BufTy).Contents (Elt F) → (⟨S128x494, .f32⟩ : BufTy).Contents (Elt F)),
    binary main_v1428 main_v1431 main_v1432 (addf : (⟨S128x494, .f32⟩ : BufTy).Contents (Elt F) → (⟨S128x494, .f32⟩ : BufTy).Contents (Elt F) → (⟨S128x494, .f32⟩ : BufTy).Contents (Elt F)),
    unary main_v1432 main_v1433 (Host.tanh : (⟨S128x494, .f32⟩ : BufTy).Contents (Elt F) → (⟨S128x494, .f32⟩ : BufTy).Contents (Elt F)),
    nullary main_cst_69 (constant S_ .f32 0xFF800000#32),
    binary main_v1433 main_cst_69 main_v1434 ((fun x v => Host.reduce FloatOps.maximumf x v reducesTo_S128x494_S128_d1 h_S_) : (⟨S128x494, .f32⟩ : BufTy).Contents (Elt F) → (⟨S_, .f32⟩ : BufTy).Contents (Elt F) → (⟨S128, .f32⟩ : BufTy).Contents (Elt F)) ]

/-- Segment 61: 53 operations. -/
def seg61 : List (HloOp τ sig (Elt F)) :=
  [ unary main_arg2 main_v1435 ((extractStridedSlice S1x19x300 ![35, 0, 0] · slices_S64x33x300_S1x19x300_35_0_0) : (⟨S64x33x300, .f32⟩ : BufTy).Contents (Elt F) → (⟨S1x19x300, .f32⟩ : BufTy).Contents (Elt F)),
    reshape main_v1435 main_v1436 rfl shapeCasts_S1x19x300_S19x300,
    binary main_v7 main_v1436 main_v1437 ((fun l r => Host.dotGeneral dot_S128x512x300_S19x300_S128x512x19_2_1_01_0_n_n none l r) : (⟨S128x512x300, .f32⟩ : BufTy).Contents (Elt F) → (⟨S19x300, .f32⟩ : BufTy).Contents (Elt F) → (⟨S128x512x19, .f32⟩ : BufTy).Contents (Elt F)),
    unary main_v1437 main_v1438 ((extractStridedSlice S128x494x1 ![0, 0, 0] · slices_S128x512x19_S128x494x1_0_0_0) : (⟨S128x512x19, .f32⟩ : BufTy).Contents (Elt F) → (⟨S128x494x1, .f32⟩ : BufTy).Contents (Elt F)),
    reshape main_v1438 main_v1439 rfl shapeCasts_S128x494x1_S128x494,
    nullary main_cst_70 (constant S_ .f32 0x00000000#32),
    unary main_cst_70 main_v1440 (broadcastInDim S128x494 ![] bcast_S_S128x494 : (⟨S_, .f32⟩ : BufTy).Contents (Elt F) → (⟨S128x494, .f32⟩ : BufTy).Contents (Elt F)),
    binary main_v1440 main_v1439 main_v1441 (addf : (⟨S128x494, .f32⟩ : BufTy).Contents (Elt F) → (⟨S128x494, .f32⟩ : BufTy).Contents (Elt F) → (⟨S128x494, .f32⟩ : BufTy).Contents (Elt F)),
    unary main_v1437 main_v1442 ((extractStridedSlice S128x494x1 ![0, 1, 1] · slices_S128x512x19_S128x494x1_0_1_1) : (⟨S128x512x19, .f32⟩ : BufTy).Contents (Elt F) → (⟨S128x494x1, .f32⟩ : BufTy).Contents (Elt F)),
    reshape main_v1442 main_v1443 rfl shapeCasts_S128x494x1_S128x494,
    binary main_v1441 main_v1443 main_v1444 (addf : (⟨S128x494, .f32⟩ : BufTy).Contents (Elt F) → (⟨S128x494, .f32⟩ : BufTy).Contents (Elt F) → (⟨S128x494, .f32⟩ : BufTy).Contents (Elt F)),
    unary main_v1437 main_v1445 ((extractStridedSlice S128x494x1 ![0, 2, 2] · slices_S128x512x19_S128x494x1_0_2_2) : (⟨S128x512x19, .f32⟩ : BufTy).Contents (Elt F) → (⟨S128x494x1, .f32⟩ : BufTy).Contents (Elt F)),
    reshape main_v1445 main_v1446 rfl shapeCasts_S128x494x1_S128x494,
    binary main_v1444 main_v1446 main_v1447 (addf : (⟨S128x494, .f32⟩ : BufTy).Contents (Elt F) → (⟨S128x494, .f32⟩ : BufTy).Contents (Elt F) → (⟨S128x494, .f32⟩ : BufTy).Contents (Elt F)),
    unary main_v1437 main_v1448 ((extractStridedSlice S128x494x1 ![0, 3, 3] · slices_S128x512x19_S128x494x1_0_3_3) : (⟨S128x512x19, .f32⟩ : BufTy).Contents (Elt F) → (⟨S128x494x1, .f32⟩ : BufTy).Contents (Elt F)),
    reshape main_v1448 main_v1449 rfl shapeCasts_S128x494x1_S128x494,
    binary main_v1447 main_v1449 main_v1450 (addf : (⟨S128x494, .f32⟩ : BufTy).Contents (Elt F) → (⟨S128x494, .f32⟩ : BufTy).Contents (Elt F) → (⟨S128x494, .f32⟩ : BufTy).Contents (Elt F)),
    unary main_v1437 main_v1451 ((extractStridedSlice S128x494x1 ![0, 4, 4] · slices_S128x512x19_S128x494x1_0_4_4) : (⟨S128x512x19, .f32⟩ : BufTy).Contents (Elt F) → (⟨S128x494x1, .f32⟩ : BufTy).Contents (Elt F)),
    reshape main_v1451 main_v1452 rfl shapeCasts_S128x494x1_S128x494,
    binary main_v1450 main_v1452 main_v1453 (addf : (⟨S128x494, .f32⟩ : BufTy).Contents (Elt F) → (⟨S128x494, .f32⟩ : BufTy).Contents (Elt F) → (⟨S128x494, .f32⟩ : BufTy).Contents (Elt F)),
    unary main_v1437 main_v1454 ((extractStridedSlice S128x494x1 ![0, 5, 5] · slices_S128x512x19_S128x494x1_0_5_5) : (⟨S128x512x19, .f32⟩ : BufTy).Contents (Elt F) → (⟨S128x494x1, .f32⟩ : BufTy).Contents (Elt F)),
    reshape main_v1454 main_v1455 rfl shapeCasts_S128x494x1_S128x494,
    binary main_v1453 main_v1455 main_v1456 (addf : (⟨S128x494, .f32⟩ : BufTy).Contents (Elt F) → (⟨S128x494, .f32⟩ : BufTy).Contents (Elt F) → (⟨S128x494, .f32⟩ : BufTy).Contents (Elt F)),
    unary main_v1437 main_v1457 ((extractStridedSlice S128x494x1 ![0, 6, 6] · slices_S128x512x19_S128x494x1_0_6_6) : (⟨S128x512x19, .f32⟩ : BufTy).Contents (Elt F) → (⟨S128x494x1, .f32⟩ : BufTy).Contents (Elt F)),
    reshape main_v1457 main_v1458 rfl shapeCasts_S128x494x1_S128x494,
    binary main_v1456 main_v1458 main_v1459 (addf : (⟨S128x494, .f32⟩ : BufTy).Contents (Elt F) → (⟨S128x494, .f32⟩ : BufTy).Contents (Elt F) → (⟨S128x494, .f32⟩ : BufTy).Contents (Elt F)),
    unary main_v1437 main_v1460 ((extractStridedSlice S128x494x1 ![0, 7, 7] · slices_S128x512x19_S128x494x1_0_7_7) : (⟨S128x512x19, .f32⟩ : BufTy).Contents (Elt F) → (⟨S128x494x1, .f32⟩ : BufTy).Contents (Elt F)),
    reshape main_v1460 main_v1461 rfl shapeCasts_S128x494x1_S128x494,
    binary main_v1459 main_v1461 main_v1462 (addf : (⟨S128x494, .f32⟩ : BufTy).Contents (Elt F) → (⟨S128x494, .f32⟩ : BufTy).Contents (Elt F) → (⟨S128x494, .f32⟩ : BufTy).Contents (Elt F)),
    unary main_v1437 main_v1463 ((extractStridedSlice S128x494x1 ![0, 8, 8] · slices_S128x512x19_S128x494x1_0_8_8) : (⟨S128x512x19, .f32⟩ : BufTy).Contents (Elt F) → (⟨S128x494x1, .f32⟩ : BufTy).Contents (Elt F)),
    reshape main_v1463 main_v1464 rfl shapeCasts_S128x494x1_S128x494,
    binary main_v1462 main_v1464 main_v1465 (addf : (⟨S128x494, .f32⟩ : BufTy).Contents (Elt F) → (⟨S128x494, .f32⟩ : BufTy).Contents (Elt F) → (⟨S128x494, .f32⟩ : BufTy).Contents (Elt F)),
    unary main_v1437 main_v1466 ((extractStridedSlice S128x494x1 ![0, 9, 9] · slices_S128x512x19_S128x494x1_0_9_9) : (⟨S128x512x19, .f32⟩ : BufTy).Contents (Elt F) → (⟨S128x494x1, .f32⟩ : BufTy).Contents (Elt F)),
    reshape main_v1466 main_v1467 rfl shapeCasts_S128x494x1_S128x494,
    binary main_v1465 main_v1467 main_v1468 (addf : (⟨S128x494, .f32⟩ : BufTy).Contents (Elt F) → (⟨S128x494, .f32⟩ : BufTy).Contents (Elt F) → (⟨S128x494, .f32⟩ : BufTy).Contents (Elt F)),
    unary main_v1437 main_v1469 ((extractStridedSlice S128x494x1 ![0, 10, 10] · slices_S128x512x19_S128x494x1_0_10_10) : (⟨S128x512x19, .f32⟩ : BufTy).Contents (Elt F) → (⟨S128x494x1, .f32⟩ : BufTy).Contents (Elt F)),
    reshape main_v1469 main_v1470 rfl shapeCasts_S128x494x1_S128x494,
    binary main_v1468 main_v1470 main_v1471 (addf : (⟨S128x494, .f32⟩ : BufTy).Contents (Elt F) → (⟨S128x494, .f32⟩ : BufTy).Contents (Elt F) → (⟨S128x494, .f32⟩ : BufTy).Contents (Elt F)),
    unary main_v1437 main_v1472 ((extractStridedSlice S128x494x1 ![0, 11, 11] · slices_S128x512x19_S128x494x1_0_11_11) : (⟨S128x512x19, .f32⟩ : BufTy).Contents (Elt F) → (⟨S128x494x1, .f32⟩ : BufTy).Contents (Elt F)),
    reshape main_v1472 main_v1473 rfl shapeCasts_S128x494x1_S128x494,
    binary main_v1471 main_v1473 main_v1474 (addf : (⟨S128x494, .f32⟩ : BufTy).Contents (Elt F) → (⟨S128x494, .f32⟩ : BufTy).Contents (Elt F) → (⟨S128x494, .f32⟩ : BufTy).Contents (Elt F)),
    unary main_v1437 main_v1475 ((extractStridedSlice S128x494x1 ![0, 12, 12] · slices_S128x512x19_S128x494x1_0_12_12) : (⟨S128x512x19, .f32⟩ : BufTy).Contents (Elt F) → (⟨S128x494x1, .f32⟩ : BufTy).Contents (Elt F)),
    reshape main_v1475 main_v1476 rfl shapeCasts_S128x494x1_S128x494,
    binary main_v1474 main_v1476 main_v1477 (addf : (⟨S128x494, .f32⟩ : BufTy).Contents (Elt F) → (⟨S128x494, .f32⟩ : BufTy).Contents (Elt F) → (⟨S128x494, .f32⟩ : BufTy).Contents (Elt F)),
    unary main_v1437 main_v1478 ((extractStridedSlice S128x494x1 ![0, 13, 13] · slices_S128x512x19_S128x494x1_0_13_13) : (⟨S128x512x19, .f32⟩ : BufTy).Contents (Elt F) → (⟨S128x494x1, .f32⟩ : BufTy).Contents (Elt F)),
    reshape main_v1478 main_v1479 rfl shapeCasts_S128x494x1_S128x494,
    binary main_v1477 main_v1479 main_v1480 (addf : (⟨S128x494, .f32⟩ : BufTy).Contents (Elt F) → (⟨S128x494, .f32⟩ : BufTy).Contents (Elt F) → (⟨S128x494, .f32⟩ : BufTy).Contents (Elt F)),
    unary main_v1437 main_v1481 ((extractStridedSlice S128x494x1 ![0, 14, 14] · slices_S128x512x19_S128x494x1_0_14_14) : (⟨S128x512x19, .f32⟩ : BufTy).Contents (Elt F) → (⟨S128x494x1, .f32⟩ : BufTy).Contents (Elt F)),
    reshape main_v1481 main_v1482 rfl shapeCasts_S128x494x1_S128x494,
    binary main_v1480 main_v1482 main_v1483 (addf : (⟨S128x494, .f32⟩ : BufTy).Contents (Elt F) → (⟨S128x494, .f32⟩ : BufTy).Contents (Elt F) → (⟨S128x494, .f32⟩ : BufTy).Contents (Elt F)),
    unary main_v1437 main_v1484 ((extractStridedSlice S128x494x1 ![0, 15, 15] · slices_S128x512x19_S128x494x1_0_15_15) : (⟨S128x512x19, .f32⟩ : BufTy).Contents (Elt F) → (⟨S128x494x1, .f32⟩ : BufTy).Contents (Elt F)),
    reshape main_v1484 main_v1485 rfl shapeCasts_S128x494x1_S128x494,
    binary main_v1483 main_v1485 main_v1486 (addf : (⟨S128x494, .f32⟩ : BufTy).Contents (Elt F) → (⟨S128x494, .f32⟩ : BufTy).Contents (Elt F) → (⟨S128x494, .f32⟩ : BufTy).Contents (Elt F)) ]

/-- Segment 62: 16 operations. -/
def seg62 : List (HloOp τ sig (Elt F)) :=
  [ unary main_v1437 main_v1487 ((extractStridedSlice S128x494x1 ![0, 16, 16] · slices_S128x512x19_S128x494x1_0_16_16) : (⟨S128x512x19, .f32⟩ : BufTy).Contents (Elt F) → (⟨S128x494x1, .f32⟩ : BufTy).Contents (Elt F)),
    reshape main_v1487 main_v1488 rfl shapeCasts_S128x494x1_S128x494,
    binary main_v1486 main_v1488 main_v1489 (addf : (⟨S128x494, .f32⟩ : BufTy).Contents (Elt F) → (⟨S128x494, .f32⟩ : BufTy).Contents (Elt F) → (⟨S128x494, .f32⟩ : BufTy).Contents (Elt F)),
    unary main_v1437 main_v1490 ((extractStridedSlice S128x494x1 ![0, 17, 17] · slices_S128x512x19_S128x494x1_0_17_17) : (⟨S128x512x19, .f32⟩ : BufTy).Contents (Elt F) → (⟨S128x494x1, .f32⟩ : BufTy).Contents (Elt F)),
    reshape main_v1490 main_v1491 rfl shapeCasts_S128x494x1_S128x494,
    binary main_v1489 main_v1491 main_v1492 (addf : (⟨S128x494, .f32⟩ : BufTy).Contents (Elt F) → (⟨S128x494, .f32⟩ : BufTy).Contents (Elt F) → (⟨S128x494, .f32⟩ : BufTy).Contents (Elt F)),
    unary main_v1437 main_v1493 ((extractStridedSlice S128x494x1 ![0, 18, 18] · slices_S128x512x19_S128x494x1_0_18_18) : (⟨S128x512x19, .f32⟩ : BufTy).Contents (Elt F) → (⟨S128x494x1, .f32⟩ : BufTy).Contents (Elt F)),
    reshape main_v1493 main_v1494 rfl shapeCasts_S128x494x1_S128x494,
    binary main_v1492 main_v1494 main_v1495 (addf : (⟨S128x494, .f32⟩ : BufTy).Contents (Elt F) → (⟨S128x494, .f32⟩ : BufTy).Contents (Elt F) → (⟨S128x494, .f32⟩ : BufTy).Contents (Elt F)),
    unary main_arg3 main_v1496 ((extractStridedSlice S1 ![35] · slices_S64_S1_35) : (⟨S64, .f32⟩ : BufTy).Contents (Elt F) → (⟨S1, .f32⟩ : BufTy).Contents (Elt F)),
    reshape main_v1496 main_v1497 rfl shapeCasts_S1_S_,
    unary main_v1497 main_v1498 (broadcastInDim S128x494 ![] bcast_S_S128x494 : (⟨S_, .f32⟩ : BufTy).Contents (Elt F) → (⟨S128x494, .f32⟩ : BufTy).Contents (Elt F)),
    binary main_v1495 main_v1498 main_v1499 (addf : (⟨S128x494, .f32⟩ : BufTy).Contents (Elt F) → (⟨S128x494, .f32⟩ : BufTy).Contents (Elt F) → (⟨S128x494, .f32⟩ : BufTy).Contents (Elt F)),
    unary main_v1499 main_v1500 (Host.tanh : (⟨S128x494, .f32⟩ : BufTy).Contents (Elt F) → (⟨S128x494, .f32⟩ : BufTy).Contents (Elt F)),
    nullary main_cst_71 (constant S_ .f32 0xFF800000#32),
    binary main_v1500 main_cst_71 main_v1501 ((fun x v => Host.reduce FloatOps.maximumf x v reducesTo_S128x494_S128_d1 h_S_) : (⟨S128x494, .f32⟩ : BufTy).Contents (Elt F) → (⟨S_, .f32⟩ : BufTy).Contents (Elt F) → (⟨S128, .f32⟩ : BufTy).Contents (Elt F)) ]

/-- Segment 63: 44 operations. -/
def seg63 : List (HloOp τ sig (Elt F)) :=
  [ unary main_arg2 main_v1502 ((extractStridedSlice S1x20x300 ![36, 0, 0] · slices_S64x33x300_S1x20x300_36_0_0) : (⟨S64x33x300, .f32⟩ : BufTy).Contents (Elt F) → (⟨S1x20x300, .f32⟩ : BufTy).Contents (Elt F)),
    reshape main_v1502 main_v1503 rfl shapeCasts_S1x20x300_S20x300,
    binary main_v7 main_v1503 main_v1504 ((fun l r => Host.dotGeneral dot_S128x512x300_S20x300_S128x512x20_2_1_01_0_n_n none l r) : (⟨S128x512x300, .f32⟩ : BufTy).Contents (Elt F) → (⟨S20x300, .f32⟩ : BufTy).Contents (Elt F) → (⟨S128x512x20, .f32⟩ : BufTy).Contents (Elt F)),
    unary main_v1504 main_v1505 ((extractStridedSlice S128x493x1 ![0, 0, 0] · slices_S128x512x20_S128x493x1_0_0_0) : (⟨S128x512x20, .f32⟩ : BufTy).Contents (Elt F) → (⟨S128x493x1, .f32⟩ : BufTy).Contents (Elt F)),
    reshape main_v1505 main_v1506 rfl shapeCasts_S128x493x1_S128x493,
    nullary main_cst_72 (constant S_ .f32 0x00000000#32),
    unary main_cst_72 main_v1507 (broadcastInDim S128x493 ![] bcast_S_S128x493 : (⟨S_, .f32⟩ : BufTy).Contents (Elt F) → (⟨S128x493, .f32⟩ : BufTy).Contents (Elt F)),
    binary main_v1507 main_v1506 main_v1508 (addf : (⟨S128x493, .f32⟩ : BufTy).Contents (Elt F) → (⟨S128x493, .f32⟩ : BufTy).Contents (Elt F) → (⟨S128x493, .f32⟩ : BufTy).Contents (Elt F)),
    unary main_v1504 main_v1509 ((extractStridedSlice S128x493x1 ![0, 1, 1] · slices_S128x512x20_S128x493x1_0_1_1) : (⟨S128x512x20, .f32⟩ : BufTy).Contents (Elt F) → (⟨S128x493x1, .f32⟩ : BufTy).Contents (Elt F)),
    reshape main_v1509 main_v1510 rfl shapeCasts_S128x493x1_S128x493,
    binary main_v1508 main_v1510 main_v1511 (addf : (⟨S128x493, .f32⟩ : BufTy).Contents (Elt F) → (⟨S128x493, .f32⟩ : BufTy).Contents (Elt F) → (⟨S128x493, .f32⟩ : BufTy).Contents (Elt F)),
    unary main_v1504 main_v1512 ((extractStridedSlice S128x493x1 ![0, 2, 2] · slices_S128x512x20_S128x493x1_0_2_2) : (⟨S128x512x20, .f32⟩ : BufTy).Contents (Elt F) → (⟨S128x493x1, .f32⟩ : BufTy).Contents (Elt F)),
    reshape main_v1512 main_v1513 rfl shapeCasts_S128x493x1_S128x493,
    binary main_v1511 main_v1513 main_v1514 (addf : (⟨S128x493, .f32⟩ : BufTy).Contents (Elt F) → (⟨S128x493, .f32⟩ : BufTy).Contents (Elt F) → (⟨S128x493, .f32⟩ : BufTy).Contents (Elt F)),
    unary main_v1504 main_v1515 ((extractStridedSlice S128x493x1 ![0, 3, 3] · slices_S128x512x20_S128x493x1_0_3_3) : (⟨S128x512x20, .f32⟩ : BufTy).Contents (Elt F) → (⟨S128x493x1, .f32⟩ : BufTy).Contents (Elt F)),
    reshape main_v1515 main_v1516 rfl shapeCasts_S128x493x1_S128x493,
    binary main_v1514 main_v1516 main_v1517 (addf : (⟨S128x493, .f32⟩ : BufTy).Contents (Elt F) → (⟨S128x493, .f32⟩ : BufTy).Contents (Elt F) → (⟨S128x493, .f32⟩ : BufTy).Contents (Elt F)),
    unary main_v1504 main_v1518 ((extractStridedSlice S128x493x1 ![0, 4, 4] · slices_S128x512x20_S128x493x1_0_4_4) : (⟨S128x512x20, .f32⟩ : BufTy).Contents (Elt F) → (⟨S128x493x1, .f32⟩ : BufTy).Contents (Elt F)),
    reshape main_v1518 main_v1519 rfl shapeCasts_S128x493x1_S128x493,
    binary main_v1517 main_v1519 main_v1520 (addf : (⟨S128x493, .f32⟩ : BufTy).Contents (Elt F) → (⟨S128x493, .f32⟩ : BufTy).Contents (Elt F) → (⟨S128x493, .f32⟩ : BufTy).Contents (Elt F)),
    unary main_v1504 main_v1521 ((extractStridedSlice S128x493x1 ![0, 5, 5] · slices_S128x512x20_S128x493x1_0_5_5) : (⟨S128x512x20, .f32⟩ : BufTy).Contents (Elt F) → (⟨S128x493x1, .f32⟩ : BufTy).Contents (Elt F)),
    reshape main_v1521 main_v1522 rfl shapeCasts_S128x493x1_S128x493,
    binary main_v1520 main_v1522 main_v1523 (addf : (⟨S128x493, .f32⟩ : BufTy).Contents (Elt F) → (⟨S128x493, .f32⟩ : BufTy).Contents (Elt F) → (⟨S128x493, .f32⟩ : BufTy).Contents (Elt F)),
    unary main_v1504 main_v1524 ((extractStridedSlice S128x493x1 ![0, 6, 6] · slices_S128x512x20_S128x493x1_0_6_6) : (⟨S128x512x20, .f32⟩ : BufTy).Contents (Elt F) → (⟨S128x493x1, .f32⟩ : BufTy).Contents (Elt F)),
    reshape main_v1524 main_v1525 rfl shapeCasts_S128x493x1_S128x493,
    binary main_v1523 main_v1525 main_v1526 (addf : (⟨S128x493, .f32⟩ : BufTy).Contents (Elt F) → (⟨S128x493, .f32⟩ : BufTy).Contents (Elt F) → (⟨S128x493, .f32⟩ : BufTy).Contents (Elt F)),
    unary main_v1504 main_v1527 ((extractStridedSlice S128x493x1 ![0, 7, 7] · slices_S128x512x20_S128x493x1_0_7_7) : (⟨S128x512x20, .f32⟩ : BufTy).Contents (Elt F) → (⟨S128x493x1, .f32⟩ : BufTy).Contents (Elt F)),
    reshape main_v1527 main_v1528 rfl shapeCasts_S128x493x1_S128x493,
    binary main_v1526 main_v1528 main_v1529 (addf : (⟨S128x493, .f32⟩ : BufTy).Contents (Elt F) → (⟨S128x493, .f32⟩ : BufTy).Contents (Elt F) → (⟨S128x493, .f32⟩ : BufTy).Contents (Elt F)),
    unary main_v1504 main_v1530 ((extractStridedSlice S128x493x1 ![0, 8, 8] · slices_S128x512x20_S128x493x1_0_8_8) : (⟨S128x512x20, .f32⟩ : BufTy).Contents (Elt F) → (⟨S128x493x1, .f32⟩ : BufTy).Contents (Elt F)),
    reshape main_v1530 main_v1531 rfl shapeCasts_S128x493x1_S128x493,
    binary main_v1529 main_v1531 main_v1532 (addf : (⟨S128x493, .f32⟩ : BufTy).Contents (Elt F) → (⟨S128x493, .f32⟩ : BufTy).Contents (Elt F) → (⟨S128x493, .f32⟩ : BufTy).Contents (Elt F)),
    unary main_v1504 main_v1533 ((extractStridedSlice S128x493x1 ![0, 9, 9] · slices_S128x512x20_S128x493x1_0_9_9) : (⟨S128x512x20, .f32⟩ : BufTy).Contents (Elt F) → (⟨S128x493x1, .f32⟩ : BufTy).Contents (Elt F)),
    reshape main_v1533 main_v1534 rfl shapeCasts_S128x493x1_S128x493,
    binary main_v1532 main_v1534 main_v1535 (addf : (⟨S128x493, .f32⟩ : BufTy).Contents (Elt F) → (⟨S128x493, .f32⟩ : BufTy).Contents (Elt F) → (⟨S128x493, .f32⟩ : BufTy).Contents (Elt F)),
    unary main_v1504 main_v1536 ((extractStridedSlice S128x493x1 ![0, 10, 10] · slices_S128x512x20_S128x493x1_0_10_10) : (⟨S128x512x20, .f32⟩ : BufTy).Contents (Elt F) → (⟨S128x493x1, .f32⟩ : BufTy).Contents (Elt F)),
    reshape main_v1536 main_v1537 rfl shapeCasts_S128x493x1_S128x493,
    binary main_v1535 main_v1537 main_v1538 (addf : (⟨S128x493, .f32⟩ : BufTy).Contents (Elt F) → (⟨S128x493, .f32⟩ : BufTy).Contents (Elt F) → (⟨S128x493, .f32⟩ : BufTy).Contents (Elt F)),
    unary main_v1504 main_v1539 ((extractStridedSlice S128x493x1 ![0, 11, 11] · slices_S128x512x20_S128x493x1_0_11_11) : (⟨S128x512x20, .f32⟩ : BufTy).Contents (Elt F) → (⟨S128x493x1, .f32⟩ : BufTy).Contents (Elt F)),
    reshape main_v1539 main_v1540 rfl shapeCasts_S128x493x1_S128x493,
    binary main_v1538 main_v1540 main_v1541 (addf : (⟨S128x493, .f32⟩ : BufTy).Contents (Elt F) → (⟨S128x493, .f32⟩ : BufTy).Contents (Elt F) → (⟨S128x493, .f32⟩ : BufTy).Contents (Elt F)),
    unary main_v1504 main_v1542 ((extractStridedSlice S128x493x1 ![0, 12, 12] · slices_S128x512x20_S128x493x1_0_12_12) : (⟨S128x512x20, .f32⟩ : BufTy).Contents (Elt F) → (⟨S128x493x1, .f32⟩ : BufTy).Contents (Elt F)),
    reshape main_v1542 main_v1543 rfl shapeCasts_S128x493x1_S128x493,
    binary main_v1541 main_v1543 main_v1544 (addf : (⟨S128x493, .f32⟩ : BufTy).Contents (Elt F) → (⟨S128x493, .f32⟩ : BufTy).Contents (Elt F) → (⟨S128x493, .f32⟩ : BufTy).Contents (Elt F)) ]

/-- Segment 64: 28 operations. -/
def seg64 : List (HloOp τ sig (Elt F)) :=
  [ unary main_v1504 main_v1545 ((extractStridedSlice S128x493x1 ![0, 13, 13] · slices_S128x512x20_S128x493x1_0_13_13) : (⟨S128x512x20, .f32⟩ : BufTy).Contents (Elt F) → (⟨S128x493x1, .f32⟩ : BufTy).Contents (Elt F)),
    reshape main_v1545 main_v1546 rfl shapeCasts_S128x493x1_S128x493,
    binary main_v1544 main_v1546 main_v1547 (addf : (⟨S128x493, .f32⟩ : BufTy).Contents (Elt F) → (⟨S128x493, .f32⟩ : BufTy).Contents (Elt F) → (⟨S128x493, .f32⟩ : BufTy).Contents (Elt F)),
    unary main_v1504 main_v1548 ((extractStridedSlice S128x493x1 ![0, 14, 14] · slices_S128x512x20_S128x493x1_0_14_14) : (⟨S128x512x20, .f32⟩ : BufTy).Contents (Elt F) → (⟨S128x493x1, .f32⟩ : BufTy).Contents (Elt F)),
    reshape main_v1548 main_v1549 rfl shapeCasts_S128x493x1_S128x493,
    binary main_v1547 main_v1549 main_v1550 (addf : (⟨S128x493, .f32⟩ : BufTy).Contents (Elt F) → (⟨S128x493, .f32⟩ : BufTy).Contents (Elt F) → (⟨S128x493, .f32⟩ : BufTy).Contents (Elt F)),
    unary main_v1504 main_v1551 ((extractStridedSlice S128x493x1 ![0, 15, 15] · slices_S128x512x20_S128x493x1_0_15_15) : (⟨S128x512x20, .f32⟩ : BufTy).Contents (Elt F) → (⟨S128x493x1, .f32⟩ : BufTy).Contents (Elt F)),
    reshape main_v1551 main_v1552 rfl shapeCasts_S128x493x1_S128x493,
    binary main_v1550 main_v1552 main_v1553 (addf : (⟨S128x493, .f32⟩ : BufTy).Contents (Elt F) → (⟨S128x493, .f32⟩ : BufTy).Contents (Elt F) → (⟨S128x493, .f32⟩ : BufTy).Contents (Elt F)),
    unary main_v1504 main_v1554 ((extractStridedSlice S128x493x1 ![0, 16, 16] · slices_S128x512x20_S128x493x1_0_16_16) : (⟨S128x512x20, .f32⟩ : BufTy).Contents (Elt F) → (⟨S128x493x1, .f32⟩ : BufTy).Contents (Elt F)),
    reshape main_v1554 main_v1555 rfl shapeCasts_S128x493x1_S128x493,
    binary main_v1553 main_v1555 main_v1556 (addf : (⟨S128x493, .f32⟩ : BufTy).Contents (Elt F) → (⟨S128x493, .f32⟩ : BufTy).Contents (Elt F) → (⟨S128x493, .f32⟩ : BufTy).Contents (Elt F)),
    unary main_v1504 main_v1557 ((extractStridedSlice S128x493x1 ![0, 17, 17] · slices_S128x512x20_S128x493x1_0_17_17) : (⟨S128x512x20, .f32⟩ : BufTy).Contents (Elt F) → (⟨S128x493x1, .f32⟩ : BufTy).Contents (Elt F)),
    reshape main_v1557 main_v1558 rfl shapeCasts_S128x493x1_S128x493,
    binary main_v1556 main_v1558 main_v1559 (addf : (⟨S128x493, .f32⟩ : BufTy).Contents (Elt F) → (⟨S128x493, .f32⟩ : BufTy).Contents (Elt F) → (⟨S128x493, .f32⟩ : BufTy).Contents (Elt F)),
    unary main_v1504 main_v1560 ((extractStridedSlice S128x493x1 ![0, 18, 18] · slices_S128x512x20_S128x493x1_0_18_18) : (⟨S128x512x20, .f32⟩ : BufTy).Contents (Elt F) → (⟨S128x493x1, .f32⟩ : BufTy).Contents (Elt F)),
    reshape main_v1560 main_v1561 rfl shapeCasts_S128x493x1_S128x493,
    binary main_v1559 main_v1561 main_v1562 (addf : (⟨S128x493, .f32⟩ : BufTy).Contents (Elt F) → (⟨S128x493, .f32⟩ : BufTy).Contents (Elt F) → (⟨S128x493, .f32⟩ : BufTy).Contents (Elt F)),
    unary main_v1504 main_v1563 ((extractStridedSlice S128x493x1 ![0, 19, 19] · slices_S128x512x20_S128x493x1_0_19_19) : (⟨S128x512x20, .f32⟩ : BufTy).Contents (Elt F) → (⟨S128x493x1, .f32⟩ : BufTy).Contents (Elt F)),
    reshape main_v1563 main_v1564 rfl shapeCasts_S128x493x1_S128x493,
    binary main_v1562 main_v1564 main_v1565 (addf : (⟨S128x493, .f32⟩ : BufTy).Contents (Elt F) → (⟨S128x493, .f32⟩ : BufTy).Contents (Elt F) → (⟨S128x493, .f32⟩ : BufTy).Contents (Elt F)),
    unary main_arg3 main_v1566 ((extractStridedSlice S1 ![36] · slices_S64_S1_36) : (⟨S64, .f32⟩ : BufTy).Contents (Elt F) → (⟨S1, .f32⟩ : BufTy).Contents (Elt F)),
    reshape main_v1566 main_v1567 rfl shapeCasts_S1_S_,
    unary main_v1567 main_v1568 (broadcastInDim S128x493 ![] bcast_S_S128x493 : (⟨S_, .f32⟩ : BufTy).Contents (Elt F) → (⟨S128x493, .f32⟩ : BufTy).Contents (Elt F)),
    binary main_v1565 main_v1568 main_v1569 (addf : (⟨S128x493, .f32⟩ : BufTy).Contents (Elt F) → (⟨S128x493, .f32⟩ : BufTy).Contents (Elt F) → (⟨S128x493, .f32⟩ : BufTy).Contents (Elt F)),
    unary main_v1569 main_v1570 (Host.tanh : (⟨S128x493, .f32⟩ : BufTy).Contents (Elt F) → (⟨S128x493, .f32⟩ : BufTy).Contents (Elt F)),
    nullary main_cst_73 (constant S_ .f32 0xFF800000#32),
    binary main_v1570 main_cst_73 main_v1571 ((fun x v => Host.reduce FloatOps.maximumf x v reducesTo_S128x493_S128_d1 h_S_) : (⟨S128x493, .f32⟩ : BufTy).Contents (Elt F) → (⟨S_, .f32⟩ : BufTy).Contents (Elt F) → (⟨S128, .f32⟩ : BufTy).Contents (Elt F)) ]

/-- Segment 65: 32 operations. -/
def seg65 : List (HloOp τ sig (Elt F)) :=
  [ unary main_arg2 main_v1572 ((extractStridedSlice S1x20x300 ![37, 0, 0] · slices_S64x33x300_S1x20x300_37_0_0) : (⟨S64x33x300, .f32⟩ : BufTy).Contents (Elt F) → (⟨S1x20x300, .f32⟩ : BufTy).Contents (Elt F)),
    reshape main_v1572 main_v1573 rfl shapeCasts_S1x20x300_S20x300,
    binary main_v7 main_v1573 main_v1574 ((fun l r => Host.dotGeneral dot_S128x512x300_S20x300_S128x512x20_2_1_01_0_n_n none l r) : (⟨S128x512x300, .f32⟩ : BufTy).Contents (Elt F) → (⟨S20x300, .f32⟩ : BufTy).Contents (Elt F) → (⟨S128x512x20, .f32⟩ : BufTy).Contents (Elt F)),
    unary main_v1574 main_v1575 ((extractStridedSlice S128x493x1 ![0, 0, 0] · slices_S128x512x20_S128x493x1_0_0_0) : (⟨S128x512x20, .f32⟩ : BufTy).Contents (Elt F) → (⟨S128x493x1, .f32⟩ : BufTy).Contents (Elt F)),
    reshape main_v1575 main_v1576 rfl shapeCasts_S128x493x1_S128x493,
    nullary main_cst_74 (constant S_ .f32 0x00000000#32),
    unary main_cst_74 main_v1577 (broadcastInDim S128x493 ![] bcast_S_S128x493 : (⟨S_, .f32⟩ : BufTy).Contents (Elt F) → (⟨S128x493, .f32⟩ : BufTy).Contents (Elt F)),
    binary main_v1577 main_v1576 main_v1578 (addf : (⟨S128x493, .f32⟩ : BufTy).Contents (Elt F) → (⟨S128x493, .f32⟩ : BufTy).Contents (Elt F) → (⟨S128x493, .f32⟩ : BufTy).Contents (Elt F)),
    unary main_v1574 main_v1579 ((extractStridedSlice S128x493x1 ![0, 1, 1] · slices_S128x512x20_S128x493x1_0_1_1) : (⟨S128x512x20, .f32⟩ : BufTy).Contents (Elt F) → (⟨S128x493x1, .f32⟩ : BufTy).Contents (Elt F)),
    reshape main_v1579 main_v1580 rfl shapeCasts_S128x493x1_S128x493,
    binary main_v1578 main_v1580 main_v1581 (addf : (⟨S128x493, .f32⟩ : BufTy).Contents (Elt F) → (⟨S128x493, .f32⟩ : BufTy).Contents (Elt F) → (⟨S128x493, .f32⟩ : BufTy).Contents (Elt F)),
    unary main_v1574 main_v1582 ((extractStridedSlice S128x493x1 ![0, 2, 2] · slices_S128x512x20_S128x493x1_0_2_2) : (⟨S128x512x20, .f32⟩ : BufTy).Contents (Elt F) → (⟨S128x493x1, .f32⟩ : BufTy).Contents (Elt F)),
    reshape main_v1582 main_v1583 rfl shapeCasts_S128x493x1_S128x493,
    binary main_v1581 main_v1583 main_v1584 (addf : (⟨S128x493, .f32⟩ : BufTy).Contents (Elt F) → (⟨S128x493, .f32⟩ : BufTy).Contents (Elt F) → (⟨S128x493, .f32⟩ : BufTy).Contents (Elt F)),
    unary main_v1574 main_v1585 ((extractStridedSlice S128x493x1 ![0, 3, 3] · slices_S128x512x20_S128x493x1_0_3_3) : (⟨S128x512x20, .f32⟩ : BufTy).Contents (Elt F) → (⟨S128x493x1, .f32⟩ : BufTy).Contents (Elt F)),
    reshape main_v1585 main_v1586 rfl shapeCasts_S128x493x1_S128x493,
    binary main_v1584 main_v1586 main_v1587 (addf : (⟨S128x493, .f32⟩ : BufTy).Contents (Elt F) → (⟨S128x493, .f32⟩ : BufTy).Contents (Elt F) → (⟨S128x493, .f32⟩ : BufTy).Contents (Elt F)),
    unary main_v1574 main_v1588 ((extractStridedSlice S128x493x1 ![0, 4, 4] · slices_S128x512x20_S128x493x1_0_4_4) : (⟨S128x512x20, .f32⟩ : BufTy).Contents (Elt F) → (⟨S128x493x1, .f32⟩ : BufTy).Contents (Elt F)),
    reshape main_v1588 main_v1589 rfl shapeCasts_S128x493x1_S128x493,
    binary main_v1587 main_v1589 main_v1590 (addf : (⟨S128x493, .f32⟩ : BufTy).Contents (Elt F) → (⟨S128x493, .f32⟩ : BufTy).Contents (Elt F) → (⟨S128x493, .f32⟩ : BufTy).Contents (Elt F)),
    unary main_v1574 main_v1591 ((extractStridedSlice S128x493x1 ![0, 5, 5] · slices_S128x512x20_S128x493x1_0_5_5) : (⟨S128x512x20, .f32⟩ : BufTy).Contents (Elt F) → (⟨S128x493x1, .f32⟩ : BufTy).Contents (Elt F)),
    reshape main_v1591 main_v1592 rfl shapeCasts_S128x493x1_S128x493,
    binary main_v1590 main_v1592 main_v1593 (addf : (⟨S128x493, .f32⟩ : BufTy).Contents (Elt F) → (⟨S128x493, .f32⟩ : BufTy).Contents (Elt F) → (⟨S128x493, .f32⟩ : BufTy).Contents (Elt F)),
    unary main_v1574 main_v1594 ((extractStridedSlice S128x493x1 ![0, 6, 6] · slices_S128x512x20_S128x493x1_0_6_6) : (⟨S128x512x20, .f32⟩ : BufTy).Contents (Elt F) → (⟨S128x493x1, .f32⟩ : BufTy).Contents (Elt F)),
    reshape main_v1594 main_v1595 rfl shapeCasts_S128x493x1_S128x493,
    binary main_v1593 main_v1595 main_v1596 (addf : (⟨S128x493, .f32⟩ : BufTy).Contents (Elt F) → (⟨S128x493, .f32⟩ : BufTy).Contents (Elt F) → (⟨S128x493, .f32⟩ : BufTy).Contents (Elt F)),
    unary main_v1574 main_v1597 ((extractStridedSlice S128x493x1 ![0, 7, 7] · slices_S128x512x20_S128x493x1_0_7_7) : (⟨S128x512x20, .f32⟩ : BufTy).Contents (Elt F) → (⟨S128x493x1, .f32⟩ : BufTy).Contents (Elt F)),
    reshape main_v1597 main_v1598 rfl shapeCasts_S128x493x1_S128x493,
    binary main_v1596 main_v1598 main_v1599 (addf : (⟨S128x493, .f32⟩ : BufTy).Contents (Elt F) → (⟨S128x493, .f32⟩ : BufTy).Contents (Elt F) → (⟨S128x493, .f32⟩ : BufTy).Contents (Elt F)),
    unary main_v1574 main_v1600 ((extractStridedSlice S128x493x1 ![0, 8, 8] · slices_S128x512x20_S128x493x1_0_8_8) : (⟨S128x512x20, .f32⟩ : BufTy).Contents (Elt F) → (⟨S128x493x1, .f32⟩ : BufTy).Contents (Elt F)),
    reshape main_v1600 main_v1601 rfl shapeCasts_S128x493x1_S128x493,
    binary main_v1599 main_v1601 main_v1602 (addf : (⟨S128x493, .f32⟩ : BufTy).Contents (Elt F) → (⟨S128x493, .f32⟩ : BufTy).Contents (Elt F) → (⟨S128x493, .f32⟩ : BufTy).Contents (Elt F)) ]

/-- Segment 66: 40 operations. -/
def seg66 : List (HloOp τ sig (Elt F)) :=
  [ unary main_v1574 main_v1603 ((extractStridedSlice S128x493x1 ![0, 9, 9] · slices_S128x512x20_S128x493x1_0_9_9) : (⟨S128x512x20, .f32⟩ : BufTy).Contents (Elt F) → (⟨S128x493x1, .f32⟩ : BufTy).Contents (Elt F)),
    reshape main_v1603 main_v1604 rfl shapeCasts_S128x493x1_S128x493,
    binary main_v1602 main_v1604 main_v1605 (addf : (⟨S128x493, .f32⟩ : BufTy).Contents (Elt F) → (⟨S128x493, .f32⟩ : BufTy).Contents (Elt F) → (⟨S128x493, .f32⟩ : BufTy).Contents (Elt F)),
    unary main_v1574 main_v1606 ((extractStridedSlice S128x493x1 ![0, 10, 10] · slices_S128x512x20_S128x493x1_0_10_10) : (⟨S128x512x20, .f32⟩ : BufTy).Contents (Elt F) → (⟨S128x493x1, .f32⟩ : BufTy).Contents (Elt F)),
    reshape main_v1606 main_v1607 rfl shapeCasts_S128x493x1_S128x493,
    binary main_v1605 main_v1607 main_v1608 (addf : (⟨S128x493, .f32⟩ : BufTy).Contents (Elt F) → (⟨S128x493, .f32⟩ : BufTy).Contents (Elt F) → (⟨S128x493, .f32⟩ : BufTy).Contents (Elt F)),
    unary main_v1574 main_v1609 ((extractStridedSlice S128x493x1 ![0, 11, 11] · slices_S128x512x20_S128x493x1_0_11_11) : (⟨S128x512x20, .f32⟩ : BufTy).Contents (Elt F) → (⟨S128x493x1, .f32⟩ : BufTy).Contents (Elt F)),
    reshape main_v1609 main_v1610 rfl shapeCasts_S128x493x1_S128x493,
    binary main_v1608 main_v1610 main_v1611 (addf : (⟨S128x493, .f32⟩ : BufTy).Contents (Elt F) → (⟨S128x493, .f32⟩ : BufTy).Contents (Elt F) → (⟨S128x493, .f32⟩ : BufTy).Contents (Elt F)),
    unary main_v1574 main_v1612 ((extractStridedSlice S128x493x1 ![0, 12, 12] · slices_S128x512x20_S128x493x1_0_12_12) : (⟨S128x512x20, .f32⟩ : BufTy).Contents (Elt F) → (⟨S128x493x1, .f32⟩ : BufTy).Contents (Elt F)),
    reshape main_v1612 main_v1613 rfl shapeCasts_S128x493x1_S128x493,
    binary main_v1611 main_v1613 main_v1614 (addf : (⟨S128x493, .f32⟩ : BufTy).Contents (Elt F) → (⟨S128x493, .f32⟩ : BufTy).Contents (Elt F) → (⟨S128x493, .f32⟩ : BufTy).Contents (Elt F)),
    unary main_v1574 main_v1615 ((extractStridedSlice S128x493x1 ![0, 13, 13] · slices_S128x512x20_S128x493x1_0_13_13) : (⟨S128x512x20, .f32⟩ : BufTy).Contents (Elt F) → (⟨S128x493x1, .f32⟩ : BufTy).Contents (Elt F)),
    reshape main_v1615 main_v1616 rfl shapeCasts_S128x493x1_S128x493,
    binary main_v1614 main_v1616 main_v1617 (addf : (⟨S128x493, .f32⟩ : BufTy).Contents (Elt F) → (⟨S128x493, .f32⟩ : BufTy).Contents (Elt F) → (⟨S128x493, .f32⟩ : BufTy).Contents (Elt F)),
    unary main_v1574 main_v1618 ((extractStridedSlice S128x493x1 ![0, 14, 14] · slices_S128x512x20_S128x493x1_0_14_14) : (⟨S128x512x20, .f32⟩ : BufTy).Contents (Elt F) → (⟨S128x493x1, .f32⟩ : BufTy).Contents (Elt F)),
    reshape main_v1618 main_v1619 rfl shapeCasts_S128x493x1_S128x493,
    binary main_v1617 main_v1619 main_v1620 (addf : (⟨S128x493, .f32⟩ : BufTy).Contents (Elt F) → (⟨S128x493, .f32⟩ : BufTy).Contents (Elt F) → (⟨S128x493, .f32⟩ : BufTy).Contents (Elt F)),
    unary main_v1574 main_v1621 ((extractStridedSlice S128x493x1 ![0, 15, 15] · slices_S128x512x20_S128x493x1_0_15_15) : (⟨S128x512x20, .f32⟩ : BufTy).Contents (Elt F) → (⟨S128x493x1, .f32⟩ : BufTy).Contents (Elt F)),
    reshape main_v1621 main_v1622 rfl shapeCasts_S128x493x1_S128x493,
    binary main_v1620 main_v1622 main_v1623 (addf : (⟨S128x493, .f32⟩ : BufTy).Contents (Elt F) → (⟨S128x493, .f32⟩ : BufTy).Contents (Elt F) → (⟨S128x493, .f32⟩ : BufTy).Contents (Elt F)),
    unary main_v1574 main_v1624 ((extractStridedSlice S128x493x1 ![0, 16, 16] · slices_S128x512x20_S128x493x1_0_16_16) : (⟨S128x512x20, .f32⟩ : BufTy).Contents (Elt F) → (⟨S128x493x1, .f32⟩ : BufTy).Contents (Elt F)),
    reshape main_v1624 main_v1625 rfl shapeCasts_S128x493x1_S128x493,
    binary main_v1623 main_v1625 main_v1626 (addf : (⟨S128x493, .f32⟩ : BufTy).Contents (Elt F) → (⟨S128x493, .f32⟩ : BufTy).Contents (Elt F) → (⟨S128x493, .f32⟩ : BufTy).Contents (Elt F)),
    unary main_v1574 main_v1627 ((extractStridedSlice S128x493x1 ![0, 17, 17] · slices_S128x512x20_S128x493x1_0_17_17) : (⟨S128x512x20, .f32⟩ : BufTy).Contents (Elt F) → (⟨S128x493x1, .f32⟩ : BufTy).Contents (Elt F)),
    reshape main_v1627 main_v1628 rfl shapeCasts_S128x493x1_S128x493,
    binary main_v1626 main_v1628 main_v1629 (addf : (⟨S128x493, .f32⟩ : BufTy).Contents (Elt F) → (⟨S128x493, .f32⟩ : BufTy).Contents (Elt F) → (⟨S128x493, .f32⟩ : BufTy).Contents (Elt F)),
    unary main_v1574 main_v1630 ((extractStridedSlice S128x493x1 ![0, 18, 18] · slices_S128x512x20_S128x493x1_0_18_18) : (⟨S128x512x20, .f32⟩ : BufTy).Contents (Elt F) → (⟨S128x493x1, .f32⟩ : BufTy).Contents (Elt F)),
    reshape main_v1630 main_v1631 rfl shapeCasts_S128x493x1_S128x493,
    binary main_v1629 main_v1631 main_v1632 (addf : (⟨S128x493, .f32⟩ : BufTy).Contents (Elt F) → (⟨S128x493, .f32⟩ : BufTy).Contents (Elt F) → (⟨S128x493, .f32⟩ : BufTy).Contents (Elt F)),
    unary main_v1574 main_v1633 ((extractStridedSlice S128x493x1 ![0, 19, 19] · slices_S128x512x20_S128x493x1_0_19_19) : (⟨S128x512x20, .f32⟩ : BufTy).Contents (Elt F) → (⟨S128x493x1, .f32⟩ : BufTy).Contents (Elt F)),
    reshape main_v1633 main_v1634 rfl shapeCasts_S128x493x1_S128x493,
    binary main_v1632 main_v1634 main_v1635 (addf : (⟨S128x493, .f32⟩ : BufTy).Contents (Elt F) → (⟨S128x493, .f32⟩ : BufTy).Contents (Elt F) → (⟨S128x493, .f32⟩ : BufTy).Contents (Elt F)),
    unary main_arg3 main_v1636 ((extractStridedSlice S1 ![37] · slices_S64_S1_37) : (⟨S64, .f32⟩ : BufTy).Contents (Elt F) → (⟨S1, .f32⟩ : BufTy).Contents (Elt F)),
    reshape main_v1636 main_v1637 rfl shapeCasts_S1_S_,
    unary main_v1637 main_v1638 (broadcastInDim S128x493 ![] bcast_S_S128x493 : (⟨S_, .f32⟩ : BufTy).Contents (Elt F) → (⟨S128x493, .f32⟩ : BufTy).Contents (Elt F)),
    binary main_v1635 main_v1638 main_v1639 (addf : (⟨S128x493, .f32⟩ : BufTy).Contents (Elt F) → (⟨S128x493, .f32⟩ : BufTy).Contents (Elt F) → (⟨S128x493, .f32⟩ : BufTy).Contents (Elt F)),
    unary main_v1639 main_v1640 (Host.tanh : (⟨S128x493, .f32⟩ : BufTy).Contents (Elt F) → (⟨S128x493, .f32⟩ : BufTy).Contents (Elt F)),
    nullary main_cst_75 (constant S_ .f32 0xFF800000#32),
    binary main_v1640 main_cst_75 main_v1641 ((fun x v => Host.reduce FloatOps.maximumf x v reducesTo_S128x493_S128_d1 h_S_) : (⟨S128x493, .f32⟩ : BufTy).Contents (Elt F) → (⟨S_, .f32⟩ : BufTy).Contents (Elt F) → (⟨S128, .f32⟩ : BufTy).Contents (Elt F)) ]

/-- Segment 67: 20 operations. -/
def seg67 : List (HloOp τ sig (Elt F)) :=
  [ unary main_arg2 main_v1642 ((extractStridedSlice S1x21x300 ![38, 0, 0] · slices_S64x33x300_S1x21x300_38_0_0) : (⟨S64x33x300, .f32⟩ : BufTy).Contents (Elt F) → (⟨S1x21x300, .f32⟩ : BufTy).Contents (Elt F)),
    reshape main_v1642 main_v1643 rfl shapeCasts_S1x21x300_S21x300,
    binary main_v7 main_v1643 main_v1644 ((fun l r => Host.dotGeneral dot_S128x512x300_S21x300_S128x512x21_2_1_01_0_n_n none l r) : (⟨S128x512x300, .f32⟩ : BufTy).Contents (Elt F) → (⟨S21x300, .f32⟩ : BufTy).Contents (Elt F) → (⟨S128x512x21, .f32⟩ : BufTy).Contents (Elt F)),
    unary main_v1644 main_v1645 ((extractStridedSlice S128x492x1 ![0, 0, 0] · slices_S128x512x21_S128x492x1_0_0_0) : (⟨S128x512x21, .f32⟩ : BufTy).Contents (Elt F) → (⟨S128x492x1, .f32⟩ : BufTy).Contents (Elt F)),
    reshape main_v1645 main_v1646 rfl shapeCasts_S128x492x1_S128x492,
    nullary main_cst_76 (constant S_ .f32 0x00000000#32),
    unary main_cst_76 main_v1647 (broadcastInDim S128x492 ![] bcast_S_S128x492 : (⟨S_, .f32⟩ : BufTy).Contents (Elt F) → (⟨S128x492, .f32⟩ : BufTy).Contents (Elt F)),
    binary main_v1647 main_v1646 main_v1648 (addf : (⟨S128x492, .f32⟩ : BufTy).Contents (Elt F) → (⟨S128x492, .f32⟩ : BufTy).Contents (Elt F) → (⟨S128x492, .f32⟩ : BufTy).Contents (Elt F)),
    unary main_v1644 main_v1649 ((extractStridedSlice S128x492x1 ![0, 1, 1] · slices_S128x512x21_S128x492x1_0_1_1) : (⟨S128x512x21, .f32⟩ : BufTy).Contents (Elt F) → (⟨S128x492x1, .f32⟩ : BufTy).Contents (Elt F)),
    reshape main_v1649 main_v1650 rfl shapeCasts_S128x492x1_S128x492,
    binary main_v1648 main_v1650 main_v1651 (addf : (⟨S128x492, .f32⟩ : BufTy).Contents (Elt F) → (⟨S128x492, .f32⟩ : BufTy).Contents (Elt F) → (⟨S128x492, .f32⟩ : BufTy).Contents (Elt F)),
    unary main_v1644 main_v1652 ((extractStridedSlice S128x492x1 ![0, 2, 2] · slices_S128x512x21_S128x492x1_0_2_2) : (⟨S128x512x21, .f32⟩ : BufTy).Contents (Elt F) → (⟨S128x492x1, .f32⟩ : BufTy).Contents (Elt F)),
    reshape main_v1652 main_v1653 rfl shapeCasts_S128x492x1_S128x492,
    binary main_v1651 main_v1653 main_v1654 (addf : (⟨S128x492, .f32⟩ : BufTy).Contents (Elt F) → (⟨S128x492, .f32⟩ : BufTy).Contents (Elt F) → (⟨S128x492, .f32⟩ : BufTy).Contents (Elt F)),
    unary main_v1644 main_v1655 ((extractStridedSlice S128x492x1 ![0, 3, 3] · slices_S128x512x21_S128x492x1_0_3_3) : (⟨S128x512x21, .f32⟩ : BufTy).Contents (Elt F) → (⟨S128x492x1, .f32⟩ : BufTy).Contents (Elt F)),
    reshape main_v1655 main_v1656 rfl shapeCasts_S128x492x1_S128x492,
    binary main_v1654 main_v1656 main_v1657 (addf : (⟨S128x492, .f32⟩ : BufTy).Contents (Elt F) → (⟨S128x492, .f32⟩ : BufTy).Contents (Elt F) → (⟨S128x492, .f32⟩ : BufTy).Contents (Elt F)),
    unary main_v1644 main_v1658 ((extractStridedSlice S128x492x1 ![0, 4, 4] · slices_S128x512x21_S128x492x1_0_4_4) : (⟨S128x512x21, .f32⟩ : BufTy).Contents (Elt F) → (⟨S128x492x1, .f32⟩ : BufTy).Contents (Elt F)),
    reshape main_v1658 main_v1659 rfl shapeCasts_S128x492x1_S128x492,
    binary main_v1657 main_v1659 main_v1660 (addf : (⟨S128x492, .f32⟩ : BufTy).Contents (Elt F) → (⟨S128x492, .f32⟩ : BufTy).Contents (Elt F) → (⟨S128x492, .f32⟩ : BufTy).Contents (Elt F)) ]

end Cert.ReferenceIdeal.RefRun

end
-- ==== Proof.RefSegs2.lean ====
import proofs.«138672_j88897233092836_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 68: 55 operations. -/
def seg68 : List (HloOp τ sig (Elt F)) :=
  [ unary main_v1644 main_v1661 ((extractStridedSlice S128x492x1 ![0, 5, 5] · slices_S128x512x21_S128x492x1_0_5_5) : (⟨S128x512x21, .f32⟩ : BufTy).Contents (Elt F) → (⟨S128x492x1, .f32⟩ : BufTy).Contents (Elt F)),
    reshape main_v1661 main_v1662 rfl shapeCasts_S128x492x1_S128x492,
    binary main_v1660 main_v1662 main_v1663 (addf : (⟨S128x492, .f32⟩ : BufTy).Contents (Elt F) → (⟨S128x492, .f32⟩ : BufTy).Contents (Elt F) → (⟨S128x492, .f32⟩ : BufTy).Contents (Elt F)),
    unary main_v1644 main_v1664 ((extractStridedSlice S128x492x1 ![0, 6, 6] · slices_S128x512x21_S128x492x1_0_6_6) : (⟨S128x512x21, .f32⟩ : BufTy).Contents (Elt F) → (⟨S128x492x1, .f32⟩ : BufTy).Contents (Elt F)),
    reshape main_v1664 main_v1665 rfl shapeCasts_S128x492x1_S128x492,
    binary main_v1663 main_v1665 main_v1666 (addf : (⟨S128x492, .f32⟩ : BufTy).Contents (Elt F) → (⟨S128x492, .f32⟩ : BufTy).Contents (Elt F) → (⟨S128x492, .f32⟩ : BufTy).Contents (Elt F)),
    unary main_v1644 main_v1667 ((extractStridedSlice S128x492x1 ![0, 7, 7] · slices_S128x512x21_S128x492x1_0_7_7) : (⟨S128x512x21, .f32⟩ : BufTy).Contents (Elt F) → (⟨S128x492x1, .f32⟩ : BufTy).Contents (Elt F)),
    reshape main_v1667 main_v1668 rfl shapeCasts_S128x492x1_S128x492,
    binary main_v1666 main_v1668 main_v1669 (addf : (⟨S128x492, .f32⟩ : BufTy).Contents (Elt F) → (⟨S128x492, .f32⟩ : BufTy).Contents (Elt F) → (⟨S128x492, .f32⟩ : BufTy).Contents (Elt F)),
    unary main_v1644 main_v1670 ((extractStridedSlice S128x492x1 ![0, 8, 8] · slices_S128x512x21_S128x492x1_0_8_8) : (⟨S128x512x21, .f32⟩ : BufTy).Contents (Elt F) → (⟨S128x492x1, .f32⟩ : BufTy).Contents (Elt F)),
    reshape main_v1670 main_v1671 rfl shapeCasts_S128x492x1_S128x492,
    binary main_v1669 main_v1671 main_v1672 (addf : (⟨S128x492, .f32⟩ : BufTy).Contents (Elt F) → (⟨S128x492, .f32⟩ : BufTy).Contents (Elt F) → (⟨S128x492, .f32⟩ : BufTy).Contents (Elt F)),
    unary main_v1644 main_v1673 ((extractStridedSlice S128x492x1 ![0, 9, 9] · slices_S128x512x21_S128x492x1_0_9_9) : (⟨S128x512x21, .f32⟩ : BufTy).Contents (Elt F) → (⟨S128x492x1, .f32⟩ : BufTy).Contents (Elt F)),
    reshape main_v1673 main_v1674 rfl shapeCasts_S128x492x1_S128x492,
    binary main_v1672 main_v1674 main_v1675 (addf : (⟨S128x492, .f32⟩ : BufTy).Contents (Elt F) → (⟨S128x492, .f32⟩ : BufTy).Contents (Elt F) → (⟨S128x492, .f32⟩ : BufTy).Contents (Elt F)),
    unary main_v1644 main_v1676 ((extractStridedSlice S128x492x1 ![0, 10, 10] · slices_S128x512x21_S128x492x1_0_10_10) : (⟨S128x512x21, .f32⟩ : BufTy).Contents (Elt F) → (⟨S128x492x1, .f32⟩ : BufTy).Contents (Elt F)),
    reshape main_v1676 main_v1677 rfl shapeCasts_S128x492x1_S128x492,
    binary main_v1675 main_v1677 main_v1678 (addf : (⟨S128x492, .f32⟩ : BufTy).Contents (Elt F) → (⟨S128x492, .f32⟩ : BufTy).Contents (Elt F) → (⟨S128x492, .f32⟩ : BufTy).Contents (Elt F)),
    unary main_v1644 main_v1679 ((extractStridedSlice S128x492x1 ![0, 11, 11] · slices_S128x512x21_S128x492x1_0_11_11) : (⟨S128x512x21, .f32⟩ : BufTy).Contents (Elt F) → (⟨S128x492x1, .f32⟩ : BufTy).Contents (Elt F)),
    reshape main_v1679 main_v1680 rfl shapeCasts_S128x492x1_S128x492,
    binary main_v1678 main_v1680 main_v1681 (addf : (⟨S128x492, .f32⟩ : BufTy).Contents (Elt F) → (⟨S128x492, .f32⟩ : BufTy).Contents (Elt F) → (⟨S128x492, .f32⟩ : BufTy).Contents (Elt F)),
    unary main_v1644 main_v1682 ((extractStridedSlice S128x492x1 ![0, 12, 12] · slices_S128x512x21_S128x492x1_0_12_12) : (⟨S128x512x21, .f32⟩ : BufTy).Contents (Elt F) → (⟨S128x492x1, .f32⟩ : BufTy).Contents (Elt F)),
    reshape main_v1682 main_v1683 rfl shapeCasts_S128x492x1_S128x492,
    binary main_v1681 main_v1683 main_v1684 (addf : (⟨S128x492, .f32⟩ : BufTy).Contents (Elt F) → (⟨S128x492, .f32⟩ : BufTy).Contents (Elt F) → (⟨S128x492, .f32⟩ : BufTy).Contents (Elt F)),
    unary main_v1644 main_v1685 ((extractStridedSlice S128x492x1 ![0, 13, 13] · slices_S128x512x21_S128x492x1_0_13_13) : (⟨S128x512x21, .f32⟩ : BufTy).Contents (Elt F) → (⟨S128x492x1, .f32⟩ : BufTy).Contents (Elt F)),
    reshape main_v1685 main_v1686 rfl shapeCasts_S128x492x1_S128x492,
    binary main_v1684 main_v1686 main_v1687 (addf : (⟨S128x492, .f32⟩ : BufTy).Contents (Elt F) → (⟨S128x492, .f32⟩ : BufTy).Contents (Elt F) → (⟨S128x492, .f32⟩ : BufTy).Contents (Elt F)),
    unary main_v1644 main_v1688 ((extractStridedSlice S128x492x1 ![0, 14, 14] · slices_S128x512x21_S128x492x1_0_14_14) : (⟨S128x512x21, .f32⟩ : BufTy).Contents (Elt F) → (⟨S128x492x1, .f32⟩ : BufTy).Contents (Elt F)),
    reshape main_v1688 main_v1689 rfl shapeCasts_S128x492x1_S128x492,
    binary main_v1687 main_v1689 main_v1690 (addf : (⟨S128x492, .f32⟩ : BufTy).Contents (Elt F) → (⟨S128x492, .f32⟩ : BufTy).Contents (Elt F) → (⟨S128x492, .f32⟩ : BufTy).Contents (Elt F)),
    unary main_v1644 main_v1691 ((extractStridedSlice S128x492x1 ![0, 15, 15] · slices_S128x512x21_S128x492x1_0_15_15) : (⟨S128x512x21, .f32⟩ : BufTy).Contents (Elt F) → (⟨S128x492x1, .f32⟩ : BufTy).Contents (Elt F)),
    reshape main_v1691 main_v1692 rfl shapeCasts_S128x492x1_S128x492,
    binary main_v1690 main_v1692 main_v1693 (addf : (⟨S128x492, .f32⟩ : BufTy).Contents (Elt F) → (⟨S128x492, .f32⟩ : BufTy).Contents (Elt F) → (⟨S128x492, .f32⟩ : BufTy).Contents (Elt F)),
    unary main_v1644 main_v1694 ((extractStridedSlice S128x492x1 ![0, 16, 16] · slices_S128x512x21_S128x492x1_0_16_16) : (⟨S128x512x21, .f32⟩ : BufTy).Contents (Elt F) → (⟨S128x492x1, .f32⟩ : BufTy).Contents (Elt F)),
    reshape main_v1694 main_v1695 rfl shapeCasts_S128x492x1_S128x492,
    binary main_v1693 main_v1695 main_v1696 (addf : (⟨S128x492, .f32⟩ : BufTy).Contents (Elt F) → (⟨S128x492, .f32⟩ : BufTy).Contents (Elt F) → (⟨S128x492, .f32⟩ : BufTy).Contents (Elt F)),
    unary main_v1644 main_v1697 ((extractStridedSlice S128x492x1 ![0, 17, 17] · slices_S128x512x21_S128x492x1_0_17_17) : (⟨S128x512x21, .f32⟩ : BufTy).Contents (Elt F) → (⟨S128x492x1, .f32⟩ : BufTy).Contents (Elt F)),
    reshape main_v1697 main_v1698 rfl shapeCasts_S128x492x1_S128x492,
    binary main_v1696 main_v1698 main_v1699 (addf : (⟨S128x492, .f32⟩ : BufTy).Contents (Elt F) → (⟨S128x492, .f32⟩ : BufTy).Contents (Elt F) → (⟨S128x492, .f32⟩ : BufTy).Contents (Elt F)),
    unary main_v1644 main_v1700 ((extractStridedSlice S128x492x1 ![0, 18, 18] · slices_S128x512x21_S128x492x1_0_18_18) : (⟨S128x512x21, .f32⟩ : BufTy).Contents (Elt F) → (⟨S128x492x1, .f32⟩ : BufTy).Contents (Elt F)),
    reshape main_v1700 main_v1701 rfl shapeCasts_S128x492x1_S128x492,
    binary main_v1699 main_v1701 main_v1702 (addf : (⟨S128x492, .f32⟩ : BufTy).Contents (Elt F) → (⟨S128x492, .f32⟩ : BufTy).Contents (Elt F) → (⟨S128x492, .f32⟩ : BufTy).Contents (Elt F)),
    unary main_v1644 main_v1703 ((extractStridedSlice S128x492x1 ![0, 19, 19] · slices_S128x512x21_S128x492x1_0_19_19) : (⟨S128x512x21, .f32⟩ : BufTy).Contents (Elt F) → (⟨S128x492x1, .f32⟩ : BufTy).Contents (Elt F)),
    reshape main_v1703 main_v1704 rfl shapeCasts_S128x492x1_S128x492,
    binary main_v1702 main_v1704 main_v1705 (addf : (⟨S128x492, .f32⟩ : BufTy).Contents (Elt F) → (⟨S128x492, .f32⟩ : BufTy).Contents (Elt F) → (⟨S128x492, .f32⟩ : BufTy).Contents (Elt F)),
    unary main_v1644 main_v1706 ((extractStridedSlice S128x492x1 ![0, 20, 20] · slices_S128x512x21_S128x492x1_0_20_20) : (⟨S128x512x21, .f32⟩ : BufTy).Contents (Elt F) → (⟨S128x492x1, .f32⟩ : BufTy).Contents (Elt F)),
    reshape main_v1706 main_v1707 rfl shapeCasts_S128x492x1_S128x492,
    binary main_v1705 main_v1707 main_v1708 (addf : (⟨S128x492, .f32⟩ : BufTy).Contents (Elt F) → (⟨S128x492, .f32⟩ : BufTy).Contents (Elt F) → (⟨S128x492, .f32⟩ : BufTy).Contents (Elt F)),
    unary main_arg3 main_v1709 ((extractStridedSlice S1 ![38] · slices_S64_S1_38) : (⟨S64, .f32⟩ : BufTy).Contents (Elt F) → (⟨S1, .f32⟩ : BufTy).Contents (Elt F)),
    reshape main_v1709 main_v1710 rfl shapeCasts_S1_S_,
    unary main_v1710 main_v1711 (broadcastInDim S128x492 ![] bcast_S_S128x492 : (⟨S_, .f32⟩ : BufTy).Contents (Elt F) → (⟨S128x492, .f32⟩ : BufTy).Contents (Elt F)),
    binary main_v1708 main_v1711 main_v1712 (addf : (⟨S128x492, .f32⟩ : BufTy).Contents (Elt F) → (⟨S128x492, .f32⟩ : BufTy).Contents (Elt F) → (⟨S128x492, .f32⟩ : BufTy).Contents (Elt F)),
    unary main_v1712 main_v1713 (Host.tanh : (⟨S128x492, .f32⟩ : BufTy).Contents (Elt F) → (⟨S128x492, .f32⟩ : BufTy).Contents (Elt F)),
    nullary main_cst_77 (constant S_ .f32 0xFF800000#32),
    binary main_v1713 main_cst_77 main_v1714 ((fun x v => Host.reduce FloatOps.maximumf x v reducesTo_S128x492_S128_d1 h_S_) : (⟨S128x492, .f32⟩ : BufTy).Contents (Elt F) → (⟨S_, .f32⟩ : BufTy).Contents (Elt F) → (⟨S128, .f32⟩ : BufTy).Contents (Elt F)) ]

/-- Segment 69: 5 operations. -/
def seg69 : List (HloOp τ sig (Elt F)) :=
  [ unary main_arg2 main_v1715 ((extractStridedSlice S1x21x300 ![39, 0, 0] · slices_S64x33x300_S1x21x300_39_0_0) : (⟨S64x33x300, .f32⟩ : BufTy).Contents (Elt F) → (⟨S1x21x300, .f32⟩ : BufTy).Contents (Elt F)),
    reshape main_v1715 main_v1716 rfl shapeCasts_S1x21x300_S21x300,
    binary main_v7 main_v1716 main_v1717 ((fun l r => Host.dotGeneral dot_S128x512x300_S21x300_S128x512x21_2_1_01_0_n_n none l r) : (⟨S128x512x300, .f32⟩ : BufTy).Contents (Elt F) → (⟨S21x300, .f32⟩ : BufTy).Contents (Elt F) → (⟨S128x512x21, .f32⟩ : BufTy).Contents (Elt F)),
    unary main_v1717 main_v1718 ((extractStridedSlice S128x492x1 ![0, 0, 0] · slices_S128x512x21_S128x492x1_0_0_0) : (⟨S128x512x21, .f32⟩ : BufTy).Contents (Elt F) → (⟨S128x492x1, .f32⟩ : BufTy).Contents (Elt F)),
    reshape main_v1718 main_v1719 rfl shapeCasts_S128x492x1_S128x492 ]

/-- Segment 70: 60 operations. -/
def seg70 : List (HloOp τ sig (Elt F)) :=
  [ nullary main_cst_78 (constant S_ .f32 0x00000000#32),
    unary main_cst_78 main_v1720 (broadcastInDim S128x492 ![] bcast_S_S128x492 : (⟨S_, .f32⟩ : BufTy).Contents (Elt F) → (⟨S128x492, .f32⟩ : BufTy).Contents (Elt F)),
    binary main_v1720 main_v1719 main_v1721 (addf : (⟨S128x492, .f32⟩ : BufTy).Contents (Elt F) → (⟨S128x492, .f32⟩ : BufTy).Contents (Elt F) → (⟨S128x492, .f32⟩ : BufTy).Contents (Elt F)),
    unary main_v1717 main_v1722 ((extractStridedSlice S128x492x1 ![0, 1, 1] · slices_S128x512x21_S128x492x1_0_1_1) : (⟨S128x512x21, .f32⟩ : BufTy).Contents (Elt F) → (⟨S128x492x1, .f32⟩ : BufTy).Contents (Elt F)),
    reshape main_v1722 main_v1723 rfl shapeCasts_S128x492x1_S128x492,
    binary main_v1721 main_v1723 main_v1724 (addf : (⟨S128x492, .f32⟩ : BufTy).Contents (Elt F) → (⟨S128x492, .f32⟩ : BufTy).Contents (Elt F) → (⟨S128x492, .f32⟩ : BufTy).Contents (Elt F)),
    unary main_v1717 main_v1725 ((extractStridedSlice S128x492x1 ![0, 2, 2] · slices_S128x512x21_S128x492x1_0_2_2) : (⟨S128x512x21, .f32⟩ : BufTy).Contents (Elt F) → (⟨S128x492x1, .f32⟩ : BufTy).Contents (Elt F)),
    reshape main_v1725 main_v1726 rfl shapeCasts_S128x492x1_S128x492,
    binary main_v1724 main_v1726 main_v1727 (addf : (⟨S128x492, .f32⟩ : BufTy).Contents (Elt F) → (⟨S128x492, .f32⟩ : BufTy).Contents (Elt F) → (⟨S128x492, .f32⟩ : BufTy).Contents (Elt F)),
    unary main_v1717 main_v1728 ((extractStridedSlice S128x492x1 ![0, 3, 3] · slices_S128x512x21_S128x492x1_0_3_3) : (⟨S128x512x21, .f32⟩ : BufTy).Contents (Elt F) → (⟨S128x492x1, .f32⟩ : BufTy).Contents (Elt F)),
    reshape main_v1728 main_v1729 rfl shapeCasts_S128x492x1_S128x492,
    binary main_v1727 main_v1729 main_v1730 (addf : (⟨S128x492, .f32⟩ : BufTy).Contents (Elt F) → (⟨S128x492, .f32⟩ : BufTy).Contents (Elt F) → (⟨S128x492, .f32⟩ : BufTy).Contents (Elt F)),
    unary main_v1717 main_v1731 ((extractStridedSlice S128x492x1 ![0, 4, 4] · slices_S128x512x21_S128x492x1_0_4_4) : (⟨S128x512x21, .f32⟩ : BufTy).Contents (Elt F) → (⟨S128x492x1, .f32⟩ : BufTy).Contents (Elt F)),
    reshape main_v1731 main_v1732 rfl shapeCasts_S128x492x1_S128x492,
    binary main_v1730 main_v1732 main_v1733 (addf : (⟨S128x492, .f32⟩ : BufTy).Contents (Elt F) → (⟨S128x492, .f32⟩ : BufTy).Contents (Elt F) → (⟨S128x492, .f32⟩ : BufTy).Contents (Elt F)),
    unary main_v1717 main_v1734 ((extractStridedSlice S128x492x1 ![0, 5, 5] · slices_S128x512x21_S128x492x1_0_5_5) : (⟨S128x512x21, .f32⟩ : BufTy).Contents (Elt F) → (⟨S128x492x1, .f32⟩ : BufTy).Contents (Elt F)),
    reshape main_v1734 main_v1735 rfl shapeCasts_S128x492x1_S128x492,
    binary main_v1733 main_v1735 main_v1736 (addf : (⟨S128x492, .f32⟩ : BufTy).Contents (Elt F) → (⟨S128x492, .f32⟩ : BufTy).Contents (Elt F) → (⟨S128x492, .f32⟩ : BufTy).Contents (Elt F)),
    unary main_v1717 main_v1737 ((extractStridedSlice S128x492x1 ![0, 6, 6] · slices_S128x512x21_S128x492x1_0_6_6) : (⟨S128x512x21, .f32⟩ : BufTy).Contents (Elt F) → (⟨S128x492x1, .f32⟩ : BufTy).Contents (Elt F)),
    reshape main_v1737 main_v1738 rfl shapeCasts_S128x492x1_S128x492,
    binary main_v1736 main_v1738 main_v1739 (addf : (⟨S128x492, .f32⟩ : BufTy).Contents (Elt F) → (⟨S128x492, .f32⟩ : BufTy).Contents (Elt F) → (⟨S128x492, .f32⟩ : BufTy).Contents (Elt F)),
    unary main_v1717 main_v1740 ((extractStridedSlice S128x492x1 ![0, 7, 7] · slices_S128x512x21_S128x492x1_0_7_7) : (⟨S128x512x21, .f32⟩ : BufTy).Contents (Elt F) → (⟨S128x492x1, .f32⟩ : BufTy).Contents (Elt F)),
    reshape main_v1740 main_v1741 rfl shapeCasts_S128x492x1_S128x492,
    binary main_v1739 main_v1741 main_v1742 (addf : (⟨S128x492, .f32⟩ : BufTy).Contents (Elt F) → (⟨S128x492, .f32⟩ : BufTy).Contents (Elt F) → (⟨S128x492, .f32⟩ : BufTy).Contents (Elt F)),
    unary main_v1717 main_v1743 ((extractStridedSlice S128x492x1 ![0, 8, 8] · slices_S128x512x21_S128x492x1_0_8_8) : (⟨S128x512x21, .f32⟩ : BufTy).Contents (Elt F) → (⟨S128x492x1, .f32⟩ : BufTy).Contents (Elt F)),
    reshape main_v1743 main_v1744 rfl shapeCasts_S128x492x1_S128x492,
    binary main_v1742 main_v1744 main_v1745 (addf : (⟨S128x492, .f32⟩ : BufTy).Contents (Elt F) → (⟨S128x492, .f32⟩ : BufTy).Contents (Elt F) → (⟨S128x492, .f32⟩ : BufTy).Contents (Elt F)),
    unary main_v1717 main_v1746 ((extractStridedSlice S128x492x1 ![0, 9, 9] · slices_S128x512x21_S128x492x1_0_9_9) : (⟨S128x512x21, .f32⟩ : BufTy).Contents (Elt F) → (⟨S128x492x1, .f32⟩ : BufTy).Contents (Elt F)),
    reshape main_v1746 main_v1747 rfl shapeCasts_S128x492x1_S128x492,
    binary main_v1745 main_v1747 main_v1748 (addf : (⟨S128x492, .f32⟩ : BufTy).Contents (Elt F) → (⟨S128x492, .f32⟩ : BufTy).Contents (Elt F) → (⟨S128x492, .f32⟩ : BufTy).Contents (Elt F)),
    unary main_v1717 main_v1749 ((extractStridedSlice S128x492x1 ![0, 10, 10] · slices_S128x512x21_S128x492x1_0_10_10) : (⟨S128x512x21, .f32⟩ : BufTy).Contents (Elt F) → (⟨S128x492x1, .f32⟩ : BufTy).Contents (Elt F)),
    reshape main_v1749 main_v1750 rfl shapeCasts_S128x492x1_S128x492,
    binary main_v1748 main_v1750 main_v1751 (addf : (⟨S128x492, .f32⟩ : BufTy).Contents (Elt F) → (⟨S128x492, .f32⟩ : BufTy).Contents (Elt F) → (⟨S128x492, .f32⟩ : BufTy).Contents (Elt F)),
    unary main_v1717 main_v1752 ((extractStridedSlice S128x492x1 ![0, 11, 11] · slices_S128x512x21_S128x492x1_0_11_11) : (⟨S128x512x21, .f32⟩ : BufTy).Contents (Elt F) → (⟨S128x492x1, .f32⟩ : BufTy).Contents (Elt F)),
    reshape main_v1752 main_v1753 rfl shapeCasts_S128x492x1_S128x492,
    binary main_v1751 main_v1753 main_v1754 (addf : (⟨S128x492, .f32⟩ : BufTy).Contents (Elt F) → (⟨S128x492, .f32⟩ : BufTy).Contents (Elt F) → (⟨S128x492, .f32⟩ : BufTy).Contents (Elt F)),
    unary main_v1717 main_v1755 ((extractStridedSlice S128x492x1 ![0, 12, 12] · slices_S128x512x21_S128x492x1_0_12_12) : (⟨S128x512x21, .f32⟩ : BufTy).Contents (Elt F) → (⟨S128x492x1, .f32⟩ : BufTy).Contents (Elt F)),
    reshape main_v1755 main_v1756 rfl shapeCasts_S128x492x1_S128x492,
    binary main_v1754 main_v1756 main_v1757 (addf : (⟨S128x492, .f32⟩ : BufTy).Contents (Elt F) → (⟨S128x492, .f32⟩ : BufTy).Contents (Elt F) → (⟨S128x492, .f32⟩ : BufTy).Contents (Elt F)),
    unary main_v1717 main_v1758 ((extractStridedSlice S128x492x1 ![0, 13, 13] · slices_S128x512x21_S128x492x1_0_13_13) : (⟨S128x512x21, .f32⟩ : BufTy).Contents (Elt F) → (⟨S128x492x1, .f32⟩ : BufTy).Contents (Elt F)),
    reshape main_v1758 main_v1759 rfl shapeCasts_S128x492x1_S128x492,
    binary main_v1757 main_v1759 main_v1760 (addf : (⟨S128x492, .f32⟩ : BufTy).Contents (Elt F) → (⟨S128x492, .f32⟩ : BufTy).Contents (Elt F) → (⟨S128x492, .f32⟩ : BufTy).Contents (Elt F)),
    unary main_v1717 main_v1761 ((extractStridedSlice S128x492x1 ![0, 14, 14] · slices_S128x512x21_S128x492x1_0_14_14) : (⟨S128x512x21, .f32⟩ : BufTy).Contents (Elt F) → (⟨S128x492x1, .f32⟩ : BufTy).Contents (Elt F)),
    reshape main_v1761 main_v1762 rfl shapeCasts_S128x492x1_S128x492,
    binary main_v1760 main_v1762 main_v1763 (addf : (⟨S128x492, .f32⟩ : BufTy).Contents (Elt F) → (⟨S128x492, .f32⟩ : BufTy).Contents (Elt F) → (⟨S128x492, .f32⟩ : BufTy).Contents (Elt F)),
    unary main_v1717 main_v1764 ((extractStridedSlice S128x492x1 ![0, 15, 15] · slices_S128x512x21_S128x492x1_0_15_15) : (⟨S128x512x21, .f32⟩ : BufTy).Contents (Elt F) → (⟨S128x492x1, .f32⟩ : BufTy).Contents (Elt F)),
    reshape main_v1764 main_v1765 rfl shapeCasts_S128x492x1_S128x492,
    binary main_v1763 main_v1765 main_v1766 (addf : (⟨S128x492, .f32⟩ : BufTy).Contents (Elt F) → (⟨S128x492, .f32⟩ : BufTy).Contents (Elt F) → (⟨S128x492, .f32⟩ : BufTy).Contents (Elt F)),
    unary main_v1717 main_v1767 ((extractStridedSlice S128x492x1 ![0, 16, 16] · slices_S128x512x21_S128x492x1_0_16_16) : (⟨S128x512x21, .f32⟩ : BufTy).Contents (Elt F) → (⟨S128x492x1, .f32⟩ : BufTy).Contents (Elt F)),
    reshape main_v1767 main_v1768 rfl shapeCasts_S128x492x1_S128x492,
    binary main_v1766 main_v1768 main_v1769 (addf : (⟨S128x492, .f32⟩ : BufTy).Contents (Elt F) → (⟨S128x492, .f32⟩ : BufTy).Contents (Elt F) → (⟨S128x492, .f32⟩ : BufTy).Contents (Elt F)),
    unary main_v1717 main_v1770 ((extractStridedSlice S128x492x1 ![0, 17, 17] · slices_S128x512x21_S128x492x1_0_17_17) : (⟨S128x512x21, .f32⟩ : BufTy).Contents (Elt F) → (⟨S128x492x1, .f32⟩ : BufTy).Contents (Elt F)),
    reshape main_v1770 main_v1771 rfl shapeCasts_S128x492x1_S128x492,
    binary main_v1769 main_v1771 main_v1772 (addf : (⟨S128x492, .f32⟩ : BufTy).Contents (Elt F) → (⟨S128x492, .f32⟩ : BufTy).Contents (Elt F) → (⟨S128x492, .f32⟩ : BufTy).Contents (Elt F)),
    unary main_v1717 main_v1773 ((extractStridedSlice S128x492x1 ![0, 18, 18] · slices_S128x512x21_S128x492x1_0_18_18) : (⟨S128x512x21, .f32⟩ : BufTy).Contents (Elt F) → (⟨S128x492x1, .f32⟩ : BufTy).Contents (Elt F)),
    reshape main_v1773 main_v1774 rfl shapeCasts_S128x492x1_S128x492,
    binary main_v1772 main_v1774 main_v1775 (addf : (⟨S128x492, .f32⟩ : BufTy).Contents (Elt F) → (⟨S128x492, .f32⟩ : BufTy).Contents (Elt F) → (⟨S128x492, .f32⟩ : BufTy).Contents (Elt F)),
    unary main_v1717 main_v1776 ((extractStridedSlice S128x492x1 ![0, 19, 19] · slices_S128x512x21_S128x492x1_0_19_19) : (⟨S128x512x21, .f32⟩ : BufTy).Contents (Elt F) → (⟨S128x492x1, .f32⟩ : BufTy).Contents (Elt F)),
    reshape main_v1776 main_v1777 rfl shapeCasts_S128x492x1_S128x492,
    binary main_v1775 main_v1777 main_v1778 (addf : (⟨S128x492, .f32⟩ : BufTy).Contents (Elt F) → (⟨S128x492, .f32⟩ : BufTy).Contents (Elt F) → (⟨S128x492, .f32⟩ : BufTy).Contents (Elt F)) ]

/-- Segment 71: 10 operations. -/
def seg71 : List (HloOp τ sig (Elt F)) :=
  [ unary main_v1717 main_v1779 ((extractStridedSlice S128x492x1 ![0, 20, 20] · slices_S128x512x21_S128x492x1_0_20_20) : (⟨S128x512x21, .f32⟩ : BufTy).Contents (Elt F) → (⟨S128x492x1, .f32⟩ : BufTy).Contents (Elt F)),
    reshape main_v1779 main_v1780 rfl shapeCasts_S128x492x1_S128x492,
    binary main_v1778 main_v1780 main_v1781 (addf : (⟨S128x492, .f32⟩ : BufTy).Contents (Elt F) → (⟨S128x492, .f32⟩ : BufTy).Contents (Elt F) → (⟨S128x492, .f32⟩ : BufTy).Contents (Elt F)),
    unary main_arg3 main_v1782 ((extractStridedSlice S1 ![39] · slices_S64_S1_39) : (⟨S64, .f32⟩ : BufTy).Contents (Elt F) → (⟨S1, .f32⟩ : BufTy).Contents (Elt F)),
    reshape main_v1782 main_v1783 rfl shapeCasts_S1_S_,
    unary main_v1783 main_v1784 (broadcastInDim S128x492 ![] bcast_S_S128x492 : (⟨S_, .f32⟩ : BufTy).Contents (Elt F) → (⟨S128x492, .f32⟩ : BufTy).Contents (Elt F)),
    binary main_v1781 main_v1784 main_v1785 (addf : (⟨S128x492, .f32⟩ : BufTy).Contents (Elt F) → (⟨S128x492, .f32⟩ : BufTy).Contents (Elt F) → (⟨S128x492, .f32⟩ : BufTy).Contents (Elt F)),
    unary main_v1785 main_v1786 (Host.tanh : (⟨S128x492, .f32⟩ : BufTy).Contents (Elt F) → (⟨S128x492, .f32⟩ : BufTy).Contents (Elt F)),
    nullary main_cst_79 (constant S_ .f32 0xFF800000#32),
    binary main_v1786 main_cst_79 main_v1787 ((fun x v => Host.reduce FloatOps.maximumf x v reducesTo_S128x492_S128_d1 h_S_) : (⟨S128x492, .f32⟩ : BufTy).Contents (Elt F) → (⟨S_, .f32⟩ : BufTy).Contents (Elt F) → (⟨S128, .f32⟩ : BufTy).Contents (Elt F)) ]

/-- Segment 72: 50 operations. -/
def seg72 : List (HloOp τ sig (Elt F)) :=
  [ unary main_arg2 main_v1788 ((extractStridedSlice S1x22x300 ![40, 0, 0] · slices_S64x33x300_S1x22x300_40_0_0) : (⟨S64x33x300, .f32⟩ : BufTy).Contents (Elt F) → (⟨S1x22x300, .f32⟩ : BufTy).Contents (Elt F)),
    reshape main_v1788 main_v1789 rfl shapeCasts_S1x22x300_S22x300,
    binary main_v7 main_v1789 main_v1790 ((fun l r => Host.dotGeneral dot_S128x512x300_S22x300_S128x512x22_2_1_01_0_n_n none l r) : (⟨S128x512x300, .f32⟩ : BufTy).Contents (Elt F) → (⟨S22x300, .f32⟩ : BufTy).Contents (Elt F) → (⟨S128x512x22, .f32⟩ : BufTy).Contents (Elt F)),
    unary main_v1790 main_v1791 ((extractStridedSlice S128x491x1 ![0, 0, 0] · slices_S128x512x22_S128x491x1_0_0_0) : (⟨S128x512x22, .f32⟩ : BufTy).Contents (Elt F) → (⟨S128x491x1, .f32⟩ : BufTy).Contents (Elt F)),
    reshape main_v1791 main_v1792 rfl shapeCasts_S128x491x1_S128x491,
    nullary main_cst_80 (constant S_ .f32 0x00000000#32),
    unary main_cst_80 main_v1793 (broadcastInDim S128x491 ![] bcast_S_S128x491 : (⟨S_, .f32⟩ : BufTy).Contents (Elt F) → (⟨S128x491, .f32⟩ : BufTy).Contents (Elt F)),
    binary main_v1793 main_v1792 main_v1794 (addf : (⟨S128x491, .f32⟩ : BufTy).Contents (Elt F) → (⟨S128x491, .f32⟩ : BufTy).Contents (Elt F) → (⟨S128x491, .f32⟩ : BufTy).Contents (Elt F)),
    unary main_v1790 main_v1795 ((extractStridedSlice S128x491x1 ![0, 1, 1] · slices_S128x512x22_S128x491x1_0_1_1) : (⟨S128x512x22, .f32⟩ : BufTy).Contents (Elt F) → (⟨S128x491x1, .f32⟩ : BufTy).Contents (Elt F)),
    reshape main_v1795 main_v1796 rfl shapeCasts_S128x491x1_S128x491,
    binary main_v1794 main_v1796 main_v1797 (addf : (⟨S128x491, .f32⟩ : BufTy).Contents (Elt F) → (⟨S128x491, .f32⟩ : BufTy).Contents (Elt F) → (⟨S128x491, .f32⟩ : BufTy).Contents (Elt F)),
    unary main_v1790 main_v1798 ((extractStridedSlice S128x491x1 ![0, 2, 2] · slices_S128x512x22_S128x491x1_0_2_2) : (⟨S128x512x22, .f32⟩ : BufTy).Contents (Elt F) → (⟨S128x491x1, .f32⟩ : BufTy).Contents (Elt F)),
    reshape main_v1798 main_v1799 rfl shapeCasts_S128x491x1_S128x491,
    binary main_v1797 main_v1799 main_v1800 (addf : (⟨S128x491, .f32⟩ : BufTy).Contents (Elt F) → (⟨S128x491, .f32⟩ : BufTy).Contents (Elt F) → (⟨S128x491, .f32⟩ : BufTy).Contents (Elt F)),
    unary main_v1790 main_v1801 ((extractStridedSlice S128x491x1 ![0, 3, 3] · slices_S128x512x22_S128x491x1_0_3_3) : (⟨S128x512x22, .f32⟩ : BufTy).Contents (Elt F) → (⟨S128x491x1, .f32⟩ : BufTy).Contents (Elt F)),
    reshape main_v1801 main_v1802 rfl shapeCasts_S128x491x1_S128x491,
    binary main_v1800 main_v1802 main_v1803 (addf : (⟨S128x491, .f32⟩ : BufTy).Contents (Elt F) → (⟨S128x491, .f32⟩ : BufTy).Contents (Elt F) → (⟨S128x491, .f32⟩ : BufTy).Contents (Elt F)),
    unary main_v1790 main_v1804 ((extractStridedSlice S128x491x1 ![0, 4, 4] · slices_S128x512x22_S128x491x1_0_4_4) : (⟨S128x512x22, .f32⟩ : BufTy).Contents (Elt F) → (⟨S128x491x1, .f32⟩ : BufTy).Contents (Elt F)),
    reshape main_v1804 main_v1805 rfl shapeCasts_S128x491x1_S128x491,
    binary main_v1803 main_v1805 main_v1806 (addf : (⟨S128x491, .f32⟩ : BufTy).Contents (Elt F) → (⟨S128x491, .f32⟩ : BufTy).Contents (Elt F) → (⟨S128x491, .f32⟩ : BufTy).Contents (Elt F)),
    unary main_v1790 main_v1807 ((extractStridedSlice S128x491x1 ![0, 5, 5] · slices_S128x512x22_S128x491x1_0_5_5) : (⟨S128x512x22, .f32⟩ : BufTy).Contents (Elt F) → (⟨S128x491x1, .f32⟩ : BufTy).Contents (Elt F)),
    reshape main_v1807 main_v1808 rfl shapeCasts_S128x491x1_S128x491,
    binary main_v1806 main_v1808 main_v1809 (addf : (⟨S128x491, .f32⟩ : BufTy).Contents (Elt F) → (⟨S128x491, .f32⟩ : BufTy).Contents (Elt F) → (⟨S128x491, .f32⟩ : BufTy).Contents (Elt F)),
    unary main_v1790 main_v1810 ((extractStridedSlice S128x491x1 ![0, 6, 6] · slices_S128x512x22_S128x491x1_0_6_6) : (⟨S128x512x22, .f32⟩ : BufTy).Contents (Elt F) → (⟨S128x491x1, .f32⟩ : BufTy).Contents (Elt F)),
    reshape main_v1810 main_v1811 rfl shapeCasts_S128x491x1_S128x491,
    binary main_v1809 main_v1811 main_v1812 (addf : (⟨S128x491, .f32⟩ : BufTy).Contents (Elt F) → (⟨S128x491, .f32⟩ : BufTy).Contents (Elt F) → (⟨S128x491, .f32⟩ : BufTy).Contents (Elt F)),
    unary main_v1790 main_v1813 ((extractStridedSlice S128x491x1 ![0, 7, 7] · slices_S128x512x22_S128x491x1_0_7_7) : (⟨S128x512x22, .f32⟩ : BufTy).Contents (Elt F) → (⟨S128x491x1, .f32⟩ : BufTy).Contents (Elt F)),
    reshape main_v1813 main_v1814 rfl shapeCasts_S128x491x1_S128x491,
    binary main_v1812 main_v1814 main_v1815 (addf : (⟨S128x491, .f32⟩ : BufTy).Contents (Elt F) → (⟨S128x491, .f32⟩ : BufTy).Contents (Elt F) → (⟨S128x491, .f32⟩ : BufTy).Contents (Elt F)),
    unary main_v1790 main_v1816 ((extractStridedSlice S128x491x1 ![0, 8, 8] · slices_S128x512x22_S128x491x1_0_8_8) : (⟨S128x512x22, .f32⟩ : BufTy).Contents (Elt F) → (⟨S128x491x1, .f32⟩ : BufTy).Contents (Elt F)),
    reshape main_v1816 main_v1817 rfl shapeCasts_S128x491x1_S128x491,
    binary main_v1815 main_v1817 main_v1818 (addf : (⟨S128x491, .f32⟩ : BufTy).Contents (Elt F) → (⟨S128x491, .f32⟩ : BufTy).Contents (Elt F) → (⟨S128x491, .f32⟩ : BufTy).Contents (Elt F)),
    unary main_v1790 main_v1819 ((extractStridedSlice S128x491x1 ![0, 9, 9] · slices_S128x512x22_S128x491x1_0_9_9) : (⟨S128x512x22, .f32⟩ : BufTy).Contents (Elt F) → (⟨S128x491x1, .f32⟩ : BufTy).Contents (Elt F)),
    reshape main_v1819 main_v1820 rfl shapeCasts_S128x491x1_S128x491,
    binary main_v1818 main_v1820 main_v1821 (addf : (⟨S128x491, .f32⟩ : BufTy).Contents (Elt F) → (⟨S128x491, .f32⟩ : BufTy).Contents (Elt F) → (⟨S128x491, .f32⟩ : BufTy).Contents (Elt F)),
    unary main_v1790 main_v1822 ((extractStridedSlice S128x491x1 ![0, 10, 10] · slices_S128x512x22_S128x491x1_0_10_10) : (⟨S128x512x22, .f32⟩ : BufTy).Contents (Elt F) → (⟨S128x491x1, .f32⟩ : BufTy).Contents (Elt F)),
    reshape main_v1822 main_v1823 rfl shapeCasts_S128x491x1_S128x491,
    binary main_v1821 main_v1823 main_v1824 (addf : (⟨S128x491, .f32⟩ : BufTy).Contents (Elt F) → (⟨S128x491, .f32⟩ : BufTy).Contents (Elt F) → (⟨S128x491, .f32⟩ : BufTy).Contents (Elt F)),
    unary main_v1790 main_v1825 ((extractStridedSlice S128x491x1 ![0, 11, 11] · slices_S128x512x22_S128x491x1_0_11_11) : (⟨S128x512x22, .f32⟩ : BufTy).Contents (Elt F) → (⟨S128x491x1, .f32⟩ : BufTy).Contents (Elt F)),
    reshape main_v1825 main_v1826 rfl shapeCasts_S128x491x1_S128x491,
    binary main_v1824 main_v1826 main_v1827 (addf : (⟨S128x491, .f32⟩ : BufTy).Contents (Elt F) → (⟨S128x491, .f32⟩ : BufTy).Contents (Elt F) → (⟨S128x491, .f32⟩ : BufTy).Contents (Elt F)),
    unary main_v1790 main_v1828 ((extractStridedSlice S128x491x1 ![0, 12, 12] · slices_S128x512x22_S128x491x1_0_12_12) : (⟨S128x512x22, .f32⟩ : BufTy).Contents (Elt F) → (⟨S128x491x1, .f32⟩ : BufTy).Contents (Elt F)),
    reshape main_v1828 main_v1829 rfl shapeCasts_S128x491x1_S128x491,
    binary main_v1827 main_v1829 main_v1830 (addf : (⟨S128x491, .f32⟩ : BufTy).Contents (Elt F) → (⟨S128x491, .f32⟩ : BufTy).Contents (Elt F) → (⟨S128x491, .f32⟩ : BufTy).Contents (Elt F)),
    unary main_v1790 main_v1831 ((extractStridedSlice S128x491x1 ![0, 13, 13] · slices_S128x512x22_S128x491x1_0_13_13) : (⟨S128x512x22, .f32⟩ : BufTy).Contents (Elt F) → (⟨S128x491x1, .f32⟩ : BufTy).Contents (Elt F)),
    reshape main_v1831 main_v1832 rfl shapeCasts_S128x491x1_S128x491,
    binary main_v1830 main_v1832 main_v1833 (addf : (⟨S128x491, .f32⟩ : BufTy).Contents (Elt F) → (⟨S128x491, .f32⟩ : BufTy).Contents (Elt F) → (⟨S128x491, .f32⟩ : BufTy).Contents (Elt F)),
    unary main_v1790 main_v1834 ((extractStridedSlice S128x491x1 ![0, 14, 14] · slices_S128x512x22_S128x491x1_0_14_14) : (⟨S128x512x22, .f32⟩ : BufTy).Contents (Elt F) → (⟨S128x491x1, .f32⟩ : BufTy).Contents (Elt F)),
    reshape main_v1834 main_v1835 rfl shapeCasts_S128x491x1_S128x491,
    binary main_v1833 main_v1835 main_v1836 (addf : (⟨S128x491, .f32⟩ : BufTy).Contents (Elt F) → (⟨S128x491, .f32⟩ : BufTy).Contents (Elt F) → (⟨S128x491, .f32⟩ : BufTy).Contents (Elt F)) ]

/-- Segment 73: 28 operations. -/
def seg73 : List (HloOp τ sig (Elt F)) :=
  [ unary main_v1790 main_v1837 ((extractStridedSlice S128x491x1 ![0, 15, 15] · slices_S128x512x22_S128x491x1_0_15_15) : (⟨S128x512x22, .f32⟩ : BufTy).Contents (Elt F) → (⟨S128x491x1, .f32⟩ : BufTy).Contents (Elt F)),
    reshape main_v1837 main_v1838 rfl shapeCasts_S128x491x1_S128x491,
    binary main_v1836 main_v1838 main_v1839 (addf : (⟨S128x491, .f32⟩ : BufTy).Contents (Elt F) → (⟨S128x491, .f32⟩ : BufTy).Contents (Elt F) → (⟨S128x491, .f32⟩ : BufTy).Contents (Elt F)),
    unary main_v1790 main_v1840 ((extractStridedSlice S128x491x1 ![0, 16, 16] · slices_S128x512x22_S128x491x1_0_16_16) : (⟨S128x512x22, .f32⟩ : BufTy).Contents (Elt F) → (⟨S128x491x1, .f32⟩ : BufTy).Contents (Elt F)),
    reshape main_v1840 main_v1841 rfl shapeCasts_S128x491x1_S128x491,
    binary main_v1839 main_v1841 main_v1842 (addf : (⟨S128x491, .f32⟩ : BufTy).Contents (Elt F) → (⟨S128x491, .f32⟩ : BufTy).Contents (Elt F) → (⟨S128x491, .f32⟩ : BufTy).Contents (Elt F)),
    unary main_v1790 main_v1843 ((extractStridedSlice S128x491x1 ![0, 17, 17] · slices_S128x512x22_S128x491x1_0_17_17) : (⟨S128x512x22, .f32⟩ : BufTy).Contents (Elt F) → (⟨S128x491x1, .f32⟩ : BufTy).Contents (Elt F)),
    reshape main_v1843 main_v1844 rfl shapeCasts_S128x491x1_S128x491,
    binary main_v1842 main_v1844 main_v1845 (addf : (⟨S128x491, .f32⟩ : BufTy).Contents (Elt F) → (⟨S128x491, .f32⟩ : BufTy).Contents (Elt F) → (⟨S128x491, .f32⟩ : BufTy).Contents (Elt F)),
    unary main_v1790 main_v1846 ((extractStridedSlice S128x491x1 ![0, 18, 18] · slices_S128x512x22_S128x491x1_0_18_18) : (⟨S128x512x22, .f32⟩ : BufTy).Contents (Elt F) → (⟨S128x491x1, .f32⟩ : BufTy).Contents (Elt F)),
    reshape main_v1846 main_v1847 rfl shapeCasts_S128x491x1_S128x491,
    binary main_v1845 main_v1847 main_v1848 (addf : (⟨S128x491, .f32⟩ : BufTy).Contents (Elt F) → (⟨S128x491, .f32⟩ : BufTy).Contents (Elt F) → (⟨S128x491, .f32⟩ : BufTy).Contents (Elt F)),
    unary main_v1790 main_v1849 ((extractStridedSlice S128x491x1 ![0, 19, 19] · slices_S128x512x22_S128x491x1_0_19_19) : (⟨S128x512x22, .f32⟩ : BufTy).Contents (Elt F) → (⟨S128x491x1, .f32⟩ : BufTy).Contents (Elt F)),
    reshape main_v1849 main_v1850 rfl shapeCasts_S128x491x1_S128x491,
    binary main_v1848 main_v1850 main_v1851 (addf : (⟨S128x491, .f32⟩ : BufTy).Contents (Elt F) → (⟨S128x491, .f32⟩ : BufTy).Contents (Elt F) → (⟨S128x491, .f32⟩ : BufTy).Contents (Elt F)),
    unary main_v1790 main_v1852 ((extractStridedSlice S128x491x1 ![0, 20, 20] · slices_S128x512x22_S128x491x1_0_20_20) : (⟨S128x512x22, .f32⟩ : BufTy).Contents (Elt F) → (⟨S128x491x1, .f32⟩ : BufTy).Contents (Elt F)),
    reshape main_v1852 main_v1853 rfl shapeCasts_S128x491x1_S128x491,
    binary main_v1851 main_v1853 main_v1854 (addf : (⟨S128x491, .f32⟩ : BufTy).Contents (Elt F) → (⟨S128x491, .f32⟩ : BufTy).Contents (Elt F) → (⟨S128x491, .f32⟩ : BufTy).Contents (Elt F)),
    unary main_v1790 main_v1855 ((extractStridedSlice S128x491x1 ![0, 21, 21] · slices_S128x512x22_S128x491x1_0_21_21) : (⟨S128x512x22, .f32⟩ : BufTy).Contents (Elt F) → (⟨S128x491x1, .f32⟩ : BufTy).Contents (Elt F)),
    reshape main_v1855 main_v1856 rfl shapeCasts_S128x491x1_S128x491,
    binary main_v1854 main_v1856 main_v1857 (addf : (⟨S128x491, .f32⟩ : BufTy).Contents (Elt F) → (⟨S128x491, .f32⟩ : BufTy).Contents (Elt F) → (⟨S128x491, .f32⟩ : BufTy).Contents (Elt F)),
    unary main_arg3 main_v1858 ((extractStridedSlice S1 ![40] · slices_S64_S1_40) : (⟨S64, .f32⟩ : BufTy).Contents (Elt F) → (⟨S1, .f32⟩ : BufTy).Contents (Elt F)),
    reshape main_v1858 main_v1859 rfl shapeCasts_S1_S_,
    unary main_v1859 main_v1860 (broadcastInDim S128x491 ![] bcast_S_S128x491 : (⟨S_, .f32⟩ : BufTy).Contents (Elt F) → (⟨S128x491, .f32⟩ : BufTy).Contents (Elt F)),
    binary main_v1857 main_v1860 main_v1861 (addf : (⟨S128x491, .f32⟩ : BufTy).Contents (Elt F) → (⟨S128x491, .f32⟩ : BufTy).Contents (Elt F) → (⟨S128x491, .f32⟩ : BufTy).Contents (Elt F)),
    unary main_v1861 main_v1862 (Host.tanh : (⟨S128x491, .f32⟩ : BufTy).Contents (Elt F) → (⟨S128x491, .f32⟩ : BufTy).Contents (Elt F)),
    nullary main_cst_81 (constant S_ .f32 0xFF800000#32),
    binary main_v1862 main_cst_81 main_v1863 ((fun x v => Host.reduce FloatOps.maximumf x v reducesTo_S128x491_S128_d1 h_S_) : (⟨S128x491, .f32⟩ : BufTy).Contents (Elt F) → (⟨S_, .f32⟩ : BufTy).Contents (Elt F) → (⟨S128, .f32⟩ : BufTy).Contents (Elt F)) ]

/-- Segment 74: 32 operations. -/
def seg74 : List (HloOp τ sig (Elt F)) :=
  [ unary main_arg2 main_v1864 ((extractStridedSlice S1x22x300 ![41, 0, 0] · slices_S64x33x300_S1x22x300_41_0_0) : (⟨S64x33x300, .f32⟩ : BufTy).Contents (Elt F) → (⟨S1x22x300, .f32⟩ : BufTy).Contents (Elt F)),
    reshape main_v1864 main_v1865 rfl shapeCasts_S1x22x300_S22x300,
    binary main_v7 main_v1865 main_v1866 ((fun l r => Host.dotGeneral dot_S128x512x300_S22x300_S128x512x22_2_1_01_0_n_n none l r) : (⟨S128x512x300, .f32⟩ : BufTy).Contents (Elt F) → (⟨S22x300, .f32⟩ : BufTy).Contents (Elt F) → (⟨S128x512x22, .f32⟩ : BufTy).Contents (Elt F)),
    unary main_v1866 main_v1867 ((extractStridedSlice S128x491x1 ![0, 0, 0] · slices_S128x512x22_S128x491x1_0_0_0) : (⟨S128x512x22, .f32⟩ : BufTy).Contents (Elt F) → (⟨S128x491x1, .f32⟩ : BufTy).Contents (Elt F)),
    reshape main_v1867 main_v1868 rfl shapeCasts_S128x491x1_S128x491,
    nullary main_cst_82 (constant S_ .f32 0x00000000#32),
    unary main_cst_82 main_v1869 (broadcastInDim S128x491 ![] bcast_S_S128x491 : (⟨S_, .f32⟩ : BufTy).Contents (Elt F) → (⟨S128x491, .f32⟩ : BufTy).Contents (Elt F)),
    binary main_v1869 main_v1868 main_v1870 (addf : (⟨S128x491, .f32⟩ : BufTy).Contents (Elt F) → (⟨S128x491, .f32⟩ : BufTy).Contents (Elt F) → (⟨S128x491, .f32⟩ : BufTy).Contents (Elt F)),
    unary main_v1866 main_v1871 ((extractStridedSlice S128x491x1 ![0, 1, 1] · slices_S128x512x22_S128x491x1_0_1_1) : (⟨S128x512x22, .f32⟩ : BufTy).Contents (Elt F) → (⟨S128x491x1, .f32⟩ : BufTy).Contents (Elt F)),
    reshape main_v1871 main_v1872 rfl shapeCasts_S128x491x1_S128x491,
    binary main_v1870 main_v1872 main_v1873 (addf : (⟨S128x491, .f32⟩ : BufTy).Contents (Elt F) → (⟨S128x491, .f32⟩ : BufTy).Contents (Elt F) → (⟨S128x491, .f32⟩ : BufTy).Contents (Elt F)),
    unary main_v1866 main_v1874 ((extractStridedSlice S128x491x1 ![0, 2, 2] · slices_S128x512x22_S128x491x1_0_2_2) : (⟨S128x512x22, .f32⟩ : BufTy).Contents (Elt F) → (⟨S128x491x1, .f32⟩ : BufTy).Contents (Elt F)),
    reshape main_v1874 main_v1875 rfl shapeCasts_S128x491x1_S128x491,
    binary main_v1873 main_v1875 main_v1876 (addf : (⟨S128x491, .f32⟩ : BufTy).Contents (Elt F) → (⟨S128x491, .f32⟩ : BufTy).Contents (Elt F) → (⟨S128x491, .f32⟩ : BufTy).Contents (Elt F)),
    unary main_v1866 main_v1877 ((extractStridedSlice S128x491x1 ![0, 3, 3] · slices_S128x512x22_S128x491x1_0_3_3) : (⟨S128x512x22, .f32⟩ : BufTy).Contents (Elt F) → (⟨S128x491x1, .f32⟩ : BufTy).Contents (Elt F)),
    reshape main_v1877 main_v1878 rfl shapeCasts_S128x491x1_S128x491,
    binary main_v1876 main_v1878 main_v1879 (addf : (⟨S128x491, .f32⟩ : BufTy).Contents (Elt F) → (⟨S128x491, .f32⟩ : BufTy).Contents (Elt F) → (⟨S128x491, .f32⟩ : BufTy).Contents (Elt F)),
    unary main_v1866 main_v1880 ((extractStridedSlice S128x491x1 ![0, 4, 4] · slices_S128x512x22_S128x491x1_0_4_4) : (⟨S128x512x22, .f32⟩ : BufTy).Contents (Elt F) → (⟨S128x491x1, .f32⟩ : BufTy).Contents (Elt F)),
    reshape main_v1880 main_v1881 rfl shapeCasts_S128x491x1_S128x491,
    binary main_v1879 main_v1881 main_v1882 (addf : (⟨S128x491, .f32⟩ : BufTy).Contents (Elt F) → (⟨S128x491, .f32⟩ : BufTy).Contents (Elt F) → (⟨S128x491, .f32⟩ : BufTy).Contents (Elt F)),
    unary main_v1866 main_v1883 ((extractStridedSlice S128x491x1 ![0, 5, 5] · slices_S128x512x22_S128x491x1_0_5_5) : (⟨S128x512x22, .f32⟩ : BufTy).Contents (Elt F) → (⟨S128x491x1, .f32⟩ : BufTy).Contents (Elt F)),
    reshape main_v1883 main_v1884 rfl shapeCasts_S128x491x1_S128x491,
    binary main_v1882 main_v1884 main_v1885 (addf : (⟨S128x491, .f32⟩ : BufTy).Contents (Elt F) → (⟨S128x491, .f32⟩ : BufTy).Contents (Elt F) → (⟨S128x491, .f32⟩ : BufTy).Contents (Elt F)),
    unary main_v1866 main_v1886 ((extractStridedSlice S128x491x1 ![0, 6, 6] · slices_S128x512x22_S128x491x1_0_6_6) : (⟨S128x512x22, .f32⟩ : BufTy).Contents (Elt F) → (⟨S128x491x1, .f32⟩ : BufTy).Contents (Elt F)),
    reshape main_v1886 main_v1887 rfl shapeCasts_S128x491x1_S128x491,
    binary main_v1885 main_v1887 main_v1888 (addf : (⟨S128x491, .f32⟩ : BufTy).Contents (Elt F) → (⟨S128x491, .f32⟩ : BufTy).Contents (Elt F) → (⟨S128x491, .f32⟩ : BufTy).Contents (Elt F)),
    unary main_v1866 main_v1889 ((extractStridedSlice S128x491x1 ![0, 7, 7] · slices_S128x512x22_S128x491x1_0_7_7) : (⟨S128x512x22, .f32⟩ : BufTy).Contents (Elt F) → (⟨S128x491x1, .f32⟩ : BufTy).Contents (Elt F)),
    reshape main_v1889 main_v1890 rfl shapeCasts_S128x491x1_S128x491,
    binary main_v1888 main_v1890 main_v1891 (addf : (⟨S128x491, .f32⟩ : BufTy).Contents (Elt F) → (⟨S128x491, .f32⟩ : BufTy).Contents (Elt F) → (⟨S128x491, .f32⟩ : BufTy).Contents (Elt F)),
    unary main_v1866 main_v1892 ((extractStridedSlice S128x491x1 ![0, 8, 8] · slices_S128x512x22_S128x491x1_0_8_8) : (⟨S128x512x22, .f32⟩ : BufTy).Contents (Elt F) → (⟨S128x491x1, .f32⟩ : BufTy).Contents (Elt F)),
    reshape main_v1892 main_v1893 rfl shapeCasts_S128x491x1_S128x491,
    binary main_v1891 main_v1893 main_v1894 (addf : (⟨S128x491, .f32⟩ : BufTy).Contents (Elt F) → (⟨S128x491, .f32⟩ : BufTy).Contents (Elt F) → (⟨S128x491, .f32⟩ : BufTy).Contents (Elt F)) ]

/-- Segment 75: 46 operations. -/
def seg75 : List (HloOp τ sig (Elt F)) :=
  [ unary main_v1866 main_v1895 ((extractStridedSlice S128x491x1 ![0, 9, 9] · slices_S128x512x22_S128x491x1_0_9_9) : (⟨S128x512x22, .f32⟩ : BufTy).Contents (Elt F) → (⟨S128x491x1, .f32⟩ : BufTy).Contents (Elt F)),
    reshape main_v1895 main_v1896 rfl shapeCasts_S128x491x1_S128x491,
    binary main_v1894 main_v1896 main_v1897 (addf : (⟨S128x491, .f32⟩ : BufTy).Contents (Elt F) → (⟨S128x491, .f32⟩ : BufTy).Contents (Elt F) → (⟨S128x491, .f32⟩ : BufTy).Contents (Elt F)),
    unary main_v1866 main_v1898 ((extractStridedSlice S128x491x1 ![0, 10, 10] · slices_S128x512x22_S128x491x1_0_10_10) : (⟨S128x512x22, .f32⟩ : BufTy).Contents (Elt F) → (⟨S128x491x1, .f32⟩ : BufTy).Contents (Elt F)),
    reshape main_v1898 main_v1899 rfl shapeCasts_S128x491x1_S128x491,
    binary main_v1897 main_v1899 main_v1900 (addf : (⟨S128x491, .f32⟩ : BufTy).Contents (Elt F) → (⟨S128x491, .f32⟩ : BufTy).Contents (Elt F) → (⟨S128x491, .f32⟩ : BufTy).Contents (Elt F)),
    unary main_v1866 main_v1901 ((extractStridedSlice S128x491x1 ![0, 11, 11] · slices_S128x512x22_S128x491x1_0_11_11) : (⟨S128x512x22, .f32⟩ : BufTy).Contents (Elt F) → (⟨S128x491x1, .f32⟩ : BufTy).Contents (Elt F)),
    reshape main_v1901 main_v1902 rfl shapeCasts_S128x491x1_S128x491,
    binary main_v1900 main_v1902 main_v1903 (addf : (⟨S128x491, .f32⟩ : BufTy).Contents (Elt F) → (⟨S128x491, .f32⟩ : BufTy).Contents (Elt F) → (⟨S128x491, .f32⟩ : BufTy).Contents (Elt F)),
    unary main_v1866 main_v1904 ((extractStridedSlice S128x491x1 ![0, 12, 12] · slices_S128x512x22_S128x491x1_0_12_12) : (⟨S128x512x22, .f32⟩ : BufTy).Contents (Elt F) → (⟨S128x491x1, .f32⟩ : BufTy).Contents (Elt F)),
    reshape main_v1904 main_v1905 rfl shapeCasts_S128x491x1_S128x491,
    binary main_v1903 main_v1905 main_v1906 (addf : (⟨S128x491, .f32⟩ : BufTy).Contents (Elt F) → (⟨S128x491, .f32⟩ : BufTy).Contents (Elt F) → (⟨S128x491, .f32⟩ : BufTy).Contents (Elt F)),
    unary main_v1866 main_v1907 ((extractStridedSlice S128x491x1 ![0, 13, 13] · slices_S128x512x22_S128x491x1_0_13_13) : (⟨S128x512x22, .f32⟩ : BufTy).Contents (Elt F) → (⟨S128x491x1, .f32⟩ : BufTy).Contents (Elt F)),
    reshape main_v1907 main_v1908 rfl shapeCasts_S128x491x1_S128x491,
    binary main_v1906 main_v1908 main_v1909 (addf : (⟨S128x491, .f32⟩ : BufTy).Contents (Elt F) → (⟨S128x491, .f32⟩ : BufTy).Contents (Elt F) → (⟨S128x491, .f32⟩ : BufTy).Contents (Elt F)),
    unary main_v1866 main_v1910 ((extractStridedSlice S128x491x1 ![0, 14, 14] · slices_S128x512x22_S128x491x1_0_14_14) : (⟨S128x512x22, .f32⟩ : BufTy).Contents (Elt F) → (⟨S128x491x1, .f32⟩ : BufTy).Contents (Elt F)),
    reshape main_v1910 main_v1911 rfl shapeCasts_S128x491x1_S128x491,
    binary main_v1909 main_v1911 main_v1912 (addf : (⟨S128x491, .f32⟩ : BufTy).Contents (Elt F) → (⟨S128x491, .f32⟩ : BufTy).Contents (Elt F) → (⟨S128x491, .f32⟩ : BufTy).Contents (Elt F)),
    unary main_v1866 main_v1913 ((extractStridedSlice S128x491x1 ![0, 15, 15] · slices_S128x512x22_S128x491x1_0_15_15) : (⟨S128x512x22, .f32⟩ : BufTy).Contents (Elt F) → (⟨S128x491x1, .f32⟩ : BufTy).Contents (Elt F)),
    reshape main_v1913 main_v1914 rfl shapeCasts_S128x491x1_S128x491,
    binary main_v1912 main_v1914 main_v1915 (addf : (⟨S128x491, .f32⟩ : BufTy).Contents (Elt F) → (⟨S128x491, .f32⟩ : BufTy).Contents (Elt F) → (⟨S128x491, .f32⟩ : BufTy).Contents (Elt F)),
    unary main_v1866 main_v1916 ((extractStridedSlice S128x491x1 ![0, 16, 16] · slices_S128x512x22_S128x491x1_0_16_16) : (⟨S128x512x22, .f32⟩ : BufTy).Contents (Elt F) → (⟨S128x491x1, .f32⟩ : BufTy).Contents (Elt F)),
    reshape main_v1916 main_v1917 rfl shapeCasts_S128x491x1_S128x491,
    binary main_v1915 main_v1917 main_v1918 (addf : (⟨S128x491, .f32⟩ : BufTy).Contents (Elt F) → (⟨S128x491, .f32⟩ : BufTy).Contents (Elt F) → (⟨S128x491, .f32⟩ : BufTy).Contents (Elt F)),
    unary main_v1866 main_v1919 ((extractStridedSlice S128x491x1 ![0, 17, 17] · slices_S128x512x22_S128x491x1_0_17_17) : (⟨S128x512x22, .f32⟩ : BufTy).Contents (Elt F) → (⟨S128x491x1, .f32⟩ : BufTy).Contents (Elt F)),
    reshape main_v1919 main_v1920 rfl shapeCasts_S128x491x1_S128x491,
    binary main_v1918 main_v1920 main_v1921 (addf : (⟨S128x491, .f32⟩ : BufTy).Contents (Elt F) → (⟨S128x491, .f32⟩ : BufTy).Contents (Elt F) → (⟨S128x491, .f32⟩ : BufTy).Contents (Elt F)),
    unary main_v1866 main_v1922 ((extractStridedSlice S128x491x1 ![0, 18, 18] · slices_S128x512x22_S128x491x1_0_18_18) : (⟨S128x512x22, .f32⟩ : BufTy).Contents (Elt F) → (⟨S128x491x1, .f32⟩ : BufTy).Contents (Elt F)),
    reshape main_v1922 main_v1923 rfl shapeCasts_S128x491x1_S128x491,
    binary main_v1921 main_v1923 main_v1924 (addf : (⟨S128x491, .f32⟩ : BufTy).Contents (Elt F) → (⟨S128x491, .f32⟩ : BufTy).Contents (Elt F) → (⟨S128x491, .f32⟩ : BufTy).Contents (Elt F)),
    unary main_v1866 main_v1925 ((extractStridedSlice S128x491x1 ![0, 19, 19] · slices_S128x512x22_S128x491x1_0_19_19) : (⟨S128x512x22, .f32⟩ : BufTy).Contents (Elt F) → (⟨S128x491x1, .f32⟩ : BufTy).Contents (Elt F)),
    reshape main_v1925 main_v1926 rfl shapeCasts_S128x491x1_S128x491,
    binary main_v1924 main_v1926 main_v1927 (addf : (⟨S128x491, .f32⟩ : BufTy).Contents (Elt F) → (⟨S128x491, .f32⟩ : BufTy).Contents (Elt F) → (⟨S128x491, .f32⟩ : BufTy).Contents (Elt F)),
    unary main_v1866 main_v1928 ((extractStridedSlice S128x491x1 ![0, 20, 20] · slices_S128x512x22_S128x491x1_0_20_20) : (⟨S128x512x22, .f32⟩ : BufTy).Contents (Elt F) → (⟨S128x491x1, .f32⟩ : BufTy).Contents (Elt F)),
    reshape main_v1928 main_v1929 rfl shapeCasts_S128x491x1_S128x491,
    binary main_v1927 main_v1929 main_v1930 (addf : (⟨S128x491, .f32⟩ : BufTy).Contents (Elt F) → (⟨S128x491, .f32⟩ : BufTy).Contents (Elt F) → (⟨S128x491, .f32⟩ : BufTy).Contents (Elt F)),
    unary main_v1866 main_v1931 ((extractStridedSlice S128x491x1 ![0, 21, 21] · slices_S128x512x22_S128x491x1_0_21_21) : (⟨S128x512x22, .f32⟩ : BufTy).Contents (Elt F) → (⟨S128x491x1, .f32⟩ : BufTy).Contents (Elt F)),
    reshape main_v1931 main_v1932 rfl shapeCasts_S128x491x1_S128x491,
    binary main_v1930 main_v1932 main_v1933 (addf : (⟨S128x491, .f32⟩ : BufTy).Contents (Elt F) → (⟨S128x491, .f32⟩ : BufTy).Contents (Elt F) → (⟨S128x491, .f32⟩ : BufTy).Contents (Elt F)),
    unary main_arg3 main_v1934 ((extractStridedSlice S1 ![41] · slices_S64_S1_41) : (⟨S64, .f32⟩ : BufTy).Contents (Elt F) → (⟨S1, .f32⟩ : BufTy).Contents (Elt F)),
    reshape main_v1934 main_v1935 rfl shapeCasts_S1_S_,
    unary main_v1935 main_v1936 (broadcastInDim S128x491 ![] bcast_S_S128x491 : (⟨S_, .f32⟩ : BufTy).Contents (Elt F) → (⟨S128x491, .f32⟩ : BufTy).Contents (Elt F)),
    binary main_v1933 main_v1936 main_v1937 (addf : (⟨S128x491, .f32⟩ : BufTy).Contents (Elt F) → (⟨S128x491, .f32⟩ : BufTy).Contents (Elt F) → (⟨S128x491, .f32⟩ : BufTy).Contents (Elt F)),
    unary main_v1937 main_v1938 (Host.tanh : (⟨S128x491, .f32⟩ : BufTy).Contents (Elt F) → (⟨S128x491, .f32⟩ : BufTy).Contents (Elt F)),
    nullary main_cst_83 (constant S_ .f32 0xFF800000#32),
    binary main_v1938 main_cst_83 main_v1939 ((fun x v => Host.reduce FloatOps.maximumf x v reducesTo_S128x491_S128_d1 h_S_) : (⟨S128x491, .f32⟩ : BufTy).Contents (Elt F) → (⟨S_, .f32⟩ : BufTy).Contents (Elt F) → (⟨S128, .f32⟩ : BufTy).Contents (Elt F)) ]

/-- Segment 76: 14 operations. -/
def seg76 : List (HloOp τ sig (Elt F)) :=
  [ unary main_arg2 main_v1940 ((extractStridedSlice S1x23x300 ![42, 0, 0] · slices_S64x33x300_S1x23x300_42_0_0) : (⟨S64x33x300, .f32⟩ : BufTy).Contents (Elt F) → (⟨S1x23x300, .f32⟩ : BufTy).Contents (Elt F)),
    reshape main_v1940 main_v1941 rfl shapeCasts_S1x23x300_S23x300,
    binary main_v7 main_v1941 main_v1942 ((fun l r => Host.dotGeneral dot_S128x512x300_S23x300_S128x512x23_2_1_01_0_n_n none l r) : (⟨S128x512x300, .f32⟩ : BufTy).Contents (Elt F) → (⟨S23x300, .f32⟩ : BufTy).Contents (Elt F) → (⟨S128x512x23, .f32⟩ : BufTy).Contents (Elt F)),
    unary main_v1942 main_v1943 ((extractStridedSlice S128x490x1 ![0, 0, 0] · slices_S128x512x23_S128x490x1_0_0_0) : (⟨S128x512x23, .f32⟩ : BufTy).Contents (Elt F) → (⟨S128x490x1, .f32⟩ : BufTy).Contents (Elt F)),
    reshape main_v1943 main_v1944 rfl shapeCasts_S128x490x1_S128x490,
    nullary main_cst_84 (constant S_ .f32 0x00000000#32),
    unary main_cst_84 main_v1945 (broadcastInDim S128x490 ![] bcast_S_S128x490 : (⟨S_, .f32⟩ : BufTy).Contents (Elt F) → (⟨S128x490, .f32⟩ : BufTy).Contents (Elt F)),
    binary main_v1945 main_v1944 main_v1946 (addf : (⟨S128x490, .f32⟩ : BufTy).Contents (Elt F) → (⟨S128x490, .f32⟩ : BufTy).Contents (Elt F) → (⟨S128x490, .f32⟩ : BufTy).Contents (Elt F)),
    unary main_v1942 main_v1947 ((extractStridedSlice S128x490x1 ![0, 1, 1] · slices_S128x512x23_S128x490x1_0_1_1) : (⟨S128x512x23, .f32⟩ : BufTy).Contents (Elt F) → (⟨S128x490x1, .f32⟩ : BufTy).Contents (Elt F)),
    reshape main_v1947 main_v1948 rfl shapeCasts_S128x490x1_S128x490,
    binary main_v1946 main_v1948 main_v1949 (addf : (⟨S128x490, .f32⟩ : BufTy).Contents (Elt F) → (⟨S128x490, .f32⟩ : BufTy).Contents (Elt F) → (⟨S128x490, .f32⟩ : BufTy).Contents (Elt F)),
    unary main_v1942 main_v1950 ((extractStridedSlice S128x490x1 ![0, 2, 2] · slices_S128x512x23_S128x490x1_0_2_2) : (⟨S128x512x23, .f32⟩ : BufTy).Contents (Elt F) → (⟨S128x490x1, .f32⟩ : BufTy).Contents (Elt F)),
    reshape main_v1950 main_v1951 rfl shapeCasts_S128x490x1_S128x490,
    binary main_v1949 main_v1951 main_v1952 (addf : (⟨S128x490, .f32⟩ : BufTy).Contents (Elt F) → (⟨S128x490, .f32⟩ : BufTy).Contents (Elt F) → (⟨S128x490, .f32⟩ : BufTy).Contents (Elt F)) ]

/-- Segment 77: 60 operations. -/
def seg77 : List (HloOp τ sig (Elt F)) :=
  [ unary main_v1942 main_v1953 ((extractStridedSlice S128x490x1 ![0, 3, 3] · slices_S128x512x23_S128x490x1_0_3_3) : (⟨S128x512x23, .f32⟩ : BufTy).Contents (Elt F) → (⟨S128x490x1, .f32⟩ : BufTy).Contents (Elt F)),
    reshape main_v1953 main_v1954 rfl shapeCasts_S128x490x1_S128x490,
    binary main_v1952 main_v1954 main_v1955 (addf : (⟨S128x490, .f32⟩ : BufTy).Contents (Elt F) → (⟨S128x490, .f32⟩ : BufTy).Contents (Elt F) → (⟨S128x490, .f32⟩ : BufTy).Contents (Elt F)),
    unary main_v1942 main_v1956 ((extractStridedSlice S128x490x1 ![0, 4, 4] · slices_S128x512x23_S128x490x1_0_4_4) : (⟨S128x512x23, .f32⟩ : BufTy).Contents (Elt F) → (⟨S128x490x1, .f32⟩ : BufTy).Contents (Elt F)),
    reshape main_v1956 main_v1957 rfl shapeCasts_S128x490x1_S128x490,
    binary main_v1955 main_v1957 main_v1958 (addf : (⟨S128x490, .f32⟩ : BufTy).Contents (Elt F) → (⟨S128x490, .f32⟩ : BufTy).Contents (Elt F) → (⟨S128x490, .f32⟩ : BufTy).Contents (Elt F)),
    unary main_v1942 main_v1959 ((extractStridedSlice S128x490x1 ![0, 5, 5] · slices_S128x512x23_S128x490x1_0_5_5) : (⟨S128x512x23, .f32⟩ : BufTy).Contents (Elt F) → (⟨S128x490x1, .f32⟩ : BufTy).Contents (Elt F)),
    reshape main_v1959 main_v1960 rfl shapeCasts_S128x490x1_S128x490,
    binary main_v1958 main_v1960 main_v1961 (addf : (⟨S128x490, .f32⟩ : BufTy).Contents (Elt F) → (⟨S128x490, .f32⟩ : BufTy).Contents (Elt F) → (⟨S128x490, .f32⟩ : BufTy).Contents (Elt F)),
    unary main_v1942 main_v1962 ((extractStridedSlice S128x490x1 ![0, 6, 6] · slices_S128x512x23_S128x490x1_0_6_6) : (⟨S128x512x23, .f32⟩ : BufTy).Contents (Elt F) → (⟨S128x490x1, .f32⟩ : BufTy).Contents (Elt F)),
    reshape main_v1962 main_v1963 rfl shapeCasts_S128x490x1_S128x490,
    binary main_v1961 main_v1963 main_v1964 (addf : (⟨S128x490, .f32⟩ : BufTy).Contents (Elt F) → (⟨S128x490, .f32⟩ : BufTy).Contents (Elt F) → (⟨S128x490, .f32⟩ : BufTy).Contents (Elt F)),
    unary main_v1942 main_v1965 ((extractStridedSlice S128x490x1 ![0, 7, 7] · slices_S128x512x23_S128x490x1_0_7_7) : (⟨S128x512x23, .f32⟩ : BufTy).Contents (Elt F) → (⟨S128x490x1, .f32⟩ : BufTy).Contents (Elt F)),
    reshape main_v1965 main_v1966 rfl shapeCasts_S128x490x1_S128x490,
    binary main_v1964 main_v1966 main_v1967 (addf : (⟨S128x490, .f32⟩ : BufTy).Contents (Elt F) → (⟨S128x490, .f32⟩ : BufTy).Contents (Elt F) → (⟨S128x490, .f32⟩ : BufTy).Contents (Elt F)),
    unary main_v1942 main_v1968 ((extractStridedSlice S128x490x1 ![0, 8, 8] · slices_S128x512x23_S128x490x1_0_8_8) : (⟨S128x512x23, .f32⟩ : BufTy).Contents (Elt F) → (⟨S128x490x1, .f32⟩ : BufTy).Contents (Elt F)),
    reshape main_v1968 main_v1969 rfl shapeCasts_S128x490x1_S128x490,
    binary main_v1967 main_v1969 main_v1970 (addf : (⟨S128x490, .f32⟩ : BufTy).Contents (Elt F) → (⟨S128x490, .f32⟩ : BufTy).Contents (Elt F) → (⟨S128x490, .f32⟩ : BufTy).Contents (Elt F)),
    unary main_v1942 main_v1971 ((extractStridedSlice S128x490x1 ![0, 9, 9] · slices_S128x512x23_S128x490x1_0_9_9) : (⟨S128x512x23, .f32⟩ : BufTy).Contents (Elt F) → (⟨S128x490x1, .f32⟩ : BufTy).Contents (Elt F)),
    reshape main_v1971 main_v1972 rfl shapeCasts_S128x490x1_S128x490,
    binary main_v1970 main_v1972 main_v1973 (addf : (⟨S128x490, .f32⟩ : BufTy).Contents (Elt F) → (⟨S128x490, .f32⟩ : BufTy).Contents (Elt F) → (⟨S128x490, .f32⟩ : BufTy).Contents (Elt F)),
    unary main_v1942 main_v1974 ((extractStridedSlice S128x490x1 ![0, 10, 10] · slices_S128x512x23_S128x490x1_0_10_10) : (⟨S128x512x23, .f32⟩ : BufTy).Contents (Elt F) → (⟨S128x490x1, .f32⟩ : BufTy).Contents (Elt F)),
    reshape main_v1974 main_v1975 rfl shapeCasts_S128x490x1_S128x490,
    binary main_v1973 main_v1975 main_v1976 (addf : (⟨S128x490, .f32⟩ : BufTy).Contents (Elt F) → (⟨S128x490, .f32⟩ : BufTy).Contents (Elt F) → (⟨S128x490, .f32⟩ : BufTy).Contents (Elt F)),
    unary main_v1942 main_v1977 ((extractStridedSlice S128x490x1 ![0, 11, 11] · slices_S128x512x23_S128x490x1_0_11_11) : (⟨S128x512x23, .f32⟩ : BufTy).Contents (Elt F) → (⟨S128x490x1, .f32⟩ : BufTy).Contents (Elt F)),
    reshape main_v1977 main_v1978 rfl shapeCasts_S128x490x1_S128x490,
    binary main_v1976 main_v1978 main_v1979 (addf : (⟨S128x490, .f32⟩ : BufTy).Contents (Elt F) → (⟨S128x490, .f32⟩ : BufTy).Contents (Elt F) → (⟨S128x490, .f32⟩ : BufTy).Contents (Elt F)),
    unary main_v1942 main_v1980 ((extractStridedSlice S128x490x1 ![0, 12, 12] · slices_S128x512x23_S128x490x1_0_12_12) : (⟨S128x512x23, .f32⟩ : BufTy).Contents (Elt F) → (⟨S128x490x1, .f32⟩ : BufTy).Contents (Elt F)),
    reshape main_v1980 main_v1981 rfl shapeCasts_S128x490x1_S128x490,
    binary main_v1979 main_v1981 main_v1982 (addf : (⟨S128x490, .f32⟩ : BufTy).Contents (Elt F) → (⟨S128x490, .f32⟩ : BufTy).Contents (Elt F) → (⟨S128x490, .f32⟩ : BufTy).Contents (Elt F)),
    unary main_v1942 main_v1983 ((extractStridedSlice S128x490x1 ![0, 13, 13] · slices_S128x512x23_S128x490x1_0_13_13) : (⟨S128x512x23, .f32⟩ : BufTy).Contents (Elt F) → (⟨S128x490x1, .f32⟩ : BufTy).Contents (Elt F)),
    reshape main_v1983 main_v1984 rfl shapeCasts_S128x490x1_S128x490,
    binary main_v1982 main_v1984 main_v1985 (addf : (⟨S128x490, .f32⟩ : BufTy).Contents (Elt F) → (⟨S128x490, .f32⟩ : BufTy).Contents (Elt F) → (⟨S128x490, .f32⟩ : BufTy).Contents (Elt F)),
    unary main_v1942 main_v1986 ((extractStridedSlice S128x490x1 ![0, 14, 14] · slices_S128x512x23_S128x490x1_0_14_14) : (⟨S128x512x23, .f32⟩ : BufTy).Contents (Elt F) → (⟨S128x490x1, .f32⟩ : BufTy).Contents (Elt F)),
    reshape main_v1986 main_v1987 rfl shapeCasts_S128x490x1_S128x490,
    binary main_v1985 main_v1987 main_v1988 (addf : (⟨S128x490, .f32⟩ : BufTy).Contents (Elt F) → (⟨S128x490, .f32⟩ : BufTy).Contents (Elt F) → (⟨S128x490, .f32⟩ : BufTy).Contents (Elt F)),
    unary main_v1942 main_v1989 ((extractStridedSlice S128x490x1 ![0, 15, 15] · slices_S128x512x23_S128x490x1_0_15_15) : (⟨S128x512x23, .f32⟩ : BufTy).Contents (Elt F) → (⟨S128x490x1, .f32⟩ : BufTy).Contents (Elt F)),
    reshape main_v1989 main_v1990 rfl shapeCasts_S128x490x1_S128x490,
    binary main_v1988 main_v1990 main_v1991 (addf : (⟨S128x490, .f32⟩ : BufTy).Contents (Elt F) → (⟨S128x490, .f32⟩ : BufTy).Contents (Elt F) → (⟨S128x490, .f32⟩ : BufTy).Contents (Elt F)),
    unary main_v1942 main_v1992 ((extractStridedSlice S128x490x1 ![0, 16, 16] · slices_S128x512x23_S128x490x1_0_16_16) : (⟨S128x512x23, .f32⟩ : BufTy).Contents (Elt F) → (⟨S128x490x1, .f32⟩ : BufTy).Contents (Elt F)),
    reshape main_v1992 main_v1993 rfl shapeCasts_S128x490x1_S128x490,
    binary main_v1991 main_v1993 main_v1994 (addf : (⟨S128x490, .f32⟩ : BufTy).Contents (Elt F) → (⟨S128x490, .f32⟩ : BufTy).Contents (Elt F) → (⟨S128x490, .f32⟩ : BufTy).Contents (Elt F)),
    unary main_v1942 main_v1995 ((extractStridedSlice S128x490x1 ![0, 17, 17] · slices_S128x512x23_S128x490x1_0_17_17) : (⟨S128x512x23, .f32⟩ : BufTy).Contents (Elt F) → (⟨S128x490x1, .f32⟩ : BufTy).Contents (Elt F)),
    reshape main_v1995 main_v1996 rfl shapeCasts_S128x490x1_S128x490,
    binary main_v1994 main_v1996 main_v1997 (addf : (⟨S128x490, .f32⟩ : BufTy).Contents (Elt F) → (⟨S128x490, .f32⟩ : BufTy).Contents (Elt F) → (⟨S128x490, .f32⟩ : BufTy).Contents (Elt F)),
    unary main_v1942 main_v1998 ((extractStridedSlice S128x490x1 ![0, 18, 18] · slices_S128x512x23_S128x490x1_0_18_18) : (⟨S128x512x23, .f32⟩ : BufTy).Contents (Elt F) → (⟨S128x490x1, .f32⟩ : BufTy).Contents (Elt F)),
    reshape main_v1998 main_v1999 rfl shapeCasts_S128x490x1_S128x490,
    binary main_v1997 main_v1999 main_v2000 (addf : (⟨S128x490, .f32⟩ : BufTy).Contents (Elt F) → (⟨S128x490, .f32⟩ : BufTy).Contents (Elt F) → (⟨S128x490, .f32⟩ : BufTy).Contents (Elt F)),
    unary main_v1942 main_v2001 ((extractStridedSlice S128x490x1 ![0, 19, 19] · slices_S128x512x23_S128x490x1_0_19_19) : (⟨S128x512x23, .f32⟩ : BufTy).Contents (Elt F) → (⟨S128x490x1, .f32⟩ : BufTy).Contents (Elt F)),
    reshape main_v2001 main_v2002 rfl shapeCasts_S128x490x1_S128x490,
    binary main_v2000 main_v2002 main_v2003 (addf : (⟨S128x490, .f32⟩ : BufTy).Contents (Elt F) → (⟨S128x490, .f32⟩ : BufTy).Contents (Elt F) → (⟨S128x490, .f32⟩ : BufTy).Contents (Elt F)),
    unary main_v1942 main_v2004 ((extractStridedSlice S128x490x1 ![0, 20, 20] · slices_S128x512x23_S128x490x1_0_20_20) : (⟨S128x512x23, .f32⟩ : BufTy).Contents (Elt F) → (⟨S128x490x1, .f32⟩ : BufTy).Contents (Elt F)),
    reshape main_v2004 main_v2005 rfl shapeCasts_S128x490x1_S128x490,
    binary main_v2003 main_v2005 main_v2006 (addf : (⟨S128x490, .f32⟩ : BufTy).Contents (Elt F) → (⟨S128x490, .f32⟩ : BufTy).Contents (Elt F) → (⟨S128x490, .f32⟩ : BufTy).Contents (Elt F)),
    unary main_v1942 main_v2007 ((extractStridedSlice S128x490x1 ![0, 21, 21] · slices_S128x512x23_S128x490x1_0_21_21) : (⟨S128x512x23, .f32⟩ : BufTy).Contents (Elt F) → (⟨S128x490x1, .f32⟩ : BufTy).Contents (Elt F)),
    reshape main_v2007 main_v2008 rfl shapeCasts_S128x490x1_S128x490,
    binary main_v2006 main_v2008 main_v2009 (addf : (⟨S128x490, .f32⟩ : BufTy).Contents (Elt F) → (⟨S128x490, .f32⟩ : BufTy).Contents (Elt F) → (⟨S128x490, .f32⟩ : BufTy).Contents (Elt F)),
    unary main_v1942 main_v2010 ((extractStridedSlice S128x490x1 ![0, 22, 22] · slices_S128x512x23_S128x490x1_0_22_22) : (⟨S128x512x23, .f32⟩ : BufTy).Contents (Elt F) → (⟨S128x490x1, .f32⟩ : BufTy).Contents (Elt F)),
    reshape main_v2010 main_v2011 rfl shapeCasts_S128x490x1_S128x490,
    binary main_v2009 main_v2011 main_v2012 (addf : (⟨S128x490, .f32⟩ : BufTy).Contents (Elt F) → (⟨S128x490, .f32⟩ : BufTy).Contents (Elt F) → (⟨S128x490, .f32⟩ : BufTy).Contents (Elt F)) ]

/-- Segment 78: 7 operations. -/
def seg78 : List (HloOp τ sig (Elt F)) :=
  [ unary main_arg3 main_v2013 ((extractStridedSlice S1 ![42] · slices_S64_S1_42) : (⟨S64, .f32⟩ : BufTy).Contents (Elt F) → (⟨S1, .f32⟩ : BufTy).Contents (Elt F)),
    reshape main_v2013 main_v2014 rfl shapeCasts_S1_S_,
    unary main_v2014 main_v2015 (broadcastInDim S128x490 ![] bcast_S_S128x490 : (⟨S_, .f32⟩ : BufTy).Contents (Elt F) → (⟨S128x490, .f32⟩ : BufTy).Contents (Elt F)),
    binary main_v2012 main_v2015 main_v2016 (addf : (⟨S128x490, .f32⟩ : BufTy).Contents (Elt F) → (⟨S128x490, .f32⟩ : BufTy).Contents (Elt F) → (⟨S128x490, .f32⟩ : BufTy).Contents (Elt F)),
    unary main_v2016 main_v2017 (Host.tanh : (⟨S128x490, .f32⟩ : BufTy).Contents (Elt F) → (⟨S128x490, .f32⟩ : BufTy).Contents (Elt F)),
    nullary main_cst_85 (constant S_ .f32 0xFF800000#32),
    binary main_v2017 main_cst_85 main_v2018 ((fun x v => Host.reduce FloatOps.maximumf x v reducesTo_S128x490_S128_d1 h_S_) : (⟨S128x490, .f32⟩ : BufTy).Contents (Elt F) → (⟨S_, .f32⟩ : BufTy).Contents (Elt F) → (⟨S128, .f32⟩ : BufTy).Contents (Elt F)) ]

/-- Segment 79: 53 operations. -/
def seg79 : List (HloOp τ sig (Elt F)) :=
  [ unary main_arg2 main_v2019 ((extractStridedSlice S1x23x300 ![43, 0, 0] · slices_S64x33x300_S1x23x300_43_0_0) : (⟨S64x33x300, .f32⟩ : BufTy).Contents (Elt F) → (⟨S1x23x300, .f32⟩ : BufTy).Contents (Elt F)),
    reshape main_v2019 main_v2020 rfl shapeCasts_S1x23x300_S23x300,
    binary main_v7 main_v2020 main_v2021 ((fun l r => Host.dotGeneral dot_S128x512x300_S23x300_S128x512x23_2_1_01_0_n_n none l r) : (⟨S128x512x300, .f32⟩ : BufTy).Contents (Elt F) → (⟨S23x300, .f32⟩ : BufTy).Contents (Elt F) → (⟨S128x512x23, .f32⟩ : BufTy).Contents (Elt F)),
    unary main_v2021 main_v2022 ((extractStridedSlice S128x490x1 ![0, 0, 0] · slices_S128x512x23_S128x490x1_0_0_0) : (⟨S128x512x23, .f32⟩ : BufTy).Contents (Elt F) → (⟨S128x490x1, .f32⟩ : BufTy).Contents (Elt F)),
    reshape main_v2022 main_v2023 rfl shapeCasts_S128x490x1_S128x490,
    nullary main_cst_86 (constant S_ .f32 0x00000000#32),
    unary main_cst_86 main_v2024 (broadcastInDim S128x490 ![] bcast_S_S128x490 : (⟨S_, .f32⟩ : BufTy).Contents (Elt F) → (⟨S128x490, .f32⟩ : BufTy).Contents (Elt F)),
    binary main_v2024 main_v2023 main_v2025 (addf : (⟨S128x490, .f32⟩ : BufTy).Contents (Elt F) → (⟨S128x490, .f32⟩ : BufTy).Contents (Elt F) → (⟨S128x490, .f32⟩ : BufTy).Contents (Elt F)),
    unary main_v2021 main_v2026 ((extractStridedSlice S128x490x1 ![0, 1, 1] · slices_S128x512x23_S128x490x1_0_1_1) : (⟨S128x512x23, .f32⟩ : BufTy).Contents (Elt F) → (⟨S128x490x1, .f32⟩ : BufTy).Contents (Elt F)),
    reshape main_v2026 main_v2027 rfl shapeCasts_S128x490x1_S128x490,
    binary main_v2025 main_v2027 main_v2028 (addf : (⟨S128x490, .f32⟩ : BufTy).Contents (Elt F) → (⟨S128x490, .f32⟩ : BufTy).Contents (Elt F) → (⟨S128x490, .f32⟩ : BufTy).Contents (Elt F)),
    unary main_v2021 main_v2029 ((extractStridedSlice S128x490x1 ![0, 2, 2] · slices_S128x512x23_S128x490x1_0_2_2) : (⟨S128x512x23, .f32⟩ : BufTy).Contents (Elt F) → (⟨S128x490x1, .f32⟩ : BufTy).Contents (Elt F)),
    reshape main_v2029 main_v2030 rfl shapeCasts_S128x490x1_S128x490,
    binary main_v2028 main_v2030 main_v2031 (addf : (⟨S128x490, .f32⟩ : BufTy).Contents (Elt F) → (⟨S128x490, .f32⟩ : BufTy).Contents (Elt F) → (⟨S128x490, .f32⟩ : BufTy).Contents (Elt F)),
    unary main_v2021 main_v2032 ((extractStridedSlice S128x490x1 ![0, 3, 3] · slices_S128x512x23_S128x490x1_0_3_3) : (⟨S128x512x23, .f32⟩ : BufTy).Contents (Elt F) → (⟨S128x490x1, .f32⟩ : BufTy).Contents (Elt F)),
    reshape main_v2032 main_v2033 rfl shapeCasts_S128x490x1_S128x490,
    binary main_v2031 main_v2033 main_v2034 (addf : (⟨S128x490, .f32⟩ : BufTy).Contents (Elt F) → (⟨S128x490, .f32⟩ : BufTy).Contents (Elt F) → (⟨S128x490, .f32⟩ : BufTy).Contents (Elt F)),
    unary main_v2021 main_v2035 ((extractStridedSlice S128x490x1 ![0, 4, 4] · slices_S128x512x23_S128x490x1_0_4_4) : (⟨S128x512x23, .f32⟩ : BufTy).Contents (Elt F) → (⟨S128x490x1, .f32⟩ : BufTy).Contents (Elt F)),
    reshape main_v2035 main_v2036 rfl shapeCasts_S128x490x1_S128x490,
    binary main_v2034 main_v2036 main_v2037 (addf : (⟨S128x490, .f32⟩ : BufTy).Contents (Elt F) → (⟨S128x490, .f32⟩ : BufTy).Contents (Elt F) → (⟨S128x490, .f32⟩ : BufTy).Contents (Elt F)),
    unary main_v2021 main_v2038 ((extractStridedSlice S128x490x1 ![0, 5, 5] · slices_S128x512x23_S128x490x1_0_5_5) : (⟨S128x512x23, .f32⟩ : BufTy).Contents (Elt F) → (⟨S128x490x1, .f32⟩ : BufTy).Contents (Elt F)),
    reshape main_v2038 main_v2039 rfl shapeCasts_S128x490x1_S128x490,
    binary main_v2037 main_v2039 main_v2040 (addf : (⟨S128x490, .f32⟩ : BufTy).Contents (Elt F) → (⟨S128x490, .f32⟩ : BufTy).Contents (Elt F) → (⟨S128x490, .f32⟩ : BufTy).Contents (Elt F)),
    unary main_v2021 main_v2041 ((extractStridedSlice S128x490x1 ![0, 6, 6] · slices_S128x512x23_S128x490x1_0_6_6) : (⟨S128x512x23, .f32⟩ : BufTy).Contents (Elt F) → (⟨S128x490x1, .f32⟩ : BufTy).Contents (Elt F)),
    reshape main_v2041 main_v2042 rfl shapeCasts_S128x490x1_S128x490,
    binary main_v2040 main_v2042 main_v2043 (addf : (⟨S128x490, .f32⟩ : BufTy).Contents (Elt F) → (⟨S128x490, .f32⟩ : BufTy).Contents (Elt F) → (⟨S128x490, .f32⟩ : BufTy).Contents (Elt F)),
    unary main_v2021 main_v2044 ((extractStridedSlice S128x490x1 ![0, 7, 7] · slices_S128x512x23_S128x490x1_0_7_7) : (⟨S128x512x23, .f32⟩ : BufTy).Contents (Elt F) → (⟨S128x490x1, .f32⟩ : BufTy).Contents (Elt F)),
    reshape main_v2044 main_v2045 rfl shapeCasts_S128x490x1_S128x490,
    binary main_v2043 main_v2045 main_v2046 (addf : (⟨S128x490, .f32⟩ : BufTy).Contents (Elt F) → (⟨S128x490, .f32⟩ : BufTy).Contents (Elt F) → (⟨S128x490, .f32⟩ : BufTy).Contents (Elt F)),
    unary main_v2021 main_v2047 ((extractStridedSlice S128x490x1 ![0, 8, 8] · slices_S128x512x23_S128x490x1_0_8_8) : (⟨S128x512x23, .f32⟩ : BufTy).Contents (Elt F) → (⟨S128x490x1, .f32⟩ : BufTy).Contents (Elt F)),
    reshape main_v2047 main_v2048 rfl shapeCasts_S128x490x1_S128x490,
    binary main_v2046 main_v2048 main_v2049 (addf : (⟨S128x490, .f32⟩ : BufTy).Contents (Elt F) → (⟨S128x490, .f32⟩ : BufTy).Contents (Elt F) → (⟨S128x490, .f32⟩ : BufTy).Contents (Elt F)),
    unary main_v2021 main_v2050 ((extractStridedSlice S128x490x1 ![0, 9, 9] · slices_S128x512x23_S128x490x1_0_9_9) : (⟨S128x512x23, .f32⟩ : BufTy).Contents (Elt F) → (⟨S128x490x1, .f32⟩ : BufTy).Contents (Elt F)),
    reshape main_v2050 main_v2051 rfl shapeCasts_S128x490x1_S128x490,
    binary main_v2049 main_v2051 main_v2052 (addf : (⟨S128x490, .f32⟩ : BufTy).Contents (Elt F) → (⟨S128x490, .f32⟩ : BufTy).Contents (Elt F) → (⟨S128x490, .f32⟩ : BufTy).Contents (Elt F)),
    unary main_v2021 main_v2053 ((extractStridedSlice S128x490x1 ![0, 10, 10] · slices_S128x512x23_S128x490x1_0_10_10) : (⟨S128x512x23, .f32⟩ : BufTy).Contents (Elt F) → (⟨S128x490x1, .f32⟩ : BufTy).Contents (Elt F)),
    reshape main_v2053 main_v2054 rfl shapeCasts_S128x490x1_S128x490,
    binary main_v2052 main_v2054 main_v2055 (addf : (⟨S128x490, .f32⟩ : BufTy).Contents (Elt F) → (⟨S128x490, .f32⟩ : BufTy).Contents (Elt F) → (⟨S128x490, .f32⟩ : BufTy).Contents (Elt F)),
    unary main_v2021 main_v2056 ((extractStridedSlice S128x490x1 ![0, 11, 11] · slices_S128x512x23_S128x490x1_0_11_11) : (⟨S128x512x23, .f32⟩ : BufTy).Contents (Elt F) → (⟨S128x490x1, .f32⟩ : BufTy).Contents (Elt F)),
    reshape main_v2056 main_v2057 rfl shapeCasts_S128x490x1_S128x490,
    binary main_v2055 main_v2057 main_v2058 (addf : (⟨S128x490, .f32⟩ : BufTy).Contents (Elt F) → (⟨S128x490, .f32⟩ : BufTy).Contents (Elt F) → (⟨S128x490, .f32⟩ : BufTy).Contents (Elt F)),
    unary main_v2021 main_v2059 ((extractStridedSlice S128x490x1 ![0, 12, 12] · slices_S128x512x23_S128x490x1_0_12_12) : (⟨S128x512x23, .f32⟩ : BufTy).Contents (Elt F) → (⟨S128x490x1, .f32⟩ : BufTy).Contents (Elt F)),
    reshape main_v2059 main_v2060 rfl shapeCasts_S128x490x1_S128x490,
    binary main_v2058 main_v2060 main_v2061 (addf : (⟨S128x490, .f32⟩ : BufTy).Contents (Elt F) → (⟨S128x490, .f32⟩ : BufTy).Contents (Elt F) → (⟨S128x490, .f32⟩ : BufTy).Contents (Elt F)),
    unary main_v2021 main_v2062 ((extractStridedSlice S128x490x1 ![0, 13, 13] · slices_S128x512x23_S128x490x1_0_13_13) : (⟨S128x512x23, .f32⟩ : BufTy).Contents (Elt F) → (⟨S128x490x1, .f32⟩ : BufTy).Contents (Elt F)),
    reshape main_v2062 main_v2063 rfl shapeCasts_S128x490x1_S128x490,
    binary main_v2061 main_v2063 main_v2064 (addf : (⟨S128x490, .f32⟩ : BufTy).Contents (Elt F) → (⟨S128x490, .f32⟩ : BufTy).Contents (Elt F) → (⟨S128x490, .f32⟩ : BufTy).Contents (Elt F)),
    unary main_v2021 main_v2065 ((extractStridedSlice S128x490x1 ![0, 14, 14] · slices_S128x512x23_S128x490x1_0_14_14) : (⟨S128x512x23, .f32⟩ : BufTy).Contents (Elt F) → (⟨S128x490x1, .f32⟩ : BufTy).Contents (Elt F)),
    reshape main_v2065 main_v2066 rfl shapeCasts_S128x490x1_S128x490,
    binary main_v2064 main_v2066 main_v2067 (addf : (⟨S128x490, .f32⟩ : BufTy).Contents (Elt F) → (⟨S128x490, .f32⟩ : BufTy).Contents (Elt F) → (⟨S128x490, .f32⟩ : BufTy).Contents (Elt F)),
    unary main_v2021 main_v2068 ((extractStridedSlice S128x490x1 ![0, 15, 15] · slices_S128x512x23_S128x490x1_0_15_15) : (⟨S128x512x23, .f32⟩ : BufTy).Contents (Elt F) → (⟨S128x490x1, .f32⟩ : BufTy).Contents (Elt F)),
    reshape main_v2068 main_v2069 rfl shapeCasts_S128x490x1_S128x490,
    binary main_v2067 main_v2069 main_v2070 (addf : (⟨S128x490, .f32⟩ : BufTy).Contents (Elt F) → (⟨S128x490, .f32⟩ : BufTy).Contents (Elt F) → (⟨S128x490, .f32⟩ : BufTy).Contents (Elt F)) ]

/-- Segment 80: 28 operations. -/
def seg80 : List (HloOp τ sig (Elt F)) :=
  [ unary main_v2021 main_v2071 ((extractStridedSlice S128x490x1 ![0, 16, 16] · slices_S128x512x23_S128x490x1_0_16_16) : (⟨S128x512x23, .f32⟩ : BufTy).Contents (Elt F) → (⟨S128x490x1, .f32⟩ : BufTy).Contents (Elt F)),
    reshape main_v2071 main_v2072 rfl shapeCasts_S128x490x1_S128x490,
    binary main_v2070 main_v2072 main_v2073 (addf : (⟨S128x490, .f32⟩ : BufTy).Contents (Elt F) → (⟨S128x490, .f32⟩ : BufTy).Contents (Elt F) → (⟨S128x490, .f32⟩ : BufTy).Contents (Elt F)),
    unary main_v2021 main_v2074 ((extractStridedSlice S128x490x1 ![0, 17, 17] · slices_S128x512x23_S128x490x1_0_17_17) : (⟨S128x512x23, .f32⟩ : BufTy).Contents (Elt F) → (⟨S128x490x1, .f32⟩ : BufTy).Contents (Elt F)),
    reshape main_v2074 main_v2075 rfl shapeCasts_S128x490x1_S128x490,
    binary main_v2073 main_v2075 main_v2076 (addf : (⟨S128x490, .f32⟩ : BufTy).Contents (Elt F) → (⟨S128x490, .f32⟩ : BufTy).Contents (Elt F) → (⟨S128x490, .f32⟩ : BufTy).Contents (Elt F)),
    unary main_v2021 main_v2077 ((extractStridedSlice S128x490x1 ![0, 18, 18] · slices_S128x512x23_S128x490x1_0_18_18) : (⟨S128x512x23, .f32⟩ : BufTy).Contents (Elt F) → (⟨S128x490x1, .f32⟩ : BufTy).Contents (Elt F)),
    reshape main_v2077 main_v2078 rfl shapeCasts_S128x490x1_S128x490,
    binary main_v2076 main_v2078 main_v2079 (addf : (⟨S128x490, .f32⟩ : BufTy).Contents (Elt F) → (⟨S128x490, .f32⟩ : BufTy).Contents (Elt F) → (⟨S128x490, .f32⟩ : BufTy).Contents (Elt F)),
    unary main_v2021 main_v2080 ((extractStridedSlice S128x490x1 ![0, 19, 19] · slices_S128x512x23_S128x490x1_0_19_19) : (⟨S128x512x23, .f32⟩ : BufTy).Contents (Elt F) → (⟨S128x490x1, .f32⟩ : BufTy).Contents (Elt F)),
    reshape main_v2080 main_v2081 rfl shapeCasts_S128x490x1_S128x490,
    binary main_v2079 main_v2081 main_v2082 (addf : (⟨S128x490, .f32⟩ : BufTy).Contents (Elt F) → (⟨S128x490, .f32⟩ : BufTy).Contents (Elt F) → (⟨S128x490, .f32⟩ : BufTy).Contents (Elt F)),
    unary main_v2021 main_v2083 ((extractStridedSlice S128x490x1 ![0, 20, 20] · slices_S128x512x23_S128x490x1_0_20_20) : (⟨S128x512x23, .f32⟩ : BufTy).Contents (Elt F) → (⟨S128x490x1, .f32⟩ : BufTy).Contents (Elt F)),
    reshape main_v2083 main_v2084 rfl shapeCasts_S128x490x1_S128x490,
    binary main_v2082 main_v2084 main_v2085 (addf : (⟨S128x490, .f32⟩ : BufTy).Contents (Elt F) → (⟨S128x490, .f32⟩ : BufTy).Contents (Elt F) → (⟨S128x490, .f32⟩ : BufTy).Contents (Elt F)),
    unary main_v2021 main_v2086 ((extractStridedSlice S128x490x1 ![0, 21, 21] · slices_S128x512x23_S128x490x1_0_21_21) : (⟨S128x512x23, .f32⟩ : BufTy).Contents (Elt F) → (⟨S128x490x1, .f32⟩ : BufTy).Contents (Elt F)),
    reshape main_v2086 main_v2087 rfl shapeCasts_S128x490x1_S128x490,
    binary main_v2085 main_v2087 main_v2088 (addf : (⟨S128x490, .f32⟩ : BufTy).Contents (Elt F) → (⟨S128x490, .f32⟩ : BufTy).Contents (Elt F) → (⟨S128x490, .f32⟩ : BufTy).Contents (Elt F)),
    unary main_v2021 main_v2089 ((extractStridedSlice S128x490x1 ![0, 22, 22] · slices_S128x512x23_S128x490x1_0_22_22) : (⟨S128x512x23, .f32⟩ : BufTy).Contents (Elt F) → (⟨S128x490x1, .f32⟩ : BufTy).Contents (Elt F)),
    reshape main_v2089 main_v2090 rfl shapeCasts_S128x490x1_S128x490,
    binary main_v2088 main_v2090 main_v2091 (addf : (⟨S128x490, .f32⟩ : BufTy).Contents (Elt F) → (⟨S128x490, .f32⟩ : BufTy).Contents (Elt F) → (⟨S128x490, .f32⟩ : BufTy).Contents (Elt F)),
    unary main_arg3 main_v2092 ((extractStridedSlice S1 ![43] · slices_S64_S1_43) : (⟨S64, .f32⟩ : BufTy).Contents (Elt F) → (⟨S1, .f32⟩ : BufTy).Contents (Elt F)),
    reshape main_v2092 main_v2093 rfl shapeCasts_S1_S_,
    unary main_v2093 main_v2094 (broadcastInDim S128x490 ![] bcast_S_S128x490 : (⟨S_, .f32⟩ : BufTy).Contents (Elt F) → (⟨S128x490, .f32⟩ : BufTy).Contents (Elt F)),
    binary main_v2091 main_v2094 main_v2095 (addf : (⟨S128x490, .f32⟩ : BufTy).Contents (Elt F) → (⟨S128x490, .f32⟩ : BufTy).Contents (Elt F) → (⟨S128x490, .f32⟩ : BufTy).Contents (Elt F)),
    unary main_v2095 main_v2096 (Host.tanh : (⟨S128x490, .f32⟩ : BufTy).Contents (Elt F) → (⟨S128x490, .f32⟩ : BufTy).Contents (Elt F)),
    nullary main_cst_87 (constant S_ .f32 0xFF800000#32),
    binary main_v2096 main_cst_87 main_v2097 ((fun x v => Host.reduce FloatOps.maximumf x v reducesTo_S128x490_S128_d1 h_S_) : (⟨S128x490, .f32⟩ : BufTy).Contents (Elt F) → (⟨S_, .f32⟩ : BufTy).Contents (Elt F) → (⟨S128, .f32⟩ : BufTy).Contents (Elt F)) ]

/-- Segment 81: 32 operations. -/
def seg81 : List (HloOp τ sig (Elt F)) :=
  [ unary main_arg2 main_v2098 ((extractStridedSlice S1x24x300 ![44, 0, 0] · slices_S64x33x300_S1x24x300_44_0_0) : (⟨S64x33x300, .f32⟩ : BufTy).Contents (Elt F) → (⟨S1x24x300, .f32⟩ : BufTy).Contents (Elt F)),
    reshape main_v2098 main_v2099 rfl shapeCasts_S1x24x300_S24x300,
    binary main_v7 main_v2099 main_v2100 ((fun l r => Host.dotGeneral dot_S128x512x300_S24x300_S128x512x24_2_1_01_0_n_n none l r) : (⟨S128x512x300, .f32⟩ : BufTy).Contents (Elt F) → (⟨S24x300, .f32⟩ : BufTy).Contents (Elt F) → (⟨S128x512x24, .f32⟩ : BufTy).Contents (Elt F)),
    unary main_v2100 main_v2101 ((extractStridedSlice S128x489x1 ![0, 0, 0] · slices_S128x512x24_S128x489x1_0_0_0) : (⟨S128x512x24, .f32⟩ : BufTy).Contents (Elt F) → (⟨S128x489x1, .f32⟩ : BufTy).Contents (Elt F)),
    reshape main_v2101 main_v2102 rfl shapeCasts_S128x489x1_S128x489,
    nullary main_cst_88 (constant S_ .f32 0x00000000#32),
    unary main_cst_88 main_v2103 (broadcastInDim S128x489 ![] bcast_S_S128x489 : (⟨S_, .f32⟩ : BufTy).Contents (Elt F) → (⟨S128x489, .f32⟩ : BufTy).Contents (Elt F)),
    binary main_v2103 main_v2102 main_v2104 (addf : (⟨S128x489, .f32⟩ : BufTy).Contents (Elt F) → (⟨S128x489, .f32⟩ : BufTy).Contents (Elt F) → (⟨S128x489, .f32⟩ : BufTy).Contents (Elt F)),
    unary main_v2100 main_v2105 ((extractStridedSlice S128x489x1 ![0, 1, 1] · slices_S128x512x24_S128x489x1_0_1_1) : (⟨S128x512x24, .f32⟩ : BufTy).Contents (Elt F) → (⟨S128x489x1, .f32⟩ : BufTy).Contents (Elt F)),
    reshape main_v2105 main_v2106 rfl shapeCasts_S128x489x1_S128x489,
    binary main_v2104 main_v2106 main_v2107 (addf : (⟨S128x489, .f32⟩ : BufTy).Contents (Elt F) → (⟨S128x489, .f32⟩ : BufTy).Contents (Elt F) → (⟨S128x489, .f32⟩ : BufTy).Contents (Elt F)),
    unary main_v2100 main_v2108 ((extractStridedSlice S128x489x1 ![0, 2, 2] · slices_S128x512x24_S128x489x1_0_2_2) : (⟨S128x512x24, .f32⟩ : BufTy).Contents (Elt F) → (⟨S128x489x1, .f32⟩ : BufTy).Contents (Elt F)),
    reshape main_v2108 main_v2109 rfl shapeCasts_S128x489x1_S128x489,
    binary main_v2107 main_v2109 main_v2110 (addf : (⟨S128x489, .f32⟩ : BufTy).Contents (Elt F) → (⟨S128x489, .f32⟩ : BufTy).Contents (Elt F) → (⟨S128x489, .f32⟩ : BufTy).Contents (Elt F)),
    unary main_v2100 main_v2111 ((extractStridedSlice S128x489x1 ![0, 3, 3] · slices_S128x512x24_S128x489x1_0_3_3) : (⟨S128x512x24, .f32⟩ : BufTy).Contents (Elt F) → (⟨S128x489x1, .f32⟩ : BufTy).Contents (Elt F)),
    reshape main_v2111 main_v2112 rfl shapeCasts_S128x489x1_S128x489,
    binary main_v2110 main_v2112 main_v2113 (addf : (⟨S128x489, .f32⟩ : BufTy).Contents (Elt F) → (⟨S128x489, .f32⟩ : BufTy).Contents (Elt F) → (⟨S128x489, .f32⟩ : BufTy).Contents (Elt F)),
    unary main_v2100 main_v2114 ((extractStridedSlice S128x489x1 ![0, 4, 4] · slices_S128x512x24_S128x489x1_0_4_4) : (⟨S128x512x24, .f32⟩ : BufTy).Contents (Elt F) → (⟨S128x489x1, .f32⟩ : BufTy).Contents (Elt F)),
    reshape main_v2114 main_v2115 rfl shapeCasts_S128x489x1_S128x489,
    binary main_v2113 main_v2115 main_v2116 (addf : (⟨S128x489, .f32⟩ : BufTy).Contents (Elt F) → (⟨S128x489, .f32⟩ : BufTy).Contents (Elt F) → (⟨S128x489, .f32⟩ : BufTy).Contents (Elt F)),
    unary main_v2100 main_v2117 ((extractStridedSlice S128x489x1 ![0, 5, 5] · slices_S128x512x24_S128x489x1_0_5_5) : (⟨S128x512x24, .f32⟩ : BufTy).Contents (Elt F) → (⟨S128x489x1, .f32⟩ : BufTy).Contents (Elt F)),
    reshape main_v2117 main_v2118 rfl shapeCasts_S128x489x1_S128x489,
    binary main_v2116 main_v2118 main_v2119 (addf : (⟨S128x489, .f32⟩ : BufTy).Contents (Elt F) → (⟨S128x489, .f32⟩ : BufTy).Contents (Elt F) → (⟨S128x489, .f32⟩ : BufTy).Contents (Elt F)),
    unary main_v2100 main_v2120 ((extractStridedSlice S128x489x1 ![0, 6, 6] · slices_S128x512x24_S128x489x1_0_6_6) : (⟨S128x512x24, .f32⟩ : BufTy).Contents (Elt F) → (⟨S128x489x1, .f32⟩ : BufTy).Contents (Elt F)),
    reshape main_v2120 main_v2121 rfl shapeCasts_S128x489x1_S128x489,
    binary main_v2119 main_v2121 main_v2122 (addf : (⟨S128x489, .f32⟩ : BufTy).Contents (Elt F) → (⟨S128x489, .f32⟩ : BufTy).Contents (Elt F) → (⟨S128x489, .f32⟩ : BufTy).Contents (Elt F)),
    unary main_v2100 main_v2123 ((extractStridedSlice S128x489x1 ![0, 7, 7] · slices_S128x512x24_S128x489x1_0_7_7) : (⟨S128x512x24, .f32⟩ : BufTy).Contents (Elt F) → (⟨S128x489x1, .f32⟩ : BufTy).Contents (Elt F)),
    reshape main_v2123 main_v2124 rfl shapeCasts_S128x489x1_S128x489,
    binary main_v2122 main_v2124 main_v2125 (addf : (⟨S128x489, .f32⟩ : BufTy).Contents (Elt F) → (⟨S128x489, .f32⟩ : BufTy).Contents (Elt F) → (⟨S128x489, .f32⟩ : BufTy).Contents (Elt F)),
    unary main_v2100 main_v2126 ((extractStridedSlice S128x489x1 ![0, 8, 8] · slices_S128x512x24_S128x489x1_0_8_8) : (⟨S128x512x24, .f32⟩ : BufTy).Contents (Elt F) → (⟨S128x489x1, .f32⟩ : BufTy).Contents (Elt F)),
    reshape main_v2126 main_v2127 rfl shapeCasts_S128x489x1_S128x489,
    binary main_v2125 main_v2127 main_v2128 (addf : (⟨S128x489, .f32⟩ : BufTy).Contents (Elt F) → (⟨S128x489, .f32⟩ : BufTy).Contents (Elt F) → (⟨S128x489, .f32⟩ : BufTy).Contents (Elt F)) ]

/-- Segment 82: 52 operations. -/
def seg82 : List (HloOp τ sig (Elt F)) :=
  [ unary main_v2100 main_v2129 ((extractStridedSlice S128x489x1 ![0, 9, 9] · slices_S128x512x24_S128x489x1_0_9_9) : (⟨S128x512x24, .f32⟩ : BufTy).Contents (Elt F) → (⟨S128x489x1, .f32⟩ : BufTy).Contents (Elt F)),
    reshape main_v2129 main_v2130 rfl shapeCasts_S128x489x1_S128x489,
    binary main_v2128 main_v2130 main_v2131 (addf : (⟨S128x489, .f32⟩ : BufTy).Contents (Elt F) → (⟨S128x489, .f32⟩ : BufTy).Contents (Elt F) → (⟨S128x489, .f32⟩ : BufTy).Contents (Elt F)),
    unary main_v2100 main_v2132 ((extractStridedSlice S128x489x1 ![0, 10, 10] · slices_S128x512x24_S128x489x1_0_10_10) : (⟨S128x512x24, .f32⟩ : BufTy).Contents (Elt F) → (⟨S128x489x1, .f32⟩ : BufTy).Contents (Elt F)),
    reshape main_v2132 main_v2133 rfl shapeCasts_S128x489x1_S128x489,
    binary main_v2131 main_v2133 main_v2134 (addf : (⟨S128x489, .f32⟩ : BufTy).Contents (Elt F) → (⟨S128x489, .f32⟩ : BufTy).Contents (Elt F) → (⟨S128x489, .f32⟩ : BufTy).Contents (Elt F)),
    unary main_v2100 main_v2135 ((extractStridedSlice S128x489x1 ![0, 11, 11] · slices_S128x512x24_S128x489x1_0_11_11) : (⟨S128x512x24, .f32⟩ : BufTy).Contents (Elt F) → (⟨S128x489x1, .f32⟩ : BufTy).Contents (Elt F)),
    reshape main_v2135 main_v2136 rfl shapeCasts_S128x489x1_S128x489,
    binary main_v2134 main_v2136 main_v2137 (addf : (⟨S128x489, .f32⟩ : BufTy).Contents (Elt F) → (⟨S128x489, .f32⟩ : BufTy).Contents (Elt F) → (⟨S128x489, .f32⟩ : BufTy).Contents (Elt F)),
    unary main_v2100 main_v2138 ((extractStridedSlice S128x489x1 ![0, 12, 12] · slices_S128x512x24_S128x489x1_0_12_12) : (⟨S128x512x24, .f32⟩ : BufTy).Contents (Elt F) → (⟨S128x489x1, .f32⟩ : BufTy).Contents (Elt F)),
    reshape main_v2138 main_v2139 rfl shapeCasts_S128x489x1_S128x489,
    binary main_v2137 main_v2139 main_v2140 (addf : (⟨S128x489, .f32⟩ : BufTy).Contents (Elt F) → (⟨S128x489, .f32⟩ : BufTy).Contents (Elt F) → (⟨S128x489, .f32⟩ : BufTy).Contents (Elt F)),
    unary main_v2100 main_v2141 ((extractStridedSlice S128x489x1 ![0, 13, 13] · slices_S128x512x24_S128x489x1_0_13_13) : (⟨S128x512x24, .f32⟩ : BufTy).Contents (Elt F) → (⟨S128x489x1, .f32⟩ : BufTy).Contents (Elt F)),
    reshape main_v2141 main_v2142 rfl shapeCasts_S128x489x1_S128x489,
    binary main_v2140 main_v2142 main_v2143 (addf : (⟨S128x489, .f32⟩ : BufTy).Contents (Elt F) → (⟨S128x489, .f32⟩ : BufTy).Contents (Elt F) → (⟨S128x489, .f32⟩ : BufTy).Contents (Elt F)),
    unary main_v2100 main_v2144 ((extractStridedSlice S128x489x1 ![0, 14, 14] · slices_S128x512x24_S128x489x1_0_14_14) : (⟨S128x512x24, .f32⟩ : BufTy).Contents (Elt F) → (⟨S128x489x1, .f32⟩ : BufTy).Contents (Elt F)),
    reshape main_v2144 main_v2145 rfl shapeCasts_S128x489x1_S128x489,
    binary main_v2143 main_v2145 main_v2146 (addf : (⟨S128x489, .f32⟩ : BufTy).Contents (Elt F) → (⟨S128x489, .f32⟩ : BufTy).Contents (Elt F) → (⟨S128x489, .f32⟩ : BufTy).Contents (Elt F)),
    unary main_v2100 main_v2147 ((extractStridedSlice S128x489x1 ![0, 15, 15] · slices_S128x512x24_S128x489x1_0_15_15) : (⟨S128x512x24, .f32⟩ : BufTy).Contents (Elt F) → (⟨S128x489x1, .f32⟩ : BufTy).Contents (Elt F)),
    reshape main_v2147 main_v2148 rfl shapeCasts_S128x489x1_S128x489,
    binary main_v2146 main_v2148 main_v2149 (addf : (⟨S128x489, .f32⟩ : BufTy).Contents (Elt F) → (⟨S128x489, .f32⟩ : BufTy).Contents (Elt F) → (⟨S128x489, .f32⟩ : BufTy).Contents (Elt F)),
    unary main_v2100 main_v2150 ((extractStridedSlice S128x489x1 ![0, 16, 16] · slices_S128x512x24_S128x489x1_0_16_16) : (⟨S128x512x24, .f32⟩ : BufTy).Contents (Elt F) → (⟨S128x489x1, .f32⟩ : BufTy).Contents (Elt F)),
    reshape main_v2150 main_v2151 rfl shapeCasts_S128x489x1_S128x489,
    binary main_v2149 main_v2151 main_v2152 (addf : (⟨S128x489, .f32⟩ : BufTy).Contents (Elt F) → (⟨S128x489, .f32⟩ : BufTy).Contents (Elt F) → (⟨S128x489, .f32⟩ : BufTy).Contents (Elt F)),
    unary main_v2100 main_v2153 ((extractStridedSlice S128x489x1 ![0, 17, 17] · slices_S128x512x24_S128x489x1_0_17_17) : (⟨S128x512x24, .f32⟩ : BufTy).Contents (Elt F) → (⟨S128x489x1, .f32⟩ : BufTy).Contents (Elt F)),
    reshape main_v2153 main_v2154 rfl shapeCasts_S128x489x1_S128x489,
    binary main_v2152 main_v2154 main_v2155 (addf : (⟨S128x489, .f32⟩ : BufTy).Contents (Elt F) → (⟨S128x489, .f32⟩ : BufTy).Contents (Elt F) → (⟨S128x489, .f32⟩ : BufTy).Contents (Elt F)),
    unary main_v2100 main_v2156 ((extractStridedSlice S128x489x1 ![0, 18, 18] · slices_S128x512x24_S128x489x1_0_18_18) : (⟨S128x512x24, .f32⟩ : BufTy).Contents (Elt F) → (⟨S128x489x1, .f32⟩ : BufTy).Contents (Elt F)),
    reshape main_v2156 main_v2157 rfl shapeCasts_S128x489x1_S128x489,
    binary main_v2155 main_v2157 main_v2158 (addf : (⟨S128x489, .f32⟩ : BufTy).Contents (Elt F) → (⟨S128x489, .f32⟩ : BufTy).Contents (Elt F) → (⟨S128x489, .f32⟩ : BufTy).Contents (Elt F)),
    unary main_v2100 main_v2159 ((extractStridedSlice S128x489x1 ![0, 19, 19] · slices_S128x512x24_S128x489x1_0_19_19) : (⟨S128x512x24, .f32⟩ : BufTy).Contents (Elt F) → (⟨S128x489x1, .f32⟩ : BufTy).Contents (Elt F)),
    reshape main_v2159 main_v2160 rfl shapeCasts_S128x489x1_S128x489,
    binary main_v2158 main_v2160 main_v2161 (addf : (⟨S128x489, .f32⟩ : BufTy).Contents (Elt F) → (⟨S128x489, .f32⟩ : BufTy).Contents (Elt F) → (⟨S128x489, .f32⟩ : BufTy).Contents (Elt F)),
    unary main_v2100 main_v2162 ((extractStridedSlice S128x489x1 ![0, 20, 20] · slices_S128x512x24_S128x489x1_0_20_20) : (⟨S128x512x24, .f32⟩ : BufTy).Contents (Elt F) → (⟨S128x489x1, .f32⟩ : BufTy).Contents (Elt F)),
    reshape main_v2162 main_v2163 rfl shapeCasts_S128x489x1_S128x489,
    binary main_v2161 main_v2163 main_v2164 (addf : (⟨S128x489, .f32⟩ : BufTy).Contents (Elt F) → (⟨S128x489, .f32⟩ : BufTy).Contents (Elt F) → (⟨S128x489, .f32⟩ : BufTy).Contents (Elt F)),
    unary main_v2100 main_v2165 ((extractStridedSlice S128x489x1 ![0, 21, 21] · slices_S128x512x24_S128x489x1_0_21_21) : (⟨S128x512x24, .f32⟩ : BufTy).Contents (Elt F) → (⟨S128x489x1, .f32⟩ : BufTy).Contents (Elt F)),
    reshape main_v2165 main_v2166 rfl shapeCasts_S128x489x1_S128x489,
    binary main_v2164 main_v2166 main_v2167 (addf : (⟨S128x489, .f32⟩ : BufTy).Contents (Elt F) → (⟨S128x489, .f32⟩ : BufTy).Contents (Elt F) → (⟨S128x489, .f32⟩ : BufTy).Contents (Elt F)),
    unary main_v2100 main_v2168 ((extractStridedSlice S128x489x1 ![0, 22, 22] · slices_S128x512x24_S128x489x1_0_22_22) : (⟨S128x512x24, .f32⟩ : BufTy).Contents (Elt F) → (⟨S128x489x1, .f32⟩ : BufTy).Contents (Elt F)),
    reshape main_v2168 main_v2169 rfl shapeCasts_S128x489x1_S128x489,
    binary main_v2167 main_v2169 main_v2170 (addf : (⟨S128x489, .f32⟩ : BufTy).Contents (Elt F) → (⟨S128x489, .f32⟩ : BufTy).Contents (Elt F) → (⟨S128x489, .f32⟩ : BufTy).Contents (Elt F)),
    unary main_v2100 main_v2171 ((extractStridedSlice S128x489x1 ![0, 23, 23] · slices_S128x512x24_S128x489x1_0_23_23) : (⟨S128x512x24, .f32⟩ : BufTy).Contents (Elt F) → (⟨S128x489x1, .f32⟩ : BufTy).Contents (Elt F)),
    reshape main_v2171 main_v2172 rfl shapeCasts_S128x489x1_S128x489,
    binary main_v2170 main_v2172 main_v2173 (addf : (⟨S128x489, .f32⟩ : BufTy).Contents (Elt F) → (⟨S128x489, .f32⟩ : BufTy).Contents (Elt F) → (⟨S128x489, .f32⟩ : BufTy).Contents (Elt F)),
    unary main_arg3 main_v2174 ((extractStridedSlice S1 ![44] · slices_S64_S1_44) : (⟨S64, .f32⟩ : BufTy).Contents (Elt F) → (⟨S1, .f32⟩ : BufTy).Contents (Elt F)),
    reshape main_v2174 main_v2175 rfl shapeCasts_S1_S_,
    unary main_v2175 main_v2176 (broadcastInDim S128x489 ![] bcast_S_S128x489 : (⟨S_, .f32⟩ : BufTy).Contents (Elt F) → (⟨S128x489, .f32⟩ : BufTy).Contents (Elt F)),
    binary main_v2173 main_v2176 main_v2177 (addf : (⟨S128x489, .f32⟩ : BufTy).Contents (Elt F) → (⟨S128x489, .f32⟩ : BufTy).Contents (Elt F) → (⟨S128x489, .f32⟩ : BufTy).Contents (Elt F)),
    unary main_v2177 main_v2178 (Host.tanh : (⟨S128x489, .f32⟩ : BufTy).Contents (Elt F) → (⟨S128x489, .f32⟩ : BufTy).Contents (Elt F)),
    nullary main_cst_89 (constant S_ .f32 0xFF800000#32),
    binary main_v2178 main_cst_89 main_v2179 ((fun x v => Host.reduce FloatOps.maximumf x v reducesTo_S128x489_S128_d1 h_S_) : (⟨S128x489, .f32⟩ : BufTy).Contents (Elt F) → (⟨S_, .f32⟩ : BufTy).Contents (Elt F) → (⟨S128, .f32⟩ : BufTy).Contents (Elt F)) ]

/-- Segment 83: 8 operations. -/
def seg83 : List (HloOp τ sig (Elt F)) :=
  [ unary main_arg2 main_v2180 ((extractStridedSlice S1x24x300 ![45, 0, 0] · slices_S64x33x300_S1x24x300_45_0_0) : (⟨S64x33x300, .f32⟩ : BufTy).Contents (Elt F) → (⟨S1x24x300, .f32⟩ : BufTy).Contents (Elt F)),
    reshape main_v2180 main_v2181 rfl shapeCasts_S1x24x300_S24x300,
    binary main_v7 main_v2181 main_v2182 ((fun l r => Host.dotGeneral dot_S128x512x300_S24x300_S128x512x24_2_1_01_0_n_n none l r) : (⟨S128x512x300, .f32⟩ : BufTy).Contents (Elt F) → (⟨S24x300, .f32⟩ : BufTy).Contents (Elt F) → (⟨S128x512x24, .f32⟩ : BufTy).Contents (Elt F)),
    unary main_v2182 main_v2183 ((extractStridedSlice S128x489x1 ![0, 0, 0] · slices_S128x512x24_S128x489x1_0_0_0) : (⟨S128x512x24, .f32⟩ : BufTy).Contents (Elt F) → (⟨S128x489x1, .f32⟩ : BufTy).Contents (Elt F)),
    reshape main_v2183 main_v2184 rfl shapeCasts_S128x489x1_S128x489,
    nullary main_cst_90 (constant S_ .f32 0x00000000#32),
    unary main_cst_90 main_v2185 (broadcastInDim S128x489 ![] bcast_S_S128x489 : (⟨S_, .f32⟩ : BufTy).Contents (Elt F) → (⟨S128x489, .f32⟩ : BufTy).Contents (Elt F)),
    binary main_v2185 main_v2184 main_v2186 (addf : (⟨S128x489, .f32⟩ : BufTy).Contents (Elt F) → (⟨S128x489, .f32⟩ : BufTy).Contents (Elt F) → (⟨S128x489, .f32⟩ : BufTy).Contents (Elt F)) ]

/-- Segment 84: 60 operations. -/
def seg84 : List (HloOp τ sig (Elt F)) :=
  [ unary main_v2182 main_v2187 ((extractStridedSlice S128x489x1 ![0, 1, 1] · slices_S128x512x24_S128x489x1_0_1_1) : (⟨S128x512x24, .f32⟩ : BufTy).Contents (Elt F) → (⟨S128x489x1, .f32⟩ : BufTy).Contents (Elt F)),
    reshape main_v2187 main_v2188 rfl shapeCasts_S128x489x1_S128x489,
    binary main_v2186 main_v2188 main_v2189 (addf : (⟨S128x489, .f32⟩ : BufTy).Contents (Elt F) → (⟨S128x489, .f32⟩ : BufTy).Contents (Elt F) → (⟨S128x489, .f32⟩ : BufTy).Contents (Elt F)),
    unary main_v2182 main_v2190 ((extractStridedSlice S128x489x1 ![0, 2, 2] · slices_S128x512x24_S128x489x1_0_2_2) : (⟨S128x512x24, .f32⟩ : BufTy).Contents (Elt F) → (⟨S128x489x1, .f32⟩ : BufTy).Contents (Elt F)),
    reshape main_v2190 main_v2191 rfl shapeCasts_S128x489x1_S128x489,
    binary main_v2189 main_v2191 main_v2192 (addf : (⟨S128x489, .f32⟩ : BufTy).Contents (Elt F) → (⟨S128x489, .f32⟩ : BufTy).Contents (Elt F) → (⟨S128x489, .f32⟩ : BufTy).Contents (Elt F)),
    unary main_v2182 main_v2193 ((extractStridedSlice S128x489x1 ![0, 3, 3] · slices_S128x512x24_S128x489x1_0_3_3) : (⟨S128x512x24, .f32⟩ : BufTy).Contents (Elt F) → (⟨S128x489x1, .f32⟩ : BufTy).Contents (Elt F)),
    reshape main_v2193 main_v2194 rfl shapeCasts_S128x489x1_S128x489,
    binary main_v2192 main_v2194 main_v2195 (addf : (⟨S128x489, .f32⟩ : BufTy).Contents (Elt F) → (⟨S128x489, .f32⟩ : BufTy).Contents (Elt F) → (⟨S128x489, .f32⟩ : BufTy).Contents (Elt F)),
    unary main_v2182 main_v2196 ((extractStridedSlice S128x489x1 ![0, 4, 4] · slices_S128x512x24_S128x489x1_0_4_4) : (⟨S128x512x24, .f32⟩ : BufTy).Contents (Elt F) → (⟨S128x489x1, .f32⟩ : BufTy).Contents (Elt F)),
    reshape main_v2196 main_v2197 rfl shapeCasts_S128x489x1_S128x489,
    binary main_v2195 main_v2197 main_v2198 (addf : (⟨S128x489, .f32⟩ : BufTy).Contents (Elt F) → (⟨S128x489, .f32⟩ : BufTy).Contents (Elt F) → (⟨S128x489, .f32⟩ : BufTy).Contents (Elt F)),
    unary main_v2182 main_v2199 ((extractStridedSlice S128x489x1 ![0, 5, 5] · slices_S128x512x24_S128x489x1_0_5_5) : (⟨S128x512x24, .f32⟩ : BufTy).Contents (Elt F) → (⟨S128x489x1, .f32⟩ : BufTy).Contents (Elt F)),
    reshape main_v2199 main_v2200 rfl shapeCasts_S128x489x1_S128x489,
    binary main_v2198 main_v2200 main_v2201 (addf : (⟨S128x489, .f32⟩ : BufTy).Contents (Elt F) → (⟨S128x489, .f32⟩ : BufTy).Contents (Elt F) → (⟨S128x489, .f32⟩ : BufTy).Contents (Elt F)),
    unary main_v2182 main_v2202 ((extractStridedSlice S128x489x1 ![0, 6, 6] · slices_S128x512x24_S128x489x1_0_6_6) : (⟨S128x512x24, .f32⟩ : BufTy).Contents (Elt F) → (⟨S128x489x1, .f32⟩ : BufTy).Contents (Elt F)),
    reshape main_v2202 main_v2203 rfl shapeCasts_S128x489x1_S128x489,
    binary main_v2201 main_v2203 main_v2204 (addf : (⟨S128x489, .f32⟩ : BufTy).Contents (Elt F) → (⟨S128x489, .f32⟩ : BufTy).Contents (Elt F) → (⟨S128x489, .f32⟩ : BufTy).Contents (Elt F)),
    unary main_v2182 main_v2205 ((extractStridedSlice S128x489x1 ![0, 7, 7] · slices_S128x512x24_S128x489x1_0_7_7) : (⟨S128x512x24, .f32⟩ : BufTy).Contents (Elt F) → (⟨S128x489x1, .f32⟩ : BufTy).Contents (Elt F)),
    reshape main_v2205 main_v2206 rfl shapeCasts_S128x489x1_S128x489,
    binary main_v2204 main_v2206 main_v2207 (addf : (⟨S128x489, .f32⟩ : BufTy).Contents (Elt F) → (⟨S128x489, .f32⟩ : BufTy).Contents (Elt F) → (⟨S128x489, .f32⟩ : BufTy).Contents (Elt F)),
    unary main_v2182 main_v2208 ((extractStridedSlice S128x489x1 ![0, 8, 8] · slices_S128x512x24_S128x489x1_0_8_8) : (⟨S128x512x24, .f32⟩ : BufTy).Contents (Elt F) → (⟨S128x489x1, .f32⟩ : BufTy).Contents (Elt F)),
    reshape main_v2208 main_v2209 rfl shapeCasts_S128x489x1_S128x489,
    binary main_v2207 main_v2209 main_v2210 (addf : (⟨S128x489, .f32⟩ : BufTy).Contents (Elt F) → (⟨S128x489, .f32⟩ : BufTy).Contents (Elt F) → (⟨S128x489, .f32⟩ : BufTy).Contents (Elt F)),
    unary main_v2182 main_v2211 ((extractStridedSlice S128x489x1 ![0, 9, 9] · slices_S128x512x24_S128x489x1_0_9_9) : (⟨S128x512x24, .f32⟩ : BufTy).Contents (Elt F) → (⟨S128x489x1, .f32⟩ : BufTy).Contents (Elt F)),
    reshape main_v2211 main_v2212 rfl shapeCasts_S128x489x1_S128x489,
    binary main_v2210 main_v2212 main_v2213 (addf : (⟨S128x489, .f32⟩ : BufTy).Contents (Elt F) → (⟨S128x489, .f32⟩ : BufTy).Contents (Elt F) → (⟨S128x489, .f32⟩ : BufTy).Contents (Elt F)),
    unary main_v2182 main_v2214 ((extractStridedSlice S128x489x1 ![0, 10, 10] · slices_S128x512x24_S128x489x1_0_10_10) : (⟨S128x512x24, .f32⟩ : BufTy).Contents (Elt F) → (⟨S128x489x1, .f32⟩ : BufTy).Contents (Elt F)),
    reshape main_v2214 main_v2215 rfl shapeCasts_S128x489x1_S128x489,
    binary main_v2213 main_v2215 main_v2216 (addf : (⟨S128x489, .f32⟩ : BufTy).Contents (Elt F) → (⟨S128x489, .f32⟩ : BufTy).Contents (Elt F) → (⟨S128x489, .f32⟩ : BufTy).Contents (Elt F)),
    unary main_v2182 main_v2217 ((extractStridedSlice S128x489x1 ![0, 11, 11] · slices_S128x512x24_S128x489x1_0_11_11) : (⟨S128x512x24, .f32⟩ : BufTy).Contents (Elt F) → (⟨S128x489x1, .f32⟩ : BufTy).Contents (Elt F)),
    reshape main_v2217 main_v2218 rfl shapeCasts_S128x489x1_S128x489,
    binary main_v2216 main_v2218 main_v2219 (addf : (⟨S128x489, .f32⟩ : BufTy).Contents (Elt F) → (⟨S128x489, .f32⟩ : BufTy).Contents (Elt F) → (⟨S128x489, .f32⟩ : BufTy).Contents (Elt F)),
    unary main_v2182 main_v2220 ((extractStridedSlice S128x489x1 ![0, 12, 12] · slices_S128x512x24_S128x489x1_0_12_12) : (⟨S128x512x24, .f32⟩ : BufTy).Contents (Elt F) → (⟨S128x489x1, .f32⟩ : BufTy).Contents (Elt F)),
    reshape main_v2220 main_v2221 rfl shapeCasts_S128x489x1_S128x489,
    binary main_v2219 main_v2221 main_v2222 (addf : (⟨S128x489, .f32⟩ : BufTy).Contents (Elt F) → (⟨S128x489, .f32⟩ : BufTy).Contents (Elt F) → (⟨S128x489, .f32⟩ : BufTy).Contents (Elt F)),
    unary main_v2182 main_v2223 ((extractStridedSlice S128x489x1 ![0, 13, 13] · slices_S128x512x24_S128x489x1_0_13_13) : (⟨S128x512x24, .f32⟩ : BufTy).Contents (Elt F) → (⟨S128x489x1, .f32⟩ : BufTy).Contents (Elt F)),
    reshape main_v2223 main_v2224 rfl shapeCasts_S128x489x1_S128x489,
    binary main_v2222 main_v2224 main_v2225 (addf : (⟨S128x489, .f32⟩ : BufTy).Contents (Elt F) → (⟨S128x489, .f32⟩ : BufTy).Contents (Elt F) → (⟨S128x489, .f32⟩ : BufTy).Contents (Elt F)),
    unary main_v2182 main_v2226 ((extractStridedSlice S128x489x1 ![0, 14, 14] · slices_S128x512x24_S128x489x1_0_14_14) : (⟨S128x512x24, .f32⟩ : BufTy).Contents (Elt F) → (⟨S128x489x1, .f32⟩ : BufTy).Contents (Elt F)),
    reshape main_v2226 main_v2227 rfl shapeCasts_S128x489x1_S128x489,
    binary main_v2225 main_v2227 main_v2228 (addf : (⟨S128x489, .f32⟩ : BufTy).Contents (Elt F) → (⟨S128x489, .f32⟩ : BufTy).Contents (Elt F) → (⟨S128x489, .f32⟩ : BufTy).Contents (Elt F)),
    unary main_v2182 main_v2229 ((extractStridedSlice S128x489x1 ![0, 15, 15] · slices_S128x512x24_S128x489x1_0_15_15) : (⟨S128x512x24, .f32⟩ : BufTy).Contents (Elt F) → (⟨S128x489x1, .f32⟩ : BufTy).Contents (Elt F)),
    reshape main_v2229 main_v2230 rfl shapeCasts_S128x489x1_S128x489,
    binary main_v2228 main_v2230 main_v2231 (addf : (⟨S128x489, .f32⟩ : BufTy).Contents (Elt F) → (⟨S128x489, .f32⟩ : BufTy).Contents (Elt F) → (⟨S128x489, .f32⟩ : BufTy).Contents (Elt F)),
    unary main_v2182 main_v2232 ((extractStridedSlice S128x489x1 ![0, 16, 16] · slices_S128x512x24_S128x489x1_0_16_16) : (⟨S128x512x24, .f32⟩ : BufTy).Contents (Elt F) → (⟨S128x489x1, .f32⟩ : BufTy).Contents (Elt F)),
    reshape main_v2232 main_v2233 rfl shapeCasts_S128x489x1_S128x489,
    binary main_v2231 main_v2233 main_v2234 (addf : (⟨S128x489, .f32⟩ : BufTy).Contents (Elt F) → (⟨S128x489, .f32⟩ : BufTy).Contents (Elt F) → (⟨S128x489, .f32⟩ : BufTy).Contents (Elt F)),
    unary main_v2182 main_v2235 ((extractStridedSlice S128x489x1 ![0, 17, 17] · slices_S128x512x24_S128x489x1_0_17_17) : (⟨S128x512x24, .f32⟩ : BufTy).Contents (Elt F) → (⟨S128x489x1, .f32⟩ : BufTy).Contents (Elt F)),
    reshape main_v2235 main_v2236 rfl shapeCasts_S128x489x1_S128x489,
    binary main_v2234 main_v2236 main_v2237 (addf : (⟨S128x489, .f32⟩ : BufTy).Contents (Elt F) → (⟨S128x489, .f32⟩ : BufTy).Contents (Elt F) → (⟨S128x489, .f32⟩ : BufTy).Contents (Elt F)),
    unary main_v2182 main_v2238 ((extractStridedSlice S128x489x1 ![0, 18, 18] · slices_S128x512x24_S128x489x1_0_18_18) : (⟨S128x512x24, .f32⟩ : BufTy).Contents (Elt F) → (⟨S128x489x1, .f32⟩ : BufTy).Contents (Elt F)),
    reshape main_v2238 main_v2239 rfl shapeCasts_S128x489x1_S128x489,
    binary main_v2237 main_v2239 main_v2240 (addf : (⟨S128x489, .f32⟩ : BufTy).Contents (Elt F) → (⟨S128x489, .f32⟩ : BufTy).Contents (Elt F) → (⟨S128x489, .f32⟩ : BufTy).Contents (Elt F)),
    unary main_v2182 main_v2241 ((extractStridedSlice S128x489x1 ![0, 19, 19] · slices_S128x512x24_S128x489x1_0_19_19) : (⟨S128x512x24, .f32⟩ : BufTy).Contents (Elt F) → (⟨S128x489x1, .f32⟩ : BufTy).Contents (Elt F)),
    reshape main_v2241 main_v2242 rfl shapeCasts_S128x489x1_S128x489,
    binary main_v2240 main_v2242 main_v2243 (addf : (⟨S128x489, .f32⟩ : BufTy).Contents (Elt F) → (⟨S128x489, .f32⟩ : BufTy).Contents (Elt F) → (⟨S128x489, .f32⟩ : BufTy).Contents (Elt F)),
    unary main_v2182 main_v2244 ((extractStridedSlice S128x489x1 ![0, 20, 20] · slices_S128x512x24_S128x489x1_0_20_20) : (⟨S128x512x24, .f32⟩ : BufTy).Contents (Elt F) → (⟨S128x489x1, .f32⟩ : BufTy).Contents (Elt F)),
    reshape main_v2244 main_v2245 rfl shapeCasts_S128x489x1_S128x489,
    binary main_v2243 main_v2245 main_v2246 (addf : (⟨S128x489, .f32⟩ : BufTy).Contents (Elt F) → (⟨S128x489, .f32⟩ : BufTy).Contents (Elt F) → (⟨S128x489, .f32⟩ : BufTy).Contents (Elt F)) ]

/-- Segment 85: 16 operations. -/
def seg85 : List (HloOp τ sig (Elt F)) :=
  [ unary main_v2182 main_v2247 ((extractStridedSlice S128x489x1 ![0, 21, 21] · slices_S128x512x24_S128x489x1_0_21_21) : (⟨S128x512x24, .f32⟩ : BufTy).Contents (Elt F) → (⟨S128x489x1, .f32⟩ : BufTy).Contents (Elt F)),
    reshape main_v2247 main_v2248 rfl shapeCasts_S128x489x1_S128x489,
    binary main_v2246 main_v2248 main_v2249 (addf : (⟨S128x489, .f32⟩ : BufTy).Contents (Elt F) → (⟨S128x489, .f32⟩ : BufTy).Contents (Elt F) → (⟨S128x489, .f32⟩ : BufTy).Contents (Elt F)),
    unary main_v2182 main_v2250 ((extractStridedSlice S128x489x1 ![0, 22, 22] · slices_S128x512x24_S128x489x1_0_22_22) : (⟨S128x512x24, .f32⟩ : BufTy).Contents (Elt F) → (⟨S128x489x1, .f32⟩ : BufTy).Contents (Elt F)),
    reshape main_v2250 main_v2251 rfl shapeCasts_S128x489x1_S128x489,
    binary main_v2249 main_v2251 main_v2252 (addf : (⟨S128x489, .f32⟩ : BufTy).Contents (Elt F) → (⟨S128x489, .f32⟩ : BufTy).Contents (Elt F) → (⟨S128x489, .f32⟩ : BufTy).Contents (Elt F)),
    unary main_v2182 main_v2253 ((extractStridedSlice S128x489x1 ![0, 23, 23] · slices_S128x512x24_S128x489x1_0_23_23) : (⟨S128x512x24, .f32⟩ : BufTy).Contents (Elt F) → (⟨S128x489x1, .f32⟩ : BufTy).Contents (Elt F)),
    reshape main_v2253 main_v2254 rfl shapeCasts_S128x489x1_S128x489,
    binary main_v2252 main_v2254 main_v2255 (addf : (⟨S128x489, .f32⟩ : BufTy).Contents (Elt F) → (⟨S128x489, .f32⟩ : BufTy).Contents (Elt F) → (⟨S128x489, .f32⟩ : BufTy).Contents (Elt F)),
    unary main_arg3 main_v2256 ((extractStridedSlice S1 ![45] · slices_S64_S1_45) : (⟨S64, .f32⟩ : BufTy).Contents (Elt F) → (⟨S1, .f32⟩ : BufTy).Contents (Elt F)),
    reshape main_v2256 main_v2257 rfl shapeCasts_S1_S_,
    unary main_v2257 main_v2258 (broadcastInDim S128x489 ![] bcast_S_S128x489 : (⟨S_, .f32⟩ : BufTy).Contents (Elt F) → (⟨S128x489, .f32⟩ : BufTy).Contents (Elt F)),
    binary main_v2255 main_v2258 main_v2259 (addf : (⟨S128x489, .f32⟩ : BufTy).Contents (Elt F) → (⟨S128x489, .f32⟩ : BufTy).Contents (Elt F) → (⟨S128x489, .f32⟩ : BufTy).Contents (Elt F)),
    unary main_v2259 main_v2260 (Host.tanh : (⟨S128x489, .f32⟩ : BufTy).Contents (Elt F) → (⟨S128x489, .f32⟩ : BufTy).Contents (Elt F)),
    nullary main_cst_91 (constant S_ .f32 0xFF800000#32),
    binary main_v2260 main_cst_91 main_v2261 ((fun x v => Host.reduce FloatOps.maximumf x v reducesTo_S128x489_S128_d1 h_S_) : (⟨S128x489, .f32⟩ : BufTy).Contents (Elt F) → (⟨S_, .f32⟩ : BufTy).Contents (Elt F) → (⟨S128, .f32⟩ : BufTy).Contents (Elt F)) ]

/-- Segment 86: 44 operations. -/
def seg86 : List (HloOp τ sig (Elt F)) :=
  [ unary main_arg2 main_v2262 ((extractStridedSlice S1x25x300 ![46, 0, 0] · slices_S64x33x300_S1x25x300_46_0_0) : (⟨S64x33x300, .f32⟩ : BufTy).Contents (Elt F) → (⟨S1x25x300, .f32⟩ : BufTy).Contents (Elt F)),
    reshape main_v2262 main_v2263 rfl shapeCasts_S1x25x300_S25x300,
    binary main_v7 main_v2263 main_v2264 ((fun l r => Host.dotGeneral dot_S128x512x300_S25x300_S128x512x25_2_1_01_0_n_n none l r) : (⟨S128x512x300, .f32⟩ : BufTy).Contents (Elt F) → (⟨S25x300, .f32⟩ : BufTy).Contents (Elt F) → (⟨S128x512x25, .f32⟩ : BufTy).Contents (Elt F)),
    unary main_v2264 main_v2265 ((extractStridedSlice S128x488x1 ![0, 0, 0] · slices_S128x512x25_S128x488x1_0_0_0) : (⟨S128x512x25, .f32⟩ : BufTy).Contents (Elt F) → (⟨S128x488x1, .f32⟩ : BufTy).Contents (Elt F)),
    reshape main_v2265 main_v2266 rfl shapeCasts_S128x488x1_S128x488,
    nullary main_cst_92 (constant S_ .f32 0x00000000#32),
    unary main_cst_92 main_v2267 (broadcastInDim S128x488 ![] bcast_S_S128x488 : (⟨S_, .f32⟩ : BufTy).Contents (Elt F) → (⟨S128x488, .f32⟩ : BufTy).Contents (Elt F)),
    binary main_v2267 main_v2266 main_v2268 (addf : (⟨S128x488, .f32⟩ : BufTy).Contents (Elt F) → (⟨S128x488, .f32⟩ : BufTy).Contents (Elt F) → (⟨S128x488, .f32⟩ : BufTy).Contents (Elt F)),
    unary main_v2264 main_v2269 ((extractStridedSlice S128x488x1 ![0, 1, 1] · slices_S128x512x25_S128x488x1_0_1_1) : (⟨S128x512x25, .f32⟩ : BufTy).Contents (Elt F) → (⟨S128x488x1, .f32⟩ : BufTy).Contents (Elt F)),
    reshape main_v2269 main_v2270 rfl shapeCasts_S128x488x1_S128x488,
    binary main_v2268 main_v2270 main_v2271 (addf : (⟨S128x488, .f32⟩ : BufTy).Contents (Elt F) → (⟨S128x488, .f32⟩ : BufTy).Contents (Elt F) → (⟨S128x488, .f32⟩ : BufTy).Contents (Elt F)),
    unary main_v2264 main_v2272 ((extractStridedSlice S128x488x1 ![0, 2, 2] · slices_S128x512x25_S128x488x1_0_2_2) : (⟨S128x512x25, .f32⟩ : BufTy).Contents (Elt F) → (⟨S128x488x1, .f32⟩ : BufTy).Contents (Elt F)),
    reshape main_v2272 main_v2273 rfl shapeCasts_S128x488x1_S128x488,
    binary main_v2271 main_v2273 main_v2274 (addf : (⟨S128x488, .f32⟩ : BufTy).Contents (Elt F) → (⟨S128x488, .f32⟩ : BufTy).Contents (Elt F) → (⟨S128x488, .f32⟩ : BufTy).Contents (Elt F)),
    unary main_v2264 main_v2275 ((extractStridedSlice S128x488x1 ![0, 3, 3] · slices_S128x512x25_S128x488x1_0_3_3) : (⟨S128x512x25, .f32⟩ : BufTy).Contents (Elt F) → (⟨S128x488x1, .f32⟩ : BufTy).Contents (Elt F)),
    reshape main_v2275 main_v2276 rfl shapeCasts_S128x488x1_S128x488,
    binary main_v2274 main_v2276 main_v2277 (addf : (⟨S128x488, .f32⟩ : BufTy).Contents (Elt F) → (⟨S128x488, .f32⟩ : BufTy).Contents (Elt F) → (⟨S128x488, .f32⟩ : BufTy).Contents (Elt F)),
    unary main_v2264 main_v2278 ((extractStridedSlice S128x488x1 ![0, 4, 4] · slices_S128x512x25_S128x488x1_0_4_4) : (⟨S128x512x25, .f32⟩ : BufTy).Contents (Elt F) → (⟨S128x488x1, .f32⟩ : BufTy).Contents (Elt F)),
    reshape main_v2278 main_v2279 rfl shapeCasts_S128x488x1_S128x488,
    binary main_v2277 main_v2279 main_v2280 (addf : (⟨S128x488, .f32⟩ : BufTy).Contents (Elt F) → (⟨S128x488, .f32⟩ : BufTy).Contents (Elt F) → (⟨S128x488, .f32⟩ : BufTy).Contents (Elt F)),
    unary main_v2264 main_v2281 ((extractStridedSlice S128x488x1 ![0, 5, 5] · slices_S128x512x25_S128x488x1_0_5_5) : (⟨S128x512x25, .f32⟩ : BufTy).Contents (Elt F) → (⟨S128x488x1, .f32⟩ : BufTy).Contents (Elt F)),
    reshape main_v2281 main_v2282 rfl shapeCasts_S128x488x1_S128x488,
    binary main_v2280 main_v2282 main_v2283 (addf : (⟨S128x488, .f32⟩ : BufTy).Contents (Elt F) → (⟨S128x488, .f32⟩ : BufTy).Contents (Elt F) → (⟨S128x488, .f32⟩ : BufTy).Contents (Elt F)),
    unary main_v2264 main_v2284 ((extractStridedSlice S128x488x1 ![0, 6, 6] · slices_S128x512x25_S128x488x1_0_6_6) : (⟨S128x512x25, .f32⟩ : BufTy).Contents (Elt F) → (⟨S128x488x1, .f32⟩ : BufTy).Contents (Elt F)),
    reshape main_v2284 main_v2285 rfl shapeCasts_S128x488x1_S128x488,
    binary main_v2283 main_v2285 main_v2286 (addf : (⟨S128x488, .f32⟩ : BufTy).Contents (Elt F) → (⟨S128x488, .f32⟩ : BufTy).Contents (Elt F) → (⟨S128x488, .f32⟩ : BufTy).Contents (Elt F)),
    unary main_v2264 main_v2287 ((extractStridedSlice S128x488x1 ![0, 7, 7] · slices_S128x512x25_S128x488x1_0_7_7) : (⟨S128x512x25, .f32⟩ : BufTy).Contents (Elt F) → (⟨S128x488x1, .f32⟩ : BufTy).Contents (Elt F)),
    reshape main_v2287 main_v2288 rfl shapeCasts_S128x488x1_S128x488,
    binary main_v2286 main_v2288 main_v2289 (addf : (⟨S128x488, .f32⟩ : BufTy).Contents (Elt F) → (⟨S128x488, .f32⟩ : BufTy).Contents (Elt F) → (⟨S128x488, .f32⟩ : BufTy).Contents (Elt F)),
    unary main_v2264 main_v2290 ((extractStridedSlice S128x488x1 ![0, 8, 8] · slices_S128x512x25_S128x488x1_0_8_8) : (⟨S128x512x25, .f32⟩ : BufTy).Contents (Elt F) → (⟨S128x488x1, .f32⟩ : BufTy).Contents (Elt F)),
    reshape main_v2290 main_v2291 rfl shapeCasts_S128x488x1_S128x488,
    binary main_v2289 main_v2291 main_v2292 (addf : (⟨S128x488, .f32⟩ : BufTy).Contents (Elt F) → (⟨S128x488, .f32⟩ : BufTy).Contents (Elt F) → (⟨S128x488, .f32⟩ : BufTy).Contents (Elt F)),
    unary main_v2264 main_v2293 ((extractStridedSlice S128x488x1 ![0, 9, 9] · slices_S128x512x25_S128x488x1_0_9_9) : (⟨S128x512x25, .f32⟩ : BufTy).Contents (Elt F) → (⟨S128x488x1, .f32⟩ : BufTy).Contents (Elt F)),
    reshape main_v2293 main_v2294 rfl shapeCasts_S128x488x1_S128x488,
    binary main_v2292 main_v2294 main_v2295 (addf : (⟨S128x488, .f32⟩ : BufTy).Contents (Elt F) → (⟨S128x488, .f32⟩ : BufTy).Contents (Elt F) → (⟨S128x488, .f32⟩ : BufTy).Contents (Elt F)),
    unary main_v2264 main_v2296 ((extractStridedSlice S128x488x1 ![0, 10, 10] · slices_S128x512x25_S128x488x1_0_10_10) : (⟨S128x512x25, .f32⟩ : BufTy).Contents (Elt F) → (⟨S128x488x1, .f32⟩ : BufTy).Contents (Elt F)),
    reshape main_v2296 main_v2297 rfl shapeCasts_S128x488x1_S128x488,
    binary main_v2295 main_v2297 main_v2298 (addf : (⟨S128x488, .f32⟩ : BufTy).Contents (Elt F) → (⟨S128x488, .f32⟩ : BufTy).Contents (Elt F) → (⟨S128x488, .f32⟩ : BufTy).Contents (Elt F)),
    unary main_v2264 main_v2299 ((extractStridedSlice S128x488x1 ![0, 11, 11] · slices_S128x512x25_S128x488x1_0_11_11) : (⟨S128x512x25, .f32⟩ : BufTy).Contents (Elt F) → (⟨S128x488x1, .f32⟩ : BufTy).Contents (Elt F)),
    reshape main_v2299 main_v2300 rfl shapeCasts_S128x488x1_S128x488,
    binary main_v2298 main_v2300 main_v2301 (addf : (⟨S128x488, .f32⟩ : BufTy).Contents (Elt F) → (⟨S128x488, .f32⟩ : BufTy).Contents (Elt F) → (⟨S128x488, .f32⟩ : BufTy).Contents (Elt F)),
    unary main_v2264 main_v2302 ((extractStridedSlice S128x488x1 ![0, 12, 12] · slices_S128x512x25_S128x488x1_0_12_12) : (⟨S128x512x25, .f32⟩ : BufTy).Contents (Elt F) → (⟨S128x488x1, .f32⟩ : BufTy).Contents (Elt F)),
    reshape main_v2302 main_v2303 rfl shapeCasts_S128x488x1_S128x488,
    binary main_v2301 main_v2303 main_v2304 (addf : (⟨S128x488, .f32⟩ : BufTy).Contents (Elt F) → (⟨S128x488, .f32⟩ : BufTy).Contents (Elt F) → (⟨S128x488, .f32⟩ : BufTy).Contents (Elt F)) ]

/-- Segment 87: 43 operations. -/
def seg87 : List (HloOp τ sig (Elt F)) :=
  [ unary main_v2264 main_v2305 ((extractStridedSlice S128x488x1 ![0, 13, 13] · slices_S128x512x25_S128x488x1_0_13_13) : (⟨S128x512x25, .f32⟩ : BufTy).Contents (Elt F) → (⟨S128x488x1, .f32⟩ : BufTy).Contents (Elt F)),
    reshape main_v2305 main_v2306 rfl shapeCasts_S128x488x1_S128x488,
    binary main_v2304 main_v2306 main_v2307 (addf : (⟨S128x488, .f32⟩ : BufTy).Contents (Elt F) → (⟨S128x488, .f32⟩ : BufTy).Contents (Elt F) → (⟨S128x488, .f32⟩ : BufTy).Contents (Elt F)),
    unary main_v2264 main_v2308 ((extractStridedSlice S128x488x1 ![0, 14, 14] · slices_S128x512x25_S128x488x1_0_14_14) : (⟨S128x512x25, .f32⟩ : BufTy).Contents (Elt F) → (⟨S128x488x1, .f32⟩ : BufTy).Contents (Elt F)),
    reshape main_v2308 main_v2309 rfl shapeCasts_S128x488x1_S128x488,
    binary main_v2307 main_v2309 main_v2310 (addf : (⟨S128x488, .f32⟩ : BufTy).Contents (Elt F) → (⟨S128x488, .f32⟩ : BufTy).Contents (Elt F) → (⟨S128x488, .f32⟩ : BufTy).Contents (Elt F)),
    unary main_v2264 main_v2311 ((extractStridedSlice S128x488x1 ![0, 15, 15] · slices_S128x512x25_S128x488x1_0_15_15) : (⟨S128x512x25, .f32⟩ : BufTy).Contents (Elt F) → (⟨S128x488x1, .f32⟩ : BufTy).Contents (Elt F)),
    reshape main_v2311 main_v2312 rfl shapeCasts_S128x488x1_S128x488,
    binary main_v2310 main_v2312 main_v2313 (addf : (⟨S128x488, .f32⟩ : BufTy).Contents (Elt F) → (⟨S128x488, .f32⟩ : BufTy).Contents (Elt F) → (⟨S128x488, .f32⟩ : BufTy).Contents (Elt F)),
    unary main_v2264 main_v2314 ((extractStridedSlice S128x488x1 ![0, 16, 16] · slices_S128x512x25_S128x488x1_0_16_16) : (⟨S128x512x25, .f32⟩ : BufTy).Contents (Elt F) → (⟨S128x488x1, .f32⟩ : BufTy).Contents (Elt F)),
    reshape main_v2314 main_v2315 rfl shapeCasts_S128x488x1_S128x488,
    binary main_v2313 main_v2315 main_v2316 (addf : (⟨S128x488, .f32⟩ : BufTy).Contents (Elt F) → (⟨S128x488, .f32⟩ : BufTy).Contents (Elt F) → (⟨S128x488, .f32⟩ : BufTy).Contents (Elt F)),
    unary main_v2264 main_v2317 ((extractStridedSlice S128x488x1 ![0, 17, 17] · slices_S128x512x25_S128x488x1_0_17_17) : (⟨S128x512x25, .f32⟩ : BufTy).Contents (Elt F) → (⟨S128x488x1, .f32⟩ : BufTy).Contents (Elt F)),
    reshape main_v2317 main_v2318 rfl shapeCasts_S128x488x1_S128x488,
    binary main_v2316 main_v2318 main_v2319 (addf : (⟨S128x488, .f32⟩ : BufTy).Contents (Elt F) → (⟨S128x488, .f32⟩ : BufTy).Contents (Elt F) → (⟨S128x488, .f32⟩ : BufTy).Contents (Elt F)),
    unary main_v2264 main_v2320 ((extractStridedSlice S128x488x1 ![0, 18, 18] · slices_S128x512x25_S128x488x1_0_18_18) : (⟨S128x512x25, .f32⟩ : BufTy).Contents (Elt F) → (⟨S128x488x1, .f32⟩ : BufTy).Contents (Elt F)),
    reshape main_v2320 main_v2321 rfl shapeCasts_S128x488x1_S128x488,
    binary main_v2319 main_v2321 main_v2322 (addf : (⟨S128x488, .f32⟩ : BufTy).Contents (Elt F) → (⟨S128x488, .f32⟩ : BufTy).Contents (Elt F) → (⟨S128x488, .f32⟩ : BufTy).Contents (Elt F)),
    unary main_v2264 main_v2323 ((extractStridedSlice S128x488x1 ![0, 19, 19] · slices_S128x512x25_S128x488x1_0_19_19) : (⟨S128x512x25, .f32⟩ : BufTy).Contents (Elt F) → (⟨S128x488x1, .f32⟩ : BufTy).Contents (Elt F)),
    reshape main_v2323 main_v2324 rfl shapeCasts_S128x488x1_S128x488,
    binary main_v2322 main_v2324 main_v2325 (addf : (⟨S128x488, .f32⟩ : BufTy).Contents (Elt F) → (⟨S128x488, .f32⟩ : BufTy).Contents (Elt F) → (⟨S128x488, .f32⟩ : BufTy).Contents (Elt F)),
    unary main_v2264 main_v2326 ((extractStridedSlice S128x488x1 ![0, 20, 20] · slices_S128x512x25_S128x488x1_0_20_20) : (⟨S128x512x25, .f32⟩ : BufTy).Contents (Elt F) → (⟨S128x488x1, .f32⟩ : BufTy).Contents (Elt F)),
    reshape main_v2326 main_v2327 rfl shapeCasts_S128x488x1_S128x488,
    binary main_v2325 main_v2327 main_v2328 (addf : (⟨S128x488, .f32⟩ : BufTy).Contents (Elt F) → (⟨S128x488, .f32⟩ : BufTy).Contents (Elt F) → (⟨S128x488, .f32⟩ : BufTy).Contents (Elt F)),
    unary main_v2264 main_v2329 ((extractStridedSlice S128x488x1 ![0, 21, 21] · slices_S128x512x25_S128x488x1_0_21_21) : (⟨S128x512x25, .f32⟩ : BufTy).Contents (Elt F) → (⟨S128x488x1, .f32⟩ : BufTy).Contents (Elt F)),
    reshape main_v2329 main_v2330 rfl shapeCasts_S128x488x1_S128x488,
    binary main_v2328 main_v2330 main_v2331 (addf : (⟨S128x488, .f32⟩ : BufTy).Contents (Elt F) → (⟨S128x488, .f32⟩ : BufTy).Contents (Elt F) → (⟨S128x488, .f32⟩ : BufTy).Contents (Elt F)),
    unary main_v2264 main_v2332 ((extractStridedSlice S128x488x1 ![0, 22, 22] · slices_S128x512x25_S128x488x1_0_22_22) : (⟨S128x512x25, .f32⟩ : BufTy).Contents (Elt F) → (⟨S128x488x1, .f32⟩ : BufTy).Contents (Elt F)),
    reshape main_v2332 main_v2333 rfl shapeCasts_S128x488x1_S128x488,
    binary main_v2331 main_v2333 main_v2334 (addf : (⟨S128x488, .f32⟩ : BufTy).Contents (Elt F) → (⟨S128x488, .f32⟩ : BufTy).Contents (Elt F) → (⟨S128x488, .f32⟩ : BufTy).Contents (Elt F)),
    unary main_v2264 main_v2335 ((extractStridedSlice S128x488x1 ![0, 23, 23] · slices_S128x512x25_S128x488x1_0_23_23) : (⟨S128x512x25, .f32⟩ : BufTy).Contents (Elt F) → (⟨S128x488x1, .f32⟩ : BufTy).Contents (Elt F)),
    reshape main_v2335 main_v2336 rfl shapeCasts_S128x488x1_S128x488,
    binary main_v2334 main_v2336 main_v2337 (addf : (⟨S128x488, .f32⟩ : BufTy).Contents (Elt F) → (⟨S128x488, .f32⟩ : BufTy).Contents (Elt F) → (⟨S128x488, .f32⟩ : BufTy).Contents (Elt F)),
    unary main_v2264 main_v2338 ((extractStridedSlice S128x488x1 ![0, 24, 24] · slices_S128x512x25_S128x488x1_0_24_24) : (⟨S128x512x25, .f32⟩ : BufTy).Contents (Elt F) → (⟨S128x488x1, .f32⟩ : BufTy).Contents (Elt F)),
    reshape main_v2338 main_v2339 rfl shapeCasts_S128x488x1_S128x488,
    binary main_v2337 main_v2339 main_v2340 (addf : (⟨S128x488, .f32⟩ : BufTy).Contents (Elt F) → (⟨S128x488, .f32⟩ : BufTy).Contents (Elt F) → (⟨S128x488, .f32⟩ : BufTy).Contents (Elt F)),
    unary main_arg3 main_v2341 ((extractStridedSlice S1 ![46] · slices_S64_S1_46) : (⟨S64, .f32⟩ : BufTy).Contents (Elt F) → (⟨S1, .f32⟩ : BufTy).Contents (Elt F)),
    reshape main_v2341 main_v2342 rfl shapeCasts_S1_S_,
    unary main_v2342 main_v2343 (broadcastInDim S128x488 ![] bcast_S_S128x488 : (⟨S_, .f32⟩ : BufTy).Contents (Elt F) → (⟨S128x488, .f32⟩ : BufTy).Contents (Elt F)),
    binary main_v2340 main_v2343 main_v2344 (addf : (⟨S128x488, .f32⟩ : BufTy).Contents (Elt F) → (⟨S128x488, .f32⟩ : BufTy).Contents (Elt F) → (⟨S128x488, .f32⟩ : BufTy).Contents (Elt F)),
    unary main_v2344 main_v2345 (Host.tanh : (⟨S128x488, .f32⟩ : BufTy).Contents (Elt F) → (⟨S128x488, .f32⟩ : BufTy).Contents (Elt F)),
    nullary main_cst_93 (constant S_ .f32 0xFF800000#32),
    binary main_v2345 main_cst_93 main_v2346 ((fun x v => Host.reduce FloatOps.maximumf x v reducesTo_S128x488_S128_d1 h_S_) : (⟨S128x488, .f32⟩ : BufTy).Contents (Elt F) → (⟨S_, .f32⟩ : BufTy).Contents (Elt F) → (⟨S128, .f32⟩ : BufTy).Contents (Elt F)) ]

/-- Segment 88: 17 operations. -/
def seg88 : List (HloOp τ sig (Elt F)) :=
  [ unary main_arg2 main_v2347 ((extractStridedSlice S1x25x300 ![47, 0, 0] · slices_S64x33x300_S1x25x300_47_0_0) : (⟨S64x33x300, .f32⟩ : BufTy).Contents (Elt F) → (⟨S1x25x300, .f32⟩ : BufTy).Contents (Elt F)),
    reshape main_v2347 main_v2348 rfl shapeCasts_S1x25x300_S25x300,
    binary main_v7 main_v2348 main_v2349 ((fun l r => Host.dotGeneral dot_S128x512x300_S25x300_S128x512x25_2_1_01_0_n_n none l r) : (⟨S128x512x300, .f32⟩ : BufTy).Contents (Elt F) → (⟨S25x300, .f32⟩ : BufTy).Contents (Elt F) → (⟨S128x512x25, .f32⟩ : BufTy).Contents (Elt F)),
    unary main_v2349 main_v2350 ((extractStridedSlice S128x488x1 ![0, 0, 0] · slices_S128x512x25_S128x488x1_0_0_0) : (⟨S128x512x25, .f32⟩ : BufTy).Contents (Elt F) → (⟨S128x488x1, .f32⟩ : BufTy).Contents (Elt F)),
    reshape main_v2350 main_v2351 rfl shapeCasts_S128x488x1_S128x488,
    nullary main_cst_94 (constant S_ .f32 0x00000000#32),
    unary main_cst_94 main_v2352 (broadcastInDim S128x488 ![] bcast_S_S128x488 : (⟨S_, .f32⟩ : BufTy).Contents (Elt F) → (⟨S128x488, .f32⟩ : BufTy).Contents (Elt F)),
    binary main_v2352 main_v2351 main_v2353 (addf : (⟨S128x488, .f32⟩ : BufTy).Contents (Elt F) → (⟨S128x488, .f32⟩ : BufTy).Contents (Elt F) → (⟨S128x488, .f32⟩ : BufTy).Contents (Elt F)),
    unary main_v2349 main_v2354 ((extractStridedSlice S128x488x1 ![0, 1, 1] · slices_S128x512x25_S128x488x1_0_1_1) : (⟨S128x512x25, .f32⟩ : BufTy).Contents (Elt F) → (⟨S128x488x1, .f32⟩ : BufTy).Contents (Elt F)),
    reshape main_v2354 main_v2355 rfl shapeCasts_S128x488x1_S128x488,
    binary main_v2353 main_v2355 main_v2356 (addf : (⟨S128x488, .f32⟩ : BufTy).Contents (Elt F) → (⟨S128x488, .f32⟩ : BufTy).Contents (Elt F) → (⟨S128x488, .f32⟩ : BufTy).Contents (Elt F)),
    unary main_v2349 main_v2357 ((extractStridedSlice S128x488x1 ![0, 2, 2] · slices_S128x512x25_S128x488x1_0_2_2) : (⟨S128x512x25, .f32⟩ : BufTy).Contents (Elt F) → (⟨S128x488x1, .f32⟩ : BufTy).Contents (Elt F)),
    reshape main_v2357 main_v2358 rfl shapeCasts_S128x488x1_S128x488,
    binary main_v2356 main_v2358 main_v2359 (addf : (⟨S128x488, .f32⟩ : BufTy).Contents (Elt F) → (⟨S128x488, .f32⟩ : BufTy).Contents (Elt F) → (⟨S128x488, .f32⟩ : BufTy).Contents (Elt F)),
    unary main_v2349 main_v2360 ((extractStridedSlice S128x488x1 ![0, 3, 3] · slices_S128x512x25_S128x488x1_0_3_3) : (⟨S128x512x25, .f32⟩ : BufTy).Contents (Elt F) → (⟨S128x488x1, .f32⟩ : BufTy).Contents (Elt F)),
    reshape main_v2360 main_v2361 rfl shapeCasts_S128x488x1_S128x488,
    binary main_v2359 main_v2361 main_v2362 (addf : (⟨S128x488, .f32⟩ : BufTy).Contents (Elt F) → (⟨S128x488, .f32⟩ : BufTy).Contents (Elt F) → (⟨S128x488, .f32⟩ : BufTy).Contents (Elt F)) ]

/-- Segment 89: 60 operations. -/
def seg89 : List (HloOp τ sig (Elt F)) :=
  [ unary main_v2349 main_v2363 ((extractStridedSlice S128x488x1 ![0, 4, 4] · slices_S128x512x25_S128x488x1_0_4_4) : (⟨S128x512x25, .f32⟩ : BufTy).Contents (Elt F) → (⟨S128x488x1, .f32⟩ : BufTy).Contents (Elt F)),
    reshape main_v2363 main_v2364 rfl shapeCasts_S128x488x1_S128x488,
    binary main_v2362 main_v2364 main_v2365 (addf : (⟨S128x488, .f32⟩ : BufTy).Contents (Elt F) → (⟨S128x488, .f32⟩ : BufTy).Contents (Elt F) → (⟨S128x488, .f32⟩ : BufTy).Contents (Elt F)),
    unary main_v2349 main_v2366 ((extractStridedSlice S128x488x1 ![0, 5, 5] · slices_S128x512x25_S128x488x1_0_5_5) : (⟨S128x512x25, .f32⟩ : BufTy).Contents (Elt F) → (⟨S128x488x1, .f32⟩ : BufTy).Contents (Elt F)),
    reshape main_v2366 main_v2367 rfl shapeCasts_S128x488x1_S128x488,
    binary main_v2365 main_v2367 main_v2368 (addf : (⟨S128x488, .f32⟩ : BufTy).Contents (Elt F) → (⟨S128x488, .f32⟩ : BufTy).Contents (Elt F) → (⟨S128x488, .f32⟩ : BufTy).Contents (Elt F)),
    unary main_v2349 main_v2369 ((extractStridedSlice S128x488x1 ![0, 6, 6] · slices_S128x512x25_S128x488x1_0_6_6) : (⟨S128x512x25, .f32⟩ : BufTy).Contents (Elt F) → (⟨S128x488x1, .f32⟩ : BufTy).Contents (Elt F)),
    reshape main_v2369 main_v2370 rfl shapeCasts_S128x488x1_S128x488,
    binary main_v2368 main_v2370 main_v2371 (addf : (⟨S128x488, .f32⟩ : BufTy).Contents (Elt F) → (⟨S128x488, .f32⟩ : BufTy).Contents (Elt F) → (⟨S128x488, .f32⟩ : BufTy).Contents (Elt F)),
    unary main_v2349 main_v2372 ((extractStridedSlice S128x488x1 ![0, 7, 7] · slices_S128x512x25_S128x488x1_0_7_7) : (⟨S128x512x25, .f32⟩ : BufTy).Contents (Elt F) → (⟨S128x488x1, .f32⟩ : BufTy).Contents (Elt F)),
    reshape main_v2372 main_v2373 rfl shapeCasts_S128x488x1_S128x488,
    binary main_v2371 main_v2373 main_v2374 (addf : (⟨S128x488, .f32⟩ : BufTy).Contents (Elt F) → (⟨S128x488, .f32⟩ : BufTy).Contents (Elt F) → (⟨S128x488, .f32⟩ : BufTy).Contents (Elt F)),
    unary main_v2349 main_v2375 ((extractStridedSlice S128x488x1 ![0, 8, 8] · slices_S128x512x25_S128x488x1_0_8_8) : (⟨S128x512x25, .f32⟩ : BufTy).Contents (Elt F) → (⟨S128x488x1, .f32⟩ : BufTy).Contents (Elt F)),
    reshape main_v2375 main_v2376 rfl shapeCasts_S128x488x1_S128x488,
    binary main_v2374 main_v2376 main_v2377 (addf : (⟨S128x488, .f32⟩ : BufTy).Contents (Elt F) → (⟨S128x488, .f32⟩ : BufTy).Contents (Elt F) → (⟨S128x488, .f32⟩ : BufTy).Contents (Elt F)),
    unary main_v2349 main_v2378 ((extractStridedSlice S128x488x1 ![0, 9, 9] · slices_S128x512x25_S128x488x1_0_9_9) : (⟨S128x512x25, .f32⟩ : BufTy).Contents (Elt F) → (⟨S128x488x1, .f32⟩ : BufTy).Contents (Elt F)),
    reshape main_v2378 main_v2379 rfl shapeCasts_S128x488x1_S128x488,
    binary main_v2377 main_v2379 main_v2380 (addf : (⟨S128x488, .f32⟩ : BufTy).Contents (Elt F) → (⟨S128x488, .f32⟩ : BufTy).Contents (Elt F) → (⟨S128x488, .f32⟩ : BufTy).Contents (Elt F)),
    unary main_v2349 main_v2381 ((extractStridedSlice S128x488x1 ![0, 10, 10] · slices_S128x512x25_S128x488x1_0_10_10) : (⟨S128x512x25, .f32⟩ : BufTy).Contents (Elt F) → (⟨S128x488x1, .f32⟩ : BufTy).Contents (Elt F)),
    reshape main_v2381 main_v2382 rfl shapeCasts_S128x488x1_S128x488,
    binary main_v2380 main_v2382 main_v2383 (addf : (⟨S128x488, .f32⟩ : BufTy).Contents (Elt F) → (⟨S128x488, .f32⟩ : BufTy).Contents (Elt F) → (⟨S128x488, .f32⟩ : BufTy).Contents (Elt F)),
    unary main_v2349 main_v2384 ((extractStridedSlice S128x488x1 ![0, 11, 11] · slices_S128x512x25_S128x488x1_0_11_11) : (⟨S128x512x25, .f32⟩ : BufTy).Contents (Elt F) → (⟨S128x488x1, .f32⟩ : BufTy).Contents (Elt F)),
    reshape main_v2384 main_v2385 rfl shapeCasts_S128x488x1_S128x488,
    binary main_v2383 main_v2385 main_v2386 (addf : (⟨S128x488, .f32⟩ : BufTy).Contents (Elt F) → (⟨S128x488, .f32⟩ : BufTy).Contents (Elt F) → (⟨S128x488, .f32⟩ : BufTy).Contents (Elt F)),
    unary main_v2349 main_v2387 ((extractStridedSlice S128x488x1 ![0, 12, 12] · slices_S128x512x25_S128x488x1_0_12_12) : (⟨S128x512x25, .f32⟩ : BufTy).Contents (Elt F) → (⟨S128x488x1, .f32⟩ : BufTy).Contents (Elt F)),
    reshape main_v2387 main_v2388 rfl shapeCasts_S128x488x1_S128x488,
    binary main_v2386 main_v2388 main_v2389 (addf : (⟨S128x488, .f32⟩ : BufTy).Contents (Elt F) → (⟨S128x488, .f32⟩ : BufTy).Contents (Elt F) → (⟨S128x488, .f32⟩ : BufTy).Contents (Elt F)),
    unary main_v2349 main_v2390 ((extractStridedSlice S128x488x1 ![0, 13, 13] · slices_S128x512x25_S128x488x1_0_13_13) : (⟨S128x512x25, .f32⟩ : BufTy).Contents (Elt F) → (⟨S128x488x1, .f32⟩ : BufTy).Contents (Elt F)),
    reshape main_v2390 main_v2391 rfl shapeCasts_S128x488x1_S128x488,
    binary main_v2389 main_v2391 main_v2392 (addf : (⟨S128x488, .f32⟩ : BufTy).Contents (Elt F) → (⟨S128x488, .f32⟩ : BufTy).Contents (Elt F) → (⟨S128x488, .f32⟩ : BufTy).Contents (Elt F)),
    unary main_v2349 main_v2393 ((extractStridedSlice S128x488x1 ![0, 14, 14] · slices_S128x512x25_S128x488x1_0_14_14) : (⟨S128x512x25, .f32⟩ : BufTy).Contents (Elt F) → (⟨S128x488x1, .f32⟩ : BufTy).Contents (Elt F)),
    reshape main_v2393 main_v2394 rfl shapeCasts_S128x488x1_S128x488,
    binary main_v2392 main_v2394 main_v2395 (addf : (⟨S128x488, .f32⟩ : BufTy).Contents (Elt F) → (⟨S128x488, .f32⟩ : BufTy).Contents (Elt F) → (⟨S128x488, .f32⟩ : BufTy).Contents (Elt F)),
    unary main_v2349 main_v2396 ((extractStridedSlice S128x488x1 ![0, 15, 15] · slices_S128x512x25_S128x488x1_0_15_15) : (⟨S128x512x25, .f32⟩ : BufTy).Contents (Elt F) → (⟨S128x488x1, .f32⟩ : BufTy).Contents (Elt F)),
    reshape main_v2396 main_v2397 rfl shapeCasts_S128x488x1_S128x488,
    binary main_v2395 main_v2397 main_v2398 (addf : (⟨S128x488, .f32⟩ : BufTy).Contents (Elt F) → (⟨S128x488, .f32⟩ : BufTy).Contents (Elt F) → (⟨S128x488, .f32⟩ : BufTy).Contents (Elt F)),
    unary main_v2349 main_v2399 ((extractStridedSlice S128x488x1 ![0, 16, 16] · slices_S128x512x25_S128x488x1_0_16_16) : (⟨S128x512x25, .f32⟩ : BufTy).Contents (Elt F) → (⟨S128x488x1, .f32⟩ : BufTy).Contents (Elt F)),
    reshape main_v2399 main_v2400 rfl shapeCasts_S128x488x1_S128x488,
    binary main_v2398 main_v2400 main_v2401 (addf : (⟨S128x488, .f32⟩ : BufTy).Contents (Elt F) → (⟨S128x488, .f32⟩ : BufTy).Contents (Elt F) → (⟨S128x488, .f32⟩ : BufTy).Contents (Elt F)),
    unary main_v2349 main_v2402 ((extractStridedSlice S128x488x1 ![0, 17, 17] · slices_S128x512x25_S128x488x1_0_17_17) : (⟨S128x512x25, .f32⟩ : BufTy).Contents (Elt F) → (⟨S128x488x1, .f32⟩ : BufTy).Contents (Elt F)),
    reshape main_v2402 main_v2403 rfl shapeCasts_S128x488x1_S128x488,
    binary main_v2401 main_v2403 main_v2404 (addf : (⟨S128x488, .f32⟩ : BufTy).Contents (Elt F) → (⟨S128x488, .f32⟩ : BufTy).Contents (Elt F) → (⟨S128x488, .f32⟩ : BufTy).Contents (Elt F)),
    unary main_v2349 main_v2405 ((extractStridedSlice S128x488x1 ![0, 18, 18] · slices_S128x512x25_S128x488x1_0_18_18) : (⟨S128x512x25, .f32⟩ : BufTy).Contents (Elt F) → (⟨S128x488x1, .f32⟩ : BufTy).Contents (Elt F)),
    reshape main_v2405 main_v2406 rfl shapeCasts_S128x488x1_S128x488,
    binary main_v2404 main_v2406 main_v2407 (addf : (⟨S128x488, .f32⟩ : BufTy).Contents (Elt F) → (⟨S128x488, .f32⟩ : BufTy).Contents (Elt F) → (⟨S128x488, .f32⟩ : BufTy).Contents (Elt F)),
    unary main_v2349 main_v2408 ((extractStridedSlice S128x488x1 ![0, 19, 19] · slices_S128x512x25_S128x488x1_0_19_19) : (⟨S128x512x25, .f32⟩ : BufTy).Contents (Elt F) → (⟨S128x488x1, .f32⟩ : BufTy).Contents (Elt F)),
    reshape main_v2408 main_v2409 rfl shapeCasts_S128x488x1_S128x488,
    binary main_v2407 main_v2409 main_v2410 (addf : (⟨S128x488, .f32⟩ : BufTy).Contents (Elt F) → (⟨S128x488, .f32⟩ : BufTy).Contents (Elt F) → (⟨S128x488, .f32⟩ : BufTy).Contents (Elt F)),
    unary main_v2349 main_v2411 ((extractStridedSlice S128x488x1 ![0, 20, 20] · slices_S128x512x25_S128x488x1_0_20_20) : (⟨S128x512x25, .f32⟩ : BufTy).Contents (Elt F) → (⟨S128x488x1, .f32⟩ : BufTy).Contents (Elt F)),
    reshape main_v2411 main_v2412 rfl shapeCasts_S128x488x1_S128x488,
    binary main_v2410 main_v2412 main_v2413 (addf : (⟨S128x488, .f32⟩ : BufTy).Contents (Elt F) → (⟨S128x488, .f32⟩ : BufTy).Contents (Elt F) → (⟨S128x488, .f32⟩ : BufTy).Contents (Elt F)),
    unary main_v2349 main_v2414 ((extractStridedSlice S128x488x1 ![0, 21, 21] · slices_S128x512x25_S128x488x1_0_21_21) : (⟨S128x512x25, .f32⟩ : BufTy).Contents (Elt F) → (⟨S128x488x1, .f32⟩ : BufTy).Contents (Elt F)),
    reshape main_v2414 main_v2415 rfl shapeCasts_S128x488x1_S128x488,
    binary main_v2413 main_v2415 main_v2416 (addf : (⟨S128x488, .f32⟩ : BufTy).Contents (Elt F) → (⟨S128x488, .f32⟩ : BufTy).Contents (Elt F) → (⟨S128x488, .f32⟩ : BufTy).Contents (Elt F)),
    unary main_v2349 main_v2417 ((extractStridedSlice S128x488x1 ![0, 22, 22] · slices_S128x512x25_S128x488x1_0_22_22) : (⟨S128x512x25, .f32⟩ : BufTy).Contents (Elt F) → (⟨S128x488x1, .f32⟩ : BufTy).Contents (Elt F)),
    reshape main_v2417 main_v2418 rfl shapeCasts_S128x488x1_S128x488,
    binary main_v2416 main_v2418 main_v2419 (addf : (⟨S128x488, .f32⟩ : BufTy).Contents (Elt F) → (⟨S128x488, .f32⟩ : BufTy).Contents (Elt F) → (⟨S128x488, .f32⟩ : BufTy).Contents (Elt F)),
    unary main_v2349 main_v2420 ((extractStridedSlice S128x488x1 ![0, 23, 23] · slices_S128x512x25_S128x488x1_0_23_23) : (⟨S128x512x25, .f32⟩ : BufTy).Contents (Elt F) → (⟨S128x488x1, .f32⟩ : BufTy).Contents (Elt F)),
    reshape main_v2420 main_v2421 rfl shapeCasts_S128x488x1_S128x488,
    binary main_v2419 main_v2421 main_v2422 (addf : (⟨S128x488, .f32⟩ : BufTy).Contents (Elt F) → (⟨S128x488, .f32⟩ : BufTy).Contents (Elt F) → (⟨S128x488, .f32⟩ : BufTy).Contents (Elt F)) ]

/-- Segment 90: 10 operations. -/
def seg90 : List (HloOp τ sig (Elt F)) :=
  [ unary main_v2349 main_v2423 ((extractStridedSlice S128x488x1 ![0, 24, 24] · slices_S128x512x25_S128x488x1_0_24_24) : (⟨S128x512x25, .f32⟩ : BufTy).Contents (Elt F) → (⟨S128x488x1, .f32⟩ : BufTy).Contents (Elt F)),
    reshape main_v2423 main_v2424 rfl shapeCasts_S128x488x1_S128x488,
    binary main_v2422 main_v2424 main_v2425 (addf : (⟨S128x488, .f32⟩ : BufTy).Contents (Elt F) → (⟨S128x488, .f32⟩ : BufTy).Contents (Elt F) → (⟨S128x488, .f32⟩ : BufTy).Contents (Elt F)),
    unary main_arg3 main_v2426 ((extractStridedSlice S1 ![47] · slices_S64_S1_47) : (⟨S64, .f32⟩ : BufTy).Contents (Elt F) → (⟨S1, .f32⟩ : BufTy).Contents (Elt F)),
    reshape main_v2426 main_v2427 rfl shapeCasts_S1_S_,
    unary main_v2427 main_v2428 (broadcastInDim S128x488 ![] bcast_S_S128x488 : (⟨S_, .f32⟩ : BufTy).Contents (Elt F) → (⟨S128x488, .f32⟩ : BufTy).Contents (Elt F)),
    binary main_v2425 main_v2428 main_v2429 (addf : (⟨S128x488, .f32⟩ : BufTy).Contents (Elt F) → (⟨S128x488, .f32⟩ : BufTy).Contents (Elt F) → (⟨S128x488, .f32⟩ : BufTy).Contents (Elt F)),
    unary main_v2429 main_v2430 (Host.tanh : (⟨S128x488, .f32⟩ : BufTy).Contents (Elt F) → (⟨S128x488, .f32⟩ : BufTy).Contents (Elt F)),
    nullary main_cst_95 (constant S_ .f32 0xFF800000#32),
    binary main_v2430 main_cst_95 main_v2431 ((fun x v => Host.reduce FloatOps.maximumf x v reducesTo_S128x488_S128_d1 h_S_) : (⟨S128x488, .f32⟩ : BufTy).Contents (Elt F) → (⟨S_, .f32⟩ : BufTy).Contents (Elt F) → (⟨S128, .f32⟩ : BufTy).Contents (Elt F)) ]

/-- Segment 91: 50 operations. -/
def seg91 : List (HloOp τ sig (Elt F)) :=
  [ unary main_arg2 main_v2432 ((extractStridedSlice S1x26x300 ![48, 0, 0] · slices_S64x33x300_S1x26x300_48_0_0) : (⟨S64x33x300, .f32⟩ : BufTy).Contents (Elt F) → (⟨S1x26x300, .f32⟩ : BufTy).Contents (Elt F)),
    reshape main_v2432 main_v2433 rfl shapeCasts_S1x26x300_S26x300,
    binary main_v7 main_v2433 main_v2434 ((fun l r => Host.dotGeneral dot_S128x512x300_S26x300_S128x512x26_2_1_01_0_n_n none l r) : (⟨S128x512x300, .f32⟩ : BufTy).Contents (Elt F) → (⟨S26x300, .f32⟩ : BufTy).Contents (Elt F) → (⟨S128x512x26, .f32⟩ : BufTy).Contents (Elt F)),
    unary main_v2434 main_v2435 ((extractStridedSlice S128x487x1 ![0, 0, 0] · slices_S128x512x26_S128x487x1_0_0_0) : (⟨S128x512x26, .f32⟩ : BufTy).Contents (Elt F) → (⟨S128x487x1, .f32⟩ : BufTy).Contents (Elt F)),
    reshape main_v2435 main_v2436 rfl shapeCasts_S128x487x1_S128x487,
    nullary main_cst_96 (constant S_ .f32 0x00000000#32),
    unary main_cst_96 main_v2437 (broadcastInDim S128x487 ![] bcast_S_S128x487 : (⟨S_, .f32⟩ : BufTy).Contents (Elt F) → (⟨S128x487, .f32⟩ : BufTy).Contents (Elt F)),
    binary main_v2437 main_v2436 main_v2438 (addf : (⟨S128x487, .f32⟩ : BufTy).Contents (Elt F) → (⟨S128x487, .f32⟩ : BufTy).Contents (Elt F) → (⟨S128x487, .f32⟩ : BufTy).Contents (Elt F)),
    unary main_v2434 main_v2439 ((extractStridedSlice S128x487x1 ![0, 1, 1] · slices_S128x512x26_S128x487x1_0_1_1) : (⟨S128x512x26, .f32⟩ : BufTy).Contents (Elt F) → (⟨S128x487x1, .f32⟩ : BufTy).Contents (Elt F)),
    reshape main_v2439 main_v2440 rfl shapeCasts_S128x487x1_S128x487,
    binary main_v2438 main_v2440 main_v2441 (addf : (⟨S128x487, .f32⟩ : BufTy).Contents (Elt F) → (⟨S128x487, .f32⟩ : BufTy).Contents (Elt F) → (⟨S128x487, .f32⟩ : BufTy).Contents (Elt F)),
    unary main_v2434 main_v2442 ((extractStridedSlice S128x487x1 ![0, 2, 2] · slices_S128x512x26_S128x487x1_0_2_2) : (⟨S128x512x26, .f32⟩ : BufTy).Contents (Elt F) → (⟨S128x487x1, .f32⟩ : BufTy).Contents (Elt F)),
    reshape main_v2442 main_v2443 rfl shapeCasts_S128x487x1_S128x487,
    binary main_v2441 main_v2443 main_v2444 (addf : (⟨S128x487, .f32⟩ : BufTy).Contents (Elt F) → (⟨S128x487, .f32⟩ : BufTy).Contents (Elt F) → (⟨S128x487, .f32⟩ : BufTy).Contents (Elt F)),
    unary main_v2434 main_v2445 ((extractStridedSlice S128x487x1 ![0, 3, 3] · slices_S128x512x26_S128x487x1_0_3_3) : (⟨S128x512x26, .f32⟩ : BufTy).Contents (Elt F) → (⟨S128x487x1, .f32⟩ : BufTy).Contents (Elt F)),
    reshape main_v2445 main_v2446 rfl shapeCasts_S128x487x1_S128x487,
    binary main_v2444 main_v2446 main_v2447 (addf : (⟨S128x487, .f32⟩ : BufTy).Contents (Elt F) → (⟨S128x487, .f32⟩ : BufTy).Contents (Elt F) → (⟨S128x487, .f32⟩ : BufTy).Contents (Elt F)),
    unary main_v2434 main_v2448 ((extractStridedSlice S128x487x1 ![0, 4, 4] · slices_S128x512x26_S128x487x1_0_4_4) : (⟨S128x512x26, .f32⟩ : BufTy).Contents (Elt F) → (⟨S128x487x1, .f32⟩ : BufTy).Contents (Elt F)),
    reshape main_v2448 main_v2449 rfl shapeCasts_S128x487x1_S128x487,
    binary main_v2447 main_v2449 main_v2450 (addf : (⟨S128x487, .f32⟩ : BufTy).Contents (Elt F) → (⟨S128x487, .f32⟩ : BufTy).Contents (Elt F) → (⟨S128x487, .f32⟩ : BufTy).Contents (Elt F)),
    unary main_v2434 main_v2451 ((extractStridedSlice S128x487x1 ![0, 5, 5] · slices_S128x512x26_S128x487x1_0_5_5) : (⟨S128x512x26, .f32⟩ : BufTy).Contents (Elt F) → (⟨S128x487x1, .f32⟩ : BufTy).Contents (Elt F)),
    reshape main_v2451 main_v2452 rfl shapeCasts_S128x487x1_S128x487,
    binary main_v2450 main_v2452 main_v2453 (addf : (⟨S128x487, .f32⟩ : BufTy).Contents (Elt F) → (⟨S128x487, .f32⟩ : BufTy).Contents (Elt F) → (⟨S128x487, .f32⟩ : BufTy).Contents (Elt F)),
    unary main_v2434 main_v2454 ((extractStridedSlice S128x487x1 ![0, 6, 6] · slices_S128x512x26_S128x487x1_0_6_6) : (⟨S128x512x26, .f32⟩ : BufTy).Contents (Elt F) → (⟨S128x487x1, .f32⟩ : BufTy).Contents (Elt F)),
    reshape main_v2454 main_v2455 rfl shapeCasts_S128x487x1_S128x487,
    binary main_v2453 main_v2455 main_v2456 (addf : (⟨S128x487, .f32⟩ : BufTy).Contents (Elt F) → (⟨S128x487, .f32⟩ : BufTy).Contents (Elt F) → (⟨S128x487, .f32⟩ : BufTy).Contents (Elt F)),
    unary main_v2434 main_v2457 ((extractStridedSlice S128x487x1 ![0, 7, 7] · slices_S128x512x26_S128x487x1_0_7_7) : (⟨S128x512x26, .f32⟩ : BufTy).Contents (Elt F) → (⟨S128x487x1, .f32⟩ : BufTy).Contents (Elt F)),
    reshape main_v2457 main_v2458 rfl shapeCasts_S128x487x1_S128x487,
    binary main_v2456 main_v2458 main_v2459 (addf : (⟨S128x487, .f32⟩ : BufTy).Contents (Elt F) → (⟨S128x487, .f32⟩ : BufTy).Contents (Elt F) → (⟨S128x487, .f32⟩ : BufTy).Contents (Elt F)),
    unary main_v2434 main_v2460 ((extractStridedSlice S128x487x1 ![0, 8, 8] · slices_S128x512x26_S128x487x1_0_8_8) : (⟨S128x512x26, .f32⟩ : BufTy).Contents (Elt F) → (⟨S128x487x1, .f32⟩ : BufTy).Contents (Elt F)),
    reshape main_v2460 main_v2461 rfl shapeCasts_S128x487x1_S128x487,
    binary main_v2459 main_v2461 main_v2462 (addf : (⟨S128x487, .f32⟩ : BufTy).Contents (Elt F) → (⟨S128x487, .f32⟩ : BufTy).Contents (Elt F) → (⟨S128x487, .f32⟩ : BufTy).Contents (Elt F)),
    unary main_v2434 main_v2463 ((extractStridedSlice S128x487x1 ![0, 9, 9] · slices_S128x512x26_S128x487x1_0_9_9) : (⟨S128x512x26, .f32⟩ : BufTy).Contents (Elt F) → (⟨S128x487x1, .f32⟩ : BufTy).Contents (Elt F)),
    reshape main_v2463 main_v2464 rfl shapeCasts_S128x487x1_S128x487,
    binary main_v2462 main_v2464 main_v2465 (addf : (⟨S128x487, .f32⟩ : BufTy).Contents (Elt F) → (⟨S128x487, .f32⟩ : BufTy).Contents (Elt F) → (⟨S128x487, .f32⟩ : BufTy).Contents (Elt F)),
    unary main_v2434 main_v2466 ((extractStridedSlice S128x487x1 ![0, 10, 10] · slices_S128x512x26_S128x487x1_0_10_10) : (⟨S128x512x26, .f32⟩ : BufTy).Contents (Elt F) → (⟨S128x487x1, .f32⟩ : BufTy).Contents (Elt F)),
    reshape main_v2466 main_v2467 rfl shapeCasts_S128x487x1_S128x487,
    binary main_v2465 main_v2467 main_v2468 (addf : (⟨S128x487, .f32⟩ : BufTy).Contents (Elt F) → (⟨S128x487, .f32⟩ : BufTy).Contents (Elt F) → (⟨S128x487, .f32⟩ : BufTy).Contents (Elt F)),
    unary main_v2434 main_v2469 ((extractStridedSlice S128x487x1 ![0, 11, 11] · slices_S128x512x26_S128x487x1_0_11_11) : (⟨S128x512x26, .f32⟩ : BufTy).Contents (Elt F) → (⟨S128x487x1, .f32⟩ : BufTy).Contents (Elt F)),
    reshape main_v2469 main_v2470 rfl shapeCasts_S128x487x1_S128x487,
    binary main_v2468 main_v2470 main_v2471 (addf : (⟨S128x487, .f32⟩ : BufTy).Contents (Elt F) → (⟨S128x487, .f32⟩ : BufTy).Contents (Elt F) → (⟨S128x487, .f32⟩ : BufTy).Contents (Elt F)),
    unary main_v2434 main_v2472 ((extractStridedSlice S128x487x1 ![0, 12, 12] · slices_S128x512x26_S128x487x1_0_12_12) : (⟨S128x512x26, .f32⟩ : BufTy).Contents (Elt F) → (⟨S128x487x1, .f32⟩ : BufTy).Contents (Elt F)),
    reshape main_v2472 main_v2473 rfl shapeCasts_S128x487x1_S128x487,
    binary main_v2471 main_v2473 main_v2474 (addf : (⟨S128x487, .f32⟩ : BufTy).Contents (Elt F) → (⟨S128x487, .f32⟩ : BufTy).Contents (Elt F) → (⟨S128x487, .f32⟩ : BufTy).Contents (Elt F)),
    unary main_v2434 main_v2475 ((extractStridedSlice S128x487x1 ![0, 13, 13] · slices_S128x512x26_S128x487x1_0_13_13) : (⟨S128x512x26, .f32⟩ : BufTy).Contents (Elt F) → (⟨S128x487x1, .f32⟩ : BufTy).Contents (Elt F)),
    reshape main_v2475 main_v2476 rfl shapeCasts_S128x487x1_S128x487,
    binary main_v2474 main_v2476 main_v2477 (addf : (⟨S128x487, .f32⟩ : BufTy).Contents (Elt F) → (⟨S128x487, .f32⟩ : BufTy).Contents (Elt F) → (⟨S128x487, .f32⟩ : BufTy).Contents (Elt F)),
    unary main_v2434 main_v2478 ((extractStridedSlice S128x487x1 ![0, 14, 14] · slices_S128x512x26_S128x487x1_0_14_14) : (⟨S128x512x26, .f32⟩ : BufTy).Contents (Elt F) → (⟨S128x487x1, .f32⟩ : BufTy).Contents (Elt F)),
    reshape main_v2478 main_v2479 rfl shapeCasts_S128x487x1_S128x487,
    binary main_v2477 main_v2479 main_v2480 (addf : (⟨S128x487, .f32⟩ : BufTy).Contents (Elt F) → (⟨S128x487, .f32⟩ : BufTy).Contents (Elt F) → (⟨S128x487, .f32⟩ : BufTy).Contents (Elt F)) ]

/-- Segment 92: 40 operations. -/
def seg92 : List (HloOp τ sig (Elt F)) :=
  [ unary main_v2434 main_v2481 ((extractStridedSlice S128x487x1 ![0, 15, 15] · slices_S128x512x26_S128x487x1_0_15_15) : (⟨S128x512x26, .f32⟩ : BufTy).Contents (Elt F) → (⟨S128x487x1, .f32⟩ : BufTy).Contents (Elt F)),
    reshape main_v2481 main_v2482 rfl shapeCasts_S128x487x1_S128x487,
    binary main_v2480 main_v2482 main_v2483 (addf : (⟨S128x487, .f32⟩ : BufTy).Contents (Elt F) → (⟨S128x487, .f32⟩ : BufTy).Contents (Elt F) → (⟨S128x487, .f32⟩ : BufTy).Contents (Elt F)),
    unary main_v2434 main_v2484 ((extractStridedSlice S128x487x1 ![0, 16, 16] · slices_S128x512x26_S128x487x1_0_16_16) : (⟨S128x512x26, .f32⟩ : BufTy).Contents (Elt F) → (⟨S128x487x1, .f32⟩ : BufTy).Contents (Elt F)),
    reshape main_v2484 main_v2485 rfl shapeCasts_S128x487x1_S128x487,
    binary main_v2483 main_v2485 main_v2486 (addf : (⟨S128x487, .f32⟩ : BufTy).Contents (Elt F) → (⟨S128x487, .f32⟩ : BufTy).Contents (Elt F) → (⟨S128x487, .f32⟩ : BufTy).Contents (Elt F)),
    unary main_v2434 main_v2487 ((extractStridedSlice S128x487x1 ![0, 17, 17] · slices_S128x512x26_S128x487x1_0_17_17) : (⟨S128x512x26, .f32⟩ : BufTy).Contents (Elt F) → (⟨S128x487x1, .f32⟩ : BufTy).Contents (Elt F)),
    reshape main_v2487 main_v2488 rfl shapeCasts_S128x487x1_S128x487,
    binary main_v2486 main_v2488 main_v2489 (addf : (⟨S128x487, .f32⟩ : BufTy).Contents (Elt F) → (⟨S128x487, .f32⟩ : BufTy).Contents (Elt F) → (⟨S128x487, .f32⟩ : BufTy).Contents (Elt F)),
    unary main_v2434 main_v2490 ((extractStridedSlice S128x487x1 ![0, 18, 18] · slices_S128x512x26_S128x487x1_0_18_18) : (⟨S128x512x26, .f32⟩ : BufTy).Contents (Elt F) → (⟨S128x487x1, .f32⟩ : BufTy).Contents (Elt F)),
    reshape main_v2490 main_v2491 rfl shapeCasts_S128x487x1_S128x487,
    binary main_v2489 main_v2491 main_v2492 (addf : (⟨S128x487, .f32⟩ : BufTy).Contents (Elt F) → (⟨S128x487, .f32⟩ : BufTy).Contents (Elt F) → (⟨S128x487, .f32⟩ : BufTy).Contents (Elt F)),
    unary main_v2434 main_v2493 ((extractStridedSlice S128x487x1 ![0, 19, 19] · slices_S128x512x26_S128x487x1_0_19_19) : (⟨S128x512x26, .f32⟩ : BufTy).Contents (Elt F) → (⟨S128x487x1, .f32⟩ : BufTy).Contents (Elt F)),
    reshape main_v2493 main_v2494 rfl shapeCasts_S128x487x1_S128x487,
    binary main_v2492 main_v2494 main_v2495 (addf : (⟨S128x487, .f32⟩ : BufTy).Contents (Elt F) → (⟨S128x487, .f32⟩ : BufTy).Contents (Elt F) → (⟨S128x487, .f32⟩ : BufTy).Contents (Elt F)),
    unary main_v2434 main_v2496 ((extractStridedSlice S128x487x1 ![0, 20, 20] · slices_S128x512x26_S128x487x1_0_20_20) : (⟨S128x512x26, .f32⟩ : BufTy).Contents (Elt F) → (⟨S128x487x1, .f32⟩ : BufTy).Contents (Elt F)),
    reshape main_v2496 main_v2497 rfl shapeCasts_S128x487x1_S128x487,
    binary main_v2495 main_v2497 main_v2498 (addf : (⟨S128x487, .f32⟩ : BufTy).Contents (Elt F) → (⟨S128x487, .f32⟩ : BufTy).Contents (Elt F) → (⟨S128x487, .f32⟩ : BufTy).Contents (Elt F)),
    unary main_v2434 main_v2499 ((extractStridedSlice S128x487x1 ![0, 21, 21] · slices_S128x512x26_S128x487x1_0_21_21) : (⟨S128x512x26, .f32⟩ : BufTy).Contents (Elt F) → (⟨S128x487x1, .f32⟩ : BufTy).Contents (Elt F)),
    reshape main_v2499 main_v2500 rfl shapeCasts_S128x487x1_S128x487,
    binary main_v2498 main_v2500 main_v2501 (addf : (⟨S128x487, .f32⟩ : BufTy).Contents (Elt F) → (⟨S128x487, .f32⟩ : BufTy).Contents (Elt F) → (⟨S128x487, .f32⟩ : BufTy).Contents (Elt F)),
    unary main_v2434 main_v2502 ((extractStridedSlice S128x487x1 ![0, 22, 22] · slices_S128x512x26_S128x487x1_0_22_22) : (⟨S128x512x26, .f32⟩ : BufTy).Contents (Elt F) → (⟨S128x487x1, .f32⟩ : BufTy).Contents (Elt F)),
    reshape main_v2502 main_v2503 rfl shapeCasts_S128x487x1_S128x487,
    binary main_v2501 main_v2503 main_v2504 (addf : (⟨S128x487, .f32⟩ : BufTy).Contents (Elt F) → (⟨S128x487, .f32⟩ : BufTy).Contents (Elt F) → (⟨S128x487, .f32⟩ : BufTy).Contents (Elt F)),
    unary main_v2434 main_v2505 ((extractStridedSlice S128x487x1 ![0, 23, 23] · slices_S128x512x26_S128x487x1_0_23_23) : (⟨S128x512x26, .f32⟩ : BufTy).Contents (Elt F) → (⟨S128x487x1, .f32⟩ : BufTy).Contents (Elt F)),
    reshape main_v2505 main_v2506 rfl shapeCasts_S128x487x1_S128x487,
    binary main_v2504 main_v2506 main_v2507 (addf : (⟨S128x487, .f32⟩ : BufTy).Contents (Elt F) → (⟨S128x487, .f32⟩ : BufTy).Contents (Elt F) → (⟨S128x487, .f32⟩ : BufTy).Contents (Elt F)),
    unary main_v2434 main_v2508 ((extractStridedSlice S128x487x1 ![0, 24, 24] · slices_S128x512x26_S128x487x1_0_24_24) : (⟨S128x512x26, .f32⟩ : BufTy).Contents (Elt F) → (⟨S128x487x1, .f32⟩ : BufTy).Contents (Elt F)),
    reshape main_v2508 main_v2509 rfl shapeCasts_S128x487x1_S128x487,
    binary main_v2507 main_v2509 main_v2510 (addf : (⟨S128x487, .f32⟩ : BufTy).Contents (Elt F) → (⟨S128x487, .f32⟩ : BufTy).Contents (Elt F) → (⟨S128x487, .f32⟩ : BufTy).Contents (Elt F)),
    unary main_v2434 main_v2511 ((extractStridedSlice S128x487x1 ![0, 25, 25] · slices_S128x512x26_S128x487x1_0_25_25) : (⟨S128x512x26, .f32⟩ : BufTy).Contents (Elt F) → (⟨S128x487x1, .f32⟩ : BufTy).Contents (Elt F)),
    reshape main_v2511 main_v2512 rfl shapeCasts_S128x487x1_S128x487,
    binary main_v2510 main_v2512 main_v2513 (addf : (⟨S128x487, .f32⟩ : BufTy).Contents (Elt F) → (⟨S128x487, .f32⟩ : BufTy).Contents (Elt F) → (⟨S128x487, .f32⟩ : BufTy).Contents (Elt F)),
    unary main_arg3 main_v2514 ((extractStridedSlice S1 ![48] · slices_S64_S1_48) : (⟨S64, .f32⟩ : BufTy).Contents (Elt F) → (⟨S1, .f32⟩ : BufTy).Contents (Elt F)),
    reshape main_v2514 main_v2515 rfl shapeCasts_S1_S_,
    unary main_v2515 main_v2516 (broadcastInDim S128x487 ![] bcast_S_S128x487 : (⟨S_, .f32⟩ : BufTy).Contents (Elt F) → (⟨S128x487, .f32⟩ : BufTy).Contents (Elt F)),
    binary main_v2513 main_v2516 main_v2517 (addf : (⟨S128x487, .f32⟩ : BufTy).Contents (Elt F) → (⟨S128x487, .f32⟩ : BufTy).Contents (Elt F) → (⟨S128x487, .f32⟩ : BufTy).Contents (Elt F)),
    unary main_v2517 main_v2518 (Host.tanh : (⟨S128x487, .f32⟩ : BufTy).Contents (Elt F) → (⟨S128x487, .f32⟩ : BufTy).Contents (Elt F)),
    nullary main_cst_97 (constant S_ .f32 0xFF800000#32),
    binary main_v2518 main_cst_97 main_v2519 ((fun x v => Host.reduce FloatOps.maximumf x v reducesTo_S128x487_S128_d1 h_S_) : (⟨S128x487, .f32⟩ : BufTy).Contents (Elt F) → (⟨S_, .f32⟩ : BufTy).Contents (Elt F) → (⟨S128, .f32⟩ : BufTy).Contents (Elt F)) ]

/-- Segment 93: 20 operations. -/
def seg93 : List (HloOp τ sig (Elt F)) :=
  [ unary main_arg2 main_v2520 ((extractStridedSlice S1x26x300 ![49, 0, 0] · slices_S64x33x300_S1x26x300_49_0_0) : (⟨S64x33x300, .f32⟩ : BufTy).Contents (Elt F) → (⟨S1x26x300, .f32⟩ : BufTy).Contents (Elt F)),
    reshape main_v2520 main_v2521 rfl shapeCasts_S1x26x300_S26x300,
    binary main_v7 main_v2521 main_v2522 ((fun l r => Host.dotGeneral dot_S128x512x300_S26x300_S128x512x26_2_1_01_0_n_n none l r) : (⟨S128x512x300, .f32⟩ : BufTy).Contents (Elt F) → (⟨S26x300, .f32⟩ : BufTy).Contents (Elt F) → (⟨S128x512x26, .f32⟩ : BufTy).Contents (Elt F)),
    unary main_v2522 main_v2523 ((extractStridedSlice S128x487x1 ![0, 0, 0] · slices_S128x512x26_S128x487x1_0_0_0) : (⟨S128x512x26, .f32⟩ : BufTy).Contents (Elt F) → (⟨S128x487x1, .f32⟩ : BufTy).Contents (Elt F)),
    reshape main_v2523 main_v2524 rfl shapeCasts_S128x487x1_S128x487,
    nullary main_cst_98 (constant S_ .f32 0x00000000#32),
    unary main_cst_98 main_v2525 (broadcastInDim S128x487 ![] bcast_S_S128x487 : (⟨S_, .f32⟩ : BufTy).Contents (Elt F) → (⟨S128x487, .f32⟩ : BufTy).Contents (Elt F)),
    binary main_v2525 main_v2524 main_v2526 (addf : (⟨S128x487, .f32⟩ : BufTy).Contents (Elt F) → (⟨S128x487, .f32⟩ : BufTy).Contents (Elt F) → (⟨S128x487, .f32⟩ : BufTy).Contents (Elt F)),
    unary main_v2522 main_v2527 ((extractStridedSlice S128x487x1 ![0, 1, 1] · slices_S128x512x26_S128x487x1_0_1_1) : (⟨S128x512x26, .f32⟩ : BufTy).Contents (Elt F) → (⟨S128x487x1, .f32⟩ : BufTy).Contents (Elt F)),
    reshape main_v2527 main_v2528 rfl shapeCasts_S128x487x1_S128x487,
    binary main_v2526 main_v2528 main_v2529 (addf : (⟨S128x487, .f32⟩ : BufTy).Contents (Elt F) → (⟨S128x487, .f32⟩ : BufTy).Contents (Elt F) → (⟨S128x487, .f32⟩ : BufTy).Contents (Elt F)),
    unary main_v2522 main_v2530 ((extractStridedSlice S128x487x1 ![0, 2, 2] · slices_S128x512x26_S128x487x1_0_2_2) : (⟨S128x512x26, .f32⟩ : BufTy).Contents (Elt F) → (⟨S128x487x1, .f32⟩ : BufTy).Contents (Elt F)),
    reshape main_v2530 main_v2531 rfl shapeCasts_S128x487x1_S128x487,
    binary main_v2529 main_v2531 main_v2532 (addf : (⟨S128x487, .f32⟩ : BufTy).Contents (Elt F) → (⟨S128x487, .f32⟩ : BufTy).Contents (Elt F) → (⟨S128x487, .f32⟩ : BufTy).Contents (Elt F)),
    unary main_v2522 main_v2533 ((extractStridedSlice S128x487x1 ![0, 3, 3] · slices_S128x512x26_S128x487x1_0_3_3) : (⟨S128x512x26, .f32⟩ : BufTy).Contents (Elt F) → (⟨S128x487x1, .f32⟩ : BufTy).Contents (Elt F)),
    reshape main_v2533 main_v2534 rfl shapeCasts_S128x487x1_S128x487,
    binary main_v2532 main_v2534 main_v2535 (addf : (⟨S128x487, .f32⟩ : BufTy).Contents (Elt F) → (⟨S128x487, .f32⟩ : BufTy).Contents (Elt F) → (⟨S128x487, .f32⟩ : BufTy).Contents (Elt F)),
    unary main_v2522 main_v2536 ((extractStridedSlice S128x487x1 ![0, 4, 4] · slices_S128x512x26_S128x487x1_0_4_4) : (⟨S128x512x26, .f32⟩ : BufTy).Contents (Elt F) → (⟨S128x487x1, .f32⟩ : BufTy).Contents (Elt F)),
    reshape main_v2536 main_v2537 rfl shapeCasts_S128x487x1_S128x487,
    binary main_v2535 main_v2537 main_v2538 (addf : (⟨S128x487, .f32⟩ : BufTy).Contents (Elt F) → (⟨S128x487, .f32⟩ : BufTy).Contents (Elt F) → (⟨S128x487, .f32⟩ : BufTy).Contents (Elt F)) ]

/-- Segment 94: 60 operations. -/
def seg94 : List (HloOp τ sig (Elt F)) :=
  [ unary main_v2522 main_v2539 ((extractStridedSlice S128x487x1 ![0, 5, 5] · slices_S128x512x26_S128x487x1_0_5_5) : (⟨S128x512x26, .f32⟩ : BufTy).Contents (Elt F) → (⟨S128x487x1, .f32⟩ : BufTy).Contents (Elt F)),
    reshape main_v2539 main_v2540 rfl shapeCasts_S128x487x1_S128x487,
    binary main_v2538 main_v2540 main_v2541 (addf : (⟨S128x487, .f32⟩ : BufTy).Contents (Elt F) → (⟨S128x487, .f32⟩ : BufTy).Contents (Elt F) → (⟨S128x487, .f32⟩ : BufTy).Contents (Elt F)),
    unary main_v2522 main_v2542 ((extractStridedSlice S128x487x1 ![0, 6, 6] · slices_S128x512x26_S128x487x1_0_6_6) : (⟨S128x512x26, .f32⟩ : BufTy).Contents (Elt F) → (⟨S128x487x1, .f32⟩ : BufTy).Contents (Elt F)),
    reshape main_v2542 main_v2543 rfl shapeCasts_S128x487x1_S128x487,
    binary main_v2541 main_v2543 main_v2544 (addf : (⟨S128x487, .f32⟩ : BufTy).Contents (Elt F) → (⟨S128x487, .f32⟩ : BufTy).Contents (Elt F) → (⟨S128x487, .f32⟩ : BufTy).Contents (Elt F)),
    unary main_v2522 main_v2545 ((extractStridedSlice S128x487x1 ![0, 7, 7] · slices_S128x512x26_S128x487x1_0_7_7) : (⟨S128x512x26, .f32⟩ : BufTy).Contents (Elt F) → (⟨S128x487x1, .f32⟩ : BufTy).Contents (Elt F)),
    reshape main_v2545 main_v2546 rfl shapeCasts_S128x487x1_S128x487,
    binary main_v2544 main_v2546 main_v2547 (addf : (⟨S128x487, .f32⟩ : BufTy).Contents (Elt F) → (⟨S128x487, .f32⟩ : BufTy).Contents (Elt F) → (⟨S128x487, .f32⟩ : BufTy).Contents (Elt F)),
    unary main_v2522 main_v2548 ((extractStridedSlice S128x487x1 ![0, 8, 8] · slices_S128x512x26_S128x487x1_0_8_8) : (⟨S128x512x26, .f32⟩ : BufTy).Contents (Elt F) → (⟨S128x487x1, .f32⟩ : BufTy).Contents (Elt F)),
    reshape main_v2548 main_v2549 rfl shapeCasts_S128x487x1_S128x487,
    binary main_v2547 main_v2549 main_v2550 (addf : (⟨S128x487, .f32⟩ : BufTy).Contents (Elt F) → (⟨S128x487, .f32⟩ : BufTy).Contents (Elt F) → (⟨S128x487, .f32⟩ : BufTy).Contents (Elt F)),
    unary main_v2522 main_v2551 ((extractStridedSlice S128x487x1 ![0, 9, 9] · slices_S128x512x26_S128x487x1_0_9_9) : (⟨S128x512x26, .f32⟩ : BufTy).Contents (Elt F) → (⟨S128x487x1, .f32⟩ : BufTy).Contents (Elt F)),
    reshape main_v2551 main_v2552 rfl shapeCasts_S128x487x1_S128x487,
    binary main_v2550 main_v2552 main_v2553 (addf : (⟨S128x487, .f32⟩ : BufTy).Contents (Elt F) → (⟨S128x487, .f32⟩ : BufTy).Contents (Elt F) → (⟨S128x487, .f32⟩ : BufTy).Contents (Elt F)),
    unary main_v2522 main_v2554 ((extractStridedSlice S128x487x1 ![0, 10, 10] · slices_S128x512x26_S128x487x1_0_10_10) : (⟨S128x512x26, .f32⟩ : BufTy).Contents (Elt F) → (⟨S128x487x1, .f32⟩ : BufTy).Contents (Elt F)),
    reshape main_v2554 main_v2555 rfl shapeCasts_S128x487x1_S128x487,
    binary main_v2553 main_v2555 main_v2556 (addf : (⟨S128x487, .f32⟩ : BufTy).Contents (Elt F) → (⟨S128x487, .f32⟩ : BufTy).Contents (Elt F) → (⟨S128x487, .f32⟩ : BufTy).Contents (Elt F)),
    unary main_v2522 main_v2557 ((extractStridedSlice S128x487x1 ![0, 11, 11] · slices_S128x512x26_S128x487x1_0_11_11) : (⟨S128x512x26, .f32⟩ : BufTy).Contents (Elt F) → (⟨S128x487x1, .f32⟩ : BufTy).Contents (Elt F)),
    reshape main_v2557 main_v2558 rfl shapeCasts_S128x487x1_S128x487,
    binary main_v2556 main_v2558 main_v2559 (addf : (⟨S128x487, .f32⟩ : BufTy).Contents (Elt F) → (⟨S128x487, .f32⟩ : BufTy).Contents (Elt F) → (⟨S128x487, .f32⟩ : BufTy).Contents (Elt F)),
    unary main_v2522 main_v2560 ((extractStridedSlice S128x487x1 ![0, 12, 12] · slices_S128x512x26_S128x487x1_0_12_12) : (⟨S128x512x26, .f32⟩ : BufTy).Contents (Elt F) → (⟨S128x487x1, .f32⟩ : BufTy).Contents (Elt F)),
    reshape main_v2560 main_v2561 rfl shapeCasts_S128x487x1_S128x487,
    binary main_v2559 main_v2561 main_v2562 (addf : (⟨S128x487, .f32⟩ : BufTy).Contents (Elt F) → (⟨S128x487, .f32⟩ : BufTy).Contents (Elt F) → (⟨S128x487, .f32⟩ : BufTy).Contents (Elt F)),
    unary main_v2522 main_v2563 ((extractStridedSlice S128x487x1 ![0, 13, 13] · slices_S128x512x26_S128x487x1_0_13_13) : (⟨S128x512x26, .f32⟩ : BufTy).Contents (Elt F) → (⟨S128x487x1, .f32⟩ : BufTy).Contents (Elt F)),
    reshape main_v2563 main_v2564 rfl shapeCasts_S128x487x1_S128x487,
    binary main_v2562 main_v2564 main_v2565 (addf : (⟨S128x487, .f32⟩ : BufTy).Contents (Elt F) → (⟨S128x487, .f32⟩ : BufTy).Contents (Elt F) → (⟨S128x487, .f32⟩ : BufTy).Contents (Elt F)),
    unary main_v2522 main_v2566 ((extractStridedSlice S128x487x1 ![0, 14, 14] · slices_S128x512x26_S128x487x1_0_14_14) : (⟨S128x512x26, .f32⟩ : BufTy).Contents (Elt F) → (⟨S128x487x1, .f32⟩ : BufTy).Contents (Elt F)),
    reshape main_v2566 main_v2567 rfl shapeCasts_S128x487x1_S128x487,
    binary main_v2565 main_v2567 main_v2568 (addf : (⟨S128x487, .f32⟩ : BufTy).Contents (Elt F) → (⟨S128x487, .f32⟩ : BufTy).Contents (Elt F) → (⟨S128x487, .f32⟩ : BufTy).Contents (Elt F)),
    unary main_v2522 main_v2569 ((extractStridedSlice S128x487x1 ![0, 15, 15] · slices_S128x512x26_S128x487x1_0_15_15) : (⟨S128x512x26, .f32⟩ : BufTy).Contents (Elt F) → (⟨S128x487x1, .f32⟩ : BufTy).Contents (Elt F)),
    reshape main_v2569 main_v2570 rfl shapeCasts_S128x487x1_S128x487,
    binary main_v2568 main_v2570 main_v2571 (addf : (⟨S128x487, .f32⟩ : BufTy).Contents (Elt F) → (⟨S128x487, .f32⟩ : BufTy).Contents (Elt F) → (⟨S128x487, .f32⟩ : BufTy).Contents (Elt F)),
    unary main_v2522 main_v2572 ((extractStridedSlice S128x487x1 ![0, 16, 16] · slices_S128x512x26_S128x487x1_0_16_16) : (⟨S128x512x26, .f32⟩ : BufTy).Contents (Elt F) → (⟨S128x487x1, .f32⟩ : BufTy).Contents (Elt F)),
    reshape main_v2572 main_v2573 rfl shapeCasts_S128x487x1_S128x487,
    binary main_v2571 main_v2573 main_v2574 (addf : (⟨S128x487, .f32⟩ : BufTy).Contents (Elt F) → (⟨S128x487, .f32⟩ : BufTy).Contents (Elt F) → (⟨S128x487, .f32⟩ : BufTy).Contents (Elt F)),
    unary main_v2522 main_v2575 ((extractStridedSlice S128x487x1 ![0, 17, 17] · slices_S128x512x26_S128x487x1_0_17_17) : (⟨S128x512x26, .f32⟩ : BufTy).Contents (Elt F) → (⟨S128x487x1, .f32⟩ : BufTy).Contents (Elt F)),
    reshape main_v2575 main_v2576 rfl shapeCasts_S128x487x1_S128x487,
    binary main_v2574 main_v2576 main_v2577 (addf : (⟨S128x487, .f32⟩ : BufTy).Contents (Elt F) → (⟨S128x487, .f32⟩ : BufTy).Contents (Elt F) → (⟨S128x487, .f32⟩ : BufTy).Contents (Elt F)),
    unary main_v2522 main_v2578 ((extractStridedSlice S128x487x1 ![0, 18, 18] · slices_S128x512x26_S128x487x1_0_18_18) : (⟨S128x512x26, .f32⟩ : BufTy).Contents (Elt F) → (⟨S128x487x1, .f32⟩ : BufTy).Contents (Elt F)),
    reshape main_v2578 main_v2579 rfl shapeCasts_S128x487x1_S128x487,
    binary main_v2577 main_v2579 main_v2580 (addf : (⟨S128x487, .f32⟩ : BufTy).Contents (Elt F) → (⟨S128x487, .f32⟩ : BufTy).Contents (Elt F) → (⟨S128x487, .f32⟩ : BufTy).Contents (Elt F)),
    unary main_v2522 main_v2581 ((extractStridedSlice S128x487x1 ![0, 19, 19] · slices_S128x512x26_S128x487x1_0_19_19) : (⟨S128x512x26, .f32⟩ : BufTy).Contents (Elt F) → (⟨S128x487x1, .f32⟩ : BufTy).Contents (Elt F)),
    reshape main_v2581 main_v2582 rfl shapeCasts_S128x487x1_S128x487,
    binary main_v2580 main_v2582 main_v2583 (addf : (⟨S128x487, .f32⟩ : BufTy).Contents (Elt F) → (⟨S128x487, .f32⟩ : BufTy).Contents (Elt F) → (⟨S128x487, .f32⟩ : BufTy).Contents (Elt F)),
    unary main_v2522 main_v2584 ((extractStridedSlice S128x487x1 ![0, 20, 20] · slices_S128x512x26_S128x487x1_0_20_20) : (⟨S128x512x26, .f32⟩ : BufTy).Contents (Elt F) → (⟨S128x487x1, .f32⟩ : BufTy).Contents (Elt F)),
    reshape main_v2584 main_v2585 rfl shapeCasts_S128x487x1_S128x487,
    binary main_v2583 main_v2585 main_v2586 (addf : (⟨S128x487, .f32⟩ : BufTy).Contents (Elt F) → (⟨S128x487, .f32⟩ : BufTy).Contents (Elt F) → (⟨S128x487, .f32⟩ : BufTy).Contents (Elt F)),
    unary main_v2522 main_v2587 ((extractStridedSlice S128x487x1 ![0, 21, 21] · slices_S128x512x26_S128x487x1_0_21_21) : (⟨S128x512x26, .f32⟩ : BufTy).Contents (Elt F) → (⟨S128x487x1, .f32⟩ : BufTy).Contents (Elt F)),
    reshape main_v2587 main_v2588 rfl shapeCasts_S128x487x1_S128x487,
    binary main_v2586 main_v2588 main_v2589 (addf : (⟨S128x487, .f32⟩ : BufTy).Contents (Elt F) → (⟨S128x487, .f32⟩ : BufTy).Contents (Elt F) → (⟨S128x487, .f32⟩ : BufTy).Contents (Elt F)),
    unary main_v2522 main_v2590 ((extractStridedSlice S128x487x1 ![0, 22, 22] · slices_S128x512x26_S128x487x1_0_22_22) : (⟨S128x512x26, .f32⟩ : BufTy).Contents (Elt F) → (⟨S128x487x1, .f32⟩ : BufTy).Contents (Elt F)),
    reshape main_v2590 main_v2591 rfl shapeCasts_S128x487x1_S128x487,
    binary main_v2589 main_v2591 main_v2592 (addf : (⟨S128x487, .f32⟩ : BufTy).Contents (Elt F) → (⟨S128x487, .f32⟩ : BufTy).Contents (Elt F) → (⟨S128x487, .f32⟩ : BufTy).Contents (Elt F)),
    unary main_v2522 main_v2593 ((extractStridedSlice S128x487x1 ![0, 23, 23] · slices_S128x512x26_S128x487x1_0_23_23) : (⟨S128x512x26, .f32⟩ : BufTy).Contents (Elt F) → (⟨S128x487x1, .f32⟩ : BufTy).Contents (Elt F)),
    reshape main_v2593 main_v2594 rfl shapeCasts_S128x487x1_S128x487,
    binary main_v2592 main_v2594 main_v2595 (addf : (⟨S128x487, .f32⟩ : BufTy).Contents (Elt F) → (⟨S128x487, .f32⟩ : BufTy).Contents (Elt F) → (⟨S128x487, .f32⟩ : BufTy).Contents (Elt F)),
    unary main_v2522 main_v2596 ((extractStridedSlice S128x487x1 ![0, 24, 24] · slices_S128x512x26_S128x487x1_0_24_24) : (⟨S128x512x26, .f32⟩ : BufTy).Contents (Elt F) → (⟨S128x487x1, .f32⟩ : BufTy).Contents (Elt F)),
    reshape main_v2596 main_v2597 rfl shapeCasts_S128x487x1_S128x487,
    binary main_v2595 main_v2597 main_v2598 (addf : (⟨S128x487, .f32⟩ : BufTy).Contents (Elt F) → (⟨S128x487, .f32⟩ : BufTy).Contents (Elt F) → (⟨S128x487, .f32⟩ : BufTy).Contents (Elt F)) ]

/-- Segment 95: 10 operations. -/
def seg95 : List (HloOp τ sig (Elt F)) :=
  [ unary main_v2522 main_v2599 ((extractStridedSlice S128x487x1 ![0, 25, 25] · slices_S128x512x26_S128x487x1_0_25_25) : (⟨S128x512x26, .f32⟩ : BufTy).Contents (Elt F) → (⟨S128x487x1, .f32⟩ : BufTy).Contents (Elt F)),
    reshape main_v2599 main_v2600 rfl shapeCasts_S128x487x1_S128x487,
    binary main_v2598 main_v2600 main_v2601 (addf : (⟨S128x487, .f32⟩ : BufTy).Contents (Elt F) → (⟨S128x487, .f32⟩ : BufTy).Contents (Elt F) → (⟨S128x487, .f32⟩ : BufTy).Contents (Elt F)),
    unary main_arg3 main_v2602 ((extractStridedSlice S1 ![49] · slices_S64_S1_49) : (⟨S64, .f32⟩ : BufTy).Contents (Elt F) → (⟨S1, .f32⟩ : BufTy).Contents (Elt F)),
    reshape main_v2602 main_v2603 rfl shapeCasts_S1_S_,
    unary main_v2603 main_v2604 (broadcastInDim S128x487 ![] bcast_S_S128x487 : (⟨S_, .f32⟩ : BufTy).Contents (Elt F) → (⟨S128x487, .f32⟩ : BufTy).Contents (Elt F)),
    binary main_v2601 main_v2604 main_v2605 (addf : (⟨S128x487, .f32⟩ : BufTy).Contents (Elt F) → (⟨S128x487, .f32⟩ : BufTy).Contents (Elt F) → (⟨S128x487, .f32⟩ : BufTy).Contents (Elt F)),
    unary main_v2605 main_v2606 (Host.tanh : (⟨S128x487, .f32⟩ : BufTy).Contents (Elt F) → (⟨S128x487, .f32⟩ : BufTy).Contents (Elt F)),
    nullary main_cst_99 (constant S_ .f32 0xFF800000#32),
    binary main_v2606 main_cst_99 main_v2607 ((fun x v => Host.reduce FloatOps.maximumf x v reducesTo_S128x487_S128_d1 h_S_) : (⟨S128x487, .f32⟩ : BufTy).Contents (Elt F) → (⟨S_, .f32⟩ : BufTy).Contents (Elt F) → (⟨S128, .f32⟩ : BufTy).Contents (Elt F)) ]

/-- Segment 96: 50 operations. -/
def seg96 : List (HloOp τ sig (Elt F)) :=
  [ unary main_arg2 main_v2608 ((extractStridedSlice S1x27x300 ![50, 0, 0] · slices_S64x33x300_S1x27x300_50_0_0) : (⟨S64x33x300, .f32⟩ : BufTy).Contents (Elt F) → (⟨S1x27x300, .f32⟩ : BufTy).Contents (Elt F)),
    reshape main_v2608 main_v2609 rfl shapeCasts_S1x27x300_S27x300,
    binary main_v7 main_v2609 main_v2610 ((fun l r => Host.dotGeneral dot_S128x512x300_S27x300_S128x512x27_2_1_01_0_n_n none l r) : (⟨S128x512x300, .f32⟩ : BufTy).Contents (Elt F) → (⟨S27x300, .f32⟩ : BufTy).Contents (Elt F) → (⟨S128x512x27, .f32⟩ : BufTy).Contents (Elt F)),
    unary main_v2610 main_v2611 ((extractStridedSlice S128x486x1 ![0, 0, 0] · slices_S128x512x27_S128x486x1_0_0_0) : (⟨S128x512x27, .f32⟩ : BufTy).Contents (Elt F) → (⟨S128x486x1, .f32⟩ : BufTy).Contents (Elt F)),
    reshape main_v2611 main_v2612 rfl shapeCasts_S128x486x1_S128x486,
    nullary main_cst_100 (constant S_ .f32 0x00000000#32),
    unary main_cst_100 main_v2613 (broadcastInDim S128x486 ![] bcast_S_S128x486 : (⟨S_, .f32⟩ : BufTy).Contents (Elt F) → (⟨S128x486, .f32⟩ : BufTy).Contents (Elt F)),
    binary main_v2613 main_v2612 main_v2614 (addf : (⟨S128x486, .f32⟩ : BufTy).Contents (Elt F) → (⟨S128x486, .f32⟩ : BufTy).Contents (Elt F) → (⟨S128x486, .f32⟩ : BufTy).Contents (Elt F)),
    unary main_v2610 main_v2615 ((extractStridedSlice S128x486x1 ![0, 1, 1] · slices_S128x512x27_S128x486x1_0_1_1) : (⟨S128x512x27, .f32⟩ : BufTy).Contents (Elt F) → (⟨S128x486x1, .f32⟩ : BufTy).Contents (Elt F)),
    reshape main_v2615 main_v2616 rfl shapeCasts_S128x486x1_S128x486,
    binary main_v2614 main_v2616 main_v2617 (addf : (⟨S128x486, .f32⟩ : BufTy).Contents (Elt F) → (⟨S128x486, .f32⟩ : BufTy).Contents (Elt F) → (⟨S128x486, .f32⟩ : BufTy).Contents (Elt F)),
    unary main_v2610 main_v2618 ((extractStridedSlice S128x486x1 ![0, 2, 2] · slices_S128x512x27_S128x486x1_0_2_2) : (⟨S128x512x27, .f32⟩ : BufTy).Contents (Elt F) → (⟨S128x486x1, .f32⟩ : BufTy).Contents (Elt F)),
    reshape main_v2618 main_v2619 rfl shapeCasts_S128x486x1_S128x486,
    binary main_v2617 main_v2619 main_v2620 (addf : (⟨S128x486, .f32⟩ : BufTy).Contents (Elt F) → (⟨S128x486, .f32⟩ : BufTy).Contents (Elt F) → (⟨S128x486, .f32⟩ : BufTy).Contents (Elt F)),
    unary main_v2610 main_v2621 ((extractStridedSlice S128x486x1 ![0, 3, 3] · slices_S128x512x27_S128x486x1_0_3_3) : (⟨S128x512x27, .f32⟩ : BufTy).Contents (Elt F) → (⟨S128x486x1, .f32⟩ : BufTy).Contents (Elt F)),
    reshape main_v2621 main_v2622 rfl shapeCasts_S128x486x1_S128x486,
    binary main_v2620 main_v2622 main_v2623 (addf : (⟨S128x486, .f32⟩ : BufTy).Contents (Elt F) → (⟨S128x486, .f32⟩ : BufTy).Contents (Elt F) → (⟨S128x486, .f32⟩ : BufTy).Contents (Elt F)),
    unary main_v2610 main_v2624 ((extractStridedSlice S128x486x1 ![0, 4, 4] · slices_S128x512x27_S128x486x1_0_4_4) : (⟨S128x512x27, .f32⟩ : BufTy).Contents (Elt F) → (⟨S128x486x1, .f32⟩ : BufTy).Contents (Elt F)),
    reshape main_v2624 main_v2625 rfl shapeCasts_S128x486x1_S128x486,
    binary main_v2623 main_v2625 main_v2626 (addf : (⟨S128x486, .f32⟩ : BufTy).Contents (Elt F) → (⟨S128x486, .f32⟩ : BufTy).Contents (Elt F) → (⟨S128x486, .f32⟩ : BufTy).Contents (Elt F)),
    unary main_v2610 main_v2627 ((extractStridedSlice S128x486x1 ![0, 5, 5] · slices_S128x512x27_S128x486x1_0_5_5) : (⟨S128x512x27, .f32⟩ : BufTy).Contents (Elt F) → (⟨S128x486x1, .f32⟩ : BufTy).Contents (Elt F)),
    reshape main_v2627 main_v2628 rfl shapeCasts_S128x486x1_S128x486,
    binary main_v2626 main_v2628 main_v2629 (addf : (⟨S128x486, .f32⟩ : BufTy).Contents (Elt F) → (⟨S128x486, .f32⟩ : BufTy).Contents (Elt F) → (⟨S128x486, .f32⟩ : BufTy).Contents (Elt F)),
    unary main_v2610 main_v2630 ((extractStridedSlice S128x486x1 ![0, 6, 6] · slices_S128x512x27_S128x486x1_0_6_6) : (⟨S128x512x27, .f32⟩ : BufTy).Contents (Elt F) → (⟨S128x486x1, .f32⟩ : BufTy).Contents (Elt F)),
    reshape main_v2630 main_v2631 rfl shapeCasts_S128x486x1_S128x486,
    binary main_v2629 main_v2631 main_v2632 (addf : (⟨S128x486, .f32⟩ : BufTy).Contents (Elt F) → (⟨S128x486, .f32⟩ : BufTy).Contents (Elt F) → (⟨S128x486, .f32⟩ : BufTy).Contents (Elt F)),
    unary main_v2610 main_v2633 ((extractStridedSlice S128x486x1 ![0, 7, 7] · slices_S128x512x27_S128x486x1_0_7_7) : (⟨S128x512x27, .f32⟩ : BufTy).Contents (Elt F) → (⟨S128x486x1, .f32⟩ : BufTy).Contents (Elt F)),
    reshape main_v2633 main_v2634 rfl shapeCasts_S128x486x1_S128x486,
    binary main_v2632 main_v2634 main_v2635 (addf : (⟨S128x486, .f32⟩ : BufTy).Contents (Elt F) → (⟨S128x486, .f32⟩ : BufTy).Contents (Elt F) → (⟨S128x486, .f32⟩ : BufTy).Contents (Elt F)),
    unary main_v2610 main_v2636 ((extractStridedSlice S128x486x1 ![0, 8, 8] · slices_S128x512x27_S128x486x1_0_8_8) : (⟨S128x512x27, .f32⟩ : BufTy).Contents (Elt F) → (⟨S128x486x1, .f32⟩ : BufTy).Contents (Elt F)),
    reshape main_v2636 main_v2637 rfl shapeCasts_S128x486x1_S128x486,
    binary main_v2635 main_v2637 main_v2638 (addf : (⟨S128x486, .f32⟩ : BufTy).Contents (Elt F) → (⟨S128x486, .f32⟩ : BufTy).Contents (Elt F) → (⟨S128x486, .f32⟩ : BufTy).Contents (Elt F)),
    unary main_v2610 main_v2639 ((extractStridedSlice S128x486x1 ![0, 9, 9] · slices_S128x512x27_S128x486x1_0_9_9) : (⟨S128x512x27, .f32⟩ : BufTy).Contents (Elt F) → (⟨S128x486x1, .f32⟩ : BufTy).Contents (Elt F)),
    reshape main_v2639 main_v2640 rfl shapeCasts_S128x486x1_S128x486,
    binary main_v2638 main_v2640 main_v2641 (addf : (⟨S128x486, .f32⟩ : BufTy).Contents (Elt F) → (⟨S128x486, .f32⟩ : BufTy).Contents (Elt F) → (⟨S128x486, .f32⟩ : BufTy).Contents (Elt F)),
    unary main_v2610 main_v2642 ((extractStridedSlice S128x486x1 ![0, 10, 10] · slices_S128x512x27_S128x486x1_0_10_10) : (⟨S128x512x27, .f32⟩ : BufTy).Contents (Elt F) → (⟨S128x486x1, .f32⟩ : BufTy).Contents (Elt F)),
    reshape main_v2642 main_v2643 rfl shapeCasts_S128x486x1_S128x486,
    binary main_v2641 main_v2643 main_v2644 (addf : (⟨S128x486, .f32⟩ : BufTy).Contents (Elt F) → (⟨S128x486, .f32⟩ : BufTy).Contents (Elt F) → (⟨S128x486, .f32⟩ : BufTy).Contents (Elt F)),
    unary main_v2610 main_v2645 ((extractStridedSlice S128x486x1 ![0, 11, 11] · slices_S128x512x27_S128x486x1_0_11_11) : (⟨S128x512x27, .f32⟩ : BufTy).Contents (Elt F) → (⟨S128x486x1, .f32⟩ : BufTy).Contents (Elt F)),
    reshape main_v2645 main_v2646 rfl shapeCasts_S128x486x1_S128x486,
    binary main_v2644 main_v2646 main_v2647 (addf : (⟨S128x486, .f32⟩ : BufTy).Contents (Elt F) → (⟨S128x486, .f32⟩ : BufTy).Contents (Elt F) → (⟨S128x486, .f32⟩ : BufTy).Contents (Elt F)),
    unary main_v2610 main_v2648 ((extractStridedSlice S128x486x1 ![0, 12, 12] · slices_S128x512x27_S128x486x1_0_12_12) : (⟨S128x512x27, .f32⟩ : BufTy).Contents (Elt F) → (⟨S128x486x1, .f32⟩ : BufTy).Contents (Elt F)),
    reshape main_v2648 main_v2649 rfl shapeCasts_S128x486x1_S128x486,
    binary main_v2647 main_v2649 main_v2650 (addf : (⟨S128x486, .f32⟩ : BufTy).Contents (Elt F) → (⟨S128x486, .f32⟩ : BufTy).Contents (Elt F) → (⟨S128x486, .f32⟩ : BufTy).Contents (Elt F)),
    unary main_v2610 main_v2651 ((extractStridedSlice S128x486x1 ![0, 13, 13] · slices_S128x512x27_S128x486x1_0_13_13) : (⟨S128x512x27, .f32⟩ : BufTy).Contents (Elt F) → (⟨S128x486x1, .f32⟩ : BufTy).Contents (Elt F)),
    reshape main_v2651 main_v2652 rfl shapeCasts_S128x486x1_S128x486,
    binary main_v2650 main_v2652 main_v2653 (addf : (⟨S128x486, .f32⟩ : BufTy).Contents (Elt F) → (⟨S128x486, .f32⟩ : BufTy).Contents (Elt F) → (⟨S128x486, .f32⟩ : BufTy).Contents (Elt F)),
    unary main_v2610 main_v2654 ((extractStridedSlice S128x486x1 ![0, 14, 14] · slices_S128x512x27_S128x486x1_0_14_14) : (⟨S128x512x27, .f32⟩ : BufTy).Contents (Elt F) → (⟨S128x486x1, .f32⟩ : BufTy).Contents (Elt F)),
    reshape main_v2654 main_v2655 rfl shapeCasts_S128x486x1_S128x486,
    binary main_v2653 main_v2655 main_v2656 (addf : (⟨S128x486, .f32⟩ : BufTy).Contents (Elt F) → (⟨S128x486, .f32⟩ : BufTy).Contents (Elt F) → (⟨S128x486, .f32⟩ : BufTy).Contents (Elt F)) ]

/-- Segment 97: 43 operations. -/
def seg97 : List (HloOp τ sig (Elt F)) :=
  [ unary main_v2610 main_v2657 ((extractStridedSlice S128x486x1 ![0, 15, 15] · slices_S128x512x27_S128x486x1_0_15_15) : (⟨S128x512x27, .f32⟩ : BufTy).Contents (Elt F) → (⟨S128x486x1, .f32⟩ : BufTy).Contents (Elt F)),
    reshape main_v2657 main_v2658 rfl shapeCasts_S128x486x1_S128x486,
    binary main_v2656 main_v2658 main_v2659 (addf : (⟨S128x486, .f32⟩ : BufTy).Contents (Elt F) → (⟨S128x486, .f32⟩ : BufTy).Contents (Elt F) → (⟨S128x486, .f32⟩ : BufTy).Contents (Elt F)),
    unary main_v2610 main_v2660 ((extractStridedSlice S128x486x1 ![0, 16, 16] · slices_S128x512x27_S128x486x1_0_16_16) : (⟨S128x512x27, .f32⟩ : BufTy).Contents (Elt F) → (⟨S128x486x1, .f32⟩ : BufTy).Contents (Elt F)),
    reshape main_v2660 main_v2661 rfl shapeCasts_S128x486x1_S128x486,
    binary main_v2659 main_v2661 main_v2662 (addf : (⟨S128x486, .f32⟩ : BufTy).Contents (Elt F) → (⟨S128x486, .f32⟩ : BufTy).Contents (Elt F) → (⟨S128x486, .f32⟩ : BufTy).Contents (Elt F)),
    unary main_v2610 main_v2663 ((extractStridedSlice S128x486x1 ![0, 17, 17] · slices_S128x512x27_S128x486x1_0_17_17) : (⟨S128x512x27, .f32⟩ : BufTy).Contents (Elt F) → (⟨S128x486x1, .f32⟩ : BufTy).Contents (Elt F)),
    reshape main_v2663 main_v2664 rfl shapeCasts_S128x486x1_S128x486,
    binary main_v2662 main_v2664 main_v2665 (addf : (⟨S128x486, .f32⟩ : BufTy).Contents (Elt F) → (⟨S128x486, .f32⟩ : BufTy).Contents (Elt F) → (⟨S128x486, .f32⟩ : BufTy).Contents (Elt F)),
    unary main_v2610 main_v2666 ((extractStridedSlice S128x486x1 ![0, 18, 18] · slices_S128x512x27_S128x486x1_0_18_18) : (⟨S128x512x27, .f32⟩ : BufTy).Contents (Elt F) → (⟨S128x486x1, .f32⟩ : BufTy).Contents (Elt F)),
    reshape main_v2666 main_v2667 rfl shapeCasts_S128x486x1_S128x486,
    binary main_v2665 main_v2667 main_v2668 (addf : (⟨S128x486, .f32⟩ : BufTy).Contents (Elt F) → (⟨S128x486, .f32⟩ : BufTy).Contents (Elt F) → (⟨S128x486, .f32⟩ : BufTy).Contents (Elt F)),
    unary main_v2610 main_v2669 ((extractStridedSlice S128x486x1 ![0, 19, 19] · slices_S128x512x27_S128x486x1_0_19_19) : (⟨S128x512x27, .f32⟩ : BufTy).Contents (Elt F) → (⟨S128x486x1, .f32⟩ : BufTy).Contents (Elt F)),
    reshape main_v2669 main_v2670 rfl shapeCasts_S128x486x1_S128x486,
    binary main_v2668 main_v2670 main_v2671 (addf : (⟨S128x486, .f32⟩ : BufTy).Contents (Elt F) → (⟨S128x486, .f32⟩ : BufTy).Contents (Elt F) → (⟨S128x486, .f32⟩ : BufTy).Contents (Elt F)),
    unary main_v2610 main_v2672 ((extractStridedSlice S128x486x1 ![0, 20, 20] · slices_S128x512x27_S128x486x1_0_20_20) : (⟨S128x512x27, .f32⟩ : BufTy).Contents (Elt F) → (⟨S128x486x1, .f32⟩ : BufTy).Contents (Elt F)),
    reshape main_v2672 main_v2673 rfl shapeCasts_S128x486x1_S128x486,
    binary main_v2671 main_v2673 main_v2674 (addf : (⟨S128x486, .f32⟩ : BufTy).Contents (Elt F) → (⟨S128x486, .f32⟩ : BufTy).Contents (Elt F) → (⟨S128x486, .f32⟩ : BufTy).Contents (Elt F)),
    unary main_v2610 main_v2675 ((extractStridedSlice S128x486x1 ![0, 21, 21] · slices_S128x512x27_S128x486x1_0_21_21) : (⟨S128x512x27, .f32⟩ : BufTy).Contents (Elt F) → (⟨S128x486x1, .f32⟩ : BufTy).Contents (Elt F)),
    reshape main_v2675 main_v2676 rfl shapeCasts_S128x486x1_S128x486,
    binary main_v2674 main_v2676 main_v2677 (addf : (⟨S128x486, .f32⟩ : BufTy).Contents (Elt F) → (⟨S128x486, .f32⟩ : BufTy).Contents (Elt F) → (⟨S128x486, .f32⟩ : BufTy).Contents (Elt F)),
    unary main_v2610 main_v2678 ((extractStridedSlice S128x486x1 ![0, 22, 22] · slices_S128x512x27_S128x486x1_0_22_22) : (⟨S128x512x27, .f32⟩ : BufTy).Contents (Elt F) → (⟨S128x486x1, .f32⟩ : BufTy).Contents (Elt F)),
    reshape main_v2678 main_v2679 rfl shapeCasts_S128x486x1_S128x486,
    binary main_v2677 main_v2679 main_v2680 (addf : (⟨S128x486, .f32⟩ : BufTy).Contents (Elt F) → (⟨S128x486, .f32⟩ : BufTy).Contents (Elt F) → (⟨S128x486, .f32⟩ : BufTy).Contents (Elt F)),
    unary main_v2610 main_v2681 ((extractStridedSlice S128x486x1 ![0, 23, 23] · slices_S128x512x27_S128x486x1_0_23_23) : (⟨S128x512x27, .f32⟩ : BufTy).Contents (Elt F) → (⟨S128x486x1, .f32⟩ : BufTy).Contents (Elt F)),
    reshape main_v2681 main_v2682 rfl shapeCasts_S128x486x1_S128x486,
    binary main_v2680 main_v2682 main_v2683 (addf : (⟨S128x486, .f32⟩ : BufTy).Contents (Elt F) → (⟨S128x486, .f32⟩ : BufTy).Contents (Elt F) → (⟨S128x486, .f32⟩ : BufTy).Contents (Elt F)),
    unary main_v2610 main_v2684 ((extractStridedSlice S128x486x1 ![0, 24, 24] · slices_S128x512x27_S128x486x1_0_24_24) : (⟨S128x512x27, .f32⟩ : BufTy).Contents (Elt F) → (⟨S128x486x1, .f32⟩ : BufTy).Contents (Elt F)),
    reshape main_v2684 main_v2685 rfl shapeCasts_S128x486x1_S128x486,
    binary main_v2683 main_v2685 main_v2686 (addf : (⟨S128x486, .f32⟩ : BufTy).Contents (Elt F) → (⟨S128x486, .f32⟩ : BufTy).Contents (Elt F) → (⟨S128x486, .f32⟩ : BufTy).Contents (Elt F)),
    unary main_v2610 main_v2687 ((extractStridedSlice S128x486x1 ![0, 25, 25] · slices_S128x512x27_S128x486x1_0_25_25) : (⟨S128x512x27, .f32⟩ : BufTy).Contents (Elt F) → (⟨S128x486x1, .f32⟩ : BufTy).Contents (Elt F)),
    reshape main_v2687 main_v2688 rfl shapeCasts_S128x486x1_S128x486,
    binary main_v2686 main_v2688 main_v2689 (addf : (⟨S128x486, .f32⟩ : BufTy).Contents (Elt F) → (⟨S128x486, .f32⟩ : BufTy).Contents (Elt F) → (⟨S128x486, .f32⟩ : BufTy).Contents (Elt F)),
    unary main_v2610 main_v2690 ((extractStridedSlice S128x486x1 ![0, 26, 26] · slices_S128x512x27_S128x486x1_0_26_26) : (⟨S128x512x27, .f32⟩ : BufTy).Contents (Elt F) → (⟨S128x486x1, .f32⟩ : BufTy).Contents (Elt F)),
    reshape main_v2690 main_v2691 rfl shapeCasts_S128x486x1_S128x486,
    binary main_v2689 main_v2691 main_v2692 (addf : (⟨S128x486, .f32⟩ : BufTy).Contents (Elt F) → (⟨S128x486, .f32⟩ : BufTy).Contents (Elt F) → (⟨S128x486, .f32⟩ : BufTy).Contents (Elt F)),
    unary main_arg3 main_v2693 ((extractStridedSlice S1 ![50] · slices_S64_S1_50) : (⟨S64, .f32⟩ : BufTy).Contents (Elt F) → (⟨S1, .f32⟩ : BufTy).Contents (Elt F)),
    reshape main_v2693 main_v2694 rfl shapeCasts_S1_S_,
    unary main_v2694 main_v2695 (broadcastInDim S128x486 ![] bcast_S_S128x486 : (⟨S_, .f32⟩ : BufTy).Contents (Elt F) → (⟨S128x486, .f32⟩ : BufTy).Contents (Elt F)),
    binary main_v2692 main_v2695 main_v2696 (addf : (⟨S128x486, .f32⟩ : BufTy).Contents (Elt F) → (⟨S128x486, .f32⟩ : BufTy).Contents (Elt F) → (⟨S128x486, .f32⟩ : BufTy).Contents (Elt F)),
    unary main_v2696 main_v2697 (Host.tanh : (⟨S128x486, .f32⟩ : BufTy).Contents (Elt F) → (⟨S128x486, .f32⟩ : BufTy).Contents (Elt F)),
    nullary main_cst_101 (constant S_ .f32 0xFF800000#32),
    binary main_v2697 main_cst_101 main_v2698 ((fun x v => Host.reduce FloatOps.maximumf x v reducesTo_S128x486_S128_d1 h_S_) : (⟨S128x486, .f32⟩ : BufTy).Contents (Elt F) → (⟨S_, .f32⟩ : BufTy).Contents (Elt F) → (⟨S128, .f32⟩ : BufTy).Contents (Elt F)) ]

/-- Segment 98: 17 operations. -/
def seg98 : List (HloOp τ sig (Elt F)) :=
  [ unary main_arg2 main_v2699 ((extractStridedSlice S1x27x300 ![51, 0, 0] · slices_S64x33x300_S1x27x300_51_0_0) : (⟨S64x33x300, .f32⟩ : BufTy).Contents (Elt F) → (⟨S1x27x300, .f32⟩ : BufTy).Contents (Elt F)),
    reshape main_v2699 main_v2700 rfl shapeCasts_S1x27x300_S27x300,
    binary main_v7 main_v2700 main_v2701 ((fun l r => Host.dotGeneral dot_S128x512x300_S27x300_S128x512x27_2_1_01_0_n_n none l r) : (⟨S128x512x300, .f32⟩ : BufTy).Contents (Elt F) → (⟨S27x300, .f32⟩ : BufTy).Contents (Elt F) → (⟨S128x512x27, .f32⟩ : BufTy).Contents (Elt F)),
    unary main_v2701 main_v2702 ((extractStridedSlice S128x486x1 ![0, 0, 0] · slices_S128x512x27_S128x486x1_0_0_0) : (⟨S128x512x27, .f32⟩ : BufTy).Contents (Elt F) → (⟨S128x486x1, .f32⟩ : BufTy).Contents (Elt F)),
    reshape main_v2702 main_v2703 rfl shapeCasts_S128x486x1_S128x486,
    nullary main_cst_102 (constant S_ .f32 0x00000000#32),
    unary main_cst_102 main_v2704 (broadcastInDim S128x486 ![] bcast_S_S128x486 : (⟨S_, .f32⟩ : BufTy).Contents (Elt F) → (⟨S128x486, .f32⟩ : BufTy).Contents (Elt F)),
    binary main_v2704 main_v2703 main_v2705 (addf : (⟨S128x486, .f32⟩ : BufTy).Contents (Elt F) → (⟨S128x486, .f32⟩ : BufTy).Contents (Elt F) → (⟨S128x486, .f32⟩ : BufTy).Contents (Elt F)),
    unary main_v2701 main_v2706 ((extractStridedSlice S128x486x1 ![0, 1, 1] · slices_S128x512x27_S128x486x1_0_1_1) : (⟨S128x512x27, .f32⟩ : BufTy).Contents (Elt F) → (⟨S128x486x1, .f32⟩ : BufTy).Contents (Elt F)),
    reshape main_v2706 main_v2707 rfl shapeCasts_S128x486x1_S128x486,
    binary main_v2705 main_v2707 main_v2708 (addf : (⟨S128x486, .f32⟩ : BufTy).Contents (Elt F) → (⟨S128x486, .f32⟩ : BufTy).Contents (Elt F) → (⟨S128x486, .f32⟩ : BufTy).Contents (Elt F)),
    unary main_v2701 main_v2709 ((extractStridedSlice S128x486x1 ![0, 2, 2] · slices_S128x512x27_S128x486x1_0_2_2) : (⟨S128x512x27, .f32⟩ : BufTy).Contents (Elt F) → (⟨S128x486x1, .f32⟩ : BufTy).Contents (Elt F)),
    reshape main_v2709 main_v2710 rfl shapeCasts_S128x486x1_S128x486,
    binary main_v2708 main_v2710 main_v2711 (addf : (⟨S128x486, .f32⟩ : BufTy).Contents (Elt F) → (⟨S128x486, .f32⟩ : BufTy).Contents (Elt F) → (⟨S128x486, .f32⟩ : BufTy).Contents (Elt F)),
    unary main_v2701 main_v2712 ((extractStridedSlice S128x486x1 ![0, 3, 3] · slices_S128x512x27_S128x486x1_0_3_3) : (⟨S128x512x27, .f32⟩ : BufTy).Contents (Elt F) → (⟨S128x486x1, .f32⟩ : BufTy).Contents (Elt F)),
    reshape main_v2712 main_v2713 rfl shapeCasts_S128x486x1_S128x486,
    binary main_v2711 main_v2713 main_v2714 (addf : (⟨S128x486, .f32⟩ : BufTy).Contents (Elt F) → (⟨S128x486, .f32⟩ : BufTy).Contents (Elt F) → (⟨S128x486, .f32⟩ : BufTy).Contents (Elt F)) ]

/-- Segment 99: 60 operations. -/
def seg99 : List (HloOp τ sig (Elt F)) :=
  [ unary main_v2701 main_v2715 ((extractStridedSlice S128x486x1 ![0, 4, 4] · slices_S128x512x27_S128x486x1_0_4_4) : (⟨S128x512x27, .f32⟩ : BufTy).Contents (Elt F) → (⟨S128x486x1, .f32⟩ : BufTy).Contents (Elt F)),
    reshape main_v2715 main_v2716 rfl shapeCasts_S128x486x1_S128x486,
    binary main_v2714 main_v2716 main_v2717 (addf : (⟨S128x486, .f32⟩ : BufTy).Contents (Elt F) → (⟨S128x486, .f32⟩ : BufTy).Contents (Elt F) → (⟨S128x486, .f32⟩ : BufTy).Contents (Elt F)),
    unary main_v2701 main_v2718 ((extractStridedSlice S128x486x1 ![0, 5, 5] · slices_S128x512x27_S128x486x1_0_5_5) : (⟨S128x512x27, .f32⟩ : BufTy).Contents (Elt F) → (⟨S128x486x1, .f32⟩ : BufTy).Contents (Elt F)),
    reshape main_v2718 main_v2719 rfl shapeCasts_S128x486x1_S128x486,
    binary main_v2717 main_v2719 main_v2720 (addf : (⟨S128x486, .f32⟩ : BufTy).Contents (Elt F) → (⟨S128x486, .f32⟩ : BufTy).Contents (Elt F) → (⟨S128x486, .f32⟩ : BufTy).Contents (Elt F)),
    unary main_v2701 main_v2721 ((extractStridedSlice S128x486x1 ![0, 6, 6] · slices_S128x512x27_S128x486x1_0_6_6) : (⟨S128x512x27, .f32⟩ : BufTy).Contents (Elt F) → (⟨S128x486x1, .f32⟩ : BufTy).Contents (Elt F)),
    reshape main_v2721 main_v2722 rfl shapeCasts_S128x486x1_S128x486,
    binary main_v2720 main_v2722 main_v2723 (addf : (⟨S128x486, .f32⟩ : BufTy).Contents (Elt F) → (⟨S128x486, .f32⟩ : BufTy).Contents (Elt F) → (⟨S128x486, .f32⟩ : BufTy).Contents (Elt F)),
    unary main_v2701 main_v2724 ((extractStridedSlice S128x486x1 ![0, 7, 7] · slices_S128x512x27_S128x486x1_0_7_7) : (⟨S128x512x27, .f32⟩ : BufTy).Contents (Elt F) → (⟨S128x486x1, .f32⟩ : BufTy).Contents (Elt F)),
    reshape main_v2724 main_v2725 rfl shapeCasts_S128x486x1_S128x486,
    binary main_v2723 main_v2725 main_v2726 (addf : (⟨S128x486, .f32⟩ : BufTy).Contents (Elt F) → (⟨S128x486, .f32⟩ : BufTy).Contents (Elt F) → (⟨S128x486, .f32⟩ : BufTy).Contents (Elt F)),
    unary main_v2701 main_v2727 ((extractStridedSlice S128x486x1 ![0, 8, 8] · slices_S128x512x27_S128x486x1_0_8_8) : (⟨S128x512x27, .f32⟩ : BufTy).Contents (Elt F) → (⟨S128x486x1, .f32⟩ : BufTy).Contents (Elt F)),
    reshape main_v2727 main_v2728 rfl shapeCasts_S128x486x1_S128x486,
    binary main_v2726 main_v2728 main_v2729 (addf : (⟨S128x486, .f32⟩ : BufTy).Contents (Elt F) → (⟨S128x486, .f32⟩ : BufTy).Contents (Elt F) → (⟨S128x486, .f32⟩ : BufTy).Contents (Elt F)),
    unary main_v2701 main_v2730 ((extractStridedSlice S128x486x1 ![0, 9, 9] · slices_S128x512x27_S128x486x1_0_9_9) : (⟨S128x512x27, .f32⟩ : BufTy).Contents (Elt F) → (⟨S128x486x1, .f32⟩ : BufTy).Contents (Elt F)),
    reshape main_v2730 main_v2731 rfl shapeCasts_S128x486x1_S128x486,
    binary main_v2729 main_v2731 main_v2732 (addf : (⟨S128x486, .f32⟩ : BufTy).Contents (Elt F) → (⟨S128x486, .f32⟩ : BufTy).Contents (Elt F) → (⟨S128x486, .f32⟩ : BufTy).Contents (Elt F)),
    unary main_v2701 main_v2733 ((extractStridedSlice S128x486x1 ![0, 10, 10] · slices_S128x512x27_S128x486x1_0_10_10) : (⟨S128x512x27, .f32⟩ : BufTy).Contents (Elt F) → (⟨S128x486x1, .f32⟩ : BufTy).Contents (Elt F)),
    reshape main_v2733 main_v2734 rfl shapeCasts_S128x486x1_S128x486,
    binary main_v2732 main_v2734 main_v2735 (addf : (⟨S128x486, .f32⟩ : BufTy).Contents (Elt F) → (⟨S128x486, .f32⟩ : BufTy).Contents (Elt F) → (⟨S128x486, .f32⟩ : BufTy).Contents (Elt F)),
    unary main_v2701 main_v2736 ((extractStridedSlice S128x486x1 ![0, 11, 11] · slices_S128x512x27_S128x486x1_0_11_11) : (⟨S128x512x27, .f32⟩ : BufTy).Contents (Elt F) → (⟨S128x486x1, .f32⟩ : BufTy).Contents (Elt F)),
    reshape main_v2736 main_v2737 rfl shapeCasts_S128x486x1_S128x486,
    binary main_v2735 main_v2737 main_v2738 (addf : (⟨S128x486, .f32⟩ : BufTy).Contents (Elt F) → (⟨S128x486, .f32⟩ : BufTy).Contents (Elt F) → (⟨S128x486, .f32⟩ : BufTy).Contents (Elt F)),
    unary main_v2701 main_v2739 ((extractStridedSlice S128x486x1 ![0, 12, 12] · slices_S128x512x27_S128x486x1_0_12_12) : (⟨S128x512x27, .f32⟩ : BufTy).Contents (Elt F) → (⟨S128x486x1, .f32⟩ : BufTy).Contents (Elt F)),
    reshape main_v2739 main_v2740 rfl shapeCasts_S128x486x1_S128x486,
    binary main_v2738 main_v2740 main_v2741 (addf : (⟨S128x486, .f32⟩ : BufTy).Contents (Elt F) → (⟨S128x486, .f32⟩ : BufTy).Contents (Elt F) → (⟨S128x486, .f32⟩ : BufTy).Contents (Elt F)),
    unary main_v2701 main_v2742 ((extractStridedSlice S128x486x1 ![0, 13, 13] · slices_S128x512x27_S128x486x1_0_13_13) : (⟨S128x512x27, .f32⟩ : BufTy).Contents (Elt F) → (⟨S128x486x1, .f32⟩ : BufTy).Contents (Elt F)),
    reshape main_v2742 main_v2743 rfl shapeCasts_S128x486x1_S128x486,
    binary main_v2741 main_v2743 main_v2744 (addf : (⟨S128x486, .f32⟩ : BufTy).Contents (Elt F) → (⟨S128x486, .f32⟩ : BufTy).Contents (Elt F) → (⟨S128x486, .f32⟩ : BufTy).Contents (Elt F)),
    unary main_v2701 main_v2745 ((extractStridedSlice S128x486x1 ![0, 14, 14] · slices_S128x512x27_S128x486x1_0_14_14) : (⟨S128x512x27, .f32⟩ : BufTy).Contents (Elt F) → (⟨S128x486x1, .f32⟩ : BufTy).Contents (Elt F)),
    reshape main_v2745 main_v2746 rfl shapeCasts_S128x486x1_S128x486,
    binary main_v2744 main_v2746 main_v2747 (addf : (⟨S128x486, .f32⟩ : BufTy).Contents (Elt F) → (⟨S128x486, .f32⟩ : BufTy).Contents (Elt F) → (⟨S128x486, .f32⟩ : BufTy).Contents (Elt F)),
    unary main_v2701 main_v2748 ((extractStridedSlice S128x486x1 ![0, 15, 15] · slices_S128x512x27_S128x486x1_0_15_15) : (⟨S128x512x27, .f32⟩ : BufTy).Contents (Elt F) → (⟨S128x486x1, .f32⟩ : BufTy).Contents (Elt F)),
    reshape main_v2748 main_v2749 rfl shapeCasts_S128x486x1_S128x486,
    binary main_v2747 main_v2749 main_v2750 (addf : (⟨S128x486, .f32⟩ : BufTy).Contents (Elt F) → (⟨S128x486, .f32⟩ : BufTy).Contents (Elt F) → (⟨S128x486, .f32⟩ : BufTy).Contents (Elt F)),
    unary main_v2701 main_v2751 ((extractStridedSlice S128x486x1 ![0, 16, 16] · slices_S128x512x27_S128x486x1_0_16_16) : (⟨S128x512x27, .f32⟩ : BufTy).Contents (Elt F) → (⟨S128x486x1, .f32⟩ : BufTy).Contents (Elt F)),
    reshape main_v2751 main_v2752 rfl shapeCasts_S128x486x1_S128x486,
    binary main_v2750 main_v2752 main_v2753 (addf : (⟨S128x486, .f32⟩ : BufTy).Contents (Elt F) → (⟨S128x486, .f32⟩ : BufTy).Contents (Elt F) → (⟨S128x486, .f32⟩ : BufTy).Contents (Elt F)),
    unary main_v2701 main_v2754 ((extractStridedSlice S128x486x1 ![0, 17, 17] · slices_S128x512x27_S128x486x1_0_17_17) : (⟨S128x512x27, .f32⟩ : BufTy).Contents (Elt F) → (⟨S128x486x1, .f32⟩ : BufTy).Contents (Elt F)),
    reshape main_v2754 main_v2755 rfl shapeCasts_S128x486x1_S128x486,
    binary main_v2753 main_v2755 main_v2756 (addf : (⟨S128x486, .f32⟩ : BufTy).Contents (Elt F) → (⟨S128x486, .f32⟩ : BufTy).Contents (Elt F) → (⟨S128x486, .f32⟩ : BufTy).Contents (Elt F)),
    unary main_v2701 main_v2757 ((extractStridedSlice S128x486x1 ![0, 18, 18] · slices_S128x512x27_S128x486x1_0_18_18) : (⟨S128x512x27, .f32⟩ : BufTy).Contents (Elt F) → (⟨S128x486x1, .f32⟩ : BufTy).Contents (Elt F)),
    reshape main_v2757 main_v2758 rfl shapeCasts_S128x486x1_S128x486,
    binary main_v2756 main_v2758 main_v2759 (addf : (⟨S128x486, .f32⟩ : BufTy).Contents (Elt F) → (⟨S128x486, .f32⟩ : BufTy).Contents (Elt F) → (⟨S128x486, .f32⟩ : BufTy).Contents (Elt F)),
    unary main_v2701 main_v2760 ((extractStridedSlice S128x486x1 ![0, 19, 19] · slices_S128x512x27_S128x486x1_0_19_19) : (⟨S128x512x27, .f32⟩ : BufTy).Contents (Elt F) → (⟨S128x486x1, .f32⟩ : BufTy).Contents (Elt F)),
    reshape main_v2760 main_v2761 rfl shapeCasts_S128x486x1_S128x486,
    binary main_v2759 main_v2761 main_v2762 (addf : (⟨S128x486, .f32⟩ : BufTy).Contents (Elt F) → (⟨S128x486, .f32⟩ : BufTy).Contents (Elt F) → (⟨S128x486, .f32⟩ : BufTy).Contents (Elt F)),
    unary main_v2701 main_v2763 ((extractStridedSlice S128x486x1 ![0, 20, 20] · slices_S128x512x27_S128x486x1_0_20_20) : (⟨S128x512x27, .f32⟩ : BufTy).Contents (Elt F) → (⟨S128x486x1, .f32⟩ : BufTy).Contents (Elt F)),
    reshape main_v2763 main_v2764 rfl shapeCasts_S128x486x1_S128x486,
    binary main_v2762 main_v2764 main_v2765 (addf : (⟨S128x486, .f32⟩ : BufTy).Contents (Elt F) → (⟨S128x486, .f32⟩ : BufTy).Contents (Elt F) → (⟨S128x486, .f32⟩ : BufTy).Contents (Elt F)),
    unary main_v2701 main_v2766 ((extractStridedSlice S128x486x1 ![0, 21, 21] · slices_S128x512x27_S128x486x1_0_21_21) : (⟨S128x512x27, .f32⟩ : BufTy).Contents (Elt F) → (⟨S128x486x1, .f32⟩ : BufTy).Contents (Elt F)),
    reshape main_v2766 main_v2767 rfl shapeCasts_S128x486x1_S128x486,
    binary main_v2765 main_v2767 main_v2768 (addf : (⟨S128x486, .f32⟩ : BufTy).Contents (Elt F) → (⟨S128x486, .f32⟩ : BufTy).Contents (Elt F) → (⟨S128x486, .f32⟩ : BufTy).Contents (Elt F)),
    unary main_v2701 main_v2769 ((extractStridedSlice S128x486x1 ![0, 22, 22] · slices_S128x512x27_S128x486x1_0_22_22) : (⟨S128x512x27, .f32⟩ : BufTy).Contents (Elt F) → (⟨S128x486x1, .f32⟩ : BufTy).Contents (Elt F)),
    reshape main_v2769 main_v2770 rfl shapeCasts_S128x486x1_S128x486,
    binary main_v2768 main_v2770 main_v2771 (addf : (⟨S128x486, .f32⟩ : BufTy).Contents (Elt F) → (⟨S128x486, .f32⟩ : BufTy).Contents (Elt F) → (⟨S128x486, .f32⟩ : BufTy).Contents (Elt F)),
    unary main_v2701 main_v2772 ((extractStridedSlice S128x486x1 ![0, 23, 23] · slices_S128x512x27_S128x486x1_0_23_23) : (⟨S128x512x27, .f32⟩ : BufTy).Contents (Elt F) → (⟨S128x486x1, .f32⟩ : BufTy).Contents (Elt F)),
    reshape main_v2772 main_v2773 rfl shapeCasts_S128x486x1_S128x486,
    binary main_v2771 main_v2773 main_v2774 (addf : (⟨S128x486, .f32⟩ : BufTy).Contents (Elt F) → (⟨S128x486, .f32⟩ : BufTy).Contents (Elt F) → (⟨S128x486, .f32⟩ : BufTy).Contents (Elt F)) ]

/-- Segment 100: 16 operations. -/
def seg100 : List (HloOp τ sig (Elt F)) :=
  [ unary main_v2701 main_v2775 ((extractStridedSlice S128x486x1 ![0, 24, 24] · slices_S128x512x27_S128x486x1_0_24_24) : (⟨S128x512x27, .f32⟩ : BufTy).Contents (Elt F) → (⟨S128x486x1, .f32⟩ : BufTy).Contents (Elt F)),
    reshape main_v2775 main_v2776 rfl shapeCasts_S128x486x1_S128x486,
    binary main_v2774 main_v2776 main_v2777 (addf : (⟨S128x486, .f32⟩ : BufTy).Contents (Elt F) → (⟨S128x486, .f32⟩ : BufTy).Contents (Elt F) → (⟨S128x486, .f32⟩ : BufTy).Contents (Elt F)),
    unary main_v2701 main_v2778 ((extractStridedSlice S128x486x1 ![0, 25, 25] · slices_S128x512x27_S128x486x1_0_25_25) : (⟨S128x512x27, .f32⟩ : BufTy).Contents (Elt F) → (⟨S128x486x1, .f32⟩ : BufTy).Contents (Elt F)),
    reshape main_v2778 main_v2779 rfl shapeCasts_S128x486x1_S128x486,
    binary main_v2777 main_v2779 main_v2780 (addf : (⟨S128x486, .f32⟩ : BufTy).Contents (Elt F) → (⟨S128x486, .f32⟩ : BufTy).Contents (Elt F) → (⟨S128x486, .f32⟩ : BufTy).Contents (Elt F)),
    unary main_v2701 main_v2781 ((extractStridedSlice S128x486x1 ![0, 26, 26] · slices_S128x512x27_S128x486x1_0_26_26) : (⟨S128x512x27, .f32⟩ : BufTy).Contents (Elt F) → (⟨S128x486x1, .f32⟩ : BufTy).Contents (Elt F)),
    reshape main_v2781 main_v2782 rfl shapeCasts_S128x486x1_S128x486,
    binary main_v2780 main_v2782 main_v2783 (addf : (⟨S128x486, .f32⟩ : BufTy).Contents (Elt F) → (⟨S128x486, .f32⟩ : BufTy).Contents (Elt F) → (⟨S128x486, .f32⟩ : BufTy).Contents (Elt F)),
    unary main_arg3 main_v2784 ((extractStridedSlice S1 ![51] · slices_S64_S1_51) : (⟨S64, .f32⟩ : BufTy).Contents (Elt F) → (⟨S1, .f32⟩ : BufTy).Contents (Elt F)),
    reshape main_v2784 main_v2785 rfl shapeCasts_S1_S_,
    unary main_v2785 main_v2786 (broadcastInDim S128x486 ![] bcast_S_S128x486 : (⟨S_, .f32⟩ : BufTy).Contents (Elt F) → (⟨S128x486, .f32⟩ : BufTy).Contents (Elt F)),
    binary main_v2783 main_v2786 main_v2787 (addf : (⟨S128x486, .f32⟩ : BufTy).Contents (Elt F) → (⟨S128x486, .f32⟩ : BufTy).Contents (Elt F) → (⟨S128x486, .f32⟩ : BufTy).Contents (Elt F)),
    unary main_v2787 main_v2788 (Host.tanh : (⟨S128x486, .f32⟩ : BufTy).Contents (Elt F) → (⟨S128x486, .f32⟩ : BufTy).Contents (Elt F)),
    nullary main_cst_103 (constant S_ .f32 0xFF800000#32),
    binary main_v2788 main_cst_103 main_v2789 ((fun x v => Host.reduce FloatOps.maximumf x v reducesTo_S128x486_S128_d1 h_S_) : (⟨S128x486, .f32⟩ : BufTy).Contents (Elt F) → (⟨S_, .f32⟩ : BufTy).Contents (Elt F) → (⟨S128, .f32⟩ : BufTy).Contents (Elt F)) ]

/-- Segment 101: 44 operations. -/
def seg101 : List (HloOp τ sig (Elt F)) :=
  [ unary main_arg2 main_v2790 ((extractStridedSlice S1x28x300 ![52, 0, 0] · slices_S64x33x300_S1x28x300_52_0_0) : (⟨S64x33x300, .f32⟩ : BufTy).Contents (Elt F) → (⟨S1x28x300, .f32⟩ : BufTy).Contents (Elt F)),
    reshape main_v2790 main_v2791 rfl shapeCasts_S1x28x300_S28x300,
    binary main_v7 main_v2791 main_v2792 ((fun l r => Host.dotGeneral dot_S128x512x300_S28x300_S128x512x28_2_1_01_0_n_n none l r) : (⟨S128x512x300, .f32⟩ : BufTy).Contents (Elt F) → (⟨S28x300, .f32⟩ : BufTy).Contents (Elt F) → (⟨S128x512x28, .f32⟩ : BufTy).Contents (Elt F)),
    unary main_v2792 main_v2793 ((extractStridedSlice S128x485x1 ![0, 0, 0] · slices_S128x512x28_S128x485x1_0_0_0) : (⟨S128x512x28, .f32⟩ : BufTy).Contents (Elt F) → (⟨S128x485x1, .f32⟩ : BufTy).Contents (Elt F)),
    reshape main_v2793 main_v2794 rfl shapeCasts_S128x485x1_S128x485,
    nullary main_cst_104 (constant S_ .f32 0x00000000#32),
    unary main_cst_104 main_v2795 (broadcastInDim S128x485 ![] bcast_S_S128x485 : (⟨S_, .f32⟩ : BufTy).Contents (Elt F) → (⟨S128x485, .f32⟩ : BufTy).Contents (Elt F)),
    binary main_v2795 main_v2794 main_v2796 (addf : (⟨S128x485, .f32⟩ : BufTy).Contents (Elt F) → (⟨S128x485, .f32⟩ : BufTy).Contents (Elt F) → (⟨S128x485, .f32⟩ : BufTy).Contents (Elt F)),
    unary main_v2792 main_v2797 ((extractStridedSlice S128x485x1 ![0, 1, 1] · slices_S128x512x28_S128x485x1_0_1_1) : (⟨S128x512x28, .f32⟩ : BufTy).Contents (Elt F) → (⟨S128x485x1, .f32⟩ : BufTy).Contents (Elt F)),
    reshape main_v2797 main_v2798 rfl shapeCasts_S128x485x1_S128x485,
    binary main_v2796 main_v2798 main_v2799 (addf : (⟨S128x485, .f32⟩ : BufTy).Contents (Elt F) → (⟨S128x485, .f32⟩ : BufTy).Contents (Elt F) → (⟨S128x485, .f32⟩ : BufTy).Contents (Elt F)),
    unary main_v2792 main_v2800 ((extractStridedSlice S128x485x1 ![0, 2, 2] · slices_S128x512x28_S128x485x1_0_2_2) : (⟨S128x512x28, .f32⟩ : BufTy).Contents (Elt F) → (⟨S128x485x1, .f32⟩ : BufTy).Contents (Elt F)),
    reshape main_v2800 main_v2801 rfl shapeCasts_S128x485x1_S128x485,
    binary main_v2799 main_v2801 main_v2802 (addf : (⟨S128x485, .f32⟩ : BufTy).Contents (Elt F) → (⟨S128x485, .f32⟩ : BufTy).Contents (Elt F) → (⟨S128x485, .f32⟩ : BufTy).Contents (Elt F)),
    unary main_v2792 main_v2803 ((extractStridedSlice S128x485x1 ![0, 3, 3] · slices_S128x512x28_S128x485x1_0_3_3) : (⟨S128x512x28, .f32⟩ : BufTy).Contents (Elt F) → (⟨S128x485x1, .f32⟩ : BufTy).Contents (Elt F)),
    reshape main_v2803 main_v2804 rfl shapeCasts_S128x485x1_S128x485,
    binary main_v2802 main_v2804 main_v2805 (addf : (⟨S128x485, .f32⟩ : BufTy).Contents (Elt F) → (⟨S128x485, .f32⟩ : BufTy).Contents (Elt F) → (⟨S128x485, .f32⟩ : BufTy).Contents (Elt F)),
    unary main_v2792 main_v2806 ((extractStridedSlice S128x485x1 ![0, 4, 4] · slices_S128x512x28_S128x485x1_0_4_4) : (⟨S128x512x28, .f32⟩ : BufTy).Contents (Elt F) → (⟨S128x485x1, .f32⟩ : BufTy).Contents (Elt F)),
    reshape main_v2806 main_v2807 rfl shapeCasts_S128x485x1_S128x485,
    binary main_v2805 main_v2807 main_v2808 (addf : (⟨S128x485, .f32⟩ : BufTy).Contents (Elt F) → (⟨S128x485, .f32⟩ : BufTy).Contents (Elt F) → (⟨S128x485, .f32⟩ : BufTy).Contents (Elt F)),
    unary main_v2792 main_v2809 ((extractStridedSlice S128x485x1 ![0, 5, 5] · slices_S128x512x28_S128x485x1_0_5_5) : (⟨S128x512x28, .f32⟩ : BufTy).Contents (Elt F) → (⟨S128x485x1, .f32⟩ : BufTy).Contents (Elt F)),
    reshape main_v2809 main_v2810 rfl shapeCasts_S128x485x1_S128x485,
    binary main_v2808 main_v2810 main_v2811 (addf : (⟨S128x485, .f32⟩ : BufTy).Contents (Elt F) → (⟨S128x485, .f32⟩ : BufTy).Contents (Elt F) → (⟨S128x485, .f32⟩ : BufTy).Contents (Elt F)),
    unary main_v2792 main_v2812 ((extractStridedSlice S128x485x1 ![0, 6, 6] · slices_S128x512x28_S128x485x1_0_6_6) : (⟨S128x512x28, .f32⟩ : BufTy).Contents (Elt F) → (⟨S128x485x1, .f32⟩ : BufTy).Contents (Elt F)),
    reshape main_v2812 main_v2813 rfl shapeCasts_S128x485x1_S128x485,
    binary main_v2811 main_v2813 main_v2814 (addf : (⟨S128x485, .f32⟩ : BufTy).Contents (Elt F) → (⟨S128x485, .f32⟩ : BufTy).Contents (Elt F) → (⟨S128x485, .f32⟩ : BufTy).Contents (Elt F)),
    unary main_v2792 main_v2815 ((extractStridedSlice S128x485x1 ![0, 7, 7] · slices_S128x512x28_S128x485x1_0_7_7) : (⟨S128x512x28, .f32⟩ : BufTy).Contents (Elt F) → (⟨S128x485x1, .f32⟩ : BufTy).Contents (Elt F)),
    reshape main_v2815 main_v2816 rfl shapeCasts_S128x485x1_S128x485,
    binary main_v2814 main_v2816 main_v2817 (addf : (⟨S128x485, .f32⟩ : BufTy).Contents (Elt F) → (⟨S128x485, .f32⟩ : BufTy).Contents (Elt F) → (⟨S128x485, .f32⟩ : BufTy).Contents (Elt F)),
    unary main_v2792 main_v2818 ((extractStridedSlice S128x485x1 ![0, 8, 8] · slices_S128x512x28_S128x485x1_0_8_8) : (⟨S128x512x28, .f32⟩ : BufTy).Contents (Elt F) → (⟨S128x485x1, .f32⟩ : BufTy).Contents (Elt F)),
    reshape main_v2818 main_v2819 rfl shapeCasts_S128x485x1_S128x485,
    binary main_v2817 main_v2819 main_v2820 (addf : (⟨S128x485, .f32⟩ : BufTy).Contents (Elt F) → (⟨S128x485, .f32⟩ : BufTy).Contents (Elt F) → (⟨S128x485, .f32⟩ : BufTy).Contents (Elt F)),
    unary main_v2792 main_v2821 ((extractStridedSlice S128x485x1 ![0, 9, 9] · slices_S128x512x28_S128x485x1_0_9_9) : (⟨S128x512x28, .f32⟩ : BufTy).Contents (Elt F) → (⟨S128x485x1, .f32⟩ : BufTy).Contents (Elt F)),
    reshape main_v2821 main_v2822 rfl shapeCasts_S128x485x1_S128x485,
    binary main_v2820 main_v2822 main_v2823 (addf : (⟨S128x485, .f32⟩ : BufTy).Contents (Elt F) → (⟨S128x485, .f32⟩ : BufTy).Contents (Elt F) → (⟨S128x485, .f32⟩ : BufTy).Contents (Elt F)),
    unary main_v2792 main_v2824 ((extractStridedSlice S128x485x1 ![0, 10, 10] · slices_S128x512x28_S128x485x1_0_10_10) : (⟨S128x512x28, .f32⟩ : BufTy).Contents (Elt F) → (⟨S128x485x1, .f32⟩ : BufTy).Contents (Elt F)),
    reshape main_v2824 main_v2825 rfl shapeCasts_S128x485x1_S128x485,
    binary main_v2823 main_v2825 main_v2826 (addf : (⟨S128x485, .f32⟩ : BufTy).Contents (Elt F) → (⟨S128x485, .f32⟩ : BufTy).Contents (Elt F) → (⟨S128x485, .f32⟩ : BufTy).Contents (Elt F)),
    unary main_v2792 main_v2827 ((extractStridedSlice S128x485x1 ![0, 11, 11] · slices_S128x512x28_S128x485x1_0_11_11) : (⟨S128x512x28, .f32⟩ : BufTy).Contents (Elt F) → (⟨S128x485x1, .f32⟩ : BufTy).Contents (Elt F)),
    reshape main_v2827 main_v2828 rfl shapeCasts_S128x485x1_S128x485,
    binary main_v2826 main_v2828 main_v2829 (addf : (⟨S128x485, .f32⟩ : BufTy).Contents (Elt F) → (⟨S128x485, .f32⟩ : BufTy).Contents (Elt F) → (⟨S128x485, .f32⟩ : BufTy).Contents (Elt F)),
    unary main_v2792 main_v2830 ((extractStridedSlice S128x485x1 ![0, 12, 12] · slices_S128x512x28_S128x485x1_0_12_12) : (⟨S128x512x28, .f32⟩ : BufTy).Contents (Elt F) → (⟨S128x485x1, .f32⟩ : BufTy).Contents (Elt F)),
    reshape main_v2830 main_v2831 rfl shapeCasts_S128x485x1_S128x485,
    binary main_v2829 main_v2831 main_v2832 (addf : (⟨S128x485, .f32⟩ : BufTy).Contents (Elt F) → (⟨S128x485, .f32⟩ : BufTy).Contents (Elt F) → (⟨S128x485, .f32⟩ : BufTy).Contents (Elt F)) ]

end Cert.ReferenceIdeal.RefRun

end
-- ==== Proof.RefSegs3.lean ====
import proofs.«138672_j88897233092836_1_alg».proof.Proof.RefOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 102: 52 operations. -/
def seg102 : List (HloOp τ sig (Elt F)) :=
  [ unary main_v2792 main_v2833 ((extractStridedSlice S128x485x1 ![0, 13, 13] · slices_S128x512x28_S128x485x1_0_13_13) : (⟨S128x512x28, .f32⟩ : BufTy).Contents (Elt F) → (⟨S128x485x1, .f32⟩ : BufTy).Contents (Elt F)),
    reshape main_v2833 main_v2834 rfl shapeCasts_S128x485x1_S128x485,
    binary main_v2832 main_v2834 main_v2835 (addf : (⟨S128x485, .f32⟩ : BufTy).Contents (Elt F) → (⟨S128x485, .f32⟩ : BufTy).Contents (Elt F) → (⟨S128x485, .f32⟩ : BufTy).Contents (Elt F)),
    unary main_v2792 main_v2836 ((extractStridedSlice S128x485x1 ![0, 14, 14] · slices_S128x512x28_S128x485x1_0_14_14) : (⟨S128x512x28, .f32⟩ : BufTy).Contents (Elt F) → (⟨S128x485x1, .f32⟩ : BufTy).Contents (Elt F)),
    reshape main_v2836 main_v2837 rfl shapeCasts_S128x485x1_S128x485,
    binary main_v2835 main_v2837 main_v2838 (addf : (⟨S128x485, .f32⟩ : BufTy).Contents (Elt F) → (⟨S128x485, .f32⟩ : BufTy).Contents (Elt F) → (⟨S128x485, .f32⟩ : BufTy).Contents (Elt F)),
    unary main_v2792 main_v2839 ((extractStridedSlice S128x485x1 ![0, 15, 15] · slices_S128x512x28_S128x485x1_0_15_15) : (⟨S128x512x28, .f32⟩ : BufTy).Contents (Elt F) → (⟨S128x485x1, .f32⟩ : BufTy).Contents (Elt F)),
    reshape main_v2839 main_v2840 rfl shapeCasts_S128x485x1_S128x485,
    binary main_v2838 main_v2840 main_v2841 (addf : (⟨S128x485, .f32⟩ : BufTy).Contents (Elt F) → (⟨S128x485, .f32⟩ : BufTy).Contents (Elt F) → (⟨S128x485, .f32⟩ : BufTy).Contents (Elt F)),
    unary main_v2792 main_v2842 ((extractStridedSlice S128x485x1 ![0, 16, 16] · slices_S128x512x28_S128x485x1_0_16_16) : (⟨S128x512x28, .f32⟩ : BufTy).Contents (Elt F) → (⟨S128x485x1, .f32⟩ : BufTy).Contents (Elt F)),
    reshape main_v2842 main_v2843 rfl shapeCasts_S128x485x1_S128x485,
    binary main_v2841 main_v2843 main_v2844 (addf : (⟨S128x485, .f32⟩ : BufTy).Contents (Elt F) → (⟨S128x485, .f32⟩ : BufTy).Contents (Elt F) → (⟨S128x485, .f32⟩ : BufTy).Contents (Elt F)),
    unary main_v2792 main_v2845 ((extractStridedSlice S128x485x1 ![0, 17, 17] · slices_S128x512x28_S128x485x1_0_17_17) : (⟨S128x512x28, .f32⟩ : BufTy).Contents (Elt F) → (⟨S128x485x1, .f32⟩ : BufTy).Contents (Elt F)),
    reshape main_v2845 main_v2846 rfl shapeCasts_S128x485x1_S128x485,
    binary main_v2844 main_v2846 main_v2847 (addf : (⟨S128x485, .f32⟩ : BufTy).Contents (Elt F) → (⟨S128x485, .f32⟩ : BufTy).Contents (Elt F) → (⟨S128x485, .f32⟩ : BufTy).Contents (Elt F)),
    unary main_v2792 main_v2848 ((extractStridedSlice S128x485x1 ![0, 18, 18] · slices_S128x512x28_S128x485x1_0_18_18) : (⟨S128x512x28, .f32⟩ : BufTy).Contents (Elt F) → (⟨S128x485x1, .f32⟩ : BufTy).Contents (Elt F)),
    reshape main_v2848 main_v2849 rfl shapeCasts_S128x485x1_S128x485,
    binary main_v2847 main_v2849 main_v2850 (addf : (⟨S128x485, .f32⟩ : BufTy).Contents (Elt F) → (⟨S128x485, .f32⟩ : BufTy).Contents (Elt F) → (⟨S128x485, .f32⟩ : BufTy).Contents (Elt F)),
    unary main_v2792 main_v2851 ((extractStridedSlice S128x485x1 ![0, 19, 19] · slices_S128x512x28_S128x485x1_0_19_19) : (⟨S128x512x28, .f32⟩ : BufTy).Contents (Elt F) → (⟨S128x485x1, .f32⟩ : BufTy).Contents (Elt F)),
    reshape main_v2851 main_v2852 rfl shapeCasts_S128x485x1_S128x485,
    binary main_v2850 main_v2852 main_v2853 (addf : (⟨S128x485, .f32⟩ : BufTy).Contents (Elt F) → (⟨S128x485, .f32⟩ : BufTy).Contents (Elt F) → (⟨S128x485, .f32⟩ : BufTy).Contents (Elt F)),
    unary main_v2792 main_v2854 ((extractStridedSlice S128x485x1 ![0, 20, 20] · slices_S128x512x28_S128x485x1_0_20_20) : (⟨S128x512x28, .f32⟩ : BufTy).Contents (Elt F) → (⟨S128x485x1, .f32⟩ : BufTy).Contents (Elt F)),
    reshape main_v2854 main_v2855 rfl shapeCasts_S128x485x1_S128x485,
    binary main_v2853 main_v2855 main_v2856 (addf : (⟨S128x485, .f32⟩ : BufTy).Contents (Elt F) → (⟨S128x485, .f32⟩ : BufTy).Contents (Elt F) → (⟨S128x485, .f32⟩ : BufTy).Contents (Elt F)),
    unary main_v2792 main_v2857 ((extractStridedSlice S128x485x1 ![0, 21, 21] · slices_S128x512x28_S128x485x1_0_21_21) : (⟨S128x512x28, .f32⟩ : BufTy).Contents (Elt F) → (⟨S128x485x1, .f32⟩ : BufTy).Contents (Elt F)),
    reshape main_v2857 main_v2858 rfl shapeCasts_S128x485x1_S128x485,
    binary main_v2856 main_v2858 main_v2859 (addf : (⟨S128x485, .f32⟩ : BufTy).Contents (Elt F) → (⟨S128x485, .f32⟩ : BufTy).Contents (Elt F) → (⟨S128x485, .f32⟩ : BufTy).Contents (Elt F)),
    unary main_v2792 main_v2860 ((extractStridedSlice S128x485x1 ![0, 22, 22] · slices_S128x512x28_S128x485x1_0_22_22) : (⟨S128x512x28, .f32⟩ : BufTy).Contents (Elt F) → (⟨S128x485x1, .f32⟩ : BufTy).Contents (Elt F)),
    reshape main_v2860 main_v2861 rfl shapeCasts_S128x485x1_S128x485,
    binary main_v2859 main_v2861 main_v2862 (addf : (⟨S128x485, .f32⟩ : BufTy).Contents (Elt F) → (⟨S128x485, .f32⟩ : BufTy).Contents (Elt F) → (⟨S128x485, .f32⟩ : BufTy).Contents (Elt F)),
    unary main_v2792 main_v2863 ((extractStridedSlice S128x485x1 ![0, 23, 23] · slices_S128x512x28_S128x485x1_0_23_23) : (⟨S128x512x28, .f32⟩ : BufTy).Contents (Elt F) → (⟨S128x485x1, .f32⟩ : BufTy).Contents (Elt F)),
    reshape main_v2863 main_v2864 rfl shapeCasts_S128x485x1_S128x485,
    binary main_v2862 main_v2864 main_v2865 (addf : (⟨S128x485, .f32⟩ : BufTy).Contents (Elt F) → (⟨S128x485, .f32⟩ : BufTy).Contents (Elt F) → (⟨S128x485, .f32⟩ : BufTy).Contents (Elt F)),
    unary main_v2792 main_v2866 ((extractStridedSlice S128x485x1 ![0, 24, 24] · slices_S128x512x28_S128x485x1_0_24_24) : (⟨S128x512x28, .f32⟩ : BufTy).Contents (Elt F) → (⟨S128x485x1, .f32⟩ : BufTy).Contents (Elt F)),
    reshape main_v2866 main_v2867 rfl shapeCasts_S128x485x1_S128x485,
    binary main_v2865 main_v2867 main_v2868 (addf : (⟨S128x485, .f32⟩ : BufTy).Contents (Elt F) → (⟨S128x485, .f32⟩ : BufTy).Contents (Elt F) → (⟨S128x485, .f32⟩ : BufTy).Contents (Elt F)),
    unary main_v2792 main_v2869 ((extractStridedSlice S128x485x1 ![0, 25, 25] · slices_S128x512x28_S128x485x1_0_25_25) : (⟨S128x512x28, .f32⟩ : BufTy).Contents (Elt F) → (⟨S128x485x1, .f32⟩ : BufTy).Contents (Elt F)),
    reshape main_v2869 main_v2870 rfl shapeCasts_S128x485x1_S128x485,
    binary main_v2868 main_v2870 main_v2871 (addf : (⟨S128x485, .f32⟩ : BufTy).Contents (Elt F) → (⟨S128x485, .f32⟩ : BufTy).Contents (Elt F) → (⟨S128x485, .f32⟩ : BufTy).Contents (Elt F)),
    unary main_v2792 main_v2872 ((extractStridedSlice S128x485x1 ![0, 26, 26] · slices_S128x512x28_S128x485x1_0_26_26) : (⟨S128x512x28, .f32⟩ : BufTy).Contents (Elt F) → (⟨S128x485x1, .f32⟩ : BufTy).Contents (Elt F)),
    reshape main_v2872 main_v2873 rfl shapeCasts_S128x485x1_S128x485,
    binary main_v2871 main_v2873 main_v2874 (addf : (⟨S128x485, .f32⟩ : BufTy).Contents (Elt F) → (⟨S128x485, .f32⟩ : BufTy).Contents (Elt F) → (⟨S128x485, .f32⟩ : BufTy).Contents (Elt F)),
    unary main_v2792 main_v2875 ((extractStridedSlice S128x485x1 ![0, 27, 27] · slices_S128x512x28_S128x485x1_0_27_27) : (⟨S128x512x28, .f32⟩ : BufTy).Contents (Elt F) → (⟨S128x485x1, .f32⟩ : BufTy).Contents (Elt F)),
    reshape main_v2875 main_v2876 rfl shapeCasts_S128x485x1_S128x485,
    binary main_v2874 main_v2876 main_v2877 (addf : (⟨S128x485, .f32⟩ : BufTy).Contents (Elt F) → (⟨S128x485, .f32⟩ : BufTy).Contents (Elt F) → (⟨S128x485, .f32⟩ : BufTy).Contents (Elt F)),
    unary main_arg3 main_v2878 ((extractStridedSlice S1 ![52] · slices_S64_S1_52) : (⟨S64, .f32⟩ : BufTy).Contents (Elt F) → (⟨S1, .f32⟩ : BufTy).Contents (Elt F)),
    reshape main_v2878 main_v2879 rfl shapeCasts_S1_S_,
    unary main_v2879 main_v2880 (broadcastInDim S128x485 ![] bcast_S_S128x485 : (⟨S_, .f32⟩ : BufTy).Contents (Elt F) → (⟨S128x485, .f32⟩ : BufTy).Contents (Elt F)),
    binary main_v2877 main_v2880 main_v2881 (addf : (⟨S128x485, .f32⟩ : BufTy).Contents (Elt F) → (⟨S128x485, .f32⟩ : BufTy).Contents (Elt F) → (⟨S128x485, .f32⟩ : BufTy).Contents (Elt F)),
    unary main_v2881 main_v2882 (Host.tanh : (⟨S128x485, .f32⟩ : BufTy).Contents (Elt F) → (⟨S128x485, .f32⟩ : BufTy).Contents (Elt F)),
    nullary main_cst_105 (constant S_ .f32 0xFF800000#32),
    binary main_v2882 main_cst_105 main_v2883 ((fun x v => Host.reduce FloatOps.maximumf x v reducesTo_S128x485_S128_d1 h_S_) : (⟨S128x485, .f32⟩ : BufTy).Contents (Elt F) → (⟨S_, .f32⟩ : BufTy).Contents (Elt F) → (⟨S128, .f32⟩ : BufTy).Contents (Elt F)) ]

/-- Segment 103: 8 operations. -/
def seg103 : List (HloOp τ sig (Elt F)) :=
  [ unary main_arg2 main_v2884 ((extractStridedSlice S1x28x300 ![53, 0, 0] · slices_S64x33x300_S1x28x300_53_0_0) : (⟨S64x33x300, .f32⟩ : BufTy).Contents (Elt F) → (⟨S1x28x300, .f32⟩ : BufTy).Contents (Elt F)),
    reshape main_v2884 main_v2885 rfl shapeCasts_S1x28x300_S28x300,
    binary main_v7 main_v2885 main_v2886 ((fun l r => Host.dotGeneral dot_S128x512x300_S28x300_S128x512x28_2_1_01_0_n_n none l r) : (⟨S128x512x300, .f32⟩ : BufTy).Contents (Elt F) → (⟨S28x300, .f32⟩ : BufTy).Contents (Elt F) → (⟨S128x512x28, .f32⟩ : BufTy).Contents (Elt F)),
    unary main_v2886 main_v2887 ((extractStridedSlice S128x485x1 ![0, 0, 0] · slices_S128x512x28_S128x485x1_0_0_0) : (⟨S128x512x28, .f32⟩ : BufTy).Contents (Elt F) → (⟨S128x485x1, .f32⟩ : BufTy).Contents (Elt F)),
    reshape main_v2887 main_v2888 rfl shapeCasts_S128x485x1_S128x485,
    nullary main_cst_106 (constant S_ .f32 0x00000000#32),
    unary main_cst_106 main_v2889 (broadcastInDim S128x485 ![] bcast_S_S128x485 : (⟨S_, .f32⟩ : BufTy).Contents (Elt F) → (⟨S128x485, .f32⟩ : BufTy).Contents (Elt F)),
    binary main_v2889 main_v2888 main_v2890 (addf : (⟨S128x485, .f32⟩ : BufTy).Contents (Elt F) → (⟨S128x485, .f32⟩ : BufTy).Contents (Elt F) → (⟨S128x485, .f32⟩ : BufTy).Contents (Elt F)) ]

/-- Segment 104: 60 operations. -/
def seg104 : List (HloOp τ sig (Elt F)) :=
  [ unary main_v2886 main_v2891 ((extractStridedSlice S128x485x1 ![0, 1, 1] · slices_S128x512x28_S128x485x1_0_1_1) : (⟨S128x512x28, .f32⟩ : BufTy).Contents (Elt F) → (⟨S128x485x1, .f32⟩ : BufTy).Contents (Elt F)),
    reshape main_v2891 main_v2892 rfl shapeCasts_S128x485x1_S128x485,
    binary main_v2890 main_v2892 main_v2893 (addf : (⟨S128x485, .f32⟩ : BufTy).Contents (Elt F) → (⟨S128x485, .f32⟩ : BufTy).Contents (Elt F) → (⟨S128x485, .f32⟩ : BufTy).Contents (Elt F)),
    unary main_v2886 main_v2894 ((extractStridedSlice S128x485x1 ![0, 2, 2] · slices_S128x512x28_S128x485x1_0_2_2) : (⟨S128x512x28, .f32⟩ : BufTy).Contents (Elt F) → (⟨S128x485x1, .f32⟩ : BufTy).Contents (Elt F)),
    reshape main_v2894 main_v2895 rfl shapeCasts_S128x485x1_S128x485,
    binary main_v2893 main_v2895 main_v2896 (addf : (⟨S128x485, .f32⟩ : BufTy).Contents (Elt F) → (⟨S128x485, .f32⟩ : BufTy).Contents (Elt F) → (⟨S128x485, .f32⟩ : BufTy).Contents (Elt F)),
    unary main_v2886 main_v2897 ((extractStridedSlice S128x485x1 ![0, 3, 3] · slices_S128x512x28_S128x485x1_0_3_3) : (⟨S128x512x28, .f32⟩ : BufTy).Contents (Elt F) → (⟨S128x485x1, .f32⟩ : BufTy).Contents (Elt F)),
    reshape main_v2897 main_v2898 rfl shapeCasts_S128x485x1_S128x485,
    binary main_v2896 main_v2898 main_v2899 (addf : (⟨S128x485, .f32⟩ : BufTy).Contents (Elt F) → (⟨S128x485, .f32⟩ : BufTy).Contents (Elt F) → (⟨S128x485, .f32⟩ : BufTy).Contents (Elt F)),
    unary main_v2886 main_v2900 ((extractStridedSlice S128x485x1 ![0, 4, 4] · slices_S128x512x28_S128x485x1_0_4_4) : (⟨S128x512x28, .f32⟩ : BufTy).Contents (Elt F) → (⟨S128x485x1, .f32⟩ : BufTy).Contents (Elt F)),
    reshape main_v2900 main_v2901 rfl shapeCasts_S128x485x1_S128x485,
    binary main_v2899 main_v2901 main_v2902 (addf : (⟨S128x485, .f32⟩ : BufTy).Contents (Elt F) → (⟨S128x485, .f32⟩ : BufTy).Contents (Elt F) → (⟨S128x485, .f32⟩ : BufTy).Contents (Elt F)),
    unary main_v2886 main_v2903 ((extractStridedSlice S128x485x1 ![0, 5, 5] · slices_S128x512x28_S128x485x1_0_5_5) : (⟨S128x512x28, .f32⟩ : BufTy).Contents (Elt F) → (⟨S128x485x1, .f32⟩ : BufTy).Contents (Elt F)),
    reshape main_v2903 main_v2904 rfl shapeCasts_S128x485x1_S128x485,
    binary main_v2902 main_v2904 main_v2905 (addf : (⟨S128x485, .f32⟩ : BufTy).Contents (Elt F) → (⟨S128x485, .f32⟩ : BufTy).Contents (Elt F) → (⟨S128x485, .f32⟩ : BufTy).Contents (Elt F)),
    unary main_v2886 main_v2906 ((extractStridedSlice S128x485x1 ![0, 6, 6] · slices_S128x512x28_S128x485x1_0_6_6) : (⟨S128x512x28, .f32⟩ : BufTy).Contents (Elt F) → (⟨S128x485x1, .f32⟩ : BufTy).Contents (Elt F)),
    reshape main_v2906 main_v2907 rfl shapeCasts_S128x485x1_S128x485,
    binary main_v2905 main_v2907 main_v2908 (addf : (⟨S128x485, .f32⟩ : BufTy).Contents (Elt F) → (⟨S128x485, .f32⟩ : BufTy).Contents (Elt F) → (⟨S128x485, .f32⟩ : BufTy).Contents (Elt F)),
    unary main_v2886 main_v2909 ((extractStridedSlice S128x485x1 ![0, 7, 7] · slices_S128x512x28_S128x485x1_0_7_7) : (⟨S128x512x28, .f32⟩ : BufTy).Contents (Elt F) → (⟨S128x485x1, .f32⟩ : BufTy).Contents (Elt F)),
    reshape main_v2909 main_v2910 rfl shapeCasts_S128x485x1_S128x485,
    binary main_v2908 main_v2910 main_v2911 (addf : (⟨S128x485, .f32⟩ : BufTy).Contents (Elt F) → (⟨S128x485, .f32⟩ : BufTy).Contents (Elt F) → (⟨S128x485, .f32⟩ : BufTy).Contents (Elt F)),
    unary main_v2886 main_v2912 ((extractStridedSlice S128x485x1 ![0, 8, 8] · slices_S128x512x28_S128x485x1_0_8_8) : (⟨S128x512x28, .f32⟩ : BufTy).Contents (Elt F) → (⟨S128x485x1, .f32⟩ : BufTy).Contents (Elt F)),
    reshape main_v2912 main_v2913 rfl shapeCasts_S128x485x1_S128x485,
    binary main_v2911 main_v2913 main_v2914 (addf : (⟨S128x485, .f32⟩ : BufTy).Contents (Elt F) → (⟨S128x485, .f32⟩ : BufTy).Contents (Elt F) → (⟨S128x485, .f32⟩ : BufTy).Contents (Elt F)),
    unary main_v2886 main_v2915 ((extractStridedSlice S128x485x1 ![0, 9, 9] · slices_S128x512x28_S128x485x1_0_9_9) : (⟨S128x512x28, .f32⟩ : BufTy).Contents (Elt F) → (⟨S128x485x1, .f32⟩ : BufTy).Contents (Elt F)),
    reshape main_v2915 main_v2916 rfl shapeCasts_S128x485x1_S128x485,
    binary main_v2914 main_v2916 main_v2917 (addf : (⟨S128x485, .f32⟩ : BufTy).Contents (Elt F) → (⟨S128x485, .f32⟩ : BufTy).Contents (Elt F) → (⟨S128x485, .f32⟩ : BufTy).Contents (Elt F)),
    unary main_v2886 main_v2918 ((extractStridedSlice S128x485x1 ![0, 10, 10] · slices_S128x512x28_S128x485x1_0_10_10) : (⟨S128x512x28, .f32⟩ : BufTy).Contents (Elt F) → (⟨S128x485x1, .f32⟩ : BufTy).Contents (Elt F)),
    reshape main_v2918 main_v2919 rfl shapeCasts_S128x485x1_S128x485,
    binary main_v2917 main_v2919 main_v2920 (addf : (⟨S128x485, .f32⟩ : BufTy).Contents (Elt F) → (⟨S128x485, .f32⟩ : BufTy).Contents (Elt F) → (⟨S128x485, .f32⟩ : BufTy).Contents (Elt F)),
    unary main_v2886 main_v2921 ((extractStridedSlice S128x485x1 ![0, 11, 11] · slices_S128x512x28_S128x485x1_0_11_11) : (⟨S128x512x28, .f32⟩ : BufTy).Contents (Elt F) → (⟨S128x485x1, .f32⟩ : BufTy).Contents (Elt F)),
    reshape main_v2921 main_v2922 rfl shapeCasts_S128x485x1_S128x485,
    binary main_v2920 main_v2922 main_v2923 (addf : (⟨S128x485, .f32⟩ : BufTy).Contents (Elt F) → (⟨S128x485, .f32⟩ : BufTy).Contents (Elt F) → (⟨S128x485, .f32⟩ : BufTy).Contents (Elt F)),
    unary main_v2886 main_v2924 ((extractStridedSlice S128x485x1 ![0, 12, 12] · slices_S128x512x28_S128x485x1_0_12_12) : (⟨S128x512x28, .f32⟩ : BufTy).Contents (Elt F) → (⟨S128x485x1, .f32⟩ : BufTy).Contents (Elt F)),
    reshape main_v2924 main_v2925 rfl shapeCasts_S128x485x1_S128x485,
    binary main_v2923 main_v2925 main_v2926 (addf : (⟨S128x485, .f32⟩ : BufTy).Contents (Elt F) → (⟨S128x485, .f32⟩ : BufTy).Contents (Elt F) → (⟨S128x485, .f32⟩ : BufTy).Contents (Elt F)),
    unary main_v2886 main_v2927 ((extractStridedSlice S128x485x1 ![0, 13, 13] · slices_S128x512x28_S128x485x1_0_13_13) : (⟨S128x512x28, .f32⟩ : BufTy).Contents (Elt F) → (⟨S128x485x1, .f32⟩ : BufTy).Contents (Elt F)),
    reshape main_v2927 main_v2928 rfl shapeCasts_S128x485x1_S128x485,
    binary main_v2926 main_v2928 main_v2929 (addf : (⟨S128x485, .f32⟩ : BufTy).Contents (Elt F) → (⟨S128x485, .f32⟩ : BufTy).Contents (Elt F) → (⟨S128x485, .f32⟩ : BufTy).Contents (Elt F)),
    unary main_v2886 main_v2930 ((extractStridedSlice S128x485x1 ![0, 14, 14] · slices_S128x512x28_S128x485x1_0_14_14) : (⟨S128x512x28, .f32⟩ : BufTy).Contents (Elt F) → (⟨S128x485x1, .f32⟩ : BufTy).Contents (Elt F)),
    reshape main_v2930 main_v2931 rfl shapeCasts_S128x485x1_S128x485,
    binary main_v2929 main_v2931 main_v2932 (addf : (⟨S128x485, .f32⟩ : BufTy).Contents (Elt F) → (⟨S128x485, .f32⟩ : BufTy).Contents (Elt F) → (⟨S128x485, .f32⟩ : BufTy).Contents (Elt F)),
    unary main_v2886 main_v2933 ((extractStridedSlice S128x485x1 ![0, 15, 15] · slices_S128x512x28_S128x485x1_0_15_15) : (⟨S128x512x28, .f32⟩ : BufTy).Contents (Elt F) → (⟨S128x485x1, .f32⟩ : BufTy).Contents (Elt F)),
    reshape main_v2933 main_v2934 rfl shapeCasts_S128x485x1_S128x485,
    binary main_v2932 main_v2934 main_v2935 (addf : (⟨S128x485, .f32⟩ : BufTy).Contents (Elt F) → (⟨S128x485, .f32⟩ : BufTy).Contents (Elt F) → (⟨S128x485, .f32⟩ : BufTy).Contents (Elt F)),
    unary main_v2886 main_v2936 ((extractStridedSlice S128x485x1 ![0, 16, 16] · slices_S128x512x28_S128x485x1_0_16_16) : (⟨S128x512x28, .f32⟩ : BufTy).Contents (Elt F) → (⟨S128x485x1, .f32⟩ : BufTy).Contents (Elt F)),
    reshape main_v2936 main_v2937 rfl shapeCasts_S128x485x1_S128x485,
    binary main_v2935 main_v2937 main_v2938 (addf : (⟨S128x485, .f32⟩ : BufTy).Contents (Elt F) → (⟨S128x485, .f32⟩ : BufTy).Contents (Elt F) → (⟨S128x485, .f32⟩ : BufTy).Contents (Elt F)),
    unary main_v2886 main_v2939 ((extractStridedSlice S128x485x1 ![0, 17, 17] · slices_S128x512x28_S128x485x1_0_17_17) : (⟨S128x512x28, .f32⟩ : BufTy).Contents (Elt F) → (⟨S128x485x1, .f32⟩ : BufTy).Contents (Elt F)),
    reshape main_v2939 main_v2940 rfl shapeCasts_S128x485x1_S128x485,
    binary main_v2938 main_v2940 main_v2941 (addf : (⟨S128x485, .f32⟩ : BufTy).Contents (Elt F) → (⟨S128x485, .f32⟩ : BufTy).Contents (Elt F) → (⟨S128x485, .f32⟩ : BufTy).Contents (Elt F)),
    unary main_v2886 main_v2942 ((extractStridedSlice S128x485x1 ![0, 18, 18] · slices_S128x512x28_S128x485x1_0_18_18) : (⟨S128x512x28, .f32⟩ : BufTy).Contents (Elt F) → (⟨S128x485x1, .f32⟩ : BufTy).Contents (Elt F)),
    reshape main_v2942 main_v2943 rfl shapeCasts_S128x485x1_S128x485,
    binary main_v2941 main_v2943 main_v2944 (addf : (⟨S128x485, .f32⟩ : BufTy).Contents (Elt F) → (⟨S128x485, .f32⟩ : BufTy).Contents (Elt F) → (⟨S128x485, .f32⟩ : BufTy).Contents (Elt F)),
    unary main_v2886 main_v2945 ((extractStridedSlice S128x485x1 ![0, 19, 19] · slices_S128x512x28_S128x485x1_0_19_19) : (⟨S128x512x28, .f32⟩ : BufTy).Contents (Elt F) → (⟨S128x485x1, .f32⟩ : BufTy).Contents (Elt F)),
    reshape main_v2945 main_v2946 rfl shapeCasts_S128x485x1_S128x485,
    binary main_v2944 main_v2946 main_v2947 (addf : (⟨S128x485, .f32⟩ : BufTy).Contents (Elt F) → (⟨S128x485, .f32⟩ : BufTy).Contents (Elt F) → (⟨S128x485, .f32⟩ : BufTy).Contents (Elt F)),
    unary main_v2886 main_v2948 ((extractStridedSlice S128x485x1 ![0, 20, 20] · slices_S128x512x28_S128x485x1_0_20_20) : (⟨S128x512x28, .f32⟩ : BufTy).Contents (Elt F) → (⟨S128x485x1, .f32⟩ : BufTy).Contents (Elt F)),
    reshape main_v2948 main_v2949 rfl shapeCasts_S128x485x1_S128x485,
    binary main_v2947 main_v2949 main_v2950 (addf : (⟨S128x485, .f32⟩ : BufTy).Contents (Elt F) → (⟨S128x485, .f32⟩ : BufTy).Contents (Elt F) → (⟨S128x485, .f32⟩ : BufTy).Contents (Elt F)) ]

/-- Segment 105: 28 operations. -/
def seg105 : List (HloOp τ sig (Elt F)) :=
  [ unary main_v2886 main_v2951 ((extractStridedSlice S128x485x1 ![0, 21, 21] · slices_S128x512x28_S128x485x1_0_21_21) : (⟨S128x512x28, .f32⟩ : BufTy).Contents (Elt F) → (⟨S128x485x1, .f32⟩ : BufTy).Contents (Elt F)),
    reshape main_v2951 main_v2952 rfl shapeCasts_S128x485x1_S128x485,
    binary main_v2950 main_v2952 main_v2953 (addf : (⟨S128x485, .f32⟩ : BufTy).Contents (Elt F) → (⟨S128x485, .f32⟩ : BufTy).Contents (Elt F) → (⟨S128x485, .f32⟩ : BufTy).Contents (Elt F)),
    unary main_v2886 main_v2954 ((extractStridedSlice S128x485x1 ![0, 22, 22] · slices_S128x512x28_S128x485x1_0_22_22) : (⟨S128x512x28, .f32⟩ : BufTy).Contents (Elt F) → (⟨S128x485x1, .f32⟩ : BufTy).Contents (Elt F)),
    reshape main_v2954 main_v2955 rfl shapeCasts_S128x485x1_S128x485,
    binary main_v2953 main_v2955 main_v2956 (addf : (⟨S128x485, .f32⟩ : BufTy).Contents (Elt F) → (⟨S128x485, .f32⟩ : BufTy).Contents (Elt F) → (⟨S128x485, .f32⟩ : BufTy).Contents (Elt F)),
    unary main_v2886 main_v2957 ((extractStridedSlice S128x485x1 ![0, 23, 23] · slices_S128x512x28_S128x485x1_0_23_23) : (⟨S128x512x28, .f32⟩ : BufTy).Contents (Elt F) → (⟨S128x485x1, .f32⟩ : BufTy).Contents (Elt F)),
    reshape main_v2957 main_v2958 rfl shapeCasts_S128x485x1_S128x485,
    binary main_v2956 main_v2958 main_v2959 (addf : (⟨S128x485, .f32⟩ : BufTy).Contents (Elt F) → (⟨S128x485, .f32⟩ : BufTy).Contents (Elt F) → (⟨S128x485, .f32⟩ : BufTy).Contents (Elt F)),
    unary main_v2886 main_v2960 ((extractStridedSlice S128x485x1 ![0, 24, 24] · slices_S128x512x28_S128x485x1_0_24_24) : (⟨S128x512x28, .f32⟩ : BufTy).Contents (Elt F) → (⟨S128x485x1, .f32⟩ : BufTy).Contents (Elt F)),
    reshape main_v2960 main_v2961 rfl shapeCasts_S128x485x1_S128x485,
    binary main_v2959 main_v2961 main_v2962 (addf : (⟨S128x485, .f32⟩ : BufTy).Contents (Elt F) → (⟨S128x485, .f32⟩ : BufTy).Contents (Elt F) → (⟨S128x485, .f32⟩ : BufTy).Contents (Elt F)),
    unary main_v2886 main_v2963 ((extractStridedSlice S128x485x1 ![0, 25, 25] · slices_S128x512x28_S128x485x1_0_25_25) : (⟨S128x512x28, .f32⟩ : BufTy).Contents (Elt F) → (⟨S128x485x1, .f32⟩ : BufTy).Contents (Elt F)),
    reshape main_v2963 main_v2964 rfl shapeCasts_S128x485x1_S128x485,
    binary main_v2962 main_v2964 main_v2965 (addf : (⟨S128x485, .f32⟩ : BufTy).Contents (Elt F) → (⟨S128x485, .f32⟩ : BufTy).Contents (Elt F) → (⟨S128x485, .f32⟩ : BufTy).Contents (Elt F)),
    unary main_v2886 main_v2966 ((extractStridedSlice S128x485x1 ![0, 26, 26] · slices_S128x512x28_S128x485x1_0_26_26) : (⟨S128x512x28, .f32⟩ : BufTy).Contents (Elt F) → (⟨S128x485x1, .f32⟩ : BufTy).Contents (Elt F)),
    reshape main_v2966 main_v2967 rfl shapeCasts_S128x485x1_S128x485,
    binary main_v2965 main_v2967 main_v2968 (addf : (⟨S128x485, .f32⟩ : BufTy).Contents (Elt F) → (⟨S128x485, .f32⟩ : BufTy).Contents (Elt F) → (⟨S128x485, .f32⟩ : BufTy).Contents (Elt F)),
    unary main_v2886 main_v2969 ((extractStridedSlice S128x485x1 ![0, 27, 27] · slices_S128x512x28_S128x485x1_0_27_27) : (⟨S128x512x28, .f32⟩ : BufTy).Contents (Elt F) → (⟨S128x485x1, .f32⟩ : BufTy).Contents (Elt F)),
    reshape main_v2969 main_v2970 rfl shapeCasts_S128x485x1_S128x485,
    binary main_v2968 main_v2970 main_v2971 (addf : (⟨S128x485, .f32⟩ : BufTy).Contents (Elt F) → (⟨S128x485, .f32⟩ : BufTy).Contents (Elt F) → (⟨S128x485, .f32⟩ : BufTy).Contents (Elt F)),
    unary main_arg3 main_v2972 ((extractStridedSlice S1 ![53] · slices_S64_S1_53) : (⟨S64, .f32⟩ : BufTy).Contents (Elt F) → (⟨S1, .f32⟩ : BufTy).Contents (Elt F)),
    reshape main_v2972 main_v2973 rfl shapeCasts_S1_S_,
    unary main_v2973 main_v2974 (broadcastInDim S128x485 ![] bcast_S_S128x485 : (⟨S_, .f32⟩ : BufTy).Contents (Elt F) → (⟨S128x485, .f32⟩ : BufTy).Contents (Elt F)),
    binary main_v2971 main_v2974 main_v2975 (addf : (⟨S128x485, .f32⟩ : BufTy).Contents (Elt F) → (⟨S128x485, .f32⟩ : BufTy).Contents (Elt F) → (⟨S128x485, .f32⟩ : BufTy).Contents (Elt F)),
    unary main_v2975 main_v2976 (Host.tanh : (⟨S128x485, .f32⟩ : BufTy).Contents (Elt F) → (⟨S128x485, .f32⟩ : BufTy).Contents (Elt F)),
    nullary main_cst_107 (constant S_ .f32 0xFF800000#32),
    binary main_v2976 main_cst_107 main_v2977 ((fun x v => Host.reduce FloatOps.maximumf x v reducesTo_S128x485_S128_d1 h_S_) : (⟨S128x485, .f32⟩ : BufTy).Contents (Elt F) → (⟨S_, .f32⟩ : BufTy).Contents (Elt F) → (⟨S128, .f32⟩ : BufTy).Contents (Elt F)) ]

/-- Segment 106: 32 operations. -/
def seg106 : List (HloOp τ sig (Elt F)) :=
  [ unary main_arg2 main_v2978 ((extractStridedSlice S1x29x300 ![54, 0, 0] · slices_S64x33x300_S1x29x300_54_0_0) : (⟨S64x33x300, .f32⟩ : BufTy).Contents (Elt F) → (⟨S1x29x300, .f32⟩ : BufTy).Contents (Elt F)),
    reshape main_v2978 main_v2979 rfl shapeCasts_S1x29x300_S29x300,
    binary main_v7 main_v2979 main_v2980 ((fun l r => Host.dotGeneral dot_S128x512x300_S29x300_S128x512x29_2_1_01_0_n_n none l r) : (⟨S128x512x300, .f32⟩ : BufTy).Contents (Elt F) → (⟨S29x300, .f32⟩ : BufTy).Contents (Elt F) → (⟨S128x512x29, .f32⟩ : BufTy).Contents (Elt F)),
    unary main_v2980 main_v2981 ((extractStridedSlice S128x484x1 ![0, 0, 0] · slices_S128x512x29_S128x484x1_0_0_0) : (⟨S128x512x29, .f32⟩ : BufTy).Contents (Elt F) → (⟨S128x484x1, .f32⟩ : BufTy).Contents (Elt F)),
    reshape main_v2981 main_v2982 rfl shapeCasts_S128x484x1_S128x484,
    nullary main_cst_108 (constant S_ .f32 0x00000000#32),
    unary main_cst_108 main_v2983 (broadcastInDim S128x484 ![] bcast_S_S128x484 : (⟨S_, .f32⟩ : BufTy).Contents (Elt F) → (⟨S128x484, .f32⟩ : BufTy).Contents (Elt F)),
    binary main_v2983 main_v2982 main_v2984 (addf : (⟨S128x484, .f32⟩ : BufTy).Contents (Elt F) → (⟨S128x484, .f32⟩ : BufTy).Contents (Elt F) → (⟨S128x484, .f32⟩ : BufTy).Contents (Elt F)),
    unary main_v2980 main_v2985 ((extractStridedSlice S128x484x1 ![0, 1, 1] · slices_S128x512x29_S128x484x1_0_1_1) : (⟨S128x512x29, .f32⟩ : BufTy).Contents (Elt F) → (⟨S128x484x1, .f32⟩ : BufTy).Contents (Elt F)),
    reshape main_v2985 main_v2986 rfl shapeCasts_S128x484x1_S128x484,
    binary main_v2984 main_v2986 main_v2987 (addf : (⟨S128x484, .f32⟩ : BufTy).Contents (Elt F) → (⟨S128x484, .f32⟩ : BufTy).Contents (Elt F) → (⟨S128x484, .f32⟩ : BufTy).Contents (Elt F)),
    unary main_v2980 main_v2988 ((extractStridedSlice S128x484x1 ![0, 2, 2] · slices_S128x512x29_S128x484x1_0_2_2) : (⟨S128x512x29, .f32⟩ : BufTy).Contents (Elt F) → (⟨S128x484x1, .f32⟩ : BufTy).Contents (Elt F)),
    reshape main_v2988 main_v2989 rfl shapeCasts_S128x484x1_S128x484,
    binary main_v2987 main_v2989 main_v2990 (addf : (⟨S128x484, .f32⟩ : BufTy).Contents (Elt F) → (⟨S128x484, .f32⟩ : BufTy).Contents (Elt F) → (⟨S128x484, .f32⟩ : BufTy).Contents (Elt F)),
    unary main_v2980 main_v2991 ((extractStridedSlice S128x484x1 ![0, 3, 3] · slices_S128x512x29_S128x484x1_0_3_3) : (⟨S128x512x29, .f32⟩ : BufTy).Contents (Elt F) → (⟨S128x484x1, .f32⟩ : BufTy).Contents (Elt F)),
    reshape main_v2991 main_v2992 rfl shapeCasts_S128x484x1_S128x484,
    binary main_v2990 main_v2992 main_v2993 (addf : (⟨S128x484, .f32⟩ : BufTy).Contents (Elt F) → (⟨S128x484, .f32⟩ : BufTy).Contents (Elt F) → (⟨S128x484, .f32⟩ : BufTy).Contents (Elt F)),
    unary main_v2980 main_v2994 ((extractStridedSlice S128x484x1 ![0, 4, 4] · slices_S128x512x29_S128x484x1_0_4_4) : (⟨S128x512x29, .f32⟩ : BufTy).Contents (Elt F) → (⟨S128x484x1, .f32⟩ : BufTy).Contents (Elt F)),
    reshape main_v2994 main_v2995 rfl shapeCasts_S128x484x1_S128x484,
    binary main_v2993 main_v2995 main_v2996 (addf : (⟨S128x484, .f32⟩ : BufTy).Contents (Elt F) → (⟨S128x484, .f32⟩ : BufTy).Contents (Elt F) → (⟨S128x484, .f32⟩ : BufTy).Contents (Elt F)),
    unary main_v2980 main_v2997 ((extractStridedSlice S128x484x1 ![0, 5, 5] · slices_S128x512x29_S128x484x1_0_5_5) : (⟨S128x512x29, .f32⟩ : BufTy).Contents (Elt F) → (⟨S128x484x1, .f32⟩ : BufTy).Contents (Elt F)),
    reshape main_v2997 main_v2998 rfl shapeCasts_S128x484x1_S128x484,
    binary main_v2996 main_v2998 main_v2999 (addf : (⟨S128x484, .f32⟩ : BufTy).Contents (Elt F) → (⟨S128x484, .f32⟩ : BufTy).Contents (Elt F) → (⟨S128x484, .f32⟩ : BufTy).Contents (Elt F)),
    unary main_v2980 main_v3000 ((extractStridedSlice S128x484x1 ![0, 6, 6] · slices_S128x512x29_S128x484x1_0_6_6) : (⟨S128x512x29, .f32⟩ : BufTy).Contents (Elt F) → (⟨S128x484x1, .f32⟩ : BufTy).Contents (Elt F)),
    reshape main_v3000 main_v3001 rfl shapeCasts_S128x484x1_S128x484,
    binary main_v2999 main_v3001 main_v3002 (addf : (⟨S128x484, .f32⟩ : BufTy).Contents (Elt F) → (⟨S128x484, .f32⟩ : BufTy).Contents (Elt F) → (⟨S128x484, .f32⟩ : BufTy).Contents (Elt F)),
    unary main_v2980 main_v3003 ((extractStridedSlice S128x484x1 ![0, 7, 7] · slices_S128x512x29_S128x484x1_0_7_7) : (⟨S128x512x29, .f32⟩ : BufTy).Contents (Elt F) → (⟨S128x484x1, .f32⟩ : BufTy).Contents (Elt F)),
    reshape main_v3003 main_v3004 rfl shapeCasts_S128x484x1_S128x484,
    binary main_v3002 main_v3004 main_v3005 (addf : (⟨S128x484, .f32⟩ : BufTy).Contents (Elt F) → (⟨S128x484, .f32⟩ : BufTy).Contents (Elt F) → (⟨S128x484, .f32⟩ : BufTy).Contents (Elt F)),
    unary main_v2980 main_v3006 ((extractStridedSlice S128x484x1 ![0, 8, 8] · slices_S128x512x29_S128x484x1_0_8_8) : (⟨S128x512x29, .f32⟩ : BufTy).Contents (Elt F) → (⟨S128x484x1, .f32⟩ : BufTy).Contents (Elt F)),
    reshape main_v3006 main_v3007 rfl shapeCasts_S128x484x1_S128x484,
    binary main_v3005 main_v3007 main_v3008 (addf : (⟨S128x484, .f32⟩ : BufTy).Contents (Elt F) → (⟨S128x484, .f32⟩ : BufTy).Contents (Elt F) → (⟨S128x484, .f32⟩ : BufTy).Contents (Elt F)) ]

/-- Segment 107: 60 operations. -/
def seg107 : List (HloOp τ sig (Elt F)) :=
  [ unary main_v2980 main_v3009 ((extractStridedSlice S128x484x1 ![0, 9, 9] · slices_S128x512x29_S128x484x1_0_9_9) : (⟨S128x512x29, .f32⟩ : BufTy).Contents (Elt F) → (⟨S128x484x1, .f32⟩ : BufTy).Contents (Elt F)),
    reshape main_v3009 main_v3010 rfl shapeCasts_S128x484x1_S128x484,
    binary main_v3008 main_v3010 main_v3011 (addf : (⟨S128x484, .f32⟩ : BufTy).Contents (Elt F) → (⟨S128x484, .f32⟩ : BufTy).Contents (Elt F) → (⟨S128x484, .f32⟩ : BufTy).Contents (Elt F)),
    unary main_v2980 main_v3012 ((extractStridedSlice S128x484x1 ![0, 10, 10] · slices_S128x512x29_S128x484x1_0_10_10) : (⟨S128x512x29, .f32⟩ : BufTy).Contents (Elt F) → (⟨S128x484x1, .f32⟩ : BufTy).Contents (Elt F)),
    reshape main_v3012 main_v3013 rfl shapeCasts_S128x484x1_S128x484,
    binary main_v3011 main_v3013 main_v3014 (addf : (⟨S128x484, .f32⟩ : BufTy).Contents (Elt F) → (⟨S128x484, .f32⟩ : BufTy).Contents (Elt F) → (⟨S128x484, .f32⟩ : BufTy).Contents (Elt F)),
    unary main_v2980 main_v3015 ((extractStridedSlice S128x484x1 ![0, 11, 11] · slices_S128x512x29_S128x484x1_0_11_11) : (⟨S128x512x29, .f32⟩ : BufTy).Contents (Elt F) → (⟨S128x484x1, .f32⟩ : BufTy).Contents (Elt F)),
    reshape main_v3015 main_v3016 rfl shapeCasts_S128x484x1_S128x484,
    binary main_v3014 main_v3016 main_v3017 (addf : (⟨S128x484, .f32⟩ : BufTy).Contents (Elt F) → (⟨S128x484, .f32⟩ : BufTy).Contents (Elt F) → (⟨S128x484, .f32⟩ : BufTy).Contents (Elt F)),
    unary main_v2980 main_v3018 ((extractStridedSlice S128x484x1 ![0, 12, 12] · slices_S128x512x29_S128x484x1_0_12_12) : (⟨S128x512x29, .f32⟩ : BufTy).Contents (Elt F) → (⟨S128x484x1, .f32⟩ : BufTy).Contents (Elt F)),
    reshape main_v3018 main_v3019 rfl shapeCasts_S128x484x1_S128x484,
    binary main_v3017 main_v3019 main_v3020 (addf : (⟨S128x484, .f32⟩ : BufTy).Contents (Elt F) → (⟨S128x484, .f32⟩ : BufTy).Contents (Elt F) → (⟨S128x484, .f32⟩ : BufTy).Contents (Elt F)),
    unary main_v2980 main_v3021 ((extractStridedSlice S128x484x1 ![0, 13, 13] · slices_S128x512x29_S128x484x1_0_13_13) : (⟨S128x512x29, .f32⟩ : BufTy).Contents (Elt F) → (⟨S128x484x1, .f32⟩ : BufTy).Contents (Elt F)),
    reshape main_v3021 main_v3022 rfl shapeCasts_S128x484x1_S128x484,
    binary main_v3020 main_v3022 main_v3023 (addf : (⟨S128x484, .f32⟩ : BufTy).Contents (Elt F) → (⟨S128x484, .f32⟩ : BufTy).Contents (Elt F) → (⟨S128x484, .f32⟩ : BufTy).Contents (Elt F)),
    unary main_v2980 main_v3024 ((extractStridedSlice S128x484x1 ![0, 14, 14] · slices_S128x512x29_S128x484x1_0_14_14) : (⟨S128x512x29, .f32⟩ : BufTy).Contents (Elt F) → (⟨S128x484x1, .f32⟩ : BufTy).Contents (Elt F)),
    reshape main_v3024 main_v3025 rfl shapeCasts_S128x484x1_S128x484,
    binary main_v3023 main_v3025 main_v3026 (addf : (⟨S128x484, .f32⟩ : BufTy).Contents (Elt F) → (⟨S128x484, .f32⟩ : BufTy).Contents (Elt F) → (⟨S128x484, .f32⟩ : BufTy).Contents (Elt F)),
    unary main_v2980 main_v3027 ((extractStridedSlice S128x484x1 ![0, 15, 15] · slices_S128x512x29_S128x484x1_0_15_15) : (⟨S128x512x29, .f32⟩ : BufTy).Contents (Elt F) → (⟨S128x484x1, .f32⟩ : BufTy).Contents (Elt F)),
    reshape main_v3027 main_v3028 rfl shapeCasts_S128x484x1_S128x484,
    binary main_v3026 main_v3028 main_v3029 (addf : (⟨S128x484, .f32⟩ : BufTy).Contents (Elt F) → (⟨S128x484, .f32⟩ : BufTy).Contents (Elt F) → (⟨S128x484, .f32⟩ : BufTy).Contents (Elt F)),
    unary main_v2980 main_v3030 ((extractStridedSlice S128x484x1 ![0, 16, 16] · slices_S128x512x29_S128x484x1_0_16_16) : (⟨S128x512x29, .f32⟩ : BufTy).Contents (Elt F) → (⟨S128x484x1, .f32⟩ : BufTy).Contents (Elt F)),
    reshape main_v3030 main_v3031 rfl shapeCasts_S128x484x1_S128x484,
    binary main_v3029 main_v3031 main_v3032 (addf : (⟨S128x484, .f32⟩ : BufTy).Contents (Elt F) → (⟨S128x484, .f32⟩ : BufTy).Contents (Elt F) → (⟨S128x484, .f32⟩ : BufTy).Contents (Elt F)),
    unary main_v2980 main_v3033 ((extractStridedSlice S128x484x1 ![0, 17, 17] · slices_S128x512x29_S128x484x1_0_17_17) : (⟨S128x512x29, .f32⟩ : BufTy).Contents (Elt F) → (⟨S128x484x1, .f32⟩ : BufTy).Contents (Elt F)),
    reshape main_v3033 main_v3034 rfl shapeCasts_S128x484x1_S128x484,
    binary main_v3032 main_v3034 main_v3035 (addf : (⟨S128x484, .f32⟩ : BufTy).Contents (Elt F) → (⟨S128x484, .f32⟩ : BufTy).Contents (Elt F) → (⟨S128x484, .f32⟩ : BufTy).Contents (Elt F)),
    unary main_v2980 main_v3036 ((extractStridedSlice S128x484x1 ![0, 18, 18] · slices_S128x512x29_S128x484x1_0_18_18) : (⟨S128x512x29, .f32⟩ : BufTy).Contents (Elt F) → (⟨S128x484x1, .f32⟩ : BufTy).Contents (Elt F)),
    reshape main_v3036 main_v3037 rfl shapeCasts_S128x484x1_S128x484,
    binary main_v3035 main_v3037 main_v3038 (addf : (⟨S128x484, .f32⟩ : BufTy).Contents (Elt F) → (⟨S128x484, .f32⟩ : BufTy).Contents (Elt F) → (⟨S128x484, .f32⟩ : BufTy).Contents (Elt F)),
    unary main_v2980 main_v3039 ((extractStridedSlice S128x484x1 ![0, 19, 19] · slices_S128x512x29_S128x484x1_0_19_19) : (⟨S128x512x29, .f32⟩ : BufTy).Contents (Elt F) → (⟨S128x484x1, .f32⟩ : BufTy).Contents (Elt F)),
    reshape main_v3039 main_v3040 rfl shapeCasts_S128x484x1_S128x484,
    binary main_v3038 main_v3040 main_v3041 (addf : (⟨S128x484, .f32⟩ : BufTy).Contents (Elt F) → (⟨S128x484, .f32⟩ : BufTy).Contents (Elt F) → (⟨S128x484, .f32⟩ : BufTy).Contents (Elt F)),
    unary main_v2980 main_v3042 ((extractStridedSlice S128x484x1 ![0, 20, 20] · slices_S128x512x29_S128x484x1_0_20_20) : (⟨S128x512x29, .f32⟩ : BufTy).Contents (Elt F) → (⟨S128x484x1, .f32⟩ : BufTy).Contents (Elt F)),
    reshape main_v3042 main_v3043 rfl shapeCasts_S128x484x1_S128x484,
    binary main_v3041 main_v3043 main_v3044 (addf : (⟨S128x484, .f32⟩ : BufTy).Contents (Elt F) → (⟨S128x484, .f32⟩ : BufTy).Contents (Elt F) → (⟨S128x484, .f32⟩ : BufTy).Contents (Elt F)),
    unary main_v2980 main_v3045 ((extractStridedSlice S128x484x1 ![0, 21, 21] · slices_S128x512x29_S128x484x1_0_21_21) : (⟨S128x512x29, .f32⟩ : BufTy).Contents (Elt F) → (⟨S128x484x1, .f32⟩ : BufTy).Contents (Elt F)),
    reshape main_v3045 main_v3046 rfl shapeCasts_S128x484x1_S128x484,
    binary main_v3044 main_v3046 main_v3047 (addf : (⟨S128x484, .f32⟩ : BufTy).Contents (Elt F) → (⟨S128x484, .f32⟩ : BufTy).Contents (Elt F) → (⟨S128x484, .f32⟩ : BufTy).Contents (Elt F)),
    unary main_v2980 main_v3048 ((extractStridedSlice S128x484x1 ![0, 22, 22] · slices_S128x512x29_S128x484x1_0_22_22) : (⟨S128x512x29, .f32⟩ : BufTy).Contents (Elt F) → (⟨S128x484x1, .f32⟩ : BufTy).Contents (Elt F)),
    reshape main_v3048 main_v3049 rfl shapeCasts_S128x484x1_S128x484,
    binary main_v3047 main_v3049 main_v3050 (addf : (⟨S128x484, .f32⟩ : BufTy).Contents (Elt F) → (⟨S128x484, .f32⟩ : BufTy).Contents (Elt F) → (⟨S128x484, .f32⟩ : BufTy).Contents (Elt F)),
    unary main_v2980 main_v3051 ((extractStridedSlice S128x484x1 ![0, 23, 23] · slices_S128x512x29_S128x484x1_0_23_23) : (⟨S128x512x29, .f32⟩ : BufTy).Contents (Elt F) → (⟨S128x484x1, .f32⟩ : BufTy).Contents (Elt F)),
    reshape main_v3051 main_v3052 rfl shapeCasts_S128x484x1_S128x484,
    binary main_v3050 main_v3052 main_v3053 (addf : (⟨S128x484, .f32⟩ : BufTy).Contents (Elt F) → (⟨S128x484, .f32⟩ : BufTy).Contents (Elt F) → (⟨S128x484, .f32⟩ : BufTy).Contents (Elt F)),
    unary main_v2980 main_v3054 ((extractStridedSlice S128x484x1 ![0, 24, 24] · slices_S128x512x29_S128x484x1_0_24_24) : (⟨S128x512x29, .f32⟩ : BufTy).Contents (Elt F) → (⟨S128x484x1, .f32⟩ : BufTy).Contents (Elt F)),
    reshape main_v3054 main_v3055 rfl shapeCasts_S128x484x1_S128x484,
    binary main_v3053 main_v3055 main_v3056 (addf : (⟨S128x484, .f32⟩ : BufTy).Contents (Elt F) → (⟨S128x484, .f32⟩ : BufTy).Contents (Elt F) → (⟨S128x484, .f32⟩ : BufTy).Contents (Elt F)),
    unary main_v2980 main_v3057 ((extractStridedSlice S128x484x1 ![0, 25, 25] · slices_S128x512x29_S128x484x1_0_25_25) : (⟨S128x512x29, .f32⟩ : BufTy).Contents (Elt F) → (⟨S128x484x1, .f32⟩ : BufTy).Contents (Elt F)),
    reshape main_v3057 main_v3058 rfl shapeCasts_S128x484x1_S128x484,
    binary main_v3056 main_v3058 main_v3059 (addf : (⟨S128x484, .f32⟩ : BufTy).Contents (Elt F) → (⟨S128x484, .f32⟩ : BufTy).Contents (Elt F) → (⟨S128x484, .f32⟩ : BufTy).Contents (Elt F)),
    unary main_v2980 main_v3060 ((extractStridedSlice S128x484x1 ![0, 26, 26] · slices_S128x512x29_S128x484x1_0_26_26) : (⟨S128x512x29, .f32⟩ : BufTy).Contents (Elt F) → (⟨S128x484x1, .f32⟩ : BufTy).Contents (Elt F)),
    reshape main_v3060 main_v3061 rfl shapeCasts_S128x484x1_S128x484,
    binary main_v3059 main_v3061 main_v3062 (addf : (⟨S128x484, .f32⟩ : BufTy).Contents (Elt F) → (⟨S128x484, .f32⟩ : BufTy).Contents (Elt F) → (⟨S128x484, .f32⟩ : BufTy).Contents (Elt F)),
    unary main_v2980 main_v3063 ((extractStridedSlice S128x484x1 ![0, 27, 27] · slices_S128x512x29_S128x484x1_0_27_27) : (⟨S128x512x29, .f32⟩ : BufTy).Contents (Elt F) → (⟨S128x484x1, .f32⟩ : BufTy).Contents (Elt F)),
    reshape main_v3063 main_v3064 rfl shapeCasts_S128x484x1_S128x484,
    binary main_v3062 main_v3064 main_v3065 (addf : (⟨S128x484, .f32⟩ : BufTy).Contents (Elt F) → (⟨S128x484, .f32⟩ : BufTy).Contents (Elt F) → (⟨S128x484, .f32⟩ : BufTy).Contents (Elt F)),
    unary main_v2980 main_v3066 ((extractStridedSlice S128x484x1 ![0, 28, 28] · slices_S128x512x29_S128x484x1_0_28_28) : (⟨S128x512x29, .f32⟩ : BufTy).Contents (Elt F) → (⟨S128x484x1, .f32⟩ : BufTy).Contents (Elt F)),
    reshape main_v3066 main_v3067 rfl shapeCasts_S128x484x1_S128x484,
    binary main_v3065 main_v3067 main_v3068 (addf : (⟨S128x484, .f32⟩ : BufTy).Contents (Elt F) → (⟨S128x484, .f32⟩ : BufTy).Contents (Elt F) → (⟨S128x484, .f32⟩ : BufTy).Contents (Elt F)) ]

/-- Segment 108: 7 operations. -/
def seg108 : List (HloOp τ sig (Elt F)) :=
  [ unary main_arg3 main_v3069 ((extractStridedSlice S1 ![54] · slices_S64_S1_54) : (⟨S64, .f32⟩ : BufTy).Contents (Elt F) → (⟨S1, .f32⟩ : BufTy).Contents (Elt F)),
    reshape main_v3069 main_v3070 rfl shapeCasts_S1_S_,
    unary main_v3070 main_v3071 (broadcastInDim S128x484 ![] bcast_S_S128x484 : (⟨S_, .f32⟩ : BufTy).Contents (Elt F) → (⟨S128x484, .f32⟩ : BufTy).Contents (Elt F)),
    binary main_v3068 main_v3071 main_v3072 (addf : (⟨S128x484, .f32⟩ : BufTy).Contents (Elt F) → (⟨S128x484, .f32⟩ : BufTy).Contents (Elt F) → (⟨S128x484, .f32⟩ : BufTy).Contents (Elt F)),
    unary main_v3072 main_v3073 (Host.tanh : (⟨S128x484, .f32⟩ : BufTy).Contents (Elt F) → (⟨S128x484, .f32⟩ : BufTy).Contents (Elt F)),
    nullary main_cst_109 (constant S_ .f32 0xFF800000#32),
    binary main_v3073 main_cst_109 main_v3074 ((fun x v => Host.reduce FloatOps.maximumf x v reducesTo_S128x484_S128_d1 h_S_) : (⟨S128x484, .f32⟩ : BufTy).Contents (Elt F) → (⟨S_, .f32⟩ : BufTy).Contents (Elt F) → (⟨S128, .f32⟩ : BufTy).Contents (Elt F)) ]

/-- Segment 109: 53 operations. -/
def seg109 : List (HloOp τ sig (Elt F)) :=
  [ unary main_arg2 main_v3075 ((extractStridedSlice S1x29x300 ![55, 0, 0] · slices_S64x33x300_S1x29x300_55_0_0) : (⟨S64x33x300, .f32⟩ : BufTy).Contents (Elt F) → (⟨S1x29x300, .f32⟩ : BufTy).Contents (Elt F)),
    reshape main_v3075 main_v3076 rfl shapeCasts_S1x29x300_S29x300,
    binary main_v7 main_v3076 main_v3077 ((fun l r => Host.dotGeneral dot_S128x512x300_S29x300_S128x512x29_2_1_01_0_n_n none l r) : (⟨S128x512x300, .f32⟩ : BufTy).Contents (Elt F) → (⟨S29x300, .f32⟩ : BufTy).Contents (Elt F) → (⟨S128x512x29, .f32⟩ : BufTy).Contents (Elt F)),
    unary main_v3077 main_v3078 ((extractStridedSlice S128x484x1 ![0, 0, 0] · slices_S128x512x29_S128x484x1_0_0_0) : (⟨S128x512x29, .f32⟩ : BufTy).Contents (Elt F) → (⟨S128x484x1, .f32⟩ : BufTy).Contents (Elt F)),
    reshape main_v3078 main_v3079 rfl shapeCasts_S128x484x1_S128x484,
    nullary main_cst_110 (constant S_ .f32 0x00000000#32),
    unary main_cst_110 main_v3080 (broadcastInDim S128x484 ![] bcast_S_S128x484 : (⟨S_, .f32⟩ : BufTy).Contents (Elt F) → (⟨S128x484, .f32⟩ : BufTy).Contents (Elt F)),
    binary main_v3080 main_v3079 main_v3081 (addf : (⟨S128x484, .f32⟩ : BufTy).Contents (Elt F) → (⟨S128x484, .f32⟩ : BufTy).Contents (Elt F) → (⟨S128x484, .f32⟩ : BufTy).Contents (Elt F)),
    unary main_v3077 main_v3082 ((extractStridedSlice S128x484x1 ![0, 1, 1] · slices_S128x512x29_S128x484x1_0_1_1) : (⟨S128x512x29, .f32⟩ : BufTy).Contents (Elt F) → (⟨S128x484x1, .f32⟩ : BufTy).Contents (Elt F)),
    reshape main_v3082 main_v3083 rfl shapeCasts_S128x484x1_S128x484,
    binary main_v3081 main_v3083 main_v3084 (addf : (⟨S128x484, .f32⟩ : BufTy).Contents (Elt F) → (⟨S128x484, .f32⟩ : BufTy).Contents (Elt F) → (⟨S128x484, .f32⟩ : BufTy).Contents (Elt F)),
    unary main_v3077 main_v3085 ((extractStridedSlice S128x484x1 ![0, 2, 2] · slices_S128x512x29_S128x484x1_0_2_2) : (⟨S128x512x29, .f32⟩ : BufTy).Contents (Elt F) → (⟨S128x484x1, .f32⟩ : BufTy).Contents (Elt F)),
    reshape main_v3085 main_v3086 rfl shapeCasts_S128x484x1_S128x484,
    binary main_v3084 main_v3086 main_v3087 (addf : (⟨S128x484, .f32⟩ : BufTy).Contents (Elt F) → (⟨S128x484, .f32⟩ : BufTy).Contents (Elt F) → (⟨S128x484, .f32⟩ : BufTy).Contents (Elt F)),
    unary main_v3077 main_v3088 ((extractStridedSlice S128x484x1 ![0, 3, 3] · slices_S128x512x29_S128x484x1_0_3_3) : (⟨S128x512x29, .f32⟩ : BufTy).Contents (Elt F) → (⟨S128x484x1, .f32⟩ : BufTy).Contents (Elt F)),
    reshape main_v3088 main_v3089 rfl shapeCasts_S128x484x1_S128x484,
    binary main_v3087 main_v3089 main_v3090 (addf : (⟨S128x484, .f32⟩ : BufTy).Contents (Elt F) → (⟨S128x484, .f32⟩ : BufTy).Contents (Elt F) → (⟨S128x484, .f32⟩ : BufTy).Contents (Elt F)),
    unary main_v3077 main_v3091 ((extractStridedSlice S128x484x1 ![0, 4, 4] · slices_S128x512x29_S128x484x1_0_4_4) : (⟨S128x512x29, .f32⟩ : BufTy).Contents (Elt F) → (⟨S128x484x1, .f32⟩ : BufTy).Contents (Elt F)),
    reshape main_v3091 main_v3092 rfl shapeCasts_S128x484x1_S128x484,
    binary main_v3090 main_v3092 main_v3093 (addf : (⟨S128x484, .f32⟩ : BufTy).Contents (Elt F) → (⟨S128x484, .f32⟩ : BufTy).Contents (Elt F) → (⟨S128x484, .f32⟩ : BufTy).Contents (Elt F)),
    unary main_v3077 main_v3094 ((extractStridedSlice S128x484x1 ![0, 5, 5] · slices_S128x512x29_S128x484x1_0_5_5) : (⟨S128x512x29, .f32⟩ : BufTy).Contents (Elt F) → (⟨S128x484x1, .f32⟩ : BufTy).Contents (Elt F)),
    reshape main_v3094 main_v3095 rfl shapeCasts_S128x484x1_S128x484,
    binary main_v3093 main_v3095 main_v3096 (addf : (⟨S128x484, .f32⟩ : BufTy).Contents (Elt F) → (⟨S128x484, .f32⟩ : BufTy).Contents (Elt F) → (⟨S128x484, .f32⟩ : BufTy).Contents (Elt F)),
    unary main_v3077 main_v3097 ((extractStridedSlice S128x484x1 ![0, 6, 6] · slices_S128x512x29_S128x484x1_0_6_6) : (⟨S128x512x29, .f32⟩ : BufTy).Contents (Elt F) → (⟨S128x484x1, .f32⟩ : BufTy).Contents (Elt F)),
    reshape main_v3097 main_v3098 rfl shapeCasts_S128x484x1_S128x484,
    binary main_v3096 main_v3098 main_v3099 (addf : (⟨S128x484, .f32⟩ : BufTy).Contents (Elt F) → (⟨S128x484, .f32⟩ : BufTy).Contents (Elt F) → (⟨S128x484, .f32⟩ : BufTy).Contents (Elt F)),
    unary main_v3077 main_v3100 ((extractStridedSlice S128x484x1 ![0, 7, 7] · slices_S128x512x29_S128x484x1_0_7_7) : (⟨S128x512x29, .f32⟩ : BufTy).Contents (Elt F) → (⟨S128x484x1, .f32⟩ : BufTy).Contents (Elt F)),
    reshape main_v3100 main_v3101 rfl shapeCasts_S128x484x1_S128x484,
    binary main_v3099 main_v3101 main_v3102 (addf : (⟨S128x484, .f32⟩ : BufTy).Contents (Elt F) → (⟨S128x484, .f32⟩ : BufTy).Contents (Elt F) → (⟨S128x484, .f32⟩ : BufTy).Contents (Elt F)),
    unary main_v3077 main_v3103 ((extractStridedSlice S128x484x1 ![0, 8, 8] · slices_S128x512x29_S128x484x1_0_8_8) : (⟨S128x512x29, .f32⟩ : BufTy).Contents (Elt F) → (⟨S128x484x1, .f32⟩ : BufTy).Contents (Elt F)),
    reshape main_v3103 main_v3104 rfl shapeCasts_S128x484x1_S128x484,
    binary main_v3102 main_v3104 main_v3105 (addf : (⟨S128x484, .f32⟩ : BufTy).Contents (Elt F) → (⟨S128x484, .f32⟩ : BufTy).Contents (Elt F) → (⟨S128x484, .f32⟩ : BufTy).Contents (Elt F)),
    unary main_v3077 main_v3106 ((extractStridedSlice S128x484x1 ![0, 9, 9] · slices_S128x512x29_S128x484x1_0_9_9) : (⟨S128x512x29, .f32⟩ : BufTy).Contents (Elt F) → (⟨S128x484x1, .f32⟩ : BufTy).Contents (Elt F)),
    reshape main_v3106 main_v3107 rfl shapeCasts_S128x484x1_S128x484,
    binary main_v3105 main_v3107 main_v3108 (addf : (⟨S128x484, .f32⟩ : BufTy).Contents (Elt F) → (⟨S128x484, .f32⟩ : BufTy).Contents (Elt F) → (⟨S128x484, .f32⟩ : BufTy).Contents (Elt F)),
    unary main_v3077 main_v3109 ((extractStridedSlice S128x484x1 ![0, 10, 10] · slices_S128x512x29_S128x484x1_0_10_10) : (⟨S128x512x29, .f32⟩ : BufTy).Contents (Elt F) → (⟨S128x484x1, .f32⟩ : BufTy).Contents (Elt F)),
    reshape main_v3109 main_v3110 rfl shapeCasts_S128x484x1_S128x484,
    binary main_v3108 main_v3110 main_v3111 (addf : (⟨S128x484, .f32⟩ : BufTy).Contents (Elt F) → (⟨S128x484, .f32⟩ : BufTy).Contents (Elt F) → (⟨S128x484, .f32⟩ : BufTy).Contents (Elt F)),
    unary main_v3077 main_v3112 ((extractStridedSlice S128x484x1 ![0, 11, 11] · slices_S128x512x29_S128x484x1_0_11_11) : (⟨S128x512x29, .f32⟩ : BufTy).Contents (Elt F) → (⟨S128x484x1, .f32⟩ : BufTy).Contents (Elt F)),
    reshape main_v3112 main_v3113 rfl shapeCasts_S128x484x1_S128x484,
    binary main_v3111 main_v3113 main_v3114 (addf : (⟨S128x484, .f32⟩ : BufTy).Contents (Elt F) → (⟨S128x484, .f32⟩ : BufTy).Contents (Elt F) → (⟨S128x484, .f32⟩ : BufTy).Contents (Elt F)),
    unary main_v3077 main_v3115 ((extractStridedSlice S128x484x1 ![0, 12, 12] · slices_S128x512x29_S128x484x1_0_12_12) : (⟨S128x512x29, .f32⟩ : BufTy).Contents (Elt F) → (⟨S128x484x1, .f32⟩ : BufTy).Contents (Elt F)),
    reshape main_v3115 main_v3116 rfl shapeCasts_S128x484x1_S128x484,
    binary main_v3114 main_v3116 main_v3117 (addf : (⟨S128x484, .f32⟩ : BufTy).Contents (Elt F) → (⟨S128x484, .f32⟩ : BufTy).Contents (Elt F) → (⟨S128x484, .f32⟩ : BufTy).Contents (Elt F)),
    unary main_v3077 main_v3118 ((extractStridedSlice S128x484x1 ![0, 13, 13] · slices_S128x512x29_S128x484x1_0_13_13) : (⟨S128x512x29, .f32⟩ : BufTy).Contents (Elt F) → (⟨S128x484x1, .f32⟩ : BufTy).Contents (Elt F)),
    reshape main_v3118 main_v3119 rfl shapeCasts_S128x484x1_S128x484,
    binary main_v3117 main_v3119 main_v3120 (addf : (⟨S128x484, .f32⟩ : BufTy).Contents (Elt F) → (⟨S128x484, .f32⟩ : BufTy).Contents (Elt F) → (⟨S128x484, .f32⟩ : BufTy).Contents (Elt F)),
    unary main_v3077 main_v3121 ((extractStridedSlice S128x484x1 ![0, 14, 14] · slices_S128x512x29_S128x484x1_0_14_14) : (⟨S128x512x29, .f32⟩ : BufTy).Contents (Elt F) → (⟨S128x484x1, .f32⟩ : BufTy).Contents (Elt F)),
    reshape main_v3121 main_v3122 rfl shapeCasts_S128x484x1_S128x484,
    binary main_v3120 main_v3122 main_v3123 (addf : (⟨S128x484, .f32⟩ : BufTy).Contents (Elt F) → (⟨S128x484, .f32⟩ : BufTy).Contents (Elt F) → (⟨S128x484, .f32⟩ : BufTy).Contents (Elt F)),
    unary main_v3077 main_v3124 ((extractStridedSlice S128x484x1 ![0, 15, 15] · slices_S128x512x29_S128x484x1_0_15_15) : (⟨S128x512x29, .f32⟩ : BufTy).Contents (Elt F) → (⟨S128x484x1, .f32⟩ : BufTy).Contents (Elt F)),
    reshape main_v3124 main_v3125 rfl shapeCasts_S128x484x1_S128x484,
    binary main_v3123 main_v3125 main_v3126 (addf : (⟨S128x484, .f32⟩ : BufTy).Contents (Elt F) → (⟨S128x484, .f32⟩ : BufTy).Contents (Elt F) → (⟨S128x484, .f32⟩ : BufTy).Contents (Elt F)) ]

/-- Segment 110: 46 operations. -/
def seg110 : List (HloOp τ sig (Elt F)) :=
  [ unary main_v3077 main_v3127 ((extractStridedSlice S128x484x1 ![0, 16, 16] · slices_S128x512x29_S128x484x1_0_16_16) : (⟨S128x512x29, .f32⟩ : BufTy).Contents (Elt F) → (⟨S128x484x1, .f32⟩ : BufTy).Contents (Elt F)),
    reshape main_v3127 main_v3128 rfl shapeCasts_S128x484x1_S128x484,
    binary main_v3126 main_v3128 main_v3129 (addf : (⟨S128x484, .f32⟩ : BufTy).Contents (Elt F) → (⟨S128x484, .f32⟩ : BufTy).Contents (Elt F) → (⟨S128x484, .f32⟩ : BufTy).Contents (Elt F)),
    unary main_v3077 main_v3130 ((extractStridedSlice S128x484x1 ![0, 17, 17] · slices_S128x512x29_S128x484x1_0_17_17) : (⟨S128x512x29, .f32⟩ : BufTy).Contents (Elt F) → (⟨S128x484x1, .f32⟩ : BufTy).Contents (Elt F)),
    reshape main_v3130 main_v3131 rfl shapeCasts_S128x484x1_S128x484,
    binary main_v3129 main_v3131 main_v3132 (addf : (⟨S128x484, .f32⟩ : BufTy).Contents (Elt F) → (⟨S128x484, .f32⟩ : BufTy).Contents (Elt F) → (⟨S128x484, .f32⟩ : BufTy).Contents (Elt F)),
    unary main_v3077 main_v3133 ((extractStridedSlice S128x484x1 ![0, 18, 18] · slices_S128x512x29_S128x484x1_0_18_18) : (⟨S128x512x29, .f32⟩ : BufTy).Contents (Elt F) → (⟨S128x484x1, .f32⟩ : BufTy).Contents (Elt F)),
    reshape main_v3133 main_v3134 rfl shapeCasts_S128x484x1_S128x484,
    binary main_v3132 main_v3134 main_v3135 (addf : (⟨S128x484, .f32⟩ : BufTy).Contents (Elt F) → (⟨S128x484, .f32⟩ : BufTy).Contents (Elt F) → (⟨S128x484, .f32⟩ : BufTy).Contents (Elt F)),
    unary main_v3077 main_v3136 ((extractStridedSlice S128x484x1 ![0, 19, 19] · slices_S128x512x29_S128x484x1_0_19_19) : (⟨S128x512x29, .f32⟩ : BufTy).Contents (Elt F) → (⟨S128x484x1, .f32⟩ : BufTy).Contents (Elt F)),
    reshape main_v3136 main_v3137 rfl shapeCasts_S128x484x1_S128x484,
    binary main_v3135 main_v3137 main_v3138 (addf : (⟨S128x484, .f32⟩ : BufTy).Contents (Elt F) → (⟨S128x484, .f32⟩ : BufTy).Contents (Elt F) → (⟨S128x484, .f32⟩ : BufTy).Contents (Elt F)),
    unary main_v3077 main_v3139 ((extractStridedSlice S128x484x1 ![0, 20, 20] · slices_S128x512x29_S128x484x1_0_20_20) : (⟨S128x512x29, .f32⟩ : BufTy).Contents (Elt F) → (⟨S128x484x1, .f32⟩ : BufTy).Contents (Elt F)),
    reshape main_v3139 main_v3140 rfl shapeCasts_S128x484x1_S128x484,
    binary main_v3138 main_v3140 main_v3141 (addf : (⟨S128x484, .f32⟩ : BufTy).Contents (Elt F) → (⟨S128x484, .f32⟩ : BufTy).Contents (Elt F) → (⟨S128x484, .f32⟩ : BufTy).Contents (Elt F)),
    unary main_v3077 main_v3142 ((extractStridedSlice S128x484x1 ![0, 21, 21] · slices_S128x512x29_S128x484x1_0_21_21) : (⟨S128x512x29, .f32⟩ : BufTy).Contents (Elt F) → (⟨S128x484x1, .f32⟩ : BufTy).Contents (Elt F)),
    reshape main_v3142 main_v3143 rfl shapeCasts_S128x484x1_S128x484,
    binary main_v3141 main_v3143 main_v3144 (addf : (⟨S128x484, .f32⟩ : BufTy).Contents (Elt F) → (⟨S128x484, .f32⟩ : BufTy).Contents (Elt F) → (⟨S128x484, .f32⟩ : BufTy).Contents (Elt F)),
    unary main_v3077 main_v3145 ((extractStridedSlice S128x484x1 ![0, 22, 22] · slices_S128x512x29_S128x484x1_0_22_22) : (⟨S128x512x29, .f32⟩ : BufTy).Contents (Elt F) → (⟨S128x484x1, .f32⟩ : BufTy).Contents (Elt F)),
    reshape main_v3145 main_v3146 rfl shapeCasts_S128x484x1_S128x484,
    binary main_v3144 main_v3146 main_v3147 (addf : (⟨S128x484, .f32⟩ : BufTy).Contents (Elt F) → (⟨S128x484, .f32⟩ : BufTy).Contents (Elt F) → (⟨S128x484, .f32⟩ : BufTy).Contents (Elt F)),
    unary main_v3077 main_v3148 ((extractStridedSlice S128x484x1 ![0, 23, 23] · slices_S128x512x29_S128x484x1_0_23_23) : (⟨S128x512x29, .f32⟩ : BufTy).Contents (Elt F) → (⟨S128x484x1, .f32⟩ : BufTy).Contents (Elt F)),
    reshape main_v3148 main_v3149 rfl shapeCasts_S128x484x1_S128x484,
    binary main_v3147 main_v3149 main_v3150 (addf : (⟨S128x484, .f32⟩ : BufTy).Contents (Elt F) → (⟨S128x484, .f32⟩ : BufTy).Contents (Elt F) → (⟨S128x484, .f32⟩ : BufTy).Contents (Elt F)),
    unary main_v3077 main_v3151 ((extractStridedSlice S128x484x1 ![0, 24, 24] · slices_S128x512x29_S128x484x1_0_24_24) : (⟨S128x512x29, .f32⟩ : BufTy).Contents (Elt F) → (⟨S128x484x1, .f32⟩ : BufTy).Contents (Elt F)),
    reshape main_v3151 main_v3152 rfl shapeCasts_S128x484x1_S128x484,
    binary main_v3150 main_v3152 main_v3153 (addf : (⟨S128x484, .f32⟩ : BufTy).Contents (Elt F) → (⟨S128x484, .f32⟩ : BufTy).Contents (Elt F) → (⟨S128x484, .f32⟩ : BufTy).Contents (Elt F)),
    unary main_v3077 main_v3154 ((extractStridedSlice S128x484x1 ![0, 25, 25] · slices_S128x512x29_S128x484x1_0_25_25) : (⟨S128x512x29, .f32⟩ : BufTy).Contents (Elt F) → (⟨S128x484x1, .f32⟩ : BufTy).Contents (Elt F)),
    reshape main_v3154 main_v3155 rfl shapeCasts_S128x484x1_S128x484,
    binary main_v3153 main_v3155 main_v3156 (addf : (⟨S128x484, .f32⟩ : BufTy).Contents (Elt F) → (⟨S128x484, .f32⟩ : BufTy).Contents (Elt F) → (⟨S128x484, .f32⟩ : BufTy).Contents (Elt F)),
    unary main_v3077 main_v3157 ((extractStridedSlice S128x484x1 ![0, 26, 26] · slices_S128x512x29_S128x484x1_0_26_26) : (⟨S128x512x29, .f32⟩ : BufTy).Contents (Elt F) → (⟨S128x484x1, .f32⟩ : BufTy).Contents (Elt F)),
    reshape main_v3157 main_v3158 rfl shapeCasts_S128x484x1_S128x484,
    binary main_v3156 main_v3158 main_v3159 (addf : (⟨S128x484, .f32⟩ : BufTy).Contents (Elt F) → (⟨S128x484, .f32⟩ : BufTy).Contents (Elt F) → (⟨S128x484, .f32⟩ : BufTy).Contents (Elt F)),
    unary main_v3077 main_v3160 ((extractStridedSlice S128x484x1 ![0, 27, 27] · slices_S128x512x29_S128x484x1_0_27_27) : (⟨S128x512x29, .f32⟩ : BufTy).Contents (Elt F) → (⟨S128x484x1, .f32⟩ : BufTy).Contents (Elt F)),
    reshape main_v3160 main_v3161 rfl shapeCasts_S128x484x1_S128x484,
    binary main_v3159 main_v3161 main_v3162 (addf : (⟨S128x484, .f32⟩ : BufTy).Contents (Elt F) → (⟨S128x484, .f32⟩ : BufTy).Contents (Elt F) → (⟨S128x484, .f32⟩ : BufTy).Contents (Elt F)),
    unary main_v3077 main_v3163 ((extractStridedSlice S128x484x1 ![0, 28, 28] · slices_S128x512x29_S128x484x1_0_28_28) : (⟨S128x512x29, .f32⟩ : BufTy).Contents (Elt F) → (⟨S128x484x1, .f32⟩ : BufTy).Contents (Elt F)),
    reshape main_v3163 main_v3164 rfl shapeCasts_S128x484x1_S128x484,
    binary main_v3162 main_v3164 main_v3165 (addf : (⟨S128x484, .f32⟩ : BufTy).Contents (Elt F) → (⟨S128x484, .f32⟩ : BufTy).Contents (Elt F) → (⟨S128x484, .f32⟩ : BufTy).Contents (Elt F)),
    unary main_arg3 main_v3166 ((extractStridedSlice S1 ![55] · slices_S64_S1_55) : (⟨S64, .f32⟩ : BufTy).Contents (Elt F) → (⟨S1, .f32⟩ : BufTy).Contents (Elt F)),
    reshape main_v3166 main_v3167 rfl shapeCasts_S1_S_,
    unary main_v3167 main_v3168 (broadcastInDim S128x484 ![] bcast_S_S128x484 : (⟨S_, .f32⟩ : BufTy).Contents (Elt F) → (⟨S128x484, .f32⟩ : BufTy).Contents (Elt F)),
    binary main_v3165 main_v3168 main_v3169 (addf : (⟨S128x484, .f32⟩ : BufTy).Contents (Elt F) → (⟨S128x484, .f32⟩ : BufTy).Contents (Elt F) → (⟨S128x484, .f32⟩ : BufTy).Contents (Elt F)),
    unary main_v3169 main_v3170 (Host.tanh : (⟨S128x484, .f32⟩ : BufTy).Contents (Elt F) → (⟨S128x484, .f32⟩ : BufTy).Contents (Elt F)),
    nullary main_cst_111 (constant S_ .f32 0xFF800000#32),
    binary main_v3170 main_cst_111 main_v3171 ((fun x v => Host.reduce FloatOps.maximumf x v reducesTo_S128x484_S128_d1 h_S_) : (⟨S128x484, .f32⟩ : BufTy).Contents (Elt F) → (⟨S_, .f32⟩ : BufTy).Contents (Elt F) → (⟨S128, .f32⟩ : BufTy).Contents (Elt F)) ]

/-- Segment 111: 14 operations. -/
def seg111 : List (HloOp τ sig (Elt F)) :=
  [ unary main_arg2 main_v3172 ((extractStridedSlice S1x30x300 ![56, 0, 0] · slices_S64x33x300_S1x30x300_56_0_0) : (⟨S64x33x300, .f32⟩ : BufTy).Contents (Elt F) → (⟨S1x30x300, .f32⟩ : BufTy).Contents (Elt F)),
    reshape main_v3172 main_v3173 rfl shapeCasts_S1x30x300_S30x300,
    binary main_v7 main_v3173 main_v3174 ((fun l r => Host.dotGeneral dot_S128x512x300_S30x300_S128x512x30_2_1_01_0_n_n none l r) : (⟨S128x512x300, .f32⟩ : BufTy).Contents (Elt F) → (⟨S30x300, .f32⟩ : BufTy).Contents (Elt F) → (⟨S128x512x30, .f32⟩ : BufTy).Contents (Elt F)),
    unary main_v3174 main_v3175 ((extractStridedSlice S128x483x1 ![0, 0, 0] · slices_S128x512x30_S128x483x1_0_0_0) : (⟨S128x512x30, .f32⟩ : BufTy).Contents (Elt F) → (⟨S128x483x1, .f32⟩ : BufTy).Contents (Elt F)),
    reshape main_v3175 main_v3176 rfl shapeCasts_S128x483x1_S128x483,
    nullary main_cst_112 (constant S_ .f32 0x00000000#32),
    unary main_cst_112 main_v3177 (broadcastInDim S128x483 ![] bcast_S_S128x483 : (⟨S_, .f32⟩ : BufTy).Contents (Elt F) → (⟨S128x483, .f32⟩ : BufTy).Contents (Elt F)),
    binary main_v3177 main_v3176 main_v3178 (addf : (⟨S128x483, .f32⟩ : BufTy).Contents (Elt F) → (⟨S128x483, .f32⟩ : BufTy).Contents (Elt F) → (⟨S128x483, .f32⟩ : BufTy).Contents (Elt F)),
    unary main_v3174 main_v3179 ((extractStridedSlice S128x483x1 ![0, 1, 1] · slices_S128x512x30_S128x483x1_0_1_1) : (⟨S128x512x30, .f32⟩ : BufTy).Contents (Elt F) → (⟨S128x483x1, .f32⟩ : BufTy).Contents (Elt F)),
    reshape main_v3179 main_v3180 rfl shapeCasts_S128x483x1_S128x483,
    binary main_v3178 main_v3180 main_v3181 (addf : (⟨S128x483, .f32⟩ : BufTy).Contents (Elt F) → (⟨S128x483, .f32⟩ : BufTy).Contents (Elt F) → (⟨S128x483, .f32⟩ : BufTy).Contents (Elt F)),
    unary main_v3174 main_v3182 ((extractStridedSlice S128x483x1 ![0, 2, 2] · slices_S128x512x30_S128x483x1_0_2_2) : (⟨S128x512x30, .f32⟩ : BufTy).Contents (Elt F) → (⟨S128x483x1, .f32⟩ : BufTy).Contents (Elt F)),
    reshape main_v3182 main_v3183 rfl shapeCasts_S128x483x1_S128x483,
    binary main_v3181 main_v3183 main_v3184 (addf : (⟨S128x483, .f32⟩ : BufTy).Contents (Elt F) → (⟨S128x483, .f32⟩ : BufTy).Contents (Elt F) → (⟨S128x483, .f32⟩ : BufTy).Contents (Elt F)) ]

/-- Segment 112: 60 operations. -/
def seg112 : List (HloOp τ sig (Elt F)) :=
  [ unary main_v3174 main_v3185 ((extractStridedSlice S128x483x1 ![0, 3, 3] · slices_S128x512x30_S128x483x1_0_3_3) : (⟨S128x512x30, .f32⟩ : BufTy).Contents (Elt F) → (⟨S128x483x1, .f32⟩ : BufTy).Contents (Elt F)),
    reshape main_v3185 main_v3186 rfl shapeCasts_S128x483x1_S128x483,
    binary main_v3184 main_v3186 main_v3187 (addf : (⟨S128x483, .f32⟩ : BufTy).Contents (Elt F) → (⟨S128x483, .f32⟩ : BufTy).Contents (Elt F) → (⟨S128x483, .f32⟩ : BufTy).Contents (Elt F)),
    unary main_v3174 main_v3188 ((extractStridedSlice S128x483x1 ![0, 4, 4] · slices_S128x512x30_S128x483x1_0_4_4) : (⟨S128x512x30, .f32⟩ : BufTy).Contents (Elt F) → (⟨S128x483x1, .f32⟩ : BufTy).Contents (Elt F)),
    reshape main_v3188 main_v3189 rfl shapeCasts_S128x483x1_S128x483,
    binary main_v3187 main_v3189 main_v3190 (addf : (⟨S128x483, .f32⟩ : BufTy).Contents (Elt F) → (⟨S128x483, .f32⟩ : BufTy).Contents (Elt F) → (⟨S128x483, .f32⟩ : BufTy).Contents (Elt F)),
    unary main_v3174 main_v3191 ((extractStridedSlice S128x483x1 ![0, 5, 5] · slices_S128x512x30_S128x483x1_0_5_5) : (⟨S128x512x30, .f32⟩ : BufTy).Contents (Elt F) → (⟨S128x483x1, .f32⟩ : BufTy).Contents (Elt F)),
    reshape main_v3191 main_v3192 rfl shapeCasts_S128x483x1_S128x483,
    binary main_v3190 main_v3192 main_v3193 (addf : (⟨S128x483, .f32⟩ : BufTy).Contents (Elt F) → (⟨S128x483, .f32⟩ : BufTy).Contents (Elt F) → (⟨S128x483, .f32⟩ : BufTy).Contents (Elt F)),
    unary main_v3174 main_v3194 ((extractStridedSlice S128x483x1 ![0, 6, 6] · slices_S128x512x30_S128x483x1_0_6_6) : (⟨S128x512x30, .f32⟩ : BufTy).Contents (Elt F) → (⟨S128x483x1, .f32⟩ : BufTy).Contents (Elt F)),
    reshape main_v3194 main_v3195 rfl shapeCasts_S128x483x1_S128x483,
    binary main_v3193 main_v3195 main_v3196 (addf : (⟨S128x483, .f32⟩ : BufTy).Contents (Elt F) → (⟨S128x483, .f32⟩ : BufTy).Contents (Elt F) → (⟨S128x483, .f32⟩ : BufTy).Contents (Elt F)),
    unary main_v3174 main_v3197 ((extractStridedSlice S128x483x1 ![0, 7, 7] · slices_S128x512x30_S128x483x1_0_7_7) : (⟨S128x512x30, .f32⟩ : BufTy).Contents (Elt F) → (⟨S128x483x1, .f32⟩ : BufTy).Contents (Elt F)),
    reshape main_v3197 main_v3198 rfl shapeCasts_S128x483x1_S128x483,
    binary main_v3196 main_v3198 main_v3199 (addf : (⟨S128x483, .f32⟩ : BufTy).Contents (Elt F) → (⟨S128x483, .f32⟩ : BufTy).Contents (Elt F) → (⟨S128x483, .f32⟩ : BufTy).Contents (Elt F)),
    unary main_v3174 main_v3200 ((extractStridedSlice S128x483x1 ![0, 8, 8] · slices_S128x512x30_S128x483x1_0_8_8) : (⟨S128x512x30, .f32⟩ : BufTy).Contents (Elt F) → (⟨S128x483x1, .f32⟩ : BufTy).Contents (Elt F)),
    reshape main_v3200 main_v3201 rfl shapeCasts_S128x483x1_S128x483,
    binary main_v3199 main_v3201 main_v3202 (addf : (⟨S128x483, .f32⟩ : BufTy).Contents (Elt F) → (⟨S128x483, .f32⟩ : BufTy).Contents (Elt F) → (⟨S128x483, .f32⟩ : BufTy).Contents (Elt F)),
    unary main_v3174 main_v3203 ((extractStridedSlice S128x483x1 ![0, 9, 9] · slices_S128x512x30_S128x483x1_0_9_9) : (⟨S128x512x30, .f32⟩ : BufTy).Contents (Elt F) → (⟨S128x483x1, .f32⟩ : BufTy).Contents (Elt F)),
    reshape main_v3203 main_v3204 rfl shapeCasts_S128x483x1_S128x483,
    binary main_v3202 main_v3204 main_v3205 (addf : (⟨S128x483, .f32⟩ : BufTy).Contents (Elt F) → (⟨S128x483, .f32⟩ : BufTy).Contents (Elt F) → (⟨S128x483, .f32⟩ : BufTy).Contents (Elt F)),
    unary main_v3174 main_v3206 ((extractStridedSlice S128x483x1 ![0, 10, 10] · slices_S128x512x30_S128x483x1_0_10_10) : (⟨S128x512x30, .f32⟩ : BufTy).Contents (Elt F) → (⟨S128x483x1, .f32⟩ : BufTy).Contents (Elt F)),
    reshape main_v3206 main_v3207 rfl shapeCasts_S128x483x1_S128x483,
    binary main_v3205 main_v3207 main_v3208 (addf : (⟨S128x483, .f32⟩ : BufTy).Contents (Elt F) → (⟨S128x483, .f32⟩ : BufTy).Contents (Elt F) → (⟨S128x483, .f32⟩ : BufTy).Contents (Elt F)),
    unary main_v3174 main_v3209 ((extractStridedSlice S128x483x1 ![0, 11, 11] · slices_S128x512x30_S128x483x1_0_11_11) : (⟨S128x512x30, .f32⟩ : BufTy).Contents (Elt F) → (⟨S128x483x1, .f32⟩ : BufTy).Contents (Elt F)),
    reshape main_v3209 main_v3210 rfl shapeCasts_S128x483x1_S128x483,
    binary main_v3208 main_v3210 main_v3211 (addf : (⟨S128x483, .f32⟩ : BufTy).Contents (Elt F) → (⟨S128x483, .f32⟩ : BufTy).Contents (Elt F) → (⟨S128x483, .f32⟩ : BufTy).Contents (Elt F)),
    unary main_v3174 main_v3212 ((extractStridedSlice S128x483x1 ![0, 12, 12] · slices_S128x512x30_S128x483x1_0_12_12) : (⟨S128x512x30, .f32⟩ : BufTy).Contents (Elt F) → (⟨S128x483x1, .f32⟩ : BufTy).Contents (Elt F)),
    reshape main_v3212 main_v3213 rfl shapeCasts_S128x483x1_S128x483,
    binary main_v3211 main_v3213 main_v3214 (addf : (⟨S128x483, .f32⟩ : BufTy).Contents (Elt F) → (⟨S128x483, .f32⟩ : BufTy).Contents (Elt F) → (⟨S128x483, .f32⟩ : BufTy).Contents (Elt F)),
    unary main_v3174 main_v3215 ((extractStridedSlice S128x483x1 ![0, 13, 13] · slices_S128x512x30_S128x483x1_0_13_13) : (⟨S128x512x30, .f32⟩ : BufTy).Contents (Elt F) → (⟨S128x483x1, .f32⟩ : BufTy).Contents (Elt F)),
    reshape main_v3215 main_v3216 rfl shapeCasts_S128x483x1_S128x483,
    binary main_v3214 main_v3216 main_v3217 (addf : (⟨S128x483, .f32⟩ : BufTy).Contents (Elt F) → (⟨S128x483, .f32⟩ : BufTy).Contents (Elt F) → (⟨S128x483, .f32⟩ : BufTy).Contents (Elt F)),
    unary main_v3174 main_v3218 ((extractStridedSlice S128x483x1 ![0, 14, 14] · slices_S128x512x30_S128x483x1_0_14_14) : (⟨S128x512x30, .f32⟩ : BufTy).Contents (Elt F) → (⟨S128x483x1, .f32⟩ : BufTy).Contents (Elt F)),
    reshape main_v3218 main_v3219 rfl shapeCasts_S128x483x1_S128x483,
    binary main_v3217 main_v3219 main_v3220 (addf : (⟨S128x483, .f32⟩ : BufTy).Contents (Elt F) → (⟨S128x483, .f32⟩ : BufTy).Contents (Elt F) → (⟨S128x483, .f32⟩ : BufTy).Contents (Elt F)),
    unary main_v3174 main_v3221 ((extractStridedSlice S128x483x1 ![0, 15, 15] · slices_S128x512x30_S128x483x1_0_15_15) : (⟨S128x512x30, .f32⟩ : BufTy).Contents (Elt F) → (⟨S128x483x1, .f32⟩ : BufTy).Contents (Elt F)),
    reshape main_v3221 main_v3222 rfl shapeCasts_S128x483x1_S128x483,
    binary main_v3220 main_v3222 main_v3223 (addf : (⟨S128x483, .f32⟩ : BufTy).Contents (Elt F) → (⟨S128x483, .f32⟩ : BufTy).Contents (Elt F) → (⟨S128x483, .f32⟩ : BufTy).Contents (Elt F)),
    unary main_v3174 main_v3224 ((extractStridedSlice S128x483x1 ![0, 16, 16] · slices_S128x512x30_S128x483x1_0_16_16) : (⟨S128x512x30, .f32⟩ : BufTy).Contents (Elt F) → (⟨S128x483x1, .f32⟩ : BufTy).Contents (Elt F)),
    reshape main_v3224 main_v3225 rfl shapeCasts_S128x483x1_S128x483,
    binary main_v3223 main_v3225 main_v3226 (addf : (⟨S128x483, .f32⟩ : BufTy).Contents (Elt F) → (⟨S128x483, .f32⟩ : BufTy).Contents (Elt F) → (⟨S128x483, .f32⟩ : BufTy).Contents (Elt F)),
    unary main_v3174 main_v3227 ((extractStridedSlice S128x483x1 ![0, 17, 17] · slices_S128x512x30_S128x483x1_0_17_17) : (⟨S128x512x30, .f32⟩ : BufTy).Contents (Elt F) → (⟨S128x483x1, .f32⟩ : BufTy).Contents (Elt F)),
    reshape main_v3227 main_v3228 rfl shapeCasts_S128x483x1_S128x483,
    binary main_v3226 main_v3228 main_v3229 (addf : (⟨S128x483, .f32⟩ : BufTy).Contents (Elt F) → (⟨S128x483, .f32⟩ : BufTy).Contents (Elt F) → (⟨S128x483, .f32⟩ : BufTy).Contents (Elt F)),
    unary main_v3174 main_v3230 ((extractStridedSlice S128x483x1 ![0, 18, 18] · slices_S128x512x30_S128x483x1_0_18_18) : (⟨S128x512x30, .f32⟩ : BufTy).Contents (Elt F) → (⟨S128x483x1, .f32⟩ : BufTy).Contents (Elt F)),
    reshape main_v3230 main_v3231 rfl shapeCasts_S128x483x1_S128x483,
    binary main_v3229 main_v3231 main_v3232 (addf : (⟨S128x483, .f32⟩ : BufTy).Contents (Elt F) → (⟨S128x483, .f32⟩ : BufTy).Contents (Elt F) → (⟨S128x483, .f32⟩ : BufTy).Contents (Elt F)),
    unary main_v3174 main_v3233 ((extractStridedSlice S128x483x1 ![0, 19, 19] · slices_S128x512x30_S128x483x1_0_19_19) : (⟨S128x512x30, .f32⟩ : BufTy).Contents (Elt F) → (⟨S128x483x1, .f32⟩ : BufTy).Contents (Elt F)),
    reshape main_v3233 main_v3234 rfl shapeCasts_S128x483x1_S128x483,
    binary main_v3232 main_v3234 main_v3235 (addf : (⟨S128x483, .f32⟩ : BufTy).Contents (Elt F) → (⟨S128x483, .f32⟩ : BufTy).Contents (Elt F) → (⟨S128x483, .f32⟩ : BufTy).Contents (Elt F)),
    unary main_v3174 main_v3236 ((extractStridedSlice S128x483x1 ![0, 20, 20] · slices_S128x512x30_S128x483x1_0_20_20) : (⟨S128x512x30, .f32⟩ : BufTy).Contents (Elt F) → (⟨S128x483x1, .f32⟩ : BufTy).Contents (Elt F)),
    reshape main_v3236 main_v3237 rfl shapeCasts_S128x483x1_S128x483,
    binary main_v3235 main_v3237 main_v3238 (addf : (⟨S128x483, .f32⟩ : BufTy).Contents (Elt F) → (⟨S128x483, .f32⟩ : BufTy).Contents (Elt F) → (⟨S128x483, .f32⟩ : BufTy).Contents (Elt F)),
    unary main_v3174 main_v3239 ((extractStridedSlice S128x483x1 ![0, 21, 21] · slices_S128x512x30_S128x483x1_0_21_21) : (⟨S128x512x30, .f32⟩ : BufTy).Contents (Elt F) → (⟨S128x483x1, .f32⟩ : BufTy).Contents (Elt F)),
    reshape main_v3239 main_v3240 rfl shapeCasts_S128x483x1_S128x483,
    binary main_v3238 main_v3240 main_v3241 (addf : (⟨S128x483, .f32⟩ : BufTy).Contents (Elt F) → (⟨S128x483, .f32⟩ : BufTy).Contents (Elt F) → (⟨S128x483, .f32⟩ : BufTy).Contents (Elt F)),
    unary main_v3174 main_v3242 ((extractStridedSlice S128x483x1 ![0, 22, 22] · slices_S128x512x30_S128x483x1_0_22_22) : (⟨S128x512x30, .f32⟩ : BufTy).Contents (Elt F) → (⟨S128x483x1, .f32⟩ : BufTy).Contents (Elt F)),
    reshape main_v3242 main_v3243 rfl shapeCasts_S128x483x1_S128x483,
    binary main_v3241 main_v3243 main_v3244 (addf : (⟨S128x483, .f32⟩ : BufTy).Contents (Elt F) → (⟨S128x483, .f32⟩ : BufTy).Contents (Elt F) → (⟨S128x483, .f32⟩ : BufTy).Contents (Elt F)) ]

/-- Segment 113: 28 operations. -/
def seg113 : List (HloOp τ sig (Elt F)) :=
  [ unary main_v3174 main_v3245 ((extractStridedSlice S128x483x1 ![0, 23, 23] · slices_S128x512x30_S128x483x1_0_23_23) : (⟨S128x512x30, .f32⟩ : BufTy).Contents (Elt F) → (⟨S128x483x1, .f32⟩ : BufTy).Contents (Elt F)),
    reshape main_v3245 main_v3246 rfl shapeCasts_S128x483x1_S128x483,
    binary main_v3244 main_v3246 main_v3247 (addf : (⟨S128x483, .f32⟩ : BufTy).Contents (Elt F) → (⟨S128x483, .f32⟩ : BufTy).Contents (Elt F) → (⟨S128x483, .f32⟩ : BufTy).Contents (Elt F)),
    unary main_v3174 main_v3248 ((extractStridedSlice S128x483x1 ![0, 24, 24] · slices_S128x512x30_S128x483x1_0_24_24) : (⟨S128x512x30, .f32⟩ : BufTy).Contents (Elt F) → (⟨S128x483x1, .f32⟩ : BufTy).Contents (Elt F)),
    reshape main_v3248 main_v3249 rfl shapeCasts_S128x483x1_S128x483,
    binary main_v3247 main_v3249 main_v3250 (addf : (⟨S128x483, .f32⟩ : BufTy).Contents (Elt F) → (⟨S128x483, .f32⟩ : BufTy).Contents (Elt F) → (⟨S128x483, .f32⟩ : BufTy).Contents (Elt F)),
    unary main_v3174 main_v3251 ((extractStridedSlice S128x483x1 ![0, 25, 25] · slices_S128x512x30_S128x483x1_0_25_25) : (⟨S128x512x30, .f32⟩ : BufTy).Contents (Elt F) → (⟨S128x483x1, .f32⟩ : BufTy).Contents (Elt F)),
    reshape main_v3251 main_v3252 rfl shapeCasts_S128x483x1_S128x483,
    binary main_v3250 main_v3252 main_v3253 (addf : (⟨S128x483, .f32⟩ : BufTy).Contents (Elt F) → (⟨S128x483, .f32⟩ : BufTy).Contents (Elt F) → (⟨S128x483, .f32⟩ : BufTy).Contents (Elt F)),
    unary main_v3174 main_v3254 ((extractStridedSlice S128x483x1 ![0, 26, 26] · slices_S128x512x30_S128x483x1_0_26_26) : (⟨S128x512x30, .f32⟩ : BufTy).Contents (Elt F) → (⟨S128x483x1, .f32⟩ : BufTy).Contents (Elt F)),
    reshape main_v3254 main_v3255 rfl shapeCasts_S128x483x1_S128x483,
    binary main_v3253 main_v3255 main_v3256 (addf : (⟨S128x483, .f32⟩ : BufTy).Contents (Elt F) → (⟨S128x483, .f32⟩ : BufTy).Contents (Elt F) → (⟨S128x483, .f32⟩ : BufTy).Contents (Elt F)),
    unary main_v3174 main_v3257 ((extractStridedSlice S128x483x1 ![0, 27, 27] · slices_S128x512x30_S128x483x1_0_27_27) : (⟨S128x512x30, .f32⟩ : BufTy).Contents (Elt F) → (⟨S128x483x1, .f32⟩ : BufTy).Contents (Elt F)),
    reshape main_v3257 main_v3258 rfl shapeCasts_S128x483x1_S128x483,
    binary main_v3256 main_v3258 main_v3259 (addf : (⟨S128x483, .f32⟩ : BufTy).Contents (Elt F) → (⟨S128x483, .f32⟩ : BufTy).Contents (Elt F) → (⟨S128x483, .f32⟩ : BufTy).Contents (Elt F)),
    unary main_v3174 main_v3260 ((extractStridedSlice S128x483x1 ![0, 28, 28] · slices_S128x512x30_S128x483x1_0_28_28) : (⟨S128x512x30, .f32⟩ : BufTy).Contents (Elt F) → (⟨S128x483x1, .f32⟩ : BufTy).Contents (Elt F)),
    reshape main_v3260 main_v3261 rfl shapeCasts_S128x483x1_S128x483,
    binary main_v3259 main_v3261 main_v3262 (addf : (⟨S128x483, .f32⟩ : BufTy).Contents (Elt F) → (⟨S128x483, .f32⟩ : BufTy).Contents (Elt F) → (⟨S128x483, .f32⟩ : BufTy).Contents (Elt F)),
    unary main_v3174 main_v3263 ((extractStridedSlice S128x483x1 ![0, 29, 29] · slices_S128x512x30_S128x483x1_0_29_29) : (⟨S128x512x30, .f32⟩ : BufTy).Contents (Elt F) → (⟨S128x483x1, .f32⟩ : BufTy).Contents (Elt F)),
    reshape main_v3263 main_v3264 rfl shapeCasts_S128x483x1_S128x483,
    binary main_v3262 main_v3264 main_v3265 (addf : (⟨S128x483, .f32⟩ : BufTy).Contents (Elt F) → (⟨S128x483, .f32⟩ : BufTy).Contents (Elt F) → (⟨S128x483, .f32⟩ : BufTy).Contents (Elt F)),
    unary main_arg3 main_v3266 ((extractStridedSlice S1 ![56] · slices_S64_S1_56) : (⟨S64, .f32⟩ : BufTy).Contents (Elt F) → (⟨S1, .f32⟩ : BufTy).Contents (Elt F)),
    reshape main_v3266 main_v3267 rfl shapeCasts_S1_S_,
    unary main_v3267 main_v3268 (broadcastInDim S128x483 ![] bcast_S_S128x483 : (⟨S_, .f32⟩ : BufTy).Contents (Elt F) → (⟨S128x483, .f32⟩ : BufTy).Contents (Elt F)),
    binary main_v3265 main_v3268 main_v3269 (addf : (⟨S128x483, .f32⟩ : BufTy).Contents (Elt F) → (⟨S128x483, .f32⟩ : BufTy).Contents (Elt F) → (⟨S128x483, .f32⟩ : BufTy).Contents (Elt F)),
    unary main_v3269 main_v3270 (Host.tanh : (⟨S128x483, .f32⟩ : BufTy).Contents (Elt F) → (⟨S128x483, .f32⟩ : BufTy).Contents (Elt F)),
    nullary main_cst_113 (constant S_ .f32 0xFF800000#32),
    binary main_v3270 main_cst_113 main_v3271 ((fun x v => Host.reduce FloatOps.maximumf x v reducesTo_S128x483_S128_d1 h_S_) : (⟨S128x483, .f32⟩ : BufTy).Contents (Elt F) → (⟨S_, .f32⟩ : BufTy).Contents (Elt F) → (⟨S128, .f32⟩ : BufTy).Contents (Elt F)) ]

/-- Segment 114: 32 operations. -/
def seg114 : List (HloOp τ sig (Elt F)) :=
  [ unary main_arg2 main_v3272 ((extractStridedSlice S1x30x300 ![57, 0, 0] · slices_S64x33x300_S1x30x300_57_0_0) : (⟨S64x33x300, .f32⟩ : BufTy).Contents (Elt F) → (⟨S1x30x300, .f32⟩ : BufTy).Contents (Elt F)),
    reshape main_v3272 main_v3273 rfl shapeCasts_S1x30x300_S30x300,
    binary main_v7 main_v3273 main_v3274 ((fun l r => Host.dotGeneral dot_S128x512x300_S30x300_S128x512x30_2_1_01_0_n_n none l r) : (⟨S128x512x300, .f32⟩ : BufTy).Contents (Elt F) → (⟨S30x300, .f32⟩ : BufTy).Contents (Elt F) → (⟨S128x512x30, .f32⟩ : BufTy).Contents (Elt F)),
    unary main_v3274 main_v3275 ((extractStridedSlice S128x483x1 ![0, 0, 0] · slices_S128x512x30_S128x483x1_0_0_0) : (⟨S128x512x30, .f32⟩ : BufTy).Contents (Elt F) → (⟨S128x483x1, .f32⟩ : BufTy).Contents (Elt F)),
    reshape main_v3275 main_v3276 rfl shapeCasts_S128x483x1_S128x483,
    nullary main_cst_114 (constant S_ .f32 0x00000000#32),
    unary main_cst_114 main_v3277 (broadcastInDim S128x483 ![] bcast_S_S128x483 : (⟨S_, .f32⟩ : BufTy).Contents (Elt F) → (⟨S128x483, .f32⟩ : BufTy).Contents (Elt F)),
    binary main_v3277 main_v3276 main_v3278 (addf : (⟨S128x483, .f32⟩ : BufTy).Contents (Elt F) → (⟨S128x483, .f32⟩ : BufTy).Contents (Elt F) → (⟨S128x483, .f32⟩ : BufTy).Contents (Elt F)),
    unary main_v3274 main_v3279 ((extractStridedSlice S128x483x1 ![0, 1, 1] · slices_S128x512x30_S128x483x1_0_1_1) : (⟨S128x512x30, .f32⟩ : BufTy).Contents (Elt F) → (⟨S128x483x1, .f32⟩ : BufTy).Contents (Elt F)),
    reshape main_v3279 main_v3280 rfl shapeCasts_S128x483x1_S128x483,
    binary main_v3278 main_v3280 main_v3281 (addf : (⟨S128x483, .f32⟩ : BufTy).Contents (Elt F) → (⟨S128x483, .f32⟩ : BufTy).Contents (Elt F) → (⟨S128x483, .f32⟩ : BufTy).Contents (Elt F)),
    unary main_v3274 main_v3282 ((extractStridedSlice S128x483x1 ![0, 2, 2] · slices_S128x512x30_S128x483x1_0_2_2) : (⟨S128x512x30, .f32⟩ : BufTy).Contents (Elt F) → (⟨S128x483x1, .f32⟩ : BufTy).Contents (Elt F)),
    reshape main_v3282 main_v3283 rfl shapeCasts_S128x483x1_S128x483,
    binary main_v3281 main_v3283 main_v3284 (addf : (⟨S128x483, .f32⟩ : BufTy).Contents (Elt F) → (⟨S128x483, .f32⟩ : BufTy).Contents (Elt F) → (⟨S128x483, .f32⟩ : BufTy).Contents (Elt F)),
    unary main_v3274 main_v3285 ((extractStridedSlice S128x483x1 ![0, 3, 3] · slices_S128x512x30_S128x483x1_0_3_3) : (⟨S128x512x30, .f32⟩ : BufTy).Contents (Elt F) → (⟨S128x483x1, .f32⟩ : BufTy).Contents (Elt F)),
    reshape main_v3285 main_v3286 rfl shapeCasts_S128x483x1_S128x483,
    binary main_v3284 main_v3286 main_v3287 (addf : (⟨S128x483, .f32⟩ : BufTy).Contents (Elt F) → (⟨S128x483, .f32⟩ : BufTy).Contents (Elt F) → (⟨S128x483, .f32⟩ : BufTy).Contents (Elt F)),
    unary main_v3274 main_v3288 ((extractStridedSlice S128x483x1 ![0, 4, 4] · slices_S128x512x30_S128x483x1_0_4_4) : (⟨S128x512x30, .f32⟩ : BufTy).Contents (Elt F) → (⟨S128x483x1, .f32⟩ : BufTy).Contents (Elt F)),
    reshape main_v3288 main_v3289 rfl shapeCasts_S128x483x1_S128x483,
    binary main_v3287 main_v3289 main_v3290 (addf : (⟨S128x483, .f32⟩ : BufTy).Contents (Elt F) → (⟨S128x483, .f32⟩ : BufTy).Contents (Elt F) → (⟨S128x483, .f32⟩ : BufTy).Contents (Elt F)),
    unary main_v3274 main_v3291 ((extractStridedSlice S128x483x1 ![0, 5, 5] · slices_S128x512x30_S128x483x1_0_5_5) : (⟨S128x512x30, .f32⟩ : BufTy).Contents (Elt F) → (⟨S128x483x1, .f32⟩ : BufTy).Contents (Elt F)),
    reshape main_v3291 main_v3292 rfl shapeCasts_S128x483x1_S128x483,
    binary main_v3290 main_v3292 main_v3293 (addf : (⟨S128x483, .f32⟩ : BufTy).Contents (Elt F) → (⟨S128x483, .f32⟩ : BufTy).Contents (Elt F) → (⟨S128x483, .f32⟩ : BufTy).Contents (Elt F)),
    unary main_v3274 main_v3294 ((extractStridedSlice S128x483x1 ![0, 6, 6] · slices_S128x512x30_S128x483x1_0_6_6) : (⟨S128x512x30, .f32⟩ : BufTy).Contents (Elt F) → (⟨S128x483x1, .f32⟩ : BufTy).Contents (Elt F)),
    reshape main_v3294 main_v3295 rfl shapeCasts_S128x483x1_S128x483,
    binary main_v3293 main_v3295 main_v3296 (addf : (⟨S128x483, .f32⟩ : BufTy).Contents (Elt F) → (⟨S128x483, .f32⟩ : BufTy).Contents (Elt F) → (⟨S128x483, .f32⟩ : BufTy).Contents (Elt F)),
    unary main_v3274 main_v3297 ((extractStridedSlice S128x483x1 ![0, 7, 7] · slices_S128x512x30_S128x483x1_0_7_7) : (⟨S128x512x30, .f32⟩ : BufTy).Contents (Elt F) → (⟨S128x483x1, .f32⟩ : BufTy).Contents (Elt F)),
    reshape main_v3297 main_v3298 rfl shapeCasts_S128x483x1_S128x483,
    binary main_v3296 main_v3298 main_v3299 (addf : (⟨S128x483, .f32⟩ : BufTy).Contents (Elt F) → (⟨S128x483, .f32⟩ : BufTy).Contents (Elt F) → (⟨S128x483, .f32⟩ : BufTy).Contents (Elt F)),
    unary main_v3274 main_v3300 ((extractStridedSlice S128x483x1 ![0, 8, 8] · slices_S128x512x30_S128x483x1_0_8_8) : (⟨S128x512x30, .f32⟩ : BufTy).Contents (Elt F) → (⟨S128x483x1, .f32⟩ : BufTy).Contents (Elt F)),
    reshape main_v3300 main_v3301 rfl shapeCasts_S128x483x1_S128x483,
    binary main_v3299 main_v3301 main_v3302 (addf : (⟨S128x483, .f32⟩ : BufTy).Contents (Elt F) → (⟨S128x483, .f32⟩ : BufTy).Contents (Elt F) → (⟨S128x483, .f32⟩ : BufTy).Contents (Elt F)) ]

/-- Segment 115: 60 operations. -/
def seg115 : List (HloOp τ sig (Elt F)) :=
  [ unary main_v3274 main_v3303 ((extractStridedSlice S128x483x1 ![0, 9, 9] · slices_S128x512x30_S128x483x1_0_9_9) : (⟨S128x512x30, .f32⟩ : BufTy).Contents (Elt F) → (⟨S128x483x1, .f32⟩ : BufTy).Contents (Elt F)),
    reshape main_v3303 main_v3304 rfl shapeCasts_S128x483x1_S128x483,
    binary main_v3302 main_v3304 main_v3305 (addf : (⟨S128x483, .f32⟩ : BufTy).Contents (Elt F) → (⟨S128x483, .f32⟩ : BufTy).Contents (Elt F) → (⟨S128x483, .f32⟩ : BufTy).Contents (Elt F)),
    unary main_v3274 main_v3306 ((extractStridedSlice S128x483x1 ![0, 10, 10] · slices_S128x512x30_S128x483x1_0_10_10) : (⟨S128x512x30, .f32⟩ : BufTy).Contents (Elt F) → (⟨S128x483x1, .f32⟩ : BufTy).Contents (Elt F)),
    reshape main_v3306 main_v3307 rfl shapeCasts_S128x483x1_S128x483,
    binary main_v3305 main_v3307 main_v3308 (addf : (⟨S128x483, .f32⟩ : BufTy).Contents (Elt F) → (⟨S128x483, .f32⟩ : BufTy).Contents (Elt F) → (⟨S128x483, .f32⟩ : BufTy).Contents (Elt F)),
    unary main_v3274 main_v3309 ((extractStridedSlice S128x483x1 ![0, 11, 11] · slices_S128x512x30_S128x483x1_0_11_11) : (⟨S128x512x30, .f32⟩ : BufTy).Contents (Elt F) → (⟨S128x483x1, .f32⟩ : BufTy).Contents (Elt F)),
    reshape main_v3309 main_v3310 rfl shapeCasts_S128x483x1_S128x483,
    binary main_v3308 main_v3310 main_v3311 (addf : (⟨S128x483, .f32⟩ : BufTy).Contents (Elt F) → (⟨S128x483, .f32⟩ : BufTy).Contents (Elt F) → (⟨S128x483, .f32⟩ : BufTy).Contents (Elt F)),
    unary main_v3274 main_v3312 ((extractStridedSlice S128x483x1 ![0, 12, 12] · slices_S128x512x30_S128x483x1_0_12_12) : (⟨S128x512x30, .f32⟩ : BufTy).Contents (Elt F) → (⟨S128x483x1, .f32⟩ : BufTy).Contents (Elt F)),
    reshape main_v3312 main_v3313 rfl shapeCasts_S128x483x1_S128x483,
    binary main_v3311 main_v3313 main_v3314 (addf : (⟨S128x483, .f32⟩ : BufTy).Contents (Elt F) → (⟨S128x483, .f32⟩ : BufTy).Contents (Elt F) → (⟨S128x483, .f32⟩ : BufTy).Contents (Elt F)),
    unary main_v3274 main_v3315 ((extractStridedSlice S128x483x1 ![0, 13, 13] · slices_S128x512x30_S128x483x1_0_13_13) : (⟨S128x512x30, .f32⟩ : BufTy).Contents (Elt F) → (⟨S128x483x1, .f32⟩ : BufTy).Contents (Elt F)),
    reshape main_v3315 main_v3316 rfl shapeCasts_S128x483x1_S128x483,
    binary main_v3314 main_v3316 main_v3317 (addf : (⟨S128x483, .f32⟩ : BufTy).Contents (Elt F) → (⟨S128x483, .f32⟩ : BufTy).Contents (Elt F) → (⟨S128x483, .f32⟩ : BufTy).Contents (Elt F)),
    unary main_v3274 main_v3318 ((extractStridedSlice S128x483x1 ![0, 14, 14] · slices_S128x512x30_S128x483x1_0_14_14) : (⟨S128x512x30, .f32⟩ : BufTy).Contents (Elt F) → (⟨S128x483x1, .f32⟩ : BufTy).Contents (Elt F)),
    reshape main_v3318 main_v3319 rfl shapeCasts_S128x483x1_S128x483,
    binary main_v3317 main_v3319 main_v3320 (addf : (⟨S128x483, .f32⟩ : BufTy).Contents (Elt F) → (⟨S128x483, .f32⟩ : BufTy).Contents (Elt F) → (⟨S128x483, .f32⟩ : BufTy).Contents (Elt F)),
    unary main_v3274 main_v3321 ((extractStridedSlice S128x483x1 ![0, 15, 15] · slices_S128x512x30_S128x483x1_0_15_15) : (⟨S128x512x30, .f32⟩ : BufTy).Contents (Elt F) → (⟨S128x483x1, .f32⟩ : BufTy).Contents (Elt F)),
    reshape main_v3321 main_v3322 rfl shapeCasts_S128x483x1_S128x483,
    binary main_v3320 main_v3322 main_v3323 (addf : (⟨S128x483, .f32⟩ : BufTy).Contents (Elt F) → (⟨S128x483, .f32⟩ : BufTy).Contents (Elt F) → (⟨S128x483, .f32⟩ : BufTy).Contents (Elt F)),
    unary main_v3274 main_v3324 ((extractStridedSlice S128x483x1 ![0, 16, 16] · slices_S128x512x30_S128x483x1_0_16_16) : (⟨S128x512x30, .f32⟩ : BufTy).Contents (Elt F) → (⟨S128x483x1, .f32⟩ : BufTy).Contents (Elt F)),
    reshape main_v3324 main_v3325 rfl shapeCasts_S128x483x1_S128x483,
    binary main_v3323 main_v3325 main_v3326 (addf : (⟨S128x483, .f32⟩ : BufTy).Contents (Elt F) → (⟨S128x483, .f32⟩ : BufTy).Contents (Elt F) → (⟨S128x483, .f32⟩ : BufTy).Contents (Elt F)),
    unary main_v3274 main_v3327 ((extractStridedSlice S128x483x1 ![0, 17, 17] · slices_S128x512x30_S128x483x1_0_17_17) : (⟨S128x512x30, .f32⟩ : BufTy).Contents (Elt F) → (⟨S128x483x1, .f32⟩ : BufTy).Contents (Elt F)),
    reshape main_v3327 main_v3328 rfl shapeCasts_S128x483x1_S128x483,
    binary main_v3326 main_v3328 main_v3329 (addf : (⟨S128x483, .f32⟩ : BufTy).Contents (Elt F) → (⟨S128x483, .f32⟩ : BufTy).Contents (Elt F) → (⟨S128x483, .f32⟩ : BufTy).Contents (Elt F)),
    unary main_v3274 main_v3330 ((extractStridedSlice S128x483x1 ![0, 18, 18] · slices_S128x512x30_S128x483x1_0_18_18) : (⟨S128x512x30, .f32⟩ : BufTy).Contents (Elt F) → (⟨S128x483x1, .f32⟩ : BufTy).Contents (Elt F)),
    reshape main_v3330 main_v3331 rfl shapeCasts_S128x483x1_S128x483,
    binary main_v3329 main_v3331 main_v3332 (addf : (⟨S128x483, .f32⟩ : BufTy).Contents (Elt F) → (⟨S128x483, .f32⟩ : BufTy).Contents (Elt F) → (⟨S128x483, .f32⟩ : BufTy).Contents (Elt F)),
    unary main_v3274 main_v3333 ((extractStridedSlice S128x483x1 ![0, 19, 19] · slices_S128x512x30_S128x483x1_0_19_19) : (⟨S128x512x30, .f32⟩ : BufTy).Contents (Elt F) → (⟨S128x483x1, .f32⟩ : BufTy).Contents (Elt F)),
    reshape main_v3333 main_v3334 rfl shapeCasts_S128x483x1_S128x483,
    binary main_v3332 main_v3334 main_v3335 (addf : (⟨S128x483, .f32⟩ : BufTy).Contents (Elt F) → (⟨S128x483, .f32⟩ : BufTy).Contents (Elt F) → (⟨S128x483, .f32⟩ : BufTy).Contents (Elt F)),
    unary main_v3274 main_v3336 ((extractStridedSlice S128x483x1 ![0, 20, 20] · slices_S128x512x30_S128x483x1_0_20_20) : (⟨S128x512x30, .f32⟩ : BufTy).Contents (Elt F) → (⟨S128x483x1, .f32⟩ : BufTy).Contents (Elt F)),
    reshape main_v3336 main_v3337 rfl shapeCasts_S128x483x1_S128x483,
    binary main_v3335 main_v3337 main_v3338 (addf : (⟨S128x483, .f32⟩ : BufTy).Contents (Elt F) → (⟨S128x483, .f32⟩ : BufTy).Contents (Elt F) → (⟨S128x483, .f32⟩ : BufTy).Contents (Elt F)),
    unary main_v3274 main_v3339 ((extractStridedSlice S128x483x1 ![0, 21, 21] · slices_S128x512x30_S128x483x1_0_21_21) : (⟨S128x512x30, .f32⟩ : BufTy).Contents (Elt F) → (⟨S128x483x1, .f32⟩ : BufTy).Contents (Elt F)),
    reshape main_v3339 main_v3340 rfl shapeCasts_S128x483x1_S128x483,
    binary main_v3338 main_v3340 main_v3341 (addf : (⟨S128x483, .f32⟩ : BufTy).Contents (Elt F) → (⟨S128x483, .f32⟩ : BufTy).Contents (Elt F) → (⟨S128x483, .f32⟩ : BufTy).Contents (Elt F)),
    unary main_v3274 main_v3342 ((extractStridedSlice S128x483x1 ![0, 22, 22] · slices_S128x512x30_S128x483x1_0_22_22) : (⟨S128x512x30, .f32⟩ : BufTy).Contents (Elt F) → (⟨S128x483x1, .f32⟩ : BufTy).Contents (Elt F)),
    reshape main_v3342 main_v3343 rfl shapeCasts_S128x483x1_S128x483,
    binary main_v3341 main_v3343 main_v3344 (addf : (⟨S128x483, .f32⟩ : BufTy).Contents (Elt F) → (⟨S128x483, .f32⟩ : BufTy).Contents (Elt F) → (⟨S128x483, .f32⟩ : BufTy).Contents (Elt F)),
    unary main_v3274 main_v3345 ((extractStridedSlice S128x483x1 ![0, 23, 23] · slices_S128x512x30_S128x483x1_0_23_23) : (⟨S128x512x30, .f32⟩ : BufTy).Contents (Elt F) → (⟨S128x483x1, .f32⟩ : BufTy).Contents (Elt F)),
    reshape main_v3345 main_v3346 rfl shapeCasts_S128x483x1_S128x483,
    binary main_v3344 main_v3346 main_v3347 (addf : (⟨S128x483, .f32⟩ : BufTy).Contents (Elt F) → (⟨S128x483, .f32⟩ : BufTy).Contents (Elt F) → (⟨S128x483, .f32⟩ : BufTy).Contents (Elt F)),
    unary main_v3274 main_v3348 ((extractStridedSlice S128x483x1 ![0, 24, 24] · slices_S128x512x30_S128x483x1_0_24_24) : (⟨S128x512x30, .f32⟩ : BufTy).Contents (Elt F) → (⟨S128x483x1, .f32⟩ : BufTy).Contents (Elt F)),
    reshape main_v3348 main_v3349 rfl shapeCasts_S128x483x1_S128x483,
    binary main_v3347 main_v3349 main_v3350 (addf : (⟨S128x483, .f32⟩ : BufTy).Contents (Elt F) → (⟨S128x483, .f32⟩ : BufTy).Contents (Elt F) → (⟨S128x483, .f32⟩ : BufTy).Contents (Elt F)),
    unary main_v3274 main_v3351 ((extractStridedSlice S128x483x1 ![0, 25, 25] · slices_S128x512x30_S128x483x1_0_25_25) : (⟨S128x512x30, .f32⟩ : BufTy).Contents (Elt F) → (⟨S128x483x1, .f32⟩ : BufTy).Contents (Elt F)),
    reshape main_v3351 main_v3352 rfl shapeCasts_S128x483x1_S128x483,
    binary main_v3350 main_v3352 main_v3353 (addf : (⟨S128x483, .f32⟩ : BufTy).Contents (Elt F) → (⟨S128x483, .f32⟩ : BufTy).Contents (Elt F) → (⟨S128x483, .f32⟩ : BufTy).Contents (Elt F)),
    unary main_v3274 main_v3354 ((extractStridedSlice S128x483x1 ![0, 26, 26] · slices_S128x512x30_S128x483x1_0_26_26) : (⟨S128x512x30, .f32⟩ : BufTy).Contents (Elt F) → (⟨S128x483x1, .f32⟩ : BufTy).Contents (Elt F)),
    reshape main_v3354 main_v3355 rfl shapeCasts_S128x483x1_S128x483,
    binary main_v3353 main_v3355 main_v3356 (addf : (⟨S128x483, .f32⟩ : BufTy).Contents (Elt F) → (⟨S128x483, .f32⟩ : BufTy).Contents (Elt F) → (⟨S128x483, .f32⟩ : BufTy).Contents (Elt F)),
    unary main_v3274 main_v3357 ((extractStridedSlice S128x483x1 ![0, 27, 27] · slices_S128x512x30_S128x483x1_0_27_27) : (⟨S128x512x30, .f32⟩ : BufTy).Contents (Elt F) → (⟨S128x483x1, .f32⟩ : BufTy).Contents (Elt F)),
    reshape main_v3357 main_v3358 rfl shapeCasts_S128x483x1_S128x483,
    binary main_v3356 main_v3358 main_v3359 (addf : (⟨S128x483, .f32⟩ : BufTy).Contents (Elt F) → (⟨S128x483, .f32⟩ : BufTy).Contents (Elt F) → (⟨S128x483, .f32⟩ : BufTy).Contents (Elt F)),
    unary main_v3274 main_v3360 ((extractStridedSlice S128x483x1 ![0, 28, 28] · slices_S128x512x30_S128x483x1_0_28_28) : (⟨S128x512x30, .f32⟩ : BufTy).Contents (Elt F) → (⟨S128x483x1, .f32⟩ : BufTy).Contents (Elt F)),
    reshape main_v3360 main_v3361 rfl shapeCasts_S128x483x1_S128x483,
    binary main_v3359 main_v3361 main_v3362 (addf : (⟨S128x483, .f32⟩ : BufTy).Contents (Elt F) → (⟨S128x483, .f32⟩ : BufTy).Contents (Elt F) → (⟨S128x483, .f32⟩ : BufTy).Contents (Elt F)) ]

/-- Segment 116: 10 operations. -/
def seg116 : List (HloOp τ sig (Elt F)) :=
  [ unary main_v3274 main_v3363 ((extractStridedSlice S128x483x1 ![0, 29, 29] · slices_S128x512x30_S128x483x1_0_29_29) : (⟨S128x512x30, .f32⟩ : BufTy).Contents (Elt F) → (⟨S128x483x1, .f32⟩ : BufTy).Contents (Elt F)),
    reshape main_v3363 main_v3364 rfl shapeCasts_S128x483x1_S128x483,
    binary main_v3362 main_v3364 main_v3365 (addf : (⟨S128x483, .f32⟩ : BufTy).Contents (Elt F) → (⟨S128x483, .f32⟩ : BufTy).Contents (Elt F) → (⟨S128x483, .f32⟩ : BufTy).Contents (Elt F)),
    unary main_arg3 main_v3366 ((extractStridedSlice S1 ![57] · slices_S64_S1_57) : (⟨S64, .f32⟩ : BufTy).Contents (Elt F) → (⟨S1, .f32⟩ : BufTy).Contents (Elt F)),
    reshape main_v3366 main_v3367 rfl shapeCasts_S1_S_,
    unary main_v3367 main_v3368 (broadcastInDim S128x483 ![] bcast_S_S128x483 : (⟨S_, .f32⟩ : BufTy).Contents (Elt F) → (⟨S128x483, .f32⟩ : BufTy).Contents (Elt F)),
    binary main_v3365 main_v3368 main_v3369 (addf : (⟨S128x483, .f32⟩ : BufTy).Contents (Elt F) → (⟨S128x483, .f32⟩ : BufTy).Contents (Elt F) → (⟨S128x483, .f32⟩ : BufTy).Contents (Elt F)),
    unary main_v3369 main_v3370 (Host.tanh : (⟨S128x483, .f32⟩ : BufTy).Contents (Elt F) → (⟨S128x483, .f32⟩ : BufTy).Contents (Elt F)),
    nullary main_cst_115 (constant S_ .f32 0xFF800000#32),
    binary main_v3370 main_cst_115 main_v3371 ((fun x v => Host.reduce FloatOps.maximumf x v reducesTo_S128x483_S128_d1 h_S_) : (⟨S128x483, .f32⟩ : BufTy).Contents (Elt F) → (⟨S_, .f32⟩ : BufTy).Contents (Elt F) → (⟨S128, .f32⟩ : BufTy).Contents (Elt F)) ]

/-- Segment 117: 50 operations. -/
def seg117 : List (HloOp τ sig (Elt F)) :=
  [ unary main_arg2 main_v3372 ((extractStridedSlice S1x31x300 ![58, 0, 0] · slices_S64x33x300_S1x31x300_58_0_0) : (⟨S64x33x300, .f32⟩ : BufTy).Contents (Elt F) → (⟨S1x31x300, .f32⟩ : BufTy).Contents (Elt F)),
    reshape main_v3372 main_v3373 rfl shapeCasts_S1x31x300_S31x300,
    binary main_v7 main_v3373 main_v3374 ((fun l r => Host.dotGeneral dot_S128x512x300_S31x300_S128x512x31_2_1_01_0_n_n none l r) : (⟨S128x512x300, .f32⟩ : BufTy).Contents (Elt F) → (⟨S31x300, .f32⟩ : BufTy).Contents (Elt F) → (⟨S128x512x31, .f32⟩ : BufTy).Contents (Elt F)),
    unary main_v3374 main_v3375 ((extractStridedSlice S128x482x1 ![0, 0, 0] · slices_S128x512x31_S128x482x1_0_0_0) : (⟨S128x512x31, .f32⟩ : BufTy).Contents (Elt F) → (⟨S128x482x1, .f32⟩ : BufTy).Contents (Elt F)),
    reshape main_v3375 main_v3376 rfl shapeCasts_S128x482x1_S128x482,
    nullary main_cst_116 (constant S_ .f32 0x00000000#32),
    unary main_cst_116 main_v3377 (broadcastInDim S128x482 ![] bcast_S_S128x482 : (⟨S_, .f32⟩ : BufTy).Contents (Elt F) → (⟨S128x482, .f32⟩ : BufTy).Contents (Elt F)),
    binary main_v3377 main_v3376 main_v3378 (addf : (⟨S128x482, .f32⟩ : BufTy).Contents (Elt F) → (⟨S128x482, .f32⟩ : BufTy).Contents (Elt F) → (⟨S128x482, .f32⟩ : BufTy).Contents (Elt F)),
    unary main_v3374 main_v3379 ((extractStridedSlice S128x482x1 ![0, 1, 1] · slices_S128x512x31_S128x482x1_0_1_1) : (⟨S128x512x31, .f32⟩ : BufTy).Contents (Elt F) → (⟨S128x482x1, .f32⟩ : BufTy).Contents (Elt F)),
    reshape main_v3379 main_v3380 rfl shapeCasts_S128x482x1_S128x482,
    binary main_v3378 main_v3380 main_v3381 (addf : (⟨S128x482, .f32⟩ : BufTy).Contents (Elt F) → (⟨S128x482, .f32⟩ : BufTy).Contents (Elt F) → (⟨S128x482, .f32⟩ : BufTy).Contents (Elt F)),
    unary main_v3374 main_v3382 ((extractStridedSlice S128x482x1 ![0, 2, 2] · slices_S128x512x31_S128x482x1_0_2_2) : (⟨S128x512x31, .f32⟩ : BufTy).Contents (Elt F) → (⟨S128x482x1, .f32⟩ : BufTy).Contents (Elt F)),
    reshape main_v3382 main_v3383 rfl shapeCasts_S128x482x1_S128x482,
    binary main_v3381 main_v3383 main_v3384 (addf : (⟨S128x482, .f32⟩ : BufTy).Contents (Elt F) → (⟨S128x482, .f32⟩ : BufTy).Contents (Elt F) → (⟨S128x482, .f32⟩ : BufTy).Contents (Elt F)),
    unary main_v3374 main_v3385 ((extractStridedSlice S128x482x1 ![0, 3, 3] · slices_S128x512x31_S128x482x1_0_3_3) : (⟨S128x512x31, .f32⟩ : BufTy).Contents (Elt F) → (⟨S128x482x1, .f32⟩ : BufTy).Contents (Elt F)),
    reshape main_v3385 main_v3386 rfl shapeCasts_S128x482x1_S128x482,
    binary main_v3384 main_v3386 main_v3387 (addf : (⟨S128x482, .f32⟩ : BufTy).Contents (Elt F) → (⟨S128x482, .f32⟩ : BufTy).Contents (Elt F) → (⟨S128x482, .f32⟩ : BufTy).Contents (Elt F)),
    unary main_v3374 main_v3388 ((extractStridedSlice S128x482x1 ![0, 4, 4] · slices_S128x512x31_S128x482x1_0_4_4) : (⟨S128x512x31, .f32⟩ : BufTy).Contents (Elt F) → (⟨S128x482x1, .f32⟩ : BufTy).Contents (Elt F)),
    reshape main_v3388 main_v3389 rfl shapeCasts_S128x482x1_S128x482,
    binary main_v3387 main_v3389 main_v3390 (addf : (⟨S128x482, .f32⟩ : BufTy).Contents (Elt F) → (⟨S128x482, .f32⟩ : BufTy).Contents (Elt F) → (⟨S128x482, .f32⟩ : BufTy).Contents (Elt F)),
    unary main_v3374 main_v3391 ((extractStridedSlice S128x482x1 ![0, 5, 5] · slices_S128x512x31_S128x482x1_0_5_5) : (⟨S128x512x31, .f32⟩ : BufTy).Contents (Elt F) → (⟨S128x482x1, .f32⟩ : BufTy).Contents (Elt F)),
    reshape main_v3391 main_v3392 rfl shapeCasts_S128x482x1_S128x482,
    binary main_v3390 main_v3392 main_v3393 (addf : (⟨S128x482, .f32⟩ : BufTy).Contents (Elt F) → (⟨S128x482, .f32⟩ : BufTy).Contents (Elt F) → (⟨S128x482, .f32⟩ : BufTy).Contents (Elt F)),
    unary main_v3374 main_v3394 ((extractStridedSlice S128x482x1 ![0, 6, 6] · slices_S128x512x31_S128x482x1_0_6_6) : (⟨S128x512x31, .f32⟩ : BufTy).Contents (Elt F) → (⟨S128x482x1, .f32⟩ : BufTy).Contents (Elt F)),
    reshape main_v3394 main_v3395 rfl shapeCasts_S128x482x1_S128x482,
    binary main_v3393 main_v3395 main_v3396 (addf : (⟨S128x482, .f32⟩ : BufTy).Contents (Elt F) → (⟨S128x482, .f32⟩ : BufTy).Contents (Elt F) → (⟨S128x482, .f32⟩ : BufTy).Contents (Elt F)),
    unary main_v3374 main_v3397 ((extractStridedSlice S128x482x1 ![0, 7, 7] · slices_S128x512x31_S128x482x1_0_7_7) : (⟨S128x512x31, .f32⟩ : BufTy).Contents (Elt F) → (⟨S128x482x1, .f32⟩ : BufTy).Contents (Elt F)),
    reshape main_v3397 main_v3398 rfl shapeCasts_S128x482x1_S128x482,
    binary main_v3396 main_v3398 main_v3399 (addf : (⟨S128x482, .f32⟩ : BufTy).Contents (Elt F) → (⟨S128x482, .f32⟩ : BufTy).Contents (Elt F) → (⟨S128x482, .f32⟩ : BufTy).Contents (Elt F)),
    unary main_v3374 main_v3400 ((extractStridedSlice S128x482x1 ![0, 8, 8] · slices_S128x512x31_S128x482x1_0_8_8) : (⟨S128x512x31, .f32⟩ : BufTy).Contents (Elt F) → (⟨S128x482x1, .f32⟩ : BufTy).Contents (Elt F)),
    reshape main_v3400 main_v3401 rfl shapeCasts_S128x482x1_S128x482,
    binary main_v3399 main_v3401 main_v3402 (addf : (⟨S128x482, .f32⟩ : BufTy).Contents (Elt F) → (⟨S128x482, .f32⟩ : BufTy).Contents (Elt F) → (⟨S128x482, .f32⟩ : BufTy).Contents (Elt F)),
    unary main_v3374 main_v3403 ((extractStridedSlice S128x482x1 ![0, 9, 9] · slices_S128x512x31_S128x482x1_0_9_9) : (⟨S128x512x31, .f32⟩ : BufTy).Contents (Elt F) → (⟨S128x482x1, .f32⟩ : BufTy).Contents (Elt F)),
    reshape main_v3403 main_v3404 rfl shapeCasts_S128x482x1_S128x482,
    binary main_v3402 main_v3404 main_v3405 (addf : (⟨S128x482, .f32⟩ : BufTy).Contents (Elt F) → (⟨S128x482, .f32⟩ : BufTy).Contents (Elt F) → (⟨S128x482, .f32⟩ : BufTy).Contents (Elt F)),
    unary main_v3374 main_v3406 ((extractStridedSlice S128x482x1 ![0, 10, 10] · slices_S128x512x31_S128x482x1_0_10_10) : (⟨S128x512x31, .f32⟩ : BufTy).Contents (Elt F) → (⟨S128x482x1, .f32⟩ : BufTy).Contents (Elt F)),
    reshape main_v3406 main_v3407 rfl shapeCasts_S128x482x1_S128x482,
    binary main_v3405 main_v3407 main_v3408 (addf : (⟨S128x482, .f32⟩ : BufTy).Contents (Elt F) → (⟨S128x482, .f32⟩ : BufTy).Contents (Elt F) → (⟨S128x482, .f32⟩ : BufTy).Contents (Elt F)),
    unary main_v3374 main_v3409 ((extractStridedSlice S128x482x1 ![0, 11, 11] · slices_S128x512x31_S128x482x1_0_11_11) : (⟨S128x512x31, .f32⟩ : BufTy).Contents (Elt F) → (⟨S128x482x1, .f32⟩ : BufTy).Contents (Elt F)),
    reshape main_v3409 main_v3410 rfl shapeCasts_S128x482x1_S128x482,
    binary main_v3408 main_v3410 main_v3411 (addf : (⟨S128x482, .f32⟩ : BufTy).Contents (Elt F) → (⟨S128x482, .f32⟩ : BufTy).Contents (Elt F) → (⟨S128x482, .f32⟩ : BufTy).Contents (Elt F)),
    unary main_v3374 main_v3412 ((extractStridedSlice S128x482x1 ![0, 12, 12] · slices_S128x512x31_S128x482x1_0_12_12) : (⟨S128x512x31, .f32⟩ : BufTy).Contents (Elt F) → (⟨S128x482x1, .f32⟩ : BufTy).Contents (Elt F)),
    reshape main_v3412 main_v3413 rfl shapeCasts_S128x482x1_S128x482,
    binary main_v3411 main_v3413 main_v3414 (addf : (⟨S128x482, .f32⟩ : BufTy).Contents (Elt F) → (⟨S128x482, .f32⟩ : BufTy).Contents (Elt F) → (⟨S128x482, .f32⟩ : BufTy).Contents (Elt F)),
    unary main_v3374 main_v3415 ((extractStridedSlice S128x482x1 ![0, 13, 13] · slices_S128x512x31_S128x482x1_0_13_13) : (⟨S128x512x31, .f32⟩ : BufTy).Contents (Elt F) → (⟨S128x482x1, .f32⟩ : BufTy).Contents (Elt F)),
    reshape main_v3415 main_v3416 rfl shapeCasts_S128x482x1_S128x482,
    binary main_v3414 main_v3416 main_v3417 (addf : (⟨S128x482, .f32⟩ : BufTy).Contents (Elt F) → (⟨S128x482, .f32⟩ : BufTy).Contents (Elt F) → (⟨S128x482, .f32⟩ : BufTy).Contents (Elt F)),
    unary main_v3374 main_v3418 ((extractStridedSlice S128x482x1 ![0, 14, 14] · slices_S128x512x31_S128x482x1_0_14_14) : (⟨S128x512x31, .f32⟩ : BufTy).Contents (Elt F) → (⟨S128x482x1, .f32⟩ : BufTy).Contents (Elt F)),
    reshape main_v3418 main_v3419 rfl shapeCasts_S128x482x1_S128x482,
    binary main_v3417 main_v3419 main_v3420 (addf : (⟨S128x482, .f32⟩ : BufTy).Contents (Elt F) → (⟨S128x482, .f32⟩ : BufTy).Contents (Elt F) → (⟨S128x482, .f32⟩ : BufTy).Contents (Elt F)) ]

/-- Segment 118: 55 operations. -/
def seg118 : List (HloOp τ sig (Elt F)) :=
  [ unary main_v3374 main_v3421 ((extractStridedSlice S128x482x1 ![0, 15, 15] · slices_S128x512x31_S128x482x1_0_15_15) : (⟨S128x512x31, .f32⟩ : BufTy).Contents (Elt F) → (⟨S128x482x1, .f32⟩ : BufTy).Contents (Elt F)),
    reshape main_v3421 main_v3422 rfl shapeCasts_S128x482x1_S128x482,
    binary main_v3420 main_v3422 main_v3423 (addf : (⟨S128x482, .f32⟩ : BufTy).Contents (Elt F) → (⟨S128x482, .f32⟩ : BufTy).Contents (Elt F) → (⟨S128x482, .f32⟩ : BufTy).Contents (Elt F)),
    unary main_v3374 main_v3424 ((extractStridedSlice S128x482x1 ![0, 16, 16] · slices_S128x512x31_S128x482x1_0_16_16) : (⟨S128x512x31, .f32⟩ : BufTy).Contents (Elt F) → (⟨S128x482x1, .f32⟩ : BufTy).Contents (Elt F)),
    reshape main_v3424 main_v3425 rfl shapeCasts_S128x482x1_S128x482,
    binary main_v3423 main_v3425 main_v3426 (addf : (⟨S128x482, .f32⟩ : BufTy).Contents (Elt F) → (⟨S128x482, .f32⟩ : BufTy).Contents (Elt F) → (⟨S128x482, .f32⟩ : BufTy).Contents (Elt F)),
    unary main_v3374 main_v3427 ((extractStridedSlice S128x482x1 ![0, 17, 17] · slices_S128x512x31_S128x482x1_0_17_17) : (⟨S128x512x31, .f32⟩ : BufTy).Contents (Elt F) → (⟨S128x482x1, .f32⟩ : BufTy).Contents (Elt F)),
    reshape main_v3427 main_v3428 rfl shapeCasts_S128x482x1_S128x482,
    binary main_v3426 main_v3428 main_v3429 (addf : (⟨S128x482, .f32⟩ : BufTy).Contents (Elt F) → (⟨S128x482, .f32⟩ : BufTy).Contents (Elt F) → (⟨S128x482, .f32⟩ : BufTy).Contents (Elt F)),
    unary main_v3374 main_v3430 ((extractStridedSlice S128x482x1 ![0, 18, 18] · slices_S128x512x31_S128x482x1_0_18_18) : (⟨S128x512x31, .f32⟩ : BufTy).Contents (Elt F) → (⟨S128x482x1, .f32⟩ : BufTy).Contents (Elt F)),
    reshape main_v3430 main_v3431 rfl shapeCasts_S128x482x1_S128x482,
    binary main_v3429 main_v3431 main_v3432 (addf : (⟨S128x482, .f32⟩ : BufTy).Contents (Elt F) → (⟨S128x482, .f32⟩ : BufTy).Contents (Elt F) → (⟨S128x482, .f32⟩ : BufTy).Contents (Elt F)),
    unary main_v3374 main_v3433 ((extractStridedSlice S128x482x1 ![0, 19, 19] · slices_S128x512x31_S128x482x1_0_19_19) : (⟨S128x512x31, .f32⟩ : BufTy).Contents (Elt F) → (⟨S128x482x1, .f32⟩ : BufTy).Contents (Elt F)),
    reshape main_v3433 main_v3434 rfl shapeCasts_S128x482x1_S128x482,
    binary main_v3432 main_v3434 main_v3435 (addf : (⟨S128x482, .f32⟩ : BufTy).Contents (Elt F) → (⟨S128x482, .f32⟩ : BufTy).Contents (Elt F) → (⟨S128x482, .f32⟩ : BufTy).Contents (Elt F)),
    unary main_v3374 main_v3436 ((extractStridedSlice S128x482x1 ![0, 20, 20] · slices_S128x512x31_S128x482x1_0_20_20) : (⟨S128x512x31, .f32⟩ : BufTy).Contents (Elt F) → (⟨S128x482x1, .f32⟩ : BufTy).Contents (Elt F)),
    reshape main_v3436 main_v3437 rfl shapeCasts_S128x482x1_S128x482,
    binary main_v3435 main_v3437 main_v3438 (addf : (⟨S128x482, .f32⟩ : BufTy).Contents (Elt F) → (⟨S128x482, .f32⟩ : BufTy).Contents (Elt F) → (⟨S128x482, .f32⟩ : BufTy).Contents (Elt F)),
    unary main_v3374 main_v3439 ((extractStridedSlice S128x482x1 ![0, 21, 21] · slices_S128x512x31_S128x482x1_0_21_21) : (⟨S128x512x31, .f32⟩ : BufTy).Contents (Elt F) → (⟨S128x482x1, .f32⟩ : BufTy).Contents (Elt F)),
    reshape main_v3439 main_v3440 rfl shapeCasts_S128x482x1_S128x482,
    binary main_v3438 main_v3440 main_v3441 (addf : (⟨S128x482, .f32⟩ : BufTy).Contents (Elt F) → (⟨S128x482, .f32⟩ : BufTy).Contents (Elt F) → (⟨S128x482, .f32⟩ : BufTy).Contents (Elt F)),
    unary main_v3374 main_v3442 ((extractStridedSlice S128x482x1 ![0, 22, 22] · slices_S128x512x31_S128x482x1_0_22_22) : (⟨S128x512x31, .f32⟩ : BufTy).Contents (Elt F) → (⟨S128x482x1, .f32⟩ : BufTy).Contents (Elt F)),
    reshape main_v3442 main_v3443 rfl shapeCasts_S128x482x1_S128x482,
    binary main_v3441 main_v3443 main_v3444 (addf : (⟨S128x482, .f32⟩ : BufTy).Contents (Elt F) → (⟨S128x482, .f32⟩ : BufTy).Contents (Elt F) → (⟨S128x482, .f32⟩ : BufTy).Contents (Elt F)),
    unary main_v3374 main_v3445 ((extractStridedSlice S128x482x1 ![0, 23, 23] · slices_S128x512x31_S128x482x1_0_23_23) : (⟨S128x512x31, .f32⟩ : BufTy).Contents (Elt F) → (⟨S128x482x1, .f32⟩ : BufTy).Contents (Elt F)),
    reshape main_v3445 main_v3446 rfl shapeCasts_S128x482x1_S128x482,
    binary main_v3444 main_v3446 main_v3447 (addf : (⟨S128x482, .f32⟩ : BufTy).Contents (Elt F) → (⟨S128x482, .f32⟩ : BufTy).Contents (Elt F) → (⟨S128x482, .f32⟩ : BufTy).Contents (Elt F)),
    unary main_v3374 main_v3448 ((extractStridedSlice S128x482x1 ![0, 24, 24] · slices_S128x512x31_S128x482x1_0_24_24) : (⟨S128x512x31, .f32⟩ : BufTy).Contents (Elt F) → (⟨S128x482x1, .f32⟩ : BufTy).Contents (Elt F)),
    reshape main_v3448 main_v3449 rfl shapeCasts_S128x482x1_S128x482,
    binary main_v3447 main_v3449 main_v3450 (addf : (⟨S128x482, .f32⟩ : BufTy).Contents (Elt F) → (⟨S128x482, .f32⟩ : BufTy).Contents (Elt F) → (⟨S128x482, .f32⟩ : BufTy).Contents (Elt F)),
    unary main_v3374 main_v3451 ((extractStridedSlice S128x482x1 ![0, 25, 25] · slices_S128x512x31_S128x482x1_0_25_25) : (⟨S128x512x31, .f32⟩ : BufTy).Contents (Elt F) → (⟨S128x482x1, .f32⟩ : BufTy).Contents (Elt F)),
    reshape main_v3451 main_v3452 rfl shapeCasts_S128x482x1_S128x482,
    binary main_v3450 main_v3452 main_v3453 (addf : (⟨S128x482, .f32⟩ : BufTy).Contents (Elt F) → (⟨S128x482, .f32⟩ : BufTy).Contents (Elt F) → (⟨S128x482, .f32⟩ : BufTy).Contents (Elt F)),
    unary main_v3374 main_v3454 ((extractStridedSlice S128x482x1 ![0, 26, 26] · slices_S128x512x31_S128x482x1_0_26_26) : (⟨S128x512x31, .f32⟩ : BufTy).Contents (Elt F) → (⟨S128x482x1, .f32⟩ : BufTy).Contents (Elt F)),
    reshape main_v3454 main_v3455 rfl shapeCasts_S128x482x1_S128x482,
    binary main_v3453 main_v3455 main_v3456 (addf : (⟨S128x482, .f32⟩ : BufTy).Contents (Elt F) → (⟨S128x482, .f32⟩ : BufTy).Contents (Elt F) → (⟨S128x482, .f32⟩ : BufTy).Contents (Elt F)),
    unary main_v3374 main_v3457 ((extractStridedSlice S128x482x1 ![0, 27, 27] · slices_S128x512x31_S128x482x1_0_27_27) : (⟨S128x512x31, .f32⟩ : BufTy).Contents (Elt F) → (⟨S128x482x1, .f32⟩ : BufTy).Contents (Elt F)),
    reshape main_v3457 main_v3458 rfl shapeCasts_S128x482x1_S128x482,
    binary main_v3456 main_v3458 main_v3459 (addf : (⟨S128x482, .f32⟩ : BufTy).Contents (Elt F) → (⟨S128x482, .f32⟩ : BufTy).Contents (Elt F) → (⟨S128x482, .f32⟩ : BufTy).Contents (Elt F)),
    unary main_v3374 main_v3460 ((extractStridedSlice S128x482x1 ![0, 28, 28] · slices_S128x512x31_S128x482x1_0_28_28) : (⟨S128x512x31, .f32⟩ : BufTy).Contents (Elt F) → (⟨S128x482x1, .f32⟩ : BufTy).Contents (Elt F)),
    reshape main_v3460 main_v3461 rfl shapeCasts_S128x482x1_S128x482,
    binary main_v3459 main_v3461 main_v3462 (addf : (⟨S128x482, .f32⟩ : BufTy).Contents (Elt F) → (⟨S128x482, .f32⟩ : BufTy).Contents (Elt F) → (⟨S128x482, .f32⟩ : BufTy).Contents (Elt F)),
    unary main_v3374 main_v3463 ((extractStridedSlice S128x482x1 ![0, 29, 29] · slices_S128x512x31_S128x482x1_0_29_29) : (⟨S128x512x31, .f32⟩ : BufTy).Contents (Elt F) → (⟨S128x482x1, .f32⟩ : BufTy).Contents (Elt F)),
    reshape main_v3463 main_v3464 rfl shapeCasts_S128x482x1_S128x482,
    binary main_v3462 main_v3464 main_v3465 (addf : (⟨S128x482, .f32⟩ : BufTy).Contents (Elt F) → (⟨S128x482, .f32⟩ : BufTy).Contents (Elt F) → (⟨S128x482, .f32⟩ : BufTy).Contents (Elt F)),
    unary main_v3374 main_v3466 ((extractStridedSlice S128x482x1 ![0, 30, 30] · slices_S128x512x31_S128x482x1_0_30_30) : (⟨S128x512x31, .f32⟩ : BufTy).Contents (Elt F) → (⟨S128x482x1, .f32⟩ : BufTy).Contents (Elt F)),
    reshape main_v3466 main_v3467 rfl shapeCasts_S128x482x1_S128x482,
    binary main_v3465 main_v3467 main_v3468 (addf : (⟨S128x482, .f32⟩ : BufTy).Contents (Elt F) → (⟨S128x482, .f32⟩ : BufTy).Contents (Elt F) → (⟨S128x482, .f32⟩ : BufTy).Contents (Elt F)),
    unary main_arg3 main_v3469 ((extractStridedSlice S1 ![58] · slices_S64_S1_58) : (⟨S64, .f32⟩ : BufTy).Contents (Elt F) → (⟨S1, .f32⟩ : BufTy).Contents (Elt F)),
    reshape main_v3469 main_v3470 rfl shapeCasts_S1_S_,
    unary main_v3470 main_v3471 (broadcastInDim S128x482 ![] bcast_S_S128x482 : (⟨S_, .f32⟩ : BufTy).Contents (Elt F) → (⟨S128x482, .f32⟩ : BufTy).Contents (Elt F)),
    binary main_v3468 main_v3471 main_v3472 (addf : (⟨S128x482, .f32⟩ : BufTy).Contents (Elt F) → (⟨S128x482, .f32⟩ : BufTy).Contents (Elt F) → (⟨S128x482, .f32⟩ : BufTy).Contents (Elt F)),
    unary main_v3472 main_v3473 (Host.tanh : (⟨S128x482, .f32⟩ : BufTy).Contents (Elt F) → (⟨S128x482, .f32⟩ : BufTy).Contents (Elt F)),
    nullary main_cst_117 (constant S_ .f32 0xFF800000#32),
    binary main_v3473 main_cst_117 main_v3474 ((fun x v => Host.reduce FloatOps.maximumf x v reducesTo_S128x482_S128_d1 h_S_) : (⟨S128x482, .f32⟩ : BufTy).Contents (Elt F) → (⟨S_, .f32⟩ : BufTy).Contents (Elt F) → (⟨S128, .f32⟩ : BufTy).Contents (Elt F)) ]

/-- Segment 119: 5 operations. -/
def seg119 : List (HloOp τ sig (Elt F)) :=
  [ unary main_arg2 main_v3475 ((extractStridedSlice S1x31x300 ![59, 0, 0] · slices_S64x33x300_S1x31x300_59_0_0) : (⟨S64x33x300, .f32⟩ : BufTy).Contents (Elt F) → (⟨S1x31x300, .f32⟩ : BufTy).Contents (Elt F)),
    reshape main_v3475 main_v3476 rfl shapeCasts_S1x31x300_S31x300,
    binary main_v7 main_v3476 main_v3477 ((fun l r => Host.dotGeneral dot_S128x512x300_S31x300_S128x512x31_2_1_01_0_n_n none l r) : (⟨S128x512x300, .f32⟩ : BufTy).Contents (Elt F) → (⟨S31x300, .f32⟩ : BufTy).Contents (Elt F) → (⟨S128x512x31, .f32⟩ : BufTy).Contents (Elt F)),
    unary main_v3477 main_v3478 ((extractStridedSlice S128x482x1 ![0, 0, 0] · slices_S128x512x31_S128x482x1_0_0_0) : (⟨S128x512x31, .f32⟩ : BufTy).Contents (Elt F) → (⟨S128x482x1, .f32⟩ : BufTy).Contents (Elt F)),
    reshape main_v3478 main_v3479 rfl shapeCasts_S128x482x1_S128x482 ]

/-- Segment 120: 60 operations. -/
def seg120 : List (HloOp τ sig (Elt F)) :=
  [ nullary main_cst_118 (constant S_ .f32 0x00000000#32),
    unary main_cst_118 main_v3480 (broadcastInDim S128x482 ![] bcast_S_S128x482 : (⟨S_, .f32⟩ : BufTy).Contents (Elt F) → (⟨S128x482, .f32⟩ : BufTy).Contents (Elt F)),
    binary main_v3480 main_v3479 main_v3481 (addf : (⟨S128x482, .f32⟩ : BufTy).Contents (Elt F) → (⟨S128x482, .f32⟩ : BufTy).Contents (Elt F) → (⟨S128x482, .f32⟩ : BufTy).Contents (Elt F)),
    unary main_v3477 main_v3482 ((extractStridedSlice S128x482x1 ![0, 1, 1] · slices_S128x512x31_S128x482x1_0_1_1) : (⟨S128x512x31, .f32⟩ : BufTy).Contents (Elt F) → (⟨S128x482x1, .f32⟩ : BufTy).Contents (Elt F)),
    reshape main_v3482 main_v3483 rfl shapeCasts_S128x482x1_S128x482,
    binary main_v3481 main_v3483 main_v3484 (addf : (⟨S128x482, .f32⟩ : BufTy).Contents (Elt F) → (⟨S128x482, .f32⟩ : BufTy).Contents (Elt F) → (⟨S128x482, .f32⟩ : BufTy).Contents (Elt F)),
    unary main_v3477 main_v3485 ((extractStridedSlice S128x482x1 ![0, 2, 2] · slices_S128x512x31_S128x482x1_0_2_2) : (⟨S128x512x31, .f32⟩ : BufTy).Contents (Elt F) → (⟨S128x482x1, .f32⟩ : BufTy).Contents (Elt F)),
    reshape main_v3485 main_v3486 rfl shapeCasts_S128x482x1_S128x482,
    binary main_v3484 main_v3486 main_v3487 (addf : (⟨S128x482, .f32⟩ : BufTy).Contents (Elt F) → (⟨S128x482, .f32⟩ : BufTy).Contents (Elt F) → (⟨S128x482, .f32⟩ : BufTy).Contents (Elt F)),
    unary main_v3477 main_v3488 ((extractStridedSlice S128x482x1 ![0, 3, 3] · slices_S128x512x31_S128x482x1_0_3_3) : (⟨S128x512x31, .f32⟩ : BufTy).Contents (Elt F) → (⟨S128x482x1, .f32⟩ : BufTy).Contents (Elt F)),
    reshape main_v3488 main_v3489 rfl shapeCasts_S128x482x1_S128x482,
    binary main_v3487 main_v3489 main_v3490 (addf : (⟨S128x482, .f32⟩ : BufTy).Contents (Elt F) → (⟨S128x482, .f32⟩ : BufTy).Contents (Elt F) → (⟨S128x482, .f32⟩ : BufTy).Contents (Elt F)),
    unary main_v3477 main_v3491 ((extractStridedSlice S128x482x1 ![0, 4, 4] · slices_S128x512x31_S128x482x1_0_4_4) : (⟨S128x512x31, .f32⟩ : BufTy).Contents (Elt F) → (⟨S128x482x1, .f32⟩ : BufTy).Contents (Elt F)),
    reshape main_v3491 main_v3492 rfl shapeCasts_S128x482x1_S128x482,
    binary main_v3490 main_v3492 main_v3493 (addf : (⟨S128x482, .f32⟩ : BufTy).Contents (Elt F) → (⟨S128x482, .f32⟩ : BufTy).Contents (Elt F) → (⟨S128x482, .f32⟩ : BufTy).Contents (Elt F)),
    unary main_v3477 main_v3494 ((extractStridedSlice S128x482x1 ![0, 5, 5] · slices_S128x512x31_S128x482x1_0_5_5) : (⟨S128x512x31, .f32⟩ : BufTy).Contents (Elt F) → (⟨S128x482x1, .f32⟩ : BufTy).Contents (Elt F)),
    reshape main_v3494 main_v3495 rfl shapeCasts_S128x482x1_S128x482,
    binary main_v3493 main_v3495 main_v3496 (addf : (⟨S128x482, .f32⟩ : BufTy).Contents (Elt F) → (⟨S128x482, .f32⟩ : BufTy).Contents (Elt F) → (⟨S128x482, .f32⟩ : BufTy).Contents (Elt F)),
    unary main_v3477 main_v3497 ((extractStridedSlice S128x482x1 ![0, 6, 6] · slices_S128x512x31_S128x482x1_0_6_6) : (⟨S128x512x31, .f32⟩ : BufTy).Contents (Elt F) → (⟨S128x482x1, .f32⟩ : BufTy).Contents (Elt F)),
    reshape main_v3497 main_v3498 rfl shapeCasts_S128x482x1_S128x482,
    binary main_v3496 main_v3498 main_v3499 (addf : (⟨S128x482, .f32⟩ : BufTy).Contents (Elt F) → (⟨S128x482, .f32⟩ : BufTy).Contents (Elt F) → (⟨S128x482, .f32⟩ : BufTy).Contents (Elt F)),
    unary main_v3477 main_v3500 ((extractStridedSlice S128x482x1 ![0, 7, 7] · slices_S128x512x31_S128x482x1_0_7_7) : (⟨S128x512x31, .f32⟩ : BufTy).Contents (Elt F) → (⟨S128x482x1, .f32⟩ : BufTy).Contents (Elt F)),
    reshape main_v3500 main_v3501 rfl shapeCasts_S128x482x1_S128x482,
    binary main_v3499 main_v3501 main_v3502 (addf : (⟨S128x482, .f32⟩ : BufTy).Contents (Elt F) → (⟨S128x482, .f32⟩ : BufTy).Contents (Elt F) → (⟨S128x482, .f32⟩ : BufTy).Contents (Elt F)),
    unary main_v3477 main_v3503 ((extractStridedSlice S128x482x1 ![0, 8, 8] · slices_S128x512x31_S128x482x1_0_8_8) : (⟨S128x512x31, .f32⟩ : BufTy).Contents (Elt F) → (⟨S128x482x1, .f32⟩ : BufTy).Contents (Elt F)),
    reshape main_v3503 main_v3504 rfl shapeCasts_S128x482x1_S128x482,
    binary main_v3502 main_v3504 main_v3505 (addf : (⟨S128x482, .f32⟩ : BufTy).Contents (Elt F) → (⟨S128x482, .f32⟩ : BufTy).Contents (Elt F) → (⟨S128x482, .f32⟩ : BufTy).Contents (Elt F)),
    unary main_v3477 main_v3506 ((extractStridedSlice S128x482x1 ![0, 9, 9] · slices_S128x512x31_S128x482x1_0_9_9) : (⟨S128x512x31, .f32⟩ : BufTy).Contents (Elt F) → (⟨S128x482x1, .f32⟩ : BufTy).Contents (Elt F)),
    reshape main_v3506 main_v3507 rfl shapeCasts_S128x482x1_S128x482,
    binary main_v3505 main_v3507 main_v3508 (addf : (⟨S128x482, .f32⟩ : BufTy).Contents (Elt F) → (⟨S128x482, .f32⟩ : BufTy).Contents (Elt F) → (⟨S128x482, .f32⟩ : BufTy).Contents (Elt F)),
    unary main_v3477 main_v3509 ((extractStridedSlice S128x482x1 ![0, 10, 10] · slices_S128x512x31_S128x482x1_0_10_10) : (⟨S128x512x31, .f32⟩ : BufTy).Contents (Elt F) → (⟨S128x482x1, .f32⟩ : BufTy).Contents (Elt F)),
    reshape main_v3509 main_v3510 rfl shapeCasts_S128x482x1_S128x482,
    binary main_v3508 main_v3510 main_v3511 (addf : (⟨S128x482, .f32⟩ : BufTy).Contents (Elt F) → (⟨S128x482, .f32⟩ : BufTy).Contents (Elt F) → (⟨S128x482, .f32⟩ : BufTy).Contents (Elt F)),
    unary main_v3477 main_v3512 ((extractStridedSlice S128x482x1 ![0, 11, 11] · slices_S128x512x31_S128x482x1_0_11_11) : (⟨S128x512x31, .f32⟩ : BufTy).Contents (Elt F) → (⟨S128x482x1, .f32⟩ : BufTy).Contents (Elt F)),
    reshape main_v3512 main_v3513 rfl shapeCasts_S128x482x1_S128x482,
    binary main_v3511 main_v3513 main_v3514 (addf : (⟨S128x482, .f32⟩ : BufTy).Contents (Elt F) → (⟨S128x482, .f32⟩ : BufTy).Contents (Elt F) → (⟨S128x482, .f32⟩ : BufTy).Contents (Elt F)),
    unary main_v3477 main_v3515 ((extractStridedSlice S128x482x1 ![0, 12, 12] · slices_S128x512x31_S128x482x1_0_12_12) : (⟨S128x512x31, .f32⟩ : BufTy).Contents (Elt F) → (⟨S128x482x1, .f32⟩ : BufTy).Contents (Elt F)),
    reshape main_v3515 main_v3516 rfl shapeCasts_S128x482x1_S128x482,
    binary main_v3514 main_v3516 main_v3517 (addf : (⟨S128x482, .f32⟩ : BufTy).Contents (Elt F) → (⟨S128x482, .f32⟩ : BufTy).Contents (Elt F) → (⟨S128x482, .f32⟩ : BufTy).Contents (Elt F)),
    unary main_v3477 main_v3518 ((extractStridedSlice S128x482x1 ![0, 13, 13] · slices_S128x512x31_S128x482x1_0_13_13) : (⟨S128x512x31, .f32⟩ : BufTy).Contents (Elt F) → (⟨S128x482x1, .f32⟩ : BufTy).Contents (Elt F)),
    reshape main_v3518 main_v3519 rfl shapeCasts_S128x482x1_S128x482,
    binary main_v3517 main_v3519 main_v3520 (addf : (⟨S128x482, .f32⟩ : BufTy).Contents (Elt F) → (⟨S128x482, .f32⟩ : BufTy).Contents (Elt F) → (⟨S128x482, .f32⟩ : BufTy).Contents (Elt F)),
    unary main_v3477 main_v3521 ((extractStridedSlice S128x482x1 ![0, 14, 14] · slices_S128x512x31_S128x482x1_0_14_14) : (⟨S128x512x31, .f32⟩ : BufTy).Contents (Elt F) → (⟨S128x482x1, .f32⟩ : BufTy).Contents (Elt F)),
    reshape main_v3521 main_v3522 rfl shapeCasts_S128x482x1_S128x482,
    binary main_v3520 main_v3522 main_v3523 (addf : (⟨S128x482, .f32⟩ : BufTy).Contents (Elt F) → (⟨S128x482, .f32⟩ : BufTy).Contents (Elt F) → (⟨S128x482, .f32⟩ : BufTy).Contents (Elt F)),
    unary main_v3477 main_v3524 ((extractStridedSlice S128x482x1 ![0, 15, 15] · slices_S128x512x31_S128x482x1_0_15_15) : (⟨S128x512x31, .f32⟩ : BufTy).Contents (Elt F) → (⟨S128x482x1, .f32⟩ : BufTy).Contents (Elt F)),
    reshape main_v3524 main_v3525 rfl shapeCasts_S128x482x1_S128x482,
    binary main_v3523 main_v3525 main_v3526 (addf : (⟨S128x482, .f32⟩ : BufTy).Contents (Elt F) → (⟨S128x482, .f32⟩ : BufTy).Contents (Elt F) → (⟨S128x482, .f32⟩ : BufTy).Contents (Elt F)),
    unary main_v3477 main_v3527 ((extractStridedSlice S128x482x1 ![0, 16, 16] · slices_S128x512x31_S128x482x1_0_16_16) : (⟨S128x512x31, .f32⟩ : BufTy).Contents (Elt F) → (⟨S128x482x1, .f32⟩ : BufTy).Contents (Elt F)),
    reshape main_v3527 main_v3528 rfl shapeCasts_S128x482x1_S128x482,
    binary main_v3526 main_v3528 main_v3529 (addf : (⟨S128x482, .f32⟩ : BufTy).Contents (Elt F) → (⟨S128x482, .f32⟩ : BufTy).Contents (Elt F) → (⟨S128x482, .f32⟩ : BufTy).Contents (Elt F)),
    unary main_v3477 main_v3530 ((extractStridedSlice S128x482x1 ![0, 17, 17] · slices_S128x512x31_S128x482x1_0_17_17) : (⟨S128x512x31, .f32⟩ : BufTy).Contents (Elt F) → (⟨S128x482x1, .f32⟩ : BufTy).Contents (Elt F)),
    reshape main_v3530 main_v3531 rfl shapeCasts_S128x482x1_S128x482,
    binary main_v3529 main_v3531 main_v3532 (addf : (⟨S128x482, .f32⟩ : BufTy).Contents (Elt F) → (⟨S128x482, .f32⟩ : BufTy).Contents (Elt F) → (⟨S128x482, .f32⟩ : BufTy).Contents (Elt F)),
    unary main_v3477 main_v3533 ((extractStridedSlice S128x482x1 ![0, 18, 18] · slices_S128x512x31_S128x482x1_0_18_18) : (⟨S128x512x31, .f32⟩ : BufTy).Contents (Elt F) → (⟨S128x482x1, .f32⟩ : BufTy).Contents (Elt F)),
    reshape main_v3533 main_v3534 rfl shapeCasts_S128x482x1_S128x482,
    binary main_v3532 main_v3534 main_v3535 (addf : (⟨S128x482, .f32⟩ : BufTy).Contents (Elt F) → (⟨S128x482, .f32⟩ : BufTy).Contents (Elt F) → (⟨S128x482, .f32⟩ : BufTy).Contents (Elt F)),
    unary main_v3477 main_v3536 ((extractStridedSlice S128x482x1 ![0, 19, 19] · slices_S128x512x31_S128x482x1_0_19_19) : (⟨S128x512x31, .f32⟩ : BufTy).Contents (Elt F) → (⟨S128x482x1, .f32⟩ : BufTy).Contents (Elt F)),
    reshape main_v3536 main_v3537 rfl shapeCasts_S128x482x1_S128x482,
    binary main_v3535 main_v3537 main_v3538 (addf : (⟨S128x482, .f32⟩ : BufTy).Contents (Elt F) → (⟨S128x482, .f32⟩ : BufTy).Contents (Elt F) → (⟨S128x482, .f32⟩ : BufTy).Contents (Elt F)) ]

/-- Segment 121: 40 operations. -/
def seg121 : List (HloOp τ sig (Elt F)) :=
  [ unary main_v3477 main_v3539 ((extractStridedSlice S128x482x1 ![0, 20, 20] · slices_S128x512x31_S128x482x1_0_20_20) : (⟨S128x512x31, .f32⟩ : BufTy).Contents (Elt F) → (⟨S128x482x1, .f32⟩ : BufTy).Contents (Elt F)),
    reshape main_v3539 main_v3540 rfl shapeCasts_S128x482x1_S128x482,
    binary main_v3538 main_v3540 main_v3541 (addf : (⟨S128x482, .f32⟩ : BufTy).Contents (Elt F) → (⟨S128x482, .f32⟩ : BufTy).Contents (Elt F) → (⟨S128x482, .f32⟩ : BufTy).Contents (Elt F)),
    unary main_v3477 main_v3542 ((extractStridedSlice S128x482x1 ![0, 21, 21] · slices_S128x512x31_S128x482x1_0_21_21) : (⟨S128x512x31, .f32⟩ : BufTy).Contents (Elt F) → (⟨S128x482x1, .f32⟩ : BufTy).Contents (Elt F)),
    reshape main_v3542 main_v3543 rfl shapeCasts_S128x482x1_S128x482,
    binary main_v3541 main_v3543 main_v3544 (addf : (⟨S128x482, .f32⟩ : BufTy).Contents (Elt F) → (⟨S128x482, .f32⟩ : BufTy).Contents (Elt F) → (⟨S128x482, .f32⟩ : BufTy).Contents (Elt F)),
    unary main_v3477 main_v3545 ((extractStridedSlice S128x482x1 ![0, 22, 22] · slices_S128x512x31_S128x482x1_0_22_22) : (⟨S128x512x31, .f32⟩ : BufTy).Contents (Elt F) → (⟨S128x482x1, .f32⟩ : BufTy).Contents (Elt F)),
    reshape main_v3545 main_v3546 rfl shapeCasts_S128x482x1_S128x482,
    binary main_v3544 main_v3546 main_v3547 (addf : (⟨S128x482, .f32⟩ : BufTy).Contents (Elt F) → (⟨S128x482, .f32⟩ : BufTy).Contents (Elt F) → (⟨S128x482, .f32⟩ : BufTy).Contents (Elt F)),
    unary main_v3477 main_v3548 ((extractStridedSlice S128x482x1 ![0, 23, 23] · slices_S128x512x31_S128x482x1_0_23_23) : (⟨S128x512x31, .f32⟩ : BufTy).Contents (Elt F) → (⟨S128x482x1, .f32⟩ : BufTy).Contents (Elt F)),
    reshape main_v3548 main_v3549 rfl shapeCasts_S128x482x1_S128x482,
    binary main_v3547 main_v3549 main_v3550 (addf : (⟨S128x482, .f32⟩ : BufTy).Contents (Elt F) → (⟨S128x482, .f32⟩ : BufTy).Contents (Elt F) → (⟨S128x482, .f32⟩ : BufTy).Contents (Elt F)),
    unary main_v3477 main_v3551 ((extractStridedSlice S128x482x1 ![0, 24, 24] · slices_S128x512x31_S128x482x1_0_24_24) : (⟨S128x512x31, .f32⟩ : BufTy).Contents (Elt F) → (⟨S128x482x1, .f32⟩ : BufTy).Contents (Elt F)),
    reshape main_v3551 main_v3552 rfl shapeCasts_S128x482x1_S128x482,
    binary main_v3550 main_v3552 main_v3553 (addf : (⟨S128x482, .f32⟩ : BufTy).Contents (Elt F) → (⟨S128x482, .f32⟩ : BufTy).Contents (Elt F) → (⟨S128x482, .f32⟩ : BufTy).Contents (Elt F)),
    unary main_v3477 main_v3554 ((extractStridedSlice S128x482x1 ![0, 25, 25] · slices_S128x512x31_S128x482x1_0_25_25) : (⟨S128x512x31, .f32⟩ : BufTy).Contents (Elt F) → (⟨S128x482x1, .f32⟩ : BufTy).Contents (Elt F)),
    reshape main_v3554 main_v3555 rfl shapeCasts_S128x482x1_S128x482,
    binary main_v3553 main_v3555 main_v3556 (addf : (⟨S128x482, .f32⟩ : BufTy).Contents (Elt F) → (⟨S128x482, .f32⟩ : BufTy).Contents (Elt F) → (⟨S128x482, .f32⟩ : BufTy).Contents (Elt F)),
    unary main_v3477 main_v3557 ((extractStridedSlice S128x482x1 ![0, 26, 26] · slices_S128x512x31_S128x482x1_0_26_26) : (⟨S128x512x31, .f32⟩ : BufTy).Contents (Elt F) → (⟨S128x482x1, .f32⟩ : BufTy).Contents (Elt F)),
    reshape main_v3557 main_v3558 rfl shapeCasts_S128x482x1_S128x482,
    binary main_v3556 main_v3558 main_v3559 (addf : (⟨S128x482, .f32⟩ : BufTy).Contents (Elt F) → (⟨S128x482, .f32⟩ : BufTy).Contents (Elt F) → (⟨S128x482, .f32⟩ : BufTy).Contents (Elt F)),
    unary main_v3477 main_v3560 ((extractStridedSlice S128x482x1 ![0, 27, 27] · slices_S128x512x31_S128x482x1_0_27_27) : (⟨S128x512x31, .f32⟩ : BufTy).Contents (Elt F) → (⟨S128x482x1, .f32⟩ : BufTy).Contents (Elt F)),
    reshape main_v3560 main_v3561 rfl shapeCasts_S128x482x1_S128x482,
    binary main_v3559 main_v3561 main_v3562 (addf : (⟨S128x482, .f32⟩ : BufTy).Contents (Elt F) → (⟨S128x482, .f32⟩ : BufTy).Contents (Elt F) → (⟨S128x482, .f32⟩ : BufTy).Contents (Elt F)),
    unary main_v3477 main_v3563 ((extractStridedSlice S128x482x1 ![0, 28, 28] · slices_S128x512x31_S128x482x1_0_28_28) : (⟨S128x512x31, .f32⟩ : BufTy).Contents (Elt F) → (⟨S128x482x1, .f32⟩ : BufTy).Contents (Elt F)),
    reshape main_v3563 main_v3564 rfl shapeCasts_S128x482x1_S128x482,
    binary main_v3562 main_v3564 main_v3565 (addf : (⟨S128x482, .f32⟩ : BufTy).Contents (Elt F) → (⟨S128x482, .f32⟩ : BufTy).Contents (Elt F) → (⟨S128x482, .f32⟩ : BufTy).Contents (Elt F)),
    unary main_v3477 main_v3566 ((extractStridedSlice S128x482x1 ![0, 29, 29] · slices_S128x512x31_S128x482x1_0_29_29) : (⟨S128x512x31, .f32⟩ : BufTy).Contents (Elt F) → (⟨S128x482x1, .f32⟩ : BufTy).Contents (Elt F)),
    reshape main_v3566 main_v3567 rfl shapeCasts_S128x482x1_S128x482,
    binary main_v3565 main_v3567 main_v3568 (addf : (⟨S128x482, .f32⟩ : BufTy).Contents (Elt F) → (⟨S128x482, .f32⟩ : BufTy).Contents (Elt F) → (⟨S128x482, .f32⟩ : BufTy).Contents (Elt F)),
    unary main_v3477 main_v3569 ((extractStridedSlice S128x482x1 ![0, 30, 30] · slices_S128x512x31_S128x482x1_0_30_30) : (⟨S128x512x31, .f32⟩ : BufTy).Contents (Elt F) → (⟨S128x482x1, .f32⟩ : BufTy).Contents (Elt F)),
    reshape main_v3569 main_v3570 rfl shapeCasts_S128x482x1_S128x482,
    binary main_v3568 main_v3570 main_v3571 (addf : (⟨S128x482, .f32⟩ : BufTy).Contents (Elt F) → (⟨S128x482, .f32⟩ : BufTy).Contents (Elt F) → (⟨S128x482, .f32⟩ : BufTy).Contents (Elt F)),
    unary main_arg3 main_v3572 ((extractStridedSlice S1 ![59] · slices_S64_S1_59) : (⟨S64, .f32⟩ : BufTy).Contents (Elt F) → (⟨S1, .f32⟩ : BufTy).Contents (Elt F)),
    reshape main_v3572 main_v3573 rfl shapeCasts_S1_S_,
    unary main_v3573 main_v3574 (broadcastInDim S128x482 ![] bcast_S_S128x482 : (⟨S_, .f32⟩ : BufTy).Contents (Elt F) → (⟨S128x482, .f32⟩ : BufTy).Contents (Elt F)),
    binary main_v3571 main_v3574 main_v3575 (addf : (⟨S128x482, .f32⟩ : BufTy).Contents (Elt F) → (⟨S128x482, .f32⟩ : BufTy).Contents (Elt F) → (⟨S128x482, .f32⟩ : BufTy).Contents (Elt F)),
    unary main_v3575 main_v3576 (Host.tanh : (⟨S128x482, .f32⟩ : BufTy).Contents (Elt F) → (⟨S128x482, .f32⟩ : BufTy).Contents (Elt F)),
    nullary main_cst_119 (constant S_ .f32 0xFF800000#32),
    binary main_v3576 main_cst_119 main_v3577 ((fun x v => Host.reduce FloatOps.maximumf x v reducesTo_S128x482_S128_d1 h_S_) : (⟨S128x482, .f32⟩ : BufTy).Contents (Elt F) → (⟨S_, .f32⟩ : BufTy).Contents (Elt F) → (⟨S128, .f32⟩ : BufTy).Contents (Elt F)) ]

/-- Segment 122: 20 operations. -/
def seg122 : List (HloOp τ sig (Elt F)) :=
  [ unary main_arg2 main_v3578 ((extractStridedSlice S1x32x300 ![60, 0, 0] · slices_S64x33x300_S1x32x300_60_0_0) : (⟨S64x33x300, .f32⟩ : BufTy).Contents (Elt F) → (⟨S1x32x300, .f32⟩ : BufTy).Contents (Elt F)),
    reshape main_v3578 main_v3579 rfl shapeCasts_S1x32x300_S32x300,
    binary main_v7 main_v3579 main_v3580 ((fun l r => Host.dotGeneral dot_S128x512x300_S32x300_S128x512x32_2_1_01_0_n_n none l r) : (⟨S128x512x300, .f32⟩ : BufTy).Contents (Elt F) → (⟨S32x300, .f32⟩ : BufTy).Contents (Elt F) → (⟨S128x512x32, .f32⟩ : BufTy).Contents (Elt F)),
    unary main_v3580 main_v3581 ((extractStridedSlice S128x481x1 ![0, 0, 0] · slices_S128x512x32_S128x481x1_0_0_0) : (⟨S128x512x32, .f32⟩ : BufTy).Contents (Elt F) → (⟨S128x481x1, .f32⟩ : BufTy).Contents (Elt F)),
    reshape main_v3581 main_v3582 rfl shapeCasts_S128x481x1_S128x481,
    nullary main_cst_120 (constant S_ .f32 0x00000000#32),
    unary main_cst_120 main_v3583 (broadcastInDim S128x481 ![] bcast_S_S128x481 : (⟨S_, .f32⟩ : BufTy).Contents (Elt F) → (⟨S128x481, .f32⟩ : BufTy).Contents (Elt F)),
    binary main_v3583 main_v3582 main_v3584 (addf : (⟨S128x481, .f32⟩ : BufTy).Contents (Elt F) → (⟨S128x481, .f32⟩ : BufTy).Contents (Elt F) → (⟨S128x481, .f32⟩ : BufTy).Contents (Elt F)),
    unary main_v3580 main_v3585 ((extractStridedSlice S128x481x1 ![0, 1, 1] · slices_S128x512x32_S128x481x1_0_1_1) : (⟨S128x512x32, .f32⟩ : BufTy).Contents (Elt F) → (⟨S128x481x1, .f32⟩ : BufTy).Contents (Elt F)),
    reshape main_v3585 main_v3586 rfl shapeCasts_S128x481x1_S128x481,
    binary main_v3584 main_v3586 main_v3587 (addf : (⟨S128x481, .f32⟩ : BufTy).Contents (Elt F) → (⟨S128x481, .f32⟩ : BufTy).Contents (Elt F) → (⟨S128x481, .f32⟩ : BufTy).Contents (Elt F)),
    unary main_v3580 main_v3588 ((extractStridedSlice S128x481x1 ![0, 2, 2] · slices_S128x512x32_S128x481x1_0_2_2) : (⟨S128x512x32, .f32⟩ : BufTy).Contents (Elt F) → (⟨S128x481x1, .f32⟩ : BufTy).Contents (Elt F)),
    reshape main_v3588 main_v3589 rfl shapeCasts_S128x481x1_S128x481,
    binary main_v3587 main_v3589 main_v3590 (addf : (⟨S128x481, .f32⟩ : BufTy).Contents (Elt F) → (⟨S128x481, .f32⟩ : BufTy).Contents (Elt F) → (⟨S128x481, .f32⟩ : BufTy).Contents (Elt F)),
    unary main_v3580 main_v3591 ((extractStridedSlice S128x481x1 ![0, 3, 3] · slices_S128x512x32_S128x481x1_0_3_3) : (⟨S128x512x32, .f32⟩ : BufTy).Contents (Elt F) → (⟨S128x481x1, .f32⟩ : BufTy).Contents (Elt F)),
    reshape main_v3591 main_v3592 rfl shapeCasts_S128x481x1_S128x481,
    binary main_v3590 main_v3592 main_v3593 (addf : (⟨S128x481, .f32⟩ : BufTy).Contents (Elt F) → (⟨S128x481, .f32⟩ : BufTy).Contents (Elt F) → (⟨S128x481, .f32⟩ : BufTy).Contents (Elt F)),
    unary main_v3580 main_v3594 ((extractStridedSlice S128x481x1 ![0, 4, 4] · slices_S128x512x32_S128x481x1_0_4_4) : (⟨S128x512x32, .f32⟩ : BufTy).Contents (Elt F) → (⟨S128x481x1, .f32⟩ : BufTy).Contents (Elt F)),
    reshape main_v3594 main_v3595 rfl shapeCasts_S128x481x1_S128x481,
    binary main_v3593 main_v3595 main_v3596 (addf : (⟨S128x481, .f32⟩ : BufTy).Contents (Elt F) → (⟨S128x481, .f32⟩ : BufTy).Contents (Elt F) → (⟨S128x481, .f32⟩ : BufTy).Contents (Elt F)) ]

/-- Segment 123: 60 operations. -/
def seg123 : List (HloOp τ sig (Elt F)) :=
  [ unary main_v3580 main_v3597 ((extractStridedSlice S128x481x1 ![0, 5, 5] · slices_S128x512x32_S128x481x1_0_5_5) : (⟨S128x512x32, .f32⟩ : BufTy).Contents (Elt F) → (⟨S128x481x1, .f32⟩ : BufTy).Contents (Elt F)),
    reshape main_v3597 main_v3598 rfl shapeCasts_S128x481x1_S128x481,
    binary main_v3596 main_v3598 main_v3599 (addf : (⟨S128x481, .f32⟩ : BufTy).Contents (Elt F) → (⟨S128x481, .f32⟩ : BufTy).Contents (Elt F) → (⟨S128x481, .f32⟩ : BufTy).Contents (Elt F)),
    unary main_v3580 main_v3600 ((extractStridedSlice S128x481x1 ![0, 6, 6] · slices_S128x512x32_S128x481x1_0_6_6) : (⟨S128x512x32, .f32⟩ : BufTy).Contents (Elt F) → (⟨S128x481x1, .f32⟩ : BufTy).Contents (Elt F)),
    reshape main_v3600 main_v3601 rfl shapeCasts_S128x481x1_S128x481,
    binary main_v3599 main_v3601 main_v3602 (addf : (⟨S128x481, .f32⟩ : BufTy).Contents (Elt F) → (⟨S128x481, .f32⟩ : BufTy).Contents (Elt F) → (⟨S128x481, .f32⟩ : BufTy).Contents (Elt F)),
    unary main_v3580 main_v3603 ((extractStridedSlice S128x481x1 ![0, 7, 7] · slices_S128x512x32_S128x481x1_0_7_7) : (⟨S128x512x32, .f32⟩ : BufTy).Contents (Elt F) → (⟨S128x481x1, .f32⟩ : BufTy).Contents (Elt F)),
    reshape main_v3603 main_v3604 rfl shapeCasts_S128x481x1_S128x481,
    binary main_v3602 main_v3604 main_v3605 (addf : (⟨S128x481, .f32⟩ : BufTy).Contents (Elt F) → (⟨S128x481, .f32⟩ : BufTy).Contents (Elt F) → (⟨S128x481, .f32⟩ : BufTy).Contents (Elt F)),
    unary main_v3580 main_v3606 ((extractStridedSlice S128x481x1 ![0, 8, 8] · slices_S128x512x32_S128x481x1_0_8_8) : (⟨S128x512x32, .f32⟩ : BufTy).Contents (Elt F) → (⟨S128x481x1, .f32⟩ : BufTy).Contents (Elt F)),
    reshape main_v3606 main_v3607 rfl shapeCasts_S128x481x1_S128x481,
    binary main_v3605 main_v3607 main_v3608 (addf : (⟨S128x481, .f32⟩ : BufTy).Contents (Elt F) → (⟨S128x481, .f32⟩ : BufTy).Contents (Elt F) → (⟨S128x481, .f32⟩ : BufTy).Contents (Elt F)),
    unary main_v3580 main_v3609 ((extractStridedSlice S128x481x1 ![0, 9, 9] · slices_S128x512x32_S128x481x1_0_9_9) : (⟨S128x512x32, .f32⟩ : BufTy).Contents (Elt F) → (⟨S128x481x1, .f32⟩ : BufTy).Contents (Elt F)),
    reshape main_v3609 main_v3610 rfl shapeCasts_S128x481x1_S128x481,
    binary main_v3608 main_v3610 main_v3611 (addf : (⟨S128x481, .f32⟩ : BufTy).Contents (Elt F) → (⟨S128x481, .f32⟩ : BufTy).Contents (Elt F) → (⟨S128x481, .f32⟩ : BufTy).Contents (Elt F)),
    unary main_v3580 main_v3612 ((extractStridedSlice S128x481x1 ![0, 10, 10] · slices_S128x512x32_S128x481x1_0_10_10) : (⟨S128x512x32, .f32⟩ : BufTy).Contents (Elt F) → (⟨S128x481x1, .f32⟩ : BufTy).Contents (Elt F)),
    reshape main_v3612 main_v3613 rfl shapeCasts_S128x481x1_S128x481,
    binary main_v3611 main_v3613 main_v3614 (addf : (⟨S128x481, .f32⟩ : BufTy).Contents (Elt F) → (⟨S128x481, .f32⟩ : BufTy).Contents (Elt F) → (⟨S128x481, .f32⟩ : BufTy).Contents (Elt F)),
    unary main_v3580 main_v3615 ((extractStridedSlice S128x481x1 ![0, 11, 11] · slices_S128x512x32_S128x481x1_0_11_11) : (⟨S128x512x32, .f32⟩ : BufTy).Contents (Elt F) → (⟨S128x481x1, .f32⟩ : BufTy).Contents (Elt F)),
    reshape main_v3615 main_v3616 rfl shapeCasts_S128x481x1_S128x481,
    binary main_v3614 main_v3616 main_v3617 (addf : (⟨S128x481, .f32⟩ : BufTy).Contents (Elt F) → (⟨S128x481, .f32⟩ : BufTy).Contents (Elt F) → (⟨S128x481, .f32⟩ : BufTy).Contents (Elt F)),
    unary main_v3580 main_v3618 ((extractStridedSlice S128x481x1 ![0, 12, 12] · slices_S128x512x32_S128x481x1_0_12_12) : (⟨S128x512x32, .f32⟩ : BufTy).Contents (Elt F) → (⟨S128x481x1, .f32⟩ : BufTy).Contents (Elt F)),
    reshape main_v3618 main_v3619 rfl shapeCasts_S128x481x1_S128x481,
    binary main_v3617 main_v3619 main_v3620 (addf : (⟨S128x481, .f32⟩ : BufTy).Contents (Elt F) → (⟨S128x481, .f32⟩ : BufTy).Contents (Elt F) → (⟨S128x481, .f32⟩ : BufTy).Contents (Elt F)),
    unary main_v3580 main_v3621 ((extractStridedSlice S128x481x1 ![0, 13, 13] · slices_S128x512x32_S128x481x1_0_13_13) : (⟨S128x512x32, .f32⟩ : BufTy).Contents (Elt F) → (⟨S128x481x1, .f32⟩ : BufTy).Contents (Elt F)),
    reshape main_v3621 main_v3622 rfl shapeCasts_S128x481x1_S128x481,
    binary main_v3620 main_v3622 main_v3623 (addf : (⟨S128x481, .f32⟩ : BufTy).Contents (Elt F) → (⟨S128x481, .f32⟩ : BufTy).Contents (Elt F) → (⟨S128x481, .f32⟩ : BufTy).Contents (Elt F)),
    unary main_v3580 main_v3624 ((extractStridedSlice S128x481x1 ![0, 14, 14] · slices_S128x512x32_S128x481x1_0_14_14) : (⟨S128x512x32, .f32⟩ : BufTy).Contents (Elt F) → (⟨S128x481x1, .f32⟩ : BufTy).Contents (Elt F)),
    reshape main_v3624 main_v3625 rfl shapeCasts_S128x481x1_S128x481,
    binary main_v3623 main_v3625 main_v3626 (addf : (⟨S128x481, .f32⟩ : BufTy).Contents (Elt F) → (⟨S128x481, .f32⟩ : BufTy).Contents (Elt F) → (⟨S128x481, .f32⟩ : BufTy).Contents (Elt F)),
    unary main_v3580 main_v3627 ((extractStridedSlice S128x481x1 ![0, 15, 15] · slices_S128x512x32_S128x481x1_0_15_15) : (⟨S128x512x32, .f32⟩ : BufTy).Contents (Elt F) → (⟨S128x481x1, .f32⟩ : BufTy).Contents (Elt F)),
    reshape main_v3627 main_v3628 rfl shapeCasts_S128x481x1_S128x481,
    binary main_v3626 main_v3628 main_v3629 (addf : (⟨S128x481, .f32⟩ : BufTy).Contents (Elt F) → (⟨S128x481, .f32⟩ : BufTy).Contents (Elt F) → (⟨S128x481, .f32⟩ : BufTy).Contents (Elt F)),
    unary main_v3580 main_v3630 ((extractStridedSlice S128x481x1 ![0, 16, 16] · slices_S128x512x32_S128x481x1_0_16_16) : (⟨S128x512x32, .f32⟩ : BufTy).Contents (Elt F) → (⟨S128x481x1, .f32⟩ : BufTy).Contents (Elt F)),
    reshape main_v3630 main_v3631 rfl shapeCasts_S128x481x1_S128x481,
    binary main_v3629 main_v3631 main_v3632 (addf : (⟨S128x481, .f32⟩ : BufTy).Contents (Elt F) → (⟨S128x481, .f32⟩ : BufTy).Contents (Elt F) → (⟨S128x481, .f32⟩ : BufTy).Contents (Elt F)),
    unary main_v3580 main_v3633 ((extractStridedSlice S128x481x1 ![0, 17, 17] · slices_S128x512x32_S128x481x1_0_17_17) : (⟨S128x512x32, .f32⟩ : BufTy).Contents (Elt F) → (⟨S128x481x1, .f32⟩ : BufTy).Contents (Elt F)),
    reshape main_v3633 main_v3634 rfl shapeCasts_S128x481x1_S128x481,
    binary main_v3632 main_v3634 main_v3635 (addf : (⟨S128x481, .f32⟩ : BufTy).Contents (Elt F) → (⟨S128x481, .f32⟩ : BufTy).Contents (Elt F) → (⟨S128x481, .f32⟩ : BufTy).Contents (Elt F)),
    unary main_v3580 main_v3636 ((extractStridedSlice S128x481x1 ![0, 18, 18] · slices_S128x512x32_S128x481x1_0_18_18) : (⟨S128x512x32, .f32⟩ : BufTy).Contents (Elt F) → (⟨S128x481x1, .f32⟩ : BufTy).Contents (Elt F)),
    reshape main_v3636 main_v3637 rfl shapeCasts_S128x481x1_S128x481,
    binary main_v3635 main_v3637 main_v3638 (addf : (⟨S128x481, .f32⟩ : BufTy).Contents (Elt F) → (⟨S128x481, .f32⟩ : BufTy).Contents (Elt F) → (⟨S128x481, .f32⟩ : BufTy).Contents (Elt F)),
    unary main_v3580 main_v3639 ((extractStridedSlice S128x481x1 ![0, 19, 19] · slices_S128x512x32_S128x481x1_0_19_19) : (⟨S128x512x32, .f32⟩ : BufTy).Contents (Elt F) → (⟨S128x481x1, .f32⟩ : BufTy).Contents (Elt F)),
    reshape main_v3639 main_v3640 rfl shapeCasts_S128x481x1_S128x481,
    binary main_v3638 main_v3640 main_v3641 (addf : (⟨S128x481, .f32⟩ : BufTy).Contents (Elt F) → (⟨S128x481, .f32⟩ : BufTy).Contents (Elt F) → (⟨S128x481, .f32⟩ : BufTy).Contents (Elt F)),
    unary main_v3580 main_v3642 ((extractStridedSlice S128x481x1 ![0, 20, 20] · slices_S128x512x32_S128x481x1_0_20_20) : (⟨S128x512x32, .f32⟩ : BufTy).Contents (Elt F) → (⟨S128x481x1, .f32⟩ : BufTy).Contents (Elt F)),
    reshape main_v3642 main_v3643 rfl shapeCasts_S128x481x1_S128x481,
    binary main_v3641 main_v3643 main_v3644 (addf : (⟨S128x481, .f32⟩ : BufTy).Contents (Elt F) → (⟨S128x481, .f32⟩ : BufTy).Contents (Elt F) → (⟨S128x481, .f32⟩ : BufTy).Contents (Elt F)),
    unary main_v3580 main_v3645 ((extractStridedSlice S128x481x1 ![0, 21, 21] · slices_S128x512x32_S128x481x1_0_21_21) : (⟨S128x512x32, .f32⟩ : BufTy).Contents (Elt F) → (⟨S128x481x1, .f32⟩ : BufTy).Contents (Elt F)),
    reshape main_v3645 main_v3646 rfl shapeCasts_S128x481x1_S128x481,
    binary main_v3644 main_v3646 main_v3647 (addf : (⟨S128x481, .f32⟩ : BufTy).Contents (Elt F) → (⟨S128x481, .f32⟩ : BufTy).Contents (Elt F) → (⟨S128x481, .f32⟩ : BufTy).Contents (Elt F)),
    unary main_v3580 main_v3648 ((extractStridedSlice S128x481x1 ![0, 22, 22] · slices_S128x512x32_S128x481x1_0_22_22) : (⟨S128x512x32, .f32⟩ : BufTy).Contents (Elt F) → (⟨S128x481x1, .f32⟩ : BufTy).Contents (Elt F)),
    reshape main_v3648 main_v3649 rfl shapeCasts_S128x481x1_S128x481,
    binary main_v3647 main_v3649 main_v3650 (addf : (⟨S128x481, .f32⟩ : BufTy).Contents (Elt F) → (⟨S128x481, .f32⟩ : BufTy).Contents (Elt F) → (⟨S128x481, .f32⟩ : BufTy).Contents (Elt F)),
    unary main_v3580 main_v3651 ((extractStridedSlice S128x481x1 ![0, 23, 23] · slices_S128x512x32_S128x481x1_0_23_23) : (⟨S128x512x32, .f32⟩ : BufTy).Contents (Elt F) → (⟨S128x481x1, .f32⟩ : BufTy).Contents (Elt F)),
    reshape main_v3651 main_v3652 rfl shapeCasts_S128x481x1_S128x481,
    binary main_v3650 main_v3652 main_v3653 (addf : (⟨S128x481, .f32⟩ : BufTy).Contents (Elt F) → (⟨S128x481, .f32⟩ : BufTy).Contents (Elt F) → (⟨S128x481, .f32⟩ : BufTy).Contents (Elt F)),
    unary main_v3580 main_v3654 ((extractStridedSlice S128x481x1 ![0, 24, 24] · slices_S128x512x32_S128x481x1_0_24_24) : (⟨S128x512x32, .f32⟩ : BufTy).Contents (Elt F) → (⟨S128x481x1, .f32⟩ : BufTy).Contents (Elt F)),
    reshape main_v3654 main_v3655 rfl shapeCasts_S128x481x1_S128x481,
    binary main_v3653 main_v3655 main_v3656 (addf : (⟨S128x481, .f32⟩ : BufTy).Contents (Elt F) → (⟨S128x481, .f32⟩ : BufTy).Contents (Elt F) → (⟨S128x481, .f32⟩ : BufTy).Contents (Elt F)) ]

/-- Segment 124: 28 operations. -/
def seg124 : List (HloOp τ sig (Elt F)) :=
  [ unary main_v3580 main_v3657 ((extractStridedSlice S128x481x1 ![0, 25, 25] · slices_S128x512x32_S128x481x1_0_25_25) : (⟨S128x512x32, .f32⟩ : BufTy).Contents (Elt F) → (⟨S128x481x1, .f32⟩ : BufTy).Contents (Elt F)),
    reshape main_v3657 main_v3658 rfl shapeCasts_S128x481x1_S128x481,
    binary main_v3656 main_v3658 main_v3659 (addf : (⟨S128x481, .f32⟩ : BufTy).Contents (Elt F) → (⟨S128x481, .f32⟩ : BufTy).Contents (Elt F) → (⟨S128x481, .f32⟩ : BufTy).Contents (Elt F)),
    unary main_v3580 main_v3660 ((extractStridedSlice S128x481x1 ![0, 26, 26] · slices_S128x512x32_S128x481x1_0_26_26) : (⟨S128x512x32, .f32⟩ : BufTy).Contents (Elt F) → (⟨S128x481x1, .f32⟩ : BufTy).Contents (Elt F)),
    reshape main_v3660 main_v3661 rfl shapeCasts_S128x481x1_S128x481,
    binary main_v3659 main_v3661 main_v3662 (addf : (⟨S128x481, .f32⟩ : BufTy).Contents (Elt F) → (⟨S128x481, .f32⟩ : BufTy).Contents (Elt F) → (⟨S128x481, .f32⟩ : BufTy).Contents (Elt F)),
    unary main_v3580 main_v3663 ((extractStridedSlice S128x481x1 ![0, 27, 27] · slices_S128x512x32_S128x481x1_0_27_27) : (⟨S128x512x32, .f32⟩ : BufTy).Contents (Elt F) → (⟨S128x481x1, .f32⟩ : BufTy).Contents (Elt F)),
    reshape main_v3663 main_v3664 rfl shapeCasts_S128x481x1_S128x481,
    binary main_v3662 main_v3664 main_v3665 (addf : (⟨S128x481, .f32⟩ : BufTy).Contents (Elt F) → (⟨S128x481, .f32⟩ : BufTy).Contents (Elt F) → (⟨S128x481, .f32⟩ : BufTy).Contents (Elt F)),
    unary main_v3580 main_v3666 ((extractStridedSlice S128x481x1 ![0, 28, 28] · slices_S128x512x32_S128x481x1_0_28_28) : (⟨S128x512x32, .f32⟩ : BufTy).Contents (Elt F) → (⟨S128x481x1, .f32⟩ : BufTy).Contents (Elt F)),
    reshape main_v3666 main_v3667 rfl shapeCasts_S128x481x1_S128x481,
    binary main_v3665 main_v3667 main_v3668 (addf : (⟨S128x481, .f32⟩ : BufTy).Contents (Elt F) → (⟨S128x481, .f32⟩ : BufTy).Contents (Elt F) → (⟨S128x481, .f32⟩ : BufTy).Contents (Elt F)),
    unary main_v3580 main_v3669 ((extractStridedSlice S128x481x1 ![0, 29, 29] · slices_S128x512x32_S128x481x1_0_29_29) : (⟨S128x512x32, .f32⟩ : BufTy).Contents (Elt F) → (⟨S128x481x1, .f32⟩ : BufTy).Contents (Elt F)),
    reshape main_v3669 main_v3670 rfl shapeCasts_S128x481x1_S128x481,
    binary main_v3668 main_v3670 main_v3671 (addf : (⟨S128x481, .f32⟩ : BufTy).Contents (Elt F) → (⟨S128x481, .f32⟩ : BufTy).Contents (Elt F) → (⟨S128x481, .f32⟩ : BufTy).Contents (Elt F)),
    unary main_v3580 main_v3672 ((extractStridedSlice S128x481x1 ![0, 30, 30] · slices_S128x512x32_S128x481x1_0_30_30) : (⟨S128x512x32, .f32⟩ : BufTy).Contents (Elt F) → (⟨S128x481x1, .f32⟩ : BufTy).Contents (Elt F)),
    reshape main_v3672 main_v3673 rfl shapeCasts_S128x481x1_S128x481,
    binary main_v3671 main_v3673 main_v3674 (addf : (⟨S128x481, .f32⟩ : BufTy).Contents (Elt F) → (⟨S128x481, .f32⟩ : BufTy).Contents (Elt F) → (⟨S128x481, .f32⟩ : BufTy).Contents (Elt F)),
    unary main_v3580 main_v3675 ((extractStridedSlice S128x481x1 ![0, 31, 31] · slices_S128x512x32_S128x481x1_0_31_31) : (⟨S128x512x32, .f32⟩ : BufTy).Contents (Elt F) → (⟨S128x481x1, .f32⟩ : BufTy).Contents (Elt F)),
    reshape main_v3675 main_v3676 rfl shapeCasts_S128x481x1_S128x481,
    binary main_v3674 main_v3676 main_v3677 (addf : (⟨S128x481, .f32⟩ : BufTy).Contents (Elt F) → (⟨S128x481, .f32⟩ : BufTy).Contents (Elt F) → (⟨S128x481, .f32⟩ : BufTy).Contents (Elt F)),
    unary main_arg3 main_v3678 ((extractStridedSlice S1 ![60] · slices_S64_S1_60) : (⟨S64, .f32⟩ : BufTy).Contents (Elt F) → (⟨S1, .f32⟩ : BufTy).Contents (Elt F)),
    reshape main_v3678 main_v3679 rfl shapeCasts_S1_S_,
    unary main_v3679 main_v3680 (broadcastInDim S128x481 ![] bcast_S_S128x481 : (⟨S_, .f32⟩ : BufTy).Contents (Elt F) → (⟨S128x481, .f32⟩ : BufTy).Contents (Elt F)),
    binary main_v3677 main_v3680 main_v3681 (addf : (⟨S128x481, .f32⟩ : BufTy).Contents (Elt F) → (⟨S128x481, .f32⟩ : BufTy).Contents (Elt F) → (⟨S128x481, .f32⟩ : BufTy).Contents (Elt F)),
    unary main_v3681 main_v3682 (Host.tanh : (⟨S128x481, .f32⟩ : BufTy).Contents (Elt F) → (⟨S128x481, .f32⟩ : BufTy).Contents (Elt F)),
    nullary main_cst_121 (constant S_ .f32 0xFF800000#32),
    binary main_v3682 main_cst_121 main_v3683 ((fun x v => Host.reduce FloatOps.maximumf x v reducesTo_S128x481_S128_d1 h_S_) : (⟨S128x481, .f32⟩ : BufTy).Contents (Elt F) → (⟨S_, .f32⟩ : BufTy).Contents (Elt F) → (⟨S128, .f32⟩ : BufTy).Contents (Elt F)) ]

/-- Segment 125: 32 operations. -/
def seg125 : List (HloOp τ sig (Elt F)) :=
  [ unary main_arg2 main_v3684 ((extractStridedSlice S1x32x300 ![61, 0, 0] · slices_S64x33x300_S1x32x300_61_0_0) : (⟨S64x33x300, .f32⟩ : BufTy).Contents (Elt F) → (⟨S1x32x300, .f32⟩ : BufTy).Contents (Elt F)),
    reshape main_v3684 main_v3685 rfl shapeCasts_S1x32x300_S32x300,
    binary main_v7 main_v3685 main_v3686 ((fun l r => Host.dotGeneral dot_S128x512x300_S32x300_S128x512x32_2_1_01_0_n_n none l r) : (⟨S128x512x300, .f32⟩ : BufTy).Contents (Elt F) → (⟨S32x300, .f32⟩ : BufTy).Contents (Elt F) → (⟨S128x512x32, .f32⟩ : BufTy).Contents (Elt F)),
    unary main_v3686 main_v3687 ((extractStridedSlice S128x481x1 ![0, 0, 0] · slices_S128x512x32_S128x481x1_0_0_0) : (⟨S128x512x32, .f32⟩ : BufTy).Contents (Elt F) → (⟨S128x481x1, .f32⟩ : BufTy).Contents (Elt F)),
    reshape main_v3687 main_v3688 rfl shapeCasts_S128x481x1_S128x481,
    nullary main_cst_122 (constant S_ .f32 0x00000000#32),
    unary main_cst_122 main_v3689 (broadcastInDim S128x481 ![] bcast_S_S128x481 : (⟨S_, .f32⟩ : BufTy).Contents (Elt F) → (⟨S128x481, .f32⟩ : BufTy).Contents (Elt F)),
    binary main_v3689 main_v3688 main_v3690 (addf : (⟨S128x481, .f32⟩ : BufTy).Contents (Elt F) → (⟨S128x481, .f32⟩ : BufTy).Contents (Elt F) → (⟨S128x481, .f32⟩ : BufTy).Contents (Elt F)),
    unary main_v3686 main_v3691 ((extractStridedSlice S128x481x1 ![0, 1, 1] · slices_S128x512x32_S128x481x1_0_1_1) : (⟨S128x512x32, .f32⟩ : BufTy).Contents (Elt F) → (⟨S128x481x1, .f32⟩ : BufTy).Contents (Elt F)),
    reshape main_v3691 main_v3692 rfl shapeCasts_S128x481x1_S128x481,
    binary main_v3690 main_v3692 main_v3693 (addf : (⟨S128x481, .f32⟩ : BufTy).Contents (Elt F) → (⟨S128x481, .f32⟩ : BufTy).Contents (Elt F) → (⟨S128x481, .f32⟩ : BufTy).Contents (Elt F)),
    unary main_v3686 main_v3694 ((extractStridedSlice S128x481x1 ![0, 2, 2] · slices_S128x512x32_S128x481x1_0_2_2) : (⟨S128x512x32, .f32⟩ : BufTy).Contents (Elt F) → (⟨S128x481x1, .f32⟩ : BufTy).Contents (Elt F)),
    reshape main_v3694 main_v3695 rfl shapeCasts_S128x481x1_S128x481,
    binary main_v3693 main_v3695 main_v3696 (addf : (⟨S128x481, .f32⟩ : BufTy).Contents (Elt F) → (⟨S128x481, .f32⟩ : BufTy).Contents (Elt F) → (⟨S128x481, .f32⟩ : BufTy).Contents (Elt F)),
    unary main_v3686 main_v3697 ((extractStridedSlice S128x481x1 ![0, 3, 3] · slices_S128x512x32_S128x481x1_0_3_3) : (⟨S128x512x32, .f32⟩ : BufTy).Contents (Elt F) → (⟨S128x481x1, .f32⟩ : BufTy).Contents (Elt F)),
    reshape main_v3697 main_v3698 rfl shapeCasts_S128x481x1_S128x481,
    binary main_v3696 main_v3698 main_v3699 (addf : (⟨S128x481, .f32⟩ : BufTy).Contents (Elt F) → (⟨S128x481, .f32⟩ : BufTy).Contents (Elt F) → (⟨S128x481, .f32⟩ : BufTy).Contents (Elt F)),
    unary main_v3686 main_v3700 ((extractStridedSlice S128x481x1 ![0, 4, 4] · slices_S128x512x32_S128x481x1_0_4_4) : (⟨S128x512x32, .f32⟩ : BufTy).Contents (Elt F) → (⟨S128x481x1, .f32⟩ : BufTy).Contents (Elt F)),
    reshape main_v3700 main_v3701 rfl shapeCasts_S128x481x1_S128x481,
    binary main_v3699 main_v3701 main_v3702 (addf : (⟨S128x481, .f32⟩ : BufTy).Contents (Elt F) → (⟨S128x481, .f32⟩ : BufTy).Contents (Elt F) → (⟨S128x481, .f32⟩ : BufTy).Contents (Elt F)),
    unary main_v3686 main_v3703 ((extractStridedSlice S128x481x1 ![0, 5, 5] · slices_S128x512x32_S128x481x1_0_5_5) : (⟨S128x512x32, .f32⟩ : BufTy).Contents (Elt F) → (⟨S128x481x1, .f32⟩ : BufTy).Contents (Elt F)),
    reshape main_v3703 main_v3704 rfl shapeCasts_S128x481x1_S128x481,
    binary main_v3702 main_v3704 main_v3705 (addf : (⟨S128x481, .f32⟩ : BufTy).Contents (Elt F) → (⟨S128x481, .f32⟩ : BufTy).Contents (Elt F) → (⟨S128x481, .f32⟩ : BufTy).Contents (Elt F)),
    unary main_v3686 main_v3706 ((extractStridedSlice S128x481x1 ![0, 6, 6] · slices_S128x512x32_S128x481x1_0_6_6) : (⟨S128x512x32, .f32⟩ : BufTy).Contents (Elt F) → (⟨S128x481x1, .f32⟩ : BufTy).Contents (Elt F)),
    reshape main_v3706 main_v3707 rfl shapeCasts_S128x481x1_S128x481,
    binary main_v3705 main_v3707 main_v3708 (addf : (⟨S128x481, .f32⟩ : BufTy).Contents (Elt F) → (⟨S128x481, .f32⟩ : BufTy).Contents (Elt F) → (⟨S128x481, .f32⟩ : BufTy).Contents (Elt F)),
    unary main_v3686 main_v3709 ((extractStridedSlice S128x481x1 ![0, 7, 7] · slices_S128x512x32_S128x481x1_0_7_7) : (⟨S128x512x32, .f32⟩ : BufTy).Contents (Elt F) → (⟨S128x481x1, .f32⟩ : BufTy).Contents (Elt F)),
    reshape main_v3709 main_v3710 rfl shapeCasts_S128x481x1_S128x481,
    binary main_v3708 main_v3710 main_v3711 (addf : (⟨S128x481, .f32⟩ : BufTy).Contents (Elt F) → (⟨S128x481, .f32⟩ : BufTy).Contents (Elt F) → (⟨S128x481, .f32⟩ : BufTy).Contents (Elt F)),
    unary main_v3686 main_v3712 ((extractStridedSlice S128x481x1 ![0, 8, 8] · slices_S128x512x32_S128x481x1_0_8_8) : (⟨S128x512x32, .f32⟩ : BufTy).Contents (Elt F) → (⟨S128x481x1, .f32⟩ : BufTy).Contents (Elt F)),
    reshape main_v3712 main_v3713 rfl shapeCasts_S128x481x1_S128x481,
    binary main_v3711 main_v3713 main_v3714 (addf : (⟨S128x481, .f32⟩ : BufTy).Contents (Elt F) → (⟨S128x481, .f32⟩ : BufTy).Contents (Elt F) → (⟨S128x481, .f32⟩ : BufTy).Contents (Elt F)) ]

/-- Segment 126: 60 operations. -/
def seg126 : List (HloOp τ sig (Elt F)) :=
  [ unary main_v3686 main_v3715 ((extractStridedSlice S128x481x1 ![0, 9, 9] · slices_S128x512x32_S128x481x1_0_9_9) : (⟨S128x512x32, .f32⟩ : BufTy).Contents (Elt F) → (⟨S128x481x1, .f32⟩ : BufTy).Contents (Elt F)),
    reshape main_v3715 main_v3716 rfl shapeCasts_S128x481x1_S128x481,
    binary main_v3714 main_v3716 main_v3717 (addf : (⟨S128x481, .f32⟩ : BufTy).Contents (Elt F) → (⟨S128x481, .f32⟩ : BufTy).Contents (Elt F) → (⟨S128x481, .f32⟩ : BufTy).Contents (Elt F)),
    unary main_v3686 main_v3718 ((extractStridedSlice S128x481x1 ![0, 10, 10] · slices_S128x512x32_S128x481x1_0_10_10) : (⟨S128x512x32, .f32⟩ : BufTy).Contents (Elt F) → (⟨S128x481x1, .f32⟩ : BufTy).Contents (Elt F)),
    reshape main_v3718 main_v3719 rfl shapeCasts_S128x481x1_S128x481,
    binary main_v3717 main_v3719 main_v3720 (addf : (⟨S128x481, .f32⟩ : BufTy).Contents (Elt F) → (⟨S128x481, .f32⟩ : BufTy).Contents (Elt F) → (⟨S128x481, .f32⟩ : BufTy).Contents (Elt F)),
    unary main_v3686 main_v3721 ((extractStridedSlice S128x481x1 ![0, 11, 11] · slices_S128x512x32_S128x481x1_0_11_11) : (⟨S128x512x32, .f32⟩ : BufTy).Contents (Elt F) → (⟨S128x481x1, .f32⟩ : BufTy).Contents (Elt F)),
    reshape main_v3721 main_v3722 rfl shapeCasts_S128x481x1_S128x481,
    binary main_v3720 main_v3722 main_v3723 (addf : (⟨S128x481, .f32⟩ : BufTy).Contents (Elt F) → (⟨S128x481, .f32⟩ : BufTy).Contents (Elt F) → (⟨S128x481, .f32⟩ : BufTy).Contents (Elt F)),
    unary main_v3686 main_v3724 ((extractStridedSlice S128x481x1 ![0, 12, 12] · slices_S128x512x32_S128x481x1_0_12_12) : (⟨S128x512x32, .f32⟩ : BufTy).Contents (Elt F) → (⟨S128x481x1, .f32⟩ : BufTy).Contents (Elt F)),
    reshape main_v3724 main_v3725 rfl shapeCasts_S128x481x1_S128x481,
    binary main_v3723 main_v3725 main_v3726 (addf : (⟨S128x481, .f32⟩ : BufTy).Contents (Elt F) → (⟨S128x481, .f32⟩ : BufTy).Contents (Elt F) → (⟨S128x481, .f32⟩ : BufTy).Contents (Elt F)),
    unary main_v3686 main_v3727 ((extractStridedSlice S128x481x1 ![0, 13, 13] · slices_S128x512x32_S128x481x1_0_13_13) : (⟨S128x512x32, .f32⟩ : BufTy).Contents (Elt F) → (⟨S128x481x1, .f32⟩ : BufTy).Contents (Elt F)),
    reshape main_v3727 main_v3728 rfl shapeCasts_S128x481x1_S128x481,
    binary main_v3726 main_v3728 main_v3729 (addf : (⟨S128x481, .f32⟩ : BufTy).Contents (Elt F) → (⟨S128x481, .f32⟩ : BufTy).Contents (Elt F) → (⟨S128x481, .f32⟩ : BufTy).Contents (Elt F)),
    unary main_v3686 main_v3730 ((extractStridedSlice S128x481x1 ![0, 14, 14] · slices_S128x512x32_S128x481x1_0_14_14) : (⟨S128x512x32, .f32⟩ : BufTy).Contents (Elt F) → (⟨S128x481x1, .f32⟩ : BufTy).Contents (Elt F)),
    reshape main_v3730 main_v3731 rfl shapeCasts_S128x481x1_S128x481,
    binary main_v3729 main_v3731 main_v3732 (addf : (⟨S128x481, .f32⟩ : BufTy).Contents (Elt F) → (⟨S128x481, .f32⟩ : BufTy).Contents (Elt F) → (⟨S128x481, .f32⟩ : BufTy).Contents (Elt F)),
    unary main_v3686 main_v3733 ((extractStridedSlice S128x481x1 ![0, 15, 15] · slices_S128x512x32_S128x481x1_0_15_15) : (⟨S128x512x32, .f32⟩ : BufTy).Contents (Elt F) → (⟨S128x481x1, .f32⟩ : BufTy).Contents (Elt F)),
    reshape main_v3733 main_v3734 rfl shapeCasts_S128x481x1_S128x481,
    binary main_v3732 main_v3734 main_v3735 (addf : (⟨S128x481, .f32⟩ : BufTy).Contents (Elt F) → (⟨S128x481, .f32⟩ : BufTy).Contents (Elt F) → (⟨S128x481, .f32⟩ : BufTy).Contents (Elt F)),
    unary main_v3686 main_v3736 ((extractStridedSlice S128x481x1 ![0, 16, 16] · slices_S128x512x32_S128x481x1_0_16_16) : (⟨S128x512x32, .f32⟩ : BufTy).Contents (Elt F) → (⟨S128x481x1, .f32⟩ : BufTy).Contents (Elt F)),
    reshape main_v3736 main_v3737 rfl shapeCasts_S128x481x1_S128x481,
    binary main_v3735 main_v3737 main_v3738 (addf : (⟨S128x481, .f32⟩ : BufTy).Contents (Elt F) → (⟨S128x481, .f32⟩ : BufTy).Contents (Elt F) → (⟨S128x481, .f32⟩ : BufTy).Contents (Elt F)),
    unary main_v3686 main_v3739 ((extractStridedSlice S128x481x1 ![0, 17, 17] · slices_S128x512x32_S128x481x1_0_17_17) : (⟨S128x512x32, .f32⟩ : BufTy).Contents (Elt F) → (⟨S128x481x1, .f32⟩ : BufTy).Contents (Elt F)),
    reshape main_v3739 main_v3740 rfl shapeCasts_S128x481x1_S128x481,
    binary main_v3738 main_v3740 main_v3741 (addf : (⟨S128x481, .f32⟩ : BufTy).Contents (Elt F) → (⟨S128x481, .f32⟩ : BufTy).Contents (Elt F) → (⟨S128x481, .f32⟩ : BufTy).Contents (Elt F)),
    unary main_v3686 main_v3742 ((extractStridedSlice S128x481x1 ![0, 18, 18] · slices_S128x512x32_S128x481x1_0_18_18) : (⟨S128x512x32, .f32⟩ : BufTy).Contents (Elt F) → (⟨S128x481x1, .f32⟩ : BufTy).Contents (Elt F)),
    reshape main_v3742 main_v3743 rfl shapeCasts_S128x481x1_S128x481,
    binary main_v3741 main_v3743 main_v3744 (addf : (⟨S128x481, .f32⟩ : BufTy).Contents (Elt F) → (⟨S128x481, .f32⟩ : BufTy).Contents (Elt F) → (⟨S128x481, .f32⟩ : BufTy).Contents (Elt F)),
    unary main_v3686 main_v3745 ((extractStridedSlice S128x481x1 ![0, 19, 19] · slices_S128x512x32_S128x481x1_0_19_19) : (⟨S128x512x32, .f32⟩ : BufTy).Contents (Elt F) → (⟨S128x481x1, .f32⟩ : BufTy).Contents (Elt F)),
    reshape main_v3745 main_v3746 rfl shapeCasts_S128x481x1_S128x481,
    binary main_v3744 main_v3746 main_v3747 (addf : (⟨S128x481, .f32⟩ : BufTy).Contents (Elt F) → (⟨S128x481, .f32⟩ : BufTy).Contents (Elt F) → (⟨S128x481, .f32⟩ : BufTy).Contents (Elt F)),
    unary main_v3686 main_v3748 ((extractStridedSlice S128x481x1 ![0, 20, 20] · slices_S128x512x32_S128x481x1_0_20_20) : (⟨S128x512x32, .f32⟩ : BufTy).Contents (Elt F) → (⟨S128x481x1, .f32⟩ : BufTy).Contents (Elt F)),
    reshape main_v3748 main_v3749 rfl shapeCasts_S128x481x1_S128x481,
    binary main_v3747 main_v3749 main_v3750 (addf : (⟨S128x481, .f32⟩ : BufTy).Contents (Elt F) → (⟨S128x481, .f32⟩ : BufTy).Contents (Elt F) → (⟨S128x481, .f32⟩ : BufTy).Contents (Elt F)),
    unary main_v3686 main_v3751 ((extractStridedSlice S128x481x1 ![0, 21, 21] · slices_S128x512x32_S128x481x1_0_21_21) : (⟨S128x512x32, .f32⟩ : BufTy).Contents (Elt F) → (⟨S128x481x1, .f32⟩ : BufTy).Contents (Elt F)),
    reshape main_v3751 main_v3752 rfl shapeCasts_S128x481x1_S128x481,
    binary main_v3750 main_v3752 main_v3753 (addf : (⟨S128x481, .f32⟩ : BufTy).Contents (Elt F) → (⟨S128x481, .f32⟩ : BufTy).Contents (Elt F) → (⟨S128x481, .f32⟩ : BufTy).Contents (Elt F)),
    unary main_v3686 main_v3754 ((extractStridedSlice S128x481x1 ![0, 22, 22] · slices_S128x512x32_S128x481x1_0_22_22) : (⟨S128x512x32, .f32⟩ : BufTy).Contents (Elt F) → (⟨S128x481x1, .f32⟩ : BufTy).Contents (Elt F)),
    reshape main_v3754 main_v3755 rfl shapeCasts_S128x481x1_S128x481,
    binary main_v3753 main_v3755 main_v3756 (addf : (⟨S128x481, .f32⟩ : BufTy).Contents (Elt F) → (⟨S128x481, .f32⟩ : BufTy).Contents (Elt F) → (⟨S128x481, .f32⟩ : BufTy).Contents (Elt F)),
    unary main_v3686 main_v3757 ((extractStridedSlice S128x481x1 ![0, 23, 23] · slices_S128x512x32_S128x481x1_0_23_23) : (⟨S128x512x32, .f32⟩ : BufTy).Contents (Elt F) → (⟨S128x481x1, .f32⟩ : BufTy).Contents (Elt F)),
    reshape main_v3757 main_v3758 rfl shapeCasts_S128x481x1_S128x481,
    binary main_v3756 main_v3758 main_v3759 (addf : (⟨S128x481, .f32⟩ : BufTy).Contents (Elt F) → (⟨S128x481, .f32⟩ : BufTy).Contents (Elt F) → (⟨S128x481, .f32⟩ : BufTy).Contents (Elt F)),
    unary main_v3686 main_v3760 ((extractStridedSlice S128x481x1 ![0, 24, 24] · slices_S128x512x32_S128x481x1_0_24_24) : (⟨S128x512x32, .f32⟩ : BufTy).Contents (Elt F) → (⟨S128x481x1, .f32⟩ : BufTy).Contents (Elt F)),
    reshape main_v3760 main_v3761 rfl shapeCasts_S128x481x1_S128x481,
    binary main_v3759 main_v3761 main_v3762 (addf : (⟨S128x481, .f32⟩ : BufTy).Contents (Elt F) → (⟨S128x481, .f32⟩ : BufTy).Contents (Elt F) → (⟨S128x481, .f32⟩ : BufTy).Contents (Elt F)),
    unary main_v3686 main_v3763 ((extractStridedSlice S128x481x1 ![0, 25, 25] · slices_S128x512x32_S128x481x1_0_25_25) : (⟨S128x512x32, .f32⟩ : BufTy).Contents (Elt F) → (⟨S128x481x1, .f32⟩ : BufTy).Contents (Elt F)),
    reshape main_v3763 main_v3764 rfl shapeCasts_S128x481x1_S128x481,
    binary main_v3762 main_v3764 main_v3765 (addf : (⟨S128x481, .f32⟩ : BufTy).Contents (Elt F) → (⟨S128x481, .f32⟩ : BufTy).Contents (Elt F) → (⟨S128x481, .f32⟩ : BufTy).Contents (Elt F)),
    unary main_v3686 main_v3766 ((extractStridedSlice S128x481x1 ![0, 26, 26] · slices_S128x512x32_S128x481x1_0_26_26) : (⟨S128x512x32, .f32⟩ : BufTy).Contents (Elt F) → (⟨S128x481x1, .f32⟩ : BufTy).Contents (Elt F)),
    reshape main_v3766 main_v3767 rfl shapeCasts_S128x481x1_S128x481,
    binary main_v3765 main_v3767 main_v3768 (addf : (⟨S128x481, .f32⟩ : BufTy).Contents (Elt F) → (⟨S128x481, .f32⟩ : BufTy).Contents (Elt F) → (⟨S128x481, .f32⟩ : BufTy).Contents (Elt F)),
    unary main_v3686 main_v3769 ((extractStridedSlice S128x481x1 ![0, 27, 27] · slices_S128x512x32_S128x481x1_0_27_27) : (⟨S128x512x32, .f32⟩ : BufTy).Contents (Elt F) → (⟨S128x481x1, .f32⟩ : BufTy).Contents (Elt F)),
    reshape main_v3769 main_v3770 rfl shapeCasts_S128x481x1_S128x481,
    binary main_v3768 main_v3770 main_v3771 (addf : (⟨S128x481, .f32⟩ : BufTy).Contents (Elt F) → (⟨S128x481, .f32⟩ : BufTy).Contents (Elt F) → (⟨S128x481, .f32⟩ : BufTy).Contents (Elt F)),
    unary main_v3686 main_v3772 ((extractStridedSlice S128x481x1 ![0, 28, 28] · slices_S128x512x32_S128x481x1_0_28_28) : (⟨S128x512x32, .f32⟩ : BufTy).Contents (Elt F) → (⟨S128x481x1, .f32⟩ : BufTy).Contents (Elt F)),
    reshape main_v3772 main_v3773 rfl shapeCasts_S128x481x1_S128x481,
    binary main_v3771 main_v3773 main_v3774 (addf : (⟨S128x481, .f32⟩ : BufTy).Contents (Elt F) → (⟨S128x481, .f32⟩ : BufTy).Contents (Elt F) → (⟨S128x481, .f32⟩ : BufTy).Contents (Elt F)) ]

/-- Segment 127: 16 operations. -/
def seg127 : List (HloOp τ sig (Elt F)) :=
  [ unary main_v3686 main_v3775 ((extractStridedSlice S128x481x1 ![0, 29, 29] · slices_S128x512x32_S128x481x1_0_29_29) : (⟨S128x512x32, .f32⟩ : BufTy).Contents (Elt F) → (⟨S128x481x1, .f32⟩ : BufTy).Contents (Elt F)),
    reshape main_v3775 main_v3776 rfl shapeCasts_S128x481x1_S128x481,
    binary main_v3774 main_v3776 main_v3777 (addf : (⟨S128x481, .f32⟩ : BufTy).Contents (Elt F) → (⟨S128x481, .f32⟩ : BufTy).Contents (Elt F) → (⟨S128x481, .f32⟩ : BufTy).Contents (Elt F)),
    unary main_v3686 main_v3778 ((extractStridedSlice S128x481x1 ![0, 30, 30] · slices_S128x512x32_S128x481x1_0_30_30) : (⟨S128x512x32, .f32⟩ : BufTy).Contents (Elt F) → (⟨S128x481x1, .f32⟩ : BufTy).Contents (Elt F)),
    reshape main_v3778 main_v3779 rfl shapeCasts_S128x481x1_S128x481,
    binary main_v3777 main_v3779 main_v3780 (addf : (⟨S128x481, .f32⟩ : BufTy).Contents (Elt F) → (⟨S128x481, .f32⟩ : BufTy).Contents (Elt F) → (⟨S128x481, .f32⟩ : BufTy).Contents (Elt F)),
    unary main_v3686 main_v3781 ((extractStridedSlice S128x481x1 ![0, 31, 31] · slices_S128x512x32_S128x481x1_0_31_31) : (⟨S128x512x32, .f32⟩ : BufTy).Contents (Elt F) → (⟨S128x481x1, .f32⟩ : BufTy).Contents (Elt F)),
    reshape main_v3781 main_v3782 rfl shapeCasts_S128x481x1_S128x481,
    binary main_v3780 main_v3782 main_v3783 (addf : (⟨S128x481, .f32⟩ : BufTy).Contents (Elt F) → (⟨S128x481, .f32⟩ : BufTy).Contents (Elt F) → (⟨S128x481, .f32⟩ : BufTy).Contents (Elt F)),
    unary main_arg3 main_v3784 ((extractStridedSlice S1 ![61] · slices_S64_S1_61) : (⟨S64, .f32⟩ : BufTy).Contents (Elt F) → (⟨S1, .f32⟩ : BufTy).Contents (Elt F)),
    reshape main_v3784 main_v3785 rfl shapeCasts_S1_S_,
    unary main_v3785 main_v3786 (broadcastInDim S128x481 ![] bcast_S_S128x481 : (⟨S_, .f32⟩ : BufTy).Contents (Elt F) → (⟨S128x481, .f32⟩ : BufTy).Contents (Elt F)),
    binary main_v3783 main_v3786 main_v3787 (addf : (⟨S128x481, .f32⟩ : BufTy).Contents (Elt F) → (⟨S128x481, .f32⟩ : BufTy).Contents (Elt F) → (⟨S128x481, .f32⟩ : BufTy).Contents (Elt F)),
    unary main_v3787 main_v3788 (Host.tanh : (⟨S128x481, .f32⟩ : BufTy).Contents (Elt F) → (⟨S128x481, .f32⟩ : BufTy).Contents (Elt F)),
    nullary main_cst_123 (constant S_ .f32 0xFF800000#32),
    binary main_v3788 main_cst_123 main_v3789 ((fun x v => Host.reduce FloatOps.maximumf x v reducesTo_S128x481_S128_d1 h_S_) : (⟨S128x481, .f32⟩ : BufTy).Contents (Elt F) → (⟨S_, .f32⟩ : BufTy).Contents (Elt F) → (⟨S128, .f32⟩ : BufTy).Contents (Elt F)) ]

/-- Segment 128: 44 operations. -/
def seg128 : List (HloOp τ sig (Elt F)) :=
  [ unary main_arg2 main_v3790 ((extractStridedSlice S1x33x300 ![62, 0, 0] · slices_S64x33x300_S1x33x300_62_0_0) : (⟨S64x33x300, .f32⟩ : BufTy).Contents (Elt F) → (⟨S1x33x300, .f32⟩ : BufTy).Contents (Elt F)),
    reshape main_v3790 main_v3791 rfl shapeCasts_S1x33x300_S33x300,
    binary main_v7 main_v3791 main_v3792 ((fun l r => Host.dotGeneral dot_S128x512x300_S33x300_S128x512x33_2_1_01_0_n_n none l r) : (⟨S128x512x300, .f32⟩ : BufTy).Contents (Elt F) → (⟨S33x300, .f32⟩ : BufTy).Contents (Elt F) → (⟨S128x512x33, .f32⟩ : BufTy).Contents (Elt F)),
    unary main_v3792 main_v3793 ((extractStridedSlice S128x480x1 ![0, 0, 0] · slices_S128x512x33_S128x480x1_0_0_0) : (⟨S128x512x33, .f32⟩ : BufTy).Contents (Elt F) → (⟨S128x480x1, .f32⟩ : BufTy).Contents (Elt F)),
    reshape main_v3793 main_v3794 rfl shapeCasts_S128x480x1_S128x480,
    nullary main_cst_124 (constant S_ .f32 0x00000000#32),
    unary main_cst_124 main_v3795 (broadcastInDim S128x480 ![] bcast_S_S128x480 : (⟨S_, .f32⟩ : BufTy).Contents (Elt F) → (⟨S128x480, .f32⟩ : BufTy).Contents (Elt F)),
    binary main_v3795 main_v3794 main_v3796 (addf : (⟨S128x480, .f32⟩ : BufTy).Contents (Elt F) → (⟨S128x480, .f32⟩ : BufTy).Contents (Elt F) → (⟨S128x480, .f32⟩ : BufTy).Contents (Elt F)),
    unary main_v3792 main_v3797 ((extractStridedSlice S128x480x1 ![0, 1, 1] · slices_S128x512x33_S128x480x1_0_1_1) : (⟨S128x512x33, .f32⟩ : BufTy).Contents (Elt F) → (⟨S128x480x1, .f32⟩ : BufTy).Contents (Elt F)),
    reshape main_v3797 main_v3798 rfl shapeCasts_S128x480x1_S128x480,
    binary main_v3796 main_v3798 main_v3799 (addf : (⟨S128x480, .f32⟩ : BufTy).Contents (Elt F) → (⟨S128x480, .f32⟩ : BufTy).Contents (Elt F) → (⟨S128x480, .f32⟩ : BufTy).Contents (Elt F)),
    unary main_v3792 main_v3800 ((extractStridedSlice S128x480x1 ![0, 2, 2] · slices_S128x512x33_S128x480x1_0_2_2) : (⟨S128x512x33, .f32⟩ : BufTy).Contents (Elt F) → (⟨S128x480x1, .f32⟩ : BufTy).Contents (Elt F)),
    reshape main_v3800 main_v3801 rfl shapeCasts_S128x480x1_S128x480,
    binary main_v3799 main_v3801 main_v3802 (addf : (⟨S128x480, .f32⟩ : BufTy).Contents (Elt F) → (⟨S128x480, .f32⟩ : BufTy).Contents (Elt F) → (⟨S128x480, .f32⟩ : BufTy).Contents (Elt F)),
    unary main_v3792 main_v3803 ((extractStridedSlice S128x480x1 ![0, 3, 3] · slices_S128x512x33_S128x480x1_0_3_3) : (⟨S128x512x33, .f32⟩ : BufTy).Contents (Elt F) → (⟨S128x480x1, .f32⟩ : BufTy).Contents (Elt F)),
    reshape main_v3803 main_v3804 rfl shapeCasts_S128x480x1_S128x480,
    binary main_v3802 main_v3804 main_v3805 (addf : (⟨S128x480, .f32⟩ : BufTy).Contents (Elt F) → (⟨S128x480, .f32⟩ : BufTy).Contents (Elt F) → (⟨S128x480, .f32⟩ : BufTy).Contents (Elt F)),
    unary main_v3792 main_v3806 ((extractStridedSlice S128x480x1 ![0, 4, 4] · slices_S128x512x33_S128x480x1_0_4_4) : (⟨S128x512x33, .f32⟩ : BufTy).Contents (Elt F) → (⟨S128x480x1, .f32⟩ : BufTy).Contents (Elt F)),
    reshape main_v3806 main_v3807 rfl shapeCasts_S128x480x1_S128x480,
    binary main_v3805 main_v3807 main_v3808 (addf : (⟨S128x480, .f32⟩ : BufTy).Contents (Elt F) → (⟨S128x480, .f32⟩ : BufTy).Contents (Elt F) → (⟨S128x480, .f32⟩ : BufTy).Contents (Elt F)),
    unary main_v3792 main_v3809 ((extractStridedSlice S128x480x1 ![0, 5, 5] · slices_S128x512x33_S128x480x1_0_5_5) : (⟨S128x512x33, .f32⟩ : BufTy).Contents (Elt F) → (⟨S128x480x1, .f32⟩ : BufTy).Contents (Elt F)),
    reshape main_v3809 main_v3810 rfl shapeCasts_S128x480x1_S128x480,
    binary main_v3808 main_v3810 main_v3811 (addf : (⟨S128x480, .f32⟩ : BufTy).Contents (Elt F) → (⟨S128x480, .f32⟩ : BufTy).Contents (Elt F) → (⟨S128x480, .f32⟩ : BufTy).Contents (Elt F)),
    unary main_v3792 main_v3812 ((extractStridedSlice S128x480x1 ![0, 6, 6] · slices_S128x512x33_S128x480x1_0_6_6) : (⟨S128x512x33, .f32⟩ : BufTy).Contents (Elt F) → (⟨S128x480x1, .f32⟩ : BufTy).Contents (Elt F)),
    reshape main_v3812 main_v3813 rfl shapeCasts_S128x480x1_S128x480,
    binary main_v3811 main_v3813 main_v3814 (addf : (⟨S128x480, .f32⟩ : BufTy).Contents (Elt F) → (⟨S128x480, .f32⟩ : BufTy).Contents (Elt F) → (⟨S128x480, .f32⟩ : BufTy).Contents (Elt F)),
    unary main_v3792 main_v3815 ((extractStridedSlice S128x480x1 ![0, 7, 7] · slices_S128x512x33_S128x480x1_0_7_7) : (⟨S128x512x33, .f32⟩ : BufTy).Contents (Elt F) → (⟨S128x480x1, .f32⟩ : BufTy).Contents (Elt F)),
    reshape main_v3815 main_v3816 rfl shapeCasts_S128x480x1_S128x480,
    binary main_v3814 main_v3816 main_v3817 (addf : (⟨S128x480, .f32⟩ : BufTy).Contents (Elt F) → (⟨S128x480, .f32⟩ : BufTy).Contents (Elt F) → (⟨S128x480, .f32⟩ : BufTy).Contents (Elt F)),
    unary main_v3792 main_v3818 ((extractStridedSlice S128x480x1 ![0, 8, 8] · slices_S128x512x33_S128x480x1_0_8_8) : (⟨S128x512x33, .f32⟩ : BufTy).Contents (Elt F) → (⟨S128x480x1, .f32⟩ : BufTy).Contents (Elt F)),
    reshape main_v3818 main_v3819 rfl shapeCasts_S128x480x1_S128x480,
    binary main_v3817 main_v3819 main_v3820 (addf : (⟨S128x480, .f32⟩ : BufTy).Contents (Elt F) → (⟨S128x480, .f32⟩ : BufTy).Contents (Elt F) → (⟨S128x480, .f32⟩ : BufTy).Contents (Elt F)),
    unary main_v3792 main_v3821 ((extractStridedSlice S128x480x1 ![0, 9, 9] · slices_S128x512x33_S128x480x1_0_9_9) : (⟨S128x512x33, .f32⟩ : BufTy).Contents (Elt F) → (⟨S128x480x1, .f32⟩ : BufTy).Contents (Elt F)),
    reshape main_v3821 main_v3822 rfl shapeCasts_S128x480x1_S128x480,
    binary main_v3820 main_v3822 main_v3823 (addf : (⟨S128x480, .f32⟩ : BufTy).Contents (Elt F) → (⟨S128x480, .f32⟩ : BufTy).Contents (Elt F) → (⟨S128x480, .f32⟩ : BufTy).Contents (Elt F)),
    unary main_v3792 main_v3824 ((extractStridedSlice S128x480x1 ![0, 10, 10] · slices_S128x512x33_S128x480x1_0_10_10) : (⟨S128x512x33, .f32⟩ : BufTy).Contents (Elt F) → (⟨S128x480x1, .f32⟩ : BufTy).Contents (Elt F)),
    reshape main_v3824 main_v3825 rfl shapeCasts_S128x480x1_S128x480,
    binary main_v3823 main_v3825 main_v3826 (addf : (⟨S128x480, .f32⟩ : BufTy).Contents (Elt F) → (⟨S128x480, .f32⟩ : BufTy).Contents (Elt F) → (⟨S128x480, .f32⟩ : BufTy).Contents (Elt F)),
    unary main_v3792 main_v3827 ((extractStridedSlice S128x480x1 ![0, 11, 11] · slices_S128x512x33_S128x480x1_0_11_11) : (⟨S128x512x33, .f32⟩ : BufTy).Contents (Elt F) → (⟨S128x480x1, .f32⟩ : BufTy).Contents (Elt F)),
    reshape main_v3827 main_v3828 rfl shapeCasts_S128x480x1_S128x480,
    binary main_v3826 main_v3828 main_v3829 (addf : (⟨S128x480, .f32⟩ : BufTy).Contents (Elt F) → (⟨S128x480, .f32⟩ : BufTy).Contents (Elt F) → (⟨S128x480, .f32⟩ : BufTy).Contents (Elt F)),
    unary main_v3792 main_v3830 ((extractStridedSlice S128x480x1 ![0, 12, 12] · slices_S128x512x33_S128x480x1_0_12_12) : (⟨S128x512x33, .f32⟩ : BufTy).Contents (Elt F) → (⟨S128x480x1, .f32⟩ : BufTy).Contents (Elt F)),
    reshape main_v3830 main_v3831 rfl shapeCasts_S128x480x1_S128x480,
    binary main_v3829 main_v3831 main_v3832 (addf : (⟨S128x480, .f32⟩ : BufTy).Contents (Elt F) → (⟨S128x480, .f32⟩ : BufTy).Contents (Elt F) → (⟨S128x480, .f32⟩ : BufTy).Contents (Elt F)) ]

/-- Segment 129: 60 operations. -/
def seg129 : List (HloOp τ sig (Elt F)) :=
  [ unary main_v3792 main_v3833 ((extractStridedSlice S128x480x1 ![0, 13, 13] · slices_S128x512x33_S128x480x1_0_13_13) : (⟨S128x512x33, .f32⟩ : BufTy).Contents (Elt F) → (⟨S128x480x1, .f32⟩ : BufTy).Contents (Elt F)),
    reshape main_v3833 main_v3834 rfl shapeCasts_S128x480x1_S128x480,
    binary main_v3832 main_v3834 main_v3835 (addf : (⟨S128x480, .f32⟩ : BufTy).Contents (Elt F) → (⟨S128x480, .f32⟩ : BufTy).Contents (Elt F) → (⟨S128x480, .f32⟩ : BufTy).Contents (Elt F)),
    unary main_v3792 main_v3836 ((extractStridedSlice S128x480x1 ![0, 14, 14] · slices_S128x512x33_S128x480x1_0_14_14) : (⟨S128x512x33, .f32⟩ : BufTy).Contents (Elt F) → (⟨S128x480x1, .f32⟩ : BufTy).Contents (Elt F)),
    reshape main_v3836 main_v3837 rfl shapeCasts_S128x480x1_S128x480,
    binary main_v3835 main_v3837 main_v3838 (addf : (⟨S128x480, .f32⟩ : BufTy).Contents (Elt F) → (⟨S128x480, .f32⟩ : BufTy).Contents (Elt F) → (⟨S128x480, .f32⟩ : BufTy).Contents (Elt F)),
    unary main_v3792 main_v3839 ((extractStridedSlice S128x480x1 ![0, 15, 15] · slices_S128x512x33_S128x480x1_0_15_15) : (⟨S128x512x33, .f32⟩ : BufTy).Contents (Elt F) → (⟨S128x480x1, .f32⟩ : BufTy).Contents (Elt F)),
    reshape main_v3839 main_v3840 rfl shapeCasts_S128x480x1_S128x480,
    binary main_v3838 main_v3840 main_v3841 (addf : (⟨S128x480, .f32⟩ : BufTy).Contents (Elt F) → (⟨S128x480, .f32⟩ : BufTy).Contents (Elt F) → (⟨S128x480, .f32⟩ : BufTy).Contents (Elt F)),
    unary main_v3792 main_v3842 ((extractStridedSlice S128x480x1 ![0, 16, 16] · slices_S128x512x33_S128x480x1_0_16_16) : (⟨S128x512x33, .f32⟩ : BufTy).Contents (Elt F) → (⟨S128x480x1, .f32⟩ : BufTy).Contents (Elt F)),
    reshape main_v3842 main_v3843 rfl shapeCasts_S128x480x1_S128x480,
    binary main_v3841 main_v3843 main_v3844 (addf : (⟨S128x480, .f32⟩ : BufTy).Contents (Elt F) → (⟨S128x480, .f32⟩ : BufTy).Contents (Elt F) → (⟨S128x480, .f32⟩ : BufTy).Contents (Elt F)),
    unary main_v3792 main_v3845 ((extractStridedSlice S128x480x1 ![0, 17, 17] · slices_S128x512x33_S128x480x1_0_17_17) : (⟨S128x512x33, .f32⟩ : BufTy).Contents (Elt F) → (⟨S128x480x1, .f32⟩ : BufTy).Contents (Elt F)),
    reshape main_v3845 main_v3846 rfl shapeCasts_S128x480x1_S128x480,
    binary main_v3844 main_v3846 main_v3847 (addf : (⟨S128x480, .f32⟩ : BufTy).Contents (Elt F) → (⟨S128x480, .f32⟩ : BufTy).Contents (Elt F) → (⟨S128x480, .f32⟩ : BufTy).Contents (Elt F)),
    unary main_v3792 main_v3848 ((extractStridedSlice S128x480x1 ![0, 18, 18] · slices_S128x512x33_S128x480x1_0_18_18) : (⟨S128x512x33, .f32⟩ : BufTy).Contents (Elt F) → (⟨S128x480x1, .f32⟩ : BufTy).Contents (Elt F)),
    reshape main_v3848 main_v3849 rfl shapeCasts_S128x480x1_S128x480,
    binary main_v3847 main_v3849 main_v3850 (addf : (⟨S128x480, .f32⟩ : BufTy).Contents (Elt F) → (⟨S128x480, .f32⟩ : BufTy).Contents (Elt F) → (⟨S128x480, .f32⟩ : BufTy).Contents (Elt F)),
    unary main_v3792 main_v3851 ((extractStridedSlice S128x480x1 ![0, 19, 19] · slices_S128x512x33_S128x480x1_0_19_19) : (⟨S128x512x33, .f32⟩ : BufTy).Contents (Elt F) → (⟨S128x480x1, .f32⟩ : BufTy).Contents (Elt F)),
    reshape main_v3851 main_v3852 rfl shapeCasts_S128x480x1_S128x480,
    binary main_v3850 main_v3852 main_v3853 (addf : (⟨S128x480, .f32⟩ : BufTy).Contents (Elt F) → (⟨S128x480, .f32⟩ : BufTy).Contents (Elt F) → (⟨S128x480, .f32⟩ : BufTy).Contents (Elt F)),
    unary main_v3792 main_v3854 ((extractStridedSlice S128x480x1 ![0, 20, 20] · slices_S128x512x33_S128x480x1_0_20_20) : (⟨S128x512x33, .f32⟩ : BufTy).Contents (Elt F) → (⟨S128x480x1, .f32⟩ : BufTy).Contents (Elt F)),
    reshape main_v3854 main_v3855 rfl shapeCasts_S128x480x1_S128x480,
    binary main_v3853 main_v3855 main_v3856 (addf : (⟨S128x480, .f32⟩ : BufTy).Contents (Elt F) → (⟨S128x480, .f32⟩ : BufTy).Contents (Elt F) → (⟨S128x480, .f32⟩ : BufTy).Contents (Elt F)),
    unary main_v3792 main_v3857 ((extractStridedSlice S128x480x1 ![0, 21, 21] · slices_S128x512x33_S128x480x1_0_21_21) : (⟨S128x512x33, .f32⟩ : BufTy).Contents (Elt F) → (⟨S128x480x1, .f32⟩ : BufTy).Contents (Elt F)),
    reshape main_v3857 main_v3858 rfl shapeCasts_S128x480x1_S128x480,
    binary main_v3856 main_v3858 main_v3859 (addf : (⟨S128x480, .f32⟩ : BufTy).Contents (Elt F) → (⟨S128x480, .f32⟩ : BufTy).Contents (Elt F) → (⟨S128x480, .f32⟩ : BufTy).Contents (Elt F)),
    unary main_v3792 main_v3860 ((extractStridedSlice S128x480x1 ![0, 22, 22] · slices_S128x512x33_S128x480x1_0_22_22) : (⟨S128x512x33, .f32⟩ : BufTy).Contents (Elt F) → (⟨S128x480x1, .f32⟩ : BufTy).Contents (Elt F)),
    reshape main_v3860 main_v3861 rfl shapeCasts_S128x480x1_S128x480,
    binary main_v3859 main_v3861 main_v3862 (addf : (⟨S128x480, .f32⟩ : BufTy).Contents (Elt F) → (⟨S128x480, .f32⟩ : BufTy).Contents (Elt F) → (⟨S128x480, .f32⟩ : BufTy).Contents (Elt F)),
    unary main_v3792 main_v3863 ((extractStridedSlice S128x480x1 ![0, 23, 23] · slices_S128x512x33_S128x480x1_0_23_23) : (⟨S128x512x33, .f32⟩ : BufTy).Contents (Elt F) → (⟨S128x480x1, .f32⟩ : BufTy).Contents (Elt F)),
    reshape main_v3863 main_v3864 rfl shapeCasts_S128x480x1_S128x480,
    binary main_v3862 main_v3864 main_v3865 (addf : (⟨S128x480, .f32⟩ : BufTy).Contents (Elt F) → (⟨S128x480, .f32⟩ : BufTy).Contents (Elt F) → (⟨S128x480, .f32⟩ : BufTy).Contents (Elt F)),
    unary main_v3792 main_v3866 ((extractStridedSlice S128x480x1 ![0, 24, 24] · slices_S128x512x33_S128x480x1_0_24_24) : (⟨S128x512x33, .f32⟩ : BufTy).Contents (Elt F) → (⟨S128x480x1, .f32⟩ : BufTy).Contents (Elt F)),
    reshape main_v3866 main_v3867 rfl shapeCasts_S128x480x1_S128x480,
    binary main_v3865 main_v3867 main_v3868 (addf : (⟨S128x480, .f32⟩ : BufTy).Contents (Elt F) → (⟨S128x480, .f32⟩ : BufTy).Contents (Elt F) → (⟨S128x480, .f32⟩ : BufTy).Contents (Elt F)),
    unary main_v3792 main_v3869 ((extractStridedSlice S128x480x1 ![0, 25, 25] · slices_S128x512x33_S128x480x1_0_25_25) : (⟨S128x512x33, .f32⟩ : BufTy).Contents (Elt F) → (⟨S128x480x1, .f32⟩ : BufTy).Contents (Elt F)),
    reshape main_v3869 main_v3870 rfl shapeCasts_S128x480x1_S128x480,
    binary main_v3868 main_v3870 main_v3871 (addf : (⟨S128x480, .f32⟩ : BufTy).Contents (Elt F) → (⟨S128x480, .f32⟩ : BufTy).Contents (Elt F) → (⟨S128x480, .f32⟩ : BufTy).Contents (Elt F)),
    unary main_v3792 main_v3872 ((extractStridedSlice S128x480x1 ![0, 26, 26] · slices_S128x512x33_S128x480x1_0_26_26) : (⟨S128x512x33, .f32⟩ : BufTy).Contents (Elt F) → (⟨S128x480x1, .f32⟩ : BufTy).Contents (Elt F)),
    reshape main_v3872 main_v3873 rfl shapeCasts_S128x480x1_S128x480,
    binary main_v3871 main_v3873 main_v3874 (addf : (⟨S128x480, .f32⟩ : BufTy).Contents (Elt F) → (⟨S128x480, .f32⟩ : BufTy).Contents (Elt F) → (⟨S128x480, .f32⟩ : BufTy).Contents (Elt F)),
    unary main_v3792 main_v3875 ((extractStridedSlice S128x480x1 ![0, 27, 27] · slices_S128x512x33_S128x480x1_0_27_27) : (⟨S128x512x33, .f32⟩ : BufTy).Contents (Elt F) → (⟨S128x480x1, .f32⟩ : BufTy).Contents (Elt F)),
    reshape main_v3875 main_v3876 rfl shapeCasts_S128x480x1_S128x480,
    binary main_v3874 main_v3876 main_v3877 (addf : (⟨S128x480, .f32⟩ : BufTy).Contents (Elt F) → (⟨S128x480, .f32⟩ : BufTy).Contents (Elt F) → (⟨S128x480, .f32⟩ : BufTy).Contents (Elt F)),
    unary main_v3792 main_v3878 ((extractStridedSlice S128x480x1 ![0, 28, 28] · slices_S128x512x33_S128x480x1_0_28_28) : (⟨S128x512x33, .f32⟩ : BufTy).Contents (Elt F) → (⟨S128x480x1, .f32⟩ : BufTy).Contents (Elt F)),
    reshape main_v3878 main_v3879 rfl shapeCasts_S128x480x1_S128x480,
    binary main_v3877 main_v3879 main_v3880 (addf : (⟨S128x480, .f32⟩ : BufTy).Contents (Elt F) → (⟨S128x480, .f32⟩ : BufTy).Contents (Elt F) → (⟨S128x480, .f32⟩ : BufTy).Contents (Elt F)),
    unary main_v3792 main_v3881 ((extractStridedSlice S128x480x1 ![0, 29, 29] · slices_S128x512x33_S128x480x1_0_29_29) : (⟨S128x512x33, .f32⟩ : BufTy).Contents (Elt F) → (⟨S128x480x1, .f32⟩ : BufTy).Contents (Elt F)),
    reshape main_v3881 main_v3882 rfl shapeCasts_S128x480x1_S128x480,
    binary main_v3880 main_v3882 main_v3883 (addf : (⟨S128x480, .f32⟩ : BufTy).Contents (Elt F) → (⟨S128x480, .f32⟩ : BufTy).Contents (Elt F) → (⟨S128x480, .f32⟩ : BufTy).Contents (Elt F)),
    unary main_v3792 main_v3884 ((extractStridedSlice S128x480x1 ![0, 30, 30] · slices_S128x512x33_S128x480x1_0_30_30) : (⟨S128x512x33, .f32⟩ : BufTy).Contents (Elt F) → (⟨S128x480x1, .f32⟩ : BufTy).Contents (Elt F)),
    reshape main_v3884 main_v3885 rfl shapeCasts_S128x480x1_S128x480,
    binary main_v3883 main_v3885 main_v3886 (addf : (⟨S128x480, .f32⟩ : BufTy).Contents (Elt F) → (⟨S128x480, .f32⟩ : BufTy).Contents (Elt F) → (⟨S128x480, .f32⟩ : BufTy).Contents (Elt F)),
    unary main_v3792 main_v3887 ((extractStridedSlice S128x480x1 ![0, 31, 31] · slices_S128x512x33_S128x480x1_0_31_31) : (⟨S128x512x33, .f32⟩ : BufTy).Contents (Elt F) → (⟨S128x480x1, .f32⟩ : BufTy).Contents (Elt F)),
    reshape main_v3887 main_v3888 rfl shapeCasts_S128x480x1_S128x480,
    binary main_v3886 main_v3888 main_v3889 (addf : (⟨S128x480, .f32⟩ : BufTy).Contents (Elt F) → (⟨S128x480, .f32⟩ : BufTy).Contents (Elt F) → (⟨S128x480, .f32⟩ : BufTy).Contents (Elt F)),
    unary main_v3792 main_v3890 ((extractStridedSlice S128x480x1 ![0, 32, 32] · slices_S128x512x33_S128x480x1_0_32_32) : (⟨S128x512x33, .f32⟩ : BufTy).Contents (Elt F) → (⟨S128x480x1, .f32⟩ : BufTy).Contents (Elt F)),
    reshape main_v3890 main_v3891 rfl shapeCasts_S128x480x1_S128x480,
    binary main_v3889 main_v3891 main_v3892 (addf : (⟨S128x480, .f32⟩ : BufTy).Contents (Elt F) → (⟨S128x480, .f32⟩ : BufTy).Contents (Elt F) → (⟨S128x480, .f32⟩ : BufTy).Contents (Elt F)) ]

/-- Segment 130: 7 operations. -/
def seg130 : List (HloOp τ sig (Elt F)) :=
  [ unary main_arg3 main_v3893 ((extractStridedSlice S1 ![62] · slices_S64_S1_62) : (⟨S64, .f32⟩ : BufTy).Contents (Elt F) → (⟨S1, .f32⟩ : BufTy).Contents (Elt F)),
    reshape main_v3893 main_v3894 rfl shapeCasts_S1_S_,
    unary main_v3894 main_v3895 (broadcastInDim S128x480 ![] bcast_S_S128x480 : (⟨S_, .f32⟩ : BufTy).Contents (Elt F) → (⟨S128x480, .f32⟩ : BufTy).Contents (Elt F)),
    binary main_v3892 main_v3895 main_v3896 (addf : (⟨S128x480, .f32⟩ : BufTy).Contents (Elt F) → (⟨S128x480, .f32⟩ : BufTy).Contents (Elt F) → (⟨S128x480, .f32⟩ : BufTy).Contents (Elt F)),
    unary main_v3896 main_v3897 (Host.tanh : (⟨S128x480, .f32⟩ : BufTy).Contents (Elt F) → (⟨S128x480, .f32⟩ : BufTy).Contents (Elt F)),
    nullary main_cst_125 (constant S_ .f32 0xFF800000#32),
    binary main_v3897 main_cst_125 main_v3898 ((fun x v => Host.reduce FloatOps.maximumf x v reducesTo_S128x480_S128_d1 h_S_) : (⟨S128x480, .f32⟩ : BufTy).Contents (Elt F) → (⟨S_, .f32⟩ : BufTy).Contents (Elt F) → (⟨S128, .f32⟩ : BufTy).Contents (Elt F)) ]

/-- Segment 131: 53 operations. -/
def seg131 : List (HloOp τ sig (Elt F)) :=
  [ unary main_arg2 main_v3899 ((extractStridedSlice S1x33x300 ![63, 0, 0] · slices_S64x33x300_S1x33x300_63_0_0) : (⟨S64x33x300, .f32⟩ : BufTy).Contents (Elt F) → (⟨S1x33x300, .f32⟩ : BufTy).Contents (Elt F)),
    reshape main_v3899 main_v3900 rfl shapeCasts_S1x33x300_S33x300,
    binary main_v7 main_v3900 main_v3901 ((fun l r => Host.dotGeneral dot_S128x512x300_S33x300_S128x512x33_2_1_01_0_n_n none l r) : (⟨S128x512x300, .f32⟩ : BufTy).Contents (Elt F) → (⟨S33x300, .f32⟩ : BufTy).Contents (Elt F) → (⟨S128x512x33, .f32⟩ : BufTy).Contents (Elt F)),
    unary main_v3901 main_v3902 ((extractStridedSlice S128x480x1 ![0, 0, 0] · slices_S128x512x33_S128x480x1_0_0_0) : (⟨S128x512x33, .f32⟩ : BufTy).Contents (Elt F) → (⟨S128x480x1, .f32⟩ : BufTy).Contents (Elt F)),
    reshape main_v3902 main_v3903 rfl shapeCasts_S128x480x1_S128x480,
    nullary main_cst_126 (constant S_ .f32 0x00000000#32),
    unary main_cst_126 main_v3904 (broadcastInDim S128x480 ![] bcast_S_S128x480 : (⟨S_, .f32⟩ : BufTy).Contents (Elt F) → (⟨S128x480, .f32⟩ : BufTy).Contents (Elt F)),
    binary main_v3904 main_v3903 main_v3905 (addf : (⟨S128x480, .f32⟩ : BufTy).Contents (Elt F) → (⟨S128x480, .f32⟩ : BufTy).Contents (Elt F) → (⟨S128x480, .f32⟩ : BufTy).Contents (Elt F)),
    unary main_v3901 main_v3906 ((extractStridedSlice S128x480x1 ![0, 1, 1] · slices_S128x512x33_S128x480x1_0_1_1) : (⟨S128x512x33, .f32⟩ : BufTy).Contents (Elt F) → (⟨S128x480x1, .f32⟩ : BufTy).Contents (Elt F)),
    reshape main_v3906 main_v3907 rfl shapeCasts_S128x480x1_S128x480,
    binary main_v3905 main_v3907 main_v3908 (addf : (⟨S128x480, .f32⟩ : BufTy).Contents (Elt F) → (⟨S128x480, .f32⟩ : BufTy).Contents (Elt F) → (⟨S128x480, .f32⟩ : BufTy).Contents (Elt F)),
    unary main_v3901 main_v3909 ((extractStridedSlice S128x480x1 ![0, 2, 2] · slices_S128x512x33_S128x480x1_0_2_2) : (⟨S128x512x33, .f32⟩ : BufTy).Contents (Elt F) → (⟨S128x480x1, .f32⟩ : BufTy).Contents (Elt F)),
    reshape main_v3909 main_v3910 rfl shapeCasts_S128x480x1_S128x480,
    binary main_v3908 main_v3910 main_v3911 (addf : (⟨S128x480, .f32⟩ : BufTy).Contents (Elt F) → (⟨S128x480, .f32⟩ : BufTy).Contents (Elt F) → (⟨S128x480, .f32⟩ : BufTy).Contents (Elt F)),
    unary main_v3901 main_v3912 ((extractStridedSlice S128x480x1 ![0, 3, 3] · slices_S128x512x33_S128x480x1_0_3_3) : (⟨S128x512x33, .f32⟩ : BufTy).Contents (Elt F) → (⟨S128x480x1, .f32⟩ : BufTy).Contents (Elt F)),
    reshape main_v3912 main_v3913 rfl shapeCasts_S128x480x1_S128x480,
    binary main_v3911 main_v3913 main_v3914 (addf : (⟨S128x480, .f32⟩ : BufTy).Contents (Elt F) → (⟨S128x480, .f32⟩ : BufTy).Contents (Elt F) → (⟨S128x480, .f32⟩ : BufTy).Contents (Elt F)),
    unary main_v3901 main_v3915 ((extractStridedSlice S128x480x1 ![0, 4, 4] · slices_S128x512x33_S128x480x1_0_4_4) : (⟨S128x512x33, .f32⟩ : BufTy).Contents (Elt F) → (⟨S128x480x1, .f32⟩ : BufTy).Contents (Elt F)),
    reshape main_v3915 main_v3916 rfl shapeCasts_S128x480x1_S128x480,
    binary main_v3914 main_v3916 main_v3917 (addf : (⟨S128x480, .f32⟩ : BufTy).Contents (Elt F) → (⟨S128x480, .f32⟩ : BufTy).Contents (Elt F) → (⟨S128x480, .f32⟩ : BufTy).Contents (Elt F)),
    unary main_v3901 main_v3918 ((extractStridedSlice S128x480x1 ![0, 5, 5] · slices_S128x512x33_S128x480x1_0_5_5) : (⟨S128x512x33, .f32⟩ : BufTy).Contents (Elt F) → (⟨S128x480x1, .f32⟩ : BufTy).Contents (Elt F)),
    reshape main_v3918 main_v3919 rfl shapeCasts_S128x480x1_S128x480,
    binary main_v3917 main_v3919 main_v3920 (addf : (⟨S128x480, .f32⟩ : BufTy).Contents (Elt F) → (⟨S128x480, .f32⟩ : BufTy).Contents (Elt F) → (⟨S128x480, .f32⟩ : BufTy).Contents (Elt F)),
    unary main_v3901 main_v3921 ((extractStridedSlice S128x480x1 ![0, 6, 6] · slices_S128x512x33_S128x480x1_0_6_6) : (⟨S128x512x33, .f32⟩ : BufTy).Contents (Elt F) → (⟨S128x480x1, .f32⟩ : BufTy).Contents (Elt F)),
    reshape main_v3921 main_v3922 rfl shapeCasts_S128x480x1_S128x480,
    binary main_v3920 main_v3922 main_v3923 (addf : (⟨S128x480, .f32⟩ : BufTy).Contents (Elt F) → (⟨S128x480, .f32⟩ : BufTy).Contents (Elt F) → (⟨S128x480, .f32⟩ : BufTy).Contents (Elt F)),
    unary main_v3901 main_v3924 ((extractStridedSlice S128x480x1 ![0, 7, 7] · slices_S128x512x33_S128x480x1_0_7_7) : (⟨S128x512x33, .f32⟩ : BufTy).Contents (Elt F) → (⟨S128x480x1, .f32⟩ : BufTy).Contents (Elt F)),
    reshape main_v3924 main_v3925 rfl shapeCasts_S128x480x1_S128x480,
    binary main_v3923 main_v3925 main_v3926 (addf : (⟨S128x480, .f32⟩ : BufTy).Contents (Elt F) → (⟨S128x480, .f32⟩ : BufTy).Contents (Elt F) → (⟨S128x480, .f32⟩ : BufTy).Contents (Elt F)),
    unary main_v3901 main_v3927 ((extractStridedSlice S128x480x1 ![0, 8, 8] · slices_S128x512x33_S128x480x1_0_8_8) : (⟨S128x512x33, .f32⟩ : BufTy).Contents (Elt F) → (⟨S128x480x1, .f32⟩ : BufTy).Contents (Elt F)),
    reshape main_v3927 main_v3928 rfl shapeCasts_S128x480x1_S128x480,
    binary main_v3926 main_v3928 main_v3929 (addf : (⟨S128x480, .f32⟩ : BufTy).Contents (Elt F) → (⟨S128x480, .f32⟩ : BufTy).Contents (Elt F) → (⟨S128x480, .f32⟩ : BufTy).Contents (Elt F)),
    unary main_v3901 main_v3930 ((extractStridedSlice S128x480x1 ![0, 9, 9] · slices_S128x512x33_S128x480x1_0_9_9) : (⟨S128x512x33, .f32⟩ : BufTy).Contents (Elt F) → (⟨S128x480x1, .f32⟩ : BufTy).Contents (Elt F)),
    reshape main_v3930 main_v3931 rfl shapeCasts_S128x480x1_S128x480,
    binary main_v3929 main_v3931 main_v3932 (addf : (⟨S128x480, .f32⟩ : BufTy).Contents (Elt F) → (⟨S128x480, .f32⟩ : BufTy).Contents (Elt F) → (⟨S128x480, .f32⟩ : BufTy).Contents (Elt F)),
    unary main_v3901 main_v3933 ((extractStridedSlice S128x480x1 ![0, 10, 10] · slices_S128x512x33_S128x480x1_0_10_10) : (⟨S128x512x33, .f32⟩ : BufTy).Contents (Elt F) → (⟨S128x480x1, .f32⟩ : BufTy).Contents (Elt F)),
    reshape main_v3933 main_v3934 rfl shapeCasts_S128x480x1_S128x480,
    binary main_v3932 main_v3934 main_v3935 (addf : (⟨S128x480, .f32⟩ : BufTy).Contents (Elt F) → (⟨S128x480, .f32⟩ : BufTy).Contents (Elt F) → (⟨S128x480, .f32⟩ : BufTy).Contents (Elt F)),
    unary main_v3901 main_v3936 ((extractStridedSlice S128x480x1 ![0, 11, 11] · slices_S128x512x33_S128x480x1_0_11_11) : (⟨S128x512x33, .f32⟩ : BufTy).Contents (Elt F) → (⟨S128x480x1, .f32⟩ : BufTy).Contents (Elt F)),
    reshape main_v3936 main_v3937 rfl shapeCasts_S128x480x1_S128x480,
    binary main_v3935 main_v3937 main_v3938 (addf : (⟨S128x480, .f32⟩ : BufTy).Contents (Elt F) → (⟨S128x480, .f32⟩ : BufTy).Contents (Elt F) → (⟨S128x480, .f32⟩ : BufTy).Contents (Elt F)),
    unary main_v3901 main_v3939 ((extractStridedSlice S128x480x1 ![0, 12, 12] · slices_S128x512x33_S128x480x1_0_12_12) : (⟨S128x512x33, .f32⟩ : BufTy).Contents (Elt F) → (⟨S128x480x1, .f32⟩ : BufTy).Contents (Elt F)),
    reshape main_v3939 main_v3940 rfl shapeCasts_S128x480x1_S128x480,
    binary main_v3938 main_v3940 main_v3941 (addf : (⟨S128x480, .f32⟩ : BufTy).Contents (Elt F) → (⟨S128x480, .f32⟩ : BufTy).Contents (Elt F) → (⟨S128x480, .f32⟩ : BufTy).Contents (Elt F)),
    unary main_v3901 main_v3942 ((extractStridedSlice S128x480x1 ![0, 13, 13] · slices_S128x512x33_S128x480x1_0_13_13) : (⟨S128x512x33, .f32⟩ : BufTy).Contents (Elt F) → (⟨S128x480x1, .f32⟩ : BufTy).Contents (Elt F)),
    reshape main_v3942 main_v3943 rfl shapeCasts_S128x480x1_S128x480,
    binary main_v3941 main_v3943 main_v3944 (addf : (⟨S128x480, .f32⟩ : BufTy).Contents (Elt F) → (⟨S128x480, .f32⟩ : BufTy).Contents (Elt F) → (⟨S128x480, .f32⟩ : BufTy).Contents (Elt F)),
    unary main_v3901 main_v3945 ((extractStridedSlice S128x480x1 ![0, 14, 14] · slices_S128x512x33_S128x480x1_0_14_14) : (⟨S128x512x33, .f32⟩ : BufTy).Contents (Elt F) → (⟨S128x480x1, .f32⟩ : BufTy).Contents (Elt F)),
    reshape main_v3945 main_v3946 rfl shapeCasts_S128x480x1_S128x480,
    binary main_v3944 main_v3946 main_v3947 (addf : (⟨S128x480, .f32⟩ : BufTy).Contents (Elt F) → (⟨S128x480, .f32⟩ : BufTy).Contents (Elt F) → (⟨S128x480, .f32⟩ : BufTy).Contents (Elt F)),
    unary main_v3901 main_v3948 ((extractStridedSlice S128x480x1 ![0, 15, 15] · slices_S128x512x33_S128x480x1_0_15_15) : (⟨S128x512x33, .f32⟩ : BufTy).Contents (Elt F) → (⟨S128x480x1, .f32⟩ : BufTy).Contents (Elt F)),
    reshape main_v3948 main_v3949 rfl shapeCasts_S128x480x1_S128x480,
    binary main_v3947 main_v3949 main_v3950 (addf : (⟨S128x480, .f32⟩ : BufTy).Contents (Elt F) → (⟨S128x480, .f32⟩ : BufTy).Contents (Elt F) → (⟨S128x480, .f32⟩ : BufTy).Contents (Elt F)) ]

/-- Segment 132: 58 operations. -/
def seg132 : List (HloOp τ sig (Elt F)) :=
  [ unary main_v3901 main_v3951 ((extractStridedSlice S128x480x1 ![0, 16, 16] · slices_S128x512x33_S128x480x1_0_16_16) : (⟨S128x512x33, .f32⟩ : BufTy).Contents (Elt F) → (⟨S128x480x1, .f32⟩ : BufTy).Contents (Elt F)),
    reshape main_v3951 main_v3952 rfl shapeCasts_S128x480x1_S128x480,
    binary main_v3950 main_v3952 main_v3953 (addf : (⟨S128x480, .f32⟩ : BufTy).Contents (Elt F) → (⟨S128x480, .f32⟩ : BufTy).Contents (Elt F) → (⟨S128x480, .f32⟩ : BufTy).Contents (Elt F)),
    unary main_v3901 main_v3954 ((extractStridedSlice S128x480x1 ![0, 17, 17] · slices_S128x512x33_S128x480x1_0_17_17) : (⟨S128x512x33, .f32⟩ : BufTy).Contents (Elt F) → (⟨S128x480x1, .f32⟩ : BufTy).Contents (Elt F)),
    reshape main_v3954 main_v3955 rfl shapeCasts_S128x480x1_S128x480,
    binary main_v3953 main_v3955 main_v3956 (addf : (⟨S128x480, .f32⟩ : BufTy).Contents (Elt F) → (⟨S128x480, .f32⟩ : BufTy).Contents (Elt F) → (⟨S128x480, .f32⟩ : BufTy).Contents (Elt F)),
    unary main_v3901 main_v3957 ((extractStridedSlice S128x480x1 ![0, 18, 18] · slices_S128x512x33_S128x480x1_0_18_18) : (⟨S128x512x33, .f32⟩ : BufTy).Contents (Elt F) → (⟨S128x480x1, .f32⟩ : BufTy).Contents (Elt F)),
    reshape main_v3957 main_v3958 rfl shapeCasts_S128x480x1_S128x480,
    binary main_v3956 main_v3958 main_v3959 (addf : (⟨S128x480, .f32⟩ : BufTy).Contents (Elt F) → (⟨S128x480, .f32⟩ : BufTy).Contents (Elt F) → (⟨S128x480, .f32⟩ : BufTy).Contents (Elt F)),
    unary main_v3901 main_v3960 ((extractStridedSlice S128x480x1 ![0, 19, 19] · slices_S128x512x33_S128x480x1_0_19_19) : (⟨S128x512x33, .f32⟩ : BufTy).Contents (Elt F) → (⟨S128x480x1, .f32⟩ : BufTy).Contents (Elt F)),
    reshape main_v3960 main_v3961 rfl shapeCasts_S128x480x1_S128x480,
    binary main_v3959 main_v3961 main_v3962 (addf : (⟨S128x480, .f32⟩ : BufTy).Contents (Elt F) → (⟨S128x480, .f32⟩ : BufTy).Contents (Elt F) → (⟨S128x480, .f32⟩ : BufTy).Contents (Elt F)),
    unary main_v3901 main_v3963 ((extractStridedSlice S128x480x1 ![0, 20, 20] · slices_S128x512x33_S128x480x1_0_20_20) : (⟨S128x512x33, .f32⟩ : BufTy).Contents (Elt F) → (⟨S128x480x1, .f32⟩ : BufTy).Contents (Elt F)),
    reshape main_v3963 main_v3964 rfl shapeCasts_S128x480x1_S128x480,
    binary main_v3962 main_v3964 main_v3965 (addf : (⟨S128x480, .f32⟩ : BufTy).Contents (Elt F) → (⟨S128x480, .f32⟩ : BufTy).Contents (Elt F) → (⟨S128x480, .f32⟩ : BufTy).Contents (Elt F)),
    unary main_v3901 main_v3966 ((extractStridedSlice S128x480x1 ![0, 21, 21] · slices_S128x512x33_S128x480x1_0_21_21) : (⟨S128x512x33, .f32⟩ : BufTy).Contents (Elt F) → (⟨S128x480x1, .f32⟩ : BufTy).Contents (Elt F)),
    reshape main_v3966 main_v3967 rfl shapeCasts_S128x480x1_S128x480,
    binary main_v3965 main_v3967 main_v3968 (addf : (⟨S128x480, .f32⟩ : BufTy).Contents (Elt F) → (⟨S128x480, .f32⟩ : BufTy).Contents (Elt F) → (⟨S128x480, .f32⟩ : BufTy).Contents (Elt F)),
    unary main_v3901 main_v3969 ((extractStridedSlice S128x480x1 ![0, 22, 22] · slices_S128x512x33_S128x480x1_0_22_22) : (⟨S128x512x33, .f32⟩ : BufTy).Contents (Elt F) → (⟨S128x480x1, .f32⟩ : BufTy).Contents (Elt F)),
    reshape main_v3969 main_v3970 rfl shapeCasts_S128x480x1_S128x480,
    binary main_v3968 main_v3970 main_v3971 (addf : (⟨S128x480, .f32⟩ : BufTy).Contents (Elt F) → (⟨S128x480, .f32⟩ : BufTy).Contents (Elt F) → (⟨S128x480, .f32⟩ : BufTy).Contents (Elt F)),
    unary main_v3901 main_v3972 ((extractStridedSlice S128x480x1 ![0, 23, 23] · slices_S128x512x33_S128x480x1_0_23_23) : (⟨S128x512x33, .f32⟩ : BufTy).Contents (Elt F) → (⟨S128x480x1, .f32⟩ : BufTy).Contents (Elt F)),
    reshape main_v3972 main_v3973 rfl shapeCasts_S128x480x1_S128x480,
    binary main_v3971 main_v3973 main_v3974 (addf : (⟨S128x480, .f32⟩ : BufTy).Contents (Elt F) → (⟨S128x480, .f32⟩ : BufTy).Contents (Elt F) → (⟨S128x480, .f32⟩ : BufTy).Contents (Elt F)),
    unary main_v3901 main_v3975 ((extractStridedSlice S128x480x1 ![0, 24, 24] · slices_S128x512x33_S128x480x1_0_24_24) : (⟨S128x512x33, .f32⟩ : BufTy).Contents (Elt F) → (⟨S128x480x1, .f32⟩ : BufTy).Contents (Elt F)),
    reshape main_v3975 main_v3976 rfl shapeCasts_S128x480x1_S128x480,
    binary main_v3974 main_v3976 main_v3977 (addf : (⟨S128x480, .f32⟩ : BufTy).Contents (Elt F) → (⟨S128x480, .f32⟩ : BufTy).Contents (Elt F) → (⟨S128x480, .f32⟩ : BufTy).Contents (Elt F)),
    unary main_v3901 main_v3978 ((extractStridedSlice S128x480x1 ![0, 25, 25] · slices_S128x512x33_S128x480x1_0_25_25) : (⟨S128x512x33, .f32⟩ : BufTy).Contents (Elt F) → (⟨S128x480x1, .f32⟩ : BufTy).Contents (Elt F)),
    reshape main_v3978 main_v3979 rfl shapeCasts_S128x480x1_S128x480,
    binary main_v3977 main_v3979 main_v3980 (addf : (⟨S128x480, .f32⟩ : BufTy).Contents (Elt F) → (⟨S128x480, .f32⟩ : BufTy).Contents (Elt F) → (⟨S128x480, .f32⟩ : BufTy).Contents (Elt F)),
    unary main_v3901 main_v3981 ((extractStridedSlice S128x480x1 ![0, 26, 26] · slices_S128x512x33_S128x480x1_0_26_26) : (⟨S128x512x33, .f32⟩ : BufTy).Contents (Elt F) → (⟨S128x480x1, .f32⟩ : BufTy).Contents (Elt F)),
    reshape main_v3981 main_v3982 rfl shapeCasts_S128x480x1_S128x480,
    binary main_v3980 main_v3982 main_v3983 (addf : (⟨S128x480, .f32⟩ : BufTy).Contents (Elt F) → (⟨S128x480, .f32⟩ : BufTy).Contents (Elt F) → (⟨S128x480, .f32⟩ : BufTy).Contents (Elt F)),
    unary main_v3901 main_v3984 ((extractStridedSlice S128x480x1 ![0, 27, 27] · slices_S128x512x33_S128x480x1_0_27_27) : (⟨S128x512x33, .f32⟩ : BufTy).Contents (Elt F) → (⟨S128x480x1, .f32⟩ : BufTy).Contents (Elt F)),
    reshape main_v3984 main_v3985 rfl shapeCasts_S128x480x1_S128x480,
    binary main_v3983 main_v3985 main_v3986 (addf : (⟨S128x480, .f32⟩ : BufTy).Contents (Elt F) → (⟨S128x480, .f32⟩ : BufTy).Contents (Elt F) → (⟨S128x480, .f32⟩ : BufTy).Contents (Elt F)),
    unary main_v3901 main_v3987 ((extractStridedSlice S128x480x1 ![0, 28, 28] · slices_S128x512x33_S128x480x1_0_28_28) : (⟨S128x512x33, .f32⟩ : BufTy).Contents (Elt F) → (⟨S128x480x1, .f32⟩ : BufTy).Contents (Elt F)),
    reshape main_v3987 main_v3988 rfl shapeCasts_S128x480x1_S128x480,
    binary main_v3986 main_v3988 main_v3989 (addf : (⟨S128x480, .f32⟩ : BufTy).Contents (Elt F) → (⟨S128x480, .f32⟩ : BufTy).Contents (Elt F) → (⟨S128x480, .f32⟩ : BufTy).Contents (Elt F)),
    unary main_v3901 main_v3990 ((extractStridedSlice S128x480x1 ![0, 29, 29] · slices_S128x512x33_S128x480x1_0_29_29) : (⟨S128x512x33, .f32⟩ : BufTy).Contents (Elt F) → (⟨S128x480x1, .f32⟩ : BufTy).Contents (Elt F)),
    reshape main_v3990 main_v3991 rfl shapeCasts_S128x480x1_S128x480,
    binary main_v3989 main_v3991 main_v3992 (addf : (⟨S128x480, .f32⟩ : BufTy).Contents (Elt F) → (⟨S128x480, .f32⟩ : BufTy).Contents (Elt F) → (⟨S128x480, .f32⟩ : BufTy).Contents (Elt F)),
    unary main_v3901 main_v3993 ((extractStridedSlice S128x480x1 ![0, 30, 30] · slices_S128x512x33_S128x480x1_0_30_30) : (⟨S128x512x33, .f32⟩ : BufTy).Contents (Elt F) → (⟨S128x480x1, .f32⟩ : BufTy).Contents (Elt F)),
    reshape main_v3993 main_v3994 rfl shapeCasts_S128x480x1_S128x480,
    binary main_v3992 main_v3994 main_v3995 (addf : (⟨S128x480, .f32⟩ : BufTy).Contents (Elt F) → (⟨S128x480, .f32⟩ : BufTy).Contents (Elt F) → (⟨S128x480, .f32⟩ : BufTy).Contents (Elt F)),
    unary main_v3901 main_v3996 ((extractStridedSlice S128x480x1 ![0, 31, 31] · slices_S128x512x33_S128x480x1_0_31_31) : (⟨S128x512x33, .f32⟩ : BufTy).Contents (Elt F) → (⟨S128x480x1, .f32⟩ : BufTy).Contents (Elt F)),
    reshape main_v3996 main_v3997 rfl shapeCasts_S128x480x1_S128x480,
    binary main_v3995 main_v3997 main_v3998 (addf : (⟨S128x480, .f32⟩ : BufTy).Contents (Elt F) → (⟨S128x480, .f32⟩ : BufTy).Contents (Elt F) → (⟨S128x480, .f32⟩ : BufTy).Contents (Elt F)),
    unary main_v3901 main_v3999 ((extractStridedSlice S128x480x1 ![0, 32, 32] · slices_S128x512x33_S128x480x1_0_32_32) : (⟨S128x512x33, .f32⟩ : BufTy).Contents (Elt F) → (⟨S128x480x1, .f32⟩ : BufTy).Contents (Elt F)),
    reshape main_v3999 main_v4000 rfl shapeCasts_S128x480x1_S128x480,
    binary main_v3998 main_v4000 main_v4001 (addf : (⟨S128x480, .f32⟩ : BufTy).Contents (Elt F) → (⟨S128x480, .f32⟩ : BufTy).Contents (Elt F) → (⟨S128x480, .f32⟩ : BufTy).Contents (Elt F)),
    unary main_arg3 main_v4002 ((extractStridedSlice S1 ![63] · slices_S64_S1_63) : (⟨S64, .f32⟩ : BufTy).Contents (Elt F) → (⟨S1, .f32⟩ : BufTy).Contents (Elt F)),
    reshape main_v4002 main_v4003 rfl shapeCasts_S1_S_,
    unary main_v4003 main_v4004 (broadcastInDim S128x480 ![] bcast_S_S128x480 : (⟨S_, .f32⟩ : BufTy).Contents (Elt F) → (⟨S128x480, .f32⟩ : BufTy).Contents (Elt F)),
    binary main_v4001 main_v4004 main_v4005 (addf : (⟨S128x480, .f32⟩ : BufTy).Contents (Elt F) → (⟨S128x480, .f32⟩ : BufTy).Contents (Elt F) → (⟨S128x480, .f32⟩ : BufTy).Contents (Elt F)),
    unary main_v4005 main_v4006 (Host.tanh : (⟨S128x480, .f32⟩ : BufTy).Contents (Elt F) → (⟨S128x480, .f32⟩ : BufTy).Contents (Elt F)),
    nullary main_cst_127 (constant S_ .f32 0xFF800000#32),
    binary main_v4006 main_cst_127 main_v4007 ((fun x v => Host.reduce FloatOps.maximumf x v reducesTo_S128x480_S128_d1 h_S_) : (⟨S128x480, .f32⟩ : BufTy).Contents (Elt F) → (⟨S_, .f32⟩ : BufTy).Contents (Elt F) → (⟨S128, .f32⟩ : BufTy).Contents (Elt F)) ]

/-- Segment 133: 2 operations. -/
def seg133 : List (HloOp τ sig (Elt F)) :=
  [ unary main_v23 main_v4008 (broadcastInDim S128x1 ![0] bcast_S128_S128x1_0 : (⟨S128, .f32⟩ : BufTy).Contents (Elt F) → (⟨S128x1, .f32⟩ : BufTy).Contents (Elt F)),
    unary main_v39 main_v4009 (broadcastInDim S128x1 ![0] bcast_S128_S128x1_0 : (⟨S128, .f32⟩ : BufTy).Contents (Elt F) → (⟨S128x1, .f32⟩ : BufTy).Contents (Elt F)) ]

/-- Segment 134: 60 operations. -/
def seg134 : List (HloOp τ sig (Elt F)) :=
  [ unary main_v58 main_v4010 (broadcastInDim S128x1 ![0] bcast_S128_S128x1_0 : (⟨S128, .f32⟩ : BufTy).Contents (Elt F) → (⟨S128x1, .f32⟩ : BufTy).Contents (Elt F)),
    unary main_v77 main_v4011 (broadcastInDim S128x1 ![0] bcast_S128_S128x1_0 : (⟨S128, .f32⟩ : BufTy).Contents (Elt F) → (⟨S128x1, .f32⟩ : BufTy).Contents (Elt F)),
    unary main_v99 main_v4012 (broadcastInDim S128x1 ![0] bcast_S128_S128x1_0 : (⟨S128, .f32⟩ : BufTy).Contents (Elt F) → (⟨S128x1, .f32⟩ : BufTy).Contents (Elt F)),
    unary main_v121 main_v4013 (broadcastInDim S128x1 ![0] bcast_S128_S128x1_0 : (⟨S128, .f32⟩ : BufTy).Contents (Elt F) → (⟨S128x1, .f32⟩ : BufTy).Contents (Elt F)),
    unary main_v146 main_v4014 (broadcastInDim S128x1 ![0] bcast_S128_S128x1_0 : (⟨S128, .f32⟩ : BufTy).Contents (Elt F) → (⟨S128x1, .f32⟩ : BufTy).Contents (Elt F)),
    unary main_v171 main_v4015 (broadcastInDim S128x1 ![0] bcast_S128_S128x1_0 : (⟨S128, .f32⟩ : BufTy).Contents (Elt F) → (⟨S128x1, .f32⟩ : BufTy).Contents (Elt F)),
    unary main_v199 main_v4016 (broadcastInDim S128x1 ![0] bcast_S128_S128x1_0 : (⟨S128, .f32⟩ : BufTy).Contents (Elt F) → (⟨S128x1, .f32⟩ : BufTy).Contents (Elt F)),
    unary main_v227 main_v4017 (broadcastInDim S128x1 ![0] bcast_S128_S128x1_0 : (⟨S128, .f32⟩ : BufTy).Contents (Elt F) → (⟨S128x1, .f32⟩ : BufTy).Contents (Elt F)),
    unary main_v258 main_v4018 (broadcastInDim S128x1 ![0] bcast_S128_S128x1_0 : (⟨S128, .f32⟩ : BufTy).Contents (Elt F) → (⟨S128x1, .f32⟩ : BufTy).Contents (Elt F)),
    unary main_v289 main_v4019 (broadcastInDim S128x1 ![0] bcast_S128_S128x1_0 : (⟨S128, .f32⟩ : BufTy).Contents (Elt F) → (⟨S128x1, .f32⟩ : BufTy).Contents (Elt F)),
    unary main_v323 main_v4020 (broadcastInDim S128x1 ![0] bcast_S128_S128x1_0 : (⟨S128, .f32⟩ : BufTy).Contents (Elt F) → (⟨S128x1, .f32⟩ : BufTy).Contents (Elt F)),
    unary main_v357 main_v4021 (broadcastInDim S128x1 ![0] bcast_S128_S128x1_0 : (⟨S128, .f32⟩ : BufTy).Contents (Elt F) → (⟨S128x1, .f32⟩ : BufTy).Contents (Elt F)),
    unary main_v394 main_v4022 (broadcastInDim S128x1 ![0] bcast_S128_S128x1_0 : (⟨S128, .f32⟩ : BufTy).Contents (Elt F) → (⟨S128x1, .f32⟩ : BufTy).Contents (Elt F)),
    unary main_v431 main_v4023 (broadcastInDim S128x1 ![0] bcast_S128_S128x1_0 : (⟨S128, .f32⟩ : BufTy).Contents (Elt F) → (⟨S128x1, .f32⟩ : BufTy).Contents (Elt F)),
    unary main_v471 main_v4024 (broadcastInDim S128x1 ![0] bcast_S128_S128x1_0 : (⟨S128, .f32⟩ : BufTy).Contents (Elt F) → (⟨S128x1, .f32⟩ : BufTy).Contents (Elt F)),
    unary main_v511 main_v4025 (broadcastInDim S128x1 ![0] bcast_S128_S128x1_0 : (⟨S128, .f32⟩ : BufTy).Contents (Elt F) → (⟨S128x1, .f32⟩ : BufTy).Contents (Elt F)),
    unary main_v554 main_v4026 (broadcastInDim S128x1 ![0] bcast_S128_S128x1_0 : (⟨S128, .f32⟩ : BufTy).Contents (Elt F) → (⟨S128x1, .f32⟩ : BufTy).Contents (Elt F)),
    unary main_v597 main_v4027 (broadcastInDim S128x1 ![0] bcast_S128_S128x1_0 : (⟨S128, .f32⟩ : BufTy).Contents (Elt F) → (⟨S128x1, .f32⟩ : BufTy).Contents (Elt F)),
    unary main_v643 main_v4028 (broadcastInDim S128x1 ![0] bcast_S128_S128x1_0 : (⟨S128, .f32⟩ : BufTy).Contents (Elt F) → (⟨S128x1, .f32⟩ : BufTy).Contents (Elt F)),
    unary main_v689 main_v4029 (broadcastInDim S128x1 ![0] bcast_S128_S128x1_0 : (⟨S128, .f32⟩ : BufTy).Contents (Elt F) → (⟨S128x1, .f32⟩ : BufTy).Contents (Elt F)),
    unary main_v738 main_v4030 (broadcastInDim S128x1 ![0] bcast_S128_S128x1_0 : (⟨S128, .f32⟩ : BufTy).Contents (Elt F) → (⟨S128x1, .f32⟩ : BufTy).Contents (Elt F)),
    unary main_v787 main_v4031 (broadcastInDim S128x1 ![0] bcast_S128_S128x1_0 : (⟨S128, .f32⟩ : BufTy).Contents (Elt F) → (⟨S128x1, .f32⟩ : BufTy).Contents (Elt F)),
    unary main_v839 main_v4032 (broadcastInDim S128x1 ![0] bcast_S128_S128x1_0 : (⟨S128, .f32⟩ : BufTy).Contents (Elt F) → (⟨S128x1, .f32⟩ : BufTy).Contents (Elt F)),
    unary main_v891 main_v4033 (broadcastInDim S128x1 ![0] bcast_S128_S128x1_0 : (⟨S128, .f32⟩ : BufTy).Contents (Elt F) → (⟨S128x1, .f32⟩ : BufTy).Contents (Elt F)),
    unary main_v946 main_v4034 (broadcastInDim S128x1 ![0] bcast_S128_S128x1_0 : (⟨S128, .f32⟩ : BufTy).Contents (Elt F) → (⟨S128x1, .f32⟩ : BufTy).Contents (Elt F)),
    unary main_v1001 main_v4035 (broadcastInDim S128x1 ![0] bcast_S128_S128x1_0 : (⟨S128, .f32⟩ : BufTy).Contents (Elt F) → (⟨S128x1, .f32⟩ : BufTy).Contents (Elt F)),
    unary main_v1059 main_v4036 (broadcastInDim S128x1 ![0] bcast_S128_S128x1_0 : (⟨S128, .f32⟩ : BufTy).Contents (Elt F) → (⟨S128x1, .f32⟩ : BufTy).Contents (Elt F)),
    unary main_v1117 main_v4037 (broadcastInDim S128x1 ![0] bcast_S128_S128x1_0 : (⟨S128, .f32⟩ : BufTy).Contents (Elt F) → (⟨S128x1, .f32⟩ : BufTy).Contents (Elt F)),
    unary main_v1178 main_v4038 (broadcastInDim S128x1 ![0] bcast_S128_S128x1_0 : (⟨S128, .f32⟩ : BufTy).Contents (Elt F) → (⟨S128x1, .f32⟩ : BufTy).Contents (Elt F)),
    unary main_v1239 main_v4039 (broadcastInDim S128x1 ![0] bcast_S128_S128x1_0 : (⟨S128, .f32⟩ : BufTy).Contents (Elt F) → (⟨S128x1, .f32⟩ : BufTy).Contents (Elt F)),
    unary main_v1303 main_v4040 (broadcastInDim S128x1 ![0] bcast_S128_S128x1_0 : (⟨S128, .f32⟩ : BufTy).Contents (Elt F) → (⟨S128x1, .f32⟩ : BufTy).Contents (Elt F)),
    unary main_v1367 main_v4041 (broadcastInDim S128x1 ![0] bcast_S128_S128x1_0 : (⟨S128, .f32⟩ : BufTy).Contents (Elt F) → (⟨S128x1, .f32⟩ : BufTy).Contents (Elt F)),
    unary main_v1434 main_v4042 (broadcastInDim S128x1 ![0] bcast_S128_S128x1_0 : (⟨S128, .f32⟩ : BufTy).Contents (Elt F) → (⟨S128x1, .f32⟩ : BufTy).Contents (Elt F)),
    unary main_v1501 main_v4043 (broadcastInDim S128x1 ![0] bcast_S128_S128x1_0 : (⟨S128, .f32⟩ : BufTy).Contents (Elt F) → (⟨S128x1, .f32⟩ : BufTy).Contents (Elt F)),
    unary main_v1571 main_v4044 (broadcastInDim S128x1 ![0] bcast_S128_S128x1_0 : (⟨S128, .f32⟩ : BufTy).Contents (Elt F) → (⟨S128x1, .f32⟩ : BufTy).Contents (Elt F)),
    unary main_v1641 main_v4045 (broadcastInDim S128x1 ![0] bcast_S128_S128x1_0 : (⟨S128, .f32⟩ : BufTy).Contents (Elt F) → (⟨S128x1, .f32⟩ : BufTy).Contents (Elt F)),
    unary main_v1714 main_v4046 (broadcastInDim S128x1 ![0] bcast_S128_S128x1_0 : (⟨S128, .f32⟩ : BufTy).Contents (Elt F) → (⟨S128x1, .f32⟩ : BufTy).Contents (Elt F)),
    unary main_v1787 main_v4047 (broadcastInDim S128x1 ![0] bcast_S128_S128x1_0 : (⟨S128, .f32⟩ : BufTy).Contents (Elt F) → (⟨S128x1, .f32⟩ : BufTy).Contents (Elt F)),
    unary main_v1863 main_v4048 (broadcastInDim S128x1 ![0] bcast_S128_S128x1_0 : (⟨S128, .f32⟩ : BufTy).Contents (Elt F) → (⟨S128x1, .f32⟩ : BufTy).Contents (Elt F)),
    unary main_v1939 main_v4049 (broadcastInDim S128x1 ![0] bcast_S128_S128x1_0 : (⟨S128, .f32⟩ : BufTy).Contents (Elt F) → (⟨S128x1, .f32⟩ : BufTy).Contents (Elt F)),
    unary main_v2018 main_v4050 (broadcastInDim S128x1 ![0] bcast_S128_S128x1_0 : (⟨S128, .f32⟩ : BufTy).Contents (Elt F) → (⟨S128x1, .f32⟩ : BufTy).Contents (Elt F)),
    unary main_v2097 main_v4051 (broadcastInDim S128x1 ![0] bcast_S128_S128x1_0 : (⟨S128, .f32⟩ : BufTy).Contents (Elt F) → (⟨S128x1, .f32⟩ : BufTy).Contents (Elt F)),
    unary main_v2179 main_v4052 (broadcastInDim S128x1 ![0] bcast_S128_S128x1_0 : (⟨S128, .f32⟩ : BufTy).Contents (Elt F) → (⟨S128x1, .f32⟩ : BufTy).Contents (Elt F)),
    unary main_v2261 main_v4053 (broadcastInDim S128x1 ![0] bcast_S128_S128x1_0 : (⟨S128, .f32⟩ : BufTy).Contents (Elt F) → (⟨S128x1, .f32⟩ : BufTy).Contents (Elt F)),
    unary main_v2346 main_v4054 (broadcastInDim S128x1 ![0] bcast_S128_S128x1_0 : (⟨S128, .f32⟩ : BufTy).Contents (Elt F) → (⟨S128x1, .f32⟩ : BufTy).Contents (Elt F)),
    unary main_v2431 main_v4055 (broadcastInDim S128x1 ![0] bcast_S128_S128x1_0 : (⟨S128, .f32⟩ : BufTy).Contents (Elt F) → (⟨S128x1, .f32⟩ : BufTy).Contents (Elt F)),
    unary main_v2519 main_v4056 (broadcastInDim S128x1 ![0] bcast_S128_S128x1_0 : (⟨S128, .f32⟩ : BufTy).Contents (Elt F) → (⟨S128x1, .f32⟩ : BufTy).Contents (Elt F)),
    unary main_v2607 main_v4057 (broadcastInDim S128x1 ![0] bcast_S128_S128x1_0 : (⟨S128, .f32⟩ : BufTy).Contents (Elt F) → (⟨S128x1, .f32⟩ : BufTy).Contents (Elt F)),
    unary main_v2698 main_v4058 (broadcastInDim S128x1 ![0] bcast_S128_S128x1_0 : (⟨S128, .f32⟩ : BufTy).Contents (Elt F) → (⟨S128x1, .f32⟩ : BufTy).Contents (Elt F)),
    unary main_v2789 main_v4059 (broadcastInDim S128x1 ![0] bcast_S128_S128x1_0 : (⟨S128, .f32⟩ : BufTy).Contents (Elt F) → (⟨S128x1, .f32⟩ : BufTy).Contents (Elt F)),
    unary main_v2883 main_v4060 (broadcastInDim S128x1 ![0] bcast_S128_S128x1_0 : (⟨S128, .f32⟩ : BufTy).Contents (Elt F) → (⟨S128x1, .f32⟩ : BufTy).Contents (Elt F)),
    unary main_v2977 main_v4061 (broadcastInDim S128x1 ![0] bcast_S128_S128x1_0 : (⟨S128, .f32⟩ : BufTy).Contents (Elt F) → (⟨S128x1, .f32⟩ : BufTy).Contents (Elt F)),
    unary main_v3074 main_v4062 (broadcastInDim S128x1 ![0] bcast_S128_S128x1_0 : (⟨S128, .f32⟩ : BufTy).Contents (Elt F) → (⟨S128x1, .f32⟩ : BufTy).Contents (Elt F)),
    unary main_v3171 main_v4063 (broadcastInDim S128x1 ![0] bcast_S128_S128x1_0 : (⟨S128, .f32⟩ : BufTy).Contents (Elt F) → (⟨S128x1, .f32⟩ : BufTy).Contents (Elt F)),
    unary main_v3271 main_v4064 (broadcastInDim S128x1 ![0] bcast_S128_S128x1_0 : (⟨S128, .f32⟩ : BufTy).Contents (Elt F) → (⟨S128x1, .f32⟩ : BufTy).Contents (Elt F)),
    unary main_v3371 main_v4065 (broadcastInDim S128x1 ![0] bcast_S128_S128x1_0 : (⟨S128, .f32⟩ : BufTy).Contents (Elt F) → (⟨S128x1, .f32⟩ : BufTy).Contents (Elt F)),
    unary main_v3474 main_v4066 (broadcastInDim S128x1 ![0] bcast_S128_S128x1_0 : (⟨S128, .f32⟩ : BufTy).Contents (Elt F) → (⟨S128x1, .f32⟩ : BufTy).Contents (Elt F)),
    unary main_v3577 main_v4067 (broadcastInDim S128x1 ![0] bcast_S128_S128x1_0 : (⟨S128, .f32⟩ : BufTy).Contents (Elt F) → (⟨S128x1, .f32⟩ : BufTy).Contents (Elt F)),
    unary main_v3683 main_v4068 (broadcastInDim S128x1 ![0] bcast_S128_S128x1_0 : (⟨S128, .f32⟩ : BufTy).Contents (Elt F) → (⟨S128x1, .f32⟩ : BufTy).Contents (Elt F)),
    unary main_v3789 main_v4069 (broadcastInDim S128x1 ![0] bcast_S128_S128x1_0 : (⟨S128, .f32⟩ : BufTy).Contents (Elt F) → (⟨S128x1, .f32⟩ : BufTy).Contents (Elt F)) ]

/-- Segment 135: 20 operations. -/
def seg135 : List (HloOp τ sig (Elt F)) :=
  [ unary main_v3898 main_v4070 (broadcastInDim S128x1 ![0] bcast_S128_S128x1_0 : (⟨S128, .f32⟩ : BufTy).Contents (Elt F) → (⟨S128x1, .f32⟩ : BufTy).Contents (Elt F)),
    unary main_v4007 main_v4071 (broadcastInDim S128x1 ![0] bcast_S128_S128x1_0 : (⟨S128, .f32⟩ : BufTy).Contents (Elt F) → (⟨S128x1, .f32⟩ : BufTy).Contents (Elt F)),
    nary ![main_v4008, main_v4009, main_v4010, main_v4011, main_v4012, main_v4013, main_v4014, main_v4015, main_v4016, main_v4017, main_v4018, main_v4019, main_v4020, main_v4021, main_v4022, main_v4023] main_v4072 (fun u => fn_main_v4072 (F := F) (u 0) (u 1) (u 2) (u 3) (u 4) (u 5) (u 6) (u 7) (u 8) (u 9) (u 10) (u 11) (u 12) (u 13) (u 14) (u 15)),
    nary ![main_v4024, main_v4025, main_v4026, main_v4027, main_v4028, main_v4029, main_v4030, main_v4031, main_v4032, main_v4033, main_v4034, main_v4035, main_v4036, main_v4037, main_v4038, main_v4039] main_v4073 (fun u => fn_main_v4073 (F := F) (u 0) (u 1) (u 2) (u 3) (u 4) (u 5) (u 6) (u 7) (u 8) (u 9) (u 10) (u 11) (u 12) (u 13) (u 14) (u 15)),
    nary ![main_v4040, main_v4041, main_v4042, main_v4043, main_v4044, main_v4045, main_v4046, main_v4047, main_v4048, main_v4049, main_v4050, main_v4051, main_v4052, main_v4053, main_v4054, main_v4055] main_v4074 (fun u => fn_main_v4074 (F := F) (u 0) (u 1) (u 2) (u 3) (u 4) (u 5) (u 6) (u 7) (u 8) (u 9) (u 10) (u 11) (u 12) (u 13) (u 14) (u 15)),
    nary ![main_v4056, main_v4057, main_v4058, main_v4059, main_v4060, main_v4061, main_v4062, main_v4063, main_v4064, main_v4065, main_v4066, main_v4067, main_v4068, main_v4069, main_v4070, main_v4071] main_v4075 (fun u => fn_main_v4075 (F := F) (u 0) (u 1) (u 2) (u 3) (u 4) (u 5) (u 6) (u 7) (u 8) (u 9) (u 10) (u 11) (u 12) (u 13) (u 14) (u 15)),
    nary ![main_v4072, main_v4073, main_v4074, main_v4075] main_v4076 (fun u => fn_main_v4076 (F := F) (u 0) (u 1) (u 2) (u 3)),
    unary main_arg4 main_v4077 ((transpose S64x1 [1, 0] · transposes_S1x64_S64x1_1_0) : (⟨S1x64, .f32⟩ : BufTy).Contents (Elt F) → (⟨S64x1, .f32⟩ : BufTy).Contents (Elt F)),
    binary main_v4076 main_v4077 main_v4078 ((fun l r => Host.dotGeneral dot_S128x64_S64x1_S128x1_1_0_0_1_n_n none l r) : (⟨S128x64, .f32⟩ : BufTy).Contents (Elt F) → (⟨S64x1, .f32⟩ : BufTy).Contents (Elt F) → (⟨S128x1, .f32⟩ : BufTy).Contents (Elt F)),
    unary main_arg5 main_v4079 (broadcastInDim S1x1 ![1] bcast_S1_S1x1_1 : (⟨S1, .f32⟩ : BufTy).Contents (Elt F) → (⟨S1x1, .f32⟩ : BufTy).Contents (Elt F)),
    unary main_v4079 main_v4080 (broadcastInDim S128x1 ![0, 1] bcast_S1x1_S128x1_0_1 : (⟨S1x1, .f32⟩ : BufTy).Contents (Elt F) → (⟨S128x1, .f32⟩ : BufTy).Contents (Elt F)),
    binary main_v4078 main_v4080 main_v4081 (addf : (⟨S128x1, .f32⟩ : BufTy).Contents (Elt F) → (⟨S128x1, .f32⟩ : BufTy).Contents (Elt F) → (⟨S128x1, .f32⟩ : BufTy).Contents (Elt F)),
    unary main_v4081 main_v4082 (Host.negf : (⟨S128x1, .f32⟩ : BufTy).Contents (Elt F) → (⟨S128x1, .f32⟩ : BufTy).Contents (Elt F)),
    unary main_v4082 main_v4083 (Host.exp : (⟨S128x1, .f32⟩ : BufTy).Contents (Elt F) → (⟨S128x1, .f32⟩ : BufTy).Contents (Elt F)),
    nullary main_cst_128 (constant S_ .f32 0x3F800000#32),
    unary main_cst_128 main_v4084 (broadcastInDim S128x1 ![] bcast_S_S128x1 : (⟨S_, .f32⟩ : BufTy).Contents (Elt F) → (⟨S128x1, .f32⟩ : BufTy).Contents (Elt F)),
    binary main_v4084 main_v4083 main_v4085 (addf : (⟨S128x1, .f32⟩ : BufTy).Contents (Elt F) → (⟨S128x1, .f32⟩ : BufTy).Contents (Elt F) → (⟨S128x1, .f32⟩ : BufTy).Contents (Elt F)),
    nullary main_cst_129 (constant S_ .f32 0x3F800000#32),
    unary main_cst_129 main_v4086 (broadcastInDim S128x1 ![] bcast_S_S128x1 : (⟨S_, .f32⟩ : BufTy).Contents (Elt F) → (⟨S128x1, .f32⟩ : BufTy).Contents (Elt F)),
    binary main_v4086 main_v4085 main_v4087 (Host.divf : (⟨S128x1, .f32⟩ : BufTy).Contents (Elt F) → (⟨S128x1, .f32⟩ : BufTy).Contents (Elt F) → (⟨S128x1, .f32⟩ : BufTy).Contents (Elt F)) ]

end Cert.ReferenceIdeal.RefRun

end
-- ==== Proof.RefChunks.lean ====
import proofs.«138672_j88897233092836_1_alg».proof.Proof.RefOps
import proofs.«138672_j88897233092836_1_alg».proof.Proof.RefSegs0
import proofs.«138672_j88897233092836_1_alg».proof.Proof.RefSegs1
import proofs.«138672_j88897233092836_1_alg».proof.Proof.RefSegs2
import proofs.«138672_j88897233092836_1_alg».proof.Proof.RefSegs3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations that gather the embedded sequences. -/
def pre : List (HloOp τ sig (Elt F)) := seg0
/-- The operations of filter 0 (2 rows, 511 positions): its rows cut out, the contraction, the shifted columns added up, the bias, tanh, the maximum over the positions. -/
def filt0 : List (HloOp τ sig (Elt F)) := seg1
/-- The operations of filter 1 (2 rows, 511 positions): its rows cut out, the contraction, the shifted columns added up, the bias, tanh, the maximum over the positions. -/
def filt1 : List (HloOp τ sig (Elt F)) := seg2
/-- The operations of filter 2 (3 rows, 510 positions): its rows cut out, the contraction, the shifted columns added up, the bias, tanh, the maximum over the positions. -/
def filt2 : List (HloOp τ sig (Elt F)) := seg3 ++ (seg4)
/-- The operations of filter 3 (3 rows, 510 positions): its rows cut out, the contraction, the shifted columns added up, the bias, tanh, the maximum over the positions. -/
def filt3 : List (HloOp τ sig (Elt F)) := seg5
/-- The operations of filter 4 (4 rows, 509 positions): its rows cut out, the contraction, the shifted columns added up, the bias, tanh, the maximum over the positions. -/
def filt4 : List (HloOp τ sig (Elt F)) := seg6
/-- The operations of filter 5 (4 rows, 509 positions): its rows cut out, the contraction, the shifted columns added up, the bias, tanh, the maximum over the positions. -/
def filt5 : List (HloOp τ sig (Elt F)) := seg7 ++ (seg8)
/-- The operations of filter 6 (5 rows, 508 positions): its rows cut out, the contraction, the shifted columns added up, the bias, tanh, the maximum over the positions. -/
def filt6 : List (HloOp τ sig (Elt F)) := seg9
/-- The operations of filter 7 (5 rows, 508 positions): its rows cut out, the contraction, the shifted columns added up, the bias, tanh, the maximum over the positions. -/
def filt7 : List (HloOp τ sig (Elt F)) := seg10 ++ (seg11)
/-- The operations of filter 8 (6 rows, 507 positions): its rows cut out, the contraction, the shifted columns added up, the bias, tanh, the maximum over the positions. -/
def filt8 : List (HloOp τ sig (Elt F)) := seg12
/-- The operations of filter 9 (6 rows, 507 positions): its rows cut out, the contraction, the shifted columns added up, the bias, tanh, the maximum over the positions. -/
def filt9 : List (HloOp τ sig (Elt F)) := seg13 ++ (seg14)
/-- The operations of filter 10 (7 rows, 506 positions): its rows cut out, the contraction, the shifted columns added up, the bias, tanh, the maximum over the positions. -/
def filt10 : List (HloOp τ sig (Elt F)) := seg15
/-- The operations of filter 11 (7 rows, 506 positions): its rows cut out, the contraction, the shifted columns added up, the bias, tanh, the maximum over the positions. -/
def filt11 : List (HloOp τ sig (Elt F)) := seg16 ++ (seg17)
/-- The operations of filter 12 (8 rows, 505 positions): its rows cut out, the contraction, the shifted columns added up, the bias, tanh, the maximum over the positions. -/
def filt12 : List (HloOp τ sig (Elt F)) := seg18
/-- The operations of filter 13 (8 rows, 505 positions): its rows cut out, the contraction, the shifted columns added up, the bias, tanh, the maximum over the positions. -/
def filt13 : List (HloOp τ sig (Elt F)) := seg19 ++ (seg20)
/-- The operations of filter 14 (9 rows, 504 positions): its rows cut out, the contraction, the shifted columns added up, the bias, tanh, the maximum over the positions. -/
def filt14 : List (HloOp τ sig (Elt F)) := seg21 ++ (seg22)
/-- The operations of filter 15 (9 rows, 504 positions): its rows cut out, the contraction, the shifted columns added up, the bias, tanh, the maximum over the positions. -/
def filt15 : List (HloOp τ sig (Elt F)) := seg23
/-- The operations of filter 16 (10 rows, 503 positions): its rows cut out, the contraction, the shifted columns added up, the bias, tanh, the maximum over the positions. -/
def filt16 : List (HloOp τ sig (Elt F)) := seg24 ++ (seg25)
/-- The operations of filter 17 (10 rows, 503 positions): its rows cut out, the contraction, the shifted columns added up, the bias, tanh, the maximum over the positions. -/
def filt17 : List (HloOp τ sig (Elt F)) := seg26 ++ (seg27)
/-- The operations of filter 18 (11 rows, 502 positions): its rows cut out, the contraction, the shifted columns added up, the bias, tanh, the maximum over the positions. -/
def filt18 : List (HloOp τ sig (Elt F)) := seg28
/-- The operations of filter 19 (11 rows, 502 positions): its rows cut out, the contraction, the shifted columns added up, the bias, tanh, the maximum over the positions. -/
def filt19 : List (HloOp τ sig (Elt F)) := seg29 ++ (seg30)
/-- The operations of filter 20 (12 rows, 501 positions): its rows cut out, the contraction, the shifted columns added up, the bias, tanh, the maximum over the positions. -/
def filt20 : List (HloOp τ sig (Elt F)) := seg31 ++ (seg32)
/-- The operations of filter 21 (12 rows, 501 positions): its rows cut out, the contraction, the shifted columns added up, the bias, tanh, the maximum over the positions. -/
def filt21 : List (HloOp τ sig (Elt F)) := seg33 ++ (seg34)
/-- The operations of filter 22 (13 rows, 500 positions): its rows cut out, the contraction, the shifted columns added up, the bias, tanh, the maximum over the positions. -/
def filt22 : List (HloOp τ sig (Elt F)) := seg35 ++ (seg36)
/-- The operations of filter 23 (13 rows, 500 positions): its rows cut out, the contraction, the shifted columns added up, the bias, tanh, the maximum over the positions. -/
def filt23 : List (HloOp τ sig (Elt F)) := seg37
/-- The operations of filter 24 (14 rows, 499 positions): its rows cut out, the contraction, the shifted columns added up, the bias, tanh, the maximum over the positions. -/
def filt24 : List (HloOp τ sig (Elt F)) := seg38 ++ (seg39)
/-- The operations of filter 25 (14 rows, 499 positions): its rows cut out, the contraction, the shifted columns added up, the bias, tanh, the maximum over the positions. -/
def filt25 : List (HloOp τ sig (Elt F)) := seg40 ++ (seg41)
/-- The operations of filter 26 (15 rows, 498 positions): its rows cut out, the contraction, the shifted columns added up, the bias, tanh, the maximum over the positions. -/
def filt26 : List (HloOp τ sig (Elt F)) := seg42 ++ (seg43)
/-- The operations of filter 27 (15 rows, 498 positions): its rows cut out, the contraction, the shifted columns added up, the bias, tanh, the maximum over the positions. -/
def filt27 : List (HloOp τ sig (Elt F)) := seg44 ++ (seg45)
/-- The operations of filter 28 (16 rows, 497 positions): its rows cut out, the contraction, the shifted columns added up, the bias, tanh, the maximum over the positions. -/
def filt28 : List (HloOp τ sig (Elt F)) := seg46 ++ (seg47)
/-- The operations of filter 29 (16 rows, 497 positions): its rows cut out, the contraction, the shifted columns added up, the bias, tanh, the maximum over the positions. -/
def filt29 : List (HloOp τ sig (Elt F)) := seg48 ++ (seg49)
/-- The operations of filter 30 (17 rows, 496 positions): its rows cut out, the contraction, the shifted columns added up, the bias, tanh, the maximum over the positions. -/
def filt30 : List (HloOp τ sig (Elt F)) := seg50 ++ (seg51)
/-- The operations of filter 31 (17 rows, 496 positions): its rows cut out, the contraction, the shifted columns added up, the bias, tanh, the maximum over the positions. -/
def filt31 : List (HloOp τ sig (Elt F)) := seg52 ++ (seg53)
/-- The operations of filter 32 (18 rows, 495 positions): its rows cut out, the contraction, the shifted columns added up, the bias, tanh, the maximum over the positions. -/
def filt32 : List (HloOp τ sig (Elt F)) := seg54 ++ (seg55)
/-- The operations of filter 33 (18 rows, 495 positions): its rows cut out, the contraction, the shifted columns added up, the bias, tanh, the maximum over the positions. -/
def filt33 : List (HloOp τ sig (Elt F)) := seg56 ++ (seg57)
/-- The operations of filter 34 (19 rows, 494 positions): its rows cut out, the contraction, the shifted columns added up, the bias, tanh, the maximum over the positions. -/
def filt34 : List (HloOp τ sig (Elt F)) := seg58 ++ (seg59 ++ (seg60))
/-- The operations of filter 35 (19 rows, 494 positions): its rows cut out, the contraction, the shifted columns added up, the bias, tanh, the maximum over the positions. -/
def filt35 : List (HloOp τ sig (Elt F)) := seg61 ++ (seg62)
/-- The operations of filter 36 (20 rows, 493 positions): its rows cut out, the contraction, the shifted columns added up, the bias, tanh, the maximum over the positions. -/
def filt36 : List (HloOp τ sig (Elt F)) := seg63 ++ (seg64)
/-- The operations of filter 37 (20 rows, 493 positions): its rows cut out, the contraction, the shifted columns added up, the bias, tanh, the maximum over the positions. -/
def filt37 : List (HloOp τ sig (Elt F)) := seg65 ++ (seg66)
/-- The operations of filter 38 (21 rows, 492 positions): its rows cut out, the contraction, the shifted columns added up, the bias, tanh, the maximum over the positions. -/
def filt38 : List (HloOp τ sig (Elt F)) := seg67 ++ (seg68)
/-- The operations of filter 39 (21 rows, 492 positions): its rows cut out, the contraction, the shifted columns added up, the bias, tanh, the maximum over the positions. -/
def filt39 : List (HloOp τ sig (Elt F)) := seg69 ++ (seg70 ++ (seg71))
/-- The operations of filter 40 (22 rows, 491 positions): its rows cut out, the contraction, the shifted columns added up, the bias, tanh, the maximum over the positions. -/
def filt40 : List (HloOp τ sig (Elt F)) := seg72 ++ (seg73)
/-- The operations of filter 41 (22 rows, 491 positions): its rows cut out, the contraction, the shifted columns added up, the bias, tanh, the maximum over the positions. -/
def filt41 : List (HloOp τ sig (Elt F)) := seg74 ++ (seg75)
/-- The operations of filter 42 (23 rows, 490 positions): its rows cut out, the contraction, the shifted columns added up, the bias, tanh, the maximum over the positions. -/
def filt42 : List (HloOp τ sig (Elt F)) := seg76 ++ (seg77 ++ (seg78))
/-- The operations of filter 43 (23 rows, 490 positions): its rows cut out, the contraction, the shifted columns added up, the bias, tanh, the maximum over the positions. -/
def filt43 : List (HloOp τ sig (Elt F)) := seg79 ++ (seg80)
/-- The operations of filter 44 (24 rows, 489 positions): its rows cut out, the contraction, the shifted columns added up, the bias, tanh, the maximum over the positions. -/
def filt44 : List (HloOp τ sig (Elt F)) := seg81 ++ (seg82)
/-- The operations of filter 45 (24 rows, 489 positions): its rows cut out, the contraction, the shifted columns added up, the bias, tanh, the maximum over the positions. -/
def filt45 : List (HloOp τ sig (Elt F)) := seg83 ++ (seg84 ++ (seg85))
/-- The operations of filter 46 (25 rows, 488 positions): its rows cut out, the contraction, the shifted columns added up, the bias, tanh, the maximum over the positions. -/
def filt46 : List (HloOp τ sig (Elt F)) := seg86 ++ (seg87)
/-- The operations of filter 47 (25 rows, 488 positions): its rows cut out, the contraction, the shifted columns added up, the bias, tanh, the maximum over the positions. -/
def filt47 : List (HloOp τ sig (Elt F)) := seg88 ++ (seg89 ++ (seg90))
/-- The operations of filter 48 (26 rows, 487 positions): its rows cut out, the contraction, the shifted columns added up, the bias, tanh, the maximum over the positions. -/
def filt48 : List (HloOp τ sig (Elt F)) := seg91 ++ (seg92)
/-- The operations of filter 49 (26 rows, 487 positions): its rows cut out, the contraction, the shifted columns added up, the bias, tanh, the maximum over the positions. -/
def filt49 : List (HloOp τ sig (Elt F)) := seg93 ++ (seg94 ++ (seg95))
/-- The operations of filter 50 (27 rows, 486 positions): its rows cut out, the contraction, the shifted columns added up, the bias, tanh, the maximum over the positions. -/
def filt50 : List (HloOp τ sig (Elt F)) := seg96 ++ (seg97)
/-- The operations of filter 51 (27 rows, 486 positions): its rows cut out, the contraction, the shifted columns added up, the bias, tanh, the maximum over the positions. -/
def filt51 : List (HloOp τ sig (Elt F)) := seg98 ++ (seg99 ++ (seg100))
/-- The operations of filter 52 (28 rows, 485 positions): its rows cut out, the contraction, the shifted columns added up, the bias, tanh, the maximum over the positions. -/
def filt52 : List (HloOp τ sig (Elt F)) := seg101 ++ (seg102)
/-- The operations of filter 53 (28 rows, 485 positions): its rows cut out, the contraction, the shifted columns added up, the bias, tanh, the maximum over the positions. -/
def filt53 : List (HloOp τ sig (Elt F)) := seg103 ++ (seg104 ++ (seg105))
/-- The operations of filter 54 (29 rows, 484 positions): its rows cut out, the contraction, the shifted columns added up, the bias, tanh, the maximum over the positions. -/
def filt54 : List (HloOp τ sig (Elt F)) := seg106 ++ (seg107 ++ (seg108))
/-- The operations of filter 55 (29 rows, 484 positions): its rows cut out, the contraction, the shifted columns added up, the bias, tanh, the maximum over the positions. -/
def filt55 : List (HloOp τ sig (Elt F)) := seg109 ++ (seg110)
/-- The operations of filter 56 (30 rows, 483 positions): its rows cut out, the contraction, the shifted columns added up, the bias, tanh, the maximum over the positions. -/
def filt56 : List (HloOp τ sig (Elt F)) := seg111 ++ (seg112 ++ (seg113))
/-- The operations of filter 57 (30 rows, 483 positions): its rows cut out, the contraction, the shifted columns added up, the bias, tanh, the maximum over the positions. -/
def filt57 : List (HloOp τ sig (Elt F)) := seg114 ++ (seg115 ++ (seg116))
/-- The operations of filter 58 (31 rows, 482 positions): its rows cut out, the contraction, the shifted columns added up, the bias, tanh, the maximum over the positions. -/
def filt58 : List (HloOp τ sig (Elt F)) := seg117 ++ (seg118)
/-- The operations of filter 59 (31 rows, 482 positions): its rows cut out, the contraction, the shifted columns added up, the bias, tanh, the maximum over the positions. -/
def filt59 : List (HloOp τ sig (Elt F)) := seg119 ++ (seg120 ++ (seg121))
/-- The operations of filter 60 (32 rows, 481 positions): its rows cut out, the contraction, the shifted columns added up, the bias, tanh, the maximum over the positions. -/
def filt60 : List (HloOp τ sig (Elt F)) := seg122 ++ (seg123 ++ (seg124))
/-- The operations of filter 61 (32 rows, 481 positions): its rows cut out, the contraction, the shifted columns added up, the bias, tanh, the maximum over the positions. -/
def filt61 : List (HloOp τ sig (Elt F)) := seg125 ++ (seg126 ++ (seg127))
/-- The operations of filter 62 (33 rows, 480 positions): its rows cut out, the contraction, the shifted columns added up, the bias, tanh, the maximum over the positions. -/
def filt62 : List (HloOp τ sig (Elt F)) := seg128 ++ (seg129 ++ (seg130))
/-- The operations of filter 63 (33 rows, 480 positions): its rows cut out, the contraction, the shifted columns added up, the bias, tanh, the maximum over the positions. -/
def filt63 : List (HloOp τ sig (Elt F)) := seg131 ++ (seg132)
/-- The closing operations: the 64 feature vectors as columns, concatenated, then the linear layer and the logistic function. -/
def suf : List (HloOp τ sig (Elt F)) := seg133 ++ (seg134 ++ (seg135))

set_option maxRecDepth 8192 in
theorem ops_part0_segs : (ops_part0 : List (HloOp τ sig (Elt F))) = seg0 ++ (seg1 ++ (seg2 ++ (seg3))) := rfl
set_option maxRecDepth 8192 in
theorem ops_part1_segs : (ops_part1 : List (HloOp τ sig (Elt F))) = seg4 ++ (seg5 ++ (seg6 ++ (seg7))) := rfl
set_option maxRecDepth 8192 in
theorem ops_part2_segs : (ops_part2 : List (HloOp τ sig (Elt F))) = seg8 ++ (seg9 ++ (seg10)) := rfl
set_option maxRecDepth 8192 in
theorem ops_part3_segs : (ops_part3 : List (HloOp τ sig (Elt F))) = seg11 ++ (seg12 ++ (seg13)) := rfl
set_option maxRecDepth 8192 in
theorem ops_part4_segs : (ops_part4 : List (HloOp τ sig (Elt F))) = seg14 ++ (seg15 ++ (seg16)) := rfl
set_option maxRecDepth 8192 in
theorem ops_part5_segs : (ops_part5 : List (HloOp τ sig (Elt F))) = seg17 ++ (seg18 ++ (seg19)) := rfl
set_option maxRecDepth 8192 in
theorem ops_part6_segs : (ops_part6 : List (HloOp τ sig (Elt F))) = seg20 ++ (seg21) := rfl
set_option maxRecDepth 8192 in
theorem ops_part7_segs : (ops_part7 : List (HloOp τ sig (Elt F))) = seg22 ++ (seg23 ++ (seg24)) := rfl
set_option maxRecDepth 8192 in
theorem ops_part8_segs : (ops_part8 : List (HloOp τ sig (Elt F))) = seg25 ++ (seg26) := rfl
set_option maxRecDepth 8192 in
theorem ops_part9_segs : (ops_part9 : List (HloOp τ sig (Elt F))) = seg27 ++ (seg28 ++ (seg29)) := rfl
set_option maxRecDepth 8192 in
theorem ops_part10_segs : (ops_part10 : List (HloOp τ sig (Elt F))) = seg30 ++ (seg31) := rfl
set_option maxRecDepth 8192 in
theorem ops_part11_segs : (ops_part11 : List (HloOp τ sig (Elt F))) = seg32 ++ (seg33) := rfl
set_option maxRecDepth 8192 in
theorem ops_part12_segs : (ops_part12 : List (HloOp τ sig (Elt F))) = seg34 ++ (seg35) := rfl
set_option maxRecDepth 8192 in
theorem ops_part13_segs : (ops_part13 : List (HloOp τ sig (Elt F))) = seg36 ++ (seg37 ++ (seg38)) := rfl
set_option maxRecDepth 8192 in
theorem ops_part14_segs : (ops_part14 : List (HloOp τ sig (Elt F))) = seg39 ++ (seg40) := rfl
set_option maxRecDepth 8192 in
theorem ops_part15_segs : (ops_part15 : List (HloOp τ sig (Elt F))) = seg41 ++ (seg42) := rfl
set_option maxRecDepth 8192 in
theorem ops_part16_segs : (ops_part16 : List (HloOp τ sig (Elt F))) = seg43 ++ (seg44) := rfl
set_option maxRecDepth 8192 in
theorem ops_part17_segs : (ops_part17 : List (HloOp τ sig (Elt F))) = seg45 ++ (seg46) := rfl
set_option maxRecDepth 8192 in
theorem ops_part18_segs : (ops_part18 : List (HloOp τ sig (Elt F))) = seg47 ++ (seg48) := rfl
set_option maxRecDepth 8192 in
theorem ops_part19_segs : (ops_part19 : List (HloOp τ sig (Elt F))) = seg49 ++ (seg50) := rfl
set_option maxRecDepth 8192 in
theorem ops_part20_segs : (ops_part20 : List (HloOp τ sig (Elt F))) = seg51 ++ (seg52) := rfl
set_option maxRecDepth 8192 in
theorem ops_part21_segs : (ops_part21 : List (HloOp τ sig (Elt F))) = seg53 ++ (seg54) := rfl
set_option maxRecDepth 8192 in
theorem ops_part22_segs : (ops_part22 : List (HloOp τ sig (Elt F))) = seg55 ++ (seg56) := rfl
set_option maxRecDepth 8192 in
theorem ops_part23_segs : (ops_part23 : List (HloOp τ sig (Elt F))) = seg57 ++ (seg58) := rfl
set_option maxRecDepth 8192 in
theorem ops_part24_segs : (ops_part24 : List (HloOp τ sig (Elt F))) = seg59 := rfl
set_option maxRecDepth 8192 in
theorem ops_part25_segs : (ops_part25 : List (HloOp τ sig (Elt F))) = seg60 ++ (seg61) := rfl
set_option maxRecDepth 8192 in
theorem ops_part26_segs : (ops_part26 : List (HloOp τ sig (Elt F))) = seg62 ++ (seg63) := rfl
set_option maxRecDepth 8192 in
theorem ops_part27_segs : (ops_part27 : List (HloOp τ sig (Elt F))) = seg64 ++ (seg65) := rfl
set_option maxRecDepth 8192 in
theorem ops_part28_segs : (ops_part28 : List (HloOp τ sig (Elt F))) = seg66 ++ (seg67) := rfl
set_option maxRecDepth 8192 in
theorem ops_part29_segs : (ops_part29 : List (HloOp τ sig (Elt F))) = seg68 ++ (seg69) := rfl
set_option maxRecDepth 8192 in
theorem ops_part30_segs : (ops_part30 : List (HloOp τ sig (Elt F))) = seg70 := rfl
set_option maxRecDepth 8192 in
theorem ops_part31_segs : (ops_part31 : List (HloOp τ sig (Elt F))) = seg71 ++ (seg72) := rfl
set_option maxRecDepth 8192 in
theorem ops_part32_segs : (ops_part32 : List (HloOp τ sig (Elt F))) = seg73 ++ (seg74) := rfl
set_option maxRecDepth 8192 in
theorem ops_part33_segs : (ops_part33 : List (HloOp τ sig (Elt F))) = seg75 ++ (seg76) := rfl
set_option maxRecDepth 8192 in
theorem ops_part34_segs : (ops_part34 : List (HloOp τ sig (Elt F))) = seg77 := rfl
set_option maxRecDepth 8192 in
theorem ops_part35_segs : (ops_part35 : List (HloOp τ sig (Elt F))) = seg78 ++ (seg79) := rfl
set_option maxRecDepth 8192 in
theorem ops_part36_segs : (ops_part36 : List (HloOp τ sig (Elt F))) = seg80 ++ (seg81) := rfl
set_option maxRecDepth 8192 in
theorem ops_part37_segs : (ops_part37 : List (HloOp τ sig (Elt F))) = seg82 ++ (seg83) := rfl
set_option maxRecDepth 8192 in
theorem ops_part38_segs : (ops_part38 : List (HloOp τ sig (Elt F))) = seg84 := rfl
set_option maxRecDepth 8192 in
theorem ops_part39_segs : (ops_part39 : List (HloOp τ sig (Elt F))) = seg85 ++ (seg86) := rfl
set_option maxRecDepth 8192 in
theorem ops_part40_segs : (ops_part40 : List (HloOp τ sig (Elt F))) = seg87 ++ (seg88) := rfl
set_option maxRecDepth 8192 in
theorem ops_part41_segs : (ops_part41 : List (HloOp τ sig (Elt F))) = seg89 := rfl
set_option maxRecDepth 8192 in
theorem ops_part42_segs : (ops_part42 : List (HloOp τ sig (Elt F))) = seg90 ++ (seg91) := rfl
set_option maxRecDepth 8192 in
theorem ops_part43_segs : (ops_part43 : List (HloOp τ sig (Elt F))) = seg92 ++ (seg93) := rfl
set_option maxRecDepth 8192 in
theorem ops_part44_segs : (ops_part44 : List (HloOp τ sig (Elt F))) = seg94 := rfl
set_option maxRecDepth 8192 in
theorem ops_part45_segs : (ops_part45 : List (HloOp τ sig (Elt F))) = seg95 ++ (seg96) := rfl
set_option maxRecDepth 8192 in
theorem ops_part46_segs : (ops_part46 : List (HloOp τ sig (Elt F))) = seg97 ++ (seg98) := rfl
set_option maxRecDepth 8192 in
theorem ops_part47_segs : (ops_part47 : List (HloOp τ sig (Elt F))) = seg99 := rfl
set_option maxRecDepth 8192 in
theorem ops_part48_segs : (ops_part48 : List (HloOp τ sig (Elt F))) = seg100 ++ (seg101) := rfl
set_option maxRecDepth 8192 in
theorem ops_part49_segs : (ops_part49 : List (HloOp τ sig (Elt F))) = seg102 ++ (seg103) := rfl
set_option maxRecDepth 8192 in
theorem ops_part50_segs : (ops_part50 : List (HloOp τ sig (Elt F))) = seg104 := rfl
set_option maxRecDepth 8192 in
theorem ops_part51_segs : (ops_part51 : List (HloOp τ sig (Elt F))) = seg105 ++ (seg106) := rfl
set_option maxRecDepth 8192 in
theorem ops_part52_segs : (ops_part52 : List (HloOp τ sig (Elt F))) = seg107 := rfl
set_option maxRecDepth 8192 in
theorem ops_part53_segs : (ops_part53 : List (HloOp τ sig (Elt F))) = seg108 ++ (seg109) := rfl
set_option maxRecDepth 8192 in
theorem ops_part54_segs : (ops_part54 : List (HloOp τ sig (Elt F))) = seg110 ++ (seg111) := rfl
set_option maxRecDepth 8192 in
theorem ops_part55_segs : (ops_part55 : List (HloOp τ sig (Elt F))) = seg112 := rfl
set_option maxRecDepth 8192 in
theorem ops_part56_segs : (ops_part56 : List (HloOp τ sig (Elt F))) = seg113 ++ (seg114) := rfl
set_option maxRecDepth 8192 in
theorem ops_part57_segs : (ops_part57 : List (HloOp τ sig (Elt F))) = seg115 := rfl
set_option maxRecDepth 8192 in
theorem ops_part58_segs : (ops_part58 : List (HloOp τ sig (Elt F))) = seg116 ++ (seg117) := rfl
set_option maxRecDepth 8192 in
theorem ops_part59_segs : (ops_part59 : List (HloOp τ sig (Elt F))) = seg118 ++ (seg119) := rfl
set_option maxRecDepth 8192 in
theorem ops_part60_segs : (ops_part60 : List (HloOp τ sig (Elt F))) = seg120 := rfl
set_option maxRecDepth 8192 in
theorem ops_part61_segs : (ops_part61 : List (HloOp τ sig (Elt F))) = seg121 ++ (seg122) := rfl
set_option maxRecDepth 8192 in
theorem ops_part62_segs : (ops_part62 : List (HloOp τ sig (Elt F))) = seg123 := rfl
set_option maxRecDepth 8192 in
theorem ops_part63_segs : (ops_part63 : List (HloOp τ sig (Elt F))) = seg124 ++ (seg125) := rfl
set_option maxRecDepth 8192 in
theorem ops_part64_segs : (ops_part64 : List (HloOp τ sig (Elt F))) = seg126 := rfl
set_option maxRecDepth 8192 in
theorem ops_part65_segs : (ops_part65 : List (HloOp τ sig (Elt F))) = seg127 ++ (seg128) := rfl
set_option maxRecDepth 8192 in
theorem ops_part66_segs : (ops_part66 : List (HloOp τ sig (Elt F))) = seg129 := rfl
set_option maxRecDepth 8192 in
theorem ops_part67_segs : (ops_part67 : List (HloOp τ sig (Elt F))) = seg130 ++ (seg131) := rfl
set_option maxRecDepth 8192 in
theorem ops_part68_segs : (ops_part68 : List (HloOp τ sig (Elt F))) = seg132 ++ (seg133) := rfl
set_option maxRecDepth 8192 in
theorem ops_part69_segs : (ops_part69 : List (HloOp τ sig (Elt F))) = seg134 := rfl
set_option maxRecDepth 8192 in
theorem ops_part70_segs : (ops_part70 : List (HloOp τ sig (Elt F))) = seg135 := rfl

/-- The list of all chunks, in order. -/
def chunked : List (HloOp τ sig (Elt F)) :=
  pre ++ (filt0 ++ (filt1 ++ (filt2 ++ (filt3 ++ (filt4 ++ (filt5 ++ (filt6 ++ (filt7 ++ (filt8 ++ (filt9 ++ (filt10 ++ (filt11 ++ (filt12 ++ (filt13 ++ (filt14 ++ (filt15 ++ (filt16 ++ (filt17 ++ (filt18 ++ (filt19 ++ (filt20 ++ (filt21 ++ (filt22 ++ (filt23 ++ (filt24 ++ (filt25 ++ (filt26 ++ (filt27 ++ (filt28 ++ (filt29 ++ (filt30 ++ (filt31 ++ (filt32 ++ (filt33 ++ (filt34 ++ (filt35 ++ (filt36 ++ (filt37 ++ (filt38 ++ (filt39 ++ (filt40 ++ (filt41 ++ (filt42 ++ (filt43 ++ (filt44 ++ (filt45 ++ (filt46 ++ (filt47 ++ (filt48 ++ (filt49 ++ (filt50 ++ (filt51 ++ (filt52 ++ (filt53 ++ (filt54 ++ (filt55 ++ (filt56 ++ (filt57 ++ (filt58 ++ (filt59 ++ (filt60 ++ (filt61 ++ (filt62 ++ (filt63 ++ (suf)))))))))))))))))))))))))))))))))))))))))))))))))))))))))))))))))

/-- The cut list is the list of @main's operations: both are the segments in order. -/
theorem ops_eq : (ops : List (HloOp τ sig (Elt F))) = chunked := by
  simp only [ops, chunked, ops_part0_segs, ops_part1_segs, ops_part2_segs, ops_part3_segs, ops_part4_segs, ops_part5_segs, ops_part6_segs, ops_part7_segs, ops_part8_segs, ops_part9_segs, ops_part10_segs, ops_part11_segs, ops_part12_segs, ops_part13_segs, ops_part14_segs, ops_part15_segs, ops_part16_segs, ops_part17_segs, ops_part18_segs, ops_part19_segs, ops_part20_segs, ops_part21_segs, ops_part22_segs, ops_part23_segs, ops_part24_segs, ops_part25_segs, ops_part26_segs, ops_part27_segs, ops_part28_segs, ops_part29_segs, ops_part30_segs, ops_part31_segs, ops_part32_segs, ops_part33_segs, ops_part34_segs, ops_part35_segs, ops_part36_segs, ops_part37_segs, ops_part38_segs, ops_part39_segs, ops_part40_segs, ops_part41_segs, ops_part42_segs, ops_part43_segs, ops_part44_segs, ops_part45_segs, ops_part46_segs, ops_part47_segs, ops_part48_segs, ops_part49_segs, ops_part50_segs, ops_part51_segs, ops_part52_segs, ops_part53_segs, ops_part54_segs, ops_part55_segs, ops_part56_segs, ops_part57_segs, ops_part58_segs, ops_part59_segs, ops_part60_segs, ops_part61_segs, ops_part62_segs, ops_part63_segs, ops_part64_segs, ops_part65_segs, ops_part66_segs, ops_part67_segs, ops_part68_segs, ops_part69_segs, ops_part70_segs, pre, filt0, filt1, filt2, filt3, filt4, filt5, filt6, filt7, filt8, filt9, filt10, filt11, filt12, filt13, filt14, filt15, filt16, filt17, filt18, filt19, filt20, filt21, filt22, filt23, filt24, filt25, filt26, filt27, filt28, filt29, filt30, filt31, filt32, filt33, filt34, filt35, filt36, filt37, filt38, filt39, filt40, filt41, filt42, filt43, filt44, filt45, filt46, filt47, filt48, filt49, filt50, filt51, filt52, filt53, filt54, filt55, filt56, filt57, filt58, filt59, filt60, filt61, filt62, filt63, suf, List.append_assoc]

end Cert.ReferenceIdeal.RefRun

end
-- ==== Proof.RefLemmas.lean ====
/-
  One filter of the reference, generically in its number of rows `k` and its number of positions `L`: how its rows are
  cut out of the filter table, what one shifted column of its contraction with the sequences is (one tap of the
  convolution), and how the bias, `tanh` and the maximum over the positions turn the sum of the `k` shifted columns into
  the feature of the specification.
-/
import proofs.«138672_j88897233092836_1_alg».proof.Proof.Spec
import proofs.«138672_j88897233092836_1_alg».proof.Proof.LibConvRead

noncomputable section

namespace ConvRef

open Idealize.ShloMosaic Idealize.ShloMosaic.ValueIdx ConvPool

/-- The rows of filter `o` (a `[1, k, 300]` cut of the table, cast to `[k, 300]`) read at `(j, e)`. -/
theorem rows_apply {k : ℕ} (o : ℕ) (W : FVec Ideal ⟨3, ![64, 33, 300]⟩ .f32)
    (hs : (⟨3, ![64, 33, 300]⟩ : Shape).Slices ![o, 0, 0] ⟨3, ![1, k, 300]⟩)
    (hc : (⟨3, ![1, k, 300]⟩ : Shape).ShapeCasts ⟨2, ![k, 300]⟩) (j : Fin k) (e : Fin 300) :
    shapeCast ⟨2, ![k, 300]⟩ (extractStridedSlice ⟨3, ![1, k, 300]⟩ ![o, 0, 0] W hs) hc (ix2 j e)
      = W (ix3 ⟨o, by have := hs.2 0; simp at this; omega⟩ ⟨j.val, by have := hs.2 1; have := j.isLt; simp at *; omega⟩ e) := by
  rw [shapeCast_1ab_ab_apply, ConvRead.slice3_axes01_eq]
  rfl

/-- Column `j` of the contraction, shifted by `j` positions, is tap `j` of the convolution. -/
theorem tap_apply {k : ℕ} (i : Fin 64) (E : FVec Ideal ⟨3, ![128, 512, 300]⟩ .f32) (W : FVec Ideal ⟨3, ![64, 33, 300]⟩ .f32)
    (hs : (⟨3, ![64, 33, 300]⟩ : Shape).Slices ![i.val, 0, 0] ⟨3, ![1, k, 300]⟩)
    (hc : (⟨3, ![1, k, 300]⟩ : Shape).ShapeCasts ⟨2, ![k, 300]⟩)
    (d : DotDims ⟨3, ![128, 512, 300]⟩ ⟨2, ![k, 300]⟩ ⟨3, ![128, 512, k]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (b : Fin 128) (l j : ℕ) (h1 : j + l < 512) (h2 : j < k) :
    FloatOps.dotGeneral d prec sched E
        (shapeCast ⟨2, ![k, 300]⟩ (extractStridedSlice ⟨3, ![1, k, 300]⟩ ![i.val, 0, 0] W hs) hc) (ix3 b ⟨j + l, h1⟩ ⟨j, h2⟩)
      = tap E W b l i j := by
  rw [ConvRead.dotGeneral_bse_ke_apply d hlc hrc hln hrn hlb hrb prec sched]
  unfold tap
  refine Finset.sum_congr rfl fun e _ => ?_
  rw [rows_apply i.val W hs hc ⟨j, h2⟩ e]
  have hk : k ≤ 33 := by have := hs.2 1; simpa using this
  have hj33 : j < 33 := lt_of_lt_of_le h2 hk
  have hlj : l + j < 512 := by omega
  have hfin : (⟨l + j, hlj⟩ : Fin 512) = ⟨j + l, h1⟩ := Fin.ext (Nat.add_comm l j)
  rw [Ez, Wz, dif_pos hlj, dif_pos hj33, hfin]

/-- Column `j` of the contraction cut from position `j` on (a `[128, L, 1]` cut at `(0, j, j)`, cast to `[128, L]`) holds,
    at sequence `b` and position `l`, tap `j` of the convolution: the cut reads the contraction at `(b, j + l, j)`. -/
theorem column_apply {k L : ℕ} (o : ℕ) (ho : o < 64) (E : FVec Ideal ⟨3, ![128, 512, 300]⟩ .f32) (W : FVec Ideal ⟨3, ![64, 33, 300]⟩ .f32)
    (hsW : (⟨3, ![64, 33, 300]⟩ : Shape).Slices ![o, 0, 0] ⟨3, ![1, k, 300]⟩) (hcW : (⟨3, ![1, k, 300]⟩ : Shape).ShapeCasts ⟨2, ![k, 300]⟩)
    (d : DotDims ⟨3, ![128, 512, 300]⟩ ⟨2, ![k, 300]⟩ ⟨3, ![128, 512, k]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (j : ℕ)
    (hs : (⟨3, ![128, 512, k]⟩ : Shape).Slices ![0, j, j] ⟨3, ![128, L, 1]⟩) (hc : (⟨3, ![128, L, 1]⟩ : Shape).ShapeCasts ⟨2, ![128, L]⟩)
    (b : Fin 128) (l : ℕ) (hl : l < L) :
    shapeCast ⟨2, ![128, L]⟩ (extractStridedSlice ⟨3, ![128, L, 1]⟩ ![0, j, j]
        (FloatOps.dotGeneral d prec sched E (shapeCast ⟨2, ![k, 300]⟩ (extractStridedSlice ⟨3, ![1, k, 300]⟩ ![o, 0, 0] W hsW) hcW)) hs) hc (ix2 b ⟨l, hl⟩)
      = tap E W b l ⟨o, ho⟩ j := by
  have hjL : j + L ≤ 512 := hs.2 1
  have hjk : j + 1 ≤ k := hs.2 2
  rw [ConvRead.shapeCast_ab1_ab_apply, ConvRead.slice3_axes12_eq]
  exact tap_apply (⟨o, ho⟩ : Fin 64) E W hsW hcW d hlc hrc hln hrn hlb hrb prec sched b l j (by omega) (by omega)

/-- The bias of filter `o` (a `[1]` cut of the bias vector, cast to a scalar, broadcast) at any index. -/
theorem bias_apply {t : Shape} (o : ℕ) (bc : FVec Ideal ⟨1, ![64]⟩ .f32)
    (hs : (⟨1, ![64]⟩ : Shape).Slices ![o] ⟨1, ![1]⟩) (hc : (⟨1, ![1]⟩ : Shape).ShapeCasts ⟨0, ![]⟩)
    (dims : Fin 0 → Fin t.rank) (hb : (⟨0, ![]⟩ : Shape).BroadcastsInDim t dims) (idx : t.Idx) :
    broadcastInDim t dims hb (shapeCast ⟨0, ![]⟩ (extractStridedSlice ⟨1, ![1]⟩ ![o] bc hs) hc) idx
      = bc (ix1 ⟨o, by have := hs.2 0; simp at this; omega⟩) := by
  rw [ConvRead.broadcastInDim_scalar_apply, ConvRead.shapeCast_1_scalar_apply, ConvRead.slice1_eq]
  rfl

/-- From the sum of the shifted columns to the feature: if the array `ch` holds the filter's response at every sequence
    and position, then adding the bias, taking `tanh` and the maximum over the positions from `-∞` gives the
    specification's feature of filter `i`. -/
theorem feature_of_response {L : ℕ} (i : Fin 64) (hL : L = 513 - kOf i.val)
    (E : FVec Ideal ⟨3, ![128, 512, 300]⟩ .f32) (W : FVec Ideal ⟨3, ![64, 33, 300]⟩ .f32) (bc : FVec Ideal ⟨1, ![64]⟩ .f32)
    (ch : FVec Ideal ⟨2, ![128, L]⟩ .f32)
    (hch : ∀ (b : Fin 128) (l : ℕ) (hl : l < L), ch (ix2 b ⟨l, hl⟩) = convSum E W b l i)
    (hs : (⟨1, ![64]⟩ : Shape).Slices ![i.val] ⟨1, ![1]⟩) (hc : (⟨1, ![1]⟩ : Shape).ShapeCasts ⟨0, ![]⟩)
    (dims : Fin 0 → Fin 2) (hb : (⟨0, ![]⟩ : Shape).BroadcastsInDim ⟨2, ![128, L]⟩ dims)
    (hR : (⟨2, ![128, L]⟩ : Shape).ReducesTo [1] ⟨1, ![128]⟩) (hu : 0 < (⟨0, ![]⟩ : Shape).numel) (b : Fin 128) :
    Host.reduce (FloatOps.maximumf (F := Ideal) (φ := .f32))
        (Host.tanh (addf ch (broadcastInDim ⟨2, ![128, L]⟩ dims hb
          (shapeCast ⟨0, ![]⟩ (extractStridedSlice ⟨1, ![1]⟩ ![i.val] bc hs) hc))))
        (constant (F := Ideal) ⟨0, ![]⟩ .f32 0xFF800000#32) hR hu (ix1 b)
      = feat E W bc (ix2 b i) := by
  have hv : constant (F := Ideal) ⟨0, ![]⟩ .f32 0xFF800000#32 ix0 = ⊥ := by
    rw [constant_apply]
    simp [Ideal.ofBits, Ideal.ieee]
  rw [ConvRead.hostReduce_maximumf_rows _ _ hv hR hu b]
  subst hL
  unfold feat
  refine Finset.sup_congr rfl fun l hl => ?_
  have hl' : l < 513 - kOf i.val := Finset.mem_range.1 hl
  rw [dif_pos hl']
  show Ideal.tanh (addf ch _ (ix2 b ⟨l, hl'⟩)) = Ideal.tanh (convSum E W b l i + bc (ix1 i))
  rw [addf_apply, hch b l hl', bias_apply]

end ConvRef

end
-- ==== Proof.RefFilter.F0.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 0's operations write. -/
abbrev filt0_W : List (Ref sig .tc) := [main_v8, main_v9, main_v10, main_v11, main_v12, main_cst, main_v13, main_v14, main_v15, main_v16, main_v17, main_v18, main_v19, main_v20, main_v21, main_v22, main_cst_1, main_v23]

set_option maxHeartbeats 4000000 in
set_option maxRecDepth 8192 in
theorem filt0_writes : (filt0 : List (HloOp τ sig (Elt F))).Forall fun op => op.writes ⊆ (filt0_W.map (Proc.devRef (τ := τ) .tc)).toFinset := by
  simp only [filt0, seg1, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 0 does not write keeps its contents through the filter's operations. -/
theorem filt0_keep (V : Valuation τ sig (Elt F)) {r : Ref sig .tc} (h : r ∉ filt0_W) :
    after filt0 V (no_index (Proc.devRef .tc r)) = V (Proc.devRef .tc r) :=
  after_of_writes_sub filt0 _ filt0_writes h

end Writes

set_option maxHeartbeats 4000000 in
set_option maxRecDepth 8192 in
/-- After filter 0's operations its feature buffer holds, for every sequence, the largest tanh of response plus bias over
    the 511 positions: each of the 2 shifted columns of the contraction is one tap (ConvRef.column_apply), their sum from zero
    is the response, and bias, tanh and maximum are ConvRef.feature_of_response. -/
theorem filt0_value (V : Valuation τ sig (Elt Ideal)) (b : Fin 128) :
    (after (filt0 (F := Ideal)) V (no_index (Proc.devRef .tc main_v23)) : S128.Idx → EReal) (ix1 b)
      = ConvPool.feat (V (Proc.devRef .tc main_v7)) (V (Proc.devRef .tc main_arg2)) (V (Proc.devRef .tc main_arg3)) (ix2 b (⟨0, by decide⟩ : Fin 64)) := by
  simp only [filt0, seg1, List.cons_append, List.nil_append, List.append_nil]
  after_results_simp
  refine ConvRef.feature_of_response (L := 511) (⟨0, by decide⟩ : Fin 64) (by decide) _ _ _ _ ?_ _ _ _ _ _ _ b
  intro b l hl
  show _ = ∑ j ∈ Finset.range 2, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 0 (by decide) _ _ _ _ _ rfl rfl rfl rfl rfl rfl _ _ _ _ _ b l hl))
  rfl

end Cert.ReferenceIdeal.RefRun

end
-- ==== Proof.RefFilter.F1.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 1's operations write. -/
abbrev filt1_W : List (Ref sig .tc) := [main_v24, main_v25, main_v26, main_v27, main_v28, main_cst_2, main_v29, main_v30, main_v31, main_v32, main_v33, main_v34, main_v35, main_v36, main_v37, main_v38, main_cst_3, main_v39]

set_option maxHeartbeats 4000000 in
set_option maxRecDepth 8192 in
theorem filt1_writes : (filt1 : List (HloOp τ sig (Elt F))).Forall fun op => op.writes ⊆ (filt1_W.map (Proc.devRef (τ := τ) .tc)).toFinset := by
  simp only [filt1, seg2, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 1 does not write keeps its contents through the filter's operations. -/
theorem filt1_keep (V : Valuation τ sig (Elt F)) {r : Ref sig .tc} (h : r ∉ filt1_W) :
    after filt1 V (no_index (Proc.devRef .tc r)) = V (Proc.devRef .tc r) :=
  after_of_writes_sub filt1 _ filt1_writes h

end Writes

set_option maxHeartbeats 4000000 in
set_option maxRecDepth 8192 in
/-- After filter 1's operations its feature buffer holds, for every sequence, the largest tanh of response plus bias over
    the 511 positions: each of the 2 shifted columns of the contraction is one tap (ConvRef.column_apply), their sum from zero
    is the response, and bias, tanh and maximum are ConvRef.feature_of_response. -/
theorem filt1_value (V : Valuation τ sig (Elt Ideal)) (b : Fin 128) :
    (after (filt1 (F := Ideal)) V (no_index (Proc.devRef .tc main_v39)) : S128.Idx → EReal) (ix1 b)
      = ConvPool.feat (V (Proc.devRef .tc main_v7)) (V (Proc.devRef .tc main_arg2)) (V (Proc.devRef .tc main_arg3)) (ix2 b (⟨1, by decide⟩ : Fin 64)) := by
  simp only [filt1, seg2, List.cons_append, List.nil_append, List.append_nil]
  after_results_simp
  refine ConvRef.feature_of_response (L := 511) (⟨1, by decide⟩ : Fin 64) (by decide) _ _ _ _ ?_ _ _ _ _ _ _ b
  intro b l hl
  show _ = ∑ j ∈ Finset.range 2, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 1 (by decide) _ _ _ _ _ rfl rfl rfl rfl rfl rfl _ _ _ _ _ b l hl))
  rfl

end Cert.ReferenceIdeal.RefRun

end
-- ==== Proof.RefFilter.F2.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 2's operations write. -/
abbrev filt2_W : List (Ref sig .tc) := [main_v40, main_v41, main_v42, main_v43, main_v44, main_cst_4, main_v45, main_v46, main_v47, main_v48, main_v49, main_v50, main_v51, main_v52, main_v53, main_v54, main_v55, main_v56, main_v57, main_cst_5, main_v58]

set_option maxHeartbeats 4000000 in
set_option maxRecDepth 8192 in
theorem filt2_writes : (filt2 : List (HloOp τ sig (Elt F))).Forall fun op => op.writes ⊆ (filt2_W.map (Proc.devRef (τ := τ) .tc)).toFinset := by
  simp only [filt2, seg3, seg4, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 2 does not write keeps its contents through the filter's operations. -/
theorem filt2_keep (V : Valuation τ sig (Elt F)) {r : Ref sig .tc} (h : r ∉ filt2_W) :
    after filt2 V (no_index (Proc.devRef .tc r)) = V (Proc.devRef .tc r) :=
  after_of_writes_sub filt2 _ filt2_writes h

end Writes

set_option maxHeartbeats 4000000 in
set_option maxRecDepth 8192 in
/-- After filter 2's operations its feature buffer holds, for every sequence, the largest tanh of response plus bias over
    the 510 positions: each of the 3 shifted columns of the contraction is one tap (ConvRef.column_apply), their sum from zero
    is the response, and bias, tanh and maximum are ConvRef.feature_of_response. -/
theorem filt2_value (V : Valuation τ sig (Elt Ideal)) (b : Fin 128) :
    (after (filt2 (F := Ideal)) V (no_index (Proc.devRef .tc main_v58)) : S128.Idx → EReal) (ix1 b)
      = ConvPool.feat (V (Proc.devRef .tc main_v7)) (V (Proc.devRef .tc main_arg2)) (V (Proc.devRef .tc main_arg3)) (ix2 b (⟨2, by decide⟩ : Fin 64)) := by
  simp only [filt2, seg3, seg4, List.cons_append, List.nil_append, List.append_nil]
  after_results_simp
  refine ConvRef.feature_of_response (L := 510) (⟨2, by decide⟩ : Fin 64) (by decide) _ _ _ _ ?_ _ _ _ _ _ _ b
  intro b l hl
  show _ = ∑ j ∈ Finset.range 3, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 2 (by decide) _ _ _ _ _ rfl rfl rfl rfl rfl rfl _ _ _ _ _ b l hl))
  rfl

end Cert.ReferenceIdeal.RefRun

end
-- ==== Proof.RefFilter.F3.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 3's operations write. -/
abbrev filt3_W : List (Ref sig .tc) := [main_v59, main_v60, main_v61, main_v62, main_v63, main_cst_6, main_v64, main_v65, main_v66, main_v67, main_v68, main_v69, main_v70, main_v71, main_v72, main_v73, main_v74, main_v75, main_v76, main_cst_7, main_v77]

set_option maxHeartbeats 4000000 in
set_option maxRecDepth 8192 in
theorem filt3_writes : (filt3 : List (HloOp τ sig (Elt F))).Forall fun op => op.writes ⊆ (filt3_W.map (Proc.devRef (τ := τ) .tc)).toFinset := by
  simp only [filt3, seg5, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 3 does not write keeps its contents through the filter's operations. -/
theorem filt3_keep (V : Valuation τ sig (Elt F)) {r : Ref sig .tc} (h : r ∉ filt3_W) :
    after filt3 V (no_index (Proc.devRef .tc r)) = V (Proc.devRef .tc r) :=
  after_of_writes_sub filt3 _ filt3_writes h

end Writes

set_option maxHeartbeats 4000000 in
set_option maxRecDepth 8192 in
/-- After filter 3's operations its feature buffer holds, for every sequence, the largest tanh of response plus bias over
    the 510 positions: each of the 3 shifted columns of the contraction is one tap (ConvRef.column_apply), their sum from zero
    is the response, and bias, tanh and maximum are ConvRef.feature_of_response. -/
theorem filt3_value (V : Valuation τ sig (Elt Ideal)) (b : Fin 128) :
    (after (filt3 (F := Ideal)) V (no_index (Proc.devRef .tc main_v77)) : S128.Idx → EReal) (ix1 b)
      = ConvPool.feat (V (Proc.devRef .tc main_v7)) (V (Proc.devRef .tc main_arg2)) (V (Proc.devRef .tc main_arg3)) (ix2 b (⟨3, by decide⟩ : Fin 64)) := by
  simp only [filt3, seg5, List.cons_append, List.nil_append, List.append_nil]
  after_results_simp
  refine ConvRef.feature_of_response (L := 510) (⟨3, by decide⟩ : Fin 64) (by decide) _ _ _ _ ?_ _ _ _ _ _ _ b
  intro b l hl
  show _ = ∑ j ∈ Finset.range 3, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 3 (by decide) _ _ _ _ _ rfl rfl rfl rfl rfl rfl _ _ _ _ _ b l hl))
  rfl

end Cert.ReferenceIdeal.RefRun

end
-- ==== Proof.RefFilter.F4.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 4's operations write. -/
abbrev filt4_W : List (Ref sig .tc) := [main_v78, main_v79, main_v80, main_v81, main_v82, main_cst_8, main_v83, main_v84, main_v85, main_v86, main_v87, main_v88, main_v89, main_v90, main_v91, main_v92, main_v93, main_v94, main_v95, main_v96, main_v97, main_v98, main_cst_9, main_v99]

set_option maxHeartbeats 4000000 in
set_option maxRecDepth 8192 in
theorem filt4_writes : (filt4 : List (HloOp τ sig (Elt F))).Forall fun op => op.writes ⊆ (filt4_W.map (Proc.devRef (τ := τ) .tc)).toFinset := by
  simp only [filt4, seg6, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 4 does not write keeps its contents through the filter's operations. -/
theorem filt4_keep (V : Valuation τ sig (Elt F)) {r : Ref sig .tc} (h : r ∉ filt4_W) :
    after filt4 V (no_index (Proc.devRef .tc r)) = V (Proc.devRef .tc r) :=
  after_of_writes_sub filt4 _ filt4_writes h

end Writes

set_option maxHeartbeats 4000000 in
set_option maxRecDepth 8192 in
/-- After filter 4's operations its feature buffer holds, for every sequence, the largest tanh of response plus bias over
    the 509 positions: each of the 4 shifted columns of the contraction is one tap (ConvRef.column_apply), their sum from zero
    is the response, and bias, tanh and maximum are ConvRef.feature_of_response. -/
theorem filt4_value (V : Valuation τ sig (Elt Ideal)) (b : Fin 128) :
    (after (filt4 (F := Ideal)) V (no_index (Proc.devRef .tc main_v99)) : S128.Idx → EReal) (ix1 b)
      = ConvPool.feat (V (Proc.devRef .tc main_v7)) (V (Proc.devRef .tc main_arg2)) (V (Proc.devRef .tc main_arg3)) (ix2 b (⟨4, by decide⟩ : Fin 64)) := by
  simp only [filt4, seg6, List.cons_append, List.nil_append, List.append_nil]
  after_results_simp
  refine ConvRef.feature_of_response (L := 509) (⟨4, by decide⟩ : Fin 64) (by decide) _ _ _ _ ?_ _ _ _ _ _ _ b
  intro b l hl
  show _ = ∑ j ∈ Finset.range 4, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 4 (by decide) _ _ _ _ _ rfl rfl rfl rfl rfl rfl _ _ _ _ _ b l hl))
  rfl

end Cert.ReferenceIdeal.RefRun

end
-- ==== Proof.RefFilter.F5.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 5's operations write. -/
abbrev filt5_W : List (Ref sig .tc) := [main_v100, main_v101, main_v102, main_v103, main_v104, main_cst_10, main_v105, main_v106, main_v107, main_v108, main_v109, main_v110, main_v111, main_v112, main_v113, main_v114, main_v115, main_v116, main_v117, main_v118, main_v119, main_v120, main_cst_11, main_v121]

set_option maxHeartbeats 4000000 in
set_option maxRecDepth 8192 in
theorem filt5_writes : (filt5 : List (HloOp τ sig (Elt F))).Forall fun op => op.writes ⊆ (filt5_W.map (Proc.devRef (τ := τ) .tc)).toFinset := by
  simp only [filt5, seg7, seg8, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 5 does not write keeps its contents through the filter's operations. -/
theorem filt5_keep (V : Valuation τ sig (Elt F)) {r : Ref sig .tc} (h : r ∉ filt5_W) :
    after filt5 V (no_index (Proc.devRef .tc r)) = V (Proc.devRef .tc r) :=
  after_of_writes_sub filt5 _ filt5_writes h

end Writes

set_option maxHeartbeats 4000000 in
set_option maxRecDepth 8192 in
/-- After filter 5's operations its feature buffer holds, for every sequence, the largest tanh of response plus bias over
    the 509 positions: each of the 4 shifted columns of the contraction is one tap (ConvRef.column_apply), their sum from zero
    is the response, and bias, tanh and maximum are ConvRef.feature_of_response. -/
theorem filt5_value (V : Valuation τ sig (Elt Ideal)) (b : Fin 128) :
    (after (filt5 (F := Ideal)) V (no_index (Proc.devRef .tc main_v121)) : S128.Idx → EReal) (ix1 b)
      = ConvPool.feat (V (Proc.devRef .tc main_v7)) (V (Proc.devRef .tc main_arg2)) (V (Proc.devRef .tc main_arg3)) (ix2 b (⟨5, by decide⟩ : Fin 64)) := by
  simp only [filt5, seg7, seg8, List.cons_append, List.nil_append, List.append_nil]
  after_results_simp
  refine ConvRef.feature_of_response (L := 509) (⟨5, by decide⟩ : Fin 64) (by decide) _ _ _ _ ?_ _ _ _ _ _ _ b
  intro b l hl
  show _ = ∑ j ∈ Finset.range 4, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 5 (by decide) _ _ _ _ _ rfl rfl rfl rfl rfl rfl _ _ _ _ _ b l hl))
  rfl

end Cert.ReferenceIdeal.RefRun

end
-- ==== Proof.RefFilter.F6.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 6's operations write. -/
abbrev filt6_W : List (Ref sig .tc) := [main_v122, main_v123, main_v124, main_v125, main_v126, main_cst_12, main_v127, main_v128, main_v129, main_v130, main_v131, main_v132, main_v133, main_v134, main_v135, main_v136, main_v137, main_v138, main_v139, main_v140, main_v141, main_v142, main_v143, main_v144, main_v145, main_cst_13, main_v146]

set_option maxHeartbeats 4000000 in
set_option maxRecDepth 8192 in
theorem filt6_writes : (filt6 : List (HloOp τ sig (Elt F))).Forall fun op => op.writes ⊆ (filt6_W.map (Proc.devRef (τ := τ) .tc)).toFinset := by
  simp only [filt6, seg9, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 6 does not write keeps its contents through the filter's operations. -/
theorem filt6_keep (V : Valuation τ sig (Elt F)) {r : Ref sig .tc} (h : r ∉ filt6_W) :
    after filt6 V (no_index (Proc.devRef .tc r)) = V (Proc.devRef .tc r) :=
  after_of_writes_sub filt6 _ filt6_writes h

end Writes

set_option maxHeartbeats 4000000 in
set_option maxRecDepth 8192 in
/-- After filter 6's operations its feature buffer holds, for every sequence, the largest tanh of response plus bias over
    the 508 positions: each of the 5 shifted columns of the contraction is one tap (ConvRef.column_apply), their sum from zero
    is the response, and bias, tanh and maximum are ConvRef.feature_of_response. -/
theorem filt6_value (V : Valuation τ sig (Elt Ideal)) (b : Fin 128) :
    (after (filt6 (F := Ideal)) V (no_index (Proc.devRef .tc main_v146)) : S128.Idx → EReal) (ix1 b)
      = ConvPool.feat (V (Proc.devRef .tc main_v7)) (V (Proc.devRef .tc main_arg2)) (V (Proc.devRef .tc main_arg3)) (ix2 b (⟨6, by decide⟩ : Fin 64)) := by
  simp only [filt6, seg9, List.cons_append, List.nil_append, List.append_nil]
  after_results_simp
  refine ConvRef.feature_of_response (L := 508) (⟨6, by decide⟩ : Fin 64) (by decide) _ _ _ _ ?_ _ _ _ _ _ _ b
  intro b l hl
  show _ = ∑ j ∈ Finset.range 5, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 6 (by decide) _ _ _ _ _ rfl rfl rfl rfl rfl rfl _ _ _ _ _ b l hl))
  rfl

end Cert.ReferenceIdeal.RefRun

end
-- ==== Proof.RefFilter.F7.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 7's operations write. -/
abbrev filt7_W : List (Ref sig .tc) := [main_v147, main_v148, main_v149, main_v150, main_v151, main_cst_14, main_v152, main_v153, main_v154, main_v155, main_v156, main_v157, main_v158, main_v159, main_v160, main_v161, main_v162, main_v163, main_v164, main_v165, main_v166, main_v167, main_v168, main_v169, main_v170, main_cst_15, main_v171]

set_option maxHeartbeats 4000000 in
set_option maxRecDepth 8192 in
theorem filt7_writes : (filt7 : List (HloOp τ sig (Elt F))).Forall fun op => op.writes ⊆ (filt7_W.map (Proc.devRef (τ := τ) .tc)).toFinset := by
  simp only [filt7, seg10, seg11, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 7 does not write keeps its contents through the filter's operations. -/
theorem filt7_keep (V : Valuation τ sig (Elt F)) {r : Ref sig .tc} (h : r ∉ filt7_W) :
    after filt7 V (no_index (Proc.devRef .tc r)) = V (Proc.devRef .tc r) :=
  after_of_writes_sub filt7 _ filt7_writes h

end Writes

set_option maxHeartbeats 4000000 in
set_option maxRecDepth 8192 in
/-- After filter 7's operations its feature buffer holds, for every sequence, the largest tanh of response plus bias over
    the 508 positions: each of the 5 shifted columns of the contraction is one tap (ConvRef.column_apply), their sum from zero
    is the response, and bias, tanh and maximum are ConvRef.feature_of_response. -/
theorem filt7_value (V : Valuation τ sig (Elt Ideal)) (b : Fin 128) :
    (after (filt7 (F := Ideal)) V (no_index (Proc.devRef .tc main_v171)) : S128.Idx → EReal) (ix1 b)
      = ConvPool.feat (V (Proc.devRef .tc main_v7)) (V (Proc.devRef .tc main_arg2)) (V (Proc.devRef .tc main_arg3)) (ix2 b (⟨7, by decide⟩ : Fin 64)) := by
  simp only [filt7, seg10, seg11, List.cons_append, List.nil_append, List.append_nil]
  after_results_simp
  refine ConvRef.feature_of_response (L := 508) (⟨7, by decide⟩ : Fin 64) (by decide) _ _ _ _ ?_ _ _ _ _ _ _ b
  intro b l hl
  show _ = ∑ j ∈ Finset.range 5, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 7 (by decide) _ _ _ _ _ rfl rfl rfl rfl rfl rfl _ _ _ _ _ b l hl))
  rfl

end Cert.ReferenceIdeal.RefRun

end
-- ==== Proof.RefFilter.F8.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 8's operations write. -/
abbrev filt8_W : List (Ref sig .tc) := [main_v172, main_v173, main_v174, main_v175, main_v176, main_cst_16, main_v177, main_v178, main_v179, main_v180, main_v181, main_v182, main_v183, main_v184, main_v185, main_v186, main_v187, main_v188, main_v189, main_v190, main_v191, main_v192, main_v193, main_v194, main_v195, main_v196, main_v197, main_v198, main_cst_17, main_v199]

set_option maxHeartbeats 4000000 in
set_option maxRecDepth 8192 in
theorem filt8_writes : (filt8 : List (HloOp τ sig (Elt F))).Forall fun op => op.writes ⊆ (filt8_W.map (Proc.devRef (τ := τ) .tc)).toFinset := by
  simp only [filt8, seg12, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 8 does not write keeps its contents through the filter's operations. -/
theorem filt8_keep (V : Valuation τ sig (Elt F)) {r : Ref sig .tc} (h : r ∉ filt8_W) :
    after filt8 V (no_index (Proc.devRef .tc r)) = V (Proc.devRef .tc r) :=
  after_of_writes_sub filt8 _ filt8_writes h

end Writes

set_option maxHeartbeats 4000000 in
set_option maxRecDepth 8192 in
/-- After filter 8's operations its feature buffer holds, for every sequence, the largest tanh of response plus bias over
    the 507 positions: each of the 6 shifted columns of the contraction is one tap (ConvRef.column_apply), their sum from zero
    is the response, and bias, tanh and maximum are ConvRef.feature_of_response. -/
theorem filt8_value (V : Valuation τ sig (Elt Ideal)) (b : Fin 128) :
    (after (filt8 (F := Ideal)) V (no_index (Proc.devRef .tc main_v199)) : S128.Idx → EReal) (ix1 b)
      = ConvPool.feat (V (Proc.devRef .tc main_v7)) (V (Proc.devRef .tc main_arg2)) (V (Proc.devRef .tc main_arg3)) (ix2 b (⟨8, by decide⟩ : Fin 64)) := by
  simp only [filt8, seg12, List.cons_append, List.nil_append, List.append_nil]
  after_results_simp
  refine ConvRef.feature_of_response (L := 507) (⟨8, by decide⟩ : Fin 64) (by decide) _ _ _ _ ?_ _ _ _ _ _ _ b
  intro b l hl
  show _ = ∑ j ∈ Finset.range 6, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 8 (by decide) _ _ _ _ _ rfl rfl rfl rfl rfl rfl _ _ _ _ _ b l hl))
  rfl

end Cert.ReferenceIdeal.RefRun

end
-- ==== Proof.RefFilter.F9.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 9's operations write. -/
abbrev filt9_W : List (Ref sig .tc) := [main_v200, main_v201, main_v202, main_v203, main_v204, main_cst_18, main_v205, main_v206, main_v207, main_v208, main_v209, main_v210, main_v211, main_v212, main_v213, main_v214, main_v215, main_v216, main_v217, main_v218, main_v219, main_v220, main_v221, main_v222, main_v223, main_v224, main_v225, main_v226, main_cst_19, main_v227]

set_option maxHeartbeats 4000000 in
set_option maxRecDepth 8192 in
theorem filt9_writes : (filt9 : List (HloOp τ sig (Elt F))).Forall fun op => op.writes ⊆ (filt9_W.map (Proc.devRef (τ := τ) .tc)).toFinset := by
  simp only [filt9, seg13, seg14, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 9 does not write keeps its contents through the filter's operations. -/
theorem filt9_keep (V : Valuation τ sig (Elt F)) {r : Ref sig .tc} (h : r ∉ filt9_W) :
    after filt9 V (no_index (Proc.devRef .tc r)) = V (Proc.devRef .tc r) :=
  after_of_writes_sub filt9 _ filt9_writes h

end Writes

set_option maxHeartbeats 4000000 in
set_option maxRecDepth 8192 in
/-- After filter 9's operations its feature buffer holds, for every sequence, the largest tanh of response plus bias over
    the 507 positions: each of the 6 shifted columns of the contraction is one tap (ConvRef.column_apply), their sum from zero
    is the response, and bias, tanh and maximum are ConvRef.feature_of_response. -/
theorem filt9_value (V : Valuation τ sig (Elt Ideal)) (b : Fin 128) :
    (after (filt9 (F := Ideal)) V (no_index (Proc.devRef .tc main_v227)) : S128.Idx → EReal) (ix1 b)
      = ConvPool.feat (V (Proc.devRef .tc main_v7)) (V (Proc.devRef .tc main_arg2)) (V (Proc.devRef .tc main_arg3)) (ix2 b (⟨9, by decide⟩ : Fin 64)) := by
  simp only [filt9, seg13, seg14, List.cons_append, List.nil_append, List.append_nil]
  after_results_simp
  refine ConvRef.feature_of_response (L := 507) (⟨9, by decide⟩ : Fin 64) (by decide) _ _ _ _ ?_ _ _ _ _ _ _ b
  intro b l hl
  show _ = ∑ j ∈ Finset.range 6, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 9 (by decide) _ _ _ _ _ rfl rfl rfl rfl rfl rfl _ _ _ _ _ b l hl))
  rfl

end Cert.ReferenceIdeal.RefRun

end
-- ==== Proof.RefFilter.F10.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 10's operations write. -/
abbrev filt10_W : List (Ref sig .tc) := [main_v228, main_v229, main_v230, main_v231, main_v232, main_cst_20, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_cst_21, main_v258]

set_option maxHeartbeats 4000000 in
set_option maxRecDepth 8192 in
theorem filt10_writes : (filt10 : List (HloOp τ sig (Elt F))).Forall fun op => op.writes ⊆ (filt10_W.map (Proc.devRef (τ := τ) .tc)).toFinset := by
  simp only [filt10, seg15, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 10 does not write keeps its contents through the filter's operations. -/
theorem filt10_keep (V : Valuation τ sig (Elt F)) {r : Ref sig .tc} (h : r ∉ filt10_W) :
    after filt10 V (no_index (Proc.devRef .tc r)) = V (Proc.devRef .tc r) :=
  after_of_writes_sub filt10 _ filt10_writes h

end Writes

set_option maxHeartbeats 4000000 in
set_option maxRecDepth 8192 in
/-- After filter 10's operations its feature buffer holds, for every sequence, the largest tanh of response plus bias over
    the 506 positions: each of the 7 shifted columns of the contraction is one tap (ConvRef.column_apply), their sum from zero
    is the response, and bias, tanh and maximum are ConvRef.feature_of_response. -/
theorem filt10_value (V : Valuation τ sig (Elt Ideal)) (b : Fin 128) :
    (after (filt10 (F := Ideal)) V (no_index (Proc.devRef .tc main_v258)) : S128.Idx → EReal) (ix1 b)
      = ConvPool.feat (V (Proc.devRef .tc main_v7)) (V (Proc.devRef .tc main_arg2)) (V (Proc.devRef .tc main_arg3)) (ix2 b (⟨10, by decide⟩ : Fin 64)) := by
  simp only [filt10, seg15, List.cons_append, List.nil_append, List.append_nil]
  after_results_simp
  refine ConvRef.feature_of_response (L := 506) (⟨10, by decide⟩ : Fin 64) (by decide) _ _ _ _ ?_ _ _ _ _ _ _ b
  intro b l hl
  show _ = ∑ j ∈ Finset.range 7, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 10 (by decide) _ _ _ _ _ rfl rfl rfl rfl rfl rfl _ _ _ _ _ b l hl))
  rfl

end Cert.ReferenceIdeal.RefRun

end
-- ==== Proof.RefFilter.F11.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 11's operations write. -/
abbrev filt11_W : List (Ref sig .tc) := [main_v259, main_v260, main_v261, main_v262, main_v263, main_cst_22, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_cst_23, main_v289]

set_option maxHeartbeats 4000000 in
set_option maxRecDepth 8192 in
theorem filt11_writes : (filt11 : List (HloOp τ sig (Elt F))).Forall fun op => op.writes ⊆ (filt11_W.map (Proc.devRef (τ := τ) .tc)).toFinset := by
  simp only [filt11, seg16, seg17, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 11 does not write keeps its contents through the filter's operations. -/
theorem filt11_keep (V : Valuation τ sig (Elt F)) {r : Ref sig .tc} (h : r ∉ filt11_W) :
    after filt11 V (no_index (Proc.devRef .tc r)) = V (Proc.devRef .tc r) :=
  after_of_writes_sub filt11 _ filt11_writes h

end Writes

set_option maxHeartbeats 4000000 in
set_option maxRecDepth 8192 in
/-- After filter 11's operations its feature buffer holds, for every sequence, the largest tanh of response plus bias over
    the 506 positions: each of the 7 shifted columns of the contraction is one tap (ConvRef.column_apply), their sum from zero
    is the response, and bias, tanh and maximum are ConvRef.feature_of_response. -/
theorem filt11_value (V : Valuation τ sig (Elt Ideal)) (b : Fin 128) :
    (after (filt11 (F := Ideal)) V (no_index (Proc.devRef .tc main_v289)) : S128.Idx → EReal) (ix1 b)
      = ConvPool.feat (V (Proc.devRef .tc main_v7)) (V (Proc.devRef .tc main_arg2)) (V (Proc.devRef .tc main_arg3)) (ix2 b (⟨11, by decide⟩ : Fin 64)) := by
  simp only [filt11, seg16, seg17, List.cons_append, List.nil_append, List.append_nil]
  after_results_simp
  refine ConvRef.feature_of_response (L := 506) (⟨11, by decide⟩ : Fin 64) (by decide) _ _ _ _ ?_ _ _ _ _ _ _ b
  intro b l hl
  show _ = ∑ j ∈ Finset.range 7, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 11 (by decide) _ _ _ _ _ rfl rfl rfl rfl rfl rfl _ _ _ _ _ b l hl))
  rfl

end Cert.ReferenceIdeal.RefRun

end
-- ==== Proof.RefFilter.F12.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 12's operations write. -/
abbrev filt12_W : List (Ref sig .tc) := [main_v290, main_v291, main_v292, main_v293, main_v294, main_cst_24, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_cst_25, main_v323]

set_option maxHeartbeats 4000000 in
set_option maxRecDepth 8192 in
theorem filt12_writes : (filt12 : List (HloOp τ sig (Elt F))).Forall fun op => op.writes ⊆ (filt12_W.map (Proc.devRef (τ := τ) .tc)).toFinset := by
  simp only [filt12, seg18, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 12 does not write keeps its contents through the filter's operations. -/
theorem filt12_keep (V : Valuation τ sig (Elt F)) {r : Ref sig .tc} (h : r ∉ filt12_W) :
    after filt12 V (no_index (Proc.devRef .tc r)) = V (Proc.devRef .tc r) :=
  after_of_writes_sub filt12 _ filt12_writes h

end Writes

set_option maxHeartbeats 4000000 in
set_option maxRecDepth 8192 in
/-- After filter 12's operations its feature buffer holds, for every sequence, the largest tanh of response plus bias over
    the 505 positions: each of the 8 shifted columns of the contraction is one tap (ConvRef.column_apply), their sum from zero
    is the response, and bias, tanh and maximum are ConvRef.feature_of_response. -/
theorem filt12_value (V : Valuation τ sig (Elt Ideal)) (b : Fin 128) :
    (after (filt12 (F := Ideal)) V (no_index (Proc.devRef .tc main_v323)) : S128.Idx → EReal) (ix1 b)
      = ConvPool.feat (V (Proc.devRef .tc main_v7)) (V (Proc.devRef .tc main_arg2)) (V (Proc.devRef .tc main_arg3)) (ix2 b (⟨12, by decide⟩ : Fin 64)) := by
  simp only [filt12, seg18, List.cons_append, List.nil_append, List.append_nil]
  after_results_simp
  refine ConvRef.feature_of_response (L := 505) (⟨12, by decide⟩ : Fin 64) (by decide) _ _ _ _ ?_ _ _ _ _ _ _ b
  intro b l hl
  show _ = ∑ j ∈ Finset.range 8, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 12 (by decide) _ _ _ _ _ rfl rfl rfl rfl rfl rfl _ _ _ _ _ b l hl))
  rfl

end Cert.ReferenceIdeal.RefRun

end
-- ==== Proof.RefFilter.F13.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 13's operations write. -/
abbrev filt13_W : List (Ref sig .tc) := [main_v324, main_v325, main_v326, main_v327, main_v328, main_cst_26, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_cst_27, main_v357]

set_option maxHeartbeats 4000000 in
set_option maxRecDepth 8192 in
theorem filt13_writes : (filt13 : List (HloOp τ sig (Elt F))).Forall fun op => op.writes ⊆ (filt13_W.map (Proc.devRef (τ := τ) .tc)).toFinset := by
  simp only [filt13, seg19, seg20, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 13 does not write keeps its contents through the filter's operations. -/
theorem filt13_keep (V : Valuation τ sig (Elt F)) {r : Ref sig .tc} (h : r ∉ filt13_W) :
    after filt13 V (no_index (Proc.devRef .tc r)) = V (Proc.devRef .tc r) :=
  after_of_writes_sub filt13 _ filt13_writes h

end Writes

set_option maxHeartbeats 4000000 in
set_option maxRecDepth 8192 in
/-- After filter 13's operations its feature buffer holds, for every sequence, the largest tanh of response plus bias over
    the 505 positions: each of the 8 shifted columns of the contraction is one tap (ConvRef.column_apply), their sum from zero
    is the response, and bias, tanh and maximum are ConvRef.feature_of_response. -/
theorem filt13_value (V : Valuation τ sig (Elt Ideal)) (b : Fin 128) :
    (after (filt13 (F := Ideal)) V (no_index (Proc.devRef .tc main_v357)) : S128.Idx → EReal) (ix1 b)
      = ConvPool.feat (V (Proc.devRef .tc main_v7)) (V (Proc.devRef .tc main_arg2)) (V (Proc.devRef .tc main_arg3)) (ix2 b (⟨13, by decide⟩ : Fin 64)) := by
  simp only [filt13, seg19, seg20, List.cons_append, List.nil_append, List.append_nil]
  after_results_simp
  refine ConvRef.feature_of_response (L := 505) (⟨13, by decide⟩ : Fin 64) (by decide) _ _ _ _ ?_ _ _ _ _ _ _ b
  intro b l hl
  show _ = ∑ j ∈ Finset.range 8, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 13 (by decide) _ _ _ _ _ rfl rfl rfl rfl rfl rfl _ _ _ _ _ b l hl))
  rfl

end Cert.ReferenceIdeal.RefRun

end
-- ==== Proof.RefFilter.F14.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 14's operations write. -/
abbrev filt14_W : List (Ref sig .tc) := [main_v358, main_v359, main_v360, main_v361, main_v362, main_cst_28, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_cst_29, main_v394]

set_option maxHeartbeats 4000000 in
set_option maxRecDepth 8192 in
theorem filt14_writes : (filt14 : List (HloOp τ sig (Elt F))).Forall fun op => op.writes ⊆ (filt14_W.map (Proc.devRef (τ := τ) .tc)).toFinset := by
  simp only [filt14, seg21, seg22, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 14 does not write keeps its contents through the filter's operations. -/
theorem filt14_keep (V : Valuation τ sig (Elt F)) {r : Ref sig .tc} (h : r ∉ filt14_W) :
    after filt14 V (no_index (Proc.devRef .tc r)) = V (Proc.devRef .tc r) :=
  after_of_writes_sub filt14 _ filt14_writes h

end Writes

set_option maxHeartbeats 4000000 in
set_option maxRecDepth 8192 in
/-- After filter 14's operations its feature buffer holds, for every sequence, the largest tanh of response plus bias over
    the 504 positions: each of the 9 shifted columns of the contraction is one tap (ConvRef.column_apply), their sum from zero
    is the response, and bias, tanh and maximum are ConvRef.feature_of_response. -/
theorem filt14_value (V : Valuation τ sig (Elt Ideal)) (b : Fin 128) :
    (after (filt14 (F := Ideal)) V (no_index (Proc.devRef .tc main_v394)) : S128.Idx → EReal) (ix1 b)
      = ConvPool.feat (V (Proc.devRef .tc main_v7)) (V (Proc.devRef .tc main_arg2)) (V (Proc.devRef .tc main_arg3)) (ix2 b (⟨14, by decide⟩ : Fin 64)) := by
  simp only [filt14, seg21, seg22, List.cons_append, List.nil_append, List.append_nil]
  after_results_simp
  refine ConvRef.feature_of_response (L := 504) (⟨14, by decide⟩ : Fin 64) (by decide) _ _ _ _ ?_ _ _ _ _ _ _ b
  intro b l hl
  show _ = ∑ j ∈ Finset.range 9, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 14 (by decide) _ _ _ _ _ rfl rfl rfl rfl rfl rfl _ _ _ _ _ b l hl))
  rfl

end Cert.ReferenceIdeal.RefRun

end
-- ==== Proof.RefFilter.F15.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 15's operations write. -/
abbrev filt15_W : List (Ref sig .tc) := [main_v395, main_v396, main_v397, main_v398, main_v399, main_cst_30, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_cst_31, main_v431]

set_option maxHeartbeats 4000000 in
set_option maxRecDepth 8192 in
theorem filt15_writes : (filt15 : List (HloOp τ sig (Elt F))).Forall fun op => op.writes ⊆ (filt15_W.map (Proc.devRef (τ := τ) .tc)).toFinset := by
  simp only [filt15, seg23, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 15 does not write keeps its contents through the filter's operations. -/
theorem filt15_keep (V : Valuation τ sig (Elt F)) {r : Ref sig .tc} (h : r ∉ filt15_W) :
    after filt15 V (no_index (Proc.devRef .tc r)) = V (Proc.devRef .tc r) :=
  after_of_writes_sub filt15 _ filt15_writes h

end Writes

set_option maxHeartbeats 4000000 in
set_option maxRecDepth 8192 in
/-- After filter 15's operations its feature buffer holds, for every sequence, the largest tanh of response plus bias over
    the 504 positions: each of the 9 shifted columns of the contraction is one tap (ConvRef.column_apply), their sum from zero
    is the response, and bias, tanh and maximum are ConvRef.feature_of_response. -/
theorem filt15_value (V : Valuation τ sig (Elt Ideal)) (b : Fin 128) :
    (after (filt15 (F := Ideal)) V (no_index (Proc.devRef .tc main_v431)) : S128.Idx → EReal) (ix1 b)
      = ConvPool.feat (V (Proc.devRef .tc main_v7)) (V (Proc.devRef .tc main_arg2)) (V (Proc.devRef .tc main_arg3)) (ix2 b (⟨15, by decide⟩ : Fin 64)) := by
  simp only [filt15, seg23, List.cons_append, List.nil_append, List.append_nil]
  after_results_simp
  refine ConvRef.feature_of_response (L := 504) (⟨15, by decide⟩ : Fin 64) (by decide) _ _ _ _ ?_ _ _ _ _ _ _ b
  intro b l hl
  show _ = ∑ j ∈ Finset.range 9, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 15 (by decide) _ _ _ _ _ rfl rfl rfl rfl rfl rfl _ _ _ _ _ b l hl))
  rfl

end Cert.ReferenceIdeal.RefRun

end
-- ==== Proof.RefFilter.F16.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 16's operations write. -/
abbrev filt16_W : List (Ref sig .tc) := [main_v432, main_v433, main_v434, main_v435, main_v436, main_cst_32, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_cst_33, main_v471]

set_option maxHeartbeats 4000000 in
set_option maxRecDepth 8192 in
theorem filt16_writes : (filt16 : List (HloOp τ sig (Elt F))).Forall fun op => op.writes ⊆ (filt16_W.map (Proc.devRef (τ := τ) .tc)).toFinset := by
  simp only [filt16, seg24, seg25, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 16 does not write keeps its contents through the filter's operations. -/
theorem filt16_keep (V : Valuation τ sig (Elt F)) {r : Ref sig .tc} (h : r ∉ filt16_W) :
    after filt16 V (no_index (Proc.devRef .tc r)) = V (Proc.devRef .tc r) :=
  after_of_writes_sub filt16 _ filt16_writes h

end Writes

set_option maxHeartbeats 4000000 in
set_option maxRecDepth 8192 in
/-- After filter 16's operations its feature buffer holds, for every sequence, the largest tanh of response plus bias over
    the 503 positions: each of the 10 shifted columns of the contraction is one tap (ConvRef.column_apply), their sum from zero
    is the response, and bias, tanh and maximum are ConvRef.feature_of_response. -/
theorem filt16_value (V : Valuation τ sig (Elt Ideal)) (b : Fin 128) :
    (after (filt16 (F := Ideal)) V (no_index (Proc.devRef .tc main_v471)) : S128.Idx → EReal) (ix1 b)
      = ConvPool.feat (V (Proc.devRef .tc main_v7)) (V (Proc.devRef .tc main_arg2)) (V (Proc.devRef .tc main_arg3)) (ix2 b (⟨16, by decide⟩ : Fin 64)) := by
  simp only [filt16, seg24, seg25, List.cons_append, List.nil_append, List.append_nil]
  after_results_simp
  refine ConvRef.feature_of_response (L := 503) (⟨16, by decide⟩ : Fin 64) (by decide) _ _ _ _ ?_ _ _ _ _ _ _ b
  intro b l hl
  show _ = ∑ j ∈ Finset.range 10, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 16 (by decide) _ _ _ _ _ rfl rfl rfl rfl rfl rfl _ _ _ _ _ b l hl))
  rfl

end Cert.ReferenceIdeal.RefRun

end
-- ==== Proof.RefFilter.F17.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 17's operations write. -/
abbrev filt17_W : List (Ref sig .tc) := [main_v472, main_v473, main_v474, main_v475, main_v476, main_cst_34, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503, main_v504, main_v505, main_v506, main_v507, main_v508, main_v509, main_v510, main_cst_35, main_v511]

set_option maxHeartbeats 4000000 in
set_option maxRecDepth 8192 in
theorem filt17_writes : (filt17 : List (HloOp τ sig (Elt F))).Forall fun op => op.writes ⊆ (filt17_W.map (Proc.devRef (τ := τ) .tc)).toFinset := by
  simp only [filt17, seg26, seg27, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 17 does not write keeps its contents through the filter's operations. -/
theorem filt17_keep (V : Valuation τ sig (Elt F)) {r : Ref sig .tc} (h : r ∉ filt17_W) :
    after filt17 V (no_index (Proc.devRef .tc r)) = V (Proc.devRef .tc r) :=
  after_of_writes_sub filt17 _ filt17_writes h

end Writes

set_option maxHeartbeats 4000000 in
set_option maxRecDepth 8192 in
/-- After filter 17's operations its feature buffer holds, for every sequence, the largest tanh of response plus bias over
    the 503 positions: each of the 10 shifted columns of the contraction is one tap (ConvRef.column_apply), their sum from zero
    is the response, and bias, tanh and maximum are ConvRef.feature_of_response. -/
theorem filt17_value (V : Valuation τ sig (Elt Ideal)) (b : Fin 128) :
    (after (filt17 (F := Ideal)) V (no_index (Proc.devRef .tc main_v511)) : S128.Idx → EReal) (ix1 b)
      = ConvPool.feat (V (Proc.devRef .tc main_v7)) (V (Proc.devRef .tc main_arg2)) (V (Proc.devRef .tc main_arg3)) (ix2 b (⟨17, by decide⟩ : Fin 64)) := by
  simp only [filt17, seg26, seg27, List.cons_append, List.nil_append, List.append_nil]
  after_results_simp
  refine ConvRef.feature_of_response (L := 503) (⟨17, by decide⟩ : Fin 64) (by decide) _ _ _ _ ?_ _ _ _ _ _ _ b
  intro b l hl
  show _ = ∑ j ∈ Finset.range 10, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 17 (by decide) _ _ _ _ _ rfl rfl rfl rfl rfl rfl _ _ _ _ _ b l hl))
  rfl

end Cert.ReferenceIdeal.RefRun

end
-- ==== Proof.RefFilter.F18.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 18's operations write. -/
abbrev filt18_W : List (Ref sig .tc) := [main_v512, main_v513, main_v514, main_v515, main_v516, main_cst_36, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_v546, main_v547, main_v548, main_v549, main_v550, main_v551, main_v552, main_v553, main_cst_37, main_v554]

set_option maxHeartbeats 4000000 in
set_option maxRecDepth 8192 in
theorem filt18_writes : (filt18 : List (HloOp τ sig (Elt F))).Forall fun op => op.writes ⊆ (filt18_W.map (Proc.devRef (τ := τ) .tc)).toFinset := by
  simp only [filt18, seg28, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 18 does not write keeps its contents through the filter's operations. -/
theorem filt18_keep (V : Valuation τ sig (Elt F)) {r : Ref sig .tc} (h : r ∉ filt18_W) :
    after filt18 V (no_index (Proc.devRef .tc r)) = V (Proc.devRef .tc r) :=
  after_of_writes_sub filt18 _ filt18_writes h

end Writes

set_option maxHeartbeats 4000000 in
set_option maxRecDepth 8192 in
/-- After filter 18's operations its feature buffer holds, for every sequence, the largest tanh of response plus bias over
    the 502 positions: each of the 11 shifted columns of the contraction is one tap (ConvRef.column_apply), their sum from zero
    is the response, and bias, tanh and maximum are ConvRef.feature_of_response. -/
theorem filt18_value (V : Valuation τ sig (Elt Ideal)) (b : Fin 128) :
    (after (filt18 (F := Ideal)) V (no_index (Proc.devRef .tc main_v554)) : S128.Idx → EReal) (ix1 b)
      = ConvPool.feat (V (Proc.devRef .tc main_v7)) (V (Proc.devRef .tc main_arg2)) (V (Proc.devRef .tc main_arg3)) (ix2 b (⟨18, by decide⟩ : Fin 64)) := by
  simp only [filt18, seg28, List.cons_append, List.nil_append, List.append_nil]
  after_results_simp
  refine ConvRef.feature_of_response (L := 502) (⟨18, by decide⟩ : Fin 64) (by decide) _ _ _ _ ?_ _ _ _ _ _ _ b
  intro b l hl
  show _ = ∑ j ∈ Finset.range 11, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 18 (by decide) _ _ _ _ _ rfl rfl rfl rfl rfl rfl _ _ _ _ _ b l hl))
  rfl

end Cert.ReferenceIdeal.RefRun

end
-- ==== Proof.RefFilter.F19.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 19's operations write. -/
abbrev filt19_W : List (Ref sig .tc) := [main_v555, main_v556, main_v557, main_v558, main_v559, main_cst_38, main_v560, main_v561, main_v562, main_v563, main_v564, main_v565, main_v566, main_v567, main_v568, main_v569, main_v570, main_v571, main_v572, main_v573, main_v574, main_v575, main_v576, main_v577, main_v578, main_v579, main_v580, main_v581, main_v582, main_v583, main_v584, main_v585, main_v586, main_v587, main_v588, main_v589, main_v590, main_v591, main_v592, main_v593, main_v594, main_v595, main_v596, main_cst_39, main_v597]

set_option maxHeartbeats 4000000 in
set_option maxRecDepth 8192 in
theorem filt19_writes : (filt19 : List (HloOp τ sig (Elt F))).Forall fun op => op.writes ⊆ (filt19_W.map (Proc.devRef (τ := τ) .tc)).toFinset := by
  simp only [filt19, seg29, seg30, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 19 does not write keeps its contents through the filter's operations. -/
theorem filt19_keep (V : Valuation τ sig (Elt F)) {r : Ref sig .tc} (h : r ∉ filt19_W) :
    after filt19 V (no_index (Proc.devRef .tc r)) = V (Proc.devRef .tc r) :=
  after_of_writes_sub filt19 _ filt19_writes h

end Writes

set_option maxHeartbeats 4000000 in
set_option maxRecDepth 8192 in
/-- After filter 19's operations its feature buffer holds, for every sequence, the largest tanh of response plus bias over
    the 502 positions: each of the 11 shifted columns of the contraction is one tap (ConvRef.column_apply), their sum from zero
    is the response, and bias, tanh and maximum are ConvRef.feature_of_response. -/
theorem filt19_value (V : Valuation τ sig (Elt Ideal)) (b : Fin 128) :
    (after (filt19 (F := Ideal)) V (no_index (Proc.devRef .tc main_v597)) : S128.Idx → EReal) (ix1 b)
      = ConvPool.feat (V (Proc.devRef .tc main_v7)) (V (Proc.devRef .tc main_arg2)) (V (Proc.devRef .tc main_arg3)) (ix2 b (⟨19, by decide⟩ : Fin 64)) := by
  simp only [filt19, seg29, seg30, List.cons_append, List.nil_append, List.append_nil]
  after_results_simp
  refine ConvRef.feature_of_response (L := 502) (⟨19, by decide⟩ : Fin 64) (by decide) _ _ _ _ ?_ _ _ _ _ _ _ b
  intro b l hl
  show _ = ∑ j ∈ Finset.range 11, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 19 (by decide) _ _ _ _ _ rfl rfl rfl rfl rfl rfl _ _ _ _ _ b l hl))
  rfl

end Cert.ReferenceIdeal.RefRun

end
-- ==== Proof.RefFilter.F20.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 20's operations write. -/
abbrev filt20_W : List (Ref sig .tc) := [main_v598, main_v599, main_v600, main_v601, main_v602, main_cst_40, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629, main_v630, main_v631, main_v632, main_v633, main_v634, main_v635, main_v636, main_v637, main_v638, main_v639, main_v640, main_v641, main_v642, main_cst_41, main_v643]

set_option maxHeartbeats 4000000 in
set_option maxRecDepth 8192 in
theorem filt20_writes : (filt20 : List (HloOp τ sig (Elt F))).Forall fun op => op.writes ⊆ (filt20_W.map (Proc.devRef (τ := τ) .tc)).toFinset := by
  simp only [filt20, seg31, seg32, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 20 does not write keeps its contents through the filter's operations. -/
theorem filt20_keep (V : Valuation τ sig (Elt F)) {r : Ref sig .tc} (h : r ∉ filt20_W) :
    after filt20 V (no_index (Proc.devRef .tc r)) = V (Proc.devRef .tc r) :=
  after_of_writes_sub filt20 _ filt20_writes h

end Writes

set_option maxHeartbeats 4000000 in
set_option maxRecDepth 8192 in
/-- After filter 20's operations its feature buffer holds, for every sequence, the largest tanh of response plus bias over
    the 501 positions: each of the 12 shifted columns of the contraction is one tap (ConvRef.column_apply), their sum from zero
    is the response, and bias, tanh and maximum are ConvRef.feature_of_response. -/
theorem filt20_value (V : Valuation τ sig (Elt Ideal)) (b : Fin 128) :
    (after (filt20 (F := Ideal)) V (no_index (Proc.devRef .tc main_v643)) : S128.Idx → EReal) (ix1 b)
      = ConvPool.feat (V (Proc.devRef .tc main_v7)) (V (Proc.devRef .tc main_arg2)) (V (Proc.devRef .tc main_arg3)) (ix2 b (⟨20, by decide⟩ : Fin 64)) := by
  simp only [filt20, seg31, seg32, List.cons_append, List.nil_append, List.append_nil]
  after_results_simp
  refine ConvRef.feature_of_response (L := 501) (⟨20, by decide⟩ : Fin 64) (by decide) _ _ _ _ ?_ _ _ _ _ _ _ b
  intro b l hl
  show _ = ∑ j ∈ Finset.range 12, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 20 (by decide) _ _ _ _ _ rfl rfl rfl rfl rfl rfl _ _ _ _ _ b l hl))
  rfl

end Cert.ReferenceIdeal.RefRun

end
-- ==== Proof.RefFilter.F21.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 21's operations write. -/
abbrev filt21_W : List (Ref sig .tc) := [main_v644, main_v645, main_v646, main_v647, main_v648, main_cst_42, main_v649, main_v650, main_v651, main_v652, main_v653, main_v654, main_v655, main_v656, main_v657, main_v658, main_v659, main_v660, main_v661, main_v662, main_v663, main_v664, main_v665, main_v666, main_v667, main_v668, main_v669, main_v670, main_v671, main_v672, main_v673, main_v674, main_v675, main_v676, main_v677, main_v678, main_v679, main_v680, main_v681, main_v682, main_v683, main_v684, main_v685, main_v686, main_v687, main_v688, main_cst_43, main_v689]

set_option maxHeartbeats 4000000 in
set_option maxRecDepth 8192 in
theorem filt21_writes : (filt21 : List (HloOp τ sig (Elt F))).Forall fun op => op.writes ⊆ (filt21_W.map (Proc.devRef (τ := τ) .tc)).toFinset := by
  simp only [filt21, seg33, seg34, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 21 does not write keeps its contents through the filter's operations. -/
theorem filt21_keep (V : Valuation τ sig (Elt F)) {r : Ref sig .tc} (h : r ∉ filt21_W) :
    after filt21 V (no_index (Proc.devRef .tc r)) = V (Proc.devRef .tc r) :=
  after_of_writes_sub filt21 _ filt21_writes h

end Writes

set_option maxHeartbeats 4000000 in
set_option maxRecDepth 8192 in
/-- After filter 21's operations its feature buffer holds, for every sequence, the largest tanh of response plus bias over
    the 501 positions: each of the 12 shifted columns of the contraction is one tap (ConvRef.column_apply), their sum from zero
    is the response, and bias, tanh and maximum are ConvRef.feature_of_response. -/
theorem filt21_value (V : Valuation τ sig (Elt Ideal)) (b : Fin 128) :
    (after (filt21 (F := Ideal)) V (no_index (Proc.devRef .tc main_v689)) : S128.Idx → EReal) (ix1 b)
      = ConvPool.feat (V (Proc.devRef .tc main_v7)) (V (Proc.devRef .tc main_arg2)) (V (Proc.devRef .tc main_arg3)) (ix2 b (⟨21, by decide⟩ : Fin 64)) := by
  simp only [filt21, seg33, seg34, List.cons_append, List.nil_append, List.append_nil]
  after_results_simp
  refine ConvRef.feature_of_response (L := 501) (⟨21, by decide⟩ : Fin 64) (by decide) _ _ _ _ ?_ _ _ _ _ _ _ b
  intro b l hl
  show _ = ∑ j ∈ Finset.range 12, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 21 (by decide) _ _ _ _ _ rfl rfl rfl rfl rfl rfl _ _ _ _ _ b l hl))
  rfl

end Cert.ReferenceIdeal.RefRun

end
-- ==== Proof.RefFilter.F22.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 22's operations write. -/
abbrev filt22_W : List (Ref sig .tc) := [main_v690, main_v691, main_v692, main_v693, main_v694, main_cst_44, main_v695, main_v696, main_v697, main_v698, main_v699, main_v700, main_v701, main_v702, main_v703, main_v704, main_v705, main_v706, main_v707, main_v708, main_v709, main_v710, main_v711, main_v712, main_v713, main_v714, main_v715, main_v716, main_v717, main_v718, main_v719, main_v720, main_v721, main_v722, main_v723, main_v724, main_v725, main_v726, main_v727, main_v728, main_v729, main_v730, main_v731, main_v732, main_v733, main_v734, main_v735, main_v736, main_v737, main_cst_45, main_v738]

set_option maxHeartbeats 4000000 in
set_option maxRecDepth 8192 in
theorem filt22_writes : (filt22 : List (HloOp τ sig (Elt F))).Forall fun op => op.writes ⊆ (filt22_W.map (Proc.devRef (τ := τ) .tc)).toFinset := by
  simp only [filt22, seg35, seg36, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 22 does not write keeps its contents through the filter's operations. -/
theorem filt22_keep (V : Valuation τ sig (Elt F)) {r : Ref sig .tc} (h : r ∉ filt22_W) :
    after filt22 V (no_index (Proc.devRef .tc r)) = V (Proc.devRef .tc r) :=
  after_of_writes_sub filt22 _ filt22_writes h

end Writes

set_option maxHeartbeats 4000000 in
set_option maxRecDepth 8192 in
/-- After filter 22's operations its feature buffer holds, for every sequence, the largest tanh of response plus bias over
    the 500 positions: each of the 13 shifted columns of the contraction is one tap (ConvRef.column_apply), their sum from zero
    is the response, and bias, tanh and maximum are ConvRef.feature_of_response. -/
theorem filt22_value (V : Valuation τ sig (Elt Ideal)) (b : Fin 128) :
    (after (filt22 (F := Ideal)) V (no_index (Proc.devRef .tc main_v738)) : S128.Idx → EReal) (ix1 b)
      = ConvPool.feat (V (Proc.devRef .tc main_v7)) (V (Proc.devRef .tc main_arg2)) (V (Proc.devRef .tc main_arg3)) (ix2 b (⟨22, by decide⟩ : Fin 64)) := by
  simp only [filt22, seg35, seg36, List.cons_append, List.nil_append, List.append_nil]
  after_results_simp
  refine ConvRef.feature_of_response (L := 500) (⟨22, by decide⟩ : Fin 64) (by decide) _ _ _ _ ?_ _ _ _ _ _ _ b
  intro b l hl
  show _ = ∑ j ∈ Finset.range 13, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 22 (by decide) _ _ _ _ _ rfl rfl rfl rfl rfl rfl _ _ _ _ _ b l hl))
  rfl

end Cert.ReferenceIdeal.RefRun

end
-- ==== Proof.RefFilter.F23.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 23's operations write. -/
abbrev filt23_W : List (Ref sig .tc) := [main_v739, main_v740, main_v741, main_v742, main_v743, main_cst_46, main_v744, main_v745, main_v746, main_v747, main_v748, main_v749, main_v750, main_v751, main_v752, main_v753, main_v754, main_v755, main_v756, main_v757, main_v758, main_v759, main_v760, main_v761, main_v762, main_v763, main_v764, main_v765, main_v766, main_v767, main_v768, main_v769, main_v770, main_v771, main_v772, main_v773, main_v774, main_v775, main_v776, main_v777, main_v778, main_v779, main_v780, main_v781, main_v782, main_v783, main_v784, main_v785, main_v786, main_cst_47, main_v787]

set_option maxHeartbeats 4000000 in
set_option maxRecDepth 8192 in
theorem filt23_writes : (filt23 : List (HloOp τ sig (Elt F))).Forall fun op => op.writes ⊆ (filt23_W.map (Proc.devRef (τ := τ) .tc)).toFinset := by
  simp only [filt23, seg37, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 23 does not write keeps its contents through the filter's operations. -/
theorem filt23_keep (V : Valuation τ sig (Elt F)) {r : Ref sig .tc} (h : r ∉ filt23_W) :
    after filt23 V (no_index (Proc.devRef .tc r)) = V (Proc.devRef .tc r) :=
  after_of_writes_sub filt23 _ filt23_writes h

end Writes

set_option maxHeartbeats 4000000 in
set_option maxRecDepth 8192 in
/-- After filter 23's operations its feature buffer holds, for every sequence, the largest tanh of response plus bias over
    the 500 positions: each of the 13 shifted columns of the contraction is one tap (ConvRef.column_apply), their sum from zero
    is the response, and bias, tanh and maximum are ConvRef.feature_of_response. -/
theorem filt23_value (V : Valuation τ sig (Elt Ideal)) (b : Fin 128) :
    (after (filt23 (F := Ideal)) V (no_index (Proc.devRef .tc main_v787)) : S128.Idx → EReal) (ix1 b)
      = ConvPool.feat (V (Proc.devRef .tc main_v7)) (V (Proc.devRef .tc main_arg2)) (V (Proc.devRef .tc main_arg3)) (ix2 b (⟨23, by decide⟩ : Fin 64)) := by
  simp only [filt23, seg37, List.cons_append, List.nil_append, List.append_nil]
  after_results_simp
  refine ConvRef.feature_of_response (L := 500) (⟨23, by decide⟩ : Fin 64) (by decide) _ _ _ _ ?_ _ _ _ _ _ _ b
  intro b l hl
  show _ = ∑ j ∈ Finset.range 13, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 23 (by decide) _ _ _ _ _ rfl rfl rfl rfl rfl rfl _ _ _ _ _ b l hl))
  rfl

end Cert.ReferenceIdeal.RefRun

end
-- ==== Proof.RefFilter.F24.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 24's operations write. -/
abbrev filt24_W : List (Ref sig .tc) := [main_v788, main_v789, main_v790, main_v791, main_v792, main_cst_48, main_v793, main_v794, main_v795, main_v796, main_v797, main_v798, main_v799, main_v800, main_v801, main_v802, main_v803, main_v804, main_v805, main_v806, main_v807, main_v808, main_v809, main_v810, main_v811, main_v812, main_v813, main_v814, main_v815, main_v816, main_v817, main_v818, main_v819, main_v820, main_v821, main_v822, main_v823, main_v824, main_v825, main_v826, main_v827, main_v828, main_v829, main_v830, main_v831, main_v832, main_v833, main_v834, main_v835, main_v836, main_v837, main_v838, main_cst_49, main_v839]

set_option maxHeartbeats 4000000 in
set_option maxRecDepth 8192 in
theorem filt24_writes : (filt24 : List (HloOp τ sig (Elt F))).Forall fun op => op.writes ⊆ (filt24_W.map (Proc.devRef (τ := τ) .tc)).toFinset := by
  simp only [filt24, seg38, seg39, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 24 does not write keeps its contents through the filter's operations. -/
theorem filt24_keep (V : Valuation τ sig (Elt F)) {r : Ref sig .tc} (h : r ∉ filt24_W) :
    after filt24 V (no_index (Proc.devRef .tc r)) = V (Proc.devRef .tc r) :=
  after_of_writes_sub filt24 _ filt24_writes h

end Writes

set_option maxHeartbeats 4000000 in
set_option maxRecDepth 8192 in
/-- After filter 24's operations its feature buffer holds, for every sequence, the largest tanh of response plus bias over
    the 499 positions: each of the 14 shifted columns of the contraction is one tap (ConvRef.column_apply), their sum from zero
    is the response, and bias, tanh and maximum are ConvRef.feature_of_response. -/
theorem filt24_value (V : Valuation τ sig (Elt Ideal)) (b : Fin 128) :
    (after (filt24 (F := Ideal)) V (no_index (Proc.devRef .tc main_v839)) : S128.Idx → EReal) (ix1 b)
      = ConvPool.feat (V (Proc.devRef .tc main_v7)) (V (Proc.devRef .tc main_arg2)) (V (Proc.devRef .tc main_arg3)) (ix2 b (⟨24, by decide⟩ : Fin 64)) := by
  simp only [filt24, seg38, seg39, List.cons_append, List.nil_append, List.append_nil]
  after_results_simp
  refine ConvRef.feature_of_response (L := 499) (⟨24, by decide⟩ : Fin 64) (by decide) _ _ _ _ ?_ _ _ _ _ _ _ b
  intro b l hl
  show _ = ∑ j ∈ Finset.range 14, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 24 (by decide) _ _ _ _ _ rfl rfl rfl rfl rfl rfl _ _ _ _ _ b l hl))
  rfl

end Cert.ReferenceIdeal.RefRun

end
-- ==== Proof.RefFilter.F25.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 25's operations write. -/
abbrev filt25_W : List (Ref sig .tc) := [main_v840, main_v841, main_v842, main_v843, main_v844, main_cst_50, main_v845, main_v846, main_v847, main_v848, main_v849, main_v850, main_v851, main_v852, main_v853, main_v854, main_v855, main_v856, main_v857, main_v858, main_v859, main_v860, main_v861, main_v862, main_v863, main_v864, main_v865, main_v866, main_v867, main_v868, main_v869, main_v870, main_v871, main_v872, main_v873, main_v874, main_v875, main_v876, main_v877, main_v878, main_v879, main_v880, main_v881, main_v882, main_v883, main_v884, main_v885, main_v886, main_v887, main_v888, main_v889, main_v890, main_cst_51, main_v891]

set_option maxHeartbeats 4000000 in
set_option maxRecDepth 8192 in
theorem filt25_writes : (filt25 : List (HloOp τ sig (Elt F))).Forall fun op => op.writes ⊆ (filt25_W.map (Proc.devRef (τ := τ) .tc)).toFinset := by
  simp only [filt25, seg40, seg41, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 25 does not write keeps its contents through the filter's operations. -/
theorem filt25_keep (V : Valuation τ sig (Elt F)) {r : Ref sig .tc} (h : r ∉ filt25_W) :
    after filt25 V (no_index (Proc.devRef .tc r)) = V (Proc.devRef .tc r) :=
  after_of_writes_sub filt25 _ filt25_writes h

end Writes

set_option maxHeartbeats 4000000 in
set_option maxRecDepth 8192 in
/-- After filter 25's operations its feature buffer holds, for every sequence, the largest tanh of response plus bias over
    the 499 positions: each of the 14 shifted columns of the contraction is one tap (ConvRef.column_apply), their sum from zero
    is the response, and bias, tanh and maximum are ConvRef.feature_of_response. -/
theorem filt25_value (V : Valuation τ sig (Elt Ideal)) (b : Fin 128) :
    (after (filt25 (F := Ideal)) V (no_index (Proc.devRef .tc main_v891)) : S128.Idx → EReal) (ix1 b)
      = ConvPool.feat (V (Proc.devRef .tc main_v7)) (V (Proc.devRef .tc main_arg2)) (V (Proc.devRef .tc main_arg3)) (ix2 b (⟨25, by decide⟩ : Fin 64)) := by
  simp only [filt25, seg40, seg41, List.cons_append, List.nil_append, List.append_nil]
  after_results_simp
  refine ConvRef.feature_of_response (L := 499) (⟨25, by decide⟩ : Fin 64) (by decide) _ _ _ _ ?_ _ _ _ _ _ _ b
  intro b l hl
  show _ = ∑ j ∈ Finset.range 14, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 25 (by decide) _ _ _ _ _ rfl rfl rfl rfl rfl rfl _ _ _ _ _ b l hl))
  rfl

end Cert.ReferenceIdeal.RefRun

end
-- ==== Proof.RefFilter.F26.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 26's operations write. -/
abbrev filt26_W : List (Ref sig .tc) := [main_v892, main_v893, main_v894, main_v895, main_v896, main_cst_52, main_v897, main_v898, main_v899, main_v900, main_v901, main_v902, main_v903, main_v904, main_v905, main_v906, main_v907, main_v908, main_v909, main_v910, main_v911, main_v912, main_v913, main_v914, main_v915, main_v916, main_v917, main_v918, main_v919, main_v920, main_v921, main_v922, main_v923, main_v924, main_v925, main_v926, main_v927, main_v928, main_v929, main_v930, main_v931, main_v932, main_v933, main_v934, main_v935, main_v936, main_v937, main_v938, main_v939, main_v940, main_v941, main_v942, main_v943, main_v944, main_v945, main_cst_53, main_v946]

set_option maxHeartbeats 4000000 in
set_option maxRecDepth 8192 in
theorem filt26_writes : (filt26 : List (HloOp τ sig (Elt F))).Forall fun op => op.writes ⊆ (filt26_W.map (Proc.devRef (τ := τ) .tc)).toFinset := by
  simp only [filt26, seg42, seg43, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 26 does not write keeps its contents through the filter's operations. -/
theorem filt26_keep (V : Valuation τ sig (Elt F)) {r : Ref sig .tc} (h : r ∉ filt26_W) :
    after filt26 V (no_index (Proc.devRef .tc r)) = V (Proc.devRef .tc r) :=
  after_of_writes_sub filt26 _ filt26_writes h

end Writes

set_option maxHeartbeats 4000000 in
set_option maxRecDepth 8192 in
/-- After filter 26's operations its feature buffer holds, for every sequence, the largest tanh of response plus bias over
    the 498 positions: each of the 15 shifted columns of the contraction is one tap (ConvRef.column_apply), their sum from zero
    is the response, and bias, tanh and maximum are ConvRef.feature_of_response. -/
theorem filt26_value (V : Valuation τ sig (Elt Ideal)) (b : Fin 128) :
    (after (filt26 (F := Ideal)) V (no_index (Proc.devRef .tc main_v946)) : S128.Idx → EReal) (ix1 b)
      = ConvPool.feat (V (Proc.devRef .tc main_v7)) (V (Proc.devRef .tc main_arg2)) (V (Proc.devRef .tc main_arg3)) (ix2 b (⟨26, by decide⟩ : Fin 64)) := by
  simp only [filt26, seg42, seg43, List.cons_append, List.nil_append, List.append_nil]
  after_results_simp
  refine ConvRef.feature_of_response (L := 498) (⟨26, by decide⟩ : Fin 64) (by decide) _ _ _ _ ?_ _ _ _ _ _ _ b
  intro b l hl
  show _ = ∑ j ∈ Finset.range 15, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 26 (by decide) _ _ _ _ _ rfl rfl rfl rfl rfl rfl _ _ _ _ _ b l hl))
  rfl

end Cert.ReferenceIdeal.RefRun

end
-- ==== Proof.RefFilter.F27.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 27's operations write. -/
abbrev filt27_W : List (Ref sig .tc) := [main_v947, main_v948, main_v949, main_v950, main_v951, main_cst_54, main_v952, main_v953, main_v954, main_v955, main_v956, main_v957, main_v958, main_v959, main_v960, main_v961, main_v962, main_v963, main_v964, main_v965, main_v966, main_v967, main_v968, main_v969, main_v970, main_v971, main_v972, main_v973, main_v974, main_v975, main_v976, main_v977, main_v978, main_v979, main_v980, main_v981, main_v982, main_v983, main_v984, main_v985, main_v986, main_v987, main_v988, main_v989, main_v990, main_v991, main_v992, main_v993, main_v994, main_v995, main_v996, main_v997, main_v998, main_v999, main_v1000, main_cst_55, main_v1001]

set_option maxHeartbeats 4000000 in
set_option maxRecDepth 8192 in
theorem filt27_writes : (filt27 : List (HloOp τ sig (Elt F))).Forall fun op => op.writes ⊆ (filt27_W.map (Proc.devRef (τ := τ) .tc)).toFinset := by
  simp only [filt27, seg44, seg45, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 27 does not write keeps its contents through the filter's operations. -/
theorem filt27_keep (V : Valuation τ sig (Elt F)) {r : Ref sig .tc} (h : r ∉ filt27_W) :
    after filt27 V (no_index (Proc.devRef .tc r)) = V (Proc.devRef .tc r) :=
  after_of_writes_sub filt27 _ filt27_writes h

end Writes

set_option maxHeartbeats 4000000 in
set_option maxRecDepth 8192 in
/-- After filter 27's operations its feature buffer holds, for every sequence, the largest tanh of response plus bias over
    the 498 positions: each of the 15 shifted columns of the contraction is one tap (ConvRef.column_apply), their sum from zero
    is the response, and bias, tanh and maximum are ConvRef.feature_of_response. -/
theorem filt27_value (V : Valuation τ sig (Elt Ideal)) (b : Fin 128) :
    (after (filt27 (F := Ideal)) V (no_index (Proc.devRef .tc main_v1001)) : S128.Idx → EReal) (ix1 b)
      = ConvPool.feat (V (Proc.devRef .tc main_v7)) (V (Proc.devRef .tc main_arg2)) (V (Proc.devRef .tc main_arg3)) (ix2 b (⟨27, by decide⟩ : Fin 64)) := by
  simp only [filt27, seg44, seg45, List.cons_append, List.nil_append, List.append_nil]
  after_results_simp
  refine ConvRef.feature_of_response (L := 498) (⟨27, by decide⟩ : Fin 64) (by decide) _ _ _ _ ?_ _ _ _ _ _ _ b
  intro b l hl
  show _ = ∑ j ∈ Finset.range 15, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 27 (by decide) _ _ _ _ _ rfl rfl rfl rfl rfl rfl _ _ _ _ _ b l hl))
  rfl

end Cert.ReferenceIdeal.RefRun

end
-- ==== Proof.RefFilter.F28.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 28's operations write. -/
abbrev filt28_W : List (Ref sig .tc) := [main_v1002, main_v1003, main_v1004, main_v1005, main_v1006, main_cst_56, main_v1007, main_v1008, main_v1009, main_v1010, main_v1011, main_v1012, main_v1013, main_v1014, main_v1015, main_v1016, main_v1017, main_v1018, main_v1019, main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_v1050, main_v1051, main_v1052, main_v1053, main_v1054, main_v1055, main_v1056, main_v1057, main_v1058, main_cst_57, main_v1059]

set_option maxHeartbeats 4000000 in
set_option maxRecDepth 8192 in
theorem filt28_writes : (filt28 : List (HloOp τ sig (Elt F))).Forall fun op => op.writes ⊆ (filt28_W.map (Proc.devRef (τ := τ) .tc)).toFinset := by
  simp only [filt28, seg46, seg47, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 28 does not write keeps its contents through the filter's operations. -/
theorem filt28_keep (V : Valuation τ sig (Elt F)) {r : Ref sig .tc} (h : r ∉ filt28_W) :
    after filt28 V (no_index (Proc.devRef .tc r)) = V (Proc.devRef .tc r) :=
  after_of_writes_sub filt28 _ filt28_writes h

end Writes

set_option maxHeartbeats 4000000 in
set_option maxRecDepth 8192 in
/-- After filter 28's operations its feature buffer holds, for every sequence, the largest tanh of response plus bias over
    the 497 positions: each of the 16 shifted columns of the contraction is one tap (ConvRef.column_apply), their sum from zero
    is the response, and bias, tanh and maximum are ConvRef.feature_of_response. -/
theorem filt28_value (V : Valuation τ sig (Elt Ideal)) (b : Fin 128) :
    (after (filt28 (F := Ideal)) V (no_index (Proc.devRef .tc main_v1059)) : S128.Idx → EReal) (ix1 b)
      = ConvPool.feat (V (Proc.devRef .tc main_v7)) (V (Proc.devRef .tc main_arg2)) (V (Proc.devRef .tc main_arg3)) (ix2 b (⟨28, by decide⟩ : Fin 64)) := by
  simp only [filt28, seg46, seg47, List.cons_append, List.nil_append, List.append_nil]
  after_results_simp
  refine ConvRef.feature_of_response (L := 497) (⟨28, by decide⟩ : Fin 64) (by decide) _ _ _ _ ?_ _ _ _ _ _ _ b
  intro b l hl
  show _ = ∑ j ∈ Finset.range 16, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 28 (by decide) _ _ _ _ _ rfl rfl rfl rfl rfl rfl _ _ _ _ _ b l hl))
  rfl

end Cert.ReferenceIdeal.RefRun

end
-- ==== Proof.RefFilter.F29.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 29's operations write. -/
abbrev filt29_W : List (Ref sig .tc) := [main_v1060, main_v1061, main_v1062, main_v1063, main_v1064, main_cst_58, main_v1065, main_v1066, main_v1067, main_v1068, main_v1069, main_v1070, main_v1071, main_v1072, main_v1073, main_v1074, main_v1075, main_v1076, main_v1077, main_v1078, main_v1079, main_v1080, main_v1081, main_v1082, main_v1083, main_v1084, main_v1085, main_v1086, main_v1087, main_v1088, main_v1089, main_v1090, main_v1091, main_v1092, main_v1093, main_v1094, main_v1095, main_v1096, main_v1097, main_v1098, main_v1099, main_v1100, main_v1101, main_v1102, main_v1103, main_v1104, main_v1105, main_v1106, main_v1107, main_v1108, main_v1109, main_v1110, main_v1111, main_v1112, main_v1113, main_v1114, main_v1115, main_v1116, main_cst_59, main_v1117]

set_option maxHeartbeats 4000000 in
set_option maxRecDepth 8192 in
theorem filt29_writes : (filt29 : List (HloOp τ sig (Elt F))).Forall fun op => op.writes ⊆ (filt29_W.map (Proc.devRef (τ := τ) .tc)).toFinset := by
  simp only [filt29, seg48, seg49, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 29 does not write keeps its contents through the filter's operations. -/
theorem filt29_keep (V : Valuation τ sig (Elt F)) {r : Ref sig .tc} (h : r ∉ filt29_W) :
    after filt29 V (no_index (Proc.devRef .tc r)) = V (Proc.devRef .tc r) :=
  after_of_writes_sub filt29 _ filt29_writes h

end Writes

set_option maxHeartbeats 4000000 in
set_option maxRecDepth 8192 in
/-- After filter 29's operations its feature buffer holds, for every sequence, the largest tanh of response plus bias over
    the 497 positions: each of the 16 shifted columns of the contraction is one tap (ConvRef.column_apply), their sum from zero
    is the response, and bias, tanh and maximum are ConvRef.feature_of_response. -/
theorem filt29_value (V : Valuation τ sig (Elt Ideal)) (b : Fin 128) :
    (after (filt29 (F := Ideal)) V (no_index (Proc.devRef .tc main_v1117)) : S128.Idx → EReal) (ix1 b)
      = ConvPool.feat (V (Proc.devRef .tc main_v7)) (V (Proc.devRef .tc main_arg2)) (V (Proc.devRef .tc main_arg3)) (ix2 b (⟨29, by decide⟩ : Fin 64)) := by
  simp only [filt29, seg48, seg49, List.cons_append, List.nil_append, List.append_nil]
  after_results_simp
  refine ConvRef.feature_of_response (L := 497) (⟨29, by decide⟩ : Fin 64) (by decide) _ _ _ _ ?_ _ _ _ _ _ _ b
  intro b l hl
  show _ = ∑ j ∈ Finset.range 16, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 29 (by decide) _ _ _ _ _ rfl rfl rfl rfl rfl rfl _ _ _ _ _ b l hl))
  rfl

end Cert.ReferenceIdeal.RefRun

end
-- ==== Proof.RefFilter.F30.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 30's operations write. -/
abbrev filt30_W : List (Ref sig .tc) := [main_v1118, main_v1119, main_v1120, main_v1121, main_v1122, main_cst_60, main_v1123, main_v1124, main_v1125, main_v1126, main_v1127, main_v1128, main_v1129, main_v1130, main_v1131, main_v1132, main_v1133, main_v1134, main_v1135, main_v1136, main_v1137, main_v1138, main_v1139, main_v1140, main_v1141, main_v1142, main_v1143, main_v1144, main_v1145, main_v1146, main_v1147, main_v1148, main_v1149, main_v1150, main_v1151, main_v1152, main_v1153, main_v1154, main_v1155, main_v1156, main_v1157, main_v1158, main_v1159, main_v1160, main_v1161, main_v1162, main_v1163, main_v1164, main_v1165, main_v1166, main_v1167, main_v1168, main_v1169, main_v1170, main_v1171, main_v1172, main_v1173, main_v1174, main_v1175, main_v1176, main_v1177, main_cst_61, main_v1178]

set_option maxHeartbeats 4000000 in
set_option maxRecDepth 8192 in
theorem filt30_writes : (filt30 : List (HloOp τ sig (Elt F))).Forall fun op => op.writes ⊆ (filt30_W.map (Proc.devRef (τ := τ) .tc)).toFinset := by
  simp only [filt30, seg50, seg51, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 30 does not write keeps its contents through the filter's operations. -/
theorem filt30_keep (V : Valuation τ sig (Elt F)) {r : Ref sig .tc} (h : r ∉ filt30_W) :
    after filt30 V (no_index (Proc.devRef .tc r)) = V (Proc.devRef .tc r) :=
  after_of_writes_sub filt30 _ filt30_writes h

end Writes

set_option maxHeartbeats 4000000 in
set_option maxRecDepth 8192 in
/-- After filter 30's operations its feature buffer holds, for every sequence, the largest tanh of response plus bias over
    the 496 positions: each of the 17 shifted columns of the contraction is one tap (ConvRef.column_apply), their sum from zero
    is the response, and bias, tanh and maximum are ConvRef.feature_of_response. -/
theorem filt30_value (V : Valuation τ sig (Elt Ideal)) (b : Fin 128) :
    (after (filt30 (F := Ideal)) V (no_index (Proc.devRef .tc main_v1178)) : S128.Idx → EReal) (ix1 b)
      = ConvPool.feat (V (Proc.devRef .tc main_v7)) (V (Proc.devRef .tc main_arg2)) (V (Proc.devRef .tc main_arg3)) (ix2 b (⟨30, by decide⟩ : Fin 64)) := by
  simp only [filt30, seg50, seg51, List.cons_append, List.nil_append, List.append_nil]
  after_results_simp
  refine ConvRef.feature_of_response (L := 496) (⟨30, by decide⟩ : Fin 64) (by decide) _ _ _ _ ?_ _ _ _ _ _ _ b
  intro b l hl
  show _ = ∑ j ∈ Finset.range 17, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 30 (by decide) _ _ _ _ _ rfl rfl rfl rfl rfl rfl _ _ _ _ _ b l hl))
  rfl

end Cert.ReferenceIdeal.RefRun

end
-- ==== Proof.RefFilter.F31.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 31's operations write. -/
abbrev filt31_W : List (Ref sig .tc) := [main_v1179, main_v1180, main_v1181, main_v1182, main_v1183, main_cst_62, main_v1184, main_v1185, main_v1186, main_v1187, main_v1188, main_v1189, main_v1190, main_v1191, main_v1192, main_v1193, main_v1194, main_v1195, main_v1196, main_v1197, main_v1198, main_v1199, main_v1200, main_v1201, main_v1202, main_v1203, main_v1204, main_v1205, main_v1206, main_v1207, main_v1208, main_v1209, main_v1210, main_v1211, main_v1212, main_v1213, main_v1214, main_v1215, main_v1216, main_v1217, main_v1218, main_v1219, main_v1220, main_v1221, main_v1222, main_v1223, main_v1224, main_v1225, main_v1226, main_v1227, main_v1228, main_v1229, main_v1230, main_v1231, main_v1232, main_v1233, main_v1234, main_v1235, main_v1236, main_v1237, main_v1238, main_cst_63, main_v1239]

set_option maxHeartbeats 4000000 in
set_option maxRecDepth 8192 in
theorem filt31_writes : (filt31 : List (HloOp τ sig (Elt F))).Forall fun op => op.writes ⊆ (filt31_W.map (Proc.devRef (τ := τ) .tc)).toFinset := by
  simp only [filt31, seg52, seg53, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 31 does not write keeps its contents through the filter's operations. -/
theorem filt31_keep (V : Valuation τ sig (Elt F)) {r : Ref sig .tc} (h : r ∉ filt31_W) :
    after filt31 V (no_index (Proc.devRef .tc r)) = V (Proc.devRef .tc r) :=
  after_of_writes_sub filt31 _ filt31_writes h

end Writes

set_option maxHeartbeats 4000000 in
set_option maxRecDepth 8192 in
/-- After filter 31's operations its feature buffer holds, for every sequence, the largest tanh of response plus bias over
    the 496 positions: each of the 17 shifted columns of the contraction is one tap (ConvRef.column_apply), their sum from zero
    is the response, and bias, tanh and maximum are ConvRef.feature_of_response. -/
theorem filt31_value (V : Valuation τ sig (Elt Ideal)) (b : Fin 128) :
    (after (filt31 (F := Ideal)) V (no_index (Proc.devRef .tc main_v1239)) : S128.Idx → EReal) (ix1 b)
      = ConvPool.feat (V (Proc.devRef .tc main_v7)) (V (Proc.devRef .tc main_arg2)) (V (Proc.devRef .tc main_arg3)) (ix2 b (⟨31, by decide⟩ : Fin 64)) := by
  simp only [filt31, seg52, seg53, List.cons_append, List.nil_append, List.append_nil]
  after_results_simp
  refine ConvRef.feature_of_response (L := 496) (⟨31, by decide⟩ : Fin 64) (by decide) _ _ _ _ ?_ _ _ _ _ _ _ b
  intro b l hl
  show _ = ∑ j ∈ Finset.range 17, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 31 (by decide) _ _ _ _ _ rfl rfl rfl rfl rfl rfl _ _ _ _ _ b l hl))
  rfl

end Cert.ReferenceIdeal.RefRun

end
-- ==== Proof.RefFilter.F32.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 32's operations write. -/
abbrev filt32_W : List (Ref sig .tc) := [main_v1240, main_v1241, main_v1242, main_v1243, main_v1244, main_cst_64, main_v1245, main_v1246, main_v1247, main_v1248, main_v1249, main_v1250, main_v1251, main_v1252, main_v1253, main_v1254, main_v1255, main_v1256, main_v1257, main_v1258, main_v1259, main_v1260, main_v1261, main_v1262, main_v1263, main_v1264, main_v1265, main_v1266, main_v1267, main_v1268, main_v1269, main_v1270, main_v1271, main_v1272, main_v1273, main_v1274, main_v1275, main_v1276, main_v1277, main_v1278, main_v1279, main_v1280, main_v1281, main_v1282, main_v1283, main_v1284, main_v1285, main_v1286, main_v1287, main_v1288, main_v1289, main_v1290, main_v1291, main_v1292, main_v1293, main_v1294, main_v1295, main_v1296, main_v1297, main_v1298, main_v1299, main_v1300, main_v1301, main_v1302, main_cst_65, main_v1303]

set_option maxHeartbeats 4000000 in
set_option maxRecDepth 8192 in
theorem filt32_writes : (filt32 : List (HloOp τ sig (Elt F))).Forall fun op => op.writes ⊆ (filt32_W.map (Proc.devRef (τ := τ) .tc)).toFinset := by
  simp only [filt32, seg54, seg55, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 32 does not write keeps its contents through the filter's operations. -/
theorem filt32_keep (V : Valuation τ sig (Elt F)) {r : Ref sig .tc} (h : r ∉ filt32_W) :
    after filt32 V (no_index (Proc.devRef .tc r)) = V (Proc.devRef .tc r) :=
  after_of_writes_sub filt32 _ filt32_writes h

end Writes

set_option maxHeartbeats 4000000 in
set_option maxRecDepth 8192 in
/-- After filter 32's operations its feature buffer holds, for every sequence, the largest tanh of response plus bias over
    the 495 positions: each of the 18 shifted columns of the contraction is one tap (ConvRef.column_apply), their sum from zero
    is the response, and bias, tanh and maximum are ConvRef.feature_of_response. -/
theorem filt32_value (V : Valuation τ sig (Elt Ideal)) (b : Fin 128) :
    (after (filt32 (F := Ideal)) V (no_index (Proc.devRef .tc main_v1303)) : S128.Idx → EReal) (ix1 b)
      = ConvPool.feat (V (Proc.devRef .tc main_v7)) (V (Proc.devRef .tc main_arg2)) (V (Proc.devRef .tc main_arg3)) (ix2 b (⟨32, by decide⟩ : Fin 64)) := by
  simp only [filt32, seg54, seg55, List.cons_append, List.nil_append, List.append_nil]
  after_results_simp
  refine ConvRef.feature_of_response (L := 495) (⟨32, by decide⟩ : Fin 64) (by decide) _ _ _ _ ?_ _ _ _ _ _ _ b
  intro b l hl
  show _ = ∑ j ∈ Finset.range 18, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 32 (by decide) _ _ _ _ _ rfl rfl rfl rfl rfl rfl _ _ _ _ _ b l hl))
  rfl

end Cert.ReferenceIdeal.RefRun

end
-- ==== Proof.RefFilter.F33.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 33's operations write. -/
abbrev filt33_W : List (Ref sig .tc) := [main_v1304, main_v1305, main_v1306, main_v1307, main_v1308, main_cst_66, main_v1309, main_v1310, main_v1311, main_v1312, main_v1313, main_v1314, main_v1315, main_v1316, main_v1317, main_v1318, main_v1319, main_v1320, main_v1321, main_v1322, main_v1323, main_v1324, main_v1325, main_v1326, main_v1327, main_v1328, main_v1329, main_v1330, main_v1331, main_v1332, main_v1333, main_v1334, main_v1335, main_v1336, main_v1337, main_v1338, main_v1339, main_v1340, main_v1341, main_v1342, main_v1343, main_v1344, main_v1345, main_v1346, main_v1347, main_v1348, main_v1349, main_v1350, main_v1351, main_v1352, main_v1353, main_v1354, main_v1355, main_v1356, main_v1357, main_v1358, main_v1359, main_v1360, main_v1361, main_v1362, main_v1363, main_v1364, main_v1365, main_v1366, main_cst_67, main_v1367]

set_option maxHeartbeats 4000000 in
set_option maxRecDepth 8192 in
theorem filt33_writes : (filt33 : List (HloOp τ sig (Elt F))).Forall fun op => op.writes ⊆ (filt33_W.map (Proc.devRef (τ := τ) .tc)).toFinset := by
  simp only [filt33, seg56, seg57, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 33 does not write keeps its contents through the filter's operations. -/
theorem filt33_keep (V : Valuation τ sig (Elt F)) {r : Ref sig .tc} (h : r ∉ filt33_W) :
    after filt33 V (no_index (Proc.devRef .tc r)) = V (Proc.devRef .tc r) :=
  after_of_writes_sub filt33 _ filt33_writes h

end Writes

set_option maxHeartbeats 4000000 in
set_option maxRecDepth 8192 in
/-- After filter 33's operations its feature buffer holds, for every sequence, the largest tanh of response plus bias over
    the 495 positions: each of the 18 shifted columns of the contraction is one tap (ConvRef.column_apply), their sum from zero
    is the response, and bias, tanh and maximum are ConvRef.feature_of_response. -/
theorem filt33_value (V : Valuation τ sig (Elt Ideal)) (b : Fin 128) :
    (after (filt33 (F := Ideal)) V (no_index (Proc.devRef .tc main_v1367)) : S128.Idx → EReal) (ix1 b)
      = ConvPool.feat (V (Proc.devRef .tc main_v7)) (V (Proc.devRef .tc main_arg2)) (V (Proc.devRef .tc main_arg3)) (ix2 b (⟨33, by decide⟩ : Fin 64)) := by
  simp only [filt33, seg56, seg57, List.cons_append, List.nil_append, List.append_nil]
  after_results_simp
  refine ConvRef.feature_of_response (L := 495) (⟨33, by decide⟩ : Fin 64) (by decide) _ _ _ _ ?_ _ _ _ _ _ _ b
  intro b l hl
  show _ = ∑ j ∈ Finset.range 18, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 33 (by decide) _ _ _ _ _ rfl rfl rfl rfl rfl rfl _ _ _ _ _ b l hl))
  rfl

end Cert.ReferenceIdeal.RefRun

end
-- ==== Proof.RefFilter.F34.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 34's operations write. -/
abbrev filt34_W : List (Ref sig .tc) := [main_v1368, main_v1369, main_v1370, main_v1371, main_v1372, main_cst_68, main_v1373, main_v1374, main_v1375, main_v1376, main_v1377, main_v1378, main_v1379, main_v1380, main_v1381, main_v1382, main_v1383, main_v1384, main_v1385, main_v1386, main_v1387, main_v1388, main_v1389, main_v1390, main_v1391, main_v1392, main_v1393, main_v1394, main_v1395, main_v1396, main_v1397, main_v1398, main_v1399, main_v1400, main_v1401, main_v1402, main_v1403, main_v1404, main_v1405, main_v1406, main_v1407, main_v1408, main_v1409, main_v1410, main_v1411, main_v1412, main_v1413, main_v1414, main_v1415, main_v1416, main_v1417, main_v1418, main_v1419, main_v1420, main_v1421, main_v1422, main_v1423, main_v1424, main_v1425, main_v1426, main_v1427, main_v1428, main_v1429, main_v1430, main_v1431, main_v1432, main_v1433, main_cst_69, main_v1434]

set_option maxHeartbeats 4000000 in
set_option maxRecDepth 8192 in
theorem filt34_writes : (filt34 : List (HloOp τ sig (Elt F))).Forall fun op => op.writes ⊆ (filt34_W.map (Proc.devRef (τ := τ) .tc)).toFinset := by
  simp only [filt34, seg58, seg59, seg60, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 34 does not write keeps its contents through the filter's operations. -/
theorem filt34_keep (V : Valuation τ sig (Elt F)) {r : Ref sig .tc} (h : r ∉ filt34_W) :
    after filt34 V (no_index (Proc.devRef .tc r)) = V (Proc.devRef .tc r) :=
  after_of_writes_sub filt34 _ filt34_writes h

end Writes

set_option maxHeartbeats 4000000 in
set_option maxRecDepth 8192 in
/-- After filter 34's operations its feature buffer holds, for every sequence, the largest tanh of response plus bias over
    the 494 positions: each of the 19 shifted columns of the contraction is one tap (ConvRef.column_apply), their sum from zero
    is the response, and bias, tanh and maximum are ConvRef.feature_of_response. -/
theorem filt34_value (V : Valuation τ sig (Elt Ideal)) (b : Fin 128) :
    (after (filt34 (F := Ideal)) V (no_index (Proc.devRef .tc main_v1434)) : S128.Idx → EReal) (ix1 b)
      = ConvPool.feat (V (Proc.devRef .tc main_v7)) (V (Proc.devRef .tc main_arg2)) (V (Proc.devRef .tc main_arg3)) (ix2 b (⟨34, by decide⟩ : Fin 64)) := by
  simp only [filt34, seg58, seg59, seg60, List.cons_append, List.nil_append, List.append_nil]
  after_results_simp
  refine ConvRef.feature_of_response (L := 494) (⟨34, by decide⟩ : Fin 64) (by decide) _ _ _ _ ?_ _ _ _ _ _ _ b
  intro b l hl
  show _ = ∑ j ∈ Finset.range 19, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 34 (by decide) _ _ _ _ _ rfl rfl rfl rfl rfl rfl _ _ _ _ _ b l hl))
  rfl

end Cert.ReferenceIdeal.RefRun

end
-- ==== Proof.RefFilter.F35.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 35's operations write. -/
abbrev filt35_W : List (Ref sig .tc) := [main_v1435, main_v1436, main_v1437, main_v1438, main_v1439, main_cst_70, main_v1440, main_v1441, main_v1442, main_v1443, main_v1444, main_v1445, main_v1446, main_v1447, main_v1448, main_v1449, main_v1450, main_v1451, main_v1452, main_v1453, main_v1454, main_v1455, main_v1456, main_v1457, main_v1458, main_v1459, main_v1460, main_v1461, main_v1462, main_v1463, main_v1464, main_v1465, main_v1466, main_v1467, main_v1468, main_v1469, main_v1470, main_v1471, main_v1472, main_v1473, main_v1474, main_v1475, main_v1476, main_v1477, main_v1478, main_v1479, main_v1480, main_v1481, main_v1482, main_v1483, main_v1484, main_v1485, main_v1486, main_v1487, main_v1488, main_v1489, main_v1490, main_v1491, main_v1492, main_v1493, main_v1494, main_v1495, main_v1496, main_v1497, main_v1498, main_v1499, main_v1500, main_cst_71, main_v1501]

set_option maxHeartbeats 4000000 in
set_option maxRecDepth 8192 in
theorem filt35_writes : (filt35 : List (HloOp τ sig (Elt F))).Forall fun op => op.writes ⊆ (filt35_W.map (Proc.devRef (τ := τ) .tc)).toFinset := by
  simp only [filt35, seg61, seg62, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 35 does not write keeps its contents through the filter's operations. -/
theorem filt35_keep (V : Valuation τ sig (Elt F)) {r : Ref sig .tc} (h : r ∉ filt35_W) :
    after filt35 V (no_index (Proc.devRef .tc r)) = V (Proc.devRef .tc r) :=
  after_of_writes_sub filt35 _ filt35_writes h

end Writes

set_option maxHeartbeats 4000000 in
set_option maxRecDepth 8192 in
/-- After filter 35's operations its feature buffer holds, for every sequence, the largest tanh of response plus bias over
    the 494 positions: each of the 19 shifted columns of the contraction is one tap (ConvRef.column_apply), their sum from zero
    is the response, and bias, tanh and maximum are ConvRef.feature_of_response. -/
theorem filt35_value (V : Valuation τ sig (Elt Ideal)) (b : Fin 128) :
    (after (filt35 (F := Ideal)) V (no_index (Proc.devRef .tc main_v1501)) : S128.Idx → EReal) (ix1 b)
      = ConvPool.feat (V (Proc.devRef .tc main_v7)) (V (Proc.devRef .tc main_arg2)) (V (Proc.devRef .tc main_arg3)) (ix2 b (⟨35, by decide⟩ : Fin 64)) := by
  simp only [filt35, seg61, seg62, List.cons_append, List.nil_append, List.append_nil]
  after_results_simp
  refine ConvRef.feature_of_response (L := 494) (⟨35, by decide⟩ : Fin 64) (by decide) _ _ _ _ ?_ _ _ _ _ _ _ b
  intro b l hl
  show _ = ∑ j ∈ Finset.range 19, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 35 (by decide) _ _ _ _ _ rfl rfl rfl rfl rfl rfl _ _ _ _ _ b l hl))
  rfl

end Cert.ReferenceIdeal.RefRun

end
-- ==== Proof.RefFilter.F36.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 36's operations write. -/
abbrev filt36_W : List (Ref sig .tc) := [main_v1502, main_v1503, main_v1504, main_v1505, main_v1506, main_cst_72, main_v1507, main_v1508, main_v1509, main_v1510, main_v1511, main_v1512, main_v1513, main_v1514, main_v1515, main_v1516, main_v1517, main_v1518, main_v1519, main_v1520, main_v1521, main_v1522, main_v1523, main_v1524, main_v1525, main_v1526, main_v1527, main_v1528, main_v1529, main_v1530, main_v1531, main_v1532, main_v1533, main_v1534, main_v1535, main_v1536, main_v1537, main_v1538, main_v1539, main_v1540, main_v1541, main_v1542, main_v1543, main_v1544, main_v1545, main_v1546, main_v1547, main_v1548, main_v1549, main_v1550, main_v1551, main_v1552, main_v1553, main_v1554, main_v1555, main_v1556, main_v1557, main_v1558, main_v1559, main_v1560, main_v1561, main_v1562, main_v1563, main_v1564, main_v1565, main_v1566, main_v1567, main_v1568, main_v1569, main_v1570, main_cst_73, main_v1571]

set_option maxHeartbeats 4000000 in
set_option maxRecDepth 8192 in
theorem filt36_writes : (filt36 : List (HloOp τ sig (Elt F))).Forall fun op => op.writes ⊆ (filt36_W.map (Proc.devRef (τ := τ) .tc)).toFinset := by
  simp only [filt36, seg63, seg64, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 36 does not write keeps its contents through the filter's operations. -/
theorem filt36_keep (V : Valuation τ sig (Elt F)) {r : Ref sig .tc} (h : r ∉ filt36_W) :
    after filt36 V (no_index (Proc.devRef .tc r)) = V (Proc.devRef .tc r) :=
  after_of_writes_sub filt36 _ filt36_writes h

end Writes

set_option maxHeartbeats 4000000 in
set_option maxRecDepth 8192 in
/-- After filter 36's operations its feature buffer holds, for every sequence, the largest tanh of response plus bias over
    the 493 positions: each of the 20 shifted columns of the contraction is one tap (ConvRef.column_apply), their sum from zero
    is the response, and bias, tanh and maximum are ConvRef.feature_of_response. -/
theorem filt36_value (V : Valuation τ sig (Elt Ideal)) (b : Fin 128) :
    (after (filt36 (F := Ideal)) V (no_index (Proc.devRef .tc main_v1571)) : S128.Idx → EReal) (ix1 b)
      = ConvPool.feat (V (Proc.devRef .tc main_v7)) (V (Proc.devRef .tc main_arg2)) (V (Proc.devRef .tc main_arg3)) (ix2 b (⟨36, by decide⟩ : Fin 64)) := by
  simp only [filt36, seg63, seg64, List.cons_append, List.nil_append, List.append_nil]
  after_results_simp
  refine ConvRef.feature_of_response (L := 493) (⟨36, by decide⟩ : Fin 64) (by decide) _ _ _ _ ?_ _ _ _ _ _ _ b
  intro b l hl
  show _ = ∑ j ∈ Finset.range 20, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 36 (by decide) _ _ _ _ _ rfl rfl rfl rfl rfl rfl _ _ _ _ _ b l hl))
  rfl

end Cert.ReferenceIdeal.RefRun

end
-- ==== Proof.RefFilter.F37.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 37's operations write. -/
abbrev filt37_W : List (Ref sig .tc) := [main_v1572, main_v1573, main_v1574, main_v1575, main_v1576, main_cst_74, main_v1577, main_v1578, main_v1579, main_v1580, main_v1581, main_v1582, main_v1583, main_v1584, main_v1585, main_v1586, main_v1587, main_v1588, main_v1589, main_v1590, main_v1591, main_v1592, main_v1593, main_v1594, main_v1595, main_v1596, main_v1597, main_v1598, main_v1599, main_v1600, main_v1601, main_v1602, main_v1603, main_v1604, main_v1605, main_v1606, main_v1607, main_v1608, main_v1609, main_v1610, main_v1611, main_v1612, main_v1613, main_v1614, main_v1615, main_v1616, main_v1617, main_v1618, main_v1619, main_v1620, main_v1621, main_v1622, main_v1623, main_v1624, main_v1625, main_v1626, main_v1627, main_v1628, main_v1629, main_v1630, main_v1631, main_v1632, main_v1633, main_v1634, main_v1635, main_v1636, main_v1637, main_v1638, main_v1639, main_v1640, main_cst_75, main_v1641]

set_option maxHeartbeats 4000000 in
set_option maxRecDepth 8192 in
theorem filt37_writes : (filt37 : List (HloOp τ sig (Elt F))).Forall fun op => op.writes ⊆ (filt37_W.map (Proc.devRef (τ := τ) .tc)).toFinset := by
  simp only [filt37, seg65, seg66, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 37 does not write keeps its contents through the filter's operations. -/
theorem filt37_keep (V : Valuation τ sig (Elt F)) {r : Ref sig .tc} (h : r ∉ filt37_W) :
    after filt37 V (no_index (Proc.devRef .tc r)) = V (Proc.devRef .tc r) :=
  after_of_writes_sub filt37 _ filt37_writes h

end Writes

set_option maxHeartbeats 4000000 in
set_option maxRecDepth 8192 in
/-- After filter 37's operations its feature buffer holds, for every sequence, the largest tanh of response plus bias over
    the 493 positions: each of the 20 shifted columns of the contraction is one tap (ConvRef.column_apply), their sum from zero
    is the response, and bias, tanh and maximum are ConvRef.feature_of_response. -/
theorem filt37_value (V : Valuation τ sig (Elt Ideal)) (b : Fin 128) :
    (after (filt37 (F := Ideal)) V (no_index (Proc.devRef .tc main_v1641)) : S128.Idx → EReal) (ix1 b)
      = ConvPool.feat (V (Proc.devRef .tc main_v7)) (V (Proc.devRef .tc main_arg2)) (V (Proc.devRef .tc main_arg3)) (ix2 b (⟨37, by decide⟩ : Fin 64)) := by
  simp only [filt37, seg65, seg66, List.cons_append, List.nil_append, List.append_nil]
  after_results_simp
  refine ConvRef.feature_of_response (L := 493) (⟨37, by decide⟩ : Fin 64) (by decide) _ _ _ _ ?_ _ _ _ _ _ _ b
  intro b l hl
  show _ = ∑ j ∈ Finset.range 20, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 37 (by decide) _ _ _ _ _ rfl rfl rfl rfl rfl rfl _ _ _ _ _ b l hl))
  rfl

end Cert.ReferenceIdeal.RefRun

end
-- ==== Proof.RefFilter.F38.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 38's operations write. -/
abbrev filt38_W : List (Ref sig .tc) := [main_v1642, main_v1643, main_v1644, main_v1645, main_v1646, main_cst_76, main_v1647, main_v1648, main_v1649, main_v1650, main_v1651, main_v1652, main_v1653, main_v1654, main_v1655, main_v1656, main_v1657, main_v1658, main_v1659, main_v1660, main_v1661, main_v1662, main_v1663, main_v1664, main_v1665, main_v1666, main_v1667, main_v1668, main_v1669, main_v1670, main_v1671, main_v1672, main_v1673, main_v1674, main_v1675, main_v1676, main_v1677, main_v1678, main_v1679, main_v1680, main_v1681, main_v1682, main_v1683, main_v1684, main_v1685, main_v1686, main_v1687, main_v1688, main_v1689, main_v1690, main_v1691, main_v1692, main_v1693, main_v1694, main_v1695, main_v1696, main_v1697, main_v1698, main_v1699, main_v1700, main_v1701, main_v1702, main_v1703, main_v1704, main_v1705, main_v1706, main_v1707, main_v1708, main_v1709, main_v1710, main_v1711, main_v1712, main_v1713, main_cst_77, main_v1714]

set_option maxHeartbeats 4000000 in
set_option maxRecDepth 8192 in
theorem filt38_writes : (filt38 : List (HloOp τ sig (Elt F))).Forall fun op => op.writes ⊆ (filt38_W.map (Proc.devRef (τ := τ) .tc)).toFinset := by
  simp only [filt38, seg67, seg68, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 38 does not write keeps its contents through the filter's operations. -/
theorem filt38_keep (V : Valuation τ sig (Elt F)) {r : Ref sig .tc} (h : r ∉ filt38_W) :
    after filt38 V (no_index (Proc.devRef .tc r)) = V (Proc.devRef .tc r) :=
  after_of_writes_sub filt38 _ filt38_writes h

end Writes

set_option maxHeartbeats 4000000 in
set_option maxRecDepth 8192 in
/-- After filter 38's operations its feature buffer holds, for every sequence, the largest tanh of response plus bias over
    the 492 positions: each of the 21 shifted columns of the contraction is one tap (ConvRef.column_apply), their sum from zero
    is the response, and bias, tanh and maximum are ConvRef.feature_of_response. -/
theorem filt38_value (V : Valuation τ sig (Elt Ideal)) (b : Fin 128) :
    (after (filt38 (F := Ideal)) V (no_index (Proc.devRef .tc main_v1714)) : S128.Idx → EReal) (ix1 b)
      = ConvPool.feat (V (Proc.devRef .tc main_v7)) (V (Proc.devRef .tc main_arg2)) (V (Proc.devRef .tc main_arg3)) (ix2 b (⟨38, by decide⟩ : Fin 64)) := by
  simp only [filt38, seg67, seg68, List.cons_append, List.nil_append, List.append_nil]
  after_results_simp
  refine ConvRef.feature_of_response (L := 492) (⟨38, by decide⟩ : Fin 64) (by decide) _ _ _ _ ?_ _ _ _ _ _ _ b
  intro b l hl
  show _ = ∑ j ∈ Finset.range 21, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 38 (by decide) _ _ _ _ _ rfl rfl rfl rfl rfl rfl _ _ _ _ _ b l hl))
  rfl

end Cert.ReferenceIdeal.RefRun

end
-- ==== Proof.RefFilter.F39.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 39's operations write. -/
abbrev filt39_W : List (Ref sig .tc) := [main_v1715, main_v1716, main_v1717, main_v1718, main_v1719, main_cst_78, main_v1720, main_v1721, main_v1722, main_v1723, main_v1724, main_v1725, main_v1726, main_v1727, main_v1728, main_v1729, main_v1730, main_v1731, main_v1732, main_v1733, main_v1734, main_v1735, main_v1736, main_v1737, main_v1738, main_v1739, main_v1740, main_v1741, main_v1742, main_v1743, main_v1744, main_v1745, main_v1746, main_v1747, main_v1748, main_v1749, main_v1750, main_v1751, main_v1752, main_v1753, main_v1754, main_v1755, main_v1756, main_v1757, main_v1758, main_v1759, main_v1760, main_v1761, main_v1762, main_v1763, main_v1764, main_v1765, main_v1766, main_v1767, main_v1768, main_v1769, main_v1770, main_v1771, main_v1772, main_v1773, main_v1774, main_v1775, main_v1776, main_v1777, main_v1778, main_v1779, main_v1780, main_v1781, main_v1782, main_v1783, main_v1784, main_v1785, main_v1786, main_cst_79, main_v1787]

set_option maxHeartbeats 4000000 in
set_option maxRecDepth 8192 in
theorem filt39_writes : (filt39 : List (HloOp τ sig (Elt F))).Forall fun op => op.writes ⊆ (filt39_W.map (Proc.devRef (τ := τ) .tc)).toFinset := by
  simp only [filt39, seg69, seg70, seg71, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 39 does not write keeps its contents through the filter's operations. -/
theorem filt39_keep (V : Valuation τ sig (Elt F)) {r : Ref sig .tc} (h : r ∉ filt39_W) :
    after filt39 V (no_index (Proc.devRef .tc r)) = V (Proc.devRef .tc r) :=
  after_of_writes_sub filt39 _ filt39_writes h

end Writes

set_option maxHeartbeats 4000000 in
set_option maxRecDepth 8192 in
/-- After filter 39's operations its feature buffer holds, for every sequence, the largest tanh of response plus bias over
    the 492 positions: each of the 21 shifted columns of the contraction is one tap (ConvRef.column_apply), their sum from zero
    is the response, and bias, tanh and maximum are ConvRef.feature_of_response. -/
theorem filt39_value (V : Valuation τ sig (Elt Ideal)) (b : Fin 128) :
    (after (filt39 (F := Ideal)) V (no_index (Proc.devRef .tc main_v1787)) : S128.Idx → EReal) (ix1 b)
      = ConvPool.feat (V (Proc.devRef .tc main_v7)) (V (Proc.devRef .tc main_arg2)) (V (Proc.devRef .tc main_arg3)) (ix2 b (⟨39, by decide⟩ : Fin 64)) := by
  simp only [filt39, seg69, seg70, seg71, List.cons_append, List.nil_append, List.append_nil]
  after_results_simp
  refine ConvRef.feature_of_response (L := 492) (⟨39, by decide⟩ : Fin 64) (by decide) _ _ _ _ ?_ _ _ _ _ _ _ b
  intro b l hl
  show _ = ∑ j ∈ Finset.range 21, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 39 (by decide) _ _ _ _ _ rfl rfl rfl rfl rfl rfl _ _ _ _ _ b l hl))
  rfl

end Cert.ReferenceIdeal.RefRun

end
-- ==== Proof.RefFilter.F40.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 40's operations write. -/
abbrev filt40_W : List (Ref sig .tc) := [main_v1788, main_v1789, main_v1790, main_v1791, main_v1792, main_cst_80, main_v1793, main_v1794, main_v1795, main_v1796, main_v1797, main_v1798, main_v1799, main_v1800, main_v1801, main_v1802, main_v1803, main_v1804, main_v1805, main_v1806, main_v1807, main_v1808, main_v1809, main_v1810, main_v1811, main_v1812, main_v1813, main_v1814, main_v1815, main_v1816, main_v1817, main_v1818, main_v1819, main_v1820, main_v1821, main_v1822, main_v1823, main_v1824, main_v1825, main_v1826, main_v1827, main_v1828, main_v1829, main_v1830, main_v1831, main_v1832, main_v1833, main_v1834, main_v1835, main_v1836, main_v1837, main_v1838, main_v1839, main_v1840, main_v1841, main_v1842, main_v1843, main_v1844, main_v1845, main_v1846, main_v1847, main_v1848, main_v1849, main_v1850, main_v1851, main_v1852, main_v1853, main_v1854, main_v1855, main_v1856, main_v1857, main_v1858, main_v1859, main_v1860, main_v1861, main_v1862, main_cst_81, main_v1863]

set_option maxHeartbeats 4000000 in
set_option maxRecDepth 8192 in
theorem filt40_writes : (filt40 : List (HloOp τ sig (Elt F))).Forall fun op => op.writes ⊆ (filt40_W.map (Proc.devRef (τ := τ) .tc)).toFinset := by
  simp only [filt40, seg72, seg73, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 40 does not write keeps its contents through the filter's operations. -/
theorem filt40_keep (V : Valuation τ sig (Elt F)) {r : Ref sig .tc} (h : r ∉ filt40_W) :
    after filt40 V (no_index (Proc.devRef .tc r)) = V (Proc.devRef .tc r) :=
  after_of_writes_sub filt40 _ filt40_writes h

end Writes

set_option maxHeartbeats 4000000 in
set_option maxRecDepth 8192 in
/-- After filter 40's operations its feature buffer holds, for every sequence, the largest tanh of response plus bias over
    the 491 positions: each of the 22 shifted columns of the contraction is one tap (ConvRef.column_apply), their sum from zero
    is the response, and bias, tanh and maximum are ConvRef.feature_of_response. -/
theorem filt40_value (V : Valuation τ sig (Elt Ideal)) (b : Fin 128) :
    (after (filt40 (F := Ideal)) V (no_index (Proc.devRef .tc main_v1863)) : S128.Idx → EReal) (ix1 b)
      = ConvPool.feat (V (Proc.devRef .tc main_v7)) (V (Proc.devRef .tc main_arg2)) (V (Proc.devRef .tc main_arg3)) (ix2 b (⟨40, by decide⟩ : Fin 64)) := by
  simp only [filt40, seg72, seg73, List.cons_append, List.nil_append, List.append_nil]
  after_results_simp
  refine ConvRef.feature_of_response (L := 491) (⟨40, by decide⟩ : Fin 64) (by decide) _ _ _ _ ?_ _ _ _ _ _ _ b
  intro b l hl
  show _ = ∑ j ∈ Finset.range 22, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 40 (by decide) _ _ _ _ _ rfl rfl rfl rfl rfl rfl _ _ _ _ _ b l hl))
  rfl

end Cert.ReferenceIdeal.RefRun

end
-- ==== Proof.RefFilter.F41.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 41's operations write. -/
abbrev filt41_W : List (Ref sig .tc) := [main_v1864, main_v1865, main_v1866, main_v1867, main_v1868, main_cst_82, main_v1869, main_v1870, main_v1871, main_v1872, main_v1873, main_v1874, main_v1875, main_v1876, main_v1877, main_v1878, main_v1879, main_v1880, main_v1881, main_v1882, main_v1883, main_v1884, main_v1885, main_v1886, main_v1887, main_v1888, main_v1889, main_v1890, main_v1891, main_v1892, main_v1893, main_v1894, main_v1895, main_v1896, main_v1897, main_v1898, main_v1899, main_v1900, main_v1901, main_v1902, main_v1903, main_v1904, main_v1905, main_v1906, main_v1907, main_v1908, main_v1909, main_v1910, main_v1911, main_v1912, main_v1913, main_v1914, main_v1915, main_v1916, main_v1917, main_v1918, main_v1919, main_v1920, main_v1921, main_v1922, main_v1923, main_v1924, main_v1925, main_v1926, main_v1927, main_v1928, main_v1929, main_v1930, main_v1931, main_v1932, main_v1933, main_v1934, main_v1935, main_v1936, main_v1937, main_v1938, main_cst_83, main_v1939]

set_option maxHeartbeats 4000000 in
set_option maxRecDepth 8192 in
theorem filt41_writes : (filt41 : List (HloOp τ sig (Elt F))).Forall fun op => op.writes ⊆ (filt41_W.map (Proc.devRef (τ := τ) .tc)).toFinset := by
  simp only [filt41, seg74, seg75, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 41 does not write keeps its contents through the filter's operations. -/
theorem filt41_keep (V : Valuation τ sig (Elt F)) {r : Ref sig .tc} (h : r ∉ filt41_W) :
    after filt41 V (no_index (Proc.devRef .tc r)) = V (Proc.devRef .tc r) :=
  after_of_writes_sub filt41 _ filt41_writes h

end Writes

set_option maxHeartbeats 4000000 in
set_option maxRecDepth 8192 in
/-- After filter 41's operations its feature buffer holds, for every sequence, the largest tanh of response plus bias over
    the 491 positions: each of the 22 shifted columns of the contraction is one tap (ConvRef.column_apply), their sum from zero
    is the response, and bias, tanh and maximum are ConvRef.feature_of_response. -/
theorem filt41_value (V : Valuation τ sig (Elt Ideal)) (b : Fin 128) :
    (after (filt41 (F := Ideal)) V (no_index (Proc.devRef .tc main_v1939)) : S128.Idx → EReal) (ix1 b)
      = ConvPool.feat (V (Proc.devRef .tc main_v7)) (V (Proc.devRef .tc main_arg2)) (V (Proc.devRef .tc main_arg3)) (ix2 b (⟨41, by decide⟩ : Fin 64)) := by
  simp only [filt41, seg74, seg75, List.cons_append, List.nil_append, List.append_nil]
  after_results_simp
  refine ConvRef.feature_of_response (L := 491) (⟨41, by decide⟩ : Fin 64) (by decide) _ _ _ _ ?_ _ _ _ _ _ _ b
  intro b l hl
  show _ = ∑ j ∈ Finset.range 22, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 41 (by decide) _ _ _ _ _ rfl rfl rfl rfl rfl rfl _ _ _ _ _ b l hl))
  rfl

end Cert.ReferenceIdeal.RefRun

end
-- ==== Proof.RefFilter.F42.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 42's operations write. -/
abbrev filt42_W : List (Ref sig .tc) := [main_v1940, main_v1941, main_v1942, main_v1943, main_v1944, main_cst_84, main_v1945, main_v1946, main_v1947, main_v1948, main_v1949, main_v1950, main_v1951, main_v1952, main_v1953, main_v1954, main_v1955, main_v1956, main_v1957, main_v1958, main_v1959, main_v1960, main_v1961, main_v1962, main_v1963, main_v1964, main_v1965, main_v1966, main_v1967, main_v1968, main_v1969, main_v1970, main_v1971, main_v1972, main_v1973, main_v1974, main_v1975, main_v1976, main_v1977, main_v1978, main_v1979, main_v1980, main_v1981, main_v1982, main_v1983, main_v1984, main_v1985, main_v1986, main_v1987, main_v1988, main_v1989, main_v1990, main_v1991, main_v1992, main_v1993, main_v1994, main_v1995, main_v1996, main_v1997, main_v1998, main_v1999, main_v2000, main_v2001, main_v2002, main_v2003, main_v2004, main_v2005, main_v2006, main_v2007, main_v2008, main_v2009, main_v2010, main_v2011, main_v2012, main_v2013, main_v2014, main_v2015, main_v2016, main_v2017, main_cst_85, main_v2018]

set_option maxHeartbeats 4000000 in
set_option maxRecDepth 8192 in
theorem filt42_writes : (filt42 : List (HloOp τ sig (Elt F))).Forall fun op => op.writes ⊆ (filt42_W.map (Proc.devRef (τ := τ) .tc)).toFinset := by
  simp only [filt42, seg76, seg77, seg78, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 42 does not write keeps its contents through the filter's operations. -/
theorem filt42_keep (V : Valuation τ sig (Elt F)) {r : Ref sig .tc} (h : r ∉ filt42_W) :
    after filt42 V (no_index (Proc.devRef .tc r)) = V (Proc.devRef .tc r) :=
  after_of_writes_sub filt42 _ filt42_writes h

end Writes

set_option maxHeartbeats 4000000 in
set_option maxRecDepth 8192 in
/-- After filter 42's operations its feature buffer holds, for every sequence, the largest tanh of response plus bias over
    the 490 positions: each of the 23 shifted columns of the contraction is one tap (ConvRef.column_apply), their sum from zero
    is the response, and bias, tanh and maximum are ConvRef.feature_of_response. -/
theorem filt42_value (V : Valuation τ sig (Elt Ideal)) (b : Fin 128) :
    (after (filt42 (F := Ideal)) V (no_index (Proc.devRef .tc main_v2018)) : S128.Idx → EReal) (ix1 b)
      = ConvPool.feat (V (Proc.devRef .tc main_v7)) (V (Proc.devRef .tc main_arg2)) (V (Proc.devRef .tc main_arg3)) (ix2 b (⟨42, by decide⟩ : Fin 64)) := by
  simp only [filt42, seg76, seg77, seg78, List.cons_append, List.nil_append, List.append_nil]
  after_results_simp
  refine ConvRef.feature_of_response (L := 490) (⟨42, by decide⟩ : Fin 64) (by decide) _ _ _ _ ?_ _ _ _ _ _ _ b
  intro b l hl
  show _ = ∑ j ∈ Finset.range 23, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 42 (by decide) _ _ _ _ _ rfl rfl rfl rfl rfl rfl _ _ _ _ _ b l hl))
  rfl

end Cert.ReferenceIdeal.RefRun

end
-- ==== Proof.RefFilter.F43.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 43's operations write. -/
abbrev filt43_W : List (Ref sig .tc) := [main_v2019, main_v2020, main_v2021, main_v2022, main_v2023, main_cst_86, main_v2024, main_v2025, main_v2026, main_v2027, main_v2028, main_v2029, main_v2030, main_v2031, main_v2032, main_v2033, main_v2034, main_v2035, main_v2036, main_v2037, main_v2038, main_v2039, main_v2040, main_v2041, main_v2042, main_v2043, main_v2044, main_v2045, main_v2046, main_v2047, main_v2048, main_v2049, main_v2050, main_v2051, main_v2052, main_v2053, main_v2054, main_v2055, main_v2056, main_v2057, main_v2058, main_v2059, main_v2060, main_v2061, main_v2062, main_v2063, main_v2064, main_v2065, main_v2066, main_v2067, main_v2068, main_v2069, main_v2070, main_v2071, main_v2072, main_v2073, main_v2074, main_v2075, main_v2076, main_v2077, main_v2078, main_v2079, main_v2080, main_v2081, main_v2082, main_v2083, main_v2084, main_v2085, main_v2086, main_v2087, main_v2088, main_v2089, main_v2090, main_v2091, main_v2092, main_v2093, main_v2094, main_v2095, main_v2096, main_cst_87, main_v2097]

set_option maxHeartbeats 4000000 in
set_option maxRecDepth 8192 in
theorem filt43_writes : (filt43 : List (HloOp τ sig (Elt F))).Forall fun op => op.writes ⊆ (filt43_W.map (Proc.devRef (τ := τ) .tc)).toFinset := by
  simp only [filt43, seg79, seg80, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 43 does not write keeps its contents through the filter's operations. -/
theorem filt43_keep (V : Valuation τ sig (Elt F)) {r : Ref sig .tc} (h : r ∉ filt43_W) :
    after filt43 V (no_index (Proc.devRef .tc r)) = V (Proc.devRef .tc r) :=
  after_of_writes_sub filt43 _ filt43_writes h

end Writes

set_option maxHeartbeats 4000000 in
set_option maxRecDepth 8192 in
/-- After filter 43's operations its feature buffer holds, for every sequence, the largest tanh of response plus bias over
    the 490 positions: each of the 23 shifted columns of the contraction is one tap (ConvRef.column_apply), their sum from zero
    is the response, and bias, tanh and maximum are ConvRef.feature_of_response. -/
theorem filt43_value (V : Valuation τ sig (Elt Ideal)) (b : Fin 128) :
    (after (filt43 (F := Ideal)) V (no_index (Proc.devRef .tc main_v2097)) : S128.Idx → EReal) (ix1 b)
      = ConvPool.feat (V (Proc.devRef .tc main_v7)) (V (Proc.devRef .tc main_arg2)) (V (Proc.devRef .tc main_arg3)) (ix2 b (⟨43, by decide⟩ : Fin 64)) := by
  simp only [filt43, seg79, seg80, List.cons_append, List.nil_append, List.append_nil]
  after_results_simp
  refine ConvRef.feature_of_response (L := 490) (⟨43, by decide⟩ : Fin 64) (by decide) _ _ _ _ ?_ _ _ _ _ _ _ b
  intro b l hl
  show _ = ∑ j ∈ Finset.range 23, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 43 (by decide) _ _ _ _ _ rfl rfl rfl rfl rfl rfl _ _ _ _ _ b l hl))
  rfl

end Cert.ReferenceIdeal.RefRun

end
-- ==== Proof.RefFilter.F44.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 44's operations write. -/
abbrev filt44_W : List (Ref sig .tc) := [main_v2098, main_v2099, main_v2100, main_v2101, main_v2102, main_cst_88, main_v2103, main_v2104, main_v2105, main_v2106, main_v2107, main_v2108, main_v2109, main_v2110, main_v2111, main_v2112, main_v2113, main_v2114, main_v2115, main_v2116, main_v2117, main_v2118, main_v2119, main_v2120, main_v2121, main_v2122, main_v2123, main_v2124, main_v2125, main_v2126, main_v2127, main_v2128, main_v2129, main_v2130, main_v2131, main_v2132, main_v2133, main_v2134, main_v2135, main_v2136, main_v2137, main_v2138, main_v2139, main_v2140, main_v2141, main_v2142, main_v2143, main_v2144, main_v2145, main_v2146, main_v2147, main_v2148, main_v2149, main_v2150, main_v2151, main_v2152, main_v2153, main_v2154, main_v2155, main_v2156, main_v2157, main_v2158, main_v2159, main_v2160, main_v2161, main_v2162, main_v2163, main_v2164, main_v2165, main_v2166, main_v2167, main_v2168, main_v2169, main_v2170, main_v2171, main_v2172, main_v2173, main_v2174, main_v2175, main_v2176, main_v2177, main_v2178, main_cst_89, main_v2179]

set_option maxHeartbeats 4000000 in
set_option maxRecDepth 8192 in
theorem filt44_writes : (filt44 : List (HloOp τ sig (Elt F))).Forall fun op => op.writes ⊆ (filt44_W.map (Proc.devRef (τ := τ) .tc)).toFinset := by
  simp only [filt44, seg81, seg82, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 44 does not write keeps its contents through the filter's operations. -/
theorem filt44_keep (V : Valuation τ sig (Elt F)) {r : Ref sig .tc} (h : r ∉ filt44_W) :
    after filt44 V (no_index (Proc.devRef .tc r)) = V (Proc.devRef .tc r) :=
  after_of_writes_sub filt44 _ filt44_writes h

end Writes

set_option maxHeartbeats 4000000 in
set_option maxRecDepth 8192 in
/-- After filter 44's operations its feature buffer holds, for every sequence, the largest tanh of response plus bias over
    the 489 positions: each of the 24 shifted columns of the contraction is one tap (ConvRef.column_apply), their sum from zero
    is the response, and bias, tanh and maximum are ConvRef.feature_of_response. -/
theorem filt44_value (V : Valuation τ sig (Elt Ideal)) (b : Fin 128) :
    (after (filt44 (F := Ideal)) V (no_index (Proc.devRef .tc main_v2179)) : S128.Idx → EReal) (ix1 b)
      = ConvPool.feat (V (Proc.devRef .tc main_v7)) (V (Proc.devRef .tc main_arg2)) (V (Proc.devRef .tc main_arg3)) (ix2 b (⟨44, by decide⟩ : Fin 64)) := by
  simp only [filt44, seg81, seg82, List.cons_append, List.nil_append, List.append_nil]
  after_results_simp
  refine ConvRef.feature_of_response (L := 489) (⟨44, by decide⟩ : Fin 64) (by decide) _ _ _ _ ?_ _ _ _ _ _ _ b
  intro b l hl
  show _ = ∑ j ∈ Finset.range 24, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 44 (by decide) _ _ _ _ _ rfl rfl rfl rfl rfl rfl _ _ _ _ _ b l hl))
  rfl

end Cert.ReferenceIdeal.RefRun

end
-- ==== Proof.RefFilter.F45.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 45's operations write. -/
abbrev filt45_W : List (Ref sig .tc) := [main_v2180, main_v2181, main_v2182, main_v2183, main_v2184, main_cst_90, main_v2185, main_v2186, main_v2187, main_v2188, main_v2189, main_v2190, main_v2191, main_v2192, main_v2193, main_v2194, main_v2195, main_v2196, main_v2197, main_v2198, main_v2199, main_v2200, main_v2201, main_v2202, main_v2203, main_v2204, main_v2205, main_v2206, main_v2207, main_v2208, main_v2209, main_v2210, main_v2211, main_v2212, main_v2213, main_v2214, main_v2215, main_v2216, main_v2217, main_v2218, main_v2219, main_v2220, main_v2221, main_v2222, main_v2223, main_v2224, main_v2225, main_v2226, main_v2227, main_v2228, main_v2229, main_v2230, main_v2231, main_v2232, main_v2233, main_v2234, main_v2235, main_v2236, main_v2237, main_v2238, main_v2239, main_v2240, main_v2241, main_v2242, main_v2243, main_v2244, main_v2245, main_v2246, main_v2247, main_v2248, main_v2249, main_v2250, main_v2251, main_v2252, main_v2253, main_v2254, main_v2255, main_v2256, main_v2257, main_v2258, main_v2259, main_v2260, main_cst_91, main_v2261]

set_option maxHeartbeats 4000000 in
set_option maxRecDepth 8192 in
theorem filt45_writes : (filt45 : List (HloOp τ sig (Elt F))).Forall fun op => op.writes ⊆ (filt45_W.map (Proc.devRef (τ := τ) .tc)).toFinset := by
  simp only [filt45, seg83, seg84, seg85, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 45 does not write keeps its contents through the filter's operations. -/
theorem filt45_keep (V : Valuation τ sig (Elt F)) {r : Ref sig .tc} (h : r ∉ filt45_W) :
    after filt45 V (no_index (Proc.devRef .tc r)) = V (Proc.devRef .tc r) :=
  after_of_writes_sub filt45 _ filt45_writes h

end Writes

set_option maxHeartbeats 4000000 in
set_option maxRecDepth 8192 in
/-- After filter 45's operations its feature buffer holds, for every sequence, the largest tanh of response plus bias over
    the 489 positions: each of the 24 shifted columns of the contraction is one tap (ConvRef.column_apply), their sum from zero
    is the response, and bias, tanh and maximum are ConvRef.feature_of_response. -/
theorem filt45_value (V : Valuation τ sig (Elt Ideal)) (b : Fin 128) :
    (after (filt45 (F := Ideal)) V (no_index (Proc.devRef .tc main_v2261)) : S128.Idx → EReal) (ix1 b)
      = ConvPool.feat (V (Proc.devRef .tc main_v7)) (V (Proc.devRef .tc main_arg2)) (V (Proc.devRef .tc main_arg3)) (ix2 b (⟨45, by decide⟩ : Fin 64)) := by
  simp only [filt45, seg83, seg84, seg85, List.cons_append, List.nil_append, List.append_nil]
  after_results_simp
  refine ConvRef.feature_of_response (L := 489) (⟨45, by decide⟩ : Fin 64) (by decide) _ _ _ _ ?_ _ _ _ _ _ _ b
  intro b l hl
  show _ = ∑ j ∈ Finset.range 24, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 45 (by decide) _ _ _ _ _ rfl rfl rfl rfl rfl rfl _ _ _ _ _ b l hl))
  rfl

end Cert.ReferenceIdeal.RefRun

end
-- ==== Proof.RefFilter.F46.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 46's operations write. -/
abbrev filt46_W : List (Ref sig .tc) := [main_v2262, main_v2263, main_v2264, main_v2265, main_v2266, main_cst_92, main_v2267, main_v2268, main_v2269, main_v2270, main_v2271, main_v2272, main_v2273, main_v2274, main_v2275, main_v2276, main_v2277, main_v2278, main_v2279, main_v2280, main_v2281, main_v2282, main_v2283, main_v2284, main_v2285, main_v2286, main_v2287, main_v2288, main_v2289, main_v2290, main_v2291, main_v2292, main_v2293, main_v2294, main_v2295, main_v2296, main_v2297, main_v2298, main_v2299, main_v2300, main_v2301, main_v2302, main_v2303, main_v2304, main_v2305, main_v2306, main_v2307, main_v2308, main_v2309, main_v2310, main_v2311, main_v2312, main_v2313, main_v2314, main_v2315, main_v2316, main_v2317, main_v2318, main_v2319, main_v2320, main_v2321, main_v2322, main_v2323, main_v2324, main_v2325, main_v2326, main_v2327, main_v2328, main_v2329, main_v2330, main_v2331, main_v2332, main_v2333, main_v2334, main_v2335, main_v2336, main_v2337, main_v2338, main_v2339, main_v2340, main_v2341, main_v2342, main_v2343, main_v2344, main_v2345, main_cst_93, main_v2346]

set_option maxHeartbeats 4000000 in
set_option maxRecDepth 8192 in
theorem filt46_writes : (filt46 : List (HloOp τ sig (Elt F))).Forall fun op => op.writes ⊆ (filt46_W.map (Proc.devRef (τ := τ) .tc)).toFinset := by
  simp only [filt46, seg86, seg87, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 46 does not write keeps its contents through the filter's operations. -/
theorem filt46_keep (V : Valuation τ sig (Elt F)) {r : Ref sig .tc} (h : r ∉ filt46_W) :
    after filt46 V (no_index (Proc.devRef .tc r)) = V (Proc.devRef .tc r) :=
  after_of_writes_sub filt46 _ filt46_writes h

end Writes

set_option maxHeartbeats 4000000 in
set_option maxRecDepth 8192 in
/-- After filter 46's operations its feature buffer holds, for every sequence, the largest tanh of response plus bias over
    the 488 positions: each of the 25 shifted columns of the contraction is one tap (ConvRef.column_apply), their sum from zero
    is the response, and bias, tanh and maximum are ConvRef.feature_of_response. -/
theorem filt46_value (V : Valuation τ sig (Elt Ideal)) (b : Fin 128) :
    (after (filt46 (F := Ideal)) V (no_index (Proc.devRef .tc main_v2346)) : S128.Idx → EReal) (ix1 b)
      = ConvPool.feat (V (Proc.devRef .tc main_v7)) (V (Proc.devRef .tc main_arg2)) (V (Proc.devRef .tc main_arg3)) (ix2 b (⟨46, by decide⟩ : Fin 64)) := by
  simp only [filt46, seg86, seg87, List.cons_append, List.nil_append, List.append_nil]
  after_results_simp
  refine ConvRef.feature_of_response (L := 488) (⟨46, by decide⟩ : Fin 64) (by decide) _ _ _ _ ?_ _ _ _ _ _ _ b
  intro b l hl
  show _ = ∑ j ∈ Finset.range 25, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 46 (by decide) _ _ _ _ _ rfl rfl rfl rfl rfl rfl _ _ _ _ _ b l hl))
  rfl

end Cert.ReferenceIdeal.RefRun

end
-- ==== Proof.RefFilter.F47.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 47's operations write. -/
abbrev filt47_W : List (Ref sig .tc) := [main_v2347, main_v2348, main_v2349, main_v2350, main_v2351, main_cst_94, main_v2352, main_v2353, main_v2354, main_v2355, main_v2356, main_v2357, main_v2358, main_v2359, main_v2360, main_v2361, main_v2362, main_v2363, main_v2364, main_v2365, main_v2366, main_v2367, main_v2368, main_v2369, main_v2370, main_v2371, main_v2372, main_v2373, main_v2374, main_v2375, main_v2376, main_v2377, main_v2378, main_v2379, main_v2380, main_v2381, main_v2382, main_v2383, main_v2384, main_v2385, main_v2386, main_v2387, main_v2388, main_v2389, main_v2390, main_v2391, main_v2392, main_v2393, main_v2394, main_v2395, main_v2396, main_v2397, main_v2398, main_v2399, main_v2400, main_v2401, main_v2402, main_v2403, main_v2404, main_v2405, main_v2406, main_v2407, main_v2408, main_v2409, main_v2410, main_v2411, main_v2412, main_v2413, main_v2414, main_v2415, main_v2416, main_v2417, main_v2418, main_v2419, main_v2420, main_v2421, main_v2422, main_v2423, main_v2424, main_v2425, main_v2426, main_v2427, main_v2428, main_v2429, main_v2430, main_cst_95, main_v2431]

set_option maxHeartbeats 4000000 in
set_option maxRecDepth 8192 in
theorem filt47_writes : (filt47 : List (HloOp τ sig (Elt F))).Forall fun op => op.writes ⊆ (filt47_W.map (Proc.devRef (τ := τ) .tc)).toFinset := by
  simp only [filt47, seg88, seg89, seg90, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 47 does not write keeps its contents through the filter's operations. -/
theorem filt47_keep (V : Valuation τ sig (Elt F)) {r : Ref sig .tc} (h : r ∉ filt47_W) :
    after filt47 V (no_index (Proc.devRef .tc r)) = V (Proc.devRef .tc r) :=
  after_of_writes_sub filt47 _ filt47_writes h

end Writes

set_option maxHeartbeats 4000000 in
set_option maxRecDepth 8192 in
/-- After filter 47's operations its feature buffer holds, for every sequence, the largest tanh of response plus bias over
    the 488 positions: each of the 25 shifted columns of the contraction is one tap (ConvRef.column_apply), their sum from zero
    is the response, and bias, tanh and maximum are ConvRef.feature_of_response. -/
theorem filt47_value (V : Valuation τ sig (Elt Ideal)) (b : Fin 128) :
    (after (filt47 (F := Ideal)) V (no_index (Proc.devRef .tc main_v2431)) : S128.Idx → EReal) (ix1 b)
      = ConvPool.feat (V (Proc.devRef .tc main_v7)) (V (Proc.devRef .tc main_arg2)) (V (Proc.devRef .tc main_arg3)) (ix2 b (⟨47, by decide⟩ : Fin 64)) := by
  simp only [filt47, seg88, seg89, seg90, List.cons_append, List.nil_append, List.append_nil]
  after_results_simp
  refine ConvRef.feature_of_response (L := 488) (⟨47, by decide⟩ : Fin 64) (by decide) _ _ _ _ ?_ _ _ _ _ _ _ b
  intro b l hl
  show _ = ∑ j ∈ Finset.range 25, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 47 (by decide) _ _ _ _ _ rfl rfl rfl rfl rfl rfl _ _ _ _ _ b l hl))
  rfl

end Cert.ReferenceIdeal.RefRun

end
-- ==== Proof.RefFilter.F48.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 48's operations write. -/
abbrev filt48_W : List (Ref sig .tc) := [main_v2432, main_v2433, main_v2434, main_v2435, main_v2436, main_cst_96, main_v2437, main_v2438, main_v2439, main_v2440, main_v2441, main_v2442, main_v2443, main_v2444, main_v2445, main_v2446, main_v2447, main_v2448, main_v2449, main_v2450, main_v2451, main_v2452, main_v2453, main_v2454, main_v2455, main_v2456, main_v2457, main_v2458, main_v2459, main_v2460, main_v2461, main_v2462, main_v2463, main_v2464, main_v2465, main_v2466, main_v2467, main_v2468, main_v2469, main_v2470, main_v2471, main_v2472, main_v2473, main_v2474, main_v2475, main_v2476, main_v2477, main_v2478, main_v2479, main_v2480, main_v2481, main_v2482, main_v2483, main_v2484, main_v2485, main_v2486, main_v2487, main_v2488, main_v2489, main_v2490, main_v2491, main_v2492, main_v2493, main_v2494, main_v2495, main_v2496, main_v2497, main_v2498, main_v2499, main_v2500, main_v2501, main_v2502, main_v2503, main_v2504, main_v2505, main_v2506, main_v2507, main_v2508, main_v2509, main_v2510, main_v2511, main_v2512, main_v2513, main_v2514, main_v2515, main_v2516, main_v2517, main_v2518, main_cst_97, main_v2519]

set_option maxHeartbeats 4000000 in
set_option maxRecDepth 8192 in
theorem filt48_writes : (filt48 : List (HloOp τ sig (Elt F))).Forall fun op => op.writes ⊆ (filt48_W.map (Proc.devRef (τ := τ) .tc)).toFinset := by
  simp only [filt48, seg91, seg92, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 48 does not write keeps its contents through the filter's operations. -/
theorem filt48_keep (V : Valuation τ sig (Elt F)) {r : Ref sig .tc} (h : r ∉ filt48_W) :
    after filt48 V (no_index (Proc.devRef .tc r)) = V (Proc.devRef .tc r) :=
  after_of_writes_sub filt48 _ filt48_writes h

end Writes

set_option maxHeartbeats 4000000 in
set_option maxRecDepth 8192 in
/-- After filter 48's operations its feature buffer holds, for every sequence, the largest tanh of response plus bias over
    the 487 positions: each of the 26 shifted columns of the contraction is one tap (ConvRef.column_apply), their sum from zero
    is the response, and bias, tanh and maximum are ConvRef.feature_of_response. -/
theorem filt48_value (V : Valuation τ sig (Elt Ideal)) (b : Fin 128) :
    (after (filt48 (F := Ideal)) V (no_index (Proc.devRef .tc main_v2519)) : S128.Idx → EReal) (ix1 b)
      = ConvPool.feat (V (Proc.devRef .tc main_v7)) (V (Proc.devRef .tc main_arg2)) (V (Proc.devRef .tc main_arg3)) (ix2 b (⟨48, by decide⟩ : Fin 64)) := by
  simp only [filt48, seg91, seg92, List.cons_append, List.nil_append, List.append_nil]
  after_results_simp
  refine ConvRef.feature_of_response (L := 487) (⟨48, by decide⟩ : Fin 64) (by decide) _ _ _ _ ?_ _ _ _ _ _ _ b
  intro b l hl
  show _ = ∑ j ∈ Finset.range 26, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 48 (by decide) _ _ _ _ _ rfl rfl rfl rfl rfl rfl _ _ _ _ _ b l hl))
  rfl

end Cert.ReferenceIdeal.RefRun

end
-- ==== Proof.RefFilter.F49.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 49's operations write. -/
abbrev filt49_W : List (Ref sig .tc) := [main_v2520, main_v2521, main_v2522, main_v2523, main_v2524, main_cst_98, main_v2525, main_v2526, main_v2527, main_v2528, main_v2529, main_v2530, main_v2531, main_v2532, main_v2533, main_v2534, main_v2535, main_v2536, main_v2537, main_v2538, main_v2539, main_v2540, main_v2541, main_v2542, main_v2543, main_v2544, main_v2545, main_v2546, main_v2547, main_v2548, main_v2549, main_v2550, main_v2551, main_v2552, main_v2553, main_v2554, main_v2555, main_v2556, main_v2557, main_v2558, main_v2559, main_v2560, main_v2561, main_v2562, main_v2563, main_v2564, main_v2565, main_v2566, main_v2567, main_v2568, main_v2569, main_v2570, main_v2571, main_v2572, main_v2573, main_v2574, main_v2575, main_v2576, main_v2577, main_v2578, main_v2579, main_v2580, main_v2581, main_v2582, main_v2583, main_v2584, main_v2585, main_v2586, main_v2587, main_v2588, main_v2589, main_v2590, main_v2591, main_v2592, main_v2593, main_v2594, main_v2595, main_v2596, main_v2597, main_v2598, main_v2599, main_v2600, main_v2601, main_v2602, main_v2603, main_v2604, main_v2605, main_v2606, main_cst_99, main_v2607]

set_option maxHeartbeats 4000000 in
set_option maxRecDepth 8192 in
theorem filt49_writes : (filt49 : List (HloOp τ sig (Elt F))).Forall fun op => op.writes ⊆ (filt49_W.map (Proc.devRef (τ := τ) .tc)).toFinset := by
  simp only [filt49, seg93, seg94, seg95, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 49 does not write keeps its contents through the filter's operations. -/
theorem filt49_keep (V : Valuation τ sig (Elt F)) {r : Ref sig .tc} (h : r ∉ filt49_W) :
    after filt49 V (no_index (Proc.devRef .tc r)) = V (Proc.devRef .tc r) :=
  after_of_writes_sub filt49 _ filt49_writes h

end Writes

set_option maxHeartbeats 4000000 in
set_option maxRecDepth 8192 in
/-- After filter 49's operations its feature buffer holds, for every sequence, the largest tanh of response plus bias over
    the 487 positions: each of the 26 shifted columns of the contraction is one tap (ConvRef.column_apply), their sum from zero
    is the response, and bias, tanh and maximum are ConvRef.feature_of_response. -/
theorem filt49_value (V : Valuation τ sig (Elt Ideal)) (b : Fin 128) :
    (after (filt49 (F := Ideal)) V (no_index (Proc.devRef .tc main_v2607)) : S128.Idx → EReal) (ix1 b)
      = ConvPool.feat (V (Proc.devRef .tc main_v7)) (V (Proc.devRef .tc main_arg2)) (V (Proc.devRef .tc main_arg3)) (ix2 b (⟨49, by decide⟩ : Fin 64)) := by
  simp only [filt49, seg93, seg94, seg95, List.cons_append, List.nil_append, List.append_nil]
  after_results_simp
  refine ConvRef.feature_of_response (L := 487) (⟨49, by decide⟩ : Fin 64) (by decide) _ _ _ _ ?_ _ _ _ _ _ _ b
  intro b l hl
  show _ = ∑ j ∈ Finset.range 26, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 49 (by decide) _ _ _ _ _ rfl rfl rfl rfl rfl rfl _ _ _ _ _ b l hl))
  rfl

end Cert.ReferenceIdeal.RefRun

end
-- ==== Proof.RefFilter.F50.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 50's operations write. -/
abbrev filt50_W : List (Ref sig .tc) := [main_v2608, main_v2609, main_v2610, main_v2611, main_v2612, main_cst_100, main_v2613, main_v2614, main_v2615, main_v2616, main_v2617, main_v2618, main_v2619, main_v2620, main_v2621, main_v2622, main_v2623, main_v2624, main_v2625, main_v2626, main_v2627, main_v2628, main_v2629, main_v2630, main_v2631, main_v2632, main_v2633, main_v2634, main_v2635, main_v2636, main_v2637, main_v2638, main_v2639, main_v2640, main_v2641, main_v2642, main_v2643, main_v2644, main_v2645, main_v2646, main_v2647, main_v2648, main_v2649, main_v2650, main_v2651, main_v2652, main_v2653, main_v2654, main_v2655, main_v2656, main_v2657, main_v2658, main_v2659, main_v2660, main_v2661, main_v2662, main_v2663, main_v2664, main_v2665, main_v2666, main_v2667, main_v2668, main_v2669, main_v2670, main_v2671, main_v2672, main_v2673, main_v2674, main_v2675, main_v2676, main_v2677, main_v2678, main_v2679, main_v2680, main_v2681, main_v2682, main_v2683, main_v2684, main_v2685, main_v2686, main_v2687, main_v2688, main_v2689, main_v2690, main_v2691, main_v2692, main_v2693, main_v2694, main_v2695, main_v2696, main_v2697, main_cst_101, main_v2698]

set_option maxHeartbeats 4000000 in
set_option maxRecDepth 8192 in
theorem filt50_writes : (filt50 : List (HloOp τ sig (Elt F))).Forall fun op => op.writes ⊆ (filt50_W.map (Proc.devRef (τ := τ) .tc)).toFinset := by
  simp only [filt50, seg96, seg97, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 50 does not write keeps its contents through the filter's operations. -/
theorem filt50_keep (V : Valuation τ sig (Elt F)) {r : Ref sig .tc} (h : r ∉ filt50_W) :
    after filt50 V (no_index (Proc.devRef .tc r)) = V (Proc.devRef .tc r) :=
  after_of_writes_sub filt50 _ filt50_writes h

end Writes

set_option maxHeartbeats 4000000 in
set_option maxRecDepth 8192 in
/-- After filter 50's operations its feature buffer holds, for every sequence, the largest tanh of response plus bias over
    the 486 positions: each of the 27 shifted columns of the contraction is one tap (ConvRef.column_apply), their sum from zero
    is the response, and bias, tanh and maximum are ConvRef.feature_of_response. -/
theorem filt50_value (V : Valuation τ sig (Elt Ideal)) (b : Fin 128) :
    (after (filt50 (F := Ideal)) V (no_index (Proc.devRef .tc main_v2698)) : S128.Idx → EReal) (ix1 b)
      = ConvPool.feat (V (Proc.devRef .tc main_v7)) (V (Proc.devRef .tc main_arg2)) (V (Proc.devRef .tc main_arg3)) (ix2 b (⟨50, by decide⟩ : Fin 64)) := by
  simp only [filt50, seg96, seg97, List.cons_append, List.nil_append, List.append_nil]
  after_results_simp
  refine ConvRef.feature_of_response (L := 486) (⟨50, by decide⟩ : Fin 64) (by decide) _ _ _ _ ?_ _ _ _ _ _ _ b
  intro b l hl
  show _ = ∑ j ∈ Finset.range 27, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 50 (by decide) _ _ _ _ _ rfl rfl rfl rfl rfl rfl _ _ _ _ _ b l hl))
  rfl

end Cert.ReferenceIdeal.RefRun

end
-- ==== Proof.RefFilter.F51.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 51's operations write. -/
abbrev filt51_W : List (Ref sig .tc) := [main_v2699, main_v2700, main_v2701, main_v2702, main_v2703, main_cst_102, main_v2704, main_v2705, main_v2706, main_v2707, main_v2708, main_v2709, main_v2710, main_v2711, main_v2712, main_v2713, main_v2714, main_v2715, main_v2716, main_v2717, main_v2718, main_v2719, main_v2720, main_v2721, main_v2722, main_v2723, main_v2724, main_v2725, main_v2726, main_v2727, main_v2728, main_v2729, main_v2730, main_v2731, main_v2732, main_v2733, main_v2734, main_v2735, main_v2736, main_v2737, main_v2738, main_v2739, main_v2740, main_v2741, main_v2742, main_v2743, main_v2744, main_v2745, main_v2746, main_v2747, main_v2748, main_v2749, main_v2750, main_v2751, main_v2752, main_v2753, main_v2754, main_v2755, main_v2756, main_v2757, main_v2758, main_v2759, main_v2760, main_v2761, main_v2762, main_v2763, main_v2764, main_v2765, main_v2766, main_v2767, main_v2768, main_v2769, main_v2770, main_v2771, main_v2772, main_v2773, main_v2774, main_v2775, main_v2776, main_v2777, main_v2778, main_v2779, main_v2780, main_v2781, main_v2782, main_v2783, main_v2784, main_v2785, main_v2786, main_v2787, main_v2788, main_cst_103, main_v2789]

set_option maxHeartbeats 4000000 in
set_option maxRecDepth 8192 in
theorem filt51_writes : (filt51 : List (HloOp τ sig (Elt F))).Forall fun op => op.writes ⊆ (filt51_W.map (Proc.devRef (τ := τ) .tc)).toFinset := by
  simp only [filt51, seg98, seg99, seg100, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 51 does not write keeps its contents through the filter's operations. -/
theorem filt51_keep (V : Valuation τ sig (Elt F)) {r : Ref sig .tc} (h : r ∉ filt51_W) :
    after filt51 V (no_index (Proc.devRef .tc r)) = V (Proc.devRef .tc r) :=
  after_of_writes_sub filt51 _ filt51_writes h

end Writes

set_option maxHeartbeats 4000000 in
set_option maxRecDepth 8192 in
/-- After filter 51's operations its feature buffer holds, for every sequence, the largest tanh of response plus bias over
    the 486 positions: each of the 27 shifted columns of the contraction is one tap (ConvRef.column_apply), their sum from zero
    is the response, and bias, tanh and maximum are ConvRef.feature_of_response. -/
theorem filt51_value (V : Valuation τ sig (Elt Ideal)) (b : Fin 128) :
    (after (filt51 (F := Ideal)) V (no_index (Proc.devRef .tc main_v2789)) : S128.Idx → EReal) (ix1 b)
      = ConvPool.feat (V (Proc.devRef .tc main_v7)) (V (Proc.devRef .tc main_arg2)) (V (Proc.devRef .tc main_arg3)) (ix2 b (⟨51, by decide⟩ : Fin 64)) := by
  simp only [filt51, seg98, seg99, seg100, List.cons_append, List.nil_append, List.append_nil]
  after_results_simp
  refine ConvRef.feature_of_response (L := 486) (⟨51, by decide⟩ : Fin 64) (by decide) _ _ _ _ ?_ _ _ _ _ _ _ b
  intro b l hl
  show _ = ∑ j ∈ Finset.range 27, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 51 (by decide) _ _ _ _ _ rfl rfl rfl rfl rfl rfl _ _ _ _ _ b l hl))
  rfl

end Cert.ReferenceIdeal.RefRun

end
-- ==== Proof.RefFilter.F52.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 52's operations write. -/
abbrev filt52_W : List (Ref sig .tc) := [main_v2790, main_v2791, main_v2792, main_v2793, main_v2794, main_cst_104, main_v2795, main_v2796, main_v2797, main_v2798, main_v2799, main_v2800, main_v2801, main_v2802, main_v2803, main_v2804, main_v2805, main_v2806, main_v2807, main_v2808, main_v2809, main_v2810, main_v2811, main_v2812, main_v2813, main_v2814, main_v2815, main_v2816, main_v2817, main_v2818, main_v2819, main_v2820, main_v2821, main_v2822, main_v2823, main_v2824, main_v2825, main_v2826, main_v2827, main_v2828, main_v2829, main_v2830, main_v2831, main_v2832, main_v2833, main_v2834, main_v2835, main_v2836, main_v2837, main_v2838, main_v2839, main_v2840, main_v2841, main_v2842, main_v2843, main_v2844, main_v2845, main_v2846, main_v2847, main_v2848, main_v2849, main_v2850, main_v2851, main_v2852, main_v2853, main_v2854, main_v2855, main_v2856, main_v2857, main_v2858, main_v2859, main_v2860, main_v2861, main_v2862, main_v2863, main_v2864, main_v2865, main_v2866, main_v2867, main_v2868, main_v2869, main_v2870, main_v2871, main_v2872, main_v2873, main_v2874, main_v2875, main_v2876, main_v2877, main_v2878, main_v2879, main_v2880, main_v2881, main_v2882, main_cst_105, main_v2883]

set_option maxHeartbeats 4000000 in
set_option maxRecDepth 8192 in
theorem filt52_writes : (filt52 : List (HloOp τ sig (Elt F))).Forall fun op => op.writes ⊆ (filt52_W.map (Proc.devRef (τ := τ) .tc)).toFinset := by
  simp only [filt52, seg101, seg102, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 52 does not write keeps its contents through the filter's operations. -/
theorem filt52_keep (V : Valuation τ sig (Elt F)) {r : Ref sig .tc} (h : r ∉ filt52_W) :
    after filt52 V (no_index (Proc.devRef .tc r)) = V (Proc.devRef .tc r) :=
  after_of_writes_sub filt52 _ filt52_writes h

end Writes

set_option maxHeartbeats 4000000 in
set_option maxRecDepth 8192 in
/-- After filter 52's operations its feature buffer holds, for every sequence, the largest tanh of response plus bias over
    the 485 positions: each of the 28 shifted columns of the contraction is one tap (ConvRef.column_apply), their sum from zero
    is the response, and bias, tanh and maximum are ConvRef.feature_of_response. -/
theorem filt52_value (V : Valuation τ sig (Elt Ideal)) (b : Fin 128) :
    (after (filt52 (F := Ideal)) V (no_index (Proc.devRef .tc main_v2883)) : S128.Idx → EReal) (ix1 b)
      = ConvPool.feat (V (Proc.devRef .tc main_v7)) (V (Proc.devRef .tc main_arg2)) (V (Proc.devRef .tc main_arg3)) (ix2 b (⟨52, by decide⟩ : Fin 64)) := by
  simp only [filt52, seg101, seg102, List.cons_append, List.nil_append, List.append_nil]
  after_results_simp
  refine ConvRef.feature_of_response (L := 485) (⟨52, by decide⟩ : Fin 64) (by decide) _ _ _ _ ?_ _ _ _ _ _ _ b
  intro b l hl
  show _ = ∑ j ∈ Finset.range 28, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 52 (by decide) _ _ _ _ _ rfl rfl rfl rfl rfl rfl _ _ _ _ _ b l hl))
  rfl

end Cert.ReferenceIdeal.RefRun

end
-- ==== Proof.RefFilter.F53.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 53's operations write. -/
abbrev filt53_W : List (Ref sig .tc) := [main_v2884, main_v2885, main_v2886, main_v2887, main_v2888, main_cst_106, main_v2889, main_v2890, main_v2891, main_v2892, main_v2893, main_v2894, main_v2895, main_v2896, main_v2897, main_v2898, main_v2899, main_v2900, main_v2901, main_v2902, main_v2903, main_v2904, main_v2905, main_v2906, main_v2907, main_v2908, main_v2909, main_v2910, main_v2911, main_v2912, main_v2913, main_v2914, main_v2915, main_v2916, main_v2917, main_v2918, main_v2919, main_v2920, main_v2921, main_v2922, main_v2923, main_v2924, main_v2925, main_v2926, main_v2927, main_v2928, main_v2929, main_v2930, main_v2931, main_v2932, main_v2933, main_v2934, main_v2935, main_v2936, main_v2937, main_v2938, main_v2939, main_v2940, main_v2941, main_v2942, main_v2943, main_v2944, main_v2945, main_v2946, main_v2947, main_v2948, main_v2949, main_v2950, main_v2951, main_v2952, main_v2953, main_v2954, main_v2955, main_v2956, main_v2957, main_v2958, main_v2959, main_v2960, main_v2961, main_v2962, main_v2963, main_v2964, main_v2965, main_v2966, main_v2967, main_v2968, main_v2969, main_v2970, main_v2971, main_v2972, main_v2973, main_v2974, main_v2975, main_v2976, main_cst_107, main_v2977]

set_option maxHeartbeats 4000000 in
set_option maxRecDepth 8192 in
theorem filt53_writes : (filt53 : List (HloOp τ sig (Elt F))).Forall fun op => op.writes ⊆ (filt53_W.map (Proc.devRef (τ := τ) .tc)).toFinset := by
  simp only [filt53, seg103, seg104, seg105, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 53 does not write keeps its contents through the filter's operations. -/
theorem filt53_keep (V : Valuation τ sig (Elt F)) {r : Ref sig .tc} (h : r ∉ filt53_W) :
    after filt53 V (no_index (Proc.devRef .tc r)) = V (Proc.devRef .tc r) :=
  after_of_writes_sub filt53 _ filt53_writes h

end Writes

set_option maxHeartbeats 4000000 in
set_option maxRecDepth 8192 in
/-- After filter 53's operations its feature buffer holds, for every sequence, the largest tanh of response plus bias over
    the 485 positions: each of the 28 shifted columns of the contraction is one tap (ConvRef.column_apply), their sum from zero
    is the response, and bias, tanh and maximum are ConvRef.feature_of_response. -/
theorem filt53_value (V : Valuation τ sig (Elt Ideal)) (b : Fin 128) :
    (after (filt53 (F := Ideal)) V (no_index (Proc.devRef .tc main_v2977)) : S128.Idx → EReal) (ix1 b)
      = ConvPool.feat (V (Proc.devRef .tc main_v7)) (V (Proc.devRef .tc main_arg2)) (V (Proc.devRef .tc main_arg3)) (ix2 b (⟨53, by decide⟩ : Fin 64)) := by
  simp only [filt53, seg103, seg104, seg105, List.cons_append, List.nil_append, List.append_nil]
  after_results_simp
  refine ConvRef.feature_of_response (L := 485) (⟨53, by decide⟩ : Fin 64) (by decide) _ _ _ _ ?_ _ _ _ _ _ _ b
  intro b l hl
  show _ = ∑ j ∈ Finset.range 28, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 53 (by decide) _ _ _ _ _ rfl rfl rfl rfl rfl rfl _ _ _ _ _ b l hl))
  rfl

end Cert.ReferenceIdeal.RefRun

end
-- ==== Proof.RefFilter.F54.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 54's operations write. -/
abbrev filt54_W : List (Ref sig .tc) := [main_v2978, main_v2979, main_v2980, main_v2981, main_v2982, main_cst_108, main_v2983, main_v2984, main_v2985, main_v2986, main_v2987, main_v2988, main_v2989, main_v2990, main_v2991, main_v2992, main_v2993, main_v2994, main_v2995, main_v2996, main_v2997, main_v2998, main_v2999, main_v3000, main_v3001, main_v3002, main_v3003, main_v3004, main_v3005, main_v3006, main_v3007, main_v3008, main_v3009, main_v3010, main_v3011, main_v3012, main_v3013, main_v3014, main_v3015, main_v3016, main_v3017, main_v3018, main_v3019, main_v3020, main_v3021, main_v3022, main_v3023, main_v3024, main_v3025, main_v3026, main_v3027, main_v3028, main_v3029, main_v3030, main_v3031, main_v3032, main_v3033, main_v3034, main_v3035, main_v3036, main_v3037, main_v3038, main_v3039, main_v3040, main_v3041, main_v3042, main_v3043, main_v3044, main_v3045, main_v3046, main_v3047, main_v3048, main_v3049, main_v3050, main_v3051, main_v3052, main_v3053, main_v3054, main_v3055, main_v3056, main_v3057, main_v3058, main_v3059, main_v3060, main_v3061, main_v3062, main_v3063, main_v3064, main_v3065, main_v3066, main_v3067, main_v3068, main_v3069, main_v3070, main_v3071, main_v3072, main_v3073, main_cst_109, main_v3074]

set_option maxHeartbeats 4000000 in
set_option maxRecDepth 8192 in
theorem filt54_writes : (filt54 : List (HloOp τ sig (Elt F))).Forall fun op => op.writes ⊆ (filt54_W.map (Proc.devRef (τ := τ) .tc)).toFinset := by
  simp only [filt54, seg106, seg107, seg108, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 54 does not write keeps its contents through the filter's operations. -/
theorem filt54_keep (V : Valuation τ sig (Elt F)) {r : Ref sig .tc} (h : r ∉ filt54_W) :
    after filt54 V (no_index (Proc.devRef .tc r)) = V (Proc.devRef .tc r) :=
  after_of_writes_sub filt54 _ filt54_writes h

end Writes

set_option maxHeartbeats 4000000 in
set_option maxRecDepth 8192 in
/-- After filter 54's operations its feature buffer holds, for every sequence, the largest tanh of response plus bias over
    the 484 positions: each of the 29 shifted columns of the contraction is one tap (ConvRef.column_apply), their sum from zero
    is the response, and bias, tanh and maximum are ConvRef.feature_of_response. -/
theorem filt54_value (V : Valuation τ sig (Elt Ideal)) (b : Fin 128) :
    (after (filt54 (F := Ideal)) V (no_index (Proc.devRef .tc main_v3074)) : S128.Idx → EReal) (ix1 b)
      = ConvPool.feat (V (Proc.devRef .tc main_v7)) (V (Proc.devRef .tc main_arg2)) (V (Proc.devRef .tc main_arg3)) (ix2 b (⟨54, by decide⟩ : Fin 64)) := by
  simp only [filt54, seg106, seg107, seg108, List.cons_append, List.nil_append, List.append_nil]
  after_results_simp
  refine ConvRef.feature_of_response (L := 484) (⟨54, by decide⟩ : Fin 64) (by decide) _ _ _ _ ?_ _ _ _ _ _ _ b
  intro b l hl
  show _ = ∑ j ∈ Finset.range 29, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 54 (by decide) _ _ _ _ _ rfl rfl rfl rfl rfl rfl _ _ _ _ _ b l hl))
  rfl

end Cert.ReferenceIdeal.RefRun

end
-- ==== Proof.RefFilter.F55.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 55's operations write. -/
abbrev filt55_W : List (Ref sig .tc) := [main_v3075, main_v3076, main_v3077, main_v3078, main_v3079, main_cst_110, main_v3080, main_v3081, main_v3082, main_v3083, main_v3084, main_v3085, main_v3086, main_v3087, main_v3088, main_v3089, main_v3090, main_v3091, main_v3092, main_v3093, main_v3094, main_v3095, main_v3096, main_v3097, main_v3098, main_v3099, main_v3100, main_v3101, main_v3102, main_v3103, main_v3104, main_v3105, main_v3106, main_v3107, main_v3108, main_v3109, main_v3110, main_v3111, main_v3112, main_v3113, main_v3114, main_v3115, main_v3116, main_v3117, main_v3118, main_v3119, main_v3120, main_v3121, main_v3122, main_v3123, main_v3124, main_v3125, main_v3126, main_v3127, main_v3128, main_v3129, main_v3130, main_v3131, main_v3132, main_v3133, main_v3134, main_v3135, main_v3136, main_v3137, main_v3138, main_v3139, main_v3140, main_v3141, main_v3142, main_v3143, main_v3144, main_v3145, main_v3146, main_v3147, main_v3148, main_v3149, main_v3150, main_v3151, main_v3152, main_v3153, main_v3154, main_v3155, main_v3156, main_v3157, main_v3158, main_v3159, main_v3160, main_v3161, main_v3162, main_v3163, main_v3164, main_v3165, main_v3166, main_v3167, main_v3168, main_v3169, main_v3170, main_cst_111, main_v3171]

set_option maxHeartbeats 4000000 in
set_option maxRecDepth 8192 in
theorem filt55_writes : (filt55 : List (HloOp τ sig (Elt F))).Forall fun op => op.writes ⊆ (filt55_W.map (Proc.devRef (τ := τ) .tc)).toFinset := by
  simp only [filt55, seg109, seg110, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 55 does not write keeps its contents through the filter's operations. -/
theorem filt55_keep (V : Valuation τ sig (Elt F)) {r : Ref sig .tc} (h : r ∉ filt55_W) :
    after filt55 V (no_index (Proc.devRef .tc r)) = V (Proc.devRef .tc r) :=
  after_of_writes_sub filt55 _ filt55_writes h

end Writes

set_option maxHeartbeats 4000000 in
set_option maxRecDepth 8192 in
/-- After filter 55's operations its feature buffer holds, for every sequence, the largest tanh of response plus bias over
    the 484 positions: each of the 29 shifted columns of the contraction is one tap (ConvRef.column_apply), their sum from zero
    is the response, and bias, tanh and maximum are ConvRef.feature_of_response. -/
theorem filt55_value (V : Valuation τ sig (Elt Ideal)) (b : Fin 128) :
    (after (filt55 (F := Ideal)) V (no_index (Proc.devRef .tc main_v3171)) : S128.Idx → EReal) (ix1 b)
      = ConvPool.feat (V (Proc.devRef .tc main_v7)) (V (Proc.devRef .tc main_arg2)) (V (Proc.devRef .tc main_arg3)) (ix2 b (⟨55, by decide⟩ : Fin 64)) := by
  simp only [filt55, seg109, seg110, List.cons_append, List.nil_append, List.append_nil]
  after_results_simp
  refine ConvRef.feature_of_response (L := 484) (⟨55, by decide⟩ : Fin 64) (by decide) _ _ _ _ ?_ _ _ _ _ _ _ b
  intro b l hl
  show _ = ∑ j ∈ Finset.range 29, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 55 (by decide) _ _ _ _ _ rfl rfl rfl rfl rfl rfl _ _ _ _ _ b l hl))
  rfl

end Cert.ReferenceIdeal.RefRun

end
-- ==== Proof.RefFilter.F56.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 56's operations write. -/
abbrev filt56_W : List (Ref sig .tc) := [main_v3172, main_v3173, main_v3174, main_v3175, main_v3176, main_cst_112, main_v3177, main_v3178, main_v3179, main_v3180, main_v3181, main_v3182, main_v3183, main_v3184, main_v3185, main_v3186, main_v3187, main_v3188, main_v3189, main_v3190, main_v3191, main_v3192, main_v3193, main_v3194, main_v3195, main_v3196, main_v3197, main_v3198, main_v3199, main_v3200, main_v3201, main_v3202, main_v3203, main_v3204, main_v3205, main_v3206, main_v3207, main_v3208, main_v3209, main_v3210, main_v3211, main_v3212, main_v3213, main_v3214, main_v3215, main_v3216, main_v3217, main_v3218, main_v3219, main_v3220, main_v3221, main_v3222, main_v3223, main_v3224, main_v3225, main_v3226, main_v3227, main_v3228, main_v3229, main_v3230, main_v3231, main_v3232, main_v3233, main_v3234, main_v3235, main_v3236, main_v3237, main_v3238, main_v3239, main_v3240, main_v3241, main_v3242, main_v3243, main_v3244, main_v3245, main_v3246, main_v3247, main_v3248, main_v3249, main_v3250, main_v3251, main_v3252, main_v3253, main_v3254, main_v3255, main_v3256, main_v3257, main_v3258, main_v3259, main_v3260, main_v3261, main_v3262, main_v3263, main_v3264, main_v3265, main_v3266, main_v3267, main_v3268, main_v3269, main_v3270, main_cst_113, main_v3271]

set_option maxHeartbeats 4000000 in
set_option maxRecDepth 8192 in
theorem filt56_writes : (filt56 : List (HloOp τ sig (Elt F))).Forall fun op => op.writes ⊆ (filt56_W.map (Proc.devRef (τ := τ) .tc)).toFinset := by
  simp only [filt56, seg111, seg112, seg113, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 56 does not write keeps its contents through the filter's operations. -/
theorem filt56_keep (V : Valuation τ sig (Elt F)) {r : Ref sig .tc} (h : r ∉ filt56_W) :
    after filt56 V (no_index (Proc.devRef .tc r)) = V (Proc.devRef .tc r) :=
  after_of_writes_sub filt56 _ filt56_writes h

end Writes

set_option maxHeartbeats 4000000 in
set_option maxRecDepth 8192 in
/-- After filter 56's operations its feature buffer holds, for every sequence, the largest tanh of response plus bias over
    the 483 positions: each of the 30 shifted columns of the contraction is one tap (ConvRef.column_apply), their sum from zero
    is the response, and bias, tanh and maximum are ConvRef.feature_of_response. -/
theorem filt56_value (V : Valuation τ sig (Elt Ideal)) (b : Fin 128) :
    (after (filt56 (F := Ideal)) V (no_index (Proc.devRef .tc main_v3271)) : S128.Idx → EReal) (ix1 b)
      = ConvPool.feat (V (Proc.devRef .tc main_v7)) (V (Proc.devRef .tc main_arg2)) (V (Proc.devRef .tc main_arg3)) (ix2 b (⟨56, by decide⟩ : Fin 64)) := by
  simp only [filt56, seg111, seg112, seg113, List.cons_append, List.nil_append, List.append_nil]
  after_results_simp
  refine ConvRef.feature_of_response (L := 483) (⟨56, by decide⟩ : Fin 64) (by decide) _ _ _ _ ?_ _ _ _ _ _ _ b
  intro b l hl
  show _ = ∑ j ∈ Finset.range 30, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 56 (by decide) _ _ _ _ _ rfl rfl rfl rfl rfl rfl _ _ _ _ _ b l hl))
  rfl

end Cert.ReferenceIdeal.RefRun

end
-- ==== Proof.RefFilter.F57.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 57's operations write. -/
abbrev filt57_W : List (Ref sig .tc) := [main_v3272, main_v3273, main_v3274, main_v3275, main_v3276, main_cst_114, main_v3277, main_v3278, main_v3279, main_v3280, main_v3281, main_v3282, main_v3283, main_v3284, main_v3285, main_v3286, main_v3287, main_v3288, main_v3289, main_v3290, main_v3291, main_v3292, main_v3293, main_v3294, main_v3295, main_v3296, main_v3297, main_v3298, main_v3299, main_v3300, main_v3301, main_v3302, main_v3303, main_v3304, main_v3305, main_v3306, main_v3307, main_v3308, main_v3309, main_v3310, main_v3311, main_v3312, main_v3313, main_v3314, main_v3315, main_v3316, main_v3317, main_v3318, main_v3319, main_v3320, main_v3321, main_v3322, main_v3323, main_v3324, main_v3325, main_v3326, main_v3327, main_v3328, main_v3329, main_v3330, main_v3331, main_v3332, main_v3333, main_v3334, main_v3335, main_v3336, main_v3337, main_v3338, main_v3339, main_v3340, main_v3341, main_v3342, main_v3343, main_v3344, main_v3345, main_v3346, main_v3347, main_v3348, main_v3349, main_v3350, main_v3351, main_v3352, main_v3353, main_v3354, main_v3355, main_v3356, main_v3357, main_v3358, main_v3359, main_v3360, main_v3361, main_v3362, main_v3363, main_v3364, main_v3365, main_v3366, main_v3367, main_v3368, main_v3369, main_v3370, main_cst_115, main_v3371]

set_option maxHeartbeats 4000000 in
set_option maxRecDepth 8192 in
theorem filt57_writes : (filt57 : List (HloOp τ sig (Elt F))).Forall fun op => op.writes ⊆ (filt57_W.map (Proc.devRef (τ := τ) .tc)).toFinset := by
  simp only [filt57, seg114, seg115, seg116, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 57 does not write keeps its contents through the filter's operations. -/
theorem filt57_keep (V : Valuation τ sig (Elt F)) {r : Ref sig .tc} (h : r ∉ filt57_W) :
    after filt57 V (no_index (Proc.devRef .tc r)) = V (Proc.devRef .tc r) :=
  after_of_writes_sub filt57 _ filt57_writes h

end Writes

set_option maxHeartbeats 4000000 in
set_option maxRecDepth 8192 in
/-- After filter 57's operations its feature buffer holds, for every sequence, the largest tanh of response plus bias over
    the 483 positions: each of the 30 shifted columns of the contraction is one tap (ConvRef.column_apply), their sum from zero
    is the response, and bias, tanh and maximum are ConvRef.feature_of_response. -/
theorem filt57_value (V : Valuation τ sig (Elt Ideal)) (b : Fin 128) :
    (after (filt57 (F := Ideal)) V (no_index (Proc.devRef .tc main_v3371)) : S128.Idx → EReal) (ix1 b)
      = ConvPool.feat (V (Proc.devRef .tc main_v7)) (V (Proc.devRef .tc main_arg2)) (V (Proc.devRef .tc main_arg3)) (ix2 b (⟨57, by decide⟩ : Fin 64)) := by
  simp only [filt57, seg114, seg115, seg116, List.cons_append, List.nil_append, List.append_nil]
  after_results_simp
  refine ConvRef.feature_of_response (L := 483) (⟨57, by decide⟩ : Fin 64) (by decide) _ _ _ _ ?_ _ _ _ _ _ _ b
  intro b l hl
  show _ = ∑ j ∈ Finset.range 30, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 57 (by decide) _ _ _ _ _ rfl rfl rfl rfl rfl rfl _ _ _ _ _ b l hl))
  rfl

end Cert.ReferenceIdeal.RefRun

end
-- ==== Proof.RefFilter.F58.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 58's operations write. -/
abbrev filt58_W : List (Ref sig .tc) := [main_v3372, main_v3373, main_v3374, main_v3375, main_v3376, main_cst_116, main_v3377, main_v3378, main_v3379, main_v3380, main_v3381, main_v3382, main_v3383, main_v3384, main_v3385, main_v3386, main_v3387, main_v3388, main_v3389, main_v3390, main_v3391, main_v3392, main_v3393, main_v3394, main_v3395, main_v3396, main_v3397, main_v3398, main_v3399, main_v3400, main_v3401, main_v3402, main_v3403, main_v3404, main_v3405, main_v3406, main_v3407, main_v3408, main_v3409, main_v3410, main_v3411, main_v3412, main_v3413, main_v3414, main_v3415, main_v3416, main_v3417, main_v3418, main_v3419, main_v3420, main_v3421, main_v3422, main_v3423, main_v3424, main_v3425, main_v3426, main_v3427, main_v3428, main_v3429, main_v3430, main_v3431, main_v3432, main_v3433, main_v3434, main_v3435, main_v3436, main_v3437, main_v3438, main_v3439, main_v3440, main_v3441, main_v3442, main_v3443, main_v3444, main_v3445, main_v3446, main_v3447, main_v3448, main_v3449, main_v3450, main_v3451, main_v3452, main_v3453, main_v3454, main_v3455, main_v3456, main_v3457, main_v3458, main_v3459, main_v3460, main_v3461, main_v3462, main_v3463, main_v3464, main_v3465, main_v3466, main_v3467, main_v3468, main_v3469, main_v3470, main_v3471, main_v3472, main_v3473, main_cst_117, main_v3474]

set_option maxHeartbeats 4000000 in
set_option maxRecDepth 8192 in
theorem filt58_writes : (filt58 : List (HloOp τ sig (Elt F))).Forall fun op => op.writes ⊆ (filt58_W.map (Proc.devRef (τ := τ) .tc)).toFinset := by
  simp only [filt58, seg117, seg118, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 58 does not write keeps its contents through the filter's operations. -/
theorem filt58_keep (V : Valuation τ sig (Elt F)) {r : Ref sig .tc} (h : r ∉ filt58_W) :
    after filt58 V (no_index (Proc.devRef .tc r)) = V (Proc.devRef .tc r) :=
  after_of_writes_sub filt58 _ filt58_writes h

end Writes

set_option maxHeartbeats 4000000 in
set_option maxRecDepth 8192 in
/-- After filter 58's operations its feature buffer holds, for every sequence, the largest tanh of response plus bias over
    the 482 positions: each of the 31 shifted columns of the contraction is one tap (ConvRef.column_apply), their sum from zero
    is the response, and bias, tanh and maximum are ConvRef.feature_of_response. -/
theorem filt58_value (V : Valuation τ sig (Elt Ideal)) (b : Fin 128) :
    (after (filt58 (F := Ideal)) V (no_index (Proc.devRef .tc main_v3474)) : S128.Idx → EReal) (ix1 b)
      = ConvPool.feat (V (Proc.devRef .tc main_v7)) (V (Proc.devRef .tc main_arg2)) (V (Proc.devRef .tc main_arg3)) (ix2 b (⟨58, by decide⟩ : Fin 64)) := by
  simp only [filt58, seg117, seg118, List.cons_append, List.nil_append, List.append_nil]
  after_results_simp
  refine ConvRef.feature_of_response (L := 482) (⟨58, by decide⟩ : Fin 64) (by decide) _ _ _ _ ?_ _ _ _ _ _ _ b
  intro b l hl
  show _ = ∑ j ∈ Finset.range 31, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 58 (by decide) _ _ _ _ _ rfl rfl rfl rfl rfl rfl _ _ _ _ _ b l hl))
  rfl

end Cert.ReferenceIdeal.RefRun

end
-- ==== Proof.RefFilter.F59.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 59's operations write. -/
abbrev filt59_W : List (Ref sig .tc) := [main_v3475, main_v3476, main_v3477, main_v3478, main_v3479, main_cst_118, main_v3480, main_v3481, main_v3482, main_v3483, main_v3484, main_v3485, main_v3486, main_v3487, main_v3488, main_v3489, main_v3490, main_v3491, main_v3492, main_v3493, main_v3494, main_v3495, main_v3496, main_v3497, main_v3498, main_v3499, main_v3500, main_v3501, main_v3502, main_v3503, main_v3504, main_v3505, main_v3506, main_v3507, main_v3508, main_v3509, main_v3510, main_v3511, main_v3512, main_v3513, main_v3514, main_v3515, main_v3516, main_v3517, main_v3518, main_v3519, main_v3520, main_v3521, main_v3522, main_v3523, main_v3524, main_v3525, main_v3526, main_v3527, main_v3528, main_v3529, main_v3530, main_v3531, main_v3532, main_v3533, main_v3534, main_v3535, main_v3536, main_v3537, main_v3538, main_v3539, main_v3540, main_v3541, main_v3542, main_v3543, main_v3544, main_v3545, main_v3546, main_v3547, main_v3548, main_v3549, main_v3550, main_v3551, main_v3552, main_v3553, main_v3554, main_v3555, main_v3556, main_v3557, main_v3558, main_v3559, main_v3560, main_v3561, main_v3562, main_v3563, main_v3564, main_v3565, main_v3566, main_v3567, main_v3568, main_v3569, main_v3570, main_v3571, main_v3572, main_v3573, main_v3574, main_v3575, main_v3576, main_cst_119, main_v3577]

set_option maxHeartbeats 4000000 in
set_option maxRecDepth 8192 in
theorem filt59_writes : (filt59 : List (HloOp τ sig (Elt F))).Forall fun op => op.writes ⊆ (filt59_W.map (Proc.devRef (τ := τ) .tc)).toFinset := by
  simp only [filt59, seg119, seg120, seg121, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 59 does not write keeps its contents through the filter's operations. -/
theorem filt59_keep (V : Valuation τ sig (Elt F)) {r : Ref sig .tc} (h : r ∉ filt59_W) :
    after filt59 V (no_index (Proc.devRef .tc r)) = V (Proc.devRef .tc r) :=
  after_of_writes_sub filt59 _ filt59_writes h

end Writes

set_option maxHeartbeats 4000000 in
set_option maxRecDepth 8192 in
/-- After filter 59's operations its feature buffer holds, for every sequence, the largest tanh of response plus bias over
    the 482 positions: each of the 31 shifted columns of the contraction is one tap (ConvRef.column_apply), their sum from zero
    is the response, and bias, tanh and maximum are ConvRef.feature_of_response. -/
theorem filt59_value (V : Valuation τ sig (Elt Ideal)) (b : Fin 128) :
    (after (filt59 (F := Ideal)) V (no_index (Proc.devRef .tc main_v3577)) : S128.Idx → EReal) (ix1 b)
      = ConvPool.feat (V (Proc.devRef .tc main_v7)) (V (Proc.devRef .tc main_arg2)) (V (Proc.devRef .tc main_arg3)) (ix2 b (⟨59, by decide⟩ : Fin 64)) := by
  simp only [filt59, seg119, seg120, seg121, List.cons_append, List.nil_append, List.append_nil]
  after_results_simp
  refine ConvRef.feature_of_response (L := 482) (⟨59, by decide⟩ : Fin 64) (by decide) _ _ _ _ ?_ _ _ _ _ _ _ b
  intro b l hl
  show _ = ∑ j ∈ Finset.range 31, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 59 (by decide) _ _ _ _ _ rfl rfl rfl rfl rfl rfl _ _ _ _ _ b l hl))
  rfl

end Cert.ReferenceIdeal.RefRun

end
-- ==== Proof.RefFilter.F60.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 60's operations write. -/
abbrev filt60_W : List (Ref sig .tc) := [main_v3578, main_v3579, main_v3580, main_v3581, main_v3582, main_cst_120, main_v3583, main_v3584, main_v3585, main_v3586, main_v3587, main_v3588, main_v3589, main_v3590, main_v3591, main_v3592, main_v3593, main_v3594, main_v3595, main_v3596, main_v3597, main_v3598, main_v3599, main_v3600, main_v3601, main_v3602, main_v3603, main_v3604, main_v3605, main_v3606, main_v3607, main_v3608, main_v3609, main_v3610, main_v3611, main_v3612, main_v3613, main_v3614, main_v3615, main_v3616, main_v3617, main_v3618, main_v3619, main_v3620, main_v3621, main_v3622, main_v3623, main_v3624, main_v3625, main_v3626, main_v3627, main_v3628, main_v3629, main_v3630, main_v3631, main_v3632, main_v3633, main_v3634, main_v3635, main_v3636, main_v3637, main_v3638, main_v3639, main_v3640, main_v3641, main_v3642, main_v3643, main_v3644, main_v3645, main_v3646, main_v3647, main_v3648, main_v3649, main_v3650, main_v3651, main_v3652, main_v3653, main_v3654, main_v3655, main_v3656, main_v3657, main_v3658, main_v3659, main_v3660, main_v3661, main_v3662, main_v3663, main_v3664, main_v3665, main_v3666, main_v3667, main_v3668, main_v3669, main_v3670, main_v3671, main_v3672, main_v3673, main_v3674, main_v3675, main_v3676, main_v3677, main_v3678, main_v3679, main_v3680, main_v3681, main_v3682, main_cst_121, main_v3683]

set_option maxHeartbeats 4000000 in
set_option maxRecDepth 8192 in
theorem filt60_writes : (filt60 : List (HloOp τ sig (Elt F))).Forall fun op => op.writes ⊆ (filt60_W.map (Proc.devRef (τ := τ) .tc)).toFinset := by
  simp only [filt60, seg122, seg123, seg124, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 60 does not write keeps its contents through the filter's operations. -/
theorem filt60_keep (V : Valuation τ sig (Elt F)) {r : Ref sig .tc} (h : r ∉ filt60_W) :
    after filt60 V (no_index (Proc.devRef .tc r)) = V (Proc.devRef .tc r) :=
  after_of_writes_sub filt60 _ filt60_writes h

end Writes

set_option maxHeartbeats 4000000 in
set_option maxRecDepth 8192 in
/-- After filter 60's operations its feature buffer holds, for every sequence, the largest tanh of response plus bias over
    the 481 positions: each of the 32 shifted columns of the contraction is one tap (ConvRef.column_apply), their sum from zero
    is the response, and bias, tanh and maximum are ConvRef.feature_of_response. -/
theorem filt60_value (V : Valuation τ sig (Elt Ideal)) (b : Fin 128) :
    (after (filt60 (F := Ideal)) V (no_index (Proc.devRef .tc main_v3683)) : S128.Idx → EReal) (ix1 b)
      = ConvPool.feat (V (Proc.devRef .tc main_v7)) (V (Proc.devRef .tc main_arg2)) (V (Proc.devRef .tc main_arg3)) (ix2 b (⟨60, by decide⟩ : Fin 64)) := by
  simp only [filt60, seg122, seg123, seg124, List.cons_append, List.nil_append, List.append_nil]
  after_results_simp
  refine ConvRef.feature_of_response (L := 481) (⟨60, by decide⟩ : Fin 64) (by decide) _ _ _ _ ?_ _ _ _ _ _ _ b
  intro b l hl
  show _ = ∑ j ∈ Finset.range 32, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 60 (by decide) _ _ _ _ _ rfl rfl rfl rfl rfl rfl _ _ _ _ _ b l hl))
  rfl

end Cert.ReferenceIdeal.RefRun

end
-- ==== Proof.RefFilter.F61.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 61's operations write. -/
abbrev filt61_W : List (Ref sig .tc) := [main_v3684, main_v3685, main_v3686, main_v3687, main_v3688, main_cst_122, main_v3689, main_v3690, main_v3691, main_v3692, main_v3693, main_v3694, main_v3695, main_v3696, main_v3697, main_v3698, main_v3699, main_v3700, main_v3701, main_v3702, main_v3703, main_v3704, main_v3705, main_v3706, main_v3707, main_v3708, main_v3709, main_v3710, main_v3711, main_v3712, main_v3713, main_v3714, main_v3715, main_v3716, main_v3717, main_v3718, main_v3719, main_v3720, main_v3721, main_v3722, main_v3723, main_v3724, main_v3725, main_v3726, main_v3727, main_v3728, main_v3729, main_v3730, main_v3731, main_v3732, main_v3733, main_v3734, main_v3735, main_v3736, main_v3737, main_v3738, main_v3739, main_v3740, main_v3741, main_v3742, main_v3743, main_v3744, main_v3745, main_v3746, main_v3747, main_v3748, main_v3749, main_v3750, main_v3751, main_v3752, main_v3753, main_v3754, main_v3755, main_v3756, main_v3757, main_v3758, main_v3759, main_v3760, main_v3761, main_v3762, main_v3763, main_v3764, main_v3765, main_v3766, main_v3767, main_v3768, main_v3769, main_v3770, main_v3771, main_v3772, main_v3773, main_v3774, main_v3775, main_v3776, main_v3777, main_v3778, main_v3779, main_v3780, main_v3781, main_v3782, main_v3783, main_v3784, main_v3785, main_v3786, main_v3787, main_v3788, main_cst_123, main_v3789]

set_option maxHeartbeats 4000000 in
set_option maxRecDepth 8192 in
theorem filt61_writes : (filt61 : List (HloOp τ sig (Elt F))).Forall fun op => op.writes ⊆ (filt61_W.map (Proc.devRef (τ := τ) .tc)).toFinset := by
  simp only [filt61, seg125, seg126, seg127, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 61 does not write keeps its contents through the filter's operations. -/
theorem filt61_keep (V : Valuation τ sig (Elt F)) {r : Ref sig .tc} (h : r ∉ filt61_W) :
    after filt61 V (no_index (Proc.devRef .tc r)) = V (Proc.devRef .tc r) :=
  after_of_writes_sub filt61 _ filt61_writes h

end Writes

set_option maxHeartbeats 4000000 in
set_option maxRecDepth 8192 in
/-- After filter 61's operations its feature buffer holds, for every sequence, the largest tanh of response plus bias over
    the 481 positions: each of the 32 shifted columns of the contraction is one tap (ConvRef.column_apply), their sum from zero
    is the response, and bias, tanh and maximum are ConvRef.feature_of_response. -/
theorem filt61_value (V : Valuation τ sig (Elt Ideal)) (b : Fin 128) :
    (after (filt61 (F := Ideal)) V (no_index (Proc.devRef .tc main_v3789)) : S128.Idx → EReal) (ix1 b)
      = ConvPool.feat (V (Proc.devRef .tc main_v7)) (V (Proc.devRef .tc main_arg2)) (V (Proc.devRef .tc main_arg3)) (ix2 b (⟨61, by decide⟩ : Fin 64)) := by
  simp only [filt61, seg125, seg126, seg127, List.cons_append, List.nil_append, List.append_nil]
  after_results_simp
  refine ConvRef.feature_of_response (L := 481) (⟨61, by decide⟩ : Fin 64) (by decide) _ _ _ _ ?_ _ _ _ _ _ _ b
  intro b l hl
  show _ = ∑ j ∈ Finset.range 32, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 61 (by decide) _ _ _ _ _ rfl rfl rfl rfl rfl rfl _ _ _ _ _ b l hl))
  rfl

end Cert.ReferenceIdeal.RefRun

end
-- ==== Proof.RefFilter.F62.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 62's operations write. -/
abbrev filt62_W : List (Ref sig .tc) := [main_v3790, main_v3791, main_v3792, main_v3793, main_v3794, main_cst_124, main_v3795, main_v3796, main_v3797, main_v3798, main_v3799, main_v3800, main_v3801, main_v3802, main_v3803, main_v3804, main_v3805, main_v3806, main_v3807, main_v3808, main_v3809, main_v3810, main_v3811, main_v3812, main_v3813, main_v3814, main_v3815, main_v3816, main_v3817, main_v3818, main_v3819, main_v3820, main_v3821, main_v3822, main_v3823, main_v3824, main_v3825, main_v3826, main_v3827, main_v3828, main_v3829, main_v3830, main_v3831, main_v3832, main_v3833, main_v3834, main_v3835, main_v3836, main_v3837, main_v3838, main_v3839, main_v3840, main_v3841, main_v3842, main_v3843, main_v3844, main_v3845, main_v3846, main_v3847, main_v3848, main_v3849, main_v3850, main_v3851, main_v3852, main_v3853, main_v3854, main_v3855, main_v3856, main_v3857, main_v3858, main_v3859, main_v3860, main_v3861, main_v3862, main_v3863, main_v3864, main_v3865, main_v3866, main_v3867, main_v3868, main_v3869, main_v3870, main_v3871, main_v3872, main_v3873, main_v3874, main_v3875, main_v3876, main_v3877, main_v3878, main_v3879, main_v3880, main_v3881, main_v3882, main_v3883, main_v3884, main_v3885, main_v3886, main_v3887, main_v3888, main_v3889, main_v3890, main_v3891, main_v3892, main_v3893, main_v3894, main_v3895, main_v3896, main_v3897, main_cst_125, main_v3898]

set_option maxHeartbeats 4000000 in
set_option maxRecDepth 8192 in
theorem filt62_writes : (filt62 : List (HloOp τ sig (Elt F))).Forall fun op => op.writes ⊆ (filt62_W.map (Proc.devRef (τ := τ) .tc)).toFinset := by
  simp only [filt62, seg128, seg129, seg130, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 62 does not write keeps its contents through the filter's operations. -/
theorem filt62_keep (V : Valuation τ sig (Elt F)) {r : Ref sig .tc} (h : r ∉ filt62_W) :
    after filt62 V (no_index (Proc.devRef .tc r)) = V (Proc.devRef .tc r) :=
  after_of_writes_sub filt62 _ filt62_writes h

end Writes

set_option maxHeartbeats 4000000 in
set_option maxRecDepth 8192 in
/-- After filter 62's operations its feature buffer holds, for every sequence, the largest tanh of response plus bias over
    the 480 positions: each of the 33 shifted columns of the contraction is one tap (ConvRef.column_apply), their sum from zero
    is the response, and bias, tanh and maximum are ConvRef.feature_of_response. -/
theorem filt62_value (V : Valuation τ sig (Elt Ideal)) (b : Fin 128) :
    (after (filt62 (F := Ideal)) V (no_index (Proc.devRef .tc main_v3898)) : S128.Idx → EReal) (ix1 b)
      = ConvPool.feat (V (Proc.devRef .tc main_v7)) (V (Proc.devRef .tc main_arg2)) (V (Proc.devRef .tc main_arg3)) (ix2 b (⟨62, by decide⟩ : Fin 64)) := by
  simp only [filt62, seg128, seg129, seg130, List.cons_append, List.nil_append, List.append_nil]
  after_results_simp
  refine ConvRef.feature_of_response (L := 480) (⟨62, by decide⟩ : Fin 64) (by decide) _ _ _ _ ?_ _ _ _ _ _ _ b
  intro b l hl
  show _ = ∑ j ∈ Finset.range 33, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 62 (by decide) _ _ _ _ _ rfl rfl rfl rfl rfl rfl _ _ _ _ _ b l hl))
  rfl

end Cert.ReferenceIdeal.RefRun

end
-- ==== Proof.RefFilter.F63.lean ====
import proofs.«138672_j88897233092836_1_alg».proof.Proof.RefChunks
import proofs.«138672_j88897233092836_1_alg».proof.Proof.RefLemmas

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Writes
variable {F : FTy → Type} [FloatOps F]

/-- The buffers filter 63's operations write. -/
abbrev filt63_W : List (Ref sig .tc) := [main_v3899, main_v3900, main_v3901, main_v3902, main_v3903, main_cst_126, main_v3904, main_v3905, main_v3906, main_v3907, main_v3908, main_v3909, main_v3910, main_v3911, main_v3912, main_v3913, main_v3914, main_v3915, main_v3916, main_v3917, main_v3918, main_v3919, main_v3920, main_v3921, main_v3922, main_v3923, main_v3924, main_v3925, main_v3926, main_v3927, main_v3928, main_v3929, main_v3930, main_v3931, main_v3932, main_v3933, main_v3934, main_v3935, main_v3936, main_v3937, main_v3938, main_v3939, main_v3940, main_v3941, main_v3942, main_v3943, main_v3944, main_v3945, main_v3946, main_v3947, main_v3948, main_v3949, main_v3950, main_v3951, main_v3952, main_v3953, main_v3954, main_v3955, main_v3956, main_v3957, main_v3958, main_v3959, main_v3960, main_v3961, main_v3962, main_v3963, main_v3964, main_v3965, main_v3966, main_v3967, main_v3968, main_v3969, main_v3970, main_v3971, main_v3972, main_v3973, main_v3974, main_v3975, main_v3976, main_v3977, main_v3978, main_v3979, main_v3980, main_v3981, main_v3982, main_v3983, main_v3984, main_v3985, main_v3986, main_v3987, main_v3988, main_v3989, main_v3990, main_v3991, main_v3992, main_v3993, main_v3994, main_v3995, main_v3996, main_v3997, main_v3998, main_v3999, main_v4000, main_v4001, main_v4002, main_v4003, main_v4004, main_v4005, main_v4006, main_cst_127, main_v4007]

set_option maxHeartbeats 4000000 in
set_option maxRecDepth 8192 in
theorem filt63_writes : (filt63 : List (HloOp τ sig (Elt F))).Forall fun op => op.writes ⊆ (filt63_W.map (Proc.devRef (τ := τ) .tc)).toFinset := by
  simp only [filt63, seg131, seg132, List.cons_append, List.nil_append, List.append_nil, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer filter 63 does not write keeps its contents through the filter's operations. -/
theorem filt63_keep (V : Valuation τ sig (Elt F)) {r : Ref sig .tc} (h : r ∉ filt63_W) :
    after filt63 V (no_index (Proc.devRef .tc r)) = V (Proc.devRef .tc r) :=
  after_of_writes_sub filt63 _ filt63_writes h

end Writes

set_option maxHeartbeats 4000000 in
set_option maxRecDepth 8192 in
/-- After filter 63's operations its feature buffer holds, for every sequence, the largest tanh of response plus bias over
    the 480 positions: each of the 33 shifted columns of the contraction is one tap (ConvRef.column_apply), their sum from zero
    is the response, and bias, tanh and maximum are ConvRef.feature_of_response. -/
theorem filt63_value (V : Valuation τ sig (Elt Ideal)) (b : Fin 128) :
    (after (filt63 (F := Ideal)) V (no_index (Proc.devRef .tc main_v4007)) : S128.Idx → EReal) (ix1 b)
      = ConvPool.feat (V (Proc.devRef .tc main_v7)) (V (Proc.devRef .tc main_arg2)) (V (Proc.devRef .tc main_arg3)) (ix2 b (⟨63, by decide⟩ : Fin 64)) := by
  simp only [filt63, seg131, seg132, List.cons_append, List.nil_append, List.append_nil]
  after_results_simp
  refine ConvRef.feature_of_response (L := 480) (⟨63, by decide⟩ : Fin 64) (by decide) _ _ _ _ ?_ _ _ _ _ _ _ b
  intro b l hl
  show _ = ∑ j ∈ Finset.range 33, ConvPool.tap _ _ b l _ j
  simp only [Finset.sum_range_succ, Finset.sum_range_zero, ValueIdx.addf_apply, ConvRead.broadcastInDim_scalar_apply, ValueIdx.constant_apply,
    Ideal.ofBits_zero_f32, Host.dotGeneral]
  repeat (refine congrArg₂ (· + ·) ?_ (ConvRef.column_apply 63 (by decide) _ _ _ _ _ rfl rfl rfl rfl rfl rfl _ _ _ _ _ b l hl))
  rfl

end Cert.ReferenceIdeal.RefRun

end
-- ==== Proof.RefLevels.lean ====
import proofs.«138672_j88897233092836_1_alg».proof.Proof.RefFilter.F0
import proofs.«138672_j88897233092836_1_alg».proof.Proof.RefFilter.F1
import proofs.«138672_j88897233092836_1_alg».proof.Proof.RefFilter.F2
import proofs.«138672_j88897233092836_1_alg».proof.Proof.RefFilter.F3
import proofs.«138672_j88897233092836_1_alg».proof.Proof.RefFilter.F4
import proofs.«138672_j88897233092836_1_alg».proof.Proof.RefFilter.F5
import proofs.«138672_j88897233092836_1_alg».proof.Proof.RefFilter.F6
import proofs.«138672_j88897233092836_1_alg».proof.Proof.RefFilter.F7
import proofs.«138672_j88897233092836_1_alg».proof.Proof.RefFilter.F8
import proofs.«138672_j88897233092836_1_alg».proof.Proof.RefFilter.F9
import proofs.«138672_j88897233092836_1_alg».proof.Proof.RefFilter.F10
import proofs.«138672_j88897233092836_1_alg».proof.Proof.RefFilter.F11
import proofs.«138672_j88897233092836_1_alg».proof.Proof.RefFilter.F12
import proofs.«138672_j88897233092836_1_alg».proof.Proof.RefFilter.F13
import proofs.«138672_j88897233092836_1_alg».proof.Proof.RefFilter.F14
import proofs.«138672_j88897233092836_1_alg».proof.Proof.RefFilter.F15
import proofs.«138672_j88897233092836_1_alg».proof.Proof.RefFilter.F16
import proofs.«138672_j88897233092836_1_alg».proof.Proof.RefFilter.F17
import proofs.«138672_j88897233092836_1_alg».proof.Proof.RefFilter.F18
import proofs.«138672_j88897233092836_1_alg».proof.Proof.RefFilter.F19
import proofs.«138672_j88897233092836_1_alg».proof.Proof.RefFilter.F20
import proofs.«138672_j88897233092836_1_alg».proof.Proof.RefFilter.F21
import proofs.«138672_j88897233092836_1_alg».proof.Proof.RefFilter.F22
import proofs.«138672_j88897233092836_1_alg».proof.Proof.RefFilter.F23
import proofs.«138672_j88897233092836_1_alg».proof.Proof.RefFilter.F24
import proofs.«138672_j88897233092836_1_alg».proof.Proof.RefFilter.F25
import proofs.«138672_j88897233092836_1_alg».proof.Proof.RefFilter.F26
import proofs.«138672_j88897233092836_1_alg».proof.Proof.RefFilter.F27
import proofs.«138672_j88897233092836_1_alg».proof.Proof.RefFilter.F28
import proofs.«138672_j88897233092836_1_alg».proof.Proof.RefFilter.F29
import proofs.«138672_j88897233092836_1_alg».proof.Proof.RefFilter.F30
import proofs.«138672_j88897233092836_1_alg».proof.Proof.RefFilter.F31
import proofs.«138672_j88897233092836_1_alg».proof.Proof.RefFilter.F32
import proofs.«138672_j88897233092836_1_alg».proof.Proof.RefFilter.F33
import proofs.«138672_j88897233092836_1_alg».proof.Proof.RefFilter.F34
import proofs.«138672_j88897233092836_1_alg».proof.Proof.RefFilter.F35
import proofs.«138672_j88897233092836_1_alg».proof.Proof.RefFilter.F36
import proofs.«138672_j88897233092836_1_alg».proof.Proof.RefFilter.F37
import proofs.«138672_j88897233092836_1_alg».proof.Proof.RefFilter.F38
import proofs.«138672_j88897233092836_1_alg».proof.Proof.RefFilter.F39
import proofs.«138672_j88897233092836_1_alg».proof.Proof.RefFilter.F40
import proofs.«138672_j88897233092836_1_alg».proof.Proof.RefFilter.F41
import proofs.«138672_j88897233092836_1_alg».proof.Proof.RefFilter.F42
import proofs.«138672_j88897233092836_1_alg».proof.Proof.RefFilter.F43
import proofs.«138672_j88897233092836_1_alg».proof.Proof.RefFilter.F44
import proofs.«138672_j88897233092836_1_alg».proof.Proof.RefFilter.F45
import proofs.«138672_j88897233092836_1_alg».proof.Proof.RefFilter.F46
import proofs.«138672_j88897233092836_1_alg».proof.Proof.RefFilter.F47
import proofs.«138672_j88897233092836_1_alg».proof.Proof.RefFilter.F48
import proofs.«138672_j88897233092836_1_alg».proof.Proof.RefFilter.F49
import proofs.«138672_j88897233092836_1_alg».proof.Proof.RefFilter.F50
import proofs.«138672_j88897233092836_1_alg».proof.Proof.RefFilter.F51
import proofs.«138672_j88897233092836_1_alg».proof.Proof.RefFilter.F52
import proofs.«138672_j88897233092836_1_alg».proof.Proof.RefFilter.F53
import proofs.«138672_j88897233092836_1_alg».proof.Proof.RefFilter.F54
import proofs.«138672_j88897233092836_1_alg».proof.Proof.RefFilter.F55
import proofs.«138672_j88897233092836_1_alg».proof.Proof.RefFilter.F56
import proofs.«138672_j88897233092836_1_alg».proof.Proof.RefFilter.F57
import proofs.«138672_j88897233092836_1_alg».proof.Proof.RefFilter.F58
import proofs.«138672_j88897233092836_1_alg».proof.Proof.RefFilter.F59
import proofs.«138672_j88897233092836_1_alg».proof.Proof.RefFilter.F60
import proofs.«138672_j88897233092836_1_alg».proof.Proof.RefFilter.F61
import proofs.«138672_j88897233092836_1_alg».proof.Proof.RefFilter.F62
import proofs.«138672_j88897233092836_1_alg».proof.Proof.RefFilter.F63

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

section Levels
variable {F : FTy → Type} [FloatOps F]

/-- The contents after the gathering operations. -/
def lev0 (V0 : Valuation τ sig (Elt F)) : Valuation τ sig (Elt F) := after pre V0
/-- The contents after filter 0's operations. -/
def lev1 (V0 : Valuation τ sig (Elt F)) : Valuation τ sig (Elt F) := after filt0 (lev0 V0)
/-- The contents after filter 1's operations. -/
def lev2 (V0 : Valuation τ sig (Elt F)) : Valuation τ sig (Elt F) := after filt1 (lev1 V0)
/-- The contents after filter 2's operations. -/
def lev3 (V0 : Valuation τ sig (Elt F)) : Valuation τ sig (Elt F) := after filt2 (lev2 V0)
/-- The contents after filter 3's operations. -/
def lev4 (V0 : Valuation τ sig (Elt F)) : Valuation τ sig (Elt F) := after filt3 (lev3 V0)
/-- The contents after filter 4's operations. -/
def lev5 (V0 : Valuation τ sig (Elt F)) : Valuation τ sig (Elt F) := after filt4 (lev4 V0)
/-- The contents after filter 5's operations. -/
def lev6 (V0 : Valuation τ sig (Elt F)) : Valuation τ sig (Elt F) := after filt5 (lev5 V0)
/-- The contents after filter 6's operations. -/
def lev7 (V0 : Valuation τ sig (Elt F)) : Valuation τ sig (Elt F) := after filt6 (lev6 V0)
/-- The contents after filter 7's operations. -/
def lev8 (V0 : Valuation τ sig (Elt F)) : Valuation τ sig (Elt F) := after filt7 (lev7 V0)
/-- The contents after filter 8's operations. -/
def lev9 (V0 : Valuation τ sig (Elt F)) : Valuation τ sig (Elt F) := after filt8 (lev8 V0)
/-- The contents after filter 9's operations. -/
def lev10 (V0 : Valuation τ sig (Elt F)) : Valuation τ sig (Elt F) := after filt9 (lev9 V0)
/-- The contents after filter 10's operations. -/
def lev11 (V0 : Valuation τ sig (Elt F)) : Valuation τ sig (Elt F) := after filt10 (lev10 V0)
/-- The contents after filter 11's operations. -/
def lev12 (V0 : Valuation τ sig (Elt F)) : Valuation τ sig (Elt F) := after filt11 (lev11 V0)
/-- The contents after filter 12's operations. -/
def lev13 (V0 : Valuation τ sig (Elt F)) : Valuation τ sig (Elt F) := after filt12 (lev12 V0)
/-- The contents after filter 13's operations. -/
def lev14 (V0 : Valuation τ sig (Elt F)) : Valuation τ sig (Elt F) := after filt13 (lev13 V0)
/-- The contents after filter 14's operations. -/
def lev15 (V0 : Valuation τ sig (Elt F)) : Valuation τ sig (Elt F) := after filt14 (lev14 V0)
/-- The contents after filter 15's operations. -/
def lev16 (V0 : Valuation τ sig (Elt F)) : Valuation τ sig (Elt F) := after filt15 (lev15 V0)
/-- The contents after filter 16's operations. -/
def lev17 (V0 : Valuation τ sig (Elt F)) : Valuation τ sig (Elt F) := after filt16 (lev16 V0)
/-- The contents after filter 17's operations. -/
def lev18 (V0 : Valuation τ sig (Elt F)) : Valuation τ sig (Elt F) := after filt17 (lev17 V0)
/-- The contents after filter 18's operations. -/
def lev19 (V0 : Valuation τ sig (Elt F)) : Valuation τ sig (Elt F) := after filt18 (lev18 V0)
/-- The contents after filter 19's operations. -/
def lev20 (V0 : Valuation τ sig (Elt F)) : Valuation τ sig (Elt F) := after filt19 (lev19 V0)
/-- The contents after filter 20's operations. -/
def lev21 (V0 : Valuation τ sig (Elt F)) : Valuation τ sig (Elt F) := after filt20 (lev20 V0)
/-- The contents after filter 21's operations. -/
def lev22 (V0 : Valuation τ sig (Elt F)) : Valuation τ sig (Elt F) := after filt21 (lev21 V0)
/-- The contents after filter 22's operations. -/
def lev23 (V0 : Valuation τ sig (Elt F)) : Valuation τ sig (Elt F) := after filt22 (lev22 V0)
/-- The contents after filter 23's operations. -/
def lev24 (V0 : Valuation τ sig (Elt F)) : Valuation τ sig (Elt F) := after filt23 (lev23 V0)
/-- The contents after filter 24's operations. -/
def lev25 (V0 : Valuation τ sig (Elt F)) : Valuation τ sig (Elt F) := after filt24 (lev24 V0)
/-- The contents after filter 25's operations. -/
def lev26 (V0 : Valuation τ sig (Elt F)) : Valuation τ sig (Elt F) := after filt25 (lev25 V0)
/-- The contents after filter 26's operations. -/
def lev27 (V0 : Valuation τ sig (Elt F)) : Valuation τ sig (Elt F) := after filt26 (lev26 V0)
/-- The contents after filter 27's operations. -/
def lev28 (V0 : Valuation τ sig (Elt F)) : Valuation τ sig (Elt F) := after filt27 (lev27 V0)
/-- The contents after filter 28's operations. -/
def lev29 (V0 : Valuation τ sig (Elt F)) : Valuation τ sig (Elt F) := after filt28 (lev28 V0)
/-- The contents after filter 29's operations. -/
def lev30 (V0 : Valuation τ sig (Elt F)) : Valuation τ sig (Elt F) := after filt29 (lev29 V0)
/-- The contents after filter 30's operations. -/
def lev31 (V0 : Valuation τ sig (Elt F)) : Valuation τ sig (Elt F) := after filt30 (lev30 V0)
/-- The contents after filter 31's operations. -/
def lev32 (V0 : Valuation τ sig (Elt F)) : Valuation τ sig (Elt F) := after filt31 (lev31 V0)
/-- The contents after filter 32's operations. -/
def lev33 (V0 : Valuation τ sig (Elt F)) : Valuation τ sig (Elt F) := after filt32 (lev32 V0)
/-- The contents after filter 33's operations. -/
def lev34 (V0 : Valuation τ sig (Elt F)) : Valuation τ sig (Elt F) := after filt33 (lev33 V0)
/-- The contents after filter 34's operations. -/
def lev35 (V0 : Valuation τ sig (Elt F)) : Valuation τ sig (Elt F) := after filt34 (lev34 V0)
/-- The contents after filter 35's operations. -/
def lev36 (V0 : Valuation τ sig (Elt F)) : Valuation τ sig (Elt F) := after filt35 (lev35 V0)
/-- The contents after filter 36's operations. -/
def lev37 (V0 : Valuation τ sig (Elt F)) : Valuation τ sig (Elt F) := after filt36 (lev36 V0)
/-- The contents after filter 37's operations. -/
def lev38 (V0 : Valuation τ sig (Elt F)) : Valuation τ sig (Elt F) := after filt37 (lev37 V0)
/-- The contents after filter 38's operations. -/
def lev39 (V0 : Valuation τ sig (Elt F)) : Valuation τ sig (Elt F) := after filt38 (lev38 V0)
/-- The contents after filter 39's operations. -/
def lev40 (V0 : Valuation τ sig (Elt F)) : Valuation τ sig (Elt F) := after filt39 (lev39 V0)
/-- The contents after filter 40's operations. -/
def lev41 (V0 : Valuation τ sig (Elt F)) : Valuation τ sig (Elt F) := after filt40 (lev40 V0)
/-- The contents after filter 41's operations. -/
def lev42 (V0 : Valuation τ sig (Elt F)) : Valuation τ sig (Elt F) := after filt41 (lev41 V0)
/-- The contents after filter 42's operations. -/
def lev43 (V0 : Valuation τ sig (Elt F)) : Valuation τ sig (Elt F) := after filt42 (lev42 V0)
/-- The contents after filter 43's operations. -/
def lev44 (V0 : Valuation τ sig (Elt F)) : Valuation τ sig (Elt F) := after filt43 (lev43 V0)
/-- The contents after filter 44's operations. -/
def lev45 (V0 : Valuation τ sig (Elt F)) : Valuation τ sig (Elt F) := after filt44 (lev44 V0)
/-- The contents after filter 45's operations. -/
def lev46 (V0 : Valuation τ sig (Elt F)) : Valuation τ sig (Elt F) := after filt45 (lev45 V0)
/-- The contents after filter 46's operations. -/
def lev47 (V0 : Valuation τ sig (Elt F)) : Valuation τ sig (Elt F) := after filt46 (lev46 V0)
/-- The contents after filter 47's operations. -/
def lev48 (V0 : Valuation τ sig (Elt F)) : Valuation τ sig (Elt F) := after filt47 (lev47 V0)
/-- The contents after filter 48's operations. -/
def lev49 (V0 : Valuation τ sig (Elt F)) : Valuation τ sig (Elt F) := after filt48 (lev48 V0)
/-- The contents after filter 49's operations. -/
def lev50 (V0 : Valuation τ sig (Elt F)) : Valuation τ sig (Elt F) := after filt49 (lev49 V0)
/-- The contents after filter 50's operations. -/
def lev51 (V0 : Valuation τ sig (Elt F)) : Valuation τ sig (Elt F) := after filt50 (lev50 V0)
/-- The contents after filter 51's operations. -/
def lev52 (V0 : Valuation τ sig (Elt F)) : Valuation τ sig (Elt F) := after filt51 (lev51 V0)
/-- The contents after filter 52's operations. -/
def lev53 (V0 : Valuation τ sig (Elt F)) : Valuation τ sig (Elt F) := after filt52 (lev52 V0)
/-- The contents after filter 53's operations. -/
def lev54 (V0 : Valuation τ sig (Elt F)) : Valuation τ sig (Elt F) := after filt53 (lev53 V0)
/-- The contents after filter 54's operations. -/
def lev55 (V0 : Valuation τ sig (Elt F)) : Valuation τ sig (Elt F) := after filt54 (lev54 V0)
/-- The contents after filter 55's operations. -/
def lev56 (V0 : Valuation τ sig (Elt F)) : Valuation τ sig (Elt F) := after filt55 (lev55 V0)
/-- The contents after filter 56's operations. -/
def lev57 (V0 : Valuation τ sig (Elt F)) : Valuation τ sig (Elt F) := after filt56 (lev56 V0)
/-- The contents after filter 57's operations. -/
def lev58 (V0 : Valuation τ sig (Elt F)) : Valuation τ sig (Elt F) := after filt57 (lev57 V0)
/-- The contents after filter 58's operations. -/
def lev59 (V0 : Valuation τ sig (Elt F)) : Valuation τ sig (Elt F) := after filt58 (lev58 V0)
/-- The contents after filter 59's operations. -/
def lev60 (V0 : Valuation τ sig (Elt F)) : Valuation τ sig (Elt F) := after filt59 (lev59 V0)
/-- The contents after filter 60's operations. -/
def lev61 (V0 : Valuation τ sig (Elt F)) : Valuation τ sig (Elt F) := after filt60 (lev60 V0)
/-- The contents after filter 61's operations. -/
def lev62 (V0 : Valuation τ sig (Elt F)) : Valuation τ sig (Elt F) := after filt61 (lev61 V0)
/-- The contents after filter 62's operations. -/
def lev63 (V0 : Valuation τ sig (Elt F)) : Valuation τ sig (Elt F) := after filt62 (lev62 V0)
/-- The contents after filter 63's operations. -/
def lev64 (V0 : Valuation τ sig (Elt F)) : Valuation τ sig (Elt F) := after filt63 (lev63 V0)

/-- The fold over the cut list is the last level followed by the closing operations. -/
theorem after_chunked (V0 : Valuation τ sig (Elt F)) : after chunked V0 = after suf (lev64 V0) := by
  simp only [chunked, after_append, lev0, lev1, lev2, lev3, lev4, lev5, lev6, lev7, lev8, lev9, lev10, lev11, lev12, lev13, lev14, lev15, lev16, lev17, lev18, lev19, lev20, lev21, lev22, lev23, lev24, lev25, lev26, lev27, lev28, lev29, lev30, lev31, lev32, lev33, lev34, lev35, lev36, lev37, lev38, lev39, lev40, lev41, lev42, lev43, lev44, lev45, lev46, lev47, lev48, lev49, lev50, lev51, lev52, lev53, lev54, lev55, lev56, lev57, lev58, lev59, lev60, lev61, lev62, lev63, lev64]

theorem Eto0_0 (V0 : Valuation τ sig (Elt F)) : lev0 V0 (Proc.devRef .tc main_v7) = lev0 V0 (Proc.devRef .tc main_v7) := rfl
theorem Eto0_1 (V0 : Valuation τ sig (Elt F)) : lev1 V0 (Proc.devRef .tc main_v7) = lev0 V0 (Proc.devRef .tc main_v7) := (filt0_keep (lev0 V0) (r := main_v7) (by decide)).trans (Eto0_0 V0)
theorem Eto0_2 (V0 : Valuation τ sig (Elt F)) : lev2 V0 (Proc.devRef .tc main_v7) = lev0 V0 (Proc.devRef .tc main_v7) := (filt1_keep (lev1 V0) (r := main_v7) (by decide)).trans (Eto0_1 V0)
theorem Eto0_3 (V0 : Valuation τ sig (Elt F)) : lev3 V0 (Proc.devRef .tc main_v7) = lev0 V0 (Proc.devRef .tc main_v7) := (filt2_keep (lev2 V0) (r := main_v7) (by decide)).trans (Eto0_2 V0)
theorem Eto0_4 (V0 : Valuation τ sig (Elt F)) : lev4 V0 (Proc.devRef .tc main_v7) = lev0 V0 (Proc.devRef .tc main_v7) := (filt3_keep (lev3 V0) (r := main_v7) (by decide)).trans (Eto0_3 V0)
theorem Eto0_5 (V0 : Valuation τ sig (Elt F)) : lev5 V0 (Proc.devRef .tc main_v7) = lev0 V0 (Proc.devRef .tc main_v7) := (filt4_keep (lev4 V0) (r := main_v7) (by decide)).trans (Eto0_4 V0)
theorem Eto0_6 (V0 : Valuation τ sig (Elt F)) : lev6 V0 (Proc.devRef .tc main_v7) = lev0 V0 (Proc.devRef .tc main_v7) := (filt5_keep (lev5 V0) (r := main_v7) (by decide)).trans (Eto0_5 V0)
theorem Eto0_7 (V0 : Valuation τ sig (Elt F)) : lev7 V0 (Proc.devRef .tc main_v7) = lev0 V0 (Proc.devRef .tc main_v7) := (filt6_keep (lev6 V0) (r := main_v7) (by decide)).trans (Eto0_6 V0)
theorem Eto0_8 (V0 : Valuation τ sig (Elt F)) : lev8 V0 (Proc.devRef .tc main_v7) = lev0 V0 (Proc.devRef .tc main_v7) := (filt7_keep (lev7 V0) (r := main_v7) (by decide)).trans (Eto0_7 V0)
theorem Eto0_9 (V0 : Valuation τ sig (Elt F)) : lev9 V0 (Proc.devRef .tc main_v7) = lev0 V0 (Proc.devRef .tc main_v7) := (filt8_keep (lev8 V0) (r := main_v7) (by decide)).trans (Eto0_8 V0)
theorem Eto0_10 (V0 : Valuation τ sig (Elt F)) : lev10 V0 (Proc.devRef .tc main_v7) = lev0 V0 (Proc.devRef .tc main_v7) := (filt9_keep (lev9 V0) (r := main_v7) (by decide)).trans (Eto0_9 V0)
theorem Eto0_11 (V0 : Valuation τ sig (Elt F)) : lev11 V0 (Proc.devRef .tc main_v7) = lev0 V0 (Proc.devRef .tc main_v7) := (filt10_keep (lev10 V0) (r := main_v7) (by decide)).trans (Eto0_10 V0)
theorem Eto0_12 (V0 : Valuation τ sig (Elt F)) : lev12 V0 (Proc.devRef .tc main_v7) = lev0 V0 (Proc.devRef .tc main_v7) := (filt11_keep (lev11 V0) (r := main_v7) (by decide)).trans (Eto0_11 V0)
theorem Eto0_13 (V0 : Valuation τ sig (Elt F)) : lev13 V0 (Proc.devRef .tc main_v7) = lev0 V0 (Proc.devRef .tc main_v7) := (filt12_keep (lev12 V0) (r := main_v7) (by decide)).trans (Eto0_12 V0)
theorem Eto0_14 (V0 : Valuation τ sig (Elt F)) : lev14 V0 (Proc.devRef .tc main_v7) = lev0 V0 (Proc.devRef .tc main_v7) := (filt13_keep (lev13 V0) (r := main_v7) (by decide)).trans (Eto0_13 V0)
theorem Eto0_15 (V0 : Valuation τ sig (Elt F)) : lev15 V0 (Proc.devRef .tc main_v7) = lev0 V0 (Proc.devRef .tc main_v7) := (filt14_keep (lev14 V0) (r := main_v7) (by decide)).trans (Eto0_14 V0)
theorem Eto0_16 (V0 : Valuation τ sig (Elt F)) : lev16 V0 (Proc.devRef .tc main_v7) = lev0 V0 (Proc.devRef .tc main_v7) := (filt15_keep (lev15 V0) (r := main_v7) (by decide)).trans (Eto0_15 V0)
theorem Eto0_17 (V0 : Valuation τ sig (Elt F)) : lev17 V0 (Proc.devRef .tc main_v7) = lev0 V0 (Proc.devRef .tc main_v7) := (filt16_keep (lev16 V0) (r := main_v7) (by decide)).trans (Eto0_16 V0)
theorem Eto0_18 (V0 : Valuation τ sig (Elt F)) : lev18 V0 (Proc.devRef .tc main_v7) = lev0 V0 (Proc.devRef .tc main_v7) := (filt17_keep (lev17 V0) (r := main_v7) (by decide)).trans (Eto0_17 V0)
theorem Eto0_19 (V0 : Valuation τ sig (Elt F)) : lev19 V0 (Proc.devRef .tc main_v7) = lev0 V0 (Proc.devRef .tc main_v7) := (filt18_keep (lev18 V0) (r := main_v7) (by decide)).trans (Eto0_18 V0)
theorem Eto0_20 (V0 : Valuation τ sig (Elt F)) : lev20 V0 (Proc.devRef .tc main_v7) = lev0 V0 (Proc.devRef .tc main_v7) := (filt19_keep (lev19 V0) (r := main_v7) (by decide)).trans (Eto0_19 V0)
theorem Eto0_21 (V0 : Valuation τ sig (Elt F)) : lev21 V0 (Proc.devRef .tc main_v7) = lev0 V0 (Proc.devRef .tc main_v7) := (filt20_keep (lev20 V0) (r := main_v7) (by decide)).trans (Eto0_20 V0)
theorem Eto0_22 (V0 : Valuation τ sig (Elt F)) : lev22 V0 (Proc.devRef .tc main_v7) = lev0 V0 (Proc.devRef .tc main_v7) := (filt21_keep (lev21 V0) (r := main_v7) (by decide)).trans (Eto0_21 V0)
theorem Eto0_23 (V0 : Valuation τ sig (Elt F)) : lev23 V0 (Proc.devRef .tc main_v7) = lev0 V0 (Proc.devRef .tc main_v7) := (filt22_keep (lev22 V0) (r := main_v7) (by decide)).trans (Eto0_22 V0)
theorem Eto0_24 (V0 : Valuation τ sig (Elt F)) : lev24 V0 (Proc.devRef .tc main_v7) = lev0 V0 (Proc.devRef .tc main_v7) := (filt23_keep (lev23 V0) (r := main_v7) (by decide)).trans (Eto0_23 V0)
theorem Eto0_25 (V0 : Valuation τ sig (Elt F)) : lev25 V0 (Proc.devRef .tc main_v7) = lev0 V0 (Proc.devRef .tc main_v7) := (filt24_keep (lev24 V0) (r := main_v7) (by decide)).trans (Eto0_24 V0)
theorem Eto0_26 (V0 : Valuation τ sig (Elt F)) : lev26 V0 (Proc.devRef .tc main_v7) = lev0 V0 (Proc.devRef .tc main_v7) := (filt25_keep (lev25 V0) (r := main_v7) (by decide)).trans (Eto0_25 V0)
theorem Eto0_27 (V0 : Valuation τ sig (Elt F)) : lev27 V0 (Proc.devRef .tc main_v7) = lev0 V0 (Proc.devRef .tc main_v7) := (filt26_keep (lev26 V0) (r := main_v7) (by decide)).trans (Eto0_26 V0)
theorem Eto0_28 (V0 : Valuation τ sig (Elt F)) : lev28 V0 (Proc.devRef .tc main_v7) = lev0 V0 (Proc.devRef .tc main_v7) := (filt27_keep (lev27 V0) (r := main_v7) (by decide)).trans (Eto0_27 V0)
theorem Eto0_29 (V0 : Valuation τ sig (Elt F)) : lev29 V0 (Proc.devRef .tc main_v7) = lev0 V0 (Proc.devRef .tc main_v7) := (filt28_keep (lev28 V0) (r := main_v7) (by decide)).trans (Eto0_28 V0)
theorem Eto0_30 (V0 : Valuation τ sig (Elt F)) : lev30 V0 (Proc.devRef .tc main_v7) = lev0 V0 (Proc.devRef .tc main_v7) := (filt29_keep (lev29 V0) (r := main_v7) (by decide)).trans (Eto0_29 V0)
theorem Eto0_31 (V0 : Valuation τ sig (Elt F)) : lev31 V0 (Proc.devRef .tc main_v7) = lev0 V0 (Proc.devRef .tc main_v7) := (filt30_keep (lev30 V0) (r := main_v7) (by decide)).trans (Eto0_30 V0)
theorem Eto0_32 (V0 : Valuation τ sig (Elt F)) : lev32 V0 (Proc.devRef .tc main_v7) = lev0 V0 (Proc.devRef .tc main_v7) := (filt31_keep (lev31 V0) (r := main_v7) (by decide)).trans (Eto0_31 V0)
theorem Eto0_33 (V0 : Valuation τ sig (Elt F)) : lev33 V0 (Proc.devRef .tc main_v7) = lev0 V0 (Proc.devRef .tc main_v7) := (filt32_keep (lev32 V0) (r := main_v7) (by decide)).trans (Eto0_32 V0)
theorem Eto0_34 (V0 : Valuation τ sig (Elt F)) : lev34 V0 (Proc.devRef .tc main_v7) = lev0 V0 (Proc.devRef .tc main_v7) := (filt33_keep (lev33 V0) (r := main_v7) (by decide)).trans (Eto0_33 V0)
theorem Eto0_35 (V0 : Valuation τ sig (Elt F)) : lev35 V0 (Proc.devRef .tc main_v7) = lev0 V0 (Proc.devRef .tc main_v7) := (filt34_keep (lev34 V0) (r := main_v7) (by decide)).trans (Eto0_34 V0)
theorem Eto0_36 (V0 : Valuation τ sig (Elt F)) : lev36 V0 (Proc.devRef .tc main_v7) = lev0 V0 (Proc.devRef .tc main_v7) := (filt35_keep (lev35 V0) (r := main_v7) (by decide)).trans (Eto0_35 V0)
theorem Eto0_37 (V0 : Valuation τ sig (Elt F)) : lev37 V0 (Proc.devRef .tc main_v7) = lev0 V0 (Proc.devRef .tc main_v7) := (filt36_keep (lev36 V0) (r := main_v7) (by decide)).trans (Eto0_36 V0)
theorem Eto0_38 (V0 : Valuation τ sig (Elt F)) : lev38 V0 (Proc.devRef .tc main_v7) = lev0 V0 (Proc.devRef .tc main_v7) := (filt37_keep (lev37 V0) (r := main_v7) (by decide)).trans (Eto0_37 V0)
theorem Eto0_39 (V0 : Valuation τ sig (Elt F)) : lev39 V0 (Proc.devRef .tc main_v7) = lev0 V0 (Proc.devRef .tc main_v7) := (filt38_keep (lev38 V0) (r := main_v7) (by decide)).trans (Eto0_38 V0)
theorem Eto0_40 (V0 : Valuation τ sig (Elt F)) : lev40 V0 (Proc.devRef .tc main_v7) = lev0 V0 (Proc.devRef .tc main_v7) := (filt39_keep (lev39 V0) (r := main_v7) (by decide)).trans (Eto0_39 V0)
theorem Eto0_41 (V0 : Valuation τ sig (Elt F)) : lev41 V0 (Proc.devRef .tc main_v7) = lev0 V0 (Proc.devRef .tc main_v7) := (filt40_keep (lev40 V0) (r := main_v7) (by decide)).trans (Eto0_40 V0)
theorem Eto0_42 (V0 : Valuation τ sig (Elt F)) : lev42 V0 (Proc.devRef .tc main_v7) = lev0 V0 (Proc.devRef .tc main_v7) := (filt41_keep (lev41 V0) (r := main_v7) (by decide)).trans (Eto0_41 V0)
theorem Eto0_43 (V0 : Valuation τ sig (Elt F)) : lev43 V0 (Proc.devRef .tc main_v7) = lev0 V0 (Proc.devRef .tc main_v7) := (filt42_keep (lev42 V0) (r := main_v7) (by decide)).trans (Eto0_42 V0)
theorem Eto0_44 (V0 : Valuation τ sig (Elt F)) : lev44 V0 (Proc.devRef .tc main_v7) = lev0 V0 (Proc.devRef .tc main_v7) := (filt43_keep (lev43 V0) (r := main_v7) (by decide)).trans (Eto0_43 V0)
theorem Eto0_45 (V0 : Valuation τ sig (Elt F)) : lev45 V0 (Proc.devRef .tc main_v7) = lev0 V0 (Proc.devRef .tc main_v7) := (filt44_keep (lev44 V0) (r := main_v7) (by decide)).trans (Eto0_44 V0)
theorem Eto0_46 (V0 : Valuation τ sig (Elt F)) : lev46 V0 (Proc.devRef .tc main_v7) = lev0 V0 (Proc.devRef .tc main_v7) := (filt45_keep (lev45 V0) (r := main_v7) (by decide)).trans (Eto0_45 V0)
theorem Eto0_47 (V0 : Valuation τ sig (Elt F)) : lev47 V0 (Proc.devRef .tc main_v7) = lev0 V0 (Proc.devRef .tc main_v7) := (filt46_keep (lev46 V0) (r := main_v7) (by decide)).trans (Eto0_46 V0)
theorem Eto0_48 (V0 : Valuation τ sig (Elt F)) : lev48 V0 (Proc.devRef .tc main_v7) = lev0 V0 (Proc.devRef .tc main_v7) := (filt47_keep (lev47 V0) (r := main_v7) (by decide)).trans (Eto0_47 V0)
theorem Eto0_49 (V0 : Valuation τ sig (Elt F)) : lev49 V0 (Proc.devRef .tc main_v7) = lev0 V0 (Proc.devRef .tc main_v7) := (filt48_keep (lev48 V0) (r := main_v7) (by decide)).trans (Eto0_48 V0)
theorem Eto0_50 (V0 : Valuation τ sig (Elt F)) : lev50 V0 (Proc.devRef .tc main_v7) = lev0 V0 (Proc.devRef .tc main_v7) := (filt49_keep (lev49 V0) (r := main_v7) (by decide)).trans (Eto0_49 V0)
theorem Eto0_51 (V0 : Valuation τ sig (Elt F)) : lev51 V0 (Proc.devRef .tc main_v7) = lev0 V0 (Proc.devRef .tc main_v7) := (filt50_keep (lev50 V0) (r := main_v7) (by decide)).trans (Eto0_50 V0)
theorem Eto0_52 (V0 : Valuation τ sig (Elt F)) : lev52 V0 (Proc.devRef .tc main_v7) = lev0 V0 (Proc.devRef .tc main_v7) := (filt51_keep (lev51 V0) (r := main_v7) (by decide)).trans (Eto0_51 V0)
theorem Eto0_53 (V0 : Valuation τ sig (Elt F)) : lev53 V0 (Proc.devRef .tc main_v7) = lev0 V0 (Proc.devRef .tc main_v7) := (filt52_keep (lev52 V0) (r := main_v7) (by decide)).trans (Eto0_52 V0)
theorem Eto0_54 (V0 : Valuation τ sig (Elt F)) : lev54 V0 (Proc.devRef .tc main_v7) = lev0 V0 (Proc.devRef .tc main_v7) := (filt53_keep (lev53 V0) (r := main_v7) (by decide)).trans (Eto0_53 V0)
theorem Eto0_55 (V0 : Valuation τ sig (Elt F)) : lev55 V0 (Proc.devRef .tc main_v7) = lev0 V0 (Proc.devRef .tc main_v7) := (filt54_keep (lev54 V0) (r := main_v7) (by decide)).trans (Eto0_54 V0)
theorem Eto0_56 (V0 : Valuation τ sig (Elt F)) : lev56 V0 (Proc.devRef .tc main_v7) = lev0 V0 (Proc.devRef .tc main_v7) := (filt55_keep (lev55 V0) (r := main_v7) (by decide)).trans (Eto0_55 V0)
theorem Eto0_57 (V0 : Valuation τ sig (Elt F)) : lev57 V0 (Proc.devRef .tc main_v7) = lev0 V0 (Proc.devRef .tc main_v7) := (filt56_keep (lev56 V0) (r := main_v7) (by decide)).trans (Eto0_56 V0)
theorem Eto0_58 (V0 : Valuation τ sig (Elt F)) : lev58 V0 (Proc.devRef .tc main_v7) = lev0 V0 (Proc.devRef .tc main_v7) := (filt57_keep (lev57 V0) (r := main_v7) (by decide)).trans (Eto0_57 V0)
theorem Eto0_59 (V0 : Valuation τ sig (Elt F)) : lev59 V0 (Proc.devRef .tc main_v7) = lev0 V0 (Proc.devRef .tc main_v7) := (filt58_keep (lev58 V0) (r := main_v7) (by decide)).trans (Eto0_58 V0)
theorem Eto0_60 (V0 : Valuation τ sig (Elt F)) : lev60 V0 (Proc.devRef .tc main_v7) = lev0 V0 (Proc.devRef .tc main_v7) := (filt59_keep (lev59 V0) (r := main_v7) (by decide)).trans (Eto0_59 V0)
theorem Eto0_61 (V0 : Valuation τ sig (Elt F)) : lev61 V0 (Proc.devRef .tc main_v7) = lev0 V0 (Proc.devRef .tc main_v7) := (filt60_keep (lev60 V0) (r := main_v7) (by decide)).trans (Eto0_60 V0)
theorem Eto0_62 (V0 : Valuation τ sig (Elt F)) : lev62 V0 (Proc.devRef .tc main_v7) = lev0 V0 (Proc.devRef .tc main_v7) := (filt61_keep (lev61 V0) (r := main_v7) (by decide)).trans (Eto0_61 V0)
theorem Eto0_63 (V0 : Valuation τ sig (Elt F)) : lev63 V0 (Proc.devRef .tc main_v7) = lev0 V0 (Proc.devRef .tc main_v7) := (filt62_keep (lev62 V0) (r := main_v7) (by decide)).trans (Eto0_62 V0)
theorem Eto0_64 (V0 : Valuation τ sig (Elt F)) : lev64 V0 (Proc.devRef .tc main_v7) = lev0 V0 (Proc.devRef .tc main_v7) := (filt63_keep (lev63 V0) (r := main_v7) (by decide)).trans (Eto0_63 V0)
theorem Wto0_0 (V0 : Valuation τ sig (Elt F)) : lev0 V0 (Proc.devRef .tc main_arg2) = lev0 V0 (Proc.devRef .tc main_arg2) := rfl
theorem Wto0_1 (V0 : Valuation τ sig (Elt F)) : lev1 V0 (Proc.devRef .tc main_arg2) = lev0 V0 (Proc.devRef .tc main_arg2) := (filt0_keep (lev0 V0) (r := main_arg2) (by decide)).trans (Wto0_0 V0)
theorem Wto0_2 (V0 : Valuation τ sig (Elt F)) : lev2 V0 (Proc.devRef .tc main_arg2) = lev0 V0 (Proc.devRef .tc main_arg2) := (filt1_keep (lev1 V0) (r := main_arg2) (by decide)).trans (Wto0_1 V0)
theorem Wto0_3 (V0 : Valuation τ sig (Elt F)) : lev3 V0 (Proc.devRef .tc main_arg2) = lev0 V0 (Proc.devRef .tc main_arg2) := (filt2_keep (lev2 V0) (r := main_arg2) (by decide)).trans (Wto0_2 V0)
theorem Wto0_4 (V0 : Valuation τ sig (Elt F)) : lev4 V0 (Proc.devRef .tc main_arg2) = lev0 V0 (Proc.devRef .tc main_arg2) := (filt3_keep (lev3 V0) (r := main_arg2) (by decide)).trans (Wto0_3 V0)
theorem Wto0_5 (V0 : Valuation τ sig (Elt F)) : lev5 V0 (Proc.devRef .tc main_arg2) = lev0 V0 (Proc.devRef .tc main_arg2) := (filt4_keep (lev4 V0) (r := main_arg2) (by decide)).trans (Wto0_4 V0)
theorem Wto0_6 (V0 : Valuation τ sig (Elt F)) : lev6 V0 (Proc.devRef .tc main_arg2) = lev0 V0 (Proc.devRef .tc main_arg2) := (filt5_keep (lev5 V0) (r := main_arg2) (by decide)).trans (Wto0_5 V0)
theorem Wto0_7 (V0 : Valuation τ sig (Elt F)) : lev7 V0 (Proc.devRef .tc main_arg2) = lev0 V0 (Proc.devRef .tc main_arg2) := (filt6_keep (lev6 V0) (r := main_arg2) (by decide)).trans (Wto0_6 V0)
theorem Wto0_8 (V0 : Valuation τ sig (Elt F)) : lev8 V0 (Proc.devRef .tc main_arg2) = lev0 V0 (Proc.devRef .tc main_arg2) := (filt7_keep (lev7 V0) (r := main_arg2) (by decide)).trans (Wto0_7 V0)
theorem Wto0_9 (V0 : Valuation τ sig (Elt F)) : lev9 V0 (Proc.devRef .tc main_arg2) = lev0 V0 (Proc.devRef .tc main_arg2) := (filt8_keep (lev8 V0) (r := main_arg2) (by decide)).trans (Wto0_8 V0)
theorem Wto0_10 (V0 : Valuation τ sig (Elt F)) : lev10 V0 (Proc.devRef .tc main_arg2) = lev0 V0 (Proc.devRef .tc main_arg2) := (filt9_keep (lev9 V0) (r := main_arg2) (by decide)).trans (Wto0_9 V0)
theorem Wto0_11 (V0 : Valuation τ sig (Elt F)) : lev11 V0 (Proc.devRef .tc main_arg2) = lev0 V0 (Proc.devRef .tc main_arg2) := (filt10_keep (lev10 V0) (r := main_arg2) (by decide)).trans (Wto0_10 V0)
theorem Wto0_12 (V0 : Valuation τ sig (Elt F)) : lev12 V0 (Proc.devRef .tc main_arg2) = lev0 V0 (Proc.devRef .tc main_arg2) := (filt11_keep (lev11 V0) (r := main_arg2) (by decide)).trans (Wto0_11 V0)
theorem Wto0_13 (V0 : Valuation τ sig (Elt F)) : lev13 V0 (Proc.devRef .tc main_arg2) = lev0 V0 (Proc.devRef .tc main_arg2) := (filt12_keep (lev12 V0) (r := main_arg2) (by decide)).trans (Wto0_12 V0)
theorem Wto0_14 (V0 : Valuation τ sig (Elt F)) : lev14 V0 (Proc.devRef .tc main_arg2) = lev0 V0 (Proc.devRef .tc main_arg2) := (filt13_keep (lev13 V0) (r := main_arg2) (by decide)).trans (Wto0_13 V0)
theorem Wto0_15 (V0 : Valuation τ sig (Elt F)) : lev15 V0 (Proc.devRef .tc main_arg2) = lev0 V0 (Proc.devRef .tc main_arg2) := (filt14_keep (lev14 V0) (r := main_arg2) (by decide)).trans (Wto0_14 V0)
theorem Wto0_16 (V0 : Valuation τ sig (Elt F)) : lev16 V0 (Proc.devRef .tc main_arg2) = lev0 V0 (Proc.devRef .tc main_arg2) := (filt15_keep (lev15 V0) (r := main_arg2) (by decide)).trans (Wto0_15 V0)
theorem Wto0_17 (V0 : Valuation τ sig (Elt F)) : lev17 V0 (Proc.devRef .tc main_arg2) = lev0 V0 (Proc.devRef .tc main_arg2) := (filt16_keep (lev16 V0) (r := main_arg2) (by decide)).trans (Wto0_16 V0)
theorem Wto0_18 (V0 : Valuation τ sig (Elt F)) : lev18 V0 (Proc.devRef .tc main_arg2) = lev0 V0 (Proc.devRef .tc main_arg2) := (filt17_keep (lev17 V0) (r := main_arg2) (by decide)).trans (Wto0_17 V0)
theorem Wto0_19 (V0 : Valuation τ sig (Elt F)) : lev19 V0 (Proc.devRef .tc main_arg2) = lev0 V0 (Proc.devRef .tc main_arg2) := (filt18_keep (lev18 V0) (r := main_arg2) (by decide)).trans (Wto0_18 V0)
theorem Wto0_20 (V0 : Valuation τ sig (Elt F)) : lev20 V0 (Proc.devRef .tc main_arg2) = lev0 V0 (Proc.devRef .tc main_arg2) := (filt19_keep (lev19 V0) (r := main_arg2) (by decide)).trans (Wto0_19 V0)
theorem Wto0_21 (V0 : Valuation τ sig (Elt F)) : lev21 V0 (Proc.devRef .tc main_arg2) = lev0 V0 (Proc.devRef .tc main_arg2) := (filt20_keep (lev20 V0) (r := main_arg2) (by decide)).trans (Wto0_20 V0)
theorem Wto0_22 (V0 : Valuation τ sig (Elt F)) : lev22 V0 (Proc.devRef .tc main_arg2) = lev0 V0 (Proc.devRef .tc main_arg2) := (filt21_keep (lev21 V0) (r := main_arg2) (by decide)).trans (Wto0_21 V0)
theorem Wto0_23 (V0 : Valuation τ sig (Elt F)) : lev23 V0 (Proc.devRef .tc main_arg2) = lev0 V0 (Proc.devRef .tc main_arg2) := (filt22_keep (lev22 V0) (r := main_arg2) (by decide)).trans (Wto0_22 V0)
theorem Wto0_24 (V0 : Valuation τ sig (Elt F)) : lev24 V0 (Proc.devRef .tc main_arg2) = lev0 V0 (Proc.devRef .tc main_arg2) := (filt23_keep (lev23 V0) (r := main_arg2) (by decide)).trans (Wto0_23 V0)
theorem Wto0_25 (V0 : Valuation τ sig (Elt F)) : lev25 V0 (Proc.devRef .tc main_arg2) = lev0 V0 (Proc.devRef .tc main_arg2) := (filt24_keep (lev24 V0) (r := main_arg2) (by decide)).trans (Wto0_24 V0)
theorem Wto0_26 (V0 : Valuation τ sig (Elt F)) : lev26 V0 (Proc.devRef .tc main_arg2) = lev0 V0 (Proc.devRef .tc main_arg2) := (filt25_keep (lev25 V0) (r := main_arg2) (by decide)).trans (Wto0_25 V0)
theorem Wto0_27 (V0 : Valuation τ sig (Elt F)) : lev27 V0 (Proc.devRef .tc main_arg2) = lev0 V0 (Proc.devRef .tc main_arg2) := (filt26_keep (lev26 V0) (r := main_arg2) (by decide)).trans (Wto0_26 V0)
theorem Wto0_28 (V0 : Valuation τ sig (Elt F)) : lev28 V0 (Proc.devRef .tc main_arg2) = lev0 V0 (Proc.devRef .tc main_arg2) := (filt27_keep (lev27 V0) (r := main_arg2) (by decide)).trans (Wto0_27 V0)
theorem Wto0_29 (V0 : Valuation τ sig (Elt F)) : lev29 V0 (Proc.devRef .tc main_arg2) = lev0 V0 (Proc.devRef .tc main_arg2) := (filt28_keep (lev28 V0) (r := main_arg2) (by decide)).trans (Wto0_28 V0)
theorem Wto0_30 (V0 : Valuation τ sig (Elt F)) : lev30 V0 (Proc.devRef .tc main_arg2) = lev0 V0 (Proc.devRef .tc main_arg2) := (filt29_keep (lev29 V0) (r := main_arg2) (by decide)).trans (Wto0_29 V0)
theorem Wto0_31 (V0 : Valuation τ sig (Elt F)) : lev31 V0 (Proc.devRef .tc main_arg2) = lev0 V0 (Proc.devRef .tc main_arg2) := (filt30_keep (lev30 V0) (r := main_arg2) (by decide)).trans (Wto0_30 V0)
theorem Wto0_32 (V0 : Valuation τ sig (Elt F)) : lev32 V0 (Proc.devRef .tc main_arg2) = lev0 V0 (Proc.devRef .tc main_arg2) := (filt31_keep (lev31 V0) (r := main_arg2) (by decide)).trans (Wto0_31 V0)
theorem Wto0_33 (V0 : Valuation τ sig (Elt F)) : lev33 V0 (Proc.devRef .tc main_arg2) = lev0 V0 (Proc.devRef .tc main_arg2) := (filt32_keep (lev32 V0) (r := main_arg2) (by decide)).trans (Wto0_32 V0)
theorem Wto0_34 (V0 : Valuation τ sig (Elt F)) : lev34 V0 (Proc.devRef .tc main_arg2) = lev0 V0 (Proc.devRef .tc main_arg2) := (filt33_keep (lev33 V0) (r := main_arg2) (by decide)).trans (Wto0_33 V0)
theorem Wto0_35 (V0 : Valuation τ sig (Elt F)) : lev35 V0 (Proc.devRef .tc main_arg2) = lev0 V0 (Proc.devRef .tc main_arg2) := (filt34_keep (lev34 V0) (r := main_arg2) (by decide)).trans (Wto0_34 V0)
theorem Wto0_36 (V0 : Valuation τ sig (Elt F)) : lev36 V0 (Proc.devRef .tc main_arg2) = lev0 V0 (Proc.devRef .tc main_arg2) := (filt35_keep (lev35 V0) (r := main_arg2) (by decide)).trans (Wto0_35 V0)
theorem Wto0_37 (V0 : Valuation τ sig (Elt F)) : lev37 V0 (Proc.devRef .tc main_arg2) = lev0 V0 (Proc.devRef .tc main_arg2) := (filt36_keep (lev36 V0) (r := main_arg2) (by decide)).trans (Wto0_36 V0)
theorem Wto0_38 (V0 : Valuation τ sig (Elt F)) : lev38 V0 (Proc.devRef .tc main_arg2) = lev0 V0 (Proc.devRef .tc main_arg2) := (filt37_keep (lev37 V0) (r := main_arg2) (by decide)).trans (Wto0_37 V0)
theorem Wto0_39 (V0 : Valuation τ sig (Elt F)) : lev39 V0 (Proc.devRef .tc main_arg2) = lev0 V0 (Proc.devRef .tc main_arg2) := (filt38_keep (lev38 V0) (r := main_arg2) (by decide)).trans (Wto0_38 V0)
theorem Wto0_40 (V0 : Valuation τ sig (Elt F)) : lev40 V0 (Proc.devRef .tc main_arg2) = lev0 V0 (Proc.devRef .tc main_arg2) := (filt39_keep (lev39 V0) (r := main_arg2) (by decide)).trans (Wto0_39 V0)
theorem Wto0_41 (V0 : Valuation τ sig (Elt F)) : lev41 V0 (Proc.devRef .tc main_arg2) = lev0 V0 (Proc.devRef .tc main_arg2) := (filt40_keep (lev40 V0) (r := main_arg2) (by decide)).trans (Wto0_40 V0)
theorem Wto0_42 (V0 : Valuation τ sig (Elt F)) : lev42 V0 (Proc.devRef .tc main_arg2) = lev0 V0 (Proc.devRef .tc main_arg2) := (filt41_keep (lev41 V0) (r := main_arg2) (by decide)).trans (Wto0_41 V0)
theorem Wto0_43 (V0 : Valuation τ sig (Elt F)) : lev43 V0 (Proc.devRef .tc main_arg2) = lev0 V0 (Proc.devRef .tc main_arg2) := (filt42_keep (lev42 V0) (r := main_arg2) (by decide)).trans (Wto0_42 V0)
theorem Wto0_44 (V0 : Valuation τ sig (Elt F)) : lev44 V0 (Proc.devRef .tc main_arg2) = lev0 V0 (Proc.devRef .tc main_arg2) := (filt43_keep (lev43 V0) (r := main_arg2) (by decide)).trans (Wto0_43 V0)
theorem Wto0_45 (V0 : Valuation τ sig (Elt F)) : lev45 V0 (Proc.devRef .tc main_arg2) = lev0 V0 (Proc.devRef .tc main_arg2) := (filt44_keep (lev44 V0) (r := main_arg2) (by decide)).trans (Wto0_44 V0)
theorem Wto0_46 (V0 : Valuation τ sig (Elt F)) : lev46 V0 (Proc.devRef .tc main_arg2) = lev0 V0 (Proc.devRef .tc main_arg2) := (filt45_keep (lev45 V0) (r := main_arg2) (by decide)).trans (Wto0_45 V0)
theorem Wto0_47 (V0 : Valuation τ sig (Elt F)) : lev47 V0 (Proc.devRef .tc main_arg2) = lev0 V0 (Proc.devRef .tc main_arg2) := (filt46_keep (lev46 V0) (r := main_arg2) (by decide)).trans (Wto0_46 V0)
theorem Wto0_48 (V0 : Valuation τ sig (Elt F)) : lev48 V0 (Proc.devRef .tc main_arg2) = lev0 V0 (Proc.devRef .tc main_arg2) := (filt47_keep (lev47 V0) (r := main_arg2) (by decide)).trans (Wto0_47 V0)
theorem Wto0_49 (V0 : Valuation τ sig (Elt F)) : lev49 V0 (Proc.devRef .tc main_arg2) = lev0 V0 (Proc.devRef .tc main_arg2) := (filt48_keep (lev48 V0) (r := main_arg2) (by decide)).trans (Wto0_48 V0)
theorem Wto0_50 (V0 : Valuation τ sig (Elt F)) : lev50 V0 (Proc.devRef .tc main_arg2) = lev0 V0 (Proc.devRef .tc main_arg2) := (filt49_keep (lev49 V0) (r := main_arg2) (by decide)).trans (Wto0_49 V0)
theorem Wto0_51 (V0 : Valuation τ sig (Elt F)) : lev51 V0 (Proc.devRef .tc main_arg2) = lev0 V0 (Proc.devRef .tc main_arg2) := (filt50_keep (lev50 V0) (r := main_arg2) (by decide)).trans (Wto0_50 V0)
theorem Wto0_52 (V0 : Valuation τ sig (Elt F)) : lev52 V0 (Proc.devRef .tc main_arg2) = lev0 V0 (Proc.devRef .tc main_arg2) := (filt51_keep (lev51 V0) (r := main_arg2) (by decide)).trans (Wto0_51 V0)
theorem Wto0_53 (V0 : Valuation τ sig (Elt F)) : lev53 V0 (Proc.devRef .tc main_arg2) = lev0 V0 (Proc.devRef .tc main_arg2) := (filt52_keep (lev52 V0) (r := main_arg2) (by decide)).trans (Wto0_52 V0)
theorem Wto0_54 (V0 : Valuation τ sig (Elt F)) : lev54 V0 (Proc.devRef .tc main_arg2) = lev0 V0 (Proc.devRef .tc main_arg2) := (filt53_keep (lev53 V0) (r := main_arg2) (by decide)).trans (Wto0_53 V0)
theorem Wto0_55 (V0 : Valuation τ sig (Elt F)) : lev55 V0 (Proc.devRef .tc main_arg2) = lev0 V0 (Proc.devRef .tc main_arg2) := (filt54_keep (lev54 V0) (r := main_arg2) (by decide)).trans (Wto0_54 V0)
theorem Wto0_56 (V0 : Valuation τ sig (Elt F)) : lev56 V0 (Proc.devRef .tc main_arg2) = lev0 V0 (Proc.devRef .tc main_arg2) := (filt55_keep (lev55 V0) (r := main_arg2) (by decide)).trans (Wto0_55 V0)
theorem Wto0_57 (V0 : Valuation τ sig (Elt F)) : lev57 V0 (Proc.devRef .tc main_arg2) = lev0 V0 (Proc.devRef .tc main_arg2) := (filt56_keep (lev56 V0) (r := main_arg2) (by decide)).trans (Wto0_56 V0)
theorem Wto0_58 (V0 : Valuation τ sig (Elt F)) : lev58 V0 (Proc.devRef .tc main_arg2) = lev0 V0 (Proc.devRef .tc main_arg2) := (filt57_keep (lev57 V0) (r := main_arg2) (by decide)).trans (Wto0_57 V0)
theorem Wto0_59 (V0 : Valuation τ sig (Elt F)) : lev59 V0 (Proc.devRef .tc main_arg2) = lev0 V0 (Proc.devRef .tc main_arg2) := (filt58_keep (lev58 V0) (r := main_arg2) (by decide)).trans (Wto0_58 V0)
theorem Wto0_60 (V0 : Valuation τ sig (Elt F)) : lev60 V0 (Proc.devRef .tc main_arg2) = lev0 V0 (Proc.devRef .tc main_arg2) := (filt59_keep (lev59 V0) (r := main_arg2) (by decide)).trans (Wto0_59 V0)
theorem Wto0_61 (V0 : Valuation τ sig (Elt F)) : lev61 V0 (Proc.devRef .tc main_arg2) = lev0 V0 (Proc.devRef .tc main_arg2) := (filt60_keep (lev60 V0) (r := main_arg2) (by decide)).trans (Wto0_60 V0)
theorem Wto0_62 (V0 : Valuation τ sig (Elt F)) : lev62 V0 (Proc.devRef .tc main_arg2) = lev0 V0 (Proc.devRef .tc main_arg2) := (filt61_keep (lev61 V0) (r := main_arg2) (by decide)).trans (Wto0_61 V0)
theorem Wto0_63 (V0 : Valuation τ sig (Elt F)) : lev63 V0 (Proc.devRef .tc main_arg2) = lev0 V0 (Proc.devRef .tc main_arg2) := (filt62_keep (lev62 V0) (r := main_arg2) (by decide)).trans (Wto0_62 V0)
theorem Wto0_64 (V0 : Valuation τ sig (Elt F)) : lev64 V0 (Proc.devRef .tc main_arg2) = lev0 V0 (Proc.devRef .tc main_arg2) := (filt63_keep (lev63 V0) (r := main_arg2) (by decide)).trans (Wto0_63 V0)
theorem Bto0_0 (V0 : Valuation τ sig (Elt F)) : lev0 V0 (Proc.devRef .tc main_arg3) = lev0 V0 (Proc.devRef .tc main_arg3) := rfl
theorem Bto0_1 (V0 : Valuation τ sig (Elt F)) : lev1 V0 (Proc.devRef .tc main_arg3) = lev0 V0 (Proc.devRef .tc main_arg3) := (filt0_keep (lev0 V0) (r := main_arg3) (by decide)).trans (Bto0_0 V0)
theorem Bto0_2 (V0 : Valuation τ sig (Elt F)) : lev2 V0 (Proc.devRef .tc main_arg3) = lev0 V0 (Proc.devRef .tc main_arg3) := (filt1_keep (lev1 V0) (r := main_arg3) (by decide)).trans (Bto0_1 V0)
theorem Bto0_3 (V0 : Valuation τ sig (Elt F)) : lev3 V0 (Proc.devRef .tc main_arg3) = lev0 V0 (Proc.devRef .tc main_arg3) := (filt2_keep (lev2 V0) (r := main_arg3) (by decide)).trans (Bto0_2 V0)
theorem Bto0_4 (V0 : Valuation τ sig (Elt F)) : lev4 V0 (Proc.devRef .tc main_arg3) = lev0 V0 (Proc.devRef .tc main_arg3) := (filt3_keep (lev3 V0) (r := main_arg3) (by decide)).trans (Bto0_3 V0)
theorem Bto0_5 (V0 : Valuation τ sig (Elt F)) : lev5 V0 (Proc.devRef .tc main_arg3) = lev0 V0 (Proc.devRef .tc main_arg3) := (filt4_keep (lev4 V0) (r := main_arg3) (by decide)).trans (Bto0_4 V0)
theorem Bto0_6 (V0 : Valuation τ sig (Elt F)) : lev6 V0 (Proc.devRef .tc main_arg3) = lev0 V0 (Proc.devRef .tc main_arg3) := (filt5_keep (lev5 V0) (r := main_arg3) (by decide)).trans (Bto0_5 V0)
theorem Bto0_7 (V0 : Valuation τ sig (Elt F)) : lev7 V0 (Proc.devRef .tc main_arg3) = lev0 V0 (Proc.devRef .tc main_arg3) := (filt6_keep (lev6 V0) (r := main_arg3) (by decide)).trans (Bto0_6 V0)
theorem Bto0_8 (V0 : Valuation τ sig (Elt F)) : lev8 V0 (Proc.devRef .tc main_arg3) = lev0 V0 (Proc.devRef .tc main_arg3) := (filt7_keep (lev7 V0) (r := main_arg3) (by decide)).trans (Bto0_7 V0)
theorem Bto0_9 (V0 : Valuation τ sig (Elt F)) : lev9 V0 (Proc.devRef .tc main_arg3) = lev0 V0 (Proc.devRef .tc main_arg3) := (filt8_keep (lev8 V0) (r := main_arg3) (by decide)).trans (Bto0_8 V0)
theorem Bto0_10 (V0 : Valuation τ sig (Elt F)) : lev10 V0 (Proc.devRef .tc main_arg3) = lev0 V0 (Proc.devRef .tc main_arg3) := (filt9_keep (lev9 V0) (r := main_arg3) (by decide)).trans (Bto0_9 V0)
theorem Bto0_11 (V0 : Valuation τ sig (Elt F)) : lev11 V0 (Proc.devRef .tc main_arg3) = lev0 V0 (Proc.devRef .tc main_arg3) := (filt10_keep (lev10 V0) (r := main_arg3) (by decide)).trans (Bto0_10 V0)
theorem Bto0_12 (V0 : Valuation τ sig (Elt F)) : lev12 V0 (Proc.devRef .tc main_arg3) = lev0 V0 (Proc.devRef .tc main_arg3) := (filt11_keep (lev11 V0) (r := main_arg3) (by decide)).trans (Bto0_11 V0)
theorem Bto0_13 (V0 : Valuation τ sig (Elt F)) : lev13 V0 (Proc.devRef .tc main_arg3) = lev0 V0 (Proc.devRef .tc main_arg3) := (filt12_keep (lev12 V0) (r := main_arg3) (by decide)).trans (Bto0_12 V0)
theorem Bto0_14 (V0 : Valuation τ sig (Elt F)) : lev14 V0 (Proc.devRef .tc main_arg3) = lev0 V0 (Proc.devRef .tc main_arg3) := (filt13_keep (lev13 V0) (r := main_arg3) (by decide)).trans (Bto0_13 V0)
theorem Bto0_15 (V0 : Valuation τ sig (Elt F)) : lev15 V0 (Proc.devRef .tc main_arg3) = lev0 V0 (Proc.devRef .tc main_arg3) := (filt14_keep (lev14 V0) (r := main_arg3) (by decide)).trans (Bto0_14 V0)
theorem Bto0_16 (V0 : Valuation τ sig (Elt F)) : lev16 V0 (Proc.devRef .tc main_arg3) = lev0 V0 (Proc.devRef .tc main_arg3) := (filt15_keep (lev15 V0) (r := main_arg3) (by decide)).trans (Bto0_15 V0)
theorem Bto0_17 (V0 : Valuation τ sig (Elt F)) : lev17 V0 (Proc.devRef .tc main_arg3) = lev0 V0 (Proc.devRef .tc main_arg3) := (filt16_keep (lev16 V0) (r := main_arg3) (by decide)).trans (Bto0_16 V0)
theorem Bto0_18 (V0 : Valuation τ sig (Elt F)) : lev18 V0 (Proc.devRef .tc main_arg3) = lev0 V0 (Proc.devRef .tc main_arg3) := (filt17_keep (lev17 V0) (r := main_arg3) (by decide)).trans (Bto0_17 V0)
theorem Bto0_19 (V0 : Valuation τ sig (Elt F)) : lev19 V0 (Proc.devRef .tc main_arg3) = lev0 V0 (Proc.devRef .tc main_arg3) := (filt18_keep (lev18 V0) (r := main_arg3) (by decide)).trans (Bto0_18 V0)
theorem Bto0_20 (V0 : Valuation τ sig (Elt F)) : lev20 V0 (Proc.devRef .tc main_arg3) = lev0 V0 (Proc.devRef .tc main_arg3) := (filt19_keep (lev19 V0) (r := main_arg3) (by decide)).trans (Bto0_19 V0)
theorem Bto0_21 (V0 : Valuation τ sig (Elt F)) : lev21 V0 (Proc.devRef .tc main_arg3) = lev0 V0 (Proc.devRef .tc main_arg3) := (filt20_keep (lev20 V0) (r := main_arg3) (by decide)).trans (Bto0_20 V0)
theorem Bto0_22 (V0 : Valuation τ sig (Elt F)) : lev22 V0 (Proc.devRef .tc main_arg3) = lev0 V0 (Proc.devRef .tc main_arg3) := (filt21_keep (lev21 V0) (r := main_arg3) (by decide)).trans (Bto0_21 V0)
theorem Bto0_23 (V0 : Valuation τ sig (Elt F)) : lev23 V0 (Proc.devRef .tc main_arg3) = lev0 V0 (Proc.devRef .tc main_arg3) := (filt22_keep (lev22 V0) (r := main_arg3) (by decide)).trans (Bto0_22 V0)
theorem Bto0_24 (V0 : Valuation τ sig (Elt F)) : lev24 V0 (Proc.devRef .tc main_arg3) = lev0 V0 (Proc.devRef .tc main_arg3) := (filt23_keep (lev23 V0) (r := main_arg3) (by decide)).trans (Bto0_23 V0)
theorem Bto0_25 (V0 : Valuation τ sig (Elt F)) : lev25 V0 (Proc.devRef .tc main_arg3) = lev0 V0 (Proc.devRef .tc main_arg3) := (filt24_keep (lev24 V0) (r := main_arg3) (by decide)).trans (Bto0_24 V0)
theorem Bto0_26 (V0 : Valuation τ sig (Elt F)) : lev26 V0 (Proc.devRef .tc main_arg3) = lev0 V0 (Proc.devRef .tc main_arg3) := (filt25_keep (lev25 V0) (r := main_arg3) (by decide)).trans (Bto0_25 V0)
theorem Bto0_27 (V0 : Valuation τ sig (Elt F)) : lev27 V0 (Proc.devRef .tc main_arg3) = lev0 V0 (Proc.devRef .tc main_arg3) := (filt26_keep (lev26 V0) (r := main_arg3) (by decide)).trans (Bto0_26 V0)
theorem Bto0_28 (V0 : Valuation τ sig (Elt F)) : lev28 V0 (Proc.devRef .tc main_arg3) = lev0 V0 (Proc.devRef .tc main_arg3) := (filt27_keep (lev27 V0) (r := main_arg3) (by decide)).trans (Bto0_27 V0)
theorem Bto0_29 (V0 : Valuation τ sig (Elt F)) : lev29 V0 (Proc.devRef .tc main_arg3) = lev0 V0 (Proc.devRef .tc main_arg3) := (filt28_keep (lev28 V0) (r := main_arg3) (by decide)).trans (Bto0_28 V0)
theorem Bto0_30 (V0 : Valuation τ sig (Elt F)) : lev30 V0 (Proc.devRef .tc main_arg3) = lev0 V0 (Proc.devRef .tc main_arg3) := (filt29_keep (lev29 V0) (r := main_arg3) (by decide)).trans (Bto0_29 V0)
theorem Bto0_31 (V0 : Valuation τ sig (Elt F)) : lev31 V0 (Proc.devRef .tc main_arg3) = lev0 V0 (Proc.devRef .tc main_arg3) := (filt30_keep (lev30 V0) (r := main_arg3) (by decide)).trans (Bto0_30 V0)
theorem Bto0_32 (V0 : Valuation τ sig (Elt F)) : lev32 V0 (Proc.devRef .tc main_arg3) = lev0 V0 (Proc.devRef .tc main_arg3) := (filt31_keep (lev31 V0) (r := main_arg3) (by decide)).trans (Bto0_31 V0)
theorem Bto0_33 (V0 : Valuation τ sig (Elt F)) : lev33 V0 (Proc.devRef .tc main_arg3) = lev0 V0 (Proc.devRef .tc main_arg3) := (filt32_keep (lev32 V0) (r := main_arg3) (by decide)).trans (Bto0_32 V0)
theorem Bto0_34 (V0 : Valuation τ sig (Elt F)) : lev34 V0 (Proc.devRef .tc main_arg3) = lev0 V0 (Proc.devRef .tc main_arg3) := (filt33_keep (lev33 V0) (r := main_arg3) (by decide)).trans (Bto0_33 V0)
theorem Bto0_35 (V0 : Valuation τ sig (Elt F)) : lev35 V0 (Proc.devRef .tc main_arg3) = lev0 V0 (Proc.devRef .tc main_arg3) := (filt34_keep (lev34 V0) (r := main_arg3) (by decide)).trans (Bto0_34 V0)
theorem Bto0_36 (V0 : Valuation τ sig (Elt F)) : lev36 V0 (Proc.devRef .tc main_arg3) = lev0 V0 (Proc.devRef .tc main_arg3) := (filt35_keep (lev35 V0) (r := main_arg3) (by decide)).trans (Bto0_35 V0)
theorem Bto0_37 (V0 : Valuation τ sig (Elt F)) : lev37 V0 (Proc.devRef .tc main_arg3) = lev0 V0 (Proc.devRef .tc main_arg3) := (filt36_keep (lev36 V0) (r := main_arg3) (by decide)).trans (Bto0_36 V0)
theorem Bto0_38 (V0 : Valuation τ sig (Elt F)) : lev38 V0 (Proc.devRef .tc main_arg3) = lev0 V0 (Proc.devRef .tc main_arg3) := (filt37_keep (lev37 V0) (r := main_arg3) (by decide)).trans (Bto0_37 V0)
theorem Bto0_39 (V0 : Valuation τ sig (Elt F)) : lev39 V0 (Proc.devRef .tc main_arg3) = lev0 V0 (Proc.devRef .tc main_arg3) := (filt38_keep (lev38 V0) (r := main_arg3) (by decide)).trans (Bto0_38 V0)
theorem Bto0_40 (V0 : Valuation τ sig (Elt F)) : lev40 V0 (Proc.devRef .tc main_arg3) = lev0 V0 (Proc.devRef .tc main_arg3) := (filt39_keep (lev39 V0) (r := main_arg3) (by decide)).trans (Bto0_39 V0)
theorem Bto0_41 (V0 : Valuation τ sig (Elt F)) : lev41 V0 (Proc.devRef .tc main_arg3) = lev0 V0 (Proc.devRef .tc main_arg3) := (filt40_keep (lev40 V0) (r := main_arg3) (by decide)).trans (Bto0_40 V0)
theorem Bto0_42 (V0 : Valuation τ sig (Elt F)) : lev42 V0 (Proc.devRef .tc main_arg3) = lev0 V0 (Proc.devRef .tc main_arg3) := (filt41_keep (lev41 V0) (r := main_arg3) (by decide)).trans (Bto0_41 V0)
theorem Bto0_43 (V0 : Valuation τ sig (Elt F)) : lev43 V0 (Proc.devRef .tc main_arg3) = lev0 V0 (Proc.devRef .tc main_arg3) := (filt42_keep (lev42 V0) (r := main_arg3) (by decide)).trans (Bto0_42 V0)
theorem Bto0_44 (V0 : Valuation τ sig (Elt F)) : lev44 V0 (Proc.devRef .tc main_arg3) = lev0 V0 (Proc.devRef .tc main_arg3) := (filt43_keep (lev43 V0) (r := main_arg3) (by decide)).trans (Bto0_43 V0)
theorem Bto0_45 (V0 : Valuation τ sig (Elt F)) : lev45 V0 (Proc.devRef .tc main_arg3) = lev0 V0 (Proc.devRef .tc main_arg3) := (filt44_keep (lev44 V0) (r := main_arg3) (by decide)).trans (Bto0_44 V0)
theorem Bto0_46 (V0 : Valuation τ sig (Elt F)) : lev46 V0 (Proc.devRef .tc main_arg3) = lev0 V0 (Proc.devRef .tc main_arg3) := (filt45_keep (lev45 V0) (r := main_arg3) (by decide)).trans (Bto0_45 V0)
theorem Bto0_47 (V0 : Valuation τ sig (Elt F)) : lev47 V0 (Proc.devRef .tc main_arg3) = lev0 V0 (Proc.devRef .tc main_arg3) := (filt46_keep (lev46 V0) (r := main_arg3) (by decide)).trans (Bto0_46 V0)
theorem Bto0_48 (V0 : Valuation τ sig (Elt F)) : lev48 V0 (Proc.devRef .tc main_arg3) = lev0 V0 (Proc.devRef .tc main_arg3) := (filt47_keep (lev47 V0) (r := main_arg3) (by decide)).trans (Bto0_47 V0)
theorem Bto0_49 (V0 : Valuation τ sig (Elt F)) : lev49 V0 (Proc.devRef .tc main_arg3) = lev0 V0 (Proc.devRef .tc main_arg3) := (filt48_keep (lev48 V0) (r := main_arg3) (by decide)).trans (Bto0_48 V0)
theorem Bto0_50 (V0 : Valuation τ sig (Elt F)) : lev50 V0 (Proc.devRef .tc main_arg3) = lev0 V0 (Proc.devRef .tc main_arg3) := (filt49_keep (lev49 V0) (r := main_arg3) (by decide)).trans (Bto0_49 V0)
theorem Bto0_51 (V0 : Valuation τ sig (Elt F)) : lev51 V0 (Proc.devRef .tc main_arg3) = lev0 V0 (Proc.devRef .tc main_arg3) := (filt50_keep (lev50 V0) (r := main_arg3) (by decide)).trans (Bto0_50 V0)
theorem Bto0_52 (V0 : Valuation τ sig (Elt F)) : lev52 V0 (Proc.devRef .tc main_arg3) = lev0 V0 (Proc.devRef .tc main_arg3) := (filt51_keep (lev51 V0) (r := main_arg3) (by decide)).trans (Bto0_51 V0)
theorem Bto0_53 (V0 : Valuation τ sig (Elt F)) : lev53 V0 (Proc.devRef .tc main_arg3) = lev0 V0 (Proc.devRef .tc main_arg3) := (filt52_keep (lev52 V0) (r := main_arg3) (by decide)).trans (Bto0_52 V0)
theorem Bto0_54 (V0 : Valuation τ sig (Elt F)) : lev54 V0 (Proc.devRef .tc main_arg3) = lev0 V0 (Proc.devRef .tc main_arg3) := (filt53_keep (lev53 V0) (r := main_arg3) (by decide)).trans (Bto0_53 V0)
theorem Bto0_55 (V0 : Valuation τ sig (Elt F)) : lev55 V0 (Proc.devRef .tc main_arg3) = lev0 V0 (Proc.devRef .tc main_arg3) := (filt54_keep (lev54 V0) (r := main_arg3) (by decide)).trans (Bto0_54 V0)
theorem Bto0_56 (V0 : Valuation τ sig (Elt F)) : lev56 V0 (Proc.devRef .tc main_arg3) = lev0 V0 (Proc.devRef .tc main_arg3) := (filt55_keep (lev55 V0) (r := main_arg3) (by decide)).trans (Bto0_55 V0)
theorem Bto0_57 (V0 : Valuation τ sig (Elt F)) : lev57 V0 (Proc.devRef .tc main_arg3) = lev0 V0 (Proc.devRef .tc main_arg3) := (filt56_keep (lev56 V0) (r := main_arg3) (by decide)).trans (Bto0_56 V0)
theorem Bto0_58 (V0 : Valuation τ sig (Elt F)) : lev58 V0 (Proc.devRef .tc main_arg3) = lev0 V0 (Proc.devRef .tc main_arg3) := (filt57_keep (lev57 V0) (r := main_arg3) (by decide)).trans (Bto0_57 V0)
theorem Bto0_59 (V0 : Valuation τ sig (Elt F)) : lev59 V0 (Proc.devRef .tc main_arg3) = lev0 V0 (Proc.devRef .tc main_arg3) := (filt58_keep (lev58 V0) (r := main_arg3) (by decide)).trans (Bto0_58 V0)
theorem Bto0_60 (V0 : Valuation τ sig (Elt F)) : lev60 V0 (Proc.devRef .tc main_arg3) = lev0 V0 (Proc.devRef .tc main_arg3) := (filt59_keep (lev59 V0) (r := main_arg3) (by decide)).trans (Bto0_59 V0)
theorem Bto0_61 (V0 : Valuation τ sig (Elt F)) : lev61 V0 (Proc.devRef .tc main_arg3) = lev0 V0 (Proc.devRef .tc main_arg3) := (filt60_keep (lev60 V0) (r := main_arg3) (by decide)).trans (Bto0_60 V0)
theorem Bto0_62 (V0 : Valuation τ sig (Elt F)) : lev62 V0 (Proc.devRef .tc main_arg3) = lev0 V0 (Proc.devRef .tc main_arg3) := (filt61_keep (lev61 V0) (r := main_arg3) (by decide)).trans (Bto0_61 V0)
theorem Bto0_63 (V0 : Valuation τ sig (Elt F)) : lev63 V0 (Proc.devRef .tc main_arg3) = lev0 V0 (Proc.devRef .tc main_arg3) := (filt62_keep (lev62 V0) (r := main_arg3) (by decide)).trans (Bto0_62 V0)
theorem Bto0_64 (V0 : Valuation τ sig (Elt F)) : lev64 V0 (Proc.devRef .tc main_arg3) = lev0 V0 (Proc.devRef .tc main_arg3) := (filt63_keep (lev63 V0) (r := main_arg3) (by decide)).trans (Bto0_63 V0)
theorem Lto0_0 (V0 : Valuation τ sig (Elt F)) : lev0 V0 (Proc.devRef .tc main_arg4) = lev0 V0 (Proc.devRef .tc main_arg4) := rfl
theorem Lto0_1 (V0 : Valuation τ sig (Elt F)) : lev1 V0 (Proc.devRef .tc main_arg4) = lev0 V0 (Proc.devRef .tc main_arg4) := (filt0_keep (lev0 V0) (r := main_arg4) (by decide)).trans (Lto0_0 V0)
theorem Lto0_2 (V0 : Valuation τ sig (Elt F)) : lev2 V0 (Proc.devRef .tc main_arg4) = lev0 V0 (Proc.devRef .tc main_arg4) := (filt1_keep (lev1 V0) (r := main_arg4) (by decide)).trans (Lto0_1 V0)
theorem Lto0_3 (V0 : Valuation τ sig (Elt F)) : lev3 V0 (Proc.devRef .tc main_arg4) = lev0 V0 (Proc.devRef .tc main_arg4) := (filt2_keep (lev2 V0) (r := main_arg4) (by decide)).trans (Lto0_2 V0)
theorem Lto0_4 (V0 : Valuation τ sig (Elt F)) : lev4 V0 (Proc.devRef .tc main_arg4) = lev0 V0 (Proc.devRef .tc main_arg4) := (filt3_keep (lev3 V0) (r := main_arg4) (by decide)).trans (Lto0_3 V0)
theorem Lto0_5 (V0 : Valuation τ sig (Elt F)) : lev5 V0 (Proc.devRef .tc main_arg4) = lev0 V0 (Proc.devRef .tc main_arg4) := (filt4_keep (lev4 V0) (r := main_arg4) (by decide)).trans (Lto0_4 V0)
theorem Lto0_6 (V0 : Valuation τ sig (Elt F)) : lev6 V0 (Proc.devRef .tc main_arg4) = lev0 V0 (Proc.devRef .tc main_arg4) := (filt5_keep (lev5 V0) (r := main_arg4) (by decide)).trans (Lto0_5 V0)
theorem Lto0_7 (V0 : Valuation τ sig (Elt F)) : lev7 V0 (Proc.devRef .tc main_arg4) = lev0 V0 (Proc.devRef .tc main_arg4) := (filt6_keep (lev6 V0) (r := main_arg4) (by decide)).trans (Lto0_6 V0)
theorem Lto0_8 (V0 : Valuation τ sig (Elt F)) : lev8 V0 (Proc.devRef .tc main_arg4) = lev0 V0 (Proc.devRef .tc main_arg4) := (filt7_keep (lev7 V0) (r := main_arg4) (by decide)).trans (Lto0_7 V0)
theorem Lto0_9 (V0 : Valuation τ sig (Elt F)) : lev9 V0 (Proc.devRef .tc main_arg4) = lev0 V0 (Proc.devRef .tc main_arg4) := (filt8_keep (lev8 V0) (r := main_arg4) (by decide)).trans (Lto0_8 V0)
theorem Lto0_10 (V0 : Valuation τ sig (Elt F)) : lev10 V0 (Proc.devRef .tc main_arg4) = lev0 V0 (Proc.devRef .tc main_arg4) := (filt9_keep (lev9 V0) (r := main_arg4) (by decide)).trans (Lto0_9 V0)
theorem Lto0_11 (V0 : Valuation τ sig (Elt F)) : lev11 V0 (Proc.devRef .tc main_arg4) = lev0 V0 (Proc.devRef .tc main_arg4) := (filt10_keep (lev10 V0) (r := main_arg4) (by decide)).trans (Lto0_10 V0)
theorem Lto0_12 (V0 : Valuation τ sig (Elt F)) : lev12 V0 (Proc.devRef .tc main_arg4) = lev0 V0 (Proc.devRef .tc main_arg4) := (filt11_keep (lev11 V0) (r := main_arg4) (by decide)).trans (Lto0_11 V0)
theorem Lto0_13 (V0 : Valuation τ sig (Elt F)) : lev13 V0 (Proc.devRef .tc main_arg4) = lev0 V0 (Proc.devRef .tc main_arg4) := (filt12_keep (lev12 V0) (r := main_arg4) (by decide)).trans (Lto0_12 V0)
theorem Lto0_14 (V0 : Valuation τ sig (Elt F)) : lev14 V0 (Proc.devRef .tc main_arg4) = lev0 V0 (Proc.devRef .tc main_arg4) := (filt13_keep (lev13 V0) (r := main_arg4) (by decide)).trans (Lto0_13 V0)
theorem Lto0_15 (V0 : Valuation τ sig (Elt F)) : lev15 V0 (Proc.devRef .tc main_arg4) = lev0 V0 (Proc.devRef .tc main_arg4) := (filt14_keep (lev14 V0) (r := main_arg4) (by decide)).trans (Lto0_14 V0)
theorem Lto0_16 (V0 : Valuation τ sig (Elt F)) : lev16 V0 (Proc.devRef .tc main_arg4) = lev0 V0 (Proc.devRef .tc main_arg4) := (filt15_keep (lev15 V0) (r := main_arg4) (by decide)).trans (Lto0_15 V0)
theorem Lto0_17 (V0 : Valuation τ sig (Elt F)) : lev17 V0 (Proc.devRef .tc main_arg4) = lev0 V0 (Proc.devRef .tc main_arg4) := (filt16_keep (lev16 V0) (r := main_arg4) (by decide)).trans (Lto0_16 V0)
theorem Lto0_18 (V0 : Valuation τ sig (Elt F)) : lev18 V0 (Proc.devRef .tc main_arg4) = lev0 V0 (Proc.devRef .tc main_arg4) := (filt17_keep (lev17 V0) (r := main_arg4) (by decide)).trans (Lto0_17 V0)
theorem Lto0_19 (V0 : Valuation τ sig (Elt F)) : lev19 V0 (Proc.devRef .tc main_arg4) = lev0 V0 (Proc.devRef .tc main_arg4) := (filt18_keep (lev18 V0) (r := main_arg4) (by decide)).trans (Lto0_18 V0)
theorem Lto0_20 (V0 : Valuation τ sig (Elt F)) : lev20 V0 (Proc.devRef .tc main_arg4) = lev0 V0 (Proc.devRef .tc main_arg4) := (filt19_keep (lev19 V0) (r := main_arg4) (by decide)).trans (Lto0_19 V0)
theorem Lto0_21 (V0 : Valuation τ sig (Elt F)) : lev21 V0 (Proc.devRef .tc main_arg4) = lev0 V0 (Proc.devRef .tc main_arg4) := (filt20_keep (lev20 V0) (r := main_arg4) (by decide)).trans (Lto0_20 V0)
theorem Lto0_22 (V0 : Valuation τ sig (Elt F)) : lev22 V0 (Proc.devRef .tc main_arg4) = lev0 V0 (Proc.devRef .tc main_arg4) := (filt21_keep (lev21 V0) (r := main_arg4) (by decide)).trans (Lto0_21 V0)
theorem Lto0_23 (V0 : Valuation τ sig (Elt F)) : lev23 V0 (Proc.devRef .tc main_arg4) = lev0 V0 (Proc.devRef .tc main_arg4) := (filt22_keep (lev22 V0) (r := main_arg4) (by decide)).trans (Lto0_22 V0)
theorem Lto0_24 (V0 : Valuation τ sig (Elt F)) : lev24 V0 (Proc.devRef .tc main_arg4) = lev0 V0 (Proc.devRef .tc main_arg4) := (filt23_keep (lev23 V0) (r := main_arg4) (by decide)).trans (Lto0_23 V0)
theorem Lto0_25 (V0 : Valuation τ sig (Elt F)) : lev25 V0 (Proc.devRef .tc main_arg4) = lev0 V0 (Proc.devRef .tc main_arg4) := (filt24_keep (lev24 V0) (r := main_arg4) (by decide)).trans (Lto0_24 V0)
theorem Lto0_26 (V0 : Valuation τ sig (Elt F)) : lev26 V0 (Proc.devRef .tc main_arg4) = lev0 V0 (Proc.devRef .tc main_arg4) := (filt25_keep (lev25 V0) (r := main_arg4) (by decide)).trans (Lto0_25 V0)
theorem Lto0_27 (V0 : Valuation τ sig (Elt F)) : lev27 V0 (Proc.devRef .tc main_arg4) = lev0 V0 (Proc.devRef .tc main_arg4) := (filt26_keep (lev26 V0) (r := main_arg4) (by decide)).trans (Lto0_26 V0)
theorem Lto0_28 (V0 : Valuation τ sig (Elt F)) : lev28 V0 (Proc.devRef .tc main_arg4) = lev0 V0 (Proc.devRef .tc main_arg4) := (filt27_keep (lev27 V0) (r := main_arg4) (by decide)).trans (Lto0_27 V0)
theorem Lto0_29 (V0 : Valuation τ sig (Elt F)) : lev29 V0 (Proc.devRef .tc main_arg4) = lev0 V0 (Proc.devRef .tc main_arg4) := (filt28_keep (lev28 V0) (r := main_arg4) (by decide)).trans (Lto0_28 V0)
theorem Lto0_30 (V0 : Valuation τ sig (Elt F)) : lev30 V0 (Proc.devRef .tc main_arg4) = lev0 V0 (Proc.devRef .tc main_arg4) := (filt29_keep (lev29 V0) (r := main_arg4) (by decide)).trans (Lto0_29 V0)
theorem Lto0_31 (V0 : Valuation τ sig (Elt F)) : lev31 V0 (Proc.devRef .tc main_arg4) = lev0 V0 (Proc.devRef .tc main_arg4) := (filt30_keep (lev30 V0) (r := main_arg4) (by decide)).trans (Lto0_30 V0)
theorem Lto0_32 (V0 : Valuation τ sig (Elt F)) : lev32 V0 (Proc.devRef .tc main_arg4) = lev0 V0 (Proc.devRef .tc main_arg4) := (filt31_keep (lev31 V0) (r := main_arg4) (by decide)).trans (Lto0_31 V0)
theorem Lto0_33 (V0 : Valuation τ sig (Elt F)) : lev33 V0 (Proc.devRef .tc main_arg4) = lev0 V0 (Proc.devRef .tc main_arg4) := (filt32_keep (lev32 V0) (r := main_arg4) (by decide)).trans (Lto0_32 V0)
theorem Lto0_34 (V0 : Valuation τ sig (Elt F)) : lev34 V0 (Proc.devRef .tc main_arg4) = lev0 V0 (Proc.devRef .tc main_arg4) := (filt33_keep (lev33 V0) (r := main_arg4) (by decide)).trans (Lto0_33 V0)
theorem Lto0_35 (V0 : Valuation τ sig (Elt F)) : lev35 V0 (Proc.devRef .tc main_arg4) = lev0 V0 (Proc.devRef .tc main_arg4) := (filt34_keep (lev34 V0) (r := main_arg4) (by decide)).trans (Lto0_34 V0)
theorem Lto0_36 (V0 : Valuation τ sig (Elt F)) : lev36 V0 (Proc.devRef .tc main_arg4) = lev0 V0 (Proc.devRef .tc main_arg4) := (filt35_keep (lev35 V0) (r := main_arg4) (by decide)).trans (Lto0_35 V0)
theorem Lto0_37 (V0 : Valuation τ sig (Elt F)) : lev37 V0 (Proc.devRef .tc main_arg4) = lev0 V0 (Proc.devRef .tc main_arg4) := (filt36_keep (lev36 V0) (r := main_arg4) (by decide)).trans (Lto0_36 V0)
theorem Lto0_38 (V0 : Valuation τ sig (Elt F)) : lev38 V0 (Proc.devRef .tc main_arg4) = lev0 V0 (Proc.devRef .tc main_arg4) := (filt37_keep (lev37 V0) (r := main_arg4) (by decide)).trans (Lto0_37 V0)
theorem Lto0_39 (V0 : Valuation τ sig (Elt F)) : lev39 V0 (Proc.devRef .tc main_arg4) = lev0 V0 (Proc.devRef .tc main_arg4) := (filt38_keep (lev38 V0) (r := main_arg4) (by decide)).trans (Lto0_38 V0)
theorem Lto0_40 (V0 : Valuation τ sig (Elt F)) : lev40 V0 (Proc.devRef .tc main_arg4) = lev0 V0 (Proc.devRef .tc main_arg4) := (filt39_keep (lev39 V0) (r := main_arg4) (by decide)).trans (Lto0_39 V0)
theorem Lto0_41 (V0 : Valuation τ sig (Elt F)) : lev41 V0 (Proc.devRef .tc main_arg4) = lev0 V0 (Proc.devRef .tc main_arg4) := (filt40_keep (lev40 V0) (r := main_arg4) (by decide)).trans (Lto0_40 V0)
theorem Lto0_42 (V0 : Valuation τ sig (Elt F)) : lev42 V0 (Proc.devRef .tc main_arg4) = lev0 V0 (Proc.devRef .tc main_arg4) := (filt41_keep (lev41 V0) (r := main_arg4) (by decide)).trans (Lto0_41 V0)
theorem Lto0_43 (V0 : Valuation τ sig (Elt F)) : lev43 V0 (Proc.devRef .tc main_arg4) = lev0 V0 (Proc.devRef .tc main_arg4) := (filt42_keep (lev42 V0) (r := main_arg4) (by decide)).trans (Lto0_42 V0)
theorem Lto0_44 (V0 : Valuation τ sig (Elt F)) : lev44 V0 (Proc.devRef .tc main_arg4) = lev0 V0 (Proc.devRef .tc main_arg4) := (filt43_keep (lev43 V0) (r := main_arg4) (by decide)).trans (Lto0_43 V0)
theorem Lto0_45 (V0 : Valuation τ sig (Elt F)) : lev45 V0 (Proc.devRef .tc main_arg4) = lev0 V0 (Proc.devRef .tc main_arg4) := (filt44_keep (lev44 V0) (r := main_arg4) (by decide)).trans (Lto0_44 V0)
theorem Lto0_46 (V0 : Valuation τ sig (Elt F)) : lev46 V0 (Proc.devRef .tc main_arg4) = lev0 V0 (Proc.devRef .tc main_arg4) := (filt45_keep (lev45 V0) (r := main_arg4) (by decide)).trans (Lto0_45 V0)
theorem Lto0_47 (V0 : Valuation τ sig (Elt F)) : lev47 V0 (Proc.devRef .tc main_arg4) = lev0 V0 (Proc.devRef .tc main_arg4) := (filt46_keep (lev46 V0) (r := main_arg4) (by decide)).trans (Lto0_46 V0)
theorem Lto0_48 (V0 : Valuation τ sig (Elt F)) : lev48 V0 (Proc.devRef .tc main_arg4) = lev0 V0 (Proc.devRef .tc main_arg4) := (filt47_keep (lev47 V0) (r := main_arg4) (by decide)).trans (Lto0_47 V0)
theorem Lto0_49 (V0 : Valuation τ sig (Elt F)) : lev49 V0 (Proc.devRef .tc main_arg4) = lev0 V0 (Proc.devRef .tc main_arg4) := (filt48_keep (lev48 V0) (r := main_arg4) (by decide)).trans (Lto0_48 V0)
theorem Lto0_50 (V0 : Valuation τ sig (Elt F)) : lev50 V0 (Proc.devRef .tc main_arg4) = lev0 V0 (Proc.devRef .tc main_arg4) := (filt49_keep (lev49 V0) (r := main_arg4) (by decide)).trans (Lto0_49 V0)
theorem Lto0_51 (V0 : Valuation τ sig (Elt F)) : lev51 V0 (Proc.devRef .tc main_arg4) = lev0 V0 (Proc.devRef .tc main_arg4) := (filt50_keep (lev50 V0) (r := main_arg4) (by decide)).trans (Lto0_50 V0)
theorem Lto0_52 (V0 : Valuation τ sig (Elt F)) : lev52 V0 (Proc.devRef .tc main_arg4) = lev0 V0 (Proc.devRef .tc main_arg4) := (filt51_keep (lev51 V0) (r := main_arg4) (by decide)).trans (Lto0_51 V0)
theorem Lto0_53 (V0 : Valuation τ sig (Elt F)) : lev53 V0 (Proc.devRef .tc main_arg4) = lev0 V0 (Proc.devRef .tc main_arg4) := (filt52_keep (lev52 V0) (r := main_arg4) (by decide)).trans (Lto0_52 V0)
theorem Lto0_54 (V0 : Valuation τ sig (Elt F)) : lev54 V0 (Proc.devRef .tc main_arg4) = lev0 V0 (Proc.devRef .tc main_arg4) := (filt53_keep (lev53 V0) (r := main_arg4) (by decide)).trans (Lto0_53 V0)
theorem Lto0_55 (V0 : Valuation τ sig (Elt F)) : lev55 V0 (Proc.devRef .tc main_arg4) = lev0 V0 (Proc.devRef .tc main_arg4) := (filt54_keep (lev54 V0) (r := main_arg4) (by decide)).trans (Lto0_54 V0)
theorem Lto0_56 (V0 : Valuation τ sig (Elt F)) : lev56 V0 (Proc.devRef .tc main_arg4) = lev0 V0 (Proc.devRef .tc main_arg4) := (filt55_keep (lev55 V0) (r := main_arg4) (by decide)).trans (Lto0_55 V0)
theorem Lto0_57 (V0 : Valuation τ sig (Elt F)) : lev57 V0 (Proc.devRef .tc main_arg4) = lev0 V0 (Proc.devRef .tc main_arg4) := (filt56_keep (lev56 V0) (r := main_arg4) (by decide)).trans (Lto0_56 V0)
theorem Lto0_58 (V0 : Valuation τ sig (Elt F)) : lev58 V0 (Proc.devRef .tc main_arg4) = lev0 V0 (Proc.devRef .tc main_arg4) := (filt57_keep (lev57 V0) (r := main_arg4) (by decide)).trans (Lto0_57 V0)
theorem Lto0_59 (V0 : Valuation τ sig (Elt F)) : lev59 V0 (Proc.devRef .tc main_arg4) = lev0 V0 (Proc.devRef .tc main_arg4) := (filt58_keep (lev58 V0) (r := main_arg4) (by decide)).trans (Lto0_58 V0)
theorem Lto0_60 (V0 : Valuation τ sig (Elt F)) : lev60 V0 (Proc.devRef .tc main_arg4) = lev0 V0 (Proc.devRef .tc main_arg4) := (filt59_keep (lev59 V0) (r := main_arg4) (by decide)).trans (Lto0_59 V0)
theorem Lto0_61 (V0 : Valuation τ sig (Elt F)) : lev61 V0 (Proc.devRef .tc main_arg4) = lev0 V0 (Proc.devRef .tc main_arg4) := (filt60_keep (lev60 V0) (r := main_arg4) (by decide)).trans (Lto0_60 V0)
theorem Lto0_62 (V0 : Valuation τ sig (Elt F)) : lev62 V0 (Proc.devRef .tc main_arg4) = lev0 V0 (Proc.devRef .tc main_arg4) := (filt61_keep (lev61 V0) (r := main_arg4) (by decide)).trans (Lto0_61 V0)
theorem Lto0_63 (V0 : Valuation τ sig (Elt F)) : lev63 V0 (Proc.devRef .tc main_arg4) = lev0 V0 (Proc.devRef .tc main_arg4) := (filt62_keep (lev62 V0) (r := main_arg4) (by decide)).trans (Lto0_62 V0)
theorem Lto0_64 (V0 : Valuation τ sig (Elt F)) : lev64 V0 (Proc.devRef .tc main_arg4) = lev0 V0 (Proc.devRef .tc main_arg4) := (filt63_keep (lev63 V0) (r := main_arg4) (by decide)).trans (Lto0_63 V0)
theorem Cto0_0 (V0 : Valuation τ sig (Elt F)) : lev0 V0 (Proc.devRef .tc main_arg5) = lev0 V0 (Proc.devRef .tc main_arg5) := rfl
theorem Cto0_1 (V0 : Valuation τ sig (Elt F)) : lev1 V0 (Proc.devRef .tc main_arg5) = lev0 V0 (Proc.devRef .tc main_arg5) := (filt0_keep (lev0 V0) (r := main_arg5) (by decide)).trans (Cto0_0 V0)
theorem Cto0_2 (V0 : Valuation τ sig (Elt F)) : lev2 V0 (Proc.devRef .tc main_arg5) = lev0 V0 (Proc.devRef .tc main_arg5) := (filt1_keep (lev1 V0) (r := main_arg5) (by decide)).trans (Cto0_1 V0)
theorem Cto0_3 (V0 : Valuation τ sig (Elt F)) : lev3 V0 (Proc.devRef .tc main_arg5) = lev0 V0 (Proc.devRef .tc main_arg5) := (filt2_keep (lev2 V0) (r := main_arg5) (by decide)).trans (Cto0_2 V0)
theorem Cto0_4 (V0 : Valuation τ sig (Elt F)) : lev4 V0 (Proc.devRef .tc main_arg5) = lev0 V0 (Proc.devRef .tc main_arg5) := (filt3_keep (lev3 V0) (r := main_arg5) (by decide)).trans (Cto0_3 V0)
theorem Cto0_5 (V0 : Valuation τ sig (Elt F)) : lev5 V0 (Proc.devRef .tc main_arg5) = lev0 V0 (Proc.devRef .tc main_arg5) := (filt4_keep (lev4 V0) (r := main_arg5) (by decide)).trans (Cto0_4 V0)
theorem Cto0_6 (V0 : Valuation τ sig (Elt F)) : lev6 V0 (Proc.devRef .tc main_arg5) = lev0 V0 (Proc.devRef .tc main_arg5) := (filt5_keep (lev5 V0) (r := main_arg5) (by decide)).trans (Cto0_5 V0)
theorem Cto0_7 (V0 : Valuation τ sig (Elt F)) : lev7 V0 (Proc.devRef .tc main_arg5) = lev0 V0 (Proc.devRef .tc main_arg5) := (filt6_keep (lev6 V0) (r := main_arg5) (by decide)).trans (Cto0_6 V0)
theorem Cto0_8 (V0 : Valuation τ sig (Elt F)) : lev8 V0 (Proc.devRef .tc main_arg5) = lev0 V0 (Proc.devRef .tc main_arg5) := (filt7_keep (lev7 V0) (r := main_arg5) (by decide)).trans (Cto0_7 V0)
theorem Cto0_9 (V0 : Valuation τ sig (Elt F)) : lev9 V0 (Proc.devRef .tc main_arg5) = lev0 V0 (Proc.devRef .tc main_arg5) := (filt8_keep (lev8 V0) (r := main_arg5) (by decide)).trans (Cto0_8 V0)
theorem Cto0_10 (V0 : Valuation τ sig (Elt F)) : lev10 V0 (Proc.devRef .tc main_arg5) = lev0 V0 (Proc.devRef .tc main_arg5) := (filt9_keep (lev9 V0) (r := main_arg5) (by decide)).trans (Cto0_9 V0)
theorem Cto0_11 (V0 : Valuation τ sig (Elt F)) : lev11 V0 (Proc.devRef .tc main_arg5) = lev0 V0 (Proc.devRef .tc main_arg5) := (filt10_keep (lev10 V0) (r := main_arg5) (by decide)).trans (Cto0_10 V0)
theorem Cto0_12 (V0 : Valuation τ sig (Elt F)) : lev12 V0 (Proc.devRef .tc main_arg5) = lev0 V0 (Proc.devRef .tc main_arg5) := (filt11_keep (lev11 V0) (r := main_arg5) (by decide)).trans (Cto0_11 V0)
theorem Cto0_13 (V0 : Valuation τ sig (Elt F)) : lev13 V0 (Proc.devRef .tc main_arg5) = lev0 V0 (Proc.devRef .tc main_arg5) := (filt12_keep (lev12 V0) (r := main_arg5) (by decide)).trans (Cto0_12 V0)
theorem Cto0_14 (V0 : Valuation τ sig (Elt F)) : lev14 V0 (Proc.devRef .tc main_arg5) = lev0 V0 (Proc.devRef .tc main_arg5) := (filt13_keep (lev13 V0) (r := main_arg5) (by decide)).trans (Cto0_13 V0)
theorem Cto0_15 (V0 : Valuation τ sig (Elt F)) : lev15 V0 (Proc.devRef .tc main_arg5) = lev0 V0 (Proc.devRef .tc main_arg5) := (filt14_keep (lev14 V0) (r := main_arg5) (by decide)).trans (Cto0_14 V0)
theorem Cto0_16 (V0 : Valuation τ sig (Elt F)) : lev16 V0 (Proc.devRef .tc main_arg5) = lev0 V0 (Proc.devRef .tc main_arg5) := (filt15_keep (lev15 V0) (r := main_arg5) (by decide)).trans (Cto0_15 V0)
theorem Cto0_17 (V0 : Valuation τ sig (Elt F)) : lev17 V0 (Proc.devRef .tc main_arg5) = lev0 V0 (Proc.devRef .tc main_arg5) := (filt16_keep (lev16 V0) (r := main_arg5) (by decide)).trans (Cto0_16 V0)
theorem Cto0_18 (V0 : Valuation τ sig (Elt F)) : lev18 V0 (Proc.devRef .tc main_arg5) = lev0 V0 (Proc.devRef .tc main_arg5) := (filt17_keep (lev17 V0) (r := main_arg5) (by decide)).trans (Cto0_17 V0)
theorem Cto0_19 (V0 : Valuation τ sig (Elt F)) : lev19 V0 (Proc.devRef .tc main_arg5) = lev0 V0 (Proc.devRef .tc main_arg5) := (filt18_keep (lev18 V0) (r := main_arg5) (by decide)).trans (Cto0_18 V0)
theorem Cto0_20 (V0 : Valuation τ sig (Elt F)) : lev20 V0 (Proc.devRef .tc main_arg5) = lev0 V0 (Proc.devRef .tc main_arg5) := (filt19_keep (lev19 V0) (r := main_arg5) (by decide)).trans (Cto0_19 V0)
theorem Cto0_21 (V0 : Valuation τ sig (Elt F)) : lev21 V0 (Proc.devRef .tc main_arg5) = lev0 V0 (Proc.devRef .tc main_arg5) := (filt20_keep (lev20 V0) (r := main_arg5) (by decide)).trans (Cto0_20 V0)
theorem Cto0_22 (V0 : Valuation τ sig (Elt F)) : lev22 V0 (Proc.devRef .tc main_arg5) = lev0 V0 (Proc.devRef .tc main_arg5) := (filt21_keep (lev21 V0) (r := main_arg5) (by decide)).trans (Cto0_21 V0)
theorem Cto0_23 (V0 : Valuation τ sig (Elt F)) : lev23 V0 (Proc.devRef .tc main_arg5) = lev0 V0 (Proc.devRef .tc main_arg5) := (filt22_keep (lev22 V0) (r := main_arg5) (by decide)).trans (Cto0_22 V0)
theorem Cto0_24 (V0 : Valuation τ sig (Elt F)) : lev24 V0 (Proc.devRef .tc main_arg5) = lev0 V0 (Proc.devRef .tc main_arg5) := (filt23_keep (lev23 V0) (r := main_arg5) (by decide)).trans (Cto0_23 V0)
theorem Cto0_25 (V0 : Valuation τ sig (Elt F)) : lev25 V0 (Proc.devRef .tc main_arg5) = lev0 V0 (Proc.devRef .tc main_arg5) := (filt24_keep (lev24 V0) (r := main_arg5) (by decide)).trans (Cto0_24 V0)
theorem Cto0_26 (V0 : Valuation τ sig (Elt F)) : lev26 V0 (Proc.devRef .tc main_arg5) = lev0 V0 (Proc.devRef .tc main_arg5) := (filt25_keep (lev25 V0) (r := main_arg5) (by decide)).trans (Cto0_25 V0)
theorem Cto0_27 (V0 : Valuation τ sig (Elt F)) : lev27 V0 (Proc.devRef .tc main_arg5) = lev0 V0 (Proc.devRef .tc main_arg5) := (filt26_keep (lev26 V0) (r := main_arg5) (by decide)).trans (Cto0_26 V0)
theorem Cto0_28 (V0 : Valuation τ sig (Elt F)) : lev28 V0 (Proc.devRef .tc main_arg5) = lev0 V0 (Proc.devRef .tc main_arg5) := (filt27_keep (lev27 V0) (r := main_arg5) (by decide)).trans (Cto0_27 V0)
theorem Cto0_29 (V0 : Valuation τ sig (Elt F)) : lev29 V0 (Proc.devRef .tc main_arg5) = lev0 V0 (Proc.devRef .tc main_arg5) := (filt28_keep (lev28 V0) (r := main_arg5) (by decide)).trans (Cto0_28 V0)
theorem Cto0_30 (V0 : Valuation τ sig (Elt F)) : lev30 V0 (Proc.devRef .tc main_arg5) = lev0 V0 (Proc.devRef .tc main_arg5) := (filt29_keep (lev29 V0) (r := main_arg5) (by decide)).trans (Cto0_29 V0)
theorem Cto0_31 (V0 : Valuation τ sig (Elt F)) : lev31 V0 (Proc.devRef .tc main_arg5) = lev0 V0 (Proc.devRef .tc main_arg5) := (filt30_keep (lev30 V0) (r := main_arg5) (by decide)).trans (Cto0_30 V0)
theorem Cto0_32 (V0 : Valuation τ sig (Elt F)) : lev32 V0 (Proc.devRef .tc main_arg5) = lev0 V0 (Proc.devRef .tc main_arg5) := (filt31_keep (lev31 V0) (r := main_arg5) (by decide)).trans (Cto0_31 V0)
theorem Cto0_33 (V0 : Valuation τ sig (Elt F)) : lev33 V0 (Proc.devRef .tc main_arg5) = lev0 V0 (Proc.devRef .tc main_arg5) := (filt32_keep (lev32 V0) (r := main_arg5) (by decide)).trans (Cto0_32 V0)
theorem Cto0_34 (V0 : Valuation τ sig (Elt F)) : lev34 V0 (Proc.devRef .tc main_arg5) = lev0 V0 (Proc.devRef .tc main_arg5) := (filt33_keep (lev33 V0) (r := main_arg5) (by decide)).trans (Cto0_33 V0)
theorem Cto0_35 (V0 : Valuation τ sig (Elt F)) : lev35 V0 (Proc.devRef .tc main_arg5) = lev0 V0 (Proc.devRef .tc main_arg5) := (filt34_keep (lev34 V0) (r := main_arg5) (by decide)).trans (Cto0_34 V0)
theorem Cto0_36 (V0 : Valuation τ sig (Elt F)) : lev36 V0 (Proc.devRef .tc main_arg5) = lev0 V0 (Proc.devRef .tc main_arg5) := (filt35_keep (lev35 V0) (r := main_arg5) (by decide)).trans (Cto0_35 V0)
theorem Cto0_37 (V0 : Valuation τ sig (Elt F)) : lev37 V0 (Proc.devRef .tc main_arg5) = lev0 V0 (Proc.devRef .tc main_arg5) := (filt36_keep (lev36 V0) (r := main_arg5) (by decide)).trans (Cto0_36 V0)
theorem Cto0_38 (V0 : Valuation τ sig (Elt F)) : lev38 V0 (Proc.devRef .tc main_arg5) = lev0 V0 (Proc.devRef .tc main_arg5) := (filt37_keep (lev37 V0) (r := main_arg5) (by decide)).trans (Cto0_37 V0)
theorem Cto0_39 (V0 : Valuation τ sig (Elt F)) : lev39 V0 (Proc.devRef .tc main_arg5) = lev0 V0 (Proc.devRef .tc main_arg5) := (filt38_keep (lev38 V0) (r := main_arg5) (by decide)).trans (Cto0_38 V0)
theorem Cto0_40 (V0 : Valuation τ sig (Elt F)) : lev40 V0 (Proc.devRef .tc main_arg5) = lev0 V0 (Proc.devRef .tc main_arg5) := (filt39_keep (lev39 V0) (r := main_arg5) (by decide)).trans (Cto0_39 V0)
theorem Cto0_41 (V0 : Valuation τ sig (Elt F)) : lev41 V0 (Proc.devRef .tc main_arg5) = lev0 V0 (Proc.devRef .tc main_arg5) := (filt40_keep (lev40 V0) (r := main_arg5) (by decide)).trans (Cto0_40 V0)
theorem Cto0_42 (V0 : Valuation τ sig (Elt F)) : lev42 V0 (Proc.devRef .tc main_arg5) = lev0 V0 (Proc.devRef .tc main_arg5) := (filt41_keep (lev41 V0) (r := main_arg5) (by decide)).trans (Cto0_41 V0)
theorem Cto0_43 (V0 : Valuation τ sig (Elt F)) : lev43 V0 (Proc.devRef .tc main_arg5) = lev0 V0 (Proc.devRef .tc main_arg5) := (filt42_keep (lev42 V0) (r := main_arg5) (by decide)).trans (Cto0_42 V0)
theorem Cto0_44 (V0 : Valuation τ sig (Elt F)) : lev44 V0 (Proc.devRef .tc main_arg5) = lev0 V0 (Proc.devRef .tc main_arg5) := (filt43_keep (lev43 V0) (r := main_arg5) (by decide)).trans (Cto0_43 V0)
theorem Cto0_45 (V0 : Valuation τ sig (Elt F)) : lev45 V0 (Proc.devRef .tc main_arg5) = lev0 V0 (Proc.devRef .tc main_arg5) := (filt44_keep (lev44 V0) (r := main_arg5) (by decide)).trans (Cto0_44 V0)
theorem Cto0_46 (V0 : Valuation τ sig (Elt F)) : lev46 V0 (Proc.devRef .tc main_arg5) = lev0 V0 (Proc.devRef .tc main_arg5) := (filt45_keep (lev45 V0) (r := main_arg5) (by decide)).trans (Cto0_45 V0)
theorem Cto0_47 (V0 : Valuation τ sig (Elt F)) : lev47 V0 (Proc.devRef .tc main_arg5) = lev0 V0 (Proc.devRef .tc main_arg5) := (filt46_keep (lev46 V0) (r := main_arg5) (by decide)).trans (Cto0_46 V0)
theorem Cto0_48 (V0 : Valuation τ sig (Elt F)) : lev48 V0 (Proc.devRef .tc main_arg5) = lev0 V0 (Proc.devRef .tc main_arg5) := (filt47_keep (lev47 V0) (r := main_arg5) (by decide)).trans (Cto0_47 V0)
theorem Cto0_49 (V0 : Valuation τ sig (Elt F)) : lev49 V0 (Proc.devRef .tc main_arg5) = lev0 V0 (Proc.devRef .tc main_arg5) := (filt48_keep (lev48 V0) (r := main_arg5) (by decide)).trans (Cto0_48 V0)
theorem Cto0_50 (V0 : Valuation τ sig (Elt F)) : lev50 V0 (Proc.devRef .tc main_arg5) = lev0 V0 (Proc.devRef .tc main_arg5) := (filt49_keep (lev49 V0) (r := main_arg5) (by decide)).trans (Cto0_49 V0)
theorem Cto0_51 (V0 : Valuation τ sig (Elt F)) : lev51 V0 (Proc.devRef .tc main_arg5) = lev0 V0 (Proc.devRef .tc main_arg5) := (filt50_keep (lev50 V0) (r := main_arg5) (by decide)).trans (Cto0_50 V0)
theorem Cto0_52 (V0 : Valuation τ sig (Elt F)) : lev52 V0 (Proc.devRef .tc main_arg5) = lev0 V0 (Proc.devRef .tc main_arg5) := (filt51_keep (lev51 V0) (r := main_arg5) (by decide)).trans (Cto0_51 V0)
theorem Cto0_53 (V0 : Valuation τ sig (Elt F)) : lev53 V0 (Proc.devRef .tc main_arg5) = lev0 V0 (Proc.devRef .tc main_arg5) := (filt52_keep (lev52 V0) (r := main_arg5) (by decide)).trans (Cto0_52 V0)
theorem Cto0_54 (V0 : Valuation τ sig (Elt F)) : lev54 V0 (Proc.devRef .tc main_arg5) = lev0 V0 (Proc.devRef .tc main_arg5) := (filt53_keep (lev53 V0) (r := main_arg5) (by decide)).trans (Cto0_53 V0)
theorem Cto0_55 (V0 : Valuation τ sig (Elt F)) : lev55 V0 (Proc.devRef .tc main_arg5) = lev0 V0 (Proc.devRef .tc main_arg5) := (filt54_keep (lev54 V0) (r := main_arg5) (by decide)).trans (Cto0_54 V0)
theorem Cto0_56 (V0 : Valuation τ sig (Elt F)) : lev56 V0 (Proc.devRef .tc main_arg5) = lev0 V0 (Proc.devRef .tc main_arg5) := (filt55_keep (lev55 V0) (r := main_arg5) (by decide)).trans (Cto0_55 V0)
theorem Cto0_57 (V0 : Valuation τ sig (Elt F)) : lev57 V0 (Proc.devRef .tc main_arg5) = lev0 V0 (Proc.devRef .tc main_arg5) := (filt56_keep (lev56 V0) (r := main_arg5) (by decide)).trans (Cto0_56 V0)
theorem Cto0_58 (V0 : Valuation τ sig (Elt F)) : lev58 V0 (Proc.devRef .tc main_arg5) = lev0 V0 (Proc.devRef .tc main_arg5) := (filt57_keep (lev57 V0) (r := main_arg5) (by decide)).trans (Cto0_57 V0)
theorem Cto0_59 (V0 : Valuation τ sig (Elt F)) : lev59 V0 (Proc.devRef .tc main_arg5) = lev0 V0 (Proc.devRef .tc main_arg5) := (filt58_keep (lev58 V0) (r := main_arg5) (by decide)).trans (Cto0_58 V0)
theorem Cto0_60 (V0 : Valuation τ sig (Elt F)) : lev60 V0 (Proc.devRef .tc main_arg5) = lev0 V0 (Proc.devRef .tc main_arg5) := (filt59_keep (lev59 V0) (r := main_arg5) (by decide)).trans (Cto0_59 V0)
theorem Cto0_61 (V0 : Valuation τ sig (Elt F)) : lev61 V0 (Proc.devRef .tc main_arg5) = lev0 V0 (Proc.devRef .tc main_arg5) := (filt60_keep (lev60 V0) (r := main_arg5) (by decide)).trans (Cto0_60 V0)
theorem Cto0_62 (V0 : Valuation τ sig (Elt F)) : lev62 V0 (Proc.devRef .tc main_arg5) = lev0 V0 (Proc.devRef .tc main_arg5) := (filt61_keep (lev61 V0) (r := main_arg5) (by decide)).trans (Cto0_61 V0)
theorem Cto0_63 (V0 : Valuation τ sig (Elt F)) : lev63 V0 (Proc.devRef .tc main_arg5) = lev0 V0 (Proc.devRef .tc main_arg5) := (filt62_keep (lev62 V0) (r := main_arg5) (by decide)).trans (Cto0_62 V0)
theorem Cto0_64 (V0 : Valuation τ sig (Elt F)) : lev64 V0 (Proc.devRef .tc main_arg5) = lev0 V0 (Proc.devRef .tc main_arg5) := (filt63_keep (lev63 V0) (r := main_arg5) (by decide)).trans (Cto0_63 V0)
theorem Xto0_0 (V0 : Valuation τ sig (Elt F)) : lev0 V0 (Proc.devRef .tc main_arg0) = lev0 V0 (Proc.devRef .tc main_arg0) := rfl
theorem Xto0_1 (V0 : Valuation τ sig (Elt F)) : lev1 V0 (Proc.devRef .tc main_arg0) = lev0 V0 (Proc.devRef .tc main_arg0) := (filt0_keep (lev0 V0) (r := main_arg0) (by decide)).trans (Xto0_0 V0)
theorem Xto0_2 (V0 : Valuation τ sig (Elt F)) : lev2 V0 (Proc.devRef .tc main_arg0) = lev0 V0 (Proc.devRef .tc main_arg0) := (filt1_keep (lev1 V0) (r := main_arg0) (by decide)).trans (Xto0_1 V0)
theorem Xto0_3 (V0 : Valuation τ sig (Elt F)) : lev3 V0 (Proc.devRef .tc main_arg0) = lev0 V0 (Proc.devRef .tc main_arg0) := (filt2_keep (lev2 V0) (r := main_arg0) (by decide)).trans (Xto0_2 V0)
theorem Xto0_4 (V0 : Valuation τ sig (Elt F)) : lev4 V0 (Proc.devRef .tc main_arg0) = lev0 V0 (Proc.devRef .tc main_arg0) := (filt3_keep (lev3 V0) (r := main_arg0) (by decide)).trans (Xto0_3 V0)
theorem Xto0_5 (V0 : Valuation τ sig (Elt F)) : lev5 V0 (Proc.devRef .tc main_arg0) = lev0 V0 (Proc.devRef .tc main_arg0) := (filt4_keep (lev4 V0) (r := main_arg0) (by decide)).trans (Xto0_4 V0)
theorem Xto0_6 (V0 : Valuation τ sig (Elt F)) : lev6 V0 (Proc.devRef .tc main_arg0) = lev0 V0 (Proc.devRef .tc main_arg0) := (filt5_keep (lev5 V0) (r := main_arg0) (by decide)).trans (Xto0_5 V0)
theorem Xto0_7 (V0 : Valuation τ sig (Elt F)) : lev7 V0 (Proc.devRef .tc main_arg0) = lev0 V0 (Proc.devRef .tc main_arg0) := (filt6_keep (lev6 V0) (r := main_arg0) (by decide)).trans (Xto0_6 V0)
theorem Xto0_8 (V0 : Valuation τ sig (Elt F)) : lev8 V0 (Proc.devRef .tc main_arg0) = lev0 V0 (Proc.devRef .tc main_arg0) := (filt7_keep (lev7 V0) (r := main_arg0) (by decide)).trans (Xto0_7 V0)
theorem Xto0_9 (V0 : Valuation τ sig (Elt F)) : lev9 V0 (Proc.devRef .tc main_arg0) = lev0 V0 (Proc.devRef .tc main_arg0) := (filt8_keep (lev8 V0) (r := main_arg0) (by decide)).trans (Xto0_8 V0)
theorem Xto0_10 (V0 : Valuation τ sig (Elt F)) : lev10 V0 (Proc.devRef .tc main_arg0) = lev0 V0 (Proc.devRef .tc main_arg0) := (filt9_keep (lev9 V0) (r := main_arg0) (by decide)).trans (Xto0_9 V0)
theorem Xto0_11 (V0 : Valuation τ sig (Elt F)) : lev11 V0 (Proc.devRef .tc main_arg0) = lev0 V0 (Proc.devRef .tc main_arg0) := (filt10_keep (lev10 V0) (r := main_arg0) (by decide)).trans (Xto0_10 V0)
theorem Xto0_12 (V0 : Valuation τ sig (Elt F)) : lev12 V0 (Proc.devRef .tc main_arg0) = lev0 V0 (Proc.devRef .tc main_arg0) := (filt11_keep (lev11 V0) (r := main_arg0) (by decide)).trans (Xto0_11 V0)
theorem Xto0_13 (V0 : Valuation τ sig (Elt F)) : lev13 V0 (Proc.devRef .tc main_arg0) = lev0 V0 (Proc.devRef .tc main_arg0) := (filt12_keep (lev12 V0) (r := main_arg0) (by decide)).trans (Xto0_12 V0)
theorem Xto0_14 (V0 : Valuation τ sig (Elt F)) : lev14 V0 (Proc.devRef .tc main_arg0) = lev0 V0 (Proc.devRef .tc main_arg0) := (filt13_keep (lev13 V0) (r := main_arg0) (by decide)).trans (Xto0_13 V0)
theorem Xto0_15 (V0 : Valuation τ sig (Elt F)) : lev15 V0 (Proc.devRef .tc main_arg0) = lev0 V0 (Proc.devRef .tc main_arg0) := (filt14_keep (lev14 V0) (r := main_arg0) (by decide)).trans (Xto0_14 V0)
theorem Xto0_16 (V0 : Valuation τ sig (Elt F)) : lev16 V0 (Proc.devRef .tc main_arg0) = lev0 V0 (Proc.devRef .tc main_arg0) := (filt15_keep (lev15 V0) (r := main_arg0) (by decide)).trans (Xto0_15 V0)
theorem Xto0_17 (V0 : Valuation τ sig (Elt F)) : lev17 V0 (Proc.devRef .tc main_arg0) = lev0 V0 (Proc.devRef .tc main_arg0) := (filt16_keep (lev16 V0) (r := main_arg0) (by decide)).trans (Xto0_16 V0)
theorem Xto0_18 (V0 : Valuation τ sig (Elt F)) : lev18 V0 (Proc.devRef .tc main_arg0) = lev0 V0 (Proc.devRef .tc main_arg0) := (filt17_keep (lev17 V0) (r := main_arg0) (by decide)).trans (Xto0_17 V0)
theorem Xto0_19 (V0 : Valuation τ sig (Elt F)) : lev19 V0 (Proc.devRef .tc main_arg0) = lev0 V0 (Proc.devRef .tc main_arg0) := (filt18_keep (lev18 V0) (r := main_arg0) (by decide)).trans (Xto0_18 V0)
theorem Xto0_20 (V0 : Valuation τ sig (Elt F)) : lev20 V0 (Proc.devRef .tc main_arg0) = lev0 V0 (Proc.devRef .tc main_arg0) := (filt19_keep (lev19 V0) (r := main_arg0) (by decide)).trans (Xto0_19 V0)
theorem Xto0_21 (V0 : Valuation τ sig (Elt F)) : lev21 V0 (Proc.devRef .tc main_arg0) = lev0 V0 (Proc.devRef .tc main_arg0) := (filt20_keep (lev20 V0) (r := main_arg0) (by decide)).trans (Xto0_20 V0)
theorem Xto0_22 (V0 : Valuation τ sig (Elt F)) : lev22 V0 (Proc.devRef .tc main_arg0) = lev0 V0 (Proc.devRef .tc main_arg0) := (filt21_keep (lev21 V0) (r := main_arg0) (by decide)).trans (Xto0_21 V0)
theorem Xto0_23 (V0 : Valuation τ sig (Elt F)) : lev23 V0 (Proc.devRef .tc main_arg0) = lev0 V0 (Proc.devRef .tc main_arg0) := (filt22_keep (lev22 V0) (r := main_arg0) (by decide)).trans (Xto0_22 V0)
theorem Xto0_24 (V0 : Valuation τ sig (Elt F)) : lev24 V0 (Proc.devRef .tc main_arg0) = lev0 V0 (Proc.devRef .tc main_arg0) := (filt23_keep (lev23 V0) (r := main_arg0) (by decide)).trans (Xto0_23 V0)
theorem Xto0_25 (V0 : Valuation τ sig (Elt F)) : lev25 V0 (Proc.devRef .tc main_arg0) = lev0 V0 (Proc.devRef .tc main_arg0) := (filt24_keep (lev24 V0) (r := main_arg0) (by decide)).trans (Xto0_24 V0)
theorem Xto0_26 (V0 : Valuation τ sig (Elt F)) : lev26 V0 (Proc.devRef .tc main_arg0) = lev0 V0 (Proc.devRef .tc main_arg0) := (filt25_keep (lev25 V0) (r := main_arg0) (by decide)).trans (Xto0_25 V0)
theorem Xto0_27 (V0 : Valuation τ sig (Elt F)) : lev27 V0 (Proc.devRef .tc main_arg0) = lev0 V0 (Proc.devRef .tc main_arg0) := (filt26_keep (lev26 V0) (r := main_arg0) (by decide)).trans (Xto0_26 V0)
theorem Xto0_28 (V0 : Valuation τ sig (Elt F)) : lev28 V0 (Proc.devRef .tc main_arg0) = lev0 V0 (Proc.devRef .tc main_arg0) := (filt27_keep (lev27 V0) (r := main_arg0) (by decide)).trans (Xto0_27 V0)
theorem Xto0_29 (V0 : Valuation τ sig (Elt F)) : lev29 V0 (Proc.devRef .tc main_arg0) = lev0 V0 (Proc.devRef .tc main_arg0) := (filt28_keep (lev28 V0) (r := main_arg0) (by decide)).trans (Xto0_28 V0)
theorem Xto0_30 (V0 : Valuation τ sig (Elt F)) : lev30 V0 (Proc.devRef .tc main_arg0) = lev0 V0 (Proc.devRef .tc main_arg0) := (filt29_keep (lev29 V0) (r := main_arg0) (by decide)).trans (Xto0_29 V0)
theorem Xto0_31 (V0 : Valuation τ sig (Elt F)) : lev31 V0 (Proc.devRef .tc main_arg0) = lev0 V0 (Proc.devRef .tc main_arg0) := (filt30_keep (lev30 V0) (r := main_arg0) (by decide)).trans (Xto0_30 V0)
theorem Xto0_32 (V0 : Valuation τ sig (Elt F)) : lev32 V0 (Proc.devRef .tc main_arg0) = lev0 V0 (Proc.devRef .tc main_arg0) := (filt31_keep (lev31 V0) (r := main_arg0) (by decide)).trans (Xto0_31 V0)
theorem Xto0_33 (V0 : Valuation τ sig (Elt F)) : lev33 V0 (Proc.devRef .tc main_arg0) = lev0 V0 (Proc.devRef .tc main_arg0) := (filt32_keep (lev32 V0) (r := main_arg0) (by decide)).trans (Xto0_32 V0)
theorem Xto0_34 (V0 : Valuation τ sig (Elt F)) : lev34 V0 (Proc.devRef .tc main_arg0) = lev0 V0 (Proc.devRef .tc main_arg0) := (filt33_keep (lev33 V0) (r := main_arg0) (by decide)).trans (Xto0_33 V0)
theorem Xto0_35 (V0 : Valuation τ sig (Elt F)) : lev35 V0 (Proc.devRef .tc main_arg0) = lev0 V0 (Proc.devRef .tc main_arg0) := (filt34_keep (lev34 V0) (r := main_arg0) (by decide)).trans (Xto0_34 V0)
theorem Xto0_36 (V0 : Valuation τ sig (Elt F)) : lev36 V0 (Proc.devRef .tc main_arg0) = lev0 V0 (Proc.devRef .tc main_arg0) := (filt35_keep (lev35 V0) (r := main_arg0) (by decide)).trans (Xto0_35 V0)
theorem Xto0_37 (V0 : Valuation τ sig (Elt F)) : lev37 V0 (Proc.devRef .tc main_arg0) = lev0 V0 (Proc.devRef .tc main_arg0) := (filt36_keep (lev36 V0) (r := main_arg0) (by decide)).trans (Xto0_36 V0)
theorem Xto0_38 (V0 : Valuation τ sig (Elt F)) : lev38 V0 (Proc.devRef .tc main_arg0) = lev0 V0 (Proc.devRef .tc main_arg0) := (filt37_keep (lev37 V0) (r := main_arg0) (by decide)).trans (Xto0_37 V0)
theorem Xto0_39 (V0 : Valuation τ sig (Elt F)) : lev39 V0 (Proc.devRef .tc main_arg0) = lev0 V0 (Proc.devRef .tc main_arg0) := (filt38_keep (lev38 V0) (r := main_arg0) (by decide)).trans (Xto0_38 V0)
theorem Xto0_40 (V0 : Valuation τ sig (Elt F)) : lev40 V0 (Proc.devRef .tc main_arg0) = lev0 V0 (Proc.devRef .tc main_arg0) := (filt39_keep (lev39 V0) (r := main_arg0) (by decide)).trans (Xto0_39 V0)
theorem Xto0_41 (V0 : Valuation τ sig (Elt F)) : lev41 V0 (Proc.devRef .tc main_arg0) = lev0 V0 (Proc.devRef .tc main_arg0) := (filt40_keep (lev40 V0) (r := main_arg0) (by decide)).trans (Xto0_40 V0)
theorem Xto0_42 (V0 : Valuation τ sig (Elt F)) : lev42 V0 (Proc.devRef .tc main_arg0) = lev0 V0 (Proc.devRef .tc main_arg0) := (filt41_keep (lev41 V0) (r := main_arg0) (by decide)).trans (Xto0_41 V0)
theorem Xto0_43 (V0 : Valuation τ sig (Elt F)) : lev43 V0 (Proc.devRef .tc main_arg0) = lev0 V0 (Proc.devRef .tc main_arg0) := (filt42_keep (lev42 V0) (r := main_arg0) (by decide)).trans (Xto0_42 V0)
theorem Xto0_44 (V0 : Valuation τ sig (Elt F)) : lev44 V0 (Proc.devRef .tc main_arg0) = lev0 V0 (Proc.devRef .tc main_arg0) := (filt43_keep (lev43 V0) (r := main_arg0) (by decide)).trans (Xto0_43 V0)
theorem Xto0_45 (V0 : Valuation τ sig (Elt F)) : lev45 V0 (Proc.devRef .tc main_arg0) = lev0 V0 (Proc.devRef .tc main_arg0) := (filt44_keep (lev44 V0) (r := main_arg0) (by decide)).trans (Xto0_44 V0)
theorem Xto0_46 (V0 : Valuation τ sig (Elt F)) : lev46 V0 (Proc.devRef .tc main_arg0) = lev0 V0 (Proc.devRef .tc main_arg0) := (filt45_keep (lev45 V0) (r := main_arg0) (by decide)).trans (Xto0_45 V0)
theorem Xto0_47 (V0 : Valuation τ sig (Elt F)) : lev47 V0 (Proc.devRef .tc main_arg0) = lev0 V0 (Proc.devRef .tc main_arg0) := (filt46_keep (lev46 V0) (r := main_arg0) (by decide)).trans (Xto0_46 V0)
theorem Xto0_48 (V0 : Valuation τ sig (Elt F)) : lev48 V0 (Proc.devRef .tc main_arg0) = lev0 V0 (Proc.devRef .tc main_arg0) := (filt47_keep (lev47 V0) (r := main_arg0) (by decide)).trans (Xto0_47 V0)
theorem Xto0_49 (V0 : Valuation τ sig (Elt F)) : lev49 V0 (Proc.devRef .tc main_arg0) = lev0 V0 (Proc.devRef .tc main_arg0) := (filt48_keep (lev48 V0) (r := main_arg0) (by decide)).trans (Xto0_48 V0)
theorem Xto0_50 (V0 : Valuation τ sig (Elt F)) : lev50 V0 (Proc.devRef .tc main_arg0) = lev0 V0 (Proc.devRef .tc main_arg0) := (filt49_keep (lev49 V0) (r := main_arg0) (by decide)).trans (Xto0_49 V0)
theorem Xto0_51 (V0 : Valuation τ sig (Elt F)) : lev51 V0 (Proc.devRef .tc main_arg0) = lev0 V0 (Proc.devRef .tc main_arg0) := (filt50_keep (lev50 V0) (r := main_arg0) (by decide)).trans (Xto0_50 V0)
theorem Xto0_52 (V0 : Valuation τ sig (Elt F)) : lev52 V0 (Proc.devRef .tc main_arg0) = lev0 V0 (Proc.devRef .tc main_arg0) := (filt51_keep (lev51 V0) (r := main_arg0) (by decide)).trans (Xto0_51 V0)
theorem Xto0_53 (V0 : Valuation τ sig (Elt F)) : lev53 V0 (Proc.devRef .tc main_arg0) = lev0 V0 (Proc.devRef .tc main_arg0) := (filt52_keep (lev52 V0) (r := main_arg0) (by decide)).trans (Xto0_52 V0)
theorem Xto0_54 (V0 : Valuation τ sig (Elt F)) : lev54 V0 (Proc.devRef .tc main_arg0) = lev0 V0 (Proc.devRef .tc main_arg0) := (filt53_keep (lev53 V0) (r := main_arg0) (by decide)).trans (Xto0_53 V0)
theorem Xto0_55 (V0 : Valuation τ sig (Elt F)) : lev55 V0 (Proc.devRef .tc main_arg0) = lev0 V0 (Proc.devRef .tc main_arg0) := (filt54_keep (lev54 V0) (r := main_arg0) (by decide)).trans (Xto0_54 V0)
theorem Xto0_56 (V0 : Valuation τ sig (Elt F)) : lev56 V0 (Proc.devRef .tc main_arg0) = lev0 V0 (Proc.devRef .tc main_arg0) := (filt55_keep (lev55 V0) (r := main_arg0) (by decide)).trans (Xto0_55 V0)
theorem Xto0_57 (V0 : Valuation τ sig (Elt F)) : lev57 V0 (Proc.devRef .tc main_arg0) = lev0 V0 (Proc.devRef .tc main_arg0) := (filt56_keep (lev56 V0) (r := main_arg0) (by decide)).trans (Xto0_56 V0)
theorem Xto0_58 (V0 : Valuation τ sig (Elt F)) : lev58 V0 (Proc.devRef .tc main_arg0) = lev0 V0 (Proc.devRef .tc main_arg0) := (filt57_keep (lev57 V0) (r := main_arg0) (by decide)).trans (Xto0_57 V0)
theorem Xto0_59 (V0 : Valuation τ sig (Elt F)) : lev59 V0 (Proc.devRef .tc main_arg0) = lev0 V0 (Proc.devRef .tc main_arg0) := (filt58_keep (lev58 V0) (r := main_arg0) (by decide)).trans (Xto0_58 V0)
theorem Xto0_60 (V0 : Valuation τ sig (Elt F)) : lev60 V0 (Proc.devRef .tc main_arg0) = lev0 V0 (Proc.devRef .tc main_arg0) := (filt59_keep (lev59 V0) (r := main_arg0) (by decide)).trans (Xto0_59 V0)
theorem Xto0_61 (V0 : Valuation τ sig (Elt F)) : lev61 V0 (Proc.devRef .tc main_arg0) = lev0 V0 (Proc.devRef .tc main_arg0) := (filt60_keep (lev60 V0) (r := main_arg0) (by decide)).trans (Xto0_60 V0)
theorem Xto0_62 (V0 : Valuation τ sig (Elt F)) : lev62 V0 (Proc.devRef .tc main_arg0) = lev0 V0 (Proc.devRef .tc main_arg0) := (filt61_keep (lev61 V0) (r := main_arg0) (by decide)).trans (Xto0_61 V0)
theorem Xto0_63 (V0 : Valuation τ sig (Elt F)) : lev63 V0 (Proc.devRef .tc main_arg0) = lev0 V0 (Proc.devRef .tc main_arg0) := (filt62_keep (lev62 V0) (r := main_arg0) (by decide)).trans (Xto0_62 V0)
theorem Xto0_64 (V0 : Valuation τ sig (Elt F)) : lev64 V0 (Proc.devRef .tc main_arg0) = lev0 V0 (Proc.devRef .tc main_arg0) := (filt63_keep (lev63 V0) (r := main_arg0) (by decide)).trans (Xto0_63 V0)
theorem Mto0_0 (V0 : Valuation τ sig (Elt F)) : lev0 V0 (Proc.devRef .tc main_arg1) = lev0 V0 (Proc.devRef .tc main_arg1) := rfl
theorem Mto0_1 (V0 : Valuation τ sig (Elt F)) : lev1 V0 (Proc.devRef .tc main_arg1) = lev0 V0 (Proc.devRef .tc main_arg1) := (filt0_keep (lev0 V0) (r := main_arg1) (by decide)).trans (Mto0_0 V0)
theorem Mto0_2 (V0 : Valuation τ sig (Elt F)) : lev2 V0 (Proc.devRef .tc main_arg1) = lev0 V0 (Proc.devRef .tc main_arg1) := (filt1_keep (lev1 V0) (r := main_arg1) (by decide)).trans (Mto0_1 V0)
theorem Mto0_3 (V0 : Valuation τ sig (Elt F)) : lev3 V0 (Proc.devRef .tc main_arg1) = lev0 V0 (Proc.devRef .tc main_arg1) := (filt2_keep (lev2 V0) (r := main_arg1) (by decide)).trans (Mto0_2 V0)
theorem Mto0_4 (V0 : Valuation τ sig (Elt F)) : lev4 V0 (Proc.devRef .tc main_arg1) = lev0 V0 (Proc.devRef .tc main_arg1) := (filt3_keep (lev3 V0) (r := main_arg1) (by decide)).trans (Mto0_3 V0)
theorem Mto0_5 (V0 : Valuation τ sig (Elt F)) : lev5 V0 (Proc.devRef .tc main_arg1) = lev0 V0 (Proc.devRef .tc main_arg1) := (filt4_keep (lev4 V0) (r := main_arg1) (by decide)).trans (Mto0_4 V0)
theorem Mto0_6 (V0 : Valuation τ sig (Elt F)) : lev6 V0 (Proc.devRef .tc main_arg1) = lev0 V0 (Proc.devRef .tc main_arg1) := (filt5_keep (lev5 V0) (r := main_arg1) (by decide)).trans (Mto0_5 V0)
theorem Mto0_7 (V0 : Valuation τ sig (Elt F)) : lev7 V0 (Proc.devRef .tc main_arg1) = lev0 V0 (Proc.devRef .tc main_arg1) := (filt6_keep (lev6 V0) (r := main_arg1) (by decide)).trans (Mto0_6 V0)
theorem Mto0_8 (V0 : Valuation τ sig (Elt F)) : lev8 V0 (Proc.devRef .tc main_arg1) = lev0 V0 (Proc.devRef .tc main_arg1) := (filt7_keep (lev7 V0) (r := main_arg1) (by decide)).trans (Mto0_7 V0)
theorem Mto0_9 (V0 : Valuation τ sig (Elt F)) : lev9 V0 (Proc.devRef .tc main_arg1) = lev0 V0 (Proc.devRef .tc main_arg1) := (filt8_keep (lev8 V0) (r := main_arg1) (by decide)).trans (Mto0_8 V0)
theorem Mto0_10 (V0 : Valuation τ sig (Elt F)) : lev10 V0 (Proc.devRef .tc main_arg1) = lev0 V0 (Proc.devRef .tc main_arg1) := (filt9_keep (lev9 V0) (r := main_arg1) (by decide)).trans (Mto0_9 V0)
theorem Mto0_11 (V0 : Valuation τ sig (Elt F)) : lev11 V0 (Proc.devRef .tc main_arg1) = lev0 V0 (Proc.devRef .tc main_arg1) := (filt10_keep (lev10 V0) (r := main_arg1) (by decide)).trans (Mto0_10 V0)
theorem Mto0_12 (V0 : Valuation τ sig (Elt F)) : lev12 V0 (Proc.devRef .tc main_arg1) = lev0 V0 (Proc.devRef .tc main_arg1) := (filt11_keep (lev11 V0) (r := main_arg1) (by decide)).trans (Mto0_11 V0)
theorem Mto0_13 (V0 : Valuation τ sig (Elt F)) : lev13 V0 (Proc.devRef .tc main_arg1) = lev0 V0 (Proc.devRef .tc main_arg1) := (filt12_keep (lev12 V0) (r := main_arg1) (by decide)).trans (Mto0_12 V0)
theorem Mto0_14 (V0 : Valuation τ sig (Elt F)) : lev14 V0 (Proc.devRef .tc main_arg1) = lev0 V0 (Proc.devRef .tc main_arg1) := (filt13_keep (lev13 V0) (r := main_arg1) (by decide)).trans (Mto0_13 V0)
theorem Mto0_15 (V0 : Valuation τ sig (Elt F)) : lev15 V0 (Proc.devRef .tc main_arg1) = lev0 V0 (Proc.devRef .tc main_arg1) := (filt14_keep (lev14 V0) (r := main_arg1) (by decide)).trans (Mto0_14 V0)
theorem Mto0_16 (V0 : Valuation τ sig (Elt F)) : lev16 V0 (Proc.devRef .tc main_arg1) = lev0 V0 (Proc.devRef .tc main_arg1) := (filt15_keep (lev15 V0) (r := main_arg1) (by decide)).trans (Mto0_15 V0)
theorem Mto0_17 (V0 : Valuation τ sig (Elt F)) : lev17 V0 (Proc.devRef .tc main_arg1) = lev0 V0 (Proc.devRef .tc main_arg1) := (filt16_keep (lev16 V0) (r := main_arg1) (by decide)).trans (Mto0_16 V0)
theorem Mto0_18 (V0 : Valuation τ sig (Elt F)) : lev18 V0 (Proc.devRef .tc main_arg1) = lev0 V0 (Proc.devRef .tc main_arg1) := (filt17_keep (lev17 V0) (r := main_arg1) (by decide)).trans (Mto0_17 V0)
theorem Mto0_19 (V0 : Valuation τ sig (Elt F)) : lev19 V0 (Proc.devRef .tc main_arg1) = lev0 V0 (Proc.devRef .tc main_arg1) := (filt18_keep (lev18 V0) (r := main_arg1) (by decide)).trans (Mto0_18 V0)
theorem Mto0_20 (V0 : Valuation τ sig (Elt F)) : lev20 V0 (Proc.devRef .tc main_arg1) = lev0 V0 (Proc.devRef .tc main_arg1) := (filt19_keep (lev19 V0) (r := main_arg1) (by decide)).trans (Mto0_19 V0)
theorem Mto0_21 (V0 : Valuation τ sig (Elt F)) : lev21 V0 (Proc.devRef .tc main_arg1) = lev0 V0 (Proc.devRef .tc main_arg1) := (filt20_keep (lev20 V0) (r := main_arg1) (by decide)).trans (Mto0_20 V0)
theorem Mto0_22 (V0 : Valuation τ sig (Elt F)) : lev22 V0 (Proc.devRef .tc main_arg1) = lev0 V0 (Proc.devRef .tc main_arg1) := (filt21_keep (lev21 V0) (r := main_arg1) (by decide)).trans (Mto0_21 V0)
theorem Mto0_23 (V0 : Valuation τ sig (Elt F)) : lev23 V0 (Proc.devRef .tc main_arg1) = lev0 V0 (Proc.devRef .tc main_arg1) := (filt22_keep (lev22 V0) (r := main_arg1) (by decide)).trans (Mto0_22 V0)
theorem Mto0_24 (V0 : Valuation τ sig (Elt F)) : lev24 V0 (Proc.devRef .tc main_arg1) = lev0 V0 (Proc.devRef .tc main_arg1) := (filt23_keep (lev23 V0) (r := main_arg1) (by decide)).trans (Mto0_23 V0)
theorem Mto0_25 (V0 : Valuation τ sig (Elt F)) : lev25 V0 (Proc.devRef .tc main_arg1) = lev0 V0 (Proc.devRef .tc main_arg1) := (filt24_keep (lev24 V0) (r := main_arg1) (by decide)).trans (Mto0_24 V0)
theorem Mto0_26 (V0 : Valuation τ sig (Elt F)) : lev26 V0 (Proc.devRef .tc main_arg1) = lev0 V0 (Proc.devRef .tc main_arg1) := (filt25_keep (lev25 V0) (r := main_arg1) (by decide)).trans (Mto0_25 V0)
theorem Mto0_27 (V0 : Valuation τ sig (Elt F)) : lev27 V0 (Proc.devRef .tc main_arg1) = lev0 V0 (Proc.devRef .tc main_arg1) := (filt26_keep (lev26 V0) (r := main_arg1) (by decide)).trans (Mto0_26 V0)
theorem Mto0_28 (V0 : Valuation τ sig (Elt F)) : lev28 V0 (Proc.devRef .tc main_arg1) = lev0 V0 (Proc.devRef .tc main_arg1) := (filt27_keep (lev27 V0) (r := main_arg1) (by decide)).trans (Mto0_27 V0)
theorem Mto0_29 (V0 : Valuation τ sig (Elt F)) : lev29 V0 (Proc.devRef .tc main_arg1) = lev0 V0 (Proc.devRef .tc main_arg1) := (filt28_keep (lev28 V0) (r := main_arg1) (by decide)).trans (Mto0_28 V0)
theorem Mto0_30 (V0 : Valuation τ sig (Elt F)) : lev30 V0 (Proc.devRef .tc main_arg1) = lev0 V0 (Proc.devRef .tc main_arg1) := (filt29_keep (lev29 V0) (r := main_arg1) (by decide)).trans (Mto0_29 V0)
theorem Mto0_31 (V0 : Valuation τ sig (Elt F)) : lev31 V0 (Proc.devRef .tc main_arg1) = lev0 V0 (Proc.devRef .tc main_arg1) := (filt30_keep (lev30 V0) (r := main_arg1) (by decide)).trans (Mto0_30 V0)
theorem Mto0_32 (V0 : Valuation τ sig (Elt F)) : lev32 V0 (Proc.devRef .tc main_arg1) = lev0 V0 (Proc.devRef .tc main_arg1) := (filt31_keep (lev31 V0) (r := main_arg1) (by decide)).trans (Mto0_31 V0)
theorem Mto0_33 (V0 : Valuation τ sig (Elt F)) : lev33 V0 (Proc.devRef .tc main_arg1) = lev0 V0 (Proc.devRef .tc main_arg1) := (filt32_keep (lev32 V0) (r := main_arg1) (by decide)).trans (Mto0_32 V0)
theorem Mto0_34 (V0 : Valuation τ sig (Elt F)) : lev34 V0 (Proc.devRef .tc main_arg1) = lev0 V0 (Proc.devRef .tc main_arg1) := (filt33_keep (lev33 V0) (r := main_arg1) (by decide)).trans (Mto0_33 V0)
theorem Mto0_35 (V0 : Valuation τ sig (Elt F)) : lev35 V0 (Proc.devRef .tc main_arg1) = lev0 V0 (Proc.devRef .tc main_arg1) := (filt34_keep (lev34 V0) (r := main_arg1) (by decide)).trans (Mto0_34 V0)
theorem Mto0_36 (V0 : Valuation τ sig (Elt F)) : lev36 V0 (Proc.devRef .tc main_arg1) = lev0 V0 (Proc.devRef .tc main_arg1) := (filt35_keep (lev35 V0) (r := main_arg1) (by decide)).trans (Mto0_35 V0)
theorem Mto0_37 (V0 : Valuation τ sig (Elt F)) : lev37 V0 (Proc.devRef .tc main_arg1) = lev0 V0 (Proc.devRef .tc main_arg1) := (filt36_keep (lev36 V0) (r := main_arg1) (by decide)).trans (Mto0_36 V0)
theorem Mto0_38 (V0 : Valuation τ sig (Elt F)) : lev38 V0 (Proc.devRef .tc main_arg1) = lev0 V0 (Proc.devRef .tc main_arg1) := (filt37_keep (lev37 V0) (r := main_arg1) (by decide)).trans (Mto0_37 V0)
theorem Mto0_39 (V0 : Valuation τ sig (Elt F)) : lev39 V0 (Proc.devRef .tc main_arg1) = lev0 V0 (Proc.devRef .tc main_arg1) := (filt38_keep (lev38 V0) (r := main_arg1) (by decide)).trans (Mto0_38 V0)
theorem Mto0_40 (V0 : Valuation τ sig (Elt F)) : lev40 V0 (Proc.devRef .tc main_arg1) = lev0 V0 (Proc.devRef .tc main_arg1) := (filt39_keep (lev39 V0) (r := main_arg1) (by decide)).trans (Mto0_39 V0)
theorem Mto0_41 (V0 : Valuation τ sig (Elt F)) : lev41 V0 (Proc.devRef .tc main_arg1) = lev0 V0 (Proc.devRef .tc main_arg1) := (filt40_keep (lev40 V0) (r := main_arg1) (by decide)).trans (Mto0_40 V0)
theorem Mto0_42 (V0 : Valuation τ sig (Elt F)) : lev42 V0 (Proc.devRef .tc main_arg1) = lev0 V0 (Proc.devRef .tc main_arg1) := (filt41_keep (lev41 V0) (r := main_arg1) (by decide)).trans (Mto0_41 V0)
theorem Mto0_43 (V0 : Valuation τ sig (Elt F)) : lev43 V0 (Proc.devRef .tc main_arg1) = lev0 V0 (Proc.devRef .tc main_arg1) := (filt42_keep (lev42 V0) (r := main_arg1) (by decide)).trans (Mto0_42 V0)
theorem Mto0_44 (V0 : Valuation τ sig (Elt F)) : lev44 V0 (Proc.devRef .tc main_arg1) = lev0 V0 (Proc.devRef .tc main_arg1) := (filt43_keep (lev43 V0) (r := main_arg1) (by decide)).trans (Mto0_43 V0)
theorem Mto0_45 (V0 : Valuation τ sig (Elt F)) : lev45 V0 (Proc.devRef .tc main_arg1) = lev0 V0 (Proc.devRef .tc main_arg1) := (filt44_keep (lev44 V0) (r := main_arg1) (by decide)).trans (Mto0_44 V0)
theorem Mto0_46 (V0 : Valuation τ sig (Elt F)) : lev46 V0 (Proc.devRef .tc main_arg1) = lev0 V0 (Proc.devRef .tc main_arg1) := (filt45_keep (lev45 V0) (r := main_arg1) (by decide)).trans (Mto0_45 V0)
theorem Mto0_47 (V0 : Valuation τ sig (Elt F)) : lev47 V0 (Proc.devRef .tc main_arg1) = lev0 V0 (Proc.devRef .tc main_arg1) := (filt46_keep (lev46 V0) (r := main_arg1) (by decide)).trans (Mto0_46 V0)
theorem Mto0_48 (V0 : Valuation τ sig (Elt F)) : lev48 V0 (Proc.devRef .tc main_arg1) = lev0 V0 (Proc.devRef .tc main_arg1) := (filt47_keep (lev47 V0) (r := main_arg1) (by decide)).trans (Mto0_47 V0)
theorem Mto0_49 (V0 : Valuation τ sig (Elt F)) : lev49 V0 (Proc.devRef .tc main_arg1) = lev0 V0 (Proc.devRef .tc main_arg1) := (filt48_keep (lev48 V0) (r := main_arg1) (by decide)).trans (Mto0_48 V0)
theorem Mto0_50 (V0 : Valuation τ sig (Elt F)) : lev50 V0 (Proc.devRef .tc main_arg1) = lev0 V0 (Proc.devRef .tc main_arg1) := (filt49_keep (lev49 V0) (r := main_arg1) (by decide)).trans (Mto0_49 V0)
theorem Mto0_51 (V0 : Valuation τ sig (Elt F)) : lev51 V0 (Proc.devRef .tc main_arg1) = lev0 V0 (Proc.devRef .tc main_arg1) := (filt50_keep (lev50 V0) (r := main_arg1) (by decide)).trans (Mto0_50 V0)
theorem Mto0_52 (V0 : Valuation τ sig (Elt F)) : lev52 V0 (Proc.devRef .tc main_arg1) = lev0 V0 (Proc.devRef .tc main_arg1) := (filt51_keep (lev51 V0) (r := main_arg1) (by decide)).trans (Mto0_51 V0)
theorem Mto0_53 (V0 : Valuation τ sig (Elt F)) : lev53 V0 (Proc.devRef .tc main_arg1) = lev0 V0 (Proc.devRef .tc main_arg1) := (filt52_keep (lev52 V0) (r := main_arg1) (by decide)).trans (Mto0_52 V0)
theorem Mto0_54 (V0 : Valuation τ sig (Elt F)) : lev54 V0 (Proc.devRef .tc main_arg1) = lev0 V0 (Proc.devRef .tc main_arg1) := (filt53_keep (lev53 V0) (r := main_arg1) (by decide)).trans (Mto0_53 V0)
theorem Mto0_55 (V0 : Valuation τ sig (Elt F)) : lev55 V0 (Proc.devRef .tc main_arg1) = lev0 V0 (Proc.devRef .tc main_arg1) := (filt54_keep (lev54 V0) (r := main_arg1) (by decide)).trans (Mto0_54 V0)
theorem Mto0_56 (V0 : Valuation τ sig (Elt F)) : lev56 V0 (Proc.devRef .tc main_arg1) = lev0 V0 (Proc.devRef .tc main_arg1) := (filt55_keep (lev55 V0) (r := main_arg1) (by decide)).trans (Mto0_55 V0)
theorem Mto0_57 (V0 : Valuation τ sig (Elt F)) : lev57 V0 (Proc.devRef .tc main_arg1) = lev0 V0 (Proc.devRef .tc main_arg1) := (filt56_keep (lev56 V0) (r := main_arg1) (by decide)).trans (Mto0_56 V0)
theorem Mto0_58 (V0 : Valuation τ sig (Elt F)) : lev58 V0 (Proc.devRef .tc main_arg1) = lev0 V0 (Proc.devRef .tc main_arg1) := (filt57_keep (lev57 V0) (r := main_arg1) (by decide)).trans (Mto0_57 V0)
theorem Mto0_59 (V0 : Valuation τ sig (Elt F)) : lev59 V0 (Proc.devRef .tc main_arg1) = lev0 V0 (Proc.devRef .tc main_arg1) := (filt58_keep (lev58 V0) (r := main_arg1) (by decide)).trans (Mto0_58 V0)
theorem Mto0_60 (V0 : Valuation τ sig (Elt F)) : lev60 V0 (Proc.devRef .tc main_arg1) = lev0 V0 (Proc.devRef .tc main_arg1) := (filt59_keep (lev59 V0) (r := main_arg1) (by decide)).trans (Mto0_59 V0)
theorem Mto0_61 (V0 : Valuation τ sig (Elt F)) : lev61 V0 (Proc.devRef .tc main_arg1) = lev0 V0 (Proc.devRef .tc main_arg1) := (filt60_keep (lev60 V0) (r := main_arg1) (by decide)).trans (Mto0_60 V0)
theorem Mto0_62 (V0 : Valuation τ sig (Elt F)) : lev62 V0 (Proc.devRef .tc main_arg1) = lev0 V0 (Proc.devRef .tc main_arg1) := (filt61_keep (lev61 V0) (r := main_arg1) (by decide)).trans (Mto0_61 V0)
theorem Mto0_63 (V0 : Valuation τ sig (Elt F)) : lev63 V0 (Proc.devRef .tc main_arg1) = lev0 V0 (Proc.devRef .tc main_arg1) := (filt62_keep (lev62 V0) (r := main_arg1) (by decide)).trans (Mto0_62 V0)
theorem Mto0_64 (V0 : Valuation τ sig (Elt F)) : lev64 V0 (Proc.devRef .tc main_arg1) = lev0 V0 (Proc.devRef .tc main_arg1) := (filt63_keep (lev63 V0) (r := main_arg1) (by decide)).trans (Mto0_63 V0)

theorem k0_2 (V0 : Valuation τ sig (Elt F)) : lev2 V0 (Proc.devRef .tc main_v23) = lev1 V0 (Proc.devRef .tc main_v23) := (filt1_keep (lev1 V0) (r := main_v23) (by decide))
theorem k0_3 (V0 : Valuation τ sig (Elt F)) : lev3 V0 (Proc.devRef .tc main_v23) = lev1 V0 (Proc.devRef .tc main_v23) := (filt2_keep (lev2 V0) (r := main_v23) (by decide)).trans (k0_2 V0)
theorem k0_4 (V0 : Valuation τ sig (Elt F)) : lev4 V0 (Proc.devRef .tc main_v23) = lev1 V0 (Proc.devRef .tc main_v23) := (filt3_keep (lev3 V0) (r := main_v23) (by decide)).trans (k0_3 V0)
theorem k0_5 (V0 : Valuation τ sig (Elt F)) : lev5 V0 (Proc.devRef .tc main_v23) = lev1 V0 (Proc.devRef .tc main_v23) := (filt4_keep (lev4 V0) (r := main_v23) (by decide)).trans (k0_4 V0)
theorem k0_6 (V0 : Valuation τ sig (Elt F)) : lev6 V0 (Proc.devRef .tc main_v23) = lev1 V0 (Proc.devRef .tc main_v23) := (filt5_keep (lev5 V0) (r := main_v23) (by decide)).trans (k0_5 V0)
theorem k0_7 (V0 : Valuation τ sig (Elt F)) : lev7 V0 (Proc.devRef .tc main_v23) = lev1 V0 (Proc.devRef .tc main_v23) := (filt6_keep (lev6 V0) (r := main_v23) (by decide)).trans (k0_6 V0)
theorem k0_8 (V0 : Valuation τ sig (Elt F)) : lev8 V0 (Proc.devRef .tc main_v23) = lev1 V0 (Proc.devRef .tc main_v23) := (filt7_keep (lev7 V0) (r := main_v23) (by decide)).trans (k0_7 V0)
theorem k0_9 (V0 : Valuation τ sig (Elt F)) : lev9 V0 (Proc.devRef .tc main_v23) = lev1 V0 (Proc.devRef .tc main_v23) := (filt8_keep (lev8 V0) (r := main_v23) (by decide)).trans (k0_8 V0)
theorem k0_10 (V0 : Valuation τ sig (Elt F)) : lev10 V0 (Proc.devRef .tc main_v23) = lev1 V0 (Proc.devRef .tc main_v23) := (filt9_keep (lev9 V0) (r := main_v23) (by decide)).trans (k0_9 V0)
theorem k0_11 (V0 : Valuation τ sig (Elt F)) : lev11 V0 (Proc.devRef .tc main_v23) = lev1 V0 (Proc.devRef .tc main_v23) := (filt10_keep (lev10 V0) (r := main_v23) (by decide)).trans (k0_10 V0)
theorem k0_12 (V0 : Valuation τ sig (Elt F)) : lev12 V0 (Proc.devRef .tc main_v23) = lev1 V0 (Proc.devRef .tc main_v23) := (filt11_keep (lev11 V0) (r := main_v23) (by decide)).trans (k0_11 V0)
theorem k0_13 (V0 : Valuation τ sig (Elt F)) : lev13 V0 (Proc.devRef .tc main_v23) = lev1 V0 (Proc.devRef .tc main_v23) := (filt12_keep (lev12 V0) (r := main_v23) (by decide)).trans (k0_12 V0)
theorem k0_14 (V0 : Valuation τ sig (Elt F)) : lev14 V0 (Proc.devRef .tc main_v23) = lev1 V0 (Proc.devRef .tc main_v23) := (filt13_keep (lev13 V0) (r := main_v23) (by decide)).trans (k0_13 V0)
theorem k0_15 (V0 : Valuation τ sig (Elt F)) : lev15 V0 (Proc.devRef .tc main_v23) = lev1 V0 (Proc.devRef .tc main_v23) := (filt14_keep (lev14 V0) (r := main_v23) (by decide)).trans (k0_14 V0)
theorem k0_16 (V0 : Valuation τ sig (Elt F)) : lev16 V0 (Proc.devRef .tc main_v23) = lev1 V0 (Proc.devRef .tc main_v23) := (filt15_keep (lev15 V0) (r := main_v23) (by decide)).trans (k0_15 V0)
theorem k0_17 (V0 : Valuation τ sig (Elt F)) : lev17 V0 (Proc.devRef .tc main_v23) = lev1 V0 (Proc.devRef .tc main_v23) := (filt16_keep (lev16 V0) (r := main_v23) (by decide)).trans (k0_16 V0)
theorem k0_18 (V0 : Valuation τ sig (Elt F)) : lev18 V0 (Proc.devRef .tc main_v23) = lev1 V0 (Proc.devRef .tc main_v23) := (filt17_keep (lev17 V0) (r := main_v23) (by decide)).trans (k0_17 V0)
theorem k0_19 (V0 : Valuation τ sig (Elt F)) : lev19 V0 (Proc.devRef .tc main_v23) = lev1 V0 (Proc.devRef .tc main_v23) := (filt18_keep (lev18 V0) (r := main_v23) (by decide)).trans (k0_18 V0)
theorem k0_20 (V0 : Valuation τ sig (Elt F)) : lev20 V0 (Proc.devRef .tc main_v23) = lev1 V0 (Proc.devRef .tc main_v23) := (filt19_keep (lev19 V0) (r := main_v23) (by decide)).trans (k0_19 V0)
theorem k0_21 (V0 : Valuation τ sig (Elt F)) : lev21 V0 (Proc.devRef .tc main_v23) = lev1 V0 (Proc.devRef .tc main_v23) := (filt20_keep (lev20 V0) (r := main_v23) (by decide)).trans (k0_20 V0)
theorem k0_22 (V0 : Valuation τ sig (Elt F)) : lev22 V0 (Proc.devRef .tc main_v23) = lev1 V0 (Proc.devRef .tc main_v23) := (filt21_keep (lev21 V0) (r := main_v23) (by decide)).trans (k0_21 V0)
theorem k0_23 (V0 : Valuation τ sig (Elt F)) : lev23 V0 (Proc.devRef .tc main_v23) = lev1 V0 (Proc.devRef .tc main_v23) := (filt22_keep (lev22 V0) (r := main_v23) (by decide)).trans (k0_22 V0)
theorem k0_24 (V0 : Valuation τ sig (Elt F)) : lev24 V0 (Proc.devRef .tc main_v23) = lev1 V0 (Proc.devRef .tc main_v23) := (filt23_keep (lev23 V0) (r := main_v23) (by decide)).trans (k0_23 V0)
theorem k0_25 (V0 : Valuation τ sig (Elt F)) : lev25 V0 (Proc.devRef .tc main_v23) = lev1 V0 (Proc.devRef .tc main_v23) := (filt24_keep (lev24 V0) (r := main_v23) (by decide)).trans (k0_24 V0)
theorem k0_26 (V0 : Valuation τ sig (Elt F)) : lev26 V0 (Proc.devRef .tc main_v23) = lev1 V0 (Proc.devRef .tc main_v23) := (filt25_keep (lev25 V0) (r := main_v23) (by decide)).trans (k0_25 V0)
theorem k0_27 (V0 : Valuation τ sig (Elt F)) : lev27 V0 (Proc.devRef .tc main_v23) = lev1 V0 (Proc.devRef .tc main_v23) := (filt26_keep (lev26 V0) (r := main_v23) (by decide)).trans (k0_26 V0)
theorem k0_28 (V0 : Valuation τ sig (Elt F)) : lev28 V0 (Proc.devRef .tc main_v23) = lev1 V0 (Proc.devRef .tc main_v23) := (filt27_keep (lev27 V0) (r := main_v23) (by decide)).trans (k0_27 V0)
theorem k0_29 (V0 : Valuation τ sig (Elt F)) : lev29 V0 (Proc.devRef .tc main_v23) = lev1 V0 (Proc.devRef .tc main_v23) := (filt28_keep (lev28 V0) (r := main_v23) (by decide)).trans (k0_28 V0)
theorem k0_30 (V0 : Valuation τ sig (Elt F)) : lev30 V0 (Proc.devRef .tc main_v23) = lev1 V0 (Proc.devRef .tc main_v23) := (filt29_keep (lev29 V0) (r := main_v23) (by decide)).trans (k0_29 V0)
theorem k0_31 (V0 : Valuation τ sig (Elt F)) : lev31 V0 (Proc.devRef .tc main_v23) = lev1 V0 (Proc.devRef .tc main_v23) := (filt30_keep (lev30 V0) (r := main_v23) (by decide)).trans (k0_30 V0)
theorem k0_32 (V0 : Valuation τ sig (Elt F)) : lev32 V0 (Proc.devRef .tc main_v23) = lev1 V0 (Proc.devRef .tc main_v23) := (filt31_keep (lev31 V0) (r := main_v23) (by decide)).trans (k0_31 V0)
theorem k0_33 (V0 : Valuation τ sig (Elt F)) : lev33 V0 (Proc.devRef .tc main_v23) = lev1 V0 (Proc.devRef .tc main_v23) := (filt32_keep (lev32 V0) (r := main_v23) (by decide)).trans (k0_32 V0)
theorem k0_34 (V0 : Valuation τ sig (Elt F)) : lev34 V0 (Proc.devRef .tc main_v23) = lev1 V0 (Proc.devRef .tc main_v23) := (filt33_keep (lev33 V0) (r := main_v23) (by decide)).trans (k0_33 V0)
theorem k0_35 (V0 : Valuation τ sig (Elt F)) : lev35 V0 (Proc.devRef .tc main_v23) = lev1 V0 (Proc.devRef .tc main_v23) := (filt34_keep (lev34 V0) (r := main_v23) (by decide)).trans (k0_34 V0)
theorem k0_36 (V0 : Valuation τ sig (Elt F)) : lev36 V0 (Proc.devRef .tc main_v23) = lev1 V0 (Proc.devRef .tc main_v23) := (filt35_keep (lev35 V0) (r := main_v23) (by decide)).trans (k0_35 V0)
theorem k0_37 (V0 : Valuation τ sig (Elt F)) : lev37 V0 (Proc.devRef .tc main_v23) = lev1 V0 (Proc.devRef .tc main_v23) := (filt36_keep (lev36 V0) (r := main_v23) (by decide)).trans (k0_36 V0)
theorem k0_38 (V0 : Valuation τ sig (Elt F)) : lev38 V0 (Proc.devRef .tc main_v23) = lev1 V0 (Proc.devRef .tc main_v23) := (filt37_keep (lev37 V0) (r := main_v23) (by decide)).trans (k0_37 V0)
theorem k0_39 (V0 : Valuation τ sig (Elt F)) : lev39 V0 (Proc.devRef .tc main_v23) = lev1 V0 (Proc.devRef .tc main_v23) := (filt38_keep (lev38 V0) (r := main_v23) (by decide)).trans (k0_38 V0)
theorem k0_40 (V0 : Valuation τ sig (Elt F)) : lev40 V0 (Proc.devRef .tc main_v23) = lev1 V0 (Proc.devRef .tc main_v23) := (filt39_keep (lev39 V0) (r := main_v23) (by decide)).trans (k0_39 V0)
theorem k0_41 (V0 : Valuation τ sig (Elt F)) : lev41 V0 (Proc.devRef .tc main_v23) = lev1 V0 (Proc.devRef .tc main_v23) := (filt40_keep (lev40 V0) (r := main_v23) (by decide)).trans (k0_40 V0)
theorem k0_42 (V0 : Valuation τ sig (Elt F)) : lev42 V0 (Proc.devRef .tc main_v23) = lev1 V0 (Proc.devRef .tc main_v23) := (filt41_keep (lev41 V0) (r := main_v23) (by decide)).trans (k0_41 V0)
theorem k0_43 (V0 : Valuation τ sig (Elt F)) : lev43 V0 (Proc.devRef .tc main_v23) = lev1 V0 (Proc.devRef .tc main_v23) := (filt42_keep (lev42 V0) (r := main_v23) (by decide)).trans (k0_42 V0)
theorem k0_44 (V0 : Valuation τ sig (Elt F)) : lev44 V0 (Proc.devRef .tc main_v23) = lev1 V0 (Proc.devRef .tc main_v23) := (filt43_keep (lev43 V0) (r := main_v23) (by decide)).trans (k0_43 V0)
theorem k0_45 (V0 : Valuation τ sig (Elt F)) : lev45 V0 (Proc.devRef .tc main_v23) = lev1 V0 (Proc.devRef .tc main_v23) := (filt44_keep (lev44 V0) (r := main_v23) (by decide)).trans (k0_44 V0)
theorem k0_46 (V0 : Valuation τ sig (Elt F)) : lev46 V0 (Proc.devRef .tc main_v23) = lev1 V0 (Proc.devRef .tc main_v23) := (filt45_keep (lev45 V0) (r := main_v23) (by decide)).trans (k0_45 V0)
theorem k0_47 (V0 : Valuation τ sig (Elt F)) : lev47 V0 (Proc.devRef .tc main_v23) = lev1 V0 (Proc.devRef .tc main_v23) := (filt46_keep (lev46 V0) (r := main_v23) (by decide)).trans (k0_46 V0)
theorem k0_48 (V0 : Valuation τ sig (Elt F)) : lev48 V0 (Proc.devRef .tc main_v23) = lev1 V0 (Proc.devRef .tc main_v23) := (filt47_keep (lev47 V0) (r := main_v23) (by decide)).trans (k0_47 V0)
theorem k0_49 (V0 : Valuation τ sig (Elt F)) : lev49 V0 (Proc.devRef .tc main_v23) = lev1 V0 (Proc.devRef .tc main_v23) := (filt48_keep (lev48 V0) (r := main_v23) (by decide)).trans (k0_48 V0)
theorem k0_50 (V0 : Valuation τ sig (Elt F)) : lev50 V0 (Proc.devRef .tc main_v23) = lev1 V0 (Proc.devRef .tc main_v23) := (filt49_keep (lev49 V0) (r := main_v23) (by decide)).trans (k0_49 V0)
theorem k0_51 (V0 : Valuation τ sig (Elt F)) : lev51 V0 (Proc.devRef .tc main_v23) = lev1 V0 (Proc.devRef .tc main_v23) := (filt50_keep (lev50 V0) (r := main_v23) (by decide)).trans (k0_50 V0)
theorem k0_52 (V0 : Valuation τ sig (Elt F)) : lev52 V0 (Proc.devRef .tc main_v23) = lev1 V0 (Proc.devRef .tc main_v23) := (filt51_keep (lev51 V0) (r := main_v23) (by decide)).trans (k0_51 V0)
theorem k0_53 (V0 : Valuation τ sig (Elt F)) : lev53 V0 (Proc.devRef .tc main_v23) = lev1 V0 (Proc.devRef .tc main_v23) := (filt52_keep (lev52 V0) (r := main_v23) (by decide)).trans (k0_52 V0)
theorem k0_54 (V0 : Valuation τ sig (Elt F)) : lev54 V0 (Proc.devRef .tc main_v23) = lev1 V0 (Proc.devRef .tc main_v23) := (filt53_keep (lev53 V0) (r := main_v23) (by decide)).trans (k0_53 V0)
theorem k0_55 (V0 : Valuation τ sig (Elt F)) : lev55 V0 (Proc.devRef .tc main_v23) = lev1 V0 (Proc.devRef .tc main_v23) := (filt54_keep (lev54 V0) (r := main_v23) (by decide)).trans (k0_54 V0)
theorem k0_56 (V0 : Valuation τ sig (Elt F)) : lev56 V0 (Proc.devRef .tc main_v23) = lev1 V0 (Proc.devRef .tc main_v23) := (filt55_keep (lev55 V0) (r := main_v23) (by decide)).trans (k0_55 V0)
theorem k0_57 (V0 : Valuation τ sig (Elt F)) : lev57 V0 (Proc.devRef .tc main_v23) = lev1 V0 (Proc.devRef .tc main_v23) := (filt56_keep (lev56 V0) (r := main_v23) (by decide)).trans (k0_56 V0)
theorem k0_58 (V0 : Valuation τ sig (Elt F)) : lev58 V0 (Proc.devRef .tc main_v23) = lev1 V0 (Proc.devRef .tc main_v23) := (filt57_keep (lev57 V0) (r := main_v23) (by decide)).trans (k0_57 V0)
theorem k0_59 (V0 : Valuation τ sig (Elt F)) : lev59 V0 (Proc.devRef .tc main_v23) = lev1 V0 (Proc.devRef .tc main_v23) := (filt58_keep (lev58 V0) (r := main_v23) (by decide)).trans (k0_58 V0)
theorem k0_60 (V0 : Valuation τ sig (Elt F)) : lev60 V0 (Proc.devRef .tc main_v23) = lev1 V0 (Proc.devRef .tc main_v23) := (filt59_keep (lev59 V0) (r := main_v23) (by decide)).trans (k0_59 V0)
theorem k0_61 (V0 : Valuation τ sig (Elt F)) : lev61 V0 (Proc.devRef .tc main_v23) = lev1 V0 (Proc.devRef .tc main_v23) := (filt60_keep (lev60 V0) (r := main_v23) (by decide)).trans (k0_60 V0)
theorem k0_62 (V0 : Valuation τ sig (Elt F)) : lev62 V0 (Proc.devRef .tc main_v23) = lev1 V0 (Proc.devRef .tc main_v23) := (filt61_keep (lev61 V0) (r := main_v23) (by decide)).trans (k0_61 V0)
theorem k0_63 (V0 : Valuation τ sig (Elt F)) : lev63 V0 (Proc.devRef .tc main_v23) = lev1 V0 (Proc.devRef .tc main_v23) := (filt62_keep (lev62 V0) (r := main_v23) (by decide)).trans (k0_62 V0)
theorem k0_64 (V0 : Valuation τ sig (Elt F)) : lev64 V0 (Proc.devRef .tc main_v23) = lev1 V0 (Proc.devRef .tc main_v23) := (filt63_keep (lev63 V0) (r := main_v23) (by decide)).trans (k0_63 V0)
theorem k1_3 (V0 : Valuation τ sig (Elt F)) : lev3 V0 (Proc.devRef .tc main_v39) = lev2 V0 (Proc.devRef .tc main_v39) := (filt2_keep (lev2 V0) (r := main_v39) (by decide))
theorem k1_4 (V0 : Valuation τ sig (Elt F)) : lev4 V0 (Proc.devRef .tc main_v39) = lev2 V0 (Proc.devRef .tc main_v39) := (filt3_keep (lev3 V0) (r := main_v39) (by decide)).trans (k1_3 V0)
theorem k1_5 (V0 : Valuation τ sig (Elt F)) : lev5 V0 (Proc.devRef .tc main_v39) = lev2 V0 (Proc.devRef .tc main_v39) := (filt4_keep (lev4 V0) (r := main_v39) (by decide)).trans (k1_4 V0)
theorem k1_6 (V0 : Valuation τ sig (Elt F)) : lev6 V0 (Proc.devRef .tc main_v39) = lev2 V0 (Proc.devRef .tc main_v39) := (filt5_keep (lev5 V0) (r := main_v39) (by decide)).trans (k1_5 V0)
theorem k1_7 (V0 : Valuation τ sig (Elt F)) : lev7 V0 (Proc.devRef .tc main_v39) = lev2 V0 (Proc.devRef .tc main_v39) := (filt6_keep (lev6 V0) (r := main_v39) (by decide)).trans (k1_6 V0)
theorem k1_8 (V0 : Valuation τ sig (Elt F)) : lev8 V0 (Proc.devRef .tc main_v39) = lev2 V0 (Proc.devRef .tc main_v39) := (filt7_keep (lev7 V0) (r := main_v39) (by decide)).trans (k1_7 V0)
theorem k1_9 (V0 : Valuation τ sig (Elt F)) : lev9 V0 (Proc.devRef .tc main_v39) = lev2 V0 (Proc.devRef .tc main_v39) := (filt8_keep (lev8 V0) (r := main_v39) (by decide)).trans (k1_8 V0)
theorem k1_10 (V0 : Valuation τ sig (Elt F)) : lev10 V0 (Proc.devRef .tc main_v39) = lev2 V0 (Proc.devRef .tc main_v39) := (filt9_keep (lev9 V0) (r := main_v39) (by decide)).trans (k1_9 V0)
theorem k1_11 (V0 : Valuation τ sig (Elt F)) : lev11 V0 (Proc.devRef .tc main_v39) = lev2 V0 (Proc.devRef .tc main_v39) := (filt10_keep (lev10 V0) (r := main_v39) (by decide)).trans (k1_10 V0)
theorem k1_12 (V0 : Valuation τ sig (Elt F)) : lev12 V0 (Proc.devRef .tc main_v39) = lev2 V0 (Proc.devRef .tc main_v39) := (filt11_keep (lev11 V0) (r := main_v39) (by decide)).trans (k1_11 V0)
theorem k1_13 (V0 : Valuation τ sig (Elt F)) : lev13 V0 (Proc.devRef .tc main_v39) = lev2 V0 (Proc.devRef .tc main_v39) := (filt12_keep (lev12 V0) (r := main_v39) (by decide)).trans (k1_12 V0)
theorem k1_14 (V0 : Valuation τ sig (Elt F)) : lev14 V0 (Proc.devRef .tc main_v39) = lev2 V0 (Proc.devRef .tc main_v39) := (filt13_keep (lev13 V0) (r := main_v39) (by decide)).trans (k1_13 V0)
theorem k1_15 (V0 : Valuation τ sig (Elt F)) : lev15 V0 (Proc.devRef .tc main_v39) = lev2 V0 (Proc.devRef .tc main_v39) := (filt14_keep (lev14 V0) (r := main_v39) (by decide)).trans (k1_14 V0)
theorem k1_16 (V0 : Valuation τ sig (Elt F)) : lev16 V0 (Proc.devRef .tc main_v39) = lev2 V0 (Proc.devRef .tc main_v39) := (filt15_keep (lev15 V0) (r := main_v39) (by decide)).trans (k1_15 V0)
theorem k1_17 (V0 : Valuation τ sig (Elt F)) : lev17 V0 (Proc.devRef .tc main_v39) = lev2 V0 (Proc.devRef .tc main_v39) := (filt16_keep (lev16 V0) (r := main_v39) (by decide)).trans (k1_16 V0)
theorem k1_18 (V0 : Valuation τ sig (Elt F)) : lev18 V0 (Proc.devRef .tc main_v39) = lev2 V0 (Proc.devRef .tc main_v39) := (filt17_keep (lev17 V0) (r := main_v39) (by decide)).trans (k1_17 V0)
theorem k1_19 (V0 : Valuation τ sig (Elt F)) : lev19 V0 (Proc.devRef .tc main_v39) = lev2 V0 (Proc.devRef .tc main_v39) := (filt18_keep (lev18 V0) (r := main_v39) (by decide)).trans (k1_18 V0)
theorem k1_20 (V0 : Valuation τ sig (Elt F)) : lev20 V0 (Proc.devRef .tc main_v39) = lev2 V0 (Proc.devRef .tc main_v39) := (filt19_keep (lev19 V0) (r := main_v39) (by decide)).trans (k1_19 V0)
theorem k1_21 (V0 : Valuation τ sig (Elt F)) : lev21 V0 (Proc.devRef .tc main_v39) = lev2 V0 (Proc.devRef .tc main_v39) := (filt20_keep (lev20 V0) (r := main_v39) (by decide)).trans (k1_20 V0)
theorem k1_22 (V0 : Valuation τ sig (Elt F)) : lev22 V0 (Proc.devRef .tc main_v39) = lev2 V0 (Proc.devRef .tc main_v39) := (filt21_keep (lev21 V0) (r := main_v39) (by decide)).trans (k1_21 V0)
theorem k1_23 (V0 : Valuation τ sig (Elt F)) : lev23 V0 (Proc.devRef .tc main_v39) = lev2 V0 (Proc.devRef .tc main_v39) := (filt22_keep (lev22 V0) (r := main_v39) (by decide)).trans (k1_22 V0)
theorem k1_24 (V0 : Valuation τ sig (Elt F)) : lev24 V0 (Proc.devRef .tc main_v39) = lev2 V0 (Proc.devRef .tc main_v39) := (filt23_keep (lev23 V0) (r := main_v39) (by decide)).trans (k1_23 V0)
theorem k1_25 (V0 : Valuation τ sig (Elt F)) : lev25 V0 (Proc.devRef .tc main_v39) = lev2 V0 (Proc.devRef .tc main_v39) := (filt24_keep (lev24 V0) (r := main_v39) (by decide)).trans (k1_24 V0)
theorem k1_26 (V0 : Valuation τ sig (Elt F)) : lev26 V0 (Proc.devRef .tc main_v39) = lev2 V0 (Proc.devRef .tc main_v39) := (filt25_keep (lev25 V0) (r := main_v39) (by decide)).trans (k1_25 V0)
theorem k1_27 (V0 : Valuation τ sig (Elt F)) : lev27 V0 (Proc.devRef .tc main_v39) = lev2 V0 (Proc.devRef .tc main_v39) := (filt26_keep (lev26 V0) (r := main_v39) (by decide)).trans (k1_26 V0)
theorem k1_28 (V0 : Valuation τ sig (Elt F)) : lev28 V0 (Proc.devRef .tc main_v39) = lev2 V0 (Proc.devRef .tc main_v39) := (filt27_keep (lev27 V0) (r := main_v39) (by decide)).trans (k1_27 V0)
theorem k1_29 (V0 : Valuation τ sig (Elt F)) : lev29 V0 (Proc.devRef .tc main_v39) = lev2 V0 (Proc.devRef .tc main_v39) := (filt28_keep (lev28 V0) (r := main_v39) (by decide)).trans (k1_28 V0)
theorem k1_30 (V0 : Valuation τ sig (Elt F)) : lev30 V0 (Proc.devRef .tc main_v39) = lev2 V0 (Proc.devRef .tc main_v39) := (filt29_keep (lev29 V0) (r := main_v39) (by decide)).trans (k1_29 V0)
theorem k1_31 (V0 : Valuation τ sig (Elt F)) : lev31 V0 (Proc.devRef .tc main_v39) = lev2 V0 (Proc.devRef .tc main_v39) := (filt30_keep (lev30 V0) (r := main_v39) (by decide)).trans (k1_30 V0)
theorem k1_32 (V0 : Valuation τ sig (Elt F)) : lev32 V0 (Proc.devRef .tc main_v39) = lev2 V0 (Proc.devRef .tc main_v39) := (filt31_keep (lev31 V0) (r := main_v39) (by decide)).trans (k1_31 V0)
theorem k1_33 (V0 : Valuation τ sig (Elt F)) : lev33 V0 (Proc.devRef .tc main_v39) = lev2 V0 (Proc.devRef .tc main_v39) := (filt32_keep (lev32 V0) (r := main_v39) (by decide)).trans (k1_32 V0)
theorem k1_34 (V0 : Valuation τ sig (Elt F)) : lev34 V0 (Proc.devRef .tc main_v39) = lev2 V0 (Proc.devRef .tc main_v39) := (filt33_keep (lev33 V0) (r := main_v39) (by decide)).trans (k1_33 V0)
theorem k1_35 (V0 : Valuation τ sig (Elt F)) : lev35 V0 (Proc.devRef .tc main_v39) = lev2 V0 (Proc.devRef .tc main_v39) := (filt34_keep (lev34 V0) (r := main_v39) (by decide)).trans (k1_34 V0)
theorem k1_36 (V0 : Valuation τ sig (Elt F)) : lev36 V0 (Proc.devRef .tc main_v39) = lev2 V0 (Proc.devRef .tc main_v39) := (filt35_keep (lev35 V0) (r := main_v39) (by decide)).trans (k1_35 V0)
theorem k1_37 (V0 : Valuation τ sig (Elt F)) : lev37 V0 (Proc.devRef .tc main_v39) = lev2 V0 (Proc.devRef .tc main_v39) := (filt36_keep (lev36 V0) (r := main_v39) (by decide)).trans (k1_36 V0)
theorem k1_38 (V0 : Valuation τ sig (Elt F)) : lev38 V0 (Proc.devRef .tc main_v39) = lev2 V0 (Proc.devRef .tc main_v39) := (filt37_keep (lev37 V0) (r := main_v39) (by decide)).trans (k1_37 V0)
theorem k1_39 (V0 : Valuation τ sig (Elt F)) : lev39 V0 (Proc.devRef .tc main_v39) = lev2 V0 (Proc.devRef .tc main_v39) := (filt38_keep (lev38 V0) (r := main_v39) (by decide)).trans (k1_38 V0)
theorem k1_40 (V0 : Valuation τ sig (Elt F)) : lev40 V0 (Proc.devRef .tc main_v39) = lev2 V0 (Proc.devRef .tc main_v39) := (filt39_keep (lev39 V0) (r := main_v39) (by decide)).trans (k1_39 V0)
theorem k1_41 (V0 : Valuation τ sig (Elt F)) : lev41 V0 (Proc.devRef .tc main_v39) = lev2 V0 (Proc.devRef .tc main_v39) := (filt40_keep (lev40 V0) (r := main_v39) (by decide)).trans (k1_40 V0)
theorem k1_42 (V0 : Valuation τ sig (Elt F)) : lev42 V0 (Proc.devRef .tc main_v39) = lev2 V0 (Proc.devRef .tc main_v39) := (filt41_keep (lev41 V0) (r := main_v39) (by decide)).trans (k1_41 V0)
theorem k1_43 (V0 : Valuation τ sig (Elt F)) : lev43 V0 (Proc.devRef .tc main_v39) = lev2 V0 (Proc.devRef .tc main_v39) := (filt42_keep (lev42 V0) (r := main_v39) (by decide)).trans (k1_42 V0)
theorem k1_44 (V0 : Valuation τ sig (Elt F)) : lev44 V0 (Proc.devRef .tc main_v39) = lev2 V0 (Proc.devRef .tc main_v39) := (filt43_keep (lev43 V0) (r := main_v39) (by decide)).trans (k1_43 V0)
theorem k1_45 (V0 : Valuation τ sig (Elt F)) : lev45 V0 (Proc.devRef .tc main_v39) = lev2 V0 (Proc.devRef .tc main_v39) := (filt44_keep (lev44 V0) (r := main_v39) (by decide)).trans (k1_44 V0)
theorem k1_46 (V0 : Valuation τ sig (Elt F)) : lev46 V0 (Proc.devRef .tc main_v39) = lev2 V0 (Proc.devRef .tc main_v39) := (filt45_keep (lev45 V0) (r := main_v39) (by decide)).trans (k1_45 V0)
theorem k1_47 (V0 : Valuation τ sig (Elt F)) : lev47 V0 (Proc.devRef .tc main_v39) = lev2 V0 (Proc.devRef .tc main_v39) := (filt46_keep (lev46 V0) (r := main_v39) (by decide)).trans (k1_46 V0)
theorem k1_48 (V0 : Valuation τ sig (Elt F)) : lev48 V0 (Proc.devRef .tc main_v39) = lev2 V0 (Proc.devRef .tc main_v39) := (filt47_keep (lev47 V0) (r := main_v39) (by decide)).trans (k1_47 V0)
theorem k1_49 (V0 : Valuation τ sig (Elt F)) : lev49 V0 (Proc.devRef .tc main_v39) = lev2 V0 (Proc.devRef .tc main_v39) := (filt48_keep (lev48 V0) (r := main_v39) (by decide)).trans (k1_48 V0)
theorem k1_50 (V0 : Valuation τ sig (Elt F)) : lev50 V0 (Proc.devRef .tc main_v39) = lev2 V0 (Proc.devRef .tc main_v39) := (filt49_keep (lev49 V0) (r := main_v39) (by decide)).trans (k1_49 V0)
theorem k1_51 (V0 : Valuation τ sig (Elt F)) : lev51 V0 (Proc.devRef .tc main_v39) = lev2 V0 (Proc.devRef .tc main_v39) := (filt50_keep (lev50 V0) (r := main_v39) (by decide)).trans (k1_50 V0)
theorem k1_52 (V0 : Valuation τ sig (Elt F)) : lev52 V0 (Proc.devRef .tc main_v39) = lev2 V0 (Proc.devRef .tc main_v39) := (filt51_keep (lev51 V0) (r := main_v39) (by decide)).trans (k1_51 V0)
theorem k1_53 (V0 : Valuation τ sig (Elt F)) : lev53 V0 (Proc.devRef .tc main_v39) = lev2 V0 (Proc.devRef .tc main_v39) := (filt52_keep (lev52 V0) (r := main_v39) (by decide)).trans (k1_52 V0)
theorem k1_54 (V0 : Valuation τ sig (Elt F)) : lev54 V0 (Proc.devRef .tc main_v39) = lev2 V0 (Proc.devRef .tc main_v39) := (filt53_keep (lev53 V0) (r := main_v39) (by decide)).trans (k1_53 V0)
theorem k1_55 (V0 : Valuation τ sig (Elt F)) : lev55 V0 (Proc.devRef .tc main_v39) = lev2 V0 (Proc.devRef .tc main_v39) := (filt54_keep (lev54 V0) (r := main_v39) (by decide)).trans (k1_54 V0)
theorem k1_56 (V0 : Valuation τ sig (Elt F)) : lev56 V0 (Proc.devRef .tc main_v39) = lev2 V0 (Proc.devRef .tc main_v39) := (filt55_keep (lev55 V0) (r := main_v39) (by decide)).trans (k1_55 V0)
theorem k1_57 (V0 : Valuation τ sig (Elt F)) : lev57 V0 (Proc.devRef .tc main_v39) = lev2 V0 (Proc.devRef .tc main_v39) := (filt56_keep (lev56 V0) (r := main_v39) (by decide)).trans (k1_56 V0)
theorem k1_58 (V0 : Valuation τ sig (Elt F)) : lev58 V0 (Proc.devRef .tc main_v39) = lev2 V0 (Proc.devRef .tc main_v39) := (filt57_keep (lev57 V0) (r := main_v39) (by decide)).trans (k1_57 V0)
theorem k1_59 (V0 : Valuation τ sig (Elt F)) : lev59 V0 (Proc.devRef .tc main_v39) = lev2 V0 (Proc.devRef .tc main_v39) := (filt58_keep (lev58 V0) (r := main_v39) (by decide)).trans (k1_58 V0)
theorem k1_60 (V0 : Valuation τ sig (Elt F)) : lev60 V0 (Proc.devRef .tc main_v39) = lev2 V0 (Proc.devRef .tc main_v39) := (filt59_keep (lev59 V0) (r := main_v39) (by decide)).trans (k1_59 V0)
theorem k1_61 (V0 : Valuation τ sig (Elt F)) : lev61 V0 (Proc.devRef .tc main_v39) = lev2 V0 (Proc.devRef .tc main_v39) := (filt60_keep (lev60 V0) (r := main_v39) (by decide)).trans (k1_60 V0)
theorem k1_62 (V0 : Valuation τ sig (Elt F)) : lev62 V0 (Proc.devRef .tc main_v39) = lev2 V0 (Proc.devRef .tc main_v39) := (filt61_keep (lev61 V0) (r := main_v39) (by decide)).trans (k1_61 V0)
theorem k1_63 (V0 : Valuation τ sig (Elt F)) : lev63 V0 (Proc.devRef .tc main_v39) = lev2 V0 (Proc.devRef .tc main_v39) := (filt62_keep (lev62 V0) (r := main_v39) (by decide)).trans (k1_62 V0)
theorem k1_64 (V0 : Valuation τ sig (Elt F)) : lev64 V0 (Proc.devRef .tc main_v39) = lev2 V0 (Proc.devRef .tc main_v39) := (filt63_keep (lev63 V0) (r := main_v39) (by decide)).trans (k1_63 V0)
theorem k2_4 (V0 : Valuation τ sig (Elt F)) : lev4 V0 (Proc.devRef .tc main_v58) = lev3 V0 (Proc.devRef .tc main_v58) := (filt3_keep (lev3 V0) (r := main_v58) (by decide))
theorem k2_5 (V0 : Valuation τ sig (Elt F)) : lev5 V0 (Proc.devRef .tc main_v58) = lev3 V0 (Proc.devRef .tc main_v58) := (filt4_keep (lev4 V0) (r := main_v58) (by decide)).trans (k2_4 V0)
theorem k2_6 (V0 : Valuation τ sig (Elt F)) : lev6 V0 (Proc.devRef .tc main_v58) = lev3 V0 (Proc.devRef .tc main_v58) := (filt5_keep (lev5 V0) (r := main_v58) (by decide)).trans (k2_5 V0)
theorem k2_7 (V0 : Valuation τ sig (Elt F)) : lev7 V0 (Proc.devRef .tc main_v58) = lev3 V0 (Proc.devRef .tc main_v58) := (filt6_keep (lev6 V0) (r := main_v58) (by decide)).trans (k2_6 V0)
theorem k2_8 (V0 : Valuation τ sig (Elt F)) : lev8 V0 (Proc.devRef .tc main_v58) = lev3 V0 (Proc.devRef .tc main_v58) := (filt7_keep (lev7 V0) (r := main_v58) (by decide)).trans (k2_7 V0)
theorem k2_9 (V0 : Valuation τ sig (Elt F)) : lev9 V0 (Proc.devRef .tc main_v58) = lev3 V0 (Proc.devRef .tc main_v58) := (filt8_keep (lev8 V0) (r := main_v58) (by decide)).trans (k2_8 V0)
theorem k2_10 (V0 : Valuation τ sig (Elt F)) : lev10 V0 (Proc.devRef .tc main_v58) = lev3 V0 (Proc.devRef .tc main_v58) := (filt9_keep (lev9 V0) (r := main_v58) (by decide)).trans (k2_9 V0)
theorem k2_11 (V0 : Valuation τ sig (Elt F)) : lev11 V0 (Proc.devRef .tc main_v58) = lev3 V0 (Proc.devRef .tc main_v58) := (filt10_keep (lev10 V0) (r := main_v58) (by decide)).trans (k2_10 V0)
theorem k2_12 (V0 : Valuation τ sig (Elt F)) : lev12 V0 (Proc.devRef .tc main_v58) = lev3 V0 (Proc.devRef .tc main_v58) := (filt11_keep (lev11 V0) (r := main_v58) (by decide)).trans (k2_11 V0)
theorem k2_13 (V0 : Valuation τ sig (Elt F)) : lev13 V0 (Proc.devRef .tc main_v58) = lev3 V0 (Proc.devRef .tc main_v58) := (filt12_keep (lev12 V0) (r := main_v58) (by decide)).trans (k2_12 V0)
theorem k2_14 (V0 : Valuation τ sig (Elt F)) : lev14 V0 (Proc.devRef .tc main_v58) = lev3 V0 (Proc.devRef .tc main_v58) := (filt13_keep (lev13 V0) (r := main_v58) (by decide)).trans (k2_13 V0)
theorem k2_15 (V0 : Valuation τ sig (Elt F)) : lev15 V0 (Proc.devRef .tc main_v58) = lev3 V0 (Proc.devRef .tc main_v58) := (filt14_keep (lev14 V0) (r := main_v58) (by decide)).trans (k2_14 V0)
theorem k2_16 (V0 : Valuation τ sig (Elt F)) : lev16 V0 (Proc.devRef .tc main_v58) = lev3 V0 (Proc.devRef .tc main_v58) := (filt15_keep (lev15 V0) (r := main_v58) (by decide)).trans (k2_15 V0)
theorem k2_17 (V0 : Valuation τ sig (Elt F)) : lev17 V0 (Proc.devRef .tc main_v58) = lev3 V0 (Proc.devRef .tc main_v58) := (filt16_keep (lev16 V0) (r := main_v58) (by decide)).trans (k2_16 V0)
theorem k2_18 (V0 : Valuation τ sig (Elt F)) : lev18 V0 (Proc.devRef .tc main_v58) = lev3 V0 (Proc.devRef .tc main_v58) := (filt17_keep (lev17 V0) (r := main_v58) (by decide)).trans (k2_17 V0)
theorem k2_19 (V0 : Valuation τ sig (Elt F)) : lev19 V0 (Proc.devRef .tc main_v58) = lev3 V0 (Proc.devRef .tc main_v58) := (filt18_keep (lev18 V0) (r := main_v58) (by decide)).trans (k2_18 V0)
theorem k2_20 (V0 : Valuation τ sig (Elt F)) : lev20 V0 (Proc.devRef .tc main_v58) = lev3 V0 (Proc.devRef .tc main_v58) := (filt19_keep (lev19 V0) (r := main_v58) (by decide)).trans (k2_19 V0)
theorem k2_21 (V0 : Valuation τ sig (Elt F)) : lev21 V0 (Proc.devRef .tc main_v58) = lev3 V0 (Proc.devRef .tc main_v58) := (filt20_keep (lev20 V0) (r := main_v58) (by decide)).trans (k2_20 V0)
theorem k2_22 (V0 : Valuation τ sig (Elt F)) : lev22 V0 (Proc.devRef .tc main_v58) = lev3 V0 (Proc.devRef .tc main_v58) := (filt21_keep (lev21 V0) (r := main_v58) (by decide)).trans (k2_21 V0)
theorem k2_23 (V0 : Valuation τ sig (Elt F)) : lev23 V0 (Proc.devRef .tc main_v58) = lev3 V0 (Proc.devRef .tc main_v58) := (filt22_keep (lev22 V0) (r := main_v58) (by decide)).trans (k2_22 V0)
theorem k2_24 (V0 : Valuation τ sig (Elt F)) : lev24 V0 (Proc.devRef .tc main_v58) = lev3 V0 (Proc.devRef .tc main_v58) := (filt23_keep (lev23 V0) (r := main_v58) (by decide)).trans (k2_23 V0)
theorem k2_25 (V0 : Valuation τ sig (Elt F)) : lev25 V0 (Proc.devRef .tc main_v58) = lev3 V0 (Proc.devRef .tc main_v58) := (filt24_keep (lev24 V0) (r := main_v58) (by decide)).trans (k2_24 V0)
theorem k2_26 (V0 : Valuation τ sig (Elt F)) : lev26 V0 (Proc.devRef .tc main_v58) = lev3 V0 (Proc.devRef .tc main_v58) := (filt25_keep (lev25 V0) (r := main_v58) (by decide)).trans (k2_25 V0)
theorem k2_27 (V0 : Valuation τ sig (Elt F)) : lev27 V0 (Proc.devRef .tc main_v58) = lev3 V0 (Proc.devRef .tc main_v58) := (filt26_keep (lev26 V0) (r := main_v58) (by decide)).trans (k2_26 V0)
theorem k2_28 (V0 : Valuation τ sig (Elt F)) : lev28 V0 (Proc.devRef .tc main_v58) = lev3 V0 (Proc.devRef .tc main_v58) := (filt27_keep (lev27 V0) (r := main_v58) (by decide)).trans (k2_27 V0)
theorem k2_29 (V0 : Valuation τ sig (Elt F)) : lev29 V0 (Proc.devRef .tc main_v58) = lev3 V0 (Proc.devRef .tc main_v58) := (filt28_keep (lev28 V0) (r := main_v58) (by decide)).trans (k2_28 V0)
theorem k2_30 (V0 : Valuation τ sig (Elt F)) : lev30 V0 (Proc.devRef .tc main_v58) = lev3 V0 (Proc.devRef .tc main_v58) := (filt29_keep (lev29 V0) (r := main_v58) (by decide)).trans (k2_29 V0)
theorem k2_31 (V0 : Valuation τ sig (Elt F)) : lev31 V0 (Proc.devRef .tc main_v58) = lev3 V0 (Proc.devRef .tc main_v58) := (filt30_keep (lev30 V0) (r := main_v58) (by decide)).trans (k2_30 V0)
theorem k2_32 (V0 : Valuation τ sig (Elt F)) : lev32 V0 (Proc.devRef .tc main_v58) = lev3 V0 (Proc.devRef .tc main_v58) := (filt31_keep (lev31 V0) (r := main_v58) (by decide)).trans (k2_31 V0)
theorem k2_33 (V0 : Valuation τ sig (Elt F)) : lev33 V0 (Proc.devRef .tc main_v58) = lev3 V0 (Proc.devRef .tc main_v58) := (filt32_keep (lev32 V0) (r := main_v58) (by decide)).trans (k2_32 V0)
theorem k2_34 (V0 : Valuation τ sig (Elt F)) : lev34 V0 (Proc.devRef .tc main_v58) = lev3 V0 (Proc.devRef .tc main_v58) := (filt33_keep (lev33 V0) (r := main_v58) (by decide)).trans (k2_33 V0)
theorem k2_35 (V0 : Valuation τ sig (Elt F)) : lev35 V0 (Proc.devRef .tc main_v58) = lev3 V0 (Proc.devRef .tc main_v58) := (filt34_keep (lev34 V0) (r := main_v58) (by decide)).trans (k2_34 V0)
theorem k2_36 (V0 : Valuation τ sig (Elt F)) : lev36 V0 (Proc.devRef .tc main_v58) = lev3 V0 (Proc.devRef .tc main_v58) := (filt35_keep (lev35 V0) (r := main_v58) (by decide)).trans (k2_35 V0)
theorem k2_37 (V0 : Valuation τ sig (Elt F)) : lev37 V0 (Proc.devRef .tc main_v58) = lev3 V0 (Proc.devRef .tc main_v58) := (filt36_keep (lev36 V0) (r := main_v58) (by decide)).trans (k2_36 V0)
theorem k2_38 (V0 : Valuation τ sig (Elt F)) : lev38 V0 (Proc.devRef .tc main_v58) = lev3 V0 (Proc.devRef .tc main_v58) := (filt37_keep (lev37 V0) (r := main_v58) (by decide)).trans (k2_37 V0)
theorem k2_39 (V0 : Valuation τ sig (Elt F)) : lev39 V0 (Proc.devRef .tc main_v58) = lev3 V0 (Proc.devRef .tc main_v58) := (filt38_keep (lev38 V0) (r := main_v58) (by decide)).trans (k2_38 V0)
theorem k2_40 (V0 : Valuation τ sig (Elt F)) : lev40 V0 (Proc.devRef .tc main_v58) = lev3 V0 (Proc.devRef .tc main_v58) := (filt39_keep (lev39 V0) (r := main_v58) (by decide)).trans (k2_39 V0)
theorem k2_41 (V0 : Valuation τ sig (Elt F)) : lev41 V0 (Proc.devRef .tc main_v58) = lev3 V0 (Proc.devRef .tc main_v58) := (filt40_keep (lev40 V0) (r := main_v58) (by decide)).trans (k2_40 V0)
theorem k2_42 (V0 : Valuation τ sig (Elt F)) : lev42 V0 (Proc.devRef .tc main_v58) = lev3 V0 (Proc.devRef .tc main_v58) := (filt41_keep (lev41 V0) (r := main_v58) (by decide)).trans (k2_41 V0)
theorem k2_43 (V0 : Valuation τ sig (Elt F)) : lev43 V0 (Proc.devRef .tc main_v58) = lev3 V0 (Proc.devRef .tc main_v58) := (filt42_keep (lev42 V0) (r := main_v58) (by decide)).trans (k2_42 V0)
theorem k2_44 (V0 : Valuation τ sig (Elt F)) : lev44 V0 (Proc.devRef .tc main_v58) = lev3 V0 (Proc.devRef .tc main_v58) := (filt43_keep (lev43 V0) (r := main_v58) (by decide)).trans (k2_43 V0)
theorem k2_45 (V0 : Valuation τ sig (Elt F)) : lev45 V0 (Proc.devRef .tc main_v58) = lev3 V0 (Proc.devRef .tc main_v58) := (filt44_keep (lev44 V0) (r := main_v58) (by decide)).trans (k2_44 V0)
theorem k2_46 (V0 : Valuation τ sig (Elt F)) : lev46 V0 (Proc.devRef .tc main_v58) = lev3 V0 (Proc.devRef .tc main_v58) := (filt45_keep (lev45 V0) (r := main_v58) (by decide)).trans (k2_45 V0)
theorem k2_47 (V0 : Valuation τ sig (Elt F)) : lev47 V0 (Proc.devRef .tc main_v58) = lev3 V0 (Proc.devRef .tc main_v58) := (filt46_keep (lev46 V0) (r := main_v58) (by decide)).trans (k2_46 V0)
theorem k2_48 (V0 : Valuation τ sig (Elt F)) : lev48 V0 (Proc.devRef .tc main_v58) = lev3 V0 (Proc.devRef .tc main_v58) := (filt47_keep (lev47 V0) (r := main_v58) (by decide)).trans (k2_47 V0)
theorem k2_49 (V0 : Valuation τ sig (Elt F)) : lev49 V0 (Proc.devRef .tc main_v58) = lev3 V0 (Proc.devRef .tc main_v58) := (filt48_keep (lev48 V0) (r := main_v58) (by decide)).trans (k2_48 V0)
theorem k2_50 (V0 : Valuation τ sig (Elt F)) : lev50 V0 (Proc.devRef .tc main_v58) = lev3 V0 (Proc.devRef .tc main_v58) := (filt49_keep (lev49 V0) (r := main_v58) (by decide)).trans (k2_49 V0)
theorem k2_51 (V0 : Valuation τ sig (Elt F)) : lev51 V0 (Proc.devRef .tc main_v58) = lev3 V0 (Proc.devRef .tc main_v58) := (filt50_keep (lev50 V0) (r := main_v58) (by decide)).trans (k2_50 V0)
theorem k2_52 (V0 : Valuation τ sig (Elt F)) : lev52 V0 (Proc.devRef .tc main_v58) = lev3 V0 (Proc.devRef .tc main_v58) := (filt51_keep (lev51 V0) (r := main_v58) (by decide)).trans (k2_51 V0)
theorem k2_53 (V0 : Valuation τ sig (Elt F)) : lev53 V0 (Proc.devRef .tc main_v58) = lev3 V0 (Proc.devRef .tc main_v58) := (filt52_keep (lev52 V0) (r := main_v58) (by decide)).trans (k2_52 V0)
theorem k2_54 (V0 : Valuation τ sig (Elt F)) : lev54 V0 (Proc.devRef .tc main_v58) = lev3 V0 (Proc.devRef .tc main_v58) := (filt53_keep (lev53 V0) (r := main_v58) (by decide)).trans (k2_53 V0)
theorem k2_55 (V0 : Valuation τ sig (Elt F)) : lev55 V0 (Proc.devRef .tc main_v58) = lev3 V0 (Proc.devRef .tc main_v58) := (filt54_keep (lev54 V0) (r := main_v58) (by decide)).trans (k2_54 V0)
theorem k2_56 (V0 : Valuation τ sig (Elt F)) : lev56 V0 (Proc.devRef .tc main_v58) = lev3 V0 (Proc.devRef .tc main_v58) := (filt55_keep (lev55 V0) (r := main_v58) (by decide)).trans (k2_55 V0)
theorem k2_57 (V0 : Valuation τ sig (Elt F)) : lev57 V0 (Proc.devRef .tc main_v58) = lev3 V0 (Proc.devRef .tc main_v58) := (filt56_keep (lev56 V0) (r := main_v58) (by decide)).trans (k2_56 V0)
theorem k2_58 (V0 : Valuation τ sig (Elt F)) : lev58 V0 (Proc.devRef .tc main_v58) = lev3 V0 (Proc.devRef .tc main_v58) := (filt57_keep (lev57 V0) (r := main_v58) (by decide)).trans (k2_57 V0)
theorem k2_59 (V0 : Valuation τ sig (Elt F)) : lev59 V0 (Proc.devRef .tc main_v58) = lev3 V0 (Proc.devRef .tc main_v58) := (filt58_keep (lev58 V0) (r := main_v58) (by decide)).trans (k2_58 V0)
theorem k2_60 (V0 : Valuation τ sig (Elt F)) : lev60 V0 (Proc.devRef .tc main_v58) = lev3 V0 (Proc.devRef .tc main_v58) := (filt59_keep (lev59 V0) (r := main_v58) (by decide)).trans (k2_59 V0)
theorem k2_61 (V0 : Valuation τ sig (Elt F)) : lev61 V0 (Proc.devRef .tc main_v58) = lev3 V0 (Proc.devRef .tc main_v58) := (filt60_keep (lev60 V0) (r := main_v58) (by decide)).trans (k2_60 V0)
theorem k2_62 (V0 : Valuation τ sig (Elt F)) : lev62 V0 (Proc.devRef .tc main_v58) = lev3 V0 (Proc.devRef .tc main_v58) := (filt61_keep (lev61 V0) (r := main_v58) (by decide)).trans (k2_61 V0)
theorem k2_63 (V0 : Valuation τ sig (Elt F)) : lev63 V0 (Proc.devRef .tc main_v58) = lev3 V0 (Proc.devRef .tc main_v58) := (filt62_keep (lev62 V0) (r := main_v58) (by decide)).trans (k2_62 V0)
theorem k2_64 (V0 : Valuation τ sig (Elt F)) : lev64 V0 (Proc.devRef .tc main_v58) = lev3 V0 (Proc.devRef .tc main_v58) := (filt63_keep (lev63 V0) (r := main_v58) (by decide)).trans (k2_63 V0)
theorem k3_5 (V0 : Valuation τ sig (Elt F)) : lev5 V0 (Proc.devRef .tc main_v77) = lev4 V0 (Proc.devRef .tc main_v77) := (filt4_keep (lev4 V0) (r := main_v77) (by decide))
theorem k3_6 (V0 : Valuation τ sig (Elt F)) : lev6 V0 (Proc.devRef .tc main_v77) = lev4 V0 (Proc.devRef .tc main_v77) := (filt5_keep (lev5 V0) (r := main_v77) (by decide)).trans (k3_5 V0)
theorem k3_7 (V0 : Valuation τ sig (Elt F)) : lev7 V0 (Proc.devRef .tc main_v77) = lev4 V0 (Proc.devRef .tc main_v77) := (filt6_keep (lev6 V0) (r := main_v77) (by decide)).trans (k3_6 V0)
theorem k3_8 (V0 : Valuation τ sig (Elt F)) : lev8 V0 (Proc.devRef .tc main_v77) = lev4 V0 (Proc.devRef .tc main_v77) := (filt7_keep (lev7 V0) (r := main_v77) (by decide)).trans (k3_7 V0)
theorem k3_9 (V0 : Valuation τ sig (Elt F)) : lev9 V0 (Proc.devRef .tc main_v77) = lev4 V0 (Proc.devRef .tc main_v77) := (filt8_keep (lev8 V0) (r := main_v77) (by decide)).trans (k3_8 V0)
theorem k3_10 (V0 : Valuation τ sig (Elt F)) : lev10 V0 (Proc.devRef .tc main_v77) = lev4 V0 (Proc.devRef .tc main_v77) := (filt9_keep (lev9 V0) (r := main_v77) (by decide)).trans (k3_9 V0)
theorem k3_11 (V0 : Valuation τ sig (Elt F)) : lev11 V0 (Proc.devRef .tc main_v77) = lev4 V0 (Proc.devRef .tc main_v77) := (filt10_keep (lev10 V0) (r := main_v77) (by decide)).trans (k3_10 V0)
theorem k3_12 (V0 : Valuation τ sig (Elt F)) : lev12 V0 (Proc.devRef .tc main_v77) = lev4 V0 (Proc.devRef .tc main_v77) := (filt11_keep (lev11 V0) (r := main_v77) (by decide)).trans (k3_11 V0)
theorem k3_13 (V0 : Valuation τ sig (Elt F)) : lev13 V0 (Proc.devRef .tc main_v77) = lev4 V0 (Proc.devRef .tc main_v77) := (filt12_keep (lev12 V0) (r := main_v77) (by decide)).trans (k3_12 V0)
theorem k3_14 (V0 : Valuation τ sig (Elt F)) : lev14 V0 (Proc.devRef .tc main_v77) = lev4 V0 (Proc.devRef .tc main_v77) := (filt13_keep (lev13 V0) (r := main_v77) (by decide)).trans (k3_13 V0)
theorem k3_15 (V0 : Valuation τ sig (Elt F)) : lev15 V0 (Proc.devRef .tc main_v77) = lev4 V0 (Proc.devRef .tc main_v77) := (filt14_keep (lev14 V0) (r := main_v77) (by decide)).trans (k3_14 V0)
theorem k3_16 (V0 : Valuation τ sig (Elt F)) : lev16 V0 (Proc.devRef .tc main_v77) = lev4 V0 (Proc.devRef .tc main_v77) := (filt15_keep (lev15 V0) (r := main_v77) (by decide)).trans (k3_15 V0)
theorem k3_17 (V0 : Valuation τ sig (Elt F)) : lev17 V0 (Proc.devRef .tc main_v77) = lev4 V0 (Proc.devRef .tc main_v77) := (filt16_keep (lev16 V0) (r := main_v77) (by decide)).trans (k3_16 V0)
theorem k3_18 (V0 : Valuation τ sig (Elt F)) : lev18 V0 (Proc.devRef .tc main_v77) = lev4 V0 (Proc.devRef .tc main_v77) := (filt17_keep (lev17 V0) (r := main_v77) (by decide)).trans (k3_17 V0)
theorem k3_19 (V0 : Valuation τ sig (Elt F)) : lev19 V0 (Proc.devRef .tc main_v77) = lev4 V0 (Proc.devRef .tc main_v77) := (filt18_keep (lev18 V0) (r := main_v77) (by decide)).trans (k3_18 V0)
theorem k3_20 (V0 : Valuation τ sig (Elt F)) : lev20 V0 (Proc.devRef .tc main_v77) = lev4 V0 (Proc.devRef .tc main_v77) := (filt19_keep (lev19 V0) (r := main_v77) (by decide)).trans (k3_19 V0)
theorem k3_21 (V0 : Valuation τ sig (Elt F)) : lev21 V0 (Proc.devRef .tc main_v77) = lev4 V0 (Proc.devRef .tc main_v77) := (filt20_keep (lev20 V0) (r := main_v77) (by decide)).trans (k3_20 V0)
theorem k3_22 (V0 : Valuation τ sig (Elt F)) : lev22 V0 (Proc.devRef .tc main_v77) = lev4 V0 (Proc.devRef .tc main_v77) := (filt21_keep (lev21 V0) (r := main_v77) (by decide)).trans (k3_21 V0)
theorem k3_23 (V0 : Valuation τ sig (Elt F)) : lev23 V0 (Proc.devRef .tc main_v77) = lev4 V0 (Proc.devRef .tc main_v77) := (filt22_keep (lev22 V0) (r := main_v77) (by decide)).trans (k3_22 V0)
theorem k3_24 (V0 : Valuation τ sig (Elt F)) : lev24 V0 (Proc.devRef .tc main_v77) = lev4 V0 (Proc.devRef .tc main_v77) := (filt23_keep (lev23 V0) (r := main_v77) (by decide)).trans (k3_23 V0)
theorem k3_25 (V0 : Valuation τ sig (Elt F)) : lev25 V0 (Proc.devRef .tc main_v77) = lev4 V0 (Proc.devRef .tc main_v77) := (filt24_keep (lev24 V0) (r := main_v77) (by decide)).trans (k3_24 V0)
theorem k3_26 (V0 : Valuation τ sig (Elt F)) : lev26 V0 (Proc.devRef .tc main_v77) = lev4 V0 (Proc.devRef .tc main_v77) := (filt25_keep (lev25 V0) (r := main_v77) (by decide)).trans (k3_25 V0)
theorem k3_27 (V0 : Valuation τ sig (Elt F)) : lev27 V0 (Proc.devRef .tc main_v77) = lev4 V0 (Proc.devRef .tc main_v77) := (filt26_keep (lev26 V0) (r := main_v77) (by decide)).trans (k3_26 V0)
theorem k3_28 (V0 : Valuation τ sig (Elt F)) : lev28 V0 (Proc.devRef .tc main_v77) = lev4 V0 (Proc.devRef .tc main_v77) := (filt27_keep (lev27 V0) (r := main_v77) (by decide)).trans (k3_27 V0)
theorem k3_29 (V0 : Valuation τ sig (Elt F)) : lev29 V0 (Proc.devRef .tc main_v77) = lev4 V0 (Proc.devRef .tc main_v77) := (filt28_keep (lev28 V0) (r := main_v77) (by decide)).trans (k3_28 V0)
theorem k3_30 (V0 : Valuation τ sig (Elt F)) : lev30 V0 (Proc.devRef .tc main_v77) = lev4 V0 (Proc.devRef .tc main_v77) := (filt29_keep (lev29 V0) (r := main_v77) (by decide)).trans (k3_29 V0)
theorem k3_31 (V0 : Valuation τ sig (Elt F)) : lev31 V0 (Proc.devRef .tc main_v77) = lev4 V0 (Proc.devRef .tc main_v77) := (filt30_keep (lev30 V0) (r := main_v77) (by decide)).trans (k3_30 V0)
theorem k3_32 (V0 : Valuation τ sig (Elt F)) : lev32 V0 (Proc.devRef .tc main_v77) = lev4 V0 (Proc.devRef .tc main_v77) := (filt31_keep (lev31 V0) (r := main_v77) (by decide)).trans (k3_31 V0)
theorem k3_33 (V0 : Valuation τ sig (Elt F)) : lev33 V0 (Proc.devRef .tc main_v77) = lev4 V0 (Proc.devRef .tc main_v77) := (filt32_keep (lev32 V0) (r := main_v77) (by decide)).trans (k3_32 V0)
theorem k3_34 (V0 : Valuation τ sig (Elt F)) : lev34 V0 (Proc.devRef .tc main_v77) = lev4 V0 (Proc.devRef .tc main_v77) := (filt33_keep (lev33 V0) (r := main_v77) (by decide)).trans (k3_33 V0)
theorem k3_35 (V0 : Valuation τ sig (Elt F)) : lev35 V0 (Proc.devRef .tc main_v77) = lev4 V0 (Proc.devRef .tc main_v77) := (filt34_keep (lev34 V0) (r := main_v77) (by decide)).trans (k3_34 V0)
theorem k3_36 (V0 : Valuation τ sig (Elt F)) : lev36 V0 (Proc.devRef .tc main_v77) = lev4 V0 (Proc.devRef .tc main_v77) := (filt35_keep (lev35 V0) (r := main_v77) (by decide)).trans (k3_35 V0)
theorem k3_37 (V0 : Valuation τ sig (Elt F)) : lev37 V0 (Proc.devRef .tc main_v77) = lev4 V0 (Proc.devRef .tc main_v77) := (filt36_keep (lev36 V0) (r := main_v77) (by decide)).trans (k3_36 V0)
theorem k3_38 (V0 : Valuation τ sig (Elt F)) : lev38 V0 (Proc.devRef .tc main_v77) = lev4 V0 (Proc.devRef .tc main_v77) := (filt37_keep (lev37 V0) (r := main_v77) (by decide)).trans (k3_37 V0)
theorem k3_39 (V0 : Valuation τ sig (Elt F)) : lev39 V0 (Proc.devRef .tc main_v77) = lev4 V0 (Proc.devRef .tc main_v77) := (filt38_keep (lev38 V0) (r := main_v77) (by decide)).trans (k3_38 V0)
theorem k3_40 (V0 : Valuation τ sig (Elt F)) : lev40 V0 (Proc.devRef .tc main_v77) = lev4 V0 (Proc.devRef .tc main_v77) := (filt39_keep (lev39 V0) (r := main_v77) (by decide)).trans (k3_39 V0)
theorem k3_41 (V0 : Valuation τ sig (Elt F)) : lev41 V0 (Proc.devRef .tc main_v77) = lev4 V0 (Proc.devRef .tc main_v77) := (filt40_keep (lev40 V0) (r := main_v77) (by decide)).trans (k3_40 V0)
theorem k3_42 (V0 : Valuation τ sig (Elt F)) : lev42 V0 (Proc.devRef .tc main_v77) = lev4 V0 (Proc.devRef .tc main_v77) := (filt41_keep (lev41 V0) (r := main_v77) (by decide)).trans (k3_41 V0)
theorem k3_43 (V0 : Valuation τ sig (Elt F)) : lev43 V0 (Proc.devRef .tc main_v77) = lev4 V0 (Proc.devRef .tc main_v77) := (filt42_keep (lev42 V0) (r := main_v77) (by decide)).trans (k3_42 V0)
theorem k3_44 (V0 : Valuation τ sig (Elt F)) : lev44 V0 (Proc.devRef .tc main_v77) = lev4 V0 (Proc.devRef .tc main_v77) := (filt43_keep (lev43 V0) (r := main_v77) (by decide)).trans (k3_43 V0)
theorem k3_45 (V0 : Valuation τ sig (Elt F)) : lev45 V0 (Proc.devRef .tc main_v77) = lev4 V0 (Proc.devRef .tc main_v77) := (filt44_keep (lev44 V0) (r := main_v77) (by decide)).trans (k3_44 V0)
theorem k3_46 (V0 : Valuation τ sig (Elt F)) : lev46 V0 (Proc.devRef .tc main_v77) = lev4 V0 (Proc.devRef .tc main_v77) := (filt45_keep (lev45 V0) (r := main_v77) (by decide)).trans (k3_45 V0)
theorem k3_47 (V0 : Valuation τ sig (Elt F)) : lev47 V0 (Proc.devRef .tc main_v77) = lev4 V0 (Proc.devRef .tc main_v77) := (filt46_keep (lev46 V0) (r := main_v77) (by decide)).trans (k3_46 V0)
theorem k3_48 (V0 : Valuation τ sig (Elt F)) : lev48 V0 (Proc.devRef .tc main_v77) = lev4 V0 (Proc.devRef .tc main_v77) := (filt47_keep (lev47 V0) (r := main_v77) (by decide)).trans (k3_47 V0)
theorem k3_49 (V0 : Valuation τ sig (Elt F)) : lev49 V0 (Proc.devRef .tc main_v77) = lev4 V0 (Proc.devRef .tc main_v77) := (filt48_keep (lev48 V0) (r := main_v77) (by decide)).trans (k3_48 V0)
theorem k3_50 (V0 : Valuation τ sig (Elt F)) : lev50 V0 (Proc.devRef .tc main_v77) = lev4 V0 (Proc.devRef .tc main_v77) := (filt49_keep (lev49 V0) (r := main_v77) (by decide)).trans (k3_49 V0)
theorem k3_51 (V0 : Valuation τ sig (Elt F)) : lev51 V0 (Proc.devRef .tc main_v77) = lev4 V0 (Proc.devRef .tc main_v77) := (filt50_keep (lev50 V0) (r := main_v77) (by decide)).trans (k3_50 V0)
theorem k3_52 (V0 : Valuation τ sig (Elt F)) : lev52 V0 (Proc.devRef .tc main_v77) = lev4 V0 (Proc.devRef .tc main_v77) := (filt51_keep (lev51 V0) (r := main_v77) (by decide)).trans (k3_51 V0)
theorem k3_53 (V0 : Valuation τ sig (Elt F)) : lev53 V0 (Proc.devRef .tc main_v77) = lev4 V0 (Proc.devRef .tc main_v77) := (filt52_keep (lev52 V0) (r := main_v77) (by decide)).trans (k3_52 V0)
theorem k3_54 (V0 : Valuation τ sig (Elt F)) : lev54 V0 (Proc.devRef .tc main_v77) = lev4 V0 (Proc.devRef .tc main_v77) := (filt53_keep (lev53 V0) (r := main_v77) (by decide)).trans (k3_53 V0)
theorem k3_55 (V0 : Valuation τ sig (Elt F)) : lev55 V0 (Proc.devRef .tc main_v77) = lev4 V0 (Proc.devRef .tc main_v77) := (filt54_keep (lev54 V0) (r := main_v77) (by decide)).trans (k3_54 V0)
theorem k3_56 (V0 : Valuation τ sig (Elt F)) : lev56 V0 (Proc.devRef .tc main_v77) = lev4 V0 (Proc.devRef .tc main_v77) := (filt55_keep (lev55 V0) (r := main_v77) (by decide)).trans (k3_55 V0)
theorem k3_57 (V0 : Valuation τ sig (Elt F)) : lev57 V0 (Proc.devRef .tc main_v77) = lev4 V0 (Proc.devRef .tc main_v77) := (filt56_keep (lev56 V0) (r := main_v77) (by decide)).trans (k3_56 V0)
theorem k3_58 (V0 : Valuation τ sig (Elt F)) : lev58 V0 (Proc.devRef .tc main_v77) = lev4 V0 (Proc.devRef .tc main_v77) := (filt57_keep (lev57 V0) (r := main_v77) (by decide)).trans (k3_57 V0)
theorem k3_59 (V0 : Valuation τ sig (Elt F)) : lev59 V0 (Proc.devRef .tc main_v77) = lev4 V0 (Proc.devRef .tc main_v77) := (filt58_keep (lev58 V0) (r := main_v77) (by decide)).trans (k3_58 V0)
theorem k3_60 (V0 : Valuation τ sig (Elt F)) : lev60 V0 (Proc.devRef .tc main_v77) = lev4 V0 (Proc.devRef .tc main_v77) := (filt59_keep (lev59 V0) (r := main_v77) (by decide)).trans (k3_59 V0)
theorem k3_61 (V0 : Valuation τ sig (Elt F)) : lev61 V0 (Proc.devRef .tc main_v77) = lev4 V0 (Proc.devRef .tc main_v77) := (filt60_keep (lev60 V0) (r := main_v77) (by decide)).trans (k3_60 V0)
theorem k3_62 (V0 : Valuation τ sig (Elt F)) : lev62 V0 (Proc.devRef .tc main_v77) = lev4 V0 (Proc.devRef .tc main_v77) := (filt61_keep (lev61 V0) (r := main_v77) (by decide)).trans (k3_61 V0)
theorem k3_63 (V0 : Valuation τ sig (Elt F)) : lev63 V0 (Proc.devRef .tc main_v77) = lev4 V0 (Proc.devRef .tc main_v77) := (filt62_keep (lev62 V0) (r := main_v77) (by decide)).trans (k3_62 V0)
theorem k3_64 (V0 : Valuation τ sig (Elt F)) : lev64 V0 (Proc.devRef .tc main_v77) = lev4 V0 (Proc.devRef .tc main_v77) := (filt63_keep (lev63 V0) (r := main_v77) (by decide)).trans (k3_63 V0)
theorem k4_6 (V0 : Valuation τ sig (Elt F)) : lev6 V0 (Proc.devRef .tc main_v99) = lev5 V0 (Proc.devRef .tc main_v99) := (filt5_keep (lev5 V0) (r := main_v99) (by decide))
theorem k4_7 (V0 : Valuation τ sig (Elt F)) : lev7 V0 (Proc.devRef .tc main_v99) = lev5 V0 (Proc.devRef .tc main_v99) := (filt6_keep (lev6 V0) (r := main_v99) (by decide)).trans (k4_6 V0)
theorem k4_8 (V0 : Valuation τ sig (Elt F)) : lev8 V0 (Proc.devRef .tc main_v99) = lev5 V0 (Proc.devRef .tc main_v99) := (filt7_keep (lev7 V0) (r := main_v99) (by decide)).trans (k4_7 V0)
theorem k4_9 (V0 : Valuation τ sig (Elt F)) : lev9 V0 (Proc.devRef .tc main_v99) = lev5 V0 (Proc.devRef .tc main_v99) := (filt8_keep (lev8 V0) (r := main_v99) (by decide)).trans (k4_8 V0)
theorem k4_10 (V0 : Valuation τ sig (Elt F)) : lev10 V0 (Proc.devRef .tc main_v99) = lev5 V0 (Proc.devRef .tc main_v99) := (filt9_keep (lev9 V0) (r := main_v99) (by decide)).trans (k4_9 V0)
theorem k4_11 (V0 : Valuation τ sig (Elt F)) : lev11 V0 (Proc.devRef .tc main_v99) = lev5 V0 (Proc.devRef .tc main_v99) := (filt10_keep (lev10 V0) (r := main_v99) (by decide)).trans (k4_10 V0)
theorem k4_12 (V0 : Valuation τ sig (Elt F)) : lev12 V0 (Proc.devRef .tc main_v99) = lev5 V0 (Proc.devRef .tc main_v99) := (filt11_keep (lev11 V0) (r := main_v99) (by decide)).trans (k4_11 V0)
theorem k4_13 (V0 : Valuation τ sig (Elt F)) : lev13 V0 (Proc.devRef .tc main_v99) = lev5 V0 (Proc.devRef .tc main_v99) := (filt12_keep (lev12 V0) (r := main_v99) (by decide)).trans (k4_12 V0)
theorem k4_14 (V0 : Valuation τ sig (Elt F)) : lev14 V0 (Proc.devRef .tc main_v99) = lev5 V0 (Proc.devRef .tc main_v99) := (filt13_keep (lev13 V0) (r := main_v99) (by decide)).trans (k4_13 V0)
theorem k4_15 (V0 : Valuation τ sig (Elt F)) : lev15 V0 (Proc.devRef .tc main_v99) = lev5 V0 (Proc.devRef .tc main_v99) := (filt14_keep (lev14 V0) (r := main_v99) (by decide)).trans (k4_14 V0)
theorem k4_16 (V0 : Valuation τ sig (Elt F)) : lev16 V0 (Proc.devRef .tc main_v99) = lev5 V0 (Proc.devRef .tc main_v99) := (filt15_keep (lev15 V0) (r := main_v99) (by decide)).trans (k4_15 V0)
theorem k4_17 (V0 : Valuation τ sig (Elt F)) : lev17 V0 (Proc.devRef .tc main_v99) = lev5 V0 (Proc.devRef .tc main_v99) := (filt16_keep (lev16 V0) (r := main_v99) (by decide)).trans (k4_16 V0)
theorem k4_18 (V0 : Valuation τ sig (Elt F)) : lev18 V0 (Proc.devRef .tc main_v99) = lev5 V0 (Proc.devRef .tc main_v99) := (filt17_keep (lev17 V0) (r := main_v99) (by decide)).trans (k4_17 V0)
theorem k4_19 (V0 : Valuation τ sig (Elt F)) : lev19 V0 (Proc.devRef .tc main_v99) = lev5 V0 (Proc.devRef .tc main_v99) := (filt18_keep (lev18 V0) (r := main_v99) (by decide)).trans (k4_18 V0)
theorem k4_20 (V0 : Valuation τ sig (Elt F)) : lev20 V0 (Proc.devRef .tc main_v99) = lev5 V0 (Proc.devRef .tc main_v99) := (filt19_keep (lev19 V0) (r := main_v99) (by decide)).trans (k4_19 V0)
theorem k4_21 (V0 : Valuation τ sig (Elt F)) : lev21 V0 (Proc.devRef .tc main_v99) = lev5 V0 (Proc.devRef .tc main_v99) := (filt20_keep (lev20 V0) (r := main_v99) (by decide)).trans (k4_20 V0)
theorem k4_22 (V0 : Valuation τ sig (Elt F)) : lev22 V0 (Proc.devRef .tc main_v99) = lev5 V0 (Proc.devRef .tc main_v99) := (filt21_keep (lev21 V0) (r := main_v99) (by decide)).trans (k4_21 V0)
theorem k4_23 (V0 : Valuation τ sig (Elt F)) : lev23 V0 (Proc.devRef .tc main_v99) = lev5 V0 (Proc.devRef .tc main_v99) := (filt22_keep (lev22 V0) (r := main_v99) (by decide)).trans (k4_22 V0)
theorem k4_24 (V0 : Valuation τ sig (Elt F)) : lev24 V0 (Proc.devRef .tc main_v99) = lev5 V0 (Proc.devRef .tc main_v99) := (filt23_keep (lev23 V0) (r := main_v99) (by decide)).trans (k4_23 V0)
theorem k4_25 (V0 : Valuation τ sig (Elt F)) : lev25 V0 (Proc.devRef .tc main_v99) = lev5 V0 (Proc.devRef .tc main_v99) := (filt24_keep (lev24 V0) (r := main_v99) (by decide)).trans (k4_24 V0)
theorem k4_26 (V0 : Valuation τ sig (Elt F)) : lev26 V0 (Proc.devRef .tc main_v99) = lev5 V0 (Proc.devRef .tc main_v99) := (filt25_keep (lev25 V0) (r := main_v99) (by decide)).trans (k4_25 V0)
theorem k4_27 (V0 : Valuation τ sig (Elt F)) : lev27 V0 (Proc.devRef .tc main_v99) = lev5 V0 (Proc.devRef .tc main_v99) := (filt26_keep (lev26 V0) (r := main_v99) (by decide)).trans (k4_26 V0)
theorem k4_28 (V0 : Valuation τ sig (Elt F)) : lev28 V0 (Proc.devRef .tc main_v99) = lev5 V0 (Proc.devRef .tc main_v99) := (filt27_keep (lev27 V0) (r := main_v99) (by decide)).trans (k4_27 V0)
theorem k4_29 (V0 : Valuation τ sig (Elt F)) : lev29 V0 (Proc.devRef .tc main_v99) = lev5 V0 (Proc.devRef .tc main_v99) := (filt28_keep (lev28 V0) (r := main_v99) (by decide)).trans (k4_28 V0)
theorem k4_30 (V0 : Valuation τ sig (Elt F)) : lev30 V0 (Proc.devRef .tc main_v99) = lev5 V0 (Proc.devRef .tc main_v99) := (filt29_keep (lev29 V0) (r := main_v99) (by decide)).trans (k4_29 V0)
theorem k4_31 (V0 : Valuation τ sig (Elt F)) : lev31 V0 (Proc.devRef .tc main_v99) = lev5 V0 (Proc.devRef .tc main_v99) := (filt30_keep (lev30 V0) (r := main_v99) (by decide)).trans (k4_30 V0)
theorem k4_32 (V0 : Valuation τ sig (Elt F)) : lev32 V0 (Proc.devRef .tc main_v99) = lev5 V0 (Proc.devRef .tc main_v99) := (filt31_keep (lev31 V0) (r := main_v99) (by decide)).trans (k4_31 V0)
theorem k4_33 (V0 : Valuation τ sig (Elt F)) : lev33 V0 (Proc.devRef .tc main_v99) = lev5 V0 (Proc.devRef .tc main_v99) := (filt32_keep (lev32 V0) (r := main_v99) (by decide)).trans (k4_32 V0)
theorem k4_34 (V0 : Valuation τ sig (Elt F)) : lev34 V0 (Proc.devRef .tc main_v99) = lev5 V0 (Proc.devRef .tc main_v99) := (filt33_keep (lev33 V0) (r := main_v99) (by decide)).trans (k4_33 V0)
theorem k4_35 (V0 : Valuation τ sig (Elt F)) : lev35 V0 (Proc.devRef .tc main_v99) = lev5 V0 (Proc.devRef .tc main_v99) := (filt34_keep (lev34 V0) (r := main_v99) (by decide)).trans (k4_34 V0)
theorem k4_36 (V0 : Valuation τ sig (Elt F)) : lev36 V0 (Proc.devRef .tc main_v99) = lev5 V0 (Proc.devRef .tc main_v99) := (filt35_keep (lev35 V0) (r := main_v99) (by decide)).trans (k4_35 V0)
theorem k4_37 (V0 : Valuation τ sig (Elt F)) : lev37 V0 (Proc.devRef .tc main_v99) = lev5 V0 (Proc.devRef .tc main_v99) := (filt36_keep (lev36 V0) (r := main_v99) (by decide)).trans (k4_36 V0)
theorem k4_38 (V0 : Valuation τ sig (Elt F)) : lev38 V0 (Proc.devRef .tc main_v99) = lev5 V0 (Proc.devRef .tc main_v99) := (filt37_keep (lev37 V0) (r := main_v99) (by decide)).trans (k4_37 V0)
theorem k4_39 (V0 : Valuation τ sig (Elt F)) : lev39 V0 (Proc.devRef .tc main_v99) = lev5 V0 (Proc.devRef .tc main_v99) := (filt38_keep (lev38 V0) (r := main_v99) (by decide)).trans (k4_38 V0)
theorem k4_40 (V0 : Valuation τ sig (Elt F)) : lev40 V0 (Proc.devRef .tc main_v99) = lev5 V0 (Proc.devRef .tc main_v99) := (filt39_keep (lev39 V0) (r := main_v99) (by decide)).trans (k4_39 V0)
theorem k4_41 (V0 : Valuation τ sig (Elt F)) : lev41 V0 (Proc.devRef .tc main_v99) = lev5 V0 (Proc.devRef .tc main_v99) := (filt40_keep (lev40 V0) (r := main_v99) (by decide)).trans (k4_40 V0)
theorem k4_42 (V0 : Valuation τ sig (Elt F)) : lev42 V0 (Proc.devRef .tc main_v99) = lev5 V0 (Proc.devRef .tc main_v99) := (filt41_keep (lev41 V0) (r := main_v99) (by decide)).trans (k4_41 V0)
theorem k4_43 (V0 : Valuation τ sig (Elt F)) : lev43 V0 (Proc.devRef .tc main_v99) = lev5 V0 (Proc.devRef .tc main_v99) := (filt42_keep (lev42 V0) (r := main_v99) (by decide)).trans (k4_42 V0)
theorem k4_44 (V0 : Valuation τ sig (Elt F)) : lev44 V0 (Proc.devRef .tc main_v99) = lev5 V0 (Proc.devRef .tc main_v99) := (filt43_keep (lev43 V0) (r := main_v99) (by decide)).trans (k4_43 V0)
theorem k4_45 (V0 : Valuation τ sig (Elt F)) : lev45 V0 (Proc.devRef .tc main_v99) = lev5 V0 (Proc.devRef .tc main_v99) := (filt44_keep (lev44 V0) (r := main_v99) (by decide)).trans (k4_44 V0)
theorem k4_46 (V0 : Valuation τ sig (Elt F)) : lev46 V0 (Proc.devRef .tc main_v99) = lev5 V0 (Proc.devRef .tc main_v99) := (filt45_keep (lev45 V0) (r := main_v99) (by decide)).trans (k4_45 V0)
theorem k4_47 (V0 : Valuation τ sig (Elt F)) : lev47 V0 (Proc.devRef .tc main_v99) = lev5 V0 (Proc.devRef .tc main_v99) := (filt46_keep (lev46 V0) (r := main_v99) (by decide)).trans (k4_46 V0)
theorem k4_48 (V0 : Valuation τ sig (Elt F)) : lev48 V0 (Proc.devRef .tc main_v99) = lev5 V0 (Proc.devRef .tc main_v99) := (filt47_keep (lev47 V0) (r := main_v99) (by decide)).trans (k4_47 V0)
theorem k4_49 (V0 : Valuation τ sig (Elt F)) : lev49 V0 (Proc.devRef .tc main_v99) = lev5 V0 (Proc.devRef .tc main_v99) := (filt48_keep (lev48 V0) (r := main_v99) (by decide)).trans (k4_48 V0)
theorem k4_50 (V0 : Valuation τ sig (Elt F)) : lev50 V0 (Proc.devRef .tc main_v99) = lev5 V0 (Proc.devRef .tc main_v99) := (filt49_keep (lev49 V0) (r := main_v99) (by decide)).trans (k4_49 V0)
theorem k4_51 (V0 : Valuation τ sig (Elt F)) : lev51 V0 (Proc.devRef .tc main_v99) = lev5 V0 (Proc.devRef .tc main_v99) := (filt50_keep (lev50 V0) (r := main_v99) (by decide)).trans (k4_50 V0)
theorem k4_52 (V0 : Valuation τ sig (Elt F)) : lev52 V0 (Proc.devRef .tc main_v99) = lev5 V0 (Proc.devRef .tc main_v99) := (filt51_keep (lev51 V0) (r := main_v99) (by decide)).trans (k4_51 V0)
theorem k4_53 (V0 : Valuation τ sig (Elt F)) : lev53 V0 (Proc.devRef .tc main_v99) = lev5 V0 (Proc.devRef .tc main_v99) := (filt52_keep (lev52 V0) (r := main_v99) (by decide)).trans (k4_52 V0)
theorem k4_54 (V0 : Valuation τ sig (Elt F)) : lev54 V0 (Proc.devRef .tc main_v99) = lev5 V0 (Proc.devRef .tc main_v99) := (filt53_keep (lev53 V0) (r := main_v99) (by decide)).trans (k4_53 V0)
theorem k4_55 (V0 : Valuation τ sig (Elt F)) : lev55 V0 (Proc.devRef .tc main_v99) = lev5 V0 (Proc.devRef .tc main_v99) := (filt54_keep (lev54 V0) (r := main_v99) (by decide)).trans (k4_54 V0)
theorem k4_56 (V0 : Valuation τ sig (Elt F)) : lev56 V0 (Proc.devRef .tc main_v99) = lev5 V0 (Proc.devRef .tc main_v99) := (filt55_keep (lev55 V0) (r := main_v99) (by decide)).trans (k4_55 V0)
theorem k4_57 (V0 : Valuation τ sig (Elt F)) : lev57 V0 (Proc.devRef .tc main_v99) = lev5 V0 (Proc.devRef .tc main_v99) := (filt56_keep (lev56 V0) (r := main_v99) (by decide)).trans (k4_56 V0)
theorem k4_58 (V0 : Valuation τ sig (Elt F)) : lev58 V0 (Proc.devRef .tc main_v99) = lev5 V0 (Proc.devRef .tc main_v99) := (filt57_keep (lev57 V0) (r := main_v99) (by decide)).trans (k4_57 V0)
theorem k4_59 (V0 : Valuation τ sig (Elt F)) : lev59 V0 (Proc.devRef .tc main_v99) = lev5 V0 (Proc.devRef .tc main_v99) := (filt58_keep (lev58 V0) (r := main_v99) (by decide)).trans (k4_58 V0)
theorem k4_60 (V0 : Valuation τ sig (Elt F)) : lev60 V0 (Proc.devRef .tc main_v99) = lev5 V0 (Proc.devRef .tc main_v99) := (filt59_keep (lev59 V0) (r := main_v99) (by decide)).trans (k4_59 V0)
theorem k4_61 (V0 : Valuation τ sig (Elt F)) : lev61 V0 (Proc.devRef .tc main_v99) = lev5 V0 (Proc.devRef .tc main_v99) := (filt60_keep (lev60 V0) (r := main_v99) (by decide)).trans (k4_60 V0)
theorem k4_62 (V0 : Valuation τ sig (Elt F)) : lev62 V0 (Proc.devRef .tc main_v99) = lev5 V0 (Proc.devRef .tc main_v99) := (filt61_keep (lev61 V0) (r := main_v99) (by decide)).trans (k4_61 V0)
theorem k4_63 (V0 : Valuation τ sig (Elt F)) : lev63 V0 (Proc.devRef .tc main_v99) = lev5 V0 (Proc.devRef .tc main_v99) := (filt62_keep (lev62 V0) (r := main_v99) (by decide)).trans (k4_62 V0)
theorem k4_64 (V0 : Valuation τ sig (Elt F)) : lev64 V0 (Proc.devRef .tc main_v99) = lev5 V0 (Proc.devRef .tc main_v99) := (filt63_keep (lev63 V0) (r := main_v99) (by decide)).trans (k4_63 V0)
theorem k5_7 (V0 : Valuation τ sig (Elt F)) : lev7 V0 (Proc.devRef .tc main_v121) = lev6 V0 (Proc.devRef .tc main_v121) := (filt6_keep (lev6 V0) (r := main_v121) (by decide))
theorem k5_8 (V0 : Valuation τ sig (Elt F)) : lev8 V0 (Proc.devRef .tc main_v121) = lev6 V0 (Proc.devRef .tc main_v121) := (filt7_keep (lev7 V0) (r := main_v121) (by decide)).trans (k5_7 V0)
theorem k5_9 (V0 : Valuation τ sig (Elt F)) : lev9 V0 (Proc.devRef .tc main_v121) = lev6 V0 (Proc.devRef .tc main_v121) := (filt8_keep (lev8 V0) (r := main_v121) (by decide)).trans (k5_8 V0)
theorem k5_10 (V0 : Valuation τ sig (Elt F)) : lev10 V0 (Proc.devRef .tc main_v121) = lev6 V0 (Proc.devRef .tc main_v121) := (filt9_keep (lev9 V0) (r := main_v121) (by decide)).trans (k5_9 V0)
theorem k5_11 (V0 : Valuation τ sig (Elt F)) : lev11 V0 (Proc.devRef .tc main_v121) = lev6 V0 (Proc.devRef .tc main_v121) := (filt10_keep (lev10 V0) (r := main_v121) (by decide)).trans (k5_10 V0)
theorem k5_12 (V0 : Valuation τ sig (Elt F)) : lev12 V0 (Proc.devRef .tc main_v121) = lev6 V0 (Proc.devRef .tc main_v121) := (filt11_keep (lev11 V0) (r := main_v121) (by decide)).trans (k5_11 V0)
theorem k5_13 (V0 : Valuation τ sig (Elt F)) : lev13 V0 (Proc.devRef .tc main_v121) = lev6 V0 (Proc.devRef .tc main_v121) := (filt12_keep (lev12 V0) (r := main_v121) (by decide)).trans (k5_12 V0)
theorem k5_14 (V0 : Valuation τ sig (Elt F)) : lev14 V0 (Proc.devRef .tc main_v121) = lev6 V0 (Proc.devRef .tc main_v121) := (filt13_keep (lev13 V0) (r := main_v121) (by decide)).trans (k5_13 V0)
theorem k5_15 (V0 : Valuation τ sig (Elt F)) : lev15 V0 (Proc.devRef .tc main_v121) = lev6 V0 (Proc.devRef .tc main_v121) := (filt14_keep (lev14 V0) (r := main_v121) (by decide)).trans (k5_14 V0)
theorem k5_16 (V0 : Valuation τ sig (Elt F)) : lev16 V0 (Proc.devRef .tc main_v121) = lev6 V0 (Proc.devRef .tc main_v121) := (filt15_keep (lev15 V0) (r := main_v121) (by decide)).trans (k5_15 V0)
theorem k5_17 (V0 : Valuation τ sig (Elt F)) : lev17 V0 (Proc.devRef .tc main_v121) = lev6 V0 (Proc.devRef .tc main_v121) := (filt16_keep (lev16 V0) (r := main_v121) (by decide)).trans (k5_16 V0)
theorem k5_18 (V0 : Valuation τ sig (Elt F)) : lev18 V0 (Proc.devRef .tc main_v121) = lev6 V0 (Proc.devRef .tc main_v121) := (filt17_keep (lev17 V0) (r := main_v121) (by decide)).trans (k5_17 V0)
theorem k5_19 (V0 : Valuation τ sig (Elt F)) : lev19 V0 (Proc.devRef .tc main_v121) = lev6 V0 (Proc.devRef .tc main_v121) := (filt18_keep (lev18 V0) (r := main_v121) (by decide)).trans (k5_18 V0)
theorem k5_20 (V0 : Valuation τ sig (Elt F)) : lev20 V0 (Proc.devRef .tc main_v121) = lev6 V0 (Proc.devRef .tc main_v121) := (filt19_keep (lev19 V0) (r := main_v121) (by decide)).trans (k5_19 V0)
theorem k5_21 (V0 : Valuation τ sig (Elt F)) : lev21 V0 (Proc.devRef .tc main_v121) = lev6 V0 (Proc.devRef .tc main_v121) := (filt20_keep (lev20 V0) (r := main_v121) (by decide)).trans (k5_20 V0)
theorem k5_22 (V0 : Valuation τ sig (Elt F)) : lev22 V0 (Proc.devRef .tc main_v121) = lev6 V0 (Proc.devRef .tc main_v121) := (filt21_keep (lev21 V0) (r := main_v121) (by decide)).trans (k5_21 V0)
theorem k5_23 (V0 : Valuation τ sig (Elt F)) : lev23 V0 (Proc.devRef .tc main_v121) = lev6 V0 (Proc.devRef .tc main_v121) := (filt22_keep (lev22 V0) (r := main_v121) (by decide)).trans (k5_22 V0)
theorem k5_24 (V0 : Valuation τ sig (Elt F)) : lev24 V0 (Proc.devRef .tc main_v121) = lev6 V0 (Proc.devRef .tc main_v121) := (filt23_keep (lev23 V0) (r := main_v121) (by decide)).trans (k5_23 V0)
theorem k5_25 (V0 : Valuation τ sig (Elt F)) : lev25 V0 (Proc.devRef .tc main_v121) = lev6 V0 (Proc.devRef .tc main_v121) := (filt24_keep (lev24 V0) (r := main_v121) (by decide)).trans (k5_24 V0)
theorem k5_26 (V0 : Valuation τ sig (Elt F)) : lev26 V0 (Proc.devRef .tc main_v121) = lev6 V0 (Proc.devRef .tc main_v121) := (filt25_keep (lev25 V0) (r := main_v121) (by decide)).trans (k5_25 V0)
theorem k5_27 (V0 : Valuation τ sig (Elt F)) : lev27 V0 (Proc.devRef .tc main_v121) = lev6 V0 (Proc.devRef .tc main_v121) := (filt26_keep (lev26 V0) (r := main_v121) (by decide)).trans (k5_26 V0)
theorem k5_28 (V0 : Valuation τ sig (Elt F)) : lev28 V0 (Proc.devRef .tc main_v121) = lev6 V0 (Proc.devRef .tc main_v121) := (filt27_keep (lev27 V0) (r := main_v121) (by decide)).trans (k5_27 V0)
theorem k5_29 (V0 : Valuation τ sig (Elt F)) : lev29 V0 (Proc.devRef .tc main_v121) = lev6 V0 (Proc.devRef .tc main_v121) := (filt28_keep (lev28 V0) (r := main_v121) (by decide)).trans (k5_28 V0)
theorem k5_30 (V0 : Valuation τ sig (Elt F)) : lev30 V0 (Proc.devRef .tc main_v121) = lev6 V0 (Proc.devRef .tc main_v121) := (filt29_keep (lev29 V0) (r := main_v121) (by decide)).trans (k5_29 V0)
theorem k5_31 (V0 : Valuation τ sig (Elt F)) : lev31 V0 (Proc.devRef .tc main_v121) = lev6 V0 (Proc.devRef .tc main_v121) := (filt30_keep (lev30 V0) (r := main_v121) (by decide)).trans (k5_30 V0)
theorem k5_32 (V0 : Valuation τ sig (Elt F)) : lev32 V0 (Proc.devRef .tc main_v121) = lev6 V0 (Proc.devRef .tc main_v121) := (filt31_keep (lev31 V0) (r := main_v121) (by decide)).trans (k5_31 V0)
theorem k5_33 (V0 : Valuation τ sig (Elt F)) : lev33 V0 (Proc.devRef .tc main_v121) = lev6 V0 (Proc.devRef .tc main_v121) := (filt32_keep (lev32 V0) (r := main_v121) (by decide)).trans (k5_32 V0)
theorem k5_34 (V0 : Valuation τ sig (Elt F)) : lev34 V0 (Proc.devRef .tc main_v121) = lev6 V0 (Proc.devRef .tc main_v121) := (filt33_keep (lev33 V0) (r := main_v121) (by decide)).trans (k5_33 V0)
theorem k5_35 (V0 : Valuation τ sig (Elt F)) : lev35 V0 (Proc.devRef .tc main_v121) = lev6 V0 (Proc.devRef .tc main_v121) := (filt34_keep (lev34 V0) (r := main_v121) (by decide)).trans (k5_34 V0)
theorem k5_36 (V0 : Valuation τ sig (Elt F)) : lev36 V0 (Proc.devRef .tc main_v121) = lev6 V0 (Proc.devRef .tc main_v121) := (filt35_keep (lev35 V0) (r := main_v121) (by decide)).trans (k5_35 V0)
theorem k5_37 (V0 : Valuation τ sig (Elt F)) : lev37 V0 (Proc.devRef .tc main_v121) = lev6 V0 (Proc.devRef .tc main_v121) := (filt36_keep (lev36 V0) (r := main_v121) (by decide)).trans (k5_36 V0)
theorem k5_38 (V0 : Valuation τ sig (Elt F)) : lev38 V0 (Proc.devRef .tc main_v121) = lev6 V0 (Proc.devRef .tc main_v121) := (filt37_keep (lev37 V0) (r := main_v121) (by decide)).trans (k5_37 V0)
theorem k5_39 (V0 : Valuation τ sig (Elt F)) : lev39 V0 (Proc.devRef .tc main_v121) = lev6 V0 (Proc.devRef .tc main_v121) := (filt38_keep (lev38 V0) (r := main_v121) (by decide)).trans (k5_38 V0)
theorem k5_40 (V0 : Valuation τ sig (Elt F)) : lev40 V0 (Proc.devRef .tc main_v121) = lev6 V0 (Proc.devRef .tc main_v121) := (filt39_keep (lev39 V0) (r := main_v121) (by decide)).trans (k5_39 V0)
theorem k5_41 (V0 : Valuation τ sig (Elt F)) : lev41 V0 (Proc.devRef .tc main_v121) = lev6 V0 (Proc.devRef .tc main_v121) := (filt40_keep (lev40 V0) (r := main_v121) (by decide)).trans (k5_40 V0)
theorem k5_42 (V0 : Valuation τ sig (Elt F)) : lev42 V0 (Proc.devRef .tc main_v121) = lev6 V0 (Proc.devRef .tc main_v121) := (filt41_keep (lev41 V0) (r := main_v121) (by decide)).trans (k5_41 V0)
theorem k5_43 (V0 : Valuation τ sig (Elt F)) : lev43 V0 (Proc.devRef .tc main_v121) = lev6 V0 (Proc.devRef .tc main_v121) := (filt42_keep (lev42 V0) (r := main_v121) (by decide)).trans (k5_42 V0)
theorem k5_44 (V0 : Valuation τ sig (Elt F)) : lev44 V0 (Proc.devRef .tc main_v121) = lev6 V0 (Proc.devRef .tc main_v121) := (filt43_keep (lev43 V0) (r := main_v121) (by decide)).trans (k5_43 V0)
theorem k5_45 (V0 : Valuation τ sig (Elt F)) : lev45 V0 (Proc.devRef .tc main_v121) = lev6 V0 (Proc.devRef .tc main_v121) := (filt44_keep (lev44 V0) (r := main_v121) (by decide)).trans (k5_44 V0)
theorem k5_46 (V0 : Valuation τ sig (Elt F)) : lev46 V0 (Proc.devRef .tc main_v121) = lev6 V0 (Proc.devRef .tc main_v121) := (filt45_keep (lev45 V0) (r := main_v121) (by decide)).trans (k5_45 V0)
theorem k5_47 (V0 : Valuation τ sig (Elt F)) : lev47 V0 (Proc.devRef .tc main_v121) = lev6 V0 (Proc.devRef .tc main_v121) := (filt46_keep (lev46 V0) (r := main_v121) (by decide)).trans (k5_46 V0)
theorem k5_48 (V0 : Valuation τ sig (Elt F)) : lev48 V0 (Proc.devRef .tc main_v121) = lev6 V0 (Proc.devRef .tc main_v121) := (filt47_keep (lev47 V0) (r := main_v121) (by decide)).trans (k5_47 V0)
theorem k5_49 (V0 : Valuation τ sig (Elt F)) : lev49 V0 (Proc.devRef .tc main_v121) = lev6 V0 (Proc.devRef .tc main_v121) := (filt48_keep (lev48 V0) (r := main_v121) (by decide)).trans (k5_48 V0)
theorem k5_50 (V0 : Valuation τ sig (Elt F)) : lev50 V0 (Proc.devRef .tc main_v121) = lev6 V0 (Proc.devRef .tc main_v121) := (filt49_keep (lev49 V0) (r := main_v121) (by decide)).trans (k5_49 V0)
theorem k5_51 (V0 : Valuation τ sig (Elt F)) : lev51 V0 (Proc.devRef .tc main_v121) = lev6 V0 (Proc.devRef .tc main_v121) := (filt50_keep (lev50 V0) (r := main_v121) (by decide)).trans (k5_50 V0)
theorem k5_52 (V0 : Valuation τ sig (Elt F)) : lev52 V0 (Proc.devRef .tc main_v121) = lev6 V0 (Proc.devRef .tc main_v121) := (filt51_keep (lev51 V0) (r := main_v121) (by decide)).trans (k5_51 V0)
theorem k5_53 (V0 : Valuation τ sig (Elt F)) : lev53 V0 (Proc.devRef .tc main_v121) = lev6 V0 (Proc.devRef .tc main_v121) := (filt52_keep (lev52 V0) (r := main_v121) (by decide)).trans (k5_52 V0)
theorem k5_54 (V0 : Valuation τ sig (Elt F)) : lev54 V0 (Proc.devRef .tc main_v121) = lev6 V0 (Proc.devRef .tc main_v121) := (filt53_keep (lev53 V0) (r := main_v121) (by decide)).trans (k5_53 V0)
theorem k5_55 (V0 : Valuation τ sig (Elt F)) : lev55 V0 (Proc.devRef .tc main_v121) = lev6 V0 (Proc.devRef .tc main_v121) := (filt54_keep (lev54 V0) (r := main_v121) (by decide)).trans (k5_54 V0)
theorem k5_56 (V0 : Valuation τ sig (Elt F)) : lev56 V0 (Proc.devRef .tc main_v121) = lev6 V0 (Proc.devRef .tc main_v121) := (filt55_keep (lev55 V0) (r := main_v121) (by decide)).trans (k5_55 V0)
theorem k5_57 (V0 : Valuation τ sig (Elt F)) : lev57 V0 (Proc.devRef .tc main_v121) = lev6 V0 (Proc.devRef .tc main_v121) := (filt56_keep (lev56 V0) (r := main_v121) (by decide)).trans (k5_56 V0)
theorem k5_58 (V0 : Valuation τ sig (Elt F)) : lev58 V0 (Proc.devRef .tc main_v121) = lev6 V0 (Proc.devRef .tc main_v121) := (filt57_keep (lev57 V0) (r := main_v121) (by decide)).trans (k5_57 V0)
theorem k5_59 (V0 : Valuation τ sig (Elt F)) : lev59 V0 (Proc.devRef .tc main_v121) = lev6 V0 (Proc.devRef .tc main_v121) := (filt58_keep (lev58 V0) (r := main_v121) (by decide)).trans (k5_58 V0)
theorem k5_60 (V0 : Valuation τ sig (Elt F)) : lev60 V0 (Proc.devRef .tc main_v121) = lev6 V0 (Proc.devRef .tc main_v121) := (filt59_keep (lev59 V0) (r := main_v121) (by decide)).trans (k5_59 V0)
theorem k5_61 (V0 : Valuation τ sig (Elt F)) : lev61 V0 (Proc.devRef .tc main_v121) = lev6 V0 (Proc.devRef .tc main_v121) := (filt60_keep (lev60 V0) (r := main_v121) (by decide)).trans (k5_60 V0)
theorem k5_62 (V0 : Valuation τ sig (Elt F)) : lev62 V0 (Proc.devRef .tc main_v121) = lev6 V0 (Proc.devRef .tc main_v121) := (filt61_keep (lev61 V0) (r := main_v121) (by decide)).trans (k5_61 V0)
theorem k5_63 (V0 : Valuation τ sig (Elt F)) : lev63 V0 (Proc.devRef .tc main_v121) = lev6 V0 (Proc.devRef .tc main_v121) := (filt62_keep (lev62 V0) (r := main_v121) (by decide)).trans (k5_62 V0)
theorem k5_64 (V0 : Valuation τ sig (Elt F)) : lev64 V0 (Proc.devRef .tc main_v121) = lev6 V0 (Proc.devRef .tc main_v121) := (filt63_keep (lev63 V0) (r := main_v121) (by decide)).trans (k5_63 V0)
theorem k6_8 (V0 : Valuation τ sig (Elt F)) : lev8 V0 (Proc.devRef .tc main_v146) = lev7 V0 (Proc.devRef .tc main_v146) := (filt7_keep (lev7 V0) (r := main_v146) (by decide))
theorem k6_9 (V0 : Valuation τ sig (Elt F)) : lev9 V0 (Proc.devRef .tc main_v146) = lev7 V0 (Proc.devRef .tc main_v146) := (filt8_keep (lev8 V0) (r := main_v146) (by decide)).trans (k6_8 V0)
theorem k6_10 (V0 : Valuation τ sig (Elt F)) : lev10 V0 (Proc.devRef .tc main_v146) = lev7 V0 (Proc.devRef .tc main_v146) := (filt9_keep (lev9 V0) (r := main_v146) (by decide)).trans (k6_9 V0)
theorem k6_11 (V0 : Valuation τ sig (Elt F)) : lev11 V0 (Proc.devRef .tc main_v146) = lev7 V0 (Proc.devRef .tc main_v146) := (filt10_keep (lev10 V0) (r := main_v146) (by decide)).trans (k6_10 V0)
theorem k6_12 (V0 : Valuation τ sig (Elt F)) : lev12 V0 (Proc.devRef .tc main_v146) = lev7 V0 (Proc.devRef .tc main_v146) := (filt11_keep (lev11 V0) (r := main_v146) (by decide)).trans (k6_11 V0)
theorem k6_13 (V0 : Valuation τ sig (Elt F)) : lev13 V0 (Proc.devRef .tc main_v146) = lev7 V0 (Proc.devRef .tc main_v146) := (filt12_keep (lev12 V0) (r := main_v146) (by decide)).trans (k6_12 V0)
theorem k6_14 (V0 : Valuation τ sig (Elt F)) : lev14 V0 (Proc.devRef .tc main_v146) = lev7 V0 (Proc.devRef .tc main_v146) := (filt13_keep (lev13 V0) (r := main_v146) (by decide)).trans (k6_13 V0)
theorem k6_15 (V0 : Valuation τ sig (Elt F)) : lev15 V0 (Proc.devRef .tc main_v146) = lev7 V0 (Proc.devRef .tc main_v146) := (filt14_keep (lev14 V0) (r := main_v146) (by decide)).trans (k6_14 V0)
theorem k6_16 (V0 : Valuation τ sig (Elt F)) : lev16 V0 (Proc.devRef .tc main_v146) = lev7 V0 (Proc.devRef .tc main_v146) := (filt15_keep (lev15 V0) (r := main_v146) (by decide)).trans (k6_15 V0)
theorem k6_17 (V0 : Valuation τ sig (Elt F)) : lev17 V0 (Proc.devRef .tc main_v146) = lev7 V0 (Proc.devRef .tc main_v146) := (filt16_keep (lev16 V0) (r := main_v146) (by decide)).trans (k6_16 V0)
theorem k6_18 (V0 : Valuation τ sig (Elt F)) : lev18 V0 (Proc.devRef .tc main_v146) = lev7 V0 (Proc.devRef .tc main_v146) := (filt17_keep (lev17 V0) (r := main_v146) (by decide)).trans (k6_17 V0)
theorem k6_19 (V0 : Valuation τ sig (Elt F)) : lev19 V0 (Proc.devRef .tc main_v146) = lev7 V0 (Proc.devRef .tc main_v146) := (filt18_keep (lev18 V0) (r := main_v146) (by decide)).trans (k6_18 V0)
theorem k6_20 (V0 : Valuation τ sig (Elt F)) : lev20 V0 (Proc.devRef .tc main_v146) = lev7 V0 (Proc.devRef .tc main_v146) := (filt19_keep (lev19 V0) (r := main_v146) (by decide)).trans (k6_19 V0)
theorem k6_21 (V0 : Valuation τ sig (Elt F)) : lev21 V0 (Proc.devRef .tc main_v146) = lev7 V0 (Proc.devRef .tc main_v146) := (filt20_keep (lev20 V0) (r := main_v146) (by decide)).trans (k6_20 V0)
theorem k6_22 (V0 : Valuation τ sig (Elt F)) : lev22 V0 (Proc.devRef .tc main_v146) = lev7 V0 (Proc.devRef .tc main_v146) := (filt21_keep (lev21 V0) (r := main_v146) (by decide)).trans (k6_21 V0)
theorem k6_23 (V0 : Valuation τ sig (Elt F)) : lev23 V0 (Proc.devRef .tc main_v146) = lev7 V0 (Proc.devRef .tc main_v146) := (filt22_keep (lev22 V0) (r := main_v146) (by decide)).trans (k6_22 V0)
theorem k6_24 (V0 : Valuation τ sig (Elt F)) : lev24 V0 (Proc.devRef .tc main_v146) = lev7 V0 (Proc.devRef .tc main_v146) := (filt23_keep (lev23 V0) (r := main_v146) (by decide)).trans (k6_23 V0)
theorem k6_25 (V0 : Valuation τ sig (Elt F)) : lev25 V0 (Proc.devRef .tc main_v146) = lev7 V0 (Proc.devRef .tc main_v146) := (filt24_keep (lev24 V0) (r := main_v146) (by decide)).trans (k6_24 V0)
theorem k6_26 (V0 : Valuation τ sig (Elt F)) : lev26 V0 (Proc.devRef .tc main_v146) = lev7 V0 (Proc.devRef .tc main_v146) := (filt25_keep (lev25 V0) (r := main_v146) (by decide)).trans (k6_25 V0)
theorem k6_27 (V0 : Valuation τ sig (Elt F)) : lev27 V0 (Proc.devRef .tc main_v146) = lev7 V0 (Proc.devRef .tc main_v146) := (filt26_keep (lev26 V0) (r := main_v146) (by decide)).trans (k6_26 V0)
theorem k6_28 (V0 : Valuation τ sig (Elt F)) : lev28 V0 (Proc.devRef .tc main_v146) = lev7 V0 (Proc.devRef .tc main_v146) := (filt27_keep (lev27 V0) (r := main_v146) (by decide)).trans (k6_27 V0)
theorem k6_29 (V0 : Valuation τ sig (Elt F)) : lev29 V0 (Proc.devRef .tc main_v146) = lev7 V0 (Proc.devRef .tc main_v146) := (filt28_keep (lev28 V0) (r := main_v146) (by decide)).trans (k6_28 V0)
theorem k6_30 (V0 : Valuation τ sig (Elt F)) : lev30 V0 (Proc.devRef .tc main_v146) = lev7 V0 (Proc.devRef .tc main_v146) := (filt29_keep (lev29 V0) (r := main_v146) (by decide)).trans (k6_29 V0)
theorem k6_31 (V0 : Valuation τ sig (Elt F)) : lev31 V0 (Proc.devRef .tc main_v146) = lev7 V0 (Proc.devRef .tc main_v146) := (filt30_keep (lev30 V0) (r := main_v146) (by decide)).trans (k6_30 V0)
theorem k6_32 (V0 : Valuation τ sig (Elt F)) : lev32 V0 (Proc.devRef .tc main_v146) = lev7 V0 (Proc.devRef .tc main_v146) := (filt31_keep (lev31 V0) (r := main_v146) (by decide)).trans (k6_31 V0)
theorem k6_33 (V0 : Valuation τ sig (Elt F)) : lev33 V0 (Proc.devRef .tc main_v146) = lev7 V0 (Proc.devRef .tc main_v146) := (filt32_keep (lev32 V0) (r := main_v146) (by decide)).trans (k6_32 V0)
theorem k6_34 (V0 : Valuation τ sig (Elt F)) : lev34 V0 (Proc.devRef .tc main_v146) = lev7 V0 (Proc.devRef .tc main_v146) := (filt33_keep (lev33 V0) (r := main_v146) (by decide)).trans (k6_33 V0)
theorem k6_35 (V0 : Valuation τ sig (Elt F)) : lev35 V0 (Proc.devRef .tc main_v146) = lev7 V0 (Proc.devRef .tc main_v146) := (filt34_keep (lev34 V0) (r := main_v146) (by decide)).trans (k6_34 V0)
theorem k6_36 (V0 : Valuation τ sig (Elt F)) : lev36 V0 (Proc.devRef .tc main_v146) = lev7 V0 (Proc.devRef .tc main_v146) := (filt35_keep (lev35 V0) (r := main_v146) (by decide)).trans (k6_35 V0)
theorem k6_37 (V0 : Valuation τ sig (Elt F)) : lev37 V0 (Proc.devRef .tc main_v146) = lev7 V0 (Proc.devRef .tc main_v146) := (filt36_keep (lev36 V0) (r := main_v146) (by decide)).trans (k6_36 V0)
theorem k6_38 (V0 : Valuation τ sig (Elt F)) : lev38 V0 (Proc.devRef .tc main_v146) = lev7 V0 (Proc.devRef .tc main_v146) := (filt37_keep (lev37 V0) (r := main_v146) (by decide)).trans (k6_37 V0)
theorem k6_39 (V0 : Valuation τ sig (Elt F)) : lev39 V0 (Proc.devRef .tc main_v146) = lev7 V0 (Proc.devRef .tc main_v146) := (filt38_keep (lev38 V0) (r := main_v146) (by decide)).trans (k6_38 V0)
theorem k6_40 (V0 : Valuation τ sig (Elt F)) : lev40 V0 (Proc.devRef .tc main_v146) = lev7 V0 (Proc.devRef .tc main_v146) := (filt39_keep (lev39 V0) (r := main_v146) (by decide)).trans (k6_39 V0)
theorem k6_41 (V0 : Valuation τ sig (Elt F)) : lev41 V0 (Proc.devRef .tc main_v146) = lev7 V0 (Proc.devRef .tc main_v146) := (filt40_keep (lev40 V0) (r := main_v146) (by decide)).trans (k6_40 V0)
theorem k6_42 (V0 : Valuation τ sig (Elt F)) : lev42 V0 (Proc.devRef .tc main_v146) = lev7 V0 (Proc.devRef .tc main_v146) := (filt41_keep (lev41 V0) (r := main_v146) (by decide)).trans (k6_41 V0)
theorem k6_43 (V0 : Valuation τ sig (Elt F)) : lev43 V0 (Proc.devRef .tc main_v146) = lev7 V0 (Proc.devRef .tc main_v146) := (filt42_keep (lev42 V0) (r := main_v146) (by decide)).trans (k6_42 V0)
theorem k6_44 (V0 : Valuation τ sig (Elt F)) : lev44 V0 (Proc.devRef .tc main_v146) = lev7 V0 (Proc.devRef .tc main_v146) := (filt43_keep (lev43 V0) (r := main_v146) (by decide)).trans (k6_43 V0)
theorem k6_45 (V0 : Valuation τ sig (Elt F)) : lev45 V0 (Proc.devRef .tc main_v146) = lev7 V0 (Proc.devRef .tc main_v146) := (filt44_keep (lev44 V0) (r := main_v146) (by decide)).trans (k6_44 V0)
theorem k6_46 (V0 : Valuation τ sig (Elt F)) : lev46 V0 (Proc.devRef .tc main_v146) = lev7 V0 (Proc.devRef .tc main_v146) := (filt45_keep (lev45 V0) (r := main_v146) (by decide)).trans (k6_45 V0)
theorem k6_47 (V0 : Valuation τ sig (Elt F)) : lev47 V0 (Proc.devRef .tc main_v146) = lev7 V0 (Proc.devRef .tc main_v146) := (filt46_keep (lev46 V0) (r := main_v146) (by decide)).trans (k6_46 V0)
theorem k6_48 (V0 : Valuation τ sig (Elt F)) : lev48 V0 (Proc.devRef .tc main_v146) = lev7 V0 (Proc.devRef .tc main_v146) := (filt47_keep (lev47 V0) (r := main_v146) (by decide)).trans (k6_47 V0)
theorem k6_49 (V0 : Valuation τ sig (Elt F)) : lev49 V0 (Proc.devRef .tc main_v146) = lev7 V0 (Proc.devRef .tc main_v146) := (filt48_keep (lev48 V0) (r := main_v146) (by decide)).trans (k6_48 V0)
theorem k6_50 (V0 : Valuation τ sig (Elt F)) : lev50 V0 (Proc.devRef .tc main_v146) = lev7 V0 (Proc.devRef .tc main_v146) := (filt49_keep (lev49 V0) (r := main_v146) (by decide)).trans (k6_49 V0)
theorem k6_51 (V0 : Valuation τ sig (Elt F)) : lev51 V0 (Proc.devRef .tc main_v146) = lev7 V0 (Proc.devRef .tc main_v146) := (filt50_keep (lev50 V0) (r := main_v146) (by decide)).trans (k6_50 V0)
theorem k6_52 (V0 : Valuation τ sig (Elt F)) : lev52 V0 (Proc.devRef .tc main_v146) = lev7 V0 (Proc.devRef .tc main_v146) := (filt51_keep (lev51 V0) (r := main_v146) (by decide)).trans (k6_51 V0)
theorem k6_53 (V0 : Valuation τ sig (Elt F)) : lev53 V0 (Proc.devRef .tc main_v146) = lev7 V0 (Proc.devRef .tc main_v146) := (filt52_keep (lev52 V0) (r := main_v146) (by decide)).trans (k6_52 V0)
theorem k6_54 (V0 : Valuation τ sig (Elt F)) : lev54 V0 (Proc.devRef .tc main_v146) = lev7 V0 (Proc.devRef .tc main_v146) := (filt53_keep (lev53 V0) (r := main_v146) (by decide)).trans (k6_53 V0)
theorem k6_55 (V0 : Valuation τ sig (Elt F)) : lev55 V0 (Proc.devRef .tc main_v146) = lev7 V0 (Proc.devRef .tc main_v146) := (filt54_keep (lev54 V0) (r := main_v146) (by decide)).trans (k6_54 V0)
theorem k6_56 (V0 : Valuation τ sig (Elt F)) : lev56 V0 (Proc.devRef .tc main_v146) = lev7 V0 (Proc.devRef .tc main_v146) := (filt55_keep (lev55 V0) (r := main_v146) (by decide)).trans (k6_55 V0)
theorem k6_57 (V0 : Valuation τ sig (Elt F)) : lev57 V0 (Proc.devRef .tc main_v146) = lev7 V0 (Proc.devRef .tc main_v146) := (filt56_keep (lev56 V0) (r := main_v146) (by decide)).trans (k6_56 V0)
theorem k6_58 (V0 : Valuation τ sig (Elt F)) : lev58 V0 (Proc.devRef .tc main_v146) = lev7 V0 (Proc.devRef .tc main_v146) := (filt57_keep (lev57 V0) (r := main_v146) (by decide)).trans (k6_57 V0)
theorem k6_59 (V0 : Valuation τ sig (Elt F)) : lev59 V0 (Proc.devRef .tc main_v146) = lev7 V0 (Proc.devRef .tc main_v146) := (filt58_keep (lev58 V0) (r := main_v146) (by decide)).trans (k6_58 V0)
theorem k6_60 (V0 : Valuation τ sig (Elt F)) : lev60 V0 (Proc.devRef .tc main_v146) = lev7 V0 (Proc.devRef .tc main_v146) := (filt59_keep (lev59 V0) (r := main_v146) (by decide)).trans (k6_59 V0)
theorem k6_61 (V0 : Valuation τ sig (Elt F)) : lev61 V0 (Proc.devRef .tc main_v146) = lev7 V0 (Proc.devRef .tc main_v146) := (filt60_keep (lev60 V0) (r := main_v146) (by decide)).trans (k6_60 V0)
theorem k6_62 (V0 : Valuation τ sig (Elt F)) : lev62 V0 (Proc.devRef .tc main_v146) = lev7 V0 (Proc.devRef .tc main_v146) := (filt61_keep (lev61 V0) (r := main_v146) (by decide)).trans (k6_61 V0)
theorem k6_63 (V0 : Valuation τ sig (Elt F)) : lev63 V0 (Proc.devRef .tc main_v146) = lev7 V0 (Proc.devRef .tc main_v146) := (filt62_keep (lev62 V0) (r := main_v146) (by decide)).trans (k6_62 V0)
theorem k6_64 (V0 : Valuation τ sig (Elt F)) : lev64 V0 (Proc.devRef .tc main_v146) = lev7 V0 (Proc.devRef .tc main_v146) := (filt63_keep (lev63 V0) (r := main_v146) (by decide)).trans (k6_63 V0)
theorem k7_9 (V0 : Valuation τ sig (Elt F)) : lev9 V0 (Proc.devRef .tc main_v171) = lev8 V0 (Proc.devRef .tc main_v171) := (filt8_keep (lev8 V0) (r := main_v171) (by decide))
theorem k7_10 (V0 : Valuation τ sig (Elt F)) : lev10 V0 (Proc.devRef .tc main_v171) = lev8 V0 (Proc.devRef .tc main_v171) := (filt9_keep (lev9 V0) (r := main_v171) (by decide)).trans (k7_9 V0)
theorem k7_11 (V0 : Valuation τ sig (Elt F)) : lev11 V0 (Proc.devRef .tc main_v171) = lev8 V0 (Proc.devRef .tc main_v171) := (filt10_keep (lev10 V0) (r := main_v171) (by decide)).trans (k7_10 V0)
theorem k7_12 (V0 : Valuation τ sig (Elt F)) : lev12 V0 (Proc.devRef .tc main_v171) = lev8 V0 (Proc.devRef .tc main_v171) := (filt11_keep (lev11 V0) (r := main_v171) (by decide)).trans (k7_11 V0)
theorem k7_13 (V0 : Valuation τ sig (Elt F)) : lev13 V0 (Proc.devRef .tc main_v171) = lev8 V0 (Proc.devRef .tc main_v171) := (filt12_keep (lev12 V0) (r := main_v171) (by decide)).trans (k7_12 V0)
theorem k7_14 (V0 : Valuation τ sig (Elt F)) : lev14 V0 (Proc.devRef .tc main_v171) = lev8 V0 (Proc.devRef .tc main_v171) := (filt13_keep (lev13 V0) (r := main_v171) (by decide)).trans (k7_13 V0)
theorem k7_15 (V0 : Valuation τ sig (Elt F)) : lev15 V0 (Proc.devRef .tc main_v171) = lev8 V0 (Proc.devRef .tc main_v171) := (filt14_keep (lev14 V0) (r := main_v171) (by decide)).trans (k7_14 V0)
theorem k7_16 (V0 : Valuation τ sig (Elt F)) : lev16 V0 (Proc.devRef .tc main_v171) = lev8 V0 (Proc.devRef .tc main_v171) := (filt15_keep (lev15 V0) (r := main_v171) (by decide)).trans (k7_15 V0)
theorem k7_17 (V0 : Valuation τ sig (Elt F)) : lev17 V0 (Proc.devRef .tc main_v171) = lev8 V0 (Proc.devRef .tc main_v171) := (filt16_keep (lev16 V0) (r := main_v171) (by decide)).trans (k7_16 V0)
theorem k7_18 (V0 : Valuation τ sig (Elt F)) : lev18 V0 (Proc.devRef .tc main_v171) = lev8 V0 (Proc.devRef .tc main_v171) := (filt17_keep (lev17 V0) (r := main_v171) (by decide)).trans (k7_17 V0)
theorem k7_19 (V0 : Valuation τ sig (Elt F)) : lev19 V0 (Proc.devRef .tc main_v171) = lev8 V0 (Proc.devRef .tc main_v171) := (filt18_keep (lev18 V0) (r := main_v171) (by decide)).trans (k7_18 V0)
theorem k7_20 (V0 : Valuation τ sig (Elt F)) : lev20 V0 (Proc.devRef .tc main_v171) = lev8 V0 (Proc.devRef .tc main_v171) := (filt19_keep (lev19 V0) (r := main_v171) (by decide)).trans (k7_19 V0)
theorem k7_21 (V0 : Valuation τ sig (Elt F)) : lev21 V0 (Proc.devRef .tc main_v171) = lev8 V0 (Proc.devRef .tc main_v171) := (filt20_keep (lev20 V0) (r := main_v171) (by decide)).trans (k7_20 V0)
theorem k7_22 (V0 : Valuation τ sig (Elt F)) : lev22 V0 (Proc.devRef .tc main_v171) = lev8 V0 (Proc.devRef .tc main_v171) := (filt21_keep (lev21 V0) (r := main_v171) (by decide)).trans (k7_21 V0)
theorem k7_23 (V0 : Valuation τ sig (Elt F)) : lev23 V0 (Proc.devRef .tc main_v171) = lev8 V0 (Proc.devRef .tc main_v171) := (filt22_keep (lev22 V0) (r := main_v171) (by decide)).trans (k7_22 V0)
theorem k7_24 (V0 : Valuation τ sig (Elt F)) : lev24 V0 (Proc.devRef .tc main_v171) = lev8 V0 (Proc.devRef .tc main_v171) := (filt23_keep (lev23 V0) (r := main_v171) (by decide)).trans (k7_23 V0)
theorem k7_25 (V0 : Valuation τ sig (Elt F)) : lev25 V0 (Proc.devRef .tc main_v171) = lev8 V0 (Proc.devRef .tc main_v171) := (filt24_keep (lev24 V0) (r := main_v171) (by decide)).trans (k7_24 V0)
theorem k7_26 (V0 : Valuation τ sig (Elt F)) : lev26 V0 (Proc.devRef .tc main_v171) = lev8 V0 (Proc.devRef .tc main_v171) := (filt25_keep (lev25 V0) (r := main_v171) (by decide)).trans (k7_25 V0)
theorem k7_27 (V0 : Valuation τ sig (Elt F)) : lev27 V0 (Proc.devRef .tc main_v171) = lev8 V0 (Proc.devRef .tc main_v171) := (filt26_keep (lev26 V0) (r := main_v171) (by decide)).trans (k7_26 V0)
theorem k7_28 (V0 : Valuation τ sig (Elt F)) : lev28 V0 (Proc.devRef .tc main_v171) = lev8 V0 (Proc.devRef .tc main_v171) := (filt27_keep (lev27 V0) (r := main_v171) (by decide)).trans (k7_27 V0)
theorem k7_29 (V0 : Valuation τ sig (Elt F)) : lev29 V0 (Proc.devRef .tc main_v171) = lev8 V0 (Proc.devRef .tc main_v171) := (filt28_keep (lev28 V0) (r := main_v171) (by decide)).trans (k7_28 V0)
theorem k7_30 (V0 : Valuation τ sig (Elt F)) : lev30 V0 (Proc.devRef .tc main_v171) = lev8 V0 (Proc.devRef .tc main_v171) := (filt29_keep (lev29 V0) (r := main_v171) (by decide)).trans (k7_29 V0)
theorem k7_31 (V0 : Valuation τ sig (Elt F)) : lev31 V0 (Proc.devRef .tc main_v171) = lev8 V0 (Proc.devRef .tc main_v171) := (filt30_keep (lev30 V0) (r := main_v171) (by decide)).trans (k7_30 V0)
theorem k7_32 (V0 : Valuation τ sig (Elt F)) : lev32 V0 (Proc.devRef .tc main_v171) = lev8 V0 (Proc.devRef .tc main_v171) := (filt31_keep (lev31 V0) (r := main_v171) (by decide)).trans (k7_31 V0)
theorem k7_33 (V0 : Valuation τ sig (Elt F)) : lev33 V0 (Proc.devRef .tc main_v171) = lev8 V0 (Proc.devRef .tc main_v171) := (filt32_keep (lev32 V0) (r := main_v171) (by decide)).trans (k7_32 V0)
theorem k7_34 (V0 : Valuation τ sig (Elt F)) : lev34 V0 (Proc.devRef .tc main_v171) = lev8 V0 (Proc.devRef .tc main_v171) := (filt33_keep (lev33 V0) (r := main_v171) (by decide)).trans (k7_33 V0)
theorem k7_35 (V0 : Valuation τ sig (Elt F)) : lev35 V0 (Proc.devRef .tc main_v171) = lev8 V0 (Proc.devRef .tc main_v171) := (filt34_keep (lev34 V0) (r := main_v171) (by decide)).trans (k7_34 V0)
theorem k7_36 (V0 : Valuation τ sig (Elt F)) : lev36 V0 (Proc.devRef .tc main_v171) = lev8 V0 (Proc.devRef .tc main_v171) := (filt35_keep (lev35 V0) (r := main_v171) (by decide)).trans (k7_35 V0)
theorem k7_37 (V0 : Valuation τ sig (Elt F)) : lev37 V0 (Proc.devRef .tc main_v171) = lev8 V0 (Proc.devRef .tc main_v171) := (filt36_keep (lev36 V0) (r := main_v171) (by decide)).trans (k7_36 V0)
theorem k7_38 (V0 : Valuation τ sig (Elt F)) : lev38 V0 (Proc.devRef .tc main_v171) = lev8 V0 (Proc.devRef .tc main_v171) := (filt37_keep (lev37 V0) (r := main_v171) (by decide)).trans (k7_37 V0)
theorem k7_39 (V0 : Valuation τ sig (Elt F)) : lev39 V0 (Proc.devRef .tc main_v171) = lev8 V0 (Proc.devRef .tc main_v171) := (filt38_keep (lev38 V0) (r := main_v171) (by decide)).trans (k7_38 V0)
theorem k7_40 (V0 : Valuation τ sig (Elt F)) : lev40 V0 (Proc.devRef .tc main_v171) = lev8 V0 (Proc.devRef .tc main_v171) := (filt39_keep (lev39 V0) (r := main_v171) (by decide)).trans (k7_39 V0)
theorem k7_41 (V0 : Valuation τ sig (Elt F)) : lev41 V0 (Proc.devRef .tc main_v171) = lev8 V0 (Proc.devRef .tc main_v171) := (filt40_keep (lev40 V0) (r := main_v171) (by decide)).trans (k7_40 V0)
theorem k7_42 (V0 : Valuation τ sig (Elt F)) : lev42 V0 (Proc.devRef .tc main_v171) = lev8 V0 (Proc.devRef .tc main_v171) := (filt41_keep (lev41 V0) (r := main_v171) (by decide)).trans (k7_41 V0)
theorem k7_43 (V0 : Valuation τ sig (Elt F)) : lev43 V0 (Proc.devRef .tc main_v171) = lev8 V0 (Proc.devRef .tc main_v171) := (filt42_keep (lev42 V0) (r := main_v171) (by decide)).trans (k7_42 V0)
theorem k7_44 (V0 : Valuation τ sig (Elt F)) : lev44 V0 (Proc.devRef .tc main_v171) = lev8 V0 (Proc.devRef .tc main_v171) := (filt43_keep (lev43 V0) (r := main_v171) (by decide)).trans (k7_43 V0)
theorem k7_45 (V0 : Valuation τ sig (Elt F)) : lev45 V0 (Proc.devRef .tc main_v171) = lev8 V0 (Proc.devRef .tc main_v171) := (filt44_keep (lev44 V0) (r := main_v171) (by decide)).trans (k7_44 V0)
theorem k7_46 (V0 : Valuation τ sig (Elt F)) : lev46 V0 (Proc.devRef .tc main_v171) = lev8 V0 (Proc.devRef .tc main_v171) := (filt45_keep (lev45 V0) (r := main_v171) (by decide)).trans (k7_45 V0)
theorem k7_47 (V0 : Valuation τ sig (Elt F)) : lev47 V0 (Proc.devRef .tc main_v171) = lev8 V0 (Proc.devRef .tc main_v171) := (filt46_keep (lev46 V0) (r := main_v171) (by decide)).trans (k7_46 V0)
theorem k7_48 (V0 : Valuation τ sig (Elt F)) : lev48 V0 (Proc.devRef .tc main_v171) = lev8 V0 (Proc.devRef .tc main_v171) := (filt47_keep (lev47 V0) (r := main_v171) (by decide)).trans (k7_47 V0)
theorem k7_49 (V0 : Valuation τ sig (Elt F)) : lev49 V0 (Proc.devRef .tc main_v171) = lev8 V0 (Proc.devRef .tc main_v171) := (filt48_keep (lev48 V0) (r := main_v171) (by decide)).trans (k7_48 V0)
theorem k7_50 (V0 : Valuation τ sig (Elt F)) : lev50 V0 (Proc.devRef .tc main_v171) = lev8 V0 (Proc.devRef .tc main_v171) := (filt49_keep (lev49 V0) (r := main_v171) (by decide)).trans (k7_49 V0)
theorem k7_51 (V0 : Valuation τ sig (Elt F)) : lev51 V0 (Proc.devRef .tc main_v171) = lev8 V0 (Proc.devRef .tc main_v171) := (filt50_keep (lev50 V0) (r := main_v171) (by decide)).trans (k7_50 V0)
theorem k7_52 (V0 : Valuation τ sig (Elt F)) : lev52 V0 (Proc.devRef .tc main_v171) = lev8 V0 (Proc.devRef .tc main_v171) := (filt51_keep (lev51 V0) (r := main_v171) (by decide)).trans (k7_51 V0)
theorem k7_53 (V0 : Valuation τ sig (Elt F)) : lev53 V0 (Proc.devRef .tc main_v171) = lev8 V0 (Proc.devRef .tc main_v171) := (filt52_keep (lev52 V0) (r := main_v171) (by decide)).trans (k7_52 V0)
theorem k7_54 (V0 : Valuation τ sig (Elt F)) : lev54 V0 (Proc.devRef .tc main_v171) = lev8 V0 (Proc.devRef .tc main_v171) := (filt53_keep (lev53 V0) (r := main_v171) (by decide)).trans (k7_53 V0)
theorem k7_55 (V0 : Valuation τ sig (Elt F)) : lev55 V0 (Proc.devRef .tc main_v171) = lev8 V0 (Proc.devRef .tc main_v171) := (filt54_keep (lev54 V0) (r := main_v171) (by decide)).trans (k7_54 V0)
theorem k7_56 (V0 : Valuation τ sig (Elt F)) : lev56 V0 (Proc.devRef .tc main_v171) = lev8 V0 (Proc.devRef .tc main_v171) := (filt55_keep (lev55 V0) (r := main_v171) (by decide)).trans (k7_55 V0)
theorem k7_57 (V0 : Valuation τ sig (Elt F)) : lev57 V0 (Proc.devRef .tc main_v171) = lev8 V0 (Proc.devRef .tc main_v171) := (filt56_keep (lev56 V0) (r := main_v171) (by decide)).trans (k7_56 V0)
theorem k7_58 (V0 : Valuation τ sig (Elt F)) : lev58 V0 (Proc.devRef .tc main_v171) = lev8 V0 (Proc.devRef .tc main_v171) := (filt57_keep (lev57 V0) (r := main_v171) (by decide)).trans (k7_57 V0)
theorem k7_59 (V0 : Valuation τ sig (Elt F)) : lev59 V0 (Proc.devRef .tc main_v171) = lev8 V0 (Proc.devRef .tc main_v171) := (filt58_keep (lev58 V0) (r := main_v171) (by decide)).trans (k7_58 V0)
theorem k7_60 (V0 : Valuation τ sig (Elt F)) : lev60 V0 (Proc.devRef .tc main_v171) = lev8 V0 (Proc.devRef .tc main_v171) := (filt59_keep (lev59 V0) (r := main_v171) (by decide)).trans (k7_59 V0)
theorem k7_61 (V0 : Valuation τ sig (Elt F)) : lev61 V0 (Proc.devRef .tc main_v171) = lev8 V0 (Proc.devRef .tc main_v171) := (filt60_keep (lev60 V0) (r := main_v171) (by decide)).trans (k7_60 V0)
theorem k7_62 (V0 : Valuation τ sig (Elt F)) : lev62 V0 (Proc.devRef .tc main_v171) = lev8 V0 (Proc.devRef .tc main_v171) := (filt61_keep (lev61 V0) (r := main_v171) (by decide)).trans (k7_61 V0)
theorem k7_63 (V0 : Valuation τ sig (Elt F)) : lev63 V0 (Proc.devRef .tc main_v171) = lev8 V0 (Proc.devRef .tc main_v171) := (filt62_keep (lev62 V0) (r := main_v171) (by decide)).trans (k7_62 V0)
theorem k7_64 (V0 : Valuation τ sig (Elt F)) : lev64 V0 (Proc.devRef .tc main_v171) = lev8 V0 (Proc.devRef .tc main_v171) := (filt63_keep (lev63 V0) (r := main_v171) (by decide)).trans (k7_63 V0)
theorem k8_10 (V0 : Valuation τ sig (Elt F)) : lev10 V0 (Proc.devRef .tc main_v199) = lev9 V0 (Proc.devRef .tc main_v199) := (filt9_keep (lev9 V0) (r := main_v199) (by decide))
theorem k8_11 (V0 : Valuation τ sig (Elt F)) : lev11 V0 (Proc.devRef .tc main_v199) = lev9 V0 (Proc.devRef .tc main_v199) := (filt10_keep (lev10 V0) (r := main_v199) (by decide)).trans (k8_10 V0)
theorem k8_12 (V0 : Valuation τ sig (Elt F)) : lev12 V0 (Proc.devRef .tc main_v199) = lev9 V0 (Proc.devRef .tc main_v199) := (filt11_keep (lev11 V0) (r := main_v199) (by decide)).trans (k8_11 V0)
theorem k8_13 (V0 : Valuation τ sig (Elt F)) : lev13 V0 (Proc.devRef .tc main_v199) = lev9 V0 (Proc.devRef .tc main_v199) := (filt12_keep (lev12 V0) (r := main_v199) (by decide)).trans (k8_12 V0)
theorem k8_14 (V0 : Valuation τ sig (Elt F)) : lev14 V0 (Proc.devRef .tc main_v199) = lev9 V0 (Proc.devRef .tc main_v199) := (filt13_keep (lev13 V0) (r := main_v199) (by decide)).trans (k8_13 V0)
theorem k8_15 (V0 : Valuation τ sig (Elt F)) : lev15 V0 (Proc.devRef .tc main_v199) = lev9 V0 (Proc.devRef .tc main_v199) := (filt14_keep (lev14 V0) (r := main_v199) (by decide)).trans (k8_14 V0)
theorem k8_16 (V0 : Valuation τ sig (Elt F)) : lev16 V0 (Proc.devRef .tc main_v199) = lev9 V0 (Proc.devRef .tc main_v199) := (filt15_keep (lev15 V0) (r := main_v199) (by decide)).trans (k8_15 V0)
theorem k8_17 (V0 : Valuation τ sig (Elt F)) : lev17 V0 (Proc.devRef .tc main_v199) = lev9 V0 (Proc.devRef .tc main_v199) := (filt16_keep (lev16 V0) (r := main_v199) (by decide)).trans (k8_16 V0)
theorem k8_18 (V0 : Valuation τ sig (Elt F)) : lev18 V0 (Proc.devRef .tc main_v199) = lev9 V0 (Proc.devRef .tc main_v199) := (filt17_keep (lev17 V0) (r := main_v199) (by decide)).trans (k8_17 V0)
theorem k8_19 (V0 : Valuation τ sig (Elt F)) : lev19 V0 (Proc.devRef .tc main_v199) = lev9 V0 (Proc.devRef .tc main_v199) := (filt18_keep (lev18 V0) (r := main_v199) (by decide)).trans (k8_18 V0)
theorem k8_20 (V0 : Valuation τ sig (Elt F)) : lev20 V0 (Proc.devRef .tc main_v199) = lev9 V0 (Proc.devRef .tc main_v199) := (filt19_keep (lev19 V0) (r := main_v199) (by decide)).trans (k8_19 V0)
theorem k8_21 (V0 : Valuation τ sig (Elt F)) : lev21 V0 (Proc.devRef .tc main_v199) = lev9 V0 (Proc.devRef .tc main_v199) := (filt20_keep (lev20 V0) (r := main_v199) (by decide)).trans (k8_20 V0)
theorem k8_22 (V0 : Valuation τ sig (Elt F)) : lev22 V0 (Proc.devRef .tc main_v199) = lev9 V0 (Proc.devRef .tc main_v199) := (filt21_keep (lev21 V0) (r := main_v199) (by decide)).trans (k8_21 V0)
theorem k8_23 (V0 : Valuation τ sig (Elt F)) : lev23 V0 (Proc.devRef .tc main_v199) = lev9 V0 (Proc.devRef .tc main_v199) := (filt22_keep (lev22 V0) (r := main_v199) (by decide)).trans (k8_22 V0)
theorem k8_24 (V0 : Valuation τ sig (Elt F)) : lev24 V0 (Proc.devRef .tc main_v199) = lev9 V0 (Proc.devRef .tc main_v199) := (filt23_keep (lev23 V0) (r := main_v199) (by decide)).trans (k8_23 V0)
theorem k8_25 (V0 : Valuation τ sig (Elt F)) : lev25 V0 (Proc.devRef .tc main_v199) = lev9 V0 (Proc.devRef .tc main_v199) := (filt24_keep (lev24 V0) (r := main_v199) (by decide)).trans (k8_24 V0)
theorem k8_26 (V0 : Valuation τ sig (Elt F)) : lev26 V0 (Proc.devRef .tc main_v199) = lev9 V0 (Proc.devRef .tc main_v199) := (filt25_keep (lev25 V0) (r := main_v199) (by decide)).trans (k8_25 V0)
theorem k8_27 (V0 : Valuation τ sig (Elt F)) : lev27 V0 (Proc.devRef .tc main_v199) = lev9 V0 (Proc.devRef .tc main_v199) := (filt26_keep (lev26 V0) (r := main_v199) (by decide)).trans (k8_26 V0)
theorem k8_28 (V0 : Valuation τ sig (Elt F)) : lev28 V0 (Proc.devRef .tc main_v199) = lev9 V0 (Proc.devRef .tc main_v199) := (filt27_keep (lev27 V0) (r := main_v199) (by decide)).trans (k8_27 V0)
theorem k8_29 (V0 : Valuation τ sig (Elt F)) : lev29 V0 (Proc.devRef .tc main_v199) = lev9 V0 (Proc.devRef .tc main_v199) := (filt28_keep (lev28 V0) (r := main_v199) (by decide)).trans (k8_28 V0)
theorem k8_30 (V0 : Valuation τ sig (Elt F)) : lev30 V0 (Proc.devRef .tc main_v199) = lev9 V0 (Proc.devRef .tc main_v199) := (filt29_keep (lev29 V0) (r := main_v199) (by decide)).trans (k8_29 V0)
theorem k8_31 (V0 : Valuation τ sig (Elt F)) : lev31 V0 (Proc.devRef .tc main_v199) = lev9 V0 (Proc.devRef .tc main_v199) := (filt30_keep (lev30 V0) (r := main_v199) (by decide)).trans (k8_30 V0)
theorem k8_32 (V0 : Valuation τ sig (Elt F)) : lev32 V0 (Proc.devRef .tc main_v199) = lev9 V0 (Proc.devRef .tc main_v199) := (filt31_keep (lev31 V0) (r := main_v199) (by decide)).trans (k8_31 V0)
theorem k8_33 (V0 : Valuation τ sig (Elt F)) : lev33 V0 (Proc.devRef .tc main_v199) = lev9 V0 (Proc.devRef .tc main_v199) := (filt32_keep (lev32 V0) (r := main_v199) (by decide)).trans (k8_32 V0)
theorem k8_34 (V0 : Valuation τ sig (Elt F)) : lev34 V0 (Proc.devRef .tc main_v199) = lev9 V0 (Proc.devRef .tc main_v199) := (filt33_keep (lev33 V0) (r := main_v199) (by decide)).trans (k8_33 V0)
theorem k8_35 (V0 : Valuation τ sig (Elt F)) : lev35 V0 (Proc.devRef .tc main_v199) = lev9 V0 (Proc.devRef .tc main_v199) := (filt34_keep (lev34 V0) (r := main_v199) (by decide)).trans (k8_34 V0)
theorem k8_36 (V0 : Valuation τ sig (Elt F)) : lev36 V0 (Proc.devRef .tc main_v199) = lev9 V0 (Proc.devRef .tc main_v199) := (filt35_keep (lev35 V0) (r := main_v199) (by decide)).trans (k8_35 V0)
theorem k8_37 (V0 : Valuation τ sig (Elt F)) : lev37 V0 (Proc.devRef .tc main_v199) = lev9 V0 (Proc.devRef .tc main_v199) := (filt36_keep (lev36 V0) (r := main_v199) (by decide)).trans (k8_36 V0)
theorem k8_38 (V0 : Valuation τ sig (Elt F)) : lev38 V0 (Proc.devRef .tc main_v199) = lev9 V0 (Proc.devRef .tc main_v199) := (filt37_keep (lev37 V0) (r := main_v199) (by decide)).trans (k8_37 V0)
theorem k8_39 (V0 : Valuation τ sig (Elt F)) : lev39 V0 (Proc.devRef .tc main_v199) = lev9 V0 (Proc.devRef .tc main_v199) := (filt38_keep (lev38 V0) (r := main_v199) (by decide)).trans (k8_38 V0)
theorem k8_40 (V0 : Valuation τ sig (Elt F)) : lev40 V0 (Proc.devRef .tc main_v199) = lev9 V0 (Proc.devRef .tc main_v199) := (filt39_keep (lev39 V0) (r := main_v199) (by decide)).trans (k8_39 V0)
theorem k8_41 (V0 : Valuation τ sig (Elt F)) : lev41 V0 (Proc.devRef .tc main_v199) = lev9 V0 (Proc.devRef .tc main_v199) := (filt40_keep (lev40 V0) (r := main_v199) (by decide)).trans (k8_40 V0)
theorem k8_42 (V0 : Valuation τ sig (Elt F)) : lev42 V0 (Proc.devRef .tc main_v199) = lev9 V0 (Proc.devRef .tc main_v199) := (filt41_keep (lev41 V0) (r := main_v199) (by decide)).trans (k8_41 V0)
theorem k8_43 (V0 : Valuation τ sig (Elt F)) : lev43 V0 (Proc.devRef .tc main_v199) = lev9 V0 (Proc.devRef .tc main_v199) := (filt42_keep (lev42 V0) (r := main_v199) (by decide)).trans (k8_42 V0)
theorem k8_44 (V0 : Valuation τ sig (Elt F)) : lev44 V0 (Proc.devRef .tc main_v199) = lev9 V0 (Proc.devRef .tc main_v199) := (filt43_keep (lev43 V0) (r := main_v199) (by decide)).trans (k8_43 V0)
theorem k8_45 (V0 : Valuation τ sig (Elt F)) : lev45 V0 (Proc.devRef .tc main_v199) = lev9 V0 (Proc.devRef .tc main_v199) := (filt44_keep (lev44 V0) (r := main_v199) (by decide)).trans (k8_44 V0)
theorem k8_46 (V0 : Valuation τ sig (Elt F)) : lev46 V0 (Proc.devRef .tc main_v199) = lev9 V0 (Proc.devRef .tc main_v199) := (filt45_keep (lev45 V0) (r := main_v199) (by decide)).trans (k8_45 V0)
theorem k8_47 (V0 : Valuation τ sig (Elt F)) : lev47 V0 (Proc.devRef .tc main_v199) = lev9 V0 (Proc.devRef .tc main_v199) := (filt46_keep (lev46 V0) (r := main_v199) (by decide)).trans (k8_46 V0)
theorem k8_48 (V0 : Valuation τ sig (Elt F)) : lev48 V0 (Proc.devRef .tc main_v199) = lev9 V0 (Proc.devRef .tc main_v199) := (filt47_keep (lev47 V0) (r := main_v199) (by decide)).trans (k8_47 V0)
theorem k8_49 (V0 : Valuation τ sig (Elt F)) : lev49 V0 (Proc.devRef .tc main_v199) = lev9 V0 (Proc.devRef .tc main_v199) := (filt48_keep (lev48 V0) (r := main_v199) (by decide)).trans (k8_48 V0)
theorem k8_50 (V0 : Valuation τ sig (Elt F)) : lev50 V0 (Proc.devRef .tc main_v199) = lev9 V0 (Proc.devRef .tc main_v199) := (filt49_keep (lev49 V0) (r := main_v199) (by decide)).trans (k8_49 V0)
theorem k8_51 (V0 : Valuation τ sig (Elt F)) : lev51 V0 (Proc.devRef .tc main_v199) = lev9 V0 (Proc.devRef .tc main_v199) := (filt50_keep (lev50 V0) (r := main_v199) (by decide)).trans (k8_50 V0)
theorem k8_52 (V0 : Valuation τ sig (Elt F)) : lev52 V0 (Proc.devRef .tc main_v199) = lev9 V0 (Proc.devRef .tc main_v199) := (filt51_keep (lev51 V0) (r := main_v199) (by decide)).trans (k8_51 V0)
theorem k8_53 (V0 : Valuation τ sig (Elt F)) : lev53 V0 (Proc.devRef .tc main_v199) = lev9 V0 (Proc.devRef .tc main_v199) := (filt52_keep (lev52 V0) (r := main_v199) (by decide)).trans (k8_52 V0)
theorem k8_54 (V0 : Valuation τ sig (Elt F)) : lev54 V0 (Proc.devRef .tc main_v199) = lev9 V0 (Proc.devRef .tc main_v199) := (filt53_keep (lev53 V0) (r := main_v199) (by decide)).trans (k8_53 V0)
theorem k8_55 (V0 : Valuation τ sig (Elt F)) : lev55 V0 (Proc.devRef .tc main_v199) = lev9 V0 (Proc.devRef .tc main_v199) := (filt54_keep (lev54 V0) (r := main_v199) (by decide)).trans (k8_54 V0)
theorem k8_56 (V0 : Valuation τ sig (Elt F)) : lev56 V0 (Proc.devRef .tc main_v199) = lev9 V0 (Proc.devRef .tc main_v199) := (filt55_keep (lev55 V0) (r := main_v199) (by decide)).trans (k8_55 V0)
theorem k8_57 (V0 : Valuation τ sig (Elt F)) : lev57 V0 (Proc.devRef .tc main_v199) = lev9 V0 (Proc.devRef .tc main_v199) := (filt56_keep (lev56 V0) (r := main_v199) (by decide)).trans (k8_56 V0)
theorem k8_58 (V0 : Valuation τ sig (Elt F)) : lev58 V0 (Proc.devRef .tc main_v199) = lev9 V0 (Proc.devRef .tc main_v199) := (filt57_keep (lev57 V0) (r := main_v199) (by decide)).trans (k8_57 V0)
theorem k8_59 (V0 : Valuation τ sig (Elt F)) : lev59 V0 (Proc.devRef .tc main_v199) = lev9 V0 (Proc.devRef .tc main_v199) := (filt58_keep (lev58 V0) (r := main_v199) (by decide)).trans (k8_58 V0)
theorem k8_60 (V0 : Valuation τ sig (Elt F)) : lev60 V0 (Proc.devRef .tc main_v199) = lev9 V0 (Proc.devRef .tc main_v199) := (filt59_keep (lev59 V0) (r := main_v199) (by decide)).trans (k8_59 V0)
theorem k8_61 (V0 : Valuation τ sig (Elt F)) : lev61 V0 (Proc.devRef .tc main_v199) = lev9 V0 (Proc.devRef .tc main_v199) := (filt60_keep (lev60 V0) (r := main_v199) (by decide)).trans (k8_60 V0)
theorem k8_62 (V0 : Valuation τ sig (Elt F)) : lev62 V0 (Proc.devRef .tc main_v199) = lev9 V0 (Proc.devRef .tc main_v199) := (filt61_keep (lev61 V0) (r := main_v199) (by decide)).trans (k8_61 V0)
theorem k8_63 (V0 : Valuation τ sig (Elt F)) : lev63 V0 (Proc.devRef .tc main_v199) = lev9 V0 (Proc.devRef .tc main_v199) := (filt62_keep (lev62 V0) (r := main_v199) (by decide)).trans (k8_62 V0)
theorem k8_64 (V0 : Valuation τ sig (Elt F)) : lev64 V0 (Proc.devRef .tc main_v199) = lev9 V0 (Proc.devRef .tc main_v199) := (filt63_keep (lev63 V0) (r := main_v199) (by decide)).trans (k8_63 V0)
theorem k9_11 (V0 : Valuation τ sig (Elt F)) : lev11 V0 (Proc.devRef .tc main_v227) = lev10 V0 (Proc.devRef .tc main_v227) := (filt10_keep (lev10 V0) (r := main_v227) (by decide))
theorem k9_12 (V0 : Valuation τ sig (Elt F)) : lev12 V0 (Proc.devRef .tc main_v227) = lev10 V0 (Proc.devRef .tc main_v227) := (filt11_keep (lev11 V0) (r := main_v227) (by decide)).trans (k9_11 V0)
theorem k9_13 (V0 : Valuation τ sig (Elt F)) : lev13 V0 (Proc.devRef .tc main_v227) = lev10 V0 (Proc.devRef .tc main_v227) := (filt12_keep (lev12 V0) (r := main_v227) (by decide)).trans (k9_12 V0)
theorem k9_14 (V0 : Valuation τ sig (Elt F)) : lev14 V0 (Proc.devRef .tc main_v227) = lev10 V0 (Proc.devRef .tc main_v227) := (filt13_keep (lev13 V0) (r := main_v227) (by decide)).trans (k9_13 V0)
theorem k9_15 (V0 : Valuation τ sig (Elt F)) : lev15 V0 (Proc.devRef .tc main_v227) = lev10 V0 (Proc.devRef .tc main_v227) := (filt14_keep (lev14 V0) (r := main_v227) (by decide)).trans (k9_14 V0)
theorem k9_16 (V0 : Valuation τ sig (Elt F)) : lev16 V0 (Proc.devRef .tc main_v227) = lev10 V0 (Proc.devRef .tc main_v227) := (filt15_keep (lev15 V0) (r := main_v227) (by decide)).trans (k9_15 V0)
theorem k9_17 (V0 : Valuation τ sig (Elt F)) : lev17 V0 (Proc.devRef .tc main_v227) = lev10 V0 (Proc.devRef .tc main_v227) := (filt16_keep (lev16 V0) (r := main_v227) (by decide)).trans (k9_16 V0)
theorem k9_18 (V0 : Valuation τ sig (Elt F)) : lev18 V0 (Proc.devRef .tc main_v227) = lev10 V0 (Proc.devRef .tc main_v227) := (filt17_keep (lev17 V0) (r := main_v227) (by decide)).trans (k9_17 V0)
theorem k9_19 (V0 : Valuation τ sig (Elt F)) : lev19 V0 (Proc.devRef .tc main_v227) = lev10 V0 (Proc.devRef .tc main_v227) := (filt18_keep (lev18 V0) (r := main_v227) (by decide)).trans (k9_18 V0)
theorem k9_20 (V0 : Valuation τ sig (Elt F)) : lev20 V0 (Proc.devRef .tc main_v227) = lev10 V0 (Proc.devRef .tc main_v227) := (filt19_keep (lev19 V0) (r := main_v227) (by decide)).trans (k9_19 V0)
theorem k9_21 (V0 : Valuation τ sig (Elt F)) : lev21 V0 (Proc.devRef .tc main_v227) = lev10 V0 (Proc.devRef .tc main_v227) := (filt20_keep (lev20 V0) (r := main_v227) (by decide)).trans (k9_20 V0)
theorem k9_22 (V0 : Valuation τ sig (Elt F)) : lev22 V0 (Proc.devRef .tc main_v227) = lev10 V0 (Proc.devRef .tc main_v227) := (filt21_keep (lev21 V0) (r := main_v227) (by decide)).trans (k9_21 V0)
theorem k9_23 (V0 : Valuation τ sig (Elt F)) : lev23 V0 (Proc.devRef .tc main_v227) = lev10 V0 (Proc.devRef .tc main_v227) := (filt22_keep (lev22 V0) (r := main_v227) (by decide)).trans (k9_22 V0)
theorem k9_24 (V0 : Valuation τ sig (Elt F)) : lev24 V0 (Proc.devRef .tc main_v227) = lev10 V0 (Proc.devRef .tc main_v227) := (filt23_keep (lev23 V0) (r := main_v227) (by decide)).trans (k9_23 V0)
theorem k9_25 (V0 : Valuation τ sig (Elt F)) : lev25 V0 (Proc.devRef .tc main_v227) = lev10 V0 (Proc.devRef .tc main_v227) := (filt24_keep (lev24 V0) (r := main_v227) (by decide)).trans (k9_24 V0)
theorem k9_26 (V0 : Valuation τ sig (Elt F)) : lev26 V0 (Proc.devRef .tc main_v227) = lev10 V0 (Proc.devRef .tc main_v227) := (filt25_keep (lev25 V0) (r := main_v227) (by decide)).trans (k9_25 V0)
theorem k9_27 (V0 : Valuation τ sig (Elt F)) : lev27 V0 (Proc.devRef .tc main_v227) = lev10 V0 (Proc.devRef .tc main_v227) := (filt26_keep (lev26 V0) (r := main_v227) (by decide)).trans (k9_26 V0)
theorem k9_28 (V0 : Valuation τ sig (Elt F)) : lev28 V0 (Proc.devRef .tc main_v227) = lev10 V0 (Proc.devRef .tc main_v227) := (filt27_keep (lev27 V0) (r := main_v227) (by decide)).trans (k9_27 V0)
theorem k9_29 (V0 : Valuation τ sig (Elt F)) : lev29 V0 (Proc.devRef .tc main_v227) = lev10 V0 (Proc.devRef .tc main_v227) := (filt28_keep (lev28 V0) (r := main_v227) (by decide)).trans (k9_28 V0)
theorem k9_30 (V0 : Valuation τ sig (Elt F)) : lev30 V0 (Proc.devRef .tc main_v227) = lev10 V0 (Proc.devRef .tc main_v227) := (filt29_keep (lev29 V0) (r := main_v227) (by decide)).trans (k9_29 V0)
theorem k9_31 (V0 : Valuation τ sig (Elt F)) : lev31 V0 (Proc.devRef .tc main_v227) = lev10 V0 (Proc.devRef .tc main_v227) := (filt30_keep (lev30 V0) (r := main_v227) (by decide)).trans (k9_30 V0)
theorem k9_32 (V0 : Valuation τ sig (Elt F)) : lev32 V0 (Proc.devRef .tc main_v227) = lev10 V0 (Proc.devRef .tc main_v227) := (filt31_keep (lev31 V0) (r := main_v227) (by decide)).trans (k9_31 V0)
theorem k9_33 (V0 : Valuation τ sig (Elt F)) : lev33 V0 (Proc.devRef .tc main_v227) = lev10 V0 (Proc.devRef .tc main_v227) := (filt32_keep (lev32 V0) (r := main_v227) (by decide)).trans (k9_32 V0)
theorem k9_34 (V0 : Valuation τ sig (Elt F)) : lev34 V0 (Proc.devRef .tc main_v227) = lev10 V0 (Proc.devRef .tc main_v227) := (filt33_keep (lev33 V0) (r := main_v227) (by decide)).trans (k9_33 V0)
theorem k9_35 (V0 : Valuation τ sig (Elt F)) : lev35 V0 (Proc.devRef .tc main_v227) = lev10 V0 (Proc.devRef .tc main_v227) := (filt34_keep (lev34 V0) (r := main_v227) (by decide)).trans (k9_34 V0)
theorem k9_36 (V0 : Valuation τ sig (Elt F)) : lev36 V0 (Proc.devRef .tc main_v227) = lev10 V0 (Proc.devRef .tc main_v227) := (filt35_keep (lev35 V0) (r := main_v227) (by decide)).trans (k9_35 V0)
theorem k9_37 (V0 : Valuation τ sig (Elt F)) : lev37 V0 (Proc.devRef .tc main_v227) = lev10 V0 (Proc.devRef .tc main_v227) := (filt36_keep (lev36 V0) (r := main_v227) (by decide)).trans (k9_36 V0)
theorem k9_38 (V0 : Valuation τ sig (Elt F)) : lev38 V0 (Proc.devRef .tc main_v227) = lev10 V0 (Proc.devRef .tc main_v227) := (filt37_keep (lev37 V0) (r := main_v227) (by decide)).trans (k9_37 V0)
theorem k9_39 (V0 : Valuation τ sig (Elt F)) : lev39 V0 (Proc.devRef .tc main_v227) = lev10 V0 (Proc.devRef .tc main_v227) := (filt38_keep (lev38 V0) (r := main_v227) (by decide)).trans (k9_38 V0)
theorem k9_40 (V0 : Valuation τ sig (Elt F)) : lev40 V0 (Proc.devRef .tc main_v227) = lev10 V0 (Proc.devRef .tc main_v227) := (filt39_keep (lev39 V0) (r := main_v227) (by decide)).trans (k9_39 V0)
theorem k9_41 (V0 : Valuation τ sig (Elt F)) : lev41 V0 (Proc.devRef .tc main_v227) = lev10 V0 (Proc.devRef .tc main_v227) := (filt40_keep (lev40 V0) (r := main_v227) (by decide)).trans (k9_40 V0)
theorem k9_42 (V0 : Valuation τ sig (Elt F)) : lev42 V0 (Proc.devRef .tc main_v227) = lev10 V0 (Proc.devRef .tc main_v227) := (filt41_keep (lev41 V0) (r := main_v227) (by decide)).trans (k9_41 V0)
theorem k9_43 (V0 : Valuation τ sig (Elt F)) : lev43 V0 (Proc.devRef .tc main_v227) = lev10 V0 (Proc.devRef .tc main_v227) := (filt42_keep (lev42 V0) (r := main_v227) (by decide)).trans (k9_42 V0)
theorem k9_44 (V0 : Valuation τ sig (Elt F)) : lev44 V0 (Proc.devRef .tc main_v227) = lev10 V0 (Proc.devRef .tc main_v227) := (filt43_keep (lev43 V0) (r := main_v227) (by decide)).trans (k9_43 V0)
theorem k9_45 (V0 : Valuation τ sig (Elt F)) : lev45 V0 (Proc.devRef .tc main_v227) = lev10 V0 (Proc.devRef .tc main_v227) := (filt44_keep (lev44 V0) (r := main_v227) (by decide)).trans (k9_44 V0)
theorem k9_46 (V0 : Valuation τ sig (Elt F)) : lev46 V0 (Proc.devRef .tc main_v227) = lev10 V0 (Proc.devRef .tc main_v227) := (filt45_keep (lev45 V0) (r := main_v227) (by decide)).trans (k9_45 V0)
theorem k9_47 (V0 : Valuation τ sig (Elt F)) : lev47 V0 (Proc.devRef .tc main_v227) = lev10 V0 (Proc.devRef .tc main_v227) := (filt46_keep (lev46 V0) (r := main_v227) (by decide)).trans (k9_46 V0)
theorem k9_48 (V0 : Valuation τ sig (Elt F)) : lev48 V0 (Proc.devRef .tc main_v227) = lev10 V0 (Proc.devRef .tc main_v227) := (filt47_keep (lev47 V0) (r := main_v227) (by decide)).trans (k9_47 V0)
theorem k9_49 (V0 : Valuation τ sig (Elt F)) : lev49 V0 (Proc.devRef .tc main_v227) = lev10 V0 (Proc.devRef .tc main_v227) := (filt48_keep (lev48 V0) (r := main_v227) (by decide)).trans (k9_48 V0)
theorem k9_50 (V0 : Valuation τ sig (Elt F)) : lev50 V0 (Proc.devRef .tc main_v227) = lev10 V0 (Proc.devRef .tc main_v227) := (filt49_keep (lev49 V0) (r := main_v227) (by decide)).trans (k9_49 V0)
theorem k9_51 (V0 : Valuation τ sig (Elt F)) : lev51 V0 (Proc.devRef .tc main_v227) = lev10 V0 (Proc.devRef .tc main_v227) := (filt50_keep (lev50 V0) (r := main_v227) (by decide)).trans (k9_50 V0)
theorem k9_52 (V0 : Valuation τ sig (Elt F)) : lev52 V0 (Proc.devRef .tc main_v227) = lev10 V0 (Proc.devRef .tc main_v227) := (filt51_keep (lev51 V0) (r := main_v227) (by decide)).trans (k9_51 V0)
theorem k9_53 (V0 : Valuation τ sig (Elt F)) : lev53 V0 (Proc.devRef .tc main_v227) = lev10 V0 (Proc.devRef .tc main_v227) := (filt52_keep (lev52 V0) (r := main_v227) (by decide)).trans (k9_52 V0)
theorem k9_54 (V0 : Valuation τ sig (Elt F)) : lev54 V0 (Proc.devRef .tc main_v227) = lev10 V0 (Proc.devRef .tc main_v227) := (filt53_keep (lev53 V0) (r := main_v227) (by decide)).trans (k9_53 V0)
theorem k9_55 (V0 : Valuation τ sig (Elt F)) : lev55 V0 (Proc.devRef .tc main_v227) = lev10 V0 (Proc.devRef .tc main_v227) := (filt54_keep (lev54 V0) (r := main_v227) (by decide)).trans (k9_54 V0)
theorem k9_56 (V0 : Valuation τ sig (Elt F)) : lev56 V0 (Proc.devRef .tc main_v227) = lev10 V0 (Proc.devRef .tc main_v227) := (filt55_keep (lev55 V0) (r := main_v227) (by decide)).trans (k9_55 V0)
theorem k9_57 (V0 : Valuation τ sig (Elt F)) : lev57 V0 (Proc.devRef .tc main_v227) = lev10 V0 (Proc.devRef .tc main_v227) := (filt56_keep (lev56 V0) (r := main_v227) (by decide)).trans (k9_56 V0)
theorem k9_58 (V0 : Valuation τ sig (Elt F)) : lev58 V0 (Proc.devRef .tc main_v227) = lev10 V0 (Proc.devRef .tc main_v227) := (filt57_keep (lev57 V0) (r := main_v227) (by decide)).trans (k9_57 V0)
theorem k9_59 (V0 : Valuation τ sig (Elt F)) : lev59 V0 (Proc.devRef .tc main_v227) = lev10 V0 (Proc.devRef .tc main_v227) := (filt58_keep (lev58 V0) (r := main_v227) (by decide)).trans (k9_58 V0)
theorem k9_60 (V0 : Valuation τ sig (Elt F)) : lev60 V0 (Proc.devRef .tc main_v227) = lev10 V0 (Proc.devRef .tc main_v227) := (filt59_keep (lev59 V0) (r := main_v227) (by decide)).trans (k9_59 V0)
theorem k9_61 (V0 : Valuation τ sig (Elt F)) : lev61 V0 (Proc.devRef .tc main_v227) = lev10 V0 (Proc.devRef .tc main_v227) := (filt60_keep (lev60 V0) (r := main_v227) (by decide)).trans (k9_60 V0)
theorem k9_62 (V0 : Valuation τ sig (Elt F)) : lev62 V0 (Proc.devRef .tc main_v227) = lev10 V0 (Proc.devRef .tc main_v227) := (filt61_keep (lev61 V0) (r := main_v227) (by decide)).trans (k9_61 V0)
theorem k9_63 (V0 : Valuation τ sig (Elt F)) : lev63 V0 (Proc.devRef .tc main_v227) = lev10 V0 (Proc.devRef .tc main_v227) := (filt62_keep (lev62 V0) (r := main_v227) (by decide)).trans (k9_62 V0)
theorem k9_64 (V0 : Valuation τ sig (Elt F)) : lev64 V0 (Proc.devRef .tc main_v227) = lev10 V0 (Proc.devRef .tc main_v227) := (filt63_keep (lev63 V0) (r := main_v227) (by decide)).trans (k9_63 V0)
theorem k10_12 (V0 : Valuation τ sig (Elt F)) : lev12 V0 (Proc.devRef .tc main_v258) = lev11 V0 (Proc.devRef .tc main_v258) := (filt11_keep (lev11 V0) (r := main_v258) (by decide))
theorem k10_13 (V0 : Valuation τ sig (Elt F)) : lev13 V0 (Proc.devRef .tc main_v258) = lev11 V0 (Proc.devRef .tc main_v258) := (filt12_keep (lev12 V0) (r := main_v258) (by decide)).trans (k10_12 V0)
theorem k10_14 (V0 : Valuation τ sig (Elt F)) : lev14 V0 (Proc.devRef .tc main_v258) = lev11 V0 (Proc.devRef .tc main_v258) := (filt13_keep (lev13 V0) (r := main_v258) (by decide)).trans (k10_13 V0)
theorem k10_15 (V0 : Valuation τ sig (Elt F)) : lev15 V0 (Proc.devRef .tc main_v258) = lev11 V0 (Proc.devRef .tc main_v258) := (filt14_keep (lev14 V0) (r := main_v258) (by decide)).trans (k10_14 V0)
theorem k10_16 (V0 : Valuation τ sig (Elt F)) : lev16 V0 (Proc.devRef .tc main_v258) = lev11 V0 (Proc.devRef .tc main_v258) := (filt15_keep (lev15 V0) (r := main_v258) (by decide)).trans (k10_15 V0)
theorem k10_17 (V0 : Valuation τ sig (Elt F)) : lev17 V0 (Proc.devRef .tc main_v258) = lev11 V0 (Proc.devRef .tc main_v258) := (filt16_keep (lev16 V0) (r := main_v258) (by decide)).trans (k10_16 V0)
theorem k10_18 (V0 : Valuation τ sig (Elt F)) : lev18 V0 (Proc.devRef .tc main_v258) = lev11 V0 (Proc.devRef .tc main_v258) := (filt17_keep (lev17 V0) (r := main_v258) (by decide)).trans (k10_17 V0)
theorem k10_19 (V0 : Valuation τ sig (Elt F)) : lev19 V0 (Proc.devRef .tc main_v258) = lev11 V0 (Proc.devRef .tc main_v258) := (filt18_keep (lev18 V0) (r := main_v258) (by decide)).trans (k10_18 V0)
theorem k10_20 (V0 : Valuation τ sig (Elt F)) : lev20 V0 (Proc.devRef .tc main_v258) = lev11 V0 (Proc.devRef .tc main_v258) := (filt19_keep (lev19 V0) (r := main_v258) (by decide)).trans (k10_19 V0)
theorem k10_21 (V0 : Valuation τ sig (Elt F)) : lev21 V0 (Proc.devRef .tc main_v258) = lev11 V0 (Proc.devRef .tc main_v258) := (filt20_keep (lev20 V0) (r := main_v258) (by decide)).trans (k10_20 V0)
theorem k10_22 (V0 : Valuation τ sig (Elt F)) : lev22 V0 (Proc.devRef .tc main_v258) = lev11 V0 (Proc.devRef .tc main_v258) := (filt21_keep (lev21 V0) (r := main_v258) (by decide)).trans (k10_21 V0)
theorem k10_23 (V0 : Valuation τ sig (Elt F)) : lev23 V0 (Proc.devRef .tc main_v258) = lev11 V0 (Proc.devRef .tc main_v258) := (filt22_keep (lev22 V0) (r := main_v258) (by decide)).trans (k10_22 V0)
theorem k10_24 (V0 : Valuation τ sig (Elt F)) : lev24 V0 (Proc.devRef .tc main_v258) = lev11 V0 (Proc.devRef .tc main_v258) := (filt23_keep (lev23 V0) (r := main_v258) (by decide)).trans (k10_23 V0)
theorem k10_25 (V0 : Valuation τ sig (Elt F)) : lev25 V0 (Proc.devRef .tc main_v258) = lev11 V0 (Proc.devRef .tc main_v258) := (filt24_keep (lev24 V0) (r := main_v258) (by decide)).trans (k10_24 V0)
theorem k10_26 (V0 : Valuation τ sig (Elt F)) : lev26 V0 (Proc.devRef .tc main_v258) = lev11 V0 (Proc.devRef .tc main_v258) := (filt25_keep (lev25 V0) (r := main_v258) (by decide)).trans (k10_25 V0)
theorem k10_27 (V0 : Valuation τ sig (Elt F)) : lev27 V0 (Proc.devRef .tc main_v258) = lev11 V0 (Proc.devRef .tc main_v258) := (filt26_keep (lev26 V0) (r := main_v258) (by decide)).trans (k10_26 V0)
theorem k10_28 (V0 : Valuation τ sig (Elt F)) : lev28 V0 (Proc.devRef .tc main_v258) = lev11 V0 (Proc.devRef .tc main_v258) := (filt27_keep (lev27 V0) (r := main_v258) (by decide)).trans (k10_27 V0)
theorem k10_29 (V0 : Valuation τ sig (Elt F)) : lev29 V0 (Proc.devRef .tc main_v258) = lev11 V0 (Proc.devRef .tc main_v258) := (filt28_keep (lev28 V0) (r := main_v258) (by decide)).trans (k10_28 V0)
theorem k10_30 (V0 : Valuation τ sig (Elt F)) : lev30 V0 (Proc.devRef .tc main_v258) = lev11 V0 (Proc.devRef .tc main_v258) := (filt29_keep (lev29 V0) (r := main_v258) (by decide)).trans (k10_29 V0)
theorem k10_31 (V0 : Valuation τ sig (Elt F)) : lev31 V0 (Proc.devRef .tc main_v258) = lev11 V0 (Proc.devRef .tc main_v258) := (filt30_keep (lev30 V0) (r := main_v258) (by decide)).trans (k10_30 V0)
theorem k10_32 (V0 : Valuation τ sig (Elt F)) : lev32 V0 (Proc.devRef .tc main_v258) = lev11 V0 (Proc.devRef .tc main_v258) := (filt31_keep (lev31 V0) (r := main_v258) (by decide)).trans (k10_31 V0)
theorem k10_33 (V0 : Valuation τ sig (Elt F)) : lev33 V0 (Proc.devRef .tc main_v258) = lev11 V0 (Proc.devRef .tc main_v258) := (filt32_keep (lev32 V0) (r := main_v258) (by decide)).trans (k10_32 V0)
theorem k10_34 (V0 : Valuation τ sig (Elt F)) : lev34 V0 (Proc.devRef .tc main_v258) = lev11 V0 (Proc.devRef .tc main_v258) := (filt33_keep (lev33 V0) (r := main_v258) (by decide)).trans (k10_33 V0)
theorem k10_35 (V0 : Valuation τ sig (Elt F)) : lev35 V0 (Proc.devRef .tc main_v258) = lev11 V0 (Proc.devRef .tc main_v258) := (filt34_keep (lev34 V0) (r := main_v258) (by decide)).trans (k10_34 V0)
theorem k10_36 (V0 : Valuation τ sig (Elt F)) : lev36 V0 (Proc.devRef .tc main_v258) = lev11 V0 (Proc.devRef .tc main_v258) := (filt35_keep (lev35 V0) (r := main_v258) (by decide)).trans (k10_35 V0)
theorem k10_37 (V0 : Valuation τ sig (Elt F)) : lev37 V0 (Proc.devRef .tc main_v258) = lev11 V0 (Proc.devRef .tc main_v258) := (filt36_keep (lev36 V0) (r := main_v258) (by decide)).trans (k10_36 V0)
theorem k10_38 (V0 : Valuation τ sig (Elt F)) : lev38 V0 (Proc.devRef .tc main_v258) = lev11 V0 (Proc.devRef .tc main_v258) := (filt37_keep (lev37 V0) (r := main_v258) (by decide)).trans (k10_37 V0)
theorem k10_39 (V0 : Valuation τ sig (Elt F)) : lev39 V0 (Proc.devRef .tc main_v258) = lev11 V0 (Proc.devRef .tc main_v258) := (filt38_keep (lev38 V0) (r := main_v258) (by decide)).trans (k10_38 V0)
theorem k10_40 (V0 : Valuation τ sig (Elt F)) : lev40 V0 (Proc.devRef .tc main_v258) = lev11 V0 (Proc.devRef .tc main_v258) := (filt39_keep (lev39 V0) (r := main_v258) (by decide)).trans (k10_39 V0)
theorem k10_41 (V0 : Valuation τ sig (Elt F)) : lev41 V0 (Proc.devRef .tc main_v258) = lev11 V0 (Proc.devRef .tc main_v258) := (filt40_keep (lev40 V0) (r := main_v258) (by decide)).trans (k10_40 V0)
theorem k10_42 (V0 : Valuation τ sig (Elt F)) : lev42 V0 (Proc.devRef .tc main_v258) = lev11 V0 (Proc.devRef .tc main_v258) := (filt41_keep (lev41 V0) (r := main_v258) (by decide)).trans (k10_41 V0)
theorem k10_43 (V0 : Valuation τ sig (Elt F)) : lev43 V0 (Proc.devRef .tc main_v258) = lev11 V0 (Proc.devRef .tc main_v258) := (filt42_keep (lev42 V0) (r := main_v258) (by decide)).trans (k10_42 V0)
theorem k10_44 (V0 : Valuation τ sig (Elt F)) : lev44 V0 (Proc.devRef .tc main_v258) = lev11 V0 (Proc.devRef .tc main_v258) := (filt43_keep (lev43 V0) (r := main_v258) (by decide)).trans (k10_43 V0)
theorem k10_45 (V0 : Valuation τ sig (Elt F)) : lev45 V0 (Proc.devRef .tc main_v258) = lev11 V0 (Proc.devRef .tc main_v258) := (filt44_keep (lev44 V0) (r := main_v258) (by decide)).trans (k10_44 V0)
theorem k10_46 (V0 : Valuation τ sig (Elt F)) : lev46 V0 (Proc.devRef .tc main_v258) = lev11 V0 (Proc.devRef .tc main_v258) := (filt45_keep (lev45 V0) (r := main_v258) (by decide)).trans (k10_45 V0)
theorem k10_47 (V0 : Valuation τ sig (Elt F)) : lev47 V0 (Proc.devRef .tc main_v258) = lev11 V0 (Proc.devRef .tc main_v258) := (filt46_keep (lev46 V0) (r := main_v258) (by decide)).trans (k10_46 V0)
theorem k10_48 (V0 : Valuation τ sig (Elt F)) : lev48 V0 (Proc.devRef .tc main_v258) = lev11 V0 (Proc.devRef .tc main_v258) := (filt47_keep (lev47 V0) (r := main_v258) (by decide)).trans (k10_47 V0)
theorem k10_49 (V0 : Valuation τ sig (Elt F)) : lev49 V0 (Proc.devRef .tc main_v258) = lev11 V0 (Proc.devRef .tc main_v258) := (filt48_keep (lev48 V0) (r := main_v258) (by decide)).trans (k10_48 V0)
theorem k10_50 (V0 : Valuation τ sig (Elt F)) : lev50 V0 (Proc.devRef .tc main_v258) = lev11 V0 (Proc.devRef .tc main_v258) := (filt49_keep (lev49 V0) (r := main_v258) (by decide)).trans (k10_49 V0)
theorem k10_51 (V0 : Valuation τ sig (Elt F)) : lev51 V0 (Proc.devRef .tc main_v258) = lev11 V0 (Proc.devRef .tc main_v258) := (filt50_keep (lev50 V0) (r := main_v258) (by decide)).trans (k10_50 V0)
theorem k10_52 (V0 : Valuation τ sig (Elt F)) : lev52 V0 (Proc.devRef .tc main_v258) = lev11 V0 (Proc.devRef .tc main_v258) := (filt51_keep (lev51 V0) (r := main_v258) (by decide)).trans (k10_51 V0)
theorem k10_53 (V0 : Valuation τ sig (Elt F)) : lev53 V0 (Proc.devRef .tc main_v258) = lev11 V0 (Proc.devRef .tc main_v258) := (filt52_keep (lev52 V0) (r := main_v258) (by decide)).trans (k10_52 V0)
theorem k10_54 (V0 : Valuation τ sig (Elt F)) : lev54 V0 (Proc.devRef .tc main_v258) = lev11 V0 (Proc.devRef .tc main_v258) := (filt53_keep (lev53 V0) (r := main_v258) (by decide)).trans (k10_53 V0)
theorem k10_55 (V0 : Valuation τ sig (Elt F)) : lev55 V0 (Proc.devRef .tc main_v258) = lev11 V0 (Proc.devRef .tc main_v258) := (filt54_keep (lev54 V0) (r := main_v258) (by decide)).trans (k10_54 V0)
theorem k10_56 (V0 : Valuation τ sig (Elt F)) : lev56 V0 (Proc.devRef .tc main_v258) = lev11 V0 (Proc.devRef .tc main_v258) := (filt55_keep (lev55 V0) (r := main_v258) (by decide)).trans (k10_55 V0)
theorem k10_57 (V0 : Valuation τ sig (Elt F)) : lev57 V0 (Proc.devRef .tc main_v258) = lev11 V0 (Proc.devRef .tc main_v258) := (filt56_keep (lev56 V0) (r := main_v258) (by decide)).trans (k10_56 V0)
theorem k10_58 (V0 : Valuation τ sig (Elt F)) : lev58 V0 (Proc.devRef .tc main_v258) = lev11 V0 (Proc.devRef .tc main_v258) := (filt57_keep (lev57 V0) (r := main_v258) (by decide)).trans (k10_57 V0)
theorem k10_59 (V0 : Valuation τ sig (Elt F)) : lev59 V0 (Proc.devRef .tc main_v258) = lev11 V0 (Proc.devRef .tc main_v258) := (filt58_keep (lev58 V0) (r := main_v258) (by decide)).trans (k10_58 V0)
theorem k10_60 (V0 : Valuation τ sig (Elt F)) : lev60 V0 (Proc.devRef .tc main_v258) = lev11 V0 (Proc.devRef .tc main_v258) := (filt59_keep (lev59 V0) (r := main_v258) (by decide)).trans (k10_59 V0)
theorem k10_61 (V0 : Valuation τ sig (Elt F)) : lev61 V0 (Proc.devRef .tc main_v258) = lev11 V0 (Proc.devRef .tc main_v258) := (filt60_keep (lev60 V0) (r := main_v258) (by decide)).trans (k10_60 V0)
theorem k10_62 (V0 : Valuation τ sig (Elt F)) : lev62 V0 (Proc.devRef .tc main_v258) = lev11 V0 (Proc.devRef .tc main_v258) := (filt61_keep (lev61 V0) (r := main_v258) (by decide)).trans (k10_61 V0)
theorem k10_63 (V0 : Valuation τ sig (Elt F)) : lev63 V0 (Proc.devRef .tc main_v258) = lev11 V0 (Proc.devRef .tc main_v258) := (filt62_keep (lev62 V0) (r := main_v258) (by decide)).trans (k10_62 V0)
theorem k10_64 (V0 : Valuation τ sig (Elt F)) : lev64 V0 (Proc.devRef .tc main_v258) = lev11 V0 (Proc.devRef .tc main_v258) := (filt63_keep (lev63 V0) (r := main_v258) (by decide)).trans (k10_63 V0)
theorem k11_13 (V0 : Valuation τ sig (Elt F)) : lev13 V0 (Proc.devRef .tc main_v289) = lev12 V0 (Proc.devRef .tc main_v289) := (filt12_keep (lev12 V0) (r := main_v289) (by decide))
theorem k11_14 (V0 : Valuation τ sig (Elt F)) : lev14 V0 (Proc.devRef .tc main_v289) = lev12 V0 (Proc.devRef .tc main_v289) := (filt13_keep (lev13 V0) (r := main_v289) (by decide)).trans (k11_13 V0)
theorem k11_15 (V0 : Valuation τ sig (Elt F)) : lev15 V0 (Proc.devRef .tc main_v289) = lev12 V0 (Proc.devRef .tc main_v289) := (filt14_keep (lev14 V0) (r := main_v289) (by decide)).trans (k11_14 V0)
theorem k11_16 (V0 : Valuation τ sig (Elt F)) : lev16 V0 (Proc.devRef .tc main_v289) = lev12 V0 (Proc.devRef .tc main_v289) := (filt15_keep (lev15 V0) (r := main_v289) (by decide)).trans (k11_15 V0)
theorem k11_17 (V0 : Valuation τ sig (Elt F)) : lev17 V0 (Proc.devRef .tc main_v289) = lev12 V0 (Proc.devRef .tc main_v289) := (filt16_keep (lev16 V0) (r := main_v289) (by decide)).trans (k11_16 V0)
theorem k11_18 (V0 : Valuation τ sig (Elt F)) : lev18 V0 (Proc.devRef .tc main_v289) = lev12 V0 (Proc.devRef .tc main_v289) := (filt17_keep (lev17 V0) (r := main_v289) (by decide)).trans (k11_17 V0)
theorem k11_19 (V0 : Valuation τ sig (Elt F)) : lev19 V0 (Proc.devRef .tc main_v289) = lev12 V0 (Proc.devRef .tc main_v289) := (filt18_keep (lev18 V0) (r := main_v289) (by decide)).trans (k11_18 V0)
theorem k11_20 (V0 : Valuation τ sig (Elt F)) : lev20 V0 (Proc.devRef .tc main_v289) = lev12 V0 (Proc.devRef .tc main_v289) := (filt19_keep (lev19 V0) (r := main_v289) (by decide)).trans (k11_19 V0)
theorem k11_21 (V0 : Valuation τ sig (Elt F)) : lev21 V0 (Proc.devRef .tc main_v289) = lev12 V0 (Proc.devRef .tc main_v289) := (filt20_keep (lev20 V0) (r := main_v289) (by decide)).trans (k11_20 V0)
theorem k11_22 (V0 : Valuation τ sig (Elt F)) : lev22 V0 (Proc.devRef .tc main_v289) = lev12 V0 (Proc.devRef .tc main_v289) := (filt21_keep (lev21 V0) (r := main_v289) (by decide)).trans (k11_21 V0)
theorem k11_23 (V0 : Valuation τ sig (Elt F)) : lev23 V0 (Proc.devRef .tc main_v289) = lev12 V0 (Proc.devRef .tc main_v289) := (filt22_keep (lev22 V0) (r := main_v289) (by decide)).trans (k11_22 V0)
theorem k11_24 (V0 : Valuation τ sig (Elt F)) : lev24 V0 (Proc.devRef .tc main_v289) = lev12 V0 (Proc.devRef .tc main_v289) := (filt23_keep (lev23 V0) (r := main_v289) (by decide)).trans (k11_23 V0)
theorem k11_25 (V0 : Valuation τ sig (Elt F)) : lev25 V0 (Proc.devRef .tc main_v289) = lev12 V0 (Proc.devRef .tc main_v289) := (filt24_keep (lev24 V0) (r := main_v289) (by decide)).trans (k11_24 V0)
theorem k11_26 (V0 : Valuation τ sig (Elt F)) : lev26 V0 (Proc.devRef .tc main_v289) = lev12 V0 (Proc.devRef .tc main_v289) := (filt25_keep (lev25 V0) (r := main_v289) (by decide)).trans (k11_25 V0)
theorem k11_27 (V0 : Valuation τ sig (Elt F)) : lev27 V0 (Proc.devRef .tc main_v289) = lev12 V0 (Proc.devRef .tc main_v289) := (filt26_keep (lev26 V0) (r := main_v289) (by decide)).trans (k11_26 V0)
theorem k11_28 (V0 : Valuation τ sig (Elt F)) : lev28 V0 (Proc.devRef .tc main_v289) = lev12 V0 (Proc.devRef .tc main_v289) := (filt27_keep (lev27 V0) (r := main_v289) (by decide)).trans (k11_27 V0)
theorem k11_29 (V0 : Valuation τ sig (Elt F)) : lev29 V0 (Proc.devRef .tc main_v289) = lev12 V0 (Proc.devRef .tc main_v289) := (filt28_keep (lev28 V0) (r := main_v289) (by decide)).trans (k11_28 V0)
theorem k11_30 (V0 : Valuation τ sig (Elt F)) : lev30 V0 (Proc.devRef .tc main_v289) = lev12 V0 (Proc.devRef .tc main_v289) := (filt29_keep (lev29 V0) (r := main_v289) (by decide)).trans (k11_29 V0)
theorem k11_31 (V0 : Valuation τ sig (Elt F)) : lev31 V0 (Proc.devRef .tc main_v289) = lev12 V0 (Proc.devRef .tc main_v289) := (filt30_keep (lev30 V0) (r := main_v289) (by decide)).trans (k11_30 V0)
theorem k11_32 (V0 : Valuation τ sig (Elt F)) : lev32 V0 (Proc.devRef .tc main_v289) = lev12 V0 (Proc.devRef .tc main_v289) := (filt31_keep (lev31 V0) (r := main_v289) (by decide)).trans (k11_31 V0)
theorem k11_33 (V0 : Valuation τ sig (Elt F)) : lev33 V0 (Proc.devRef .tc main_v289) = lev12 V0 (Proc.devRef .tc main_v289) := (filt32_keep (lev32 V0) (r := main_v289) (by decide)).trans (k11_32 V0)
theorem k11_34 (V0 : Valuation τ sig (Elt F)) : lev34 V0 (Proc.devRef .tc main_v289) = lev12 V0 (Proc.devRef .tc main_v289) := (filt33_keep (lev33 V0) (r := main_v289) (by decide)).trans (k11_33 V0)
theorem k11_35 (V0 : Valuation τ sig (Elt F)) : lev35 V0 (Proc.devRef .tc main_v289) = lev12 V0 (Proc.devRef .tc main_v289) := (filt34_keep (lev34 V0) (r := main_v289) (by decide)).trans (k11_34 V0)
theorem k11_36 (V0 : Valuation τ sig (Elt F)) : lev36 V0 (Proc.devRef .tc main_v289) = lev12 V0 (Proc.devRef .tc main_v289) := (filt35_keep (lev35 V0) (r := main_v289) (by decide)).trans (k11_35 V0)
theorem k11_37 (V0 : Valuation τ sig (Elt F)) : lev37 V0 (Proc.devRef .tc main_v289) = lev12 V0 (Proc.devRef .tc main_v289) := (filt36_keep (lev36 V0) (r := main_v289) (by decide)).trans (k11_36 V0)
theorem k11_38 (V0 : Valuation τ sig (Elt F)) : lev38 V0 (Proc.devRef .tc main_v289) = lev12 V0 (Proc.devRef .tc main_v289) := (filt37_keep (lev37 V0) (r := main_v289) (by decide)).trans (k11_37 V0)
theorem k11_39 (V0 : Valuation τ sig (Elt F)) : lev39 V0 (Proc.devRef .tc main_v289) = lev12 V0 (Proc.devRef .tc main_v289) := (filt38_keep (lev38 V0) (r := main_v289) (by decide)).trans (k11_38 V0)
theorem k11_40 (V0 : Valuation τ sig (Elt F)) : lev40 V0 (Proc.devRef .tc main_v289) = lev12 V0 (Proc.devRef .tc main_v289) := (filt39_keep (lev39 V0) (r := main_v289) (by decide)).trans (k11_39 V0)
theorem k11_41 (V0 : Valuation τ sig (Elt F)) : lev41 V0 (Proc.devRef .tc main_v289) = lev12 V0 (Proc.devRef .tc main_v289) := (filt40_keep (lev40 V0) (r := main_v289) (by decide)).trans (k11_40 V0)
theorem k11_42 (V0 : Valuation τ sig (Elt F)) : lev42 V0 (Proc.devRef .tc main_v289) = lev12 V0 (Proc.devRef .tc main_v289) := (filt41_keep (lev41 V0) (r := main_v289) (by decide)).trans (k11_41 V0)
theorem k11_43 (V0 : Valuation τ sig (Elt F)) : lev43 V0 (Proc.devRef .tc main_v289) = lev12 V0 (Proc.devRef .tc main_v289) := (filt42_keep (lev42 V0) (r := main_v289) (by decide)).trans (k11_42 V0)
theorem k11_44 (V0 : Valuation τ sig (Elt F)) : lev44 V0 (Proc.devRef .tc main_v289) = lev12 V0 (Proc.devRef .tc main_v289) := (filt43_keep (lev43 V0) (r := main_v289) (by decide)).trans (k11_43 V0)
theorem k11_45 (V0 : Valuation τ sig (Elt F)) : lev45 V0 (Proc.devRef .tc main_v289) = lev12 V0 (Proc.devRef .tc main_v289) := (filt44_keep (lev44 V0) (r := main_v289) (by decide)).trans (k11_44 V0)
theorem k11_46 (V0 : Valuation τ sig (Elt F)) : lev46 V0 (Proc.devRef .tc main_v289) = lev12 V0 (Proc.devRef .tc main_v289) := (filt45_keep (lev45 V0) (r := main_v289) (by decide)).trans (k11_45 V0)
theorem k11_47 (V0 : Valuation τ sig (Elt F)) : lev47 V0 (Proc.devRef .tc main_v289) = lev12 V0 (Proc.devRef .tc main_v289) := (filt46_keep (lev46 V0) (r := main_v289) (by decide)).trans (k11_46 V0)
theorem k11_48 (V0 : Valuation τ sig (Elt F)) : lev48 V0 (Proc.devRef .tc main_v289) = lev12 V0 (Proc.devRef .tc main_v289) := (filt47_keep (lev47 V0) (r := main_v289) (by decide)).trans (k11_47 V0)
theorem k11_49 (V0 : Valuation τ sig (Elt F)) : lev49 V0 (Proc.devRef .tc main_v289) = lev12 V0 (Proc.devRef .tc main_v289) := (filt48_keep (lev48 V0) (r := main_v289) (by decide)).trans (k11_48 V0)
theorem k11_50 (V0 : Valuation τ sig (Elt F)) : lev50 V0 (Proc.devRef .tc main_v289) = lev12 V0 (Proc.devRef .tc main_v289) := (filt49_keep (lev49 V0) (r := main_v289) (by decide)).trans (k11_49 V0)
theorem k11_51 (V0 : Valuation τ sig (Elt F)) : lev51 V0 (Proc.devRef .tc main_v289) = lev12 V0 (Proc.devRef .tc main_v289) := (filt50_keep (lev50 V0) (r := main_v289) (by decide)).trans (k11_50 V0)
theorem k11_52 (V0 : Valuation τ sig (Elt F)) : lev52 V0 (Proc.devRef .tc main_v289) = lev12 V0 (Proc.devRef .tc main_v289) := (filt51_keep (lev51 V0) (r := main_v289) (by decide)).trans (k11_51 V0)
theorem k11_53 (V0 : Valuation τ sig (Elt F)) : lev53 V0 (Proc.devRef .tc main_v289) = lev12 V0 (Proc.devRef .tc main_v289) := (filt52_keep (lev52 V0) (r := main_v289) (by decide)).trans (k11_52 V0)
theorem k11_54 (V0 : Valuation τ sig (Elt F)) : lev54 V0 (Proc.devRef .tc main_v289) = lev12 V0 (Proc.devRef .tc main_v289) := (filt53_keep (lev53 V0) (r := main_v289) (by decide)).trans (k11_53 V0)
theorem k11_55 (V0 : Valuation τ sig (Elt F)) : lev55 V0 (Proc.devRef .tc main_v289) = lev12 V0 (Proc.devRef .tc main_v289) := (filt54_keep (lev54 V0) (r := main_v289) (by decide)).trans (k11_54 V0)
theorem k11_56 (V0 : Valuation τ sig (Elt F)) : lev56 V0 (Proc.devRef .tc main_v289) = lev12 V0 (Proc.devRef .tc main_v289) := (filt55_keep (lev55 V0) (r := main_v289) (by decide)).trans (k11_55 V0)
theorem k11_57 (V0 : Valuation τ sig (Elt F)) : lev57 V0 (Proc.devRef .tc main_v289) = lev12 V0 (Proc.devRef .tc main_v289) := (filt56_keep (lev56 V0) (r := main_v289) (by decide)).trans (k11_56 V0)
theorem k11_58 (V0 : Valuation τ sig (Elt F)) : lev58 V0 (Proc.devRef .tc main_v289) = lev12 V0 (Proc.devRef .tc main_v289) := (filt57_keep (lev57 V0) (r := main_v289) (by decide)).trans (k11_57 V0)
theorem k11_59 (V0 : Valuation τ sig (Elt F)) : lev59 V0 (Proc.devRef .tc main_v289) = lev12 V0 (Proc.devRef .tc main_v289) := (filt58_keep (lev58 V0) (r := main_v289) (by decide)).trans (k11_58 V0)
theorem k11_60 (V0 : Valuation τ sig (Elt F)) : lev60 V0 (Proc.devRef .tc main_v289) = lev12 V0 (Proc.devRef .tc main_v289) := (filt59_keep (lev59 V0) (r := main_v289) (by decide)).trans (k11_59 V0)
theorem k11_61 (V0 : Valuation τ sig (Elt F)) : lev61 V0 (Proc.devRef .tc main_v289) = lev12 V0 (Proc.devRef .tc main_v289) := (filt60_keep (lev60 V0) (r := main_v289) (by decide)).trans (k11_60 V0)
theorem k11_62 (V0 : Valuation τ sig (Elt F)) : lev62 V0 (Proc.devRef .tc main_v289) = lev12 V0 (Proc.devRef .tc main_v289) := (filt61_keep (lev61 V0) (r := main_v289) (by decide)).trans (k11_61 V0)
theorem k11_63 (V0 : Valuation τ sig (Elt F)) : lev63 V0 (Proc.devRef .tc main_v289) = lev12 V0 (Proc.devRef .tc main_v289) := (filt62_keep (lev62 V0) (r := main_v289) (by decide)).trans (k11_62 V0)
theorem k11_64 (V0 : Valuation τ sig (Elt F)) : lev64 V0 (Proc.devRef .tc main_v289) = lev12 V0 (Proc.devRef .tc main_v289) := (filt63_keep (lev63 V0) (r := main_v289) (by decide)).trans (k11_63 V0)
theorem k12_14 (V0 : Valuation τ sig (Elt F)) : lev14 V0 (Proc.devRef .tc main_v323) = lev13 V0 (Proc.devRef .tc main_v323) := (filt13_keep (lev13 V0) (r := main_v323) (by decide))
theorem k12_15 (V0 : Valuation τ sig (Elt F)) : lev15 V0 (Proc.devRef .tc main_v323) = lev13 V0 (Proc.devRef .tc main_v323) := (filt14_keep (lev14 V0) (r := main_v323) (by decide)).trans (k12_14 V0)
theorem k12_16 (V0 : Valuation τ sig (Elt F)) : lev16 V0 (Proc.devRef .tc main_v323) = lev13 V0 (Proc.devRef .tc main_v323) := (filt15_keep (lev15 V0) (r := main_v323) (by decide)).trans (k12_15 V0)
theorem k12_17 (V0 : Valuation τ sig (Elt F)) : lev17 V0 (Proc.devRef .tc main_v323) = lev13 V0 (Proc.devRef .tc main_v323) := (filt16_keep (lev16 V0) (r := main_v323) (by decide)).trans (k12_16 V0)
theorem k12_18 (V0 : Valuation τ sig (Elt F)) : lev18 V0 (Proc.devRef .tc main_v323) = lev13 V0 (Proc.devRef .tc main_v323) := (filt17_keep (lev17 V0) (r := main_v323) (by decide)).trans (k12_17 V0)
theorem k12_19 (V0 : Valuation τ sig (Elt F)) : lev19 V0 (Proc.devRef .tc main_v323) = lev13 V0 (Proc.devRef .tc main_v323) := (filt18_keep (lev18 V0) (r := main_v323) (by decide)).trans (k12_18 V0)
theorem k12_20 (V0 : Valuation τ sig (Elt F)) : lev20 V0 (Proc.devRef .tc main_v323) = lev13 V0 (Proc.devRef .tc main_v323) := (filt19_keep (lev19 V0) (r := main_v323) (by decide)).trans (k12_19 V0)
theorem k12_21 (V0 : Valuation τ sig (Elt F)) : lev21 V0 (Proc.devRef .tc main_v323) = lev13 V0 (Proc.devRef .tc main_v323) := (filt20_keep (lev20 V0) (r := main_v323) (by decide)).trans (k12_20 V0)
theorem k12_22 (V0 : Valuation τ sig (Elt F)) : lev22 V0 (Proc.devRef .tc main_v323) = lev13 V0 (Proc.devRef .tc main_v323) := (filt21_keep (lev21 V0) (r := main_v323) (by decide)).trans (k12_21 V0)
theorem k12_23 (V0 : Valuation τ sig (Elt F)) : lev23 V0 (Proc.devRef .tc main_v323) = lev13 V0 (Proc.devRef .tc main_v323) := (filt22_keep (lev22 V0) (r := main_v323) (by decide)).trans (k12_22 V0)
theorem k12_24 (V0 : Valuation τ sig (Elt F)) : lev24 V0 (Proc.devRef .tc main_v323) = lev13 V0 (Proc.devRef .tc main_v323) := (filt23_keep (lev23 V0) (r := main_v323) (by decide)).trans (k12_23 V0)
theorem k12_25 (V0 : Valuation τ sig (Elt F)) : lev25 V0 (Proc.devRef .tc main_v323) = lev13 V0 (Proc.devRef .tc main_v323) := (filt24_keep (lev24 V0) (r := main_v323) (by decide)).trans (k12_24 V0)
theorem k12_26 (V0 : Valuation τ sig (Elt F)) : lev26 V0 (Proc.devRef .tc main_v323) = lev13 V0 (Proc.devRef .tc main_v323) := (filt25_keep (lev25 V0) (r := main_v323) (by decide)).trans (k12_25 V0)
theorem k12_27 (V0 : Valuation τ sig (Elt F)) : lev27 V0 (Proc.devRef .tc main_v323) = lev13 V0 (Proc.devRef .tc main_v323) := (filt26_keep (lev26 V0) (r := main_v323) (by decide)).trans (k12_26 V0)
theorem k12_28 (V0 : Valuation τ sig (Elt F)) : lev28 V0 (Proc.devRef .tc main_v323) = lev13 V0 (Proc.devRef .tc main_v323) := (filt27_keep (lev27 V0) (r := main_v323) (by decide)).trans (k12_27 V0)
theorem k12_29 (V0 : Valuation τ sig (Elt F)) : lev29 V0 (Proc.devRef .tc main_v323) = lev13 V0 (Proc.devRef .tc main_v323) := (filt28_keep (lev28 V0) (r := main_v323) (by decide)).trans (k12_28 V0)
theorem k12_30 (V0 : Valuation τ sig (Elt F)) : lev30 V0 (Proc.devRef .tc main_v323) = lev13 V0 (Proc.devRef .tc main_v323) := (filt29_keep (lev29 V0) (r := main_v323) (by decide)).trans (k12_29 V0)
theorem k12_31 (V0 : Valuation τ sig (Elt F)) : lev31 V0 (Proc.devRef .tc main_v323) = lev13 V0 (Proc.devRef .tc main_v323) := (filt30_keep (lev30 V0) (r := main_v323) (by decide)).trans (k12_30 V0)
theorem k12_32 (V0 : Valuation τ sig (Elt F)) : lev32 V0 (Proc.devRef .tc main_v323) = lev13 V0 (Proc.devRef .tc main_v323) := (filt31_keep (lev31 V0) (r := main_v323) (by decide)).trans (k12_31 V0)
theorem k12_33 (V0 : Valuation τ sig (Elt F)) : lev33 V0 (Proc.devRef .tc main_v323) = lev13 V0 (Proc.devRef .tc main_v323) := (filt32_keep (lev32 V0) (r := main_v323) (by decide)).trans (k12_32 V0)
theorem k12_34 (V0 : Valuation τ sig (Elt F)) : lev34 V0 (Proc.devRef .tc main_v323) = lev13 V0 (Proc.devRef .tc main_v323) := (filt33_keep (lev33 V0) (r := main_v323) (by decide)).trans (k12_33 V0)
theorem k12_35 (V0 : Valuation τ sig (Elt F)) : lev35 V0 (Proc.devRef .tc main_v323) = lev13 V0 (Proc.devRef .tc main_v323) := (filt34_keep (lev34 V0) (r := main_v323) (by decide)).trans (k12_34 V0)
theorem k12_36 (V0 : Valuation τ sig (Elt F)) : lev36 V0 (Proc.devRef .tc main_v323) = lev13 V0 (Proc.devRef .tc main_v323) := (filt35_keep (lev35 V0) (r := main_v323) (by decide)).trans (k12_35 V0)
theorem k12_37 (V0 : Valuation τ sig (Elt F)) : lev37 V0 (Proc.devRef .tc main_v323) = lev13 V0 (Proc.devRef .tc main_v323) := (filt36_keep (lev36 V0) (r := main_v323) (by decide)).trans (k12_36 V0)
theorem k12_38 (V0 : Valuation τ sig (Elt F)) : lev38 V0 (Proc.devRef .tc main_v323) = lev13 V0 (Proc.devRef .tc main_v323) := (filt37_keep (lev37 V0) (r := main_v323) (by decide)).trans (k12_37 V0)
theorem k12_39 (V0 : Valuation τ sig (Elt F)) : lev39 V0 (Proc.devRef .tc main_v323) = lev13 V0 (Proc.devRef .tc main_v323) := (filt38_keep (lev38 V0) (r := main_v323) (by decide)).trans (k12_38 V0)
theorem k12_40 (V0 : Valuation τ sig (Elt F)) : lev40 V0 (Proc.devRef .tc main_v323) = lev13 V0 (Proc.devRef .tc main_v323) := (filt39_keep (lev39 V0) (r := main_v323) (by decide)).trans (k12_39 V0)
theorem k12_41 (V0 : Valuation τ sig (Elt F)) : lev41 V0 (Proc.devRef .tc main_v323) = lev13 V0 (Proc.devRef .tc main_v323) := (filt40_keep (lev40 V0) (r := main_v323) (by decide)).trans (k12_40 V0)
theorem k12_42 (V0 : Valuation τ sig (Elt F)) : lev42 V0 (Proc.devRef .tc main_v323) = lev13 V0 (Proc.devRef .tc main_v323) := (filt41_keep (lev41 V0) (r := main_v323) (by decide)).trans (k12_41 V0)
theorem k12_43 (V0 : Valuation τ sig (Elt F)) : lev43 V0 (Proc.devRef .tc main_v323) = lev13 V0 (Proc.devRef .tc main_v323) := (filt42_keep (lev42 V0) (r := main_v323) (by decide)).trans (k12_42 V0)
theorem k12_44 (V0 : Valuation τ sig (Elt F)) : lev44 V0 (Proc.devRef .tc main_v323) = lev13 V0 (Proc.devRef .tc main_v323) := (filt43_keep (lev43 V0) (r := main_v323) (by decide)).trans (k12_43 V0)
theorem k12_45 (V0 : Valuation τ sig (Elt F)) : lev45 V0 (Proc.devRef .tc main_v323) = lev13 V0 (Proc.devRef .tc main_v323) := (filt44_keep (lev44 V0) (r := main_v323) (by decide)).trans (k12_44 V0)
theorem k12_46 (V0 : Valuation τ sig (Elt F)) : lev46 V0 (Proc.devRef .tc main_v323) = lev13 V0 (Proc.devRef .tc main_v323) := (filt45_keep (lev45 V0) (r := main_v323) (by decide)).trans (k12_45 V0)
theorem k12_47 (V0 : Valuation τ sig (Elt F)) : lev47 V0 (Proc.devRef .tc main_v323) = lev13 V0 (Proc.devRef .tc main_v323) := (filt46_keep (lev46 V0) (r := main_v323) (by decide)).trans (k12_46 V0)
theorem k12_48 (V0 : Valuation τ sig (Elt F)) : lev48 V0 (Proc.devRef .tc main_v323) = lev13 V0 (Proc.devRef .tc main_v323) := (filt47_keep (lev47 V0) (r := main_v323) (by decide)).trans (k12_47 V0)
theorem k12_49 (V0 : Valuation τ sig (Elt F)) : lev49 V0 (Proc.devRef .tc main_v323) = lev13 V0 (Proc.devRef .tc main_v323) := (filt48_keep (lev48 V0) (r := main_v323) (by decide)).trans (k12_48 V0)
theorem k12_50 (V0 : Valuation τ sig (Elt F)) : lev50 V0 (Proc.devRef .tc main_v323) = lev13 V0 (Proc.devRef .tc main_v323) := (filt49_keep (lev49 V0) (r := main_v323) (by decide)).trans (k12_49 V0)
theorem k12_51 (V0 : Valuation τ sig (Elt F)) : lev51 V0 (Proc.devRef .tc main_v323) = lev13 V0 (Proc.devRef .tc main_v323) := (filt50_keep (lev50 V0) (r := main_v323) (by decide)).trans (k12_50 V0)
theorem k12_52 (V0 : Valuation τ sig (Elt F)) : lev52 V0 (Proc.devRef .tc main_v323) = lev13 V0 (Proc.devRef .tc main_v323) := (filt51_keep (lev51 V0) (r := main_v323) (by decide)).trans (k12_51 V0)
theorem k12_53 (V0 : Valuation τ sig (Elt F)) : lev53 V0 (Proc.devRef .tc main_v323) = lev13 V0 (Proc.devRef .tc main_v323) := (filt52_keep (lev52 V0) (r := main_v323) (by decide)).trans (k12_52 V0)
theorem k12_54 (V0 : Valuation τ sig (Elt F)) : lev54 V0 (Proc.devRef .tc main_v323) = lev13 V0 (Proc.devRef .tc main_v323) := (filt53_keep (lev53 V0) (r := main_v323) (by decide)).trans (k12_53 V0)
theorem k12_55 (V0 : Valuation τ sig (Elt F)) : lev55 V0 (Proc.devRef .tc main_v323) = lev13 V0 (Proc.devRef .tc main_v323) := (filt54_keep (lev54 V0) (r := main_v323) (by decide)).trans (k12_54 V0)
theorem k12_56 (V0 : Valuation τ sig (Elt F)) : lev56 V0 (Proc.devRef .tc main_v323) = lev13 V0 (Proc.devRef .tc main_v323) := (filt55_keep (lev55 V0) (r := main_v323) (by decide)).trans (k12_55 V0)
theorem k12_57 (V0 : Valuation τ sig (Elt F)) : lev57 V0 (Proc.devRef .tc main_v323) = lev13 V0 (Proc.devRef .tc main_v323) := (filt56_keep (lev56 V0) (r := main_v323) (by decide)).trans (k12_56 V0)
theorem k12_58 (V0 : Valuation τ sig (Elt F)) : lev58 V0 (Proc.devRef .tc main_v323) = lev13 V0 (Proc.devRef .tc main_v323) := (filt57_keep (lev57 V0) (r := main_v323) (by decide)).trans (k12_57 V0)
theorem k12_59 (V0 : Valuation τ sig (Elt F)) : lev59 V0 (Proc.devRef .tc main_v323) = lev13 V0 (Proc.devRef .tc main_v323) := (filt58_keep (lev58 V0) (r := main_v323) (by decide)).trans (k12_58 V0)
theorem k12_60 (V0 : Valuation τ sig (Elt F)) : lev60 V0 (Proc.devRef .tc main_v323) = lev13 V0 (Proc.devRef .tc main_v323) := (filt59_keep (lev59 V0) (r := main_v323) (by decide)).trans (k12_59 V0)
theorem k12_61 (V0 : Valuation τ sig (Elt F)) : lev61 V0 (Proc.devRef .tc main_v323) = lev13 V0 (Proc.devRef .tc main_v323) := (filt60_keep (lev60 V0) (r := main_v323) (by decide)).trans (k12_60 V0)
theorem k12_62 (V0 : Valuation τ sig (Elt F)) : lev62 V0 (Proc.devRef .tc main_v323) = lev13 V0 (Proc.devRef .tc main_v323) := (filt61_keep (lev61 V0) (r := main_v323) (by decide)).trans (k12_61 V0)
theorem k12_63 (V0 : Valuation τ sig (Elt F)) : lev63 V0 (Proc.devRef .tc main_v323) = lev13 V0 (Proc.devRef .tc main_v323) := (filt62_keep (lev62 V0) (r := main_v323) (by decide)).trans (k12_62 V0)
theorem k12_64 (V0 : Valuation τ sig (Elt F)) : lev64 V0 (Proc.devRef .tc main_v323) = lev13 V0 (Proc.devRef .tc main_v323) := (filt63_keep (lev63 V0) (r := main_v323) (by decide)).trans (k12_63 V0)
theorem k13_15 (V0 : Valuation τ sig (Elt F)) : lev15 V0 (Proc.devRef .tc main_v357) = lev14 V0 (Proc.devRef .tc main_v357) := (filt14_keep (lev14 V0) (r := main_v357) (by decide))
theorem k13_16 (V0 : Valuation τ sig (Elt F)) : lev16 V0 (Proc.devRef .tc main_v357) = lev14 V0 (Proc.devRef .tc main_v357) := (filt15_keep (lev15 V0) (r := main_v357) (by decide)).trans (k13_15 V0)
theorem k13_17 (V0 : Valuation τ sig (Elt F)) : lev17 V0 (Proc.devRef .tc main_v357) = lev14 V0 (Proc.devRef .tc main_v357) := (filt16_keep (lev16 V0) (r := main_v357) (by decide)).trans (k13_16 V0)
theorem k13_18 (V0 : Valuation τ sig (Elt F)) : lev18 V0 (Proc.devRef .tc main_v357) = lev14 V0 (Proc.devRef .tc main_v357) := (filt17_keep (lev17 V0) (r := main_v357) (by decide)).trans (k13_17 V0)
theorem k13_19 (V0 : Valuation τ sig (Elt F)) : lev19 V0 (Proc.devRef .tc main_v357) = lev14 V0 (Proc.devRef .tc main_v357) := (filt18_keep (lev18 V0) (r := main_v357) (by decide)).trans (k13_18 V0)
theorem k13_20 (V0 : Valuation τ sig (Elt F)) : lev20 V0 (Proc.devRef .tc main_v357) = lev14 V0 (Proc.devRef .tc main_v357) := (filt19_keep (lev19 V0) (r := main_v357) (by decide)).trans (k13_19 V0)
theorem k13_21 (V0 : Valuation τ sig (Elt F)) : lev21 V0 (Proc.devRef .tc main_v357) = lev14 V0 (Proc.devRef .tc main_v357) := (filt20_keep (lev20 V0) (r := main_v357) (by decide)).trans (k13_20 V0)
theorem k13_22 (V0 : Valuation τ sig (Elt F)) : lev22 V0 (Proc.devRef .tc main_v357) = lev14 V0 (Proc.devRef .tc main_v357) := (filt21_keep (lev21 V0) (r := main_v357) (by decide)).trans (k13_21 V0)
theorem k13_23 (V0 : Valuation τ sig (Elt F)) : lev23 V0 (Proc.devRef .tc main_v357) = lev14 V0 (Proc.devRef .tc main_v357) := (filt22_keep (lev22 V0) (r := main_v357) (by decide)).trans (k13_22 V0)
theorem k13_24 (V0 : Valuation τ sig (Elt F)) : lev24 V0 (Proc.devRef .tc main_v357) = lev14 V0 (Proc.devRef .tc main_v357) := (filt23_keep (lev23 V0) (r := main_v357) (by decide)).trans (k13_23 V0)
theorem k13_25 (V0 : Valuation τ sig (Elt F)) : lev25 V0 (Proc.devRef .tc main_v357) = lev14 V0 (Proc.devRef .tc main_v357) := (filt24_keep (lev24 V0) (r := main_v357) (by decide)).trans (k13_24 V0)
theorem k13_26 (V0 : Valuation τ sig (Elt F)) : lev26 V0 (Proc.devRef .tc main_v357) = lev14 V0 (Proc.devRef .tc main_v357) := (filt25_keep (lev25 V0) (r := main_v357) (by decide)).trans (k13_25 V0)
theorem k13_27 (V0 : Valuation τ sig (Elt F)) : lev27 V0 (Proc.devRef .tc main_v357) = lev14 V0 (Proc.devRef .tc main_v357) := (filt26_keep (lev26 V0) (r := main_v357) (by decide)).trans (k13_26 V0)
theorem k13_28 (V0 : Valuation τ sig (Elt F)) : lev28 V0 (Proc.devRef .tc main_v357) = lev14 V0 (Proc.devRef .tc main_v357) := (filt27_keep (lev27 V0) (r := main_v357) (by decide)).trans (k13_27 V0)
theorem k13_29 (V0 : Valuation τ sig (Elt F)) : lev29 V0 (Proc.devRef .tc main_v357) = lev14 V0 (Proc.devRef .tc main_v357) := (filt28_keep (lev28 V0) (r := main_v357) (by decide)).trans (k13_28 V0)
theorem k13_30 (V0 : Valuation τ sig (Elt F)) : lev30 V0 (Proc.devRef .tc main_v357) = lev14 V0 (Proc.devRef .tc main_v357) := (filt29_keep (lev29 V0) (r := main_v357) (by decide)).trans (k13_29 V0)
theorem k13_31 (V0 : Valuation τ sig (Elt F)) : lev31 V0 (Proc.devRef .tc main_v357) = lev14 V0 (Proc.devRef .tc main_v357) := (filt30_keep (lev30 V0) (r := main_v357) (by decide)).trans (k13_30 V0)
theorem k13_32 (V0 : Valuation τ sig (Elt F)) : lev32 V0 (Proc.devRef .tc main_v357) = lev14 V0 (Proc.devRef .tc main_v357) := (filt31_keep (lev31 V0) (r := main_v357) (by decide)).trans (k13_31 V0)
theorem k13_33 (V0 : Valuation τ sig (Elt F)) : lev33 V0 (Proc.devRef .tc main_v357) = lev14 V0 (Proc.devRef .tc main_v357) := (filt32_keep (lev32 V0) (r := main_v357) (by decide)).trans (k13_32 V0)
theorem k13_34 (V0 : Valuation τ sig (Elt F)) : lev34 V0 (Proc.devRef .tc main_v357) = lev14 V0 (Proc.devRef .tc main_v357) := (filt33_keep (lev33 V0) (r := main_v357) (by decide)).trans (k13_33 V0)
theorem k13_35 (V0 : Valuation τ sig (Elt F)) : lev35 V0 (Proc.devRef .tc main_v357) = lev14 V0 (Proc.devRef .tc main_v357) := (filt34_keep (lev34 V0) (r := main_v357) (by decide)).trans (k13_34 V0)
theorem k13_36 (V0 : Valuation τ sig (Elt F)) : lev36 V0 (Proc.devRef .tc main_v357) = lev14 V0 (Proc.devRef .tc main_v357) := (filt35_keep (lev35 V0) (r := main_v357) (by decide)).trans (k13_35 V0)
theorem k13_37 (V0 : Valuation τ sig (Elt F)) : lev37 V0 (Proc.devRef .tc main_v357) = lev14 V0 (Proc.devRef .tc main_v357) := (filt36_keep (lev36 V0) (r := main_v357) (by decide)).trans (k13_36 V0)
theorem k13_38 (V0 : Valuation τ sig (Elt F)) : lev38 V0 (Proc.devRef .tc main_v357) = lev14 V0 (Proc.devRef .tc main_v357) := (filt37_keep (lev37 V0) (r := main_v357) (by decide)).trans (k13_37 V0)
theorem k13_39 (V0 : Valuation τ sig (Elt F)) : lev39 V0 (Proc.devRef .tc main_v357) = lev14 V0 (Proc.devRef .tc main_v357) := (filt38_keep (lev38 V0) (r := main_v357) (by decide)).trans (k13_38 V0)
theorem k13_40 (V0 : Valuation τ sig (Elt F)) : lev40 V0 (Proc.devRef .tc main_v357) = lev14 V0 (Proc.devRef .tc main_v357) := (filt39_keep (lev39 V0) (r := main_v357) (by decide)).trans (k13_39 V0)
theorem k13_41 (V0 : Valuation τ sig (Elt F)) : lev41 V0 (Proc.devRef .tc main_v357) = lev14 V0 (Proc.devRef .tc main_v357) := (filt40_keep (lev40 V0) (r := main_v357) (by decide)).trans (k13_40 V0)
theorem k13_42 (V0 : Valuation τ sig (Elt F)) : lev42 V0 (Proc.devRef .tc main_v357) = lev14 V0 (Proc.devRef .tc main_v357) := (filt41_keep (lev41 V0) (r := main_v357) (by decide)).trans (k13_41 V0)
theorem k13_43 (V0 : Valuation τ sig (Elt F)) : lev43 V0 (Proc.devRef .tc main_v357) = lev14 V0 (Proc.devRef .tc main_v357) := (filt42_keep (lev42 V0) (r := main_v357) (by decide)).trans (k13_42 V0)
theorem k13_44 (V0 : Valuation τ sig (Elt F)) : lev44 V0 (Proc.devRef .tc main_v357) = lev14 V0 (Proc.devRef .tc main_v357) := (filt43_keep (lev43 V0) (r := main_v357) (by decide)).trans (k13_43 V0)
theorem k13_45 (V0 : Valuation τ sig (Elt F)) : lev45 V0 (Proc.devRef .tc main_v357) = lev14 V0 (Proc.devRef .tc main_v357) := (filt44_keep (lev44 V0) (r := main_v357) (by decide)).trans (k13_44 V0)
theorem k13_46 (V0 : Valuation τ sig (Elt F)) : lev46 V0 (Proc.devRef .tc main_v357) = lev14 V0 (Proc.devRef .tc main_v357) := (filt45_keep (lev45 V0) (r := main_v357) (by decide)).trans (k13_45 V0)
theorem k13_47 (V0 : Valuation τ sig (Elt F)) : lev47 V0 (Proc.devRef .tc main_v357) = lev14 V0 (Proc.devRef .tc main_v357) := (filt46_keep (lev46 V0) (r := main_v357) (by decide)).trans (k13_46 V0)
theorem k13_48 (V0 : Valuation τ sig (Elt F)) : lev48 V0 (Proc.devRef .tc main_v357) = lev14 V0 (Proc.devRef .tc main_v357) := (filt47_keep (lev47 V0) (r := main_v357) (by decide)).trans (k13_47 V0)
theorem k13_49 (V0 : Valuation τ sig (Elt F)) : lev49 V0 (Proc.devRef .tc main_v357) = lev14 V0 (Proc.devRef .tc main_v357) := (filt48_keep (lev48 V0) (r := main_v357) (by decide)).trans (k13_48 V0)
theorem k13_50 (V0 : Valuation τ sig (Elt F)) : lev50 V0 (Proc.devRef .tc main_v357) = lev14 V0 (Proc.devRef .tc main_v357) := (filt49_keep (lev49 V0) (r := main_v357) (by decide)).trans (k13_49 V0)
theorem k13_51 (V0 : Valuation τ sig (Elt F)) : lev51 V0 (Proc.devRef .tc main_v357) = lev14 V0 (Proc.devRef .tc main_v357) := (filt50_keep (lev50 V0) (r := main_v357) (by decide)).trans (k13_50 V0)
theorem k13_52 (V0 : Valuation τ sig (Elt F)) : lev52 V0 (Proc.devRef .tc main_v357) = lev14 V0 (Proc.devRef .tc main_v357) := (filt51_keep (lev51 V0) (r := main_v357) (by decide)).trans (k13_51 V0)
theorem k13_53 (V0 : Valuation τ sig (Elt F)) : lev53 V0 (Proc.devRef .tc main_v357) = lev14 V0 (Proc.devRef .tc main_v357) := (filt52_keep (lev52 V0) (r := main_v357) (by decide)).trans (k13_52 V0)
theorem k13_54 (V0 : Valuation τ sig (Elt F)) : lev54 V0 (Proc.devRef .tc main_v357) = lev14 V0 (Proc.devRef .tc main_v357) := (filt53_keep (lev53 V0) (r := main_v357) (by decide)).trans (k13_53 V0)
theorem k13_55 (V0 : Valuation τ sig (Elt F)) : lev55 V0 (Proc.devRef .tc main_v357) = lev14 V0 (Proc.devRef .tc main_v357) := (filt54_keep (lev54 V0) (r := main_v357) (by decide)).trans (k13_54 V0)
theorem k13_56 (V0 : Valuation τ sig (Elt F)) : lev56 V0 (Proc.devRef .tc main_v357) = lev14 V0 (Proc.devRef .tc main_v357) := (filt55_keep (lev55 V0) (r := main_v357) (by decide)).trans (k13_55 V0)
theorem k13_57 (V0 : Valuation τ sig (Elt F)) : lev57 V0 (Proc.devRef .tc main_v357) = lev14 V0 (Proc.devRef .tc main_v357) := (filt56_keep (lev56 V0) (r := main_v357) (by decide)).trans (k13_56 V0)
theorem k13_58 (V0 : Valuation τ sig (Elt F)) : lev58 V0 (Proc.devRef .tc main_v357) = lev14 V0 (Proc.devRef .tc main_v357) := (filt57_keep (lev57 V0) (r := main_v357) (by decide)).trans (k13_57 V0)
theorem k13_59 (V0 : Valuation τ sig (Elt F)) : lev59 V0 (Proc.devRef .tc main_v357) = lev14 V0 (Proc.devRef .tc main_v357) := (filt58_keep (lev58 V0) (r := main_v357) (by decide)).trans (k13_58 V0)
theorem k13_60 (V0 : Valuation τ sig (Elt F)) : lev60 V0 (Proc.devRef .tc main_v357) = lev14 V0 (Proc.devRef .tc main_v357) := (filt59_keep (lev59 V0) (r := main_v357) (by decide)).trans (k13_59 V0)
theorem k13_61 (V0 : Valuation τ sig (Elt F)) : lev61 V0 (Proc.devRef .tc main_v357) = lev14 V0 (Proc.devRef .tc main_v357) := (filt60_keep (lev60 V0) (r := main_v357) (by decide)).trans (k13_60 V0)
theorem k13_62 (V0 : Valuation τ sig (Elt F)) : lev62 V0 (Proc.devRef .tc main_v357) = lev14 V0 (Proc.devRef .tc main_v357) := (filt61_keep (lev61 V0) (r := main_v357) (by decide)).trans (k13_61 V0)
theorem k13_63 (V0 : Valuation τ sig (Elt F)) : lev63 V0 (Proc.devRef .tc main_v357) = lev14 V0 (Proc.devRef .tc main_v357) := (filt62_keep (lev62 V0) (r := main_v357) (by decide)).trans (k13_62 V0)
theorem k13_64 (V0 : Valuation τ sig (Elt F)) : lev64 V0 (Proc.devRef .tc main_v357) = lev14 V0 (Proc.devRef .tc main_v357) := (filt63_keep (lev63 V0) (r := main_v357) (by decide)).trans (k13_63 V0)
theorem k14_16 (V0 : Valuation τ sig (Elt F)) : lev16 V0 (Proc.devRef .tc main_v394) = lev15 V0 (Proc.devRef .tc main_v394) := (filt15_keep (lev15 V0) (r := main_v394) (by decide))
theorem k14_17 (V0 : Valuation τ sig (Elt F)) : lev17 V0 (Proc.devRef .tc main_v394) = lev15 V0 (Proc.devRef .tc main_v394) := (filt16_keep (lev16 V0) (r := main_v394) (by decide)).trans (k14_16 V0)
theorem k14_18 (V0 : Valuation τ sig (Elt F)) : lev18 V0 (Proc.devRef .tc main_v394) = lev15 V0 (Proc.devRef .tc main_v394) := (filt17_keep (lev17 V0) (r := main_v394) (by decide)).trans (k14_17 V0)
theorem k14_19 (V0 : Valuation τ sig (Elt F)) : lev19 V0 (Proc.devRef .tc main_v394) = lev15 V0 (Proc.devRef .tc main_v394) := (filt18_keep (lev18 V0) (r := main_v394) (by decide)).trans (k14_18 V0)
theorem k14_20 (V0 : Valuation τ sig (Elt F)) : lev20 V0 (Proc.devRef .tc main_v394) = lev15 V0 (Proc.devRef .tc main_v394) := (filt19_keep (lev19 V0) (r := main_v394) (by decide)).trans (k14_19 V0)
theorem k14_21 (V0 : Valuation τ sig (Elt F)) : lev21 V0 (Proc.devRef .tc main_v394) = lev15 V0 (Proc.devRef .tc main_v394) := (filt20_keep (lev20 V0) (r := main_v394) (by decide)).trans (k14_20 V0)
theorem k14_22 (V0 : Valuation τ sig (Elt F)) : lev22 V0 (Proc.devRef .tc main_v394) = lev15 V0 (Proc.devRef .tc main_v394) := (filt21_keep (lev21 V0) (r := main_v394) (by decide)).trans (k14_21 V0)
theorem k14_23 (V0 : Valuation τ sig (Elt F)) : lev23 V0 (Proc.devRef .tc main_v394) = lev15 V0 (Proc.devRef .tc main_v394) := (filt22_keep (lev22 V0) (r := main_v394) (by decide)).trans (k14_22 V0)
theorem k14_24 (V0 : Valuation τ sig (Elt F)) : lev24 V0 (Proc.devRef .tc main_v394) = lev15 V0 (Proc.devRef .tc main_v394) := (filt23_keep (lev23 V0) (r := main_v394) (by decide)).trans (k14_23 V0)
theorem k14_25 (V0 : Valuation τ sig (Elt F)) : lev25 V0 (Proc.devRef .tc main_v394) = lev15 V0 (Proc.devRef .tc main_v394) := (filt24_keep (lev24 V0) (r := main_v394) (by decide)).trans (k14_24 V0)
theorem k14_26 (V0 : Valuation τ sig (Elt F)) : lev26 V0 (Proc.devRef .tc main_v394) = lev15 V0 (Proc.devRef .tc main_v394) := (filt25_keep (lev25 V0) (r := main_v394) (by decide)).trans (k14_25 V0)
theorem k14_27 (V0 : Valuation τ sig (Elt F)) : lev27 V0 (Proc.devRef .tc main_v394) = lev15 V0 (Proc.devRef .tc main_v394) := (filt26_keep (lev26 V0) (r := main_v394) (by decide)).trans (k14_26 V0)
theorem k14_28 (V0 : Valuation τ sig (Elt F)) : lev28 V0 (Proc.devRef .tc main_v394) = lev15 V0 (Proc.devRef .tc main_v394) := (filt27_keep (lev27 V0) (r := main_v394) (by decide)).trans (k14_27 V0)
theorem k14_29 (V0 : Valuation τ sig (Elt F)) : lev29 V0 (Proc.devRef .tc main_v394) = lev15 V0 (Proc.devRef .tc main_v394) := (filt28_keep (lev28 V0) (r := main_v394) (by decide)).trans (k14_28 V0)
theorem k14_30 (V0 : Valuation τ sig (Elt F)) : lev30 V0 (Proc.devRef .tc main_v394) = lev15 V0 (Proc.devRef .tc main_v394) := (filt29_keep (lev29 V0) (r := main_v394) (by decide)).trans (k14_29 V0)
theorem k14_31 (V0 : Valuation τ sig (Elt F)) : lev31 V0 (Proc.devRef .tc main_v394) = lev15 V0 (Proc.devRef .tc main_v394) := (filt30_keep (lev30 V0) (r := main_v394) (by decide)).trans (k14_30 V0)
theorem k14_32 (V0 : Valuation τ sig (Elt F)) : lev32 V0 (Proc.devRef .tc main_v394) = lev15 V0 (Proc.devRef .tc main_v394) := (filt31_keep (lev31 V0) (r := main_v394) (by decide)).trans (k14_31 V0)
theorem k14_33 (V0 : Valuation τ sig (Elt F)) : lev33 V0 (Proc.devRef .tc main_v394) = lev15 V0 (Proc.devRef .tc main_v394) := (filt32_keep (lev32 V0) (r := main_v394) (by decide)).trans (k14_32 V0)
theorem k14_34 (V0 : Valuation τ sig (Elt F)) : lev34 V0 (Proc.devRef .tc main_v394) = lev15 V0 (Proc.devRef .tc main_v394) := (filt33_keep (lev33 V0) (r := main_v394) (by decide)).trans (k14_33 V0)
theorem k14_35 (V0 : Valuation τ sig (Elt F)) : lev35 V0 (Proc.devRef .tc main_v394) = lev15 V0 (Proc.devRef .tc main_v394) := (filt34_keep (lev34 V0) (r := main_v394) (by decide)).trans (k14_34 V0)
theorem k14_36 (V0 : Valuation τ sig (Elt F)) : lev36 V0 (Proc.devRef .tc main_v394) = lev15 V0 (Proc.devRef .tc main_v394) := (filt35_keep (lev35 V0) (r := main_v394) (by decide)).trans (k14_35 V0)
theorem k14_37 (V0 : Valuation τ sig (Elt F)) : lev37 V0 (Proc.devRef .tc main_v394) = lev15 V0 (Proc.devRef .tc main_v394) := (filt36_keep (lev36 V0) (r := main_v394) (by decide)).trans (k14_36 V0)
theorem k14_38 (V0 : Valuation τ sig (Elt F)) : lev38 V0 (Proc.devRef .tc main_v394) = lev15 V0 (Proc.devRef .tc main_v394) := (filt37_keep (lev37 V0) (r := main_v394) (by decide)).trans (k14_37 V0)
theorem k14_39 (V0 : Valuation τ sig (Elt F)) : lev39 V0 (Proc.devRef .tc main_v394) = lev15 V0 (Proc.devRef .tc main_v394) := (filt38_keep (lev38 V0) (r := main_v394) (by decide)).trans (k14_38 V0)
theorem k14_40 (V0 : Valuation τ sig (Elt F)) : lev40 V0 (Proc.devRef .tc main_v394) = lev15 V0 (Proc.devRef .tc main_v394) := (filt39_keep (lev39 V0) (r := main_v394) (by decide)).trans (k14_39 V0)
theorem k14_41 (V0 : Valuation τ sig (Elt F)) : lev41 V0 (Proc.devRef .tc main_v394) = lev15 V0 (Proc.devRef .tc main_v394) := (filt40_keep (lev40 V0) (r := main_v394) (by decide)).trans (k14_40 V0)
theorem k14_42 (V0 : Valuation τ sig (Elt F)) : lev42 V0 (Proc.devRef .tc main_v394) = lev15 V0 (Proc.devRef .tc main_v394) := (filt41_keep (lev41 V0) (r := main_v394) (by decide)).trans (k14_41 V0)
theorem k14_43 (V0 : Valuation τ sig (Elt F)) : lev43 V0 (Proc.devRef .tc main_v394) = lev15 V0 (Proc.devRef .tc main_v394) := (filt42_keep (lev42 V0) (r := main_v394) (by decide)).trans (k14_42 V0)
theorem k14_44 (V0 : Valuation τ sig (Elt F)) : lev44 V0 (Proc.devRef .tc main_v394) = lev15 V0 (Proc.devRef .tc main_v394) := (filt43_keep (lev43 V0) (r := main_v394) (by decide)).trans (k14_43 V0)
theorem k14_45 (V0 : Valuation τ sig (Elt F)) : lev45 V0 (Proc.devRef .tc main_v394) = lev15 V0 (Proc.devRef .tc main_v394) := (filt44_keep (lev44 V0) (r := main_v394) (by decide)).trans (k14_44 V0)
theorem k14_46 (V0 : Valuation τ sig (Elt F)) : lev46 V0 (Proc.devRef .tc main_v394) = lev15 V0 (Proc.devRef .tc main_v394) := (filt45_keep (lev45 V0) (r := main_v394) (by decide)).trans (k14_45 V0)
theorem k14_47 (V0 : Valuation τ sig (Elt F)) : lev47 V0 (Proc.devRef .tc main_v394) = lev15 V0 (Proc.devRef .tc main_v394) := (filt46_keep (lev46 V0) (r := main_v394) (by decide)).trans (k14_46 V0)
theorem k14_48 (V0 : Valuation τ sig (Elt F)) : lev48 V0 (Proc.devRef .tc main_v394) = lev15 V0 (Proc.devRef .tc main_v394) := (filt47_keep (lev47 V0) (r := main_v394) (by decide)).trans (k14_47 V0)
theorem k14_49 (V0 : Valuation τ sig (Elt F)) : lev49 V0 (Proc.devRef .tc main_v394) = lev15 V0 (Proc.devRef .tc main_v394) := (filt48_keep (lev48 V0) (r := main_v394) (by decide)).trans (k14_48 V0)
theorem k14_50 (V0 : Valuation τ sig (Elt F)) : lev50 V0 (Proc.devRef .tc main_v394) = lev15 V0 (Proc.devRef .tc main_v394) := (filt49_keep (lev49 V0) (r := main_v394) (by decide)).trans (k14_49 V0)
theorem k14_51 (V0 : Valuation τ sig (Elt F)) : lev51 V0 (Proc.devRef .tc main_v394) = lev15 V0 (Proc.devRef .tc main_v394) := (filt50_keep (lev50 V0) (r := main_v394) (by decide)).trans (k14_50 V0)
theorem k14_52 (V0 : Valuation τ sig (Elt F)) : lev52 V0 (Proc.devRef .tc main_v394) = lev15 V0 (Proc.devRef .tc main_v394) := (filt51_keep (lev51 V0) (r := main_v394) (by decide)).trans (k14_51 V0)
theorem k14_53 (V0 : Valuation τ sig (Elt F)) : lev53 V0 (Proc.devRef .tc main_v394) = lev15 V0 (Proc.devRef .tc main_v394) := (filt52_keep (lev52 V0) (r := main_v394) (by decide)).trans (k14_52 V0)
theorem k14_54 (V0 : Valuation τ sig (Elt F)) : lev54 V0 (Proc.devRef .tc main_v394) = lev15 V0 (Proc.devRef .tc main_v394) := (filt53_keep (lev53 V0) (r := main_v394) (by decide)).trans (k14_53 V0)
theorem k14_55 (V0 : Valuation τ sig (Elt F)) : lev55 V0 (Proc.devRef .tc main_v394) = lev15 V0 (Proc.devRef .tc main_v394) := (filt54_keep (lev54 V0) (r := main_v394) (by decide)).trans (k14_54 V0)
theorem k14_56 (V0 : Valuation τ sig (Elt F)) : lev56 V0 (Proc.devRef .tc main_v394) = lev15 V0 (Proc.devRef .tc main_v394) := (filt55_keep (lev55 V0) (r := main_v394) (by decide)).trans (k14_55 V0)
theorem k14_57 (V0 : Valuation τ sig (Elt F)) : lev57 V0 (Proc.devRef .tc main_v394) = lev15 V0 (Proc.devRef .tc main_v394) := (filt56_keep (lev56 V0) (r := main_v394) (by decide)).trans (k14_56 V0)
theorem k14_58 (V0 : Valuation τ sig (Elt F)) : lev58 V0 (Proc.devRef .tc main_v394) = lev15 V0 (Proc.devRef .tc main_v394) := (filt57_keep (lev57 V0) (r := main_v394) (by decide)).trans (k14_57 V0)
theorem k14_59 (V0 : Valuation τ sig (Elt F)) : lev59 V0 (Proc.devRef .tc main_v394) = lev15 V0 (Proc.devRef .tc main_v394) := (filt58_keep (lev58 V0) (r := main_v394) (by decide)).trans (k14_58 V0)
theorem k14_60 (V0 : Valuation τ sig (Elt F)) : lev60 V0 (Proc.devRef .tc main_v394) = lev15 V0 (Proc.devRef .tc main_v394) := (filt59_keep (lev59 V0) (r := main_v394) (by decide)).trans (k14_59 V0)
theorem k14_61 (V0 : Valuation τ sig (Elt F)) : lev61 V0 (Proc.devRef .tc main_v394) = lev15 V0 (Proc.devRef .tc main_v394) := (filt60_keep (lev60 V0) (r := main_v394) (by decide)).trans (k14_60 V0)
theorem k14_62 (V0 : Valuation τ sig (Elt F)) : lev62 V0 (Proc.devRef .tc main_v394) = lev15 V0 (Proc.devRef .tc main_v394) := (filt61_keep (lev61 V0) (r := main_v394) (by decide)).trans (k14_61 V0)
theorem k14_63 (V0 : Valuation τ sig (Elt F)) : lev63 V0 (Proc.devRef .tc main_v394) = lev15 V0 (Proc.devRef .tc main_v394) := (filt62_keep (lev62 V0) (r := main_v394) (by decide)).trans (k14_62 V0)
theorem k14_64 (V0 : Valuation τ sig (Elt F)) : lev64 V0 (Proc.devRef .tc main_v394) = lev15 V0 (Proc.devRef .tc main_v394) := (filt63_keep (lev63 V0) (r := main_v394) (by decide)).trans (k14_63 V0)
theorem k15_17 (V0 : Valuation τ sig (Elt F)) : lev17 V0 (Proc.devRef .tc main_v431) = lev16 V0 (Proc.devRef .tc main_v431) := (filt16_keep (lev16 V0) (r := main_v431) (by decide))
theorem k15_18 (V0 : Valuation τ sig (Elt F)) : lev18 V0 (Proc.devRef .tc main_v431) = lev16 V0 (Proc.devRef .tc main_v431) := (filt17_keep (lev17 V0) (r := main_v431) (by decide)).trans (k15_17 V0)
theorem k15_19 (V0 : Valuation τ sig (Elt F)) : lev19 V0 (Proc.devRef .tc main_v431) = lev16 V0 (Proc.devRef .tc main_v431) := (filt18_keep (lev18 V0) (r := main_v431) (by decide)).trans (k15_18 V0)
theorem k15_20 (V0 : Valuation τ sig (Elt F)) : lev20 V0 (Proc.devRef .tc main_v431) = lev16 V0 (Proc.devRef .tc main_v431) := (filt19_keep (lev19 V0) (r := main_v431) (by decide)).trans (k15_19 V0)
theorem k15_21 (V0 : Valuation τ sig (Elt F)) : lev21 V0 (Proc.devRef .tc main_v431) = lev16 V0 (Proc.devRef .tc main_v431) := (filt20_keep (lev20 V0) (r := main_v431) (by decide)).trans (k15_20 V0)
theorem k15_22 (V0 : Valuation τ sig (Elt F)) : lev22 V0 (Proc.devRef .tc main_v431) = lev16 V0 (Proc.devRef .tc main_v431) := (filt21_keep (lev21 V0) (r := main_v431) (by decide)).trans (k15_21 V0)
theorem k15_23 (V0 : Valuation τ sig (Elt F)) : lev23 V0 (Proc.devRef .tc main_v431) = lev16 V0 (Proc.devRef .tc main_v431) := (filt22_keep (lev22 V0) (r := main_v431) (by decide)).trans (k15_22 V0)
theorem k15_24 (V0 : Valuation τ sig (Elt F)) : lev24 V0 (Proc.devRef .tc main_v431) = lev16 V0 (Proc.devRef .tc main_v431) := (filt23_keep (lev23 V0) (r := main_v431) (by decide)).trans (k15_23 V0)
theorem k15_25 (V0 : Valuation τ sig (Elt F)) : lev25 V0 (Proc.devRef .tc main_v431) = lev16 V0 (Proc.devRef .tc main_v431) := (filt24_keep (lev24 V0) (r := main_v431) (by decide)).trans (k15_24 V0)
theorem k15_26 (V0 : Valuation τ sig (Elt F)) : lev26 V0 (Proc.devRef .tc main_v431) = lev16 V0 (Proc.devRef .tc main_v431) := (filt25_keep (lev25 V0) (r := main_v431) (by decide)).trans (k15_25 V0)
theorem k15_27 (V0 : Valuation τ sig (Elt F)) : lev27 V0 (Proc.devRef .tc main_v431) = lev16 V0 (Proc.devRef .tc main_v431) := (filt26_keep (lev26 V0) (r := main_v431) (by decide)).trans (k15_26 V0)
theorem k15_28 (V0 : Valuation τ sig (Elt F)) : lev28 V0 (Proc.devRef .tc main_v431) = lev16 V0 (Proc.devRef .tc main_v431) := (filt27_keep (lev27 V0) (r := main_v431) (by decide)).trans (k15_27 V0)
theorem k15_29 (V0 : Valuation τ sig (Elt F)) : lev29 V0 (Proc.devRef .tc main_v431) = lev16 V0 (Proc.devRef .tc main_v431) := (filt28_keep (lev28 V0) (r := main_v431) (by decide)).trans (k15_28 V0)
theorem k15_30 (V0 : Valuation τ sig (Elt F)) : lev30 V0 (Proc.devRef .tc main_v431) = lev16 V0 (Proc.devRef .tc main_v431) := (filt29_keep (lev29 V0) (r := main_v431) (by decide)).trans (k15_29 V0)
theorem k15_31 (V0 : Valuation τ sig (Elt F)) : lev31 V0 (Proc.devRef .tc main_v431) = lev16 V0 (Proc.devRef .tc main_v431) := (filt30_keep (lev30 V0) (r := main_v431) (by decide)).trans (k15_30 V0)
theorem k15_32 (V0 : Valuation τ sig (Elt F)) : lev32 V0 (Proc.devRef .tc main_v431) = lev16 V0 (Proc.devRef .tc main_v431) := (filt31_keep (lev31 V0) (r := main_v431) (by decide)).trans (k15_31 V0)
theorem k15_33 (V0 : Valuation τ sig (Elt F)) : lev33 V0 (Proc.devRef .tc main_v431) = lev16 V0 (Proc.devRef .tc main_v431) := (filt32_keep (lev32 V0) (r := main_v431) (by decide)).trans (k15_32 V0)
theorem k15_34 (V0 : Valuation τ sig (Elt F)) : lev34 V0 (Proc.devRef .tc main_v431) = lev16 V0 (Proc.devRef .tc main_v431) := (filt33_keep (lev33 V0) (r := main_v431) (by decide)).trans (k15_33 V0)
theorem k15_35 (V0 : Valuation τ sig (Elt F)) : lev35 V0 (Proc.devRef .tc main_v431) = lev16 V0 (Proc.devRef .tc main_v431) := (filt34_keep (lev34 V0) (r := main_v431) (by decide)).trans (k15_34 V0)
theorem k15_36 (V0 : Valuation τ sig (Elt F)) : lev36 V0 (Proc.devRef .tc main_v431) = lev16 V0 (Proc.devRef .tc main_v431) := (filt35_keep (lev35 V0) (r := main_v431) (by decide)).trans (k15_35 V0)
theorem k15_37 (V0 : Valuation τ sig (Elt F)) : lev37 V0 (Proc.devRef .tc main_v431) = lev16 V0 (Proc.devRef .tc main_v431) := (filt36_keep (lev36 V0) (r := main_v431) (by decide)).trans (k15_36 V0)
theorem k15_38 (V0 : Valuation τ sig (Elt F)) : lev38 V0 (Proc.devRef .tc main_v431) = lev16 V0 (Proc.devRef .tc main_v431) := (filt37_keep (lev37 V0) (r := main_v431) (by decide)).trans (k15_37 V0)
theorem k15_39 (V0 : Valuation τ sig (Elt F)) : lev39 V0 (Proc.devRef .tc main_v431) = lev16 V0 (Proc.devRef .tc main_v431) := (filt38_keep (lev38 V0) (r := main_v431) (by decide)).trans (k15_38 V0)
theorem k15_40 (V0 : Valuation τ sig (Elt F)) : lev40 V0 (Proc.devRef .tc main_v431) = lev16 V0 (Proc.devRef .tc main_v431) := (filt39_keep (lev39 V0) (r := main_v431) (by decide)).trans (k15_39 V0)
theorem k15_41 (V0 : Valuation τ sig (Elt F)) : lev41 V0 (Proc.devRef .tc main_v431) = lev16 V0 (Proc.devRef .tc main_v431) := (filt40_keep (lev40 V0) (r := main_v431) (by decide)).trans (k15_40 V0)
theorem k15_42 (V0 : Valuation τ sig (Elt F)) : lev42 V0 (Proc.devRef .tc main_v431) = lev16 V0 (Proc.devRef .tc main_v431) := (filt41_keep (lev41 V0) (r := main_v431) (by decide)).trans (k15_41 V0)
theorem k15_43 (V0 : Valuation τ sig (Elt F)) : lev43 V0 (Proc.devRef .tc main_v431) = lev16 V0 (Proc.devRef .tc main_v431) := (filt42_keep (lev42 V0) (r := main_v431) (by decide)).trans (k15_42 V0)
theorem k15_44 (V0 : Valuation τ sig (Elt F)) : lev44 V0 (Proc.devRef .tc main_v431) = lev16 V0 (Proc.devRef .tc main_v431) := (filt43_keep (lev43 V0) (r := main_v431) (by decide)).trans (k15_43 V0)
theorem k15_45 (V0 : Valuation τ sig (Elt F)) : lev45 V0 (Proc.devRef .tc main_v431) = lev16 V0 (Proc.devRef .tc main_v431) := (filt44_keep (lev44 V0) (r := main_v431) (by decide)).trans (k15_44 V0)
theorem k15_46 (V0 : Valuation τ sig (Elt F)) : lev46 V0 (Proc.devRef .tc main_v431) = lev16 V0 (Proc.devRef .tc main_v431) := (filt45_keep (lev45 V0) (r := main_v431) (by decide)).trans (k15_45 V0)
theorem k15_47 (V0 : Valuation τ sig (Elt F)) : lev47 V0 (Proc.devRef .tc main_v431) = lev16 V0 (Proc.devRef .tc main_v431) := (filt46_keep (lev46 V0) (r := main_v431) (by decide)).trans (k15_46 V0)
theorem k15_48 (V0 : Valuation τ sig (Elt F)) : lev48 V0 (Proc.devRef .tc main_v431) = lev16 V0 (Proc.devRef .tc main_v431) := (filt47_keep (lev47 V0) (r := main_v431) (by decide)).trans (k15_47 V0)
theorem k15_49 (V0 : Valuation τ sig (Elt F)) : lev49 V0 (Proc.devRef .tc main_v431) = lev16 V0 (Proc.devRef .tc main_v431) := (filt48_keep (lev48 V0) (r := main_v431) (by decide)).trans (k15_48 V0)
theorem k15_50 (V0 : Valuation τ sig (Elt F)) : lev50 V0 (Proc.devRef .tc main_v431) = lev16 V0 (Proc.devRef .tc main_v431) := (filt49_keep (lev49 V0) (r := main_v431) (by decide)).trans (k15_49 V0)
theorem k15_51 (V0 : Valuation τ sig (Elt F)) : lev51 V0 (Proc.devRef .tc main_v431) = lev16 V0 (Proc.devRef .tc main_v431) := (filt50_keep (lev50 V0) (r := main_v431) (by decide)).trans (k15_50 V0)
theorem k15_52 (V0 : Valuation τ sig (Elt F)) : lev52 V0 (Proc.devRef .tc main_v431) = lev16 V0 (Proc.devRef .tc main_v431) := (filt51_keep (lev51 V0) (r := main_v431) (by decide)).trans (k15_51 V0)
theorem k15_53 (V0 : Valuation τ sig (Elt F)) : lev53 V0 (Proc.devRef .tc main_v431) = lev16 V0 (Proc.devRef .tc main_v431) := (filt52_keep (lev52 V0) (r := main_v431) (by decide)).trans (k15_52 V0)
theorem k15_54 (V0 : Valuation τ sig (Elt F)) : lev54 V0 (Proc.devRef .tc main_v431) = lev16 V0 (Proc.devRef .tc main_v431) := (filt53_keep (lev53 V0) (r := main_v431) (by decide)).trans (k15_53 V0)
theorem k15_55 (V0 : Valuation τ sig (Elt F)) : lev55 V0 (Proc.devRef .tc main_v431) = lev16 V0 (Proc.devRef .tc main_v431) := (filt54_keep (lev54 V0) (r := main_v431) (by decide)).trans (k15_54 V0)
theorem k15_56 (V0 : Valuation τ sig (Elt F)) : lev56 V0 (Proc.devRef .tc main_v431) = lev16 V0 (Proc.devRef .tc main_v431) := (filt55_keep (lev55 V0) (r := main_v431) (by decide)).trans (k15_55 V0)
theorem k15_57 (V0 : Valuation τ sig (Elt F)) : lev57 V0 (Proc.devRef .tc main_v431) = lev16 V0 (Proc.devRef .tc main_v431) := (filt56_keep (lev56 V0) (r := main_v431) (by decide)).trans (k15_56 V0)
theorem k15_58 (V0 : Valuation τ sig (Elt F)) : lev58 V0 (Proc.devRef .tc main_v431) = lev16 V0 (Proc.devRef .tc main_v431) := (filt57_keep (lev57 V0) (r := main_v431) (by decide)).trans (k15_57 V0)
theorem k15_59 (V0 : Valuation τ sig (Elt F)) : lev59 V0 (Proc.devRef .tc main_v431) = lev16 V0 (Proc.devRef .tc main_v431) := (filt58_keep (lev58 V0) (r := main_v431) (by decide)).trans (k15_58 V0)
theorem k15_60 (V0 : Valuation τ sig (Elt F)) : lev60 V0 (Proc.devRef .tc main_v431) = lev16 V0 (Proc.devRef .tc main_v431) := (filt59_keep (lev59 V0) (r := main_v431) (by decide)).trans (k15_59 V0)
theorem k15_61 (V0 : Valuation τ sig (Elt F)) : lev61 V0 (Proc.devRef .tc main_v431) = lev16 V0 (Proc.devRef .tc main_v431) := (filt60_keep (lev60 V0) (r := main_v431) (by decide)).trans (k15_60 V0)
theorem k15_62 (V0 : Valuation τ sig (Elt F)) : lev62 V0 (Proc.devRef .tc main_v431) = lev16 V0 (Proc.devRef .tc main_v431) := (filt61_keep (lev61 V0) (r := main_v431) (by decide)).trans (k15_61 V0)
theorem k15_63 (V0 : Valuation τ sig (Elt F)) : lev63 V0 (Proc.devRef .tc main_v431) = lev16 V0 (Proc.devRef .tc main_v431) := (filt62_keep (lev62 V0) (r := main_v431) (by decide)).trans (k15_62 V0)
theorem k15_64 (V0 : Valuation τ sig (Elt F)) : lev64 V0 (Proc.devRef .tc main_v431) = lev16 V0 (Proc.devRef .tc main_v431) := (filt63_keep (lev63 V0) (r := main_v431) (by decide)).trans (k15_63 V0)
theorem k16_18 (V0 : Valuation τ sig (Elt F)) : lev18 V0 (Proc.devRef .tc main_v471) = lev17 V0 (Proc.devRef .tc main_v471) := (filt17_keep (lev17 V0) (r := main_v471) (by decide))
theorem k16_19 (V0 : Valuation τ sig (Elt F)) : lev19 V0 (Proc.devRef .tc main_v471) = lev17 V0 (Proc.devRef .tc main_v471) := (filt18_keep (lev18 V0) (r := main_v471) (by decide)).trans (k16_18 V0)
theorem k16_20 (V0 : Valuation τ sig (Elt F)) : lev20 V0 (Proc.devRef .tc main_v471) = lev17 V0 (Proc.devRef .tc main_v471) := (filt19_keep (lev19 V0) (r := main_v471) (by decide)).trans (k16_19 V0)
theorem k16_21 (V0 : Valuation τ sig (Elt F)) : lev21 V0 (Proc.devRef .tc main_v471) = lev17 V0 (Proc.devRef .tc main_v471) := (filt20_keep (lev20 V0) (r := main_v471) (by decide)).trans (k16_20 V0)
theorem k16_22 (V0 : Valuation τ sig (Elt F)) : lev22 V0 (Proc.devRef .tc main_v471) = lev17 V0 (Proc.devRef .tc main_v471) := (filt21_keep (lev21 V0) (r := main_v471) (by decide)).trans (k16_21 V0)
theorem k16_23 (V0 : Valuation τ sig (Elt F)) : lev23 V0 (Proc.devRef .tc main_v471) = lev17 V0 (Proc.devRef .tc main_v471) := (filt22_keep (lev22 V0) (r := main_v471) (by decide)).trans (k16_22 V0)
theorem k16_24 (V0 : Valuation τ sig (Elt F)) : lev24 V0 (Proc.devRef .tc main_v471) = lev17 V0 (Proc.devRef .tc main_v471) := (filt23_keep (lev23 V0) (r := main_v471) (by decide)).trans (k16_23 V0)
theorem k16_25 (V0 : Valuation τ sig (Elt F)) : lev25 V0 (Proc.devRef .tc main_v471) = lev17 V0 (Proc.devRef .tc main_v471) := (filt24_keep (lev24 V0) (r := main_v471) (by decide)).trans (k16_24 V0)
theorem k16_26 (V0 : Valuation τ sig (Elt F)) : lev26 V0 (Proc.devRef .tc main_v471) = lev17 V0 (Proc.devRef .tc main_v471) := (filt25_keep (lev25 V0) (r := main_v471) (by decide)).trans (k16_25 V0)
theorem k16_27 (V0 : Valuation τ sig (Elt F)) : lev27 V0 (Proc.devRef .tc main_v471) = lev17 V0 (Proc.devRef .tc main_v471) := (filt26_keep (lev26 V0) (r := main_v471) (by decide)).trans (k16_26 V0)
theorem k16_28 (V0 : Valuation τ sig (Elt F)) : lev28 V0 (Proc.devRef .tc main_v471) = lev17 V0 (Proc.devRef .tc main_v471) := (filt27_keep (lev27 V0) (r := main_v471) (by decide)).trans (k16_27 V0)
theorem k16_29 (V0 : Valuation τ sig (Elt F)) : lev29 V0 (Proc.devRef .tc main_v471) = lev17 V0 (Proc.devRef .tc main_v471) := (filt28_keep (lev28 V0) (r := main_v471) (by decide)).trans (k16_28 V0)
theorem k16_30 (V0 : Valuation τ sig (Elt F)) : lev30 V0 (Proc.devRef .tc main_v471) = lev17 V0 (Proc.devRef .tc main_v471) := (filt29_keep (lev29 V0) (r := main_v471) (by decide)).trans (k16_29 V0)
theorem k16_31 (V0 : Valuation τ sig (Elt F)) : lev31 V0 (Proc.devRef .tc main_v471) = lev17 V0 (Proc.devRef .tc main_v471) := (filt30_keep (lev30 V0) (r := main_v471) (by decide)).trans (k16_30 V0)
theorem k16_32 (V0 : Valuation τ sig (Elt F)) : lev32 V0 (Proc.devRef .tc main_v471) = lev17 V0 (Proc.devRef .tc main_v471) := (filt31_keep (lev31 V0) (r := main_v471) (by decide)).trans (k16_31 V0)
theorem k16_33 (V0 : Valuation τ sig (Elt F)) : lev33 V0 (Proc.devRef .tc main_v471) = lev17 V0 (Proc.devRef .tc main_v471) := (filt32_keep (lev32 V0) (r := main_v471) (by decide)).trans (k16_32 V0)
theorem k16_34 (V0 : Valuation τ sig (Elt F)) : lev34 V0 (Proc.devRef .tc main_v471) = lev17 V0 (Proc.devRef .tc main_v471) := (filt33_keep (lev33 V0) (r := main_v471) (by decide)).trans (k16_33 V0)
theorem k16_35 (V0 : Valuation τ sig (Elt F)) : lev35 V0 (Proc.devRef .tc main_v471) = lev17 V0 (Proc.devRef .tc main_v471) := (filt34_keep (lev34 V0) (r := main_v471) (by decide)).trans (k16_34 V0)
theorem k16_36 (V0 : Valuation τ sig (Elt F)) : lev36 V0 (Proc.devRef .tc main_v471) = lev17 V0 (Proc.devRef .tc main_v471) := (filt35_keep (lev35 V0) (r := main_v471) (by decide)).trans (k16_35 V0)
theorem k16_37 (V0 : Valuation τ sig (Elt F)) : lev37 V0 (Proc.devRef .tc main_v471) = lev17 V0 (Proc.devRef .tc main_v471) := (filt36_keep (lev36 V0) (r := main_v471) (by decide)).trans (k16_36 V0)
theorem k16_38 (V0 : Valuation τ sig (Elt F)) : lev38 V0 (Proc.devRef .tc main_v471) = lev17 V0 (Proc.devRef .tc main_v471) := (filt37_keep (lev37 V0) (r := main_v471) (by decide)).trans (k16_37 V0)
theorem k16_39 (V0 : Valuation τ sig (Elt F)) : lev39 V0 (Proc.devRef .tc main_v471) = lev17 V0 (Proc.devRef .tc main_v471) := (filt38_keep (lev38 V0) (r := main_v471) (by decide)).trans (k16_38 V0)
theorem k16_40 (V0 : Valuation τ sig (Elt F)) : lev40 V0 (Proc.devRef .tc main_v471) = lev17 V0 (Proc.devRef .tc main_v471) := (filt39_keep (lev39 V0) (r := main_v471) (by decide)).trans (k16_39 V0)
theorem k16_41 (V0 : Valuation τ sig (Elt F)) : lev41 V0 (Proc.devRef .tc main_v471) = lev17 V0 (Proc.devRef .tc main_v471) := (filt40_keep (lev40 V0) (r := main_v471) (by decide)).trans (k16_40 V0)
theorem k16_42 (V0 : Valuation τ sig (Elt F)) : lev42 V0 (Proc.devRef .tc main_v471) = lev17 V0 (Proc.devRef .tc main_v471) := (filt41_keep (lev41 V0) (r := main_v471) (by decide)).trans (k16_41 V0)
theorem k16_43 (V0 : Valuation τ sig (Elt F)) : lev43 V0 (Proc.devRef .tc main_v471) = lev17 V0 (Proc.devRef .tc main_v471) := (filt42_keep (lev42 V0) (r := main_v471) (by decide)).trans (k16_42 V0)
theorem k16_44 (V0 : Valuation τ sig (Elt F)) : lev44 V0 (Proc.devRef .tc main_v471) = lev17 V0 (Proc.devRef .tc main_v471) := (filt43_keep (lev43 V0) (r := main_v471) (by decide)).trans (k16_43 V0)
theorem k16_45 (V0 : Valuation τ sig (Elt F)) : lev45 V0 (Proc.devRef .tc main_v471) = lev17 V0 (Proc.devRef .tc main_v471) := (filt44_keep (lev44 V0) (r := main_v471) (by decide)).trans (k16_44 V0)
theorem k16_46 (V0 : Valuation τ sig (Elt F)) : lev46 V0 (Proc.devRef .tc main_v471) = lev17 V0 (Proc.devRef .tc main_v471) := (filt45_keep (lev45 V0) (r := main_v471) (by decide)).trans (k16_45 V0)
theorem k16_47 (V0 : Valuation τ sig (Elt F)) : lev47 V0 (Proc.devRef .tc main_v471) = lev17 V0 (Proc.devRef .tc main_v471) := (filt46_keep (lev46 V0) (r := main_v471) (by decide)).trans (k16_46 V0)
theorem k16_48 (V0 : Valuation τ sig (Elt F)) : lev48 V0 (Proc.devRef .tc main_v471) = lev17 V0 (Proc.devRef .tc main_v471) := (filt47_keep (lev47 V0) (r := main_v471) (by decide)).trans (k16_47 V0)
theorem k16_49 (V0 : Valuation τ sig (Elt F)) : lev49 V0 (Proc.devRef .tc main_v471) = lev17 V0 (Proc.devRef .tc main_v471) := (filt48_keep (lev48 V0) (r := main_v471) (by decide)).trans (k16_48 V0)
theorem k16_50 (V0 : Valuation τ sig (Elt F)) : lev50 V0 (Proc.devRef .tc main_v471) = lev17 V0 (Proc.devRef .tc main_v471) := (filt49_keep (lev49 V0) (r := main_v471) (by decide)).trans (k16_49 V0)
theorem k16_51 (V0 : Valuation τ sig (Elt F)) : lev51 V0 (Proc.devRef .tc main_v471) = lev17 V0 (Proc.devRef .tc main_v471) := (filt50_keep (lev50 V0) (r := main_v471) (by decide)).trans (k16_50 V0)
theorem k16_52 (V0 : Valuation τ sig (Elt F)) : lev52 V0 (Proc.devRef .tc main_v471) = lev17 V0 (Proc.devRef .tc main_v471) := (filt51_keep (lev51 V0) (r := main_v471) (by decide)).trans (k16_51 V0)
theorem k16_53 (V0 : Valuation τ sig (Elt F)) : lev53 V0 (Proc.devRef .tc main_v471) = lev17 V0 (Proc.devRef .tc main_v471) := (filt52_keep (lev52 V0) (r := main_v471) (by decide)).trans (k16_52 V0)
theorem k16_54 (V0 : Valuation τ sig (Elt F)) : lev54 V0 (Proc.devRef .tc main_v471) = lev17 V0 (Proc.devRef .tc main_v471) := (filt53_keep (lev53 V0) (r := main_v471) (by decide)).trans (k16_53 V0)
theorem k16_55 (V0 : Valuation τ sig (Elt F)) : lev55 V0 (Proc.devRef .tc main_v471) = lev17 V0 (Proc.devRef .tc main_v471) := (filt54_keep (lev54 V0) (r := main_v471) (by decide)).trans (k16_54 V0)
theorem k16_56 (V0 : Valuation τ sig (Elt F)) : lev56 V0 (Proc.devRef .tc main_v471) = lev17 V0 (Proc.devRef .tc main_v471) := (filt55_keep (lev55 V0) (r := main_v471) (by decide)).trans (k16_55 V0)
theorem k16_57 (V0 : Valuation τ sig (Elt F)) : lev57 V0 (Proc.devRef .tc main_v471) = lev17 V0 (Proc.devRef .tc main_v471) := (filt56_keep (lev56 V0) (r := main_v471) (by decide)).trans (k16_56 V0)
theorem k16_58 (V0 : Valuation τ sig (Elt F)) : lev58 V0 (Proc.devRef .tc main_v471) = lev17 V0 (Proc.devRef .tc main_v471) := (filt57_keep (lev57 V0) (r := main_v471) (by decide)).trans (k16_57 V0)
theorem k16_59 (V0 : Valuation τ sig (Elt F)) : lev59 V0 (Proc.devRef .tc main_v471) = lev17 V0 (Proc.devRef .tc main_v471) := (filt58_keep (lev58 V0) (r := main_v471) (by decide)).trans (k16_58 V0)
theorem k16_60 (V0 : Valuation τ sig (Elt F)) : lev60 V0 (Proc.devRef .tc main_v471) = lev17 V0 (Proc.devRef .tc main_v471) := (filt59_keep (lev59 V0) (r := main_v471) (by decide)).trans (k16_59 V0)
theorem k16_61 (V0 : Valuation τ sig (Elt F)) : lev61 V0 (Proc.devRef .tc main_v471) = lev17 V0 (Proc.devRef .tc main_v471) := (filt60_keep (lev60 V0) (r := main_v471) (by decide)).trans (k16_60 V0)
theorem k16_62 (V0 : Valuation τ sig (Elt F)) : lev62 V0 (Proc.devRef .tc main_v471) = lev17 V0 (Proc.devRef .tc main_v471) := (filt61_keep (lev61 V0) (r := main_v471) (by decide)).trans (k16_61 V0)
theorem k16_63 (V0 : Valuation τ sig (Elt F)) : lev63 V0 (Proc.devRef .tc main_v471) = lev17 V0 (Proc.devRef .tc main_v471) := (filt62_keep (lev62 V0) (r := main_v471) (by decide)).trans (k16_62 V0)
theorem k16_64 (V0 : Valuation τ sig (Elt F)) : lev64 V0 (Proc.devRef .tc main_v471) = lev17 V0 (Proc.devRef .tc main_v471) := (filt63_keep (lev63 V0) (r := main_v471) (by decide)).trans (k16_63 V0)
theorem k17_19 (V0 : Valuation τ sig (Elt F)) : lev19 V0 (Proc.devRef .tc main_v511) = lev18 V0 (Proc.devRef .tc main_v511) := (filt18_keep (lev18 V0) (r := main_v511) (by decide))
theorem k17_20 (V0 : Valuation τ sig (Elt F)) : lev20 V0 (Proc.devRef .tc main_v511) = lev18 V0 (Proc.devRef .tc main_v511) := (filt19_keep (lev19 V0) (r := main_v511) (by decide)).trans (k17_19 V0)
theorem k17_21 (V0 : Valuation τ sig (Elt F)) : lev21 V0 (Proc.devRef .tc main_v511) = lev18 V0 (Proc.devRef .tc main_v511) := (filt20_keep (lev20 V0) (r := main_v511) (by decide)).trans (k17_20 V0)
theorem k17_22 (V0 : Valuation τ sig (Elt F)) : lev22 V0 (Proc.devRef .tc main_v511) = lev18 V0 (Proc.devRef .tc main_v511) := (filt21_keep (lev21 V0) (r := main_v511) (by decide)).trans (k17_21 V0)
theorem k17_23 (V0 : Valuation τ sig (Elt F)) : lev23 V0 (Proc.devRef .tc main_v511) = lev18 V0 (Proc.devRef .tc main_v511) := (filt22_keep (lev22 V0) (r := main_v511) (by decide)).trans (k17_22 V0)
theorem k17_24 (V0 : Valuation τ sig (Elt F)) : lev24 V0 (Proc.devRef .tc main_v511) = lev18 V0 (Proc.devRef .tc main_v511) := (filt23_keep (lev23 V0) (r := main_v511) (by decide)).trans (k17_23 V0)
theorem k17_25 (V0 : Valuation τ sig (Elt F)) : lev25 V0 (Proc.devRef .tc main_v511) = lev18 V0 (Proc.devRef .tc main_v511) := (filt24_keep (lev24 V0) (r := main_v511) (by decide)).trans (k17_24 V0)
theorem k17_26 (V0 : Valuation τ sig (Elt F)) : lev26 V0 (Proc.devRef .tc main_v511) = lev18 V0 (Proc.devRef .tc main_v511) := (filt25_keep (lev25 V0) (r := main_v511) (by decide)).trans (k17_25 V0)
theorem k17_27 (V0 : Valuation τ sig (Elt F)) : lev27 V0 (Proc.devRef .tc main_v511) = lev18 V0 (Proc.devRef .tc main_v511) := (filt26_keep (lev26 V0) (r := main_v511) (by decide)).trans (k17_26 V0)
theorem k17_28 (V0 : Valuation τ sig (Elt F)) : lev28 V0 (Proc.devRef .tc main_v511) = lev18 V0 (Proc.devRef .tc main_v511) := (filt27_keep (lev27 V0) (r := main_v511) (by decide)).trans (k17_27 V0)
theorem k17_29 (V0 : Valuation τ sig (Elt F)) : lev29 V0 (Proc.devRef .tc main_v511) = lev18 V0 (Proc.devRef .tc main_v511) := (filt28_keep (lev28 V0) (r := main_v511) (by decide)).trans (k17_28 V0)
theorem k17_30 (V0 : Valuation τ sig (Elt F)) : lev30 V0 (Proc.devRef .tc main_v511) = lev18 V0 (Proc.devRef .tc main_v511) := (filt29_keep (lev29 V0) (r := main_v511) (by decide)).trans (k17_29 V0)
theorem k17_31 (V0 : Valuation τ sig (Elt F)) : lev31 V0 (Proc.devRef .tc main_v511) = lev18 V0 (Proc.devRef .tc main_v511) := (filt30_keep (lev30 V0) (r := main_v511) (by decide)).trans (k17_30 V0)
theorem k17_32 (V0 : Valuation τ sig (Elt F)) : lev32 V0 (Proc.devRef .tc main_v511) = lev18 V0 (Proc.devRef .tc main_v511) := (filt31_keep (lev31 V0) (r := main_v511) (by decide)).trans (k17_31 V0)
theorem k17_33 (V0 : Valuation τ sig (Elt F)) : lev33 V0 (Proc.devRef .tc main_v511) = lev18 V0 (Proc.devRef .tc main_v511) := (filt32_keep (lev32 V0) (r := main_v511) (by decide)).trans (k17_32 V0)
theorem k17_34 (V0 : Valuation τ sig (Elt F)) : lev34 V0 (Proc.devRef .tc main_v511) = lev18 V0 (Proc.devRef .tc main_v511) := (filt33_keep (lev33 V0) (r := main_v511) (by decide)).trans (k17_33 V0)
theorem k17_35 (V0 : Valuation τ sig (Elt F)) : lev35 V0 (Proc.devRef .tc main_v511) = lev18 V0 (Proc.devRef .tc main_v511) := (filt34_keep (lev34 V0) (r := main_v511) (by decide)).trans (k17_34 V0)
theorem k17_36 (V0 : Valuation τ sig (Elt F)) : lev36 V0 (Proc.devRef .tc main_v511) = lev18 V0 (Proc.devRef .tc main_v511) := (filt35_keep (lev35 V0) (r := main_v511) (by decide)).trans (k17_35 V0)
theorem k17_37 (V0 : Valuation τ sig (Elt F)) : lev37 V0 (Proc.devRef .tc main_v511) = lev18 V0 (Proc.devRef .tc main_v511) := (filt36_keep (lev36 V0) (r := main_v511) (by decide)).trans (k17_36 V0)
theorem k17_38 (V0 : Valuation τ sig (Elt F)) : lev38 V0 (Proc.devRef .tc main_v511) = lev18 V0 (Proc.devRef .tc main_v511) := (filt37_keep (lev37 V0) (r := main_v511) (by decide)).trans (k17_37 V0)
theorem k17_39 (V0 : Valuation τ sig (Elt F)) : lev39 V0 (Proc.devRef .tc main_v511) = lev18 V0 (Proc.devRef .tc main_v511) := (filt38_keep (lev38 V0) (r := main_v511) (by decide)).trans (k17_38 V0)
theorem k17_40 (V0 : Valuation τ sig (Elt F)) : lev40 V0 (Proc.devRef .tc main_v511) = lev18 V0 (Proc.devRef .tc main_v511) := (filt39_keep (lev39 V0) (r := main_v511) (by decide)).trans (k17_39 V0)
theorem k17_41 (V0 : Valuation τ sig (Elt F)) : lev41 V0 (Proc.devRef .tc main_v511) = lev18 V0 (Proc.devRef .tc main_v511) := (filt40_keep (lev40 V0) (r := main_v511) (by decide)).trans (k17_40 V0)
theorem k17_42 (V0 : Valuation τ sig (Elt F)) : lev42 V0 (Proc.devRef .tc main_v511) = lev18 V0 (Proc.devRef .tc main_v511) := (filt41_keep (lev41 V0) (r := main_v511) (by decide)).trans (k17_41 V0)
theorem k17_43 (V0 : Valuation τ sig (Elt F)) : lev43 V0 (Proc.devRef .tc main_v511) = lev18 V0 (Proc.devRef .tc main_v511) := (filt42_keep (lev42 V0) (r := main_v511) (by decide)).trans (k17_42 V0)
theorem k17_44 (V0 : Valuation τ sig (Elt F)) : lev44 V0 (Proc.devRef .tc main_v511) = lev18 V0 (Proc.devRef .tc main_v511) := (filt43_keep (lev43 V0) (r := main_v511) (by decide)).trans (k17_43 V0)
theorem k17_45 (V0 : Valuation τ sig (Elt F)) : lev45 V0 (Proc.devRef .tc main_v511) = lev18 V0 (Proc.devRef .tc main_v511) := (filt44_keep (lev44 V0) (r := main_v511) (by decide)).trans (k17_44 V0)
theorem k17_46 (V0 : Valuation τ sig (Elt F)) : lev46 V0 (Proc.devRef .tc main_v511) = lev18 V0 (Proc.devRef .tc main_v511) := (filt45_keep (lev45 V0) (r := main_v511) (by decide)).trans (k17_45 V0)
theorem k17_47 (V0 : Valuation τ sig (Elt F)) : lev47 V0 (Proc.devRef .tc main_v511) = lev18 V0 (Proc.devRef .tc main_v511) := (filt46_keep (lev46 V0) (r := main_v511) (by decide)).trans (k17_46 V0)
theorem k17_48 (V0 : Valuation τ sig (Elt F)) : lev48 V0 (Proc.devRef .tc main_v511) = lev18 V0 (Proc.devRef .tc main_v511) := (filt47_keep (lev47 V0) (r := main_v511) (by decide)).trans (k17_47 V0)
theorem k17_49 (V0 : Valuation τ sig (Elt F)) : lev49 V0 (Proc.devRef .tc main_v511) = lev18 V0 (Proc.devRef .tc main_v511) := (filt48_keep (lev48 V0) (r := main_v511) (by decide)).trans (k17_48 V0)
theorem k17_50 (V0 : Valuation τ sig (Elt F)) : lev50 V0 (Proc.devRef .tc main_v511) = lev18 V0 (Proc.devRef .tc main_v511) := (filt49_keep (lev49 V0) (r := main_v511) (by decide)).trans (k17_49 V0)
theorem k17_51 (V0 : Valuation τ sig (Elt F)) : lev51 V0 (Proc.devRef .tc main_v511) = lev18 V0 (Proc.devRef .tc main_v511) := (filt50_keep (lev50 V0) (r := main_v511) (by decide)).trans (k17_50 V0)
theorem k17_52 (V0 : Valuation τ sig (Elt F)) : lev52 V0 (Proc.devRef .tc main_v511) = lev18 V0 (Proc.devRef .tc main_v511) := (filt51_keep (lev51 V0) (r := main_v511) (by decide)).trans (k17_51 V0)
theorem k17_53 (V0 : Valuation τ sig (Elt F)) : lev53 V0 (Proc.devRef .tc main_v511) = lev18 V0 (Proc.devRef .tc main_v511) := (filt52_keep (lev52 V0) (r := main_v511) (by decide)).trans (k17_52 V0)
theorem k17_54 (V0 : Valuation τ sig (Elt F)) : lev54 V0 (Proc.devRef .tc main_v511) = lev18 V0 (Proc.devRef .tc main_v511) := (filt53_keep (lev53 V0) (r := main_v511) (by decide)).trans (k17_53 V0)
theorem k17_55 (V0 : Valuation τ sig (Elt F)) : lev55 V0 (Proc.devRef .tc main_v511) = lev18 V0 (Proc.devRef .tc main_v511) := (filt54_keep (lev54 V0) (r := main_v511) (by decide)).trans (k17_54 V0)
theorem k17_56 (V0 : Valuation τ sig (Elt F)) : lev56 V0 (Proc.devRef .tc main_v511) = lev18 V0 (Proc.devRef .tc main_v511) := (filt55_keep (lev55 V0) (r := main_v511) (by decide)).trans (k17_55 V0)
theorem k17_57 (V0 : Valuation τ sig (Elt F)) : lev57 V0 (Proc.devRef .tc main_v511) = lev18 V0 (Proc.devRef .tc main_v511) := (filt56_keep (lev56 V0) (r := main_v511) (by decide)).trans (k17_56 V0)
theorem k17_58 (V0 : Valuation τ sig (Elt F)) : lev58 V0 (Proc.devRef .tc main_v511) = lev18 V0 (Proc.devRef .tc main_v511) := (filt57_keep (lev57 V0) (r := main_v511) (by decide)).trans (k17_57 V0)
theorem k17_59 (V0 : Valuation τ sig (Elt F)) : lev59 V0 (Proc.devRef .tc main_v511) = lev18 V0 (Proc.devRef .tc main_v511) := (filt58_keep (lev58 V0) (r := main_v511) (by decide)).trans (k17_58 V0)
theorem k17_60 (V0 : Valuation τ sig (Elt F)) : lev60 V0 (Proc.devRef .tc main_v511) = lev18 V0 (Proc.devRef .tc main_v511) := (filt59_keep (lev59 V0) (r := main_v511) (by decide)).trans (k17_59 V0)
theorem k17_61 (V0 : Valuation τ sig (Elt F)) : lev61 V0 (Proc.devRef .tc main_v511) = lev18 V0 (Proc.devRef .tc main_v511) := (filt60_keep (lev60 V0) (r := main_v511) (by decide)).trans (k17_60 V0)
theorem k17_62 (V0 : Valuation τ sig (Elt F)) : lev62 V0 (Proc.devRef .tc main_v511) = lev18 V0 (Proc.devRef .tc main_v511) := (filt61_keep (lev61 V0) (r := main_v511) (by decide)).trans (k17_61 V0)
theorem k17_63 (V0 : Valuation τ sig (Elt F)) : lev63 V0 (Proc.devRef .tc main_v511) = lev18 V0 (Proc.devRef .tc main_v511) := (filt62_keep (lev62 V0) (r := main_v511) (by decide)).trans (k17_62 V0)
theorem k17_64 (V0 : Valuation τ sig (Elt F)) : lev64 V0 (Proc.devRef .tc main_v511) = lev18 V0 (Proc.devRef .tc main_v511) := (filt63_keep (lev63 V0) (r := main_v511) (by decide)).trans (k17_63 V0)
theorem k18_20 (V0 : Valuation τ sig (Elt F)) : lev20 V0 (Proc.devRef .tc main_v554) = lev19 V0 (Proc.devRef .tc main_v554) := (filt19_keep (lev19 V0) (r := main_v554) (by decide))
theorem k18_21 (V0 : Valuation τ sig (Elt F)) : lev21 V0 (Proc.devRef .tc main_v554) = lev19 V0 (Proc.devRef .tc main_v554) := (filt20_keep (lev20 V0) (r := main_v554) (by decide)).trans (k18_20 V0)
theorem k18_22 (V0 : Valuation τ sig (Elt F)) : lev22 V0 (Proc.devRef .tc main_v554) = lev19 V0 (Proc.devRef .tc main_v554) := (filt21_keep (lev21 V0) (r := main_v554) (by decide)).trans (k18_21 V0)
theorem k18_23 (V0 : Valuation τ sig (Elt F)) : lev23 V0 (Proc.devRef .tc main_v554) = lev19 V0 (Proc.devRef .tc main_v554) := (filt22_keep (lev22 V0) (r := main_v554) (by decide)).trans (k18_22 V0)
theorem k18_24 (V0 : Valuation τ sig (Elt F)) : lev24 V0 (Proc.devRef .tc main_v554) = lev19 V0 (Proc.devRef .tc main_v554) := (filt23_keep (lev23 V0) (r := main_v554) (by decide)).trans (k18_23 V0)
theorem k18_25 (V0 : Valuation τ sig (Elt F)) : lev25 V0 (Proc.devRef .tc main_v554) = lev19 V0 (Proc.devRef .tc main_v554) := (filt24_keep (lev24 V0) (r := main_v554) (by decide)).trans (k18_24 V0)
theorem k18_26 (V0 : Valuation τ sig (Elt F)) : lev26 V0 (Proc.devRef .tc main_v554) = lev19 V0 (Proc.devRef .tc main_v554) := (filt25_keep (lev25 V0) (r := main_v554) (by decide)).trans (k18_25 V0)
theorem k18_27 (V0 : Valuation τ sig (Elt F)) : lev27 V0 (Proc.devRef .tc main_v554) = lev19 V0 (Proc.devRef .tc main_v554) := (filt26_keep (lev26 V0) (r := main_v554) (by decide)).trans (k18_26 V0)
theorem k18_28 (V0 : Valuation τ sig (Elt F)) : lev28 V0 (Proc.devRef .tc main_v554) = lev19 V0 (Proc.devRef .tc main_v554) := (filt27_keep (lev27 V0) (r := main_v554) (by decide)).trans (k18_27 V0)
theorem k18_29 (V0 : Valuation τ sig (Elt F)) : lev29 V0 (Proc.devRef .tc main_v554) = lev19 V0 (Proc.devRef .tc main_v554) := (filt28_keep (lev28 V0) (r := main_v554) (by decide)).trans (k18_28 V0)
theorem k18_30 (V0 : Valuation τ sig (Elt F)) : lev30 V0 (Proc.devRef .tc main_v554) = lev19 V0 (Proc.devRef .tc main_v554) := (filt29_keep (lev29 V0) (r := main_v554) (by decide)).trans (k18_29 V0)
theorem k18_31 (V0 : Valuation τ sig (Elt F)) : lev31 V0 (Proc.devRef .tc main_v554) = lev19 V0 (Proc.devRef .tc main_v554) := (filt30_keep (lev30 V0) (r := main_v554) (by decide)).trans (k18_30 V0)
theorem k18_32 (V0 : Valuation τ sig (Elt F)) : lev32 V0 (Proc.devRef .tc main_v554) = lev19 V0 (Proc.devRef .tc main_v554) := (filt31_keep (lev31 V0) (r := main_v554) (by decide)).trans (k18_31 V0)
theorem k18_33 (V0 : Valuation τ sig (Elt F)) : lev33 V0 (Proc.devRef .tc main_v554) = lev19 V0 (Proc.devRef .tc main_v554) := (filt32_keep (lev32 V0) (r := main_v554) (by decide)).trans (k18_32 V0)
theorem k18_34 (V0 : Valuation τ sig (Elt F)) : lev34 V0 (Proc.devRef .tc main_v554) = lev19 V0 (Proc.devRef .tc main_v554) := (filt33_keep (lev33 V0) (r := main_v554) (by decide)).trans (k18_33 V0)
theorem k18_35 (V0 : Valuation τ sig (Elt F)) : lev35 V0 (Proc.devRef .tc main_v554) = lev19 V0 (Proc.devRef .tc main_v554) := (filt34_keep (lev34 V0) (r := main_v554) (by decide)).trans (k18_34 V0)
theorem k18_36 (V0 : Valuation τ sig (Elt F)) : lev36 V0 (Proc.devRef .tc main_v554) = lev19 V0 (Proc.devRef .tc main_v554) := (filt35_keep (lev35 V0) (r := main_v554) (by decide)).trans (k18_35 V0)
theorem k18_37 (V0 : Valuation τ sig (Elt F)) : lev37 V0 (Proc.devRef .tc main_v554) = lev19 V0 (Proc.devRef .tc main_v554) := (filt36_keep (lev36 V0) (r := main_v554) (by decide)).trans (k18_36 V0)
theorem k18_38 (V0 : Valuation τ sig (Elt F)) : lev38 V0 (Proc.devRef .tc main_v554) = lev19 V0 (Proc.devRef .tc main_v554) := (filt37_keep (lev37 V0) (r := main_v554) (by decide)).trans (k18_37 V0)
theorem k18_39 (V0 : Valuation τ sig (Elt F)) : lev39 V0 (Proc.devRef .tc main_v554) = lev19 V0 (Proc.devRef .tc main_v554) := (filt38_keep (lev38 V0) (r := main_v554) (by decide)).trans (k18_38 V0)
theorem k18_40 (V0 : Valuation τ sig (Elt F)) : lev40 V0 (Proc.devRef .tc main_v554) = lev19 V0 (Proc.devRef .tc main_v554) := (filt39_keep (lev39 V0) (r := main_v554) (by decide)).trans (k18_39 V0)
theorem k18_41 (V0 : Valuation τ sig (Elt F)) : lev41 V0 (Proc.devRef .tc main_v554) = lev19 V0 (Proc.devRef .tc main_v554) := (filt40_keep (lev40 V0) (r := main_v554) (by decide)).trans (k18_40 V0)
theorem k18_42 (V0 : Valuation τ sig (Elt F)) : lev42 V0 (Proc.devRef .tc main_v554) = lev19 V0 (Proc.devRef .tc main_v554) := (filt41_keep (lev41 V0) (r := main_v554) (by decide)).trans (k18_41 V0)
theorem k18_43 (V0 : Valuation τ sig (Elt F)) : lev43 V0 (Proc.devRef .tc main_v554) = lev19 V0 (Proc.devRef .tc main_v554) := (filt42_keep (lev42 V0) (r := main_v554) (by decide)).trans (k18_42 V0)
theorem k18_44 (V0 : Valuation τ sig (Elt F)) : lev44 V0 (Proc.devRef .tc main_v554) = lev19 V0 (Proc.devRef .tc main_v554) := (filt43_keep (lev43 V0) (r := main_v554) (by decide)).trans (k18_43 V0)
theorem k18_45 (V0 : Valuation τ sig (Elt F)) : lev45 V0 (Proc.devRef .tc main_v554) = lev19 V0 (Proc.devRef .tc main_v554) := (filt44_keep (lev44 V0) (r := main_v554) (by decide)).trans (k18_44 V0)
theorem k18_46 (V0 : Valuation τ sig (Elt F)) : lev46 V0 (Proc.devRef .tc main_v554) = lev19 V0 (Proc.devRef .tc main_v554) := (filt45_keep (lev45 V0) (r := main_v554) (by decide)).trans (k18_45 V0)
theorem k18_47 (V0 : Valuation τ sig (Elt F)) : lev47 V0 (Proc.devRef .tc main_v554) = lev19 V0 (Proc.devRef .tc main_v554) := (filt46_keep (lev46 V0) (r := main_v554) (by decide)).trans (k18_46 V0)
theorem k18_48 (V0 : Valuation τ sig (Elt F)) : lev48 V0 (Proc.devRef .tc main_v554) = lev19 V0 (Proc.devRef .tc main_v554) := (filt47_keep (lev47 V0) (r := main_v554) (by decide)).trans (k18_47 V0)
theorem k18_49 (V0 : Valuation τ sig (Elt F)) : lev49 V0 (Proc.devRef .tc main_v554) = lev19 V0 (Proc.devRef .tc main_v554) := (filt48_keep (lev48 V0) (r := main_v554) (by decide)).trans (k18_48 V0)
theorem k18_50 (V0 : Valuation τ sig (Elt F)) : lev50 V0 (Proc.devRef .tc main_v554) = lev19 V0 (Proc.devRef .tc main_v554) := (filt49_keep (lev49 V0) (r := main_v554) (by decide)).trans (k18_49 V0)
theorem k18_51 (V0 : Valuation τ sig (Elt F)) : lev51 V0 (Proc.devRef .tc main_v554) = lev19 V0 (Proc.devRef .tc main_v554) := (filt50_keep (lev50 V0) (r := main_v554) (by decide)).trans (k18_50 V0)
theorem k18_52 (V0 : Valuation τ sig (Elt F)) : lev52 V0 (Proc.devRef .tc main_v554) = lev19 V0 (Proc.devRef .tc main_v554) := (filt51_keep (lev51 V0) (r := main_v554) (by decide)).trans (k18_51 V0)
theorem k18_53 (V0 : Valuation τ sig (Elt F)) : lev53 V0 (Proc.devRef .tc main_v554) = lev19 V0 (Proc.devRef .tc main_v554) := (filt52_keep (lev52 V0) (r := main_v554) (by decide)).trans (k18_52 V0)
theorem k18_54 (V0 : Valuation τ sig (Elt F)) : lev54 V0 (Proc.devRef .tc main_v554) = lev19 V0 (Proc.devRef .tc main_v554) := (filt53_keep (lev53 V0) (r := main_v554) (by decide)).trans (k18_53 V0)
theorem k18_55 (V0 : Valuation τ sig (Elt F)) : lev55 V0 (Proc.devRef .tc main_v554) = lev19 V0 (Proc.devRef .tc main_v554) := (filt54_keep (lev54 V0) (r := main_v554) (by decide)).trans (k18_54 V0)
theorem k18_56 (V0 : Valuation τ sig (Elt F)) : lev56 V0 (Proc.devRef .tc main_v554) = lev19 V0 (Proc.devRef .tc main_v554) := (filt55_keep (lev55 V0) (r := main_v554) (by decide)).trans (k18_55 V0)
theorem k18_57 (V0 : Valuation τ sig (Elt F)) : lev57 V0 (Proc.devRef .tc main_v554) = lev19 V0 (Proc.devRef .tc main_v554) := (filt56_keep (lev56 V0) (r := main_v554) (by decide)).trans (k18_56 V0)
theorem k18_58 (V0 : Valuation τ sig (Elt F)) : lev58 V0 (Proc.devRef .tc main_v554) = lev19 V0 (Proc.devRef .tc main_v554) := (filt57_keep (lev57 V0) (r := main_v554) (by decide)).trans (k18_57 V0)
theorem k18_59 (V0 : Valuation τ sig (Elt F)) : lev59 V0 (Proc.devRef .tc main_v554) = lev19 V0 (Proc.devRef .tc main_v554) := (filt58_keep (lev58 V0) (r := main_v554) (by decide)).trans (k18_58 V0)
theorem k18_60 (V0 : Valuation τ sig (Elt F)) : lev60 V0 (Proc.devRef .tc main_v554) = lev19 V0 (Proc.devRef .tc main_v554) := (filt59_keep (lev59 V0) (r := main_v554) (by decide)).trans (k18_59 V0)
theorem k18_61 (V0 : Valuation τ sig (Elt F)) : lev61 V0 (Proc.devRef .tc main_v554) = lev19 V0 (Proc.devRef .tc main_v554) := (filt60_keep (lev60 V0) (r := main_v554) (by decide)).trans (k18_60 V0)
theorem k18_62 (V0 : Valuation τ sig (Elt F)) : lev62 V0 (Proc.devRef .tc main_v554) = lev19 V0 (Proc.devRef .tc main_v554) := (filt61_keep (lev61 V0) (r := main_v554) (by decide)).trans (k18_61 V0)
theorem k18_63 (V0 : Valuation τ sig (Elt F)) : lev63 V0 (Proc.devRef .tc main_v554) = lev19 V0 (Proc.devRef .tc main_v554) := (filt62_keep (lev62 V0) (r := main_v554) (by decide)).trans (k18_62 V0)
theorem k18_64 (V0 : Valuation τ sig (Elt F)) : lev64 V0 (Proc.devRef .tc main_v554) = lev19 V0 (Proc.devRef .tc main_v554) := (filt63_keep (lev63 V0) (r := main_v554) (by decide)).trans (k18_63 V0)
theorem k19_21 (V0 : Valuation τ sig (Elt F)) : lev21 V0 (Proc.devRef .tc main_v597) = lev20 V0 (Proc.devRef .tc main_v597) := (filt20_keep (lev20 V0) (r := main_v597) (by decide))
theorem k19_22 (V0 : Valuation τ sig (Elt F)) : lev22 V0 (Proc.devRef .tc main_v597) = lev20 V0 (Proc.devRef .tc main_v597) := (filt21_keep (lev21 V0) (r := main_v597) (by decide)).trans (k19_21 V0)
theorem k19_23 (V0 : Valuation τ sig (Elt F)) : lev23 V0 (Proc.devRef .tc main_v597) = lev20 V0 (Proc.devRef .tc main_v597) := (filt22_keep (lev22 V0) (r := main_v597) (by decide)).trans (k19_22 V0)
theorem k19_24 (V0 : Valuation τ sig (Elt F)) : lev24 V0 (Proc.devRef .tc main_v597) = lev20 V0 (Proc.devRef .tc main_v597) := (filt23_keep (lev23 V0) (r := main_v597) (by decide)).trans (k19_23 V0)
theorem k19_25 (V0 : Valuation τ sig (Elt F)) : lev25 V0 (Proc.devRef .tc main_v597) = lev20 V0 (Proc.devRef .tc main_v597) := (filt24_keep (lev24 V0) (r := main_v597) (by decide)).trans (k19_24 V0)
theorem k19_26 (V0 : Valuation τ sig (Elt F)) : lev26 V0 (Proc.devRef .tc main_v597) = lev20 V0 (Proc.devRef .tc main_v597) := (filt25_keep (lev25 V0) (r := main_v597) (by decide)).trans (k19_25 V0)
theorem k19_27 (V0 : Valuation τ sig (Elt F)) : lev27 V0 (Proc.devRef .tc main_v597) = lev20 V0 (Proc.devRef .tc main_v597) := (filt26_keep (lev26 V0) (r := main_v597) (by decide)).trans (k19_26 V0)
theorem k19_28 (V0 : Valuation τ sig (Elt F)) : lev28 V0 (Proc.devRef .tc main_v597) = lev20 V0 (Proc.devRef .tc main_v597) := (filt27_keep (lev27 V0) (r := main_v597) (by decide)).trans (k19_27 V0)
theorem k19_29 (V0 : Valuation τ sig (Elt F)) : lev29 V0 (Proc.devRef .tc main_v597) = lev20 V0 (Proc.devRef .tc main_v597) := (filt28_keep (lev28 V0) (r := main_v597) (by decide)).trans (k19_28 V0)
theorem k19_30 (V0 : Valuation τ sig (Elt F)) : lev30 V0 (Proc.devRef .tc main_v597) = lev20 V0 (Proc.devRef .tc main_v597) := (filt29_keep (lev29 V0) (r := main_v597) (by decide)).trans (k19_29 V0)
theorem k19_31 (V0 : Valuation τ sig (Elt F)) : lev31 V0 (Proc.devRef .tc main_v597) = lev20 V0 (Proc.devRef .tc main_v597) := (filt30_keep (lev30 V0) (r := main_v597) (by decide)).trans (k19_30 V0)
theorem k19_32 (V0 : Valuation τ sig (Elt F)) : lev32 V0 (Proc.devRef .tc main_v597) = lev20 V0 (Proc.devRef .tc main_v597) := (filt31_keep (lev31 V0) (r := main_v597) (by decide)).trans (k19_31 V0)
theorem k19_33 (V0 : Valuation τ sig (Elt F)) : lev33 V0 (Proc.devRef .tc main_v597) = lev20 V0 (Proc.devRef .tc main_v597) := (filt32_keep (lev32 V0) (r := main_v597) (by decide)).trans (k19_32 V0)
theorem k19_34 (V0 : Valuation τ sig (Elt F)) : lev34 V0 (Proc.devRef .tc main_v597) = lev20 V0 (Proc.devRef .tc main_v597) := (filt33_keep (lev33 V0) (r := main_v597) (by decide)).trans (k19_33 V0)
theorem k19_35 (V0 : Valuation τ sig (Elt F)) : lev35 V0 (Proc.devRef .tc main_v597) = lev20 V0 (Proc.devRef .tc main_v597) := (filt34_keep (lev34 V0) (r := main_v597) (by decide)).trans (k19_34 V0)
theorem k19_36 (V0 : Valuation τ sig (Elt F)) : lev36 V0 (Proc.devRef .tc main_v597) = lev20 V0 (Proc.devRef .tc main_v597) := (filt35_keep (lev35 V0) (r := main_v597) (by decide)).trans (k19_35 V0)
theorem k19_37 (V0 : Valuation τ sig (Elt F)) : lev37 V0 (Proc.devRef .tc main_v597) = lev20 V0 (Proc.devRef .tc main_v597) := (filt36_keep (lev36 V0) (r := main_v597) (by decide)).trans (k19_36 V0)
theorem k19_38 (V0 : Valuation τ sig (Elt F)) : lev38 V0 (Proc.devRef .tc main_v597) = lev20 V0 (Proc.devRef .tc main_v597) := (filt37_keep (lev37 V0) (r := main_v597) (by decide)).trans (k19_37 V0)
theorem k19_39 (V0 : Valuation τ sig (Elt F)) : lev39 V0 (Proc.devRef .tc main_v597) = lev20 V0 (Proc.devRef .tc main_v597) := (filt38_keep (lev38 V0) (r := main_v597) (by decide)).trans (k19_38 V0)
theorem k19_40 (V0 : Valuation τ sig (Elt F)) : lev40 V0 (Proc.devRef .tc main_v597) = lev20 V0 (Proc.devRef .tc main_v597) := (filt39_keep (lev39 V0) (r := main_v597) (by decide)).trans (k19_39 V0)
theorem k19_41 (V0 : Valuation τ sig (Elt F)) : lev41 V0 (Proc.devRef .tc main_v597) = lev20 V0 (Proc.devRef .tc main_v597) := (filt40_keep (lev40 V0) (r := main_v597) (by decide)).trans (k19_40 V0)
theorem k19_42 (V0 : Valuation τ sig (Elt F)) : lev42 V0 (Proc.devRef .tc main_v597) = lev20 V0 (Proc.devRef .tc main_v597) := (filt41_keep (lev41 V0) (r := main_v597) (by decide)).trans (k19_41 V0)
theorem k19_43 (V0 : Valuation τ sig (Elt F)) : lev43 V0 (Proc.devRef .tc main_v597) = lev20 V0 (Proc.devRef .tc main_v597) := (filt42_keep (lev42 V0) (r := main_v597) (by decide)).trans (k19_42 V0)
theorem k19_44 (V0 : Valuation τ sig (Elt F)) : lev44 V0 (Proc.devRef .tc main_v597) = lev20 V0 (Proc.devRef .tc main_v597) := (filt43_keep (lev43 V0) (r := main_v597) (by decide)).trans (k19_43 V0)
theorem k19_45 (V0 : Valuation τ sig (Elt F)) : lev45 V0 (Proc.devRef .tc main_v597) = lev20 V0 (Proc.devRef .tc main_v597) := (filt44_keep (lev44 V0) (r := main_v597) (by decide)).trans (k19_44 V0)
theorem k19_46 (V0 : Valuation τ sig (Elt F)) : lev46 V0 (Proc.devRef .tc main_v597) = lev20 V0 (Proc.devRef .tc main_v597) := (filt45_keep (lev45 V0) (r := main_v597) (by decide)).trans (k19_45 V0)
theorem k19_47 (V0 : Valuation τ sig (Elt F)) : lev47 V0 (Proc.devRef .tc main_v597) = lev20 V0 (Proc.devRef .tc main_v597) := (filt46_keep (lev46 V0) (r := main_v597) (by decide)).trans (k19_46 V0)
theorem k19_48 (V0 : Valuation τ sig (Elt F)) : lev48 V0 (Proc.devRef .tc main_v597) = lev20 V0 (Proc.devRef .tc main_v597) := (filt47_keep (lev47 V0) (r := main_v597) (by decide)).trans (k19_47 V0)
theorem k19_49 (V0 : Valuation τ sig (Elt F)) : lev49 V0 (Proc.devRef .tc main_v597) = lev20 V0 (Proc.devRef .tc main_v597) := (filt48_keep (lev48 V0) (r := main_v597) (by decide)).trans (k19_48 V0)
theorem k19_50 (V0 : Valuation τ sig (Elt F)) : lev50 V0 (Proc.devRef .tc main_v597) = lev20 V0 (Proc.devRef .tc main_v597) := (filt49_keep (lev49 V0) (r := main_v597) (by decide)).trans (k19_49 V0)
theorem k19_51 (V0 : Valuation τ sig (Elt F)) : lev51 V0 (Proc.devRef .tc main_v597) = lev20 V0 (Proc.devRef .tc main_v597) := (filt50_keep (lev50 V0) (r := main_v597) (by decide)).trans (k19_50 V0)
theorem k19_52 (V0 : Valuation τ sig (Elt F)) : lev52 V0 (Proc.devRef .tc main_v597) = lev20 V0 (Proc.devRef .tc main_v597) := (filt51_keep (lev51 V0) (r := main_v597) (by decide)).trans (k19_51 V0)
theorem k19_53 (V0 : Valuation τ sig (Elt F)) : lev53 V0 (Proc.devRef .tc main_v597) = lev20 V0 (Proc.devRef .tc main_v597) := (filt52_keep (lev52 V0) (r := main_v597) (by decide)).trans (k19_52 V0)
theorem k19_54 (V0 : Valuation τ sig (Elt F)) : lev54 V0 (Proc.devRef .tc main_v597) = lev20 V0 (Proc.devRef .tc main_v597) := (filt53_keep (lev53 V0) (r := main_v597) (by decide)).trans (k19_53 V0)
theorem k19_55 (V0 : Valuation τ sig (Elt F)) : lev55 V0 (Proc.devRef .tc main_v597) = lev20 V0 (Proc.devRef .tc main_v597) := (filt54_keep (lev54 V0) (r := main_v597) (by decide)).trans (k19_54 V0)
theorem k19_56 (V0 : Valuation τ sig (Elt F)) : lev56 V0 (Proc.devRef .tc main_v597) = lev20 V0 (Proc.devRef .tc main_v597) := (filt55_keep (lev55 V0) (r := main_v597) (by decide)).trans (k19_55 V0)
theorem k19_57 (V0 : Valuation τ sig (Elt F)) : lev57 V0 (Proc.devRef .tc main_v597) = lev20 V0 (Proc.devRef .tc main_v597) := (filt56_keep (lev56 V0) (r := main_v597) (by decide)).trans (k19_56 V0)
theorem k19_58 (V0 : Valuation τ sig (Elt F)) : lev58 V0 (Proc.devRef .tc main_v597) = lev20 V0 (Proc.devRef .tc main_v597) := (filt57_keep (lev57 V0) (r := main_v597) (by decide)).trans (k19_57 V0)
theorem k19_59 (V0 : Valuation τ sig (Elt F)) : lev59 V0 (Proc.devRef .tc main_v597) = lev20 V0 (Proc.devRef .tc main_v597) := (filt58_keep (lev58 V0) (r := main_v597) (by decide)).trans (k19_58 V0)
theorem k19_60 (V0 : Valuation τ sig (Elt F)) : lev60 V0 (Proc.devRef .tc main_v597) = lev20 V0 (Proc.devRef .tc main_v597) := (filt59_keep (lev59 V0) (r := main_v597) (by decide)).trans (k19_59 V0)
theorem k19_61 (V0 : Valuation τ sig (Elt F)) : lev61 V0 (Proc.devRef .tc main_v597) = lev20 V0 (Proc.devRef .tc main_v597) := (filt60_keep (lev60 V0) (r := main_v597) (by decide)).trans (k19_60 V0)
theorem k19_62 (V0 : Valuation τ sig (Elt F)) : lev62 V0 (Proc.devRef .tc main_v597) = lev20 V0 (Proc.devRef .tc main_v597) := (filt61_keep (lev61 V0) (r := main_v597) (by decide)).trans (k19_61 V0)
theorem k19_63 (V0 : Valuation τ sig (Elt F)) : lev63 V0 (Proc.devRef .tc main_v597) = lev20 V0 (Proc.devRef .tc main_v597) := (filt62_keep (lev62 V0) (r := main_v597) (by decide)).trans (k19_62 V0)
theorem k19_64 (V0 : Valuation τ sig (Elt F)) : lev64 V0 (Proc.devRef .tc main_v597) = lev20 V0 (Proc.devRef .tc main_v597) := (filt63_keep (lev63 V0) (r := main_v597) (by decide)).trans (k19_63 V0)
theorem k20_22 (V0 : Valuation τ sig (Elt F)) : lev22 V0 (Proc.devRef .tc main_v643) = lev21 V0 (Proc.devRef .tc main_v643) := (filt21_keep (lev21 V0) (r := main_v643) (by decide))
theorem k20_23 (V0 : Valuation τ sig (Elt F)) : lev23 V0 (Proc.devRef .tc main_v643) = lev21 V0 (Proc.devRef .tc main_v643) := (filt22_keep (lev22 V0) (r := main_v643) (by decide)).trans (k20_22 V0)
theorem k20_24 (V0 : Valuation τ sig (Elt F)) : lev24 V0 (Proc.devRef .tc main_v643) = lev21 V0 (Proc.devRef .tc main_v643) := (filt23_keep (lev23 V0) (r := main_v643) (by decide)).trans (k20_23 V0)
theorem k20_25 (V0 : Valuation τ sig (Elt F)) : lev25 V0 (Proc.devRef .tc main_v643) = lev21 V0 (Proc.devRef .tc main_v643) := (filt24_keep (lev24 V0) (r := main_v643) (by decide)).trans (k20_24 V0)
theorem k20_26 (V0 : Valuation τ sig (Elt F)) : lev26 V0 (Proc.devRef .tc main_v643) = lev21 V0 (Proc.devRef .tc main_v643) := (filt25_keep (lev25 V0) (r := main_v643) (by decide)).trans (k20_25 V0)
theorem k20_27 (V0 : Valuation τ sig (Elt F)) : lev27 V0 (Proc.devRef .tc main_v643) = lev21 V0 (Proc.devRef .tc main_v643) := (filt26_keep (lev26 V0) (r := main_v643) (by decide)).trans (k20_26 V0)
theorem k20_28 (V0 : Valuation τ sig (Elt F)) : lev28 V0 (Proc.devRef .tc main_v643) = lev21 V0 (Proc.devRef .tc main_v643) := (filt27_keep (lev27 V0) (r := main_v643) (by decide)).trans (k20_27 V0)
theorem k20_29 (V0 : Valuation τ sig (Elt F)) : lev29 V0 (Proc.devRef .tc main_v643) = lev21 V0 (Proc.devRef .tc main_v643) := (filt28_keep (lev28 V0) (r := main_v643) (by decide)).trans (k20_28 V0)
theorem k20_30 (V0 : Valuation τ sig (Elt F)) : lev30 V0 (Proc.devRef .tc main_v643) = lev21 V0 (Proc.devRef .tc main_v643) := (filt29_keep (lev29 V0) (r := main_v643) (by decide)).trans (k20_29 V0)
theorem k20_31 (V0 : Valuation τ sig (Elt F)) : lev31 V0 (Proc.devRef .tc main_v643) = lev21 V0 (Proc.devRef .tc main_v643) := (filt30_keep (lev30 V0) (r := main_v643) (by decide)).trans (k20_30 V0)
theorem k20_32 (V0 : Valuation τ sig (Elt F)) : lev32 V0 (Proc.devRef .tc main_v643) = lev21 V0 (Proc.devRef .tc main_v643) := (filt31_keep (lev31 V0) (r := main_v643) (by decide)).trans (k20_31 V0)
theorem k20_33 (V0 : Valuation τ sig (Elt F)) : lev33 V0 (Proc.devRef .tc main_v643) = lev21 V0 (Proc.devRef .tc main_v643) := (filt32_keep (lev32 V0) (r := main_v643) (by decide)).trans (k20_32 V0)
theorem k20_34 (V0 : Valuation τ sig (Elt F)) : lev34 V0 (Proc.devRef .tc main_v643) = lev21 V0 (Proc.devRef .tc main_v643) := (filt33_keep (lev33 V0) (r := main_v643) (by decide)).trans (k20_33 V0)
theorem k20_35 (V0 : Valuation τ sig (Elt F)) : lev35 V0 (Proc.devRef .tc main_v643) = lev21 V0 (Proc.devRef .tc main_v643) := (filt34_keep (lev34 V0) (r := main_v643) (by decide)).trans (k20_34 V0)
theorem k20_36 (V0 : Valuation τ sig (Elt F)) : lev36 V0 (Proc.devRef .tc main_v643) = lev21 V0 (Proc.devRef .tc main_v643) := (filt35_keep (lev35 V0) (r := main_v643) (by decide)).trans (k20_35 V0)
theorem k20_37 (V0 : Valuation τ sig (Elt F)) : lev37 V0 (Proc.devRef .tc main_v643) = lev21 V0 (Proc.devRef .tc main_v643) := (filt36_keep (lev36 V0) (r := main_v643) (by decide)).trans (k20_36 V0)
theorem k20_38 (V0 : Valuation τ sig (Elt F)) : lev38 V0 (Proc.devRef .tc main_v643) = lev21 V0 (Proc.devRef .tc main_v643) := (filt37_keep (lev37 V0) (r := main_v643) (by decide)).trans (k20_37 V0)
theorem k20_39 (V0 : Valuation τ sig (Elt F)) : lev39 V0 (Proc.devRef .tc main_v643) = lev21 V0 (Proc.devRef .tc main_v643) := (filt38_keep (lev38 V0) (r := main_v643) (by decide)).trans (k20_38 V0)
theorem k20_40 (V0 : Valuation τ sig (Elt F)) : lev40 V0 (Proc.devRef .tc main_v643) = lev21 V0 (Proc.devRef .tc main_v643) := (filt39_keep (lev39 V0) (r := main_v643) (by decide)).trans (k20_39 V0)
theorem k20_41 (V0 : Valuation τ sig (Elt F)) : lev41 V0 (Proc.devRef .tc main_v643) = lev21 V0 (Proc.devRef .tc main_v643) := (filt40_keep (lev40 V0) (r := main_v643) (by decide)).trans (k20_40 V0)
theorem k20_42 (V0 : Valuation τ sig (Elt F)) : lev42 V0 (Proc.devRef .tc main_v643) = lev21 V0 (Proc.devRef .tc main_v643) := (filt41_keep (lev41 V0) (r := main_v643) (by decide)).trans (k20_41 V0)
theorem k20_43 (V0 : Valuation τ sig (Elt F)) : lev43 V0 (Proc.devRef .tc main_v643) = lev21 V0 (Proc.devRef .tc main_v643) := (filt42_keep (lev42 V0) (r := main_v643) (by decide)).trans (k20_42 V0)
theorem k20_44 (V0 : Valuation τ sig (Elt F)) : lev44 V0 (Proc.devRef .tc main_v643) = lev21 V0 (Proc.devRef .tc main_v643) := (filt43_keep (lev43 V0) (r := main_v643) (by decide)).trans (k20_43 V0)
theorem k20_45 (V0 : Valuation τ sig (Elt F)) : lev45 V0 (Proc.devRef .tc main_v643) = lev21 V0 (Proc.devRef .tc main_v643) := (filt44_keep (lev44 V0) (r := main_v643) (by decide)).trans (k20_44 V0)
theorem k20_46 (V0 : Valuation τ sig (Elt F)) : lev46 V0 (Proc.devRef .tc main_v643) = lev21 V0 (Proc.devRef .tc main_v643) := (filt45_keep (lev45 V0) (r := main_v643) (by decide)).trans (k20_45 V0)
theorem k20_47 (V0 : Valuation τ sig (Elt F)) : lev47 V0 (Proc.devRef .tc main_v643) = lev21 V0 (Proc.devRef .tc main_v643) := (filt46_keep (lev46 V0) (r := main_v643) (by decide)).trans (k20_46 V0)
theorem k20_48 (V0 : Valuation τ sig (Elt F)) : lev48 V0 (Proc.devRef .tc main_v643) = lev21 V0 (Proc.devRef .tc main_v643) := (filt47_keep (lev47 V0) (r := main_v643) (by decide)).trans (k20_47 V0)
theorem k20_49 (V0 : Valuation τ sig (Elt F)) : lev49 V0 (Proc.devRef .tc main_v643) = lev21 V0 (Proc.devRef .tc main_v643) := (filt48_keep (lev48 V0) (r := main_v643) (by decide)).trans (k20_48 V0)
theorem k20_50 (V0 : Valuation τ sig (Elt F)) : lev50 V0 (Proc.devRef .tc main_v643) = lev21 V0 (Proc.devRef .tc main_v643) := (filt49_keep (lev49 V0) (r := main_v643) (by decide)).trans (k20_49 V0)
theorem k20_51 (V0 : Valuation τ sig (Elt F)) : lev51 V0 (Proc.devRef .tc main_v643) = lev21 V0 (Proc.devRef .tc main_v643) := (filt50_keep (lev50 V0) (r := main_v643) (by decide)).trans (k20_50 V0)
theorem k20_52 (V0 : Valuation τ sig (Elt F)) : lev52 V0 (Proc.devRef .tc main_v643) = lev21 V0 (Proc.devRef .tc main_v643) := (filt51_keep (lev51 V0) (r := main_v643) (by decide)).trans (k20_51 V0)
theorem k20_53 (V0 : Valuation τ sig (Elt F)) : lev53 V0 (Proc.devRef .tc main_v643) = lev21 V0 (Proc.devRef .tc main_v643) := (filt52_keep (lev52 V0) (r := main_v643) (by decide)).trans (k20_52 V0)
theorem k20_54 (V0 : Valuation τ sig (Elt F)) : lev54 V0 (Proc.devRef .tc main_v643) = lev21 V0 (Proc.devRef .tc main_v643) := (filt53_keep (lev53 V0) (r := main_v643) (by decide)).trans (k20_53 V0)
theorem k20_55 (V0 : Valuation τ sig (Elt F)) : lev55 V0 (Proc.devRef .tc main_v643) = lev21 V0 (Proc.devRef .tc main_v643) := (filt54_keep (lev54 V0) (r := main_v643) (by decide)).trans (k20_54 V0)
theorem k20_56 (V0 : Valuation τ sig (Elt F)) : lev56 V0 (Proc.devRef .tc main_v643) = lev21 V0 (Proc.devRef .tc main_v643) := (filt55_keep (lev55 V0) (r := main_v643) (by decide)).trans (k20_55 V0)
theorem k20_57 (V0 : Valuation τ sig (Elt F)) : lev57 V0 (Proc.devRef .tc main_v643) = lev21 V0 (Proc.devRef .tc main_v643) := (filt56_keep (lev56 V0) (r := main_v643) (by decide)).trans (k20_56 V0)
theorem k20_58 (V0 : Valuation τ sig (Elt F)) : lev58 V0 (Proc.devRef .tc main_v643) = lev21 V0 (Proc.devRef .tc main_v643) := (filt57_keep (lev57 V0) (r := main_v643) (by decide)).trans (k20_57 V0)
theorem k20_59 (V0 : Valuation τ sig (Elt F)) : lev59 V0 (Proc.devRef .tc main_v643) = lev21 V0 (Proc.devRef .tc main_v643) := (filt58_keep (lev58 V0) (r := main_v643) (by decide)).trans (k20_58 V0)
theorem k20_60 (V0 : Valuation τ sig (Elt F)) : lev60 V0 (Proc.devRef .tc main_v643) = lev21 V0 (Proc.devRef .tc main_v643) := (filt59_keep (lev59 V0) (r := main_v643) (by decide)).trans (k20_59 V0)
theorem k20_61 (V0 : Valuation τ sig (Elt F)) : lev61 V0 (Proc.devRef .tc main_v643) = lev21 V0 (Proc.devRef .tc main_v643) := (filt60_keep (lev60 V0) (r := main_v643) (by decide)).trans (k20_60 V0)
theorem k20_62 (V0 : Valuation τ sig (Elt F)) : lev62 V0 (Proc.devRef .tc main_v643) = lev21 V0 (Proc.devRef .tc main_v643) := (filt61_keep (lev61 V0) (r := main_v643) (by decide)).trans (k20_61 V0)
theorem k20_63 (V0 : Valuation τ sig (Elt F)) : lev63 V0 (Proc.devRef .tc main_v643) = lev21 V0 (Proc.devRef .tc main_v643) := (filt62_keep (lev62 V0) (r := main_v643) (by decide)).trans (k20_62 V0)
theorem k20_64 (V0 : Valuation τ sig (Elt F)) : lev64 V0 (Proc.devRef .tc main_v643) = lev21 V0 (Proc.devRef .tc main_v643) := (filt63_keep (lev63 V0) (r := main_v643) (by decide)).trans (k20_63 V0)
theorem k21_23 (V0 : Valuation τ sig (Elt F)) : lev23 V0 (Proc.devRef .tc main_v689) = lev22 V0 (Proc.devRef .tc main_v689) := (filt22_keep (lev22 V0) (r := main_v689) (by decide))
theorem k21_24 (V0 : Valuation τ sig (Elt F)) : lev24 V0 (Proc.devRef .tc main_v689) = lev22 V0 (Proc.devRef .tc main_v689) := (filt23_keep (lev23 V0) (r := main_v689) (by decide)).trans (k21_23 V0)
theorem k21_25 (V0 : Valuation τ sig (Elt F)) : lev25 V0 (Proc.devRef .tc main_v689) = lev22 V0 (Proc.devRef .tc main_v689) := (filt24_keep (lev24 V0) (r := main_v689) (by decide)).trans (k21_24 V0)
theorem k21_26 (V0 : Valuation τ sig (Elt F)) : lev26 V0 (Proc.devRef .tc main_v689) = lev22 V0 (Proc.devRef .tc main_v689) := (filt25_keep (lev25 V0) (r := main_v689) (by decide)).trans (k21_25 V0)
theorem k21_27 (V0 : Valuation τ sig (Elt F)) : lev27 V0 (Proc.devRef .tc main_v689) = lev22 V0 (Proc.devRef .tc main_v689) := (filt26_keep (lev26 V0) (r := main_v689) (by decide)).trans (k21_26 V0)
theorem k21_28 (V0 : Valuation τ sig (Elt F)) : lev28 V0 (Proc.devRef .tc main_v689) = lev22 V0 (Proc.devRef .tc main_v689) := (filt27_keep (lev27 V0) (r := main_v689) (by decide)).trans (k21_27 V0)
theorem k21_29 (V0 : Valuation τ sig (Elt F)) : lev29 V0 (Proc.devRef .tc main_v689) = lev22 V0 (Proc.devRef .tc main_v689) := (filt28_keep (lev28 V0) (r := main_v689) (by decide)).trans (k21_28 V0)
theorem k21_30 (V0 : Valuation τ sig (Elt F)) : lev30 V0 (Proc.devRef .tc main_v689) = lev22 V0 (Proc.devRef .tc main_v689) := (filt29_keep (lev29 V0) (r := main_v689) (by decide)).trans (k21_29 V0)
theorem k21_31 (V0 : Valuation τ sig (Elt F)) : lev31 V0 (Proc.devRef .tc main_v689) = lev22 V0 (Proc.devRef .tc main_v689) := (filt30_keep (lev30 V0) (r := main_v689) (by decide)).trans (k21_30 V0)
theorem k21_32 (V0 : Valuation τ sig (Elt F)) : lev32 V0 (Proc.devRef .tc main_v689) = lev22 V0 (Proc.devRef .tc main_v689) := (filt31_keep (lev31 V0) (r := main_v689) (by decide)).trans (k21_31 V0)
theorem k21_33 (V0 : Valuation τ sig (Elt F)) : lev33 V0 (Proc.devRef .tc main_v689) = lev22 V0 (Proc.devRef .tc main_v689) := (filt32_keep (lev32 V0) (r := main_v689) (by decide)).trans (k21_32 V0)
theorem k21_34 (V0 : Valuation τ sig (Elt F)) : lev34 V0 (Proc.devRef .tc main_v689) = lev22 V0 (Proc.devRef .tc main_v689) := (filt33_keep (lev33 V0) (r := main_v689) (by decide)).trans (k21_33 V0)
theorem k21_35 (V0 : Valuation τ sig (Elt F)) : lev35 V0 (Proc.devRef .tc main_v689) = lev22 V0 (Proc.devRef .tc main_v689) := (filt34_keep (lev34 V0) (r := main_v689) (by decide)).trans (k21_34 V0)
theorem k21_36 (V0 : Valuation τ sig (Elt F)) : lev36 V0 (Proc.devRef .tc main_v689) = lev22 V0 (Proc.devRef .tc main_v689) := (filt35_keep (lev35 V0) (r := main_v689) (by decide)).trans (k21_35 V0)
theorem k21_37 (V0 : Valuation τ sig (Elt F)) : lev37 V0 (Proc.devRef .tc main_v689) = lev22 V0 (Proc.devRef .tc main_v689) := (filt36_keep (lev36 V0) (r := main_v689) (by decide)).trans (k21_36 V0)
theorem k21_38 (V0 : Valuation τ sig (Elt F)) : lev38 V0 (Proc.devRef .tc main_v689) = lev22 V0 (Proc.devRef .tc main_v689) := (filt37_keep (lev37 V0) (r := main_v689) (by decide)).trans (k21_37 V0)
theorem k21_39 (V0 : Valuation τ sig (Elt F)) : lev39 V0 (Proc.devRef .tc main_v689) = lev22 V0 (Proc.devRef .tc main_v689) := (filt38_keep (lev38 V0) (r := main_v689) (by decide)).trans (k21_38 V0)
theorem k21_40 (V0 : Valuation τ sig (Elt F)) : lev40 V0 (Proc.devRef .tc main_v689) = lev22 V0 (Proc.devRef .tc main_v689) := (filt39_keep (lev39 V0) (r := main_v689) (by decide)).trans (k21_39 V0)
theorem k21_41 (V0 : Valuation τ sig (Elt F)) : lev41 V0 (Proc.devRef .tc main_v689) = lev22 V0 (Proc.devRef .tc main_v689) := (filt40_keep (lev40 V0) (r := main_v689) (by decide)).trans (k21_40 V0)
theorem k21_42 (V0 : Valuation τ sig (Elt F)) : lev42 V0 (Proc.devRef .tc main_v689) = lev22 V0 (Proc.devRef .tc main_v689) := (filt41_keep (lev41 V0) (r := main_v689) (by decide)).trans (k21_41 V0)
theorem k21_43 (V0 : Valuation τ sig (Elt F)) : lev43 V0 (Proc.devRef .tc main_v689) = lev22 V0 (Proc.devRef .tc main_v689) := (filt42_keep (lev42 V0) (r := main_v689) (by decide)).trans (k21_42 V0)
theorem k21_44 (V0 : Valuation τ sig (Elt F)) : lev44 V0 (Proc.devRef .tc main_v689) = lev22 V0 (Proc.devRef .tc main_v689) := (filt43_keep (lev43 V0) (r := main_v689) (by decide)).trans (k21_43 V0)
theorem k21_45 (V0 : Valuation τ sig (Elt F)) : lev45 V0 (Proc.devRef .tc main_v689) = lev22 V0 (Proc.devRef .tc main_v689) := (filt44_keep (lev44 V0) (r := main_v689) (by decide)).trans (k21_44 V0)
theorem k21_46 (V0 : Valuation τ sig (Elt F)) : lev46 V0 (Proc.devRef .tc main_v689) = lev22 V0 (Proc.devRef .tc main_v689) := (filt45_keep (lev45 V0) (r := main_v689) (by decide)).trans (k21_45 V0)
theorem k21_47 (V0 : Valuation τ sig (Elt F)) : lev47 V0 (Proc.devRef .tc main_v689) = lev22 V0 (Proc.devRef .tc main_v689) := (filt46_keep (lev46 V0) (r := main_v689) (by decide)).trans (k21_46 V0)
theorem k21_48 (V0 : Valuation τ sig (Elt F)) : lev48 V0 (Proc.devRef .tc main_v689) = lev22 V0 (Proc.devRef .tc main_v689) := (filt47_keep (lev47 V0) (r := main_v689) (by decide)).trans (k21_47 V0)
theorem k21_49 (V0 : Valuation τ sig (Elt F)) : lev49 V0 (Proc.devRef .tc main_v689) = lev22 V0 (Proc.devRef .tc main_v689) := (filt48_keep (lev48 V0) (r := main_v689) (by decide)).trans (k21_48 V0)
theorem k21_50 (V0 : Valuation τ sig (Elt F)) : lev50 V0 (Proc.devRef .tc main_v689) = lev22 V0 (Proc.devRef .tc main_v689) := (filt49_keep (lev49 V0) (r := main_v689) (by decide)).trans (k21_49 V0)
theorem k21_51 (V0 : Valuation τ sig (Elt F)) : lev51 V0 (Proc.devRef .tc main_v689) = lev22 V0 (Proc.devRef .tc main_v689) := (filt50_keep (lev50 V0) (r := main_v689) (by decide)).trans (k21_50 V0)
theorem k21_52 (V0 : Valuation τ sig (Elt F)) : lev52 V0 (Proc.devRef .tc main_v689) = lev22 V0 (Proc.devRef .tc main_v689) := (filt51_keep (lev51 V0) (r := main_v689) (by decide)).trans (k21_51 V0)
theorem k21_53 (V0 : Valuation τ sig (Elt F)) : lev53 V0 (Proc.devRef .tc main_v689) = lev22 V0 (Proc.devRef .tc main_v689) := (filt52_keep (lev52 V0) (r := main_v689) (by decide)).trans (k21_52 V0)
theorem k21_54 (V0 : Valuation τ sig (Elt F)) : lev54 V0 (Proc.devRef .tc main_v689) = lev22 V0 (Proc.devRef .tc main_v689) := (filt53_keep (lev53 V0) (r := main_v689) (by decide)).trans (k21_53 V0)
theorem k21_55 (V0 : Valuation τ sig (Elt F)) : lev55 V0 (Proc.devRef .tc main_v689) = lev22 V0 (Proc.devRef .tc main_v689) := (filt54_keep (lev54 V0) (r := main_v689) (by decide)).trans (k21_54 V0)
theorem k21_56 (V0 : Valuation τ sig (Elt F)) : lev56 V0 (Proc.devRef .tc main_v689) = lev22 V0 (Proc.devRef .tc main_v689) := (filt55_keep (lev55 V0) (r := main_v689) (by decide)).trans (k21_55 V0)
theorem k21_57 (V0 : Valuation τ sig (Elt F)) : lev57 V0 (Proc.devRef .tc main_v689) = lev22 V0 (Proc.devRef .tc main_v689) := (filt56_keep (lev56 V0) (r := main_v689) (by decide)).trans (k21_56 V0)
theorem k21_58 (V0 : Valuation τ sig (Elt F)) : lev58 V0 (Proc.devRef .tc main_v689) = lev22 V0 (Proc.devRef .tc main_v689) := (filt57_keep (lev57 V0) (r := main_v689) (by decide)).trans (k21_57 V0)
theorem k21_59 (V0 : Valuation τ sig (Elt F)) : lev59 V0 (Proc.devRef .tc main_v689) = lev22 V0 (Proc.devRef .tc main_v689) := (filt58_keep (lev58 V0) (r := main_v689) (by decide)).trans (k21_58 V0)
theorem k21_60 (V0 : Valuation τ sig (Elt F)) : lev60 V0 (Proc.devRef .tc main_v689) = lev22 V0 (Proc.devRef .tc main_v689) := (filt59_keep (lev59 V0) (r := main_v689) (by decide)).trans (k21_59 V0)
theorem k21_61 (V0 : Valuation τ sig (Elt F)) : lev61 V0 (Proc.devRef .tc main_v689) = lev22 V0 (Proc.devRef .tc main_v689) := (filt60_keep (lev60 V0) (r := main_v689) (by decide)).trans (k21_60 V0)
theorem k21_62 (V0 : Valuation τ sig (Elt F)) : lev62 V0 (Proc.devRef .tc main_v689) = lev22 V0 (Proc.devRef .tc main_v689) := (filt61_keep (lev61 V0) (r := main_v689) (by decide)).trans (k21_61 V0)
theorem k21_63 (V0 : Valuation τ sig (Elt F)) : lev63 V0 (Proc.devRef .tc main_v689) = lev22 V0 (Proc.devRef .tc main_v689) := (filt62_keep (lev62 V0) (r := main_v689) (by decide)).trans (k21_62 V0)
theorem k21_64 (V0 : Valuation τ sig (Elt F)) : lev64 V0 (Proc.devRef .tc main_v689) = lev22 V0 (Proc.devRef .tc main_v689) := (filt63_keep (lev63 V0) (r := main_v689) (by decide)).trans (k21_63 V0)
theorem k22_24 (V0 : Valuation τ sig (Elt F)) : lev24 V0 (Proc.devRef .tc main_v738) = lev23 V0 (Proc.devRef .tc main_v738) := (filt23_keep (lev23 V0) (r := main_v738) (by decide))
theorem k22_25 (V0 : Valuation τ sig (Elt F)) : lev25 V0 (Proc.devRef .tc main_v738) = lev23 V0 (Proc.devRef .tc main_v738) := (filt24_keep (lev24 V0) (r := main_v738) (by decide)).trans (k22_24 V0)
theorem k22_26 (V0 : Valuation τ sig (Elt F)) : lev26 V0 (Proc.devRef .tc main_v738) = lev23 V0 (Proc.devRef .tc main_v738) := (filt25_keep (lev25 V0) (r := main_v738) (by decide)).trans (k22_25 V0)
theorem k22_27 (V0 : Valuation τ sig (Elt F)) : lev27 V0 (Proc.devRef .tc main_v738) = lev23 V0 (Proc.devRef .tc main_v738) := (filt26_keep (lev26 V0) (r := main_v738) (by decide)).trans (k22_26 V0)
theorem k22_28 (V0 : Valuation τ sig (Elt F)) : lev28 V0 (Proc.devRef .tc main_v738) = lev23 V0 (Proc.devRef .tc main_v738) := (filt27_keep (lev27 V0) (r := main_v738) (by decide)).trans (k22_27 V0)
theorem k22_29 (V0 : Valuation τ sig (Elt F)) : lev29 V0 (Proc.devRef .tc main_v738) = lev23 V0 (Proc.devRef .tc main_v738) := (filt28_keep (lev28 V0) (r := main_v738) (by decide)).trans (k22_28 V0)
theorem k22_30 (V0 : Valuation τ sig (Elt F)) : lev30 V0 (Proc.devRef .tc main_v738) = lev23 V0 (Proc.devRef .tc main_v738) := (filt29_keep (lev29 V0) (r := main_v738) (by decide)).trans (k22_29 V0)
theorem k22_31 (V0 : Valuation τ sig (Elt F)) : lev31 V0 (Proc.devRef .tc main_v738) = lev23 V0 (Proc.devRef .tc main_v738) := (filt30_keep (lev30 V0) (r := main_v738) (by decide)).trans (k22_30 V0)
theorem k22_32 (V0 : Valuation τ sig (Elt F)) : lev32 V0 (Proc.devRef .tc main_v738) = lev23 V0 (Proc.devRef .tc main_v738) := (filt31_keep (lev31 V0) (r := main_v738) (by decide)).trans (k22_31 V0)
theorem k22_33 (V0 : Valuation τ sig (Elt F)) : lev33 V0 (Proc.devRef .tc main_v738) = lev23 V0 (Proc.devRef .tc main_v738) := (filt32_keep (lev32 V0) (r := main_v738) (by decide)).trans (k22_32 V0)
theorem k22_34 (V0 : Valuation τ sig (Elt F)) : lev34 V0 (Proc.devRef .tc main_v738) = lev23 V0 (Proc.devRef .tc main_v738) := (filt33_keep (lev33 V0) (r := main_v738) (by decide)).trans (k22_33 V0)
theorem k22_35 (V0 : Valuation τ sig (Elt F)) : lev35 V0 (Proc.devRef .tc main_v738) = lev23 V0 (Proc.devRef .tc main_v738) := (filt34_keep (lev34 V0) (r := main_v738) (by decide)).trans (k22_34 V0)
theorem k22_36 (V0 : Valuation τ sig (Elt F)) : lev36 V0 (Proc.devRef .tc main_v738) = lev23 V0 (Proc.devRef .tc main_v738) := (filt35_keep (lev35 V0) (r := main_v738) (by decide)).trans (k22_35 V0)
theorem k22_37 (V0 : Valuation τ sig (Elt F)) : lev37 V0 (Proc.devRef .tc main_v738) = lev23 V0 (Proc.devRef .tc main_v738) := (filt36_keep (lev36 V0) (r := main_v738) (by decide)).trans (k22_36 V0)
theorem k22_38 (V0 : Valuation τ sig (Elt F)) : lev38 V0 (Proc.devRef .tc main_v738) = lev23 V0 (Proc.devRef .tc main_v738) := (filt37_keep (lev37 V0) (r := main_v738) (by decide)).trans (k22_37 V0)
theorem k22_39 (V0 : Valuation τ sig (Elt F)) : lev39 V0 (Proc.devRef .tc main_v738) = lev23 V0 (Proc.devRef .tc main_v738) := (filt38_keep (lev38 V0) (r := main_v738) (by decide)).trans (k22_38 V0)
theorem k22_40 (V0 : Valuation τ sig (Elt F)) : lev40 V0 (Proc.devRef .tc main_v738) = lev23 V0 (Proc.devRef .tc main_v738) := (filt39_keep (lev39 V0) (r := main_v738) (by decide)).trans (k22_39 V0)
theorem k22_41 (V0 : Valuation τ sig (Elt F)) : lev41 V0 (Proc.devRef .tc main_v738) = lev23 V0 (Proc.devRef .tc main_v738) := (filt40_keep (lev40 V0) (r := main_v738) (by decide)).trans (k22_40 V0)
theorem k22_42 (V0 : Valuation τ sig (Elt F)) : lev42 V0 (Proc.devRef .tc main_v738) = lev23 V0 (Proc.devRef .tc main_v738) := (filt41_keep (lev41 V0) (r := main_v738) (by decide)).trans (k22_41 V0)
theorem k22_43 (V0 : Valuation τ sig (Elt F)) : lev43 V0 (Proc.devRef .tc main_v738) = lev23 V0 (Proc.devRef .tc main_v738) := (filt42_keep (lev42 V0) (r := main_v738) (by decide)).trans (k22_42 V0)
theorem k22_44 (V0 : Valuation τ sig (Elt F)) : lev44 V0 (Proc.devRef .tc main_v738) = lev23 V0 (Proc.devRef .tc main_v738) := (filt43_keep (lev43 V0) (r := main_v738) (by decide)).trans (k22_43 V0)
theorem k22_45 (V0 : Valuation τ sig (Elt F)) : lev45 V0 (Proc.devRef .tc main_v738) = lev23 V0 (Proc.devRef .tc main_v738) := (filt44_keep (lev44 V0) (r := main_v738) (by decide)).trans (k22_44 V0)
theorem k22_46 (V0 : Valuation τ sig (Elt F)) : lev46 V0 (Proc.devRef .tc main_v738) = lev23 V0 (Proc.devRef .tc main_v738) := (filt45_keep (lev45 V0) (r := main_v738) (by decide)).trans (k22_45 V0)
theorem k22_47 (V0 : Valuation τ sig (Elt F)) : lev47 V0 (Proc.devRef .tc main_v738) = lev23 V0 (Proc.devRef .tc main_v738) := (filt46_keep (lev46 V0) (r := main_v738) (by decide)).trans (k22_46 V0)
theorem k22_48 (V0 : Valuation τ sig (Elt F)) : lev48 V0 (Proc.devRef .tc main_v738) = lev23 V0 (Proc.devRef .tc main_v738) := (filt47_keep (lev47 V0) (r := main_v738) (by decide)).trans (k22_47 V0)
theorem k22_49 (V0 : Valuation τ sig (Elt F)) : lev49 V0 (Proc.devRef .tc main_v738) = lev23 V0 (Proc.devRef .tc main_v738) := (filt48_keep (lev48 V0) (r := main_v738) (by decide)).trans (k22_48 V0)
theorem k22_50 (V0 : Valuation τ sig (Elt F)) : lev50 V0 (Proc.devRef .tc main_v738) = lev23 V0 (Proc.devRef .tc main_v738) := (filt49_keep (lev49 V0) (r := main_v738) (by decide)).trans (k22_49 V0)
theorem k22_51 (V0 : Valuation τ sig (Elt F)) : lev51 V0 (Proc.devRef .tc main_v738) = lev23 V0 (Proc.devRef .tc main_v738) := (filt50_keep (lev50 V0) (r := main_v738) (by decide)).trans (k22_50 V0)
theorem k22_52 (V0 : Valuation τ sig (Elt F)) : lev52 V0 (Proc.devRef .tc main_v738) = lev23 V0 (Proc.devRef .tc main_v738) := (filt51_keep (lev51 V0) (r := main_v738) (by decide)).trans (k22_51 V0)
theorem k22_53 (V0 : Valuation τ sig (Elt F)) : lev53 V0 (Proc.devRef .tc main_v738) = lev23 V0 (Proc.devRef .tc main_v738) := (filt52_keep (lev52 V0) (r := main_v738) (by decide)).trans (k22_52 V0)
theorem k22_54 (V0 : Valuation τ sig (Elt F)) : lev54 V0 (Proc.devRef .tc main_v738) = lev23 V0 (Proc.devRef .tc main_v738) := (filt53_keep (lev53 V0) (r := main_v738) (by decide)).trans (k22_53 V0)
theorem k22_55 (V0 : Valuation τ sig (Elt F)) : lev55 V0 (Proc.devRef .tc main_v738) = lev23 V0 (Proc.devRef .tc main_v738) := (filt54_keep (lev54 V0) (r := main_v738) (by decide)).trans (k22_54 V0)
theorem k22_56 (V0 : Valuation τ sig (Elt F)) : lev56 V0 (Proc.devRef .tc main_v738) = lev23 V0 (Proc.devRef .tc main_v738) := (filt55_keep (lev55 V0) (r := main_v738) (by decide)).trans (k22_55 V0)
theorem k22_57 (V0 : Valuation τ sig (Elt F)) : lev57 V0 (Proc.devRef .tc main_v738) = lev23 V0 (Proc.devRef .tc main_v738) := (filt56_keep (lev56 V0) (r := main_v738) (by decide)).trans (k22_56 V0)
theorem k22_58 (V0 : Valuation τ sig (Elt F)) : lev58 V0 (Proc.devRef .tc main_v738) = lev23 V0 (Proc.devRef .tc main_v738) := (filt57_keep (lev57 V0) (r := main_v738) (by decide)).trans (k22_57 V0)
theorem k22_59 (V0 : Valuation τ sig (Elt F)) : lev59 V0 (Proc.devRef .tc main_v738) = lev23 V0 (Proc.devRef .tc main_v738) := (filt58_keep (lev58 V0) (r := main_v738) (by decide)).trans (k22_58 V0)
theorem k22_60 (V0 : Valuation τ sig (Elt F)) : lev60 V0 (Proc.devRef .tc main_v738) = lev23 V0 (Proc.devRef .tc main_v738) := (filt59_keep (lev59 V0) (r := main_v738) (by decide)).trans (k22_59 V0)
theorem k22_61 (V0 : Valuation τ sig (Elt F)) : lev61 V0 (Proc.devRef .tc main_v738) = lev23 V0 (Proc.devRef .tc main_v738) := (filt60_keep (lev60 V0) (r := main_v738) (by decide)).trans (k22_60 V0)
theorem k22_62 (V0 : Valuation τ sig (Elt F)) : lev62 V0 (Proc.devRef .tc main_v738) = lev23 V0 (Proc.devRef .tc main_v738) := (filt61_keep (lev61 V0) (r := main_v738) (by decide)).trans (k22_61 V0)
theorem k22_63 (V0 : Valuation τ sig (Elt F)) : lev63 V0 (Proc.devRef .tc main_v738) = lev23 V0 (Proc.devRef .tc main_v738) := (filt62_keep (lev62 V0) (r := main_v738) (by decide)).trans (k22_62 V0)
theorem k22_64 (V0 : Valuation τ sig (Elt F)) : lev64 V0 (Proc.devRef .tc main_v738) = lev23 V0 (Proc.devRef .tc main_v738) := (filt63_keep (lev63 V0) (r := main_v738) (by decide)).trans (k22_63 V0)
theorem k23_25 (V0 : Valuation τ sig (Elt F)) : lev25 V0 (Proc.devRef .tc main_v787) = lev24 V0 (Proc.devRef .tc main_v787) := (filt24_keep (lev24 V0) (r := main_v787) (by decide))
theorem k23_26 (V0 : Valuation τ sig (Elt F)) : lev26 V0 (Proc.devRef .tc main_v787) = lev24 V0 (Proc.devRef .tc main_v787) := (filt25_keep (lev25 V0) (r := main_v787) (by decide)).trans (k23_25 V0)
theorem k23_27 (V0 : Valuation τ sig (Elt F)) : lev27 V0 (Proc.devRef .tc main_v787) = lev24 V0 (Proc.devRef .tc main_v787) := (filt26_keep (lev26 V0) (r := main_v787) (by decide)).trans (k23_26 V0)
theorem k23_28 (V0 : Valuation τ sig (Elt F)) : lev28 V0 (Proc.devRef .tc main_v787) = lev24 V0 (Proc.devRef .tc main_v787) := (filt27_keep (lev27 V0) (r := main_v787) (by decide)).trans (k23_27 V0)
theorem k23_29 (V0 : Valuation τ sig (Elt F)) : lev29 V0 (Proc.devRef .tc main_v787) = lev24 V0 (Proc.devRef .tc main_v787) := (filt28_keep (lev28 V0) (r := main_v787) (by decide)).trans (k23_28 V0)
theorem k23_30 (V0 : Valuation τ sig (Elt F)) : lev30 V0 (Proc.devRef .tc main_v787) = lev24 V0 (Proc.devRef .tc main_v787) := (filt29_keep (lev29 V0) (r := main_v787) (by decide)).trans (k23_29 V0)
theorem k23_31 (V0 : Valuation τ sig (Elt F)) : lev31 V0 (Proc.devRef .tc main_v787) = lev24 V0 (Proc.devRef .tc main_v787) := (filt30_keep (lev30 V0) (r := main_v787) (by decide)).trans (k23_30 V0)
theorem k23_32 (V0 : Valuation τ sig (Elt F)) : lev32 V0 (Proc.devRef .tc main_v787) = lev24 V0 (Proc.devRef .tc main_v787) := (filt31_keep (lev31 V0) (r := main_v787) (by decide)).trans (k23_31 V0)
theorem k23_33 (V0 : Valuation τ sig (Elt F)) : lev33 V0 (Proc.devRef .tc main_v787) = lev24 V0 (Proc.devRef .tc main_v787) := (filt32_keep (lev32 V0) (r := main_v787) (by decide)).trans (k23_32 V0)
theorem k23_34 (V0 : Valuation τ sig (Elt F)) : lev34 V0 (Proc.devRef .tc main_v787) = lev24 V0 (Proc.devRef .tc main_v787) := (filt33_keep (lev33 V0) (r := main_v787) (by decide)).trans (k23_33 V0)
theorem k23_35 (V0 : Valuation τ sig (Elt F)) : lev35 V0 (Proc.devRef .tc main_v787) = lev24 V0 (Proc.devRef .tc main_v787) := (filt34_keep (lev34 V0) (r := main_v787) (by decide)).trans (k23_34 V0)
theorem k23_36 (V0 : Valuation τ sig (Elt F)) : lev36 V0 (Proc.devRef .tc main_v787) = lev24 V0 (Proc.devRef .tc main_v787) := (filt35_keep (lev35 V0) (r := main_v787) (by decide)).trans (k23_35 V0)
theorem k23_37 (V0 : Valuation τ sig (Elt F)) : lev37 V0 (Proc.devRef .tc main_v787) = lev24 V0 (Proc.devRef .tc main_v787) := (filt36_keep (lev36 V0) (r := main_v787) (by decide)).trans (k23_36 V0)
theorem k23_38 (V0 : Valuation τ sig (Elt F)) : lev38 V0 (Proc.devRef .tc main_v787) = lev24 V0 (Proc.devRef .tc main_v787) := (filt37_keep (lev37 V0) (r := main_v787) (by decide)).trans (k23_37 V0)
theorem k23_39 (V0 : Valuation τ sig (Elt F)) : lev39 V0 (Proc.devRef .tc main_v787) = lev24 V0 (Proc.devRef .tc main_v787) := (filt38_keep (lev38 V0) (r := main_v787) (by decide)).trans (k23_38 V0)
theorem k23_40 (V0 : Valuation τ sig (Elt F)) : lev40 V0 (Proc.devRef .tc main_v787) = lev24 V0 (Proc.devRef .tc main_v787) := (filt39_keep (lev39 V0) (r := main_v787) (by decide)).trans (k23_39 V0)
theorem k23_41 (V0 : Valuation τ sig (Elt F)) : lev41 V0 (Proc.devRef .tc main_v787) = lev24 V0 (Proc.devRef .tc main_v787) := (filt40_keep (lev40 V0) (r := main_v787) (by decide)).trans (k23_40 V0)
theorem k23_42 (V0 : Valuation τ sig (Elt F)) : lev42 V0 (Proc.devRef .tc main_v787) = lev24 V0 (Proc.devRef .tc main_v787) := (filt41_keep (lev41 V0) (r := main_v787) (by decide)).trans (k23_41 V0)
theorem k23_43 (V0 : Valuation τ sig (Elt F)) : lev43 V0 (Proc.devRef .tc main_v787) = lev24 V0 (Proc.devRef .tc main_v787) := (filt42_keep (lev42 V0) (r := main_v787) (by decide)).trans (k23_42 V0)
theorem k23_44 (V0 : Valuation τ sig (Elt F)) : lev44 V0 (Proc.devRef .tc main_v787) = lev24 V0 (Proc.devRef .tc main_v787) := (filt43_keep (lev43 V0) (r := main_v787) (by decide)).trans (k23_43 V0)
theorem k23_45 (V0 : Valuation τ sig (Elt F)) : lev45 V0 (Proc.devRef .tc main_v787) = lev24 V0 (Proc.devRef .tc main_v787) := (filt44_keep (lev44 V0) (r := main_v787) (by decide)).trans (k23_44 V0)
theorem k23_46 (V0 : Valuation τ sig (Elt F)) : lev46 V0 (Proc.devRef .tc main_v787) = lev24 V0 (Proc.devRef .tc main_v787) := (filt45_keep (lev45 V0) (r := main_v787) (by decide)).trans (k23_45 V0)
theorem k23_47 (V0 : Valuation τ sig (Elt F)) : lev47 V0 (Proc.devRef .tc main_v787) = lev24 V0 (Proc.devRef .tc main_v787) := (filt46_keep (lev46 V0) (r := main_v787) (by decide)).trans (k23_46 V0)
theorem k23_48 (V0 : Valuation τ sig (Elt F)) : lev48 V0 (Proc.devRef .tc main_v787) = lev24 V0 (Proc.devRef .tc main_v787) := (filt47_keep (lev47 V0) (r := main_v787) (by decide)).trans (k23_47 V0)
theorem k23_49 (V0 : Valuation τ sig (Elt F)) : lev49 V0 (Proc.devRef .tc main_v787) = lev24 V0 (Proc.devRef .tc main_v787) := (filt48_keep (lev48 V0) (r := main_v787) (by decide)).trans (k23_48 V0)
theorem k23_50 (V0 : Valuation τ sig (Elt F)) : lev50 V0 (Proc.devRef .tc main_v787) = lev24 V0 (Proc.devRef .tc main_v787) := (filt49_keep (lev49 V0) (r := main_v787) (by decide)).trans (k23_49 V0)
theorem k23_51 (V0 : Valuation τ sig (Elt F)) : lev51 V0 (Proc.devRef .tc main_v787) = lev24 V0 (Proc.devRef .tc main_v787) := (filt50_keep (lev50 V0) (r := main_v787) (by decide)).trans (k23_50 V0)
theorem k23_52 (V0 : Valuation τ sig (Elt F)) : lev52 V0 (Proc.devRef .tc main_v787) = lev24 V0 (Proc.devRef .tc main_v787) := (filt51_keep (lev51 V0) (r := main_v787) (by decide)).trans (k23_51 V0)
theorem k23_53 (V0 : Valuation τ sig (Elt F)) : lev53 V0 (Proc.devRef .tc main_v787) = lev24 V0 (Proc.devRef .tc main_v787) := (filt52_keep (lev52 V0) (r := main_v787) (by decide)).trans (k23_52 V0)
theorem k23_54 (V0 : Valuation τ sig (Elt F)) : lev54 V0 (Proc.devRef .tc main_v787) = lev24 V0 (Proc.devRef .tc main_v787) := (filt53_keep (lev53 V0) (r := main_v787) (by decide)).trans (k23_53 V0)
theorem k23_55 (V0 : Valuation τ sig (Elt F)) : lev55 V0 (Proc.devRef .tc main_v787) = lev24 V0 (Proc.devRef .tc main_v787) := (filt54_keep (lev54 V0) (r := main_v787) (by decide)).trans (k23_54 V0)
theorem k23_56 (V0 : Valuation τ sig (Elt F)) : lev56 V0 (Proc.devRef .tc main_v787) = lev24 V0 (Proc.devRef .tc main_v787) := (filt55_keep (lev55 V0) (r := main_v787) (by decide)).trans (k23_55 V0)
theorem k23_57 (V0 : Valuation τ sig (Elt F)) : lev57 V0 (Proc.devRef .tc main_v787) = lev24 V0 (Proc.devRef .tc main_v787) := (filt56_keep (lev56 V0) (r := main_v787) (by decide)).trans (k23_56 V0)
theorem k23_58 (V0 : Valuation τ sig (Elt F)) : lev58 V0 (Proc.devRef .tc main_v787) = lev24 V0 (Proc.devRef .tc main_v787) := (filt57_keep (lev57 V0) (r := main_v787) (by decide)).trans (k23_57 V0)
theorem k23_59 (V0 : Valuation τ sig (Elt F)) : lev59 V0 (Proc.devRef .tc main_v787) = lev24 V0 (Proc.devRef .tc main_v787) := (filt58_keep (lev58 V0) (r := main_v787) (by decide)).trans (k23_58 V0)
theorem k23_60 (V0 : Valuation τ sig (Elt F)) : lev60 V0 (Proc.devRef .tc main_v787) = lev24 V0 (Proc.devRef .tc main_v787) := (filt59_keep (lev59 V0) (r := main_v787) (by decide)).trans (k23_59 V0)
theorem k23_61 (V0 : Valuation τ sig (Elt F)) : lev61 V0 (Proc.devRef .tc main_v787) = lev24 V0 (Proc.devRef .tc main_v787) := (filt60_keep (lev60 V0) (r := main_v787) (by decide)).trans (k23_60 V0)
theorem k23_62 (V0 : Valuation τ sig (Elt F)) : lev62 V0 (Proc.devRef .tc main_v787) = lev24 V0 (Proc.devRef .tc main_v787) := (filt61_keep (lev61 V0) (r := main_v787) (by decide)).trans (k23_61 V0)
theorem k23_63 (V0 : Valuation τ sig (Elt F)) : lev63 V0 (Proc.devRef .tc main_v787) = lev24 V0 (Proc.devRef .tc main_v787) := (filt62_keep (lev62 V0) (r := main_v787) (by decide)).trans (k23_62 V0)
theorem k23_64 (V0 : Valuation τ sig (Elt F)) : lev64 V0 (Proc.devRef .tc main_v787) = lev24 V0 (Proc.devRef .tc main_v787) := (filt63_keep (lev63 V0) (r := main_v787) (by decide)).trans (k23_63 V0)
theorem k24_26 (V0 : Valuation τ sig (Elt F)) : lev26 V0 (Proc.devRef .tc main_v839) = lev25 V0 (Proc.devRef .tc main_v839) := (filt25_keep (lev25 V0) (r := main_v839) (by decide))
theorem k24_27 (V0 : Valuation τ sig (Elt F)) : lev27 V0 (Proc.devRef .tc main_v839) = lev25 V0 (Proc.devRef .tc main_v839) := (filt26_keep (lev26 V0) (r := main_v839) (by decide)).trans (k24_26 V0)
theorem k24_28 (V0 : Valuation τ sig (Elt F)) : lev28 V0 (Proc.devRef .tc main_v839) = lev25 V0 (Proc.devRef .tc main_v839) := (filt27_keep (lev27 V0) (r := main_v839) (by decide)).trans (k24_27 V0)
theorem k24_29 (V0 : Valuation τ sig (Elt F)) : lev29 V0 (Proc.devRef .tc main_v839) = lev25 V0 (Proc.devRef .tc main_v839) := (filt28_keep (lev28 V0) (r := main_v839) (by decide)).trans (k24_28 V0)
theorem k24_30 (V0 : Valuation τ sig (Elt F)) : lev30 V0 (Proc.devRef .tc main_v839) = lev25 V0 (Proc.devRef .tc main_v839) := (filt29_keep (lev29 V0) (r := main_v839) (by decide)).trans (k24_29 V0)
theorem k24_31 (V0 : Valuation τ sig (Elt F)) : lev31 V0 (Proc.devRef .tc main_v839) = lev25 V0 (Proc.devRef .tc main_v839) := (filt30_keep (lev30 V0) (r := main_v839) (by decide)).trans (k24_30 V0)
theorem k24_32 (V0 : Valuation τ sig (Elt F)) : lev32 V0 (Proc.devRef .tc main_v839) = lev25 V0 (Proc.devRef .tc main_v839) := (filt31_keep (lev31 V0) (r := main_v839) (by decide)).trans (k24_31 V0)
theorem k24_33 (V0 : Valuation τ sig (Elt F)) : lev33 V0 (Proc.devRef .tc main_v839) = lev25 V0 (Proc.devRef .tc main_v839) := (filt32_keep (lev32 V0) (r := main_v839) (by decide)).trans (k24_32 V0)
theorem k24_34 (V0 : Valuation τ sig (Elt F)) : lev34 V0 (Proc.devRef .tc main_v839) = lev25 V0 (Proc.devRef .tc main_v839) := (filt33_keep (lev33 V0) (r := main_v839) (by decide)).trans (k24_33 V0)
theorem k24_35 (V0 : Valuation τ sig (Elt F)) : lev35 V0 (Proc.devRef .tc main_v839) = lev25 V0 (Proc.devRef .tc main_v839) := (filt34_keep (lev34 V0) (r := main_v839) (by decide)).trans (k24_34 V0)
theorem k24_36 (V0 : Valuation τ sig (Elt F)) : lev36 V0 (Proc.devRef .tc main_v839) = lev25 V0 (Proc.devRef .tc main_v839) := (filt35_keep (lev35 V0) (r := main_v839) (by decide)).trans (k24_35 V0)
theorem k24_37 (V0 : Valuation τ sig (Elt F)) : lev37 V0 (Proc.devRef .tc main_v839) = lev25 V0 (Proc.devRef .tc main_v839) := (filt36_keep (lev36 V0) (r := main_v839) (by decide)).trans (k24_36 V0)
theorem k24_38 (V0 : Valuation τ sig (Elt F)) : lev38 V0 (Proc.devRef .tc main_v839) = lev25 V0 (Proc.devRef .tc main_v839) := (filt37_keep (lev37 V0) (r := main_v839) (by decide)).trans (k24_37 V0)
theorem k24_39 (V0 : Valuation τ sig (Elt F)) : lev39 V0 (Proc.devRef .tc main_v839) = lev25 V0 (Proc.devRef .tc main_v839) := (filt38_keep (lev38 V0) (r := main_v839) (by decide)).trans (k24_38 V0)
theorem k24_40 (V0 : Valuation τ sig (Elt F)) : lev40 V0 (Proc.devRef .tc main_v839) = lev25 V0 (Proc.devRef .tc main_v839) := (filt39_keep (lev39 V0) (r := main_v839) (by decide)).trans (k24_39 V0)
theorem k24_41 (V0 : Valuation τ sig (Elt F)) : lev41 V0 (Proc.devRef .tc main_v839) = lev25 V0 (Proc.devRef .tc main_v839) := (filt40_keep (lev40 V0) (r := main_v839) (by decide)).trans (k24_40 V0)
theorem k24_42 (V0 : Valuation τ sig (Elt F)) : lev42 V0 (Proc.devRef .tc main_v839) = lev25 V0 (Proc.devRef .tc main_v839) := (filt41_keep (lev41 V0) (r := main_v839) (by decide)).trans (k24_41 V0)
theorem k24_43 (V0 : Valuation τ sig (Elt F)) : lev43 V0 (Proc.devRef .tc main_v839) = lev25 V0 (Proc.devRef .tc main_v839) := (filt42_keep (lev42 V0) (r := main_v839) (by decide)).trans (k24_42 V0)
theorem k24_44 (V0 : Valuation τ sig (Elt F)) : lev44 V0 (Proc.devRef .tc main_v839) = lev25 V0 (Proc.devRef .tc main_v839) := (filt43_keep (lev43 V0) (r := main_v839) (by decide)).trans (k24_43 V0)
theorem k24_45 (V0 : Valuation τ sig (Elt F)) : lev45 V0 (Proc.devRef .tc main_v839) = lev25 V0 (Proc.devRef .tc main_v839) := (filt44_keep (lev44 V0) (r := main_v839) (by decide)).trans (k24_44 V0)
theorem k24_46 (V0 : Valuation τ sig (Elt F)) : lev46 V0 (Proc.devRef .tc main_v839) = lev25 V0 (Proc.devRef .tc main_v839) := (filt45_keep (lev45 V0) (r := main_v839) (by decide)).trans (k24_45 V0)
theorem k24_47 (V0 : Valuation τ sig (Elt F)) : lev47 V0 (Proc.devRef .tc main_v839) = lev25 V0 (Proc.devRef .tc main_v839) := (filt46_keep (lev46 V0) (r := main_v839) (by decide)).trans (k24_46 V0)
theorem k24_48 (V0 : Valuation τ sig (Elt F)) : lev48 V0 (Proc.devRef .tc main_v839) = lev25 V0 (Proc.devRef .tc main_v839) := (filt47_keep (lev47 V0) (r := main_v839) (by decide)).trans (k24_47 V0)
theorem k24_49 (V0 : Valuation τ sig (Elt F)) : lev49 V0 (Proc.devRef .tc main_v839) = lev25 V0 (Proc.devRef .tc main_v839) := (filt48_keep (lev48 V0) (r := main_v839) (by decide)).trans (k24_48 V0)
theorem k24_50 (V0 : Valuation τ sig (Elt F)) : lev50 V0 (Proc.devRef .tc main_v839) = lev25 V0 (Proc.devRef .tc main_v839) := (filt49_keep (lev49 V0) (r := main_v839) (by decide)).trans (k24_49 V0)
theorem k24_51 (V0 : Valuation τ sig (Elt F)) : lev51 V0 (Proc.devRef .tc main_v839) = lev25 V0 (Proc.devRef .tc main_v839) := (filt50_keep (lev50 V0) (r := main_v839) (by decide)).trans (k24_50 V0)
theorem k24_52 (V0 : Valuation τ sig (Elt F)) : lev52 V0 (Proc.devRef .tc main_v839) = lev25 V0 (Proc.devRef .tc main_v839) := (filt51_keep (lev51 V0) (r := main_v839) (by decide)).trans (k24_51 V0)
theorem k24_53 (V0 : Valuation τ sig (Elt F)) : lev53 V0 (Proc.devRef .tc main_v839) = lev25 V0 (Proc.devRef .tc main_v839) := (filt52_keep (lev52 V0) (r := main_v839) (by decide)).trans (k24_52 V0)
theorem k24_54 (V0 : Valuation τ sig (Elt F)) : lev54 V0 (Proc.devRef .tc main_v839) = lev25 V0 (Proc.devRef .tc main_v839) := (filt53_keep (lev53 V0) (r := main_v839) (by decide)).trans (k24_53 V0)
theorem k24_55 (V0 : Valuation τ sig (Elt F)) : lev55 V0 (Proc.devRef .tc main_v839) = lev25 V0 (Proc.devRef .tc main_v839) := (filt54_keep (lev54 V0) (r := main_v839) (by decide)).trans (k24_54 V0)
theorem k24_56 (V0 : Valuation τ sig (Elt F)) : lev56 V0 (Proc.devRef .tc main_v839) = lev25 V0 (Proc.devRef .tc main_v839) := (filt55_keep (lev55 V0) (r := main_v839) (by decide)).trans (k24_55 V0)
theorem k24_57 (V0 : Valuation τ sig (Elt F)) : lev57 V0 (Proc.devRef .tc main_v839) = lev25 V0 (Proc.devRef .tc main_v839) := (filt56_keep (lev56 V0) (r := main_v839) (by decide)).trans (k24_56 V0)
theorem k24_58 (V0 : Valuation τ sig (Elt F)) : lev58 V0 (Proc.devRef .tc main_v839) = lev25 V0 (Proc.devRef .tc main_v839) := (filt57_keep (lev57 V0) (r := main_v839) (by decide)).trans (k24_57 V0)
theorem k24_59 (V0 : Valuation τ sig (Elt F)) : lev59 V0 (Proc.devRef .tc main_v839) = lev25 V0 (Proc.devRef .tc main_v839) := (filt58_keep (lev58 V0) (r := main_v839) (by decide)).trans (k24_58 V0)
theorem k24_60 (V0 : Valuation τ sig (Elt F)) : lev60 V0 (Proc.devRef .tc main_v839) = lev25 V0 (Proc.devRef .tc main_v839) := (filt59_keep (lev59 V0) (r := main_v839) (by decide)).trans (k24_59 V0)
theorem k24_61 (V0 : Valuation τ sig (Elt F)) : lev61 V0 (Proc.devRef .tc main_v839) = lev25 V0 (Proc.devRef .tc main_v839) := (filt60_keep (lev60 V0) (r := main_v839) (by decide)).trans (k24_60 V0)
theorem k24_62 (V0 : Valuation τ sig (Elt F)) : lev62 V0 (Proc.devRef .tc main_v839) = lev25 V0 (Proc.devRef .tc main_v839) := (filt61_keep (lev61 V0) (r := main_v839) (by decide)).trans (k24_61 V0)
theorem k24_63 (V0 : Valuation τ sig (Elt F)) : lev63 V0 (Proc.devRef .tc main_v839) = lev25 V0 (Proc.devRef .tc main_v839) := (filt62_keep (lev62 V0) (r := main_v839) (by decide)).trans (k24_62 V0)
theorem k24_64 (V0 : Valuation τ sig (Elt F)) : lev64 V0 (Proc.devRef .tc main_v839) = lev25 V0 (Proc.devRef .tc main_v839) := (filt63_keep (lev63 V0) (r := main_v839) (by decide)).trans (k24_63 V0)
theorem k25_27 (V0 : Valuation τ sig (Elt F)) : lev27 V0 (Proc.devRef .tc main_v891) = lev26 V0 (Proc.devRef .tc main_v891) := (filt26_keep (lev26 V0) (r := main_v891) (by decide))
theorem k25_28 (V0 : Valuation τ sig (Elt F)) : lev28 V0 (Proc.devRef .tc main_v891) = lev26 V0 (Proc.devRef .tc main_v891) := (filt27_keep (lev27 V0) (r := main_v891) (by decide)).trans (k25_27 V0)
theorem k25_29 (V0 : Valuation τ sig (Elt F)) : lev29 V0 (Proc.devRef .tc main_v891) = lev26 V0 (Proc.devRef .tc main_v891) := (filt28_keep (lev28 V0) (r := main_v891) (by decide)).trans (k25_28 V0)
theorem k25_30 (V0 : Valuation τ sig (Elt F)) : lev30 V0 (Proc.devRef .tc main_v891) = lev26 V0 (Proc.devRef .tc main_v891) := (filt29_keep (lev29 V0) (r := main_v891) (by decide)).trans (k25_29 V0)
theorem k25_31 (V0 : Valuation τ sig (Elt F)) : lev31 V0 (Proc.devRef .tc main_v891) = lev26 V0 (Proc.devRef .tc main_v891) := (filt30_keep (lev30 V0) (r := main_v891) (by decide)).trans (k25_30 V0)
theorem k25_32 (V0 : Valuation τ sig (Elt F)) : lev32 V0 (Proc.devRef .tc main_v891) = lev26 V0 (Proc.devRef .tc main_v891) := (filt31_keep (lev31 V0) (r := main_v891) (by decide)).trans (k25_31 V0)
theorem k25_33 (V0 : Valuation τ sig (Elt F)) : lev33 V0 (Proc.devRef .tc main_v891) = lev26 V0 (Proc.devRef .tc main_v891) := (filt32_keep (lev32 V0) (r := main_v891) (by decide)).trans (k25_32 V0)
theorem k25_34 (V0 : Valuation τ sig (Elt F)) : lev34 V0 (Proc.devRef .tc main_v891) = lev26 V0 (Proc.devRef .tc main_v891) := (filt33_keep (lev33 V0) (r := main_v891) (by decide)).trans (k25_33 V0)
theorem k25_35 (V0 : Valuation τ sig (Elt F)) : lev35 V0 (Proc.devRef .tc main_v891) = lev26 V0 (Proc.devRef .tc main_v891) := (filt34_keep (lev34 V0) (r := main_v891) (by decide)).trans (k25_34 V0)
theorem k25_36 (V0 : Valuation τ sig (Elt F)) : lev36 V0 (Proc.devRef .tc main_v891) = lev26 V0 (Proc.devRef .tc main_v891) := (filt35_keep (lev35 V0) (r := main_v891) (by decide)).trans (k25_35 V0)
theorem k25_37 (V0 : Valuation τ sig (Elt F)) : lev37 V0 (Proc.devRef .tc main_v891) = lev26 V0 (Proc.devRef .tc main_v891) := (filt36_keep (lev36 V0) (r := main_v891) (by decide)).trans (k25_36 V0)
theorem k25_38 (V0 : Valuation τ sig (Elt F)) : lev38 V0 (Proc.devRef .tc main_v891) = lev26 V0 (Proc.devRef .tc main_v891) := (filt37_keep (lev37 V0) (r := main_v891) (by decide)).trans (k25_37 V0)
theorem k25_39 (V0 : Valuation τ sig (Elt F)) : lev39 V0 (Proc.devRef .tc main_v891) = lev26 V0 (Proc.devRef .tc main_v891) := (filt38_keep (lev38 V0) (r := main_v891) (by decide)).trans (k25_38 V0)
theorem k25_40 (V0 : Valuation τ sig (Elt F)) : lev40 V0 (Proc.devRef .tc main_v891) = lev26 V0 (Proc.devRef .tc main_v891) := (filt39_keep (lev39 V0) (r := main_v891) (by decide)).trans (k25_39 V0)
theorem k25_41 (V0 : Valuation τ sig (Elt F)) : lev41 V0 (Proc.devRef .tc main_v891) = lev26 V0 (Proc.devRef .tc main_v891) := (filt40_keep (lev40 V0) (r := main_v891) (by decide)).trans (k25_40 V0)
theorem k25_42 (V0 : Valuation τ sig (Elt F)) : lev42 V0 (Proc.devRef .tc main_v891) = lev26 V0 (Proc.devRef .tc main_v891) := (filt41_keep (lev41 V0) (r := main_v891) (by decide)).trans (k25_41 V0)
theorem k25_43 (V0 : Valuation τ sig (Elt F)) : lev43 V0 (Proc.devRef .tc main_v891) = lev26 V0 (Proc.devRef .tc main_v891) := (filt42_keep (lev42 V0) (r := main_v891) (by decide)).trans (k25_42 V0)
theorem k25_44 (V0 : Valuation τ sig (Elt F)) : lev44 V0 (Proc.devRef .tc main_v891) = lev26 V0 (Proc.devRef .tc main_v891) := (filt43_keep (lev43 V0) (r := main_v891) (by decide)).trans (k25_43 V0)
theorem k25_45 (V0 : Valuation τ sig (Elt F)) : lev45 V0 (Proc.devRef .tc main_v891) = lev26 V0 (Proc.devRef .tc main_v891) := (filt44_keep (lev44 V0) (r := main_v891) (by decide)).trans (k25_44 V0)
theorem k25_46 (V0 : Valuation τ sig (Elt F)) : lev46 V0 (Proc.devRef .tc main_v891) = lev26 V0 (Proc.devRef .tc main_v891) := (filt45_keep (lev45 V0) (r := main_v891) (by decide)).trans (k25_45 V0)
theorem k25_47 (V0 : Valuation τ sig (Elt F)) : lev47 V0 (Proc.devRef .tc main_v891) = lev26 V0 (Proc.devRef .tc main_v891) := (filt46_keep (lev46 V0) (r := main_v891) (by decide)).trans (k25_46 V0)
theorem k25_48 (V0 : Valuation τ sig (Elt F)) : lev48 V0 (Proc.devRef .tc main_v891) = lev26 V0 (Proc.devRef .tc main_v891) := (filt47_keep (lev47 V0) (r := main_v891) (by decide)).trans (k25_47 V0)
theorem k25_49 (V0 : Valuation τ sig (Elt F)) : lev49 V0 (Proc.devRef .tc main_v891) = lev26 V0 (Proc.devRef .tc main_v891) := (filt48_keep (lev48 V0) (r := main_v891) (by decide)).trans (k25_48 V0)
theorem k25_50 (V0 : Valuation τ sig (Elt F)) : lev50 V0 (Proc.devRef .tc main_v891) = lev26 V0 (Proc.devRef .tc main_v891) := (filt49_keep (lev49 V0) (r := main_v891) (by decide)).trans (k25_49 V0)
theorem k25_51 (V0 : Valuation τ sig (Elt F)) : lev51 V0 (Proc.devRef .tc main_v891) = lev26 V0 (Proc.devRef .tc main_v891) := (filt50_keep (lev50 V0) (r := main_v891) (by decide)).trans (k25_50 V0)
theorem k25_52 (V0 : Valuation τ sig (Elt F)) : lev52 V0 (Proc.devRef .tc main_v891) = lev26 V0 (Proc.devRef .tc main_v891) := (filt51_keep (lev51 V0) (r := main_v891) (by decide)).trans (k25_51 V0)
theorem k25_53 (V0 : Valuation τ sig (Elt F)) : lev53 V0 (Proc.devRef .tc main_v891) = lev26 V0 (Proc.devRef .tc main_v891) := (filt52_keep (lev52 V0) (r := main_v891) (by decide)).trans (k25_52 V0)
theorem k25_54 (V0 : Valuation τ sig (Elt F)) : lev54 V0 (Proc.devRef .tc main_v891) = lev26 V0 (Proc.devRef .tc main_v891) := (filt53_keep (lev53 V0) (r := main_v891) (by decide)).trans (k25_53 V0)
theorem k25_55 (V0 : Valuation τ sig (Elt F)) : lev55 V0 (Proc.devRef .tc main_v891) = lev26 V0 (Proc.devRef .tc main_v891) := (filt54_keep (lev54 V0) (r := main_v891) (by decide)).trans (k25_54 V0)
theorem k25_56 (V0 : Valuation τ sig (Elt F)) : lev56 V0 (Proc.devRef .tc main_v891) = lev26 V0 (Proc.devRef .tc main_v891) := (filt55_keep (lev55 V0) (r := main_v891) (by decide)).trans (k25_55 V0)
theorem k25_57 (V0 : Valuation τ sig (Elt F)) : lev57 V0 (Proc.devRef .tc main_v891) = lev26 V0 (Proc.devRef .tc main_v891) := (filt56_keep (lev56 V0) (r := main_v891) (by decide)).trans (k25_56 V0)
theorem k25_58 (V0 : Valuation τ sig (Elt F)) : lev58 V0 (Proc.devRef .tc main_v891) = lev26 V0 (Proc.devRef .tc main_v891) := (filt57_keep (lev57 V0) (r := main_v891) (by decide)).trans (k25_57 V0)
theorem k25_59 (V0 : Valuation τ sig (Elt F)) : lev59 V0 (Proc.devRef .tc main_v891) = lev26 V0 (Proc.devRef .tc main_v891) := (filt58_keep (lev58 V0) (r := main_v891) (by decide)).trans (k25_58 V0)
theorem k25_60 (V0 : Valuation τ sig (Elt F)) : lev60 V0 (Proc.devRef .tc main_v891) = lev26 V0 (Proc.devRef .tc main_v891) := (filt59_keep (lev59 V0) (r := main_v891) (by decide)).trans (k25_59 V0)
theorem k25_61 (V0 : Valuation τ sig (Elt F)) : lev61 V0 (Proc.devRef .tc main_v891) = lev26 V0 (Proc.devRef .tc main_v891) := (filt60_keep (lev60 V0) (r := main_v891) (by decide)).trans (k25_60 V0)
theorem k25_62 (V0 : Valuation τ sig (Elt F)) : lev62 V0 (Proc.devRef .tc main_v891) = lev26 V0 (Proc.devRef .tc main_v891) := (filt61_keep (lev61 V0) (r := main_v891) (by decide)).trans (k25_61 V0)
theorem k25_63 (V0 : Valuation τ sig (Elt F)) : lev63 V0 (Proc.devRef .tc main_v891) = lev26 V0 (Proc.devRef .tc main_v891) := (filt62_keep (lev62 V0) (r := main_v891) (by decide)).trans (k25_62 V0)
theorem k25_64 (V0 : Valuation τ sig (Elt F)) : lev64 V0 (Proc.devRef .tc main_v891) = lev26 V0 (Proc.devRef .tc main_v891) := (filt63_keep (lev63 V0) (r := main_v891) (by decide)).trans (k25_63 V0)
theorem k26_28 (V0 : Valuation τ sig (Elt F)) : lev28 V0 (Proc.devRef .tc main_v946) = lev27 V0 (Proc.devRef .tc main_v946) := (filt27_keep (lev27 V0) (r := main_v946) (by decide))
theorem k26_29 (V0 : Valuation τ sig (Elt F)) : lev29 V0 (Proc.devRef .tc main_v946) = lev27 V0 (Proc.devRef .tc main_v946) := (filt28_keep (lev28 V0) (r := main_v946) (by decide)).trans (k26_28 V0)
theorem k26_30 (V0 : Valuation τ sig (Elt F)) : lev30 V0 (Proc.devRef .tc main_v946) = lev27 V0 (Proc.devRef .tc main_v946) := (filt29_keep (lev29 V0) (r := main_v946) (by decide)).trans (k26_29 V0)
theorem k26_31 (V0 : Valuation τ sig (Elt F)) : lev31 V0 (Proc.devRef .tc main_v946) = lev27 V0 (Proc.devRef .tc main_v946) := (filt30_keep (lev30 V0) (r := main_v946) (by decide)).trans (k26_30 V0)
theorem k26_32 (V0 : Valuation τ sig (Elt F)) : lev32 V0 (Proc.devRef .tc main_v946) = lev27 V0 (Proc.devRef .tc main_v946) := (filt31_keep (lev31 V0) (r := main_v946) (by decide)).trans (k26_31 V0)
theorem k26_33 (V0 : Valuation τ sig (Elt F)) : lev33 V0 (Proc.devRef .tc main_v946) = lev27 V0 (Proc.devRef .tc main_v946) := (filt32_keep (lev32 V0) (r := main_v946) (by decide)).trans (k26_32 V0)
theorem k26_34 (V0 : Valuation τ sig (Elt F)) : lev34 V0 (Proc.devRef .tc main_v946) = lev27 V0 (Proc.devRef .tc main_v946) := (filt33_keep (lev33 V0) (r := main_v946) (by decide)).trans (k26_33 V0)
theorem k26_35 (V0 : Valuation τ sig (Elt F)) : lev35 V0 (Proc.devRef .tc main_v946) = lev27 V0 (Proc.devRef .tc main_v946) := (filt34_keep (lev34 V0) (r := main_v946) (by decide)).trans (k26_34 V0)
theorem k26_36 (V0 : Valuation τ sig (Elt F)) : lev36 V0 (Proc.devRef .tc main_v946) = lev27 V0 (Proc.devRef .tc main_v946) := (filt35_keep (lev35 V0) (r := main_v946) (by decide)).trans (k26_35 V0)
theorem k26_37 (V0 : Valuation τ sig (Elt F)) : lev37 V0 (Proc.devRef .tc main_v946) = lev27 V0 (Proc.devRef .tc main_v946) := (filt36_keep (lev36 V0) (r := main_v946) (by decide)).trans (k26_36 V0)
theorem k26_38 (V0 : Valuation τ sig (Elt F)) : lev38 V0 (Proc.devRef .tc main_v946) = lev27 V0 (Proc.devRef .tc main_v946) := (filt37_keep (lev37 V0) (r := main_v946) (by decide)).trans (k26_37 V0)
theorem k26_39 (V0 : Valuation τ sig (Elt F)) : lev39 V0 (Proc.devRef .tc main_v946) = lev27 V0 (Proc.devRef .tc main_v946) := (filt38_keep (lev38 V0) (r := main_v946) (by decide)).trans (k26_38 V0)
theorem k26_40 (V0 : Valuation τ sig (Elt F)) : lev40 V0 (Proc.devRef .tc main_v946) = lev27 V0 (Proc.devRef .tc main_v946) := (filt39_keep (lev39 V0) (r := main_v946) (by decide)).trans (k26_39 V0)
theorem k26_41 (V0 : Valuation τ sig (Elt F)) : lev41 V0 (Proc.devRef .tc main_v946) = lev27 V0 (Proc.devRef .tc main_v946) := (filt40_keep (lev40 V0) (r := main_v946) (by decide)).trans (k26_40 V0)
theorem k26_42 (V0 : Valuation τ sig (Elt F)) : lev42 V0 (Proc.devRef .tc main_v946) = lev27 V0 (Proc.devRef .tc main_v946) := (filt41_keep (lev41 V0) (r := main_v946) (by decide)).trans (k26_41 V0)
theorem k26_43 (V0 : Valuation τ sig (Elt F)) : lev43 V0 (Proc.devRef .tc main_v946) = lev27 V0 (Proc.devRef .tc main_v946) := (filt42_keep (lev42 V0) (r := main_v946) (by decide)).trans (k26_42 V0)
theorem k26_44 (V0 : Valuation τ sig (Elt F)) : lev44 V0 (Proc.devRef .tc main_v946) = lev27 V0 (Proc.devRef .tc main_v946) := (filt43_keep (lev43 V0) (r := main_v946) (by decide)).trans (k26_43 V0)
theorem k26_45 (V0 : Valuation τ sig (Elt F)) : lev45 V0 (Proc.devRef .tc main_v946) = lev27 V0 (Proc.devRef .tc main_v946) := (filt44_keep (lev44 V0) (r := main_v946) (by decide)).trans (k26_44 V0)
theorem k26_46 (V0 : Valuation τ sig (Elt F)) : lev46 V0 (Proc.devRef .tc main_v946) = lev27 V0 (Proc.devRef .tc main_v946) := (filt45_keep (lev45 V0) (r := main_v946) (by decide)).trans (k26_45 V0)
theorem k26_47 (V0 : Valuation τ sig (Elt F)) : lev47 V0 (Proc.devRef .tc main_v946) = lev27 V0 (Proc.devRef .tc main_v946) := (filt46_keep (lev46 V0) (r := main_v946) (by decide)).trans (k26_46 V0)
theorem k26_48 (V0 : Valuation τ sig (Elt F)) : lev48 V0 (Proc.devRef .tc main_v946) = lev27 V0 (Proc.devRef .tc main_v946) := (filt47_keep (lev47 V0) (r := main_v946) (by decide)).trans (k26_47 V0)
theorem k26_49 (V0 : Valuation τ sig (Elt F)) : lev49 V0 (Proc.devRef .tc main_v946) = lev27 V0 (Proc.devRef .tc main_v946) := (filt48_keep (lev48 V0) (r := main_v946) (by decide)).trans (k26_48 V0)
theorem k26_50 (V0 : Valuation τ sig (Elt F)) : lev50 V0 (Proc.devRef .tc main_v946) = lev27 V0 (Proc.devRef .tc main_v946) := (filt49_keep (lev49 V0) (r := main_v946) (by decide)).trans (k26_49 V0)
theorem k26_51 (V0 : Valuation τ sig (Elt F)) : lev51 V0 (Proc.devRef .tc main_v946) = lev27 V0 (Proc.devRef .tc main_v946) := (filt50_keep (lev50 V0) (r := main_v946) (by decide)).trans (k26_50 V0)
theorem k26_52 (V0 : Valuation τ sig (Elt F)) : lev52 V0 (Proc.devRef .tc main_v946) = lev27 V0 (Proc.devRef .tc main_v946) := (filt51_keep (lev51 V0) (r := main_v946) (by decide)).trans (k26_51 V0)
theorem k26_53 (V0 : Valuation τ sig (Elt F)) : lev53 V0 (Proc.devRef .tc main_v946) = lev27 V0 (Proc.devRef .tc main_v946) := (filt52_keep (lev52 V0) (r := main_v946) (by decide)).trans (k26_52 V0)
theorem k26_54 (V0 : Valuation τ sig (Elt F)) : lev54 V0 (Proc.devRef .tc main_v946) = lev27 V0 (Proc.devRef .tc main_v946) := (filt53_keep (lev53 V0) (r := main_v946) (by decide)).trans (k26_53 V0)
theorem k26_55 (V0 : Valuation τ sig (Elt F)) : lev55 V0 (Proc.devRef .tc main_v946) = lev27 V0 (Proc.devRef .tc main_v946) := (filt54_keep (lev54 V0) (r := main_v946) (by decide)).trans (k26_54 V0)
theorem k26_56 (V0 : Valuation τ sig (Elt F)) : lev56 V0 (Proc.devRef .tc main_v946) = lev27 V0 (Proc.devRef .tc main_v946) := (filt55_keep (lev55 V0) (r := main_v946) (by decide)).trans (k26_55 V0)
theorem k26_57 (V0 : Valuation τ sig (Elt F)) : lev57 V0 (Proc.devRef .tc main_v946) = lev27 V0 (Proc.devRef .tc main_v946) := (filt56_keep (lev56 V0) (r := main_v946) (by decide)).trans (k26_56 V0)
theorem k26_58 (V0 : Valuation τ sig (Elt F)) : lev58 V0 (Proc.devRef .tc main_v946) = lev27 V0 (Proc.devRef .tc main_v946) := (filt57_keep (lev57 V0) (r := main_v946) (by decide)).trans (k26_57 V0)
theorem k26_59 (V0 : Valuation τ sig (Elt F)) : lev59 V0 (Proc.devRef .tc main_v946) = lev27 V0 (Proc.devRef .tc main_v946) := (filt58_keep (lev58 V0) (r := main_v946) (by decide)).trans (k26_58 V0)
theorem k26_60 (V0 : Valuation τ sig (Elt F)) : lev60 V0 (Proc.devRef .tc main_v946) = lev27 V0 (Proc.devRef .tc main_v946) := (filt59_keep (lev59 V0) (r := main_v946) (by decide)).trans (k26_59 V0)
theorem k26_61 (V0 : Valuation τ sig (Elt F)) : lev61 V0 (Proc.devRef .tc main_v946) = lev27 V0 (Proc.devRef .tc main_v946) := (filt60_keep (lev60 V0) (r := main_v946) (by decide)).trans (k26_60 V0)
theorem k26_62 (V0 : Valuation τ sig (Elt F)) : lev62 V0 (Proc.devRef .tc main_v946) = lev27 V0 (Proc.devRef .tc main_v946) := (filt61_keep (lev61 V0) (r := main_v946) (by decide)).trans (k26_61 V0)
theorem k26_63 (V0 : Valuation τ sig (Elt F)) : lev63 V0 (Proc.devRef .tc main_v946) = lev27 V0 (Proc.devRef .tc main_v946) := (filt62_keep (lev62 V0) (r := main_v946) (by decide)).trans (k26_62 V0)
theorem k26_64 (V0 : Valuation τ sig (Elt F)) : lev64 V0 (Proc.devRef .tc main_v946) = lev27 V0 (Proc.devRef .tc main_v946) := (filt63_keep (lev63 V0) (r := main_v946) (by decide)).trans (k26_63 V0)
theorem k27_29 (V0 : Valuation τ sig (Elt F)) : lev29 V0 (Proc.devRef .tc main_v1001) = lev28 V0 (Proc.devRef .tc main_v1001) := (filt28_keep (lev28 V0) (r := main_v1001) (by decide))
theorem k27_30 (V0 : Valuation τ sig (Elt F)) : lev30 V0 (Proc.devRef .tc main_v1001) = lev28 V0 (Proc.devRef .tc main_v1001) := (filt29_keep (lev29 V0) (r := main_v1001) (by decide)).trans (k27_29 V0)
theorem k27_31 (V0 : Valuation τ sig (Elt F)) : lev31 V0 (Proc.devRef .tc main_v1001) = lev28 V0 (Proc.devRef .tc main_v1001) := (filt30_keep (lev30 V0) (r := main_v1001) (by decide)).trans (k27_30 V0)
theorem k27_32 (V0 : Valuation τ sig (Elt F)) : lev32 V0 (Proc.devRef .tc main_v1001) = lev28 V0 (Proc.devRef .tc main_v1001) := (filt31_keep (lev31 V0) (r := main_v1001) (by decide)).trans (k27_31 V0)
theorem k27_33 (V0 : Valuation τ sig (Elt F)) : lev33 V0 (Proc.devRef .tc main_v1001) = lev28 V0 (Proc.devRef .tc main_v1001) := (filt32_keep (lev32 V0) (r := main_v1001) (by decide)).trans (k27_32 V0)
theorem k27_34 (V0 : Valuation τ sig (Elt F)) : lev34 V0 (Proc.devRef .tc main_v1001) = lev28 V0 (Proc.devRef .tc main_v1001) := (filt33_keep (lev33 V0) (r := main_v1001) (by decide)).trans (k27_33 V0)
theorem k27_35 (V0 : Valuation τ sig (Elt F)) : lev35 V0 (Proc.devRef .tc main_v1001) = lev28 V0 (Proc.devRef .tc main_v1001) := (filt34_keep (lev34 V0) (r := main_v1001) (by decide)).trans (k27_34 V0)
theorem k27_36 (V0 : Valuation τ sig (Elt F)) : lev36 V0 (Proc.devRef .tc main_v1001) = lev28 V0 (Proc.devRef .tc main_v1001) := (filt35_keep (lev35 V0) (r := main_v1001) (by decide)).trans (k27_35 V0)
theorem k27_37 (V0 : Valuation τ sig (Elt F)) : lev37 V0 (Proc.devRef .tc main_v1001) = lev28 V0 (Proc.devRef .tc main_v1001) := (filt36_keep (lev36 V0) (r := main_v1001) (by decide)).trans (k27_36 V0)
theorem k27_38 (V0 : Valuation τ sig (Elt F)) : lev38 V0 (Proc.devRef .tc main_v1001) = lev28 V0 (Proc.devRef .tc main_v1001) := (filt37_keep (lev37 V0) (r := main_v1001) (by decide)).trans (k27_37 V0)
theorem k27_39 (V0 : Valuation τ sig (Elt F)) : lev39 V0 (Proc.devRef .tc main_v1001) = lev28 V0 (Proc.devRef .tc main_v1001) := (filt38_keep (lev38 V0) (r := main_v1001) (by decide)).trans (k27_38 V0)
theorem k27_40 (V0 : Valuation τ sig (Elt F)) : lev40 V0 (Proc.devRef .tc main_v1001) = lev28 V0 (Proc.devRef .tc main_v1001) := (filt39_keep (lev39 V0) (r := main_v1001) (by decide)).trans (k27_39 V0)
theorem k27_41 (V0 : Valuation τ sig (Elt F)) : lev41 V0 (Proc.devRef .tc main_v1001) = lev28 V0 (Proc.devRef .tc main_v1001) := (filt40_keep (lev40 V0) (r := main_v1001) (by decide)).trans (k27_40 V0)
theorem k27_42 (V0 : Valuation τ sig (Elt F)) : lev42 V0 (Proc.devRef .tc main_v1001) = lev28 V0 (Proc.devRef .tc main_v1001) := (filt41_keep (lev41 V0) (r := main_v1001) (by decide)).trans (k27_41 V0)
theorem k27_43 (V0 : Valuation τ sig (Elt F)) : lev43 V0 (Proc.devRef .tc main_v1001) = lev28 V0 (Proc.devRef .tc main_v1001) := (filt42_keep (lev42 V0) (r := main_v1001) (by decide)).trans (k27_42 V0)
theorem k27_44 (V0 : Valuation τ sig (Elt F)) : lev44 V0 (Proc.devRef .tc main_v1001) = lev28 V0 (Proc.devRef .tc main_v1001) := (filt43_keep (lev43 V0) (r := main_v1001) (by decide)).trans (k27_43 V0)
theorem k27_45 (V0 : Valuation τ sig (Elt F)) : lev45 V0 (Proc.devRef .tc main_v1001) = lev28 V0 (Proc.devRef .tc main_v1001) := (filt44_keep (lev44 V0) (r := main_v1001) (by decide)).trans (k27_44 V0)
theorem k27_46 (V0 : Valuation τ sig (Elt F)) : lev46 V0 (Proc.devRef .tc main_v1001) = lev28 V0 (Proc.devRef .tc main_v1001) := (filt45_keep (lev45 V0) (r := main_v1001) (by decide)).trans (k27_45 V0)
theorem k27_47 (V0 : Valuation τ sig (Elt F)) : lev47 V0 (Proc.devRef .tc main_v1001) = lev28 V0 (Proc.devRef .tc main_v1001) := (filt46_keep (lev46 V0) (r := main_v1001) (by decide)).trans (k27_46 V0)
theorem k27_48 (V0 : Valuation τ sig (Elt F)) : lev48 V0 (Proc.devRef .tc main_v1001) = lev28 V0 (Proc.devRef .tc main_v1001) := (filt47_keep (lev47 V0) (r := main_v1001) (by decide)).trans (k27_47 V0)
theorem k27_49 (V0 : Valuation τ sig (Elt F)) : lev49 V0 (Proc.devRef .tc main_v1001) = lev28 V0 (Proc.devRef .tc main_v1001) := (filt48_keep (lev48 V0) (r := main_v1001) (by decide)).trans (k27_48 V0)
theorem k27_50 (V0 : Valuation τ sig (Elt F)) : lev50 V0 (Proc.devRef .tc main_v1001) = lev28 V0 (Proc.devRef .tc main_v1001) := (filt49_keep (lev49 V0) (r := main_v1001) (by decide)).trans (k27_49 V0)
theorem k27_51 (V0 : Valuation τ sig (Elt F)) : lev51 V0 (Proc.devRef .tc main_v1001) = lev28 V0 (Proc.devRef .tc main_v1001) := (filt50_keep (lev50 V0) (r := main_v1001) (by decide)).trans (k27_50 V0)
theorem k27_52 (V0 : Valuation τ sig (Elt F)) : lev52 V0 (Proc.devRef .tc main_v1001) = lev28 V0 (Proc.devRef .tc main_v1001) := (filt51_keep (lev51 V0) (r := main_v1001) (by decide)).trans (k27_51 V0)
theorem k27_53 (V0 : Valuation τ sig (Elt F)) : lev53 V0 (Proc.devRef .tc main_v1001) = lev28 V0 (Proc.devRef .tc main_v1001) := (filt52_keep (lev52 V0) (r := main_v1001) (by decide)).trans (k27_52 V0)
theorem k27_54 (V0 : Valuation τ sig (Elt F)) : lev54 V0 (Proc.devRef .tc main_v1001) = lev28 V0 (Proc.devRef .tc main_v1001) := (filt53_keep (lev53 V0) (r := main_v1001) (by decide)).trans (k27_53 V0)
theorem k27_55 (V0 : Valuation τ sig (Elt F)) : lev55 V0 (Proc.devRef .tc main_v1001) = lev28 V0 (Proc.devRef .tc main_v1001) := (filt54_keep (lev54 V0) (r := main_v1001) (by decide)).trans (k27_54 V0)
theorem k27_56 (V0 : Valuation τ sig (Elt F)) : lev56 V0 (Proc.devRef .tc main_v1001) = lev28 V0 (Proc.devRef .tc main_v1001) := (filt55_keep (lev55 V0) (r := main_v1001) (by decide)).trans (k27_55 V0)
theorem k27_57 (V0 : Valuation τ sig (Elt F)) : lev57 V0 (Proc.devRef .tc main_v1001) = lev28 V0 (Proc.devRef .tc main_v1001) := (filt56_keep (lev56 V0) (r := main_v1001) (by decide)).trans (k27_56 V0)
theorem k27_58 (V0 : Valuation τ sig (Elt F)) : lev58 V0 (Proc.devRef .tc main_v1001) = lev28 V0 (Proc.devRef .tc main_v1001) := (filt57_keep (lev57 V0) (r := main_v1001) (by decide)).trans (k27_57 V0)
theorem k27_59 (V0 : Valuation τ sig (Elt F)) : lev59 V0 (Proc.devRef .tc main_v1001) = lev28 V0 (Proc.devRef .tc main_v1001) := (filt58_keep (lev58 V0) (r := main_v1001) (by decide)).trans (k27_58 V0)
theorem k27_60 (V0 : Valuation τ sig (Elt F)) : lev60 V0 (Proc.devRef .tc main_v1001) = lev28 V0 (Proc.devRef .tc main_v1001) := (filt59_keep (lev59 V0) (r := main_v1001) (by decide)).trans (k27_59 V0)
theorem k27_61 (V0 : Valuation τ sig (Elt F)) : lev61 V0 (Proc.devRef .tc main_v1001) = lev28 V0 (Proc.devRef .tc main_v1001) := (filt60_keep (lev60 V0) (r := main_v1001) (by decide)).trans (k27_60 V0)
theorem k27_62 (V0 : Valuation τ sig (Elt F)) : lev62 V0 (Proc.devRef .tc main_v1001) = lev28 V0 (Proc.devRef .tc main_v1001) := (filt61_keep (lev61 V0) (r := main_v1001) (by decide)).trans (k27_61 V0)
theorem k27_63 (V0 : Valuation τ sig (Elt F)) : lev63 V0 (Proc.devRef .tc main_v1001) = lev28 V0 (Proc.devRef .tc main_v1001) := (filt62_keep (lev62 V0) (r := main_v1001) (by decide)).trans (k27_62 V0)
theorem k27_64 (V0 : Valuation τ sig (Elt F)) : lev64 V0 (Proc.devRef .tc main_v1001) = lev28 V0 (Proc.devRef .tc main_v1001) := (filt63_keep (lev63 V0) (r := main_v1001) (by decide)).trans (k27_63 V0)
theorem k28_30 (V0 : Valuation τ sig (Elt F)) : lev30 V0 (Proc.devRef .tc main_v1059) = lev29 V0 (Proc.devRef .tc main_v1059) := (filt29_keep (lev29 V0) (r := main_v1059) (by decide))
theorem k28_31 (V0 : Valuation τ sig (Elt F)) : lev31 V0 (Proc.devRef .tc main_v1059) = lev29 V0 (Proc.devRef .tc main_v1059) := (filt30_keep (lev30 V0) (r := main_v1059) (by decide)).trans (k28_30 V0)
theorem k28_32 (V0 : Valuation τ sig (Elt F)) : lev32 V0 (Proc.devRef .tc main_v1059) = lev29 V0 (Proc.devRef .tc main_v1059) := (filt31_keep (lev31 V0) (r := main_v1059) (by decide)).trans (k28_31 V0)
theorem k28_33 (V0 : Valuation τ sig (Elt F)) : lev33 V0 (Proc.devRef .tc main_v1059) = lev29 V0 (Proc.devRef .tc main_v1059) := (filt32_keep (lev32 V0) (r := main_v1059) (by decide)).trans (k28_32 V0)
theorem k28_34 (V0 : Valuation τ sig (Elt F)) : lev34 V0 (Proc.devRef .tc main_v1059) = lev29 V0 (Proc.devRef .tc main_v1059) := (filt33_keep (lev33 V0) (r := main_v1059) (by decide)).trans (k28_33 V0)
theorem k28_35 (V0 : Valuation τ sig (Elt F)) : lev35 V0 (Proc.devRef .tc main_v1059) = lev29 V0 (Proc.devRef .tc main_v1059) := (filt34_keep (lev34 V0) (r := main_v1059) (by decide)).trans (k28_34 V0)
theorem k28_36 (V0 : Valuation τ sig (Elt F)) : lev36 V0 (Proc.devRef .tc main_v1059) = lev29 V0 (Proc.devRef .tc main_v1059) := (filt35_keep (lev35 V0) (r := main_v1059) (by decide)).trans (k28_35 V0)
theorem k28_37 (V0 : Valuation τ sig (Elt F)) : lev37 V0 (Proc.devRef .tc main_v1059) = lev29 V0 (Proc.devRef .tc main_v1059) := (filt36_keep (lev36 V0) (r := main_v1059) (by decide)).trans (k28_36 V0)
theorem k28_38 (V0 : Valuation τ sig (Elt F)) : lev38 V0 (Proc.devRef .tc main_v1059) = lev29 V0 (Proc.devRef .tc main_v1059) := (filt37_keep (lev37 V0) (r := main_v1059) (by decide)).trans (k28_37 V0)
theorem k28_39 (V0 : Valuation τ sig (Elt F)) : lev39 V0 (Proc.devRef .tc main_v1059) = lev29 V0 (Proc.devRef .tc main_v1059) := (filt38_keep (lev38 V0) (r := main_v1059) (by decide)).trans (k28_38 V0)
theorem k28_40 (V0 : Valuation τ sig (Elt F)) : lev40 V0 (Proc.devRef .tc main_v1059) = lev29 V0 (Proc.devRef .tc main_v1059) := (filt39_keep (lev39 V0) (r := main_v1059) (by decide)).trans (k28_39 V0)
theorem k28_41 (V0 : Valuation τ sig (Elt F)) : lev41 V0 (Proc.devRef .tc main_v1059) = lev29 V0 (Proc.devRef .tc main_v1059) := (filt40_keep (lev40 V0) (r := main_v1059) (by decide)).trans (k28_40 V0)
theorem k28_42 (V0 : Valuation τ sig (Elt F)) : lev42 V0 (Proc.devRef .tc main_v1059) = lev29 V0 (Proc.devRef .tc main_v1059) := (filt41_keep (lev41 V0) (r := main_v1059) (by decide)).trans (k28_41 V0)
theorem k28_43 (V0 : Valuation τ sig (Elt F)) : lev43 V0 (Proc.devRef .tc main_v1059) = lev29 V0 (Proc.devRef .tc main_v1059) := (filt42_keep (lev42 V0) (r := main_v1059) (by decide)).trans (k28_42 V0)
theorem k28_44 (V0 : Valuation τ sig (Elt F)) : lev44 V0 (Proc.devRef .tc main_v1059) = lev29 V0 (Proc.devRef .tc main_v1059) := (filt43_keep (lev43 V0) (r := main_v1059) (by decide)).trans (k28_43 V0)
theorem k28_45 (V0 : Valuation τ sig (Elt F)) : lev45 V0 (Proc.devRef .tc main_v1059) = lev29 V0 (Proc.devRef .tc main_v1059) := (filt44_keep (lev44 V0) (r := main_v1059) (by decide)).trans (k28_44 V0)
theorem k28_46 (V0 : Valuation τ sig (Elt F)) : lev46 V0 (Proc.devRef .tc main_v1059) = lev29 V0 (Proc.devRef .tc main_v1059) := (filt45_keep (lev45 V0) (r := main_v1059) (by decide)).trans (k28_45 V0)
theorem k28_47 (V0 : Valuation τ sig (Elt F)) : lev47 V0 (Proc.devRef .tc main_v1059) = lev29 V0 (Proc.devRef .tc main_v1059) := (filt46_keep (lev46 V0) (r := main_v1059) (by decide)).trans (k28_46 V0)
theorem k28_48 (V0 : Valuation τ sig (Elt F)) : lev48 V0 (Proc.devRef .tc main_v1059) = lev29 V0 (Proc.devRef .tc main_v1059) := (filt47_keep (lev47 V0) (r := main_v1059) (by decide)).trans (k28_47 V0)
theorem k28_49 (V0 : Valuation τ sig (Elt F)) : lev49 V0 (Proc.devRef .tc main_v1059) = lev29 V0 (Proc.devRef .tc main_v1059) := (filt48_keep (lev48 V0) (r := main_v1059) (by decide)).trans (k28_48 V0)
theorem k28_50 (V0 : Valuation τ sig (Elt F)) : lev50 V0 (Proc.devRef .tc main_v1059) = lev29 V0 (Proc.devRef .tc main_v1059) := (filt49_keep (lev49 V0) (r := main_v1059) (by decide)).trans (k28_49 V0)
theorem k28_51 (V0 : Valuation τ sig (Elt F)) : lev51 V0 (Proc.devRef .tc main_v1059) = lev29 V0 (Proc.devRef .tc main_v1059) := (filt50_keep (lev50 V0) (r := main_v1059) (by decide)).trans (k28_50 V0)
theorem k28_52 (V0 : Valuation τ sig (Elt F)) : lev52 V0 (Proc.devRef .tc main_v1059) = lev29 V0 (Proc.devRef .tc main_v1059) := (filt51_keep (lev51 V0) (r := main_v1059) (by decide)).trans (k28_51 V0)
theorem k28_53 (V0 : Valuation τ sig (Elt F)) : lev53 V0 (Proc.devRef .tc main_v1059) = lev29 V0 (Proc.devRef .tc main_v1059) := (filt52_keep (lev52 V0) (r := main_v1059) (by decide)).trans (k28_52 V0)
theorem k28_54 (V0 : Valuation τ sig (Elt F)) : lev54 V0 (Proc.devRef .tc main_v1059) = lev29 V0 (Proc.devRef .tc main_v1059) := (filt53_keep (lev53 V0) (r := main_v1059) (by decide)).trans (k28_53 V0)
theorem k28_55 (V0 : Valuation τ sig (Elt F)) : lev55 V0 (Proc.devRef .tc main_v1059) = lev29 V0 (Proc.devRef .tc main_v1059) := (filt54_keep (lev54 V0) (r := main_v1059) (by decide)).trans (k28_54 V0)
theorem k28_56 (V0 : Valuation τ sig (Elt F)) : lev56 V0 (Proc.devRef .tc main_v1059) = lev29 V0 (Proc.devRef .tc main_v1059) := (filt55_keep (lev55 V0) (r := main_v1059) (by decide)).trans (k28_55 V0)
theorem k28_57 (V0 : Valuation τ sig (Elt F)) : lev57 V0 (Proc.devRef .tc main_v1059) = lev29 V0 (Proc.devRef .tc main_v1059) := (filt56_keep (lev56 V0) (r := main_v1059) (by decide)).trans (k28_56 V0)
theorem k28_58 (V0 : Valuation τ sig (Elt F)) : lev58 V0 (Proc.devRef .tc main_v1059) = lev29 V0 (Proc.devRef .tc main_v1059) := (filt57_keep (lev57 V0) (r := main_v1059) (by decide)).trans (k28_57 V0)
theorem k28_59 (V0 : Valuation τ sig (Elt F)) : lev59 V0 (Proc.devRef .tc main_v1059) = lev29 V0 (Proc.devRef .tc main_v1059) := (filt58_keep (lev58 V0) (r := main_v1059) (by decide)).trans (k28_58 V0)
theorem k28_60 (V0 : Valuation τ sig (Elt F)) : lev60 V0 (Proc.devRef .tc main_v1059) = lev29 V0 (Proc.devRef .tc main_v1059) := (filt59_keep (lev59 V0) (r := main_v1059) (by decide)).trans (k28_59 V0)
theorem k28_61 (V0 : Valuation τ sig (Elt F)) : lev61 V0 (Proc.devRef .tc main_v1059) = lev29 V0 (Proc.devRef .tc main_v1059) := (filt60_keep (lev60 V0) (r := main_v1059) (by decide)).trans (k28_60 V0)
theorem k28_62 (V0 : Valuation τ sig (Elt F)) : lev62 V0 (Proc.devRef .tc main_v1059) = lev29 V0 (Proc.devRef .tc main_v1059) := (filt61_keep (lev61 V0) (r := main_v1059) (by decide)).trans (k28_61 V0)
theorem k28_63 (V0 : Valuation τ sig (Elt F)) : lev63 V0 (Proc.devRef .tc main_v1059) = lev29 V0 (Proc.devRef .tc main_v1059) := (filt62_keep (lev62 V0) (r := main_v1059) (by decide)).trans (k28_62 V0)
theorem k28_64 (V0 : Valuation τ sig (Elt F)) : lev64 V0 (Proc.devRef .tc main_v1059) = lev29 V0 (Proc.devRef .tc main_v1059) := (filt63_keep (lev63 V0) (r := main_v1059) (by decide)).trans (k28_63 V0)
theorem k29_31 (V0 : Valuation τ sig (Elt F)) : lev31 V0 (Proc.devRef .tc main_v1117) = lev30 V0 (Proc.devRef .tc main_v1117) := (filt30_keep (lev30 V0) (r := main_v1117) (by decide))
theorem k29_32 (V0 : Valuation τ sig (Elt F)) : lev32 V0 (Proc.devRef .tc main_v1117) = lev30 V0 (Proc.devRef .tc main_v1117) := (filt31_keep (lev31 V0) (r := main_v1117) (by decide)).trans (k29_31 V0)
theorem k29_33 (V0 : Valuation τ sig (Elt F)) : lev33 V0 (Proc.devRef .tc main_v1117) = lev30 V0 (Proc.devRef .tc main_v1117) := (filt32_keep (lev32 V0) (r := main_v1117) (by decide)).trans (k29_32 V0)
theorem k29_34 (V0 : Valuation τ sig (Elt F)) : lev34 V0 (Proc.devRef .tc main_v1117) = lev30 V0 (Proc.devRef .tc main_v1117) := (filt33_keep (lev33 V0) (r := main_v1117) (by decide)).trans (k29_33 V0)
theorem k29_35 (V0 : Valuation τ sig (Elt F)) : lev35 V0 (Proc.devRef .tc main_v1117) = lev30 V0 (Proc.devRef .tc main_v1117) := (filt34_keep (lev34 V0) (r := main_v1117) (by decide)).trans (k29_34 V0)
theorem k29_36 (V0 : Valuation τ sig (Elt F)) : lev36 V0 (Proc.devRef .tc main_v1117) = lev30 V0 (Proc.devRef .tc main_v1117) := (filt35_keep (lev35 V0) (r := main_v1117) (by decide)).trans (k29_35 V0)
theorem k29_37 (V0 : Valuation τ sig (Elt F)) : lev37 V0 (Proc.devRef .tc main_v1117) = lev30 V0 (Proc.devRef .tc main_v1117) := (filt36_keep (lev36 V0) (r := main_v1117) (by decide)).trans (k29_36 V0)
theorem k29_38 (V0 : Valuation τ sig (Elt F)) : lev38 V0 (Proc.devRef .tc main_v1117) = lev30 V0 (Proc.devRef .tc main_v1117) := (filt37_keep (lev37 V0) (r := main_v1117) (by decide)).trans (k29_37 V0)
theorem k29_39 (V0 : Valuation τ sig (Elt F)) : lev39 V0 (Proc.devRef .tc main_v1117) = lev30 V0 (Proc.devRef .tc main_v1117) := (filt38_keep (lev38 V0) (r := main_v1117) (by decide)).trans (k29_38 V0)
theorem k29_40 (V0 : Valuation τ sig (Elt F)) : lev40 V0 (Proc.devRef .tc main_v1117) = lev30 V0 (Proc.devRef .tc main_v1117) := (filt39_keep (lev39 V0) (r := main_v1117) (by decide)).trans (k29_39 V0)
theorem k29_41 (V0 : Valuation τ sig (Elt F)) : lev41 V0 (Proc.devRef .tc main_v1117) = lev30 V0 (Proc.devRef .tc main_v1117) := (filt40_keep (lev40 V0) (r := main_v1117) (by decide)).trans (k29_40 V0)
theorem k29_42 (V0 : Valuation τ sig (Elt F)) : lev42 V0 (Proc.devRef .tc main_v1117) = lev30 V0 (Proc.devRef .tc main_v1117) := (filt41_keep (lev41 V0) (r := main_v1117) (by decide)).trans (k29_41 V0)
theorem k29_43 (V0 : Valuation τ sig (Elt F)) : lev43 V0 (Proc.devRef .tc main_v1117) = lev30 V0 (Proc.devRef .tc main_v1117) := (filt42_keep (lev42 V0) (r := main_v1117) (by decide)).trans (k29_42 V0)
theorem k29_44 (V0 : Valuation τ sig (Elt F)) : lev44 V0 (Proc.devRef .tc main_v1117) = lev30 V0 (Proc.devRef .tc main_v1117) := (filt43_keep (lev43 V0) (r := main_v1117) (by decide)).trans (k29_43 V0)
theorem k29_45 (V0 : Valuation τ sig (Elt F)) : lev45 V0 (Proc.devRef .tc main_v1117) = lev30 V0 (Proc.devRef .tc main_v1117) := (filt44_keep (lev44 V0) (r := main_v1117) (by decide)).trans (k29_44 V0)
theorem k29_46 (V0 : Valuation τ sig (Elt F)) : lev46 V0 (Proc.devRef .tc main_v1117) = lev30 V0 (Proc.devRef .tc main_v1117) := (filt45_keep (lev45 V0) (r := main_v1117) (by decide)).trans (k29_45 V0)
theorem k29_47 (V0 : Valuation τ sig (Elt F)) : lev47 V0 (Proc.devRef .tc main_v1117) = lev30 V0 (Proc.devRef .tc main_v1117) := (filt46_keep (lev46 V0) (r := main_v1117) (by decide)).trans (k29_46 V0)
theorem k29_48 (V0 : Valuation τ sig (Elt F)) : lev48 V0 (Proc.devRef .tc main_v1117) = lev30 V0 (Proc.devRef .tc main_v1117) := (filt47_keep (lev47 V0) (r := main_v1117) (by decide)).trans (k29_47 V0)
theorem k29_49 (V0 : Valuation τ sig (Elt F)) : lev49 V0 (Proc.devRef .tc main_v1117) = lev30 V0 (Proc.devRef .tc main_v1117) := (filt48_keep (lev48 V0) (r := main_v1117) (by decide)).trans (k29_48 V0)
theorem k29_50 (V0 : Valuation τ sig (Elt F)) : lev50 V0 (Proc.devRef .tc main_v1117) = lev30 V0 (Proc.devRef .tc main_v1117) := (filt49_keep (lev49 V0) (r := main_v1117) (by decide)).trans (k29_49 V0)
theorem k29_51 (V0 : Valuation τ sig (Elt F)) : lev51 V0 (Proc.devRef .tc main_v1117) = lev30 V0 (Proc.devRef .tc main_v1117) := (filt50_keep (lev50 V0) (r := main_v1117) (by decide)).trans (k29_50 V0)
theorem k29_52 (V0 : Valuation τ sig (Elt F)) : lev52 V0 (Proc.devRef .tc main_v1117) = lev30 V0 (Proc.devRef .tc main_v1117) := (filt51_keep (lev51 V0) (r := main_v1117) (by decide)).trans (k29_51 V0)
theorem k29_53 (V0 : Valuation τ sig (Elt F)) : lev53 V0 (Proc.devRef .tc main_v1117) = lev30 V0 (Proc.devRef .tc main_v1117) := (filt52_keep (lev52 V0) (r := main_v1117) (by decide)).trans (k29_52 V0)
theorem k29_54 (V0 : Valuation τ sig (Elt F)) : lev54 V0 (Proc.devRef .tc main_v1117) = lev30 V0 (Proc.devRef .tc main_v1117) := (filt53_keep (lev53 V0) (r := main_v1117) (by decide)).trans (k29_53 V0)
theorem k29_55 (V0 : Valuation τ sig (Elt F)) : lev55 V0 (Proc.devRef .tc main_v1117) = lev30 V0 (Proc.devRef .tc main_v1117) := (filt54_keep (lev54 V0) (r := main_v1117) (by decide)).trans (k29_54 V0)
theorem k29_56 (V0 : Valuation τ sig (Elt F)) : lev56 V0 (Proc.devRef .tc main_v1117) = lev30 V0 (Proc.devRef .tc main_v1117) := (filt55_keep (lev55 V0) (r := main_v1117) (by decide)).trans (k29_55 V0)
theorem k29_57 (V0 : Valuation τ sig (Elt F)) : lev57 V0 (Proc.devRef .tc main_v1117) = lev30 V0 (Proc.devRef .tc main_v1117) := (filt56_keep (lev56 V0) (r := main_v1117) (by decide)).trans (k29_56 V0)
theorem k29_58 (V0 : Valuation τ sig (Elt F)) : lev58 V0 (Proc.devRef .tc main_v1117) = lev30 V0 (Proc.devRef .tc main_v1117) := (filt57_keep (lev57 V0) (r := main_v1117) (by decide)).trans (k29_57 V0)
theorem k29_59 (V0 : Valuation τ sig (Elt F)) : lev59 V0 (Proc.devRef .tc main_v1117) = lev30 V0 (Proc.devRef .tc main_v1117) := (filt58_keep (lev58 V0) (r := main_v1117) (by decide)).trans (k29_58 V0)
theorem k29_60 (V0 : Valuation τ sig (Elt F)) : lev60 V0 (Proc.devRef .tc main_v1117) = lev30 V0 (Proc.devRef .tc main_v1117) := (filt59_keep (lev59 V0) (r := main_v1117) (by decide)).trans (k29_59 V0)
theorem k29_61 (V0 : Valuation τ sig (Elt F)) : lev61 V0 (Proc.devRef .tc main_v1117) = lev30 V0 (Proc.devRef .tc main_v1117) := (filt60_keep (lev60 V0) (r := main_v1117) (by decide)).trans (k29_60 V0)
theorem k29_62 (V0 : Valuation τ sig (Elt F)) : lev62 V0 (Proc.devRef .tc main_v1117) = lev30 V0 (Proc.devRef .tc main_v1117) := (filt61_keep (lev61 V0) (r := main_v1117) (by decide)).trans (k29_61 V0)
theorem k29_63 (V0 : Valuation τ sig (Elt F)) : lev63 V0 (Proc.devRef .tc main_v1117) = lev30 V0 (Proc.devRef .tc main_v1117) := (filt62_keep (lev62 V0) (r := main_v1117) (by decide)).trans (k29_62 V0)
theorem k29_64 (V0 : Valuation τ sig (Elt F)) : lev64 V0 (Proc.devRef .tc main_v1117) = lev30 V0 (Proc.devRef .tc main_v1117) := (filt63_keep (lev63 V0) (r := main_v1117) (by decide)).trans (k29_63 V0)
theorem k30_32 (V0 : Valuation τ sig (Elt F)) : lev32 V0 (Proc.devRef .tc main_v1178) = lev31 V0 (Proc.devRef .tc main_v1178) := (filt31_keep (lev31 V0) (r := main_v1178) (by decide))
theorem k30_33 (V0 : Valuation τ sig (Elt F)) : lev33 V0 (Proc.devRef .tc main_v1178) = lev31 V0 (Proc.devRef .tc main_v1178) := (filt32_keep (lev32 V0) (r := main_v1178) (by decide)).trans (k30_32 V0)
theorem k30_34 (V0 : Valuation τ sig (Elt F)) : lev34 V0 (Proc.devRef .tc main_v1178) = lev31 V0 (Proc.devRef .tc main_v1178) := (filt33_keep (lev33 V0) (r := main_v1178) (by decide)).trans (k30_33 V0)
theorem k30_35 (V0 : Valuation τ sig (Elt F)) : lev35 V0 (Proc.devRef .tc main_v1178) = lev31 V0 (Proc.devRef .tc main_v1178) := (filt34_keep (lev34 V0) (r := main_v1178) (by decide)).trans (k30_34 V0)
theorem k30_36 (V0 : Valuation τ sig (Elt F)) : lev36 V0 (Proc.devRef .tc main_v1178) = lev31 V0 (Proc.devRef .tc main_v1178) := (filt35_keep (lev35 V0) (r := main_v1178) (by decide)).trans (k30_35 V0)
theorem k30_37 (V0 : Valuation τ sig (Elt F)) : lev37 V0 (Proc.devRef .tc main_v1178) = lev31 V0 (Proc.devRef .tc main_v1178) := (filt36_keep (lev36 V0) (r := main_v1178) (by decide)).trans (k30_36 V0)
theorem k30_38 (V0 : Valuation τ sig (Elt F)) : lev38 V0 (Proc.devRef .tc main_v1178) = lev31 V0 (Proc.devRef .tc main_v1178) := (filt37_keep (lev37 V0) (r := main_v1178) (by decide)).trans (k30_37 V0)
theorem k30_39 (V0 : Valuation τ sig (Elt F)) : lev39 V0 (Proc.devRef .tc main_v1178) = lev31 V0 (Proc.devRef .tc main_v1178) := (filt38_keep (lev38 V0) (r := main_v1178) (by decide)).trans (k30_38 V0)
theorem k30_40 (V0 : Valuation τ sig (Elt F)) : lev40 V0 (Proc.devRef .tc main_v1178) = lev31 V0 (Proc.devRef .tc main_v1178) := (filt39_keep (lev39 V0) (r := main_v1178) (by decide)).trans (k30_39 V0)
theorem k30_41 (V0 : Valuation τ sig (Elt F)) : lev41 V0 (Proc.devRef .tc main_v1178) = lev31 V0 (Proc.devRef .tc main_v1178) := (filt40_keep (lev40 V0) (r := main_v1178) (by decide)).trans (k30_40 V0)
theorem k30_42 (V0 : Valuation τ sig (Elt F)) : lev42 V0 (Proc.devRef .tc main_v1178) = lev31 V0 (Proc.devRef .tc main_v1178) := (filt41_keep (lev41 V0) (r := main_v1178) (by decide)).trans (k30_41 V0)
theorem k30_43 (V0 : Valuation τ sig (Elt F)) : lev43 V0 (Proc.devRef .tc main_v1178) = lev31 V0 (Proc.devRef .tc main_v1178) := (filt42_keep (lev42 V0) (r := main_v1178) (by decide)).trans (k30_42 V0)
theorem k30_44 (V0 : Valuation τ sig (Elt F)) : lev44 V0 (Proc.devRef .tc main_v1178) = lev31 V0 (Proc.devRef .tc main_v1178) := (filt43_keep (lev43 V0) (r := main_v1178) (by decide)).trans (k30_43 V0)
theorem k30_45 (V0 : Valuation τ sig (Elt F)) : lev45 V0 (Proc.devRef .tc main_v1178) = lev31 V0 (Proc.devRef .tc main_v1178) := (filt44_keep (lev44 V0) (r := main_v1178) (by decide)).trans (k30_44 V0)
theorem k30_46 (V0 : Valuation τ sig (Elt F)) : lev46 V0 (Proc.devRef .tc main_v1178) = lev31 V0 (Proc.devRef .tc main_v1178) := (filt45_keep (lev45 V0) (r := main_v1178) (by decide)).trans (k30_45 V0)
theorem k30_47 (V0 : Valuation τ sig (Elt F)) : lev47 V0 (Proc.devRef .tc main_v1178) = lev31 V0 (Proc.devRef .tc main_v1178) := (filt46_keep (lev46 V0) (r := main_v1178) (by decide)).trans (k30_46 V0)
theorem k30_48 (V0 : Valuation τ sig (Elt F)) : lev48 V0 (Proc.devRef .tc main_v1178) = lev31 V0 (Proc.devRef .tc main_v1178) := (filt47_keep (lev47 V0) (r := main_v1178) (by decide)).trans (k30_47 V0)
theorem k30_49 (V0 : Valuation τ sig (Elt F)) : lev49 V0 (Proc.devRef .tc main_v1178) = lev31 V0 (Proc.devRef .tc main_v1178) := (filt48_keep (lev48 V0) (r := main_v1178) (by decide)).trans (k30_48 V0)
theorem k30_50 (V0 : Valuation τ sig (Elt F)) : lev50 V0 (Proc.devRef .tc main_v1178) = lev31 V0 (Proc.devRef .tc main_v1178) := (filt49_keep (lev49 V0) (r := main_v1178) (by decide)).trans (k30_49 V0)
theorem k30_51 (V0 : Valuation τ sig (Elt F)) : lev51 V0 (Proc.devRef .tc main_v1178) = lev31 V0 (Proc.devRef .tc main_v1178) := (filt50_keep (lev50 V0) (r := main_v1178) (by decide)).trans (k30_50 V0)
theorem k30_52 (V0 : Valuation τ sig (Elt F)) : lev52 V0 (Proc.devRef .tc main_v1178) = lev31 V0 (Proc.devRef .tc main_v1178) := (filt51_keep (lev51 V0) (r := main_v1178) (by decide)).trans (k30_51 V0)
theorem k30_53 (V0 : Valuation τ sig (Elt F)) : lev53 V0 (Proc.devRef .tc main_v1178) = lev31 V0 (Proc.devRef .tc main_v1178) := (filt52_keep (lev52 V0) (r := main_v1178) (by decide)).trans (k30_52 V0)
theorem k30_54 (V0 : Valuation τ sig (Elt F)) : lev54 V0 (Proc.devRef .tc main_v1178) = lev31 V0 (Proc.devRef .tc main_v1178) := (filt53_keep (lev53 V0) (r := main_v1178) (by decide)).trans (k30_53 V0)
theorem k30_55 (V0 : Valuation τ sig (Elt F)) : lev55 V0 (Proc.devRef .tc main_v1178) = lev31 V0 (Proc.devRef .tc main_v1178) := (filt54_keep (lev54 V0) (r := main_v1178) (by decide)).trans (k30_54 V0)
theorem k30_56 (V0 : Valuation τ sig (Elt F)) : lev56 V0 (Proc.devRef .tc main_v1178) = lev31 V0 (Proc.devRef .tc main_v1178) := (filt55_keep (lev55 V0) (r := main_v1178) (by decide)).trans (k30_55 V0)
theorem k30_57 (V0 : Valuation τ sig (Elt F)) : lev57 V0 (Proc.devRef .tc main_v1178) = lev31 V0 (Proc.devRef .tc main_v1178) := (filt56_keep (lev56 V0) (r := main_v1178) (by decide)).trans (k30_56 V0)
theorem k30_58 (V0 : Valuation τ sig (Elt F)) : lev58 V0 (Proc.devRef .tc main_v1178) = lev31 V0 (Proc.devRef .tc main_v1178) := (filt57_keep (lev57 V0) (r := main_v1178) (by decide)).trans (k30_57 V0)
theorem k30_59 (V0 : Valuation τ sig (Elt F)) : lev59 V0 (Proc.devRef .tc main_v1178) = lev31 V0 (Proc.devRef .tc main_v1178) := (filt58_keep (lev58 V0) (r := main_v1178) (by decide)).trans (k30_58 V0)
theorem k30_60 (V0 : Valuation τ sig (Elt F)) : lev60 V0 (Proc.devRef .tc main_v1178) = lev31 V0 (Proc.devRef .tc main_v1178) := (filt59_keep (lev59 V0) (r := main_v1178) (by decide)).trans (k30_59 V0)
theorem k30_61 (V0 : Valuation τ sig (Elt F)) : lev61 V0 (Proc.devRef .tc main_v1178) = lev31 V0 (Proc.devRef .tc main_v1178) := (filt60_keep (lev60 V0) (r := main_v1178) (by decide)).trans (k30_60 V0)
theorem k30_62 (V0 : Valuation τ sig (Elt F)) : lev62 V0 (Proc.devRef .tc main_v1178) = lev31 V0 (Proc.devRef .tc main_v1178) := (filt61_keep (lev61 V0) (r := main_v1178) (by decide)).trans (k30_61 V0)
theorem k30_63 (V0 : Valuation τ sig (Elt F)) : lev63 V0 (Proc.devRef .tc main_v1178) = lev31 V0 (Proc.devRef .tc main_v1178) := (filt62_keep (lev62 V0) (r := main_v1178) (by decide)).trans (k30_62 V0)
theorem k30_64 (V0 : Valuation τ sig (Elt F)) : lev64 V0 (Proc.devRef .tc main_v1178) = lev31 V0 (Proc.devRef .tc main_v1178) := (filt63_keep (lev63 V0) (r := main_v1178) (by decide)).trans (k30_63 V0)
theorem k31_33 (V0 : Valuation τ sig (Elt F)) : lev33 V0 (Proc.devRef .tc main_v1239) = lev32 V0 (Proc.devRef .tc main_v1239) := (filt32_keep (lev32 V0) (r := main_v1239) (by decide))
theorem k31_34 (V0 : Valuation τ sig (Elt F)) : lev34 V0 (Proc.devRef .tc main_v1239) = lev32 V0 (Proc.devRef .tc main_v1239) := (filt33_keep (lev33 V0) (r := main_v1239) (by decide)).trans (k31_33 V0)
theorem k31_35 (V0 : Valuation τ sig (Elt F)) : lev35 V0 (Proc.devRef .tc main_v1239) = lev32 V0 (Proc.devRef .tc main_v1239) := (filt34_keep (lev34 V0) (r := main_v1239) (by decide)).trans (k31_34 V0)
theorem k31_36 (V0 : Valuation τ sig (Elt F)) : lev36 V0 (Proc.devRef .tc main_v1239) = lev32 V0 (Proc.devRef .tc main_v1239) := (filt35_keep (lev35 V0) (r := main_v1239) (by decide)).trans (k31_35 V0)
theorem k31_37 (V0 : Valuation τ sig (Elt F)) : lev37 V0 (Proc.devRef .tc main_v1239) = lev32 V0 (Proc.devRef .tc main_v1239) := (filt36_keep (lev36 V0) (r := main_v1239) (by decide)).trans (k31_36 V0)
theorem k31_38 (V0 : Valuation τ sig (Elt F)) : lev38 V0 (Proc.devRef .tc main_v1239) = lev32 V0 (Proc.devRef .tc main_v1239) := (filt37_keep (lev37 V0) (r := main_v1239) (by decide)).trans (k31_37 V0)
theorem k31_39 (V0 : Valuation τ sig (Elt F)) : lev39 V0 (Proc.devRef .tc main_v1239) = lev32 V0 (Proc.devRef .tc main_v1239) := (filt38_keep (lev38 V0) (r := main_v1239) (by decide)).trans (k31_38 V0)
theorem k31_40 (V0 : Valuation τ sig (Elt F)) : lev40 V0 (Proc.devRef .tc main_v1239) = lev32 V0 (Proc.devRef .tc main_v1239) := (filt39_keep (lev39 V0) (r := main_v1239) (by decide)).trans (k31_39 V0)
theorem k31_41 (V0 : Valuation τ sig (Elt F)) : lev41 V0 (Proc.devRef .tc main_v1239) = lev32 V0 (Proc.devRef .tc main_v1239) := (filt40_keep (lev40 V0) (r := main_v1239) (by decide)).trans (k31_40 V0)
theorem k31_42 (V0 : Valuation τ sig (Elt F)) : lev42 V0 (Proc.devRef .tc main_v1239) = lev32 V0 (Proc.devRef .tc main_v1239) := (filt41_keep (lev41 V0) (r := main_v1239) (by decide)).trans (k31_41 V0)
theorem k31_43 (V0 : Valuation τ sig (Elt F)) : lev43 V0 (Proc.devRef .tc main_v1239) = lev32 V0 (Proc.devRef .tc main_v1239) := (filt42_keep (lev42 V0) (r := main_v1239) (by decide)).trans (k31_42 V0)
theorem k31_44 (V0 : Valuation τ sig (Elt F)) : lev44 V0 (Proc.devRef .tc main_v1239) = lev32 V0 (Proc.devRef .tc main_v1239) := (filt43_keep (lev43 V0) (r := main_v1239) (by decide)).trans (k31_43 V0)
theorem k31_45 (V0 : Valuation τ sig (Elt F)) : lev45 V0 (Proc.devRef .tc main_v1239) = lev32 V0 (Proc.devRef .tc main_v1239) := (filt44_keep (lev44 V0) (r := main_v1239) (by decide)).trans (k31_44 V0)
theorem k31_46 (V0 : Valuation τ sig (Elt F)) : lev46 V0 (Proc.devRef .tc main_v1239) = lev32 V0 (Proc.devRef .tc main_v1239) := (filt45_keep (lev45 V0) (r := main_v1239) (by decide)).trans (k31_45 V0)
theorem k31_47 (V0 : Valuation τ sig (Elt F)) : lev47 V0 (Proc.devRef .tc main_v1239) = lev32 V0 (Proc.devRef .tc main_v1239) := (filt46_keep (lev46 V0) (r := main_v1239) (by decide)).trans (k31_46 V0)
theorem k31_48 (V0 : Valuation τ sig (Elt F)) : lev48 V0 (Proc.devRef .tc main_v1239) = lev32 V0 (Proc.devRef .tc main_v1239) := (filt47_keep (lev47 V0) (r := main_v1239) (by decide)).trans (k31_47 V0)
theorem k31_49 (V0 : Valuation τ sig (Elt F)) : lev49 V0 (Proc.devRef .tc main_v1239) = lev32 V0 (Proc.devRef .tc main_v1239) := (filt48_keep (lev48 V0) (r := main_v1239) (by decide)).trans (k31_48 V0)
theorem k31_50 (V0 : Valuation τ sig (Elt F)) : lev50 V0 (Proc.devRef .tc main_v1239) = lev32 V0 (Proc.devRef .tc main_v1239) := (filt49_keep (lev49 V0) (r := main_v1239) (by decide)).trans (k31_49 V0)
theorem k31_51 (V0 : Valuation τ sig (Elt F)) : lev51 V0 (Proc.devRef .tc main_v1239) = lev32 V0 (Proc.devRef .tc main_v1239) := (filt50_keep (lev50 V0) (r := main_v1239) (by decide)).trans (k31_50 V0)
theorem k31_52 (V0 : Valuation τ sig (Elt F)) : lev52 V0 (Proc.devRef .tc main_v1239) = lev32 V0 (Proc.devRef .tc main_v1239) := (filt51_keep (lev51 V0) (r := main_v1239) (by decide)).trans (k31_51 V0)
theorem k31_53 (V0 : Valuation τ sig (Elt F)) : lev53 V0 (Proc.devRef .tc main_v1239) = lev32 V0 (Proc.devRef .tc main_v1239) := (filt52_keep (lev52 V0) (r := main_v1239) (by decide)).trans (k31_52 V0)
theorem k31_54 (V0 : Valuation τ sig (Elt F)) : lev54 V0 (Proc.devRef .tc main_v1239) = lev32 V0 (Proc.devRef .tc main_v1239) := (filt53_keep (lev53 V0) (r := main_v1239) (by decide)).trans (k31_53 V0)
theorem k31_55 (V0 : Valuation τ sig (Elt F)) : lev55 V0 (Proc.devRef .tc main_v1239) = lev32 V0 (Proc.devRef .tc main_v1239) := (filt54_keep (lev54 V0) (r := main_v1239) (by decide)).trans (k31_54 V0)
theorem k31_56 (V0 : Valuation τ sig (Elt F)) : lev56 V0 (Proc.devRef .tc main_v1239) = lev32 V0 (Proc.devRef .tc main_v1239) := (filt55_keep (lev55 V0) (r := main_v1239) (by decide)).trans (k31_55 V0)
theorem k31_57 (V0 : Valuation τ sig (Elt F)) : lev57 V0 (Proc.devRef .tc main_v1239) = lev32 V0 (Proc.devRef .tc main_v1239) := (filt56_keep (lev56 V0) (r := main_v1239) (by decide)).trans (k31_56 V0)
theorem k31_58 (V0 : Valuation τ sig (Elt F)) : lev58 V0 (Proc.devRef .tc main_v1239) = lev32 V0 (Proc.devRef .tc main_v1239) := (filt57_keep (lev57 V0) (r := main_v1239) (by decide)).trans (k31_57 V0)
theorem k31_59 (V0 : Valuation τ sig (Elt F)) : lev59 V0 (Proc.devRef .tc main_v1239) = lev32 V0 (Proc.devRef .tc main_v1239) := (filt58_keep (lev58 V0) (r := main_v1239) (by decide)).trans (k31_58 V0)
theorem k31_60 (V0 : Valuation τ sig (Elt F)) : lev60 V0 (Proc.devRef .tc main_v1239) = lev32 V0 (Proc.devRef .tc main_v1239) := (filt59_keep (lev59 V0) (r := main_v1239) (by decide)).trans (k31_59 V0)
theorem k31_61 (V0 : Valuation τ sig (Elt F)) : lev61 V0 (Proc.devRef .tc main_v1239) = lev32 V0 (Proc.devRef .tc main_v1239) := (filt60_keep (lev60 V0) (r := main_v1239) (by decide)).trans (k31_60 V0)
theorem k31_62 (V0 : Valuation τ sig (Elt F)) : lev62 V0 (Proc.devRef .tc main_v1239) = lev32 V0 (Proc.devRef .tc main_v1239) := (filt61_keep (lev61 V0) (r := main_v1239) (by decide)).trans (k31_61 V0)
theorem k31_63 (V0 : Valuation τ sig (Elt F)) : lev63 V0 (Proc.devRef .tc main_v1239) = lev32 V0 (Proc.devRef .tc main_v1239) := (filt62_keep (lev62 V0) (r := main_v1239) (by decide)).trans (k31_62 V0)
theorem k31_64 (V0 : Valuation τ sig (Elt F)) : lev64 V0 (Proc.devRef .tc main_v1239) = lev32 V0 (Proc.devRef .tc main_v1239) := (filt63_keep (lev63 V0) (r := main_v1239) (by decide)).trans (k31_63 V0)
theorem k32_34 (V0 : Valuation τ sig (Elt F)) : lev34 V0 (Proc.devRef .tc main_v1303) = lev33 V0 (Proc.devRef .tc main_v1303) := (filt33_keep (lev33 V0) (r := main_v1303) (by decide))
theorem k32_35 (V0 : Valuation τ sig (Elt F)) : lev35 V0 (Proc.devRef .tc main_v1303) = lev33 V0 (Proc.devRef .tc main_v1303) := (filt34_keep (lev34 V0) (r := main_v1303) (by decide)).trans (k32_34 V0)
theorem k32_36 (V0 : Valuation τ sig (Elt F)) : lev36 V0 (Proc.devRef .tc main_v1303) = lev33 V0 (Proc.devRef .tc main_v1303) := (filt35_keep (lev35 V0) (r := main_v1303) (by decide)).trans (k32_35 V0)
theorem k32_37 (V0 : Valuation τ sig (Elt F)) : lev37 V0 (Proc.devRef .tc main_v1303) = lev33 V0 (Proc.devRef .tc main_v1303) := (filt36_keep (lev36 V0) (r := main_v1303) (by decide)).trans (k32_36 V0)
theorem k32_38 (V0 : Valuation τ sig (Elt F)) : lev38 V0 (Proc.devRef .tc main_v1303) = lev33 V0 (Proc.devRef .tc main_v1303) := (filt37_keep (lev37 V0) (r := main_v1303) (by decide)).trans (k32_37 V0)
theorem k32_39 (V0 : Valuation τ sig (Elt F)) : lev39 V0 (Proc.devRef .tc main_v1303) = lev33 V0 (Proc.devRef .tc main_v1303) := (filt38_keep (lev38 V0) (r := main_v1303) (by decide)).trans (k32_38 V0)
theorem k32_40 (V0 : Valuation τ sig (Elt F)) : lev40 V0 (Proc.devRef .tc main_v1303) = lev33 V0 (Proc.devRef .tc main_v1303) := (filt39_keep (lev39 V0) (r := main_v1303) (by decide)).trans (k32_39 V0)
theorem k32_41 (V0 : Valuation τ sig (Elt F)) : lev41 V0 (Proc.devRef .tc main_v1303) = lev33 V0 (Proc.devRef .tc main_v1303) := (filt40_keep (lev40 V0) (r := main_v1303) (by decide)).trans (k32_40 V0)
theorem k32_42 (V0 : Valuation τ sig (Elt F)) : lev42 V0 (Proc.devRef .tc main_v1303) = lev33 V0 (Proc.devRef .tc main_v1303) := (filt41_keep (lev41 V0) (r := main_v1303) (by decide)).trans (k32_41 V0)
theorem k32_43 (V0 : Valuation τ sig (Elt F)) : lev43 V0 (Proc.devRef .tc main_v1303) = lev33 V0 (Proc.devRef .tc main_v1303) := (filt42_keep (lev42 V0) (r := main_v1303) (by decide)).trans (k32_42 V0)
theorem k32_44 (V0 : Valuation τ sig (Elt F)) : lev44 V0 (Proc.devRef .tc main_v1303) = lev33 V0 (Proc.devRef .tc main_v1303) := (filt43_keep (lev43 V0) (r := main_v1303) (by decide)).trans (k32_43 V0)
theorem k32_45 (V0 : Valuation τ sig (Elt F)) : lev45 V0 (Proc.devRef .tc main_v1303) = lev33 V0 (Proc.devRef .tc main_v1303) := (filt44_keep (lev44 V0) (r := main_v1303) (by decide)).trans (k32_44 V0)
theorem k32_46 (V0 : Valuation τ sig (Elt F)) : lev46 V0 (Proc.devRef .tc main_v1303) = lev33 V0 (Proc.devRef .tc main_v1303) := (filt45_keep (lev45 V0) (r := main_v1303) (by decide)).trans (k32_45 V0)
theorem k32_47 (V0 : Valuation τ sig (Elt F)) : lev47 V0 (Proc.devRef .tc main_v1303) = lev33 V0 (Proc.devRef .tc main_v1303) := (filt46_keep (lev46 V0) (r := main_v1303) (by decide)).trans (k32_46 V0)
theorem k32_48 (V0 : Valuation τ sig (Elt F)) : lev48 V0 (Proc.devRef .tc main_v1303) = lev33 V0 (Proc.devRef .tc main_v1303) := (filt47_keep (lev47 V0) (r := main_v1303) (by decide)).trans (k32_47 V0)
theorem k32_49 (V0 : Valuation τ sig (Elt F)) : lev49 V0 (Proc.devRef .tc main_v1303) = lev33 V0 (Proc.devRef .tc main_v1303) := (filt48_keep (lev48 V0) (r := main_v1303) (by decide)).trans (k32_48 V0)
theorem k32_50 (V0 : Valuation τ sig (Elt F)) : lev50 V0 (Proc.devRef .tc main_v1303) = lev33 V0 (Proc.devRef .tc main_v1303) := (filt49_keep (lev49 V0) (r := main_v1303) (by decide)).trans (k32_49 V0)
theorem k32_51 (V0 : Valuation τ sig (Elt F)) : lev51 V0 (Proc.devRef .tc main_v1303) = lev33 V0 (Proc.devRef .tc main_v1303) := (filt50_keep (lev50 V0) (r := main_v1303) (by decide)).trans (k32_50 V0)
theorem k32_52 (V0 : Valuation τ sig (Elt F)) : lev52 V0 (Proc.devRef .tc main_v1303) = lev33 V0 (Proc.devRef .tc main_v1303) := (filt51_keep (lev51 V0) (r := main_v1303) (by decide)).trans (k32_51 V0)
theorem k32_53 (V0 : Valuation τ sig (Elt F)) : lev53 V0 (Proc.devRef .tc main_v1303) = lev33 V0 (Proc.devRef .tc main_v1303) := (filt52_keep (lev52 V0) (r := main_v1303) (by decide)).trans (k32_52 V0)
theorem k32_54 (V0 : Valuation τ sig (Elt F)) : lev54 V0 (Proc.devRef .tc main_v1303) = lev33 V0 (Proc.devRef .tc main_v1303) := (filt53_keep (lev53 V0) (r := main_v1303) (by decide)).trans (k32_53 V0)
theorem k32_55 (V0 : Valuation τ sig (Elt F)) : lev55 V0 (Proc.devRef .tc main_v1303) = lev33 V0 (Proc.devRef .tc main_v1303) := (filt54_keep (lev54 V0) (r := main_v1303) (by decide)).trans (k32_54 V0)
theorem k32_56 (V0 : Valuation τ sig (Elt F)) : lev56 V0 (Proc.devRef .tc main_v1303) = lev33 V0 (Proc.devRef .tc main_v1303) := (filt55_keep (lev55 V0) (r := main_v1303) (by decide)).trans (k32_55 V0)
theorem k32_57 (V0 : Valuation τ sig (Elt F)) : lev57 V0 (Proc.devRef .tc main_v1303) = lev33 V0 (Proc.devRef .tc main_v1303) := (filt56_keep (lev56 V0) (r := main_v1303) (by decide)).trans (k32_56 V0)
theorem k32_58 (V0 : Valuation τ sig (Elt F)) : lev58 V0 (Proc.devRef .tc main_v1303) = lev33 V0 (Proc.devRef .tc main_v1303) := (filt57_keep (lev57 V0) (r := main_v1303) (by decide)).trans (k32_57 V0)
theorem k32_59 (V0 : Valuation τ sig (Elt F)) : lev59 V0 (Proc.devRef .tc main_v1303) = lev33 V0 (Proc.devRef .tc main_v1303) := (filt58_keep (lev58 V0) (r := main_v1303) (by decide)).trans (k32_58 V0)
theorem k32_60 (V0 : Valuation τ sig (Elt F)) : lev60 V0 (Proc.devRef .tc main_v1303) = lev33 V0 (Proc.devRef .tc main_v1303) := (filt59_keep (lev59 V0) (r := main_v1303) (by decide)).trans (k32_59 V0)
theorem k32_61 (V0 : Valuation τ sig (Elt F)) : lev61 V0 (Proc.devRef .tc main_v1303) = lev33 V0 (Proc.devRef .tc main_v1303) := (filt60_keep (lev60 V0) (r := main_v1303) (by decide)).trans (k32_60 V0)
theorem k32_62 (V0 : Valuation τ sig (Elt F)) : lev62 V0 (Proc.devRef .tc main_v1303) = lev33 V0 (Proc.devRef .tc main_v1303) := (filt61_keep (lev61 V0) (r := main_v1303) (by decide)).trans (k32_61 V0)
theorem k32_63 (V0 : Valuation τ sig (Elt F)) : lev63 V0 (Proc.devRef .tc main_v1303) = lev33 V0 (Proc.devRef .tc main_v1303) := (filt62_keep (lev62 V0) (r := main_v1303) (by decide)).trans (k32_62 V0)
theorem k32_64 (V0 : Valuation τ sig (Elt F)) : lev64 V0 (Proc.devRef .tc main_v1303) = lev33 V0 (Proc.devRef .tc main_v1303) := (filt63_keep (lev63 V0) (r := main_v1303) (by decide)).trans (k32_63 V0)
theorem k33_35 (V0 : Valuation τ sig (Elt F)) : lev35 V0 (Proc.devRef .tc main_v1367) = lev34 V0 (Proc.devRef .tc main_v1367) := (filt34_keep (lev34 V0) (r := main_v1367) (by decide))
theorem k33_36 (V0 : Valuation τ sig (Elt F)) : lev36 V0 (Proc.devRef .tc main_v1367) = lev34 V0 (Proc.devRef .tc main_v1367) := (filt35_keep (lev35 V0) (r := main_v1367) (by decide)).trans (k33_35 V0)
theorem k33_37 (V0 : Valuation τ sig (Elt F)) : lev37 V0 (Proc.devRef .tc main_v1367) = lev34 V0 (Proc.devRef .tc main_v1367) := (filt36_keep (lev36 V0) (r := main_v1367) (by decide)).trans (k33_36 V0)
theorem k33_38 (V0 : Valuation τ sig (Elt F)) : lev38 V0 (Proc.devRef .tc main_v1367) = lev34 V0 (Proc.devRef .tc main_v1367) := (filt37_keep (lev37 V0) (r := main_v1367) (by decide)).trans (k33_37 V0)
theorem k33_39 (V0 : Valuation τ sig (Elt F)) : lev39 V0 (Proc.devRef .tc main_v1367) = lev34 V0 (Proc.devRef .tc main_v1367) := (filt38_keep (lev38 V0) (r := main_v1367) (by decide)).trans (k33_38 V0)
theorem k33_40 (V0 : Valuation τ sig (Elt F)) : lev40 V0 (Proc.devRef .tc main_v1367) = lev34 V0 (Proc.devRef .tc main_v1367) := (filt39_keep (lev39 V0) (r := main_v1367) (by decide)).trans (k33_39 V0)
theorem k33_41 (V0 : Valuation τ sig (Elt F)) : lev41 V0 (Proc.devRef .tc main_v1367) = lev34 V0 (Proc.devRef .tc main_v1367) := (filt40_keep (lev40 V0) (r := main_v1367) (by decide)).trans (k33_40 V0)
theorem k33_42 (V0 : Valuation τ sig (Elt F)) : lev42 V0 (Proc.devRef .tc main_v1367) = lev34 V0 (Proc.devRef .tc main_v1367) := (filt41_keep (lev41 V0) (r := main_v1367) (by decide)).trans (k33_41 V0)
theorem k33_43 (V0 : Valuation τ sig (Elt F)) : lev43 V0 (Proc.devRef .tc main_v1367) = lev34 V0 (Proc.devRef .tc main_v1367) := (filt42_keep (lev42 V0) (r := main_v1367) (by decide)).trans (k33_42 V0)
theorem k33_44 (V0 : Valuation τ sig (Elt F)) : lev44 V0 (Proc.devRef .tc main_v1367) = lev34 V0 (Proc.devRef .tc main_v1367) := (filt43_keep (lev43 V0) (r := main_v1367) (by decide)).trans (k33_43 V0)
theorem k33_45 (V0 : Valuation τ sig (Elt F)) : lev45 V0 (Proc.devRef .tc main_v1367) = lev34 V0 (Proc.devRef .tc main_v1367) := (filt44_keep (lev44 V0) (r := main_v1367) (by decide)).trans (k33_44 V0)
theorem k33_46 (V0 : Valuation τ sig (Elt F)) : lev46 V0 (Proc.devRef .tc main_v1367) = lev34 V0 (Proc.devRef .tc main_v1367) := (filt45_keep (lev45 V0) (r := main_v1367) (by decide)).trans (k33_45 V0)
theorem k33_47 (V0 : Valuation τ sig (Elt F)) : lev47 V0 (Proc.devRef .tc main_v1367) = lev34 V0 (Proc.devRef .tc main_v1367) := (filt46_keep (lev46 V0) (r := main_v1367) (by decide)).trans (k33_46 V0)
theorem k33_48 (V0 : Valuation τ sig (Elt F)) : lev48 V0 (Proc.devRef .tc main_v1367) = lev34 V0 (Proc.devRef .tc main_v1367) := (filt47_keep (lev47 V0) (r := main_v1367) (by decide)).trans (k33_47 V0)
theorem k33_49 (V0 : Valuation τ sig (Elt F)) : lev49 V0 (Proc.devRef .tc main_v1367) = lev34 V0 (Proc.devRef .tc main_v1367) := (filt48_keep (lev48 V0) (r := main_v1367) (by decide)).trans (k33_48 V0)
theorem k33_50 (V0 : Valuation τ sig (Elt F)) : lev50 V0 (Proc.devRef .tc main_v1367) = lev34 V0 (Proc.devRef .tc main_v1367) := (filt49_keep (lev49 V0) (r := main_v1367) (by decide)).trans (k33_49 V0)
theorem k33_51 (V0 : Valuation τ sig (Elt F)) : lev51 V0 (Proc.devRef .tc main_v1367) = lev34 V0 (Proc.devRef .tc main_v1367) := (filt50_keep (lev50 V0) (r := main_v1367) (by decide)).trans (k33_50 V0)
theorem k33_52 (V0 : Valuation τ sig (Elt F)) : lev52 V0 (Proc.devRef .tc main_v1367) = lev34 V0 (Proc.devRef .tc main_v1367) := (filt51_keep (lev51 V0) (r := main_v1367) (by decide)).trans (k33_51 V0)
theorem k33_53 (V0 : Valuation τ sig (Elt F)) : lev53 V0 (Proc.devRef .tc main_v1367) = lev34 V0 (Proc.devRef .tc main_v1367) := (filt52_keep (lev52 V0) (r := main_v1367) (by decide)).trans (k33_52 V0)
theorem k33_54 (V0 : Valuation τ sig (Elt F)) : lev54 V0 (Proc.devRef .tc main_v1367) = lev34 V0 (Proc.devRef .tc main_v1367) := (filt53_keep (lev53 V0) (r := main_v1367) (by decide)).trans (k33_53 V0)
theorem k33_55 (V0 : Valuation τ sig (Elt F)) : lev55 V0 (Proc.devRef .tc main_v1367) = lev34 V0 (Proc.devRef .tc main_v1367) := (filt54_keep (lev54 V0) (r := main_v1367) (by decide)).trans (k33_54 V0)
theorem k33_56 (V0 : Valuation τ sig (Elt F)) : lev56 V0 (Proc.devRef .tc main_v1367) = lev34 V0 (Proc.devRef .tc main_v1367) := (filt55_keep (lev55 V0) (r := main_v1367) (by decide)).trans (k33_55 V0)
theorem k33_57 (V0 : Valuation τ sig (Elt F)) : lev57 V0 (Proc.devRef .tc main_v1367) = lev34 V0 (Proc.devRef .tc main_v1367) := (filt56_keep (lev56 V0) (r := main_v1367) (by decide)).trans (k33_56 V0)
theorem k33_58 (V0 : Valuation τ sig (Elt F)) : lev58 V0 (Proc.devRef .tc main_v1367) = lev34 V0 (Proc.devRef .tc main_v1367) := (filt57_keep (lev57 V0) (r := main_v1367) (by decide)).trans (k33_57 V0)
theorem k33_59 (V0 : Valuation τ sig (Elt F)) : lev59 V0 (Proc.devRef .tc main_v1367) = lev34 V0 (Proc.devRef .tc main_v1367) := (filt58_keep (lev58 V0) (r := main_v1367) (by decide)).trans (k33_58 V0)
theorem k33_60 (V0 : Valuation τ sig (Elt F)) : lev60 V0 (Proc.devRef .tc main_v1367) = lev34 V0 (Proc.devRef .tc main_v1367) := (filt59_keep (lev59 V0) (r := main_v1367) (by decide)).trans (k33_59 V0)
theorem k33_61 (V0 : Valuation τ sig (Elt F)) : lev61 V0 (Proc.devRef .tc main_v1367) = lev34 V0 (Proc.devRef .tc main_v1367) := (filt60_keep (lev60 V0) (r := main_v1367) (by decide)).trans (k33_60 V0)
theorem k33_62 (V0 : Valuation τ sig (Elt F)) : lev62 V0 (Proc.devRef .tc main_v1367) = lev34 V0 (Proc.devRef .tc main_v1367) := (filt61_keep (lev61 V0) (r := main_v1367) (by decide)).trans (k33_61 V0)
theorem k33_63 (V0 : Valuation τ sig (Elt F)) : lev63 V0 (Proc.devRef .tc main_v1367) = lev34 V0 (Proc.devRef .tc main_v1367) := (filt62_keep (lev62 V0) (r := main_v1367) (by decide)).trans (k33_62 V0)
theorem k33_64 (V0 : Valuation τ sig (Elt F)) : lev64 V0 (Proc.devRef .tc main_v1367) = lev34 V0 (Proc.devRef .tc main_v1367) := (filt63_keep (lev63 V0) (r := main_v1367) (by decide)).trans (k33_63 V0)
theorem k34_36 (V0 : Valuation τ sig (Elt F)) : lev36 V0 (Proc.devRef .tc main_v1434) = lev35 V0 (Proc.devRef .tc main_v1434) := (filt35_keep (lev35 V0) (r := main_v1434) (by decide))
theorem k34_37 (V0 : Valuation τ sig (Elt F)) : lev37 V0 (Proc.devRef .tc main_v1434) = lev35 V0 (Proc.devRef .tc main_v1434) := (filt36_keep (lev36 V0) (r := main_v1434) (by decide)).trans (k34_36 V0)
theorem k34_38 (V0 : Valuation τ sig (Elt F)) : lev38 V0 (Proc.devRef .tc main_v1434) = lev35 V0 (Proc.devRef .tc main_v1434) := (filt37_keep (lev37 V0) (r := main_v1434) (by decide)).trans (k34_37 V0)
theorem k34_39 (V0 : Valuation τ sig (Elt F)) : lev39 V0 (Proc.devRef .tc main_v1434) = lev35 V0 (Proc.devRef .tc main_v1434) := (filt38_keep (lev38 V0) (r := main_v1434) (by decide)).trans (k34_38 V0)
theorem k34_40 (V0 : Valuation τ sig (Elt F)) : lev40 V0 (Proc.devRef .tc main_v1434) = lev35 V0 (Proc.devRef .tc main_v1434) := (filt39_keep (lev39 V0) (r := main_v1434) (by decide)).trans (k34_39 V0)
theorem k34_41 (V0 : Valuation τ sig (Elt F)) : lev41 V0 (Proc.devRef .tc main_v1434) = lev35 V0 (Proc.devRef .tc main_v1434) := (filt40_keep (lev40 V0) (r := main_v1434) (by decide)).trans (k34_40 V0)
theorem k34_42 (V0 : Valuation τ sig (Elt F)) : lev42 V0 (Proc.devRef .tc main_v1434) = lev35 V0 (Proc.devRef .tc main_v1434) := (filt41_keep (lev41 V0) (r := main_v1434) (by decide)).trans (k34_41 V0)
theorem k34_43 (V0 : Valuation τ sig (Elt F)) : lev43 V0 (Proc.devRef .tc main_v1434) = lev35 V0 (Proc.devRef .tc main_v1434) := (filt42_keep (lev42 V0) (r := main_v1434) (by decide)).trans (k34_42 V0)
theorem k34_44 (V0 : Valuation τ sig (Elt F)) : lev44 V0 (Proc.devRef .tc main_v1434) = lev35 V0 (Proc.devRef .tc main_v1434) := (filt43_keep (lev43 V0) (r := main_v1434) (by decide)).trans (k34_43 V0)
theorem k34_45 (V0 : Valuation τ sig (Elt F)) : lev45 V0 (Proc.devRef .tc main_v1434) = lev35 V0 (Proc.devRef .tc main_v1434) := (filt44_keep (lev44 V0) (r := main_v1434) (by decide)).trans (k34_44 V0)
theorem k34_46 (V0 : Valuation τ sig (Elt F)) : lev46 V0 (Proc.devRef .tc main_v1434) = lev35 V0 (Proc.devRef .tc main_v1434) := (filt45_keep (lev45 V0) (r := main_v1434) (by decide)).trans (k34_45 V0)
theorem k34_47 (V0 : Valuation τ sig (Elt F)) : lev47 V0 (Proc.devRef .tc main_v1434) = lev35 V0 (Proc.devRef .tc main_v1434) := (filt46_keep (lev46 V0) (r := main_v1434) (by decide)).trans (k34_46 V0)
theorem k34_48 (V0 : Valuation τ sig (Elt F)) : lev48 V0 (Proc.devRef .tc main_v1434) = lev35 V0 (Proc.devRef .tc main_v1434) := (filt47_keep (lev47 V0) (r := main_v1434) (by decide)).trans (k34_47 V0)
theorem k34_49 (V0 : Valuation τ sig (Elt F)) : lev49 V0 (Proc.devRef .tc main_v1434) = lev35 V0 (Proc.devRef .tc main_v1434) := (filt48_keep (lev48 V0) (r := main_v1434) (by decide)).trans (k34_48 V0)
theorem k34_50 (V0 : Valuation τ sig (Elt F)) : lev50 V0 (Proc.devRef .tc main_v1434) = lev35 V0 (Proc.devRef .tc main_v1434) := (filt49_keep (lev49 V0) (r := main_v1434) (by decide)).trans (k34_49 V0)
theorem k34_51 (V0 : Valuation τ sig (Elt F)) : lev51 V0 (Proc.devRef .tc main_v1434) = lev35 V0 (Proc.devRef .tc main_v1434) := (filt50_keep (lev50 V0) (r := main_v1434) (by decide)).trans (k34_50 V0)
theorem k34_52 (V0 : Valuation τ sig (Elt F)) : lev52 V0 (Proc.devRef .tc main_v1434) = lev35 V0 (Proc.devRef .tc main_v1434) := (filt51_keep (lev51 V0) (r := main_v1434) (by decide)).trans (k34_51 V0)
theorem k34_53 (V0 : Valuation τ sig (Elt F)) : lev53 V0 (Proc.devRef .tc main_v1434) = lev35 V0 (Proc.devRef .tc main_v1434) := (filt52_keep (lev52 V0) (r := main_v1434) (by decide)).trans (k34_52 V0)
theorem k34_54 (V0 : Valuation τ sig (Elt F)) : lev54 V0 (Proc.devRef .tc main_v1434) = lev35 V0 (Proc.devRef .tc main_v1434) := (filt53_keep (lev53 V0) (r := main_v1434) (by decide)).trans (k34_53 V0)
theorem k34_55 (V0 : Valuation τ sig (Elt F)) : lev55 V0 (Proc.devRef .tc main_v1434) = lev35 V0 (Proc.devRef .tc main_v1434) := (filt54_keep (lev54 V0) (r := main_v1434) (by decide)).trans (k34_54 V0)
theorem k34_56 (V0 : Valuation τ sig (Elt F)) : lev56 V0 (Proc.devRef .tc main_v1434) = lev35 V0 (Proc.devRef .tc main_v1434) := (filt55_keep (lev55 V0) (r := main_v1434) (by decide)).trans (k34_55 V0)
theorem k34_57 (V0 : Valuation τ sig (Elt F)) : lev57 V0 (Proc.devRef .tc main_v1434) = lev35 V0 (Proc.devRef .tc main_v1434) := (filt56_keep (lev56 V0) (r := main_v1434) (by decide)).trans (k34_56 V0)
theorem k34_58 (V0 : Valuation τ sig (Elt F)) : lev58 V0 (Proc.devRef .tc main_v1434) = lev35 V0 (Proc.devRef .tc main_v1434) := (filt57_keep (lev57 V0) (r := main_v1434) (by decide)).trans (k34_57 V0)
theorem k34_59 (V0 : Valuation τ sig (Elt F)) : lev59 V0 (Proc.devRef .tc main_v1434) = lev35 V0 (Proc.devRef .tc main_v1434) := (filt58_keep (lev58 V0) (r := main_v1434) (by decide)).trans (k34_58 V0)
theorem k34_60 (V0 : Valuation τ sig (Elt F)) : lev60 V0 (Proc.devRef .tc main_v1434) = lev35 V0 (Proc.devRef .tc main_v1434) := (filt59_keep (lev59 V0) (r := main_v1434) (by decide)).trans (k34_59 V0)
theorem k34_61 (V0 : Valuation τ sig (Elt F)) : lev61 V0 (Proc.devRef .tc main_v1434) = lev35 V0 (Proc.devRef .tc main_v1434) := (filt60_keep (lev60 V0) (r := main_v1434) (by decide)).trans (k34_60 V0)
theorem k34_62 (V0 : Valuation τ sig (Elt F)) : lev62 V0 (Proc.devRef .tc main_v1434) = lev35 V0 (Proc.devRef .tc main_v1434) := (filt61_keep (lev61 V0) (r := main_v1434) (by decide)).trans (k34_61 V0)
theorem k34_63 (V0 : Valuation τ sig (Elt F)) : lev63 V0 (Proc.devRef .tc main_v1434) = lev35 V0 (Proc.devRef .tc main_v1434) := (filt62_keep (lev62 V0) (r := main_v1434) (by decide)).trans (k34_62 V0)
theorem k34_64 (V0 : Valuation τ sig (Elt F)) : lev64 V0 (Proc.devRef .tc main_v1434) = lev35 V0 (Proc.devRef .tc main_v1434) := (filt63_keep (lev63 V0) (r := main_v1434) (by decide)).trans (k34_63 V0)
theorem k35_37 (V0 : Valuation τ sig (Elt F)) : lev37 V0 (Proc.devRef .tc main_v1501) = lev36 V0 (Proc.devRef .tc main_v1501) := (filt36_keep (lev36 V0) (r := main_v1501) (by decide))
theorem k35_38 (V0 : Valuation τ sig (Elt F)) : lev38 V0 (Proc.devRef .tc main_v1501) = lev36 V0 (Proc.devRef .tc main_v1501) := (filt37_keep (lev37 V0) (r := main_v1501) (by decide)).trans (k35_37 V0)
theorem k35_39 (V0 : Valuation τ sig (Elt F)) : lev39 V0 (Proc.devRef .tc main_v1501) = lev36 V0 (Proc.devRef .tc main_v1501) := (filt38_keep (lev38 V0) (r := main_v1501) (by decide)).trans (k35_38 V0)
theorem k35_40 (V0 : Valuation τ sig (Elt F)) : lev40 V0 (Proc.devRef .tc main_v1501) = lev36 V0 (Proc.devRef .tc main_v1501) := (filt39_keep (lev39 V0) (r := main_v1501) (by decide)).trans (k35_39 V0)
theorem k35_41 (V0 : Valuation τ sig (Elt F)) : lev41 V0 (Proc.devRef .tc main_v1501) = lev36 V0 (Proc.devRef .tc main_v1501) := (filt40_keep (lev40 V0) (r := main_v1501) (by decide)).trans (k35_40 V0)
theorem k35_42 (V0 : Valuation τ sig (Elt F)) : lev42 V0 (Proc.devRef .tc main_v1501) = lev36 V0 (Proc.devRef .tc main_v1501) := (filt41_keep (lev41 V0) (r := main_v1501) (by decide)).trans (k35_41 V0)
theorem k35_43 (V0 : Valuation τ sig (Elt F)) : lev43 V0 (Proc.devRef .tc main_v1501) = lev36 V0 (Proc.devRef .tc main_v1501) := (filt42_keep (lev42 V0) (r := main_v1501) (by decide)).trans (k35_42 V0)
theorem k35_44 (V0 : Valuation τ sig (Elt F)) : lev44 V0 (Proc.devRef .tc main_v1501) = lev36 V0 (Proc.devRef .tc main_v1501) := (filt43_keep (lev43 V0) (r := main_v1501) (by decide)).trans (k35_43 V0)
theorem k35_45 (V0 : Valuation τ sig (Elt F)) : lev45 V0 (Proc.devRef .tc main_v1501) = lev36 V0 (Proc.devRef .tc main_v1501) := (filt44_keep (lev44 V0) (r := main_v1501) (by decide)).trans (k35_44 V0)
theorem k35_46 (V0 : Valuation τ sig (Elt F)) : lev46 V0 (Proc.devRef .tc main_v1501) = lev36 V0 (Proc.devRef .tc main_v1501) := (filt45_keep (lev45 V0) (r := main_v1501) (by decide)).trans (k35_45 V0)
theorem k35_47 (V0 : Valuation τ sig (Elt F)) : lev47 V0 (Proc.devRef .tc main_v1501) = lev36 V0 (Proc.devRef .tc main_v1501) := (filt46_keep (lev46 V0) (r := main_v1501) (by decide)).trans (k35_46 V0)
theorem k35_48 (V0 : Valuation τ sig (Elt F)) : lev48 V0 (Proc.devRef .tc main_v1501) = lev36 V0 (Proc.devRef .tc main_v1501) := (filt47_keep (lev47 V0) (r := main_v1501) (by decide)).trans (k35_47 V0)
theorem k35_49 (V0 : Valuation τ sig (Elt F)) : lev49 V0 (Proc.devRef .tc main_v1501) = lev36 V0 (Proc.devRef .tc main_v1501) := (filt48_keep (lev48 V0) (r := main_v1501) (by decide)).trans (k35_48 V0)
theorem k35_50 (V0 : Valuation τ sig (Elt F)) : lev50 V0 (Proc.devRef .tc main_v1501) = lev36 V0 (Proc.devRef .tc main_v1501) := (filt49_keep (lev49 V0) (r := main_v1501) (by decide)).trans (k35_49 V0)
theorem k35_51 (V0 : Valuation τ sig (Elt F)) : lev51 V0 (Proc.devRef .tc main_v1501) = lev36 V0 (Proc.devRef .tc main_v1501) := (filt50_keep (lev50 V0) (r := main_v1501) (by decide)).trans (k35_50 V0)
theorem k35_52 (V0 : Valuation τ sig (Elt F)) : lev52 V0 (Proc.devRef .tc main_v1501) = lev36 V0 (Proc.devRef .tc main_v1501) := (filt51_keep (lev51 V0) (r := main_v1501) (by decide)).trans (k35_51 V0)
theorem k35_53 (V0 : Valuation τ sig (Elt F)) : lev53 V0 (Proc.devRef .tc main_v1501) = lev36 V0 (Proc.devRef .tc main_v1501) := (filt52_keep (lev52 V0) (r := main_v1501) (by decide)).trans (k35_52 V0)
theorem k35_54 (V0 : Valuation τ sig (Elt F)) : lev54 V0 (Proc.devRef .tc main_v1501) = lev36 V0 (Proc.devRef .tc main_v1501) := (filt53_keep (lev53 V0) (r := main_v1501) (by decide)).trans (k35_53 V0)
theorem k35_55 (V0 : Valuation τ sig (Elt F)) : lev55 V0 (Proc.devRef .tc main_v1501) = lev36 V0 (Proc.devRef .tc main_v1501) := (filt54_keep (lev54 V0) (r := main_v1501) (by decide)).trans (k35_54 V0)
theorem k35_56 (V0 : Valuation τ sig (Elt F)) : lev56 V0 (Proc.devRef .tc main_v1501) = lev36 V0 (Proc.devRef .tc main_v1501) := (filt55_keep (lev55 V0) (r := main_v1501) (by decide)).trans (k35_55 V0)
theorem k35_57 (V0 : Valuation τ sig (Elt F)) : lev57 V0 (Proc.devRef .tc main_v1501) = lev36 V0 (Proc.devRef .tc main_v1501) := (filt56_keep (lev56 V0) (r := main_v1501) (by decide)).trans (k35_56 V0)
theorem k35_58 (V0 : Valuation τ sig (Elt F)) : lev58 V0 (Proc.devRef .tc main_v1501) = lev36 V0 (Proc.devRef .tc main_v1501) := (filt57_keep (lev57 V0) (r := main_v1501) (by decide)).trans (k35_57 V0)
theorem k35_59 (V0 : Valuation τ sig (Elt F)) : lev59 V0 (Proc.devRef .tc main_v1501) = lev36 V0 (Proc.devRef .tc main_v1501) := (filt58_keep (lev58 V0) (r := main_v1501) (by decide)).trans (k35_58 V0)
theorem k35_60 (V0 : Valuation τ sig (Elt F)) : lev60 V0 (Proc.devRef .tc main_v1501) = lev36 V0 (Proc.devRef .tc main_v1501) := (filt59_keep (lev59 V0) (r := main_v1501) (by decide)).trans (k35_59 V0)
theorem k35_61 (V0 : Valuation τ sig (Elt F)) : lev61 V0 (Proc.devRef .tc main_v1501) = lev36 V0 (Proc.devRef .tc main_v1501) := (filt60_keep (lev60 V0) (r := main_v1501) (by decide)).trans (k35_60 V0)
theorem k35_62 (V0 : Valuation τ sig (Elt F)) : lev62 V0 (Proc.devRef .tc main_v1501) = lev36 V0 (Proc.devRef .tc main_v1501) := (filt61_keep (lev61 V0) (r := main_v1501) (by decide)).trans (k35_61 V0)
theorem k35_63 (V0 : Valuation τ sig (Elt F)) : lev63 V0 (Proc.devRef .tc main_v1501) = lev36 V0 (Proc.devRef .tc main_v1501) := (filt62_keep (lev62 V0) (r := main_v1501) (by decide)).trans (k35_62 V0)
theorem k35_64 (V0 : Valuation τ sig (Elt F)) : lev64 V0 (Proc.devRef .tc main_v1501) = lev36 V0 (Proc.devRef .tc main_v1501) := (filt63_keep (lev63 V0) (r := main_v1501) (by decide)).trans (k35_63 V0)
theorem k36_38 (V0 : Valuation τ sig (Elt F)) : lev38 V0 (Proc.devRef .tc main_v1571) = lev37 V0 (Proc.devRef .tc main_v1571) := (filt37_keep (lev37 V0) (r := main_v1571) (by decide))
theorem k36_39 (V0 : Valuation τ sig (Elt F)) : lev39 V0 (Proc.devRef .tc main_v1571) = lev37 V0 (Proc.devRef .tc main_v1571) := (filt38_keep (lev38 V0) (r := main_v1571) (by decide)).trans (k36_38 V0)
theorem k36_40 (V0 : Valuation τ sig (Elt F)) : lev40 V0 (Proc.devRef .tc main_v1571) = lev37 V0 (Proc.devRef .tc main_v1571) := (filt39_keep (lev39 V0) (r := main_v1571) (by decide)).trans (k36_39 V0)
theorem k36_41 (V0 : Valuation τ sig (Elt F)) : lev41 V0 (Proc.devRef .tc main_v1571) = lev37 V0 (Proc.devRef .tc main_v1571) := (filt40_keep (lev40 V0) (r := main_v1571) (by decide)).trans (k36_40 V0)
theorem k36_42 (V0 : Valuation τ sig (Elt F)) : lev42 V0 (Proc.devRef .tc main_v1571) = lev37 V0 (Proc.devRef .tc main_v1571) := (filt41_keep (lev41 V0) (r := main_v1571) (by decide)).trans (k36_41 V0)
theorem k36_43 (V0 : Valuation τ sig (Elt F)) : lev43 V0 (Proc.devRef .tc main_v1571) = lev37 V0 (Proc.devRef .tc main_v1571) := (filt42_keep (lev42 V0) (r := main_v1571) (by decide)).trans (k36_42 V0)
theorem k36_44 (V0 : Valuation τ sig (Elt F)) : lev44 V0 (Proc.devRef .tc main_v1571) = lev37 V0 (Proc.devRef .tc main_v1571) := (filt43_keep (lev43 V0) (r := main_v1571) (by decide)).trans (k36_43 V0)
theorem k36_45 (V0 : Valuation τ sig (Elt F)) : lev45 V0 (Proc.devRef .tc main_v1571) = lev37 V0 (Proc.devRef .tc main_v1571) := (filt44_keep (lev44 V0) (r := main_v1571) (by decide)).trans (k36_44 V0)
theorem k36_46 (V0 : Valuation τ sig (Elt F)) : lev46 V0 (Proc.devRef .tc main_v1571) = lev37 V0 (Proc.devRef .tc main_v1571) := (filt45_keep (lev45 V0) (r := main_v1571) (by decide)).trans (k36_45 V0)
theorem k36_47 (V0 : Valuation τ sig (Elt F)) : lev47 V0 (Proc.devRef .tc main_v1571) = lev37 V0 (Proc.devRef .tc main_v1571) := (filt46_keep (lev46 V0) (r := main_v1571) (by decide)).trans (k36_46 V0)
theorem k36_48 (V0 : Valuation τ sig (Elt F)) : lev48 V0 (Proc.devRef .tc main_v1571) = lev37 V0 (Proc.devRef .tc main_v1571) := (filt47_keep (lev47 V0) (r := main_v1571) (by decide)).trans (k36_47 V0)
theorem k36_49 (V0 : Valuation τ sig (Elt F)) : lev49 V0 (Proc.devRef .tc main_v1571) = lev37 V0 (Proc.devRef .tc main_v1571) := (filt48_keep (lev48 V0) (r := main_v1571) (by decide)).trans (k36_48 V0)
theorem k36_50 (V0 : Valuation τ sig (Elt F)) : lev50 V0 (Proc.devRef .tc main_v1571) = lev37 V0 (Proc.devRef .tc main_v1571) := (filt49_keep (lev49 V0) (r := main_v1571) (by decide)).trans (k36_49 V0)
theorem k36_51 (V0 : Valuation τ sig (Elt F)) : lev51 V0 (Proc.devRef .tc main_v1571) = lev37 V0 (Proc.devRef .tc main_v1571) := (filt50_keep (lev50 V0) (r := main_v1571) (by decide)).trans (k36_50 V0)
theorem k36_52 (V0 : Valuation τ sig (Elt F)) : lev52 V0 (Proc.devRef .tc main_v1571) = lev37 V0 (Proc.devRef .tc main_v1571) := (filt51_keep (lev51 V0) (r := main_v1571) (by decide)).trans (k36_51 V0)
theorem k36_53 (V0 : Valuation τ sig (Elt F)) : lev53 V0 (Proc.devRef .tc main_v1571) = lev37 V0 (Proc.devRef .tc main_v1571) := (filt52_keep (lev52 V0) (r := main_v1571) (by decide)).trans (k36_52 V0)
theorem k36_54 (V0 : Valuation τ sig (Elt F)) : lev54 V0 (Proc.devRef .tc main_v1571) = lev37 V0 (Proc.devRef .tc main_v1571) := (filt53_keep (lev53 V0) (r := main_v1571) (by decide)).trans (k36_53 V0)
theorem k36_55 (V0 : Valuation τ sig (Elt F)) : lev55 V0 (Proc.devRef .tc main_v1571) = lev37 V0 (Proc.devRef .tc main_v1571) := (filt54_keep (lev54 V0) (r := main_v1571) (by decide)).trans (k36_54 V0)
theorem k36_56 (V0 : Valuation τ sig (Elt F)) : lev56 V0 (Proc.devRef .tc main_v1571) = lev37 V0 (Proc.devRef .tc main_v1571) := (filt55_keep (lev55 V0) (r := main_v1571) (by decide)).trans (k36_55 V0)
theorem k36_57 (V0 : Valuation τ sig (Elt F)) : lev57 V0 (Proc.devRef .tc main_v1571) = lev37 V0 (Proc.devRef .tc main_v1571) := (filt56_keep (lev56 V0) (r := main_v1571) (by decide)).trans (k36_56 V0)
theorem k36_58 (V0 : Valuation τ sig (Elt F)) : lev58 V0 (Proc.devRef .tc main_v1571) = lev37 V0 (Proc.devRef .tc main_v1571) := (filt57_keep (lev57 V0) (r := main_v1571) (by decide)).trans (k36_57 V0)
theorem k36_59 (V0 : Valuation τ sig (Elt F)) : lev59 V0 (Proc.devRef .tc main_v1571) = lev37 V0 (Proc.devRef .tc main_v1571) := (filt58_keep (lev58 V0) (r := main_v1571) (by decide)).trans (k36_58 V0)
theorem k36_60 (V0 : Valuation τ sig (Elt F)) : lev60 V0 (Proc.devRef .tc main_v1571) = lev37 V0 (Proc.devRef .tc main_v1571) := (filt59_keep (lev59 V0) (r := main_v1571) (by decide)).trans (k36_59 V0)
theorem k36_61 (V0 : Valuation τ sig (Elt F)) : lev61 V0 (Proc.devRef .tc main_v1571) = lev37 V0 (Proc.devRef .tc main_v1571) := (filt60_keep (lev60 V0) (r := main_v1571) (by decide)).trans (k36_60 V0)
theorem k36_62 (V0 : Valuation τ sig (Elt F)) : lev62 V0 (Proc.devRef .tc main_v1571) = lev37 V0 (Proc.devRef .tc main_v1571) := (filt61_keep (lev61 V0) (r := main_v1571) (by decide)).trans (k36_61 V0)
theorem k36_63 (V0 : Valuation τ sig (Elt F)) : lev63 V0 (Proc.devRef .tc main_v1571) = lev37 V0 (Proc.devRef .tc main_v1571) := (filt62_keep (lev62 V0) (r := main_v1571) (by decide)).trans (k36_62 V0)
theorem k36_64 (V0 : Valuation τ sig (Elt F)) : lev64 V0 (Proc.devRef .tc main_v1571) = lev37 V0 (Proc.devRef .tc main_v1571) := (filt63_keep (lev63 V0) (r := main_v1571) (by decide)).trans (k36_63 V0)
theorem k37_39 (V0 : Valuation τ sig (Elt F)) : lev39 V0 (Proc.devRef .tc main_v1641) = lev38 V0 (Proc.devRef .tc main_v1641) := (filt38_keep (lev38 V0) (r := main_v1641) (by decide))
theorem k37_40 (V0 : Valuation τ sig (Elt F)) : lev40 V0 (Proc.devRef .tc main_v1641) = lev38 V0 (Proc.devRef .tc main_v1641) := (filt39_keep (lev39 V0) (r := main_v1641) (by decide)).trans (k37_39 V0)
theorem k37_41 (V0 : Valuation τ sig (Elt F)) : lev41 V0 (Proc.devRef .tc main_v1641) = lev38 V0 (Proc.devRef .tc main_v1641) := (filt40_keep (lev40 V0) (r := main_v1641) (by decide)).trans (k37_40 V0)
theorem k37_42 (V0 : Valuation τ sig (Elt F)) : lev42 V0 (Proc.devRef .tc main_v1641) = lev38 V0 (Proc.devRef .tc main_v1641) := (filt41_keep (lev41 V0) (r := main_v1641) (by decide)).trans (k37_41 V0)
theorem k37_43 (V0 : Valuation τ sig (Elt F)) : lev43 V0 (Proc.devRef .tc main_v1641) = lev38 V0 (Proc.devRef .tc main_v1641) := (filt42_keep (lev42 V0) (r := main_v1641) (by decide)).trans (k37_42 V0)
theorem k37_44 (V0 : Valuation τ sig (Elt F)) : lev44 V0 (Proc.devRef .tc main_v1641) = lev38 V0 (Proc.devRef .tc main_v1641) := (filt43_keep (lev43 V0) (r := main_v1641) (by decide)).trans (k37_43 V0)
theorem k37_45 (V0 : Valuation τ sig (Elt F)) : lev45 V0 (Proc.devRef .tc main_v1641) = lev38 V0 (Proc.devRef .tc main_v1641) := (filt44_keep (lev44 V0) (r := main_v1641) (by decide)).trans (k37_44 V0)
theorem k37_46 (V0 : Valuation τ sig (Elt F)) : lev46 V0 (Proc.devRef .tc main_v1641) = lev38 V0 (Proc.devRef .tc main_v1641) := (filt45_keep (lev45 V0) (r := main_v1641) (by decide)).trans (k37_45 V0)
theorem k37_47 (V0 : Valuation τ sig (Elt F)) : lev47 V0 (Proc.devRef .tc main_v1641) = lev38 V0 (Proc.devRef .tc main_v1641) := (filt46_keep (lev46 V0) (r := main_v1641) (by decide)).trans (k37_46 V0)
theorem k37_48 (V0 : Valuation τ sig (Elt F)) : lev48 V0 (Proc.devRef .tc main_v1641) = lev38 V0 (Proc.devRef .tc main_v1641) := (filt47_keep (lev47 V0) (r := main_v1641) (by decide)).trans (k37_47 V0)
theorem k37_49 (V0 : Valuation τ sig (Elt F)) : lev49 V0 (Proc.devRef .tc main_v1641) = lev38 V0 (Proc.devRef .tc main_v1641) := (filt48_keep (lev48 V0) (r := main_v1641) (by decide)).trans (k37_48 V0)
theorem k37_50 (V0 : Valuation τ sig (Elt F)) : lev50 V0 (Proc.devRef .tc main_v1641) = lev38 V0 (Proc.devRef .tc main_v1641) := (filt49_keep (lev49 V0) (r := main_v1641) (by decide)).trans (k37_49 V0)
theorem k37_51 (V0 : Valuation τ sig (Elt F)) : lev51 V0 (Proc.devRef .tc main_v1641) = lev38 V0 (Proc.devRef .tc main_v1641) := (filt50_keep (lev50 V0) (r := main_v1641) (by decide)).trans (k37_50 V0)
theorem k37_52 (V0 : Valuation τ sig (Elt F)) : lev52 V0 (Proc.devRef .tc main_v1641) = lev38 V0 (Proc.devRef .tc main_v1641) := (filt51_keep (lev51 V0) (r := main_v1641) (by decide)).trans (k37_51 V0)
theorem k37_53 (V0 : Valuation τ sig (Elt F)) : lev53 V0 (Proc.devRef .tc main_v1641) = lev38 V0 (Proc.devRef .tc main_v1641) := (filt52_keep (lev52 V0) (r := main_v1641) (by decide)).trans (k37_52 V0)
theorem k37_54 (V0 : Valuation τ sig (Elt F)) : lev54 V0 (Proc.devRef .tc main_v1641) = lev38 V0 (Proc.devRef .tc main_v1641) := (filt53_keep (lev53 V0) (r := main_v1641) (by decide)).trans (k37_53 V0)
theorem k37_55 (V0 : Valuation τ sig (Elt F)) : lev55 V0 (Proc.devRef .tc main_v1641) = lev38 V0 (Proc.devRef .tc main_v1641) := (filt54_keep (lev54 V0) (r := main_v1641) (by decide)).trans (k37_54 V0)
theorem k37_56 (V0 : Valuation τ sig (Elt F)) : lev56 V0 (Proc.devRef .tc main_v1641) = lev38 V0 (Proc.devRef .tc main_v1641) := (filt55_keep (lev55 V0) (r := main_v1641) (by decide)).trans (k37_55 V0)
theorem k37_57 (V0 : Valuation τ sig (Elt F)) : lev57 V0 (Proc.devRef .tc main_v1641) = lev38 V0 (Proc.devRef .tc main_v1641) := (filt56_keep (lev56 V0) (r := main_v1641) (by decide)).trans (k37_56 V0)
theorem k37_58 (V0 : Valuation τ sig (Elt F)) : lev58 V0 (Proc.devRef .tc main_v1641) = lev38 V0 (Proc.devRef .tc main_v1641) := (filt57_keep (lev57 V0) (r := main_v1641) (by decide)).trans (k37_57 V0)
theorem k37_59 (V0 : Valuation τ sig (Elt F)) : lev59 V0 (Proc.devRef .tc main_v1641) = lev38 V0 (Proc.devRef .tc main_v1641) := (filt58_keep (lev58 V0) (r := main_v1641) (by decide)).trans (k37_58 V0)
theorem k37_60 (V0 : Valuation τ sig (Elt F)) : lev60 V0 (Proc.devRef .tc main_v1641) = lev38 V0 (Proc.devRef .tc main_v1641) := (filt59_keep (lev59 V0) (r := main_v1641) (by decide)).trans (k37_59 V0)
theorem k37_61 (V0 : Valuation τ sig (Elt F)) : lev61 V0 (Proc.devRef .tc main_v1641) = lev38 V0 (Proc.devRef .tc main_v1641) := (filt60_keep (lev60 V0) (r := main_v1641) (by decide)).trans (k37_60 V0)
theorem k37_62 (V0 : Valuation τ sig (Elt F)) : lev62 V0 (Proc.devRef .tc main_v1641) = lev38 V0 (Proc.devRef .tc main_v1641) := (filt61_keep (lev61 V0) (r := main_v1641) (by decide)).trans (k37_61 V0)
theorem k37_63 (V0 : Valuation τ sig (Elt F)) : lev63 V0 (Proc.devRef .tc main_v1641) = lev38 V0 (Proc.devRef .tc main_v1641) := (filt62_keep (lev62 V0) (r := main_v1641) (by decide)).trans (k37_62 V0)
theorem k37_64 (V0 : Valuation τ sig (Elt F)) : lev64 V0 (Proc.devRef .tc main_v1641) = lev38 V0 (Proc.devRef .tc main_v1641) := (filt63_keep (lev63 V0) (r := main_v1641) (by decide)).trans (k37_63 V0)
theorem k38_40 (V0 : Valuation τ sig (Elt F)) : lev40 V0 (Proc.devRef .tc main_v1714) = lev39 V0 (Proc.devRef .tc main_v1714) := (filt39_keep (lev39 V0) (r := main_v1714) (by decide))
theorem k38_41 (V0 : Valuation τ sig (Elt F)) : lev41 V0 (Proc.devRef .tc main_v1714) = lev39 V0 (Proc.devRef .tc main_v1714) := (filt40_keep (lev40 V0) (r := main_v1714) (by decide)).trans (k38_40 V0)
theorem k38_42 (V0 : Valuation τ sig (Elt F)) : lev42 V0 (Proc.devRef .tc main_v1714) = lev39 V0 (Proc.devRef .tc main_v1714) := (filt41_keep (lev41 V0) (r := main_v1714) (by decide)).trans (k38_41 V0)
theorem k38_43 (V0 : Valuation τ sig (Elt F)) : lev43 V0 (Proc.devRef .tc main_v1714) = lev39 V0 (Proc.devRef .tc main_v1714) := (filt42_keep (lev42 V0) (r := main_v1714) (by decide)).trans (k38_42 V0)
theorem k38_44 (V0 : Valuation τ sig (Elt F)) : lev44 V0 (Proc.devRef .tc main_v1714) = lev39 V0 (Proc.devRef .tc main_v1714) := (filt43_keep (lev43 V0) (r := main_v1714) (by decide)).trans (k38_43 V0)
theorem k38_45 (V0 : Valuation τ sig (Elt F)) : lev45 V0 (Proc.devRef .tc main_v1714) = lev39 V0 (Proc.devRef .tc main_v1714) := (filt44_keep (lev44 V0) (r := main_v1714) (by decide)).trans (k38_44 V0)
theorem k38_46 (V0 : Valuation τ sig (Elt F)) : lev46 V0 (Proc.devRef .tc main_v1714) = lev39 V0 (Proc.devRef .tc main_v1714) := (filt45_keep (lev45 V0) (r := main_v1714) (by decide)).trans (k38_45 V0)
theorem k38_47 (V0 : Valuation τ sig (Elt F)) : lev47 V0 (Proc.devRef .tc main_v1714) = lev39 V0 (Proc.devRef .tc main_v1714) := (filt46_keep (lev46 V0) (r := main_v1714) (by decide)).trans (k38_46 V0)
theorem k38_48 (V0 : Valuation τ sig (Elt F)) : lev48 V0 (Proc.devRef .tc main_v1714) = lev39 V0 (Proc.devRef .tc main_v1714) := (filt47_keep (lev47 V0) (r := main_v1714) (by decide)).trans (k38_47 V0)
theorem k38_49 (V0 : Valuation τ sig (Elt F)) : lev49 V0 (Proc.devRef .tc main_v1714) = lev39 V0 (Proc.devRef .tc main_v1714) := (filt48_keep (lev48 V0) (r := main_v1714) (by decide)).trans (k38_48 V0)
theorem k38_50 (V0 : Valuation τ sig (Elt F)) : lev50 V0 (Proc.devRef .tc main_v1714) = lev39 V0 (Proc.devRef .tc main_v1714) := (filt49_keep (lev49 V0) (r := main_v1714) (by decide)).trans (k38_49 V0)
theorem k38_51 (V0 : Valuation τ sig (Elt F)) : lev51 V0 (Proc.devRef .tc main_v1714) = lev39 V0 (Proc.devRef .tc main_v1714) := (filt50_keep (lev50 V0) (r := main_v1714) (by decide)).trans (k38_50 V0)
theorem k38_52 (V0 : Valuation τ sig (Elt F)) : lev52 V0 (Proc.devRef .tc main_v1714) = lev39 V0 (Proc.devRef .tc main_v1714) := (filt51_keep (lev51 V0) (r := main_v1714) (by decide)).trans (k38_51 V0)
theorem k38_53 (V0 : Valuation τ sig (Elt F)) : lev53 V0 (Proc.devRef .tc main_v1714) = lev39 V0 (Proc.devRef .tc main_v1714) := (filt52_keep (lev52 V0) (r := main_v1714) (by decide)).trans (k38_52 V0)
theorem k38_54 (V0 : Valuation τ sig (Elt F)) : lev54 V0 (Proc.devRef .tc main_v1714) = lev39 V0 (Proc.devRef .tc main_v1714) := (filt53_keep (lev53 V0) (r := main_v1714) (by decide)).trans (k38_53 V0)
theorem k38_55 (V0 : Valuation τ sig (Elt F)) : lev55 V0 (Proc.devRef .tc main_v1714) = lev39 V0 (Proc.devRef .tc main_v1714) := (filt54_keep (lev54 V0) (r := main_v1714) (by decide)).trans (k38_54 V0)
theorem k38_56 (V0 : Valuation τ sig (Elt F)) : lev56 V0 (Proc.devRef .tc main_v1714) = lev39 V0 (Proc.devRef .tc main_v1714) := (filt55_keep (lev55 V0) (r := main_v1714) (by decide)).trans (k38_55 V0)
theorem k38_57 (V0 : Valuation τ sig (Elt F)) : lev57 V0 (Proc.devRef .tc main_v1714) = lev39 V0 (Proc.devRef .tc main_v1714) := (filt56_keep (lev56 V0) (r := main_v1714) (by decide)).trans (k38_56 V0)
theorem k38_58 (V0 : Valuation τ sig (Elt F)) : lev58 V0 (Proc.devRef .tc main_v1714) = lev39 V0 (Proc.devRef .tc main_v1714) := (filt57_keep (lev57 V0) (r := main_v1714) (by decide)).trans (k38_57 V0)
theorem k38_59 (V0 : Valuation τ sig (Elt F)) : lev59 V0 (Proc.devRef .tc main_v1714) = lev39 V0 (Proc.devRef .tc main_v1714) := (filt58_keep (lev58 V0) (r := main_v1714) (by decide)).trans (k38_58 V0)
theorem k38_60 (V0 : Valuation τ sig (Elt F)) : lev60 V0 (Proc.devRef .tc main_v1714) = lev39 V0 (Proc.devRef .tc main_v1714) := (filt59_keep (lev59 V0) (r := main_v1714) (by decide)).trans (k38_59 V0)
theorem k38_61 (V0 : Valuation τ sig (Elt F)) : lev61 V0 (Proc.devRef .tc main_v1714) = lev39 V0 (Proc.devRef .tc main_v1714) := (filt60_keep (lev60 V0) (r := main_v1714) (by decide)).trans (k38_60 V0)
theorem k38_62 (V0 : Valuation τ sig (Elt F)) : lev62 V0 (Proc.devRef .tc main_v1714) = lev39 V0 (Proc.devRef .tc main_v1714) := (filt61_keep (lev61 V0) (r := main_v1714) (by decide)).trans (k38_61 V0)
theorem k38_63 (V0 : Valuation τ sig (Elt F)) : lev63 V0 (Proc.devRef .tc main_v1714) = lev39 V0 (Proc.devRef .tc main_v1714) := (filt62_keep (lev62 V0) (r := main_v1714) (by decide)).trans (k38_62 V0)
theorem k38_64 (V0 : Valuation τ sig (Elt F)) : lev64 V0 (Proc.devRef .tc main_v1714) = lev39 V0 (Proc.devRef .tc main_v1714) := (filt63_keep (lev63 V0) (r := main_v1714) (by decide)).trans (k38_63 V0)
theorem k39_41 (V0 : Valuation τ sig (Elt F)) : lev41 V0 (Proc.devRef .tc main_v1787) = lev40 V0 (Proc.devRef .tc main_v1787) := (filt40_keep (lev40 V0) (r := main_v1787) (by decide))
theorem k39_42 (V0 : Valuation τ sig (Elt F)) : lev42 V0 (Proc.devRef .tc main_v1787) = lev40 V0 (Proc.devRef .tc main_v1787) := (filt41_keep (lev41 V0) (r := main_v1787) (by decide)).trans (k39_41 V0)
theorem k39_43 (V0 : Valuation τ sig (Elt F)) : lev43 V0 (Proc.devRef .tc main_v1787) = lev40 V0 (Proc.devRef .tc main_v1787) := (filt42_keep (lev42 V0) (r := main_v1787) (by decide)).trans (k39_42 V0)
theorem k39_44 (V0 : Valuation τ sig (Elt F)) : lev44 V0 (Proc.devRef .tc main_v1787) = lev40 V0 (Proc.devRef .tc main_v1787) := (filt43_keep (lev43 V0) (r := main_v1787) (by decide)).trans (k39_43 V0)
theorem k39_45 (V0 : Valuation τ sig (Elt F)) : lev45 V0 (Proc.devRef .tc main_v1787) = lev40 V0 (Proc.devRef .tc main_v1787) := (filt44_keep (lev44 V0) (r := main_v1787) (by decide)).trans (k39_44 V0)
theorem k39_46 (V0 : Valuation τ sig (Elt F)) : lev46 V0 (Proc.devRef .tc main_v1787) = lev40 V0 (Proc.devRef .tc main_v1787) := (filt45_keep (lev45 V0) (r := main_v1787) (by decide)).trans (k39_45 V0)
theorem k39_47 (V0 : Valuation τ sig (Elt F)) : lev47 V0 (Proc.devRef .tc main_v1787) = lev40 V0 (Proc.devRef .tc main_v1787) := (filt46_keep (lev46 V0) (r := main_v1787) (by decide)).trans (k39_46 V0)
theorem k39_48 (V0 : Valuation τ sig (Elt F)) : lev48 V0 (Proc.devRef .tc main_v1787) = lev40 V0 (Proc.devRef .tc main_v1787) := (filt47_keep (lev47 V0) (r := main_v1787) (by decide)).trans (k39_47 V0)
theorem k39_49 (V0 : Valuation τ sig (Elt F)) : lev49 V0 (Proc.devRef .tc main_v1787) = lev40 V0 (Proc.devRef .tc main_v1787) := (filt48_keep (lev48 V0) (r := main_v1787) (by decide)).trans (k39_48 V0)
theorem k39_50 (V0 : Valuation τ sig (Elt F)) : lev50 V0 (Proc.devRef .tc main_v1787) = lev40 V0 (Proc.devRef .tc main_v1787) := (filt49_keep (lev49 V0) (r := main_v1787) (by decide)).trans (k39_49 V0)
theorem k39_51 (V0 : Valuation τ sig (Elt F)) : lev51 V0 (Proc.devRef .tc main_v1787) = lev40 V0 (Proc.devRef .tc main_v1787) := (filt50_keep (lev50 V0) (r := main_v1787) (by decide)).trans (k39_50 V0)
theorem k39_52 (V0 : Valuation τ sig (Elt F)) : lev52 V0 (Proc.devRef .tc main_v1787) = lev40 V0 (Proc.devRef .tc main_v1787) := (filt51_keep (lev51 V0) (r := main_v1787) (by decide)).trans (k39_51 V0)
theorem k39_53 (V0 : Valuation τ sig (Elt F)) : lev53 V0 (Proc.devRef .tc main_v1787) = lev40 V0 (Proc.devRef .tc main_v1787) := (filt52_keep (lev52 V0) (r := main_v1787) (by decide)).trans (k39_52 V0)
theorem k39_54 (V0 : Valuation τ sig (Elt F)) : lev54 V0 (Proc.devRef .tc main_v1787) = lev40 V0 (Proc.devRef .tc main_v1787) := (filt53_keep (lev53 V0) (r := main_v1787) (by decide)).trans (k39_53 V0)
theorem k39_55 (V0 : Valuation τ sig (Elt F)) : lev55 V0 (Proc.devRef .tc main_v1787) = lev40 V0 (Proc.devRef .tc main_v1787) := (filt54_keep (lev54 V0) (r := main_v1787) (by decide)).trans (k39_54 V0)
theorem k39_56 (V0 : Valuation τ sig (Elt F)) : lev56 V0 (Proc.devRef .tc main_v1787) = lev40 V0 (Proc.devRef .tc main_v1787) := (filt55_keep (lev55 V0) (r := main_v1787) (by decide)).trans (k39_55 V0)
theorem k39_57 (V0 : Valuation τ sig (Elt F)) : lev57 V0 (Proc.devRef .tc main_v1787) = lev40 V0 (Proc.devRef .tc main_v1787) := (filt56_keep (lev56 V0) (r := main_v1787) (by decide)).trans (k39_56 V0)
theorem k39_58 (V0 : Valuation τ sig (Elt F)) : lev58 V0 (Proc.devRef .tc main_v1787) = lev40 V0 (Proc.devRef .tc main_v1787) := (filt57_keep (lev57 V0) (r := main_v1787) (by decide)).trans (k39_57 V0)
theorem k39_59 (V0 : Valuation τ sig (Elt F)) : lev59 V0 (Proc.devRef .tc main_v1787) = lev40 V0 (Proc.devRef .tc main_v1787) := (filt58_keep (lev58 V0) (r := main_v1787) (by decide)).trans (k39_58 V0)
theorem k39_60 (V0 : Valuation τ sig (Elt F)) : lev60 V0 (Proc.devRef .tc main_v1787) = lev40 V0 (Proc.devRef .tc main_v1787) := (filt59_keep (lev59 V0) (r := main_v1787) (by decide)).trans (k39_59 V0)
theorem k39_61 (V0 : Valuation τ sig (Elt F)) : lev61 V0 (Proc.devRef .tc main_v1787) = lev40 V0 (Proc.devRef .tc main_v1787) := (filt60_keep (lev60 V0) (r := main_v1787) (by decide)).trans (k39_60 V0)
theorem k39_62 (V0 : Valuation τ sig (Elt F)) : lev62 V0 (Proc.devRef .tc main_v1787) = lev40 V0 (Proc.devRef .tc main_v1787) := (filt61_keep (lev61 V0) (r := main_v1787) (by decide)).trans (k39_61 V0)
theorem k39_63 (V0 : Valuation τ sig (Elt F)) : lev63 V0 (Proc.devRef .tc main_v1787) = lev40 V0 (Proc.devRef .tc main_v1787) := (filt62_keep (lev62 V0) (r := main_v1787) (by decide)).trans (k39_62 V0)
theorem k39_64 (V0 : Valuation τ sig (Elt F)) : lev64 V0 (Proc.devRef .tc main_v1787) = lev40 V0 (Proc.devRef .tc main_v1787) := (filt63_keep (lev63 V0) (r := main_v1787) (by decide)).trans (k39_63 V0)
theorem k40_42 (V0 : Valuation τ sig (Elt F)) : lev42 V0 (Proc.devRef .tc main_v1863) = lev41 V0 (Proc.devRef .tc main_v1863) := (filt41_keep (lev41 V0) (r := main_v1863) (by decide))
theorem k40_43 (V0 : Valuation τ sig (Elt F)) : lev43 V0 (Proc.devRef .tc main_v1863) = lev41 V0 (Proc.devRef .tc main_v1863) := (filt42_keep (lev42 V0) (r := main_v1863) (by decide)).trans (k40_42 V0)
theorem k40_44 (V0 : Valuation τ sig (Elt F)) : lev44 V0 (Proc.devRef .tc main_v1863) = lev41 V0 (Proc.devRef .tc main_v1863) := (filt43_keep (lev43 V0) (r := main_v1863) (by decide)).trans (k40_43 V0)
theorem k40_45 (V0 : Valuation τ sig (Elt F)) : lev45 V0 (Proc.devRef .tc main_v1863) = lev41 V0 (Proc.devRef .tc main_v1863) := (filt44_keep (lev44 V0) (r := main_v1863) (by decide)).trans (k40_44 V0)
theorem k40_46 (V0 : Valuation τ sig (Elt F)) : lev46 V0 (Proc.devRef .tc main_v1863) = lev41 V0 (Proc.devRef .tc main_v1863) := (filt45_keep (lev45 V0) (r := main_v1863) (by decide)).trans (k40_45 V0)
theorem k40_47 (V0 : Valuation τ sig (Elt F)) : lev47 V0 (Proc.devRef .tc main_v1863) = lev41 V0 (Proc.devRef .tc main_v1863) := (filt46_keep (lev46 V0) (r := main_v1863) (by decide)).trans (k40_46 V0)
theorem k40_48 (V0 : Valuation τ sig (Elt F)) : lev48 V0 (Proc.devRef .tc main_v1863) = lev41 V0 (Proc.devRef .tc main_v1863) := (filt47_keep (lev47 V0) (r := main_v1863) (by decide)).trans (k40_47 V0)
theorem k40_49 (V0 : Valuation τ sig (Elt F)) : lev49 V0 (Proc.devRef .tc main_v1863) = lev41 V0 (Proc.devRef .tc main_v1863) := (filt48_keep (lev48 V0) (r := main_v1863) (by decide)).trans (k40_48 V0)
theorem k40_50 (V0 : Valuation τ sig (Elt F)) : lev50 V0 (Proc.devRef .tc main_v1863) = lev41 V0 (Proc.devRef .tc main_v1863) := (filt49_keep (lev49 V0) (r := main_v1863) (by decide)).trans (k40_49 V0)
theorem k40_51 (V0 : Valuation τ sig (Elt F)) : lev51 V0 (Proc.devRef .tc main_v1863) = lev41 V0 (Proc.devRef .tc main_v1863) := (filt50_keep (lev50 V0) (r := main_v1863) (by decide)).trans (k40_50 V0)
theorem k40_52 (V0 : Valuation τ sig (Elt F)) : lev52 V0 (Proc.devRef .tc main_v1863) = lev41 V0 (Proc.devRef .tc main_v1863) := (filt51_keep (lev51 V0) (r := main_v1863) (by decide)).trans (k40_51 V0)
theorem k40_53 (V0 : Valuation τ sig (Elt F)) : lev53 V0 (Proc.devRef .tc main_v1863) = lev41 V0 (Proc.devRef .tc main_v1863) := (filt52_keep (lev52 V0) (r := main_v1863) (by decide)).trans (k40_52 V0)
theorem k40_54 (V0 : Valuation τ sig (Elt F)) : lev54 V0 (Proc.devRef .tc main_v1863) = lev41 V0 (Proc.devRef .tc main_v1863) := (filt53_keep (lev53 V0) (r := main_v1863) (by decide)).trans (k40_53 V0)
theorem k40_55 (V0 : Valuation τ sig (Elt F)) : lev55 V0 (Proc.devRef .tc main_v1863) = lev41 V0 (Proc.devRef .tc main_v1863) := (filt54_keep (lev54 V0) (r := main_v1863) (by decide)).trans (k40_54 V0)
theorem k40_56 (V0 : Valuation τ sig (Elt F)) : lev56 V0 (Proc.devRef .tc main_v1863) = lev41 V0 (Proc.devRef .tc main_v1863) := (filt55_keep (lev55 V0) (r := main_v1863) (by decide)).trans (k40_55 V0)
theorem k40_57 (V0 : Valuation τ sig (Elt F)) : lev57 V0 (Proc.devRef .tc main_v1863) = lev41 V0 (Proc.devRef .tc main_v1863) := (filt56_keep (lev56 V0) (r := main_v1863) (by decide)).trans (k40_56 V0)
theorem k40_58 (V0 : Valuation τ sig (Elt F)) : lev58 V0 (Proc.devRef .tc main_v1863) = lev41 V0 (Proc.devRef .tc main_v1863) := (filt57_keep (lev57 V0) (r := main_v1863) (by decide)).trans (k40_57 V0)
theorem k40_59 (V0 : Valuation τ sig (Elt F)) : lev59 V0 (Proc.devRef .tc main_v1863) = lev41 V0 (Proc.devRef .tc main_v1863) := (filt58_keep (lev58 V0) (r := main_v1863) (by decide)).trans (k40_58 V0)
theorem k40_60 (V0 : Valuation τ sig (Elt F)) : lev60 V0 (Proc.devRef .tc main_v1863) = lev41 V0 (Proc.devRef .tc main_v1863) := (filt59_keep (lev59 V0) (r := main_v1863) (by decide)).trans (k40_59 V0)
theorem k40_61 (V0 : Valuation τ sig (Elt F)) : lev61 V0 (Proc.devRef .tc main_v1863) = lev41 V0 (Proc.devRef .tc main_v1863) := (filt60_keep (lev60 V0) (r := main_v1863) (by decide)).trans (k40_60 V0)
theorem k40_62 (V0 : Valuation τ sig (Elt F)) : lev62 V0 (Proc.devRef .tc main_v1863) = lev41 V0 (Proc.devRef .tc main_v1863) := (filt61_keep (lev61 V0) (r := main_v1863) (by decide)).trans (k40_61 V0)
theorem k40_63 (V0 : Valuation τ sig (Elt F)) : lev63 V0 (Proc.devRef .tc main_v1863) = lev41 V0 (Proc.devRef .tc main_v1863) := (filt62_keep (lev62 V0) (r := main_v1863) (by decide)).trans (k40_62 V0)
theorem k40_64 (V0 : Valuation τ sig (Elt F)) : lev64 V0 (Proc.devRef .tc main_v1863) = lev41 V0 (Proc.devRef .tc main_v1863) := (filt63_keep (lev63 V0) (r := main_v1863) (by decide)).trans (k40_63 V0)
theorem k41_43 (V0 : Valuation τ sig (Elt F)) : lev43 V0 (Proc.devRef .tc main_v1939) = lev42 V0 (Proc.devRef .tc main_v1939) := (filt42_keep (lev42 V0) (r := main_v1939) (by decide))
theorem k41_44 (V0 : Valuation τ sig (Elt F)) : lev44 V0 (Proc.devRef .tc main_v1939) = lev42 V0 (Proc.devRef .tc main_v1939) := (filt43_keep (lev43 V0) (r := main_v1939) (by decide)).trans (k41_43 V0)
theorem k41_45 (V0 : Valuation τ sig (Elt F)) : lev45 V0 (Proc.devRef .tc main_v1939) = lev42 V0 (Proc.devRef .tc main_v1939) := (filt44_keep (lev44 V0) (r := main_v1939) (by decide)).trans (k41_44 V0)
theorem k41_46 (V0 : Valuation τ sig (Elt F)) : lev46 V0 (Proc.devRef .tc main_v1939) = lev42 V0 (Proc.devRef .tc main_v1939) := (filt45_keep (lev45 V0) (r := main_v1939) (by decide)).trans (k41_45 V0)
theorem k41_47 (V0 : Valuation τ sig (Elt F)) : lev47 V0 (Proc.devRef .tc main_v1939) = lev42 V0 (Proc.devRef .tc main_v1939) := (filt46_keep (lev46 V0) (r := main_v1939) (by decide)).trans (k41_46 V0)
theorem k41_48 (V0 : Valuation τ sig (Elt F)) : lev48 V0 (Proc.devRef .tc main_v1939) = lev42 V0 (Proc.devRef .tc main_v1939) := (filt47_keep (lev47 V0) (r := main_v1939) (by decide)).trans (k41_47 V0)
theorem k41_49 (V0 : Valuation τ sig (Elt F)) : lev49 V0 (Proc.devRef .tc main_v1939) = lev42 V0 (Proc.devRef .tc main_v1939) := (filt48_keep (lev48 V0) (r := main_v1939) (by decide)).trans (k41_48 V0)
theorem k41_50 (V0 : Valuation τ sig (Elt F)) : lev50 V0 (Proc.devRef .tc main_v1939) = lev42 V0 (Proc.devRef .tc main_v1939) := (filt49_keep (lev49 V0) (r := main_v1939) (by decide)).trans (k41_49 V0)
theorem k41_51 (V0 : Valuation τ sig (Elt F)) : lev51 V0 (Proc.devRef .tc main_v1939) = lev42 V0 (Proc.devRef .tc main_v1939) := (filt50_keep (lev50 V0) (r := main_v1939) (by decide)).trans (k41_50 V0)
theorem k41_52 (V0 : Valuation τ sig (Elt F)) : lev52 V0 (Proc.devRef .tc main_v1939) = lev42 V0 (Proc.devRef .tc main_v1939) := (filt51_keep (lev51 V0) (r := main_v1939) (by decide)).trans (k41_51 V0)
theorem k41_53 (V0 : Valuation τ sig (Elt F)) : lev53 V0 (Proc.devRef .tc main_v1939) = lev42 V0 (Proc.devRef .tc main_v1939) := (filt52_keep (lev52 V0) (r := main_v1939) (by decide)).trans (k41_52 V0)
theorem k41_54 (V0 : Valuation τ sig (Elt F)) : lev54 V0 (Proc.devRef .tc main_v1939) = lev42 V0 (Proc.devRef .tc main_v1939) := (filt53_keep (lev53 V0) (r := main_v1939) (by decide)).trans (k41_53 V0)
theorem k41_55 (V0 : Valuation τ sig (Elt F)) : lev55 V0 (Proc.devRef .tc main_v1939) = lev42 V0 (Proc.devRef .tc main_v1939) := (filt54_keep (lev54 V0) (r := main_v1939) (by decide)).trans (k41_54 V0)
theorem k41_56 (V0 : Valuation τ sig (Elt F)) : lev56 V0 (Proc.devRef .tc main_v1939) = lev42 V0 (Proc.devRef .tc main_v1939) := (filt55_keep (lev55 V0) (r := main_v1939) (by decide)).trans (k41_55 V0)
theorem k41_57 (V0 : Valuation τ sig (Elt F)) : lev57 V0 (Proc.devRef .tc main_v1939) = lev42 V0 (Proc.devRef .tc main_v1939) := (filt56_keep (lev56 V0) (r := main_v1939) (by decide)).trans (k41_56 V0)
theorem k41_58 (V0 : Valuation τ sig (Elt F)) : lev58 V0 (Proc.devRef .tc main_v1939) = lev42 V0 (Proc.devRef .tc main_v1939) := (filt57_keep (lev57 V0) (r := main_v1939) (by decide)).trans (k41_57 V0)
theorem k41_59 (V0 : Valuation τ sig (Elt F)) : lev59 V0 (Proc.devRef .tc main_v1939) = lev42 V0 (Proc.devRef .tc main_v1939) := (filt58_keep (lev58 V0) (r := main_v1939) (by decide)).trans (k41_58 V0)
theorem k41_60 (V0 : Valuation τ sig (Elt F)) : lev60 V0 (Proc.devRef .tc main_v1939) = lev42 V0 (Proc.devRef .tc main_v1939) := (filt59_keep (lev59 V0) (r := main_v1939) (by decide)).trans (k41_59 V0)
theorem k41_61 (V0 : Valuation τ sig (Elt F)) : lev61 V0 (Proc.devRef .tc main_v1939) = lev42 V0 (Proc.devRef .tc main_v1939) := (filt60_keep (lev60 V0) (r := main_v1939) (by decide)).trans (k41_60 V0)
theorem k41_62 (V0 : Valuation τ sig (Elt F)) : lev62 V0 (Proc.devRef .tc main_v1939) = lev42 V0 (Proc.devRef .tc main_v1939) := (filt61_keep (lev61 V0) (r := main_v1939) (by decide)).trans (k41_61 V0)
theorem k41_63 (V0 : Valuation τ sig (Elt F)) : lev63 V0 (Proc.devRef .tc main_v1939) = lev42 V0 (Proc.devRef .tc main_v1939) := (filt62_keep (lev62 V0) (r := main_v1939) (by decide)).trans (k41_62 V0)
theorem k41_64 (V0 : Valuation τ sig (Elt F)) : lev64 V0 (Proc.devRef .tc main_v1939) = lev42 V0 (Proc.devRef .tc main_v1939) := (filt63_keep (lev63 V0) (r := main_v1939) (by decide)).trans (k41_63 V0)
theorem k42_44 (V0 : Valuation τ sig (Elt F)) : lev44 V0 (Proc.devRef .tc main_v2018) = lev43 V0 (Proc.devRef .tc main_v2018) := (filt43_keep (lev43 V0) (r := main_v2018) (by decide))
theorem k42_45 (V0 : Valuation τ sig (Elt F)) : lev45 V0 (Proc.devRef .tc main_v2018) = lev43 V0 (Proc.devRef .tc main_v2018) := (filt44_keep (lev44 V0) (r := main_v2018) (by decide)).trans (k42_44 V0)
theorem k42_46 (V0 : Valuation τ sig (Elt F)) : lev46 V0 (Proc.devRef .tc main_v2018) = lev43 V0 (Proc.devRef .tc main_v2018) := (filt45_keep (lev45 V0) (r := main_v2018) (by decide)).trans (k42_45 V0)
theorem k42_47 (V0 : Valuation τ sig (Elt F)) : lev47 V0 (Proc.devRef .tc main_v2018) = lev43 V0 (Proc.devRef .tc main_v2018) := (filt46_keep (lev46 V0) (r := main_v2018) (by decide)).trans (k42_46 V0)
theorem k42_48 (V0 : Valuation τ sig (Elt F)) : lev48 V0 (Proc.devRef .tc main_v2018) = lev43 V0 (Proc.devRef .tc main_v2018) := (filt47_keep (lev47 V0) (r := main_v2018) (by decide)).trans (k42_47 V0)
theorem k42_49 (V0 : Valuation τ sig (Elt F)) : lev49 V0 (Proc.devRef .tc main_v2018) = lev43 V0 (Proc.devRef .tc main_v2018) := (filt48_keep (lev48 V0) (r := main_v2018) (by decide)).trans (k42_48 V0)
theorem k42_50 (V0 : Valuation τ sig (Elt F)) : lev50 V0 (Proc.devRef .tc main_v2018) = lev43 V0 (Proc.devRef .tc main_v2018) := (filt49_keep (lev49 V0) (r := main_v2018) (by decide)).trans (k42_49 V0)
theorem k42_51 (V0 : Valuation τ sig (Elt F)) : lev51 V0 (Proc.devRef .tc main_v2018) = lev43 V0 (Proc.devRef .tc main_v2018) := (filt50_keep (lev50 V0) (r := main_v2018) (by decide)).trans (k42_50 V0)
theorem k42_52 (V0 : Valuation τ sig (Elt F)) : lev52 V0 (Proc.devRef .tc main_v2018) = lev43 V0 (Proc.devRef .tc main_v2018) := (filt51_keep (lev51 V0) (r := main_v2018) (by decide)).trans (k42_51 V0)
theorem k42_53 (V0 : Valuation τ sig (Elt F)) : lev53 V0 (Proc.devRef .tc main_v2018) = lev43 V0 (Proc.devRef .tc main_v2018) := (filt52_keep (lev52 V0) (r := main_v2018) (by decide)).trans (k42_52 V0)
theorem k42_54 (V0 : Valuation τ sig (Elt F)) : lev54 V0 (Proc.devRef .tc main_v2018) = lev43 V0 (Proc.devRef .tc main_v2018) := (filt53_keep (lev53 V0) (r := main_v2018) (by decide)).trans (k42_53 V0)
theorem k42_55 (V0 : Valuation τ sig (Elt F)) : lev55 V0 (Proc.devRef .tc main_v2018) = lev43 V0 (Proc.devRef .tc main_v2018) := (filt54_keep (lev54 V0) (r := main_v2018) (by decide)).trans (k42_54 V0)
theorem k42_56 (V0 : Valuation τ sig (Elt F)) : lev56 V0 (Proc.devRef .tc main_v2018) = lev43 V0 (Proc.devRef .tc main_v2018) := (filt55_keep (lev55 V0) (r := main_v2018) (by decide)).trans (k42_55 V0)
theorem k42_57 (V0 : Valuation τ sig (Elt F)) : lev57 V0 (Proc.devRef .tc main_v2018) = lev43 V0 (Proc.devRef .tc main_v2018) := (filt56_keep (lev56 V0) (r := main_v2018) (by decide)).trans (k42_56 V0)
theorem k42_58 (V0 : Valuation τ sig (Elt F)) : lev58 V0 (Proc.devRef .tc main_v2018) = lev43 V0 (Proc.devRef .tc main_v2018) := (filt57_keep (lev57 V0) (r := main_v2018) (by decide)).trans (k42_57 V0)
theorem k42_59 (V0 : Valuation τ sig (Elt F)) : lev59 V0 (Proc.devRef .tc main_v2018) = lev43 V0 (Proc.devRef .tc main_v2018) := (filt58_keep (lev58 V0) (r := main_v2018) (by decide)).trans (k42_58 V0)
theorem k42_60 (V0 : Valuation τ sig (Elt F)) : lev60 V0 (Proc.devRef .tc main_v2018) = lev43 V0 (Proc.devRef .tc main_v2018) := (filt59_keep (lev59 V0) (r := main_v2018) (by decide)).trans (k42_59 V0)
theorem k42_61 (V0 : Valuation τ sig (Elt F)) : lev61 V0 (Proc.devRef .tc main_v2018) = lev43 V0 (Proc.devRef .tc main_v2018) := (filt60_keep (lev60 V0) (r := main_v2018) (by decide)).trans (k42_60 V0)
theorem k42_62 (V0 : Valuation τ sig (Elt F)) : lev62 V0 (Proc.devRef .tc main_v2018) = lev43 V0 (Proc.devRef .tc main_v2018) := (filt61_keep (lev61 V0) (r := main_v2018) (by decide)).trans (k42_61 V0)
theorem k42_63 (V0 : Valuation τ sig (Elt F)) : lev63 V0 (Proc.devRef .tc main_v2018) = lev43 V0 (Proc.devRef .tc main_v2018) := (filt62_keep (lev62 V0) (r := main_v2018) (by decide)).trans (k42_62 V0)
theorem k42_64 (V0 : Valuation τ sig (Elt F)) : lev64 V0 (Proc.devRef .tc main_v2018) = lev43 V0 (Proc.devRef .tc main_v2018) := (filt63_keep (lev63 V0) (r := main_v2018) (by decide)).trans (k42_63 V0)
theorem k43_45 (V0 : Valuation τ sig (Elt F)) : lev45 V0 (Proc.devRef .tc main_v2097) = lev44 V0 (Proc.devRef .tc main_v2097) := (filt44_keep (lev44 V0) (r := main_v2097) (by decide))
theorem k43_46 (V0 : Valuation τ sig (Elt F)) : lev46 V0 (Proc.devRef .tc main_v2097) = lev44 V0 (Proc.devRef .tc main_v2097) := (filt45_keep (lev45 V0) (r := main_v2097) (by decide)).trans (k43_45 V0)
theorem k43_47 (V0 : Valuation τ sig (Elt F)) : lev47 V0 (Proc.devRef .tc main_v2097) = lev44 V0 (Proc.devRef .tc main_v2097) := (filt46_keep (lev46 V0) (r := main_v2097) (by decide)).trans (k43_46 V0)
theorem k43_48 (V0 : Valuation τ sig (Elt F)) : lev48 V0 (Proc.devRef .tc main_v2097) = lev44 V0 (Proc.devRef .tc main_v2097) := (filt47_keep (lev47 V0) (r := main_v2097) (by decide)).trans (k43_47 V0)
theorem k43_49 (V0 : Valuation τ sig (Elt F)) : lev49 V0 (Proc.devRef .tc main_v2097) = lev44 V0 (Proc.devRef .tc main_v2097) := (filt48_keep (lev48 V0) (r := main_v2097) (by decide)).trans (k43_48 V0)
theorem k43_50 (V0 : Valuation τ sig (Elt F)) : lev50 V0 (Proc.devRef .tc main_v2097) = lev44 V0 (Proc.devRef .tc main_v2097) := (filt49_keep (lev49 V0) (r := main_v2097) (by decide)).trans (k43_49 V0)
theorem k43_51 (V0 : Valuation τ sig (Elt F)) : lev51 V0 (Proc.devRef .tc main_v2097) = lev44 V0 (Proc.devRef .tc main_v2097) := (filt50_keep (lev50 V0) (r := main_v2097) (by decide)).trans (k43_50 V0)
theorem k43_52 (V0 : Valuation τ sig (Elt F)) : lev52 V0 (Proc.devRef .tc main_v2097) = lev44 V0 (Proc.devRef .tc main_v2097) := (filt51_keep (lev51 V0) (r := main_v2097) (by decide)).trans (k43_51 V0)
theorem k43_53 (V0 : Valuation τ sig (Elt F)) : lev53 V0 (Proc.devRef .tc main_v2097) = lev44 V0 (Proc.devRef .tc main_v2097) := (filt52_keep (lev52 V0) (r := main_v2097) (by decide)).trans (k43_52 V0)
theorem k43_54 (V0 : Valuation τ sig (Elt F)) : lev54 V0 (Proc.devRef .tc main_v2097) = lev44 V0 (Proc.devRef .tc main_v2097) := (filt53_keep (lev53 V0) (r := main_v2097) (by decide)).trans (k43_53 V0)
theorem k43_55 (V0 : Valuation τ sig (Elt F)) : lev55 V0 (Proc.devRef .tc main_v2097) = lev44 V0 (Proc.devRef .tc main_v2097) := (filt54_keep (lev54 V0) (r := main_v2097) (by decide)).trans (k43_54 V0)
theorem k43_56 (V0 : Valuation τ sig (Elt F)) : lev56 V0 (Proc.devRef .tc main_v2097) = lev44 V0 (Proc.devRef .tc main_v2097) := (filt55_keep (lev55 V0) (r := main_v2097) (by decide)).trans (k43_55 V0)
theorem k43_57 (V0 : Valuation τ sig (Elt F)) : lev57 V0 (Proc.devRef .tc main_v2097) = lev44 V0 (Proc.devRef .tc main_v2097) := (filt56_keep (lev56 V0) (r := main_v2097) (by decide)).trans (k43_56 V0)
theorem k43_58 (V0 : Valuation τ sig (Elt F)) : lev58 V0 (Proc.devRef .tc main_v2097) = lev44 V0 (Proc.devRef .tc main_v2097) := (filt57_keep (lev57 V0) (r := main_v2097) (by decide)).trans (k43_57 V0)
theorem k43_59 (V0 : Valuation τ sig (Elt F)) : lev59 V0 (Proc.devRef .tc main_v2097) = lev44 V0 (Proc.devRef .tc main_v2097) := (filt58_keep (lev58 V0) (r := main_v2097) (by decide)).trans (k43_58 V0)
theorem k43_60 (V0 : Valuation τ sig (Elt F)) : lev60 V0 (Proc.devRef .tc main_v2097) = lev44 V0 (Proc.devRef .tc main_v2097) := (filt59_keep (lev59 V0) (r := main_v2097) (by decide)).trans (k43_59 V0)
theorem k43_61 (V0 : Valuation τ sig (Elt F)) : lev61 V0 (Proc.devRef .tc main_v2097) = lev44 V0 (Proc.devRef .tc main_v2097) := (filt60_keep (lev60 V0) (r := main_v2097) (by decide)).trans (k43_60 V0)
theorem k43_62 (V0 : Valuation τ sig (Elt F)) : lev62 V0 (Proc.devRef .tc main_v2097) = lev44 V0 (Proc.devRef .tc main_v2097) := (filt61_keep (lev61 V0) (r := main_v2097) (by decide)).trans (k43_61 V0)
theorem k43_63 (V0 : Valuation τ sig (Elt F)) : lev63 V0 (Proc.devRef .tc main_v2097) = lev44 V0 (Proc.devRef .tc main_v2097) := (filt62_keep (lev62 V0) (r := main_v2097) (by decide)).trans (k43_62 V0)
theorem k43_64 (V0 : Valuation τ sig (Elt F)) : lev64 V0 (Proc.devRef .tc main_v2097) = lev44 V0 (Proc.devRef .tc main_v2097) := (filt63_keep (lev63 V0) (r := main_v2097) (by decide)).trans (k43_63 V0)
theorem k44_46 (V0 : Valuation τ sig (Elt F)) : lev46 V0 (Proc.devRef .tc main_v2179) = lev45 V0 (Proc.devRef .tc main_v2179) := (filt45_keep (lev45 V0) (r := main_v2179) (by decide))
theorem k44_47 (V0 : Valuation τ sig (Elt F)) : lev47 V0 (Proc.devRef .tc main_v2179) = lev45 V0 (Proc.devRef .tc main_v2179) := (filt46_keep (lev46 V0) (r := main_v2179) (by decide)).trans (k44_46 V0)
theorem k44_48 (V0 : Valuation τ sig (Elt F)) : lev48 V0 (Proc.devRef .tc main_v2179) = lev45 V0 (Proc.devRef .tc main_v2179) := (filt47_keep (lev47 V0) (r := main_v2179) (by decide)).trans (k44_47 V0)
theorem k44_49 (V0 : Valuation τ sig (Elt F)) : lev49 V0 (Proc.devRef .tc main_v2179) = lev45 V0 (Proc.devRef .tc main_v2179) := (filt48_keep (lev48 V0) (r := main_v2179) (by decide)).trans (k44_48 V0)
theorem k44_50 (V0 : Valuation τ sig (Elt F)) : lev50 V0 (Proc.devRef .tc main_v2179) = lev45 V0 (Proc.devRef .tc main_v2179) := (filt49_keep (lev49 V0) (r := main_v2179) (by decide)).trans (k44_49 V0)
theorem k44_51 (V0 : Valuation τ sig (Elt F)) : lev51 V0 (Proc.devRef .tc main_v2179) = lev45 V0 (Proc.devRef .tc main_v2179) := (filt50_keep (lev50 V0) (r := main_v2179) (by decide)).trans (k44_50 V0)
theorem k44_52 (V0 : Valuation τ sig (Elt F)) : lev52 V0 (Proc.devRef .tc main_v2179) = lev45 V0 (Proc.devRef .tc main_v2179) := (filt51_keep (lev51 V0) (r := main_v2179) (by decide)).trans (k44_51 V0)
theorem k44_53 (V0 : Valuation τ sig (Elt F)) : lev53 V0 (Proc.devRef .tc main_v2179) = lev45 V0 (Proc.devRef .tc main_v2179) := (filt52_keep (lev52 V0) (r := main_v2179) (by decide)).trans (k44_52 V0)
theorem k44_54 (V0 : Valuation τ sig (Elt F)) : lev54 V0 (Proc.devRef .tc main_v2179) = lev45 V0 (Proc.devRef .tc main_v2179) := (filt53_keep (lev53 V0) (r := main_v2179) (by decide)).trans (k44_53 V0)
theorem k44_55 (V0 : Valuation τ sig (Elt F)) : lev55 V0 (Proc.devRef .tc main_v2179) = lev45 V0 (Proc.devRef .tc main_v2179) := (filt54_keep (lev54 V0) (r := main_v2179) (by decide)).trans (k44_54 V0)
theorem k44_56 (V0 : Valuation τ sig (Elt F)) : lev56 V0 (Proc.devRef .tc main_v2179) = lev45 V0 (Proc.devRef .tc main_v2179) := (filt55_keep (lev55 V0) (r := main_v2179) (by decide)).trans (k44_55 V0)
theorem k44_57 (V0 : Valuation τ sig (Elt F)) : lev57 V0 (Proc.devRef .tc main_v2179) = lev45 V0 (Proc.devRef .tc main_v2179) := (filt56_keep (lev56 V0) (r := main_v2179) (by decide)).trans (k44_56 V0)
theorem k44_58 (V0 : Valuation τ sig (Elt F)) : lev58 V0 (Proc.devRef .tc main_v2179) = lev45 V0 (Proc.devRef .tc main_v2179) := (filt57_keep (lev57 V0) (r := main_v2179) (by decide)).trans (k44_57 V0)
theorem k44_59 (V0 : Valuation τ sig (Elt F)) : lev59 V0 (Proc.devRef .tc main_v2179) = lev45 V0 (Proc.devRef .tc main_v2179) := (filt58_keep (lev58 V0) (r := main_v2179) (by decide)).trans (k44_58 V0)
theorem k44_60 (V0 : Valuation τ sig (Elt F)) : lev60 V0 (Proc.devRef .tc main_v2179) = lev45 V0 (Proc.devRef .tc main_v2179) := (filt59_keep (lev59 V0) (r := main_v2179) (by decide)).trans (k44_59 V0)
theorem k44_61 (V0 : Valuation τ sig (Elt F)) : lev61 V0 (Proc.devRef .tc main_v2179) = lev45 V0 (Proc.devRef .tc main_v2179) := (filt60_keep (lev60 V0) (r := main_v2179) (by decide)).trans (k44_60 V0)
theorem k44_62 (V0 : Valuation τ sig (Elt F)) : lev62 V0 (Proc.devRef .tc main_v2179) = lev45 V0 (Proc.devRef .tc main_v2179) := (filt61_keep (lev61 V0) (r := main_v2179) (by decide)).trans (k44_61 V0)
theorem k44_63 (V0 : Valuation τ sig (Elt F)) : lev63 V0 (Proc.devRef .tc main_v2179) = lev45 V0 (Proc.devRef .tc main_v2179) := (filt62_keep (lev62 V0) (r := main_v2179) (by decide)).trans (k44_62 V0)
theorem k44_64 (V0 : Valuation τ sig (Elt F)) : lev64 V0 (Proc.devRef .tc main_v2179) = lev45 V0 (Proc.devRef .tc main_v2179) := (filt63_keep (lev63 V0) (r := main_v2179) (by decide)).trans (k44_63 V0)
theorem k45_47 (V0 : Valuation τ sig (Elt F)) : lev47 V0 (Proc.devRef .tc main_v2261) = lev46 V0 (Proc.devRef .tc main_v2261) := (filt46_keep (lev46 V0) (r := main_v2261) (by decide))
theorem k45_48 (V0 : Valuation τ sig (Elt F)) : lev48 V0 (Proc.devRef .tc main_v2261) = lev46 V0 (Proc.devRef .tc main_v2261) := (filt47_keep (lev47 V0) (r := main_v2261) (by decide)).trans (k45_47 V0)
theorem k45_49 (V0 : Valuation τ sig (Elt F)) : lev49 V0 (Proc.devRef .tc main_v2261) = lev46 V0 (Proc.devRef .tc main_v2261) := (filt48_keep (lev48 V0) (r := main_v2261) (by decide)).trans (k45_48 V0)
theorem k45_50 (V0 : Valuation τ sig (Elt F)) : lev50 V0 (Proc.devRef .tc main_v2261) = lev46 V0 (Proc.devRef .tc main_v2261) := (filt49_keep (lev49 V0) (r := main_v2261) (by decide)).trans (k45_49 V0)
theorem k45_51 (V0 : Valuation τ sig (Elt F)) : lev51 V0 (Proc.devRef .tc main_v2261) = lev46 V0 (Proc.devRef .tc main_v2261) := (filt50_keep (lev50 V0) (r := main_v2261) (by decide)).trans (k45_50 V0)
theorem k45_52 (V0 : Valuation τ sig (Elt F)) : lev52 V0 (Proc.devRef .tc main_v2261) = lev46 V0 (Proc.devRef .tc main_v2261) := (filt51_keep (lev51 V0) (r := main_v2261) (by decide)).trans (k45_51 V0)
theorem k45_53 (V0 : Valuation τ sig (Elt F)) : lev53 V0 (Proc.devRef .tc main_v2261) = lev46 V0 (Proc.devRef .tc main_v2261) := (filt52_keep (lev52 V0) (r := main_v2261) (by decide)).trans (k45_52 V0)
theorem k45_54 (V0 : Valuation τ sig (Elt F)) : lev54 V0 (Proc.devRef .tc main_v2261) = lev46 V0 (Proc.devRef .tc main_v2261) := (filt53_keep (lev53 V0) (r := main_v2261) (by decide)).trans (k45_53 V0)
theorem k45_55 (V0 : Valuation τ sig (Elt F)) : lev55 V0 (Proc.devRef .tc main_v2261) = lev46 V0 (Proc.devRef .tc main_v2261) := (filt54_keep (lev54 V0) (r := main_v2261) (by decide)).trans (k45_54 V0)
theorem k45_56 (V0 : Valuation τ sig (Elt F)) : lev56 V0 (Proc.devRef .tc main_v2261) = lev46 V0 (Proc.devRef .tc main_v2261) := (filt55_keep (lev55 V0) (r := main_v2261) (by decide)).trans (k45_55 V0)
theorem k45_57 (V0 : Valuation τ sig (Elt F)) : lev57 V0 (Proc.devRef .tc main_v2261) = lev46 V0 (Proc.devRef .tc main_v2261) := (filt56_keep (lev56 V0) (r := main_v2261) (by decide)).trans (k45_56 V0)
theorem k45_58 (V0 : Valuation τ sig (Elt F)) : lev58 V0 (Proc.devRef .tc main_v2261) = lev46 V0 (Proc.devRef .tc main_v2261) := (filt57_keep (lev57 V0) (r := main_v2261) (by decide)).trans (k45_57 V0)
theorem k45_59 (V0 : Valuation τ sig (Elt F)) : lev59 V0 (Proc.devRef .tc main_v2261) = lev46 V0 (Proc.devRef .tc main_v2261) := (filt58_keep (lev58 V0) (r := main_v2261) (by decide)).trans (k45_58 V0)
theorem k45_60 (V0 : Valuation τ sig (Elt F)) : lev60 V0 (Proc.devRef .tc main_v2261) = lev46 V0 (Proc.devRef .tc main_v2261) := (filt59_keep (lev59 V0) (r := main_v2261) (by decide)).trans (k45_59 V0)
theorem k45_61 (V0 : Valuation τ sig (Elt F)) : lev61 V0 (Proc.devRef .tc main_v2261) = lev46 V0 (Proc.devRef .tc main_v2261) := (filt60_keep (lev60 V0) (r := main_v2261) (by decide)).trans (k45_60 V0)
theorem k45_62 (V0 : Valuation τ sig (Elt F)) : lev62 V0 (Proc.devRef .tc main_v2261) = lev46 V0 (Proc.devRef .tc main_v2261) := (filt61_keep (lev61 V0) (r := main_v2261) (by decide)).trans (k45_61 V0)
theorem k45_63 (V0 : Valuation τ sig (Elt F)) : lev63 V0 (Proc.devRef .tc main_v2261) = lev46 V0 (Proc.devRef .tc main_v2261) := (filt62_keep (lev62 V0) (r := main_v2261) (by decide)).trans (k45_62 V0)
theorem k45_64 (V0 : Valuation τ sig (Elt F)) : lev64 V0 (Proc.devRef .tc main_v2261) = lev46 V0 (Proc.devRef .tc main_v2261) := (filt63_keep (lev63 V0) (r := main_v2261) (by decide)).trans (k45_63 V0)
theorem k46_48 (V0 : Valuation τ sig (Elt F)) : lev48 V0 (Proc.devRef .tc main_v2346) = lev47 V0 (Proc.devRef .tc main_v2346) := (filt47_keep (lev47 V0) (r := main_v2346) (by decide))
theorem k46_49 (V0 : Valuation τ sig (Elt F)) : lev49 V0 (Proc.devRef .tc main_v2346) = lev47 V0 (Proc.devRef .tc main_v2346) := (filt48_keep (lev48 V0) (r := main_v2346) (by decide)).trans (k46_48 V0)
theorem k46_50 (V0 : Valuation τ sig (Elt F)) : lev50 V0 (Proc.devRef .tc main_v2346) = lev47 V0 (Proc.devRef .tc main_v2346) := (filt49_keep (lev49 V0) (r := main_v2346) (by decide)).trans (k46_49 V0)
theorem k46_51 (V0 : Valuation τ sig (Elt F)) : lev51 V0 (Proc.devRef .tc main_v2346) = lev47 V0 (Proc.devRef .tc main_v2346) := (filt50_keep (lev50 V0) (r := main_v2346) (by decide)).trans (k46_50 V0)
theorem k46_52 (V0 : Valuation τ sig (Elt F)) : lev52 V0 (Proc.devRef .tc main_v2346) = lev47 V0 (Proc.devRef .tc main_v2346) := (filt51_keep (lev51 V0) (r := main_v2346) (by decide)).trans (k46_51 V0)
theorem k46_53 (V0 : Valuation τ sig (Elt F)) : lev53 V0 (Proc.devRef .tc main_v2346) = lev47 V0 (Proc.devRef .tc main_v2346) := (filt52_keep (lev52 V0) (r := main_v2346) (by decide)).trans (k46_52 V0)
theorem k46_54 (V0 : Valuation τ sig (Elt F)) : lev54 V0 (Proc.devRef .tc main_v2346) = lev47 V0 (Proc.devRef .tc main_v2346) := (filt53_keep (lev53 V0) (r := main_v2346) (by decide)).trans (k46_53 V0)
theorem k46_55 (V0 : Valuation τ sig (Elt F)) : lev55 V0 (Proc.devRef .tc main_v2346) = lev47 V0 (Proc.devRef .tc main_v2346) := (filt54_keep (lev54 V0) (r := main_v2346) (by decide)).trans (k46_54 V0)
theorem k46_56 (V0 : Valuation τ sig (Elt F)) : lev56 V0 (Proc.devRef .tc main_v2346) = lev47 V0 (Proc.devRef .tc main_v2346) := (filt55_keep (lev55 V0) (r := main_v2346) (by decide)).trans (k46_55 V0)
theorem k46_57 (V0 : Valuation τ sig (Elt F)) : lev57 V0 (Proc.devRef .tc main_v2346) = lev47 V0 (Proc.devRef .tc main_v2346) := (filt56_keep (lev56 V0) (r := main_v2346) (by decide)).trans (k46_56 V0)
theorem k46_58 (V0 : Valuation τ sig (Elt F)) : lev58 V0 (Proc.devRef .tc main_v2346) = lev47 V0 (Proc.devRef .tc main_v2346) := (filt57_keep (lev57 V0) (r := main_v2346) (by decide)).trans (k46_57 V0)
theorem k46_59 (V0 : Valuation τ sig (Elt F)) : lev59 V0 (Proc.devRef .tc main_v2346) = lev47 V0 (Proc.devRef .tc main_v2346) := (filt58_keep (lev58 V0) (r := main_v2346) (by decide)).trans (k46_58 V0)
theorem k46_60 (V0 : Valuation τ sig (Elt F)) : lev60 V0 (Proc.devRef .tc main_v2346) = lev47 V0 (Proc.devRef .tc main_v2346) := (filt59_keep (lev59 V0) (r := main_v2346) (by decide)).trans (k46_59 V0)
theorem k46_61 (V0 : Valuation τ sig (Elt F)) : lev61 V0 (Proc.devRef .tc main_v2346) = lev47 V0 (Proc.devRef .tc main_v2346) := (filt60_keep (lev60 V0) (r := main_v2346) (by decide)).trans (k46_60 V0)
theorem k46_62 (V0 : Valuation τ sig (Elt F)) : lev62 V0 (Proc.devRef .tc main_v2346) = lev47 V0 (Proc.devRef .tc main_v2346) := (filt61_keep (lev61 V0) (r := main_v2346) (by decide)).trans (k46_61 V0)
theorem k46_63 (V0 : Valuation τ sig (Elt F)) : lev63 V0 (Proc.devRef .tc main_v2346) = lev47 V0 (Proc.devRef .tc main_v2346) := (filt62_keep (lev62 V0) (r := main_v2346) (by decide)).trans (k46_62 V0)
theorem k46_64 (V0 : Valuation τ sig (Elt F)) : lev64 V0 (Proc.devRef .tc main_v2346) = lev47 V0 (Proc.devRef .tc main_v2346) := (filt63_keep (lev63 V0) (r := main_v2346) (by decide)).trans (k46_63 V0)
theorem k47_49 (V0 : Valuation τ sig (Elt F)) : lev49 V0 (Proc.devRef .tc main_v2431) = lev48 V0 (Proc.devRef .tc main_v2431) := (filt48_keep (lev48 V0) (r := main_v2431) (by decide))
theorem k47_50 (V0 : Valuation τ sig (Elt F)) : lev50 V0 (Proc.devRef .tc main_v2431) = lev48 V0 (Proc.devRef .tc main_v2431) := (filt49_keep (lev49 V0) (r := main_v2431) (by decide)).trans (k47_49 V0)
theorem k47_51 (V0 : Valuation τ sig (Elt F)) : lev51 V0 (Proc.devRef .tc main_v2431) = lev48 V0 (Proc.devRef .tc main_v2431) := (filt50_keep (lev50 V0) (r := main_v2431) (by decide)).trans (k47_50 V0)
theorem k47_52 (V0 : Valuation τ sig (Elt F)) : lev52 V0 (Proc.devRef .tc main_v2431) = lev48 V0 (Proc.devRef .tc main_v2431) := (filt51_keep (lev51 V0) (r := main_v2431) (by decide)).trans (k47_51 V0)
theorem k47_53 (V0 : Valuation τ sig (Elt F)) : lev53 V0 (Proc.devRef .tc main_v2431) = lev48 V0 (Proc.devRef .tc main_v2431) := (filt52_keep (lev52 V0) (r := main_v2431) (by decide)).trans (k47_52 V0)
theorem k47_54 (V0 : Valuation τ sig (Elt F)) : lev54 V0 (Proc.devRef .tc main_v2431) = lev48 V0 (Proc.devRef .tc main_v2431) := (filt53_keep (lev53 V0) (r := main_v2431) (by decide)).trans (k47_53 V0)
theorem k47_55 (V0 : Valuation τ sig (Elt F)) : lev55 V0 (Proc.devRef .tc main_v2431) = lev48 V0 (Proc.devRef .tc main_v2431) := (filt54_keep (lev54 V0) (r := main_v2431) (by decide)).trans (k47_54 V0)
theorem k47_56 (V0 : Valuation τ sig (Elt F)) : lev56 V0 (Proc.devRef .tc main_v2431) = lev48 V0 (Proc.devRef .tc main_v2431) := (filt55_keep (lev55 V0) (r := main_v2431) (by decide)).trans (k47_55 V0)
theorem k47_57 (V0 : Valuation τ sig (Elt F)) : lev57 V0 (Proc.devRef .tc main_v2431) = lev48 V0 (Proc.devRef .tc main_v2431) := (filt56_keep (lev56 V0) (r := main_v2431) (by decide)).trans (k47_56 V0)
theorem k47_58 (V0 : Valuation τ sig (Elt F)) : lev58 V0 (Proc.devRef .tc main_v2431) = lev48 V0 (Proc.devRef .tc main_v2431) := (filt57_keep (lev57 V0) (r := main_v2431) (by decide)).trans (k47_57 V0)
theorem k47_59 (V0 : Valuation τ sig (Elt F)) : lev59 V0 (Proc.devRef .tc main_v2431) = lev48 V0 (Proc.devRef .tc main_v2431) := (filt58_keep (lev58 V0) (r := main_v2431) (by decide)).trans (k47_58 V0)
theorem k47_60 (V0 : Valuation τ sig (Elt F)) : lev60 V0 (Proc.devRef .tc main_v2431) = lev48 V0 (Proc.devRef .tc main_v2431) := (filt59_keep (lev59 V0) (r := main_v2431) (by decide)).trans (k47_59 V0)
theorem k47_61 (V0 : Valuation τ sig (Elt F)) : lev61 V0 (Proc.devRef .tc main_v2431) = lev48 V0 (Proc.devRef .tc main_v2431) := (filt60_keep (lev60 V0) (r := main_v2431) (by decide)).trans (k47_60 V0)
theorem k47_62 (V0 : Valuation τ sig (Elt F)) : lev62 V0 (Proc.devRef .tc main_v2431) = lev48 V0 (Proc.devRef .tc main_v2431) := (filt61_keep (lev61 V0) (r := main_v2431) (by decide)).trans (k47_61 V0)
theorem k47_63 (V0 : Valuation τ sig (Elt F)) : lev63 V0 (Proc.devRef .tc main_v2431) = lev48 V0 (Proc.devRef .tc main_v2431) := (filt62_keep (lev62 V0) (r := main_v2431) (by decide)).trans (k47_62 V0)
theorem k47_64 (V0 : Valuation τ sig (Elt F)) : lev64 V0 (Proc.devRef .tc main_v2431) = lev48 V0 (Proc.devRef .tc main_v2431) := (filt63_keep (lev63 V0) (r := main_v2431) (by decide)).trans (k47_63 V0)
theorem k48_50 (V0 : Valuation τ sig (Elt F)) : lev50 V0 (Proc.devRef .tc main_v2519) = lev49 V0 (Proc.devRef .tc main_v2519) := (filt49_keep (lev49 V0) (r := main_v2519) (by decide))
theorem k48_51 (V0 : Valuation τ sig (Elt F)) : lev51 V0 (Proc.devRef .tc main_v2519) = lev49 V0 (Proc.devRef .tc main_v2519) := (filt50_keep (lev50 V0) (r := main_v2519) (by decide)).trans (k48_50 V0)
theorem k48_52 (V0 : Valuation τ sig (Elt F)) : lev52 V0 (Proc.devRef .tc main_v2519) = lev49 V0 (Proc.devRef .tc main_v2519) := (filt51_keep (lev51 V0) (r := main_v2519) (by decide)).trans (k48_51 V0)
theorem k48_53 (V0 : Valuation τ sig (Elt F)) : lev53 V0 (Proc.devRef .tc main_v2519) = lev49 V0 (Proc.devRef .tc main_v2519) := (filt52_keep (lev52 V0) (r := main_v2519) (by decide)).trans (k48_52 V0)
theorem k48_54 (V0 : Valuation τ sig (Elt F)) : lev54 V0 (Proc.devRef .tc main_v2519) = lev49 V0 (Proc.devRef .tc main_v2519) := (filt53_keep (lev53 V0) (r := main_v2519) (by decide)).trans (k48_53 V0)
theorem k48_55 (V0 : Valuation τ sig (Elt F)) : lev55 V0 (Proc.devRef .tc main_v2519) = lev49 V0 (Proc.devRef .tc main_v2519) := (filt54_keep (lev54 V0) (r := main_v2519) (by decide)).trans (k48_54 V0)
theorem k48_56 (V0 : Valuation τ sig (Elt F)) : lev56 V0 (Proc.devRef .tc main_v2519) = lev49 V0 (Proc.devRef .tc main_v2519) := (filt55_keep (lev55 V0) (r := main_v2519) (by decide)).trans (k48_55 V0)
theorem k48_57 (V0 : Valuation τ sig (Elt F)) : lev57 V0 (Proc.devRef .tc main_v2519) = lev49 V0 (Proc.devRef .tc main_v2519) := (filt56_keep (lev56 V0) (r := main_v2519) (by decide)).trans (k48_56 V0)
theorem k48_58 (V0 : Valuation τ sig (Elt F)) : lev58 V0 (Proc.devRef .tc main_v2519) = lev49 V0 (Proc.devRef .tc main_v2519) := (filt57_keep (lev57 V0) (r := main_v2519) (by decide)).trans (k48_57 V0)
theorem k48_59 (V0 : Valuation τ sig (Elt F)) : lev59 V0 (Proc.devRef .tc main_v2519) = lev49 V0 (Proc.devRef .tc main_v2519) := (filt58_keep (lev58 V0) (r := main_v2519) (by decide)).trans (k48_58 V0)
theorem k48_60 (V0 : Valuation τ sig (Elt F)) : lev60 V0 (Proc.devRef .tc main_v2519) = lev49 V0 (Proc.devRef .tc main_v2519) := (filt59_keep (lev59 V0) (r := main_v2519) (by decide)).trans (k48_59 V0)
theorem k48_61 (V0 : Valuation τ sig (Elt F)) : lev61 V0 (Proc.devRef .tc main_v2519) = lev49 V0 (Proc.devRef .tc main_v2519) := (filt60_keep (lev60 V0) (r := main_v2519) (by decide)).trans (k48_60 V0)
theorem k48_62 (V0 : Valuation τ sig (Elt F)) : lev62 V0 (Proc.devRef .tc main_v2519) = lev49 V0 (Proc.devRef .tc main_v2519) := (filt61_keep (lev61 V0) (r := main_v2519) (by decide)).trans (k48_61 V0)
theorem k48_63 (V0 : Valuation τ sig (Elt F)) : lev63 V0 (Proc.devRef .tc main_v2519) = lev49 V0 (Proc.devRef .tc main_v2519) := (filt62_keep (lev62 V0) (r := main_v2519) (by decide)).trans (k48_62 V0)
theorem k48_64 (V0 : Valuation τ sig (Elt F)) : lev64 V0 (Proc.devRef .tc main_v2519) = lev49 V0 (Proc.devRef .tc main_v2519) := (filt63_keep (lev63 V0) (r := main_v2519) (by decide)).trans (k48_63 V0)
theorem k49_51 (V0 : Valuation τ sig (Elt F)) : lev51 V0 (Proc.devRef .tc main_v2607) = lev50 V0 (Proc.devRef .tc main_v2607) := (filt50_keep (lev50 V0) (r := main_v2607) (by decide))
theorem k49_52 (V0 : Valuation τ sig (Elt F)) : lev52 V0 (Proc.devRef .tc main_v2607) = lev50 V0 (Proc.devRef .tc main_v2607) := (filt51_keep (lev51 V0) (r := main_v2607) (by decide)).trans (k49_51 V0)
theorem k49_53 (V0 : Valuation τ sig (Elt F)) : lev53 V0 (Proc.devRef .tc main_v2607) = lev50 V0 (Proc.devRef .tc main_v2607) := (filt52_keep (lev52 V0) (r := main_v2607) (by decide)).trans (k49_52 V0)
theorem k49_54 (V0 : Valuation τ sig (Elt F)) : lev54 V0 (Proc.devRef .tc main_v2607) = lev50 V0 (Proc.devRef .tc main_v2607) := (filt53_keep (lev53 V0) (r := main_v2607) (by decide)).trans (k49_53 V0)
theorem k49_55 (V0 : Valuation τ sig (Elt F)) : lev55 V0 (Proc.devRef .tc main_v2607) = lev50 V0 (Proc.devRef .tc main_v2607) := (filt54_keep (lev54 V0) (r := main_v2607) (by decide)).trans (k49_54 V0)
theorem k49_56 (V0 : Valuation τ sig (Elt F)) : lev56 V0 (Proc.devRef .tc main_v2607) = lev50 V0 (Proc.devRef .tc main_v2607) := (filt55_keep (lev55 V0) (r := main_v2607) (by decide)).trans (k49_55 V0)
theorem k49_57 (V0 : Valuation τ sig (Elt F)) : lev57 V0 (Proc.devRef .tc main_v2607) = lev50 V0 (Proc.devRef .tc main_v2607) := (filt56_keep (lev56 V0) (r := main_v2607) (by decide)).trans (k49_56 V0)
theorem k49_58 (V0 : Valuation τ sig (Elt F)) : lev58 V0 (Proc.devRef .tc main_v2607) = lev50 V0 (Proc.devRef .tc main_v2607) := (filt57_keep (lev57 V0) (r := main_v2607) (by decide)).trans (k49_57 V0)
theorem k49_59 (V0 : Valuation τ sig (Elt F)) : lev59 V0 (Proc.devRef .tc main_v2607) = lev50 V0 (Proc.devRef .tc main_v2607) := (filt58_keep (lev58 V0) (r := main_v2607) (by decide)).trans (k49_58 V0)
theorem k49_60 (V0 : Valuation τ sig (Elt F)) : lev60 V0 (Proc.devRef .tc main_v2607) = lev50 V0 (Proc.devRef .tc main_v2607) := (filt59_keep (lev59 V0) (r := main_v2607) (by decide)).trans (k49_59 V0)
theorem k49_61 (V0 : Valuation τ sig (Elt F)) : lev61 V0 (Proc.devRef .tc main_v2607) = lev50 V0 (Proc.devRef .tc main_v2607) := (filt60_keep (lev60 V0) (r := main_v2607) (by decide)).trans (k49_60 V0)
theorem k49_62 (V0 : Valuation τ sig (Elt F)) : lev62 V0 (Proc.devRef .tc main_v2607) = lev50 V0 (Proc.devRef .tc main_v2607) := (filt61_keep (lev61 V0) (r := main_v2607) (by decide)).trans (k49_61 V0)
theorem k49_63 (V0 : Valuation τ sig (Elt F)) : lev63 V0 (Proc.devRef .tc main_v2607) = lev50 V0 (Proc.devRef .tc main_v2607) := (filt62_keep (lev62 V0) (r := main_v2607) (by decide)).trans (k49_62 V0)
theorem k49_64 (V0 : Valuation τ sig (Elt F)) : lev64 V0 (Proc.devRef .tc main_v2607) = lev50 V0 (Proc.devRef .tc main_v2607) := (filt63_keep (lev63 V0) (r := main_v2607) (by decide)).trans (k49_63 V0)
theorem k50_52 (V0 : Valuation τ sig (Elt F)) : lev52 V0 (Proc.devRef .tc main_v2698) = lev51 V0 (Proc.devRef .tc main_v2698) := (filt51_keep (lev51 V0) (r := main_v2698) (by decide))
theorem k50_53 (V0 : Valuation τ sig (Elt F)) : lev53 V0 (Proc.devRef .tc main_v2698) = lev51 V0 (Proc.devRef .tc main_v2698) := (filt52_keep (lev52 V0) (r := main_v2698) (by decide)).trans (k50_52 V0)
theorem k50_54 (V0 : Valuation τ sig (Elt F)) : lev54 V0 (Proc.devRef .tc main_v2698) = lev51 V0 (Proc.devRef .tc main_v2698) := (filt53_keep (lev53 V0) (r := main_v2698) (by decide)).trans (k50_53 V0)
theorem k50_55 (V0 : Valuation τ sig (Elt F)) : lev55 V0 (Proc.devRef .tc main_v2698) = lev51 V0 (Proc.devRef .tc main_v2698) := (filt54_keep (lev54 V0) (r := main_v2698) (by decide)).trans (k50_54 V0)
theorem k50_56 (V0 : Valuation τ sig (Elt F)) : lev56 V0 (Proc.devRef .tc main_v2698) = lev51 V0 (Proc.devRef .tc main_v2698) := (filt55_keep (lev55 V0) (r := main_v2698) (by decide)).trans (k50_55 V0)
theorem k50_57 (V0 : Valuation τ sig (Elt F)) : lev57 V0 (Proc.devRef .tc main_v2698) = lev51 V0 (Proc.devRef .tc main_v2698) := (filt56_keep (lev56 V0) (r := main_v2698) (by decide)).trans (k50_56 V0)
theorem k50_58 (V0 : Valuation τ sig (Elt F)) : lev58 V0 (Proc.devRef .tc main_v2698) = lev51 V0 (Proc.devRef .tc main_v2698) := (filt57_keep (lev57 V0) (r := main_v2698) (by decide)).trans (k50_57 V0)
theorem k50_59 (V0 : Valuation τ sig (Elt F)) : lev59 V0 (Proc.devRef .tc main_v2698) = lev51 V0 (Proc.devRef .tc main_v2698) := (filt58_keep (lev58 V0) (r := main_v2698) (by decide)).trans (k50_58 V0)
theorem k50_60 (V0 : Valuation τ sig (Elt F)) : lev60 V0 (Proc.devRef .tc main_v2698) = lev51 V0 (Proc.devRef .tc main_v2698) := (filt59_keep (lev59 V0) (r := main_v2698) (by decide)).trans (k50_59 V0)
theorem k50_61 (V0 : Valuation τ sig (Elt F)) : lev61 V0 (Proc.devRef .tc main_v2698) = lev51 V0 (Proc.devRef .tc main_v2698) := (filt60_keep (lev60 V0) (r := main_v2698) (by decide)).trans (k50_60 V0)
theorem k50_62 (V0 : Valuation τ sig (Elt F)) : lev62 V0 (Proc.devRef .tc main_v2698) = lev51 V0 (Proc.devRef .tc main_v2698) := (filt61_keep (lev61 V0) (r := main_v2698) (by decide)).trans (k50_61 V0)
theorem k50_63 (V0 : Valuation τ sig (Elt F)) : lev63 V0 (Proc.devRef .tc main_v2698) = lev51 V0 (Proc.devRef .tc main_v2698) := (filt62_keep (lev62 V0) (r := main_v2698) (by decide)).trans (k50_62 V0)
theorem k50_64 (V0 : Valuation τ sig (Elt F)) : lev64 V0 (Proc.devRef .tc main_v2698) = lev51 V0 (Proc.devRef .tc main_v2698) := (filt63_keep (lev63 V0) (r := main_v2698) (by decide)).trans (k50_63 V0)
theorem k51_53 (V0 : Valuation τ sig (Elt F)) : lev53 V0 (Proc.devRef .tc main_v2789) = lev52 V0 (Proc.devRef .tc main_v2789) := (filt52_keep (lev52 V0) (r := main_v2789) (by decide))
theorem k51_54 (V0 : Valuation τ sig (Elt F)) : lev54 V0 (Proc.devRef .tc main_v2789) = lev52 V0 (Proc.devRef .tc main_v2789) := (filt53_keep (lev53 V0) (r := main_v2789) (by decide)).trans (k51_53 V0)
theorem k51_55 (V0 : Valuation τ sig (Elt F)) : lev55 V0 (Proc.devRef .tc main_v2789) = lev52 V0 (Proc.devRef .tc main_v2789) := (filt54_keep (lev54 V0) (r := main_v2789) (by decide)).trans (k51_54 V0)
theorem k51_56 (V0 : Valuation τ sig (Elt F)) : lev56 V0 (Proc.devRef .tc main_v2789) = lev52 V0 (Proc.devRef .tc main_v2789) := (filt55_keep (lev55 V0) (r := main_v2789) (by decide)).trans (k51_55 V0)
theorem k51_57 (V0 : Valuation τ sig (Elt F)) : lev57 V0 (Proc.devRef .tc main_v2789) = lev52 V0 (Proc.devRef .tc main_v2789) := (filt56_keep (lev56 V0) (r := main_v2789) (by decide)).trans (k51_56 V0)
theorem k51_58 (V0 : Valuation τ sig (Elt F)) : lev58 V0 (Proc.devRef .tc main_v2789) = lev52 V0 (Proc.devRef .tc main_v2789) := (filt57_keep (lev57 V0) (r := main_v2789) (by decide)).trans (k51_57 V0)
theorem k51_59 (V0 : Valuation τ sig (Elt F)) : lev59 V0 (Proc.devRef .tc main_v2789) = lev52 V0 (Proc.devRef .tc main_v2789) := (filt58_keep (lev58 V0) (r := main_v2789) (by decide)).trans (k51_58 V0)
theorem k51_60 (V0 : Valuation τ sig (Elt F)) : lev60 V0 (Proc.devRef .tc main_v2789) = lev52 V0 (Proc.devRef .tc main_v2789) := (filt59_keep (lev59 V0) (r := main_v2789) (by decide)).trans (k51_59 V0)
theorem k51_61 (V0 : Valuation τ sig (Elt F)) : lev61 V0 (Proc.devRef .tc main_v2789) = lev52 V0 (Proc.devRef .tc main_v2789) := (filt60_keep (lev60 V0) (r := main_v2789) (by decide)).trans (k51_60 V0)
theorem k51_62 (V0 : Valuation τ sig (Elt F)) : lev62 V0 (Proc.devRef .tc main_v2789) = lev52 V0 (Proc.devRef .tc main_v2789) := (filt61_keep (lev61 V0) (r := main_v2789) (by decide)).trans (k51_61 V0)
theorem k51_63 (V0 : Valuation τ sig (Elt F)) : lev63 V0 (Proc.devRef .tc main_v2789) = lev52 V0 (Proc.devRef .tc main_v2789) := (filt62_keep (lev62 V0) (r := main_v2789) (by decide)).trans (k51_62 V0)
theorem k51_64 (V0 : Valuation τ sig (Elt F)) : lev64 V0 (Proc.devRef .tc main_v2789) = lev52 V0 (Proc.devRef .tc main_v2789) := (filt63_keep (lev63 V0) (r := main_v2789) (by decide)).trans (k51_63 V0)
theorem k52_54 (V0 : Valuation τ sig (Elt F)) : lev54 V0 (Proc.devRef .tc main_v2883) = lev53 V0 (Proc.devRef .tc main_v2883) := (filt53_keep (lev53 V0) (r := main_v2883) (by decide))
theorem k52_55 (V0 : Valuation τ sig (Elt F)) : lev55 V0 (Proc.devRef .tc main_v2883) = lev53 V0 (Proc.devRef .tc main_v2883) := (filt54_keep (lev54 V0) (r := main_v2883) (by decide)).trans (k52_54 V0)
theorem k52_56 (V0 : Valuation τ sig (Elt F)) : lev56 V0 (Proc.devRef .tc main_v2883) = lev53 V0 (Proc.devRef .tc main_v2883) := (filt55_keep (lev55 V0) (r := main_v2883) (by decide)).trans (k52_55 V0)
theorem k52_57 (V0 : Valuation τ sig (Elt F)) : lev57 V0 (Proc.devRef .tc main_v2883) = lev53 V0 (Proc.devRef .tc main_v2883) := (filt56_keep (lev56 V0) (r := main_v2883) (by decide)).trans (k52_56 V0)
theorem k52_58 (V0 : Valuation τ sig (Elt F)) : lev58 V0 (Proc.devRef .tc main_v2883) = lev53 V0 (Proc.devRef .tc main_v2883) := (filt57_keep (lev57 V0) (r := main_v2883) (by decide)).trans (k52_57 V0)
theorem k52_59 (V0 : Valuation τ sig (Elt F)) : lev59 V0 (Proc.devRef .tc main_v2883) = lev53 V0 (Proc.devRef .tc main_v2883) := (filt58_keep (lev58 V0) (r := main_v2883) (by decide)).trans (k52_58 V0)
theorem k52_60 (V0 : Valuation τ sig (Elt F)) : lev60 V0 (Proc.devRef .tc main_v2883) = lev53 V0 (Proc.devRef .tc main_v2883) := (filt59_keep (lev59 V0) (r := main_v2883) (by decide)).trans (k52_59 V0)
theorem k52_61 (V0 : Valuation τ sig (Elt F)) : lev61 V0 (Proc.devRef .tc main_v2883) = lev53 V0 (Proc.devRef .tc main_v2883) := (filt60_keep (lev60 V0) (r := main_v2883) (by decide)).trans (k52_60 V0)
theorem k52_62 (V0 : Valuation τ sig (Elt F)) : lev62 V0 (Proc.devRef .tc main_v2883) = lev53 V0 (Proc.devRef .tc main_v2883) := (filt61_keep (lev61 V0) (r := main_v2883) (by decide)).trans (k52_61 V0)
theorem k52_63 (V0 : Valuation τ sig (Elt F)) : lev63 V0 (Proc.devRef .tc main_v2883) = lev53 V0 (Proc.devRef .tc main_v2883) := (filt62_keep (lev62 V0) (r := main_v2883) (by decide)).trans (k52_62 V0)
theorem k52_64 (V0 : Valuation τ sig (Elt F)) : lev64 V0 (Proc.devRef .tc main_v2883) = lev53 V0 (Proc.devRef .tc main_v2883) := (filt63_keep (lev63 V0) (r := main_v2883) (by decide)).trans (k52_63 V0)
theorem k53_55 (V0 : Valuation τ sig (Elt F)) : lev55 V0 (Proc.devRef .tc main_v2977) = lev54 V0 (Proc.devRef .tc main_v2977) := (filt54_keep (lev54 V0) (r := main_v2977) (by decide))
theorem k53_56 (V0 : Valuation τ sig (Elt F)) : lev56 V0 (Proc.devRef .tc main_v2977) = lev54 V0 (Proc.devRef .tc main_v2977) := (filt55_keep (lev55 V0) (r := main_v2977) (by decide)).trans (k53_55 V0)
theorem k53_57 (V0 : Valuation τ sig (Elt F)) : lev57 V0 (Proc.devRef .tc main_v2977) = lev54 V0 (Proc.devRef .tc main_v2977) := (filt56_keep (lev56 V0) (r := main_v2977) (by decide)).trans (k53_56 V0)
theorem k53_58 (V0 : Valuation τ sig (Elt F)) : lev58 V0 (Proc.devRef .tc main_v2977) = lev54 V0 (Proc.devRef .tc main_v2977) := (filt57_keep (lev57 V0) (r := main_v2977) (by decide)).trans (k53_57 V0)
theorem k53_59 (V0 : Valuation τ sig (Elt F)) : lev59 V0 (Proc.devRef .tc main_v2977) = lev54 V0 (Proc.devRef .tc main_v2977) := (filt58_keep (lev58 V0) (r := main_v2977) (by decide)).trans (k53_58 V0)
theorem k53_60 (V0 : Valuation τ sig (Elt F)) : lev60 V0 (Proc.devRef .tc main_v2977) = lev54 V0 (Proc.devRef .tc main_v2977) := (filt59_keep (lev59 V0) (r := main_v2977) (by decide)).trans (k53_59 V0)
theorem k53_61 (V0 : Valuation τ sig (Elt F)) : lev61 V0 (Proc.devRef .tc main_v2977) = lev54 V0 (Proc.devRef .tc main_v2977) := (filt60_keep (lev60 V0) (r := main_v2977) (by decide)).trans (k53_60 V0)
theorem k53_62 (V0 : Valuation τ sig (Elt F)) : lev62 V0 (Proc.devRef .tc main_v2977) = lev54 V0 (Proc.devRef .tc main_v2977) := (filt61_keep (lev61 V0) (r := main_v2977) (by decide)).trans (k53_61 V0)
theorem k53_63 (V0 : Valuation τ sig (Elt F)) : lev63 V0 (Proc.devRef .tc main_v2977) = lev54 V0 (Proc.devRef .tc main_v2977) := (filt62_keep (lev62 V0) (r := main_v2977) (by decide)).trans (k53_62 V0)
theorem k53_64 (V0 : Valuation τ sig (Elt F)) : lev64 V0 (Proc.devRef .tc main_v2977) = lev54 V0 (Proc.devRef .tc main_v2977) := (filt63_keep (lev63 V0) (r := main_v2977) (by decide)).trans (k53_63 V0)
theorem k54_56 (V0 : Valuation τ sig (Elt F)) : lev56 V0 (Proc.devRef .tc main_v3074) = lev55 V0 (Proc.devRef .tc main_v3074) := (filt55_keep (lev55 V0) (r := main_v3074) (by decide))
theorem k54_57 (V0 : Valuation τ sig (Elt F)) : lev57 V0 (Proc.devRef .tc main_v3074) = lev55 V0 (Proc.devRef .tc main_v3074) := (filt56_keep (lev56 V0) (r := main_v3074) (by decide)).trans (k54_56 V0)
theorem k54_58 (V0 : Valuation τ sig (Elt F)) : lev58 V0 (Proc.devRef .tc main_v3074) = lev55 V0 (Proc.devRef .tc main_v3074) := (filt57_keep (lev57 V0) (r := main_v3074) (by decide)).trans (k54_57 V0)
theorem k54_59 (V0 : Valuation τ sig (Elt F)) : lev59 V0 (Proc.devRef .tc main_v3074) = lev55 V0 (Proc.devRef .tc main_v3074) := (filt58_keep (lev58 V0) (r := main_v3074) (by decide)).trans (k54_58 V0)
theorem k54_60 (V0 : Valuation τ sig (Elt F)) : lev60 V0 (Proc.devRef .tc main_v3074) = lev55 V0 (Proc.devRef .tc main_v3074) := (filt59_keep (lev59 V0) (r := main_v3074) (by decide)).trans (k54_59 V0)
theorem k54_61 (V0 : Valuation τ sig (Elt F)) : lev61 V0 (Proc.devRef .tc main_v3074) = lev55 V0 (Proc.devRef .tc main_v3074) := (filt60_keep (lev60 V0) (r := main_v3074) (by decide)).trans (k54_60 V0)
theorem k54_62 (V0 : Valuation τ sig (Elt F)) : lev62 V0 (Proc.devRef .tc main_v3074) = lev55 V0 (Proc.devRef .tc main_v3074) := (filt61_keep (lev61 V0) (r := main_v3074) (by decide)).trans (k54_61 V0)
theorem k54_63 (V0 : Valuation τ sig (Elt F)) : lev63 V0 (Proc.devRef .tc main_v3074) = lev55 V0 (Proc.devRef .tc main_v3074) := (filt62_keep (lev62 V0) (r := main_v3074) (by decide)).trans (k54_62 V0)
theorem k54_64 (V0 : Valuation τ sig (Elt F)) : lev64 V0 (Proc.devRef .tc main_v3074) = lev55 V0 (Proc.devRef .tc main_v3074) := (filt63_keep (lev63 V0) (r := main_v3074) (by decide)).trans (k54_63 V0)
theorem k55_57 (V0 : Valuation τ sig (Elt F)) : lev57 V0 (Proc.devRef .tc main_v3171) = lev56 V0 (Proc.devRef .tc main_v3171) := (filt56_keep (lev56 V0) (r := main_v3171) (by decide))
theorem k55_58 (V0 : Valuation τ sig (Elt F)) : lev58 V0 (Proc.devRef .tc main_v3171) = lev56 V0 (Proc.devRef .tc main_v3171) := (filt57_keep (lev57 V0) (r := main_v3171) (by decide)).trans (k55_57 V0)
theorem k55_59 (V0 : Valuation τ sig (Elt F)) : lev59 V0 (Proc.devRef .tc main_v3171) = lev56 V0 (Proc.devRef .tc main_v3171) := (filt58_keep (lev58 V0) (r := main_v3171) (by decide)).trans (k55_58 V0)
theorem k55_60 (V0 : Valuation τ sig (Elt F)) : lev60 V0 (Proc.devRef .tc main_v3171) = lev56 V0 (Proc.devRef .tc main_v3171) := (filt59_keep (lev59 V0) (r := main_v3171) (by decide)).trans (k55_59 V0)
theorem k55_61 (V0 : Valuation τ sig (Elt F)) : lev61 V0 (Proc.devRef .tc main_v3171) = lev56 V0 (Proc.devRef .tc main_v3171) := (filt60_keep (lev60 V0) (r := main_v3171) (by decide)).trans (k55_60 V0)
theorem k55_62 (V0 : Valuation τ sig (Elt F)) : lev62 V0 (Proc.devRef .tc main_v3171) = lev56 V0 (Proc.devRef .tc main_v3171) := (filt61_keep (lev61 V0) (r := main_v3171) (by decide)).trans (k55_61 V0)
theorem k55_63 (V0 : Valuation τ sig (Elt F)) : lev63 V0 (Proc.devRef .tc main_v3171) = lev56 V0 (Proc.devRef .tc main_v3171) := (filt62_keep (lev62 V0) (r := main_v3171) (by decide)).trans (k55_62 V0)
theorem k55_64 (V0 : Valuation τ sig (Elt F)) : lev64 V0 (Proc.devRef .tc main_v3171) = lev56 V0 (Proc.devRef .tc main_v3171) := (filt63_keep (lev63 V0) (r := main_v3171) (by decide)).trans (k55_63 V0)
theorem k56_58 (V0 : Valuation τ sig (Elt F)) : lev58 V0 (Proc.devRef .tc main_v3271) = lev57 V0 (Proc.devRef .tc main_v3271) := (filt57_keep (lev57 V0) (r := main_v3271) (by decide))
theorem k56_59 (V0 : Valuation τ sig (Elt F)) : lev59 V0 (Proc.devRef .tc main_v3271) = lev57 V0 (Proc.devRef .tc main_v3271) := (filt58_keep (lev58 V0) (r := main_v3271) (by decide)).trans (k56_58 V0)
theorem k56_60 (V0 : Valuation τ sig (Elt F)) : lev60 V0 (Proc.devRef .tc main_v3271) = lev57 V0 (Proc.devRef .tc main_v3271) := (filt59_keep (lev59 V0) (r := main_v3271) (by decide)).trans (k56_59 V0)
theorem k56_61 (V0 : Valuation τ sig (Elt F)) : lev61 V0 (Proc.devRef .tc main_v3271) = lev57 V0 (Proc.devRef .tc main_v3271) := (filt60_keep (lev60 V0) (r := main_v3271) (by decide)).trans (k56_60 V0)
theorem k56_62 (V0 : Valuation τ sig (Elt F)) : lev62 V0 (Proc.devRef .tc main_v3271) = lev57 V0 (Proc.devRef .tc main_v3271) := (filt61_keep (lev61 V0) (r := main_v3271) (by decide)).trans (k56_61 V0)
theorem k56_63 (V0 : Valuation τ sig (Elt F)) : lev63 V0 (Proc.devRef .tc main_v3271) = lev57 V0 (Proc.devRef .tc main_v3271) := (filt62_keep (lev62 V0) (r := main_v3271) (by decide)).trans (k56_62 V0)
theorem k56_64 (V0 : Valuation τ sig (Elt F)) : lev64 V0 (Proc.devRef .tc main_v3271) = lev57 V0 (Proc.devRef .tc main_v3271) := (filt63_keep (lev63 V0) (r := main_v3271) (by decide)).trans (k56_63 V0)
theorem k57_59 (V0 : Valuation τ sig (Elt F)) : lev59 V0 (Proc.devRef .tc main_v3371) = lev58 V0 (Proc.devRef .tc main_v3371) := (filt58_keep (lev58 V0) (r := main_v3371) (by decide))
theorem k57_60 (V0 : Valuation τ sig (Elt F)) : lev60 V0 (Proc.devRef .tc main_v3371) = lev58 V0 (Proc.devRef .tc main_v3371) := (filt59_keep (lev59 V0) (r := main_v3371) (by decide)).trans (k57_59 V0)
theorem k57_61 (V0 : Valuation τ sig (Elt F)) : lev61 V0 (Proc.devRef .tc main_v3371) = lev58 V0 (Proc.devRef .tc main_v3371) := (filt60_keep (lev60 V0) (r := main_v3371) (by decide)).trans (k57_60 V0)
theorem k57_62 (V0 : Valuation τ sig (Elt F)) : lev62 V0 (Proc.devRef .tc main_v3371) = lev58 V0 (Proc.devRef .tc main_v3371) := (filt61_keep (lev61 V0) (r := main_v3371) (by decide)).trans (k57_61 V0)
theorem k57_63 (V0 : Valuation τ sig (Elt F)) : lev63 V0 (Proc.devRef .tc main_v3371) = lev58 V0 (Proc.devRef .tc main_v3371) := (filt62_keep (lev62 V0) (r := main_v3371) (by decide)).trans (k57_62 V0)
theorem k57_64 (V0 : Valuation τ sig (Elt F)) : lev64 V0 (Proc.devRef .tc main_v3371) = lev58 V0 (Proc.devRef .tc main_v3371) := (filt63_keep (lev63 V0) (r := main_v3371) (by decide)).trans (k57_63 V0)
theorem k58_60 (V0 : Valuation τ sig (Elt F)) : lev60 V0 (Proc.devRef .tc main_v3474) = lev59 V0 (Proc.devRef .tc main_v3474) := (filt59_keep (lev59 V0) (r := main_v3474) (by decide))
theorem k58_61 (V0 : Valuation τ sig (Elt F)) : lev61 V0 (Proc.devRef .tc main_v3474) = lev59 V0 (Proc.devRef .tc main_v3474) := (filt60_keep (lev60 V0) (r := main_v3474) (by decide)).trans (k58_60 V0)
theorem k58_62 (V0 : Valuation τ sig (Elt F)) : lev62 V0 (Proc.devRef .tc main_v3474) = lev59 V0 (Proc.devRef .tc main_v3474) := (filt61_keep (lev61 V0) (r := main_v3474) (by decide)).trans (k58_61 V0)
theorem k58_63 (V0 : Valuation τ sig (Elt F)) : lev63 V0 (Proc.devRef .tc main_v3474) = lev59 V0 (Proc.devRef .tc main_v3474) := (filt62_keep (lev62 V0) (r := main_v3474) (by decide)).trans (k58_62 V0)
theorem k58_64 (V0 : Valuation τ sig (Elt F)) : lev64 V0 (Proc.devRef .tc main_v3474) = lev59 V0 (Proc.devRef .tc main_v3474) := (filt63_keep (lev63 V0) (r := main_v3474) (by decide)).trans (k58_63 V0)
theorem k59_61 (V0 : Valuation τ sig (Elt F)) : lev61 V0 (Proc.devRef .tc main_v3577) = lev60 V0 (Proc.devRef .tc main_v3577) := (filt60_keep (lev60 V0) (r := main_v3577) (by decide))
theorem k59_62 (V0 : Valuation τ sig (Elt F)) : lev62 V0 (Proc.devRef .tc main_v3577) = lev60 V0 (Proc.devRef .tc main_v3577) := (filt61_keep (lev61 V0) (r := main_v3577) (by decide)).trans (k59_61 V0)
theorem k59_63 (V0 : Valuation τ sig (Elt F)) : lev63 V0 (Proc.devRef .tc main_v3577) = lev60 V0 (Proc.devRef .tc main_v3577) := (filt62_keep (lev62 V0) (r := main_v3577) (by decide)).trans (k59_62 V0)
theorem k59_64 (V0 : Valuation τ sig (Elt F)) : lev64 V0 (Proc.devRef .tc main_v3577) = lev60 V0 (Proc.devRef .tc main_v3577) := (filt63_keep (lev63 V0) (r := main_v3577) (by decide)).trans (k59_63 V0)
theorem k60_62 (V0 : Valuation τ sig (Elt F)) : lev62 V0 (Proc.devRef .tc main_v3683) = lev61 V0 (Proc.devRef .tc main_v3683) := (filt61_keep (lev61 V0) (r := main_v3683) (by decide))
theorem k60_63 (V0 : Valuation τ sig (Elt F)) : lev63 V0 (Proc.devRef .tc main_v3683) = lev61 V0 (Proc.devRef .tc main_v3683) := (filt62_keep (lev62 V0) (r := main_v3683) (by decide)).trans (k60_62 V0)
theorem k60_64 (V0 : Valuation τ sig (Elt F)) : lev64 V0 (Proc.devRef .tc main_v3683) = lev61 V0 (Proc.devRef .tc main_v3683) := (filt63_keep (lev63 V0) (r := main_v3683) (by decide)).trans (k60_63 V0)
theorem k61_63 (V0 : Valuation τ sig (Elt F)) : lev63 V0 (Proc.devRef .tc main_v3789) = lev62 V0 (Proc.devRef .tc main_v3789) := (filt62_keep (lev62 V0) (r := main_v3789) (by decide))
theorem k61_64 (V0 : Valuation τ sig (Elt F)) : lev64 V0 (Proc.devRef .tc main_v3789) = lev62 V0 (Proc.devRef .tc main_v3789) := (filt63_keep (lev63 V0) (r := main_v3789) (by decide)).trans (k61_63 V0)
theorem k62_64 (V0 : Valuation τ sig (Elt F)) : lev64 V0 (Proc.devRef .tc main_v3898) = lev63 V0 (Proc.devRef .tc main_v3898) := (filt63_keep (lev63 V0) (r := main_v3898) (by decide))

end Levels

/-- Feature 0 at the last level. -/
theorem feature0 (V0 : Valuation τ sig (Elt Ideal)) (b : Fin 128) :
    (lev64 V0 (Proc.devRef .tc main_v23) : S128.Idx → EReal) (ix1 b)
      = ConvPool.feat (lev0 V0 (Proc.devRef .tc main_v7)) (lev0 V0 (Proc.devRef .tc main_arg2)) (lev0 V0 (Proc.devRef .tc main_arg3)) (ix2 b (⟨0, by decide⟩ : Fin 64)) := by
  rw [k0_64 V0]
  rw [← Eto0_0 V0, ← Wto0_0 V0, ← Bto0_0 V0]
  exact filt0_value (lev0 V0) b
/-- Feature 1 at the last level. -/
theorem feature1 (V0 : Valuation τ sig (Elt Ideal)) (b : Fin 128) :
    (lev64 V0 (Proc.devRef .tc main_v39) : S128.Idx → EReal) (ix1 b)
      = ConvPool.feat (lev0 V0 (Proc.devRef .tc main_v7)) (lev0 V0 (Proc.devRef .tc main_arg2)) (lev0 V0 (Proc.devRef .tc main_arg3)) (ix2 b (⟨1, by decide⟩ : Fin 64)) := by
  rw [k1_64 V0]
  rw [← Eto0_1 V0, ← Wto0_1 V0, ← Bto0_1 V0]
  exact filt1_value (lev1 V0) b
/-- Feature 2 at the last level. -/
theorem feature2 (V0 : Valuation τ sig (Elt Ideal)) (b : Fin 128) :
    (lev64 V0 (Proc.devRef .tc main_v58) : S128.Idx → EReal) (ix1 b)
      = ConvPool.feat (lev0 V0 (Proc.devRef .tc main_v7)) (lev0 V0 (Proc.devRef .tc main_arg2)) (lev0 V0 (Proc.devRef .tc main_arg3)) (ix2 b (⟨2, by decide⟩ : Fin 64)) := by
  rw [k2_64 V0]
  rw [← Eto0_2 V0, ← Wto0_2 V0, ← Bto0_2 V0]
  exact filt2_value (lev2 V0) b
/-- Feature 3 at the last level. -/
theorem feature3 (V0 : Valuation τ sig (Elt Ideal)) (b : Fin 128) :
    (lev64 V0 (Proc.devRef .tc main_v77) : S128.Idx → EReal) (ix1 b)
      = ConvPool.feat (lev0 V0 (Proc.devRef .tc main_v7)) (lev0 V0 (Proc.devRef .tc main_arg2)) (lev0 V0 (Proc.devRef .tc main_arg3)) (ix2 b (⟨3, by decide⟩ : Fin 64)) := by
  rw [k3_64 V0]
  rw [← Eto0_3 V0, ← Wto0_3 V0, ← Bto0_3 V0]
  exact filt3_value (lev3 V0) b
/-- Feature 4 at the last level. -/
theorem feature4 (V0 : Valuation τ sig (Elt Ideal)) (b : Fin 128) :
    (lev64 V0 (Proc.devRef .tc main_v99) : S128.Idx → EReal) (ix1 b)
      = ConvPool.feat (lev0 V0 (Proc.devRef .tc main_v7)) (lev0 V0 (Proc.devRef .tc main_arg2)) (lev0 V0 (Proc.devRef .tc main_arg3)) (ix2 b (⟨4, by decide⟩ : Fin 64)) := by
  rw [k4_64 V0]
  rw [← Eto0_4 V0, ← Wto0_4 V0, ← Bto0_4 V0]
  exact filt4_value (lev4 V0) b
/-- Feature 5 at the last level. -/
theorem feature5 (V0 : Valuation τ sig (Elt Ideal)) (b : Fin 128) :
    (lev64 V0 (Proc.devRef .tc main_v121) : S128.Idx → EReal) (ix1 b)
      = ConvPool.feat (lev0 V0 (Proc.devRef .tc main_v7)) (lev0 V0 (Proc.devRef .tc main_arg2)) (lev0 V0 (Proc.devRef .tc main_arg3)) (ix2 b (⟨5, by decide⟩ : Fin 64)) := by
  rw [k5_64 V0]
  rw [← Eto0_5 V0, ← Wto0_5 V0, ← Bto0_5 V0]
  exact filt5_value (lev5 V0) b
/-- Feature 6 at the last level. -/
theorem feature6 (V0 : Valuation τ sig (Elt Ideal)) (b : Fin 128) :
    (lev64 V0 (Proc.devRef .tc main_v146) : S128.Idx → EReal) (ix1 b)
      = ConvPool.feat (lev0 V0 (Proc.devRef .tc main_v7)) (lev0 V0 (Proc.devRef .tc main_arg2)) (lev0 V0 (Proc.devRef .tc main_arg3)) (ix2 b (⟨6, by decide⟩ : Fin 64)) := by
  rw [k6_64 V0]
  rw [← Eto0_6 V0, ← Wto0_6 V0, ← Bto0_6 V0]
  exact filt6_value (lev6 V0) b
/-- Feature 7 at the last level. -/
theorem feature7 (V0 : Valuation τ sig (Elt Ideal)) (b : Fin 128) :
    (lev64 V0 (Proc.devRef .tc main_v171) : S128.Idx → EReal) (ix1 b)
      = ConvPool.feat (lev0 V0 (Proc.devRef .tc main_v7)) (lev0 V0 (Proc.devRef .tc main_arg2)) (lev0 V0 (Proc.devRef .tc main_arg3)) (ix2 b (⟨7, by decide⟩ : Fin 64)) := by
  rw [k7_64 V0]
  rw [← Eto0_7 V0, ← Wto0_7 V0, ← Bto0_7 V0]
  exact filt7_value (lev7 V0) b
/-- Feature 8 at the last level. -/
theorem feature8 (V0 : Valuation τ sig (Elt Ideal)) (b : Fin 128) :
    (lev64 V0 (Proc.devRef .tc main_v199) : S128.Idx → EReal) (ix1 b)
      = ConvPool.feat (lev0 V0 (Proc.devRef .tc main_v7)) (lev0 V0 (Proc.devRef .tc main_arg2)) (lev0 V0 (Proc.devRef .tc main_arg3)) (ix2 b (⟨8, by decide⟩ : Fin 64)) := by
  rw [k8_64 V0]
  rw [← Eto0_8 V0, ← Wto0_8 V0, ← Bto0_8 V0]
  exact filt8_value (lev8 V0) b
/-- Feature 9 at the last level. -/
theorem feature9 (V0 : Valuation τ sig (Elt Ideal)) (b : Fin 128) :
    (lev64 V0 (Proc.devRef .tc main_v227) : S128.Idx → EReal) (ix1 b)
      = ConvPool.feat (lev0 V0 (Proc.devRef .tc main_v7)) (lev0 V0 (Proc.devRef .tc main_arg2)) (lev0 V0 (Proc.devRef .tc main_arg3)) (ix2 b (⟨9, by decide⟩ : Fin 64)) := by
  rw [k9_64 V0]
  rw [← Eto0_9 V0, ← Wto0_9 V0, ← Bto0_9 V0]
  exact filt9_value (lev9 V0) b
/-- Feature 10 at the last level. -/
theorem feature10 (V0 : Valuation τ sig (Elt Ideal)) (b : Fin 128) :
    (lev64 V0 (Proc.devRef .tc main_v258) : S128.Idx → EReal) (ix1 b)
      = ConvPool.feat (lev0 V0 (Proc.devRef .tc main_v7)) (lev0 V0 (Proc.devRef .tc main_arg2)) (lev0 V0 (Proc.devRef .tc main_arg3)) (ix2 b (⟨10, by decide⟩ : Fin 64)) := by
  rw [k10_64 V0]
  rw [← Eto0_10 V0, ← Wto0_10 V0, ← Bto0_10 V0]
  exact filt10_value (lev10 V0) b
/-- Feature 11 at the last level. -/
theorem feature11 (V0 : Valuation τ sig (Elt Ideal)) (b : Fin 128) :
    (lev64 V0 (Proc.devRef .tc main_v289) : S128.Idx → EReal) (ix1 b)
      = ConvPool.feat (lev0 V0 (Proc.devRef .tc main_v7)) (lev0 V0 (Proc.devRef .tc main_arg2)) (lev0 V0 (Proc.devRef .tc main_arg3)) (ix2 b (⟨11, by decide⟩ : Fin 64)) := by
  rw [k11_64 V0]
  rw [← Eto0_11 V0, ← Wto0_11 V0, ← Bto0_11 V0]
  exact filt11_value (lev11 V0) b
/-- Feature 12 at the last level. -/
theorem feature12 (V0 : Valuation τ sig (Elt Ideal)) (b : Fin 128) :
    (lev64 V0 (Proc.devRef .tc main_v323) : S128.Idx → EReal) (ix1 b)
      = ConvPool.feat (lev0 V0 (Proc.devRef .tc main_v7)) (lev0 V0 (Proc.devRef .tc main_arg2)) (lev0 V0 (Proc.devRef .tc main_arg3)) (ix2 b (⟨12, by decide⟩ : Fin 64)) := by
  rw [k12_64 V0]
  rw [← Eto0_12 V0, ← Wto0_12 V0, ← Bto0_12 V0]
  exact filt12_value (lev12 V0) b
/-- Feature 13 at the last level. -/
theorem feature13 (V0 : Valuation τ sig (Elt Ideal)) (b : Fin 128) :
    (lev64 V0 (Proc.devRef .tc main_v357) : S128.Idx → EReal) (ix1 b)
      = ConvPool.feat (lev0 V0 (Proc.devRef .tc main_v7)) (lev0 V0 (Proc.devRef .tc main_arg2)) (lev0 V0 (Proc.devRef .tc main_arg3)) (ix2 b (⟨13, by decide⟩ : Fin 64)) := by
  rw [k13_64 V0]
  rw [← Eto0_13 V0, ← Wto0_13 V0, ← Bto0_13 V0]
  exact filt13_value (lev13 V0) b
/-- Feature 14 at the last level. -/
theorem feature14 (V0 : Valuation τ sig (Elt Ideal)) (b : Fin 128) :
    (lev64 V0 (Proc.devRef .tc main_v394) : S128.Idx → EReal) (ix1 b)
      = ConvPool.feat (lev0 V0 (Proc.devRef .tc main_v7)) (lev0 V0 (Proc.devRef .tc main_arg2)) (lev0 V0 (Proc.devRef .tc main_arg3)) (ix2 b (⟨14, by decide⟩ : Fin 64)) := by
  rw [k14_64 V0]
  rw [← Eto0_14 V0, ← Wto0_14 V0, ← Bto0_14 V0]
  exact filt14_value (lev14 V0) b
/-- Feature 15 at the last level. -/
theorem feature15 (V0 : Valuation τ sig (Elt Ideal)) (b : Fin 128) :
    (lev64 V0 (Proc.devRef .tc main_v431) : S128.Idx → EReal) (ix1 b)
      = ConvPool.feat (lev0 V0 (Proc.devRef .tc main_v7)) (lev0 V0 (Proc.devRef .tc main_arg2)) (lev0 V0 (Proc.devRef .tc main_arg3)) (ix2 b (⟨15, by decide⟩ : Fin 64)) := by
  rw [k15_64 V0]
  rw [← Eto0_15 V0, ← Wto0_15 V0, ← Bto0_15 V0]
  exact filt15_value (lev15 V0) b
/-- Feature 16 at the last level. -/
theorem feature16 (V0 : Valuation τ sig (Elt Ideal)) (b : Fin 128) :
    (lev64 V0 (Proc.devRef .tc main_v471) : S128.Idx → EReal) (ix1 b)
      = ConvPool.feat (lev0 V0 (Proc.devRef .tc main_v7)) (lev0 V0 (Proc.devRef .tc main_arg2)) (lev0 V0 (Proc.devRef .tc main_arg3)) (ix2 b (⟨16, by decide⟩ : Fin 64)) := by
  rw [k16_64 V0]
  rw [← Eto0_16 V0, ← Wto0_16 V0, ← Bto0_16 V0]
  exact filt16_value (lev16 V0) b
/-- Feature 17 at the last level. -/
theorem feature17 (V0 : Valuation τ sig (Elt Ideal)) (b : Fin 128) :
    (lev64 V0 (Proc.devRef .tc main_v511) : S128.Idx → EReal) (ix1 b)
      = ConvPool.feat (lev0 V0 (Proc.devRef .tc main_v7)) (lev0 V0 (Proc.devRef .tc main_arg2)) (lev0 V0 (Proc.devRef .tc main_arg3)) (ix2 b (⟨17, by decide⟩ : Fin 64)) := by
  rw [k17_64 V0]
  rw [← Eto0_17 V0, ← Wto0_17 V0, ← Bto0_17 V0]
  exact filt17_value (lev17 V0) b
/-- Feature 18 at the last level. -/
theorem feature18 (V0 : Valuation τ sig (Elt Ideal)) (b : Fin 128) :
    (lev64 V0 (Proc.devRef .tc main_v554) : S128.Idx → EReal) (ix1 b)
      = ConvPool.feat (lev0 V0 (Proc.devRef .tc main_v7)) (lev0 V0 (Proc.devRef .tc main_arg2)) (lev0 V0 (Proc.devRef .tc main_arg3)) (ix2 b (⟨18, by decide⟩ : Fin 64)) := by
  rw [k18_64 V0]
  rw [← Eto0_18 V0, ← Wto0_18 V0, ← Bto0_18 V0]
  exact filt18_value (lev18 V0) b
/-- Feature 19 at the last level. -/
theorem feature19 (V0 : Valuation τ sig (Elt Ideal)) (b : Fin 128) :
    (lev64 V0 (Proc.devRef .tc main_v597) : S128.Idx → EReal) (ix1 b)
      = ConvPool.feat (lev0 V0 (Proc.devRef .tc main_v7)) (lev0 V0 (Proc.devRef .tc main_arg2)) (lev0 V0 (Proc.devRef .tc main_arg3)) (ix2 b (⟨19, by decide⟩ : Fin 64)) := by
  rw [k19_64 V0]
  rw [← Eto0_19 V0, ← Wto0_19 V0, ← Bto0_19 V0]
  exact filt19_value (lev19 V0) b
/-- Feature 20 at the last level. -/
theorem feature20 (V0 : Valuation τ sig (Elt Ideal)) (b : Fin 128) :
    (lev64 V0 (Proc.devRef .tc main_v643) : S128.Idx → EReal) (ix1 b)
      = ConvPool.feat (lev0 V0 (Proc.devRef .tc main_v7)) (lev0 V0 (Proc.devRef .tc main_arg2)) (lev0 V0 (Proc.devRef .tc main_arg3)) (ix2 b (⟨20, by decide⟩ : Fin 64)) := by
  rw [k20_64 V0]
  rw [← Eto0_20 V0, ← Wto0_20 V0, ← Bto0_20 V0]
  exact filt20_value (lev20 V0) b
/-- Feature 21 at the last level. -/
theorem feature21 (V0 : Valuation τ sig (Elt Ideal)) (b : Fin 128) :
    (lev64 V0 (Proc.devRef .tc main_v689) : S128.Idx → EReal) (ix1 b)
      = ConvPool.feat (lev0 V0 (Proc.devRef .tc main_v7)) (lev0 V0 (Proc.devRef .tc main_arg2)) (lev0 V0 (Proc.devRef .tc main_arg3)) (ix2 b (⟨21, by decide⟩ : Fin 64)) := by
  rw [k21_64 V0]
  rw [← Eto0_21 V0, ← Wto0_21 V0, ← Bto0_21 V0]
  exact filt21_value (lev21 V0) b
/-- Feature 22 at the last level. -/
theorem feature22 (V0 : Valuation τ sig (Elt Ideal)) (b : Fin 128) :
    (lev64 V0 (Proc.devRef .tc main_v738) : S128.Idx → EReal) (ix1 b)
      = ConvPool.feat (lev0 V0 (Proc.devRef .tc main_v7)) (lev0 V0 (Proc.devRef .tc main_arg2)) (lev0 V0 (Proc.devRef .tc main_arg3)) (ix2 b (⟨22, by decide⟩ : Fin 64)) := by
  rw [k22_64 V0]
  rw [← Eto0_22 V0, ← Wto0_22 V0, ← Bto0_22 V0]
  exact filt22_value (lev22 V0) b
/-- Feature 23 at the last level. -/
theorem feature23 (V0 : Valuation τ sig (Elt Ideal)) (b : Fin 128) :
    (lev64 V0 (Proc.devRef .tc main_v787) : S128.Idx → EReal) (ix1 b)
      = ConvPool.feat (lev0 V0 (Proc.devRef .tc main_v7)) (lev0 V0 (Proc.devRef .tc main_arg2)) (lev0 V0 (Proc.devRef .tc main_arg3)) (ix2 b (⟨23, by decide⟩ : Fin 64)) := by
  rw [k23_64 V0]
  rw [← Eto0_23 V0, ← Wto0_23 V0, ← Bto0_23 V0]
  exact filt23_value (lev23 V0) b
/-- Feature 24 at the last level. -/
theorem feature24 (V0 : Valuation τ sig (Elt Ideal)) (b : Fin 128) :
    (lev64 V0 (Proc.devRef .tc main_v839) : S128.Idx → EReal) (ix1 b)
      = ConvPool.feat (lev0 V0 (Proc.devRef .tc main_v7)) (lev0 V0 (Proc.devRef .tc main_arg2)) (lev0 V0 (Proc.devRef .tc main_arg3)) (ix2 b (⟨24, by decide⟩ : Fin 64)) := by
  rw [k24_64 V0]
  rw [← Eto0_24 V0, ← Wto0_24 V0, ← Bto0_24 V0]
  exact filt24_value (lev24 V0) b
/-- Feature 25 at the last level. -/
theorem feature25 (V0 : Valuation τ sig (Elt Ideal)) (b : Fin 128) :
    (lev64 V0 (Proc.devRef .tc main_v891) : S128.Idx → EReal) (ix1 b)
      = ConvPool.feat (lev0 V0 (Proc.devRef .tc main_v7)) (lev0 V0 (Proc.devRef .tc main_arg2)) (lev0 V0 (Proc.devRef .tc main_arg3)) (ix2 b (⟨25, by decide⟩ : Fin 64)) := by
  rw [k25_64 V0]
  rw [← Eto0_25 V0, ← Wto0_25 V0, ← Bto0_25 V0]
  exact filt25_value (lev25 V0) b
/-- Feature 26 at the last level. -/
theorem feature26 (V0 : Valuation τ sig (Elt Ideal)) (b : Fin 128) :
    (lev64 V0 (Proc.devRef .tc main_v946) : S128.Idx → EReal) (ix1 b)
      = ConvPool.feat (lev0 V0 (Proc.devRef .tc main_v7)) (lev0 V0 (Proc.devRef .tc main_arg2)) (lev0 V0 (Proc.devRef .tc main_arg3)) (ix2 b (⟨26, by decide⟩ : Fin 64)) := by
  rw [k26_64 V0]
  rw [← Eto0_26 V0, ← Wto0_26 V0, ← Bto0_26 V0]
  exact filt26_value (lev26 V0) b
/-- Feature 27 at the last level. -/
theorem feature27 (V0 : Valuation τ sig (Elt Ideal)) (b : Fin 128) :
    (lev64 V0 (Proc.devRef .tc main_v1001) : S128.Idx → EReal) (ix1 b)
      = ConvPool.feat (lev0 V0 (Proc.devRef .tc main_v7)) (lev0 V0 (Proc.devRef .tc main_arg2)) (lev0 V0 (Proc.devRef .tc main_arg3)) (ix2 b (⟨27, by decide⟩ : Fin 64)) := by
  rw [k27_64 V0]
  rw [← Eto0_27 V0, ← Wto0_27 V0, ← Bto0_27 V0]
  exact filt27_value (lev27 V0) b
/-- Feature 28 at the last level. -/
theorem feature28 (V0 : Valuation τ sig (Elt Ideal)) (b : Fin 128) :
    (lev64 V0 (Proc.devRef .tc main_v1059) : S128.Idx → EReal) (ix1 b)
      = ConvPool.feat (lev0 V0 (Proc.devRef .tc main_v7)) (lev0 V0 (Proc.devRef .tc main_arg2)) (lev0 V0 (Proc.devRef .tc main_arg3)) (ix2 b (⟨28, by decide⟩ : Fin 64)) := by
  rw [k28_64 V0]
  rw [← Eto0_28 V0, ← Wto0_28 V0, ← Bto0_28 V0]
  exact filt28_value (lev28 V0) b
/-- Feature 29 at the last level. -/
theorem feature29 (V0 : Valuation τ sig (Elt Ideal)) (b : Fin 128) :
    (lev64 V0 (Proc.devRef .tc main_v1117) : S128.Idx → EReal) (ix1 b)
      = ConvPool.feat (lev0 V0 (Proc.devRef .tc main_v7)) (lev0 V0 (Proc.devRef .tc main_arg2)) (lev0 V0 (Proc.devRef .tc main_arg3)) (ix2 b (⟨29, by decide⟩ : Fin 64)) := by
  rw [k29_64 V0]
  rw [← Eto0_29 V0, ← Wto0_29 V0, ← Bto0_29 V0]
  exact filt29_value (lev29 V0) b
/-- Feature 30 at the last level. -/
theorem feature30 (V0 : Valuation τ sig (Elt Ideal)) (b : Fin 128) :
    (lev64 V0 (Proc.devRef .tc main_v1178) : S128.Idx → EReal) (ix1 b)
      = ConvPool.feat (lev0 V0 (Proc.devRef .tc main_v7)) (lev0 V0 (Proc.devRef .tc main_arg2)) (lev0 V0 (Proc.devRef .tc main_arg3)) (ix2 b (⟨30, by decide⟩ : Fin 64)) := by
  rw [k30_64 V0]
  rw [← Eto0_30 V0, ← Wto0_30 V0, ← Bto0_30 V0]
  exact filt30_value (lev30 V0) b
/-- Feature 31 at the last level. -/
theorem feature31 (V0 : Valuation τ sig (Elt Ideal)) (b : Fin 128) :
    (lev64 V0 (Proc.devRef .tc main_v1239) : S128.Idx → EReal) (ix1 b)
      = ConvPool.feat (lev0 V0 (Proc.devRef .tc main_v7)) (lev0 V0 (Proc.devRef .tc main_arg2)) (lev0 V0 (Proc.devRef .tc main_arg3)) (ix2 b (⟨31, by decide⟩ : Fin 64)) := by
  rw [k31_64 V0]
  rw [← Eto0_31 V0, ← Wto0_31 V0, ← Bto0_31 V0]
  exact filt31_value (lev31 V0) b
/-- Feature 32 at the last level. -/
theorem feature32 (V0 : Valuation τ sig (Elt Ideal)) (b : Fin 128) :
    (lev64 V0 (Proc.devRef .tc main_v1303) : S128.Idx → EReal) (ix1 b)
      = ConvPool.feat (lev0 V0 (Proc.devRef .tc main_v7)) (lev0 V0 (Proc.devRef .tc main_arg2)) (lev0 V0 (Proc.devRef .tc main_arg3)) (ix2 b (⟨32, by decide⟩ : Fin 64)) := by
  rw [k32_64 V0]
  rw [← Eto0_32 V0, ← Wto0_32 V0, ← Bto0_32 V0]
  exact filt32_value (lev32 V0) b
/-- Feature 33 at the last level. -/
theorem feature33 (V0 : Valuation τ sig (Elt Ideal)) (b : Fin 128) :
    (lev64 V0 (Proc.devRef .tc main_v1367) : S128.Idx → EReal) (ix1 b)
      = ConvPool.feat (lev0 V0 (Proc.devRef .tc main_v7)) (lev0 V0 (Proc.devRef .tc main_arg2)) (lev0 V0 (Proc.devRef .tc main_arg3)) (ix2 b (⟨33, by decide⟩ : Fin 64)) := by
  rw [k33_64 V0]
  rw [← Eto0_33 V0, ← Wto0_33 V0, ← Bto0_33 V0]
  exact filt33_value (lev33 V0) b
/-- Feature 34 at the last level. -/
theorem feature34 (V0 : Valuation τ sig (Elt Ideal)) (b : Fin 128) :
    (lev64 V0 (Proc.devRef .tc main_v1434) : S128.Idx → EReal) (ix1 b)
      = ConvPool.feat (lev0 V0 (Proc.devRef .tc main_v7)) (lev0 V0 (Proc.devRef .tc main_arg2)) (lev0 V0 (Proc.devRef .tc main_arg3)) (ix2 b (⟨34, by decide⟩ : Fin 64)) := by
  rw [k34_64 V0]
  rw [← Eto0_34 V0, ← Wto0_34 V0, ← Bto0_34 V0]
  exact filt34_value (lev34 V0) b
/-- Feature 35 at the last level. -/
theorem feature35 (V0 : Valuation τ sig (Elt Ideal)) (b : Fin 128) :
    (lev64 V0 (Proc.devRef .tc main_v1501) : S128.Idx → EReal) (ix1 b)
      = ConvPool.feat (lev0 V0 (Proc.devRef .tc main_v7)) (lev0 V0 (Proc.devRef .tc main_arg2)) (lev0 V0 (Proc.devRef .tc main_arg3)) (ix2 b (⟨35, by decide⟩ : Fin 64)) := by
  rw [k35_64 V0]
  rw [← Eto0_35 V0, ← Wto0_35 V0, ← Bto0_35 V0]
  exact filt35_value (lev35 V0) b
/-- Feature 36 at the last level. -/
theorem feature36 (V0 : Valuation τ sig (Elt Ideal)) (b : Fin 128) :
    (lev64 V0 (Proc.devRef .tc main_v1571) : S128.Idx → EReal) (ix1 b)
      = ConvPool.feat (lev0 V0 (Proc.devRef .tc main_v7)) (lev0 V0 (Proc.devRef .tc main_arg2)) (lev0 V0 (Proc.devRef .tc main_arg3)) (ix2 b (⟨36, by decide⟩ : Fin 64)) := by
  rw [k36_64 V0]
  rw [← Eto0_36 V0, ← Wto0_36 V0, ← Bto0_36 V0]
  exact filt36_value (lev36 V0) b
/-- Feature 37 at the last level. -/
theorem feature37 (V0 : Valuation τ sig (Elt Ideal)) (b : Fin 128) :
    (lev64 V0 (Proc.devRef .tc main_v1641) : S128.Idx → EReal) (ix1 b)
      = ConvPool.feat (lev0 V0 (Proc.devRef .tc main_v7)) (lev0 V0 (Proc.devRef .tc main_arg2)) (lev0 V0 (Proc.devRef .tc main_arg3)) (ix2 b (⟨37, by decide⟩ : Fin 64)) := by
  rw [k37_64 V0]
  rw [← Eto0_37 V0, ← Wto0_37 V0, ← Bto0_37 V0]
  exact filt37_value (lev37 V0) b
/-- Feature 38 at the last level. -/
theorem feature38 (V0 : Valuation τ sig (Elt Ideal)) (b : Fin 128) :
    (lev64 V0 (Proc.devRef .tc main_v1714) : S128.Idx → EReal) (ix1 b)
      = ConvPool.feat (lev0 V0 (Proc.devRef .tc main_v7)) (lev0 V0 (Proc.devRef .tc main_arg2)) (lev0 V0 (Proc.devRef .tc main_arg3)) (ix2 b (⟨38, by decide⟩ : Fin 64)) := by
  rw [k38_64 V0]
  rw [← Eto0_38 V0, ← Wto0_38 V0, ← Bto0_38 V0]
  exact filt38_value (lev38 V0) b
/-- Feature 39 at the last level. -/
theorem feature39 (V0 : Valuation τ sig (Elt Ideal)) (b : Fin 128) :
    (lev64 V0 (Proc.devRef .tc main_v1787) : S128.Idx → EReal) (ix1 b)
      = ConvPool.feat (lev0 V0 (Proc.devRef .tc main_v7)) (lev0 V0 (Proc.devRef .tc main_arg2)) (lev0 V0 (Proc.devRef .tc main_arg3)) (ix2 b (⟨39, by decide⟩ : Fin 64)) := by
  rw [k39_64 V0]
  rw [← Eto0_39 V0, ← Wto0_39 V0, ← Bto0_39 V0]
  exact filt39_value (lev39 V0) b
/-- Feature 40 at the last level. -/
theorem feature40 (V0 : Valuation τ sig (Elt Ideal)) (b : Fin 128) :
    (lev64 V0 (Proc.devRef .tc main_v1863) : S128.Idx → EReal) (ix1 b)
      = ConvPool.feat (lev0 V0 (Proc.devRef .tc main_v7)) (lev0 V0 (Proc.devRef .tc main_arg2)) (lev0 V0 (Proc.devRef .tc main_arg3)) (ix2 b (⟨40, by decide⟩ : Fin 64)) := by
  rw [k40_64 V0]
  rw [← Eto0_40 V0, ← Wto0_40 V0, ← Bto0_40 V0]
  exact filt40_value (lev40 V0) b
/-- Feature 41 at the last level. -/
theorem feature41 (V0 : Valuation τ sig (Elt Ideal)) (b : Fin 128) :
    (lev64 V0 (Proc.devRef .tc main_v1939) : S128.Idx → EReal) (ix1 b)
      = ConvPool.feat (lev0 V0 (Proc.devRef .tc main_v7)) (lev0 V0 (Proc.devRef .tc main_arg2)) (lev0 V0 (Proc.devRef .tc main_arg3)) (ix2 b (⟨41, by decide⟩ : Fin 64)) := by
  rw [k41_64 V0]
  rw [← Eto0_41 V0, ← Wto0_41 V0, ← Bto0_41 V0]
  exact filt41_value (lev41 V0) b
/-- Feature 42 at the last level. -/
theorem feature42 (V0 : Valuation τ sig (Elt Ideal)) (b : Fin 128) :
    (lev64 V0 (Proc.devRef .tc main_v2018) : S128.Idx → EReal) (ix1 b)
      = ConvPool.feat (lev0 V0 (Proc.devRef .tc main_v7)) (lev0 V0 (Proc.devRef .tc main_arg2)) (lev0 V0 (Proc.devRef .tc main_arg3)) (ix2 b (⟨42, by decide⟩ : Fin 64)) := by
  rw [k42_64 V0]
  rw [← Eto0_42 V0, ← Wto0_42 V0, ← Bto0_42 V0]
  exact filt42_value (lev42 V0) b
/-- Feature 43 at the last level. -/
theorem feature43 (V0 : Valuation τ sig (Elt Ideal)) (b : Fin 128) :
    (lev64 V0 (Proc.devRef .tc main_v2097) : S128.Idx → EReal) (ix1 b)
      = ConvPool.feat (lev0 V0 (Proc.devRef .tc main_v7)) (lev0 V0 (Proc.devRef .tc main_arg2)) (lev0 V0 (Proc.devRef .tc main_arg3)) (ix2 b (⟨43, by decide⟩ : Fin 64)) := by
  rw [k43_64 V0]
  rw [← Eto0_43 V0, ← Wto0_43 V0, ← Bto0_43 V0]
  exact filt43_value (lev43 V0) b
/-- Feature 44 at the last level. -/
theorem feature44 (V0 : Valuation τ sig (Elt Ideal)) (b : Fin 128) :
    (lev64 V0 (Proc.devRef .tc main_v2179) : S128.Idx → EReal) (ix1 b)
      = ConvPool.feat (lev0 V0 (Proc.devRef .tc main_v7)) (lev0 V0 (Proc.devRef .tc main_arg2)) (lev0 V0 (Proc.devRef .tc main_arg3)) (ix2 b (⟨44, by decide⟩ : Fin 64)) := by
  rw [k44_64 V0]
  rw [← Eto0_44 V0, ← Wto0_44 V0, ← Bto0_44 V0]
  exact filt44_value (lev44 V0) b
/-- Feature 45 at the last level. -/
theorem feature45 (V0 : Valuation τ sig (Elt Ideal)) (b : Fin 128) :
    (lev64 V0 (Proc.devRef .tc main_v2261) : S128.Idx → EReal) (ix1 b)
      = ConvPool.feat (lev0 V0 (Proc.devRef .tc main_v7)) (lev0 V0 (Proc.devRef .tc main_arg2)) (lev0 V0 (Proc.devRef .tc main_arg3)) (ix2 b (⟨45, by decide⟩ : Fin 64)) := by
  rw [k45_64 V0]
  rw [← Eto0_45 V0, ← Wto0_45 V0, ← Bto0_45 V0]
  exact filt45_value (lev45 V0) b
/-- Feature 46 at the last level. -/
theorem feature46 (V0 : Valuation τ sig (Elt Ideal)) (b : Fin 128) :
    (lev64 V0 (Proc.devRef .tc main_v2346) : S128.Idx → EReal) (ix1 b)
      = ConvPool.feat (lev0 V0 (Proc.devRef .tc main_v7)) (lev0 V0 (Proc.devRef .tc main_arg2)) (lev0 V0 (Proc.devRef .tc main_arg3)) (ix2 b (⟨46, by decide⟩ : Fin 64)) := by
  rw [k46_64 V0]
  rw [← Eto0_46 V0, ← Wto0_46 V0, ← Bto0_46 V0]
  exact filt46_value (lev46 V0) b
/-- Feature 47 at the last level. -/
theorem feature47 (V0 : Valuation τ sig (Elt Ideal)) (b : Fin 128) :
    (lev64 V0 (Proc.devRef .tc main_v2431) : S128.Idx → EReal) (ix1 b)
      = ConvPool.feat (lev0 V0 (Proc.devRef .tc main_v7)) (lev0 V0 (Proc.devRef .tc main_arg2)) (lev0 V0 (Proc.devRef .tc main_arg3)) (ix2 b (⟨47, by decide⟩ : Fin 64)) := by
  rw [k47_64 V0]
  rw [← Eto0_47 V0, ← Wto0_47 V0, ← Bto0_47 V0]
  exact filt47_value (lev47 V0) b
/-- Feature 48 at the last level. -/
theorem feature48 (V0 : Valuation τ sig (Elt Ideal)) (b : Fin 128) :
    (lev64 V0 (Proc.devRef .tc main_v2519) : S128.Idx → EReal) (ix1 b)
      = ConvPool.feat (lev0 V0 (Proc.devRef .tc main_v7)) (lev0 V0 (Proc.devRef .tc main_arg2)) (lev0 V0 (Proc.devRef .tc main_arg3)) (ix2 b (⟨48, by decide⟩ : Fin 64)) := by
  rw [k48_64 V0]
  rw [← Eto0_48 V0, ← Wto0_48 V0, ← Bto0_48 V0]
  exact filt48_value (lev48 V0) b
/-- Feature 49 at the last level. -/
theorem feature49 (V0 : Valuation τ sig (Elt Ideal)) (b : Fin 128) :
    (lev64 V0 (Proc.devRef .tc main_v2607) : S128.Idx → EReal) (ix1 b)
      = ConvPool.feat (lev0 V0 (Proc.devRef .tc main_v7)) (lev0 V0 (Proc.devRef .tc main_arg2)) (lev0 V0 (Proc.devRef .tc main_arg3)) (ix2 b (⟨49, by decide⟩ : Fin 64)) := by
  rw [k49_64 V0]
  rw [← Eto0_49 V0, ← Wto0_49 V0, ← Bto0_49 V0]
  exact filt49_value (lev49 V0) b
/-- Feature 50 at the last level. -/
theorem feature50 (V0 : Valuation τ sig (Elt Ideal)) (b : Fin 128) :
    (lev64 V0 (Proc.devRef .tc main_v2698) : S128.Idx → EReal) (ix1 b)
      = ConvPool.feat (lev0 V0 (Proc.devRef .tc main_v7)) (lev0 V0 (Proc.devRef .tc main_arg2)) (lev0 V0 (Proc.devRef .tc main_arg3)) (ix2 b (⟨50, by decide⟩ : Fin 64)) := by
  rw [k50_64 V0]
  rw [← Eto0_50 V0, ← Wto0_50 V0, ← Bto0_50 V0]
  exact filt50_value (lev50 V0) b
/-- Feature 51 at the last level. -/
theorem feature51 (V0 : Valuation τ sig (Elt Ideal)) (b : Fin 128) :
    (lev64 V0 (Proc.devRef .tc main_v2789) : S128.Idx → EReal) (ix1 b)
      = ConvPool.feat (lev0 V0 (Proc.devRef .tc main_v7)) (lev0 V0 (Proc.devRef .tc main_arg2)) (lev0 V0 (Proc.devRef .tc main_arg3)) (ix2 b (⟨51, by decide⟩ : Fin 64)) := by
  rw [k51_64 V0]
  rw [← Eto0_51 V0, ← Wto0_51 V0, ← Bto0_51 V0]
  exact filt51_value (lev51 V0) b
/-- Feature 52 at the last level. -/
theorem feature52 (V0 : Valuation τ sig (Elt Ideal)) (b : Fin 128) :
    (lev64 V0 (Proc.devRef .tc main_v2883) : S128.Idx → EReal) (ix1 b)
      = ConvPool.feat (lev0 V0 (Proc.devRef .tc main_v7)) (lev0 V0 (Proc.devRef .tc main_arg2)) (lev0 V0 (Proc.devRef .tc main_arg3)) (ix2 b (⟨52, by decide⟩ : Fin 64)) := by
  rw [k52_64 V0]
  rw [← Eto0_52 V0, ← Wto0_52 V0, ← Bto0_52 V0]
  exact filt52_value (lev52 V0) b
/-- Feature 53 at the last level. -/
theorem feature53 (V0 : Valuation τ sig (Elt Ideal)) (b : Fin 128) :
    (lev64 V0 (Proc.devRef .tc main_v2977) : S128.Idx → EReal) (ix1 b)
      = ConvPool.feat (lev0 V0 (Proc.devRef .tc main_v7)) (lev0 V0 (Proc.devRef .tc main_arg2)) (lev0 V0 (Proc.devRef .tc main_arg3)) (ix2 b (⟨53, by decide⟩ : Fin 64)) := by
  rw [k53_64 V0]
  rw [← Eto0_53 V0, ← Wto0_53 V0, ← Bto0_53 V0]
  exact filt53_value (lev53 V0) b
/-- Feature 54 at the last level. -/
theorem feature54 (V0 : Valuation τ sig (Elt Ideal)) (b : Fin 128) :
    (lev64 V0 (Proc.devRef .tc main_v3074) : S128.Idx → EReal) (ix1 b)
      = ConvPool.feat (lev0 V0 (Proc.devRef .tc main_v7)) (lev0 V0 (Proc.devRef .tc main_arg2)) (lev0 V0 (Proc.devRef .tc main_arg3)) (ix2 b (⟨54, by decide⟩ : Fin 64)) := by
  rw [k54_64 V0]
  rw [← Eto0_54 V0, ← Wto0_54 V0, ← Bto0_54 V0]
  exact filt54_value (lev54 V0) b
/-- Feature 55 at the last level. -/
theorem feature55 (V0 : Valuation τ sig (Elt Ideal)) (b : Fin 128) :
    (lev64 V0 (Proc.devRef .tc main_v3171) : S128.Idx → EReal) (ix1 b)
      = ConvPool.feat (lev0 V0 (Proc.devRef .tc main_v7)) (lev0 V0 (Proc.devRef .tc main_arg2)) (lev0 V0 (Proc.devRef .tc main_arg3)) (ix2 b (⟨55, by decide⟩ : Fin 64)) := by
  rw [k55_64 V0]
  rw [← Eto0_55 V0, ← Wto0_55 V0, ← Bto0_55 V0]
  exact filt55_value (lev55 V0) b
/-- Feature 56 at the last level. -/
theorem feature56 (V0 : Valuation τ sig (Elt Ideal)) (b : Fin 128) :
    (lev64 V0 (Proc.devRef .tc main_v3271) : S128.Idx → EReal) (ix1 b)
      = ConvPool.feat (lev0 V0 (Proc.devRef .tc main_v7)) (lev0 V0 (Proc.devRef .tc main_arg2)) (lev0 V0 (Proc.devRef .tc main_arg3)) (ix2 b (⟨56, by decide⟩ : Fin 64)) := by
  rw [k56_64 V0]
  rw [← Eto0_56 V0, ← Wto0_56 V0, ← Bto0_56 V0]
  exact filt56_value (lev56 V0) b
/-- Feature 57 at the last level. -/
theorem feature57 (V0 : Valuation τ sig (Elt Ideal)) (b : Fin 128) :
    (lev64 V0 (Proc.devRef .tc main_v3371) : S128.Idx → EReal) (ix1 b)
      = ConvPool.feat (lev0 V0 (Proc.devRef .tc main_v7)) (lev0 V0 (Proc.devRef .tc main_arg2)) (lev0 V0 (Proc.devRef .tc main_arg3)) (ix2 b (⟨57, by decide⟩ : Fin 64)) := by
  rw [k57_64 V0]
  rw [← Eto0_57 V0, ← Wto0_57 V0, ← Bto0_57 V0]
  exact filt57_value (lev57 V0) b
/-- Feature 58 at the last level. -/
theorem feature58 (V0 : Valuation τ sig (Elt Ideal)) (b : Fin 128) :
    (lev64 V0 (Proc.devRef .tc main_v3474) : S128.Idx → EReal) (ix1 b)
      = ConvPool.feat (lev0 V0 (Proc.devRef .tc main_v7)) (lev0 V0 (Proc.devRef .tc main_arg2)) (lev0 V0 (Proc.devRef .tc main_arg3)) (ix2 b (⟨58, by decide⟩ : Fin 64)) := by
  rw [k58_64 V0]
  rw [← Eto0_58 V0, ← Wto0_58 V0, ← Bto0_58 V0]
  exact filt58_value (lev58 V0) b
/-- Feature 59 at the last level. -/
theorem feature59 (V0 : Valuation τ sig (Elt Ideal)) (b : Fin 128) :
    (lev64 V0 (Proc.devRef .tc main_v3577) : S128.Idx → EReal) (ix1 b)
      = ConvPool.feat (lev0 V0 (Proc.devRef .tc main_v7)) (lev0 V0 (Proc.devRef .tc main_arg2)) (lev0 V0 (Proc.devRef .tc main_arg3)) (ix2 b (⟨59, by decide⟩ : Fin 64)) := by
  rw [k59_64 V0]
  rw [← Eto0_59 V0, ← Wto0_59 V0, ← Bto0_59 V0]
  exact filt59_value (lev59 V0) b
/-- Feature 60 at the last level. -/
theorem feature60 (V0 : Valuation τ sig (Elt Ideal)) (b : Fin 128) :
    (lev64 V0 (Proc.devRef .tc main_v3683) : S128.Idx → EReal) (ix1 b)
      = ConvPool.feat (lev0 V0 (Proc.devRef .tc main_v7)) (lev0 V0 (Proc.devRef .tc main_arg2)) (lev0 V0 (Proc.devRef .tc main_arg3)) (ix2 b (⟨60, by decide⟩ : Fin 64)) := by
  rw [k60_64 V0]
  rw [← Eto0_60 V0, ← Wto0_60 V0, ← Bto0_60 V0]
  exact filt60_value (lev60 V0) b
/-- Feature 61 at the last level. -/
theorem feature61 (V0 : Valuation τ sig (Elt Ideal)) (b : Fin 128) :
    (lev64 V0 (Proc.devRef .tc main_v3789) : S128.Idx → EReal) (ix1 b)
      = ConvPool.feat (lev0 V0 (Proc.devRef .tc main_v7)) (lev0 V0 (Proc.devRef .tc main_arg2)) (lev0 V0 (Proc.devRef .tc main_arg3)) (ix2 b (⟨61, by decide⟩ : Fin 64)) := by
  rw [k61_64 V0]
  rw [← Eto0_61 V0, ← Wto0_61 V0, ← Bto0_61 V0]
  exact filt61_value (lev61 V0) b
/-- Feature 62 at the last level. -/
theorem feature62 (V0 : Valuation τ sig (Elt Ideal)) (b : Fin 128) :
    (lev64 V0 (Proc.devRef .tc main_v3898) : S128.Idx → EReal) (ix1 b)
      = ConvPool.feat (lev0 V0 (Proc.devRef .tc main_v7)) (lev0 V0 (Proc.devRef .tc main_arg2)) (lev0 V0 (Proc.devRef .tc main_arg3)) (ix2 b (⟨62, by decide⟩ : Fin 64)) := by
  rw [k62_64 V0]
  rw [← Eto0_62 V0, ← Wto0_62 V0, ← Bto0_62 V0]
  exact filt62_value (lev62 V0) b
/-- Feature 63 at the last level. -/
theorem feature63 (V0 : Valuation τ sig (Elt Ideal)) (b : Fin 128) :
    (lev64 V0 (Proc.devRef .tc main_v4007) : S128.Idx → EReal) (ix1 b)
      = ConvPool.feat (lev0 V0 (Proc.devRef .tc main_v7)) (lev0 V0 (Proc.devRef .tc main_arg2)) (lev0 V0 (Proc.devRef .tc main_arg3)) (ix2 b (⟨63, by decide⟩ : Fin 64)) := by
  rw [← Eto0_63 V0, ← Wto0_63 V0, ← Bto0_63 V0]
  exact filt63_value (lev63 V0) b

end Cert.ReferenceIdeal.RefRun

end
-- ==== Proof.LibConcat.lean ====
/-
  A `[128, 64]` array assembled from 64 columns: sixteen `[128, 1]` columns side by side make a `[128, 16]` block, four such
  blocks side by side make the array; column `n` of the array is column `n % 16` of block `n / 16`.
-/
import Idealize.ShloMosaic.PureOps.Ideal
import Idealize.ShloMosaic.Lib.ValueIdx
import Idealize.ShloMosaic.Lib.Pipeline.Value

noncomputable section

namespace ConvRead

open Idealize.ShloMosaic Idealize.ShloMosaic.ValueIdx

variable {α : Type}

/-- Sixteen columns side by side, read at `(b, r)`: column `r` at row `b`. -/
theorem concat16_cols_apply {a : ℕ} (u0 u1 u2 u3 u4 u5 u6 u7 u8 u9 u10 u11 u12 u13 u14 u15 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩, ⟨2, ![a, 1]⟩, ⟨2, ![a, 1]⟩] ⟨2, ![a, 16]⟩ 1)
    (b : Fin a) (r : Fin 16) :
    concatenate ⟨2, ![a, 16]⟩ 1 [⟨⟨2, ![a, 1]⟩, u0⟩, ⟨⟨2, ![a, 1]⟩, u1⟩, ⟨⟨2, ![a, 1]⟩, u2⟩, ⟨⟨2, ![a, 1]⟩, u3⟩, ⟨⟨2, ![a, 1]⟩, u4⟩, ⟨⟨2, ![a, 1]⟩, u5⟩,
        ⟨⟨2, ![a, 1]⟩, u6⟩, ⟨⟨2, ![a, 1]⟩, u7⟩, ⟨⟨2, ![a, 1]⟩, u8⟩, ⟨⟨2, ![a, 1]⟩, u9⟩, ⟨⟨2, ![a, 1]⟩, u10⟩, ⟨⟨2, ![a, 1]⟩, u11⟩, ⟨⟨2, ![a, 1]⟩, u12⟩,
        ⟨⟨2, ![a, 1]⟩, u13⟩, ⟨⟨2, ![a, 1]⟩, u14⟩, ⟨⟨2, ![a, 1]⟩, u15⟩] h (ix2 b r)
      = (![u0, u1, u2, u3, u4, u5, u6, u7, u8, u9, u10, u11, u12, u13, u14, u15] r) (ix2 b (0 : Fin 1)) := by
  refine concatenate_ofFn_unit_apply (t := ⟨2, ![a, 16]⟩) (s₁ := ⟨2, ![a, 1]⟩) 1
    (f := ![u0, u1, u2, u3, u4, u5, u6, u7, u8, u9, u10, u11, u12, u13, u14, u15]) h rfl rfl (ix2 b r) r rfl (ix2 b (0 : Fin 1)) fun c hc => ?_
  match c with
  | ⟨0, _⟩ => rfl
  | ⟨1, _⟩ => exact absurd rfl hc

/-- Four `[a, 16]` blocks side by side, read at `(b, n)`: block `n / 16` at `(b, n % 16)`. -/
theorem concat4_blocks_apply {a : ℕ} (w0 w1 w2 w3 : (⟨2, ![a, 16]⟩ : Shape).Idx → α)
    (h : Shape.Concatenates [(⟨2, ![a, 16]⟩ : Shape), ⟨2, ![a, 16]⟩, ⟨2, ![a, 16]⟩, ⟨2, ![a, 16]⟩] ⟨2, ![a, 64]⟩ 1)
    (b : Fin a) (n : Fin 64) :
    concatenate ⟨2, ![a, 64]⟩ 1 [⟨⟨2, ![a, 16]⟩, w0⟩, ⟨⟨2, ![a, 16]⟩, w1⟩, ⟨⟨2, ![a, 16]⟩, w2⟩, ⟨⟨2, ![a, 16]⟩, w3⟩] h (ix2 b n)
      = (![w0, w1, w2, w3] ⟨n.val / 16, by have := n.isLt; omega⟩) (ix2 b ⟨n.val % 16, Nat.mod_lt _ (by decide)⟩) := by
  refine concatenate_ofFn_apply (t := ⟨2, ![a, 64]⟩) (s₁ := ⟨2, ![a, 16]⟩) 1
    (f := ![w0, w1, w2, w3]) h rfl 16 rfl (ix2 b n) ⟨n.val / 16, by have := n.isLt; omega⟩ rfl
    (ix2 b ⟨n.val % 16, Nat.mod_lt _ (by decide)⟩) rfl fun c hc => ?_
  match c with
  | ⟨0, _⟩ => rfl
  | ⟨1, _⟩ => exact absurd rfl hc

end ConvRead

end
-- ==== Proof.RefValue.lean ====
/-
  The reference program read as values: its ten gathering operations leave the embedded sequences; each of its 64 filters leaves
  its feature vector, the specification's feature of that filter, and leaves everything read later in place; its closing operations
  put the 64 feature vectors side by side as the columns of one array (sixteen to a block, four blocks) and apply the linear layer
  and the logistic function.  So the result is the linear layer and logistic function of the specification's feature array of the
  embedded sequences, and the six arguments are unchanged.
-/
import proofs.«138672_j88897233092836_1_alg».proof.Proof.RefLevels
import proofs.«138672_j88897233092836_1_alg».proof.Proof.LibConcat

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.ValueIdx

/-! ## The two ends of the program as functions of its arguments -/

/-- The embedded sequences: row `s` of sequence `b` is the row of the table that token `x[b, 0, s]` names (a negative
    token counted from the table's end, as the program's select does; the gather itself clamps). -/
def embOf (x : IVec S128x1x512 32) (emb : FVec Ideal S50000x300 .f32) : FVec Ideal S128x512x300 .f32 :=
  Host.gather gather_S50000x300_S128x512x1_S128x512x300_2_0_n_n_0_2_1300 emb
    (broadcastInDim S128x512x1 ![0, 1] bcast_S128x512_S128x512x1_0_1
      (select (cmpi .slt (shapeCast S128x512 x shapeCasts_S128x1x512_S128x512) (broadcastInDim S128x512 ![] bcast_S_S128x512 (constantI S_ 32 0#32)))
        (addi (shapeCast S128x512 x shapeCasts_S128x1x512_S128x512) (broadcastInDim S128x512 ![] bcast_S_S128x512 (constantI S_ 32 50000#32)))
        (shapeCast S128x512 x shapeCasts_S128x1x512_S128x512)))

/-- The host operations after the kernel: features times the transposed weights, plus the bias, through the logistic
    function `1 / (1 + exp (-z))`. -/
def tail (feats : FVec Ideal S128x64 .f32) (wlin : FVec Ideal S1x64 .f32) (blin : FVec Ideal S1 .f32) : FVec Ideal S128x1 .f32 :=
  Host.divf (F := Ideal) (broadcastInDim S128x1 ![] bcast_S_S128x1 (constant (F := Ideal) S_ .f32 0x3F800000#32))
    (addf (broadcastInDim S128x1 ![] bcast_S_S128x1 (constant (F := Ideal) S_ .f32 0x3F800000#32))
      (Host.exp (F := Ideal) (Host.negf (F := Ideal)
        (addf (Host.dotGeneral (F := Ideal) dot_S128x64_S64x1_S128x1_1_0_0_1_n_n none feats (transpose S64x1 [1, 0] wlin transposes_S1x64_S64x1_1_0))
          (broadcastInDim S128x1 ![0, 1] bcast_S1x1_S128x1_0_1 (broadcastInDim S1x1 ![1] bcast_S1_S1x1_1 blin))))))

/-! ## The feature array from its 64 columns -/

/-- A feature vector as a column. -/
abbrev bcol (f : FVec Ideal S128 .f32) : FVec Ideal S128x1 .f32 := broadcastInDim S128x1 ![0] bcast_S128_S128x1_0 f

/-- A literal family of four read at an index. -/
theorem vec4_apply {β : Type} (f : Fin 4 → β) (q : Fin 4) : ![f 0, f 1, f 2, f 3] q = f q := by
  fin_cases q <;> rfl

/-- A literal family of sixteen read at an index. -/
theorem vec16_apply {β : Type} (f : Fin 16 → β) (r : Fin 16) :
    ![f 0, f 1, f 2, f 3, f 4, f 5, f 6, f 7, f 8, f 9, f 10, f 11, f 12, f 13, f 14, f 15] r = f r := by
  fin_cases r <;> rfl

/-- Sixteen feature vectors as columns side by side, read at `(b, r)`: vector `r` at `b`. -/
theorem block_apply (c : Fin 16 → FVec Ideal S128 .f32) (b : Fin 128) (r : Fin 16) :
    concatenate S128x16 1 [⟨S128x1, bcol (c 0)⟩, ⟨S128x1, bcol (c 1)⟩, ⟨S128x1, bcol (c 2)⟩, ⟨S128x1, bcol (c 3)⟩, ⟨S128x1, bcol (c 4)⟩,
        ⟨S128x1, bcol (c 5)⟩, ⟨S128x1, bcol (c 6)⟩, ⟨S128x1, bcol (c 7)⟩, ⟨S128x1, bcol (c 8)⟩, ⟨S128x1, bcol (c 9)⟩, ⟨S128x1, bcol (c 10)⟩,
        ⟨S128x1, bcol (c 11)⟩, ⟨S128x1, bcol (c 12)⟩, ⟨S128x1, bcol (c 13)⟩, ⟨S128x1, bcol (c 14)⟩, ⟨S128x1, bcol (c 15)⟩]
        concatenates_S128x1_S128x1_S128x1_S128x1_S128x1_S128x1_S128x1_S128x1_S128x1_S128x1_S128x1_S128x1_S128x1_S128x1_S128x1_S128x1_S128x16_d1
        (ix2 b r)
      = c r (ix1 b) := by
  refine (ConvRead.concat16_cols_apply (a := 128) _ _ _ _ _ _ _ _ _ _ _ _ _ _ _ _ _ b r).trans ?_
  rw [vec16_apply (fun r => bcol (c r)) r]
  exact ConvRead.broadcastInDim_a_a1_apply _ rfl _ _ b 0

/-- The array the reference assembles — sixteen columns to a block, four blocks side by side — read at `(b, n)`: feature vector
    `n` at `b`. Column `n` is column `n % 16` of block `n / 16`. -/
theorem assemble_apply (f : Fin 64 → FVec Ideal S128 .f32) (b : Fin 128) (n : Fin 64) :
    fn_main_v4076 (F := Ideal)
        (fn_main_v4072 (bcol (f 0)) (bcol (f 1)) (bcol (f 2)) (bcol (f 3)) (bcol (f 4)) (bcol (f 5)) (bcol (f 6)) (bcol (f 7)) (bcol (f 8)) (bcol (f 9)) (bcol (f 10)) (bcol (f 11)) (bcol (f 12)) (bcol (f 13)) (bcol (f 14)) (bcol (f 15)))
        (fn_main_v4073 (bcol (f 16)) (bcol (f 17)) (bcol (f 18)) (bcol (f 19)) (bcol (f 20)) (bcol (f 21)) (bcol (f 22)) (bcol (f 23)) (bcol (f 24)) (bcol (f 25)) (bcol (f 26)) (bcol (f 27)) (bcol (f 28)) (bcol (f 29)) (bcol (f 30)) (bcol (f 31)))
        (fn_main_v4074 (bcol (f 32)) (bcol (f 33)) (bcol (f 34)) (bcol (f 35)) (bcol (f 36)) (bcol (f 37)) (bcol (f 38)) (bcol (f 39)) (bcol (f 40)) (bcol (f 41)) (bcol (f 42)) (bcol (f 43)) (bcol (f 44)) (bcol (f 45)) (bcol (f 46)) (bcol (f 47)))
        (fn_main_v4075 (bcol (f 48)) (bcol (f 49)) (bcol (f 50)) (bcol (f 51)) (bcol (f 52)) (bcol (f 53)) (bcol (f 54)) (bcol (f 55)) (bcol (f 56)) (bcol (f 57)) (bcol (f 58)) (bcol (f 59)) (bcol (f 60)) (bcol (f 61)) (bcol (f 62)) (bcol (f 63)))
        (ix2 b n)
      = f n (ix1 b) := by
  obtain ⟨q, r, rfl⟩ : ∃ (q : Fin 4) (r : Fin 16), n = ⟨16 * q.val + r.val, by omega⟩ :=
    ⟨⟨n.val / 16, by omega⟩, ⟨n.val % 16, Nat.mod_lt _ (by decide)⟩, Fin.ext (by show n.val = 16 * (n.val / 16) + n.val % 16; omega)⟩
  unfold fn_main_v4076 fn_main_v4072 fn_main_v4073 fn_main_v4074 fn_main_v4075
  refine (ConvRead.concat4_blocks_apply (a := 128) _ _ _ _ _ b _).trans ?_
  have hd : (16 * q.val + r.val) / 16 = q.val := by omega
  have hm : (16 * q.val + r.val) % 16 = r.val := by omega
  simp only [hd, hm, Fin.eta]
  fin_cases q
  · exact block_apply (fun r => f ⟨16 * 0 + r.val, by omega⟩) b r
  · exact block_apply (fun r => f ⟨16 * 1 + r.val, by omega⟩) b r
  · exact block_apply (fun r => f ⟨16 * 2 + r.val, by omega⟩) b r
  · exact block_apply (fun r => f ⟨16 * 3 + r.val, by omega⟩) b r

/-- The 64 feature buffers' contents, in filter order. -/
def feats64 (V : Valuation τ sig (Elt Ideal)) : Fin 64 → FVec Ideal S128 .f32 :=
  ![
      V (Proc.devRef .tc main_v23), V (Proc.devRef .tc main_v39), V (Proc.devRef .tc main_v58), V (Proc.devRef .tc main_v77), V (Proc.devRef .tc main_v99), V (Proc.devRef .tc main_v121), V (Proc.devRef .tc main_v146), V (Proc.devRef .tc main_v171),
      V (Proc.devRef .tc main_v199), V (Proc.devRef .tc main_v227), V (Proc.devRef .tc main_v258), V (Proc.devRef .tc main_v289), V (Proc.devRef .tc main_v323), V (Proc.devRef .tc main_v357), V (Proc.devRef .tc main_v394), V (Proc.devRef .tc main_v431),
      V (Proc.devRef .tc main_v471), V (Proc.devRef .tc main_v511), V (Proc.devRef .tc main_v554), V (Proc.devRef .tc main_v597), V (Proc.devRef .tc main_v643), V (Proc.devRef .tc main_v689), V (Proc.devRef .tc main_v738), V (Proc.devRef .tc main_v787),
      V (Proc.devRef .tc main_v839), V (Proc.devRef .tc main_v891), V (Proc.devRef .tc main_v946), V (Proc.devRef .tc main_v1001), V (Proc.devRef .tc main_v1059), V (Proc.devRef .tc main_v1117), V (Proc.devRef .tc main_v1178), V (Proc.devRef .tc main_v1239),
      V (Proc.devRef .tc main_v1303), V (Proc.devRef .tc main_v1367), V (Proc.devRef .tc main_v1434), V (Proc.devRef .tc main_v1501), V (Proc.devRef .tc main_v1571), V (Proc.devRef .tc main_v1641), V (Proc.devRef .tc main_v1714), V (Proc.devRef .tc main_v1787),
      V (Proc.devRef .tc main_v1863), V (Proc.devRef .tc main_v1939), V (Proc.devRef .tc main_v2018), V (Proc.devRef .tc main_v2097), V (Proc.devRef .tc main_v2179), V (Proc.devRef .tc main_v2261), V (Proc.devRef .tc main_v2346), V (Proc.devRef .tc main_v2431),
      V (Proc.devRef .tc main_v2519), V (Proc.devRef .tc main_v2607), V (Proc.devRef .tc main_v2698), V (Proc.devRef .tc main_v2789), V (Proc.devRef .tc main_v2883), V (Proc.devRef .tc main_v2977), V (Proc.devRef .tc main_v3074), V (Proc.devRef .tc main_v3171),
      V (Proc.devRef .tc main_v3271), V (Proc.devRef .tc main_v3371), V (Proc.devRef .tc main_v3474), V (Proc.devRef .tc main_v3577), V (Proc.devRef .tc main_v3683), V (Proc.devRef .tc main_v3789), V (Proc.devRef .tc main_v3898), V (Proc.devRef .tc main_v4007)]

/-- The array the closing operations assemble from the 64 feature buffers. -/
def assembled (V : Valuation τ sig (Elt Ideal)) : FVec Ideal S128x64 .f32 :=
  fn_main_v4076 (F := Ideal)
    (fn_main_v4072 (bcol (V (Proc.devRef .tc main_v23))) (bcol (V (Proc.devRef .tc main_v39))) (bcol (V (Proc.devRef .tc main_v58))) (bcol (V (Proc.devRef .tc main_v77))) (bcol (V (Proc.devRef .tc main_v99))) (bcol (V (Proc.devRef .tc main_v121))) (bcol (V (Proc.devRef .tc main_v146))) (bcol (V (Proc.devRef .tc main_v171))) (bcol (V (Proc.devRef .tc main_v199))) (bcol (V (Proc.devRef .tc main_v227))) (bcol (V (Proc.devRef .tc main_v258))) (bcol (V (Proc.devRef .tc main_v289))) (bcol (V (Proc.devRef .tc main_v323))) (bcol (V (Proc.devRef .tc main_v357))) (bcol (V (Proc.devRef .tc main_v394))) (bcol (V (Proc.devRef .tc main_v431))))
    (fn_main_v4073 (bcol (V (Proc.devRef .tc main_v471))) (bcol (V (Proc.devRef .tc main_v511))) (bcol (V (Proc.devRef .tc main_v554))) (bcol (V (Proc.devRef .tc main_v597))) (bcol (V (Proc.devRef .tc main_v643))) (bcol (V (Proc.devRef .tc main_v689))) (bcol (V (Proc.devRef .tc main_v738))) (bcol (V (Proc.devRef .tc main_v787))) (bcol (V (Proc.devRef .tc main_v839))) (bcol (V (Proc.devRef .tc main_v891))) (bcol (V (Proc.devRef .tc main_v946))) (bcol (V (Proc.devRef .tc main_v1001))) (bcol (V (Proc.devRef .tc main_v1059))) (bcol (V (Proc.devRef .tc main_v1117))) (bcol (V (Proc.devRef .tc main_v1178))) (bcol (V (Proc.devRef .tc main_v1239))))
    (fn_main_v4074 (bcol (V (Proc.devRef .tc main_v1303))) (bcol (V (Proc.devRef .tc main_v1367))) (bcol (V (Proc.devRef .tc main_v1434))) (bcol (V (Proc.devRef .tc main_v1501))) (bcol (V (Proc.devRef .tc main_v1571))) (bcol (V (Proc.devRef .tc main_v1641))) (bcol (V (Proc.devRef .tc main_v1714))) (bcol (V (Proc.devRef .tc main_v1787))) (bcol (V (Proc.devRef .tc main_v1863))) (bcol (V (Proc.devRef .tc main_v1939))) (bcol (V (Proc.devRef .tc main_v2018))) (bcol (V (Proc.devRef .tc main_v2097))) (bcol (V (Proc.devRef .tc main_v2179))) (bcol (V (Proc.devRef .tc main_v2261))) (bcol (V (Proc.devRef .tc main_v2346))) (bcol (V (Proc.devRef .tc main_v2431))))
    (fn_main_v4075 (bcol (V (Proc.devRef .tc main_v2519))) (bcol (V (Proc.devRef .tc main_v2607))) (bcol (V (Proc.devRef .tc main_v2698))) (bcol (V (Proc.devRef .tc main_v2789))) (bcol (V (Proc.devRef .tc main_v2883))) (bcol (V (Proc.devRef .tc main_v2977))) (bcol (V (Proc.devRef .tc main_v3074))) (bcol (V (Proc.devRef .tc main_v3171))) (bcol (V (Proc.devRef .tc main_v3271))) (bcol (V (Proc.devRef .tc main_v3371))) (bcol (V (Proc.devRef .tc main_v3474))) (bcol (V (Proc.devRef .tc main_v3577))) (bcol (V (Proc.devRef .tc main_v3683))) (bcol (V (Proc.devRef .tc main_v3789))) (bcol (V (Proc.devRef .tc main_v3898))) (bcol (V (Proc.devRef .tc main_v4007))))

/-- The assembled array is any array `G` whose column `n` is feature buffer `n`. -/
theorem assembled_eq_of (V : Valuation τ sig (Elt Ideal)) (G : FVec Ideal S128x64 .f32)
    (h : ∀ (n : Fin 64) (b : Fin 128), feats64 V n (ix1 b) = G (ix2 b n)) : assembled V = G := by
  funext idx
  obtain ⟨b, n, rfl⟩ : ∃ (b : Fin 128) (n : Fin 64), idx = ix2 b n := ⟨idx 0, idx 1, eq_ix2 idx⟩
  exact (assemble_apply (feats64 V) b n).trans (h n b)

/-- A property of every entry of the family of feature buffers follows from the property of each of the 64 buffers. -/
theorem feats64_cases (V : Valuation τ sig (Elt Ideal)) (P : Fin 64 → FVec Ideal S128 .f32 → Prop)
    (h0 : P ⟨0, by decide⟩ (V (Proc.devRef .tc main_v23))) (h1 : P ⟨1, by decide⟩ (V (Proc.devRef .tc main_v39)))
    (h2 : P ⟨2, by decide⟩ (V (Proc.devRef .tc main_v58))) (h3 : P ⟨3, by decide⟩ (V (Proc.devRef .tc main_v77)))
    (h4 : P ⟨4, by decide⟩ (V (Proc.devRef .tc main_v99))) (h5 : P ⟨5, by decide⟩ (V (Proc.devRef .tc main_v121)))
    (h6 : P ⟨6, by decide⟩ (V (Proc.devRef .tc main_v146))) (h7 : P ⟨7, by decide⟩ (V (Proc.devRef .tc main_v171)))
    (h8 : P ⟨8, by decide⟩ (V (Proc.devRef .tc main_v199))) (h9 : P ⟨9, by decide⟩ (V (Proc.devRef .tc main_v227)))
    (h10 : P ⟨10, by decide⟩ (V (Proc.devRef .tc main_v258))) (h11 : P ⟨11, by decide⟩ (V (Proc.devRef .tc main_v289)))
    (h12 : P ⟨12, by decide⟩ (V (Proc.devRef .tc main_v323))) (h13 : P ⟨13, by decide⟩ (V (Proc.devRef .tc main_v357)))
    (h14 : P ⟨14, by decide⟩ (V (Proc.devRef .tc main_v394))) (h15 : P ⟨15, by decide⟩ (V (Proc.devRef .tc main_v431)))
    (h16 : P ⟨16, by decide⟩ (V (Proc.devRef .tc main_v471))) (h17 : P ⟨17, by decide⟩ (V (Proc.devRef .tc main_v511)))
    (h18 : P ⟨18, by decide⟩ (V (Proc.devRef .tc main_v554))) (h19 : P ⟨19, by decide⟩ (V (Proc.devRef .tc main_v597)))
    (h20 : P ⟨20, by decide⟩ (V (Proc.devRef .tc main_v643))) (h21 : P ⟨21, by decide⟩ (V (Proc.devRef .tc main_v689)))
    (h22 : P ⟨22, by decide⟩ (V (Proc.devRef .tc main_v738))) (h23 : P ⟨23, by decide⟩ (V (Proc.devRef .tc main_v787)))
    (h24 : P ⟨24, by decide⟩ (V (Proc.devRef .tc main_v839))) (h25 : P ⟨25, by decide⟩ (V (Proc.devRef .tc main_v891)))
    (h26 : P ⟨26, by decide⟩ (V (Proc.devRef .tc main_v946))) (h27 : P ⟨27, by decide⟩ (V (Proc.devRef .tc main_v1001)))
    (h28 : P ⟨28, by decide⟩ (V (Proc.devRef .tc main_v1059))) (h29 : P ⟨29, by decide⟩ (V (Proc.devRef .tc main_v1117)))
    (h30 : P ⟨30, by decide⟩ (V (Proc.devRef .tc main_v1178))) (h31 : P ⟨31, by decide⟩ (V (Proc.devRef .tc main_v1239)))
    (h32 : P ⟨32, by decide⟩ (V (Proc.devRef .tc main_v1303))) (h33 : P ⟨33, by decide⟩ (V (Proc.devRef .tc main_v1367)))
    (h34 : P ⟨34, by decide⟩ (V (Proc.devRef .tc main_v1434))) (h35 : P ⟨35, by decide⟩ (V (Proc.devRef .tc main_v1501)))
    (h36 : P ⟨36, by decide⟩ (V (Proc.devRef .tc main_v1571))) (h37 : P ⟨37, by decide⟩ (V (Proc.devRef .tc main_v1641)))
    (h38 : P ⟨38, by decide⟩ (V (Proc.devRef .tc main_v1714))) (h39 : P ⟨39, by decide⟩ (V (Proc.devRef .tc main_v1787)))
    (h40 : P ⟨40, by decide⟩ (V (Proc.devRef .tc main_v1863))) (h41 : P ⟨41, by decide⟩ (V (Proc.devRef .tc main_v1939)))
    (h42 : P ⟨42, by decide⟩ (V (Proc.devRef .tc main_v2018))) (h43 : P ⟨43, by decide⟩ (V (Proc.devRef .tc main_v2097)))
    (h44 : P ⟨44, by decide⟩ (V (Proc.devRef .tc main_v2179))) (h45 : P ⟨45, by decide⟩ (V (Proc.devRef .tc main_v2261)))
    (h46 : P ⟨46, by decide⟩ (V (Proc.devRef .tc main_v2346))) (h47 : P ⟨47, by decide⟩ (V (Proc.devRef .tc main_v2431)))
    (h48 : P ⟨48, by decide⟩ (V (Proc.devRef .tc main_v2519))) (h49 : P ⟨49, by decide⟩ (V (Proc.devRef .tc main_v2607)))
    (h50 : P ⟨50, by decide⟩ (V (Proc.devRef .tc main_v2698))) (h51 : P ⟨51, by decide⟩ (V (Proc.devRef .tc main_v2789)))
    (h52 : P ⟨52, by decide⟩ (V (Proc.devRef .tc main_v2883))) (h53 : P ⟨53, by decide⟩ (V (Proc.devRef .tc main_v2977)))
    (h54 : P ⟨54, by decide⟩ (V (Proc.devRef .tc main_v3074))) (h55 : P ⟨55, by decide⟩ (V (Proc.devRef .tc main_v3171)))
    (h56 : P ⟨56, by decide⟩ (V (Proc.devRef .tc main_v3271))) (h57 : P ⟨57, by decide⟩ (V (Proc.devRef .tc main_v3371)))
    (h58 : P ⟨58, by decide⟩ (V (Proc.devRef .tc main_v3474))) (h59 : P ⟨59, by decide⟩ (V (Proc.devRef .tc main_v3577)))
    (h60 : P ⟨60, by decide⟩ (V (Proc.devRef .tc main_v3683))) (h61 : P ⟨61, by decide⟩ (V (Proc.devRef .tc main_v3789)))
    (h62 : P ⟨62, by decide⟩ (V (Proc.devRef .tc main_v3898))) (h63 : P ⟨63, by decide⟩ (V (Proc.devRef .tc main_v4007))) :
    ∀ n : Fin 64, P n (feats64 V n) := by
  intro n
  fin_cases n
  exacts [
    h0, h1, h2, h3, h4, h5, h6, h7, h8, h9, h10, h11, h12, h13, h14, h15,
    h16, h17, h18, h19, h20, h21, h22, h23, h24, h25, h26, h27, h28, h29, h30, h31,
    h32, h33, h34, h35, h36, h37, h38, h39, h40, h41, h42, h43, h44, h45, h46, h47,
    h48, h49, h50, h51, h52, h53, h54, h55, h56, h57, h58, h59, h60, h61, h62, h63]

/-! ## The gathering operations -/

section Writes
variable {F : FTy → Type} [FloatOps F]

/-- The buffers the gathering operations write. -/
abbrev pre_W : List (Ref sig .tc) := [main_v0, main_c, main_v1, main_v2, main_c_0, main_v3, main_v4, main_v5, main_v6, main_v7]

set_option maxRecDepth 8192 in
theorem pre_writes : (pre : List (HloOp τ sig (Elt F))).Forall fun op => op.writes ⊆ (pre_W.map (Proc.devRef (τ := τ) .tc)).toFinset := by
  simp only [pre, seg0, List.Forall]
  repeat' apply And.intro
  all_goals
    simp only [nullary_writes, unary_writes, binary_writes, ternary_writes, quaternary_writes, reshape_writes, binaryIndexed_writes,
      nary_writes, unaryIndexed_writes, Finset.singleton_subset_iff, List.mem_toFinset]
    exact List.mem_map_of_mem (by decide)

/-- A buffer the gathering operations do not write keeps its contents through them. -/
theorem pre_keep (V : Valuation τ sig (Elt F)) {r : Ref sig .tc} (h : r ∉ pre_W) :
    after pre V (no_index (Proc.devRef .tc r)) = V (Proc.devRef .tc r) :=
  after_of_writes_sub pre _ pre_writes h

/-- The buffers the closing operations write. -/
abbrev suf_W : List (Ref sig .tc) := [
    main_v4008, main_v4009, main_v4010, main_v4011, main_v4012, main_v4013, main_v4014, main_v4015, main_v4016, main_v4017, main_v4018, main_v4019,
    main_v4020, main_v4021, main_v4022, main_v4023, main_v4024, main_v4025, main_v4026, main_v4027, main_v4028, main_v4029, main_v4030, main_v4031,
    main_v4032, main_v4033, main_v4034, main_v4035, main_v4036, main_v4037, main_v4038, main_v4039, main_v4040, main_v4041, main_v4042, main_v4043,
    main_v4044, main_v4045, main_v4046, main_v4047, main_v4048, main_v4049, main_v4050, main_v4051, main_v4052, main_v4053, main_v4054, main_v4055,
    main_v4056, main_v4057, main_v4058, main_v4059, main_v4060, main_v4061, main_v4062, main_v4063, main_v4064, main_v4065, main_v4066, main_v4067,
    main_v4068, main_v4069, main_v4070, main_v4071, main_v4072, main_v4073, main_v4074, main_v4075, main_v4076, main_v4077, main_v4078, main_v4079,
    main_v4080, main_v4081, main_v4082, main_v4083, main_cst_128, main_v4084, main_v4085, main_cst_129, main_v4086, main_v4087]

set_option maxRecDepth 8192 in
theorem suf_writes : (suf : List (HloOp τ sig (Elt F))).Forall fun op => op.writes ⊆ (suf_W.map (Proc.devRef (τ := τ) .tc)).toFinset := by
  simp only [suf, seg133, seg134, seg135, List.cons_append, List.nil_append, List.append_nil, List.Forall]
  repeat' apply And.intro
  all_goals
    simp only [nullary_writes, unary_writes, binary_writes, ternary_writes, quaternary_writes, reshape_writes, binaryIndexed_writes,
      nary_writes, unaryIndexed_writes, Finset.singleton_subset_iff, List.mem_toFinset]
    exact List.mem_map_of_mem (by decide)

/-- A buffer the closing operations do not write keeps its contents through them. -/
theorem suf_keep (V : Valuation τ sig (Elt F)) {r : Ref sig .tc} (h : r ∉ suf_W) :
    after suf V (no_index (Proc.devRef .tc r)) = V (Proc.devRef .tc r) :=
  after_of_writes_sub suf _ suf_writes h

end Writes

/-- After the gathering operations the sequence buffer holds the embedded sequences of the token and table arguments. -/
theorem pre_value (V0 : Valuation τ sig (Elt Ideal)) :
    (after (pre (F := Ideal)) V0 (no_index (Proc.devRef .tc main_v7)) : S128x512x300.Idx → EReal)
      = embOf (V0 (Proc.devRef .tc main_arg0)) (V0 (Proc.devRef .tc main_arg1)) := by
  simp only [pre, seg0]
  after_results
  rfl

set_option maxRecDepth 8192 in
set_option maxHeartbeats 2000000 in
/-- After the closing operations the result buffer holds the linear layer and logistic function of the assembled array. -/
theorem suf_value (V : Valuation τ sig (Elt Ideal)) :
    (after (suf (F := Ideal)) V (no_index (Proc.devRef .tc main_v4087)) : S128x1.Idx → EReal)
      = tail (assembled V) (V (Proc.devRef .tc main_arg4)) (V (Proc.devRef .tc main_arg5)) := by
  simp only [suf, seg133, seg134, seg135, List.cons_append, List.nil_append, List.append_nil]
  after_results_simp
  try dsimp only [Matrix.cons_val]
  try after_results_simp
  try dsimp only [Matrix.cons_val]
  try after_results_simp
  rfl

/-! ## The whole program -/

/-- The assembled array at the last level is the specification's feature array of the embedded sequences, the filter table and the
    bias vector: column `n` is filter `n`'s feature buffer, which holds the specification's feature `n`. -/
theorem assembled_lev64 (V0 : Valuation τ sig (Elt Ideal)) :
    assembled (lev64 V0)
      = ConvPool.feat (lev0 V0 (Proc.devRef .tc main_v7)) (lev0 V0 (Proc.devRef .tc main_arg2)) (lev0 V0 (Proc.devRef .tc main_arg3)) :=
  assembled_eq_of (lev64 V0) _
    (feats64_cases (lev64 V0)
      (fun n f => ∀ b : Fin 128, f (ix1 b)
        = ConvPool.feat (lev0 V0 (Proc.devRef .tc main_v7)) (lev0 V0 (Proc.devRef .tc main_arg2)) (lev0 V0 (Proc.devRef .tc main_arg3)) (ix2 b n))
      (feature0 V0) (feature1 V0) (feature2 V0) (feature3 V0) (feature4 V0) (feature5 V0) (feature6 V0) (feature7 V0)
      (feature8 V0) (feature9 V0) (feature10 V0) (feature11 V0) (feature12 V0) (feature13 V0) (feature14 V0) (feature15 V0)
      (feature16 V0) (feature17 V0) (feature18 V0) (feature19 V0) (feature20 V0) (feature21 V0) (feature22 V0) (feature23 V0)
      (feature24 V0) (feature25 V0) (feature26 V0) (feature27 V0) (feature28 V0) (feature29 V0) (feature30 V0) (feature31 V0)
      (feature32 V0) (feature33 V0) (feature34 V0) (feature35 V0) (feature36 V0) (feature37 V0) (feature38 V0) (feature39 V0)
      (feature40 V0) (feature41 V0) (feature42 V0) (feature43 V0) (feature44 V0) (feature45 V0) (feature46 V0) (feature47 V0)
      (feature48 V0) (feature49 V0) (feature50 V0) (feature51 V0) (feature52 V0) (feature53 V0) (feature54 V0) (feature55 V0)
      (feature56 V0) (feature57 V0) (feature58 V0) (feature59 V0) (feature60 V0) (feature61 V0) (feature62 V0) (feature63 V0))

/-- The closing function respects equality of its three arguments. -/
theorem tail_congr {f f' : FVec Ideal S128x64 .f32} {w w' : FVec Ideal S1x64 .f32} {c c' : FVec Ideal S1 .f32}
    (hf : f = f') (hw : w = w') (hc : c = c') : tail f w c = tail f' w' c' := by
  subst hf hw hc; rfl

/-- The specification's features respect equality of their three arguments. -/
theorem feat_congr {E E' : ConvPool.SE.Idx → EReal} {W W' : ConvPool.SW.Idx → EReal} {B B' : ConvPool.SB.Idx → EReal}
    (hE : E = E') (hW : W = W') (hB : B = B') : ConvPool.feat E W B = ConvPool.feat E' W' B' := by
  subst hE hW hB; rfl

/-- What the result buffer holds after all the operations, as a function of the six arguments. -/
theorem out_value (V0 : Valuation τ sig (Elt Ideal)) :
    (after (ops (F := Ideal)) V0 (Proc.devRef .tc main_v4087) : S128x1.Idx → EReal)
      = tail (ConvPool.feat (embOf (V0 (Proc.devRef .tc main_arg0)) (V0 (Proc.devRef .tc main_arg1)))
            (V0 (Proc.devRef .tc main_arg2)) (V0 (Proc.devRef .tc main_arg3)))
          (V0 (Proc.devRef .tc main_arg4)) (V0 (Proc.devRef .tc main_arg5)) := by
  have hE : lev0 V0 (Proc.devRef .tc main_v7) = embOf (V0 (Proc.devRef .tc main_arg0)) (V0 (Proc.devRef .tc main_arg1)) := pre_value V0
  have hW : lev0 V0 (Proc.devRef .tc main_arg2) = V0 (Proc.devRef .tc main_arg2) := pre_keep V0 (r := main_arg2) (by decide)
  have hB : lev0 V0 (Proc.devRef .tc main_arg3) = V0 (Proc.devRef .tc main_arg3) := pre_keep V0 (r := main_arg3) (by decide)
  have hL : lev64 V0 (Proc.devRef .tc main_arg4) = V0 (Proc.devRef .tc main_arg4) :=
    (Lto0_64 V0).trans (pre_keep V0 (r := main_arg4) (by decide))
  have hC : lev64 V0 (Proc.devRef .tc main_arg5) = V0 (Proc.devRef .tc main_arg5) :=
    (Cto0_64 V0).trans (pre_keep V0 (r := main_arg5) (by decide))
  rw [ops_eq, after_chunked]
  exact (suf_value (lev64 V0)).trans (tail_congr ((assembled_lev64 V0).trans (feat_congr hE hW hB)) hL hC)

/-- Argument `main_arg0` is written by no operation. -/
theorem main_arg0_value (V0 : Valuation τ sig (Elt Ideal)) :
    after (ops (F := Ideal)) V0 (Proc.devRef .tc main_arg0) = V0 (Proc.devRef .tc main_arg0) := by
  rw [ops_eq, after_chunked]
  exact (suf_keep (lev64 V0) (r := main_arg0) (by decide)).trans ((Xto0_64 V0).trans (pre_keep V0 (r := main_arg0) (by decide)))

/-- Argument `main_arg1` is written by no operation. -/
theorem main_arg1_value (V0 : Valuation τ sig (Elt Ideal)) :
    after (ops (F := Ideal)) V0 (Proc.devRef .tc main_arg1) = V0 (Proc.devRef .tc main_arg1) := by
  rw [ops_eq, after_chunked]
  exact (suf_keep (lev64 V0) (r := main_arg1) (by decide)).trans ((Mto0_64 V0).trans (pre_keep V0 (r := main_arg1) (by decide)))

/-- Argument `main_arg2` is written by no operation. -/
theorem main_arg2_value (V0 : Valuation τ sig (Elt Ideal)) :
    after (ops (F := Ideal)) V0 (Proc.devRef .tc main_arg2) = V0 (Proc.devRef .tc main_arg2) := by
  rw [ops_eq, after_chunked]
  exact (suf_keep (lev64 V0) (r := main_arg2) (by decide)).trans ((Wto0_64 V0).trans (pre_keep V0 (r := main_arg2) (by decide)))

/-- Argument `main_arg3` is written by no operation. -/
theorem main_arg3_value (V0 : Valuation τ sig (Elt Ideal)) :
    after (ops (F := Ideal)) V0 (Proc.devRef .tc main_arg3) = V0 (Proc.devRef .tc main_arg3) := by
  rw [ops_eq, after_chunked]
  exact (suf_keep (lev64 V0) (r := main_arg3) (by decide)).trans ((Bto0_64 V0).trans (pre_keep V0 (r := main_arg3) (by decide)))

/-- Argument `main_arg4` is written by no operation. -/
theorem main_arg4_value (V0 : Valuation τ sig (Elt Ideal)) :
    after (ops (F := Ideal)) V0 (Proc.devRef .tc main_arg4) = V0 (Proc.devRef .tc main_arg4) := by
  rw [ops_eq, after_chunked]
  exact (suf_keep (lev64 V0) (r := main_arg4) (by decide)).trans ((Lto0_64 V0).trans (pre_keep V0 (r := main_arg4) (by decide)))

/-- Argument `main_arg5` is written by no operation. -/
theorem main_arg5_value (V0 : Valuation τ sig (Elt Ideal)) :
    after (ops (F := Ideal)) V0 (Proc.devRef .tc main_arg5) = V0 (Proc.devRef .tc main_arg5) := by
  rw [ops_eq, after_chunked]
  exact (suf_keep (lev64 V0) (r := main_arg5) (by decide)).trans ((Cto0_64 V0).trans (pre_keep V0 (r := main_arg5) (by decide)))

/-- On every device, from any memory with zero counters: every weakly fair execution of the reference terminates with the result
    buffer at the linear layer and logistic function of the specification's features of the arguments, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4087)
        = tail (ConvPool.feat (embOf (m ((c.tc : Thread nD τ).loc main_arg0)) (m ((c.tc : Thread nD τ).loc main_arg1)))
              (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v4087).trans (out_value (launchContents m c)),
      (h c main_arg0).trans (main_arg0_value (launchContents m c)),
      (h c main_arg1).trans (main_arg1_value (launchContents m c)),
      (h c main_arg2).trans (main_arg2_value (launchContents m c)),
      (h c main_arg3).trans (main_arg3_value (launchContents m c)),
      (h c main_arg4).trans (main_arg4_value (launchContents m c)),
      (h c main_arg5).trans (main_arg5_value (launchContents m c))⟩)
    (run_after m ρ)

end Cert.ReferenceIdeal.RefRun

end
-- ==== Proof.lean ====
/-
  A text classifier's convolution-and-pooling stage, computed two ways, and why the two results are equal.

  Each of 128 token sequences of length 512 is embedded row by row from a table of 300-vectors; 64 filters slide along it,
  filter `i` having `k i = i / 2 + 2` rows of 300 weights; a filter's response at position `l` is the sum over its rows `j`
  and the 300 coordinates of (embedded row `l + j`) · (weight row `j`), plus a bias; the feature of (sequence, filter) is the
  largest `tanh` of the response over the positions `l < 513 - k i` at which the whole filter lies inside the sequence. A
  linear layer and the logistic function `1 / (1 + exp (-z))` turn the 64 features of a sequence into one number.

  One program computes the features exactly so, filter by filter. The other pads every sequence with 32 zero rows, runs
  all 33 taps for every filter with the rows `j ≥ k i` of the filter multiplied by zero, and replaces the value at the
  positions `l ≥ 513 - k i` by `-1` through `m · (t + 1) - 1` with `m ∈ {0, 1}`, before taking the largest value over all
  512 positions. On the extended reals a product with zero is zero and with one is the other factor, whatever that factor,
  so the 33 masked taps are the filter's own `k i` taps; `tanh` of an extended real is a real number, so `(t + 1) - 1 = t`;
  and `tanh ≥ -1`, so the positions replaced by `-1` do not change the largest value, there being at least one position
  that is kept. Hence both feature arrays are the one function `ConvPool.feat` of the argument arrays (Proof/Spec.lean
  `featK_eq_feat`), and the linear layer and the logistic function after them are the same operations in both programs.

  The three programs run to the end with their arguments unchanged: for the two kernels this is the generated frame
  certificate, for the reference it is the first half of what its run, read as values, says. The idealized kernel is the
  kernel's own text read over the extended reals: no operation was rewritten, so there is nothing to preserve.
-/
import proofs.«138672_j88897233092836_1_alg».proof.Defs
import proofs.«138672_j88897233092836_1_alg».proof.Proof.Gen.Kernel
import proofs.«138672_j88897233092836_1_alg».proof.Proof.Gen.Kernel.Skeleton
import proofs.«138672_j88897233092836_1_alg».proof.Proof.Gen.Kernel.Launch
import proofs.«138672_j88897233092836_1_alg».proof.Proof.Gen.Kernel.Points
import proofs.«138672_j88897233092836_1_alg».proof.Proof.Gen.Kernel.Frame
import proofs.«138672_j88897233092836_1_alg».proof.Proof.Gen.KernelIdeal
import proofs.«138672_j88897233092836_1_alg».proof.Proof.Gen.KernelIdeal.Skeleton
import proofs.«138672_j88897233092836_1_alg».proof.Proof.Gen.KernelIdeal.Launch
import proofs.«138672_j88897233092836_1_alg».proof.Proof.Gen.KernelIdeal.Points
import proofs.«138672_j88897233092836_1_alg».proof.Proof.Gen.KernelIdeal.Frame
import proofs.«138672_j88897233092836_1_alg».proof.Proof.Gen.ReferenceIdeal
import proofs.«138672_j88897233092836_1_alg».proof.Proof.Gen.Pre_finite_inputs
import Idealize.ShloMosaic.Adequacy
import Idealize.ShloMosaic.Init
import proofs.«138672_j88897233092836_1_alg».proof.Proof.KFinal
import proofs.«138672_j88897233092836_1_alg».proof.Proof.RefValue

noncomputable section

namespace Cert.Proof

open Idealize.ShloMosaic Idealize.SL.Sem Cert.Kernel

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs to the end with its arguments unchanged: what its run says, less the result's value. -/
theorem frame_ri : Cert.frame_ReferenceIdeal := fun m ρ _ =>
  (θ_run Cert.ReferenceIdeal.defs _ _).mono (fun _ h c => (h c).2) (Cert.ReferenceIdeal.RefRun.ref_run m ρ)

/-- No operation was rewritten between the kernel and its reading over the extended reals. -/
theorem preserves : Cert.preserves_Kernel_KernelIdeal := trivial

/-- The two programs embed the tokens by one function of the token array and the table … -/
theorem embOf_eq : Cert.ReferenceIdeal.RefRun.embOf = Cert.KernelIdeal.Host.embOf := rfl

/-- … and apply one linear layer and logistic function to the features. -/
theorem tail_eq : Cert.ReferenceIdeal.RefRun.tail = Cert.KernelIdeal.Final.tail := rfl

/-- Over the extended reals, from memories that agree on the six arguments, both programs end with the logistic function
    of the linear layer of `ConvPool.feat` of the embedded sequences, the filters and the biases: the kernel's run read
    as values gives this for the kernel, the reference's for the reference, and the arguments are equal. -/
theorem algebraic : Cert.algebraic_KernelIdeal_ReferenceIdeal := by
  intro m ρ m' ρ' _ hagree
  refine ⟨fun c => Cert.KernelIdeal.Final.tail (Cert.KernelIdeal.Final.feats m c)
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run_value m ρ, ?_⟩
  refine (θ_run Cert.ReferenceIdeal.defs _ _).mono (fun _ h c => ⟨(h c).1.trans ?_, (h c).2⟩)
    (Cert.ReferenceIdeal.RefRun.ref_run m' ρ')
  rw [(hagree c).1, (hagree c).2.1, (hagree c).2.2.1, (hagree c).2.2.2.1, (hagree c).2.2.2.2.1, (hagree c).2.2.2.2.2,
    embOf_eq, tail_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
